-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x4096x3 : Shape := ⟨3, ![8, 4096, 3]⟩
abbrev S8x4096x20 : Shape := ⟨3, ![8, 4096, 20]⟩
abbrev S64x6 : Shape := ⟨2, ![64, 6]⟩
abbrev S64 : Shape := ⟨1, ![64]⟩
abbrev S64x64 : Shape := ⟨2, ![64, 64]⟩
abbrev S128x64 : Shape := ⟨2, ![128, 64]⟩
abbrev S128 : Shape := ⟨1, ![128]⟩
abbrev S512x256 : Shape := ⟨2, ![512, 256]⟩
abbrev S512 : Shape := ⟨1, ![512]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S8x4096x20 : S_.BroadcastsInDim S8x4096x20 (![] : Fin 0 → Fin S8x4096x20.rank)
  reducesTo_S8x4096x20_S_d0_1_2 : S8x4096x20.ReducesTo [0, 1, 2] S_

variable [Facts]

def fn_part2 {F : FTy → Type} [FloatOps F] (main_arg1 : IVec S8x4096x20 32) (main_arg8 : FVec F S512x256 .f32) (main_arg9 : FVec F S512 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_c_16 : IVec S_ 32 := constantI S_ 32 0#32
  let main_v44 : IVec S8x4096x20 32 := broadcastInDim S8x4096x20 ![] bcast_S_S8x4096x20 main_c_16
  let main_v45 : IVec S8x4096x20 1 := cmpi .sge main_arg1 main_v44
  let main_c_17 : IVec S_ 32 := constantI S_ 32 4095#32
  let main_v46 : IVec S8x4096x20 32 := broadcastInDim S8x4096x20 ![] bcast_S_S8x4096x20 main_c_17
  let main_v47 : IVec S8x4096x20 1 := cmpi .sle main_arg1 main_v46
  let main_v48 : IVec S8x4096x20 1 := andi main_v45 main_v47
  let main_c_18 : IVec S_ 1 := constantI S_ 1 1#1
  let main_v49 : IVec S_ 1 := (fun x v => Host.reduce IntOp.andi x v reducesTo_S8x4096x20_S_d0_1_2 h_S_) main_v48 main_c_18
  let main_v50 : IVec S_ 1 := andi main_v43 main_v49
  main_v50

def fn_part1 {F : FTy → Type} [FloatOps F] (main_arg1 : IVec S8x4096x20 32) (main_arg5 : FVec F S64 .f32) (main_arg6 : FVec F S128x64 .f32) (main_arg7 : FVec F S128 .f32) (main_arg8 : FVec F S512x256 .f32) (main_arg9 : FVec F S512 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S8x4096x3 .f32) (main_arg1 : IVec S8x4096x20 32) (main_arg2 : FVec F S64x6 .f32) (main_arg3 : FVec F S64 .f32) (main_arg4 : FVec F S64x64 .f32) (main_arg5 : FVec F S64 .f32) (main_arg6 : FVec F S128x64 .f32) (main_arg7 : FVec F S128 .f32) (main_arg8 : FVec F S512x256 .f32) (main_arg9 : FVec F S512 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S64x6 .f32 := Host.absf main_arg2
  let main_cst_0 : FVec F S_ .f32 := constant S_ .f32 0x7F800000#32
  let main_v5 : FVec F S64x6 .f32 := broadcastInDim S64x6 ![] bcast_S_S64x6 main_cst_0
  let main_v6 : IVec S64x6 1 := cmpf .olt main_v4 main_v5
  let main_c_1 : IVec S_ 1 := constantI S_ 1 1#1
  let main_v7 : IVec S_ 1 := (fun x v => Host.reduce IntOp.andi x v reducesTo_S64x6_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S8x4096x3 : Shape := ⟨3, ![8, 4096, 3]⟩
abbrev S8x4096x20 : Shape := ⟨3, ![8, 4096, 20]⟩
abbrev S64x6 : Shape := ⟨2, ![64, 6]⟩
abbrev S64 : Shape := ⟨1, ![64]⟩
abbrev S64x64 : Shape := ⟨2, ![64, 64]⟩
abbrev S128x64 : Shape := ⟨2, ![128, 64]⟩
abbrev S128 : Shape := ⟨1, ![128]⟩
abbrev S512x256 : Shape := ⟨2, ![512, 256]⟩
abbrev S512 : Shape := ⟨1, ![512]⟩
abbrev S8x20x4096 : Shape := ⟨3, ![8, 20, 4096]⟩
abbrev S8x3x4096 : Shape := ⟨3, ![8, 3, 4096]⟩
abbrev S64x1 : Shape := ⟨2, ![64, 1]⟩
abbrev S8x64x4096 : Shape := ⟨3, ![8, 64, 4096]⟩
abbrev S1x3x4096 : Shape := ⟨3, ![1, 3, 4096]⟩
abbrev S1x64x4096 : Shape := ⟨3, ![1, 64, 4096]⟩
abbrev S3x4096 : Shape := ⟨2, ![3, 4096]⟩
abbrev S64x3 : Shape := ⟨2, ![64, 3]⟩
abbrev S1x4096 : Shape := ⟨2, ![1, 4096]⟩
abbrev S64x4096 : Shape := ⟨2, ![64, 4096]⟩
abbrev S8x262144 : Shape := ⟨2, ![8, 262144]⟩
abbrev S65536 : Shape := ⟨1, ![65536]⟩
abbrev S20x1024 : Shape := ⟨2, ![20, 1024]⟩
abbrev S16x1024 : Shape := ⟨2, ![16, 1024]⟩
abbrev S_ : Shape := ⟨0, ![]⟩
abbrev S1x65536 : Shape := ⟨2, ![1, 65536]⟩
abbrev S16 : Shape := ⟨1, ![16]⟩
abbrev S1x20x1024 : Shape := ⟨3, ![1, 20, 1024]⟩
abbrev S1x16x1024 : Shape := ⟨3, ![1, 16, 1024]⟩
abbrev S1x16 : Shape := ⟨2, ![1, 16]⟩
abbrev S128x1 : Shape := ⟨2, ![128, 1]⟩
abbrev S1x512 : Shape := ⟨2, ![1, 512]⟩
abbrev S512x64 : Shape := ⟨2, ![512, 64]⟩
abbrev S512x128 : Shape := ⟨2, ![512, 128]⟩
abbrev S8x1x512 : Shape := ⟨3, ![8, 1, 512]⟩
abbrev S1x1x512 : Shape := ⟨3, ![1, 1, 512]⟩
abbrev S128x4096 : Shape := ⟨2, ![128, 4096]⟩
abbrev S512x4096 : Shape := ⟨2, ![512, 4096]⟩
abbrev S8x512 : Shape := ⟨2, ![8, 512]⟩

abbrev nBuf : Table → Nat
  | .hbm => 30
  | .local .tc .vmem => 28
  | .local .scVector .vmem => 10
  | _ => 0

abbrev bufTy : (tb : Table) → Fin (nBuf tb) → BufTy
  | .hbm, ⟨0, _⟩ => ⟨S8x4096x3, .f32⟩
  | .hbm, ⟨1, _⟩ => ⟨S8x4096x20, .i32⟩
  | .hbm, ⟨2, _⟩ => ⟨S64x6, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S128, .f32⟩
  | .hbm, ⟨8, _⟩ => ⟨S512x256, .f32⟩
  | .hbm, ⟨9, _⟩ => ⟨S512, .f32⟩
  | .hbm, ⟨10, _⟩ => ⟨S8x20x4096, .i32⟩
  | .hbm, ⟨11, _⟩ => ⟨S8x3x4096, .f32⟩
  | .hbm, ⟨12, _⟩ => ⟨S64x1, .f32⟩
  | .hbm, ⟨13, _⟩ => ⟨S8x64x4096, .f32⟩
  | .hbm, ⟨14, _⟩ => ⟨S8x64x4096, .f32⟩
  | .hbm, ⟨15, _⟩ => ⟨S8x262144, .f32⟩
  | .hbm, ⟨16, _⟩ => ⟨S8x64x4096, .f32⟩
  | .hbm, ⟨17, _⟩ => ⟨S8x262144, .f32⟩
  | .hbm, ⟨18, _⟩ => ⟨S8x64x4096, .f32⟩
  | .hbm, ⟨19, _⟩ => ⟨S64x1, .f32⟩
  | .hbm, ⟨20, _⟩ => ⟨S8x64x4096, .f32⟩
  | .hbm, ⟨21, _⟩ => ⟨S8x262144, .f32⟩
  | .hbm, ⟨22, _⟩ => ⟨S8x64x4096, .f32⟩
  | .hbm, ⟨23, _⟩ => ⟨S128x1, .f32⟩
  | .hbm, ⟨24, _⟩ => ⟨S1x512, .f32⟩
  | .hbm, ⟨25, _⟩ => ⟨S512x64, .f32⟩
  | .hbm, ⟨26, _⟩ => ⟨S512x64, .f32⟩
  | .hbm, ⟨27, _⟩ => ⟨S512x128, .f32⟩
  | .hbm, ⟨28, _⟩ => ⟨S8x1x512, .f32⟩
  | .hbm, ⟨29, _⟩ => ⟨S8x512, .f32⟩
  | .local .tc .vmem, ⟨0, _⟩ => ⟨S1x3x4096, .f32⟩
  | .local .tc .vmem, ⟨1, _⟩ => ⟨S1x3x4096, .f32⟩
  | .local .tc .vmem, ⟨2, _⟩ => ⟨S64x6, .f32⟩
  | .local .tc .vmem, ⟨3, _⟩ => ⟨S64x1, .f32⟩
  | .local .tc .vmem, ⟨4, _⟩ => ⟨S1x64x4096, .f32⟩
  | .local .tc .vmem, ⟨5, _⟩ => ⟨S1x64x4096, .f32⟩
  | .local .tc .vmem, ⟨6, _⟩ => ⟨S1x64x4096, .f32⟩
  | .local .tc .vmem, ⟨7, _⟩ => ⟨S1x64x4096, .f32⟩
  | .local .tc .vmem, ⟨8, _⟩ => ⟨S1x64x4096, .f32⟩
  | .local .tc .vmem, ⟨9, _⟩ => ⟨S1x64x4096, .f32⟩
  | .local .tc .vmem, ⟨10, _⟩ => ⟨S64x64, .f32⟩
  | .local .tc .vmem, ⟨11, _⟩ => ⟨S64x1, .f32⟩
  | .local .tc .vmem, ⟨12, _⟩ => ⟨S1x64x4096, .f32⟩
  | .local .tc .vmem, ⟨13, _⟩ => ⟨S1x64x4096, .f32⟩
  | .local .tc .vmem, ⟨14, _⟩ => ⟨S1x64x4096, .f32⟩
  | .local .tc .vmem, ⟨15, _⟩ => ⟨S1x64x4096, .f32⟩
  | .local .tc .vmem, ⟨16, _⟩ => ⟨S1x64x4096, .f32⟩
  | .local .tc .vmem, ⟨17, _⟩ => ⟨S1x64x4096, .f32⟩
  | .local .tc .vmem, ⟨18, _⟩ => ⟨S1x64x4096, .f32⟩
  | .local .tc .vmem, ⟨19, _⟩ => ⟨S1x64x4096, .f32⟩
  | .local .tc .vmem, ⟨20, _⟩ => ⟨S128x64, .f32⟩
  | .local .tc .vmem, ⟨21, _⟩ => ⟨S128x1, .f32⟩
  | .local .tc .vmem, ⟨22, _⟩ => ⟨S512x64, .f32⟩
  | .local .tc .vmem, ⟨23, _⟩ => ⟨S512x64, .f32⟩
  | .local .tc .vmem, ⟨24, _⟩ => ⟨S512x128, .f32⟩
  | .local .tc .vmem, ⟨25, _⟩ => ⟨S1x512, .f32⟩
  | .local .tc .vmem, ⟨26, _⟩ => ⟨S1x1x512, .f32⟩
  | .local .tc .vmem, ⟨27, _⟩ => ⟨S1x1x512, .f32⟩
  | .local .scVector .vmem, ⟨0, _⟩ => ⟨S65536, .f32⟩
  | .local .scVector .vmem, ⟨1, _⟩ => ⟨S20x1024, .i32⟩
  | .local .scVector .vmem, ⟨2, _⟩ => ⟨S16x1024, .f32⟩
  | .local .scVector .vmem, ⟨3, _⟩ => ⟨S16x1024, .f32⟩
  | .local .scVector .vmem, ⟨4, _⟩ => ⟨S65536, .f32⟩
  | .local .scVector .vmem, ⟨5, _⟩ => ⟨S20x1024, .i32⟩
  | .local .scVector .vmem, ⟨6, _⟩ => ⟨S16x1024, .f32⟩
  | .local .scVector .vmem, ⟨7, _⟩ => ⟨S65536, .f32⟩
  | .local .scVector .vmem, ⟨8, _⟩ => ⟨S20x1024, .i32⟩
  | .local .scVector .vmem, ⟨9, _⟩ => ⟨S16x1024, .f32⟩
  | _, _ => ⟨S8x4096x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTables nBuf rfl bufTy 4 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v4_scv : Ref sig .scVector := ⟨.hbm, 15, rfl⟩
abbrev main_v0_scv : Ref sig .scVector := ⟨.hbm, 10, rfl⟩
abbrev main_v3_1_scv : Ref sig .scVector := ⟨.hbm, 14, rfl⟩
abbrev main_v5_scv : Ref sig .scVector := ⟨.hbm, 16, rfl⟩
abbrev main_v6_scv : Ref sig .scVector := ⟨.hbm, 17, rfl⟩
abbrev main_v7_scv : Ref sig .scVector := ⟨.hbm, 18, rfl⟩
abbrev main_v10_scv : Ref sig .scVector := ⟨.hbm, 21, rfl⟩
abbrev main_v11_scv : Ref sig .scVector := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc3_stg0_0 : Ref sig .tc := ⟨.vmem, 8, rfl⟩
abbrev cc3_stg0_1 : Ref sig .tc := ⟨.vmem, 9, rfl⟩
abbrev cc3_stg1_0 : Ref sig .tc := ⟨.vmem, 10, rfl⟩
abbrev cc3_stg2_0 : Ref sig .tc := ⟨.vmem, 11, rfl⟩
abbrev cc3_stg3_0 : Ref sig .tc := ⟨.vmem, 12, rfl⟩
abbrev cc3_stg3_1 : Ref sig .tc := ⟨.vmem, 13, rfl⟩
abbrev cc5_stg0_0 : Ref sig .tc := ⟨.vmem, 14, rfl⟩
abbrev cc5_stg0_1 : Ref sig .tc := ⟨.vmem, 15, rfl⟩
abbrev cc5_stg1_0 : Ref sig .tc := ⟨.vmem, 16, rfl⟩
abbrev cc5_stg1_1 : Ref sig .tc := ⟨.vmem, 17, rfl⟩
abbrev cc5_stg2_0 : Ref sig .tc := ⟨.vmem, 18, rfl⟩
abbrev cc5_stg2_1 : Ref sig .tc := ⟨.vmem, 19, rfl⟩
abbrev cc5_stg3_0 : Ref sig .tc := ⟨.vmem, 20, rfl⟩
abbrev cc5_stg4_0 : Ref sig .tc := ⟨.vmem, 21, rfl⟩
abbrev cc5_stg5_0 : Ref sig .tc := ⟨.vmem, 22, rfl⟩
abbrev cc5_stg6_0 : Ref sig .tc := ⟨.vmem, 23, rfl⟩
abbrev cc5_stg7_0 : Ref sig .tc := ⟨.vmem, 24, rfl⟩
abbrev cc5_stg8_0 : Ref sig .tc := ⟨.vmem, 25, rfl⟩
abbrev cc5_stg9_0 : Ref sig .tc := ⟨.vmem, 26, rfl⟩
abbrev cc5_stg9_1 : Ref sig .tc := ⟨.vmem, 27, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc4_scratch0 : Ref sig .scVector := ⟨.vmem, 7, rfl⟩
abbrev cc4_scratch1 : Ref sig .scVector := ⟨.vmem, 8, rfl⟩
abbrev cc4_scratch2 : Ref sig .scVector := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem8_0 : DmaSem sig := 56
abbrev cc5_sem9_0 : DmaSem sig := 57
abbrev cc5_sem9_1 : DmaSem sig := 58
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c65536_i32 : BitVec 32 := 65536#32
  let v29 : BitVec 32 := Scalar.muli v28 c65536_i32
  ![v18.toNat, v29.toNat]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_36_r1 : BitVec 32 := 0#32
  let c0_i32_37_r1 : BitVec 32 := 0#32
  ![v18.toNat, 0, 0]
def k1_off3 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v31 : BitVec 32 := Scalar.muli v28 c16_i32
  let c0_i32_36_r2 : BitVec 32 := 0#32
  ![v18.toNat, v31.toNat, 0]
@[reducible] def k1_t1_loop : Scf.Loop 32 :=
  let c0_i32_11 : BitVec 32 := 0#32
  let c64_i32 : BitVec 32 := 64#32
  let v32 : BitVec 32 := Scalar.addi c0_i32_11 c64_i32
  let c1_i32_12 : BitVec 32 := 1#32
  ⟨c0_i32_11, v32, c1_i32_12⟩
def k1_off4 (k1_t1 : Fin k1_t1_loop.trips) : Fin 2 → Nat :=
  let c0_i32_37 : BitVec 32 := 0#32
  let v44 : Index := Scalar.indexCast c0_i32_37
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v45 : Index := Scalar.indexCast v43
  ![0, v45.toNat]
def k1_off5 (k1_t1 : Fin k1_t1_loop.trips) : Fin 2 → Nat :=
  let c1_i32_38 : BitVec 32 := 1#32
  let v47 : Index := Scalar.indexCast c1_i32_38
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v48 : Index := Scalar.indexCast v43
  ![1, v48.toNat]
def k1_off6 (k1_t1 : Fin k1_t1_loop.trips) : Fin 2 → Nat :=
  let c2_i32_39 : BitVec 32 := 2#32
  let v50 : Index := Scalar.indexCast c2_i32_39
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v51 : Index := Scalar.indexCast v43
  ![2, v51.toNat]
def k1_off7 (k1_t1 : Fin k1_t1_loop.trips) : Fin 2 → Nat :=
  let c3_i32 : BitVec 32 := 3#32
  let v53 : Index := Scalar.indexCast c3_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v54 : Index := Scalar.indexCast v43
  ![3, v54.toNat]
def k1_off8 (k1_t1 : Fin k1_t1_loop.trips) : Fin 2 → Nat :=
  let c4_i32_40 : BitVec 32 := 4#32
  let v56 : Index := Scalar.indexCast c4_i32_40
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v57 : Index := Scalar.indexCast v43
  ![4, v57.toNat]
def k1_off9 (k1_t1 : Fin k1_t1_loop.trips) : Fin 2 → Nat :=
  let c5_i32 : BitVec 32 := 5#32
  let v59 : Index := Scalar.indexCast c5_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v60 : Index := Scalar.indexCast v43
  ![5, v60.toNat]
def k1_off10 (k1_t1 : Fin k1_t1_loop.trips) : Fin 2 → Nat :=
  let c6_i32 : BitVec 32 := 6#32
  let v62 : Index := Scalar.indexCast c6_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v63 : Index := Scalar.indexCast v43
  ![6, v63.toNat]
def k1_off11 (k1_t1 : Fin k1_t1_loop.trips) : Fin 2 → Nat :=
  let c7_i32 : BitVec 32 := 7#32
  let v65 : Index := Scalar.indexCast c7_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v66 : Index := Scalar.indexCast v43
  ![7, v66.toNat]
def k1_off12 (k1_t1 : Fin k1_t1_loop.trips) : Fin 2 → Nat :=
  let c8_i32 : BitVec 32 := 8#32
  let v68 : Index := Scalar.indexCast c8_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v69 : Index := Scalar.indexCast v43
  ![8, v69.toNat]
def k1_off13 (k1_t1 : Fin k1_t1_loop.trips) : Fin 2 → Nat :=
  let c9_i32 : BitVec 32 := 9#32
  let v71 : Index := Scalar.indexCast c9_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v72 : Index := Scalar.indexCast v43
  ![9, v72.toNat]
def k1_off14 (k1_t1 : Fin k1_t1_loop.trips) : Fin 2 → Nat :=
  let c10_i32 : BitVec 32 := 10#32
  let v74 : Index := Scalar.indexCast c10_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v75 : Index := Scalar.indexCast v43
  ![10, v75.toNat]
def k1_off15 (k1_t1 : Fin k1_t1_loop.trips) : Fin 2 → Nat :=
  let c11_i32 : BitVec 32 := 11#32
  let v77 : Index := Scalar.indexCast c11_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v78 : Index := Scalar.indexCast v43
  ![11, v78.toNat]
def k1_off16 (k1_t1 : Fin k1_t1_loop.trips) : Fin 2 → Nat :=
  let c12_i32 : BitVec 32 := 12#32
  let v80 : Index := Scalar.indexCast c12_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v81 : Index := Scalar.indexCast v43
  ![12, v81.toNat]
def k1_off17 (k1_t1 : Fin k1_t1_loop.trips) : Fin 2 → Nat :=
  let c13_i32 : BitVec 32 := 13#32
  let v83 : Index := Scalar.indexCast c13_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v84 : Index := Scalar.indexCast v43
  ![13, v84.toNat]
def k1_off18 (k1_t1 : Fin k1_t1_loop.trips) : Fin 2 → Nat :=
  let c14_i32 : BitVec 32 := 14#32
  let v86 : Index := Scalar.indexCast c14_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v87 : Index := Scalar.indexCast v43
  ![14, v87.toNat]
def k1_off19 (k1_t1 : Fin k1_t1_loop.trips) : Fin 2 → Nat :=
  let c15_i32 : BitVec 32 := 15#32
  let v89 : Index := Scalar.indexCast c15_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v90 : Index := Scalar.indexCast v43
  ![15, v90.toNat]
def k1_off20 (k1_t1 : Fin k1_t1_loop.trips) : Fin 2 → Nat :=
  let c16_i32_41 : BitVec 32 := 16#32
  let v92 : Index := Scalar.indexCast c16_i32_41
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v93 : Index := Scalar.indexCast v43
  ![16, v93.toNat]
def k1_off21 (k1_t1 : Fin k1_t1_loop.trips) : Fin 2 → Nat :=
  let c17_i32 : BitVec 32 := 17#32
  let v95 : Index := Scalar.indexCast c17_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v96 : Index := Scalar.indexCast v43
  ![17, v96.toNat]
def k1_off22 (k1_t1 : Fin k1_t1_loop.trips) : Fin 2 → Nat :=
  let c18_i32 : BitVec 32 := 18#32
  let v98 : Index := Scalar.indexCast c18_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v99 : Index := Scalar.indexCast v43
  ![18, v99.toNat]
def k1_off23 (k1_t1 : Fin k1_t1_loop.trips) : Fin 2 → Nat :=
  let c19_i32 : BitVec 32 := 19#32
  let v101 : Index := Scalar.indexCast c19_i32
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v102 : Index := Scalar.indexCast v43
  ![19, v102.toNat]
@[reducible] def k1_t2_loop : Scf.Loop 32 :=
  let c0_i32_43 : BitVec 32 := 0#32
  let c4_i32_44 : BitVec 32 := 4#32
  let v104 : BitVec 32 := Scalar.addi c0_i32_43 c4_i32_44
  let c1_i32_45 : BitVec 32 := 1#32
  ⟨c0_i32_43, v104, c1_i32_45⟩

def k1_chk1 (v109 : IVec S16 32) : Prop :=
  (∀ a x, ((![v109] : Fin 1 → IVec S16 32) a x).toNat < S65536.size a)
instance k1_chk1.dec : ∀ (v109 : IVec S16 32), Decidable (k1_chk1 v109) := fun v109 => decidable_of_iff' _ (Iff.of_eq (k1_chk1.eq_1 v109))
theorem k1_idx1_inb : ∀ (v109 : IVec S16 32) (k1_hw1 : k1_chk1 v109), ∀ a x, ((![v109] : Fin 1 → IVec S16 32) a x).toNat < S65536.size a := fun v109 k1_hw1 => k1_hw1

def k1_chk2 (v116 : IVec S16 32) : Prop :=
  (∀ a x, ((![v116] : Fin 1 → IVec S16 32) a x).toNat < S65536.size a)
instance k1_chk2.dec : ∀ (v116 : IVec S16 32), Decidable (k1_chk2 v116) := fun v116 => decidable_of_iff' _ (Iff.of_eq (k1_chk2.eq_1 v116))
theorem k1_idx2_inb : ∀ (v116 : IVec S16 32) (k1_hw2 : k1_chk2 v116), ∀ a x, ((![v116] : Fin 1 → IVec S16 32) a x).toNat < S65536.size a := fun v116 k1_hw2 => k1_hw2

def k1_chk3 (v123 : IVec S16 32) : Prop :=
  (∀ a x, ((![v123] : Fin 1 → IVec S16 32) a x).toNat < S65536.size a)
instance k1_chk3.dec : ∀ (v123 : IVec S16 32), Decidable (k1_chk3 v123) := fun v123 => decidable_of_iff' _ (Iff.of_eq (k1_chk3.eq_1 v123))
theorem k1_idx3_inb : ∀ (v123 : IVec S16 32) (k1_hw3 : k1_chk3 v123), ∀ a x, ((![v123] : Fin 1 → IVec S16 32) a x).toNat < S65536.size a := fun v123 k1_hw3 => k1_hw3

def k1_chk4 (v130 : IVec S16 32) : Prop :=
  (∀ a x, ((![v130] : Fin 1 → IVec S16 32) a x).toNat < S65536.size a)
instance k1_chk4.dec : ∀ (v130 : IVec S16 32), Decidable (k1_chk4 v130) := fun v130 => decidable_of_iff' _ (Iff.of_eq (k1_chk4.eq_1 v130))
theorem k1_idx4_inb : ∀ (v130 : IVec S16 32) (k1_hw4 : k1_chk4 v130), ∀ a x, ((![v130] : Fin 1 → IVec S16 32) a x).toNat < S65536.size a := fun v130 k1_hw4 => k1_hw4

def k1_chk5 (v137 : IVec S16 32) : Prop :=
  (∀ a x, ((![v137] : Fin 1 → IVec S16 32) a x).toNat < S65536.size a)
instance k1_chk5.dec : ∀ (v137 : IVec S16 32), Decidable (k1_chk5 v137) := fun v137 => decidable_of_iff' _ (Iff.of_eq (k1_chk5.eq_1 v137))
theorem k1_idx5_inb : ∀ (v137 : IVec S16 32) (k1_hw5 : k1_chk5 v137), ∀ a x, ((![v137] : Fin 1 → IVec S16 32) a x).toNat < S65536.size a := fun v137 k1_hw5 => k1_hw5

def k1_chk6 (v144 : IVec S16 32) : Prop :=
  (∀ a x, ((![v144] : Fin 1 → IVec S16 32) a x).toNat < S65536.size a)
instance k1_chk6.dec : ∀ (v144 : IVec S16 32), Decidable (k1_chk6 v144) := fun v144 => decidable_of_iff' _ (Iff.of_eq (k1_chk6.eq_1 v144))
theorem k1_idx6_inb : ∀ (v144 : IVec S16 32) (k1_hw6 : k1_chk6 v144), ∀ a x, ((![v144] : Fin 1 → IVec S16 32) a x).toNat < S65536.size a := fun v144 k1_hw6 => k1_hw6

def k1_chk7 (v151 : IVec S16 32) : Prop :=
  (∀ a x, ((![v151] : Fin 1 → IVec S16 32) a x).toNat < S65536.size a)
instance k1_chk7.dec : ∀ (v151 : IVec S16 32), Decidable (k1_chk7 v151) := fun v151 => decidable_of_iff' _ (Iff.of_eq (k1_chk7.eq_1 v151))
theorem k1_idx7_inb : ∀ (v151 : IVec S16 32) (k1_hw7 : k1_chk7 v151), ∀ a x, ((![v151] : Fin 1 → IVec S16 32) a x).toNat < S65536.size a := fun v151 k1_hw7 => k1_hw7

def k1_chk8 (v158 : IVec S16 32) : Prop :=
  (∀ a x, ((![v158] : Fin 1 → IVec S16 32) a x).toNat < S65536.size a)
instance k1_chk8.dec : ∀ (v158 : IVec S16 32), Decidable (k1_chk8 v158) := fun v158 => decidable_of_iff' _ (Iff.of_eq (k1_chk8.eq_1 v158))
theorem k1_idx8_inb : ∀ (v158 : IVec S16 32) (k1_hw8 : k1_chk8 v158), ∀ a x, ((![v158] : Fin 1 → IVec S16 32) a x).toNat < S65536.size a := fun v158 k1_hw8 => k1_hw8

def k1_chk9 (v165 : IVec S16 32) : Prop :=
  (∀ a x, ((![v165] : Fin 1 → IVec S16 32) a x).toNat < S65536.size a)
instance k1_chk9.dec : ∀ (v165 : IVec S16 32), Decidable (k1_chk9 v165) := fun v165 => decidable_of_iff' _ (Iff.of_eq (k1_chk9.eq_1 v165))
theorem k1_idx9_inb : ∀ (v165 : IVec S16 32) (k1_hw9 : k1_chk9 v165), ∀ a x, ((![v165] : Fin 1 → IVec S16 32) a x).toNat < S65536.size a := fun v165 k1_hw9 => k1_hw9

def k1_chk10 (v172 : IVec S16 32) : Prop :=
  (∀ a x, ((![v172] : Fin 1 → IVec S16 32) a x).toNat < S65536.size a)
instance k1_chk10.dec : ∀ (v172 : IVec S16 32), Decidable (k1_chk10 v172) := fun v172 => decidable_of_iff' _ (Iff.of_eq (k1_chk10.eq_1 v172))
theorem k1_idx10_inb : ∀ (v172 : IVec S16 32) (k1_hw10 : k1_chk10 v172), ∀ a x, ((![v172] : Fin 1 → IVec S16 32) a x).toNat < S65536.size a := fun v172 k1_hw10 => k1_hw10

def k1_chk11 (v179 : IVec S16 32) : Prop :=
  (∀ a x, ((![v179] : Fin 1 → IVec S16 32) a x).toNat < S65536.size a)
instance k1_chk11.dec : ∀ (v179 : IVec S16 32), Decidable (k1_chk11 v179) := fun v179 => decidable_of_iff' _ (Iff.of_eq (k1_chk11.eq_1 v179))
theorem k1_idx11_inb : ∀ (v179 : IVec S16 32) (k1_hw11 : k1_chk11 v179), ∀ a x, ((![v179] : Fin 1 → IVec S16 32) a x).toNat < S65536.size a := fun v179 k1_hw11 => k1_hw11

def k1_chk12 (v186 : IVec S16 32) : Prop :=
  (∀ a x, ((![v186] : Fin 1 → IVec S16 32) a x).toNat < S65536.size a)
instance k1_chk12.dec : ∀ (v186 : IVec S16 32), Decidable (k1_chk12 v186) := fun v186 => decidable_of_iff' _ (Iff.of_eq (k1_chk12.eq_1 v186))
theorem k1_idx12_inb : ∀ (v186 : IVec S16 32) (k1_hw12 : k1_chk12 v186), ∀ a x, ((![v186] : Fin 1 → IVec S16 32) a x).toNat < S65536.size a := fun v186 k1_hw12 => k1_hw12

def k1_chk13 (v193 : IVec S16 32) : Prop :=
  (∀ a x, ((![v193] : Fin 1 → IVec S16 32) a x).toNat < S65536.size a)
instance k1_chk13.dec : ∀ (v193 : IVec S16 32), Decidable (k1_chk13 v193) := fun v193 => decidable_of_iff' _ (Iff.of_eq (k1_chk13.eq_1 v193))
theorem k1_idx13_inb : ∀ (v193 : IVec S16 32) (k1_hw13 : k1_chk13 v193), ∀ a x, ((![v193] : Fin 1 → IVec S16 32) a x).toNat < S65536.size a := fun v193 k1_hw13 => k1_hw13

def k1_chk14 (v200 : IVec S16 32) : Prop :=
  (∀ a x, ((![v200] : Fin 1 → IVec S16 32) a x).toNat < S65536.size a)
instance k1_chk14.dec : ∀ (v200 : IVec S16 32), Decidable (k1_chk14 v200) := fun v200 => decidable_of_iff' _ (Iff.of_eq (k1_chk14.eq_1 v200))
theorem k1_idx14_inb : ∀ (v200 : IVec S16 32) (k1_hw14 : k1_chk14 v200), ∀ a x, ((![v200] : Fin 1 → IVec S16 32) a x).toNat < S65536.size a := fun v200 k1_hw14 => k1_hw14

def k1_chk15 (v207 : IVec S16 32) : Prop :=
  (∀ a x, ((![v207] : Fin 1 → IVec S16 32) a x).toNat < S65536.size a)
instance k1_chk15.dec : ∀ (v207 : IVec S16 32), Decidable (k1_chk15 v207) := fun v207 => decidable_of_iff' _ (Iff.of_eq (k1_chk15.eq_1 v207))
theorem k1_idx15_inb : ∀ (v207 : IVec S16 32) (k1_hw15 : k1_chk15 v207), ∀ a x, ((![v207] : Fin 1 → IVec S16 32) a x).toNat < S65536.size a := fun v207 k1_hw15 => k1_hw15

def k1_chk16 (v214 : IVec S16 32) : Prop :=
  (∀ a x, ((![v214] : Fin 1 → IVec S16 32) a x).toNat < S65536.size a)
instance k1_chk16.dec : ∀ (v214 : IVec S16 32), Decidable (k1_chk16 v214) := fun v214 => decidable_of_iff' _ (Iff.of_eq (k1_chk16.eq_1 v214))
theorem k1_idx16_inb : ∀ (v214 : IVec S16 32) (k1_hw16 : k1_chk16 v214), ∀ a x, ((![v214] : Fin 1 → IVec S16 32) a x).toNat < S65536.size a := fun v214 k1_hw16 => k1_hw16

def k1_chk17 (v221 : IVec S16 32) : Prop :=
  (∀ a x, ((![v221] : Fin 1 → IVec S16 32) a x).toNat < S65536.size a)
instance k1_chk17.dec : ∀ (v221 : IVec S16 32), Decidable (k1_chk17 v221) := fun v221 => decidable_of_iff' _ (Iff.of_eq (k1_chk17.eq_1 v221))
theorem k1_idx17_inb : ∀ (v221 : IVec S16 32) (k1_hw17 : k1_chk17 v221), ∀ a x, ((![v221] : Fin 1 → IVec S16 32) a x).toNat < S65536.size a := fun v221 k1_hw17 => k1_hw17

def k1_chk18 (v228 : IVec S16 32) : Prop :=
  (∀ a x, ((![v228] : Fin 1 → IVec S16 32) a x).toNat < S65536.size a)
instance k1_chk18.dec : ∀ (v228 : IVec S16 32), Decidable (k1_chk18 v228) := fun v228 => decidable_of_iff' _ (Iff.of_eq (k1_chk18.eq_1 v228))
theorem k1_idx18_inb : ∀ (v228 : IVec S16 32) (k1_hw18 : k1_chk18 v228), ∀ a x, ((![v228] : Fin 1 → IVec S16 32) a x).toNat < S65536.size a := fun v228 k1_hw18 => k1_hw18

def k1_chk19 (v235 : IVec S16 32) : Prop :=
  (∀ a x, ((![v235] : Fin 1 → IVec S16 32) a x).toNat < S65536.size a)
instance k1_chk19.dec : ∀ (v235 : IVec S16 32), Decidable (k1_chk19 v235) := fun v235 => decidable_of_iff' _ (Iff.of_eq (k1_chk19.eq_1 v235))
theorem k1_idx19_inb : ∀ (v235 : IVec S16 32) (k1_hw19 : k1_chk19 v235), ∀ a x, ((![v235] : Fin 1 → IVec S16 32) a x).toNat < S65536.size a := fun v235 k1_hw19 => k1_hw19

def k1_chk20 (v242 : IVec S16 32) : Prop :=
  (∀ a x, ((![v242] : Fin 1 → IVec S16 32) a x).toNat < S65536.size a)
instance k1_chk20.dec : ∀ (v242 : IVec S16 32), Decidable (k1_chk20 v242) := fun v242 => decidable_of_iff' _ (Iff.of_eq (k1_chk20.eq_1 v242))
theorem k1_idx20_inb : ∀ (v242 : IVec S16 32) (k1_hw20 : k1_chk20 v242), ∀ a x, ((![v242] : Fin 1 → IVec S16 32) a x).toNat < S65536.size a := fun v242 k1_hw20 => k1_hw20

def k1_chk21 (v249 : IVec S16 32) : Prop :=
  (∀ a x, ((![v249] : Fin 1 → IVec S16 32) a x).toNat < S65536.size a)
instance k1_chk21.dec : ∀ (v249 : IVec S16 32), Decidable (k1_chk21 v249) := fun v249 => decidable_of_iff' _ (Iff.of_eq (k1_chk21.eq_1 v249))
theorem k1_idx21_inb : ∀ (v249 : IVec S16 32) (k1_hw21 : k1_chk21 v249), ∀ a x, ((![v249] : Fin 1 → IVec S16 32) a x).toNat < S65536.size a := fun v249 k1_hw21 => k1_hw21

def k1_chk22 (v256 : IVec S16 32) : Prop :=
  (∀ a x, ((![v256] : Fin 1 → IVec S16 32) a x).toNat < S65536.size a)
instance k1_chk22.dec : ∀ (v256 : IVec S16 32), Decidable (k1_chk22 v256) := fun v256 => decidable_of_iff' _ (Iff.of_eq (k1_chk22.eq_1 v256))
theorem k1_idx22_inb : ∀ (v256 : IVec S16 32) (k1_hw22 : k1_chk22 v256), ∀ a x, ((![v256] : Fin 1 → IVec S16 32) a x).toNat < S65536.size a := fun v256 k1_hw22 => k1_hw22

def k1_chk23 (v263 : IVec S16 32) : Prop :=
  (∀ a x, ((![v263] : Fin 1 → IVec S16 32) a x).toNat < S65536.size a)
instance k1_chk23.dec : ∀ (v263 : IVec S16 32), Decidable (k1_chk23 v263) := fun v263 => decidable_of_iff' _ (Iff.of_eq (k1_chk23.eq_1 v263))
theorem k1_idx23_inb : ∀ (v263 : IVec S16 32) (k1_hw23 : k1_chk23 v263), ∀ a x, ((![v263] : Fin 1 → IVec S16 32) a x).toNat < S65536.size a := fun v263 k1_hw23 => k1_hw23

def k1_chk24 (v270 : IVec S16 32) : Prop :=
  (∀ a x, ((![v270] : Fin 1 → IVec S16 32) a x).toNat < S65536.size a)
instance k1_chk24.dec : ∀ (v270 : IVec S16 32), Decidable (k1_chk24 v270) := fun v270 => decidable_of_iff' _ (Iff.of_eq (k1_chk24.eq_1 v270))
theorem k1_idx24_inb : ∀ (v270 : IVec S16 32) (k1_hw24 : k1_chk24 v270), ∀ a x, ((![v270] : Fin 1 → IVec S16 32) a x).toNat < S65536.size a := fun v270 k1_hw24 => k1_hw24

def k1_chk25 (v277 : IVec S16 32) : Prop :=
  (∀ a x, ((![v277] : Fin 1 → IVec S16 32) a x).toNat < S65536.size a)
instance k1_chk25.dec : ∀ (v277 : IVec S16 32), Decidable (k1_chk25 v277) := fun v277 => decidable_of_iff' _ (Iff.of_eq (k1_chk25.eq_1 v277))
theorem k1_idx25_inb : ∀ (v277 : IVec S16 32) (k1_hw25 : k1_chk25 v277), ∀ a x, ((![v277] : Fin 1 → IVec S16 32) a x).toNat < S65536.size a := fun v277 k1_hw25 => k1_hw25

def k1_chk26 (v284 : IVec S16 32) : Prop :=
  (∀ a x, ((![v284] : Fin 1 → IVec S16 32) a x).toNat < S65536.size a)
instance k1_chk26.dec : ∀ (v284 : IVec S16 32), Decidable (k1_chk26 v284) := fun v284 => decidable_of_iff' _ (Iff.of_eq (k1_chk26.eq_1 v284))
theorem k1_idx26_inb : ∀ (v284 : IVec S16 32) (k1_hw26 : k1_chk26 v284), ∀ a x, ((![v284] : Fin 1 → IVec S16 32) a x).toNat < S65536.size a := fun v284 k1_hw26 => k1_hw26

def k1_chk27 (v291 : IVec S16 32) : Prop :=
  (∀ a x, ((![v291] : Fin 1 → IVec S16 32) a x).toNat < S65536.size a)
instance k1_chk27.dec : ∀ (v291 : IVec S16 32), Decidable (k1_chk27 v291) := fun v291 => decidable_of_iff' _ (Iff.of_eq (k1_chk27.eq_1 v291))
theorem k1_idx27_inb : ∀ (v291 : IVec S16 32) (k1_hw27 : k1_chk27 v291), ∀ a x, ((![v291] : Fin 1 → IVec S16 32) a x).toNat < S65536.size a := fun v291 k1_hw27 => k1_hw27

def k1_chk28 (v298 : IVec S16 32) : Prop :=
  (∀ a x, ((![v298] : Fin 1 → IVec S16 32) a x).toNat < S65536.size a)
instance k1_chk28.dec : ∀ (v298 : IVec S16 32), Decidable (k1_chk28 v298) := fun v298 => decidable_of_iff' _ (Iff.of_eq (k1_chk28.eq_1 v298))
theorem k1_idx28_inb : ∀ (v298 : IVec S16 32) (k1_hw28 : k1_chk28 v298), ∀ a x, ((![v298] : Fin 1 → IVec S16 32) a x).toNat < S65536.size a := fun v298 k1_hw28 => k1_hw28

def k1_chk29 (v305 : IVec S16 32) : Prop :=
  (∀ a x, ((![v305] : Fin 1 → IVec S16 32) a x).toNat < S65536.size a)
instance k1_chk29.dec : ∀ (v305 : IVec S16 32), Decidable (k1_chk29 v305) := fun v305 => decidable_of_iff' _ (Iff.of_eq (k1_chk29.eq_1 v305))
theorem k1_idx29_inb : ∀ (v305 : IVec S16 32) (k1_hw29 : k1_chk29 v305), ∀ a x, ((![v305] : Fin 1 → IVec S16 32) a x).toNat < S65536.size a := fun v305 k1_hw29 => k1_hw29

def k1_chk30 (v312 : IVec S16 32) : Prop :=
  (∀ a x, ((![v312] : Fin 1 → IVec S16 32) a x).toNat < S65536.size a)
instance k1_chk30.dec : ∀ (v312 : IVec S16 32), Decidable (k1_chk30 v312) := fun v312 => decidable_of_iff' _ (Iff.of_eq (k1_chk30.eq_1 v312))
theorem k1_idx30_inb : ∀ (v312 : IVec S16 32) (k1_hw30 : k1_chk30 v312), ∀ a x, ((![v312] : Fin 1 → IVec S16 32) a x).toNat < S65536.size a := fun v312 k1_hw30 => k1_hw30

def k1_chk31 (v319 : IVec S16 32) : Prop :=
  (∀ a x, ((![v319] : Fin 1 → IVec S16 32) a x).toNat < S65536.size a)
instance k1_chk31.dec : ∀ (v319 : IVec S16 32), Decidable (k1_chk31 v319) := fun v319 => decidable_of_iff' _ (Iff.of_eq (k1_chk31.eq_1 v319))
theorem k1_idx31_inb : ∀ (v319 : IVec S16 32) (k1_hw31 : k1_chk31 v319), ∀ a x, ((![v319] : Fin 1 → IVec S16 32) a x).toNat < S65536.size a := fun v319 k1_hw31 => k1_hw31

def k1_chk32 (v326 : IVec S16 32) : Prop :=
  (∀ a x, ((![v326] : Fin 1 → IVec S16 32) a x).toNat < S65536.size a)
instance k1_chk32.dec : ∀ (v326 : IVec S16 32), Decidable (k1_chk32 v326) := fun v326 => decidable_of_iff' _ (Iff.of_eq (k1_chk32.eq_1 v326))
theorem k1_idx32_inb : ∀ (v326 : IVec S16 32) (k1_hw32 : k1_chk32 v326), ∀ a x, ((![v326] : Fin 1 → IVec S16 32) a x).toNat < S65536.size a := fun v326 k1_hw32 => k1_hw32

def k1_chk33 (v333 : IVec S16 32) : Prop :=
  (∀ a x, ((![v333] : Fin 1 → IVec S16 32) a x).toNat < S65536.size a)
instance k1_chk33.dec : ∀ (v333 : IVec S16 32), Decidable (k1_chk33 v333) := fun v333 => decidable_of_iff' _ (Iff.of_eq (k1_chk33.eq_1 v333))
theorem k1_idx33_inb : ∀ (v333 : IVec S16 32) (k1_hw33 : k1_chk33 v333), ∀ a x, ((![v333] : Fin 1 → IVec S16 32) a x).toNat < S65536.size a := fun v333 k1_hw33 => k1_hw33

def k1_chk34 (v340 : IVec S16 32) : Prop :=
  (∀ a x, ((![v340] : Fin 1 → IVec S16 32) a x).toNat < S65536.size a)
instance k1_chk34.dec : ∀ (v340 : IVec S16 32), Decidable (k1_chk34 v340) := fun v340 => decidable_of_iff' _ (Iff.of_eq (k1_chk34.eq_1 v340))
theorem k1_idx34_inb : ∀ (v340 : IVec S16 32) (k1_hw34 : k1_chk34 v340), ∀ a x, ((![v340] : Fin 1 → IVec S16 32) a x).toNat < S65536.size a := fun v340 k1_hw34 => k1_hw34

def k1_chk35 (v347 : IVec S16 32) : Prop :=
  (∀ a x, ((![v347] : Fin 1 → IVec S16 32) a x).toNat < S65536.size a)
instance k1_chk35.dec : ∀ (v347 : IVec S16 32), Decidable (k1_chk35 v347) := fun v347 => decidable_of_iff' _ (Iff.of_eq (k1_chk35.eq_1 v347))
theorem k1_idx35_inb : ∀ (v347 : IVec S16 32) (k1_hw35 : k1_chk35 v347), ∀ a x, ((![v347] : Fin 1 → IVec S16 32) a x).toNat < S65536.size a := fun v347 k1_hw35 => k1_hw35

def k1_chk36 (v354 : IVec S16 32) : Prop :=
  (∀ a x, ((![v354] : Fin 1 → IVec S16 32) a x).toNat < S65536.size a)
instance k1_chk36.dec : ∀ (v354 : IVec S16 32), Decidable (k1_chk36 v354) := fun v354 => decidable_of_iff' _ (Iff.of_eq (k1_chk36.eq_1 v354))
theorem k1_idx36_inb : ∀ (v354 : IVec S16 32) (k1_hw36 : k1_chk36 v354), ∀ a x, ((![v354] : Fin 1 → IVec S16 32) a x).toNat < S65536.size a := fun v354 k1_hw36 => k1_hw36

def k1_chk37 (v361 : IVec S16 32) : Prop :=
  (∀ a x, ((![v361] : Fin 1 → IVec S16 32) a x).toNat < S65536.size a)
instance k1_chk37.dec : ∀ (v361 : IVec S16 32), Decidable (k1_chk37 v361) := fun v361 => decidable_of_iff' _ (Iff.of_eq (k1_chk37.eq_1 v361))
theorem k1_idx37_inb : ∀ (v361 : IVec S16 32) (k1_hw37 : k1_chk37 v361), ∀ a x, ((![v361] : Fin 1 → IVec S16 32) a x).toNat < S65536.size a := fun v361 k1_hw37 => k1_hw37

def k1_chk38 (v368 : IVec S16 32) : Prop :=
  (∀ a x, ((![v368] : Fin 1 → IVec S16 32) a x).toNat < S65536.size a)
instance k1_chk38.dec : ∀ (v368 : IVec S16 32), Decidable (k1_chk38 v368) := fun v368 => decidable_of_iff' _ (Iff.of_eq (k1_chk38.eq_1 v368))
theorem k1_idx38_inb : ∀ (v368 : IVec S16 32) (k1_hw38 : k1_chk38 v368), ∀ a x, ((![v368] : Fin 1 → IVec S16 32) a x).toNat < S65536.size a := fun v368 k1_hw38 => k1_hw38

def k1_chk39 (v375 : IVec S16 32) : Prop :=
  (∀ a x, ((![v375] : Fin 1 → IVec S16 32) a x).toNat < S65536.size a)
instance k1_chk39.dec : ∀ (v375 : IVec S16 32), Decidable (k1_chk39 v375) := fun v375 => decidable_of_iff' _ (Iff.of_eq (k1_chk39.eq_1 v375))
theorem k1_idx39_inb : ∀ (v375 : IVec S16 32) (k1_hw39 : k1_chk39 v375), ∀ a x, ((![v375] : Fin 1 → IVec S16 32) a x).toNat < S65536.size a := fun v375 k1_hw39 => k1_hw39

def k1_chk40 (v382 : IVec S16 32) : Prop :=
  (∀ a x, ((![v382] : Fin 1 → IVec S16 32) a x).toNat < S65536.size a)
instance k1_chk40.dec : ∀ (v382 : IVec S16 32), Decidable (k1_chk40 v382) := fun v382 => decidable_of_iff' _ (Iff.of_eq (k1_chk40.eq_1 v382))
theorem k1_idx40_inb : ∀ (v382 : IVec S16 32) (k1_hw40 : k1_chk40 v382), ∀ a x, ((![v382] : Fin 1 → IVec S16 32) a x).toNat < S65536.size a := fun v382 k1_hw40 => k1_hw40

def k1_chk41 (v389 : IVec S16 32) : Prop :=
  (∀ a x, ((![v389] : Fin 1 → IVec S16 32) a x).toNat < S65536.size a)
instance k1_chk41.dec : ∀ (v389 : IVec S16 32), Decidable (k1_chk41 v389) := fun v389 => decidable_of_iff' _ (Iff.of_eq (k1_chk41.eq_1 v389))
theorem k1_idx41_inb : ∀ (v389 : IVec S16 32) (k1_hw41 : k1_chk41 v389), ∀ a x, ((![v389] : Fin 1 → IVec S16 32) a x).toNat < S65536.size a := fun v389 k1_hw41 => k1_hw41

def k1_chk42 (v396 : IVec S16 32) : Prop :=
  (∀ a x, ((![v396] : Fin 1 → IVec S16 32) a x).toNat < S65536.size a)
instance k1_chk42.dec : ∀ (v396 : IVec S16 32), Decidable (k1_chk42 v396) := fun v396 => decidable_of_iff' _ (Iff.of_eq (k1_chk42.eq_1 v396))
theorem k1_idx42_inb : ∀ (v396 : IVec S16 32) (k1_hw42 : k1_chk42 v396), ∀ a x, ((![v396] : Fin 1 → IVec S16 32) a x).toNat < S65536.size a := fun v396 k1_hw42 => k1_hw42

def k1_chk43 (v403 : IVec S16 32) : Prop :=
  (∀ a x, ((![v403] : Fin 1 → IVec S16 32) a x).toNat < S65536.size a)
instance k1_chk43.dec : ∀ (v403 : IVec S16 32), Decidable (k1_chk43 v403) := fun v403 => decidable_of_iff' _ (Iff.of_eq (k1_chk43.eq_1 v403))
theorem k1_idx43_inb : ∀ (v403 : IVec S16 32) (k1_hw43 : k1_chk43 v403), ∀ a x, ((![v403] : Fin 1 → IVec S16 32) a x).toNat < S65536.size a := fun v403 k1_hw43 => k1_hw43

def k1_chk44 (v410 : IVec S16 32) : Prop :=
  (∀ a x, ((![v410] : Fin 1 → IVec S16 32) a x).toNat < S65536.size a)
instance k1_chk44.dec : ∀ (v410 : IVec S16 32), Decidable (k1_chk44 v410) := fun v410 => decidable_of_iff' _ (Iff.of_eq (k1_chk44.eq_1 v410))
theorem k1_idx44_inb : ∀ (v410 : IVec S16 32) (k1_hw44 : k1_chk44 v410), ∀ a x, ((![v410] : Fin 1 → IVec S16 32) a x).toNat < S65536.size a := fun v410 k1_hw44 => k1_hw44

def k1_chk45 (v417 : IVec S16 32) : Prop :=
  (∀ a x, ((![v417] : Fin 1 → IVec S16 32) a x).toNat < S65536.size a)
instance k1_chk45.dec : ∀ (v417 : IVec S16 32), Decidable (k1_chk45 v417) := fun v417 => decidable_of_iff' _ (Iff.of_eq (k1_chk45.eq_1 v417))
theorem k1_idx45_inb : ∀ (v417 : IVec S16 32) (k1_hw45 : k1_chk45 v417), ∀ a x, ((![v417] : Fin 1 → IVec S16 32) a x).toNat < S65536.size a := fun v417 k1_hw45 => k1_hw45

def k1_chk46 (v424 : IVec S16 32) : Prop :=
  (∀ a x, ((![v424] : Fin 1 → IVec S16 32) a x).toNat < S65536.size a)
instance k1_chk46.dec : ∀ (v424 : IVec S16 32), Decidable (k1_chk46 v424) := fun v424 => decidable_of_iff' _ (Iff.of_eq (k1_chk46.eq_1 v424))
theorem k1_idx46_inb : ∀ (v424 : IVec S16 32) (k1_hw46 : k1_chk46 v424), ∀ a x, ((![v424] : Fin 1 → IVec S16 32) a x).toNat < S65536.size a := fun v424 k1_hw46 => k1_hw46

def k1_chk47 (v431 : IVec S16 32) : Prop :=
  (∀ a x, ((![v431] : Fin 1 → IVec S16 32) a x).toNat < S65536.size a)
instance k1_chk47.dec : ∀ (v431 : IVec S16 32), Decidable (k1_chk47 v431) := fun v431 => decidable_of_iff' _ (Iff.of_eq (k1_chk47.eq_1 v431))
theorem k1_idx47_inb : ∀ (v431 : IVec S16 32) (k1_hw47 : k1_chk47 v431), ∀ a x, ((![v431] : Fin 1 → IVec S16 32) a x).toNat < S65536.size a := fun v431 k1_hw47 => k1_hw47

def k1_chk48 (v438 : IVec S16 32) : Prop :=
  (∀ a x, ((![v438] : Fin 1 → IVec S16 32) a x).toNat < S65536.size a)
instance k1_chk48.dec : ∀ (v438 : IVec S16 32), Decidable (k1_chk48 v438) := fun v438 => decidable_of_iff' _ (Iff.of_eq (k1_chk48.eq_1 v438))
theorem k1_idx48_inb : ∀ (v438 : IVec S16 32) (k1_hw48 : k1_chk48 v438), ∀ a x, ((![v438] : Fin 1 → IVec S16 32) a x).toNat < S65536.size a := fun v438 k1_hw48 => k1_hw48

def k1_chk49 (v445 : IVec S16 32) : Prop :=
  (∀ a x, ((![v445] : Fin 1 → IVec S16 32) a x).toNat < S65536.size a)
instance k1_chk49.dec : ∀ (v445 : IVec S16 32), Decidable (k1_chk49 v445) := fun v445 => decidable_of_iff' _ (Iff.of_eq (k1_chk49.eq_1 v445))
theorem k1_idx49_inb : ∀ (v445 : IVec S16 32) (k1_hw49 : k1_chk49 v445), ∀ a x, ((![v445] : Fin 1 → IVec S16 32) a x).toNat < S65536.size a := fun v445 k1_hw49 => k1_hw49

def k1_chk50 (v452 : IVec S16 32) : Prop :=
  (∀ a x, ((![v452] : Fin 1 → IVec S16 32) a x).toNat < S65536.size a)
instance k1_chk50.dec : ∀ (v452 : IVec S16 32), Decidable (k1_chk50 v452) := fun v452 => decidable_of_iff' _ (Iff.of_eq (k1_chk50.eq_1 v452))
theorem k1_idx50_inb : ∀ (v452 : IVec S16 32) (k1_hw50 : k1_chk50 v452), ∀ a x, ((![v452] : Fin 1 → IVec S16 32) a x).toNat < S65536.size a := fun v452 k1_hw50 => k1_hw50

def k1_chk51 (v459 : IVec S16 32) : Prop :=
  (∀ a x, ((![v459] : Fin 1 → IVec S16 32) a x).toNat < S65536.size a)
instance k1_chk51.dec : ∀ (v459 : IVec S16 32), Decidable (k1_chk51 v459) := fun v459 => decidable_of_iff' _ (Iff.of_eq (k1_chk51.eq_1 v459))
theorem k1_idx51_inb : ∀ (v459 : IVec S16 32) (k1_hw51 : k1_chk51 v459), ∀ a x, ((![v459] : Fin 1 → IVec S16 32) a x).toNat < S65536.size a := fun v459 k1_hw51 => k1_hw51

def k1_chk52 (v466 : IVec S16 32) : Prop :=
  (∀ a x, ((![v466] : Fin 1 → IVec S16 32) a x).toNat < S65536.size a)
instance k1_chk52.dec : ∀ (v466 : IVec S16 32), Decidable (k1_chk52 v466) := fun v466 => decidable_of_iff' _ (Iff.of_eq (k1_chk52.eq_1 v466))
theorem k1_idx52_inb : ∀ (v466 : IVec S16 32) (k1_hw52 : k1_chk52 v466), ∀ a x, ((![v466] : Fin 1 → IVec S16 32) a x).toNat < S65536.size a := fun v466 k1_hw52 => k1_hw52

def k1_chk53 (v473 : IVec S16 32) : Prop :=
  (∀ a x, ((![v473] : Fin 1 → IVec S16 32) a x).toNat < S65536.size a)
instance k1_chk53.dec : ∀ (v473 : IVec S16 32), Decidable (k1_chk53 v473) := fun v473 => decidable_of_iff' _ (Iff.of_eq (k1_chk53.eq_1 v473))
theorem k1_idx53_inb : ∀ (v473 : IVec S16 32) (k1_hw53 : k1_chk53 v473), ∀ a x, ((![v473] : Fin 1 → IVec S16 32) a x).toNat < S65536.size a := fun v473 k1_hw53 => k1_hw53

def k1_chk54 (v480 : IVec S16 32) : Prop :=
  (∀ a x, ((![v480] : Fin 1 → IVec S16 32) a x).toNat < S65536.size a)
instance k1_chk54.dec : ∀ (v480 : IVec S16 32), Decidable (k1_chk54 v480) := fun v480 => decidable_of_iff' _ (Iff.of_eq (k1_chk54.eq_1 v480))
theorem k1_idx54_inb : ∀ (v480 : IVec S16 32) (k1_hw54 : k1_chk54 v480), ∀ a x, ((![v480] : Fin 1 → IVec S16 32) a x).toNat < S65536.size a := fun v480 k1_hw54 => k1_hw54

def k1_chk55 (v487 : IVec S16 32) : Prop :=
  (∀ a x, ((![v487] : Fin 1 → IVec S16 32) a x).toNat < S65536.size a)
instance k1_chk55.dec : ∀ (v487 : IVec S16 32), Decidable (k1_chk55 v487) := fun v487 => decidable_of_iff' _ (Iff.of_eq (k1_chk55.eq_1 v487))
theorem k1_idx55_inb : ∀ (v487 : IVec S16 32) (k1_hw55 : k1_chk55 v487), ∀ a x, ((![v487] : Fin 1 → IVec S16 32) a x).toNat < S65536.size a := fun v487 k1_hw55 => k1_hw55

def k1_chk56 (v494 : IVec S16 32) : Prop :=
  (∀ a x, ((![v494] : Fin 1 → IVec S16 32) a x).toNat < S65536.size a)
instance k1_chk56.dec : ∀ (v494 : IVec S16 32), Decidable (k1_chk56 v494) := fun v494 => decidable_of_iff' _ (Iff.of_eq (k1_chk56.eq_1 v494))
theorem k1_idx56_inb : ∀ (v494 : IVec S16 32) (k1_hw56 : k1_chk56 v494), ∀ a x, ((![v494] : Fin 1 → IVec S16 32) a x).toNat < S65536.size a := fun v494 k1_hw56 => k1_hw56

def k1_chk57 (v501 : IVec S16 32) : Prop :=
  (∀ a x, ((![v501] : Fin 1 → IVec S16 32) a x).toNat < S65536.size a)
instance k1_chk57.dec : ∀ (v501 : IVec S16 32), Decidable (k1_chk57 v501) := fun v501 => decidable_of_iff' _ (Iff.of_eq (k1_chk57.eq_1 v501))
theorem k1_idx57_inb : ∀ (v501 : IVec S16 32) (k1_hw57 : k1_chk57 v501), ∀ a x, ((![v501] : Fin 1 → IVec S16 32) a x).toNat < S65536.size a := fun v501 k1_hw57 => k1_hw57

def k1_chk58 (v508 : IVec S16 32) : Prop :=
  (∀ a x, ((![v508] : Fin 1 → IVec S16 32) a x).toNat < S65536.size a)
instance k1_chk58.dec : ∀ (v508 : IVec S16 32), Decidable (k1_chk58 v508) := fun v508 => decidable_of_iff' _ (Iff.of_eq (k1_chk58.eq_1 v508))
theorem k1_idx58_inb : ∀ (v508 : IVec S16 32) (k1_hw58 : k1_chk58 v508), ∀ a x, ((![v508] : Fin 1 → IVec S16 32) a x).toNat < S65536.size a := fun v508 k1_hw58 => k1_hw58

def k1_chk59 (v515 : IVec S16 32) : Prop :=
  (∀ a x, ((![v515] : Fin 1 → IVec S16 32) a x).toNat < S65536.size a)
instance k1_chk59.dec : ∀ (v515 : IVec S16 32), Decidable (k1_chk59 v515) := fun v515 => decidable_of_iff' _ (Iff.of_eq (k1_chk59.eq_1 v515))
theorem k1_idx59_inb : ∀ (v515 : IVec S16 32) (k1_hw59 : k1_chk59 v515), ∀ a x, ((![v515] : Fin 1 → IVec S16 32) a x).toNat < S65536.size a := fun v515 k1_hw59 => k1_hw59

def k1_chk60 (v522 : IVec S16 32) : Prop :=
  (∀ a x, ((![v522] : Fin 1 → IVec S16 32) a x).toNat < S65536.size a)
instance k1_chk60.dec : ∀ (v522 : IVec S16 32), Decidable (k1_chk60 v522) := fun v522 => decidable_of_iff' _ (Iff.of_eq (k1_chk60.eq_1 v522))
theorem k1_idx60_inb : ∀ (v522 : IVec S16 32) (k1_hw60 : k1_chk60 v522), ∀ a x, ((![v522] : Fin 1 → IVec S16 32) a x).toNat < S65536.size a := fun v522 k1_hw60 => k1_hw60

def k1_chk61 (v529 : IVec S16 32) : Prop :=
  (∀ a x, ((![v529] : Fin 1 → IVec S16 32) a x).toNat < S65536.size a)
instance k1_chk61.dec : ∀ (v529 : IVec S16 32), Decidable (k1_chk61 v529) := fun v529 => decidable_of_iff' _ (Iff.of_eq (k1_chk61.eq_1 v529))
theorem k1_idx61_inb : ∀ (v529 : IVec S16 32) (k1_hw61 : k1_chk61 v529), ∀ a x, ((![v529] : Fin 1 → IVec S16 32) a x).toNat < S65536.size a := fun v529 k1_hw61 => k1_hw61

def k1_chk62 (v536 : IVec S16 32) : Prop :=
  (∀ a x, ((![v536] : Fin 1 → IVec S16 32) a x).toNat < S65536.size a)
instance k1_chk62.dec : ∀ (v536 : IVec S16 32), Decidable (k1_chk62 v536) := fun v536 => decidable_of_iff' _ (Iff.of_eq (k1_chk62.eq_1 v536))
theorem k1_idx62_inb : ∀ (v536 : IVec S16 32) (k1_hw62 : k1_chk62 v536), ∀ a x, ((![v536] : Fin 1 → IVec S16 32) a x).toNat < S65536.size a := fun v536 k1_hw62 => k1_hw62

def k1_chk63 (v543 : IVec S16 32) : Prop :=
  (∀ a x, ((![v543] : Fin 1 → IVec S16 32) a x).toNat < S65536.size a)
instance k1_chk63.dec : ∀ (v543 : IVec S16 32), Decidable (k1_chk63 v543) := fun v543 => decidable_of_iff' _ (Iff.of_eq (k1_chk63.eq_1 v543))
theorem k1_idx63_inb : ∀ (v543 : IVec S16 32) (k1_hw63 : k1_chk63 v543), ∀ a x, ((![v543] : Fin 1 → IVec S16 32) a x).toNat < S65536.size a := fun v543 k1_hw63 => k1_hw63

def k1_chk64 (v550 : IVec S16 32) : Prop :=
  (∀ a x, ((![v550] : Fin 1 → IVec S16 32) a x).toNat < S65536.size a)
instance k1_chk64.dec : ∀ (v550 : IVec S16 32), Decidable (k1_chk64 v550) := fun v550 => decidable_of_iff' _ (Iff.of_eq (k1_chk64.eq_1 v550))
theorem k1_idx64_inb : ∀ (v550 : IVec S16 32) (k1_hw64 : k1_chk64 v550), ∀ a x, ((![v550] : Fin 1 → IVec S16 32) a x).toNat < S65536.size a := fun v550 k1_hw64 => k1_hw64

def k1_chk65 (v557 : IVec S16 32) : Prop :=
  (∀ a x, ((![v557] : Fin 1 → IVec S16 32) a x).toNat < S65536.size a)
instance k1_chk65.dec : ∀ (v557 : IVec S16 32), Decidable (k1_chk65 v557) := fun v557 => decidable_of_iff' _ (Iff.of_eq (k1_chk65.eq_1 v557))
theorem k1_idx65_inb : ∀ (v557 : IVec S16 32) (k1_hw65 : k1_chk65 v557), ∀ a x, ((![v557] : Fin 1 → IVec S16 32) a x).toNat < S65536.size a := fun v557 k1_hw65 => k1_hw65

def k1_chk66 (v564 : IVec S16 32) : Prop :=
  (∀ a x, ((![v564] : Fin 1 → IVec S16 32) a x).toNat < S65536.size a)
instance k1_chk66.dec : ∀ (v564 : IVec S16 32), Decidable (k1_chk66 v564) := fun v564 => decidable_of_iff' _ (Iff.of_eq (k1_chk66.eq_1 v564))
theorem k1_idx66_inb : ∀ (v564 : IVec S16 32) (k1_hw66 : k1_chk66 v564), ∀ a x, ((![v564] : Fin 1 → IVec S16 32) a x).toNat < S65536.size a := fun v564 k1_hw66 => k1_hw66

def k1_chk67 (v571 : IVec S16 32) : Prop :=
  (∀ a x, ((![v571] : Fin 1 → IVec S16 32) a x).toNat < S65536.size a)
instance k1_chk67.dec : ∀ (v571 : IVec S16 32), Decidable (k1_chk67 v571) := fun v571 => decidable_of_iff' _ (Iff.of_eq (k1_chk67.eq_1 v571))
theorem k1_idx67_inb : ∀ (v571 : IVec S16 32) (k1_hw67 : k1_chk67 v571), ∀ a x, ((![v571] : Fin 1 → IVec S16 32) a x).toNat < S65536.size a := fun v571 k1_hw67 => k1_hw67

def k1_chk68 (v578 : IVec S16 32) : Prop :=
  (∀ a x, ((![v578] : Fin 1 → IVec S16 32) a x).toNat < S65536.size a)
instance k1_chk68.dec : ∀ (v578 : IVec S16 32), Decidable (k1_chk68 v578) := fun v578 => decidable_of_iff' _ (Iff.of_eq (k1_chk68.eq_1 v578))
theorem k1_idx68_inb : ∀ (v578 : IVec S16 32) (k1_hw68 : k1_chk68 v578), ∀ a x, ((![v578] : Fin 1 → IVec S16 32) a x).toNat < S65536.size a := fun v578 k1_hw68 => k1_hw68

def k1_chk69 (v585 : IVec S16 32) : Prop :=
  (∀ a x, ((![v585] : Fin 1 → IVec S16 32) a x).toNat < S65536.size a)
instance k1_chk69.dec : ∀ (v585 : IVec S16 32), Decidable (k1_chk69 v585) := fun v585 => decidable_of_iff' _ (Iff.of_eq (k1_chk69.eq_1 v585))
theorem k1_idx69_inb : ∀ (v585 : IVec S16 32) (k1_hw69 : k1_chk69 v585), ∀ a x, ((![v585] : Fin 1 → IVec S16 32) a x).toNat < S65536.size a := fun v585 k1_hw69 => k1_hw69

def k1_chk70 (v592 : IVec S16 32) : Prop :=
  (∀ a x, ((![v592] : Fin 1 → IVec S16 32) a x).toNat < S65536.size a)
instance k1_chk70.dec : ∀ (v592 : IVec S16 32), Decidable (k1_chk70 v592) := fun v592 => decidable_of_iff' _ (Iff.of_eq (k1_chk70.eq_1 v592))
theorem k1_idx70_inb : ∀ (v592 : IVec S16 32) (k1_hw70 : k1_chk70 v592), ∀ a x, ((![v592] : Fin 1 → IVec S16 32) a x).toNat < S65536.size a := fun v592 k1_hw70 => k1_hw70

def k1_chk71 (v599 : IVec S16 32) : Prop :=
  (∀ a x, ((![v599] : Fin 1 → IVec S16 32) a x).toNat < S65536.size a)
instance k1_chk71.dec : ∀ (v599 : IVec S16 32), Decidable (k1_chk71 v599) := fun v599 => decidable_of_iff' _ (Iff.of_eq (k1_chk71.eq_1 v599))
theorem k1_idx71_inb : ∀ (v599 : IVec S16 32) (k1_hw71 : k1_chk71 v599), ∀ a x, ((![v599] : Fin 1 → IVec S16 32) a x).toNat < S65536.size a := fun v599 k1_hw71 => k1_hw71

def k1_chk72 (v606 : IVec S16 32) : Prop :=
  (∀ a x, ((![v606] : Fin 1 → IVec S16 32) a x).toNat < S65536.size a)
instance k1_chk72.dec : ∀ (v606 : IVec S16 32), Decidable (k1_chk72 v606) := fun v606 => decidable_of_iff' _ (Iff.of_eq (k1_chk72.eq_1 v606))
theorem k1_idx72_inb : ∀ (v606 : IVec S16 32) (k1_hw72 : k1_chk72 v606), ∀ a x, ((![v606] : Fin 1 → IVec S16 32) a x).toNat < S65536.size a := fun v606 k1_hw72 => k1_hw72

def k1_chk73 (v613 : IVec S16 32) : Prop :=
  (∀ a x, ((![v613] : Fin 1 → IVec S16 32) a x).toNat < S65536.size a)
instance k1_chk73.dec : ∀ (v613 : IVec S16 32), Decidable (k1_chk73 v613) := fun v613 => decidable_of_iff' _ (Iff.of_eq (k1_chk73.eq_1 v613))
theorem k1_idx73_inb : ∀ (v613 : IVec S16 32) (k1_hw73 : k1_chk73 v613), ∀ a x, ((![v613] : Fin 1 → IVec S16 32) a x).toNat < S65536.size a := fun v613 k1_hw73 => k1_hw73

def k1_chk74 (v620 : IVec S16 32) : Prop :=
  (∀ a x, ((![v620] : Fin 1 → IVec S16 32) a x).toNat < S65536.size a)
instance k1_chk74.dec : ∀ (v620 : IVec S16 32), Decidable (k1_chk74 v620) := fun v620 => decidable_of_iff' _ (Iff.of_eq (k1_chk74.eq_1 v620))
theorem k1_idx74_inb : ∀ (v620 : IVec S16 32) (k1_hw74 : k1_chk74 v620), ∀ a x, ((![v620] : Fin 1 → IVec S16 32) a x).toNat < S65536.size a := fun v620 k1_hw74 => k1_hw74

def k1_chk75 (v627 : IVec S16 32) : Prop :=
  (∀ a x, ((![v627] : Fin 1 → IVec S16 32) a x).toNat < S65536.size a)
instance k1_chk75.dec : ∀ (v627 : IVec S16 32), Decidable (k1_chk75 v627) := fun v627 => decidable_of_iff' _ (Iff.of_eq (k1_chk75.eq_1 v627))
theorem k1_idx75_inb : ∀ (v627 : IVec S16 32) (k1_hw75 : k1_chk75 v627), ∀ a x, ((![v627] : Fin 1 → IVec S16 32) a x).toNat < S65536.size a := fun v627 k1_hw75 => k1_hw75

def k1_chk76 (v634 : IVec S16 32) : Prop :=
  (∀ a x, ((![v634] : Fin 1 → IVec S16 32) a x).toNat < S65536.size a)
instance k1_chk76.dec : ∀ (v634 : IVec S16 32), Decidable (k1_chk76 v634) := fun v634 => decidable_of_iff' _ (Iff.of_eq (k1_chk76.eq_1 v634))
theorem k1_idx76_inb : ∀ (v634 : IVec S16 32) (k1_hw76 : k1_chk76 v634), ∀ a x, ((![v634] : Fin 1 → IVec S16 32) a x).toNat < S65536.size a := fun v634 k1_hw76 => k1_hw76

def k1_chk77 (v641 : IVec S16 32) : Prop :=
  (∀ a x, ((![v641] : Fin 1 → IVec S16 32) a x).toNat < S65536.size a)
instance k1_chk77.dec : ∀ (v641 : IVec S16 32), Decidable (k1_chk77 v641) := fun v641 => decidable_of_iff' _ (Iff.of_eq (k1_chk77.eq_1 v641))
theorem k1_idx77_inb : ∀ (v641 : IVec S16 32) (k1_hw77 : k1_chk77 v641), ∀ a x, ((![v641] : Fin 1 → IVec S16 32) a x).toNat < S65536.size a := fun v641 k1_hw77 => k1_hw77

def k1_chk78 (v648 : IVec S16 32) : Prop :=
  (∀ a x, ((![v648] : Fin 1 → IVec S16 32) a x).toNat < S65536.size a)
instance k1_chk78.dec : ∀ (v648 : IVec S16 32), Decidable (k1_chk78 v648) := fun v648 => decidable_of_iff' _ (Iff.of_eq (k1_chk78.eq_1 v648))
theorem k1_idx78_inb : ∀ (v648 : IVec S16 32) (k1_hw78 : k1_chk78 v648), ∀ a x, ((![v648] : Fin 1 → IVec S16 32) a x).toNat < S65536.size a := fun v648 k1_hw78 => k1_hw78

def k1_chk79 (v655 : IVec S16 32) : Prop :=
  (∀ a x, ((![v655] : Fin 1 → IVec S16 32) a x).toNat < S65536.size a)
instance k1_chk79.dec : ∀ (v655 : IVec S16 32), Decidable (k1_chk79 v655) := fun v655 => decidable_of_iff' _ (Iff.of_eq (k1_chk79.eq_1 v655))
theorem k1_idx79_inb : ∀ (v655 : IVec S16 32) (k1_hw79 : k1_chk79 v655), ∀ a x, ((![v655] : Fin 1 → IVec S16 32) a x).toNat < S65536.size a := fun v655 k1_hw79 => k1_hw79

def k1_chk80 (v662 : IVec S16 32) : Prop :=
  (∀ a x, ((![v662] : Fin 1 → IVec S16 32) a x).toNat < S65536.size a)
instance k1_chk80.dec : ∀ (v662 : IVec S16 32), Decidable (k1_chk80 v662) := fun v662 => decidable_of_iff' _ (Iff.of_eq (k1_chk80.eq_1 v662))
theorem k1_idx80_inb : ∀ (v662 : IVec S16 32) (k1_hw80 : k1_chk80 v662), ∀ a x, ((![v662] : Fin 1 → IVec S16 32) a x).toNat < S65536.size a := fun v662 k1_hw80 => k1_hw80
def k1_off24 (k1_t1 : Fin k1_t1_loop.trips) (k1_t2 : Fin k1_t2_loop.trips) (c0_i32_287 : BitVec 32) : Fin 2 → Nat :=
  let c0_i32_43 : BitVec 32 := 0#32
  let c1_i32_45 : BitVec 32 := 1#32
  let arg11 : BitVec 32 := Scf.iv c0_i32_43 c1_i32_45 k1_t2
  let c4_i32_286 : BitVec 32 := 4#32
  let v665 : BitVec 32 := Scalar.muli arg11 c4_i32_286
  let v666 : BitVec 32 := Scalar.addi v665 c0_i32_287
  let v667 : Index := Scalar.indexCast v666
  let c0_i32_11 : BitVec 32 := 0#32
  let c1_i32_12 : BitVec 32 := 1#32
  let arg10 : BitVec 32 := Scf.iv c0_i32_11 c1_i32_12 k1_t1
  let c16_i32_36 : BitVec 32 := 16#32
  let v43 : BitVec 32 := Scalar.muli arg10 c16_i32_36
  let v668 : Index := Scalar.indexCast v43
  ![v667.toNat, v668.toNat]
def k1_off25 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_36_r4 : BitVec 32 := 0#32
  let c1024_i32_r4 : BitVec 32 := 1024#32
  ![v18.toNat, 0, 1024]
def k1_off26 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_15 : BitVec 32 := 16#32
  let v34 : BitVec 32 := Scalar.muli v28 c16_i32_15
  let c1024_i32_r5 : BitVec 32 := 1024#32
  ![v18.toNat, v34.toNat, 1024]
@[reducible] def k1_t3_loop : Scf.Loop 32 :=
  let c0_i32_17 : BitVec 32 := 0#32
  let c64_i32_18 : BitVec 32 := 64#32
  let v35 : BitVec 32 := Scalar.addi c0_i32_17 c64_i32_18
  let c1_i32_19 : BitVec 32 := 1#32
  ⟨c0_i32_17, v35, c1_i32_19⟩
def k1_off27 (k1_t3 : Fin k1_t3_loop.trips) : Fin 2 → Nat :=
  let c0_i32_37 : BitVec 32 := 0#32
  let v44 : Index := Scalar.indexCast c0_i32_37
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v45 : Index := Scalar.indexCast v43
  ![0, v45.toNat]
def k1_off28 (k1_t3 : Fin k1_t3_loop.trips) : Fin 2 → Nat :=
  let c1_i32_38 : BitVec 32 := 1#32
  let v47 : Index := Scalar.indexCast c1_i32_38
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v48 : Index := Scalar.indexCast v43
  ![1, v48.toNat]
def k1_off29 (k1_t3 : Fin k1_t3_loop.trips) : Fin 2 → Nat :=
  let c2_i32_39 : BitVec 32 := 2#32
  let v50 : Index := Scalar.indexCast c2_i32_39
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v51 : Index := Scalar.indexCast v43
  ![2, v51.toNat]
def k1_off30 (k1_t3 : Fin k1_t3_loop.trips) : Fin 2 → Nat :=
  let c3_i32 : BitVec 32 := 3#32
  let v53 : Index := Scalar.indexCast c3_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v54 : Index := Scalar.indexCast v43
  ![3, v54.toNat]
def k1_off31 (k1_t3 : Fin k1_t3_loop.trips) : Fin 2 → Nat :=
  let c4_i32_40 : BitVec 32 := 4#32
  let v56 : Index := Scalar.indexCast c4_i32_40
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v57 : Index := Scalar.indexCast v43
  ![4, v57.toNat]
def k1_off32 (k1_t3 : Fin k1_t3_loop.trips) : Fin 2 → Nat :=
  let c5_i32 : BitVec 32 := 5#32
  let v59 : Index := Scalar.indexCast c5_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v60 : Index := Scalar.indexCast v43
  ![5, v60.toNat]
def k1_off33 (k1_t3 : Fin k1_t3_loop.trips) : Fin 2 → Nat :=
  let c6_i32 : BitVec 32 := 6#32
  let v62 : Index := Scalar.indexCast c6_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v63 : Index := Scalar.indexCast v43
  ![6, v63.toNat]
def k1_off34 (k1_t3 : Fin k1_t3_loop.trips) : Fin 2 → Nat :=
  let c7_i32 : BitVec 32 := 7#32
  let v65 : Index := Scalar.indexCast c7_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v66 : Index := Scalar.indexCast v43
  ![7, v66.toNat]
def k1_off35 (k1_t3 : Fin k1_t3_loop.trips) : Fin 2 → Nat :=
  let c8_i32 : BitVec 32 := 8#32
  let v68 : Index := Scalar.indexCast c8_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v69 : Index := Scalar.indexCast v43
  ![8, v69.toNat]
def k1_off36 (k1_t3 : Fin k1_t3_loop.trips) : Fin 2 → Nat :=
  let c9_i32 : BitVec 32 := 9#32
  let v71 : Index := Scalar.indexCast c9_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v72 : Index := Scalar.indexCast v43
  ![9, v72.toNat]
def k1_off37 (k1_t3 : Fin k1_t3_loop.trips) : Fin 2 → Nat :=
  let c10_i32 : BitVec 32 := 10#32
  let v74 : Index := Scalar.indexCast c10_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v75 : Index := Scalar.indexCast v43
  ![10, v75.toNat]
def k1_off38 (k1_t3 : Fin k1_t3_loop.trips) : Fin 2 → Nat :=
  let c11_i32 : BitVec 32 := 11#32
  let v77 : Index := Scalar.indexCast c11_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v78 : Index := Scalar.indexCast v43
  ![11, v78.toNat]
def k1_off39 (k1_t3 : Fin k1_t3_loop.trips) : Fin 2 → Nat :=
  let c12_i32 : BitVec 32 := 12#32
  let v80 : Index := Scalar.indexCast c12_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v81 : Index := Scalar.indexCast v43
  ![12, v81.toNat]
def k1_off40 (k1_t3 : Fin k1_t3_loop.trips) : Fin 2 → Nat :=
  let c13_i32 : BitVec 32 := 13#32
  let v83 : Index := Scalar.indexCast c13_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v84 : Index := Scalar.indexCast v43
  ![13, v84.toNat]
def k1_off41 (k1_t3 : Fin k1_t3_loop.trips) : Fin 2 → Nat :=
  let c14_i32 : BitVec 32 := 14#32
  let v86 : Index := Scalar.indexCast c14_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v87 : Index := Scalar.indexCast v43
  ![14, v87.toNat]
def k1_off42 (k1_t3 : Fin k1_t3_loop.trips) : Fin 2 → Nat :=
  let c15_i32 : BitVec 32 := 15#32
  let v89 : Index := Scalar.indexCast c15_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v90 : Index := Scalar.indexCast v43
  ![15, v90.toNat]
def k1_off43 (k1_t3 : Fin k1_t3_loop.trips) : Fin 2 → Nat :=
  let c16_i32_41 : BitVec 32 := 16#32
  let v92 : Index := Scalar.indexCast c16_i32_41
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v93 : Index := Scalar.indexCast v43
  ![16, v93.toNat]
def k1_off44 (k1_t3 : Fin k1_t3_loop.trips) : Fin 2 → Nat :=
  let c17_i32 : BitVec 32 := 17#32
  let v95 : Index := Scalar.indexCast c17_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v96 : Index := Scalar.indexCast v43
  ![17, v96.toNat]
def k1_off45 (k1_t3 : Fin k1_t3_loop.trips) : Fin 2 → Nat :=
  let c18_i32 : BitVec 32 := 18#32
  let v98 : Index := Scalar.indexCast c18_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v99 : Index := Scalar.indexCast v43
  ![18, v99.toNat]
def k1_off46 (k1_t3 : Fin k1_t3_loop.trips) : Fin 2 → Nat :=
  let c19_i32 : BitVec 32 := 19#32
  let v101 : Index := Scalar.indexCast c19_i32
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v102 : Index := Scalar.indexCast v43
  ![19, v102.toNat]
@[reducible] def k1_t4_loop : Scf.Loop 32 :=
  let c0_i32_43 : BitVec 32 := 0#32
  let c4_i32_44 : BitVec 32 := 4#32
  let v104 : BitVec 32 := Scalar.addi c0_i32_43 c4_i32_44
  let c1_i32_45 : BitVec 32 := 1#32
  ⟨c0_i32_43, v104, c1_i32_45⟩

def k1_chk81 (v109 : IVec S16 32) : Prop :=
  (∀ a x, ((![v109] : Fin 1 → IVec S16 32) a x).toNat < S65536.size a)
instance k1_chk81.dec : ∀ (v109 : IVec S16 32), Decidable (k1_chk81 v109) := fun v109 => decidable_of_iff' _ (Iff.of_eq (k1_chk81.eq_1 v109))
theorem k1_idx81_inb : ∀ (v109 : IVec S16 32) (k1_hw81 : k1_chk81 v109), ∀ a x, ((![v109] : Fin 1 → IVec S16 32) a x).toNat < S65536.size a := fun v109 k1_hw81 => k1_hw81

def k1_chk82 (v116 : IVec S16 32) : Prop :=
  (∀ a x, ((![v116] : Fin 1 → IVec S16 32) a x).toNat < S65536.size a)
instance k1_chk82.dec : ∀ (v116 : IVec S16 32), Decidable (k1_chk82 v116) := fun v116 => decidable_of_iff' _ (Iff.of_eq (k1_chk82.eq_1 v116))
theorem k1_idx82_inb : ∀ (v116 : IVec S16 32) (k1_hw82 : k1_chk82 v116), ∀ a x, ((![v116] : Fin 1 → IVec S16 32) a x).toNat < S65536.size a := fun v116 k1_hw82 => k1_hw82

def k1_chk83 (v123 : IVec S16 32) : Prop :=
  (∀ a x, ((![v123] : Fin 1 → IVec S16 32) a x).toNat < S65536.size a)
instance k1_chk83.dec : ∀ (v123 : IVec S16 32), Decidable (k1_chk83 v123) := fun v123 => decidable_of_iff' _ (Iff.of_eq (k1_chk83.eq_1 v123))
theorem k1_idx83_inb : ∀ (v123 : IVec S16 32) (k1_hw83 : k1_chk83 v123), ∀ a x, ((![v123] : Fin 1 → IVec S16 32) a x).toNat < S65536.size a := fun v123 k1_hw83 => k1_hw83

def k1_chk84 (v130 : IVec S16 32) : Prop :=
  (∀ a x, ((![v130] : Fin 1 → IVec S16 32) a x).toNat < S65536.size a)
instance k1_chk84.dec : ∀ (v130 : IVec S16 32), Decidable (k1_chk84 v130) := fun v130 => decidable_of_iff' _ (Iff.of_eq (k1_chk84.eq_1 v130))
theorem k1_idx84_inb : ∀ (v130 : IVec S16 32) (k1_hw84 : k1_chk84 v130), ∀ a x, ((![v130] : Fin 1 → IVec S16 32) a x).toNat < S65536.size a := fun v130 k1_hw84 => k1_hw84

def k1_chk85 (v137 : IVec S16 32) : Prop :=
  (∀ a x, ((![v137] : Fin 1 → IVec S16 32) a x).toNat < S65536.size a)
instance k1_chk85.dec : ∀ (v137 : IVec S16 32), Decidable (k1_chk85 v137) := fun v137 => decidable_of_iff' _ (Iff.of_eq (k1_chk85.eq_1 v137))
theorem k1_idx85_inb : ∀ (v137 : IVec S16 32) (k1_hw85 : k1_chk85 v137), ∀ a x, ((![v137] : Fin 1 → IVec S16 32) a x).toNat < S65536.size a := fun v137 k1_hw85 => k1_hw85

def k1_chk86 (v144 : IVec S16 32) : Prop :=
  (∀ a x, ((![v144] : Fin 1 → IVec S16 32) a x).toNat < S65536.size a)
instance k1_chk86.dec : ∀ (v144 : IVec S16 32), Decidable (k1_chk86 v144) := fun v144 => decidable_of_iff' _ (Iff.of_eq (k1_chk86.eq_1 v144))
theorem k1_idx86_inb : ∀ (v144 : IVec S16 32) (k1_hw86 : k1_chk86 v144), ∀ a x, ((![v144] : Fin 1 → IVec S16 32) a x).toNat < S65536.size a := fun v144 k1_hw86 => k1_hw86

def k1_chk87 (v151 : IVec S16 32) : Prop :=
  (∀ a x, ((![v151] : Fin 1 → IVec S16 32) a x).toNat < S65536.size a)
instance k1_chk87.dec : ∀ (v151 : IVec S16 32), Decidable (k1_chk87 v151) := fun v151 => decidable_of_iff' _ (Iff.of_eq (k1_chk87.eq_1 v151))
theorem k1_idx87_inb : ∀ (v151 : IVec S16 32) (k1_hw87 : k1_chk87 v151), ∀ a x, ((![v151] : Fin 1 → IVec S16 32) a x).toNat < S65536.size a := fun v151 k1_hw87 => k1_hw87

def k1_chk88 (v158 : IVec S16 32) : Prop :=
  (∀ a x, ((![v158] : Fin 1 → IVec S16 32) a x).toNat < S65536.size a)
instance k1_chk88.dec : ∀ (v158 : IVec S16 32), Decidable (k1_chk88 v158) := fun v158 => decidable_of_iff' _ (Iff.of_eq (k1_chk88.eq_1 v158))
theorem k1_idx88_inb : ∀ (v158 : IVec S16 32) (k1_hw88 : k1_chk88 v158), ∀ a x, ((![v158] : Fin 1 → IVec S16 32) a x).toNat < S65536.size a := fun v158 k1_hw88 => k1_hw88

def k1_chk89 (v165 : IVec S16 32) : Prop :=
  (∀ a x, ((![v165] : Fin 1 → IVec S16 32) a x).toNat < S65536.size a)
instance k1_chk89.dec : ∀ (v165 : IVec S16 32), Decidable (k1_chk89 v165) := fun v165 => decidable_of_iff' _ (Iff.of_eq (k1_chk89.eq_1 v165))
theorem k1_idx89_inb : ∀ (v165 : IVec S16 32) (k1_hw89 : k1_chk89 v165), ∀ a x, ((![v165] : Fin 1 → IVec S16 32) a x).toNat < S65536.size a := fun v165 k1_hw89 => k1_hw89

def k1_chk90 (v172 : IVec S16 32) : Prop :=
  (∀ a x, ((![v172] : Fin 1 → IVec S16 32) a x).toNat < S65536.size a)
instance k1_chk90.dec : ∀ (v172 : IVec S16 32), Decidable (k1_chk90 v172) := fun v172 => decidable_of_iff' _ (Iff.of_eq (k1_chk90.eq_1 v172))
theorem k1_idx90_inb : ∀ (v172 : IVec S16 32) (k1_hw90 : k1_chk90 v172), ∀ a x, ((![v172] : Fin 1 → IVec S16 32) a x).toNat < S65536.size a := fun v172 k1_hw90 => k1_hw90

def k1_chk91 (v179 : IVec S16 32) : Prop :=
  (∀ a x, ((![v179] : Fin 1 → IVec S16 32) a x).toNat < S65536.size a)
instance k1_chk91.dec : ∀ (v179 : IVec S16 32), Decidable (k1_chk91 v179) := fun v179 => decidable_of_iff' _ (Iff.of_eq (k1_chk91.eq_1 v179))
theorem k1_idx91_inb : ∀ (v179 : IVec S16 32) (k1_hw91 : k1_chk91 v179), ∀ a x, ((![v179] : Fin 1 → IVec S16 32) a x).toNat < S65536.size a := fun v179 k1_hw91 => k1_hw91

def k1_chk92 (v186 : IVec S16 32) : Prop :=
  (∀ a x, ((![v186] : Fin 1 → IVec S16 32) a x).toNat < S65536.size a)
instance k1_chk92.dec : ∀ (v186 : IVec S16 32), Decidable (k1_chk92 v186) := fun v186 => decidable_of_iff' _ (Iff.of_eq (k1_chk92.eq_1 v186))
theorem k1_idx92_inb : ∀ (v186 : IVec S16 32) (k1_hw92 : k1_chk92 v186), ∀ a x, ((![v186] : Fin 1 → IVec S16 32) a x).toNat < S65536.size a := fun v186 k1_hw92 => k1_hw92

def k1_chk93 (v193 : IVec S16 32) : Prop :=
  (∀ a x, ((![v193] : Fin 1 → IVec S16 32) a x).toNat < S65536.size a)
instance k1_chk93.dec : ∀ (v193 : IVec S16 32), Decidable (k1_chk93 v193) := fun v193 => decidable_of_iff' _ (Iff.of_eq (k1_chk93.eq_1 v193))
theorem k1_idx93_inb : ∀ (v193 : IVec S16 32) (k1_hw93 : k1_chk93 v193), ∀ a x, ((![v193] : Fin 1 → IVec S16 32) a x).toNat < S65536.size a := fun v193 k1_hw93 => k1_hw93

def k1_chk94 (v200 : IVec S16 32) : Prop :=
  (∀ a x, ((![v200] : Fin 1 → IVec S16 32) a x).toNat < S65536.size a)
instance k1_chk94.dec : ∀ (v200 : IVec S16 32), Decidable (k1_chk94 v200) := fun v200 => decidable_of_iff' _ (Iff.of_eq (k1_chk94.eq_1 v200))
theorem k1_idx94_inb : ∀ (v200 : IVec S16 32) (k1_hw94 : k1_chk94 v200), ∀ a x, ((![v200] : Fin 1 → IVec S16 32) a x).toNat < S65536.size a := fun v200 k1_hw94 => k1_hw94

def k1_chk95 (v207 : IVec S16 32) : Prop :=
  (∀ a x, ((![v207] : Fin 1 → IVec S16 32) a x).toNat < S65536.size a)
instance k1_chk95.dec : ∀ (v207 : IVec S16 32), Decidable (k1_chk95 v207) := fun v207 => decidable_of_iff' _ (Iff.of_eq (k1_chk95.eq_1 v207))
theorem k1_idx95_inb : ∀ (v207 : IVec S16 32) (k1_hw95 : k1_chk95 v207), ∀ a x, ((![v207] : Fin 1 → IVec S16 32) a x).toNat < S65536.size a := fun v207 k1_hw95 => k1_hw95

def k1_chk96 (v214 : IVec S16 32) : Prop :=
  (∀ a x, ((![v214] : Fin 1 → IVec S16 32) a x).toNat < S65536.size a)
instance k1_chk96.dec : ∀ (v214 : IVec S16 32), Decidable (k1_chk96 v214) := fun v214 => decidable_of_iff' _ (Iff.of_eq (k1_chk96.eq_1 v214))
theorem k1_idx96_inb : ∀ (v214 : IVec S16 32) (k1_hw96 : k1_chk96 v214), ∀ a x, ((![v214] : Fin 1 → IVec S16 32) a x).toNat < S65536.size a := fun v214 k1_hw96 => k1_hw96

def k1_chk97 (v221 : IVec S16 32) : Prop :=
  (∀ a x, ((![v221] : Fin 1 → IVec S16 32) a x).toNat < S65536.size a)
instance k1_chk97.dec : ∀ (v221 : IVec S16 32), Decidable (k1_chk97 v221) := fun v221 => decidable_of_iff' _ (Iff.of_eq (k1_chk97.eq_1 v221))
theorem k1_idx97_inb : ∀ (v221 : IVec S16 32) (k1_hw97 : k1_chk97 v221), ∀ a x, ((![v221] : Fin 1 → IVec S16 32) a x).toNat < S65536.size a := fun v221 k1_hw97 => k1_hw97

def k1_chk98 (v228 : IVec S16 32) : Prop :=
  (∀ a x, ((![v228] : Fin 1 → IVec S16 32) a x).toNat < S65536.size a)
instance k1_chk98.dec : ∀ (v228 : IVec S16 32), Decidable (k1_chk98 v228) := fun v228 => decidable_of_iff' _ (Iff.of_eq (k1_chk98.eq_1 v228))
theorem k1_idx98_inb : ∀ (v228 : IVec S16 32) (k1_hw98 : k1_chk98 v228), ∀ a x, ((![v228] : Fin 1 → IVec S16 32) a x).toNat < S65536.size a := fun v228 k1_hw98 => k1_hw98

def k1_chk99 (v235 : IVec S16 32) : Prop :=
  (∀ a x, ((![v235] : Fin 1 → IVec S16 32) a x).toNat < S65536.size a)
instance k1_chk99.dec : ∀ (v235 : IVec S16 32), Decidable (k1_chk99 v235) := fun v235 => decidable_of_iff' _ (Iff.of_eq (k1_chk99.eq_1 v235))
theorem k1_idx99_inb : ∀ (v235 : IVec S16 32) (k1_hw99 : k1_chk99 v235), ∀ a x, ((![v235] : Fin 1 → IVec S16 32) a x).toNat < S65536.size a := fun v235 k1_hw99 => k1_hw99

def k1_chk100 (v242 : IVec S16 32) : Prop :=
  (∀ a x, ((![v242] : Fin 1 → IVec S16 32) a x).toNat < S65536.size a)
instance k1_chk100.dec : ∀ (v242 : IVec S16 32), Decidable (k1_chk100 v242) := fun v242 => decidable_of_iff' _ (Iff.of_eq (k1_chk100.eq_1 v242))
theorem k1_idx100_inb : ∀ (v242 : IVec S16 32) (k1_hw100 : k1_chk100 v242), ∀ a x, ((![v242] : Fin 1 → IVec S16 32) a x).toNat < S65536.size a := fun v242 k1_hw100 => k1_hw100

def k1_chk101 (v249 : IVec S16 32) : Prop :=
  (∀ a x, ((![v249] : Fin 1 → IVec S16 32) a x).toNat < S65536.size a)
instance k1_chk101.dec : ∀ (v249 : IVec S16 32), Decidable (k1_chk101 v249) := fun v249 => decidable_of_iff' _ (Iff.of_eq (k1_chk101.eq_1 v249))
theorem k1_idx101_inb : ∀ (v249 : IVec S16 32) (k1_hw101 : k1_chk101 v249), ∀ a x, ((![v249] : Fin 1 → IVec S16 32) a x).toNat < S65536.size a := fun v249 k1_hw101 => k1_hw101

def k1_chk102 (v256 : IVec S16 32) : Prop :=
  (∀ a x, ((![v256] : Fin 1 → IVec S16 32) a x).toNat < S65536.size a)
instance k1_chk102.dec : ∀ (v256 : IVec S16 32), Decidable (k1_chk102 v256) := fun v256 => decidable_of_iff' _ (Iff.of_eq (k1_chk102.eq_1 v256))
theorem k1_idx102_inb : ∀ (v256 : IVec S16 32) (k1_hw102 : k1_chk102 v256), ∀ a x, ((![v256] : Fin 1 → IVec S16 32) a x).toNat < S65536.size a := fun v256 k1_hw102 => k1_hw102

def k1_chk103 (v263 : IVec S16 32) : Prop :=
  (∀ a x, ((![v263] : Fin 1 → IVec S16 32) a x).toNat < S65536.size a)
instance k1_chk103.dec : ∀ (v263 : IVec S16 32), Decidable (k1_chk103 v263) := fun v263 => decidable_of_iff' _ (Iff.of_eq (k1_chk103.eq_1 v263))
theorem k1_idx103_inb : ∀ (v263 : IVec S16 32) (k1_hw103 : k1_chk103 v263), ∀ a x, ((![v263] : Fin 1 → IVec S16 32) a x).toNat < S65536.size a := fun v263 k1_hw103 => k1_hw103

def k1_chk104 (v270 : IVec S16 32) : Prop :=
  (∀ a x, ((![v270] : Fin 1 → IVec S16 32) a x).toNat < S65536.size a)
instance k1_chk104.dec : ∀ (v270 : IVec S16 32), Decidable (k1_chk104 v270) := fun v270 => decidable_of_iff' _ (Iff.of_eq (k1_chk104.eq_1 v270))
theorem k1_idx104_inb : ∀ (v270 : IVec S16 32) (k1_hw104 : k1_chk104 v270), ∀ a x, ((![v270] : Fin 1 → IVec S16 32) a x).toNat < S65536.size a := fun v270 k1_hw104 => k1_hw104

def k1_chk105 (v277 : IVec S16 32) : Prop :=
  (∀ a x, ((![v277] : Fin 1 → IVec S16 32) a x).toNat < S65536.size a)
instance k1_chk105.dec : ∀ (v277 : IVec S16 32), Decidable (k1_chk105 v277) := fun v277 => decidable_of_iff' _ (Iff.of_eq (k1_chk105.eq_1 v277))
theorem k1_idx105_inb : ∀ (v277 : IVec S16 32) (k1_hw105 : k1_chk105 v277), ∀ a x, ((![v277] : Fin 1 → IVec S16 32) a x).toNat < S65536.size a := fun v277 k1_hw105 => k1_hw105

def k1_chk106 (v284 : IVec S16 32) : Prop :=
  (∀ a x, ((![v284] : Fin 1 → IVec S16 32) a x).toNat < S65536.size a)
instance k1_chk106.dec : ∀ (v284 : IVec S16 32), Decidable (k1_chk106 v284) := fun v284 => decidable_of_iff' _ (Iff.of_eq (k1_chk106.eq_1 v284))
theorem k1_idx106_inb : ∀ (v284 : IVec S16 32) (k1_hw106 : k1_chk106 v284), ∀ a x, ((![v284] : Fin 1 → IVec S16 32) a x).toNat < S65536.size a := fun v284 k1_hw106 => k1_hw106

def k1_chk107 (v291 : IVec S16 32) : Prop :=
  (∀ a x, ((![v291] : Fin 1 → IVec S16 32) a x).toNat < S65536.size a)
instance k1_chk107.dec : ∀ (v291 : IVec S16 32), Decidable (k1_chk107 v291) := fun v291 => decidable_of_iff' _ (Iff.of_eq (k1_chk107.eq_1 v291))
theorem k1_idx107_inb : ∀ (v291 : IVec S16 32) (k1_hw107 : k1_chk107 v291), ∀ a x, ((![v291] : Fin 1 → IVec S16 32) a x).toNat < S65536.size a := fun v291 k1_hw107 => k1_hw107

def k1_chk108 (v298 : IVec S16 32) : Prop :=
  (∀ a x, ((![v298] : Fin 1 → IVec S16 32) a x).toNat < S65536.size a)
instance k1_chk108.dec : ∀ (v298 : IVec S16 32), Decidable (k1_chk108 v298) := fun v298 => decidable_of_iff' _ (Iff.of_eq (k1_chk108.eq_1 v298))
theorem k1_idx108_inb : ∀ (v298 : IVec S16 32) (k1_hw108 : k1_chk108 v298), ∀ a x, ((![v298] : Fin 1 → IVec S16 32) a x).toNat < S65536.size a := fun v298 k1_hw108 => k1_hw108

def k1_chk109 (v305 : IVec S16 32) : Prop :=
  (∀ a x, ((![v305] : Fin 1 → IVec S16 32) a x).toNat < S65536.size a)
instance k1_chk109.dec : ∀ (v305 : IVec S16 32), Decidable (k1_chk109 v305) := fun v305 => decidable_of_iff' _ (Iff.of_eq (k1_chk109.eq_1 v305))
theorem k1_idx109_inb : ∀ (v305 : IVec S16 32) (k1_hw109 : k1_chk109 v305), ∀ a x, ((![v305] : Fin 1 → IVec S16 32) a x).toNat < S65536.size a := fun v305 k1_hw109 => k1_hw109

def k1_chk110 (v312 : IVec S16 32) : Prop :=
  (∀ a x, ((![v312] : Fin 1 → IVec S16 32) a x).toNat < S65536.size a)
instance k1_chk110.dec : ∀ (v312 : IVec S16 32), Decidable (k1_chk110 v312) := fun v312 => decidable_of_iff' _ (Iff.of_eq (k1_chk110.eq_1 v312))
theorem k1_idx110_inb : ∀ (v312 : IVec S16 32) (k1_hw110 : k1_chk110 v312), ∀ a x, ((![v312] : Fin 1 → IVec S16 32) a x).toNat < S65536.size a := fun v312 k1_hw110 => k1_hw110

def k1_chk111 (v319 : IVec S16 32) : Prop :=
  (∀ a x, ((![v319] : Fin 1 → IVec S16 32) a x).toNat < S65536.size a)
instance k1_chk111.dec : ∀ (v319 : IVec S16 32), Decidable (k1_chk111 v319) := fun v319 => decidable_of_iff' _ (Iff.of_eq (k1_chk111.eq_1 v319))
theorem k1_idx111_inb : ∀ (v319 : IVec S16 32) (k1_hw111 : k1_chk111 v319), ∀ a x, ((![v319] : Fin 1 → IVec S16 32) a x).toNat < S65536.size a := fun v319 k1_hw111 => k1_hw111

def k1_chk112 (v326 : IVec S16 32) : Prop :=
  (∀ a x, ((![v326] : Fin 1 → IVec S16 32) a x).toNat < S65536.size a)
instance k1_chk112.dec : ∀ (v326 : IVec S16 32), Decidable (k1_chk112 v326) := fun v326 => decidable_of_iff' _ (Iff.of_eq (k1_chk112.eq_1 v326))
theorem k1_idx112_inb : ∀ (v326 : IVec S16 32) (k1_hw112 : k1_chk112 v326), ∀ a x, ((![v326] : Fin 1 → IVec S16 32) a x).toNat < S65536.size a := fun v326 k1_hw112 => k1_hw112

def k1_chk113 (v333 : IVec S16 32) : Prop :=
  (∀ a x, ((![v333] : Fin 1 → IVec S16 32) a x).toNat < S65536.size a)
instance k1_chk113.dec : ∀ (v333 : IVec S16 32), Decidable (k1_chk113 v333) := fun v333 => decidable_of_iff' _ (Iff.of_eq (k1_chk113.eq_1 v333))
theorem k1_idx113_inb : ∀ (v333 : IVec S16 32) (k1_hw113 : k1_chk113 v333), ∀ a x, ((![v333] : Fin 1 → IVec S16 32) a x).toNat < S65536.size a := fun v333 k1_hw113 => k1_hw113

def k1_chk114 (v340 : IVec S16 32) : Prop :=
  (∀ a x, ((![v340] : Fin 1 → IVec S16 32) a x).toNat < S65536.size a)
instance k1_chk114.dec : ∀ (v340 : IVec S16 32), Decidable (k1_chk114 v340) := fun v340 => decidable_of_iff' _ (Iff.of_eq (k1_chk114.eq_1 v340))
theorem k1_idx114_inb : ∀ (v340 : IVec S16 32) (k1_hw114 : k1_chk114 v340), ∀ a x, ((![v340] : Fin 1 → IVec S16 32) a x).toNat < S65536.size a := fun v340 k1_hw114 => k1_hw114

def k1_chk115 (v347 : IVec S16 32) : Prop :=
  (∀ a x, ((![v347] : Fin 1 → IVec S16 32) a x).toNat < S65536.size a)
instance k1_chk115.dec : ∀ (v347 : IVec S16 32), Decidable (k1_chk115 v347) := fun v347 => decidable_of_iff' _ (Iff.of_eq (k1_chk115.eq_1 v347))
theorem k1_idx115_inb : ∀ (v347 : IVec S16 32) (k1_hw115 : k1_chk115 v347), ∀ a x, ((![v347] : Fin 1 → IVec S16 32) a x).toNat < S65536.size a := fun v347 k1_hw115 => k1_hw115

def k1_chk116 (v354 : IVec S16 32) : Prop :=
  (∀ a x, ((![v354] : Fin 1 → IVec S16 32) a x).toNat < S65536.size a)
instance k1_chk116.dec : ∀ (v354 : IVec S16 32), Decidable (k1_chk116 v354) := fun v354 => decidable_of_iff' _ (Iff.of_eq (k1_chk116.eq_1 v354))
theorem k1_idx116_inb : ∀ (v354 : IVec S16 32) (k1_hw116 : k1_chk116 v354), ∀ a x, ((![v354] : Fin 1 → IVec S16 32) a x).toNat < S65536.size a := fun v354 k1_hw116 => k1_hw116

def k1_chk117 (v361 : IVec S16 32) : Prop :=
  (∀ a x, ((![v361] : Fin 1 → IVec S16 32) a x).toNat < S65536.size a)
instance k1_chk117.dec : ∀ (v361 : IVec S16 32), Decidable (k1_chk117 v361) := fun v361 => decidable_of_iff' _ (Iff.of_eq (k1_chk117.eq_1 v361))
theorem k1_idx117_inb : ∀ (v361 : IVec S16 32) (k1_hw117 : k1_chk117 v361), ∀ a x, ((![v361] : Fin 1 → IVec S16 32) a x).toNat < S65536.size a := fun v361 k1_hw117 => k1_hw117

def k1_chk118 (v368 : IVec S16 32) : Prop :=
  (∀ a x, ((![v368] : Fin 1 → IVec S16 32) a x).toNat < S65536.size a)
instance k1_chk118.dec : ∀ (v368 : IVec S16 32), Decidable (k1_chk118 v368) := fun v368 => decidable_of_iff' _ (Iff.of_eq (k1_chk118.eq_1 v368))
theorem k1_idx118_inb : ∀ (v368 : IVec S16 32) (k1_hw118 : k1_chk118 v368), ∀ a x, ((![v368] : Fin 1 → IVec S16 32) a x).toNat < S65536.size a := fun v368 k1_hw118 => k1_hw118

def k1_chk119 (v375 : IVec S16 32) : Prop :=
  (∀ a x, ((![v375] : Fin 1 → IVec S16 32) a x).toNat < S65536.size a)
instance k1_chk119.dec : ∀ (v375 : IVec S16 32), Decidable (k1_chk119 v375) := fun v375 => decidable_of_iff' _ (Iff.of_eq (k1_chk119.eq_1 v375))
theorem k1_idx119_inb : ∀ (v375 : IVec S16 32) (k1_hw119 : k1_chk119 v375), ∀ a x, ((![v375] : Fin 1 → IVec S16 32) a x).toNat < S65536.size a := fun v375 k1_hw119 => k1_hw119

def k1_chk120 (v382 : IVec S16 32) : Prop :=
  (∀ a x, ((![v382] : Fin 1 → IVec S16 32) a x).toNat < S65536.size a)
instance k1_chk120.dec : ∀ (v382 : IVec S16 32), Decidable (k1_chk120 v382) := fun v382 => decidable_of_iff' _ (Iff.of_eq (k1_chk120.eq_1 v382))
theorem k1_idx120_inb : ∀ (v382 : IVec S16 32) (k1_hw120 : k1_chk120 v382), ∀ a x, ((![v382] : Fin 1 → IVec S16 32) a x).toNat < S65536.size a := fun v382 k1_hw120 => k1_hw120

def k1_chk121 (v389 : IVec S16 32) : Prop :=
  (∀ a x, ((![v389] : Fin 1 → IVec S16 32) a x).toNat < S65536.size a)
instance k1_chk121.dec : ∀ (v389 : IVec S16 32), Decidable (k1_chk121 v389) := fun v389 => decidable_of_iff' _ (Iff.of_eq (k1_chk121.eq_1 v389))
theorem k1_idx121_inb : ∀ (v389 : IVec S16 32) (k1_hw121 : k1_chk121 v389), ∀ a x, ((![v389] : Fin 1 → IVec S16 32) a x).toNat < S65536.size a := fun v389 k1_hw121 => k1_hw121

def k1_chk122 (v396 : IVec S16 32) : Prop :=
  (∀ a x, ((![v396] : Fin 1 → IVec S16 32) a x).toNat < S65536.size a)
instance k1_chk122.dec : ∀ (v396 : IVec S16 32), Decidable (k1_chk122 v396) := fun v396 => decidable_of_iff' _ (Iff.of_eq (k1_chk122.eq_1 v396))
theorem k1_idx122_inb : ∀ (v396 : IVec S16 32) (k1_hw122 : k1_chk122 v396), ∀ a x, ((![v396] : Fin 1 → IVec S16 32) a x).toNat < S65536.size a := fun v396 k1_hw122 => k1_hw122

def k1_chk123 (v403 : IVec S16 32) : Prop :=
  (∀ a x, ((![v403] : Fin 1 → IVec S16 32) a x).toNat < S65536.size a)
instance k1_chk123.dec : ∀ (v403 : IVec S16 32), Decidable (k1_chk123 v403) := fun v403 => decidable_of_iff' _ (Iff.of_eq (k1_chk123.eq_1 v403))
theorem k1_idx123_inb : ∀ (v403 : IVec S16 32) (k1_hw123 : k1_chk123 v403), ∀ a x, ((![v403] : Fin 1 → IVec S16 32) a x).toNat < S65536.size a := fun v403 k1_hw123 => k1_hw123

def k1_chk124 (v410 : IVec S16 32) : Prop :=
  (∀ a x, ((![v410] : Fin 1 → IVec S16 32) a x).toNat < S65536.size a)
instance k1_chk124.dec : ∀ (v410 : IVec S16 32), Decidable (k1_chk124 v410) := fun v410 => decidable_of_iff' _ (Iff.of_eq (k1_chk124.eq_1 v410))
theorem k1_idx124_inb : ∀ (v410 : IVec S16 32) (k1_hw124 : k1_chk124 v410), ∀ a x, ((![v410] : Fin 1 → IVec S16 32) a x).toNat < S65536.size a := fun v410 k1_hw124 => k1_hw124

def k1_chk125 (v417 : IVec S16 32) : Prop :=
  (∀ a x, ((![v417] : Fin 1 → IVec S16 32) a x).toNat < S65536.size a)
instance k1_chk125.dec : ∀ (v417 : IVec S16 32), Decidable (k1_chk125 v417) := fun v417 => decidable_of_iff' _ (Iff.of_eq (k1_chk125.eq_1 v417))
theorem k1_idx125_inb : ∀ (v417 : IVec S16 32) (k1_hw125 : k1_chk125 v417), ∀ a x, ((![v417] : Fin 1 → IVec S16 32) a x).toNat < S65536.size a := fun v417 k1_hw125 => k1_hw125

def k1_chk126 (v424 : IVec S16 32) : Prop :=
  (∀ a x, ((![v424] : Fin 1 → IVec S16 32) a x).toNat < S65536.size a)
instance k1_chk126.dec : ∀ (v424 : IVec S16 32), Decidable (k1_chk126 v424) := fun v424 => decidable_of_iff' _ (Iff.of_eq (k1_chk126.eq_1 v424))
theorem k1_idx126_inb : ∀ (v424 : IVec S16 32) (k1_hw126 : k1_chk126 v424), ∀ a x, ((![v424] : Fin 1 → IVec S16 32) a x).toNat < S65536.size a := fun v424 k1_hw126 => k1_hw126

def k1_chk127 (v431 : IVec S16 32) : Prop :=
  (∀ a x, ((![v431] : Fin 1 → IVec S16 32) a x).toNat < S65536.size a)
instance k1_chk127.dec : ∀ (v431 : IVec S16 32), Decidable (k1_chk127 v431) := fun v431 => decidable_of_iff' _ (Iff.of_eq (k1_chk127.eq_1 v431))
theorem k1_idx127_inb : ∀ (v431 : IVec S16 32) (k1_hw127 : k1_chk127 v431), ∀ a x, ((![v431] : Fin 1 → IVec S16 32) a x).toNat < S65536.size a := fun v431 k1_hw127 => k1_hw127

def k1_chk128 (v438 : IVec S16 32) : Prop :=
  (∀ a x, ((![v438] : Fin 1 → IVec S16 32) a x).toNat < S65536.size a)
instance k1_chk128.dec : ∀ (v438 : IVec S16 32), Decidable (k1_chk128 v438) := fun v438 => decidable_of_iff' _ (Iff.of_eq (k1_chk128.eq_1 v438))
theorem k1_idx128_inb : ∀ (v438 : IVec S16 32) (k1_hw128 : k1_chk128 v438), ∀ a x, ((![v438] : Fin 1 → IVec S16 32) a x).toNat < S65536.size a := fun v438 k1_hw128 => k1_hw128

def k1_chk129 (v445 : IVec S16 32) : Prop :=
  (∀ a x, ((![v445] : Fin 1 → IVec S16 32) a x).toNat < S65536.size a)
instance k1_chk129.dec : ∀ (v445 : IVec S16 32), Decidable (k1_chk129 v445) := fun v445 => decidable_of_iff' _ (Iff.of_eq (k1_chk129.eq_1 v445))
theorem k1_idx129_inb : ∀ (v445 : IVec S16 32) (k1_hw129 : k1_chk129 v445), ∀ a x, ((![v445] : Fin 1 → IVec S16 32) a x).toNat < S65536.size a := fun v445 k1_hw129 => k1_hw129

def k1_chk130 (v452 : IVec S16 32) : Prop :=
  (∀ a x, ((![v452] : Fin 1 → IVec S16 32) a x).toNat < S65536.size a)
instance k1_chk130.dec : ∀ (v452 : IVec S16 32), Decidable (k1_chk130 v452) := fun v452 => decidable_of_iff' _ (Iff.of_eq (k1_chk130.eq_1 v452))
theorem k1_idx130_inb : ∀ (v452 : IVec S16 32) (k1_hw130 : k1_chk130 v452), ∀ a x, ((![v452] : Fin 1 → IVec S16 32) a x).toNat < S65536.size a := fun v452 k1_hw130 => k1_hw130

def k1_chk131 (v459 : IVec S16 32) : Prop :=
  (∀ a x, ((![v459] : Fin 1 → IVec S16 32) a x).toNat < S65536.size a)
instance k1_chk131.dec : ∀ (v459 : IVec S16 32), Decidable (k1_chk131 v459) := fun v459 => decidable_of_iff' _ (Iff.of_eq (k1_chk131.eq_1 v459))
theorem k1_idx131_inb : ∀ (v459 : IVec S16 32) (k1_hw131 : k1_chk131 v459), ∀ a x, ((![v459] : Fin 1 → IVec S16 32) a x).toNat < S65536.size a := fun v459 k1_hw131 => k1_hw131

def k1_chk132 (v466 : IVec S16 32) : Prop :=
  (∀ a x, ((![v466] : Fin 1 → IVec S16 32) a x).toNat < S65536.size a)
instance k1_chk132.dec : ∀ (v466 : IVec S16 32), Decidable (k1_chk132 v466) := fun v466 => decidable_of_iff' _ (Iff.of_eq (k1_chk132.eq_1 v466))
theorem k1_idx132_inb : ∀ (v466 : IVec S16 32) (k1_hw132 : k1_chk132 v466), ∀ a x, ((![v466] : Fin 1 → IVec S16 32) a x).toNat < S65536.size a := fun v466 k1_hw132 => k1_hw132

def k1_chk133 (v473 : IVec S16 32) : Prop :=
  (∀ a x, ((![v473] : Fin 1 → IVec S16 32) a x).toNat < S65536.size a)
instance k1_chk133.dec : ∀ (v473 : IVec S16 32), Decidable (k1_chk133 v473) := fun v473 => decidable_of_iff' _ (Iff.of_eq (k1_chk133.eq_1 v473))
theorem k1_idx133_inb : ∀ (v473 : IVec S16 32) (k1_hw133 : k1_chk133 v473), ∀ a x, ((![v473] : Fin 1 → IVec S16 32) a x).toNat < S65536.size a := fun v473 k1_hw133 => k1_hw133

def k1_chk134 (v480 : IVec S16 32) : Prop :=
  (∀ a x, ((![v480] : Fin 1 → IVec S16 32) a x).toNat < S65536.size a)
instance k1_chk134.dec : ∀ (v480 : IVec S16 32), Decidable (k1_chk134 v480) := fun v480 => decidable_of_iff' _ (Iff.of_eq (k1_chk134.eq_1 v480))
theorem k1_idx134_inb : ∀ (v480 : IVec S16 32) (k1_hw134 : k1_chk134 v480), ∀ a x, ((![v480] : Fin 1 → IVec S16 32) a x).toNat < S65536.size a := fun v480 k1_hw134 => k1_hw134

def k1_chk135 (v487 : IVec S16 32) : Prop :=
  (∀ a x, ((![v487] : Fin 1 → IVec S16 32) a x).toNat < S65536.size a)
instance k1_chk135.dec : ∀ (v487 : IVec S16 32), Decidable (k1_chk135 v487) := fun v487 => decidable_of_iff' _ (Iff.of_eq (k1_chk135.eq_1 v487))
theorem k1_idx135_inb : ∀ (v487 : IVec S16 32) (k1_hw135 : k1_chk135 v487), ∀ a x, ((![v487] : Fin 1 → IVec S16 32) a x).toNat < S65536.size a := fun v487 k1_hw135 => k1_hw135

def k1_chk136 (v494 : IVec S16 32) : Prop :=
  (∀ a x, ((![v494] : Fin 1 → IVec S16 32) a x).toNat < S65536.size a)
instance k1_chk136.dec : ∀ (v494 : IVec S16 32), Decidable (k1_chk136 v494) := fun v494 => decidable_of_iff' _ (Iff.of_eq (k1_chk136.eq_1 v494))
theorem k1_idx136_inb : ∀ (v494 : IVec S16 32) (k1_hw136 : k1_chk136 v494), ∀ a x, ((![v494] : Fin 1 → IVec S16 32) a x).toNat < S65536.size a := fun v494 k1_hw136 => k1_hw136

def k1_chk137 (v501 : IVec S16 32) : Prop :=
  (∀ a x, ((![v501] : Fin 1 → IVec S16 32) a x).toNat < S65536.size a)
instance k1_chk137.dec : ∀ (v501 : IVec S16 32), Decidable (k1_chk137 v501) := fun v501 => decidable_of_iff' _ (Iff.of_eq (k1_chk137.eq_1 v501))
theorem k1_idx137_inb : ∀ (v501 : IVec S16 32) (k1_hw137 : k1_chk137 v501), ∀ a x, ((![v501] : Fin 1 → IVec S16 32) a x).toNat < S65536.size a := fun v501 k1_hw137 => k1_hw137

def k1_chk138 (v508 : IVec S16 32) : Prop :=
  (∀ a x, ((![v508] : Fin 1 → IVec S16 32) a x).toNat < S65536.size a)
instance k1_chk138.dec : ∀ (v508 : IVec S16 32), Decidable (k1_chk138 v508) := fun v508 => decidable_of_iff' _ (Iff.of_eq (k1_chk138.eq_1 v508))
theorem k1_idx138_inb : ∀ (v508 : IVec S16 32) (k1_hw138 : k1_chk138 v508), ∀ a x, ((![v508] : Fin 1 → IVec S16 32) a x).toNat < S65536.size a := fun v508 k1_hw138 => k1_hw138

def k1_chk139 (v515 : IVec S16 32) : Prop :=
  (∀ a x, ((![v515] : Fin 1 → IVec S16 32) a x).toNat < S65536.size a)
instance k1_chk139.dec : ∀ (v515 : IVec S16 32), Decidable (k1_chk139 v515) := fun v515 => decidable_of_iff' _ (Iff.of_eq (k1_chk139.eq_1 v515))
theorem k1_idx139_inb : ∀ (v515 : IVec S16 32) (k1_hw139 : k1_chk139 v515), ∀ a x, ((![v515] : Fin 1 → IVec S16 32) a x).toNat < S65536.size a := fun v515 k1_hw139 => k1_hw139

def k1_chk140 (v522 : IVec S16 32) : Prop :=
  (∀ a x, ((![v522] : Fin 1 → IVec S16 32) a x).toNat < S65536.size a)
instance k1_chk140.dec : ∀ (v522 : IVec S16 32), Decidable (k1_chk140 v522) := fun v522 => decidable_of_iff' _ (Iff.of_eq (k1_chk140.eq_1 v522))
theorem k1_idx140_inb : ∀ (v522 : IVec S16 32) (k1_hw140 : k1_chk140 v522), ∀ a x, ((![v522] : Fin 1 → IVec S16 32) a x).toNat < S65536.size a := fun v522 k1_hw140 => k1_hw140

def k1_chk141 (v529 : IVec S16 32) : Prop :=
  (∀ a x, ((![v529] : Fin 1 → IVec S16 32) a x).toNat < S65536.size a)
instance k1_chk141.dec : ∀ (v529 : IVec S16 32), Decidable (k1_chk141 v529) := fun v529 => decidable_of_iff' _ (Iff.of_eq (k1_chk141.eq_1 v529))
theorem k1_idx141_inb : ∀ (v529 : IVec S16 32) (k1_hw141 : k1_chk141 v529), ∀ a x, ((![v529] : Fin 1 → IVec S16 32) a x).toNat < S65536.size a := fun v529 k1_hw141 => k1_hw141

def k1_chk142 (v536 : IVec S16 32) : Prop :=
  (∀ a x, ((![v536] : Fin 1 → IVec S16 32) a x).toNat < S65536.size a)
instance k1_chk142.dec : ∀ (v536 : IVec S16 32), Decidable (k1_chk142 v536) := fun v536 => decidable_of_iff' _ (Iff.of_eq (k1_chk142.eq_1 v536))
theorem k1_idx142_inb : ∀ (v536 : IVec S16 32) (k1_hw142 : k1_chk142 v536), ∀ a x, ((![v536] : Fin 1 → IVec S16 32) a x).toNat < S65536.size a := fun v536 k1_hw142 => k1_hw142

def k1_chk143 (v543 : IVec S16 32) : Prop :=
  (∀ a x, ((![v543] : Fin 1 → IVec S16 32) a x).toNat < S65536.size a)
instance k1_chk143.dec : ∀ (v543 : IVec S16 32), Decidable (k1_chk143 v543) := fun v543 => decidable_of_iff' _ (Iff.of_eq (k1_chk143.eq_1 v543))
theorem k1_idx143_inb : ∀ (v543 : IVec S16 32) (k1_hw143 : k1_chk143 v543), ∀ a x, ((![v543] : Fin 1 → IVec S16 32) a x).toNat < S65536.size a := fun v543 k1_hw143 => k1_hw143

def k1_chk144 (v550 : IVec S16 32) : Prop :=
  (∀ a x, ((![v550] : Fin 1 → IVec S16 32) a x).toNat < S65536.size a)
instance k1_chk144.dec : ∀ (v550 : IVec S16 32), Decidable (k1_chk144 v550) := fun v550 => decidable_of_iff' _ (Iff.of_eq (k1_chk144.eq_1 v550))
theorem k1_idx144_inb : ∀ (v550 : IVec S16 32) (k1_hw144 : k1_chk144 v550), ∀ a x, ((![v550] : Fin 1 → IVec S16 32) a x).toNat < S65536.size a := fun v550 k1_hw144 => k1_hw144

def k1_chk145 (v557 : IVec S16 32) : Prop :=
  (∀ a x, ((![v557] : Fin 1 → IVec S16 32) a x).toNat < S65536.size a)
instance k1_chk145.dec : ∀ (v557 : IVec S16 32), Decidable (k1_chk145 v557) := fun v557 => decidable_of_iff' _ (Iff.of_eq (k1_chk145.eq_1 v557))
theorem k1_idx145_inb : ∀ (v557 : IVec S16 32) (k1_hw145 : k1_chk145 v557), ∀ a x, ((![v557] : Fin 1 → IVec S16 32) a x).toNat < S65536.size a := fun v557 k1_hw145 => k1_hw145

def k1_chk146 (v564 : IVec S16 32) : Prop :=
  (∀ a x, ((![v564] : Fin 1 → IVec S16 32) a x).toNat < S65536.size a)
instance k1_chk146.dec : ∀ (v564 : IVec S16 32), Decidable (k1_chk146 v564) := fun v564 => decidable_of_iff' _ (Iff.of_eq (k1_chk146.eq_1 v564))
theorem k1_idx146_inb : ∀ (v564 : IVec S16 32) (k1_hw146 : k1_chk146 v564), ∀ a x, ((![v564] : Fin 1 → IVec S16 32) a x).toNat < S65536.size a := fun v564 k1_hw146 => k1_hw146

def k1_chk147 (v571 : IVec S16 32) : Prop :=
  (∀ a x, ((![v571] : Fin 1 → IVec S16 32) a x).toNat < S65536.size a)
instance k1_chk147.dec : ∀ (v571 : IVec S16 32), Decidable (k1_chk147 v571) := fun v571 => decidable_of_iff' _ (Iff.of_eq (k1_chk147.eq_1 v571))
theorem k1_idx147_inb : ∀ (v571 : IVec S16 32) (k1_hw147 : k1_chk147 v571), ∀ a x, ((![v571] : Fin 1 → IVec S16 32) a x).toNat < S65536.size a := fun v571 k1_hw147 => k1_hw147

def k1_chk148 (v578 : IVec S16 32) : Prop :=
  (∀ a x, ((![v578] : Fin 1 → IVec S16 32) a x).toNat < S65536.size a)
instance k1_chk148.dec : ∀ (v578 : IVec S16 32), Decidable (k1_chk148 v578) := fun v578 => decidable_of_iff' _ (Iff.of_eq (k1_chk148.eq_1 v578))
theorem k1_idx148_inb : ∀ (v578 : IVec S16 32) (k1_hw148 : k1_chk148 v578), ∀ a x, ((![v578] : Fin 1 → IVec S16 32) a x).toNat < S65536.size a := fun v578 k1_hw148 => k1_hw148

def k1_chk149 (v585 : IVec S16 32) : Prop :=
  (∀ a x, ((![v585] : Fin 1 → IVec S16 32) a x).toNat < S65536.size a)
instance k1_chk149.dec : ∀ (v585 : IVec S16 32), Decidable (k1_chk149 v585) := fun v585 => decidable_of_iff' _ (Iff.of_eq (k1_chk149.eq_1 v585))
theorem k1_idx149_inb : ∀ (v585 : IVec S16 32) (k1_hw149 : k1_chk149 v585), ∀ a x, ((![v585] : Fin 1 → IVec S16 32) a x).toNat < S65536.size a := fun v585 k1_hw149 => k1_hw149

def k1_chk150 (v592 : IVec S16 32) : Prop :=
  (∀ a x, ((![v592] : Fin 1 → IVec S16 32) a x).toNat < S65536.size a)
instance k1_chk150.dec : ∀ (v592 : IVec S16 32), Decidable (k1_chk150 v592) := fun v592 => decidable_of_iff' _ (Iff.of_eq (k1_chk150.eq_1 v592))
theorem k1_idx150_inb : ∀ (v592 : IVec S16 32) (k1_hw150 : k1_chk150 v592), ∀ a x, ((![v592] : Fin 1 → IVec S16 32) a x).toNat < S65536.size a := fun v592 k1_hw150 => k1_hw150

def k1_chk151 (v599 : IVec S16 32) : Prop :=
  (∀ a x, ((![v599] : Fin 1 → IVec S16 32) a x).toNat < S65536.size a)
instance k1_chk151.dec : ∀ (v599 : IVec S16 32), Decidable (k1_chk151 v599) := fun v599 => decidable_of_iff' _ (Iff.of_eq (k1_chk151.eq_1 v599))
theorem k1_idx151_inb : ∀ (v599 : IVec S16 32) (k1_hw151 : k1_chk151 v599), ∀ a x, ((![v599] : Fin 1 → IVec S16 32) a x).toNat < S65536.size a := fun v599 k1_hw151 => k1_hw151

def k1_chk152 (v606 : IVec S16 32) : Prop :=
  (∀ a x, ((![v606] : Fin 1 → IVec S16 32) a x).toNat < S65536.size a)
instance k1_chk152.dec : ∀ (v606 : IVec S16 32), Decidable (k1_chk152 v606) := fun v606 => decidable_of_iff' _ (Iff.of_eq (k1_chk152.eq_1 v606))
theorem k1_idx152_inb : ∀ (v606 : IVec S16 32) (k1_hw152 : k1_chk152 v606), ∀ a x, ((![v606] : Fin 1 → IVec S16 32) a x).toNat < S65536.size a := fun v606 k1_hw152 => k1_hw152

def k1_chk153 (v613 : IVec S16 32) : Prop :=
  (∀ a x, ((![v613] : Fin 1 → IVec S16 32) a x).toNat < S65536.size a)
instance k1_chk153.dec : ∀ (v613 : IVec S16 32), Decidable (k1_chk153 v613) := fun v613 => decidable_of_iff' _ (Iff.of_eq (k1_chk153.eq_1 v613))
theorem k1_idx153_inb : ∀ (v613 : IVec S16 32) (k1_hw153 : k1_chk153 v613), ∀ a x, ((![v613] : Fin 1 → IVec S16 32) a x).toNat < S65536.size a := fun v613 k1_hw153 => k1_hw153

def k1_chk154 (v620 : IVec S16 32) : Prop :=
  (∀ a x, ((![v620] : Fin 1 → IVec S16 32) a x).toNat < S65536.size a)
instance k1_chk154.dec : ∀ (v620 : IVec S16 32), Decidable (k1_chk154 v620) := fun v620 => decidable_of_iff' _ (Iff.of_eq (k1_chk154.eq_1 v620))
theorem k1_idx154_inb : ∀ (v620 : IVec S16 32) (k1_hw154 : k1_chk154 v620), ∀ a x, ((![v620] : Fin 1 → IVec S16 32) a x).toNat < S65536.size a := fun v620 k1_hw154 => k1_hw154

def k1_chk155 (v627 : IVec S16 32) : Prop :=
  (∀ a x, ((![v627] : Fin 1 → IVec S16 32) a x).toNat < S65536.size a)
instance k1_chk155.dec : ∀ (v627 : IVec S16 32), Decidable (k1_chk155 v627) := fun v627 => decidable_of_iff' _ (Iff.of_eq (k1_chk155.eq_1 v627))
theorem k1_idx155_inb : ∀ (v627 : IVec S16 32) (k1_hw155 : k1_chk155 v627), ∀ a x, ((![v627] : Fin 1 → IVec S16 32) a x).toNat < S65536.size a := fun v627 k1_hw155 => k1_hw155

def k1_chk156 (v634 : IVec S16 32) : Prop :=
  (∀ a x, ((![v634] : Fin 1 → IVec S16 32) a x).toNat < S65536.size a)
instance k1_chk156.dec : ∀ (v634 : IVec S16 32), Decidable (k1_chk156 v634) := fun v634 => decidable_of_iff' _ (Iff.of_eq (k1_chk156.eq_1 v634))
theorem k1_idx156_inb : ∀ (v634 : IVec S16 32) (k1_hw156 : k1_chk156 v634), ∀ a x, ((![v634] : Fin 1 → IVec S16 32) a x).toNat < S65536.size a := fun v634 k1_hw156 => k1_hw156

def k1_chk157 (v641 : IVec S16 32) : Prop :=
  (∀ a x, ((![v641] : Fin 1 → IVec S16 32) a x).toNat < S65536.size a)
instance k1_chk157.dec : ∀ (v641 : IVec S16 32), Decidable (k1_chk157 v641) := fun v641 => decidable_of_iff' _ (Iff.of_eq (k1_chk157.eq_1 v641))
theorem k1_idx157_inb : ∀ (v641 : IVec S16 32) (k1_hw157 : k1_chk157 v641), ∀ a x, ((![v641] : Fin 1 → IVec S16 32) a x).toNat < S65536.size a := fun v641 k1_hw157 => k1_hw157

def k1_chk158 (v648 : IVec S16 32) : Prop :=
  (∀ a x, ((![v648] : Fin 1 → IVec S16 32) a x).toNat < S65536.size a)
instance k1_chk158.dec : ∀ (v648 : IVec S16 32), Decidable (k1_chk158 v648) := fun v648 => decidable_of_iff' _ (Iff.of_eq (k1_chk158.eq_1 v648))
theorem k1_idx158_inb : ∀ (v648 : IVec S16 32) (k1_hw158 : k1_chk158 v648), ∀ a x, ((![v648] : Fin 1 → IVec S16 32) a x).toNat < S65536.size a := fun v648 k1_hw158 => k1_hw158

def k1_chk159 (v655 : IVec S16 32) : Prop :=
  (∀ a x, ((![v655] : Fin 1 → IVec S16 32) a x).toNat < S65536.size a)
instance k1_chk159.dec : ∀ (v655 : IVec S16 32), Decidable (k1_chk159 v655) := fun v655 => decidable_of_iff' _ (Iff.of_eq (k1_chk159.eq_1 v655))
theorem k1_idx159_inb : ∀ (v655 : IVec S16 32) (k1_hw159 : k1_chk159 v655), ∀ a x, ((![v655] : Fin 1 → IVec S16 32) a x).toNat < S65536.size a := fun v655 k1_hw159 => k1_hw159

def k1_chk160 (v662 : IVec S16 32) : Prop :=
  (∀ a x, ((![v662] : Fin 1 → IVec S16 32) a x).toNat < S65536.size a)
instance k1_chk160.dec : ∀ (v662 : IVec S16 32), Decidable (k1_chk160 v662) := fun v662 => decidable_of_iff' _ (Iff.of_eq (k1_chk160.eq_1 v662))
theorem k1_idx160_inb : ∀ (v662 : IVec S16 32) (k1_hw160 : k1_chk160 v662), ∀ a x, ((![v662] : Fin 1 → IVec S16 32) a x).toNat < S65536.size a := fun v662 k1_hw160 => k1_hw160
def k1_off47 (k1_t3 : Fin k1_t3_loop.trips) (k1_t4 : Fin k1_t4_loop.trips) (c0_i32_287 : BitVec 32) : Fin 2 → Nat :=
  let c0_i32_43 : BitVec 32 := 0#32
  let c1_i32_45 : BitVec 32 := 1#32
  let arg11 : BitVec 32 := Scf.iv c0_i32_43 c1_i32_45 k1_t4
  let c4_i32_286 : BitVec 32 := 4#32
  let v665 : BitVec 32 := Scalar.muli arg11 c4_i32_286
  let v666 : BitVec 32 := Scalar.addi v665 c0_i32_287
  let v667 : Index := Scalar.indexCast v666
  let c0_i32_17 : BitVec 32 := 0#32
  let c1_i32_19 : BitVec 32 := 1#32
  let arg10 : BitVec 32 := Scf.iv c0_i32_17 c1_i32_19 k1_t3
  let c16_i32_36 : BitVec 32 := 16#32
  let v43 : BitVec 32 := Scalar.muli arg10 c16_i32_36
  let v668 : Index := Scalar.indexCast v43
  ![v667.toNat, v668.toNat]
def k1_off48 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_36_r7 : BitVec 32 := 0#32
  let c2048_i32_r7 : BitVec 32 := 2048#32
  ![v18.toNat, 0, 2048]
def k1_off49 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_22 : BitVec 32 := 16#32
  let v37 : BitVec 32 := Scalar.muli v28 c16_i32_22
  let c2048_i32_r8 : BitVec 32 := 2048#32
  ![v18.toNat, v37.toNat, 2048]
@[reducible] def k1_t5_loop : Scf.Loop 32 :=
  let c0_i32_24 : BitVec 32 := 0#32
  let c64_i32_25 : BitVec 32 := 64#32
  let v38 : BitVec 32 := Scalar.addi c0_i32_24 c64_i32_25
  let c1_i32_26 : BitVec 32 := 1#32
  ⟨c0_i32_24, v38, c1_i32_26⟩
def k1_off50 (k1_t5 : Fin k1_t5_loop.trips) : Fin 2 → Nat :=
  let c0_i32_37 : BitVec 32 := 0#32
  let v44 : Index := Scalar.indexCast c0_i32_37
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v45 : Index := Scalar.indexCast v43
  ![0, v45.toNat]
def k1_off51 (k1_t5 : Fin k1_t5_loop.trips) : Fin 2 → Nat :=
  let c1_i32_38 : BitVec 32 := 1#32
  let v47 : Index := Scalar.indexCast c1_i32_38
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v48 : Index := Scalar.indexCast v43
  ![1, v48.toNat]
def k1_off52 (k1_t5 : Fin k1_t5_loop.trips) : Fin 2 → Nat :=
  let c2_i32_39 : BitVec 32 := 2#32
  let v50 : Index := Scalar.indexCast c2_i32_39
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v51 : Index := Scalar.indexCast v43
  ![2, v51.toNat]
def k1_off53 (k1_t5 : Fin k1_t5_loop.trips) : Fin 2 → Nat :=
  let c3_i32 : BitVec 32 := 3#32
  let v53 : Index := Scalar.indexCast c3_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v54 : Index := Scalar.indexCast v43
  ![3, v54.toNat]
def k1_off54 (k1_t5 : Fin k1_t5_loop.trips) : Fin 2 → Nat :=
  let c4_i32_40 : BitVec 32 := 4#32
  let v56 : Index := Scalar.indexCast c4_i32_40
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v57 : Index := Scalar.indexCast v43
  ![4, v57.toNat]
def k1_off55 (k1_t5 : Fin k1_t5_loop.trips) : Fin 2 → Nat :=
  let c5_i32 : BitVec 32 := 5#32
  let v59 : Index := Scalar.indexCast c5_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v60 : Index := Scalar.indexCast v43
  ![5, v60.toNat]
def k1_off56 (k1_t5 : Fin k1_t5_loop.trips) : Fin 2 → Nat :=
  let c6_i32 : BitVec 32 := 6#32
  let v62 : Index := Scalar.indexCast c6_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v63 : Index := Scalar.indexCast v43
  ![6, v63.toNat]
def k1_off57 (k1_t5 : Fin k1_t5_loop.trips) : Fin 2 → Nat :=
  let c7_i32 : BitVec 32 := 7#32
  let v65 : Index := Scalar.indexCast c7_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v66 : Index := Scalar.indexCast v43
  ![7, v66.toNat]
def k1_off58 (k1_t5 : Fin k1_t5_loop.trips) : Fin 2 → Nat :=
  let c8_i32 : BitVec 32 := 8#32
  let v68 : Index := Scalar.indexCast c8_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v69 : Index := Scalar.indexCast v43
  ![8, v69.toNat]
def k1_off59 (k1_t5 : Fin k1_t5_loop.trips) : Fin 2 → Nat :=
  let c9_i32 : BitVec 32 := 9#32
  let v71 : Index := Scalar.indexCast c9_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v72 : Index := Scalar.indexCast v43
  ![9, v72.toNat]
def k1_off60 (k1_t5 : Fin k1_t5_loop.trips) : Fin 2 → Nat :=
  let c10_i32 : BitVec 32 := 10#32
  let v74 : Index := Scalar.indexCast c10_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v75 : Index := Scalar.indexCast v43
  ![10, v75.toNat]
def k1_off61 (k1_t5 : Fin k1_t5_loop.trips) : Fin 2 → Nat :=
  let c11_i32 : BitVec 32 := 11#32
  let v77 : Index := Scalar.indexCast c11_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v78 : Index := Scalar.indexCast v43
  ![11, v78.toNat]
def k1_off62 (k1_t5 : Fin k1_t5_loop.trips) : Fin 2 → Nat :=
  let c12_i32 : BitVec 32 := 12#32
  let v80 : Index := Scalar.indexCast c12_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v81 : Index := Scalar.indexCast v43
  ![12, v81.toNat]
def k1_off63 (k1_t5 : Fin k1_t5_loop.trips) : Fin 2 → Nat :=
  let c13_i32 : BitVec 32 := 13#32
  let v83 : Index := Scalar.indexCast c13_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v84 : Index := Scalar.indexCast v43
  ![13, v84.toNat]
def k1_off64 (k1_t5 : Fin k1_t5_loop.trips) : Fin 2 → Nat :=
  let c14_i32 : BitVec 32 := 14#32
  let v86 : Index := Scalar.indexCast c14_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v87 : Index := Scalar.indexCast v43
  ![14, v87.toNat]
def k1_off65 (k1_t5 : Fin k1_t5_loop.trips) : Fin 2 → Nat :=
  let c15_i32 : BitVec 32 := 15#32
  let v89 : Index := Scalar.indexCast c15_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v90 : Index := Scalar.indexCast v43
  ![15, v90.toNat]
def k1_off66 (k1_t5 : Fin k1_t5_loop.trips) : Fin 2 → Nat :=
  let c16_i32_41 : BitVec 32 := 16#32
  let v92 : Index := Scalar.indexCast c16_i32_41
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v93 : Index := Scalar.indexCast v43
  ![16, v93.toNat]
def k1_off67 (k1_t5 : Fin k1_t5_loop.trips) : Fin 2 → Nat :=
  let c17_i32 : BitVec 32 := 17#32
  let v95 : Index := Scalar.indexCast c17_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v96 : Index := Scalar.indexCast v43
  ![17, v96.toNat]
def k1_off68 (k1_t5 : Fin k1_t5_loop.trips) : Fin 2 → Nat :=
  let c18_i32 : BitVec 32 := 18#32
  let v98 : Index := Scalar.indexCast c18_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v99 : Index := Scalar.indexCast v43
  ![18, v99.toNat]
def k1_off69 (k1_t5 : Fin k1_t5_loop.trips) : Fin 2 → Nat :=
  let c19_i32 : BitVec 32 := 19#32
  let v101 : Index := Scalar.indexCast c19_i32
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v102 : Index := Scalar.indexCast v43
  ![19, v102.toNat]
@[reducible] def k1_t6_loop : Scf.Loop 32 :=
  let c0_i32_43 : BitVec 32 := 0#32
  let c4_i32_44 : BitVec 32 := 4#32
  let v104 : BitVec 32 := Scalar.addi c0_i32_43 c4_i32_44
  let c1_i32_45 : BitVec 32 := 1#32
  ⟨c0_i32_43, v104, c1_i32_45⟩

def k1_chk161 (v109 : IVec S16 32) : Prop :=
  (∀ a x, ((![v109] : Fin 1 → IVec S16 32) a x).toNat < S65536.size a)
instance k1_chk161.dec : ∀ (v109 : IVec S16 32), Decidable (k1_chk161 v109) := fun v109 => decidable_of_iff' _ (Iff.of_eq (k1_chk161.eq_1 v109))
theorem k1_idx161_inb : ∀ (v109 : IVec S16 32) (k1_hw161 : k1_chk161 v109), ∀ a x, ((![v109] : Fin 1 → IVec S16 32) a x).toNat < S65536.size a := fun v109 k1_hw161 => k1_hw161

def k1_chk162 (v116 : IVec S16 32) : Prop :=
  (∀ a x, ((![v116] : Fin 1 → IVec S16 32) a x).toNat < S65536.size a)
instance k1_chk162.dec : ∀ (v116 : IVec S16 32), Decidable (k1_chk162 v116) := fun v116 => decidable_of_iff' _ (Iff.of_eq (k1_chk162.eq_1 v116))
theorem k1_idx162_inb : ∀ (v116 : IVec S16 32) (k1_hw162 : k1_chk162 v116), ∀ a x, ((![v116] : Fin 1 → IVec S16 32) a x).toNat < S65536.size a := fun v116 k1_hw162 => k1_hw162

def k1_chk163 (v123 : IVec S16 32) : Prop :=
  (∀ a x, ((![v123] : Fin 1 → IVec S16 32) a x).toNat < S65536.size a)
instance k1_chk163.dec : ∀ (v123 : IVec S16 32), Decidable (k1_chk163 v123) := fun v123 => decidable_of_iff' _ (Iff.of_eq (k1_chk163.eq_1 v123))
theorem k1_idx163_inb : ∀ (v123 : IVec S16 32) (k1_hw163 : k1_chk163 v123), ∀ a x, ((![v123] : Fin 1 → IVec S16 32) a x).toNat < S65536.size a := fun v123 k1_hw163 => k1_hw163

def k1_chk164 (v130 : IVec S16 32) : Prop :=
  (∀ a x, ((![v130] : Fin 1 → IVec S16 32) a x).toNat < S65536.size a)
instance k1_chk164.dec : ∀ (v130 : IVec S16 32), Decidable (k1_chk164 v130) := fun v130 => decidable_of_iff' _ (Iff.of_eq (k1_chk164.eq_1 v130))
theorem k1_idx164_inb : ∀ (v130 : IVec S16 32) (k1_hw164 : k1_chk164 v130), ∀ a x, ((![v130] : Fin 1 → IVec S16 32) a x).toNat < S65536.size a := fun v130 k1_hw164 => k1_hw164

def k1_chk165 (v137 : IVec S16 32) : Prop :=
  (∀ a x, ((![v137] : Fin 1 → IVec S16 32) a x).toNat < S65536.size a)
instance k1_chk165.dec : ∀ (v137 : IVec S16 32), Decidable (k1_chk165 v137) := fun v137 => decidable_of_iff' _ (Iff.of_eq (k1_chk165.eq_1 v137))
theorem k1_idx165_inb : ∀ (v137 : IVec S16 32) (k1_hw165 : k1_chk165 v137), ∀ a x, ((![v137] : Fin 1 → IVec S16 32) a x).toNat < S65536.size a := fun v137 k1_hw165 => k1_hw165

def k1_chk166 (v144 : IVec S16 32) : Prop :=
  (∀ a x, ((![v144] : Fin 1 → IVec S16 32) a x).toNat < S65536.size a)
instance k1_chk166.dec : ∀ (v144 : IVec S16 32), Decidable (k1_chk166 v144) := fun v144 => decidable_of_iff' _ (Iff.of_eq (k1_chk166.eq_1 v144))
theorem k1_idx166_inb : ∀ (v144 : IVec S16 32) (k1_hw166 : k1_chk166 v144), ∀ a x, ((![v144] : Fin 1 → IVec S16 32) a x).toNat < S65536.size a := fun v144 k1_hw166 => k1_hw166

def k1_chk167 (v151 : IVec S16 32) : Prop :=
  (∀ a x, ((![v151] : Fin 1 → IVec S16 32) a x).toNat < S65536.size a)
instance k1_chk167.dec : ∀ (v151 : IVec S16 32), Decidable (k1_chk167 v151) := fun v151 => decidable_of_iff' _ (Iff.of_eq (k1_chk167.eq_1 v151))
theorem k1_idx167_inb : ∀ (v151 : IVec S16 32) (k1_hw167 : k1_chk167 v151), ∀ a x, ((![v151] : Fin 1 → IVec S16 32) a x).toNat < S65536.size a := fun v151 k1_hw167 => k1_hw167

def k1_chk168 (v158 : IVec S16 32) : Prop :=
  (∀ a x, ((![v158] : Fin 1 → IVec S16 32) a x).toNat < S65536.size a)
instance k1_chk168.dec : ∀ (v158 : IVec S16 32), Decidable (k1_chk168 v158) := fun v158 => decidable_of_iff' _ (Iff.of_eq (k1_chk168.eq_1 v158))
theorem k1_idx168_inb : ∀ (v158 : IVec S16 32) (k1_hw168 : k1_chk168 v158), ∀ a x, ((![v158] : Fin 1 → IVec S16 32) a x).toNat < S65536.size a := fun v158 k1_hw168 => k1_hw168

def k1_chk169 (v165 : IVec S16 32) : Prop :=
  (∀ a x, ((![v165] : Fin 1 → IVec S16 32) a x).toNat < S65536.size a)
instance k1_chk169.dec : ∀ (v165 : IVec S16 32), Decidable (k1_chk169 v165) := fun v165 => decidable_of_iff' _ (Iff.of_eq (k1_chk169.eq_1 v165))
theorem k1_idx169_inb : ∀ (v165 : IVec S16 32) (k1_hw169 : k1_chk169 v165), ∀ a x, ((![v165] : Fin 1 → IVec S16 32) a x).toNat < S65536.size a := fun v165 k1_hw169 => k1_hw169

def k1_chk170 (v172 : IVec S16 32) : Prop :=
  (∀ a x, ((![v172] : Fin 1 → IVec S16 32) a x).toNat < S65536.size a)
instance k1_chk170.dec : ∀ (v172 : IVec S16 32), Decidable (k1_chk170 v172) := fun v172 => decidable_of_iff' _ (Iff.of_eq (k1_chk170.eq_1 v172))
theorem k1_idx170_inb : ∀ (v172 : IVec S16 32) (k1_hw170 : k1_chk170 v172), ∀ a x, ((![v172] : Fin 1 → IVec S16 32) a x).toNat < S65536.size a := fun v172 k1_hw170 => k1_hw170

def k1_chk171 (v179 : IVec S16 32) : Prop :=
  (∀ a x, ((![v179] : Fin 1 → IVec S16 32) a x).toNat < S65536.size a)
instance k1_chk171.dec : ∀ (v179 : IVec S16 32), Decidable (k1_chk171 v179) := fun v179 => decidable_of_iff' _ (Iff.of_eq (k1_chk171.eq_1 v179))
theorem k1_idx171_inb : ∀ (v179 : IVec S16 32) (k1_hw171 : k1_chk171 v179), ∀ a x, ((![v179] : Fin 1 → IVec S16 32) a x).toNat < S65536.size a := fun v179 k1_hw171 => k1_hw171

def k1_chk172 (v186 : IVec S16 32) : Prop :=
  (∀ a x, ((![v186] : Fin 1 → IVec S16 32) a x).toNat < S65536.size a)
instance k1_chk172.dec : ∀ (v186 : IVec S16 32), Decidable (k1_chk172 v186) := fun v186 => decidable_of_iff' _ (Iff.of_eq (k1_chk172.eq_1 v186))
theorem k1_idx172_inb : ∀ (v186 : IVec S16 32) (k1_hw172 : k1_chk172 v186), ∀ a x, ((![v186] : Fin 1 → IVec S16 32) a x).toNat < S65536.size a := fun v186 k1_hw172 => k1_hw172

def k1_chk173 (v193 : IVec S16 32) : Prop :=
  (∀ a x, ((![v193] : Fin 1 → IVec S16 32) a x).toNat < S65536.size a)
instance k1_chk173.dec : ∀ (v193 : IVec S16 32), Decidable (k1_chk173 v193) := fun v193 => decidable_of_iff' _ (Iff.of_eq (k1_chk173.eq_1 v193))
theorem k1_idx173_inb : ∀ (v193 : IVec S16 32) (k1_hw173 : k1_chk173 v193), ∀ a x, ((![v193] : Fin 1 → IVec S16 32) a x).toNat < S65536.size a := fun v193 k1_hw173 => k1_hw173

def k1_chk174 (v200 : IVec S16 32) : Prop :=
  (∀ a x, ((![v200] : Fin 1 → IVec S16 32) a x).toNat < S65536.size a)
instance k1_chk174.dec : ∀ (v200 : IVec S16 32), Decidable (k1_chk174 v200) := fun v200 => decidable_of_iff' _ (Iff.of_eq (k1_chk174.eq_1 v200))
theorem k1_idx174_inb : ∀ (v200 : IVec S16 32) (k1_hw174 : k1_chk174 v200), ∀ a x, ((![v200] : Fin 1 → IVec S16 32) a x).toNat < S65536.size a := fun v200 k1_hw174 => k1_hw174

def k1_chk175 (v207 : IVec S16 32) : Prop :=
  (∀ a x, ((![v207] : Fin 1 → IVec S16 32) a x).toNat < S65536.size a)
instance k1_chk175.dec : ∀ (v207 : IVec S16 32), Decidable (k1_chk175 v207) := fun v207 => decidable_of_iff' _ (Iff.of_eq (k1_chk175.eq_1 v207))
theorem k1_idx175_inb : ∀ (v207 : IVec S16 32) (k1_hw175 : k1_chk175 v207), ∀ a x, ((![v207] : Fin 1 → IVec S16 32) a x).toNat < S65536.size a := fun v207 k1_hw175 => k1_hw175

def k1_chk176 (v214 : IVec S16 32) : Prop :=
  (∀ a x, ((![v214] : Fin 1 → IVec S16 32) a x).toNat < S65536.size a)
instance k1_chk176.dec : ∀ (v214 : IVec S16 32), Decidable (k1_chk176 v214) := fun v214 => decidable_of_iff' _ (Iff.of_eq (k1_chk176.eq_1 v214))
theorem k1_idx176_inb : ∀ (v214 : IVec S16 32) (k1_hw176 : k1_chk176 v214), ∀ a x, ((![v214] : Fin 1 → IVec S16 32) a x).toNat < S65536.size a := fun v214 k1_hw176 => k1_hw176

def k1_chk177 (v221 : IVec S16 32) : Prop :=
  (∀ a x, ((![v221] : Fin 1 → IVec S16 32) a x).toNat < S65536.size a)
instance k1_chk177.dec : ∀ (v221 : IVec S16 32), Decidable (k1_chk177 v221) := fun v221 => decidable_of_iff' _ (Iff.of_eq (k1_chk177.eq_1 v221))
theorem k1_idx177_inb : ∀ (v221 : IVec S16 32) (k1_hw177 : k1_chk177 v221), ∀ a x, ((![v221] : Fin 1 → IVec S16 32) a x).toNat < S65536.size a := fun v221 k1_hw177 => k1_hw177

def k1_chk178 (v228 : IVec S16 32) : Prop :=
  (∀ a x, ((![v228] : Fin 1 → IVec S16 32) a x).toNat < S65536.size a)
instance k1_chk178.dec : ∀ (v228 : IVec S16 32), Decidable (k1_chk178 v228) := fun v228 => decidable_of_iff' _ (Iff.of_eq (k1_chk178.eq_1 v228))
theorem k1_idx178_inb : ∀ (v228 : IVec S16 32) (k1_hw178 : k1_chk178 v228), ∀ a x, ((![v228] : Fin 1 → IVec S16 32) a x).toNat < S65536.size a := fun v228 k1_hw178 => k1_hw178

def k1_chk179 (v235 : IVec S16 32) : Prop :=
  (∀ a x, ((![v235] : Fin 1 → IVec S16 32) a x).toNat < S65536.size a)
instance k1_chk179.dec : ∀ (v235 : IVec S16 32), Decidable (k1_chk179 v235) := fun v235 => decidable_of_iff' _ (Iff.of_eq (k1_chk179.eq_1 v235))
theorem k1_idx179_inb : ∀ (v235 : IVec S16 32) (k1_hw179 : k1_chk179 v235), ∀ a x, ((![v235] : Fin 1 → IVec S16 32) a x).toNat < S65536.size a := fun v235 k1_hw179 => k1_hw179

def k1_chk180 (v242 : IVec S16 32) : Prop :=
  (∀ a x, ((![v242] : Fin 1 → IVec S16 32) a x).toNat < S65536.size a)
instance k1_chk180.dec : ∀ (v242 : IVec S16 32), Decidable (k1_chk180 v242) := fun v242 => decidable_of_iff' _ (Iff.of_eq (k1_chk180.eq_1 v242))
theorem k1_idx180_inb : ∀ (v242 : IVec S16 32) (k1_hw180 : k1_chk180 v242), ∀ a x, ((![v242] : Fin 1 → IVec S16 32) a x).toNat < S65536.size a := fun v242 k1_hw180 => k1_hw180

def k1_chk181 (v249 : IVec S16 32) : Prop :=
  (∀ a x, ((![v249] : Fin 1 → IVec S16 32) a x).toNat < S65536.size a)
instance k1_chk181.dec : ∀ (v249 : IVec S16 32), Decidable (k1_chk181 v249) := fun v249 => decidable_of_iff' _ (Iff.of_eq (k1_chk181.eq_1 v249))
theorem k1_idx181_inb : ∀ (v249 : IVec S16 32) (k1_hw181 : k1_chk181 v249), ∀ a x, ((![v249] : Fin 1 → IVec S16 32) a x).toNat < S65536.size a := fun v249 k1_hw181 => k1_hw181

def k1_chk182 (v256 : IVec S16 32) : Prop :=
  (∀ a x, ((![v256] : Fin 1 → IVec S16 32) a x).toNat < S65536.size a)
instance k1_chk182.dec : ∀ (v256 : IVec S16 32), Decidable (k1_chk182 v256) := fun v256 => decidable_of_iff' _ (Iff.of_eq (k1_chk182.eq_1 v256))
theorem k1_idx182_inb : ∀ (v256 : IVec S16 32) (k1_hw182 : k1_chk182 v256), ∀ a x, ((![v256] : Fin 1 → IVec S16 32) a x).toNat < S65536.size a := fun v256 k1_hw182 => k1_hw182

def k1_chk183 (v263 : IVec S16 32) : Prop :=
  (∀ a x, ((![v263] : Fin 1 → IVec S16 32) a x).toNat < S65536.size a)
instance k1_chk183.dec : ∀ (v263 : IVec S16 32), Decidable (k1_chk183 v263) := fun v263 => decidable_of_iff' _ (Iff.of_eq (k1_chk183.eq_1 v263))
theorem k1_idx183_inb : ∀ (v263 : IVec S16 32) (k1_hw183 : k1_chk183 v263), ∀ a x, ((![v263] : Fin 1 → IVec S16 32) a x).toNat < S65536.size a := fun v263 k1_hw183 => k1_hw183

def k1_chk184 (v270 : IVec S16 32) : Prop :=
  (∀ a x, ((![v270] : Fin 1 → IVec S16 32) a x).toNat < S65536.size a)
instance k1_chk184.dec : ∀ (v270 : IVec S16 32), Decidable (k1_chk184 v270) := fun v270 => decidable_of_iff' _ (Iff.of_eq (k1_chk184.eq_1 v270))
theorem k1_idx184_inb : ∀ (v270 : IVec S16 32) (k1_hw184 : k1_chk184 v270), ∀ a x, ((![v270] : Fin 1 → IVec S16 32) a x).toNat < S65536.size a := fun v270 k1_hw184 => k1_hw184

def k1_chk185 (v277 : IVec S16 32) : Prop :=
  (∀ a x, ((![v277] : Fin 1 → IVec S16 32) a x).toNat < S65536.size a)
instance k1_chk185.dec : ∀ (v277 : IVec S16 32), Decidable (k1_chk185 v277) := fun v277 => decidable_of_iff' _ (Iff.of_eq (k1_chk185.eq_1 v277))
theorem k1_idx185_inb : ∀ (v277 : IVec S16 32) (k1_hw185 : k1_chk185 v277), ∀ a x, ((![v277] : Fin 1 → IVec S16 32) a x).toNat < S65536.size a := fun v277 k1_hw185 => k1_hw185

def k1_chk186 (v284 : IVec S16 32) : Prop :=
  (∀ a x, ((![v284] : Fin 1 → IVec S16 32) a x).toNat < S65536.size a)
instance k1_chk186.dec : ∀ (v284 : IVec S16 32), Decidable (k1_chk186 v284) := fun v284 => decidable_of_iff' _ (Iff.of_eq (k1_chk186.eq_1 v284))
theorem k1_idx186_inb : ∀ (v284 : IVec S16 32) (k1_hw186 : k1_chk186 v284), ∀ a x, ((![v284] : Fin 1 → IVec S16 32) a x).toNat < S65536.size a := fun v284 k1_hw186 => k1_hw186

def k1_chk187 (v291 : IVec S16 32) : Prop :=
  (∀ a x, ((![v291] : Fin 1 → IVec S16 32) a x).toNat < S65536.size a)
instance k1_chk187.dec : ∀ (v291 : IVec S16 32), Decidable (k1_chk187 v291) := fun v291 => decidable_of_iff' _ (Iff.of_eq (k1_chk187.eq_1 v291))
theorem k1_idx187_inb : ∀ (v291 : IVec S16 32) (k1_hw187 : k1_chk187 v291), ∀ a x, ((![v291] : Fin 1 → IVec S16 32) a x).toNat < S65536.size a := fun v291 k1_hw187 => k1_hw187

def k1_chk188 (v298 : IVec S16 32) : Prop :=
  (∀ a x, ((![v298] : Fin 1 → IVec S16 32) a x).toNat < S65536.size a)
instance k1_chk188.dec : ∀ (v298 : IVec S16 32), Decidable (k1_chk188 v298) := fun v298 => decidable_of_iff' _ (Iff.of_eq (k1_chk188.eq_1 v298))
theorem k1_idx188_inb : ∀ (v298 : IVec S16 32) (k1_hw188 : k1_chk188 v298), ∀ a x, ((![v298] : Fin 1 → IVec S16 32) a x).toNat < S65536.size a := fun v298 k1_hw188 => k1_hw188

def k1_chk189 (v305 : IVec S16 32) : Prop :=
  (∀ a x, ((![v305] : Fin 1 → IVec S16 32) a x).toNat < S65536.size a)
instance k1_chk189.dec : ∀ (v305 : IVec S16 32), Decidable (k1_chk189 v305) := fun v305 => decidable_of_iff' _ (Iff.of_eq (k1_chk189.eq_1 v305))
theorem k1_idx189_inb : ∀ (v305 : IVec S16 32) (k1_hw189 : k1_chk189 v305), ∀ a x, ((![v305] : Fin 1 → IVec S16 32) a x).toNat < S65536.size a := fun v305 k1_hw189 => k1_hw189

def k1_chk190 (v312 : IVec S16 32) : Prop :=
  (∀ a x, ((![v312] : Fin 1 → IVec S16 32) a x).toNat < S65536.size a)
instance k1_chk190.dec : ∀ (v312 : IVec S16 32), Decidable (k1_chk190 v312) := fun v312 => decidable_of_iff' _ (Iff.of_eq (k1_chk190.eq_1 v312))
theorem k1_idx190_inb : ∀ (v312 : IVec S16 32) (k1_hw190 : k1_chk190 v312), ∀ a x, ((![v312] : Fin 1 → IVec S16 32) a x).toNat < S65536.size a := fun v312 k1_hw190 => k1_hw190

def k1_chk191 (v319 : IVec S16 32) : Prop :=
  (∀ a x, ((![v319] : Fin 1 → IVec S16 32) a x).toNat < S65536.size a)
instance k1_chk191.dec : ∀ (v319 : IVec S16 32), Decidable (k1_chk191 v319) := fun v319 => decidable_of_iff' _ (Iff.of_eq (k1_chk191.eq_1 v319))
theorem k1_idx191_inb : ∀ (v319 : IVec S16 32) (k1_hw191 : k1_chk191 v319), ∀ a x, ((![v319] : Fin 1 → IVec S16 32) a x).toNat < S65536.size a := fun v319 k1_hw191 => k1_hw191

def k1_chk192 (v326 : IVec S16 32) : Prop :=
  (∀ a x, ((![v326] : Fin 1 → IVec S16 32) a x).toNat < S65536.size a)
instance k1_chk192.dec : ∀ (v326 : IVec S16 32), Decidable (k1_chk192 v326) := fun v326 => decidable_of_iff' _ (Iff.of_eq (k1_chk192.eq_1 v326))
theorem k1_idx192_inb : ∀ (v326 : IVec S16 32) (k1_hw192 : k1_chk192 v326), ∀ a x, ((![v326] : Fin 1 → IVec S16 32) a x).toNat < S65536.size a := fun v326 k1_hw192 => k1_hw192

def k1_chk193 (v333 : IVec S16 32) : Prop :=
  (∀ a x, ((![v333] : Fin 1 → IVec S16 32) a x).toNat < S65536.size a)
instance k1_chk193.dec : ∀ (v333 : IVec S16 32), Decidable (k1_chk193 v333) := fun v333 => decidable_of_iff' _ (Iff.of_eq (k1_chk193.eq_1 v333))
theorem k1_idx193_inb : ∀ (v333 : IVec S16 32) (k1_hw193 : k1_chk193 v333), ∀ a x, ((![v333] : Fin 1 → IVec S16 32) a x).toNat < S65536.size a := fun v333 k1_hw193 => k1_hw193

def k1_chk194 (v340 : IVec S16 32) : Prop :=
  (∀ a x, ((![v340] : Fin 1 → IVec S16 32) a x).toNat < S65536.size a)
instance k1_chk194.dec : ∀ (v340 : IVec S16 32), Decidable (k1_chk194 v340) := fun v340 => decidable_of_iff' _ (Iff.of_eq (k1_chk194.eq_1 v340))
theorem k1_idx194_inb : ∀ (v340 : IVec S16 32) (k1_hw194 : k1_chk194 v340), ∀ a x, ((![v340] : Fin 1 → IVec S16 32) a x).toNat < S65536.size a := fun v340 k1_hw194 => k1_hw194

def k1_chk195 (v347 : IVec S16 32) : Prop :=
  (∀ a x, ((![v347] : Fin 1 → IVec S16 32) a x).toNat < S65536.size a)
instance k1_chk195.dec : ∀ (v347 : IVec S16 32), Decidable (k1_chk195 v347) := fun v347 => decidable_of_iff' _ (Iff.of_eq (k1_chk195.eq_1 v347))
theorem k1_idx195_inb : ∀ (v347 : IVec S16 32) (k1_hw195 : k1_chk195 v347), ∀ a x, ((![v347] : Fin 1 → IVec S16 32) a x).toNat < S65536.size a := fun v347 k1_hw195 => k1_hw195

def k1_chk196 (v354 : IVec S16 32) : Prop :=
  (∀ a x, ((![v354] : Fin 1 → IVec S16 32) a x).toNat < S65536.size a)
instance k1_chk196.dec : ∀ (v354 : IVec S16 32), Decidable (k1_chk196 v354) := fun v354 => decidable_of_iff' _ (Iff.of_eq (k1_chk196.eq_1 v354))
theorem k1_idx196_inb : ∀ (v354 : IVec S16 32) (k1_hw196 : k1_chk196 v354), ∀ a x, ((![v354] : Fin 1 → IVec S16 32) a x).toNat < S65536.size a := fun v354 k1_hw196 => k1_hw196

def k1_chk197 (v361 : IVec S16 32) : Prop :=
  (∀ a x, ((![v361] : Fin 1 → IVec S16 32) a x).toNat < S65536.size a)
instance k1_chk197.dec : ∀ (v361 : IVec S16 32), Decidable (k1_chk197 v361) := fun v361 => decidable_of_iff' _ (Iff.of_eq (k1_chk197.eq_1 v361))
theorem k1_idx197_inb : ∀ (v361 : IVec S16 32) (k1_hw197 : k1_chk197 v361), ∀ a x, ((![v361] : Fin 1 → IVec S16 32) a x).toNat < S65536.size a := fun v361 k1_hw197 => k1_hw197

def k1_chk198 (v368 : IVec S16 32) : Prop :=
  (∀ a x, ((![v368] : Fin 1 → IVec S16 32) a x).toNat < S65536.size a)
instance k1_chk198.dec : ∀ (v368 : IVec S16 32), Decidable (k1_chk198 v368) := fun v368 => decidable_of_iff' _ (Iff.of_eq (k1_chk198.eq_1 v368))
theorem k1_idx198_inb : ∀ (v368 : IVec S16 32) (k1_hw198 : k1_chk198 v368), ∀ a x, ((![v368] : Fin 1 → IVec S16 32) a x).toNat < S65536.size a := fun v368 k1_hw198 => k1_hw198

def k1_chk199 (v375 : IVec S16 32) : Prop :=
  (∀ a x, ((![v375] : Fin 1 → IVec S16 32) a x).toNat < S65536.size a)
instance k1_chk199.dec : ∀ (v375 : IVec S16 32), Decidable (k1_chk199 v375) := fun v375 => decidable_of_iff' _ (Iff.of_eq (k1_chk199.eq_1 v375))
theorem k1_idx199_inb : ∀ (v375 : IVec S16 32) (k1_hw199 : k1_chk199 v375), ∀ a x, ((![v375] : Fin 1 → IVec S16 32) a x).toNat < S65536.size a := fun v375 k1_hw199 => k1_hw199

def k1_chk200 (v382 : IVec S16 32) : Prop :=
  (∀ a x, ((![v382] : Fin 1 → IVec S16 32) a x).toNat < S65536.size a)
instance k1_chk200.dec : ∀ (v382 : IVec S16 32), Decidable (k1_chk200 v382) := fun v382 => decidable_of_iff' _ (Iff.of_eq (k1_chk200.eq_1 v382))
theorem k1_idx200_inb : ∀ (v382 : IVec S16 32) (k1_hw200 : k1_chk200 v382), ∀ a x, ((![v382] : Fin 1 → IVec S16 32) a x).toNat < S65536.size a := fun v382 k1_hw200 => k1_hw200

def k1_chk201 (v389 : IVec S16 32) : Prop :=
  (∀ a x, ((![v389] : Fin 1 → IVec S16 32) a x).toNat < S65536.size a)
instance k1_chk201.dec : ∀ (v389 : IVec S16 32), Decidable (k1_chk201 v389) := fun v389 => decidable_of_iff' _ (Iff.of_eq (k1_chk201.eq_1 v389))
theorem k1_idx201_inb : ∀ (v389 : IVec S16 32) (k1_hw201 : k1_chk201 v389), ∀ a x, ((![v389] : Fin 1 → IVec S16 32) a x).toNat < S65536.size a := fun v389 k1_hw201 => k1_hw201

def k1_chk202 (v396 : IVec S16 32) : Prop :=
  (∀ a x, ((![v396] : Fin 1 → IVec S16 32) a x).toNat < S65536.size a)
instance k1_chk202.dec : ∀ (v396 : IVec S16 32), Decidable (k1_chk202 v396) := fun v396 => decidable_of_iff' _ (Iff.of_eq (k1_chk202.eq_1 v396))
theorem k1_idx202_inb : ∀ (v396 : IVec S16 32) (k1_hw202 : k1_chk202 v396), ∀ a x, ((![v396] : Fin 1 → IVec S16 32) a x).toNat < S65536.size a := fun v396 k1_hw202 => k1_hw202

def k1_chk203 (v403 : IVec S16 32) : Prop :=
  (∀ a x, ((![v403] : Fin 1 → IVec S16 32) a x).toNat < S65536.size a)
instance k1_chk203.dec : ∀ (v403 : IVec S16 32), Decidable (k1_chk203 v403) := fun v403 => decidable_of_iff' _ (Iff.of_eq (k1_chk203.eq_1 v403))
theorem k1_idx203_inb : ∀ (v403 : IVec S16 32) (k1_hw203 : k1_chk203 v403), ∀ a x, ((![v403] : Fin 1 → IVec S16 32) a x).toNat < S65536.size a := fun v403 k1_hw203 => k1_hw203

def k1_chk204 (v410 : IVec S16 32) : Prop :=
  (∀ a x, ((![v410] : Fin 1 → IVec S16 32) a x).toNat < S65536.size a)
instance k1_chk204.dec : ∀ (v410 : IVec S16 32), Decidable (k1_chk204 v410) := fun v410 => decidable_of_iff' _ (Iff.of_eq (k1_chk204.eq_1 v410))
theorem k1_idx204_inb : ∀ (v410 : IVec S16 32) (k1_hw204 : k1_chk204 v410), ∀ a x, ((![v410] : Fin 1 → IVec S16 32) a x).toNat < S65536.size a := fun v410 k1_hw204 => k1_hw204

def k1_chk205 (v417 : IVec S16 32) : Prop :=
  (∀ a x, ((![v417] : Fin 1 → IVec S16 32) a x).toNat < S65536.size a)
instance k1_chk205.dec : ∀ (v417 : IVec S16 32), Decidable (k1_chk205 v417) := fun v417 => decidable_of_iff' _ (Iff.of_eq (k1_chk205.eq_1 v417))
theorem k1_idx205_inb : ∀ (v417 : IVec S16 32) (k1_hw205 : k1_chk205 v417), ∀ a x, ((![v417] : Fin 1 → IVec S16 32) a x).toNat < S65536.size a := fun v417 k1_hw205 => k1_hw205

def k1_chk206 (v424 : IVec S16 32) : Prop :=
  (∀ a x, ((![v424] : Fin 1 → IVec S16 32) a x).toNat < S65536.size a)
instance k1_chk206.dec : ∀ (v424 : IVec S16 32), Decidable (k1_chk206 v424) := fun v424 => decidable_of_iff' _ (Iff.of_eq (k1_chk206.eq_1 v424))
theorem k1_idx206_inb : ∀ (v424 : IVec S16 32) (k1_hw206 : k1_chk206 v424), ∀ a x, ((![v424] : Fin 1 → IVec S16 32) a x).toNat < S65536.size a := fun v424 k1_hw206 => k1_hw206

def k1_chk207 (v431 : IVec S16 32) : Prop :=
  (∀ a x, ((![v431] : Fin 1 → IVec S16 32) a x).toNat < S65536.size a)
instance k1_chk207.dec : ∀ (v431 : IVec S16 32), Decidable (k1_chk207 v431) := fun v431 => decidable_of_iff' _ (Iff.of_eq (k1_chk207.eq_1 v431))
theorem k1_idx207_inb : ∀ (v431 : IVec S16 32) (k1_hw207 : k1_chk207 v431), ∀ a x, ((![v431] : Fin 1 → IVec S16 32) a x).toNat < S65536.size a := fun v431 k1_hw207 => k1_hw207

def k1_chk208 (v438 : IVec S16 32) : Prop :=
  (∀ a x, ((![v438] : Fin 1 → IVec S16 32) a x).toNat < S65536.size a)
instance k1_chk208.dec : ∀ (v438 : IVec S16 32), Decidable (k1_chk208 v438) := fun v438 => decidable_of_iff' _ (Iff.of_eq (k1_chk208.eq_1 v438))
theorem k1_idx208_inb : ∀ (v438 : IVec S16 32) (k1_hw208 : k1_chk208 v438), ∀ a x, ((![v438] : Fin 1 → IVec S16 32) a x).toNat < S65536.size a := fun v438 k1_hw208 => k1_hw208

def k1_chk209 (v445 : IVec S16 32) : Prop :=
  (∀ a x, ((![v445] : Fin 1 → IVec S16 32) a x).toNat < S65536.size a)
instance k1_chk209.dec : ∀ (v445 : IVec S16 32), Decidable (k1_chk209 v445) := fun v445 => decidable_of_iff' _ (Iff.of_eq (k1_chk209.eq_1 v445))
theorem k1_idx209_inb : ∀ (v445 : IVec S16 32) (k1_hw209 : k1_chk209 v445), ∀ a x, ((![v445] : Fin 1 → IVec S16 32) a x).toNat < S65536.size a := fun v445 k1_hw209 => k1_hw209

def k1_chk210 (v452 : IVec S16 32) : Prop :=
  (∀ a x, ((![v452] : Fin 1 → IVec S16 32) a x).toNat < S65536.size a)
instance k1_chk210.dec : ∀ (v452 : IVec S16 32), Decidable (k1_chk210 v452) := fun v452 => decidable_of_iff' _ (Iff.of_eq (k1_chk210.eq_1 v452))
theorem k1_idx210_inb : ∀ (v452 : IVec S16 32) (k1_hw210 : k1_chk210 v452), ∀ a x, ((![v452] : Fin 1 → IVec S16 32) a x).toNat < S65536.size a := fun v452 k1_hw210 => k1_hw210

def k1_chk211 (v459 : IVec S16 32) : Prop :=
  (∀ a x, ((![v459] : Fin 1 → IVec S16 32) a x).toNat < S65536.size a)
instance k1_chk211.dec : ∀ (v459 : IVec S16 32), Decidable (k1_chk211 v459) := fun v459 => decidable_of_iff' _ (Iff.of_eq (k1_chk211.eq_1 v459))
theorem k1_idx211_inb : ∀ (v459 : IVec S16 32) (k1_hw211 : k1_chk211 v459), ∀ a x, ((![v459] : Fin 1 → IVec S16 32) a x).toNat < S65536.size a := fun v459 k1_hw211 => k1_hw211

def k1_chk212 (v466 : IVec S16 32) : Prop :=
  (∀ a x, ((![v466] : Fin 1 → IVec S16 32) a x).toNat < S65536.size a)
instance k1_chk212.dec : ∀ (v466 : IVec S16 32), Decidable (k1_chk212 v466) := fun v466 => decidable_of_iff' _ (Iff.of_eq (k1_chk212.eq_1 v466))
theorem k1_idx212_inb : ∀ (v466 : IVec S16 32) (k1_hw212 : k1_chk212 v466), ∀ a x, ((![v466] : Fin 1 → IVec S16 32) a x).toNat < S65536.size a := fun v466 k1_hw212 => k1_hw212

def k1_chk213 (v473 : IVec S16 32) : Prop :=
  (∀ a x, ((![v473] : Fin 1 → IVec S16 32) a x).toNat < S65536.size a)
instance k1_chk213.dec : ∀ (v473 : IVec S16 32), Decidable (k1_chk213 v473) := fun v473 => decidable_of_iff' _ (Iff.of_eq (k1_chk213.eq_1 v473))
theorem k1_idx213_inb : ∀ (v473 : IVec S16 32) (k1_hw213 : k1_chk213 v473), ∀ a x, ((![v473] : Fin 1 → IVec S16 32) a x).toNat < S65536.size a := fun v473 k1_hw213 => k1_hw213

def k1_chk214 (v480 : IVec S16 32) : Prop :=
  (∀ a x, ((![v480] : Fin 1 → IVec S16 32) a x).toNat < S65536.size a)
instance k1_chk214.dec : ∀ (v480 : IVec S16 32), Decidable (k1_chk214 v480) := fun v480 => decidable_of_iff' _ (Iff.of_eq (k1_chk214.eq_1 v480))
theorem k1_idx214_inb : ∀ (v480 : IVec S16 32) (k1_hw214 : k1_chk214 v480), ∀ a x, ((![v480] : Fin 1 → IVec S16 32) a x).toNat < S65536.size a := fun v480 k1_hw214 => k1_hw214

def k1_chk215 (v487 : IVec S16 32) : Prop :=
  (∀ a x, ((![v487] : Fin 1 → IVec S16 32) a x).toNat < S65536.size a)
instance k1_chk215.dec : ∀ (v487 : IVec S16 32), Decidable (k1_chk215 v487) := fun v487 => decidable_of_iff' _ (Iff.of_eq (k1_chk215.eq_1 v487))
theorem k1_idx215_inb : ∀ (v487 : IVec S16 32) (k1_hw215 : k1_chk215 v487), ∀ a x, ((![v487] : Fin 1 → IVec S16 32) a x).toNat < S65536.size a := fun v487 k1_hw215 => k1_hw215

def k1_chk216 (v494 : IVec S16 32) : Prop :=
  (∀ a x, ((![v494] : Fin 1 → IVec S16 32) a x).toNat < S65536.size a)
instance k1_chk216.dec : ∀ (v494 : IVec S16 32), Decidable (k1_chk216 v494) := fun v494 => decidable_of_iff' _ (Iff.of_eq (k1_chk216.eq_1 v494))
theorem k1_idx216_inb : ∀ (v494 : IVec S16 32) (k1_hw216 : k1_chk216 v494), ∀ a x, ((![v494] : Fin 1 → IVec S16 32) a x).toNat < S65536.size a := fun v494 k1_hw216 => k1_hw216

def k1_chk217 (v501 : IVec S16 32) : Prop :=
  (∀ a x, ((![v501] : Fin 1 → IVec S16 32) a x).toNat < S65536.size a)
instance k1_chk217.dec : ∀ (v501 : IVec S16 32), Decidable (k1_chk217 v501) := fun v501 => decidable_of_iff' _ (Iff.of_eq (k1_chk217.eq_1 v501))
theorem k1_idx217_inb : ∀ (v501 : IVec S16 32) (k1_hw217 : k1_chk217 v501), ∀ a x, ((![v501] : Fin 1 → IVec S16 32) a x).toNat < S65536.size a := fun v501 k1_hw217 => k1_hw217

def k1_chk218 (v508 : IVec S16 32) : Prop :=
  (∀ a x, ((![v508] : Fin 1 → IVec S16 32) a x).toNat < S65536.size a)
instance k1_chk218.dec : ∀ (v508 : IVec S16 32), Decidable (k1_chk218 v508) := fun v508 => decidable_of_iff' _ (Iff.of_eq (k1_chk218.eq_1 v508))
theorem k1_idx218_inb : ∀ (v508 : IVec S16 32) (k1_hw218 : k1_chk218 v508), ∀ a x, ((![v508] : Fin 1 → IVec S16 32) a x).toNat < S65536.size a := fun v508 k1_hw218 => k1_hw218

def k1_chk219 (v515 : IVec S16 32) : Prop :=
  (∀ a x, ((![v515] : Fin 1 → IVec S16 32) a x).toNat < S65536.size a)
instance k1_chk219.dec : ∀ (v515 : IVec S16 32), Decidable (k1_chk219 v515) := fun v515 => decidable_of_iff' _ (Iff.of_eq (k1_chk219.eq_1 v515))
theorem k1_idx219_inb : ∀ (v515 : IVec S16 32) (k1_hw219 : k1_chk219 v515), ∀ a x, ((![v515] : Fin 1 → IVec S16 32) a x).toNat < S65536.size a := fun v515 k1_hw219 => k1_hw219

def k1_chk220 (v522 : IVec S16 32) : Prop :=
  (∀ a x, ((![v522] : Fin 1 → IVec S16 32) a x).toNat < S65536.size a)
instance k1_chk220.dec : ∀ (v522 : IVec S16 32), Decidable (k1_chk220 v522) := fun v522 => decidable_of_iff' _ (Iff.of_eq (k1_chk220.eq_1 v522))
theorem k1_idx220_inb : ∀ (v522 : IVec S16 32) (k1_hw220 : k1_chk220 v522), ∀ a x, ((![v522] : Fin 1 → IVec S16 32) a x).toNat < S65536.size a := fun v522 k1_hw220 => k1_hw220

def k1_chk221 (v529 : IVec S16 32) : Prop :=
  (∀ a x, ((![v529] : Fin 1 → IVec S16 32) a x).toNat < S65536.size a)
instance k1_chk221.dec : ∀ (v529 : IVec S16 32), Decidable (k1_chk221 v529) := fun v529 => decidable_of_iff' _ (Iff.of_eq (k1_chk221.eq_1 v529))
theorem k1_idx221_inb : ∀ (v529 : IVec S16 32) (k1_hw221 : k1_chk221 v529), ∀ a x, ((![v529] : Fin 1 → IVec S16 32) a x).toNat < S65536.size a := fun v529 k1_hw221 => k1_hw221

def k1_chk222 (v536 : IVec S16 32) : Prop :=
  (∀ a x, ((![v536] : Fin 1 → IVec S16 32) a x).toNat < S65536.size a)
instance k1_chk222.dec : ∀ (v536 : IVec S16 32), Decidable (k1_chk222 v536) := fun v536 => decidable_of_iff' _ (Iff.of_eq (k1_chk222.eq_1 v536))
theorem k1_idx222_inb : ∀ (v536 : IVec S16 32) (k1_hw222 : k1_chk222 v536), ∀ a x, ((![v536] : Fin 1 → IVec S16 32) a x).toNat < S65536.size a := fun v536 k1_hw222 => k1_hw222

def k1_chk223 (v543 : IVec S16 32) : Prop :=
  (∀ a x, ((![v543] : Fin 1 → IVec S16 32) a x).toNat < S65536.size a)
instance k1_chk223.dec : ∀ (v543 : IVec S16 32), Decidable (k1_chk223 v543) := fun v543 => decidable_of_iff' _ (Iff.of_eq (k1_chk223.eq_1 v543))
theorem k1_idx223_inb : ∀ (v543 : IVec S16 32) (k1_hw223 : k1_chk223 v543), ∀ a x, ((![v543] : Fin 1 → IVec S16 32) a x).toNat < S65536.size a := fun v543 k1_hw223 => k1_hw223

def k1_chk224 (v550 : IVec S16 32) : Prop :=
  (∀ a x, ((![v550] : Fin 1 → IVec S16 32) a x).toNat < S65536.size a)
instance k1_chk224.dec : ∀ (v550 : IVec S16 32), Decidable (k1_chk224 v550) := fun v550 => decidable_of_iff' _ (Iff.of_eq (k1_chk224.eq_1 v550))
theorem k1_idx224_inb : ∀ (v550 : IVec S16 32) (k1_hw224 : k1_chk224 v550), ∀ a x, ((![v550] : Fin 1 → IVec S16 32) a x).toNat < S65536.size a := fun v550 k1_hw224 => k1_hw224

def k1_chk225 (v557 : IVec S16 32) : Prop :=
  (∀ a x, ((![v557] : Fin 1 → IVec S16 32) a x).toNat < S65536.size a)
instance k1_chk225.dec : ∀ (v557 : IVec S16 32), Decidable (k1_chk225 v557) := fun v557 => decidable_of_iff' _ (Iff.of_eq (k1_chk225.eq_1 v557))
theorem k1_idx225_inb : ∀ (v557 : IVec S16 32) (k1_hw225 : k1_chk225 v557), ∀ a x, ((![v557] : Fin 1 → IVec S16 32) a x).toNat < S65536.size a := fun v557 k1_hw225 => k1_hw225

def k1_chk226 (v564 : IVec S16 32) : Prop :=
  (∀ a x, ((![v564] : Fin 1 → IVec S16 32) a x).toNat < S65536.size a)
instance k1_chk226.dec : ∀ (v564 : IVec S16 32), Decidable (k1_chk226 v564) := fun v564 => decidable_of_iff' _ (Iff.of_eq (k1_chk226.eq_1 v564))
theorem k1_idx226_inb : ∀ (v564 : IVec S16 32) (k1_hw226 : k1_chk226 v564), ∀ a x, ((![v564] : Fin 1 → IVec S16 32) a x).toNat < S65536.size a := fun v564 k1_hw226 => k1_hw226

def k1_chk227 (v571 : IVec S16 32) : Prop :=
  (∀ a x, ((![v571] : Fin 1 → IVec S16 32) a x).toNat < S65536.size a)
instance k1_chk227.dec : ∀ (v571 : IVec S16 32), Decidable (k1_chk227 v571) := fun v571 => decidable_of_iff' _ (Iff.of_eq (k1_chk227.eq_1 v571))
theorem k1_idx227_inb : ∀ (v571 : IVec S16 32) (k1_hw227 : k1_chk227 v571), ∀ a x, ((![v571] : Fin 1 → IVec S16 32) a x).toNat < S65536.size a := fun v571 k1_hw227 => k1_hw227

def k1_chk228 (v578 : IVec S16 32) : Prop :=
  (∀ a x, ((![v578] : Fin 1 → IVec S16 32) a x).toNat < S65536.size a)
instance k1_chk228.dec : ∀ (v578 : IVec S16 32), Decidable (k1_chk228 v578) := fun v578 => decidable_of_iff' _ (Iff.of_eq (k1_chk228.eq_1 v578))
theorem k1_idx228_inb : ∀ (v578 : IVec S16 32) (k1_hw228 : k1_chk228 v578), ∀ a x, ((![v578] : Fin 1 → IVec S16 32) a x).toNat < S65536.size a := fun v578 k1_hw228 => k1_hw228

def k1_chk229 (v585 : IVec S16 32) : Prop :=
  (∀ a x, ((![v585] : Fin 1 → IVec S16 32) a x).toNat < S65536.size a)
instance k1_chk229.dec : ∀ (v585 : IVec S16 32), Decidable (k1_chk229 v585) := fun v585 => decidable_of_iff' _ (Iff.of_eq (k1_chk229.eq_1 v585))
theorem k1_idx229_inb : ∀ (v585 : IVec S16 32) (k1_hw229 : k1_chk229 v585), ∀ a x, ((![v585] : Fin 1 → IVec S16 32) a x).toNat < S65536.size a := fun v585 k1_hw229 => k1_hw229

def k1_chk230 (v592 : IVec S16 32) : Prop :=
  (∀ a x, ((![v592] : Fin 1 → IVec S16 32) a x).toNat < S65536.size a)
instance k1_chk230.dec : ∀ (v592 : IVec S16 32), Decidable (k1_chk230 v592) := fun v592 => decidable_of_iff' _ (Iff.of_eq (k1_chk230.eq_1 v592))
theorem k1_idx230_inb : ∀ (v592 : IVec S16 32) (k1_hw230 : k1_chk230 v592), ∀ a x, ((![v592] : Fin 1 → IVec S16 32) a x).toNat < S65536.size a := fun v592 k1_hw230 => k1_hw230

def k1_chk231 (v599 : IVec S16 32) : Prop :=
  (∀ a x, ((![v599] : Fin 1 → IVec S16 32) a x).toNat < S65536.size a)
instance k1_chk231.dec : ∀ (v599 : IVec S16 32), Decidable (k1_chk231 v599) := fun v599 => decidable_of_iff' _ (Iff.of_eq (k1_chk231.eq_1 v599))
theorem k1_idx231_inb : ∀ (v599 : IVec S16 32) (k1_hw231 : k1_chk231 v599), ∀ a x, ((![v599] : Fin 1 → IVec S16 32) a x).toNat < S65536.size a := fun v599 k1_hw231 => k1_hw231

def k1_chk232 (v606 : IVec S16 32) : Prop :=
  (∀ a x, ((![v606] : Fin 1 → IVec S16 32) a x).toNat < S65536.size a)
instance k1_chk232.dec : ∀ (v606 : IVec S16 32), Decidable (k1_chk232 v606) := fun v606 => decidable_of_iff' _ (Iff.of_eq (k1_chk232.eq_1 v606))
theorem k1_idx232_inb : ∀ (v606 : IVec S16 32) (k1_hw232 : k1_chk232 v606), ∀ a x, ((![v606] : Fin 1 → IVec S16 32) a x).toNat < S65536.size a := fun v606 k1_hw232 => k1_hw232

def k1_chk233 (v613 : IVec S16 32) : Prop :=
  (∀ a x, ((![v613] : Fin 1 → IVec S16 32) a x).toNat < S65536.size a)
instance k1_chk233.dec : ∀ (v613 : IVec S16 32), Decidable (k1_chk233 v613) := fun v613 => decidable_of_iff' _ (Iff.of_eq (k1_chk233.eq_1 v613))
theorem k1_idx233_inb : ∀ (v613 : IVec S16 32) (k1_hw233 : k1_chk233 v613), ∀ a x, ((![v613] : Fin 1 → IVec S16 32) a x).toNat < S65536.size a := fun v613 k1_hw233 => k1_hw233

def k1_chk234 (v620 : IVec S16 32) : Prop :=
  (∀ a x, ((![v620] : Fin 1 → IVec S16 32) a x).toNat < S65536.size a)
instance k1_chk234.dec : ∀ (v620 : IVec S16 32), Decidable (k1_chk234 v620) := fun v620 => decidable_of_iff' _ (Iff.of_eq (k1_chk234.eq_1 v620))
theorem k1_idx234_inb : ∀ (v620 : IVec S16 32) (k1_hw234 : k1_chk234 v620), ∀ a x, ((![v620] : Fin 1 → IVec S16 32) a x).toNat < S65536.size a := fun v620 k1_hw234 => k1_hw234

def k1_chk235 (v627 : IVec S16 32) : Prop :=
  (∀ a x, ((![v627] : Fin 1 → IVec S16 32) a x).toNat < S65536.size a)
instance k1_chk235.dec : ∀ (v627 : IVec S16 32), Decidable (k1_chk235 v627) := fun v627 => decidable_of_iff' _ (Iff.of_eq (k1_chk235.eq_1 v627))
theorem k1_idx235_inb : ∀ (v627 : IVec S16 32) (k1_hw235 : k1_chk235 v627), ∀ a x, ((![v627] : Fin 1 → IVec S16 32) a x).toNat < S65536.size a := fun v627 k1_hw235 => k1_hw235

def k1_chk236 (v634 : IVec S16 32) : Prop :=
  (∀ a x, ((![v634] : Fin 1 → IVec S16 32) a x).toNat < S65536.size a)
instance k1_chk236.dec : ∀ (v634 : IVec S16 32), Decidable (k1_chk236 v634) := fun v634 => decidable_of_iff' _ (Iff.of_eq (k1_chk236.eq_1 v634))
theorem k1_idx236_inb : ∀ (v634 : IVec S16 32) (k1_hw236 : k1_chk236 v634), ∀ a x, ((![v634] : Fin 1 → IVec S16 32) a x).toNat < S65536.size a := fun v634 k1_hw236 => k1_hw236

def k1_chk237 (v641 : IVec S16 32) : Prop :=
  (∀ a x, ((![v641] : Fin 1 → IVec S16 32) a x).toNat < S65536.size a)
instance k1_chk237.dec : ∀ (v641 : IVec S16 32), Decidable (k1_chk237 v641) := fun v641 => decidable_of_iff' _ (Iff.of_eq (k1_chk237.eq_1 v641))
theorem k1_idx237_inb : ∀ (v641 : IVec S16 32) (k1_hw237 : k1_chk237 v641), ∀ a x, ((![v641] : Fin 1 → IVec S16 32) a x).toNat < S65536.size a := fun v641 k1_hw237 => k1_hw237

def k1_chk238 (v648 : IVec S16 32) : Prop :=
  (∀ a x, ((![v648] : Fin 1 → IVec S16 32) a x).toNat < S65536.size a)
instance k1_chk238.dec : ∀ (v648 : IVec S16 32), Decidable (k1_chk238 v648) := fun v648 => decidable_of_iff' _ (Iff.of_eq (k1_chk238.eq_1 v648))
theorem k1_idx238_inb : ∀ (v648 : IVec S16 32) (k1_hw238 : k1_chk238 v648), ∀ a x, ((![v648] : Fin 1 → IVec S16 32) a x).toNat < S65536.size a := fun v648 k1_hw238 => k1_hw238

def k1_chk239 (v655 : IVec S16 32) : Prop :=
  (∀ a x, ((![v655] : Fin 1 → IVec S16 32) a x).toNat < S65536.size a)
instance k1_chk239.dec : ∀ (v655 : IVec S16 32), Decidable (k1_chk239 v655) := fun v655 => decidable_of_iff' _ (Iff.of_eq (k1_chk239.eq_1 v655))
theorem k1_idx239_inb : ∀ (v655 : IVec S16 32) (k1_hw239 : k1_chk239 v655), ∀ a x, ((![v655] : Fin 1 → IVec S16 32) a x).toNat < S65536.size a := fun v655 k1_hw239 => k1_hw239

def k1_chk240 (v662 : IVec S16 32) : Prop :=
  (∀ a x, ((![v662] : Fin 1 → IVec S16 32) a x).toNat < S65536.size a)
instance k1_chk240.dec : ∀ (v662 : IVec S16 32), Decidable (k1_chk240 v662) := fun v662 => decidable_of_iff' _ (Iff.of_eq (k1_chk240.eq_1 v662))
theorem k1_idx240_inb : ∀ (v662 : IVec S16 32) (k1_hw240 : k1_chk240 v662), ∀ a x, ((![v662] : Fin 1 → IVec S16 32) a x).toNat < S65536.size a := fun v662 k1_hw240 => k1_hw240
def k1_off70 (k1_t5 : Fin k1_t5_loop.trips) (k1_t6 : Fin k1_t6_loop.trips) (c0_i32_287 : BitVec 32) : Fin 2 → Nat :=
  let c0_i32_43 : BitVec 32 := 0#32
  let c1_i32_45 : BitVec 32 := 1#32
  let arg11 : BitVec 32 := Scf.iv c0_i32_43 c1_i32_45 k1_t6
  let c4_i32_286 : BitVec 32 := 4#32
  let v665 : BitVec 32 := Scalar.muli arg11 c4_i32_286
  let v666 : BitVec 32 := Scalar.addi v665 c0_i32_287
  let v667 : Index := Scalar.indexCast v666
  let c0_i32_24 : BitVec 32 := 0#32
  let c1_i32_26 : BitVec 32 := 1#32
  let arg10 : BitVec 32 := Scf.iv c0_i32_24 c1_i32_26 k1_t5
  let c16_i32_36 : BitVec 32 := 16#32
  let v43 : BitVec 32 := Scalar.muli arg10 c16_i32_36
  let v668 : Index := Scalar.indexCast v43
  ![v667.toNat, v668.toNat]
def k1_off71 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_36_r10 : BitVec 32 := 0#32
  let c3072_i32_r10 : BitVec 32 := 3072#32
  ![v18.toNat, 0, 3072]
def k1_off72 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_29 : BitVec 32 := 16#32
  let v40 : BitVec 32 := Scalar.muli v28 c16_i32_29
  let c3072_i32_r11 : BitVec 32 := 3072#32
  ![v18.toNat, v40.toNat, 3072]
@[reducible] def k1_t7_loop : Scf.Loop 32 :=
  let c0_i32_31 : BitVec 32 := 0#32
  let c64_i32_32 : BitVec 32 := 64#32
  let v41 : BitVec 32 := Scalar.addi c0_i32_31 c64_i32_32
  let c1_i32_33 : BitVec 32 := 1#32
  ⟨c0_i32_31, v41, c1_i32_33⟩
def k1_off73 (k1_t7 : Fin k1_t7_loop.trips) : Fin 2 → Nat :=
  let c0_i32_37 : BitVec 32 := 0#32
  let v44 : Index := Scalar.indexCast c0_i32_37
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v45 : Index := Scalar.indexCast v43
  ![0, v45.toNat]
def k1_off74 (k1_t7 : Fin k1_t7_loop.trips) : Fin 2 → Nat :=
  let c1_i32_38 : BitVec 32 := 1#32
  let v47 : Index := Scalar.indexCast c1_i32_38
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v48 : Index := Scalar.indexCast v43
  ![1, v48.toNat]
def k1_off75 (k1_t7 : Fin k1_t7_loop.trips) : Fin 2 → Nat :=
  let c2_i32_39 : BitVec 32 := 2#32
  let v50 : Index := Scalar.indexCast c2_i32_39
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v51 : Index := Scalar.indexCast v43
  ![2, v51.toNat]
def k1_off76 (k1_t7 : Fin k1_t7_loop.trips) : Fin 2 → Nat :=
  let c3_i32 : BitVec 32 := 3#32
  let v53 : Index := Scalar.indexCast c3_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v54 : Index := Scalar.indexCast v43
  ![3, v54.toNat]
def k1_off77 (k1_t7 : Fin k1_t7_loop.trips) : Fin 2 → Nat :=
  let c4_i32_40 : BitVec 32 := 4#32
  let v56 : Index := Scalar.indexCast c4_i32_40
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v57 : Index := Scalar.indexCast v43
  ![4, v57.toNat]
def k1_off78 (k1_t7 : Fin k1_t7_loop.trips) : Fin 2 → Nat :=
  let c5_i32 : BitVec 32 := 5#32
  let v59 : Index := Scalar.indexCast c5_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v60 : Index := Scalar.indexCast v43
  ![5, v60.toNat]
def k1_off79 (k1_t7 : Fin k1_t7_loop.trips) : Fin 2 → Nat :=
  let c6_i32 : BitVec 32 := 6#32
  let v62 : Index := Scalar.indexCast c6_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v63 : Index := Scalar.indexCast v43
  ![6, v63.toNat]
def k1_off80 (k1_t7 : Fin k1_t7_loop.trips) : Fin 2 → Nat :=
  let c7_i32 : BitVec 32 := 7#32
  let v65 : Index := Scalar.indexCast c7_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v66 : Index := Scalar.indexCast v43
  ![7, v66.toNat]
def k1_off81 (k1_t7 : Fin k1_t7_loop.trips) : Fin 2 → Nat :=
  let c8_i32 : BitVec 32 := 8#32
  let v68 : Index := Scalar.indexCast c8_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v69 : Index := Scalar.indexCast v43
  ![8, v69.toNat]
def k1_off82 (k1_t7 : Fin k1_t7_loop.trips) : Fin 2 → Nat :=
  let c9_i32 : BitVec 32 := 9#32
  let v71 : Index := Scalar.indexCast c9_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v72 : Index := Scalar.indexCast v43
  ![9, v72.toNat]
def k1_off83 (k1_t7 : Fin k1_t7_loop.trips) : Fin 2 → Nat :=
  let c10_i32 : BitVec 32 := 10#32
  let v74 : Index := Scalar.indexCast c10_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v75 : Index := Scalar.indexCast v43
  ![10, v75.toNat]
def k1_off84 (k1_t7 : Fin k1_t7_loop.trips) : Fin 2 → Nat :=
  let c11_i32 : BitVec 32 := 11#32
  let v77 : Index := Scalar.indexCast c11_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v78 : Index := Scalar.indexCast v43
  ![11, v78.toNat]
def k1_off85 (k1_t7 : Fin k1_t7_loop.trips) : Fin 2 → Nat :=
  let c12_i32 : BitVec 32 := 12#32
  let v80 : Index := Scalar.indexCast c12_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v81 : Index := Scalar.indexCast v43
  ![12, v81.toNat]
def k1_off86 (k1_t7 : Fin k1_t7_loop.trips) : Fin 2 → Nat :=
  let c13_i32 : BitVec 32 := 13#32
  let v83 : Index := Scalar.indexCast c13_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v84 : Index := Scalar.indexCast v43
  ![13, v84.toNat]
def k1_off87 (k1_t7 : Fin k1_t7_loop.trips) : Fin 2 → Nat :=
  let c14_i32 : BitVec 32 := 14#32
  let v86 : Index := Scalar.indexCast c14_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v87 : Index := Scalar.indexCast v43
  ![14, v87.toNat]
def k1_off88 (k1_t7 : Fin k1_t7_loop.trips) : Fin 2 → Nat :=
  let c15_i32 : BitVec 32 := 15#32
  let v89 : Index := Scalar.indexCast c15_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v90 : Index := Scalar.indexCast v43
  ![15, v90.toNat]
def k1_off89 (k1_t7 : Fin k1_t7_loop.trips) : Fin 2 → Nat :=
  let c16_i32_41 : BitVec 32 := 16#32
  let v92 : Index := Scalar.indexCast c16_i32_41
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v93 : Index := Scalar.indexCast v43
  ![16, v93.toNat]
def k1_off90 (k1_t7 : Fin k1_t7_loop.trips) : Fin 2 → Nat :=
  let c17_i32 : BitVec 32 := 17#32
  let v95 : Index := Scalar.indexCast c17_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v96 : Index := Scalar.indexCast v43
  ![17, v96.toNat]
def k1_off91 (k1_t7 : Fin k1_t7_loop.trips) : Fin 2 → Nat :=
  let c18_i32 : BitVec 32 := 18#32
  let v98 : Index := Scalar.indexCast c18_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v99 : Index := Scalar.indexCast v43
  ![18, v99.toNat]
def k1_off92 (k1_t7 : Fin k1_t7_loop.trips) : Fin 2 → Nat :=
  let c19_i32 : BitVec 32 := 19#32
  let v101 : Index := Scalar.indexCast c19_i32
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v102 : Index := Scalar.indexCast v43
  ![19, v102.toNat]
@[reducible] def k1_t8_loop : Scf.Loop 32 :=
  let c0_i32_43 : BitVec 32 := 0#32
  let c4_i32_44 : BitVec 32 := 4#32
  let v104 : BitVec 32 := Scalar.addi c0_i32_43 c4_i32_44
  let c1_i32_45 : BitVec 32 := 1#32
  ⟨c0_i32_43, v104, c1_i32_45⟩

def k1_chk241 (v109 : IVec S16 32) : Prop :=
  (∀ a x, ((![v109] : Fin 1 → IVec S16 32) a x).toNat < S65536.size a)
instance k1_chk241.dec : ∀ (v109 : IVec S16 32), Decidable (k1_chk241 v109) := fun v109 => decidable_of_iff' _ (Iff.of_eq (k1_chk241.eq_1 v109))
theorem k1_idx241_inb : ∀ (v109 : IVec S16 32) (k1_hw241 : k1_chk241 v109), ∀ a x, ((![v109] : Fin 1 → IVec S16 32) a x).toNat < S65536.size a := fun v109 k1_hw241 => k1_hw241

def k1_chk242 (v116 : IVec S16 32) : Prop :=
  (∀ a x, ((![v116] : Fin 1 → IVec S16 32) a x).toNat < S65536.size a)
instance k1_chk242.dec : ∀ (v116 : IVec S16 32), Decidable (k1_chk242 v116) := fun v116 => decidable_of_iff' _ (Iff.of_eq (k1_chk242.eq_1 v116))
theorem k1_idx242_inb : ∀ (v116 : IVec S16 32) (k1_hw242 : k1_chk242 v116), ∀ a x, ((![v116] : Fin 1 → IVec S16 32) a x).toNat < S65536.size a := fun v116 k1_hw242 => k1_hw242

def k1_chk243 (v123 : IVec S16 32) : Prop :=
  (∀ a x, ((![v123] : Fin 1 → IVec S16 32) a x).toNat < S65536.size a)
instance k1_chk243.dec : ∀ (v123 : IVec S16 32), Decidable (k1_chk243 v123) := fun v123 => decidable_of_iff' _ (Iff.of_eq (k1_chk243.eq_1 v123))
theorem k1_idx243_inb : ∀ (v123 : IVec S16 32) (k1_hw243 : k1_chk243 v123), ∀ a x, ((![v123] : Fin 1 → IVec S16 32) a x).toNat < S65536.size a := fun v123 k1_hw243 => k1_hw243

def k1_chk244 (v130 : IVec S16 32) : Prop :=
  (∀ a x, ((![v130] : Fin 1 → IVec S16 32) a x).toNat < S65536.size a)
instance k1_chk244.dec : ∀ (v130 : IVec S16 32), Decidable (k1_chk244 v130) := fun v130 => decidable_of_iff' _ (Iff.of_eq (k1_chk244.eq_1 v130))
theorem k1_idx244_inb : ∀ (v130 : IVec S16 32) (k1_hw244 : k1_chk244 v130), ∀ a x, ((![v130] : Fin 1 → IVec S16 32) a x).toNat < S65536.size a := fun v130 k1_hw244 => k1_hw244

def k1_chk245 (v137 : IVec S16 32) : Prop :=
  (∀ a x, ((![v137] : Fin 1 → IVec S16 32) a x).toNat < S65536.size a)
instance k1_chk245.dec : ∀ (v137 : IVec S16 32), Decidable (k1_chk245 v137) := fun v137 => decidable_of_iff' _ (Iff.of_eq (k1_chk245.eq_1 v137))
theorem k1_idx245_inb : ∀ (v137 : IVec S16 32) (k1_hw245 : k1_chk245 v137), ∀ a x, ((![v137] : Fin 1 → IVec S16 32) a x).toNat < S65536.size a := fun v137 k1_hw245 => k1_hw245

def k1_chk246 (v144 : IVec S16 32) : Prop :=
  (∀ a x, ((![v144] : Fin 1 → IVec S16 32) a x).toNat < S65536.size a)
instance k1_chk246.dec : ∀ (v144 : IVec S16 32), Decidable (k1_chk246 v144) := fun v144 => decidable_of_iff' _ (Iff.of_eq (k1_chk246.eq_1 v144))
theorem k1_idx246_inb : ∀ (v144 : IVec S16 32) (k1_hw246 : k1_chk246 v144), ∀ a x, ((![v144] : Fin 1 → IVec S16 32) a x).toNat < S65536.size a := fun v144 k1_hw246 => k1_hw246

def k1_chk247 (v151 : IVec S16 32) : Prop :=
  (∀ a x, ((![v151] : Fin 1 → IVec S16 32) a x).toNat < S65536.size a)
instance k1_chk247.dec : ∀ (v151 : IVec S16 32), Decidable (k1_chk247 v151) := fun v151 => decidable_of_iff' _ (Iff.of_eq (k1_chk247.eq_1 v151))
theorem k1_idx247_inb : ∀ (v151 : IVec S16 32) (k1_hw247 : k1_chk247 v151), ∀ a x, ((![v151] : Fin 1 → IVec S16 32) a x).toNat < S65536.size a := fun v151 k1_hw247 => k1_hw247

def k1_chk248 (v158 : IVec S16 32) : Prop :=
  (∀ a x, ((![v158] : Fin 1 → IVec S16 32) a x).toNat < S65536.size a)
instance k1_chk248.dec : ∀ (v158 : IVec S16 32), Decidable (k1_chk248 v158) := fun v158 => decidable_of_iff' _ (Iff.of_eq (k1_chk248.eq_1 v158))
theorem k1_idx248_inb : ∀ (v158 : IVec S16 32) (k1_hw248 : k1_chk248 v158), ∀ a x, ((![v158] : Fin 1 → IVec S16 32) a x).toNat < S65536.size a := fun v158 k1_hw248 => k1_hw248

def k1_chk249 (v165 : IVec S16 32) : Prop :=
  (∀ a x, ((![v165] : Fin 1 → IVec S16 32) a x).toNat < S65536.size a)
instance k1_chk249.dec : ∀ (v165 : IVec S16 32), Decidable (k1_chk249 v165) := fun v165 => decidable_of_iff' _ (Iff.of_eq (k1_chk249.eq_1 v165))
theorem k1_idx249_inb : ∀ (v165 : IVec S16 32) (k1_hw249 : k1_chk249 v165), ∀ a x, ((![v165] : Fin 1 → IVec S16 32) a x).toNat < S65536.size a := fun v165 k1_hw249 => k1_hw249

def k1_chk250 (v172 : IVec S16 32) : Prop :=
  (∀ a x, ((![v172] : Fin 1 → IVec S16 32) a x).toNat < S65536.size a)
instance k1_chk250.dec : ∀ (v172 : IVec S16 32), Decidable (k1_chk250 v172) := fun v172 => decidable_of_iff' _ (Iff.of_eq (k1_chk250.eq_1 v172))
theorem k1_idx250_inb : ∀ (v172 : IVec S16 32) (k1_hw250 : k1_chk250 v172), ∀ a x, ((![v172] : Fin 1 → IVec S16 32) a x).toNat < S65536.size a := fun v172 k1_hw250 => k1_hw250

def k1_chk251 (v179 : IVec S16 32) : Prop :=
  (∀ a x, ((![v179] : Fin 1 → IVec S16 32) a x).toNat < S65536.size a)
instance k1_chk251.dec : ∀ (v179 : IVec S16 32), Decidable (k1_chk251 v179) := fun v179 => decidable_of_iff' _ (Iff.of_eq (k1_chk251.eq_1 v179))
theorem k1_idx251_inb : ∀ (v179 : IVec S16 32) (k1_hw251 : k1_chk251 v179), ∀ a x, ((![v179] : Fin 1 → IVec S16 32) a x).toNat < S65536.size a := fun v179 k1_hw251 => k1_hw251

def k1_chk252 (v186 : IVec S16 32) : Prop :=
  (∀ a x, ((![v186] : Fin 1 → IVec S16 32) a x).toNat < S65536.size a)
instance k1_chk252.dec : ∀ (v186 : IVec S16 32), Decidable (k1_chk252 v186) := fun v186 => decidable_of_iff' _ (Iff.of_eq (k1_chk252.eq_1 v186))
theorem k1_idx252_inb : ∀ (v186 : IVec S16 32) (k1_hw252 : k1_chk252 v186), ∀ a x, ((![v186] : Fin 1 → IVec S16 32) a x).toNat < S65536.size a := fun v186 k1_hw252 => k1_hw252

def k1_chk253 (v193 : IVec S16 32) : Prop :=
  (∀ a x, ((![v193] : Fin 1 → IVec S16 32) a x).toNat < S65536.size a)
instance k1_chk253.dec : ∀ (v193 : IVec S16 32), Decidable (k1_chk253 v193) := fun v193 => decidable_of_iff' _ (Iff.of_eq (k1_chk253.eq_1 v193))
theorem k1_idx253_inb : ∀ (v193 : IVec S16 32) (k1_hw253 : k1_chk253 v193), ∀ a x, ((![v193] : Fin 1 → IVec S16 32) a x).toNat < S65536.size a := fun v193 k1_hw253 => k1_hw253

def k1_chk254 (v200 : IVec S16 32) : Prop :=
  (∀ a x, ((![v200] : Fin 1 → IVec S16 32) a x).toNat < S65536.size a)
instance k1_chk254.dec : ∀ (v200 : IVec S16 32), Decidable (k1_chk254 v200) := fun v200 => decidable_of_iff' _ (Iff.of_eq (k1_chk254.eq_1 v200))
theorem k1_idx254_inb : ∀ (v200 : IVec S16 32) (k1_hw254 : k1_chk254 v200), ∀ a x, ((![v200] : Fin 1 → IVec S16 32) a x).toNat < S65536.size a := fun v200 k1_hw254 => k1_hw254

def k1_chk255 (v207 : IVec S16 32) : Prop :=
  (∀ a x, ((![v207] : Fin 1 → IVec S16 32) a x).toNat < S65536.size a)
instance k1_chk255.dec : ∀ (v207 : IVec S16 32), Decidable (k1_chk255 v207) := fun v207 => decidable_of_iff' _ (Iff.of_eq (k1_chk255.eq_1 v207))
theorem k1_idx255_inb : ∀ (v207 : IVec S16 32) (k1_hw255 : k1_chk255 v207), ∀ a x, ((![v207] : Fin 1 → IVec S16 32) a x).toNat < S65536.size a := fun v207 k1_hw255 => k1_hw255

def k1_chk256 (v214 : IVec S16 32) : Prop :=
  (∀ a x, ((![v214] : Fin 1 → IVec S16 32) a x).toNat < S65536.size a)
instance k1_chk256.dec : ∀ (v214 : IVec S16 32), Decidable (k1_chk256 v214) := fun v214 => decidable_of_iff' _ (Iff.of_eq (k1_chk256.eq_1 v214))
theorem k1_idx256_inb : ∀ (v214 : IVec S16 32) (k1_hw256 : k1_chk256 v214), ∀ a x, ((![v214] : Fin 1 → IVec S16 32) a x).toNat < S65536.size a := fun v214 k1_hw256 => k1_hw256

def k1_chk257 (v221 : IVec S16 32) : Prop :=
  (∀ a x, ((![v221] : Fin 1 → IVec S16 32) a x).toNat < S65536.size a)
instance k1_chk257.dec : ∀ (v221 : IVec S16 32), Decidable (k1_chk257 v221) := fun v221 => decidable_of_iff' _ (Iff.of_eq (k1_chk257.eq_1 v221))
theorem k1_idx257_inb : ∀ (v221 : IVec S16 32) (k1_hw257 : k1_chk257 v221), ∀ a x, ((![v221] : Fin 1 → IVec S16 32) a x).toNat < S65536.size a := fun v221 k1_hw257 => k1_hw257

def k1_chk258 (v228 : IVec S16 32) : Prop :=
  (∀ a x, ((![v228] : Fin 1 → IVec S16 32) a x).toNat < S65536.size a)
instance k1_chk258.dec : ∀ (v228 : IVec S16 32), Decidable (k1_chk258 v228) := fun v228 => decidable_of_iff' _ (Iff.of_eq (k1_chk258.eq_1 v228))
theorem k1_idx258_inb : ∀ (v228 : IVec S16 32) (k1_hw258 : k1_chk258 v228), ∀ a x, ((![v228] : Fin 1 → IVec S16 32) a x).toNat < S65536.size a := fun v228 k1_hw258 => k1_hw258

def k1_chk259 (v235 : IVec S16 32) : Prop :=
  (∀ a x, ((![v235] : Fin 1 → IVec S16 32) a x).toNat < S65536.size a)
instance k1_chk259.dec : ∀ (v235 : IVec S16 32), Decidable (k1_chk259 v235) := fun v235 => decidable_of_iff' _ (Iff.of_eq (k1_chk259.eq_1 v235))
theorem k1_idx259_inb : ∀ (v235 : IVec S16 32) (k1_hw259 : k1_chk259 v235), ∀ a x, ((![v235] : Fin 1 → IVec S16 32) a x).toNat < S65536.size a := fun v235 k1_hw259 => k1_hw259

def k1_chk260 (v242 : IVec S16 32) : Prop :=
  (∀ a x, ((![v242] : Fin 1 → IVec S16 32) a x).toNat < S65536.size a)
instance k1_chk260.dec : ∀ (v242 : IVec S16 32), Decidable (k1_chk260 v242) := fun v242 => decidable_of_iff' _ (Iff.of_eq (k1_chk260.eq_1 v242))
theorem k1_idx260_inb : ∀ (v242 : IVec S16 32) (k1_hw260 : k1_chk260 v242), ∀ a x, ((![v242] : Fin 1 → IVec S16 32) a x).toNat < S65536.size a := fun v242 k1_hw260 => k1_hw260

def k1_chk261 (v249 : IVec S16 32) : Prop :=
  (∀ a x, ((![v249] : Fin 1 → IVec S16 32) a x).toNat < S65536.size a)
instance k1_chk261.dec : ∀ (v249 : IVec S16 32), Decidable (k1_chk261 v249) := fun v249 => decidable_of_iff' _ (Iff.of_eq (k1_chk261.eq_1 v249))
theorem k1_idx261_inb : ∀ (v249 : IVec S16 32) (k1_hw261 : k1_chk261 v249), ∀ a x, ((![v249] : Fin 1 → IVec S16 32) a x).toNat < S65536.size a := fun v249 k1_hw261 => k1_hw261

def k1_chk262 (v256 : IVec S16 32) : Prop :=
  (∀ a x, ((![v256] : Fin 1 → IVec S16 32) a x).toNat < S65536.size a)
instance k1_chk262.dec : ∀ (v256 : IVec S16 32), Decidable (k1_chk262 v256) := fun v256 => decidable_of_iff' _ (Iff.of_eq (k1_chk262.eq_1 v256))
theorem k1_idx262_inb : ∀ (v256 : IVec S16 32) (k1_hw262 : k1_chk262 v256), ∀ a x, ((![v256] : Fin 1 → IVec S16 32) a x).toNat < S65536.size a := fun v256 k1_hw262 => k1_hw262

def k1_chk263 (v263 : IVec S16 32) : Prop :=
  (∀ a x, ((![v263] : Fin 1 → IVec S16 32) a x).toNat < S65536.size a)
instance k1_chk263.dec : ∀ (v263 : IVec S16 32), Decidable (k1_chk263 v263) := fun v263 => decidable_of_iff' _ (Iff.of_eq (k1_chk263.eq_1 v263))
theorem k1_idx263_inb : ∀ (v263 : IVec S16 32) (k1_hw263 : k1_chk263 v263), ∀ a x, ((![v263] : Fin 1 → IVec S16 32) a x).toNat < S65536.size a := fun v263 k1_hw263 => k1_hw263

def k1_chk264 (v270 : IVec S16 32) : Prop :=
  (∀ a x, ((![v270] : Fin 1 → IVec S16 32) a x).toNat < S65536.size a)
instance k1_chk264.dec : ∀ (v270 : IVec S16 32), Decidable (k1_chk264 v270) := fun v270 => decidable_of_iff' _ (Iff.of_eq (k1_chk264.eq_1 v270))
theorem k1_idx264_inb : ∀ (v270 : IVec S16 32) (k1_hw264 : k1_chk264 v270), ∀ a x, ((![v270] : Fin 1 → IVec S16 32) a x).toNat < S65536.size a := fun v270 k1_hw264 => k1_hw264

def k1_chk265 (v277 : IVec S16 32) : Prop :=
  (∀ a x, ((![v277] : Fin 1 → IVec S16 32) a x).toNat < S65536.size a)
instance k1_chk265.dec : ∀ (v277 : IVec S16 32), Decidable (k1_chk265 v277) := fun v277 => decidable_of_iff' _ (Iff.of_eq (k1_chk265.eq_1 v277))
theorem k1_idx265_inb : ∀ (v277 : IVec S16 32) (k1_hw265 : k1_chk265 v277), ∀ a x, ((![v277] : Fin 1 → IVec S16 32) a x).toNat < S65536.size a := fun v277 k1_hw265 => k1_hw265

def k1_chk266 (v284 : IVec S16 32) : Prop :=
  (∀ a x, ((![v284] : Fin 1 → IVec S16 32) a x).toNat < S65536.size a)
instance k1_chk266.dec : ∀ (v284 : IVec S16 32), Decidable (k1_chk266 v284) := fun v284 => decidable_of_iff' _ (Iff.of_eq (k1_chk266.eq_1 v284))
theorem k1_idx266_inb : ∀ (v284 : IVec S16 32) (k1_hw266 : k1_chk266 v284), ∀ a x, ((![v284] : Fin 1 → IVec S16 32) a x).toNat < S65536.size a := fun v284 k1_hw266 => k1_hw266

def k1_chk267 (v291 : IVec S16 32) : Prop :=
  (∀ a x, ((![v291] : Fin 1 → IVec S16 32) a x).toNat < S65536.size a)
instance k1_chk267.dec : ∀ (v291 : IVec S16 32), Decidable (k1_chk267 v291) := fun v291 => decidable_of_iff' _ (Iff.of_eq (k1_chk267.eq_1 v291))
theorem k1_idx267_inb : ∀ (v291 : IVec S16 32) (k1_hw267 : k1_chk267 v291), ∀ a x, ((![v291] : Fin 1 → IVec S16 32) a x).toNat < S65536.size a := fun v291 k1_hw267 => k1_hw267

def k1_chk268 (v298 : IVec S16 32) : Prop :=
  (∀ a x, ((![v298] : Fin 1 → IVec S16 32) a x).toNat < S65536.size a)
instance k1_chk268.dec : ∀ (v298 : IVec S16 32), Decidable (k1_chk268 v298) := fun v298 => decidable_of_iff' _ (Iff.of_eq (k1_chk268.eq_1 v298))
theorem k1_idx268_inb : ∀ (v298 : IVec S16 32) (k1_hw268 : k1_chk268 v298), ∀ a x, ((![v298] : Fin 1 → IVec S16 32) a x).toNat < S65536.size a := fun v298 k1_hw268 => k1_hw268

def k1_chk269 (v305 : IVec S16 32) : Prop :=
  (∀ a x, ((![v305] : Fin 1 → IVec S16 32) a x).toNat < S65536.size a)
instance k1_chk269.dec : ∀ (v305 : IVec S16 32), Decidable (k1_chk269 v305) := fun v305 => decidable_of_iff' _ (Iff.of_eq (k1_chk269.eq_1 v305))
theorem k1_idx269_inb : ∀ (v305 : IVec S16 32) (k1_hw269 : k1_chk269 v305), ∀ a x, ((![v305] : Fin 1 → IVec S16 32) a x).toNat < S65536.size a := fun v305 k1_hw269 => k1_hw269

def k1_chk270 (v312 : IVec S16 32) : Prop :=
  (∀ a x, ((![v312] : Fin 1 → IVec S16 32) a x).toNat < S65536.size a)
instance k1_chk270.dec : ∀ (v312 : IVec S16 32), Decidable (k1_chk270 v312) := fun v312 => decidable_of_iff' _ (Iff.of_eq (k1_chk270.eq_1 v312))
theorem k1_idx270_inb : ∀ (v312 : IVec S16 32) (k1_hw270 : k1_chk270 v312), ∀ a x, ((![v312] : Fin 1 → IVec S16 32) a x).toNat < S65536.size a := fun v312 k1_hw270 => k1_hw270

def k1_chk271 (v319 : IVec S16 32) : Prop :=
  (∀ a x, ((![v319] : Fin 1 → IVec S16 32) a x).toNat < S65536.size a)
instance k1_chk271.dec : ∀ (v319 : IVec S16 32), Decidable (k1_chk271 v319) := fun v319 => decidable_of_iff' _ (Iff.of_eq (k1_chk271.eq_1 v319))
theorem k1_idx271_inb : ∀ (v319 : IVec S16 32) (k1_hw271 : k1_chk271 v319), ∀ a x, ((![v319] : Fin 1 → IVec S16 32) a x).toNat < S65536.size a := fun v319 k1_hw271 => k1_hw271

def k1_chk272 (v326 : IVec S16 32) : Prop :=
  (∀ a x, ((![v326] : Fin 1 → IVec S16 32) a x).toNat < S65536.size a)
instance k1_chk272.dec : ∀ (v326 : IVec S16 32), Decidable (k1_chk272 v326) := fun v326 => decidable_of_iff' _ (Iff.of_eq (k1_chk272.eq_1 v326))
theorem k1_idx272_inb : ∀ (v326 : IVec S16 32) (k1_hw272 : k1_chk272 v326), ∀ a x, ((![v326] : Fin 1 → IVec S16 32) a x).toNat < S65536.size a := fun v326 k1_hw272 => k1_hw272

def k1_chk273 (v333 : IVec S16 32) : Prop :=
  (∀ a x, ((![v333] : Fin 1 → IVec S16 32) a x).toNat < S65536.size a)
instance k1_chk273.dec : ∀ (v333 : IVec S16 32), Decidable (k1_chk273 v333) := fun v333 => decidable_of_iff' _ (Iff.of_eq (k1_chk273.eq_1 v333))
theorem k1_idx273_inb : ∀ (v333 : IVec S16 32) (k1_hw273 : k1_chk273 v333), ∀ a x, ((![v333] : Fin 1 → IVec S16 32) a x).toNat < S65536.size a := fun v333 k1_hw273 => k1_hw273

def k1_chk274 (v340 : IVec S16 32) : Prop :=
  (∀ a x, ((![v340] : Fin 1 → IVec S16 32) a x).toNat < S65536.size a)
instance k1_chk274.dec : ∀ (v340 : IVec S16 32), Decidable (k1_chk274 v340) := fun v340 => decidable_of_iff' _ (Iff.of_eq (k1_chk274.eq_1 v340))
theorem k1_idx274_inb : ∀ (v340 : IVec S16 32) (k1_hw274 : k1_chk274 v340), ∀ a x, ((![v340] : Fin 1 → IVec S16 32) a x).toNat < S65536.size a := fun v340 k1_hw274 => k1_hw274

def k1_chk275 (v347 : IVec S16 32) : Prop :=
  (∀ a x, ((![v347] : Fin 1 → IVec S16 32) a x).toNat < S65536.size a)
instance k1_chk275.dec : ∀ (v347 : IVec S16 32), Decidable (k1_chk275 v347) := fun v347 => decidable_of_iff' _ (Iff.of_eq (k1_chk275.eq_1 v347))
theorem k1_idx275_inb : ∀ (v347 : IVec S16 32) (k1_hw275 : k1_chk275 v347), ∀ a x, ((![v347] : Fin 1 → IVec S16 32) a x).toNat < S65536.size a := fun v347 k1_hw275 => k1_hw275

def k1_chk276 (v354 : IVec S16 32) : Prop :=
  (∀ a x, ((![v354] : Fin 1 → IVec S16 32) a x).toNat < S65536.size a)
instance k1_chk276.dec : ∀ (v354 : IVec S16 32), Decidable (k1_chk276 v354) := fun v354 => decidable_of_iff' _ (Iff.of_eq (k1_chk276.eq_1 v354))
theorem k1_idx276_inb : ∀ (v354 : IVec S16 32) (k1_hw276 : k1_chk276 v354), ∀ a x, ((![v354] : Fin 1 → IVec S16 32) a x).toNat < S65536.size a := fun v354 k1_hw276 => k1_hw276

def k1_chk277 (v361 : IVec S16 32) : Prop :=
  (∀ a x, ((![v361] : Fin 1 → IVec S16 32) a x).toNat < S65536.size a)
instance k1_chk277.dec : ∀ (v361 : IVec S16 32), Decidable (k1_chk277 v361) := fun v361 => decidable_of_iff' _ (Iff.of_eq (k1_chk277.eq_1 v361))
theorem k1_idx277_inb : ∀ (v361 : IVec S16 32) (k1_hw277 : k1_chk277 v361), ∀ a x, ((![v361] : Fin 1 → IVec S16 32) a x).toNat < S65536.size a := fun v361 k1_hw277 => k1_hw277

def k1_chk278 (v368 : IVec S16 32) : Prop :=
  (∀ a x, ((![v368] : Fin 1 → IVec S16 32) a x).toNat < S65536.size a)
instance k1_chk278.dec : ∀ (v368 : IVec S16 32), Decidable (k1_chk278 v368) := fun v368 => decidable_of_iff' _ (Iff.of_eq (k1_chk278.eq_1 v368))
theorem k1_idx278_inb : ∀ (v368 : IVec S16 32) (k1_hw278 : k1_chk278 v368), ∀ a x, ((![v368] : Fin 1 → IVec S16 32) a x).toNat < S65536.size a := fun v368 k1_hw278 => k1_hw278

def k1_chk279 (v375 : IVec S16 32) : Prop :=
  (∀ a x, ((![v375] : Fin 1 → IVec S16 32) a x).toNat < S65536.size a)
instance k1_chk279.dec : ∀ (v375 : IVec S16 32), Decidable (k1_chk279 v375) := fun v375 => decidable_of_iff' _ (Iff.of_eq (k1_chk279.eq_1 v375))
theorem k1_idx279_inb : ∀ (v375 : IVec S16 32) (k1_hw279 : k1_chk279 v375), ∀ a x, ((![v375] : Fin 1 → IVec S16 32) a x).toNat < S65536.size a := fun v375 k1_hw279 => k1_hw279

def k1_chk280 (v382 : IVec S16 32) : Prop :=
  (∀ a x, ((![v382] : Fin 1 → IVec S16 32) a x).toNat < S65536.size a)
instance k1_chk280.dec : ∀ (v382 : IVec S16 32), Decidable (k1_chk280 v382) := fun v382 => decidable_of_iff' _ (Iff.of_eq (k1_chk280.eq_1 v382))
theorem k1_idx280_inb : ∀ (v382 : IVec S16 32) (k1_hw280 : k1_chk280 v382), ∀ a x, ((![v382] : Fin 1 → IVec S16 32) a x).toNat < S65536.size a := fun v382 k1_hw280 => k1_hw280

def k1_chk281 (v389 : IVec S16 32) : Prop :=
  (∀ a x, ((![v389] : Fin 1 → IVec S16 32) a x).toNat < S65536.size a)
instance k1_chk281.dec : ∀ (v389 : IVec S16 32), Decidable (k1_chk281 v389) := fun v389 => decidable_of_iff' _ (Iff.of_eq (k1_chk281.eq_1 v389))
theorem k1_idx281_inb : ∀ (v389 : IVec S16 32) (k1_hw281 : k1_chk281 v389), ∀ a x, ((![v389] : Fin 1 → IVec S16 32) a x).toNat < S65536.size a := fun v389 k1_hw281 => k1_hw281

def k1_chk282 (v396 : IVec S16 32) : Prop :=
  (∀ a x, ((![v396] : Fin 1 → IVec S16 32) a x).toNat < S65536.size a)
instance k1_chk282.dec : ∀ (v396 : IVec S16 32), Decidable (k1_chk282 v396) := fun v396 => decidable_of_iff' _ (Iff.of_eq (k1_chk282.eq_1 v396))
theorem k1_idx282_inb : ∀ (v396 : IVec S16 32) (k1_hw282 : k1_chk282 v396), ∀ a x, ((![v396] : Fin 1 → IVec S16 32) a x).toNat < S65536.size a := fun v396 k1_hw282 => k1_hw282

def k1_chk283 (v403 : IVec S16 32) : Prop :=
  (∀ a x, ((![v403] : Fin 1 → IVec S16 32) a x).toNat < S65536.size a)
instance k1_chk283.dec : ∀ (v403 : IVec S16 32), Decidable (k1_chk283 v403) := fun v403 => decidable_of_iff' _ (Iff.of_eq (k1_chk283.eq_1 v403))
theorem k1_idx283_inb : ∀ (v403 : IVec S16 32) (k1_hw283 : k1_chk283 v403), ∀ a x, ((![v403] : Fin 1 → IVec S16 32) a x).toNat < S65536.size a := fun v403 k1_hw283 => k1_hw283

def k1_chk284 (v410 : IVec S16 32) : Prop :=
  (∀ a x, ((![v410] : Fin 1 → IVec S16 32) a x).toNat < S65536.size a)
instance k1_chk284.dec : ∀ (v410 : IVec S16 32), Decidable (k1_chk284 v410) := fun v410 => decidable_of_iff' _ (Iff.of_eq (k1_chk284.eq_1 v410))
theorem k1_idx284_inb : ∀ (v410 : IVec S16 32) (k1_hw284 : k1_chk284 v410), ∀ a x, ((![v410] : Fin 1 → IVec S16 32) a x).toNat < S65536.size a := fun v410 k1_hw284 => k1_hw284

def k1_chk285 (v417 : IVec S16 32) : Prop :=
  (∀ a x, ((![v417] : Fin 1 → IVec S16 32) a x).toNat < S65536.size a)
instance k1_chk285.dec : ∀ (v417 : IVec S16 32), Decidable (k1_chk285 v417) := fun v417 => decidable_of_iff' _ (Iff.of_eq (k1_chk285.eq_1 v417))
theorem k1_idx285_inb : ∀ (v417 : IVec S16 32) (k1_hw285 : k1_chk285 v417), ∀ a x, ((![v417] : Fin 1 → IVec S16 32) a x).toNat < S65536.size a := fun v417 k1_hw285 => k1_hw285

def k1_chk286 (v424 : IVec S16 32) : Prop :=
  (∀ a x, ((![v424] : Fin 1 → IVec S16 32) a x).toNat < S65536.size a)
instance k1_chk286.dec : ∀ (v424 : IVec S16 32), Decidable (k1_chk286 v424) := fun v424 => decidable_of_iff' _ (Iff.of_eq (k1_chk286.eq_1 v424))
theorem k1_idx286_inb : ∀ (v424 : IVec S16 32) (k1_hw286 : k1_chk286 v424), ∀ a x, ((![v424] : Fin 1 → IVec S16 32) a x).toNat < S65536.size a := fun v424 k1_hw286 => k1_hw286

def k1_chk287 (v431 : IVec S16 32) : Prop :=
  (∀ a x, ((![v431] : Fin 1 → IVec S16 32) a x).toNat < S65536.size a)
instance k1_chk287.dec : ∀ (v431 : IVec S16 32), Decidable (k1_chk287 v431) := fun v431 => decidable_of_iff' _ (Iff.of_eq (k1_chk287.eq_1 v431))
theorem k1_idx287_inb : ∀ (v431 : IVec S16 32) (k1_hw287 : k1_chk287 v431), ∀ a x, ((![v431] : Fin 1 → IVec S16 32) a x).toNat < S65536.size a := fun v431 k1_hw287 => k1_hw287

def k1_chk288 (v438 : IVec S16 32) : Prop :=
  (∀ a x, ((![v438] : Fin 1 → IVec S16 32) a x).toNat < S65536.size a)
instance k1_chk288.dec : ∀ (v438 : IVec S16 32), Decidable (k1_chk288 v438) := fun v438 => decidable_of_iff' _ (Iff.of_eq (k1_chk288.eq_1 v438))
theorem k1_idx288_inb : ∀ (v438 : IVec S16 32) (k1_hw288 : k1_chk288 v438), ∀ a x, ((![v438] : Fin 1 → IVec S16 32) a x).toNat < S65536.size a := fun v438 k1_hw288 => k1_hw288

def k1_chk289 (v445 : IVec S16 32) : Prop :=
  (∀ a x, ((![v445] : Fin 1 → IVec S16 32) a x).toNat < S65536.size a)
instance k1_chk289.dec : ∀ (v445 : IVec S16 32), Decidable (k1_chk289 v445) := fun v445 => decidable_of_iff' _ (Iff.of_eq (k1_chk289.eq_1 v445))
theorem k1_idx289_inb : ∀ (v445 : IVec S16 32) (k1_hw289 : k1_chk289 v445), ∀ a x, ((![v445] : Fin 1 → IVec S16 32) a x).toNat < S65536.size a := fun v445 k1_hw289 => k1_hw289

def k1_chk290 (v452 : IVec S16 32) : Prop :=
  (∀ a x, ((![v452] : Fin 1 → IVec S16 32) a x).toNat < S65536.size a)
instance k1_chk290.dec : ∀ (v452 : IVec S16 32), Decidable (k1_chk290 v452) := fun v452 => decidable_of_iff' _ (Iff.of_eq (k1_chk290.eq_1 v452))
theorem k1_idx290_inb : ∀ (v452 : IVec S16 32) (k1_hw290 : k1_chk290 v452), ∀ a x, ((![v452] : Fin 1 → IVec S16 32) a x).toNat < S65536.size a := fun v452 k1_hw290 => k1_hw290

def k1_chk291 (v459 : IVec S16 32) : Prop :=
  (∀ a x, ((![v459] : Fin 1 → IVec S16 32) a x).toNat < S65536.size a)
instance k1_chk291.dec : ∀ (v459 : IVec S16 32), Decidable (k1_chk291 v459) := fun v459 => decidable_of_iff' _ (Iff.of_eq (k1_chk291.eq_1 v459))
theorem k1_idx291_inb : ∀ (v459 : IVec S16 32) (k1_hw291 : k1_chk291 v459), ∀ a x, ((![v459] : Fin 1 → IVec S16 32) a x).toNat < S65536.size a := fun v459 k1_hw291 => k1_hw291

def k1_chk292 (v466 : IVec S16 32) : Prop :=
  (∀ a x, ((![v466] : Fin 1 → IVec S16 32) a x).toNat < S65536.size a)
instance k1_chk292.dec : ∀ (v466 : IVec S16 32), Decidable (k1_chk292 v466) := fun v466 => decidable_of_iff' _ (Iff.of_eq (k1_chk292.eq_1 v466))
theorem k1_idx292_inb : ∀ (v466 : IVec S16 32) (k1_hw292 : k1_chk292 v466), ∀ a x, ((![v466] : Fin 1 → IVec S16 32) a x).toNat < S65536.size a := fun v466 k1_hw292 => k1_hw292

def k1_chk293 (v473 : IVec S16 32) : Prop :=
  (∀ a x, ((![v473] : Fin 1 → IVec S16 32) a x).toNat < S65536.size a)
instance k1_chk293.dec : ∀ (v473 : IVec S16 32), Decidable (k1_chk293 v473) := fun v473 => decidable_of_iff' _ (Iff.of_eq (k1_chk293.eq_1 v473))
theorem k1_idx293_inb : ∀ (v473 : IVec S16 32) (k1_hw293 : k1_chk293 v473), ∀ a x, ((![v473] : Fin 1 → IVec S16 32) a x).toNat < S65536.size a := fun v473 k1_hw293 => k1_hw293

def k1_chk294 (v480 : IVec S16 32) : Prop :=
  (∀ a x, ((![v480] : Fin 1 → IVec S16 32) a x).toNat < S65536.size a)
instance k1_chk294.dec : ∀ (v480 : IVec S16 32), Decidable (k1_chk294 v480) := fun v480 => decidable_of_iff' _ (Iff.of_eq (k1_chk294.eq_1 v480))
theorem k1_idx294_inb : ∀ (v480 : IVec S16 32) (k1_hw294 : k1_chk294 v480), ∀ a x, ((![v480] : Fin 1 → IVec S16 32) a x).toNat < S65536.size a := fun v480 k1_hw294 => k1_hw294

def k1_chk295 (v487 : IVec S16 32) : Prop :=
  (∀ a x, ((![v487] : Fin 1 → IVec S16 32) a x).toNat < S65536.size a)
instance k1_chk295.dec : ∀ (v487 : IVec S16 32), Decidable (k1_chk295 v487) := fun v487 => decidable_of_iff' _ (Iff.of_eq (k1_chk295.eq_1 v487))
theorem k1_idx295_inb : ∀ (v487 : IVec S16 32) (k1_hw295 : k1_chk295 v487), ∀ a x, ((![v487] : Fin 1 → IVec S16 32) a x).toNat < S65536.size a := fun v487 k1_hw295 => k1_hw295

def k1_chk296 (v494 : IVec S16 32) : Prop :=
  (∀ a x, ((![v494] : Fin 1 → IVec S16 32) a x).toNat < S65536.size a)
instance k1_chk296.dec : ∀ (v494 : IVec S16 32), Decidable (k1_chk296 v494) := fun v494 => decidable_of_iff' _ (Iff.of_eq (k1_chk296.eq_1 v494))
theorem k1_idx296_inb : ∀ (v494 : IVec S16 32) (k1_hw296 : k1_chk296 v494), ∀ a x, ((![v494] : Fin 1 → IVec S16 32) a x).toNat < S65536.size a := fun v494 k1_hw296 => k1_hw296

def k1_chk297 (v501 : IVec S16 32) : Prop :=
  (∀ a x, ((![v501] : Fin 1 → IVec S16 32) a x).toNat < S65536.size a)
instance k1_chk297.dec : ∀ (v501 : IVec S16 32), Decidable (k1_chk297 v501) := fun v501 => decidable_of_iff' _ (Iff.of_eq (k1_chk297.eq_1 v501))
theorem k1_idx297_inb : ∀ (v501 : IVec S16 32) (k1_hw297 : k1_chk297 v501), ∀ a x, ((![v501] : Fin 1 → IVec S16 32) a x).toNat < S65536.size a := fun v501 k1_hw297 => k1_hw297

def k1_chk298 (v508 : IVec S16 32) : Prop :=
  (∀ a x, ((![v508] : Fin 1 → IVec S16 32) a x).toNat < S65536.size a)
instance k1_chk298.dec : ∀ (v508 : IVec S16 32), Decidable (k1_chk298 v508) := fun v508 => decidable_of_iff' _ (Iff.of_eq (k1_chk298.eq_1 v508))
theorem k1_idx298_inb : ∀ (v508 : IVec S16 32) (k1_hw298 : k1_chk298 v508), ∀ a x, ((![v508] : Fin 1 → IVec S16 32) a x).toNat < S65536.size a := fun v508 k1_hw298 => k1_hw298

def k1_chk299 (v515 : IVec S16 32) : Prop :=
  (∀ a x, ((![v515] : Fin 1 → IVec S16 32) a x).toNat < S65536.size a)
instance k1_chk299.dec : ∀ (v515 : IVec S16 32), Decidable (k1_chk299 v515) := fun v515 => decidable_of_iff' _ (Iff.of_eq (k1_chk299.eq_1 v515))
theorem k1_idx299_inb : ∀ (v515 : IVec S16 32) (k1_hw299 : k1_chk299 v515), ∀ a x, ((![v515] : Fin 1 → IVec S16 32) a x).toNat < S65536.size a := fun v515 k1_hw299 => k1_hw299

def k1_chk300 (v522 : IVec S16 32) : Prop :=
  (∀ a x, ((![v522] : Fin 1 → IVec S16 32) a x).toNat < S65536.size a)
instance k1_chk300.dec : ∀ (v522 : IVec S16 32), Decidable (k1_chk300 v522) := fun v522 => decidable_of_iff' _ (Iff.of_eq (k1_chk300.eq_1 v522))
theorem k1_idx300_inb : ∀ (v522 : IVec S16 32) (k1_hw300 : k1_chk300 v522), ∀ a x, ((![v522] : Fin 1 → IVec S16 32) a x).toNat < S65536.size a := fun v522 k1_hw300 => k1_hw300

def k1_chk301 (v529 : IVec S16 32) : Prop :=
  (∀ a x, ((![v529] : Fin 1 → IVec S16 32) a x).toNat < S65536.size a)
instance k1_chk301.dec : ∀ (v529 : IVec S16 32), Decidable (k1_chk301 v529) := fun v529 => decidable_of_iff' _ (Iff.of_eq (k1_chk301.eq_1 v529))
theorem k1_idx301_inb : ∀ (v529 : IVec S16 32) (k1_hw301 : k1_chk301 v529), ∀ a x, ((![v529] : Fin 1 → IVec S16 32) a x).toNat < S65536.size a := fun v529 k1_hw301 => k1_hw301

def k1_chk302 (v536 : IVec S16 32) : Prop :=
  (∀ a x, ((![v536] : Fin 1 → IVec S16 32) a x).toNat < S65536.size a)
instance k1_chk302.dec : ∀ (v536 : IVec S16 32), Decidable (k1_chk302 v536) := fun v536 => decidable_of_iff' _ (Iff.of_eq (k1_chk302.eq_1 v536))
theorem k1_idx302_inb : ∀ (v536 : IVec S16 32) (k1_hw302 : k1_chk302 v536), ∀ a x, ((![v536] : Fin 1 → IVec S16 32) a x).toNat < S65536.size a := fun v536 k1_hw302 => k1_hw302

def k1_chk303 (v543 : IVec S16 32) : Prop :=
  (∀ a x, ((![v543] : Fin 1 → IVec S16 32) a x).toNat < S65536.size a)
instance k1_chk303.dec : ∀ (v543 : IVec S16 32), Decidable (k1_chk303 v543) := fun v543 => decidable_of_iff' _ (Iff.of_eq (k1_chk303.eq_1 v543))
theorem k1_idx303_inb : ∀ (v543 : IVec S16 32) (k1_hw303 : k1_chk303 v543), ∀ a x, ((![v543] : Fin 1 → IVec S16 32) a x).toNat < S65536.size a := fun v543 k1_hw303 => k1_hw303

def k1_chk304 (v550 : IVec S16 32) : Prop :=
  (∀ a x, ((![v550] : Fin 1 → IVec S16 32) a x).toNat < S65536.size a)
instance k1_chk304.dec : ∀ (v550 : IVec S16 32), Decidable (k1_chk304 v550) := fun v550 => decidable_of_iff' _ (Iff.of_eq (k1_chk304.eq_1 v550))
theorem k1_idx304_inb : ∀ (v550 : IVec S16 32) (k1_hw304 : k1_chk304 v550), ∀ a x, ((![v550] : Fin 1 → IVec S16 32) a x).toNat < S65536.size a := fun v550 k1_hw304 => k1_hw304

def k1_chk305 (v557 : IVec S16 32) : Prop :=
  (∀ a x, ((![v557] : Fin 1 → IVec S16 32) a x).toNat < S65536.size a)
instance k1_chk305.dec : ∀ (v557 : IVec S16 32), Decidable (k1_chk305 v557) := fun v557 => decidable_of_iff' _ (Iff.of_eq (k1_chk305.eq_1 v557))
theorem k1_idx305_inb : ∀ (v557 : IVec S16 32) (k1_hw305 : k1_chk305 v557), ∀ a x, ((![v557] : Fin 1 → IVec S16 32) a x).toNat < S65536.size a := fun v557 k1_hw305 => k1_hw305

def k1_chk306 (v564 : IVec S16 32) : Prop :=
  (∀ a x, ((![v564] : Fin 1 → IVec S16 32) a x).toNat < S65536.size a)
instance k1_chk306.dec : ∀ (v564 : IVec S16 32), Decidable (k1_chk306 v564) := fun v564 => decidable_of_iff' _ (Iff.of_eq (k1_chk306.eq_1 v564))
theorem k1_idx306_inb : ∀ (v564 : IVec S16 32) (k1_hw306 : k1_chk306 v564), ∀ a x, ((![v564] : Fin 1 → IVec S16 32) a x).toNat < S65536.size a := fun v564 k1_hw306 => k1_hw306

def k1_chk307 (v571 : IVec S16 32) : Prop :=
  (∀ a x, ((![v571] : Fin 1 → IVec S16 32) a x).toNat < S65536.size a)
instance k1_chk307.dec : ∀ (v571 : IVec S16 32), Decidable (k1_chk307 v571) := fun v571 => decidable_of_iff' _ (Iff.of_eq (k1_chk307.eq_1 v571))
theorem k1_idx307_inb : ∀ (v571 : IVec S16 32) (k1_hw307 : k1_chk307 v571), ∀ a x, ((![v571] : Fin 1 → IVec S16 32) a x).toNat < S65536.size a := fun v571 k1_hw307 => k1_hw307

def k1_chk308 (v578 : IVec S16 32) : Prop :=
  (∀ a x, ((![v578] : Fin 1 → IVec S16 32) a x).toNat < S65536.size a)
instance k1_chk308.dec : ∀ (v578 : IVec S16 32), Decidable (k1_chk308 v578) := fun v578 => decidable_of_iff' _ (Iff.of_eq (k1_chk308.eq_1 v578))
theorem k1_idx308_inb : ∀ (v578 : IVec S16 32) (k1_hw308 : k1_chk308 v578), ∀ a x, ((![v578] : Fin 1 → IVec S16 32) a x).toNat < S65536.size a := fun v578 k1_hw308 => k1_hw308

def k1_chk309 (v585 : IVec S16 32) : Prop :=
  (∀ a x, ((![v585] : Fin 1 → IVec S16 32) a x).toNat < S65536.size a)
instance k1_chk309.dec : ∀ (v585 : IVec S16 32), Decidable (k1_chk309 v585) := fun v585 => decidable_of_iff' _ (Iff.of_eq (k1_chk309.eq_1 v585))
theorem k1_idx309_inb : ∀ (v585 : IVec S16 32) (k1_hw309 : k1_chk309 v585), ∀ a x, ((![v585] : Fin 1 → IVec S16 32) a x).toNat < S65536.size a := fun v585 k1_hw309 => k1_hw309

def k1_chk310 (v592 : IVec S16 32) : Prop :=
  (∀ a x, ((![v592] : Fin 1 → IVec S16 32) a x).toNat < S65536.size a)
instance k1_chk310.dec : ∀ (v592 : IVec S16 32), Decidable (k1_chk310 v592) := fun v592 => decidable_of_iff' _ (Iff.of_eq (k1_chk310.eq_1 v592))
theorem k1_idx310_inb : ∀ (v592 : IVec S16 32) (k1_hw310 : k1_chk310 v592), ∀ a x, ((![v592] : Fin 1 → IVec S16 32) a x).toNat < S65536.size a := fun v592 k1_hw310 => k1_hw310

def k1_chk311 (v599 : IVec S16 32) : Prop :=
  (∀ a x, ((![v599] : Fin 1 → IVec S16 32) a x).toNat < S65536.size a)
instance k1_chk311.dec : ∀ (v599 : IVec S16 32), Decidable (k1_chk311 v599) := fun v599 => decidable_of_iff' _ (Iff.of_eq (k1_chk311.eq_1 v599))
theorem k1_idx311_inb : ∀ (v599 : IVec S16 32) (k1_hw311 : k1_chk311 v599), ∀ a x, ((![v599] : Fin 1 → IVec S16 32) a x).toNat < S65536.size a := fun v599 k1_hw311 => k1_hw311

def k1_chk312 (v606 : IVec S16 32) : Prop :=
  (∀ a x, ((![v606] : Fin 1 → IVec S16 32) a x).toNat < S65536.size a)
instance k1_chk312.dec : ∀ (v606 : IVec S16 32), Decidable (k1_chk312 v606) := fun v606 => decidable_of_iff' _ (Iff.of_eq (k1_chk312.eq_1 v606))
theorem k1_idx312_inb : ∀ (v606 : IVec S16 32) (k1_hw312 : k1_chk312 v606), ∀ a x, ((![v606] : Fin 1 → IVec S16 32) a x).toNat < S65536.size a := fun v606 k1_hw312 => k1_hw312

def k1_chk313 (v613 : IVec S16 32) : Prop :=
  (∀ a x, ((![v613] : Fin 1 → IVec S16 32) a x).toNat < S65536.size a)
instance k1_chk313.dec : ∀ (v613 : IVec S16 32), Decidable (k1_chk313 v613) := fun v613 => decidable_of_iff' _ (Iff.of_eq (k1_chk313.eq_1 v613))
theorem k1_idx313_inb : ∀ (v613 : IVec S16 32) (k1_hw313 : k1_chk313 v613), ∀ a x, ((![v613] : Fin 1 → IVec S16 32) a x).toNat < S65536.size a := fun v613 k1_hw313 => k1_hw313

def k1_chk314 (v620 : IVec S16 32) : Prop :=
  (∀ a x, ((![v620] : Fin 1 → IVec S16 32) a x).toNat < S65536.size a)
instance k1_chk314.dec : ∀ (v620 : IVec S16 32), Decidable (k1_chk314 v620) := fun v620 => decidable_of_iff' _ (Iff.of_eq (k1_chk314.eq_1 v620))
theorem k1_idx314_inb : ∀ (v620 : IVec S16 32) (k1_hw314 : k1_chk314 v620), ∀ a x, ((![v620] : Fin 1 → IVec S16 32) a x).toNat < S65536.size a := fun v620 k1_hw314 => k1_hw314

def k1_chk315 (v627 : IVec S16 32) : Prop :=
  (∀ a x, ((![v627] : Fin 1 → IVec S16 32) a x).toNat < S65536.size a)
instance k1_chk315.dec : ∀ (v627 : IVec S16 32), Decidable (k1_chk315 v627) := fun v627 => decidable_of_iff' _ (Iff.of_eq (k1_chk315.eq_1 v627))
theorem k1_idx315_inb : ∀ (v627 : IVec S16 32) (k1_hw315 : k1_chk315 v627), ∀ a x, ((![v627] : Fin 1 → IVec S16 32) a x).toNat < S65536.size a := fun v627 k1_hw315 => k1_hw315

def k1_chk316 (v634 : IVec S16 32) : Prop :=
  (∀ a x, ((![v634] : Fin 1 → IVec S16 32) a x).toNat < S65536.size a)
instance k1_chk316.dec : ∀ (v634 : IVec S16 32), Decidable (k1_chk316 v634) := fun v634 => decidable_of_iff' _ (Iff.of_eq (k1_chk316.eq_1 v634))
theorem k1_idx316_inb : ∀ (v634 : IVec S16 32) (k1_hw316 : k1_chk316 v634), ∀ a x, ((![v634] : Fin 1 → IVec S16 32) a x).toNat < S65536.size a := fun v634 k1_hw316 => k1_hw316

def k1_chk317 (v641 : IVec S16 32) : Prop :=
  (∀ a x, ((![v641] : Fin 1 → IVec S16 32) a x).toNat < S65536.size a)
instance k1_chk317.dec : ∀ (v641 : IVec S16 32), Decidable (k1_chk317 v641) := fun v641 => decidable_of_iff' _ (Iff.of_eq (k1_chk317.eq_1 v641))
theorem k1_idx317_inb : ∀ (v641 : IVec S16 32) (k1_hw317 : k1_chk317 v641), ∀ a x, ((![v641] : Fin 1 → IVec S16 32) a x).toNat < S65536.size a := fun v641 k1_hw317 => k1_hw317

def k1_chk318 (v648 : IVec S16 32) : Prop :=
  (∀ a x, ((![v648] : Fin 1 → IVec S16 32) a x).toNat < S65536.size a)
instance k1_chk318.dec : ∀ (v648 : IVec S16 32), Decidable (k1_chk318 v648) := fun v648 => decidable_of_iff' _ (Iff.of_eq (k1_chk318.eq_1 v648))
theorem k1_idx318_inb : ∀ (v648 : IVec S16 32) (k1_hw318 : k1_chk318 v648), ∀ a x, ((![v648] : Fin 1 → IVec S16 32) a x).toNat < S65536.size a := fun v648 k1_hw318 => k1_hw318

def k1_chk319 (v655 : IVec S16 32) : Prop :=
  (∀ a x, ((![v655] : Fin 1 → IVec S16 32) a x).toNat < S65536.size a)
instance k1_chk319.dec : ∀ (v655 : IVec S16 32), Decidable (k1_chk319 v655) := fun v655 => decidable_of_iff' _ (Iff.of_eq (k1_chk319.eq_1 v655))
theorem k1_idx319_inb : ∀ (v655 : IVec S16 32) (k1_hw319 : k1_chk319 v655), ∀ a x, ((![v655] : Fin 1 → IVec S16 32) a x).toNat < S65536.size a := fun v655 k1_hw319 => k1_hw319

def k1_chk320 (v662 : IVec S16 32) : Prop :=
  (∀ a x, ((![v662] : Fin 1 → IVec S16 32) a x).toNat < S65536.size a)
instance k1_chk320.dec : ∀ (v662 : IVec S16 32), Decidable (k1_chk320 v662) := fun v662 => decidable_of_iff' _ (Iff.of_eq (k1_chk320.eq_1 v662))
theorem k1_idx320_inb : ∀ (v662 : IVec S16 32) (k1_hw320 : k1_chk320 v662), ∀ a x, ((![v662] : Fin 1 → IVec S16 32) a x).toNat < S65536.size a := fun v662 k1_hw320 => k1_hw320
def k1_off93 (k1_t7 : Fin k1_t7_loop.trips) (k1_t8 : Fin k1_t8_loop.trips) (c0_i32_287 : BitVec 32) : Fin 2 → Nat :=
  let c0_i32_43 : BitVec 32 := 0#32
  let c1_i32_45 : BitVec 32 := 1#32
  let arg11 : BitVec 32 := Scf.iv c0_i32_43 c1_i32_45 k1_t8
  let c4_i32_286 : BitVec 32 := 4#32
  let v665 : BitVec 32 := Scalar.muli arg11 c4_i32_286
  let v666 : BitVec 32 := Scalar.addi v665 c0_i32_287
  let v667 : Index := Scalar.indexCast v666
  let c0_i32_31 : BitVec 32 := 0#32
  let c1_i32_33 : BitVec 32 := 1#32
  let arg10 : BitVec 32 := Scf.iv c0_i32_31 c1_i32_33 k1_t7
  let c16_i32_36 : BitVec 32 := 16#32
  let v43 : BitVec 32 := Scalar.muli arg10 c16_i32_36
  let v668 : Index := Scalar.indexCast v43
  ![v667.toNat, v668.toNat]
abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c65536_i32 : BitVec 32 := 65536#32
  let v29 : BitVec 32 := Scalar.muli v28 c65536_i32
  ![v18.toNat, v29.toNat]
def k2_off2 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_32_r1 : BitVec 32 := 0#32
  let c0_i32_33_r1 : BitVec 32 := 0#32
  ![v18.toNat, 0, 0]
@[reducible] def k2_t1_loop : Scf.Loop 32 :=
  let c0_i32_11 : BitVec 32 := 0#32
  let c64_i32 : BitVec 32 := 64#32
  let v31 : BitVec 32 := Scalar.addi c0_i32_11 c64_i32
  let c1_i32_12 : BitVec 32 := 1#32
  ⟨c0_i32_11, v31, c1_i32_12⟩
def k2_off3 (k2_t1 : Fin k2_t1_loop.trips) : Fin 2 → Nat :=
  let c0_i32_33 : BitVec 32 := 0#32
  let v40 : Index := Scalar.indexCast c0_i32_33
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v41 : Index := Scalar.indexCast v39
  ![0, v41.toNat]
def k2_off4 (k2_t1 : Fin k2_t1_loop.trips) : Fin 2 → Nat :=
  let c1_i32_34 : BitVec 32 := 1#32
  let v43 : Index := Scalar.indexCast c1_i32_34
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v44 : Index := Scalar.indexCast v39
  ![1, v44.toNat]
def k2_off5 (k2_t1 : Fin k2_t1_loop.trips) : Fin 2 → Nat :=
  let c2_i32_35 : BitVec 32 := 2#32
  let v46 : Index := Scalar.indexCast c2_i32_35
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v47 : Index := Scalar.indexCast v39
  ![2, v47.toNat]
def k2_off6 (k2_t1 : Fin k2_t1_loop.trips) : Fin 2 → Nat :=
  let c3_i32 : BitVec 32 := 3#32
  let v49 : Index := Scalar.indexCast c3_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v50 : Index := Scalar.indexCast v39
  ![3, v50.toNat]
def k2_off7 (k2_t1 : Fin k2_t1_loop.trips) : Fin 2 → Nat :=
  let c4_i32_36 : BitVec 32 := 4#32
  let v52 : Index := Scalar.indexCast c4_i32_36
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v53 : Index := Scalar.indexCast v39
  ![4, v53.toNat]
def k2_off8 (k2_t1 : Fin k2_t1_loop.trips) : Fin 2 → Nat :=
  let c5_i32 : BitVec 32 := 5#32
  let v55 : Index := Scalar.indexCast c5_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v56 : Index := Scalar.indexCast v39
  ![5, v56.toNat]
def k2_off9 (k2_t1 : Fin k2_t1_loop.trips) : Fin 2 → Nat :=
  let c6_i32 : BitVec 32 := 6#32
  let v58 : Index := Scalar.indexCast c6_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v59 : Index := Scalar.indexCast v39
  ![6, v59.toNat]
def k2_off10 (k2_t1 : Fin k2_t1_loop.trips) : Fin 2 → Nat :=
  let c7_i32 : BitVec 32 := 7#32
  let v61 : Index := Scalar.indexCast c7_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v62 : Index := Scalar.indexCast v39
  ![7, v62.toNat]
def k2_off11 (k2_t1 : Fin k2_t1_loop.trips) : Fin 2 → Nat :=
  let c8_i32 : BitVec 32 := 8#32
  let v64 : Index := Scalar.indexCast c8_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v65 : Index := Scalar.indexCast v39
  ![8, v65.toNat]
def k2_off12 (k2_t1 : Fin k2_t1_loop.trips) : Fin 2 → Nat :=
  let c9_i32 : BitVec 32 := 9#32
  let v67 : Index := Scalar.indexCast c9_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v68 : Index := Scalar.indexCast v39
  ![9, v68.toNat]
def k2_off13 (k2_t1 : Fin k2_t1_loop.trips) : Fin 2 → Nat :=
  let c10_i32 : BitVec 32 := 10#32
  let v70 : Index := Scalar.indexCast c10_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v71 : Index := Scalar.indexCast v39
  ![10, v71.toNat]
def k2_off14 (k2_t1 : Fin k2_t1_loop.trips) : Fin 2 → Nat :=
  let c11_i32 : BitVec 32 := 11#32
  let v73 : Index := Scalar.indexCast c11_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v74 : Index := Scalar.indexCast v39
  ![11, v74.toNat]
def k2_off15 (k2_t1 : Fin k2_t1_loop.trips) : Fin 2 → Nat :=
  let c12_i32 : BitVec 32 := 12#32
  let v76 : Index := Scalar.indexCast c12_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v77 : Index := Scalar.indexCast v39
  ![12, v77.toNat]
def k2_off16 (k2_t1 : Fin k2_t1_loop.trips) : Fin 2 → Nat :=
  let c13_i32 : BitVec 32 := 13#32
  let v79 : Index := Scalar.indexCast c13_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v80 : Index := Scalar.indexCast v39
  ![13, v80.toNat]
def k2_off17 (k2_t1 : Fin k2_t1_loop.trips) : Fin 2 → Nat :=
  let c14_i32 : BitVec 32 := 14#32
  let v82 : Index := Scalar.indexCast c14_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v83 : Index := Scalar.indexCast v39
  ![14, v83.toNat]
def k2_off18 (k2_t1 : Fin k2_t1_loop.trips) : Fin 2 → Nat :=
  let c15_i32 : BitVec 32 := 15#32
  let v85 : Index := Scalar.indexCast c15_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v86 : Index := Scalar.indexCast v39
  ![15, v86.toNat]
def k2_off19 (k2_t1 : Fin k2_t1_loop.trips) : Fin 2 → Nat :=
  let c16_i32_37 : BitVec 32 := 16#32
  let v88 : Index := Scalar.indexCast c16_i32_37
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v89 : Index := Scalar.indexCast v39
  ![16, v89.toNat]
def k2_off20 (k2_t1 : Fin k2_t1_loop.trips) : Fin 2 → Nat :=
  let c17_i32 : BitVec 32 := 17#32
  let v91 : Index := Scalar.indexCast c17_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v92 : Index := Scalar.indexCast v39
  ![17, v92.toNat]
def k2_off21 (k2_t1 : Fin k2_t1_loop.trips) : Fin 2 → Nat :=
  let c18_i32 : BitVec 32 := 18#32
  let v94 : Index := Scalar.indexCast c18_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v95 : Index := Scalar.indexCast v39
  ![18, v95.toNat]
def k2_off22 (k2_t1 : Fin k2_t1_loop.trips) : Fin 2 → Nat :=
  let c19_i32 : BitVec 32 := 19#32
  let v97 : Index := Scalar.indexCast c19_i32
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v98 : Index := Scalar.indexCast v39
  ![19, v98.toNat]
@[reducible] def k2_t2_loop : Scf.Loop 32 :=
  let c0_i32_39 : BitVec 32 := 0#32
  let c4_i32_40 : BitVec 32 := 4#32
  let v100 : BitVec 32 := Scalar.addi c0_i32_39 c4_i32_40
  let c1_i32_41 : BitVec 32 := 1#32
  ⟨c0_i32_39, v100, c1_i32_41⟩

def k2_chk1 (v105 : IVec S16 32) : Prop :=
  (∀ a x, ((![v105] : Fin 1 → IVec S16 32) a x).toNat < S65536.size a)
instance k2_chk1.dec : ∀ (v105 : IVec S16 32), Decidable (k2_chk1 v105) := fun v105 => decidable_of_iff' _ (Iff.of_eq (k2_chk1.eq_1 v105))
theorem k2_idx1_inb : ∀ (v105 : IVec S16 32) (k2_hw1 : k2_chk1 v105), ∀ a x, ((![v105] : Fin 1 → IVec S16 32) a x).toNat < S65536.size a := fun v105 k2_hw1 => k2_hw1

def k2_chk2 (v112 : IVec S16 32) : Prop :=
  (∀ a x, ((![v112] : Fin 1 → IVec S16 32) a x).toNat < S65536.size a)
instance k2_chk2.dec : ∀ (v112 : IVec S16 32), Decidable (k2_chk2 v112) := fun v112 => decidable_of_iff' _ (Iff.of_eq (k2_chk2.eq_1 v112))
theorem k2_idx2_inb : ∀ (v112 : IVec S16 32) (k2_hw2 : k2_chk2 v112), ∀ a x, ((![v112] : Fin 1 → IVec S16 32) a x).toNat < S65536.size a := fun v112 k2_hw2 => k2_hw2

def k2_chk3 (v119 : IVec S16 32) : Prop :=
  (∀ a x, ((![v119] : Fin 1 → IVec S16 32) a x).toNat < S65536.size a)
instance k2_chk3.dec : ∀ (v119 : IVec S16 32), Decidable (k2_chk3 v119) := fun v119 => decidable_of_iff' _ (Iff.of_eq (k2_chk3.eq_1 v119))
theorem k2_idx3_inb : ∀ (v119 : IVec S16 32) (k2_hw3 : k2_chk3 v119), ∀ a x, ((![v119] : Fin 1 → IVec S16 32) a x).toNat < S65536.size a := fun v119 k2_hw3 => k2_hw3

def k2_chk4 (v126 : IVec S16 32) : Prop :=
  (∀ a x, ((![v126] : Fin 1 → IVec S16 32) a x).toNat < S65536.size a)
instance k2_chk4.dec : ∀ (v126 : IVec S16 32), Decidable (k2_chk4 v126) := fun v126 => decidable_of_iff' _ (Iff.of_eq (k2_chk4.eq_1 v126))
theorem k2_idx4_inb : ∀ (v126 : IVec S16 32) (k2_hw4 : k2_chk4 v126), ∀ a x, ((![v126] : Fin 1 → IVec S16 32) a x).toNat < S65536.size a := fun v126 k2_hw4 => k2_hw4

def k2_chk5 (v133 : IVec S16 32) : Prop :=
  (∀ a x, ((![v133] : Fin 1 → IVec S16 32) a x).toNat < S65536.size a)
instance k2_chk5.dec : ∀ (v133 : IVec S16 32), Decidable (k2_chk5 v133) := fun v133 => decidable_of_iff' _ (Iff.of_eq (k2_chk5.eq_1 v133))
theorem k2_idx5_inb : ∀ (v133 : IVec S16 32) (k2_hw5 : k2_chk5 v133), ∀ a x, ((![v133] : Fin 1 → IVec S16 32) a x).toNat < S65536.size a := fun v133 k2_hw5 => k2_hw5

def k2_chk6 (v140 : IVec S16 32) : Prop :=
  (∀ a x, ((![v140] : Fin 1 → IVec S16 32) a x).toNat < S65536.size a)
instance k2_chk6.dec : ∀ (v140 : IVec S16 32), Decidable (k2_chk6 v140) := fun v140 => decidable_of_iff' _ (Iff.of_eq (k2_chk6.eq_1 v140))
theorem k2_idx6_inb : ∀ (v140 : IVec S16 32) (k2_hw6 : k2_chk6 v140), ∀ a x, ((![v140] : Fin 1 → IVec S16 32) a x).toNat < S65536.size a := fun v140 k2_hw6 => k2_hw6

def k2_chk7 (v147 : IVec S16 32) : Prop :=
  (∀ a x, ((![v147] : Fin 1 → IVec S16 32) a x).toNat < S65536.size a)
instance k2_chk7.dec : ∀ (v147 : IVec S16 32), Decidable (k2_chk7 v147) := fun v147 => decidable_of_iff' _ (Iff.of_eq (k2_chk7.eq_1 v147))
theorem k2_idx7_inb : ∀ (v147 : IVec S16 32) (k2_hw7 : k2_chk7 v147), ∀ a x, ((![v147] : Fin 1 → IVec S16 32) a x).toNat < S65536.size a := fun v147 k2_hw7 => k2_hw7

def k2_chk8 (v154 : IVec S16 32) : Prop :=
  (∀ a x, ((![v154] : Fin 1 → IVec S16 32) a x).toNat < S65536.size a)
instance k2_chk8.dec : ∀ (v154 : IVec S16 32), Decidable (k2_chk8 v154) := fun v154 => decidable_of_iff' _ (Iff.of_eq (k2_chk8.eq_1 v154))
theorem k2_idx8_inb : ∀ (v154 : IVec S16 32) (k2_hw8 : k2_chk8 v154), ∀ a x, ((![v154] : Fin 1 → IVec S16 32) a x).toNat < S65536.size a := fun v154 k2_hw8 => k2_hw8

def k2_chk9 (v161 : IVec S16 32) : Prop :=
  (∀ a x, ((![v161] : Fin 1 → IVec S16 32) a x).toNat < S65536.size a)
instance k2_chk9.dec : ∀ (v161 : IVec S16 32), Decidable (k2_chk9 v161) := fun v161 => decidable_of_iff' _ (Iff.of_eq (k2_chk9.eq_1 v161))
theorem k2_idx9_inb : ∀ (v161 : IVec S16 32) (k2_hw9 : k2_chk9 v161), ∀ a x, ((![v161] : Fin 1 → IVec S16 32) a x).toNat < S65536.size a := fun v161 k2_hw9 => k2_hw9

def k2_chk10 (v168 : IVec S16 32) : Prop :=
  (∀ a x, ((![v168] : Fin 1 → IVec S16 32) a x).toNat < S65536.size a)
instance k2_chk10.dec : ∀ (v168 : IVec S16 32), Decidable (k2_chk10 v168) := fun v168 => decidable_of_iff' _ (Iff.of_eq (k2_chk10.eq_1 v168))
theorem k2_idx10_inb : ∀ (v168 : IVec S16 32) (k2_hw10 : k2_chk10 v168), ∀ a x, ((![v168] : Fin 1 → IVec S16 32) a x).toNat < S65536.size a := fun v168 k2_hw10 => k2_hw10

def k2_chk11 (v175 : IVec S16 32) : Prop :=
  (∀ a x, ((![v175] : Fin 1 → IVec S16 32) a x).toNat < S65536.size a)
instance k2_chk11.dec : ∀ (v175 : IVec S16 32), Decidable (k2_chk11 v175) := fun v175 => decidable_of_iff' _ (Iff.of_eq (k2_chk11.eq_1 v175))
theorem k2_idx11_inb : ∀ (v175 : IVec S16 32) (k2_hw11 : k2_chk11 v175), ∀ a x, ((![v175] : Fin 1 → IVec S16 32) a x).toNat < S65536.size a := fun v175 k2_hw11 => k2_hw11

def k2_chk12 (v182 : IVec S16 32) : Prop :=
  (∀ a x, ((![v182] : Fin 1 → IVec S16 32) a x).toNat < S65536.size a)
instance k2_chk12.dec : ∀ (v182 : IVec S16 32), Decidable (k2_chk12 v182) := fun v182 => decidable_of_iff' _ (Iff.of_eq (k2_chk12.eq_1 v182))
theorem k2_idx12_inb : ∀ (v182 : IVec S16 32) (k2_hw12 : k2_chk12 v182), ∀ a x, ((![v182] : Fin 1 → IVec S16 32) a x).toNat < S65536.size a := fun v182 k2_hw12 => k2_hw12

def k2_chk13 (v189 : IVec S16 32) : Prop :=
  (∀ a x, ((![v189] : Fin 1 → IVec S16 32) a x).toNat < S65536.size a)
instance k2_chk13.dec : ∀ (v189 : IVec S16 32), Decidable (k2_chk13 v189) := fun v189 => decidable_of_iff' _ (Iff.of_eq (k2_chk13.eq_1 v189))
theorem k2_idx13_inb : ∀ (v189 : IVec S16 32) (k2_hw13 : k2_chk13 v189), ∀ a x, ((![v189] : Fin 1 → IVec S16 32) a x).toNat < S65536.size a := fun v189 k2_hw13 => k2_hw13

def k2_chk14 (v196 : IVec S16 32) : Prop :=
  (∀ a x, ((![v196] : Fin 1 → IVec S16 32) a x).toNat < S65536.size a)
instance k2_chk14.dec : ∀ (v196 : IVec S16 32), Decidable (k2_chk14 v196) := fun v196 => decidable_of_iff' _ (Iff.of_eq (k2_chk14.eq_1 v196))
theorem k2_idx14_inb : ∀ (v196 : IVec S16 32) (k2_hw14 : k2_chk14 v196), ∀ a x, ((![v196] : Fin 1 → IVec S16 32) a x).toNat < S65536.size a := fun v196 k2_hw14 => k2_hw14

def k2_chk15 (v203 : IVec S16 32) : Prop :=
  (∀ a x, ((![v203] : Fin 1 → IVec S16 32) a x).toNat < S65536.size a)
instance k2_chk15.dec : ∀ (v203 : IVec S16 32), Decidable (k2_chk15 v203) := fun v203 => decidable_of_iff' _ (Iff.of_eq (k2_chk15.eq_1 v203))
theorem k2_idx15_inb : ∀ (v203 : IVec S16 32) (k2_hw15 : k2_chk15 v203), ∀ a x, ((![v203] : Fin 1 → IVec S16 32) a x).toNat < S65536.size a := fun v203 k2_hw15 => k2_hw15

def k2_chk16 (v210 : IVec S16 32) : Prop :=
  (∀ a x, ((![v210] : Fin 1 → IVec S16 32) a x).toNat < S65536.size a)
instance k2_chk16.dec : ∀ (v210 : IVec S16 32), Decidable (k2_chk16 v210) := fun v210 => decidable_of_iff' _ (Iff.of_eq (k2_chk16.eq_1 v210))
theorem k2_idx16_inb : ∀ (v210 : IVec S16 32) (k2_hw16 : k2_chk16 v210), ∀ a x, ((![v210] : Fin 1 → IVec S16 32) a x).toNat < S65536.size a := fun v210 k2_hw16 => k2_hw16

def k2_chk17 (v217 : IVec S16 32) : Prop :=
  (∀ a x, ((![v217] : Fin 1 → IVec S16 32) a x).toNat < S65536.size a)
instance k2_chk17.dec : ∀ (v217 : IVec S16 32), Decidable (k2_chk17 v217) := fun v217 => decidable_of_iff' _ (Iff.of_eq (k2_chk17.eq_1 v217))
theorem k2_idx17_inb : ∀ (v217 : IVec S16 32) (k2_hw17 : k2_chk17 v217), ∀ a x, ((![v217] : Fin 1 → IVec S16 32) a x).toNat < S65536.size a := fun v217 k2_hw17 => k2_hw17

def k2_chk18 (v224 : IVec S16 32) : Prop :=
  (∀ a x, ((![v224] : Fin 1 → IVec S16 32) a x).toNat < S65536.size a)
instance k2_chk18.dec : ∀ (v224 : IVec S16 32), Decidable (k2_chk18 v224) := fun v224 => decidable_of_iff' _ (Iff.of_eq (k2_chk18.eq_1 v224))
theorem k2_idx18_inb : ∀ (v224 : IVec S16 32) (k2_hw18 : k2_chk18 v224), ∀ a x, ((![v224] : Fin 1 → IVec S16 32) a x).toNat < S65536.size a := fun v224 k2_hw18 => k2_hw18

def k2_chk19 (v231 : IVec S16 32) : Prop :=
  (∀ a x, ((![v231] : Fin 1 → IVec S16 32) a x).toNat < S65536.size a)
instance k2_chk19.dec : ∀ (v231 : IVec S16 32), Decidable (k2_chk19 v231) := fun v231 => decidable_of_iff' _ (Iff.of_eq (k2_chk19.eq_1 v231))
theorem k2_idx19_inb : ∀ (v231 : IVec S16 32) (k2_hw19 : k2_chk19 v231), ∀ a x, ((![v231] : Fin 1 → IVec S16 32) a x).toNat < S65536.size a := fun v231 k2_hw19 => k2_hw19

def k2_chk20 (v238 : IVec S16 32) : Prop :=
  (∀ a x, ((![v238] : Fin 1 → IVec S16 32) a x).toNat < S65536.size a)
instance k2_chk20.dec : ∀ (v238 : IVec S16 32), Decidable (k2_chk20 v238) := fun v238 => decidable_of_iff' _ (Iff.of_eq (k2_chk20.eq_1 v238))
theorem k2_idx20_inb : ∀ (v238 : IVec S16 32) (k2_hw20 : k2_chk20 v238), ∀ a x, ((![v238] : Fin 1 → IVec S16 32) a x).toNat < S65536.size a := fun v238 k2_hw20 => k2_hw20

def k2_chk21 (v245 : IVec S16 32) : Prop :=
  (∀ a x, ((![v245] : Fin 1 → IVec S16 32) a x).toNat < S65536.size a)
instance k2_chk21.dec : ∀ (v245 : IVec S16 32), Decidable (k2_chk21 v245) := fun v245 => decidable_of_iff' _ (Iff.of_eq (k2_chk21.eq_1 v245))
theorem k2_idx21_inb : ∀ (v245 : IVec S16 32) (k2_hw21 : k2_chk21 v245), ∀ a x, ((![v245] : Fin 1 → IVec S16 32) a x).toNat < S65536.size a := fun v245 k2_hw21 => k2_hw21

def k2_chk22 (v252 : IVec S16 32) : Prop :=
  (∀ a x, ((![v252] : Fin 1 → IVec S16 32) a x).toNat < S65536.size a)
instance k2_chk22.dec : ∀ (v252 : IVec S16 32), Decidable (k2_chk22 v252) := fun v252 => decidable_of_iff' _ (Iff.of_eq (k2_chk22.eq_1 v252))
theorem k2_idx22_inb : ∀ (v252 : IVec S16 32) (k2_hw22 : k2_chk22 v252), ∀ a x, ((![v252] : Fin 1 → IVec S16 32) a x).toNat < S65536.size a := fun v252 k2_hw22 => k2_hw22

def k2_chk23 (v259 : IVec S16 32) : Prop :=
  (∀ a x, ((![v259] : Fin 1 → IVec S16 32) a x).toNat < S65536.size a)
instance k2_chk23.dec : ∀ (v259 : IVec S16 32), Decidable (k2_chk23 v259) := fun v259 => decidable_of_iff' _ (Iff.of_eq (k2_chk23.eq_1 v259))
theorem k2_idx23_inb : ∀ (v259 : IVec S16 32) (k2_hw23 : k2_chk23 v259), ∀ a x, ((![v259] : Fin 1 → IVec S16 32) a x).toNat < S65536.size a := fun v259 k2_hw23 => k2_hw23

def k2_chk24 (v266 : IVec S16 32) : Prop :=
  (∀ a x, ((![v266] : Fin 1 → IVec S16 32) a x).toNat < S65536.size a)
instance k2_chk24.dec : ∀ (v266 : IVec S16 32), Decidable (k2_chk24 v266) := fun v266 => decidable_of_iff' _ (Iff.of_eq (k2_chk24.eq_1 v266))
theorem k2_idx24_inb : ∀ (v266 : IVec S16 32) (k2_hw24 : k2_chk24 v266), ∀ a x, ((![v266] : Fin 1 → IVec S16 32) a x).toNat < S65536.size a := fun v266 k2_hw24 => k2_hw24

def k2_chk25 (v273 : IVec S16 32) : Prop :=
  (∀ a x, ((![v273] : Fin 1 → IVec S16 32) a x).toNat < S65536.size a)
instance k2_chk25.dec : ∀ (v273 : IVec S16 32), Decidable (k2_chk25 v273) := fun v273 => decidable_of_iff' _ (Iff.of_eq (k2_chk25.eq_1 v273))
theorem k2_idx25_inb : ∀ (v273 : IVec S16 32) (k2_hw25 : k2_chk25 v273), ∀ a x, ((![v273] : Fin 1 → IVec S16 32) a x).toNat < S65536.size a := fun v273 k2_hw25 => k2_hw25

def k2_chk26 (v280 : IVec S16 32) : Prop :=
  (∀ a x, ((![v280] : Fin 1 → IVec S16 32) a x).toNat < S65536.size a)
instance k2_chk26.dec : ∀ (v280 : IVec S16 32), Decidable (k2_chk26 v280) := fun v280 => decidable_of_iff' _ (Iff.of_eq (k2_chk26.eq_1 v280))
theorem k2_idx26_inb : ∀ (v280 : IVec S16 32) (k2_hw26 : k2_chk26 v280), ∀ a x, ((![v280] : Fin 1 → IVec S16 32) a x).toNat < S65536.size a := fun v280 k2_hw26 => k2_hw26

def k2_chk27 (v287 : IVec S16 32) : Prop :=
  (∀ a x, ((![v287] : Fin 1 → IVec S16 32) a x).toNat < S65536.size a)
instance k2_chk27.dec : ∀ (v287 : IVec S16 32), Decidable (k2_chk27 v287) := fun v287 => decidable_of_iff' _ (Iff.of_eq (k2_chk27.eq_1 v287))
theorem k2_idx27_inb : ∀ (v287 : IVec S16 32) (k2_hw27 : k2_chk27 v287), ∀ a x, ((![v287] : Fin 1 → IVec S16 32) a x).toNat < S65536.size a := fun v287 k2_hw27 => k2_hw27

def k2_chk28 (v294 : IVec S16 32) : Prop :=
  (∀ a x, ((![v294] : Fin 1 → IVec S16 32) a x).toNat < S65536.size a)
instance k2_chk28.dec : ∀ (v294 : IVec S16 32), Decidable (k2_chk28 v294) := fun v294 => decidable_of_iff' _ (Iff.of_eq (k2_chk28.eq_1 v294))
theorem k2_idx28_inb : ∀ (v294 : IVec S16 32) (k2_hw28 : k2_chk28 v294), ∀ a x, ((![v294] : Fin 1 → IVec S16 32) a x).toNat < S65536.size a := fun v294 k2_hw28 => k2_hw28

def k2_chk29 (v301 : IVec S16 32) : Prop :=
  (∀ a x, ((![v301] : Fin 1 → IVec S16 32) a x).toNat < S65536.size a)
instance k2_chk29.dec : ∀ (v301 : IVec S16 32), Decidable (k2_chk29 v301) := fun v301 => decidable_of_iff' _ (Iff.of_eq (k2_chk29.eq_1 v301))
theorem k2_idx29_inb : ∀ (v301 : IVec S16 32) (k2_hw29 : k2_chk29 v301), ∀ a x, ((![v301] : Fin 1 → IVec S16 32) a x).toNat < S65536.size a := fun v301 k2_hw29 => k2_hw29

def k2_chk30 (v308 : IVec S16 32) : Prop :=
  (∀ a x, ((![v308] : Fin 1 → IVec S16 32) a x).toNat < S65536.size a)
instance k2_chk30.dec : ∀ (v308 : IVec S16 32), Decidable (k2_chk30 v308) := fun v308 => decidable_of_iff' _ (Iff.of_eq (k2_chk30.eq_1 v308))
theorem k2_idx30_inb : ∀ (v308 : IVec S16 32) (k2_hw30 : k2_chk30 v308), ∀ a x, ((![v308] : Fin 1 → IVec S16 32) a x).toNat < S65536.size a := fun v308 k2_hw30 => k2_hw30

def k2_chk31 (v315 : IVec S16 32) : Prop :=
  (∀ a x, ((![v315] : Fin 1 → IVec S16 32) a x).toNat < S65536.size a)
instance k2_chk31.dec : ∀ (v315 : IVec S16 32), Decidable (k2_chk31 v315) := fun v315 => decidable_of_iff' _ (Iff.of_eq (k2_chk31.eq_1 v315))
theorem k2_idx31_inb : ∀ (v315 : IVec S16 32) (k2_hw31 : k2_chk31 v315), ∀ a x, ((![v315] : Fin 1 → IVec S16 32) a x).toNat < S65536.size a := fun v315 k2_hw31 => k2_hw31

def k2_chk32 (v322 : IVec S16 32) : Prop :=
  (∀ a x, ((![v322] : Fin 1 → IVec S16 32) a x).toNat < S65536.size a)
instance k2_chk32.dec : ∀ (v322 : IVec S16 32), Decidable (k2_chk32 v322) := fun v322 => decidable_of_iff' _ (Iff.of_eq (k2_chk32.eq_1 v322))
theorem k2_idx32_inb : ∀ (v322 : IVec S16 32) (k2_hw32 : k2_chk32 v322), ∀ a x, ((![v322] : Fin 1 → IVec S16 32) a x).toNat < S65536.size a := fun v322 k2_hw32 => k2_hw32

def k2_chk33 (v329 : IVec S16 32) : Prop :=
  (∀ a x, ((![v329] : Fin 1 → IVec S16 32) a x).toNat < S65536.size a)
instance k2_chk33.dec : ∀ (v329 : IVec S16 32), Decidable (k2_chk33 v329) := fun v329 => decidable_of_iff' _ (Iff.of_eq (k2_chk33.eq_1 v329))
theorem k2_idx33_inb : ∀ (v329 : IVec S16 32) (k2_hw33 : k2_chk33 v329), ∀ a x, ((![v329] : Fin 1 → IVec S16 32) a x).toNat < S65536.size a := fun v329 k2_hw33 => k2_hw33

def k2_chk34 (v336 : IVec S16 32) : Prop :=
  (∀ a x, ((![v336] : Fin 1 → IVec S16 32) a x).toNat < S65536.size a)
instance k2_chk34.dec : ∀ (v336 : IVec S16 32), Decidable (k2_chk34 v336) := fun v336 => decidable_of_iff' _ (Iff.of_eq (k2_chk34.eq_1 v336))
theorem k2_idx34_inb : ∀ (v336 : IVec S16 32) (k2_hw34 : k2_chk34 v336), ∀ a x, ((![v336] : Fin 1 → IVec S16 32) a x).toNat < S65536.size a := fun v336 k2_hw34 => k2_hw34

def k2_chk35 (v343 : IVec S16 32) : Prop :=
  (∀ a x, ((![v343] : Fin 1 → IVec S16 32) a x).toNat < S65536.size a)
instance k2_chk35.dec : ∀ (v343 : IVec S16 32), Decidable (k2_chk35 v343) := fun v343 => decidable_of_iff' _ (Iff.of_eq (k2_chk35.eq_1 v343))
theorem k2_idx35_inb : ∀ (v343 : IVec S16 32) (k2_hw35 : k2_chk35 v343), ∀ a x, ((![v343] : Fin 1 → IVec S16 32) a x).toNat < S65536.size a := fun v343 k2_hw35 => k2_hw35

def k2_chk36 (v350 : IVec S16 32) : Prop :=
  (∀ a x, ((![v350] : Fin 1 → IVec S16 32) a x).toNat < S65536.size a)
instance k2_chk36.dec : ∀ (v350 : IVec S16 32), Decidable (k2_chk36 v350) := fun v350 => decidable_of_iff' _ (Iff.of_eq (k2_chk36.eq_1 v350))
theorem k2_idx36_inb : ∀ (v350 : IVec S16 32) (k2_hw36 : k2_chk36 v350), ∀ a x, ((![v350] : Fin 1 → IVec S16 32) a x).toNat < S65536.size a := fun v350 k2_hw36 => k2_hw36

def k2_chk37 (v357 : IVec S16 32) : Prop :=
  (∀ a x, ((![v357] : Fin 1 → IVec S16 32) a x).toNat < S65536.size a)
instance k2_chk37.dec : ∀ (v357 : IVec S16 32), Decidable (k2_chk37 v357) := fun v357 => decidable_of_iff' _ (Iff.of_eq (k2_chk37.eq_1 v357))
theorem k2_idx37_inb : ∀ (v357 : IVec S16 32) (k2_hw37 : k2_chk37 v357), ∀ a x, ((![v357] : Fin 1 → IVec S16 32) a x).toNat < S65536.size a := fun v357 k2_hw37 => k2_hw37

def k2_chk38 (v364 : IVec S16 32) : Prop :=
  (∀ a x, ((![v364] : Fin 1 → IVec S16 32) a x).toNat < S65536.size a)
instance k2_chk38.dec : ∀ (v364 : IVec S16 32), Decidable (k2_chk38 v364) := fun v364 => decidable_of_iff' _ (Iff.of_eq (k2_chk38.eq_1 v364))
theorem k2_idx38_inb : ∀ (v364 : IVec S16 32) (k2_hw38 : k2_chk38 v364), ∀ a x, ((![v364] : Fin 1 → IVec S16 32) a x).toNat < S65536.size a := fun v364 k2_hw38 => k2_hw38

def k2_chk39 (v371 : IVec S16 32) : Prop :=
  (∀ a x, ((![v371] : Fin 1 → IVec S16 32) a x).toNat < S65536.size a)
instance k2_chk39.dec : ∀ (v371 : IVec S16 32), Decidable (k2_chk39 v371) := fun v371 => decidable_of_iff' _ (Iff.of_eq (k2_chk39.eq_1 v371))
theorem k2_idx39_inb : ∀ (v371 : IVec S16 32) (k2_hw39 : k2_chk39 v371), ∀ a x, ((![v371] : Fin 1 → IVec S16 32) a x).toNat < S65536.size a := fun v371 k2_hw39 => k2_hw39

def k2_chk40 (v378 : IVec S16 32) : Prop :=
  (∀ a x, ((![v378] : Fin 1 → IVec S16 32) a x).toNat < S65536.size a)
instance k2_chk40.dec : ∀ (v378 : IVec S16 32), Decidable (k2_chk40 v378) := fun v378 => decidable_of_iff' _ (Iff.of_eq (k2_chk40.eq_1 v378))
theorem k2_idx40_inb : ∀ (v378 : IVec S16 32) (k2_hw40 : k2_chk40 v378), ∀ a x, ((![v378] : Fin 1 → IVec S16 32) a x).toNat < S65536.size a := fun v378 k2_hw40 => k2_hw40

def k2_chk41 (v385 : IVec S16 32) : Prop :=
  (∀ a x, ((![v385] : Fin 1 → IVec S16 32) a x).toNat < S65536.size a)
instance k2_chk41.dec : ∀ (v385 : IVec S16 32), Decidable (k2_chk41 v385) := fun v385 => decidable_of_iff' _ (Iff.of_eq (k2_chk41.eq_1 v385))
theorem k2_idx41_inb : ∀ (v385 : IVec S16 32) (k2_hw41 : k2_chk41 v385), ∀ a x, ((![v385] : Fin 1 → IVec S16 32) a x).toNat < S65536.size a := fun v385 k2_hw41 => k2_hw41

def k2_chk42 (v392 : IVec S16 32) : Prop :=
  (∀ a x, ((![v392] : Fin 1 → IVec S16 32) a x).toNat < S65536.size a)
instance k2_chk42.dec : ∀ (v392 : IVec S16 32), Decidable (k2_chk42 v392) := fun v392 => decidable_of_iff' _ (Iff.of_eq (k2_chk42.eq_1 v392))
theorem k2_idx42_inb : ∀ (v392 : IVec S16 32) (k2_hw42 : k2_chk42 v392), ∀ a x, ((![v392] : Fin 1 → IVec S16 32) a x).toNat < S65536.size a := fun v392 k2_hw42 => k2_hw42

def k2_chk43 (v399 : IVec S16 32) : Prop :=
  (∀ a x, ((![v399] : Fin 1 → IVec S16 32) a x).toNat < S65536.size a)
instance k2_chk43.dec : ∀ (v399 : IVec S16 32), Decidable (k2_chk43 v399) := fun v399 => decidable_of_iff' _ (Iff.of_eq (k2_chk43.eq_1 v399))
theorem k2_idx43_inb : ∀ (v399 : IVec S16 32) (k2_hw43 : k2_chk43 v399), ∀ a x, ((![v399] : Fin 1 → IVec S16 32) a x).toNat < S65536.size a := fun v399 k2_hw43 => k2_hw43

def k2_chk44 (v406 : IVec S16 32) : Prop :=
  (∀ a x, ((![v406] : Fin 1 → IVec S16 32) a x).toNat < S65536.size a)
instance k2_chk44.dec : ∀ (v406 : IVec S16 32), Decidable (k2_chk44 v406) := fun v406 => decidable_of_iff' _ (Iff.of_eq (k2_chk44.eq_1 v406))
theorem k2_idx44_inb : ∀ (v406 : IVec S16 32) (k2_hw44 : k2_chk44 v406), ∀ a x, ((![v406] : Fin 1 → IVec S16 32) a x).toNat < S65536.size a := fun v406 k2_hw44 => k2_hw44

def k2_chk45 (v413 : IVec S16 32) : Prop :=
  (∀ a x, ((![v413] : Fin 1 → IVec S16 32) a x).toNat < S65536.size a)
instance k2_chk45.dec : ∀ (v413 : IVec S16 32), Decidable (k2_chk45 v413) := fun v413 => decidable_of_iff' _ (Iff.of_eq (k2_chk45.eq_1 v413))
theorem k2_idx45_inb : ∀ (v413 : IVec S16 32) (k2_hw45 : k2_chk45 v413), ∀ a x, ((![v413] : Fin 1 → IVec S16 32) a x).toNat < S65536.size a := fun v413 k2_hw45 => k2_hw45

def k2_chk46 (v420 : IVec S16 32) : Prop :=
  (∀ a x, ((![v420] : Fin 1 → IVec S16 32) a x).toNat < S65536.size a)
instance k2_chk46.dec : ∀ (v420 : IVec S16 32), Decidable (k2_chk46 v420) := fun v420 => decidable_of_iff' _ (Iff.of_eq (k2_chk46.eq_1 v420))
theorem k2_idx46_inb : ∀ (v420 : IVec S16 32) (k2_hw46 : k2_chk46 v420), ∀ a x, ((![v420] : Fin 1 → IVec S16 32) a x).toNat < S65536.size a := fun v420 k2_hw46 => k2_hw46

def k2_chk47 (v427 : IVec S16 32) : Prop :=
  (∀ a x, ((![v427] : Fin 1 → IVec S16 32) a x).toNat < S65536.size a)
instance k2_chk47.dec : ∀ (v427 : IVec S16 32), Decidable (k2_chk47 v427) := fun v427 => decidable_of_iff' _ (Iff.of_eq (k2_chk47.eq_1 v427))
theorem k2_idx47_inb : ∀ (v427 : IVec S16 32) (k2_hw47 : k2_chk47 v427), ∀ a x, ((![v427] : Fin 1 → IVec S16 32) a x).toNat < S65536.size a := fun v427 k2_hw47 => k2_hw47

def k2_chk48 (v434 : IVec S16 32) : Prop :=
  (∀ a x, ((![v434] : Fin 1 → IVec S16 32) a x).toNat < S65536.size a)
instance k2_chk48.dec : ∀ (v434 : IVec S16 32), Decidable (k2_chk48 v434) := fun v434 => decidable_of_iff' _ (Iff.of_eq (k2_chk48.eq_1 v434))
theorem k2_idx48_inb : ∀ (v434 : IVec S16 32) (k2_hw48 : k2_chk48 v434), ∀ a x, ((![v434] : Fin 1 → IVec S16 32) a x).toNat < S65536.size a := fun v434 k2_hw48 => k2_hw48

def k2_chk49 (v441 : IVec S16 32) : Prop :=
  (∀ a x, ((![v441] : Fin 1 → IVec S16 32) a x).toNat < S65536.size a)
instance k2_chk49.dec : ∀ (v441 : IVec S16 32), Decidable (k2_chk49 v441) := fun v441 => decidable_of_iff' _ (Iff.of_eq (k2_chk49.eq_1 v441))
theorem k2_idx49_inb : ∀ (v441 : IVec S16 32) (k2_hw49 : k2_chk49 v441), ∀ a x, ((![v441] : Fin 1 → IVec S16 32) a x).toNat < S65536.size a := fun v441 k2_hw49 => k2_hw49

def k2_chk50 (v448 : IVec S16 32) : Prop :=
  (∀ a x, ((![v448] : Fin 1 → IVec S16 32) a x).toNat < S65536.size a)
instance k2_chk50.dec : ∀ (v448 : IVec S16 32), Decidable (k2_chk50 v448) := fun v448 => decidable_of_iff' _ (Iff.of_eq (k2_chk50.eq_1 v448))
theorem k2_idx50_inb : ∀ (v448 : IVec S16 32) (k2_hw50 : k2_chk50 v448), ∀ a x, ((![v448] : Fin 1 → IVec S16 32) a x).toNat < S65536.size a := fun v448 k2_hw50 => k2_hw50

def k2_chk51 (v455 : IVec S16 32) : Prop :=
  (∀ a x, ((![v455] : Fin 1 → IVec S16 32) a x).toNat < S65536.size a)
instance k2_chk51.dec : ∀ (v455 : IVec S16 32), Decidable (k2_chk51 v455) := fun v455 => decidable_of_iff' _ (Iff.of_eq (k2_chk51.eq_1 v455))
theorem k2_idx51_inb : ∀ (v455 : IVec S16 32) (k2_hw51 : k2_chk51 v455), ∀ a x, ((![v455] : Fin 1 → IVec S16 32) a x).toNat < S65536.size a := fun v455 k2_hw51 => k2_hw51

def k2_chk52 (v462 : IVec S16 32) : Prop :=
  (∀ a x, ((![v462] : Fin 1 → IVec S16 32) a x).toNat < S65536.size a)
instance k2_chk52.dec : ∀ (v462 : IVec S16 32), Decidable (k2_chk52 v462) := fun v462 => decidable_of_iff' _ (Iff.of_eq (k2_chk52.eq_1 v462))
theorem k2_idx52_inb : ∀ (v462 : IVec S16 32) (k2_hw52 : k2_chk52 v462), ∀ a x, ((![v462] : Fin 1 → IVec S16 32) a x).toNat < S65536.size a := fun v462 k2_hw52 => k2_hw52

def k2_chk53 (v469 : IVec S16 32) : Prop :=
  (∀ a x, ((![v469] : Fin 1 → IVec S16 32) a x).toNat < S65536.size a)
instance k2_chk53.dec : ∀ (v469 : IVec S16 32), Decidable (k2_chk53 v469) := fun v469 => decidable_of_iff' _ (Iff.of_eq (k2_chk53.eq_1 v469))
theorem k2_idx53_inb : ∀ (v469 : IVec S16 32) (k2_hw53 : k2_chk53 v469), ∀ a x, ((![v469] : Fin 1 → IVec S16 32) a x).toNat < S65536.size a := fun v469 k2_hw53 => k2_hw53

def k2_chk54 (v476 : IVec S16 32) : Prop :=
  (∀ a x, ((![v476] : Fin 1 → IVec S16 32) a x).toNat < S65536.size a)
instance k2_chk54.dec : ∀ (v476 : IVec S16 32), Decidable (k2_chk54 v476) := fun v476 => decidable_of_iff' _ (Iff.of_eq (k2_chk54.eq_1 v476))
theorem k2_idx54_inb : ∀ (v476 : IVec S16 32) (k2_hw54 : k2_chk54 v476), ∀ a x, ((![v476] : Fin 1 → IVec S16 32) a x).toNat < S65536.size a := fun v476 k2_hw54 => k2_hw54

def k2_chk55 (v483 : IVec S16 32) : Prop :=
  (∀ a x, ((![v483] : Fin 1 → IVec S16 32) a x).toNat < S65536.size a)
instance k2_chk55.dec : ∀ (v483 : IVec S16 32), Decidable (k2_chk55 v483) := fun v483 => decidable_of_iff' _ (Iff.of_eq (k2_chk55.eq_1 v483))
theorem k2_idx55_inb : ∀ (v483 : IVec S16 32) (k2_hw55 : k2_chk55 v483), ∀ a x, ((![v483] : Fin 1 → IVec S16 32) a x).toNat < S65536.size a := fun v483 k2_hw55 => k2_hw55

def k2_chk56 (v490 : IVec S16 32) : Prop :=
  (∀ a x, ((![v490] : Fin 1 → IVec S16 32) a x).toNat < S65536.size a)
instance k2_chk56.dec : ∀ (v490 : IVec S16 32), Decidable (k2_chk56 v490) := fun v490 => decidable_of_iff' _ (Iff.of_eq (k2_chk56.eq_1 v490))
theorem k2_idx56_inb : ∀ (v490 : IVec S16 32) (k2_hw56 : k2_chk56 v490), ∀ a x, ((![v490] : Fin 1 → IVec S16 32) a x).toNat < S65536.size a := fun v490 k2_hw56 => k2_hw56

def k2_chk57 (v497 : IVec S16 32) : Prop :=
  (∀ a x, ((![v497] : Fin 1 → IVec S16 32) a x).toNat < S65536.size a)
instance k2_chk57.dec : ∀ (v497 : IVec S16 32), Decidable (k2_chk57 v497) := fun v497 => decidable_of_iff' _ (Iff.of_eq (k2_chk57.eq_1 v497))
theorem k2_idx57_inb : ∀ (v497 : IVec S16 32) (k2_hw57 : k2_chk57 v497), ∀ a x, ((![v497] : Fin 1 → IVec S16 32) a x).toNat < S65536.size a := fun v497 k2_hw57 => k2_hw57

def k2_chk58 (v504 : IVec S16 32) : Prop :=
  (∀ a x, ((![v504] : Fin 1 → IVec S16 32) a x).toNat < S65536.size a)
instance k2_chk58.dec : ∀ (v504 : IVec S16 32), Decidable (k2_chk58 v504) := fun v504 => decidable_of_iff' _ (Iff.of_eq (k2_chk58.eq_1 v504))
theorem k2_idx58_inb : ∀ (v504 : IVec S16 32) (k2_hw58 : k2_chk58 v504), ∀ a x, ((![v504] : Fin 1 → IVec S16 32) a x).toNat < S65536.size a := fun v504 k2_hw58 => k2_hw58

def k2_chk59 (v511 : IVec S16 32) : Prop :=
  (∀ a x, ((![v511] : Fin 1 → IVec S16 32) a x).toNat < S65536.size a)
instance k2_chk59.dec : ∀ (v511 : IVec S16 32), Decidable (k2_chk59 v511) := fun v511 => decidable_of_iff' _ (Iff.of_eq (k2_chk59.eq_1 v511))
theorem k2_idx59_inb : ∀ (v511 : IVec S16 32) (k2_hw59 : k2_chk59 v511), ∀ a x, ((![v511] : Fin 1 → IVec S16 32) a x).toNat < S65536.size a := fun v511 k2_hw59 => k2_hw59

def k2_chk60 (v518 : IVec S16 32) : Prop :=
  (∀ a x, ((![v518] : Fin 1 → IVec S16 32) a x).toNat < S65536.size a)
instance k2_chk60.dec : ∀ (v518 : IVec S16 32), Decidable (k2_chk60 v518) := fun v518 => decidable_of_iff' _ (Iff.of_eq (k2_chk60.eq_1 v518))
theorem k2_idx60_inb : ∀ (v518 : IVec S16 32) (k2_hw60 : k2_chk60 v518), ∀ a x, ((![v518] : Fin 1 → IVec S16 32) a x).toNat < S65536.size a := fun v518 k2_hw60 => k2_hw60

def k2_chk61 (v525 : IVec S16 32) : Prop :=
  (∀ a x, ((![v525] : Fin 1 → IVec S16 32) a x).toNat < S65536.size a)
instance k2_chk61.dec : ∀ (v525 : IVec S16 32), Decidable (k2_chk61 v525) := fun v525 => decidable_of_iff' _ (Iff.of_eq (k2_chk61.eq_1 v525))
theorem k2_idx61_inb : ∀ (v525 : IVec S16 32) (k2_hw61 : k2_chk61 v525), ∀ a x, ((![v525] : Fin 1 → IVec S16 32) a x).toNat < S65536.size a := fun v525 k2_hw61 => k2_hw61

def k2_chk62 (v532 : IVec S16 32) : Prop :=
  (∀ a x, ((![v532] : Fin 1 → IVec S16 32) a x).toNat < S65536.size a)
instance k2_chk62.dec : ∀ (v532 : IVec S16 32), Decidable (k2_chk62 v532) := fun v532 => decidable_of_iff' _ (Iff.of_eq (k2_chk62.eq_1 v532))
theorem k2_idx62_inb : ∀ (v532 : IVec S16 32) (k2_hw62 : k2_chk62 v532), ∀ a x, ((![v532] : Fin 1 → IVec S16 32) a x).toNat < S65536.size a := fun v532 k2_hw62 => k2_hw62

def k2_chk63 (v539 : IVec S16 32) : Prop :=
  (∀ a x, ((![v539] : Fin 1 → IVec S16 32) a x).toNat < S65536.size a)
instance k2_chk63.dec : ∀ (v539 : IVec S16 32), Decidable (k2_chk63 v539) := fun v539 => decidable_of_iff' _ (Iff.of_eq (k2_chk63.eq_1 v539))
theorem k2_idx63_inb : ∀ (v539 : IVec S16 32) (k2_hw63 : k2_chk63 v539), ∀ a x, ((![v539] : Fin 1 → IVec S16 32) a x).toNat < S65536.size a := fun v539 k2_hw63 => k2_hw63

def k2_chk64 (v546 : IVec S16 32) : Prop :=
  (∀ a x, ((![v546] : Fin 1 → IVec S16 32) a x).toNat < S65536.size a)
instance k2_chk64.dec : ∀ (v546 : IVec S16 32), Decidable (k2_chk64 v546) := fun v546 => decidable_of_iff' _ (Iff.of_eq (k2_chk64.eq_1 v546))
theorem k2_idx64_inb : ∀ (v546 : IVec S16 32) (k2_hw64 : k2_chk64 v546), ∀ a x, ((![v546] : Fin 1 → IVec S16 32) a x).toNat < S65536.size a := fun v546 k2_hw64 => k2_hw64

def k2_chk65 (v553 : IVec S16 32) : Prop :=
  (∀ a x, ((![v553] : Fin 1 → IVec S16 32) a x).toNat < S65536.size a)
instance k2_chk65.dec : ∀ (v553 : IVec S16 32), Decidable (k2_chk65 v553) := fun v553 => decidable_of_iff' _ (Iff.of_eq (k2_chk65.eq_1 v553))
theorem k2_idx65_inb : ∀ (v553 : IVec S16 32) (k2_hw65 : k2_chk65 v553), ∀ a x, ((![v553] : Fin 1 → IVec S16 32) a x).toNat < S65536.size a := fun v553 k2_hw65 => k2_hw65

def k2_chk66 (v560 : IVec S16 32) : Prop :=
  (∀ a x, ((![v560] : Fin 1 → IVec S16 32) a x).toNat < S65536.size a)
instance k2_chk66.dec : ∀ (v560 : IVec S16 32), Decidable (k2_chk66 v560) := fun v560 => decidable_of_iff' _ (Iff.of_eq (k2_chk66.eq_1 v560))
theorem k2_idx66_inb : ∀ (v560 : IVec S16 32) (k2_hw66 : k2_chk66 v560), ∀ a x, ((![v560] : Fin 1 → IVec S16 32) a x).toNat < S65536.size a := fun v560 k2_hw66 => k2_hw66

def k2_chk67 (v567 : IVec S16 32) : Prop :=
  (∀ a x, ((![v567] : Fin 1 → IVec S16 32) a x).toNat < S65536.size a)
instance k2_chk67.dec : ∀ (v567 : IVec S16 32), Decidable (k2_chk67 v567) := fun v567 => decidable_of_iff' _ (Iff.of_eq (k2_chk67.eq_1 v567))
theorem k2_idx67_inb : ∀ (v567 : IVec S16 32) (k2_hw67 : k2_chk67 v567), ∀ a x, ((![v567] : Fin 1 → IVec S16 32) a x).toNat < S65536.size a := fun v567 k2_hw67 => k2_hw67

def k2_chk68 (v574 : IVec S16 32) : Prop :=
  (∀ a x, ((![v574] : Fin 1 → IVec S16 32) a x).toNat < S65536.size a)
instance k2_chk68.dec : ∀ (v574 : IVec S16 32), Decidable (k2_chk68 v574) := fun v574 => decidable_of_iff' _ (Iff.of_eq (k2_chk68.eq_1 v574))
theorem k2_idx68_inb : ∀ (v574 : IVec S16 32) (k2_hw68 : k2_chk68 v574), ∀ a x, ((![v574] : Fin 1 → IVec S16 32) a x).toNat < S65536.size a := fun v574 k2_hw68 => k2_hw68

def k2_chk69 (v581 : IVec S16 32) : Prop :=
  (∀ a x, ((![v581] : Fin 1 → IVec S16 32) a x).toNat < S65536.size a)
instance k2_chk69.dec : ∀ (v581 : IVec S16 32), Decidable (k2_chk69 v581) := fun v581 => decidable_of_iff' _ (Iff.of_eq (k2_chk69.eq_1 v581))
theorem k2_idx69_inb : ∀ (v581 : IVec S16 32) (k2_hw69 : k2_chk69 v581), ∀ a x, ((![v581] : Fin 1 → IVec S16 32) a x).toNat < S65536.size a := fun v581 k2_hw69 => k2_hw69

def k2_chk70 (v588 : IVec S16 32) : Prop :=
  (∀ a x, ((![v588] : Fin 1 → IVec S16 32) a x).toNat < S65536.size a)
instance k2_chk70.dec : ∀ (v588 : IVec S16 32), Decidable (k2_chk70 v588) := fun v588 => decidable_of_iff' _ (Iff.of_eq (k2_chk70.eq_1 v588))
theorem k2_idx70_inb : ∀ (v588 : IVec S16 32) (k2_hw70 : k2_chk70 v588), ∀ a x, ((![v588] : Fin 1 → IVec S16 32) a x).toNat < S65536.size a := fun v588 k2_hw70 => k2_hw70

def k2_chk71 (v595 : IVec S16 32) : Prop :=
  (∀ a x, ((![v595] : Fin 1 → IVec S16 32) a x).toNat < S65536.size a)
instance k2_chk71.dec : ∀ (v595 : IVec S16 32), Decidable (k2_chk71 v595) := fun v595 => decidable_of_iff' _ (Iff.of_eq (k2_chk71.eq_1 v595))
theorem k2_idx71_inb : ∀ (v595 : IVec S16 32) (k2_hw71 : k2_chk71 v595), ∀ a x, ((![v595] : Fin 1 → IVec S16 32) a x).toNat < S65536.size a := fun v595 k2_hw71 => k2_hw71

def k2_chk72 (v602 : IVec S16 32) : Prop :=
  (∀ a x, ((![v602] : Fin 1 → IVec S16 32) a x).toNat < S65536.size a)
instance k2_chk72.dec : ∀ (v602 : IVec S16 32), Decidable (k2_chk72 v602) := fun v602 => decidable_of_iff' _ (Iff.of_eq (k2_chk72.eq_1 v602))
theorem k2_idx72_inb : ∀ (v602 : IVec S16 32) (k2_hw72 : k2_chk72 v602), ∀ a x, ((![v602] : Fin 1 → IVec S16 32) a x).toNat < S65536.size a := fun v602 k2_hw72 => k2_hw72

def k2_chk73 (v609 : IVec S16 32) : Prop :=
  (∀ a x, ((![v609] : Fin 1 → IVec S16 32) a x).toNat < S65536.size a)
instance k2_chk73.dec : ∀ (v609 : IVec S16 32), Decidable (k2_chk73 v609) := fun v609 => decidable_of_iff' _ (Iff.of_eq (k2_chk73.eq_1 v609))
theorem k2_idx73_inb : ∀ (v609 : IVec S16 32) (k2_hw73 : k2_chk73 v609), ∀ a x, ((![v609] : Fin 1 → IVec S16 32) a x).toNat < S65536.size a := fun v609 k2_hw73 => k2_hw73

def k2_chk74 (v616 : IVec S16 32) : Prop :=
  (∀ a x, ((![v616] : Fin 1 → IVec S16 32) a x).toNat < S65536.size a)
instance k2_chk74.dec : ∀ (v616 : IVec S16 32), Decidable (k2_chk74 v616) := fun v616 => decidable_of_iff' _ (Iff.of_eq (k2_chk74.eq_1 v616))
theorem k2_idx74_inb : ∀ (v616 : IVec S16 32) (k2_hw74 : k2_chk74 v616), ∀ a x, ((![v616] : Fin 1 → IVec S16 32) a x).toNat < S65536.size a := fun v616 k2_hw74 => k2_hw74

def k2_chk75 (v623 : IVec S16 32) : Prop :=
  (∀ a x, ((![v623] : Fin 1 → IVec S16 32) a x).toNat < S65536.size a)
instance k2_chk75.dec : ∀ (v623 : IVec S16 32), Decidable (k2_chk75 v623) := fun v623 => decidable_of_iff' _ (Iff.of_eq (k2_chk75.eq_1 v623))
theorem k2_idx75_inb : ∀ (v623 : IVec S16 32) (k2_hw75 : k2_chk75 v623), ∀ a x, ((![v623] : Fin 1 → IVec S16 32) a x).toNat < S65536.size a := fun v623 k2_hw75 => k2_hw75

def k2_chk76 (v630 : IVec S16 32) : Prop :=
  (∀ a x, ((![v630] : Fin 1 → IVec S16 32) a x).toNat < S65536.size a)
instance k2_chk76.dec : ∀ (v630 : IVec S16 32), Decidable (k2_chk76 v630) := fun v630 => decidable_of_iff' _ (Iff.of_eq (k2_chk76.eq_1 v630))
theorem k2_idx76_inb : ∀ (v630 : IVec S16 32) (k2_hw76 : k2_chk76 v630), ∀ a x, ((![v630] : Fin 1 → IVec S16 32) a x).toNat < S65536.size a := fun v630 k2_hw76 => k2_hw76

def k2_chk77 (v637 : IVec S16 32) : Prop :=
  (∀ a x, ((![v637] : Fin 1 → IVec S16 32) a x).toNat < S65536.size a)
instance k2_chk77.dec : ∀ (v637 : IVec S16 32), Decidable (k2_chk77 v637) := fun v637 => decidable_of_iff' _ (Iff.of_eq (k2_chk77.eq_1 v637))
theorem k2_idx77_inb : ∀ (v637 : IVec S16 32) (k2_hw77 : k2_chk77 v637), ∀ a x, ((![v637] : Fin 1 → IVec S16 32) a x).toNat < S65536.size a := fun v637 k2_hw77 => k2_hw77

def k2_chk78 (v644 : IVec S16 32) : Prop :=
  (∀ a x, ((![v644] : Fin 1 → IVec S16 32) a x).toNat < S65536.size a)
instance k2_chk78.dec : ∀ (v644 : IVec S16 32), Decidable (k2_chk78 v644) := fun v644 => decidable_of_iff' _ (Iff.of_eq (k2_chk78.eq_1 v644))
theorem k2_idx78_inb : ∀ (v644 : IVec S16 32) (k2_hw78 : k2_chk78 v644), ∀ a x, ((![v644] : Fin 1 → IVec S16 32) a x).toNat < S65536.size a := fun v644 k2_hw78 => k2_hw78

def k2_chk79 (v651 : IVec S16 32) : Prop :=
  (∀ a x, ((![v651] : Fin 1 → IVec S16 32) a x).toNat < S65536.size a)
instance k2_chk79.dec : ∀ (v651 : IVec S16 32), Decidable (k2_chk79 v651) := fun v651 => decidable_of_iff' _ (Iff.of_eq (k2_chk79.eq_1 v651))
theorem k2_idx79_inb : ∀ (v651 : IVec S16 32) (k2_hw79 : k2_chk79 v651), ∀ a x, ((![v651] : Fin 1 → IVec S16 32) a x).toNat < S65536.size a := fun v651 k2_hw79 => k2_hw79

def k2_chk80 (v658 : IVec S16 32) : Prop :=
  (∀ a x, ((![v658] : Fin 1 → IVec S16 32) a x).toNat < S65536.size a)
instance k2_chk80.dec : ∀ (v658 : IVec S16 32), Decidable (k2_chk80 v658) := fun v658 => decidable_of_iff' _ (Iff.of_eq (k2_chk80.eq_1 v658))
theorem k2_idx80_inb : ∀ (v658 : IVec S16 32) (k2_hw80 : k2_chk80 v658), ∀ a x, ((![v658] : Fin 1 → IVec S16 32) a x).toNat < S65536.size a := fun v658 k2_hw80 => k2_hw80
def k2_off23 (k2_t1 : Fin k2_t1_loop.trips) (k2_t2 : Fin k2_t2_loop.trips) (c0_i32_283 : BitVec 32) : Fin 2 → Nat :=
  let c0_i32_39 : BitVec 32 := 0#32
  let c1_i32_41 : BitVec 32 := 1#32
  let arg9 : BitVec 32 := Scf.iv c0_i32_39 c1_i32_41 k2_t2
  let c4_i32_282 : BitVec 32 := 4#32
  let v661 : BitVec 32 := Scalar.muli arg9 c4_i32_282
  let v662 : BitVec 32 := Scalar.addi v661 c0_i32_283
  let v663 : Index := Scalar.indexCast v662
  let c0_i32_11 : BitVec 32 := 0#32
  let c1_i32_12 : BitVec 32 := 1#32
  let arg8 : BitVec 32 := Scf.iv c0_i32_11 c1_i32_12 k2_t1
  let c16_i32_32 : BitVec 32 := 16#32
  let v39 : BitVec 32 := Scalar.muli arg8 c16_i32_32
  let v664 : Index := Scalar.indexCast v39
  ![v663.toNat, v664.toNat]
def k2_off24 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v32 : BitVec 32 := Scalar.muli v28 c16_i32
  let c0_i32_32_r2 : BitVec 32 := 0#32
  ![v18.toNat, v32.toNat, 0]
def k2_off25 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_32_r3 : BitVec 32 := 0#32
  let c1024_i32_r3 : BitVec 32 := 1024#32
  ![v18.toNat, 0, 1024]
@[reducible] def k2_t3_loop : Scf.Loop 32 :=
  let c0_i32_15 : BitVec 32 := 0#32
  let c64_i32_16 : BitVec 32 := 64#32
  let v33 : BitVec 32 := Scalar.addi c0_i32_15 c64_i32_16
  let c1_i32_17 : BitVec 32 := 1#32
  ⟨c0_i32_15, v33, c1_i32_17⟩
def k2_off26 (k2_t3 : Fin k2_t3_loop.trips) : Fin 2 → Nat :=
  let c0_i32_33 : BitVec 32 := 0#32
  let v40 : Index := Scalar.indexCast c0_i32_33
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v41 : Index := Scalar.indexCast v39
  ![0, v41.toNat]
def k2_off27 (k2_t3 : Fin k2_t3_loop.trips) : Fin 2 → Nat :=
  let c1_i32_34 : BitVec 32 := 1#32
  let v43 : Index := Scalar.indexCast c1_i32_34
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v44 : Index := Scalar.indexCast v39
  ![1, v44.toNat]
def k2_off28 (k2_t3 : Fin k2_t3_loop.trips) : Fin 2 → Nat :=
  let c2_i32_35 : BitVec 32 := 2#32
  let v46 : Index := Scalar.indexCast c2_i32_35
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v47 : Index := Scalar.indexCast v39
  ![2, v47.toNat]
def k2_off29 (k2_t3 : Fin k2_t3_loop.trips) : Fin 2 → Nat :=
  let c3_i32 : BitVec 32 := 3#32
  let v49 : Index := Scalar.indexCast c3_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v50 : Index := Scalar.indexCast v39
  ![3, v50.toNat]
def k2_off30 (k2_t3 : Fin k2_t3_loop.trips) : Fin 2 → Nat :=
  let c4_i32_36 : BitVec 32 := 4#32
  let v52 : Index := Scalar.indexCast c4_i32_36
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v53 : Index := Scalar.indexCast v39
  ![4, v53.toNat]
def k2_off31 (k2_t3 : Fin k2_t3_loop.trips) : Fin 2 → Nat :=
  let c5_i32 : BitVec 32 := 5#32
  let v55 : Index := Scalar.indexCast c5_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v56 : Index := Scalar.indexCast v39
  ![5, v56.toNat]
def k2_off32 (k2_t3 : Fin k2_t3_loop.trips) : Fin 2 → Nat :=
  let c6_i32 : BitVec 32 := 6#32
  let v58 : Index := Scalar.indexCast c6_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v59 : Index := Scalar.indexCast v39
  ![6, v59.toNat]
def k2_off33 (k2_t3 : Fin k2_t3_loop.trips) : Fin 2 → Nat :=
  let c7_i32 : BitVec 32 := 7#32
  let v61 : Index := Scalar.indexCast c7_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v62 : Index := Scalar.indexCast v39
  ![7, v62.toNat]
def k2_off34 (k2_t3 : Fin k2_t3_loop.trips) : Fin 2 → Nat :=
  let c8_i32 : BitVec 32 := 8#32
  let v64 : Index := Scalar.indexCast c8_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v65 : Index := Scalar.indexCast v39
  ![8, v65.toNat]
def k2_off35 (k2_t3 : Fin k2_t3_loop.trips) : Fin 2 → Nat :=
  let c9_i32 : BitVec 32 := 9#32
  let v67 : Index := Scalar.indexCast c9_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v68 : Index := Scalar.indexCast v39
  ![9, v68.toNat]
def k2_off36 (k2_t3 : Fin k2_t3_loop.trips) : Fin 2 → Nat :=
  let c10_i32 : BitVec 32 := 10#32
  let v70 : Index := Scalar.indexCast c10_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v71 : Index := Scalar.indexCast v39
  ![10, v71.toNat]
def k2_off37 (k2_t3 : Fin k2_t3_loop.trips) : Fin 2 → Nat :=
  let c11_i32 : BitVec 32 := 11#32
  let v73 : Index := Scalar.indexCast c11_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v74 : Index := Scalar.indexCast v39
  ![11, v74.toNat]
def k2_off38 (k2_t3 : Fin k2_t3_loop.trips) : Fin 2 → Nat :=
  let c12_i32 : BitVec 32 := 12#32
  let v76 : Index := Scalar.indexCast c12_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v77 : Index := Scalar.indexCast v39
  ![12, v77.toNat]
def k2_off39 (k2_t3 : Fin k2_t3_loop.trips) : Fin 2 → Nat :=
  let c13_i32 : BitVec 32 := 13#32
  let v79 : Index := Scalar.indexCast c13_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v80 : Index := Scalar.indexCast v39
  ![13, v80.toNat]
def k2_off40 (k2_t3 : Fin k2_t3_loop.trips) : Fin 2 → Nat :=
  let c14_i32 : BitVec 32 := 14#32
  let v82 : Index := Scalar.indexCast c14_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v83 : Index := Scalar.indexCast v39
  ![14, v83.toNat]
def k2_off41 (k2_t3 : Fin k2_t3_loop.trips) : Fin 2 → Nat :=
  let c15_i32 : BitVec 32 := 15#32
  let v85 : Index := Scalar.indexCast c15_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v86 : Index := Scalar.indexCast v39
  ![15, v86.toNat]
def k2_off42 (k2_t3 : Fin k2_t3_loop.trips) : Fin 2 → Nat :=
  let c16_i32_37 : BitVec 32 := 16#32
  let v88 : Index := Scalar.indexCast c16_i32_37
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v89 : Index := Scalar.indexCast v39
  ![16, v89.toNat]
def k2_off43 (k2_t3 : Fin k2_t3_loop.trips) : Fin 2 → Nat :=
  let c17_i32 : BitVec 32 := 17#32
  let v91 : Index := Scalar.indexCast c17_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v92 : Index := Scalar.indexCast v39
  ![17, v92.toNat]
def k2_off44 (k2_t3 : Fin k2_t3_loop.trips) : Fin 2 → Nat :=
  let c18_i32 : BitVec 32 := 18#32
  let v94 : Index := Scalar.indexCast c18_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v95 : Index := Scalar.indexCast v39
  ![18, v95.toNat]
def k2_off45 (k2_t3 : Fin k2_t3_loop.trips) : Fin 2 → Nat :=
  let c19_i32 : BitVec 32 := 19#32
  let v97 : Index := Scalar.indexCast c19_i32
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v98 : Index := Scalar.indexCast v39
  ![19, v98.toNat]
@[reducible] def k2_t4_loop : Scf.Loop 32 :=
  let c0_i32_39 : BitVec 32 := 0#32
  let c4_i32_40 : BitVec 32 := 4#32
  let v100 : BitVec 32 := Scalar.addi c0_i32_39 c4_i32_40
  let c1_i32_41 : BitVec 32 := 1#32
  ⟨c0_i32_39, v100, c1_i32_41⟩

def k2_chk81 (v105 : IVec S16 32) : Prop :=
  (∀ a x, ((![v105] : Fin 1 → IVec S16 32) a x).toNat < S65536.size a)
instance k2_chk81.dec : ∀ (v105 : IVec S16 32), Decidable (k2_chk81 v105) := fun v105 => decidable_of_iff' _ (Iff.of_eq (k2_chk81.eq_1 v105))
theorem k2_idx81_inb : ∀ (v105 : IVec S16 32) (k2_hw81 : k2_chk81 v105), ∀ a x, ((![v105] : Fin 1 → IVec S16 32) a x).toNat < S65536.size a := fun v105 k2_hw81 => k2_hw81

def k2_chk82 (v112 : IVec S16 32) : Prop :=
  (∀ a x, ((![v112] : Fin 1 → IVec S16 32) a x).toNat < S65536.size a)
instance k2_chk82.dec : ∀ (v112 : IVec S16 32), Decidable (k2_chk82 v112) := fun v112 => decidable_of_iff' _ (Iff.of_eq (k2_chk82.eq_1 v112))
theorem k2_idx82_inb : ∀ (v112 : IVec S16 32) (k2_hw82 : k2_chk82 v112), ∀ a x, ((![v112] : Fin 1 → IVec S16 32) a x).toNat < S65536.size a := fun v112 k2_hw82 => k2_hw82

def k2_chk83 (v119 : IVec S16 32) : Prop :=
  (∀ a x, ((![v119] : Fin 1 → IVec S16 32) a x).toNat < S65536.size a)
instance k2_chk83.dec : ∀ (v119 : IVec S16 32), Decidable (k2_chk83 v119) := fun v119 => decidable_of_iff' _ (Iff.of_eq (k2_chk83.eq_1 v119))
theorem k2_idx83_inb : ∀ (v119 : IVec S16 32) (k2_hw83 : k2_chk83 v119), ∀ a x, ((![v119] : Fin 1 → IVec S16 32) a x).toNat < S65536.size a := fun v119 k2_hw83 => k2_hw83

def k2_chk84 (v126 : IVec S16 32) : Prop :=
  (∀ a x, ((![v126] : Fin 1 → IVec S16 32) a x).toNat < S65536.size a)
instance k2_chk84.dec : ∀ (v126 : IVec S16 32), Decidable (k2_chk84 v126) := fun v126 => decidable_of_iff' _ (Iff.of_eq (k2_chk84.eq_1 v126))
theorem k2_idx84_inb : ∀ (v126 : IVec S16 32) (k2_hw84 : k2_chk84 v126), ∀ a x, ((![v126] : Fin 1 → IVec S16 32) a x).toNat < S65536.size a := fun v126 k2_hw84 => k2_hw84

def k2_chk85 (v133 : IVec S16 32) : Prop :=
  (∀ a x, ((![v133] : Fin 1 → IVec S16 32) a x).toNat < S65536.size a)
instance k2_chk85.dec : ∀ (v133 : IVec S16 32), Decidable (k2_chk85 v133) := fun v133 => decidable_of_iff' _ (Iff.of_eq (k2_chk85.eq_1 v133))
theorem k2_idx85_inb : ∀ (v133 : IVec S16 32) (k2_hw85 : k2_chk85 v133), ∀ a x, ((![v133] : Fin 1 → IVec S16 32) a x).toNat < S65536.size a := fun v133 k2_hw85 => k2_hw85

def k2_chk86 (v140 : IVec S16 32) : Prop :=
  (∀ a x, ((![v140] : Fin 1 → IVec S16 32) a x).toNat < S65536.size a)
instance k2_chk86.dec : ∀ (v140 : IVec S16 32), Decidable (k2_chk86 v140) := fun v140 => decidable_of_iff' _ (Iff.of_eq (k2_chk86.eq_1 v140))
theorem k2_idx86_inb : ∀ (v140 : IVec S16 32) (k2_hw86 : k2_chk86 v140), ∀ a x, ((![v140] : Fin 1 → IVec S16 32) a x).toNat < S65536.size a := fun v140 k2_hw86 => k2_hw86

def k2_chk87 (v147 : IVec S16 32) : Prop :=
  (∀ a x, ((![v147] : Fin 1 → IVec S16 32) a x).toNat < S65536.size a)
instance k2_chk87.dec : ∀ (v147 : IVec S16 32), Decidable (k2_chk87 v147) := fun v147 => decidable_of_iff' _ (Iff.of_eq (k2_chk87.eq_1 v147))
theorem k2_idx87_inb : ∀ (v147 : IVec S16 32) (k2_hw87 : k2_chk87 v147), ∀ a x, ((![v147] : Fin 1 → IVec S16 32) a x).toNat < S65536.size a := fun v147 k2_hw87 => k2_hw87

def k2_chk88 (v154 : IVec S16 32) : Prop :=
  (∀ a x, ((![v154] : Fin 1 → IVec S16 32) a x).toNat < S65536.size a)
instance k2_chk88.dec : ∀ (v154 : IVec S16 32), Decidable (k2_chk88 v154) := fun v154 => decidable_of_iff' _ (Iff.of_eq (k2_chk88.eq_1 v154))
theorem k2_idx88_inb : ∀ (v154 : IVec S16 32) (k2_hw88 : k2_chk88 v154), ∀ a x, ((![v154] : Fin 1 → IVec S16 32) a x).toNat < S65536.size a := fun v154 k2_hw88 => k2_hw88

def k2_chk89 (v161 : IVec S16 32) : Prop :=
  (∀ a x, ((![v161] : Fin 1 → IVec S16 32) a x).toNat < S65536.size a)
instance k2_chk89.dec : ∀ (v161 : IVec S16 32), Decidable (k2_chk89 v161) := fun v161 => decidable_of_iff' _ (Iff.of_eq (k2_chk89.eq_1 v161))
theorem k2_idx89_inb : ∀ (v161 : IVec S16 32) (k2_hw89 : k2_chk89 v161), ∀ a x, ((![v161] : Fin 1 → IVec S16 32) a x).toNat < S65536.size a := fun v161 k2_hw89 => k2_hw89

def k2_chk90 (v168 : IVec S16 32) : Prop :=
  (∀ a x, ((![v168] : Fin 1 → IVec S16 32) a x).toNat < S65536.size a)
instance k2_chk90.dec : ∀ (v168 : IVec S16 32), Decidable (k2_chk90 v168) := fun v168 => decidable_of_iff' _ (Iff.of_eq (k2_chk90.eq_1 v168))
theorem k2_idx90_inb : ∀ (v168 : IVec S16 32) (k2_hw90 : k2_chk90 v168), ∀ a x, ((![v168] : Fin 1 → IVec S16 32) a x).toNat < S65536.size a := fun v168 k2_hw90 => k2_hw90

def k2_chk91 (v175 : IVec S16 32) : Prop :=
  (∀ a x, ((![v175] : Fin 1 → IVec S16 32) a x).toNat < S65536.size a)
instance k2_chk91.dec : ∀ (v175 : IVec S16 32), Decidable (k2_chk91 v175) := fun v175 => decidable_of_iff' _ (Iff.of_eq (k2_chk91.eq_1 v175))
theorem k2_idx91_inb : ∀ (v175 : IVec S16 32) (k2_hw91 : k2_chk91 v175), ∀ a x, ((![v175] : Fin 1 → IVec S16 32) a x).toNat < S65536.size a := fun v175 k2_hw91 => k2_hw91

def k2_chk92 (v182 : IVec S16 32) : Prop :=
  (∀ a x, ((![v182] : Fin 1 → IVec S16 32) a x).toNat < S65536.size a)
instance k2_chk92.dec : ∀ (v182 : IVec S16 32), Decidable (k2_chk92 v182) := fun v182 => decidable_of_iff' _ (Iff.of_eq (k2_chk92.eq_1 v182))
theorem k2_idx92_inb : ∀ (v182 : IVec S16 32) (k2_hw92 : k2_chk92 v182), ∀ a x, ((![v182] : Fin 1 → IVec S16 32) a x).toNat < S65536.size a := fun v182 k2_hw92 => k2_hw92

def k2_chk93 (v189 : IVec S16 32) : Prop :=
  (∀ a x, ((![v189] : Fin 1 → IVec S16 32) a x).toNat < S65536.size a)
instance k2_chk93.dec : ∀ (v189 : IVec S16 32), Decidable (k2_chk93 v189) := fun v189 => decidable_of_iff' _ (Iff.of_eq (k2_chk93.eq_1 v189))
theorem k2_idx93_inb : ∀ (v189 : IVec S16 32) (k2_hw93 : k2_chk93 v189), ∀ a x, ((![v189] : Fin 1 → IVec S16 32) a x).toNat < S65536.size a := fun v189 k2_hw93 => k2_hw93

def k2_chk94 (v196 : IVec S16 32) : Prop :=
  (∀ a x, ((![v196] : Fin 1 → IVec S16 32) a x).toNat < S65536.size a)
instance k2_chk94.dec : ∀ (v196 : IVec S16 32), Decidable (k2_chk94 v196) := fun v196 => decidable_of_iff' _ (Iff.of_eq (k2_chk94.eq_1 v196))
theorem k2_idx94_inb : ∀ (v196 : IVec S16 32) (k2_hw94 : k2_chk94 v196), ∀ a x, ((![v196] : Fin 1 → IVec S16 32) a x).toNat < S65536.size a := fun v196 k2_hw94 => k2_hw94

def k2_chk95 (v203 : IVec S16 32) : Prop :=
  (∀ a x, ((![v203] : Fin 1 → IVec S16 32) a x).toNat < S65536.size a)
instance k2_chk95.dec : ∀ (v203 : IVec S16 32), Decidable (k2_chk95 v203) := fun v203 => decidable_of_iff' _ (Iff.of_eq (k2_chk95.eq_1 v203))
theorem k2_idx95_inb : ∀ (v203 : IVec S16 32) (k2_hw95 : k2_chk95 v203), ∀ a x, ((![v203] : Fin 1 → IVec S16 32) a x).toNat < S65536.size a := fun v203 k2_hw95 => k2_hw95

def k2_chk96 (v210 : IVec S16 32) : Prop :=
  (∀ a x, ((![v210] : Fin 1 → IVec S16 32) a x).toNat < S65536.size a)
instance k2_chk96.dec : ∀ (v210 : IVec S16 32), Decidable (k2_chk96 v210) := fun v210 => decidable_of_iff' _ (Iff.of_eq (k2_chk96.eq_1 v210))
theorem k2_idx96_inb : ∀ (v210 : IVec S16 32) (k2_hw96 : k2_chk96 v210), ∀ a x, ((![v210] : Fin 1 → IVec S16 32) a x).toNat < S65536.size a := fun v210 k2_hw96 => k2_hw96

def k2_chk97 (v217 : IVec S16 32) : Prop :=
  (∀ a x, ((![v217] : Fin 1 → IVec S16 32) a x).toNat < S65536.size a)
instance k2_chk97.dec : ∀ (v217 : IVec S16 32), Decidable (k2_chk97 v217) := fun v217 => decidable_of_iff' _ (Iff.of_eq (k2_chk97.eq_1 v217))
theorem k2_idx97_inb : ∀ (v217 : IVec S16 32) (k2_hw97 : k2_chk97 v217), ∀ a x, ((![v217] : Fin 1 → IVec S16 32) a x).toNat < S65536.size a := fun v217 k2_hw97 => k2_hw97

def k2_chk98 (v224 : IVec S16 32) : Prop :=
  (∀ a x, ((![v224] : Fin 1 → IVec S16 32) a x).toNat < S65536.size a)
instance k2_chk98.dec : ∀ (v224 : IVec S16 32), Decidable (k2_chk98 v224) := fun v224 => decidable_of_iff' _ (Iff.of_eq (k2_chk98.eq_1 v224))
theorem k2_idx98_inb : ∀ (v224 : IVec S16 32) (k2_hw98 : k2_chk98 v224), ∀ a x, ((![v224] : Fin 1 → IVec S16 32) a x).toNat < S65536.size a := fun v224 k2_hw98 => k2_hw98

def k2_chk99 (v231 : IVec S16 32) : Prop :=
  (∀ a x, ((![v231] : Fin 1 → IVec S16 32) a x).toNat < S65536.size a)
instance k2_chk99.dec : ∀ (v231 : IVec S16 32), Decidable (k2_chk99 v231) := fun v231 => decidable_of_iff' _ (Iff.of_eq (k2_chk99.eq_1 v231))
theorem k2_idx99_inb : ∀ (v231 : IVec S16 32) (k2_hw99 : k2_chk99 v231), ∀ a x, ((![v231] : Fin 1 → IVec S16 32) a x).toNat < S65536.size a := fun v231 k2_hw99 => k2_hw99

def k2_chk100 (v238 : IVec S16 32) : Prop :=
  (∀ a x, ((![v238] : Fin 1 → IVec S16 32) a x).toNat < S65536.size a)
instance k2_chk100.dec : ∀ (v238 : IVec S16 32), Decidable (k2_chk100 v238) := fun v238 => decidable_of_iff' _ (Iff.of_eq (k2_chk100.eq_1 v238))
theorem k2_idx100_inb : ∀ (v238 : IVec S16 32) (k2_hw100 : k2_chk100 v238), ∀ a x, ((![v238] : Fin 1 → IVec S16 32) a x).toNat < S65536.size a := fun v238 k2_hw100 => k2_hw100

def k2_chk101 (v245 : IVec S16 32) : Prop :=
  (∀ a x, ((![v245] : Fin 1 → IVec S16 32) a x).toNat < S65536.size a)
instance k2_chk101.dec : ∀ (v245 : IVec S16 32), Decidable (k2_chk101 v245) := fun v245 => decidable_of_iff' _ (Iff.of_eq (k2_chk101.eq_1 v245))
theorem k2_idx101_inb : ∀ (v245 : IVec S16 32) (k2_hw101 : k2_chk101 v245), ∀ a x, ((![v245] : Fin 1 → IVec S16 32) a x).toNat < S65536.size a := fun v245 k2_hw101 => k2_hw101

def k2_chk102 (v252 : IVec S16 32) : Prop :=
  (∀ a x, ((![v252] : Fin 1 → IVec S16 32) a x).toNat < S65536.size a)
instance k2_chk102.dec : ∀ (v252 : IVec S16 32), Decidable (k2_chk102 v252) := fun v252 => decidable_of_iff' _ (Iff.of_eq (k2_chk102.eq_1 v252))
theorem k2_idx102_inb : ∀ (v252 : IVec S16 32) (k2_hw102 : k2_chk102 v252), ∀ a x, ((![v252] : Fin 1 → IVec S16 32) a x).toNat < S65536.size a := fun v252 k2_hw102 => k2_hw102

def k2_chk103 (v259 : IVec S16 32) : Prop :=
  (∀ a x, ((![v259] : Fin 1 → IVec S16 32) a x).toNat < S65536.size a)
instance k2_chk103.dec : ∀ (v259 : IVec S16 32), Decidable (k2_chk103 v259) := fun v259 => decidable_of_iff' _ (Iff.of_eq (k2_chk103.eq_1 v259))
theorem k2_idx103_inb : ∀ (v259 : IVec S16 32) (k2_hw103 : k2_chk103 v259), ∀ a x, ((![v259] : Fin 1 → IVec S16 32) a x).toNat < S65536.size a := fun v259 k2_hw103 => k2_hw103

def k2_chk104 (v266 : IVec S16 32) : Prop :=
  (∀ a x, ((![v266] : Fin 1 → IVec S16 32) a x).toNat < S65536.size a)
instance k2_chk104.dec : ∀ (v266 : IVec S16 32), Decidable (k2_chk104 v266) := fun v266 => decidable_of_iff' _ (Iff.of_eq (k2_chk104.eq_1 v266))
theorem k2_idx104_inb : ∀ (v266 : IVec S16 32) (k2_hw104 : k2_chk104 v266), ∀ a x, ((![v266] : Fin 1 → IVec S16 32) a x).toNat < S65536.size a := fun v266 k2_hw104 => k2_hw104

def k2_chk105 (v273 : IVec S16 32) : Prop :=
  (∀ a x, ((![v273] : Fin 1 → IVec S16 32) a x).toNat < S65536.size a)
instance k2_chk105.dec : ∀ (v273 : IVec S16 32), Decidable (k2_chk105 v273) := fun v273 => decidable_of_iff' _ (Iff.of_eq (k2_chk105.eq_1 v273))
theorem k2_idx105_inb : ∀ (v273 : IVec S16 32) (k2_hw105 : k2_chk105 v273), ∀ a x, ((![v273] : Fin 1 → IVec S16 32) a x).toNat < S65536.size a := fun v273 k2_hw105 => k2_hw105

def k2_chk106 (v280 : IVec S16 32) : Prop :=
  (∀ a x, ((![v280] : Fin 1 → IVec S16 32) a x).toNat < S65536.size a)
instance k2_chk106.dec : ∀ (v280 : IVec S16 32), Decidable (k2_chk106 v280) := fun v280 => decidable_of_iff' _ (Iff.of_eq (k2_chk106.eq_1 v280))
theorem k2_idx106_inb : ∀ (v280 : IVec S16 32) (k2_hw106 : k2_chk106 v280), ∀ a x, ((![v280] : Fin 1 → IVec S16 32) a x).toNat < S65536.size a := fun v280 k2_hw106 => k2_hw106

def k2_chk107 (v287 : IVec S16 32) : Prop :=
  (∀ a x, ((![v287] : Fin 1 → IVec S16 32) a x).toNat < S65536.size a)
instance k2_chk107.dec : ∀ (v287 : IVec S16 32), Decidable (k2_chk107 v287) := fun v287 => decidable_of_iff' _ (Iff.of_eq (k2_chk107.eq_1 v287))
theorem k2_idx107_inb : ∀ (v287 : IVec S16 32) (k2_hw107 : k2_chk107 v287), ∀ a x, ((![v287] : Fin 1 → IVec S16 32) a x).toNat < S65536.size a := fun v287 k2_hw107 => k2_hw107

def k2_chk108 (v294 : IVec S16 32) : Prop :=
  (∀ a x, ((![v294] : Fin 1 → IVec S16 32) a x).toNat < S65536.size a)
instance k2_chk108.dec : ∀ (v294 : IVec S16 32), Decidable (k2_chk108 v294) := fun v294 => decidable_of_iff' _ (Iff.of_eq (k2_chk108.eq_1 v294))
theorem k2_idx108_inb : ∀ (v294 : IVec S16 32) (k2_hw108 : k2_chk108 v294), ∀ a x, ((![v294] : Fin 1 → IVec S16 32) a x).toNat < S65536.size a := fun v294 k2_hw108 => k2_hw108

def k2_chk109 (v301 : IVec S16 32) : Prop :=
  (∀ a x, ((![v301] : Fin 1 → IVec S16 32) a x).toNat < S65536.size a)
instance k2_chk109.dec : ∀ (v301 : IVec S16 32), Decidable (k2_chk109 v301) := fun v301 => decidable_of_iff' _ (Iff.of_eq (k2_chk109.eq_1 v301))
theorem k2_idx109_inb : ∀ (v301 : IVec S16 32) (k2_hw109 : k2_chk109 v301), ∀ a x, ((![v301] : Fin 1 → IVec S16 32) a x).toNat < S65536.size a := fun v301 k2_hw109 => k2_hw109

def k2_chk110 (v308 : IVec S16 32) : Prop :=
  (∀ a x, ((![v308] : Fin 1 → IVec S16 32) a x).toNat < S65536.size a)
instance k2_chk110.dec : ∀ (v308 : IVec S16 32), Decidable (k2_chk110 v308) := fun v308 => decidable_of_iff' _ (Iff.of_eq (k2_chk110.eq_1 v308))
theorem k2_idx110_inb : ∀ (v308 : IVec S16 32) (k2_hw110 : k2_chk110 v308), ∀ a x, ((![v308] : Fin 1 → IVec S16 32) a x).toNat < S65536.size a := fun v308 k2_hw110 => k2_hw110

def k2_chk111 (v315 : IVec S16 32) : Prop :=
  (∀ a x, ((![v315] : Fin 1 → IVec S16 32) a x).toNat < S65536.size a)
instance k2_chk111.dec : ∀ (v315 : IVec S16 32), Decidable (k2_chk111 v315) := fun v315 => decidable_of_iff' _ (Iff.of_eq (k2_chk111.eq_1 v315))
theorem k2_idx111_inb : ∀ (v315 : IVec S16 32) (k2_hw111 : k2_chk111 v315), ∀ a x, ((![v315] : Fin 1 → IVec S16 32) a x).toNat < S65536.size a := fun v315 k2_hw111 => k2_hw111

def k2_chk112 (v322 : IVec S16 32) : Prop :=
  (∀ a x, ((![v322] : Fin 1 → IVec S16 32) a x).toNat < S65536.size a)
instance k2_chk112.dec : ∀ (v322 : IVec S16 32), Decidable (k2_chk112 v322) := fun v322 => decidable_of_iff' _ (Iff.of_eq (k2_chk112.eq_1 v322))
theorem k2_idx112_inb : ∀ (v322 : IVec S16 32) (k2_hw112 : k2_chk112 v322), ∀ a x, ((![v322] : Fin 1 → IVec S16 32) a x).toNat < S65536.size a := fun v322 k2_hw112 => k2_hw112

def k2_chk113 (v329 : IVec S16 32) : Prop :=
  (∀ a x, ((![v329] : Fin 1 → IVec S16 32) a x).toNat < S65536.size a)
instance k2_chk113.dec : ∀ (v329 : IVec S16 32), Decidable (k2_chk113 v329) := fun v329 => decidable_of_iff' _ (Iff.of_eq (k2_chk113.eq_1 v329))
theorem k2_idx113_inb : ∀ (v329 : IVec S16 32) (k2_hw113 : k2_chk113 v329), ∀ a x, ((![v329] : Fin 1 → IVec S16 32) a x).toNat < S65536.size a := fun v329 k2_hw113 => k2_hw113

def k2_chk114 (v336 : IVec S16 32) : Prop :=
  (∀ a x, ((![v336] : Fin 1 → IVec S16 32) a x).toNat < S65536.size a)
instance k2_chk114.dec : ∀ (v336 : IVec S16 32), Decidable (k2_chk114 v336) := fun v336 => decidable_of_iff' _ (Iff.of_eq (k2_chk114.eq_1 v336))
theorem k2_idx114_inb : ∀ (v336 : IVec S16 32) (k2_hw114 : k2_chk114 v336), ∀ a x, ((![v336] : Fin 1 → IVec S16 32) a x).toNat < S65536.size a := fun v336 k2_hw114 => k2_hw114

def k2_chk115 (v343 : IVec S16 32) : Prop :=
  (∀ a x, ((![v343] : Fin 1 → IVec S16 32) a x).toNat < S65536.size a)
instance k2_chk115.dec : ∀ (v343 : IVec S16 32), Decidable (k2_chk115 v343) := fun v343 => decidable_of_iff' _ (Iff.of_eq (k2_chk115.eq_1 v343))
theorem k2_idx115_inb : ∀ (v343 : IVec S16 32) (k2_hw115 : k2_chk115 v343), ∀ a x, ((![v343] : Fin 1 → IVec S16 32) a x).toNat < S65536.size a := fun v343 k2_hw115 => k2_hw115

def k2_chk116 (v350 : IVec S16 32) : Prop :=
  (∀ a x, ((![v350] : Fin 1 → IVec S16 32) a x).toNat < S65536.size a)
instance k2_chk116.dec : ∀ (v350 : IVec S16 32), Decidable (k2_chk116 v350) := fun v350 => decidable_of_iff' _ (Iff.of_eq (k2_chk116.eq_1 v350))
theorem k2_idx116_inb : ∀ (v350 : IVec S16 32) (k2_hw116 : k2_chk116 v350), ∀ a x, ((![v350] : Fin 1 → IVec S16 32) a x).toNat < S65536.size a := fun v350 k2_hw116 => k2_hw116

def k2_chk117 (v357 : IVec S16 32) : Prop :=
  (∀ a x, ((![v357] : Fin 1 → IVec S16 32) a x).toNat < S65536.size a)
instance k2_chk117.dec : ∀ (v357 : IVec S16 32), Decidable (k2_chk117 v357) := fun v357 => decidable_of_iff' _ (Iff.of_eq (k2_chk117.eq_1 v357))
theorem k2_idx117_inb : ∀ (v357 : IVec S16 32) (k2_hw117 : k2_chk117 v357), ∀ a x, ((![v357] : Fin 1 → IVec S16 32) a x).toNat < S65536.size a := fun v357 k2_hw117 => k2_hw117

def k2_chk118 (v364 : IVec S16 32) : Prop :=
  (∀ a x, ((![v364] : Fin 1 → IVec S16 32) a x).toNat < S65536.size a)
instance k2_chk118.dec : ∀ (v364 : IVec S16 32), Decidable (k2_chk118 v364) := fun v364 => decidable_of_iff' _ (Iff.of_eq (k2_chk118.eq_1 v364))
theorem k2_idx118_inb : ∀ (v364 : IVec S16 32) (k2_hw118 : k2_chk118 v364), ∀ a x, ((![v364] : Fin 1 → IVec S16 32) a x).toNat < S65536.size a := fun v364 k2_hw118 => k2_hw118

def k2_chk119 (v371 : IVec S16 32) : Prop :=
  (∀ a x, ((![v371] : Fin 1 → IVec S16 32) a x).toNat < S65536.size a)
instance k2_chk119.dec : ∀ (v371 : IVec S16 32), Decidable (k2_chk119 v371) := fun v371 => decidable_of_iff' _ (Iff.of_eq (k2_chk119.eq_1 v371))
theorem k2_idx119_inb : ∀ (v371 : IVec S16 32) (k2_hw119 : k2_chk119 v371), ∀ a x, ((![v371] : Fin 1 → IVec S16 32) a x).toNat < S65536.size a := fun v371 k2_hw119 => k2_hw119

def k2_chk120 (v378 : IVec S16 32) : Prop :=
  (∀ a x, ((![v378] : Fin 1 → IVec S16 32) a x).toNat < S65536.size a)
instance k2_chk120.dec : ∀ (v378 : IVec S16 32), Decidable (k2_chk120 v378) := fun v378 => decidable_of_iff' _ (Iff.of_eq (k2_chk120.eq_1 v378))
theorem k2_idx120_inb : ∀ (v378 : IVec S16 32) (k2_hw120 : k2_chk120 v378), ∀ a x, ((![v378] : Fin 1 → IVec S16 32) a x).toNat < S65536.size a := fun v378 k2_hw120 => k2_hw120

def k2_chk121 (v385 : IVec S16 32) : Prop :=
  (∀ a x, ((![v385] : Fin 1 → IVec S16 32) a x).toNat < S65536.size a)
instance k2_chk121.dec : ∀ (v385 : IVec S16 32), Decidable (k2_chk121 v385) := fun v385 => decidable_of_iff' _ (Iff.of_eq (k2_chk121.eq_1 v385))
theorem k2_idx121_inb : ∀ (v385 : IVec S16 32) (k2_hw121 : k2_chk121 v385), ∀ a x, ((![v385] : Fin 1 → IVec S16 32) a x).toNat < S65536.size a := fun v385 k2_hw121 => k2_hw121

def k2_chk122 (v392 : IVec S16 32) : Prop :=
  (∀ a x, ((![v392] : Fin 1 → IVec S16 32) a x).toNat < S65536.size a)
instance k2_chk122.dec : ∀ (v392 : IVec S16 32), Decidable (k2_chk122 v392) := fun v392 => decidable_of_iff' _ (Iff.of_eq (k2_chk122.eq_1 v392))
theorem k2_idx122_inb : ∀ (v392 : IVec S16 32) (k2_hw122 : k2_chk122 v392), ∀ a x, ((![v392] : Fin 1 → IVec S16 32) a x).toNat < S65536.size a := fun v392 k2_hw122 => k2_hw122

def k2_chk123 (v399 : IVec S16 32) : Prop :=
  (∀ a x, ((![v399] : Fin 1 → IVec S16 32) a x).toNat < S65536.size a)
instance k2_chk123.dec : ∀ (v399 : IVec S16 32), Decidable (k2_chk123 v399) := fun v399 => decidable_of_iff' _ (Iff.of_eq (k2_chk123.eq_1 v399))
theorem k2_idx123_inb : ∀ (v399 : IVec S16 32) (k2_hw123 : k2_chk123 v399), ∀ a x, ((![v399] : Fin 1 → IVec S16 32) a x).toNat < S65536.size a := fun v399 k2_hw123 => k2_hw123

def k2_chk124 (v406 : IVec S16 32) : Prop :=
  (∀ a x, ((![v406] : Fin 1 → IVec S16 32) a x).toNat < S65536.size a)
instance k2_chk124.dec : ∀ (v406 : IVec S16 32), Decidable (k2_chk124 v406) := fun v406 => decidable_of_iff' _ (Iff.of_eq (k2_chk124.eq_1 v406))
theorem k2_idx124_inb : ∀ (v406 : IVec S16 32) (k2_hw124 : k2_chk124 v406), ∀ a x, ((![v406] : Fin 1 → IVec S16 32) a x).toNat < S65536.size a := fun v406 k2_hw124 => k2_hw124

def k2_chk125 (v413 : IVec S16 32) : Prop :=
  (∀ a x, ((![v413] : Fin 1 → IVec S16 32) a x).toNat < S65536.size a)
instance k2_chk125.dec : ∀ (v413 : IVec S16 32), Decidable (k2_chk125 v413) := fun v413 => decidable_of_iff' _ (Iff.of_eq (k2_chk125.eq_1 v413))
theorem k2_idx125_inb : ∀ (v413 : IVec S16 32) (k2_hw125 : k2_chk125 v413), ∀ a x, ((![v413] : Fin 1 → IVec S16 32) a x).toNat < S65536.size a := fun v413 k2_hw125 => k2_hw125

def k2_chk126 (v420 : IVec S16 32) : Prop :=
  (∀ a x, ((![v420] : Fin 1 → IVec S16 32) a x).toNat < S65536.size a)
instance k2_chk126.dec : ∀ (v420 : IVec S16 32), Decidable (k2_chk126 v420) := fun v420 => decidable_of_iff' _ (Iff.of_eq (k2_chk126.eq_1 v420))
theorem k2_idx126_inb : ∀ (v420 : IVec S16 32) (k2_hw126 : k2_chk126 v420), ∀ a x, ((![v420] : Fin 1 → IVec S16 32) a x).toNat < S65536.size a := fun v420 k2_hw126 => k2_hw126

def k2_chk127 (v427 : IVec S16 32) : Prop :=
  (∀ a x, ((![v427] : Fin 1 → IVec S16 32) a x).toNat < S65536.size a)
instance k2_chk127.dec : ∀ (v427 : IVec S16 32), Decidable (k2_chk127 v427) := fun v427 => decidable_of_iff' _ (Iff.of_eq (k2_chk127.eq_1 v427))
theorem k2_idx127_inb : ∀ (v427 : IVec S16 32) (k2_hw127 : k2_chk127 v427), ∀ a x, ((![v427] : Fin 1 → IVec S16 32) a x).toNat < S65536.size a := fun v427 k2_hw127 => k2_hw127

def k2_chk128 (v434 : IVec S16 32) : Prop :=
  (∀ a x, ((![v434] : Fin 1 → IVec S16 32) a x).toNat < S65536.size a)
instance k2_chk128.dec : ∀ (v434 : IVec S16 32), Decidable (k2_chk128 v434) := fun v434 => decidable_of_iff' _ (Iff.of_eq (k2_chk128.eq_1 v434))
theorem k2_idx128_inb : ∀ (v434 : IVec S16 32) (k2_hw128 : k2_chk128 v434), ∀ a x, ((![v434] : Fin 1 → IVec S16 32) a x).toNat < S65536.size a := fun v434 k2_hw128 => k2_hw128

def k2_chk129 (v441 : IVec S16 32) : Prop :=
  (∀ a x, ((![v441] : Fin 1 → IVec S16 32) a x).toNat < S65536.size a)
instance k2_chk129.dec : ∀ (v441 : IVec S16 32), Decidable (k2_chk129 v441) := fun v441 => decidable_of_iff' _ (Iff.of_eq (k2_chk129.eq_1 v441))
theorem k2_idx129_inb : ∀ (v441 : IVec S16 32) (k2_hw129 : k2_chk129 v441), ∀ a x, ((![v441] : Fin 1 → IVec S16 32) a x).toNat < S65536.size a := fun v441 k2_hw129 => k2_hw129

def k2_chk130 (v448 : IVec S16 32) : Prop :=
  (∀ a x, ((![v448] : Fin 1 → IVec S16 32) a x).toNat < S65536.size a)
instance k2_chk130.dec : ∀ (v448 : IVec S16 32), Decidable (k2_chk130 v448) := fun v448 => decidable_of_iff' _ (Iff.of_eq (k2_chk130.eq_1 v448))
theorem k2_idx130_inb : ∀ (v448 : IVec S16 32) (k2_hw130 : k2_chk130 v448), ∀ a x, ((![v448] : Fin 1 → IVec S16 32) a x).toNat < S65536.size a := fun v448 k2_hw130 => k2_hw130

def k2_chk131 (v455 : IVec S16 32) : Prop :=
  (∀ a x, ((![v455] : Fin 1 → IVec S16 32) a x).toNat < S65536.size a)
instance k2_chk131.dec : ∀ (v455 : IVec S16 32), Decidable (k2_chk131 v455) := fun v455 => decidable_of_iff' _ (Iff.of_eq (k2_chk131.eq_1 v455))
theorem k2_idx131_inb : ∀ (v455 : IVec S16 32) (k2_hw131 : k2_chk131 v455), ∀ a x, ((![v455] : Fin 1 → IVec S16 32) a x).toNat < S65536.size a := fun v455 k2_hw131 => k2_hw131

def k2_chk132 (v462 : IVec S16 32) : Prop :=
  (∀ a x, ((![v462] : Fin 1 → IVec S16 32) a x).toNat < S65536.size a)
instance k2_chk132.dec : ∀ (v462 : IVec S16 32), Decidable (k2_chk132 v462) := fun v462 => decidable_of_iff' _ (Iff.of_eq (k2_chk132.eq_1 v462))
theorem k2_idx132_inb : ∀ (v462 : IVec S16 32) (k2_hw132 : k2_chk132 v462), ∀ a x, ((![v462] : Fin 1 → IVec S16 32) a x).toNat < S65536.size a := fun v462 k2_hw132 => k2_hw132

def k2_chk133 (v469 : IVec S16 32) : Prop :=
  (∀ a x, ((![v469] : Fin 1 → IVec S16 32) a x).toNat < S65536.size a)
instance k2_chk133.dec : ∀ (v469 : IVec S16 32), Decidable (k2_chk133 v469) := fun v469 => decidable_of_iff' _ (Iff.of_eq (k2_chk133.eq_1 v469))
theorem k2_idx133_inb : ∀ (v469 : IVec S16 32) (k2_hw133 : k2_chk133 v469), ∀ a x, ((![v469] : Fin 1 → IVec S16 32) a x).toNat < S65536.size a := fun v469 k2_hw133 => k2_hw133

def k2_chk134 (v476 : IVec S16 32) : Prop :=
  (∀ a x, ((![v476] : Fin 1 → IVec S16 32) a x).toNat < S65536.size a)
instance k2_chk134.dec : ∀ (v476 : IVec S16 32), Decidable (k2_chk134 v476) := fun v476 => decidable_of_iff' _ (Iff.of_eq (k2_chk134.eq_1 v476))
theorem k2_idx134_inb : ∀ (v476 : IVec S16 32) (k2_hw134 : k2_chk134 v476), ∀ a x, ((![v476] : Fin 1 → IVec S16 32) a x).toNat < S65536.size a := fun v476 k2_hw134 => k2_hw134

def k2_chk135 (v483 : IVec S16 32) : Prop :=
  (∀ a x, ((![v483] : Fin 1 → IVec S16 32) a x).toNat < S65536.size a)
instance k2_chk135.dec : ∀ (v483 : IVec S16 32), Decidable (k2_chk135 v483) := fun v483 => decidable_of_iff' _ (Iff.of_eq (k2_chk135.eq_1 v483))
theorem k2_idx135_inb : ∀ (v483 : IVec S16 32) (k2_hw135 : k2_chk135 v483), ∀ a x, ((![v483] : Fin 1 → IVec S16 32) a x).toNat < S65536.size a := fun v483 k2_hw135 => k2_hw135

def k2_chk136 (v490 : IVec S16 32) : Prop :=
  (∀ a x, ((![v490] : Fin 1 → IVec S16 32) a x).toNat < S65536.size a)
instance k2_chk136.dec : ∀ (v490 : IVec S16 32), Decidable (k2_chk136 v490) := fun v490 => decidable_of_iff' _ (Iff.of_eq (k2_chk136.eq_1 v490))
theorem k2_idx136_inb : ∀ (v490 : IVec S16 32) (k2_hw136 : k2_chk136 v490), ∀ a x, ((![v490] : Fin 1 → IVec S16 32) a x).toNat < S65536.size a := fun v490 k2_hw136 => k2_hw136

def k2_chk137 (v497 : IVec S16 32) : Prop :=
  (∀ a x, ((![v497] : Fin 1 → IVec S16 32) a x).toNat < S65536.size a)
instance k2_chk137.dec : ∀ (v497 : IVec S16 32), Decidable (k2_chk137 v497) := fun v497 => decidable_of_iff' _ (Iff.of_eq (k2_chk137.eq_1 v497))
theorem k2_idx137_inb : ∀ (v497 : IVec S16 32) (k2_hw137 : k2_chk137 v497), ∀ a x, ((![v497] : Fin 1 → IVec S16 32) a x).toNat < S65536.size a := fun v497 k2_hw137 => k2_hw137

def k2_chk138 (v504 : IVec S16 32) : Prop :=
  (∀ a x, ((![v504] : Fin 1 → IVec S16 32) a x).toNat < S65536.size a)
instance k2_chk138.dec : ∀ (v504 : IVec S16 32), Decidable (k2_chk138 v504) := fun v504 => decidable_of_iff' _ (Iff.of_eq (k2_chk138.eq_1 v504))
theorem k2_idx138_inb : ∀ (v504 : IVec S16 32) (k2_hw138 : k2_chk138 v504), ∀ a x, ((![v504] : Fin 1 → IVec S16 32) a x).toNat < S65536.size a := fun v504 k2_hw138 => k2_hw138

def k2_chk139 (v511 : IVec S16 32) : Prop :=
  (∀ a x, ((![v511] : Fin 1 → IVec S16 32) a x).toNat < S65536.size a)
instance k2_chk139.dec : ∀ (v511 : IVec S16 32), Decidable (k2_chk139 v511) := fun v511 => decidable_of_iff' _ (Iff.of_eq (k2_chk139.eq_1 v511))
theorem k2_idx139_inb : ∀ (v511 : IVec S16 32) (k2_hw139 : k2_chk139 v511), ∀ a x, ((![v511] : Fin 1 → IVec S16 32) a x).toNat < S65536.size a := fun v511 k2_hw139 => k2_hw139

def k2_chk140 (v518 : IVec S16 32) : Prop :=
  (∀ a x, ((![v518] : Fin 1 → IVec S16 32) a x).toNat < S65536.size a)
instance k2_chk140.dec : ∀ (v518 : IVec S16 32), Decidable (k2_chk140 v518) := fun v518 => decidable_of_iff' _ (Iff.of_eq (k2_chk140.eq_1 v518))
theorem k2_idx140_inb : ∀ (v518 : IVec S16 32) (k2_hw140 : k2_chk140 v518), ∀ a x, ((![v518] : Fin 1 → IVec S16 32) a x).toNat < S65536.size a := fun v518 k2_hw140 => k2_hw140

def k2_chk141 (v525 : IVec S16 32) : Prop :=
  (∀ a x, ((![v525] : Fin 1 → IVec S16 32) a x).toNat < S65536.size a)
instance k2_chk141.dec : ∀ (v525 : IVec S16 32), Decidable (k2_chk141 v525) := fun v525 => decidable_of_iff' _ (Iff.of_eq (k2_chk141.eq_1 v525))
theorem k2_idx141_inb : ∀ (v525 : IVec S16 32) (k2_hw141 : k2_chk141 v525), ∀ a x, ((![v525] : Fin 1 → IVec S16 32) a x).toNat < S65536.size a := fun v525 k2_hw141 => k2_hw141

def k2_chk142 (v532 : IVec S16 32) : Prop :=
  (∀ a x, ((![v532] : Fin 1 → IVec S16 32) a x).toNat < S65536.size a)
instance k2_chk142.dec : ∀ (v532 : IVec S16 32), Decidable (k2_chk142 v532) := fun v532 => decidable_of_iff' _ (Iff.of_eq (k2_chk142.eq_1 v532))
theorem k2_idx142_inb : ∀ (v532 : IVec S16 32) (k2_hw142 : k2_chk142 v532), ∀ a x, ((![v532] : Fin 1 → IVec S16 32) a x).toNat < S65536.size a := fun v532 k2_hw142 => k2_hw142

def k2_chk143 (v539 : IVec S16 32) : Prop :=
  (∀ a x, ((![v539] : Fin 1 → IVec S16 32) a x).toNat < S65536.size a)
instance k2_chk143.dec : ∀ (v539 : IVec S16 32), Decidable (k2_chk143 v539) := fun v539 => decidable_of_iff' _ (Iff.of_eq (k2_chk143.eq_1 v539))
theorem k2_idx143_inb : ∀ (v539 : IVec S16 32) (k2_hw143 : k2_chk143 v539), ∀ a x, ((![v539] : Fin 1 → IVec S16 32) a x).toNat < S65536.size a := fun v539 k2_hw143 => k2_hw143

def k2_chk144 (v546 : IVec S16 32) : Prop :=
  (∀ a x, ((![v546] : Fin 1 → IVec S16 32) a x).toNat < S65536.size a)
instance k2_chk144.dec : ∀ (v546 : IVec S16 32), Decidable (k2_chk144 v546) := fun v546 => decidable_of_iff' _ (Iff.of_eq (k2_chk144.eq_1 v546))
theorem k2_idx144_inb : ∀ (v546 : IVec S16 32) (k2_hw144 : k2_chk144 v546), ∀ a x, ((![v546] : Fin 1 → IVec S16 32) a x).toNat < S65536.size a := fun v546 k2_hw144 => k2_hw144

def k2_chk145 (v553 : IVec S16 32) : Prop :=
  (∀ a x, ((![v553] : Fin 1 → IVec S16 32) a x).toNat < S65536.size a)
instance k2_chk145.dec : ∀ (v553 : IVec S16 32), Decidable (k2_chk145 v553) := fun v553 => decidable_of_iff' _ (Iff.of_eq (k2_chk145.eq_1 v553))
theorem k2_idx145_inb : ∀ (v553 : IVec S16 32) (k2_hw145 : k2_chk145 v553), ∀ a x, ((![v553] : Fin 1 → IVec S16 32) a x).toNat < S65536.size a := fun v553 k2_hw145 => k2_hw145

def k2_chk146 (v560 : IVec S16 32) : Prop :=
  (∀ a x, ((![v560] : Fin 1 → IVec S16 32) a x).toNat < S65536.size a)
instance k2_chk146.dec : ∀ (v560 : IVec S16 32), Decidable (k2_chk146 v560) := fun v560 => decidable_of_iff' _ (Iff.of_eq (k2_chk146.eq_1 v560))
theorem k2_idx146_inb : ∀ (v560 : IVec S16 32) (k2_hw146 : k2_chk146 v560), ∀ a x, ((![v560] : Fin 1 → IVec S16 32) a x).toNat < S65536.size a := fun v560 k2_hw146 => k2_hw146

def k2_chk147 (v567 : IVec S16 32) : Prop :=
  (∀ a x, ((![v567] : Fin 1 → IVec S16 32) a x).toNat < S65536.size a)
instance k2_chk147.dec : ∀ (v567 : IVec S16 32), Decidable (k2_chk147 v567) := fun v567 => decidable_of_iff' _ (Iff.of_eq (k2_chk147.eq_1 v567))
theorem k2_idx147_inb : ∀ (v567 : IVec S16 32) (k2_hw147 : k2_chk147 v567), ∀ a x, ((![v567] : Fin 1 → IVec S16 32) a x).toNat < S65536.size a := fun v567 k2_hw147 => k2_hw147

def k2_chk148 (v574 : IVec S16 32) : Prop :=
  (∀ a x, ((![v574] : Fin 1 → IVec S16 32) a x).toNat < S65536.size a)
instance k2_chk148.dec : ∀ (v574 : IVec S16 32), Decidable (k2_chk148 v574) := fun v574 => decidable_of_iff' _ (Iff.of_eq (k2_chk148.eq_1 v574))
theorem k2_idx148_inb : ∀ (v574 : IVec S16 32) (k2_hw148 : k2_chk148 v574), ∀ a x, ((![v574] : Fin 1 → IVec S16 32) a x).toNat < S65536.size a := fun v574 k2_hw148 => k2_hw148

def k2_chk149 (v581 : IVec S16 32) : Prop :=
  (∀ a x, ((![v581] : Fin 1 → IVec S16 32) a x).toNat < S65536.size a)
instance k2_chk149.dec : ∀ (v581 : IVec S16 32), Decidable (k2_chk149 v581) := fun v581 => decidable_of_iff' _ (Iff.of_eq (k2_chk149.eq_1 v581))
theorem k2_idx149_inb : ∀ (v581 : IVec S16 32) (k2_hw149 : k2_chk149 v581), ∀ a x, ((![v581] : Fin 1 → IVec S16 32) a x).toNat < S65536.size a := fun v581 k2_hw149 => k2_hw149

def k2_chk150 (v588 : IVec S16 32) : Prop :=
  (∀ a x, ((![v588] : Fin 1 → IVec S16 32) a x).toNat < S65536.size a)
instance k2_chk150.dec : ∀ (v588 : IVec S16 32), Decidable (k2_chk150 v588) := fun v588 => decidable_of_iff' _ (Iff.of_eq (k2_chk150.eq_1 v588))
theorem k2_idx150_inb : ∀ (v588 : IVec S16 32) (k2_hw150 : k2_chk150 v588), ∀ a x, ((![v588] : Fin 1 → IVec S16 32) a x).toNat < S65536.size a := fun v588 k2_hw150 => k2_hw150

def k2_chk151 (v595 : IVec S16 32) : Prop :=
  (∀ a x, ((![v595] : Fin 1 → IVec S16 32) a x).toNat < S65536.size a)
instance k2_chk151.dec : ∀ (v595 : IVec S16 32), Decidable (k2_chk151 v595) := fun v595 => decidable_of_iff' _ (Iff.of_eq (k2_chk151.eq_1 v595))
theorem k2_idx151_inb : ∀ (v595 : IVec S16 32) (k2_hw151 : k2_chk151 v595), ∀ a x, ((![v595] : Fin 1 → IVec S16 32) a x).toNat < S65536.size a := fun v595 k2_hw151 => k2_hw151

def k2_chk152 (v602 : IVec S16 32) : Prop :=
  (∀ a x, ((![v602] : Fin 1 → IVec S16 32) a x).toNat < S65536.size a)
instance k2_chk152.dec : ∀ (v602 : IVec S16 32), Decidable (k2_chk152 v602) := fun v602 => decidable_of_iff' _ (Iff.of_eq (k2_chk152.eq_1 v602))
theorem k2_idx152_inb : ∀ (v602 : IVec S16 32) (k2_hw152 : k2_chk152 v602), ∀ a x, ((![v602] : Fin 1 → IVec S16 32) a x).toNat < S65536.size a := fun v602 k2_hw152 => k2_hw152

def k2_chk153 (v609 : IVec S16 32) : Prop :=
  (∀ a x, ((![v609] : Fin 1 → IVec S16 32) a x).toNat < S65536.size a)
instance k2_chk153.dec : ∀ (v609 : IVec S16 32), Decidable (k2_chk153 v609) := fun v609 => decidable_of_iff' _ (Iff.of_eq (k2_chk153.eq_1 v609))
theorem k2_idx153_inb : ∀ (v609 : IVec S16 32) (k2_hw153 : k2_chk153 v609), ∀ a x, ((![v609] : Fin 1 → IVec S16 32) a x).toNat < S65536.size a := fun v609 k2_hw153 => k2_hw153

def k2_chk154 (v616 : IVec S16 32) : Prop :=
  (∀ a x, ((![v616] : Fin 1 → IVec S16 32) a x).toNat < S65536.size a)
instance k2_chk154.dec : ∀ (v616 : IVec S16 32), Decidable (k2_chk154 v616) := fun v616 => decidable_of_iff' _ (Iff.of_eq (k2_chk154.eq_1 v616))
theorem k2_idx154_inb : ∀ (v616 : IVec S16 32) (k2_hw154 : k2_chk154 v616), ∀ a x, ((![v616] : Fin 1 → IVec S16 32) a x).toNat < S65536.size a := fun v616 k2_hw154 => k2_hw154

def k2_chk155 (v623 : IVec S16 32) : Prop :=
  (∀ a x, ((![v623] : Fin 1 → IVec S16 32) a x).toNat < S65536.size a)
instance k2_chk155.dec : ∀ (v623 : IVec S16 32), Decidable (k2_chk155 v623) := fun v623 => decidable_of_iff' _ (Iff.of_eq (k2_chk155.eq_1 v623))
theorem k2_idx155_inb : ∀ (v623 : IVec S16 32) (k2_hw155 : k2_chk155 v623), ∀ a x, ((![v623] : Fin 1 → IVec S16 32) a x).toNat < S65536.size a := fun v623 k2_hw155 => k2_hw155

def k2_chk156 (v630 : IVec S16 32) : Prop :=
  (∀ a x, ((![v630] : Fin 1 → IVec S16 32) a x).toNat < S65536.size a)
instance k2_chk156.dec : ∀ (v630 : IVec S16 32), Decidable (k2_chk156 v630) := fun v630 => decidable_of_iff' _ (Iff.of_eq (k2_chk156.eq_1 v630))
theorem k2_idx156_inb : ∀ (v630 : IVec S16 32) (k2_hw156 : k2_chk156 v630), ∀ a x, ((![v630] : Fin 1 → IVec S16 32) a x).toNat < S65536.size a := fun v630 k2_hw156 => k2_hw156

def k2_chk157 (v637 : IVec S16 32) : Prop :=
  (∀ a x, ((![v637] : Fin 1 → IVec S16 32) a x).toNat < S65536.size a)
instance k2_chk157.dec : ∀ (v637 : IVec S16 32), Decidable (k2_chk157 v637) := fun v637 => decidable_of_iff' _ (Iff.of_eq (k2_chk157.eq_1 v637))
theorem k2_idx157_inb : ∀ (v637 : IVec S16 32) (k2_hw157 : k2_chk157 v637), ∀ a x, ((![v637] : Fin 1 → IVec S16 32) a x).toNat < S65536.size a := fun v637 k2_hw157 => k2_hw157

def k2_chk158 (v644 : IVec S16 32) : Prop :=
  (∀ a x, ((![v644] : Fin 1 → IVec S16 32) a x).toNat < S65536.size a)
instance k2_chk158.dec : ∀ (v644 : IVec S16 32), Decidable (k2_chk158 v644) := fun v644 => decidable_of_iff' _ (Iff.of_eq (k2_chk158.eq_1 v644))
theorem k2_idx158_inb : ∀ (v644 : IVec S16 32) (k2_hw158 : k2_chk158 v644), ∀ a x, ((![v644] : Fin 1 → IVec S16 32) a x).toNat < S65536.size a := fun v644 k2_hw158 => k2_hw158

def k2_chk159 (v651 : IVec S16 32) : Prop :=
  (∀ a x, ((![v651] : Fin 1 → IVec S16 32) a x).toNat < S65536.size a)
instance k2_chk159.dec : ∀ (v651 : IVec S16 32), Decidable (k2_chk159 v651) := fun v651 => decidable_of_iff' _ (Iff.of_eq (k2_chk159.eq_1 v651))
theorem k2_idx159_inb : ∀ (v651 : IVec S16 32) (k2_hw159 : k2_chk159 v651), ∀ a x, ((![v651] : Fin 1 → IVec S16 32) a x).toNat < S65536.size a := fun v651 k2_hw159 => k2_hw159

def k2_chk160 (v658 : IVec S16 32) : Prop :=
  (∀ a x, ((![v658] : Fin 1 → IVec S16 32) a x).toNat < S65536.size a)
instance k2_chk160.dec : ∀ (v658 : IVec S16 32), Decidable (k2_chk160 v658) := fun v658 => decidable_of_iff' _ (Iff.of_eq (k2_chk160.eq_1 v658))
theorem k2_idx160_inb : ∀ (v658 : IVec S16 32) (k2_hw160 : k2_chk160 v658), ∀ a x, ((![v658] : Fin 1 → IVec S16 32) a x).toNat < S65536.size a := fun v658 k2_hw160 => k2_hw160
def k2_off46 (k2_t3 : Fin k2_t3_loop.trips) (k2_t4 : Fin k2_t4_loop.trips) (c0_i32_283 : BitVec 32) : Fin 2 → Nat :=
  let c0_i32_39 : BitVec 32 := 0#32
  let c1_i32_41 : BitVec 32 := 1#32
  let arg9 : BitVec 32 := Scf.iv c0_i32_39 c1_i32_41 k2_t4
  let c4_i32_282 : BitVec 32 := 4#32
  let v661 : BitVec 32 := Scalar.muli arg9 c4_i32_282
  let v662 : BitVec 32 := Scalar.addi v661 c0_i32_283
  let v663 : Index := Scalar.indexCast v662
  let c0_i32_15 : BitVec 32 := 0#32
  let c1_i32_17 : BitVec 32 := 1#32
  let arg8 : BitVec 32 := Scf.iv c0_i32_15 c1_i32_17 k2_t3
  let c16_i32_32 : BitVec 32 := 16#32
  let v39 : BitVec 32 := Scalar.muli arg8 c16_i32_32
  let v664 : Index := Scalar.indexCast v39
  ![v663.toNat, v664.toNat]
def k2_off47 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_19 : BitVec 32 := 16#32
  let v34 : BitVec 32 := Scalar.muli v28 c16_i32_19
  let c1024_i32_r4 : BitVec 32 := 1024#32
  ![v18.toNat, v34.toNat, 1024]
def k2_off48 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_32_r5 : BitVec 32 := 0#32
  let c2048_i32_r5 : BitVec 32 := 2048#32
  ![v18.toNat, 0, 2048]
@[reducible] def k2_t5_loop : Scf.Loop 32 :=
  let c0_i32_21 : BitVec 32 := 0#32
  let c64_i32_22 : BitVec 32 := 64#32
  let v35 : BitVec 32 := Scalar.addi c0_i32_21 c64_i32_22
  let c1_i32_23 : BitVec 32 := 1#32
  ⟨c0_i32_21, v35, c1_i32_23⟩
def k2_off49 (k2_t5 : Fin k2_t5_loop.trips) : Fin 2 → Nat :=
  let c0_i32_33 : BitVec 32 := 0#32
  let v40 : Index := Scalar.indexCast c0_i32_33
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v41 : Index := Scalar.indexCast v39
  ![0, v41.toNat]
def k2_off50 (k2_t5 : Fin k2_t5_loop.trips) : Fin 2 → Nat :=
  let c1_i32_34 : BitVec 32 := 1#32
  let v43 : Index := Scalar.indexCast c1_i32_34
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v44 : Index := Scalar.indexCast v39
  ![1, v44.toNat]
def k2_off51 (k2_t5 : Fin k2_t5_loop.trips) : Fin 2 → Nat :=
  let c2_i32_35 : BitVec 32 := 2#32
  let v46 : Index := Scalar.indexCast c2_i32_35
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v47 : Index := Scalar.indexCast v39
  ![2, v47.toNat]
def k2_off52 (k2_t5 : Fin k2_t5_loop.trips) : Fin 2 → Nat :=
  let c3_i32 : BitVec 32 := 3#32
  let v49 : Index := Scalar.indexCast c3_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v50 : Index := Scalar.indexCast v39
  ![3, v50.toNat]
def k2_off53 (k2_t5 : Fin k2_t5_loop.trips) : Fin 2 → Nat :=
  let c4_i32_36 : BitVec 32 := 4#32
  let v52 : Index := Scalar.indexCast c4_i32_36
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v53 : Index := Scalar.indexCast v39
  ![4, v53.toNat]
def k2_off54 (k2_t5 : Fin k2_t5_loop.trips) : Fin 2 → Nat :=
  let c5_i32 : BitVec 32 := 5#32
  let v55 : Index := Scalar.indexCast c5_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v56 : Index := Scalar.indexCast v39
  ![5, v56.toNat]
def k2_off55 (k2_t5 : Fin k2_t5_loop.trips) : Fin 2 → Nat :=
  let c6_i32 : BitVec 32 := 6#32
  let v58 : Index := Scalar.indexCast c6_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v59 : Index := Scalar.indexCast v39
  ![6, v59.toNat]
def k2_off56 (k2_t5 : Fin k2_t5_loop.trips) : Fin 2 → Nat :=
  let c7_i32 : BitVec 32 := 7#32
  let v61 : Index := Scalar.indexCast c7_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v62 : Index := Scalar.indexCast v39
  ![7, v62.toNat]
def k2_off57 (k2_t5 : Fin k2_t5_loop.trips) : Fin 2 → Nat :=
  let c8_i32 : BitVec 32 := 8#32
  let v64 : Index := Scalar.indexCast c8_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v65 : Index := Scalar.indexCast v39
  ![8, v65.toNat]
def k2_off58 (k2_t5 : Fin k2_t5_loop.trips) : Fin 2 → Nat :=
  let c9_i32 : BitVec 32 := 9#32
  let v67 : Index := Scalar.indexCast c9_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v68 : Index := Scalar.indexCast v39
  ![9, v68.toNat]
def k2_off59 (k2_t5 : Fin k2_t5_loop.trips) : Fin 2 → Nat :=
  let c10_i32 : BitVec 32 := 10#32
  let v70 : Index := Scalar.indexCast c10_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v71 : Index := Scalar.indexCast v39
  ![10, v71.toNat]
def k2_off60 (k2_t5 : Fin k2_t5_loop.trips) : Fin 2 → Nat :=
  let c11_i32 : BitVec 32 := 11#32
  let v73 : Index := Scalar.indexCast c11_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v74 : Index := Scalar.indexCast v39
  ![11, v74.toNat]
def k2_off61 (k2_t5 : Fin k2_t5_loop.trips) : Fin 2 → Nat :=
  let c12_i32 : BitVec 32 := 12#32
  let v76 : Index := Scalar.indexCast c12_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v77 : Index := Scalar.indexCast v39
  ![12, v77.toNat]
def k2_off62 (k2_t5 : Fin k2_t5_loop.trips) : Fin 2 → Nat :=
  let c13_i32 : BitVec 32 := 13#32
  let v79 : Index := Scalar.indexCast c13_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v80 : Index := Scalar.indexCast v39
  ![13, v80.toNat]
def k2_off63 (k2_t5 : Fin k2_t5_loop.trips) : Fin 2 → Nat :=
  let c14_i32 : BitVec 32 := 14#32
  let v82 : Index := Scalar.indexCast c14_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v83 : Index := Scalar.indexCast v39
  ![14, v83.toNat]
def k2_off64 (k2_t5 : Fin k2_t5_loop.trips) : Fin 2 → Nat :=
  let c15_i32 : BitVec 32 := 15#32
  let v85 : Index := Scalar.indexCast c15_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v86 : Index := Scalar.indexCast v39
  ![15, v86.toNat]
def k2_off65 (k2_t5 : Fin k2_t5_loop.trips) : Fin 2 → Nat :=
  let c16_i32_37 : BitVec 32 := 16#32
  let v88 : Index := Scalar.indexCast c16_i32_37
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v89 : Index := Scalar.indexCast v39
  ![16, v89.toNat]
def k2_off66 (k2_t5 : Fin k2_t5_loop.trips) : Fin 2 → Nat :=
  let c17_i32 : BitVec 32 := 17#32
  let v91 : Index := Scalar.indexCast c17_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v92 : Index := Scalar.indexCast v39
  ![17, v92.toNat]
def k2_off67 (k2_t5 : Fin k2_t5_loop.trips) : Fin 2 → Nat :=
  let c18_i32 : BitVec 32 := 18#32
  let v94 : Index := Scalar.indexCast c18_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v95 : Index := Scalar.indexCast v39
  ![18, v95.toNat]
def k2_off68 (k2_t5 : Fin k2_t5_loop.trips) : Fin 2 → Nat :=
  let c19_i32 : BitVec 32 := 19#32
  let v97 : Index := Scalar.indexCast c19_i32
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v98 : Index := Scalar.indexCast v39
  ![19, v98.toNat]
@[reducible] def k2_t6_loop : Scf.Loop 32 :=
  let c0_i32_39 : BitVec 32 := 0#32
  let c4_i32_40 : BitVec 32 := 4#32
  let v100 : BitVec 32 := Scalar.addi c0_i32_39 c4_i32_40
  let c1_i32_41 : BitVec 32 := 1#32
  ⟨c0_i32_39, v100, c1_i32_41⟩

def k2_chk161 (v105 : IVec S16 32) : Prop :=
  (∀ a x, ((![v105] : Fin 1 → IVec S16 32) a x).toNat < S65536.size a)
instance k2_chk161.dec : ∀ (v105 : IVec S16 32), Decidable (k2_chk161 v105) := fun v105 => decidable_of_iff' _ (Iff.of_eq (k2_chk161.eq_1 v105))
theorem k2_idx161_inb : ∀ (v105 : IVec S16 32) (k2_hw161 : k2_chk161 v105), ∀ a x, ((![v105] : Fin 1 → IVec S16 32) a x).toNat < S65536.size a := fun v105 k2_hw161 => k2_hw161

def k2_chk162 (v112 : IVec S16 32) : Prop :=
  (∀ a x, ((![v112] : Fin 1 → IVec S16 32) a x).toNat < S65536.size a)
instance k2_chk162.dec : ∀ (v112 : IVec S16 32), Decidable (k2_chk162 v112) := fun v112 => decidable_of_iff' _ (Iff.of_eq (k2_chk162.eq_1 v112))
theorem k2_idx162_inb : ∀ (v112 : IVec S16 32) (k2_hw162 : k2_chk162 v112), ∀ a x, ((![v112] : Fin 1 → IVec S16 32) a x).toNat < S65536.size a := fun v112 k2_hw162 => k2_hw162

def k2_chk163 (v119 : IVec S16 32) : Prop :=
  (∀ a x, ((![v119] : Fin 1 → IVec S16 32) a x).toNat < S65536.size a)
instance k2_chk163.dec : ∀ (v119 : IVec S16 32), Decidable (k2_chk163 v119) := fun v119 => decidable_of_iff' _ (Iff.of_eq (k2_chk163.eq_1 v119))
theorem k2_idx163_inb : ∀ (v119 : IVec S16 32) (k2_hw163 : k2_chk163 v119), ∀ a x, ((![v119] : Fin 1 → IVec S16 32) a x).toNat < S65536.size a := fun v119 k2_hw163 => k2_hw163

def k2_chk164 (v126 : IVec S16 32) : Prop :=
  (∀ a x, ((![v126] : Fin 1 → IVec S16 32) a x).toNat < S65536.size a)
instance k2_chk164.dec : ∀ (v126 : IVec S16 32), Decidable (k2_chk164 v126) := fun v126 => decidable_of_iff' _ (Iff.of_eq (k2_chk164.eq_1 v126))
theorem k2_idx164_inb : ∀ (v126 : IVec S16 32) (k2_hw164 : k2_chk164 v126), ∀ a x, ((![v126] : Fin 1 → IVec S16 32) a x).toNat < S65536.size a := fun v126 k2_hw164 => k2_hw164

def k2_chk165 (v133 : IVec S16 32) : Prop :=
  (∀ a x, ((![v133] : Fin 1 → IVec S16 32) a x).toNat < S65536.size a)
instance k2_chk165.dec : ∀ (v133 : IVec S16 32), Decidable (k2_chk165 v133) := fun v133 => decidable_of_iff' _ (Iff.of_eq (k2_chk165.eq_1 v133))
theorem k2_idx165_inb : ∀ (v133 : IVec S16 32) (k2_hw165 : k2_chk165 v133), ∀ a x, ((![v133] : Fin 1 → IVec S16 32) a x).toNat < S65536.size a := fun v133 k2_hw165 => k2_hw165

def k2_chk166 (v140 : IVec S16 32) : Prop :=
  (∀ a x, ((![v140] : Fin 1 → IVec S16 32) a x).toNat < S65536.size a)
instance k2_chk166.dec : ∀ (v140 : IVec S16 32), Decidable (k2_chk166 v140) := fun v140 => decidable_of_iff' _ (Iff.of_eq (k2_chk166.eq_1 v140))
theorem k2_idx166_inb : ∀ (v140 : IVec S16 32) (k2_hw166 : k2_chk166 v140), ∀ a x, ((![v140] : Fin 1 → IVec S16 32) a x).toNat < S65536.size a := fun v140 k2_hw166 => k2_hw166

def k2_chk167 (v147 : IVec S16 32) : Prop :=
  (∀ a x, ((![v147] : Fin 1 → IVec S16 32) a x).toNat < S65536.size a)
instance k2_chk167.dec : ∀ (v147 : IVec S16 32), Decidable (k2_chk167 v147) := fun v147 => decidable_of_iff' _ (Iff.of_eq (k2_chk167.eq_1 v147))
theorem k2_idx167_inb : ∀ (v147 : IVec S16 32) (k2_hw167 : k2_chk167 v147), ∀ a x, ((![v147] : Fin 1 → IVec S16 32) a x).toNat < S65536.size a := fun v147 k2_hw167 => k2_hw167

def k2_chk168 (v154 : IVec S16 32) : Prop :=
  (∀ a x, ((![v154] : Fin 1 → IVec S16 32) a x).toNat < S65536.size a)
instance k2_chk168.dec : ∀ (v154 : IVec S16 32), Decidable (k2_chk168 v154) := fun v154 => decidable_of_iff' _ (Iff.of_eq (k2_chk168.eq_1 v154))
theorem k2_idx168_inb : ∀ (v154 : IVec S16 32) (k2_hw168 : k2_chk168 v154), ∀ a x, ((![v154] : Fin 1 → IVec S16 32) a x).toNat < S65536.size a := fun v154 k2_hw168 => k2_hw168

def k2_chk169 (v161 : IVec S16 32) : Prop :=
  (∀ a x, ((![v161] : Fin 1 → IVec S16 32) a x).toNat < S65536.size a)
instance k2_chk169.dec : ∀ (v161 : IVec S16 32), Decidable (k2_chk169 v161) := fun v161 => decidable_of_iff' _ (Iff.of_eq (k2_chk169.eq_1 v161))
theorem k2_idx169_inb : ∀ (v161 : IVec S16 32) (k2_hw169 : k2_chk169 v161), ∀ a x, ((![v161] : Fin 1 → IVec S16 32) a x).toNat < S65536.size a := fun v161 k2_hw169 => k2_hw169

def k2_chk170 (v168 : IVec S16 32) : Prop :=
  (∀ a x, ((![v168] : Fin 1 → IVec S16 32) a x).toNat < S65536.size a)
instance k2_chk170.dec : ∀ (v168 : IVec S16 32), Decidable (k2_chk170 v168) := fun v168 => decidable_of_iff' _ (Iff.of_eq (k2_chk170.eq_1 v168))
theorem k2_idx170_inb : ∀ (v168 : IVec S16 32) (k2_hw170 : k2_chk170 v168), ∀ a x, ((![v168] : Fin 1 → IVec S16 32) a x).toNat < S65536.size a := fun v168 k2_hw170 => k2_hw170

def k2_chk171 (v175 : IVec S16 32) : Prop :=
  (∀ a x, ((![v175] : Fin 1 → IVec S16 32) a x).toNat < S65536.size a)
instance k2_chk171.dec : ∀ (v175 : IVec S16 32), Decidable (k2_chk171 v175) := fun v175 => decidable_of_iff' _ (Iff.of_eq (k2_chk171.eq_1 v175))
theorem k2_idx171_inb : ∀ (v175 : IVec S16 32) (k2_hw171 : k2_chk171 v175), ∀ a x, ((![v175] : Fin 1 → IVec S16 32) a x).toNat < S65536.size a := fun v175 k2_hw171 => k2_hw171

def k2_chk172 (v182 : IVec S16 32) : Prop :=
  (∀ a x, ((![v182] : Fin 1 → IVec S16 32) a x).toNat < S65536.size a)
instance k2_chk172.dec : ∀ (v182 : IVec S16 32), Decidable (k2_chk172 v182) := fun v182 => decidable_of_iff' _ (Iff.of_eq (k2_chk172.eq_1 v182))
theorem k2_idx172_inb : ∀ (v182 : IVec S16 32) (k2_hw172 : k2_chk172 v182), ∀ a x, ((![v182] : Fin 1 → IVec S16 32) a x).toNat < S65536.size a := fun v182 k2_hw172 => k2_hw172

def k2_chk173 (v189 : IVec S16 32) : Prop :=
  (∀ a x, ((![v189] : Fin 1 → IVec S16 32) a x).toNat < S65536.size a)
instance k2_chk173.dec : ∀ (v189 : IVec S16 32), Decidable (k2_chk173 v189) := fun v189 => decidable_of_iff' _ (Iff.of_eq (k2_chk173.eq_1 v189))
theorem k2_idx173_inb : ∀ (v189 : IVec S16 32) (k2_hw173 : k2_chk173 v189), ∀ a x, ((![v189] : Fin 1 → IVec S16 32) a x).toNat < S65536.size a := fun v189 k2_hw173 => k2_hw173

def k2_chk174 (v196 : IVec S16 32) : Prop :=
  (∀ a x, ((![v196] : Fin 1 → IVec S16 32) a x).toNat < S65536.size a)
instance k2_chk174.dec : ∀ (v196 : IVec S16 32), Decidable (k2_chk174 v196) := fun v196 => decidable_of_iff' _ (Iff.of_eq (k2_chk174.eq_1 v196))
theorem k2_idx174_inb : ∀ (v196 : IVec S16 32) (k2_hw174 : k2_chk174 v196), ∀ a x, ((![v196] : Fin 1 → IVec S16 32) a x).toNat < S65536.size a := fun v196 k2_hw174 => k2_hw174

def k2_chk175 (v203 : IVec S16 32) : Prop :=
  (∀ a x, ((![v203] : Fin 1 → IVec S16 32) a x).toNat < S65536.size a)
instance k2_chk175.dec : ∀ (v203 : IVec S16 32), Decidable (k2_chk175 v203) := fun v203 => decidable_of_iff' _ (Iff.of_eq (k2_chk175.eq_1 v203))
theorem k2_idx175_inb : ∀ (v203 : IVec S16 32) (k2_hw175 : k2_chk175 v203), ∀ a x, ((![v203] : Fin 1 → IVec S16 32) a x).toNat < S65536.size a := fun v203 k2_hw175 => k2_hw175

def k2_chk176 (v210 : IVec S16 32) : Prop :=
  (∀ a x, ((![v210] : Fin 1 → IVec S16 32) a x).toNat < S65536.size a)
instance k2_chk176.dec : ∀ (v210 : IVec S16 32), Decidable (k2_chk176 v210) := fun v210 => decidable_of_iff' _ (Iff.of_eq (k2_chk176.eq_1 v210))
theorem k2_idx176_inb : ∀ (v210 : IVec S16 32) (k2_hw176 : k2_chk176 v210), ∀ a x, ((![v210] : Fin 1 → IVec S16 32) a x).toNat < S65536.size a := fun v210 k2_hw176 => k2_hw176

def k2_chk177 (v217 : IVec S16 32) : Prop :=
  (∀ a x, ((![v217] : Fin 1 → IVec S16 32) a x).toNat < S65536.size a)
instance k2_chk177.dec : ∀ (v217 : IVec S16 32), Decidable (k2_chk177 v217) := fun v217 => decidable_of_iff' _ (Iff.of_eq (k2_chk177.eq_1 v217))
theorem k2_idx177_inb : ∀ (v217 : IVec S16 32) (k2_hw177 : k2_chk177 v217), ∀ a x, ((![v217] : Fin 1 → IVec S16 32) a x).toNat < S65536.size a := fun v217 k2_hw177 => k2_hw177

def k2_chk178 (v224 : IVec S16 32) : Prop :=
  (∀ a x, ((![v224] : Fin 1 → IVec S16 32) a x).toNat < S65536.size a)
instance k2_chk178.dec : ∀ (v224 : IVec S16 32), Decidable (k2_chk178 v224) := fun v224 => decidable_of_iff' _ (Iff.of_eq (k2_chk178.eq_1 v224))
theorem k2_idx178_inb : ∀ (v224 : IVec S16 32) (k2_hw178 : k2_chk178 v224), ∀ a x, ((![v224] : Fin 1 → IVec S16 32) a x).toNat < S65536.size a := fun v224 k2_hw178 => k2_hw178

def k2_chk179 (v231 : IVec S16 32) : Prop :=
  (∀ a x, ((![v231] : Fin 1 → IVec S16 32) a x).toNat < S65536.size a)
instance k2_chk179.dec : ∀ (v231 : IVec S16 32), Decidable (k2_chk179 v231) := fun v231 => decidable_of_iff' _ (Iff.of_eq (k2_chk179.eq_1 v231))
theorem k2_idx179_inb : ∀ (v231 : IVec S16 32) (k2_hw179 : k2_chk179 v231), ∀ a x, ((![v231] : Fin 1 → IVec S16 32) a x).toNat < S65536.size a := fun v231 k2_hw179 => k2_hw179

def k2_chk180 (v238 : IVec S16 32) : Prop :=
  (∀ a x, ((![v238] : Fin 1 → IVec S16 32) a x).toNat < S65536.size a)
instance k2_chk180.dec : ∀ (v238 : IVec S16 32), Decidable (k2_chk180 v238) := fun v238 => decidable_of_iff' _ (Iff.of_eq (k2_chk180.eq_1 v238))
theorem k2_idx180_inb : ∀ (v238 : IVec S16 32) (k2_hw180 : k2_chk180 v238), ∀ a x, ((![v238] : Fin 1 → IVec S16 32) a x).toNat < S65536.size a := fun v238 k2_hw180 => k2_hw180

def k2_chk181 (v245 : IVec S16 32) : Prop :=
  (∀ a x, ((![v245] : Fin 1 → IVec S16 32) a x).toNat < S65536.size a)
instance k2_chk181.dec : ∀ (v245 : IVec S16 32), Decidable (k2_chk181 v245) := fun v245 => decidable_of_iff' _ (Iff.of_eq (k2_chk181.eq_1 v245))
theorem k2_idx181_inb : ∀ (v245 : IVec S16 32) (k2_hw181 : k2_chk181 v245), ∀ a x, ((![v245] : Fin 1 → IVec S16 32) a x).toNat < S65536.size a := fun v245 k2_hw181 => k2_hw181

def k2_chk182 (v252 : IVec S16 32) : Prop :=
  (∀ a x, ((![v252] : Fin 1 → IVec S16 32) a x).toNat < S65536.size a)
instance k2_chk182.dec : ∀ (v252 : IVec S16 32), Decidable (k2_chk182 v252) := fun v252 => decidable_of_iff' _ (Iff.of_eq (k2_chk182.eq_1 v252))
theorem k2_idx182_inb : ∀ (v252 : IVec S16 32) (k2_hw182 : k2_chk182 v252), ∀ a x, ((![v252] : Fin 1 → IVec S16 32) a x).toNat < S65536.size a := fun v252 k2_hw182 => k2_hw182

def k2_chk183 (v259 : IVec S16 32) : Prop :=
  (∀ a x, ((![v259] : Fin 1 → IVec S16 32) a x).toNat < S65536.size a)
instance k2_chk183.dec : ∀ (v259 : IVec S16 32), Decidable (k2_chk183 v259) := fun v259 => decidable_of_iff' _ (Iff.of_eq (k2_chk183.eq_1 v259))
theorem k2_idx183_inb : ∀ (v259 : IVec S16 32) (k2_hw183 : k2_chk183 v259), ∀ a x, ((![v259] : Fin 1 → IVec S16 32) a x).toNat < S65536.size a := fun v259 k2_hw183 => k2_hw183

def k2_chk184 (v266 : IVec S16 32) : Prop :=
  (∀ a x, ((![v266] : Fin 1 → IVec S16 32) a x).toNat < S65536.size a)
instance k2_chk184.dec : ∀ (v266 : IVec S16 32), Decidable (k2_chk184 v266) := fun v266 => decidable_of_iff' _ (Iff.of_eq (k2_chk184.eq_1 v266))
theorem k2_idx184_inb : ∀ (v266 : IVec S16 32) (k2_hw184 : k2_chk184 v266), ∀ a x, ((![v266] : Fin 1 → IVec S16 32) a x).toNat < S65536.size a := fun v266 k2_hw184 => k2_hw184

def k2_chk185 (v273 : IVec S16 32) : Prop :=
  (∀ a x, ((![v273] : Fin 1 → IVec S16 32) a x).toNat < S65536.size a)
instance k2_chk185.dec : ∀ (v273 : IVec S16 32), Decidable (k2_chk185 v273) := fun v273 => decidable_of_iff' _ (Iff.of_eq (k2_chk185.eq_1 v273))
theorem k2_idx185_inb : ∀ (v273 : IVec S16 32) (k2_hw185 : k2_chk185 v273), ∀ a x, ((![v273] : Fin 1 → IVec S16 32) a x).toNat < S65536.size a := fun v273 k2_hw185 => k2_hw185

def k2_chk186 (v280 : IVec S16 32) : Prop :=
  (∀ a x, ((![v280] : Fin 1 → IVec S16 32) a x).toNat < S65536.size a)
instance k2_chk186.dec : ∀ (v280 : IVec S16 32), Decidable (k2_chk186 v280) := fun v280 => decidable_of_iff' _ (Iff.of_eq (k2_chk186.eq_1 v280))
theorem k2_idx186_inb : ∀ (v280 : IVec S16 32) (k2_hw186 : k2_chk186 v280), ∀ a x, ((![v280] : Fin 1 → IVec S16 32) a x).toNat < S65536.size a := fun v280 k2_hw186 => k2_hw186

def k2_chk187 (v287 : IVec S16 32) : Prop :=
  (∀ a x, ((![v287] : Fin 1 → IVec S16 32) a x).toNat < S65536.size a)
instance k2_chk187.dec : ∀ (v287 : IVec S16 32), Decidable (k2_chk187 v287) := fun v287 => decidable_of_iff' _ (Iff.of_eq (k2_chk187.eq_1 v287))
theorem k2_idx187_inb : ∀ (v287 : IVec S16 32) (k2_hw187 : k2_chk187 v287), ∀ a x, ((![v287] : Fin 1 → IVec S16 32) a x).toNat < S65536.size a := fun v287 k2_hw187 => k2_hw187

def k2_chk188 (v294 : IVec S16 32) : Prop :=
  (∀ a x, ((![v294] : Fin 1 → IVec S16 32) a x).toNat < S65536.size a)
instance k2_chk188.dec : ∀ (v294 : IVec S16 32), Decidable (k2_chk188 v294) := fun v294 => decidable_of_iff' _ (Iff.of_eq (k2_chk188.eq_1 v294))
theorem k2_idx188_inb : ∀ (v294 : IVec S16 32) (k2_hw188 : k2_chk188 v294), ∀ a x, ((![v294] : Fin 1 → IVec S16 32) a x).toNat < S65536.size a := fun v294 k2_hw188 => k2_hw188

def k2_chk189 (v301 : IVec S16 32) : Prop :=
  (∀ a x, ((![v301] : Fin 1 → IVec S16 32) a x).toNat < S65536.size a)
instance k2_chk189.dec : ∀ (v301 : IVec S16 32), Decidable (k2_chk189 v301) := fun v301 => decidable_of_iff' _ (Iff.of_eq (k2_chk189.eq_1 v301))
theorem k2_idx189_inb : ∀ (v301 : IVec S16 32) (k2_hw189 : k2_chk189 v301), ∀ a x, ((![v301] : Fin 1 → IVec S16 32) a x).toNat < S65536.size a := fun v301 k2_hw189 => k2_hw189

def k2_chk190 (v308 : IVec S16 32) : Prop :=
  (∀ a x, ((![v308] : Fin 1 → IVec S16 32) a x).toNat < S65536.size a)
instance k2_chk190.dec : ∀ (v308 : IVec S16 32), Decidable (k2_chk190 v308) := fun v308 => decidable_of_iff' _ (Iff.of_eq (k2_chk190.eq_1 v308))
theorem k2_idx190_inb : ∀ (v308 : IVec S16 32) (k2_hw190 : k2_chk190 v308), ∀ a x, ((![v308] : Fin 1 → IVec S16 32) a x).toNat < S65536.size a := fun v308 k2_hw190 => k2_hw190

def k2_chk191 (v315 : IVec S16 32) : Prop :=
  (∀ a x, ((![v315] : Fin 1 → IVec S16 32) a x).toNat < S65536.size a)
instance k2_chk191.dec : ∀ (v315 : IVec S16 32), Decidable (k2_chk191 v315) := fun v315 => decidable_of_iff' _ (Iff.of_eq (k2_chk191.eq_1 v315))
theorem k2_idx191_inb : ∀ (v315 : IVec S16 32) (k2_hw191 : k2_chk191 v315), ∀ a x, ((![v315] : Fin 1 → IVec S16 32) a x).toNat < S65536.size a := fun v315 k2_hw191 => k2_hw191

def k2_chk192 (v322 : IVec S16 32) : Prop :=
  (∀ a x, ((![v322] : Fin 1 → IVec S16 32) a x).toNat < S65536.size a)
instance k2_chk192.dec : ∀ (v322 : IVec S16 32), Decidable (k2_chk192 v322) := fun v322 => decidable_of_iff' _ (Iff.of_eq (k2_chk192.eq_1 v322))
theorem k2_idx192_inb : ∀ (v322 : IVec S16 32) (k2_hw192 : k2_chk192 v322), ∀ a x, ((![v322] : Fin 1 → IVec S16 32) a x).toNat < S65536.size a := fun v322 k2_hw192 => k2_hw192

def k2_chk193 (v329 : IVec S16 32) : Prop :=
  (∀ a x, ((![v329] : Fin 1 → IVec S16 32) a x).toNat < S65536.size a)
instance k2_chk193.dec : ∀ (v329 : IVec S16 32), Decidable (k2_chk193 v329) := fun v329 => decidable_of_iff' _ (Iff.of_eq (k2_chk193.eq_1 v329))
theorem k2_idx193_inb : ∀ (v329 : IVec S16 32) (k2_hw193 : k2_chk193 v329), ∀ a x, ((![v329] : Fin 1 → IVec S16 32) a x).toNat < S65536.size a := fun v329 k2_hw193 => k2_hw193

def k2_chk194 (v336 : IVec S16 32) : Prop :=
  (∀ a x, ((![v336] : Fin 1 → IVec S16 32) a x).toNat < S65536.size a)
instance k2_chk194.dec : ∀ (v336 : IVec S16 32), Decidable (k2_chk194 v336) := fun v336 => decidable_of_iff' _ (Iff.of_eq (k2_chk194.eq_1 v336))
theorem k2_idx194_inb : ∀ (v336 : IVec S16 32) (k2_hw194 : k2_chk194 v336), ∀ a x, ((![v336] : Fin 1 → IVec S16 32) a x).toNat < S65536.size a := fun v336 k2_hw194 => k2_hw194

def k2_chk195 (v343 : IVec S16 32) : Prop :=
  (∀ a x, ((![v343] : Fin 1 → IVec S16 32) a x).toNat < S65536.size a)
instance k2_chk195.dec : ∀ (v343 : IVec S16 32), Decidable (k2_chk195 v343) := fun v343 => decidable_of_iff' _ (Iff.of_eq (k2_chk195.eq_1 v343))
theorem k2_idx195_inb : ∀ (v343 : IVec S16 32) (k2_hw195 : k2_chk195 v343), ∀ a x, ((![v343] : Fin 1 → IVec S16 32) a x).toNat < S65536.size a := fun v343 k2_hw195 => k2_hw195

def k2_chk196 (v350 : IVec S16 32) : Prop :=
  (∀ a x, ((![v350] : Fin 1 → IVec S16 32) a x).toNat < S65536.size a)
instance k2_chk196.dec : ∀ (v350 : IVec S16 32), Decidable (k2_chk196 v350) := fun v350 => decidable_of_iff' _ (Iff.of_eq (k2_chk196.eq_1 v350))
theorem k2_idx196_inb : ∀ (v350 : IVec S16 32) (k2_hw196 : k2_chk196 v350), ∀ a x, ((![v350] : Fin 1 → IVec S16 32) a x).toNat < S65536.size a := fun v350 k2_hw196 => k2_hw196

def k2_chk197 (v357 : IVec S16 32) : Prop :=
  (∀ a x, ((![v357] : Fin 1 → IVec S16 32) a x).toNat < S65536.size a)
instance k2_chk197.dec : ∀ (v357 : IVec S16 32), Decidable (k2_chk197 v357) := fun v357 => decidable_of_iff' _ (Iff.of_eq (k2_chk197.eq_1 v357))
theorem k2_idx197_inb : ∀ (v357 : IVec S16 32) (k2_hw197 : k2_chk197 v357), ∀ a x, ((![v357] : Fin 1 → IVec S16 32) a x).toNat < S65536.size a := fun v357 k2_hw197 => k2_hw197

def k2_chk198 (v364 : IVec S16 32) : Prop :=
  (∀ a x, ((![v364] : Fin 1 → IVec S16 32) a x).toNat < S65536.size a)
instance k2_chk198.dec : ∀ (v364 : IVec S16 32), Decidable (k2_chk198 v364) := fun v364 => decidable_of_iff' _ (Iff.of_eq (k2_chk198.eq_1 v364))
theorem k2_idx198_inb : ∀ (v364 : IVec S16 32) (k2_hw198 : k2_chk198 v364), ∀ a x, ((![v364] : Fin 1 → IVec S16 32) a x).toNat < S65536.size a := fun v364 k2_hw198 => k2_hw198

def k2_chk199 (v371 : IVec S16 32) : Prop :=
  (∀ a x, ((![v371] : Fin 1 → IVec S16 32) a x).toNat < S65536.size a)
instance k2_chk199.dec : ∀ (v371 : IVec S16 32), Decidable (k2_chk199 v371) := fun v371 => decidable_of_iff' _ (Iff.of_eq (k2_chk199.eq_1 v371))
theorem k2_idx199_inb : ∀ (v371 : IVec S16 32) (k2_hw199 : k2_chk199 v371), ∀ a x, ((![v371] : Fin 1 → IVec S16 32) a x).toNat < S65536.size a := fun v371 k2_hw199 => k2_hw199

def k2_chk200 (v378 : IVec S16 32) : Prop :=
  (∀ a x, ((![v378] : Fin 1 → IVec S16 32) a x).toNat < S65536.size a)
instance k2_chk200.dec : ∀ (v378 : IVec S16 32), Decidable (k2_chk200 v378) := fun v378 => decidable_of_iff' _ (Iff.of_eq (k2_chk200.eq_1 v378))
theorem k2_idx200_inb : ∀ (v378 : IVec S16 32) (k2_hw200 : k2_chk200 v378), ∀ a x, ((![v378] : Fin 1 → IVec S16 32) a x).toNat < S65536.size a := fun v378 k2_hw200 => k2_hw200

def k2_chk201 (v385 : IVec S16 32) : Prop :=
  (∀ a x, ((![v385] : Fin 1 → IVec S16 32) a x).toNat < S65536.size a)
instance k2_chk201.dec : ∀ (v385 : IVec S16 32), Decidable (k2_chk201 v385) := fun v385 => decidable_of_iff' _ (Iff.of_eq (k2_chk201.eq_1 v385))
theorem k2_idx201_inb : ∀ (v385 : IVec S16 32) (k2_hw201 : k2_chk201 v385), ∀ a x, ((![v385] : Fin 1 → IVec S16 32) a x).toNat < S65536.size a := fun v385 k2_hw201 => k2_hw201

def k2_chk202 (v392 : IVec S16 32) : Prop :=
  (∀ a x, ((![v392] : Fin 1 → IVec S16 32) a x).toNat < S65536.size a)
instance k2_chk202.dec : ∀ (v392 : IVec S16 32), Decidable (k2_chk202 v392) := fun v392 => decidable_of_iff' _ (Iff.of_eq (k2_chk202.eq_1 v392))
theorem k2_idx202_inb : ∀ (v392 : IVec S16 32) (k2_hw202 : k2_chk202 v392), ∀ a x, ((![v392] : Fin 1 → IVec S16 32) a x).toNat < S65536.size a := fun v392 k2_hw202 => k2_hw202

def k2_chk203 (v399 : IVec S16 32) : Prop :=
  (∀ a x, ((![v399] : Fin 1 → IVec S16 32) a x).toNat < S65536.size a)
instance k2_chk203.dec : ∀ (v399 : IVec S16 32), Decidable (k2_chk203 v399) := fun v399 => decidable_of_iff' _ (Iff.of_eq (k2_chk203.eq_1 v399))
theorem k2_idx203_inb : ∀ (v399 : IVec S16 32) (k2_hw203 : k2_chk203 v399), ∀ a x, ((![v399] : Fin 1 → IVec S16 32) a x).toNat < S65536.size a := fun v399 k2_hw203 => k2_hw203

def k2_chk204 (v406 : IVec S16 32) : Prop :=
  (∀ a x, ((![v406] : Fin 1 → IVec S16 32) a x).toNat < S65536.size a)
instance k2_chk204.dec : ∀ (v406 : IVec S16 32), Decidable (k2_chk204 v406) := fun v406 => decidable_of_iff' _ (Iff.of_eq (k2_chk204.eq_1 v406))
theorem k2_idx204_inb : ∀ (v406 : IVec S16 32) (k2_hw204 : k2_chk204 v406), ∀ a x, ((![v406] : Fin 1 → IVec S16 32) a x).toNat < S65536.size a := fun v406 k2_hw204 => k2_hw204

def k2_chk205 (v413 : IVec S16 32) : Prop :=
  (∀ a x, ((![v413] : Fin 1 → IVec S16 32) a x).toNat < S65536.size a)
instance k2_chk205.dec : ∀ (v413 : IVec S16 32), Decidable (k2_chk205 v413) := fun v413 => decidable_of_iff' _ (Iff.of_eq (k2_chk205.eq_1 v413))
theorem k2_idx205_inb : ∀ (v413 : IVec S16 32) (k2_hw205 : k2_chk205 v413), ∀ a x, ((![v413] : Fin 1 → IVec S16 32) a x).toNat < S65536.size a := fun v413 k2_hw205 => k2_hw205

def k2_chk206 (v420 : IVec S16 32) : Prop :=
  (∀ a x, ((![v420] : Fin 1 → IVec S16 32) a x).toNat < S65536.size a)
instance k2_chk206.dec : ∀ (v420 : IVec S16 32), Decidable (k2_chk206 v420) := fun v420 => decidable_of_iff' _ (Iff.of_eq (k2_chk206.eq_1 v420))
theorem k2_idx206_inb : ∀ (v420 : IVec S16 32) (k2_hw206 : k2_chk206 v420), ∀ a x, ((![v420] : Fin 1 → IVec S16 32) a x).toNat < S65536.size a := fun v420 k2_hw206 => k2_hw206

def k2_chk207 (v427 : IVec S16 32) : Prop :=
  (∀ a x, ((![v427] : Fin 1 → IVec S16 32) a x).toNat < S65536.size a)
instance k2_chk207.dec : ∀ (v427 : IVec S16 32), Decidable (k2_chk207 v427) := fun v427 => decidable_of_iff' _ (Iff.of_eq (k2_chk207.eq_1 v427))
theorem k2_idx207_inb : ∀ (v427 : IVec S16 32) (k2_hw207 : k2_chk207 v427), ∀ a x, ((![v427] : Fin 1 → IVec S16 32) a x).toNat < S65536.size a := fun v427 k2_hw207 => k2_hw207

def k2_chk208 (v434 : IVec S16 32) : Prop :=
  (∀ a x, ((![v434] : Fin 1 → IVec S16 32) a x).toNat < S65536.size a)
instance k2_chk208.dec : ∀ (v434 : IVec S16 32), Decidable (k2_chk208 v434) := fun v434 => decidable_of_iff' _ (Iff.of_eq (k2_chk208.eq_1 v434))
theorem k2_idx208_inb : ∀ (v434 : IVec S16 32) (k2_hw208 : k2_chk208 v434), ∀ a x, ((![v434] : Fin 1 → IVec S16 32) a x).toNat < S65536.size a := fun v434 k2_hw208 => k2_hw208

def k2_chk209 (v441 : IVec S16 32) : Prop :=
  (∀ a x, ((![v441] : Fin 1 → IVec S16 32) a x).toNat < S65536.size a)
instance k2_chk209.dec : ∀ (v441 : IVec S16 32), Decidable (k2_chk209 v441) := fun v441 => decidable_of_iff' _ (Iff.of_eq (k2_chk209.eq_1 v441))
theorem k2_idx209_inb : ∀ (v441 : IVec S16 32) (k2_hw209 : k2_chk209 v441), ∀ a x, ((![v441] : Fin 1 → IVec S16 32) a x).toNat < S65536.size a := fun v441 k2_hw209 => k2_hw209

def k2_chk210 (v448 : IVec S16 32) : Prop :=
  (∀ a x, ((![v448] : Fin 1 → IVec S16 32) a x).toNat < S65536.size a)
instance k2_chk210.dec : ∀ (v448 : IVec S16 32), Decidable (k2_chk210 v448) := fun v448 => decidable_of_iff' _ (Iff.of_eq (k2_chk210.eq_1 v448))
theorem k2_idx210_inb : ∀ (v448 : IVec S16 32) (k2_hw210 : k2_chk210 v448), ∀ a x, ((![v448] : Fin 1 → IVec S16 32) a x).toNat < S65536.size a := fun v448 k2_hw210 => k2_hw210

def k2_chk211 (v455 : IVec S16 32) : Prop :=
  (∀ a x, ((![v455] : Fin 1 → IVec S16 32) a x).toNat < S65536.size a)
instance k2_chk211.dec : ∀ (v455 : IVec S16 32), Decidable (k2_chk211 v455) := fun v455 => decidable_of_iff' _ (Iff.of_eq (k2_chk211.eq_1 v455))
theorem k2_idx211_inb : ∀ (v455 : IVec S16 32) (k2_hw211 : k2_chk211 v455), ∀ a x, ((![v455] : Fin 1 → IVec S16 32) a x).toNat < S65536.size a := fun v455 k2_hw211 => k2_hw211

def k2_chk212 (v462 : IVec S16 32) : Prop :=
  (∀ a x, ((![v462] : Fin 1 → IVec S16 32) a x).toNat < S65536.size a)
instance k2_chk212.dec : ∀ (v462 : IVec S16 32), Decidable (k2_chk212 v462) := fun v462 => decidable_of_iff' _ (Iff.of_eq (k2_chk212.eq_1 v462))
theorem k2_idx212_inb : ∀ (v462 : IVec S16 32) (k2_hw212 : k2_chk212 v462), ∀ a x, ((![v462] : Fin 1 → IVec S16 32) a x).toNat < S65536.size a := fun v462 k2_hw212 => k2_hw212

def k2_chk213 (v469 : IVec S16 32) : Prop :=
  (∀ a x, ((![v469] : Fin 1 → IVec S16 32) a x).toNat < S65536.size a)
instance k2_chk213.dec : ∀ (v469 : IVec S16 32), Decidable (k2_chk213 v469) := fun v469 => decidable_of_iff' _ (Iff.of_eq (k2_chk213.eq_1 v469))
theorem k2_idx213_inb : ∀ (v469 : IVec S16 32) (k2_hw213 : k2_chk213 v469), ∀ a x, ((![v469] : Fin 1 → IVec S16 32) a x).toNat < S65536.size a := fun v469 k2_hw213 => k2_hw213

def k2_chk214 (v476 : IVec S16 32) : Prop :=
  (∀ a x, ((![v476] : Fin 1 → IVec S16 32) a x).toNat < S65536.size a)
instance k2_chk214.dec : ∀ (v476 : IVec S16 32), Decidable (k2_chk214 v476) := fun v476 => decidable_of_iff' _ (Iff.of_eq (k2_chk214.eq_1 v476))
theorem k2_idx214_inb : ∀ (v476 : IVec S16 32) (k2_hw214 : k2_chk214 v476), ∀ a x, ((![v476] : Fin 1 → IVec S16 32) a x).toNat < S65536.size a := fun v476 k2_hw214 => k2_hw214

def k2_chk215 (v483 : IVec S16 32) : Prop :=
  (∀ a x, ((![v483] : Fin 1 → IVec S16 32) a x).toNat < S65536.size a)
instance k2_chk215.dec : ∀ (v483 : IVec S16 32), Decidable (k2_chk215 v483) := fun v483 => decidable_of_iff' _ (Iff.of_eq (k2_chk215.eq_1 v483))
theorem k2_idx215_inb : ∀ (v483 : IVec S16 32) (k2_hw215 : k2_chk215 v483), ∀ a x, ((![v483] : Fin 1 → IVec S16 32) a x).toNat < S65536.size a := fun v483 k2_hw215 => k2_hw215

def k2_chk216 (v490 : IVec S16 32) : Prop :=
  (∀ a x, ((![v490] : Fin 1 → IVec S16 32) a x).toNat < S65536.size a)
instance k2_chk216.dec : ∀ (v490 : IVec S16 32), Decidable (k2_chk216 v490) := fun v490 => decidable_of_iff' _ (Iff.of_eq (k2_chk216.eq_1 v490))
theorem k2_idx216_inb : ∀ (v490 : IVec S16 32) (k2_hw216 : k2_chk216 v490), ∀ a x, ((![v490] : Fin 1 → IVec S16 32) a x).toNat < S65536.size a := fun v490 k2_hw216 => k2_hw216

def k2_chk217 (v497 : IVec S16 32) : Prop :=
  (∀ a x, ((![v497] : Fin 1 → IVec S16 32) a x).toNat < S65536.size a)
instance k2_chk217.dec : ∀ (v497 : IVec S16 32), Decidable (k2_chk217 v497) := fun v497 => decidable_of_iff' _ (Iff.of_eq (k2_chk217.eq_1 v497))
theorem k2_idx217_inb : ∀ (v497 : IVec S16 32) (k2_hw217 : k2_chk217 v497), ∀ a x, ((![v497] : Fin 1 → IVec S16 32) a x).toNat < S65536.size a := fun v497 k2_hw217 => k2_hw217

def k2_chk218 (v504 : IVec S16 32) : Prop :=
  (∀ a x, ((![v504] : Fin 1 → IVec S16 32) a x).toNat < S65536.size a)
instance k2_chk218.dec : ∀ (v504 : IVec S16 32), Decidable (k2_chk218 v504) := fun v504 => decidable_of_iff' _ (Iff.of_eq (k2_chk218.eq_1 v504))
theorem k2_idx218_inb : ∀ (v504 : IVec S16 32) (k2_hw218 : k2_chk218 v504), ∀ a x, ((![v504] : Fin 1 → IVec S16 32) a x).toNat < S65536.size a := fun v504 k2_hw218 => k2_hw218

def k2_chk219 (v511 : IVec S16 32) : Prop :=
  (∀ a x, ((![v511] : Fin 1 → IVec S16 32) a x).toNat < S65536.size a)
instance k2_chk219.dec : ∀ (v511 : IVec S16 32), Decidable (k2_chk219 v511) := fun v511 => decidable_of_iff' _ (Iff.of_eq (k2_chk219.eq_1 v511))
theorem k2_idx219_inb : ∀ (v511 : IVec S16 32) (k2_hw219 : k2_chk219 v511), ∀ a x, ((![v511] : Fin 1 → IVec S16 32) a x).toNat < S65536.size a := fun v511 k2_hw219 => k2_hw219

def k2_chk220 (v518 : IVec S16 32) : Prop :=
  (∀ a x, ((![v518] : Fin 1 → IVec S16 32) a x).toNat < S65536.size a)
instance k2_chk220.dec : ∀ (v518 : IVec S16 32), Decidable (k2_chk220 v518) := fun v518 => decidable_of_iff' _ (Iff.of_eq (k2_chk220.eq_1 v518))
theorem k2_idx220_inb : ∀ (v518 : IVec S16 32) (k2_hw220 : k2_chk220 v518), ∀ a x, ((![v518] : Fin 1 → IVec S16 32) a x).toNat < S65536.size a := fun v518 k2_hw220 => k2_hw220

def k2_chk221 (v525 : IVec S16 32) : Prop :=
  (∀ a x, ((![v525] : Fin 1 → IVec S16 32) a x).toNat < S65536.size a)
instance k2_chk221.dec : ∀ (v525 : IVec S16 32), Decidable (k2_chk221 v525) := fun v525 => decidable_of_iff' _ (Iff.of_eq (k2_chk221.eq_1 v525))
theorem k2_idx221_inb : ∀ (v525 : IVec S16 32) (k2_hw221 : k2_chk221 v525), ∀ a x, ((![v525] : Fin 1 → IVec S16 32) a x).toNat < S65536.size a := fun v525 k2_hw221 => k2_hw221

def k2_chk222 (v532 : IVec S16 32) : Prop :=
  (∀ a x, ((![v532] : Fin 1 → IVec S16 32) a x).toNat < S65536.size a)
instance k2_chk222.dec : ∀ (v532 : IVec S16 32), Decidable (k2_chk222 v532) := fun v532 => decidable_of_iff' _ (Iff.of_eq (k2_chk222.eq_1 v532))
theorem k2_idx222_inb : ∀ (v532 : IVec S16 32) (k2_hw222 : k2_chk222 v532), ∀ a x, ((![v532] : Fin 1 → IVec S16 32) a x).toNat < S65536.size a := fun v532 k2_hw222 => k2_hw222

def k2_chk223 (v539 : IVec S16 32) : Prop :=
  (∀ a x, ((![v539] : Fin 1 → IVec S16 32) a x).toNat < S65536.size a)
instance k2_chk223.dec : ∀ (v539 : IVec S16 32), Decidable (k2_chk223 v539) := fun v539 => decidable_of_iff' _ (Iff.of_eq (k2_chk223.eq_1 v539))
theorem k2_idx223_inb : ∀ (v539 : IVec S16 32) (k2_hw223 : k2_chk223 v539), ∀ a x, ((![v539] : Fin 1 → IVec S16 32) a x).toNat < S65536.size a := fun v539 k2_hw223 => k2_hw223

def k2_chk224 (v546 : IVec S16 32) : Prop :=
  (∀ a x, ((![v546] : Fin 1 → IVec S16 32) a x).toNat < S65536.size a)
instance k2_chk224.dec : ∀ (v546 : IVec S16 32), Decidable (k2_chk224 v546) := fun v546 => decidable_of_iff' _ (Iff.of_eq (k2_chk224.eq_1 v546))
theorem k2_idx224_inb : ∀ (v546 : IVec S16 32) (k2_hw224 : k2_chk224 v546), ∀ a x, ((![v546] : Fin 1 → IVec S16 32) a x).toNat < S65536.size a := fun v546 k2_hw224 => k2_hw224

def k2_chk225 (v553 : IVec S16 32) : Prop :=
  (∀ a x, ((![v553] : Fin 1 → IVec S16 32) a x).toNat < S65536.size a)
instance k2_chk225.dec : ∀ (v553 : IVec S16 32), Decidable (k2_chk225 v553) := fun v553 => decidable_of_iff' _ (Iff.of_eq (k2_chk225.eq_1 v553))
theorem k2_idx225_inb : ∀ (v553 : IVec S16 32) (k2_hw225 : k2_chk225 v553), ∀ a x, ((![v553] : Fin 1 → IVec S16 32) a x).toNat < S65536.size a := fun v553 k2_hw225 => k2_hw225

def k2_chk226 (v560 : IVec S16 32) : Prop :=
  (∀ a x, ((![v560] : Fin 1 → IVec S16 32) a x).toNat < S65536.size a)
instance k2_chk226.dec : ∀ (v560 : IVec S16 32), Decidable (k2_chk226 v560) := fun v560 => decidable_of_iff' _ (Iff.of_eq (k2_chk226.eq_1 v560))
theorem k2_idx226_inb : ∀ (v560 : IVec S16 32) (k2_hw226 : k2_chk226 v560), ∀ a x, ((![v560] : Fin 1 → IVec S16 32) a x).toNat < S65536.size a := fun v560 k2_hw226 => k2_hw226

def k2_chk227 (v567 : IVec S16 32) : Prop :=
  (∀ a x, ((![v567] : Fin 1 → IVec S16 32) a x).toNat < S65536.size a)
instance k2_chk227.dec : ∀ (v567 : IVec S16 32), Decidable (k2_chk227 v567) := fun v567 => decidable_of_iff' _ (Iff.of_eq (k2_chk227.eq_1 v567))
theorem k2_idx227_inb : ∀ (v567 : IVec S16 32) (k2_hw227 : k2_chk227 v567), ∀ a x, ((![v567] : Fin 1 → IVec S16 32) a x).toNat < S65536.size a := fun v567 k2_hw227 => k2_hw227

def k2_chk228 (v574 : IVec S16 32) : Prop :=
  (∀ a x, ((![v574] : Fin 1 → IVec S16 32) a x).toNat < S65536.size a)
instance k2_chk228.dec : ∀ (v574 : IVec S16 32), Decidable (k2_chk228 v574) := fun v574 => decidable_of_iff' _ (Iff.of_eq (k2_chk228.eq_1 v574))
theorem k2_idx228_inb : ∀ (v574 : IVec S16 32) (k2_hw228 : k2_chk228 v574), ∀ a x, ((![v574] : Fin 1 → IVec S16 32) a x).toNat < S65536.size a := fun v574 k2_hw228 => k2_hw228

def k2_chk229 (v581 : IVec S16 32) : Prop :=
  (∀ a x, ((![v581] : Fin 1 → IVec S16 32) a x).toNat < S65536.size a)
instance k2_chk229.dec : ∀ (v581 : IVec S16 32), Decidable (k2_chk229 v581) := fun v581 => decidable_of_iff' _ (Iff.of_eq (k2_chk229.eq_1 v581))
theorem k2_idx229_inb : ∀ (v581 : IVec S16 32) (k2_hw229 : k2_chk229 v581), ∀ a x, ((![v581] : Fin 1 → IVec S16 32) a x).toNat < S65536.size a := fun v581 k2_hw229 => k2_hw229

def k2_chk230 (v588 : IVec S16 32) : Prop :=
  (∀ a x, ((![v588] : Fin 1 → IVec S16 32) a x).toNat < S65536.size a)
instance k2_chk230.dec : ∀ (v588 : IVec S16 32), Decidable (k2_chk230 v588) := fun v588 => decidable_of_iff' _ (Iff.of_eq (k2_chk230.eq_1 v588))
theorem k2_idx230_inb : ∀ (v588 : IVec S16 32) (k2_hw230 : k2_chk230 v588), ∀ a x, ((![v588] : Fin 1 → IVec S16 32) a x).toNat < S65536.size a := fun v588 k2_hw230 => k2_hw230

def k2_chk231 (v595 : IVec S16 32) : Prop :=
  (∀ a x, ((![v595] : Fin 1 → IVec S16 32) a x).toNat < S65536.size a)
instance k2_chk231.dec : ∀ (v595 : IVec S16 32), Decidable (k2_chk231 v595) := fun v595 => decidable_of_iff' _ (Iff.of_eq (k2_chk231.eq_1 v595))
theorem k2_idx231_inb : ∀ (v595 : IVec S16 32) (k2_hw231 : k2_chk231 v595), ∀ a x, ((![v595] : Fin 1 → IVec S16 32) a x).toNat < S65536.size a := fun v595 k2_hw231 => k2_hw231

def k2_chk232 (v602 : IVec S16 32) : Prop :=
  (∀ a x, ((![v602] : Fin 1 → IVec S16 32) a x).toNat < S65536.size a)
instance k2_chk232.dec : ∀ (v602 : IVec S16 32), Decidable (k2_chk232 v602) := fun v602 => decidable_of_iff' _ (Iff.of_eq (k2_chk232.eq_1 v602))
theorem k2_idx232_inb : ∀ (v602 : IVec S16 32) (k2_hw232 : k2_chk232 v602), ∀ a x, ((![v602] : Fin 1 → IVec S16 32) a x).toNat < S65536.size a := fun v602 k2_hw232 => k2_hw232

def k2_chk233 (v609 : IVec S16 32) : Prop :=
  (∀ a x, ((![v609] : Fin 1 → IVec S16 32) a x).toNat < S65536.size a)
instance k2_chk233.dec : ∀ (v609 : IVec S16 32), Decidable (k2_chk233 v609) := fun v609 => decidable_of_iff' _ (Iff.of_eq (k2_chk233.eq_1 v609))
theorem k2_idx233_inb : ∀ (v609 : IVec S16 32) (k2_hw233 : k2_chk233 v609), ∀ a x, ((![v609] : Fin 1 → IVec S16 32) a x).toNat < S65536.size a := fun v609 k2_hw233 => k2_hw233

def k2_chk234 (v616 : IVec S16 32) : Prop :=
  (∀ a x, ((![v616] : Fin 1 → IVec S16 32) a x).toNat < S65536.size a)
instance k2_chk234.dec : ∀ (v616 : IVec S16 32), Decidable (k2_chk234 v616) := fun v616 => decidable_of_iff' _ (Iff.of_eq (k2_chk234.eq_1 v616))
theorem k2_idx234_inb : ∀ (v616 : IVec S16 32) (k2_hw234 : k2_chk234 v616), ∀ a x, ((![v616] : Fin 1 → IVec S16 32) a x).toNat < S65536.size a := fun v616 k2_hw234 => k2_hw234

def k2_chk235 (v623 : IVec S16 32) : Prop :=
  (∀ a x, ((![v623] : Fin 1 → IVec S16 32) a x).toNat < S65536.size a)
instance k2_chk235.dec : ∀ (v623 : IVec S16 32), Decidable (k2_chk235 v623) := fun v623 => decidable_of_iff' _ (Iff.of_eq (k2_chk235.eq_1 v623))
theorem k2_idx235_inb : ∀ (v623 : IVec S16 32) (k2_hw235 : k2_chk235 v623), ∀ a x, ((![v623] : Fin 1 → IVec S16 32) a x).toNat < S65536.size a := fun v623 k2_hw235 => k2_hw235

def k2_chk236 (v630 : IVec S16 32) : Prop :=
  (∀ a x, ((![v630] : Fin 1 → IVec S16 32) a x).toNat < S65536.size a)
instance k2_chk236.dec : ∀ (v630 : IVec S16 32), Decidable (k2_chk236 v630) := fun v630 => decidable_of_iff' _ (Iff.of_eq (k2_chk236.eq_1 v630))
theorem k2_idx236_inb : ∀ (v630 : IVec S16 32) (k2_hw236 : k2_chk236 v630), ∀ a x, ((![v630] : Fin 1 → IVec S16 32) a x).toNat < S65536.size a := fun v630 k2_hw236 => k2_hw236

def k2_chk237 (v637 : IVec S16 32) : Prop :=
  (∀ a x, ((![v637] : Fin 1 → IVec S16 32) a x).toNat < S65536.size a)
instance k2_chk237.dec : ∀ (v637 : IVec S16 32), Decidable (k2_chk237 v637) := fun v637 => decidable_of_iff' _ (Iff.of_eq (k2_chk237.eq_1 v637))
theorem k2_idx237_inb : ∀ (v637 : IVec S16 32) (k2_hw237 : k2_chk237 v637), ∀ a x, ((![v637] : Fin 1 → IVec S16 32) a x).toNat < S65536.size a := fun v637 k2_hw237 => k2_hw237

def k2_chk238 (v644 : IVec S16 32) : Prop :=
  (∀ a x, ((![v644] : Fin 1 → IVec S16 32) a x).toNat < S65536.size a)
instance k2_chk238.dec : ∀ (v644 : IVec S16 32), Decidable (k2_chk238 v644) := fun v644 => decidable_of_iff' _ (Iff.of_eq (k2_chk238.eq_1 v644))
theorem k2_idx238_inb : ∀ (v644 : IVec S16 32) (k2_hw238 : k2_chk238 v644), ∀ a x, ((![v644] : Fin 1 → IVec S16 32) a x).toNat < S65536.size a := fun v644 k2_hw238 => k2_hw238

def k2_chk239 (v651 : IVec S16 32) : Prop :=
  (∀ a x, ((![v651] : Fin 1 → IVec S16 32) a x).toNat < S65536.size a)
instance k2_chk239.dec : ∀ (v651 : IVec S16 32), Decidable (k2_chk239 v651) := fun v651 => decidable_of_iff' _ (Iff.of_eq (k2_chk239.eq_1 v651))
theorem k2_idx239_inb : ∀ (v651 : IVec S16 32) (k2_hw239 : k2_chk239 v651), ∀ a x, ((![v651] : Fin 1 → IVec S16 32) a x).toNat < S65536.size a := fun v651 k2_hw239 => k2_hw239

def k2_chk240 (v658 : IVec S16 32) : Prop :=
  (∀ a x, ((![v658] : Fin 1 → IVec S16 32) a x).toNat < S65536.size a)
instance k2_chk240.dec : ∀ (v658 : IVec S16 32), Decidable (k2_chk240 v658) := fun v658 => decidable_of_iff' _ (Iff.of_eq (k2_chk240.eq_1 v658))
theorem k2_idx240_inb : ∀ (v658 : IVec S16 32) (k2_hw240 : k2_chk240 v658), ∀ a x, ((![v658] : Fin 1 → IVec S16 32) a x).toNat < S65536.size a := fun v658 k2_hw240 => k2_hw240
def k2_off69 (k2_t5 : Fin k2_t5_loop.trips) (k2_t6 : Fin k2_t6_loop.trips) (c0_i32_283 : BitVec 32) : Fin 2 → Nat :=
  let c0_i32_39 : BitVec 32 := 0#32
  let c1_i32_41 : BitVec 32 := 1#32
  let arg9 : BitVec 32 := Scf.iv c0_i32_39 c1_i32_41 k2_t6
  let c4_i32_282 : BitVec 32 := 4#32
  let v661 : BitVec 32 := Scalar.muli arg9 c4_i32_282
  let v662 : BitVec 32 := Scalar.addi v661 c0_i32_283
  let v663 : Index := Scalar.indexCast v662
  let c0_i32_21 : BitVec 32 := 0#32
  let c1_i32_23 : BitVec 32 := 1#32
  let arg8 : BitVec 32 := Scf.iv c0_i32_21 c1_i32_23 k2_t5
  let c16_i32_32 : BitVec 32 := 16#32
  let v39 : BitVec 32 := Scalar.muli arg8 c16_i32_32
  let v664 : Index := Scalar.indexCast v39
  ![v663.toNat, v664.toNat]
def k2_off70 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_25 : BitVec 32 := 16#32
  let v36 : BitVec 32 := Scalar.muli v28 c16_i32_25
  let c2048_i32_r6 : BitVec 32 := 2048#32
  ![v18.toNat, v36.toNat, 2048]
def k2_off71 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_32_r7 : BitVec 32 := 0#32
  let c3072_i32_r7 : BitVec 32 := 3072#32
  ![v18.toNat, 0, 3072]
@[reducible] def k2_t7_loop : Scf.Loop 32 :=
  let c0_i32_27 : BitVec 32 := 0#32
  let c64_i32_28 : BitVec 32 := 64#32
  let v37 : BitVec 32 := Scalar.addi c0_i32_27 c64_i32_28
  let c1_i32_29 : BitVec 32 := 1#32
  ⟨c0_i32_27, v37, c1_i32_29⟩
def k2_off72 (k2_t7 : Fin k2_t7_loop.trips) : Fin 2 → Nat :=
  let c0_i32_33 : BitVec 32 := 0#32
  let v40 : Index := Scalar.indexCast c0_i32_33
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v41 : Index := Scalar.indexCast v39
  ![0, v41.toNat]
def k2_off73 (k2_t7 : Fin k2_t7_loop.trips) : Fin 2 → Nat :=
  let c1_i32_34 : BitVec 32 := 1#32
  let v43 : Index := Scalar.indexCast c1_i32_34
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v44 : Index := Scalar.indexCast v39
  ![1, v44.toNat]
def k2_off74 (k2_t7 : Fin k2_t7_loop.trips) : Fin 2 → Nat :=
  let c2_i32_35 : BitVec 32 := 2#32
  let v46 : Index := Scalar.indexCast c2_i32_35
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v47 : Index := Scalar.indexCast v39
  ![2, v47.toNat]
def k2_off75 (k2_t7 : Fin k2_t7_loop.trips) : Fin 2 → Nat :=
  let c3_i32 : BitVec 32 := 3#32
  let v49 : Index := Scalar.indexCast c3_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v50 : Index := Scalar.indexCast v39
  ![3, v50.toNat]
def k2_off76 (k2_t7 : Fin k2_t7_loop.trips) : Fin 2 → Nat :=
  let c4_i32_36 : BitVec 32 := 4#32
  let v52 : Index := Scalar.indexCast c4_i32_36
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v53 : Index := Scalar.indexCast v39
  ![4, v53.toNat]
def k2_off77 (k2_t7 : Fin k2_t7_loop.trips) : Fin 2 → Nat :=
  let c5_i32 : BitVec 32 := 5#32
  let v55 : Index := Scalar.indexCast c5_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v56 : Index := Scalar.indexCast v39
  ![5, v56.toNat]
def k2_off78 (k2_t7 : Fin k2_t7_loop.trips) : Fin 2 → Nat :=
  let c6_i32 : BitVec 32 := 6#32
  let v58 : Index := Scalar.indexCast c6_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v59 : Index := Scalar.indexCast v39
  ![6, v59.toNat]
def k2_off79 (k2_t7 : Fin k2_t7_loop.trips) : Fin 2 → Nat :=
  let c7_i32 : BitVec 32 := 7#32
  let v61 : Index := Scalar.indexCast c7_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v62 : Index := Scalar.indexCast v39
  ![7, v62.toNat]
def k2_off80 (k2_t7 : Fin k2_t7_loop.trips) : Fin 2 → Nat :=
  let c8_i32 : BitVec 32 := 8#32
  let v64 : Index := Scalar.indexCast c8_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v65 : Index := Scalar.indexCast v39
  ![8, v65.toNat]
def k2_off81 (k2_t7 : Fin k2_t7_loop.trips) : Fin 2 → Nat :=
  let c9_i32 : BitVec 32 := 9#32
  let v67 : Index := Scalar.indexCast c9_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v68 : Index := Scalar.indexCast v39
  ![9, v68.toNat]
def k2_off82 (k2_t7 : Fin k2_t7_loop.trips) : Fin 2 → Nat :=
  let c10_i32 : BitVec 32 := 10#32
  let v70 : Index := Scalar.indexCast c10_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v71 : Index := Scalar.indexCast v39
  ![10, v71.toNat]
def k2_off83 (k2_t7 : Fin k2_t7_loop.trips) : Fin 2 → Nat :=
  let c11_i32 : BitVec 32 := 11#32
  let v73 : Index := Scalar.indexCast c11_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v74 : Index := Scalar.indexCast v39
  ![11, v74.toNat]
def k2_off84 (k2_t7 : Fin k2_t7_loop.trips) : Fin 2 → Nat :=
  let c12_i32 : BitVec 32 := 12#32
  let v76 : Index := Scalar.indexCast c12_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v77 : Index := Scalar.indexCast v39
  ![12, v77.toNat]
def k2_off85 (k2_t7 : Fin k2_t7_loop.trips) : Fin 2 → Nat :=
  let c13_i32 : BitVec 32 := 13#32
  let v79 : Index := Scalar.indexCast c13_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v80 : Index := Scalar.indexCast v39
  ![13, v80.toNat]
def k2_off86 (k2_t7 : Fin k2_t7_loop.trips) : Fin 2 → Nat :=
  let c14_i32 : BitVec 32 := 14#32
  let v82 : Index := Scalar.indexCast c14_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v83 : Index := Scalar.indexCast v39
  ![14, v83.toNat]
def k2_off87 (k2_t7 : Fin k2_t7_loop.trips) : Fin 2 → Nat :=
  let c15_i32 : BitVec 32 := 15#32
  let v85 : Index := Scalar.indexCast c15_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v86 : Index := Scalar.indexCast v39
  ![15, v86.toNat]
def k2_off88 (k2_t7 : Fin k2_t7_loop.trips) : Fin 2 → Nat :=
  let c16_i32_37 : BitVec 32 := 16#32
  let v88 : Index := Scalar.indexCast c16_i32_37
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v89 : Index := Scalar.indexCast v39
  ![16, v89.toNat]
def k2_off89 (k2_t7 : Fin k2_t7_loop.trips) : Fin 2 → Nat :=
  let c17_i32 : BitVec 32 := 17#32
  let v91 : Index := Scalar.indexCast c17_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v92 : Index := Scalar.indexCast v39
  ![17, v92.toNat]
def k2_off90 (k2_t7 : Fin k2_t7_loop.trips) : Fin 2 → Nat :=
  let c18_i32 : BitVec 32 := 18#32
  let v94 : Index := Scalar.indexCast c18_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v95 : Index := Scalar.indexCast v39
  ![18, v95.toNat]
def k2_off91 (k2_t7 : Fin k2_t7_loop.trips) : Fin 2 → Nat :=
  let c19_i32 : BitVec 32 := 19#32
  let v97 : Index := Scalar.indexCast c19_i32
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v98 : Index := Scalar.indexCast v39
  ![19, v98.toNat]
@[reducible] def k2_t8_loop : Scf.Loop 32 :=
  let c0_i32_39 : BitVec 32 := 0#32
  let c4_i32_40 : BitVec 32 := 4#32
  let v100 : BitVec 32 := Scalar.addi c0_i32_39 c4_i32_40
  let c1_i32_41 : BitVec 32 := 1#32
  ⟨c0_i32_39, v100, c1_i32_41⟩

def k2_chk241 (v105 : IVec S16 32) : Prop :=
  (∀ a x, ((![v105] : Fin 1 → IVec S16 32) a x).toNat < S65536.size a)
instance k2_chk241.dec : ∀ (v105 : IVec S16 32), Decidable (k2_chk241 v105) := fun v105 => decidable_of_iff' _ (Iff.of_eq (k2_chk241.eq_1 v105))
theorem k2_idx241_inb : ∀ (v105 : IVec S16 32) (k2_hw241 : k2_chk241 v105), ∀ a x, ((![v105] : Fin 1 → IVec S16 32) a x).toNat < S65536.size a := fun v105 k2_hw241 => k2_hw241

def k2_chk242 (v112 : IVec S16 32) : Prop :=
  (∀ a x, ((![v112] : Fin 1 → IVec S16 32) a x).toNat < S65536.size a)
instance k2_chk242.dec : ∀ (v112 : IVec S16 32), Decidable (k2_chk242 v112) := fun v112 => decidable_of_iff' _ (Iff.of_eq (k2_chk242.eq_1 v112))
theorem k2_idx242_inb : ∀ (v112 : IVec S16 32) (k2_hw242 : k2_chk242 v112), ∀ a x, ((![v112] : Fin 1 → IVec S16 32) a x).toNat < S65536.size a := fun v112 k2_hw242 => k2_hw242

def k2_chk243 (v119 : IVec S16 32) : Prop :=
  (∀ a x, ((![v119] : Fin 1 → IVec S16 32) a x).toNat < S65536.size a)
instance k2_chk243.dec : ∀ (v119 : IVec S16 32), Decidable (k2_chk243 v119) := fun v119 => decidable_of_iff' _ (Iff.of_eq (k2_chk243.eq_1 v119))
theorem k2_idx243_inb : ∀ (v119 : IVec S16 32) (k2_hw243 : k2_chk243 v119), ∀ a x, ((![v119] : Fin 1 → IVec S16 32) a x).toNat < S65536.size a := fun v119 k2_hw243 => k2_hw243

def k2_chk244 (v126 : IVec S16 32) : Prop :=
  (∀ a x, ((![v126] : Fin 1 → IVec S16 32) a x).toNat < S65536.size a)
instance k2_chk244.dec : ∀ (v126 : IVec S16 32), Decidable (k2_chk244 v126) := fun v126 => decidable_of_iff' _ (Iff.of_eq (k2_chk244.eq_1 v126))
theorem k2_idx244_inb : ∀ (v126 : IVec S16 32) (k2_hw244 : k2_chk244 v126), ∀ a x, ((![v126] : Fin 1 → IVec S16 32) a x).toNat < S65536.size a := fun v126 k2_hw244 => k2_hw244

def k2_chk245 (v133 : IVec S16 32) : Prop :=
  (∀ a x, ((![v133] : Fin 1 → IVec S16 32) a x).toNat < S65536.size a)
instance k2_chk245.dec : ∀ (v133 : IVec S16 32), Decidable (k2_chk245 v133) := fun v133 => decidable_of_iff' _ (Iff.of_eq (k2_chk245.eq_1 v133))
theorem k2_idx245_inb : ∀ (v133 : IVec S16 32) (k2_hw245 : k2_chk245 v133), ∀ a x, ((![v133] : Fin 1 → IVec S16 32) a x).toNat < S65536.size a := fun v133 k2_hw245 => k2_hw245

def k2_chk246 (v140 : IVec S16 32) : Prop :=
  (∀ a x, ((![v140] : Fin 1 → IVec S16 32) a x).toNat < S65536.size a)
instance k2_chk246.dec : ∀ (v140 : IVec S16 32), Decidable (k2_chk246 v140) := fun v140 => decidable_of_iff' _ (Iff.of_eq (k2_chk246.eq_1 v140))
theorem k2_idx246_inb : ∀ (v140 : IVec S16 32) (k2_hw246 : k2_chk246 v140), ∀ a x, ((![v140] : Fin 1 → IVec S16 32) a x).toNat < S65536.size a := fun v140 k2_hw246 => k2_hw246

def k2_chk247 (v147 : IVec S16 32) : Prop :=
  (∀ a x, ((![v147] : Fin 1 → IVec S16 32) a x).toNat < S65536.size a)
instance k2_chk247.dec : ∀ (v147 : IVec S16 32), Decidable (k2_chk247 v147) := fun v147 => decidable_of_iff' _ (Iff.of_eq (k2_chk247.eq_1 v147))
theorem k2_idx247_inb : ∀ (v147 : IVec S16 32) (k2_hw247 : k2_chk247 v147), ∀ a x, ((![v147] : Fin 1 → IVec S16 32) a x).toNat < S65536.size a := fun v147 k2_hw247 => k2_hw247

def k2_chk248 (v154 : IVec S16 32) : Prop :=
  (∀ a x, ((![v154] : Fin 1 → IVec S16 32) a x).toNat < S65536.size a)
instance k2_chk248.dec : ∀ (v154 : IVec S16 32), Decidable (k2_chk248 v154) := fun v154 => decidable_of_iff' _ (Iff.of_eq (k2_chk248.eq_1 v154))
theorem k2_idx248_inb : ∀ (v154 : IVec S16 32) (k2_hw248 : k2_chk248 v154), ∀ a x, ((![v154] : Fin 1 → IVec S16 32) a x).toNat < S65536.size a := fun v154 k2_hw248 => k2_hw248

def k2_chk249 (v161 : IVec S16 32) : Prop :=
  (∀ a x, ((![v161] : Fin 1 → IVec S16 32) a x).toNat < S65536.size a)
instance k2_chk249.dec : ∀ (v161 : IVec S16 32), Decidable (k2_chk249 v161) := fun v161 => decidable_of_iff' _ (Iff.of_eq (k2_chk249.eq_1 v161))
theorem k2_idx249_inb : ∀ (v161 : IVec S16 32) (k2_hw249 : k2_chk249 v161), ∀ a x, ((![v161] : Fin 1 → IVec S16 32) a x).toNat < S65536.size a := fun v161 k2_hw249 => k2_hw249

def k2_chk250 (v168 : IVec S16 32) : Prop :=
  (∀ a x, ((![v168] : Fin 1 → IVec S16 32) a x).toNat < S65536.size a)
instance k2_chk250.dec : ∀ (v168 : IVec S16 32), Decidable (k2_chk250 v168) := fun v168 => decidable_of_iff' _ (Iff.of_eq (k2_chk250.eq_1 v168))
theorem k2_idx250_inb : ∀ (v168 : IVec S16 32) (k2_hw250 : k2_chk250 v168), ∀ a x, ((![v168] : Fin 1 → IVec S16 32) a x).toNat < S65536.size a := fun v168 k2_hw250 => k2_hw250

def k2_chk251 (v175 : IVec S16 32) : Prop :=
  (∀ a x, ((![v175] : Fin 1 → IVec S16 32) a x).toNat < S65536.size a)
instance k2_chk251.dec : ∀ (v175 : IVec S16 32), Decidable (k2_chk251 v175) := fun v175 => decidable_of_iff' _ (Iff.of_eq (k2_chk251.eq_1 v175))
theorem k2_idx251_inb : ∀ (v175 : IVec S16 32) (k2_hw251 : k2_chk251 v175), ∀ a x, ((![v175] : Fin 1 → IVec S16 32) a x).toNat < S65536.size a := fun v175 k2_hw251 => k2_hw251

def k2_chk252 (v182 : IVec S16 32) : Prop :=
  (∀ a x, ((![v182] : Fin 1 → IVec S16 32) a x).toNat < S65536.size a)
instance k2_chk252.dec : ∀ (v182 : IVec S16 32), Decidable (k2_chk252 v182) := fun v182 => decidable_of_iff' _ (Iff.of_eq (k2_chk252.eq_1 v182))
theorem k2_idx252_inb : ∀ (v182 : IVec S16 32) (k2_hw252 : k2_chk252 v182), ∀ a x, ((![v182] : Fin 1 → IVec S16 32) a x).toNat < S65536.size a := fun v182 k2_hw252 => k2_hw252

def k2_chk253 (v189 : IVec S16 32) : Prop :=
  (∀ a x, ((![v189] : Fin 1 → IVec S16 32) a x).toNat < S65536.size a)
instance k2_chk253.dec : ∀ (v189 : IVec S16 32), Decidable (k2_chk253 v189) := fun v189 => decidable_of_iff' _ (Iff.of_eq (k2_chk253.eq_1 v189))
theorem k2_idx253_inb : ∀ (v189 : IVec S16 32) (k2_hw253 : k2_chk253 v189), ∀ a x, ((![v189] : Fin 1 → IVec S16 32) a x).toNat < S65536.size a := fun v189 k2_hw253 => k2_hw253

def k2_chk254 (v196 : IVec S16 32) : Prop :=
  (∀ a x, ((![v196] : Fin 1 → IVec S16 32) a x).toNat < S65536.size a)
instance k2_chk254.dec : ∀ (v196 : IVec S16 32), Decidable (k2_chk254 v196) := fun v196 => decidable_of_iff' _ (Iff.of_eq (k2_chk254.eq_1 v196))
theorem k2_idx254_inb : ∀ (v196 : IVec S16 32) (k2_hw254 : k2_chk254 v196), ∀ a x, ((![v196] : Fin 1 → IVec S16 32) a x).toNat < S65536.size a := fun v196 k2_hw254 => k2_hw254

def k2_chk255 (v203 : IVec S16 32) : Prop :=
  (∀ a x, ((![v203] : Fin 1 → IVec S16 32) a x).toNat < S65536.size a)
instance k2_chk255.dec : ∀ (v203 : IVec S16 32), Decidable (k2_chk255 v203) := fun v203 => decidable_of_iff' _ (Iff.of_eq (k2_chk255.eq_1 v203))
theorem k2_idx255_inb : ∀ (v203 : IVec S16 32) (k2_hw255 : k2_chk255 v203), ∀ a x, ((![v203] : Fin 1 → IVec S16 32) a x).toNat < S65536.size a := fun v203 k2_hw255 => k2_hw255

def k2_chk256 (v210 : IVec S16 32) : Prop :=
  (∀ a x, ((![v210] : Fin 1 → IVec S16 32) a x).toNat < S65536.size a)
instance k2_chk256.dec : ∀ (v210 : IVec S16 32), Decidable (k2_chk256 v210) := fun v210 => decidable_of_iff' _ (Iff.of_eq (k2_chk256.eq_1 v210))
theorem k2_idx256_inb : ∀ (v210 : IVec S16 32) (k2_hw256 : k2_chk256 v210), ∀ a x, ((![v210] : Fin 1 → IVec S16 32) a x).toNat < S65536.size a := fun v210 k2_hw256 => k2_hw256

def k2_chk257 (v217 : IVec S16 32) : Prop :=
  (∀ a x, ((![v217] : Fin 1 → IVec S16 32) a x).toNat < S65536.size a)
instance k2_chk257.dec : ∀ (v217 : IVec S16 32), Decidable (k2_chk257 v217) := fun v217 => decidable_of_iff' _ (Iff.of_eq (k2_chk257.eq_1 v217))
theorem k2_idx257_inb : ∀ (v217 : IVec S16 32) (k2_hw257 : k2_chk257 v217), ∀ a x, ((![v217] : Fin 1 → IVec S16 32) a x).toNat < S65536.size a := fun v217 k2_hw257 => k2_hw257

def k2_chk258 (v224 : IVec S16 32) : Prop :=
  (∀ a x, ((![v224] : Fin 1 → IVec S16 32) a x).toNat < S65536.size a)
instance k2_chk258.dec : ∀ (v224 : IVec S16 32), Decidable (k2_chk258 v224) := fun v224 => decidable_of_iff' _ (Iff.of_eq (k2_chk258.eq_1 v224))
theorem k2_idx258_inb : ∀ (v224 : IVec S16 32) (k2_hw258 : k2_chk258 v224), ∀ a x, ((![v224] : Fin 1 → IVec S16 32) a x).toNat < S65536.size a := fun v224 k2_hw258 => k2_hw258

def k2_chk259 (v231 : IVec S16 32) : Prop :=
  (∀ a x, ((![v231] : Fin 1 → IVec S16 32) a x).toNat < S65536.size a)
instance k2_chk259.dec : ∀ (v231 : IVec S16 32), Decidable (k2_chk259 v231) := fun v231 => decidable_of_iff' _ (Iff.of_eq (k2_chk259.eq_1 v231))
theorem k2_idx259_inb : ∀ (v231 : IVec S16 32) (k2_hw259 : k2_chk259 v231), ∀ a x, ((![v231] : Fin 1 → IVec S16 32) a x).toNat < S65536.size a := fun v231 k2_hw259 => k2_hw259

def k2_chk260 (v238 : IVec S16 32) : Prop :=
  (∀ a x, ((![v238] : Fin 1 → IVec S16 32) a x).toNat < S65536.size a)
instance k2_chk260.dec : ∀ (v238 : IVec S16 32), Decidable (k2_chk260 v238) := fun v238 => decidable_of_iff' _ (Iff.of_eq (k2_chk260.eq_1 v238))
theorem k2_idx260_inb : ∀ (v238 : IVec S16 32) (k2_hw260 : k2_chk260 v238), ∀ a x, ((![v238] : Fin 1 → IVec S16 32) a x).toNat < S65536.size a := fun v238 k2_hw260 => k2_hw260

def k2_chk261 (v245 : IVec S16 32) : Prop :=
  (∀ a x, ((![v245] : Fin 1 → IVec S16 32) a x).toNat < S65536.size a)
instance k2_chk261.dec : ∀ (v245 : IVec S16 32), Decidable (k2_chk261 v245) := fun v245 => decidable_of_iff' _ (Iff.of_eq (k2_chk261.eq_1 v245))
theorem k2_idx261_inb : ∀ (v245 : IVec S16 32) (k2_hw261 : k2_chk261 v245), ∀ a x, ((![v245] : Fin 1 → IVec S16 32) a x).toNat < S65536.size a := fun v245 k2_hw261 => k2_hw261

def k2_chk262 (v252 : IVec S16 32) : Prop :=
  (∀ a x, ((![v252] : Fin 1 → IVec S16 32) a x).toNat < S65536.size a)
instance k2_chk262.dec : ∀ (v252 : IVec S16 32), Decidable (k2_chk262 v252) := fun v252 => decidable_of_iff' _ (Iff.of_eq (k2_chk262.eq_1 v252))
theorem k2_idx262_inb : ∀ (v252 : IVec S16 32) (k2_hw262 : k2_chk262 v252), ∀ a x, ((![v252] : Fin 1 → IVec S16 32) a x).toNat < S65536.size a := fun v252 k2_hw262 => k2_hw262

def k2_chk263 (v259 : IVec S16 32) : Prop :=
  (∀ a x, ((![v259] : Fin 1 → IVec S16 32) a x).toNat < S65536.size a)
instance k2_chk263.dec : ∀ (v259 : IVec S16 32), Decidable (k2_chk263 v259) := fun v259 => decidable_of_iff' _ (Iff.of_eq (k2_chk263.eq_1 v259))
theorem k2_idx263_inb : ∀ (v259 : IVec S16 32) (k2_hw263 : k2_chk263 v259), ∀ a x, ((![v259] : Fin 1 → IVec S16 32) a x).toNat < S65536.size a := fun v259 k2_hw263 => k2_hw263

def k2_chk264 (v266 : IVec S16 32) : Prop :=
  (∀ a x, ((![v266] : Fin 1 → IVec S16 32) a x).toNat < S65536.size a)
instance k2_chk264.dec : ∀ (v266 : IVec S16 32), Decidable (k2_chk264 v266) := fun v266 => decidable_of_iff' _ (Iff.of_eq (k2_chk264.eq_1 v266))
theorem k2_idx264_inb : ∀ (v266 : IVec S16 32) (k2_hw264 : k2_chk264 v266), ∀ a x, ((![v266] : Fin 1 → IVec S16 32) a x).toNat < S65536.size a := fun v266 k2_hw264 => k2_hw264

def k2_chk265 (v273 : IVec S16 32) : Prop :=
  (∀ a x, ((![v273] : Fin 1 → IVec S16 32) a x).toNat < S65536.size a)
instance k2_chk265.dec : ∀ (v273 : IVec S16 32), Decidable (k2_chk265 v273) := fun v273 => decidable_of_iff' _ (Iff.of_eq (k2_chk265.eq_1 v273))
theorem k2_idx265_inb : ∀ (v273 : IVec S16 32) (k2_hw265 : k2_chk265 v273), ∀ a x, ((![v273] : Fin 1 → IVec S16 32) a x).toNat < S65536.size a := fun v273 k2_hw265 => k2_hw265

def k2_chk266 (v280 : IVec S16 32) : Prop :=
  (∀ a x, ((![v280] : Fin 1 → IVec S16 32) a x).toNat < S65536.size a)
instance k2_chk266.dec : ∀ (v280 : IVec S16 32), Decidable (k2_chk266 v280) := fun v280 => decidable_of_iff' _ (Iff.of_eq (k2_chk266.eq_1 v280))
theorem k2_idx266_inb : ∀ (v280 : IVec S16 32) (k2_hw266 : k2_chk266 v280), ∀ a x, ((![v280] : Fin 1 → IVec S16 32) a x).toNat < S65536.size a := fun v280 k2_hw266 => k2_hw266

def k2_chk267 (v287 : IVec S16 32) : Prop :=
  (∀ a x, ((![v287] : Fin 1 → IVec S16 32) a x).toNat < S65536.size a)
instance k2_chk267.dec : ∀ (v287 : IVec S16 32), Decidable (k2_chk267 v287) := fun v287 => decidable_of_iff' _ (Iff.of_eq (k2_chk267.eq_1 v287))
theorem k2_idx267_inb : ∀ (v287 : IVec S16 32) (k2_hw267 : k2_chk267 v287), ∀ a x, ((![v287] : Fin 1 → IVec S16 32) a x).toNat < S65536.size a := fun v287 k2_hw267 => k2_hw267

def k2_chk268 (v294 : IVec S16 32) : Prop :=
  (∀ a x, ((![v294] : Fin 1 → IVec S16 32) a x).toNat < S65536.size a)
instance k2_chk268.dec : ∀ (v294 : IVec S16 32), Decidable (k2_chk268 v294) := fun v294 => decidable_of_iff' _ (Iff.of_eq (k2_chk268.eq_1 v294))
theorem k2_idx268_inb : ∀ (v294 : IVec S16 32) (k2_hw268 : k2_chk268 v294), ∀ a x, ((![v294] : Fin 1 → IVec S16 32) a x).toNat < S65536.size a := fun v294 k2_hw268 => k2_hw268

def k2_chk269 (v301 : IVec S16 32) : Prop :=
  (∀ a x, ((![v301] : Fin 1 → IVec S16 32) a x).toNat < S65536.size a)
instance k2_chk269.dec : ∀ (v301 : IVec S16 32), Decidable (k2_chk269 v301) := fun v301 => decidable_of_iff' _ (Iff.of_eq (k2_chk269.eq_1 v301))
theorem k2_idx269_inb : ∀ (v301 : IVec S16 32) (k2_hw269 : k2_chk269 v301), ∀ a x, ((![v301] : Fin 1 → IVec S16 32) a x).toNat < S65536.size a := fun v301 k2_hw269 => k2_hw269

def k2_chk270 (v308 : IVec S16 32) : Prop :=
  (∀ a x, ((![v308] : Fin 1 → IVec S16 32) a x).toNat < S65536.size a)
instance k2_chk270.dec : ∀ (v308 : IVec S16 32), Decidable (k2_chk270 v308) := fun v308 => decidable_of_iff' _ (Iff.of_eq (k2_chk270.eq_1 v308))
theorem k2_idx270_inb : ∀ (v308 : IVec S16 32) (k2_hw270 : k2_chk270 v308), ∀ a x, ((![v308] : Fin 1 → IVec S16 32) a x).toNat < S65536.size a := fun v308 k2_hw270 => k2_hw270

def k2_chk271 (v315 : IVec S16 32) : Prop :=
  (∀ a x, ((![v315] : Fin 1 → IVec S16 32) a x).toNat < S65536.size a)
instance k2_chk271.dec : ∀ (v315 : IVec S16 32), Decidable (k2_chk271 v315) := fun v315 => decidable_of_iff' _ (Iff.of_eq (k2_chk271.eq_1 v315))
theorem k2_idx271_inb : ∀ (v315 : IVec S16 32) (k2_hw271 : k2_chk271 v315), ∀ a x, ((![v315] : Fin 1 → IVec S16 32) a x).toNat < S65536.size a := fun v315 k2_hw271 => k2_hw271

def k2_chk272 (v322 : IVec S16 32) : Prop :=
  (∀ a x, ((![v322] : Fin 1 → IVec S16 32) a x).toNat < S65536.size a)
instance k2_chk272.dec : ∀ (v322 : IVec S16 32), Decidable (k2_chk272 v322) := fun v322 => decidable_of_iff' _ (Iff.of_eq (k2_chk272.eq_1 v322))
theorem k2_idx272_inb : ∀ (v322 : IVec S16 32) (k2_hw272 : k2_chk272 v322), ∀ a x, ((![v322] : Fin 1 → IVec S16 32) a x).toNat < S65536.size a := fun v322 k2_hw272 => k2_hw272

def k2_chk273 (v329 : IVec S16 32) : Prop :=
  (∀ a x, ((![v329] : Fin 1 → IVec S16 32) a x).toNat < S65536.size a)
instance k2_chk273.dec : ∀ (v329 : IVec S16 32), Decidable (k2_chk273 v329) := fun v329 => decidable_of_iff' _ (Iff.of_eq (k2_chk273.eq_1 v329))
theorem k2_idx273_inb : ∀ (v329 : IVec S16 32) (k2_hw273 : k2_chk273 v329), ∀ a x, ((![v329] : Fin 1 → IVec S16 32) a x).toNat < S65536.size a := fun v329 k2_hw273 => k2_hw273

def k2_chk274 (v336 : IVec S16 32) : Prop :=
  (∀ a x, ((![v336] : Fin 1 → IVec S16 32) a x).toNat < S65536.size a)
instance k2_chk274.dec : ∀ (v336 : IVec S16 32), Decidable (k2_chk274 v336) := fun v336 => decidable_of_iff' _ (Iff.of_eq (k2_chk274.eq_1 v336))
theorem k2_idx274_inb : ∀ (v336 : IVec S16 32) (k2_hw274 : k2_chk274 v336), ∀ a x, ((![v336] : Fin 1 → IVec S16 32) a x).toNat < S65536.size a := fun v336 k2_hw274 => k2_hw274

def k2_chk275 (v343 : IVec S16 32) : Prop :=
  (∀ a x, ((![v343] : Fin 1 → IVec S16 32) a x).toNat < S65536.size a)
instance k2_chk275.dec : ∀ (v343 : IVec S16 32), Decidable (k2_chk275 v343) := fun v343 => decidable_of_iff' _ (Iff.of_eq (k2_chk275.eq_1 v343))
theorem k2_idx275_inb : ∀ (v343 : IVec S16 32) (k2_hw275 : k2_chk275 v343), ∀ a x, ((![v343] : Fin 1 → IVec S16 32) a x).toNat < S65536.size a := fun v343 k2_hw275 => k2_hw275

def k2_chk276 (v350 : IVec S16 32) : Prop :=
  (∀ a x, ((![v350] : Fin 1 → IVec S16 32) a x).toNat < S65536.size a)
instance k2_chk276.dec : ∀ (v350 : IVec S16 32), Decidable (k2_chk276 v350) := fun v350 => decidable_of_iff' _ (Iff.of_eq (k2_chk276.eq_1 v350))
theorem k2_idx276_inb : ∀ (v350 : IVec S16 32) (k2_hw276 : k2_chk276 v350), ∀ a x, ((![v350] : Fin 1 → IVec S16 32) a x).toNat < S65536.size a := fun v350 k2_hw276 => k2_hw276

def k2_chk277 (v357 : IVec S16 32) : Prop :=
  (∀ a x, ((![v357] : Fin 1 → IVec S16 32) a x).toNat < S65536.size a)
instance k2_chk277.dec : ∀ (v357 : IVec S16 32), Decidable (k2_chk277 v357) := fun v357 => decidable_of_iff' _ (Iff.of_eq (k2_chk277.eq_1 v357))
theorem k2_idx277_inb : ∀ (v357 : IVec S16 32) (k2_hw277 : k2_chk277 v357), ∀ a x, ((![v357] : Fin 1 → IVec S16 32) a x).toNat < S65536.size a := fun v357 k2_hw277 => k2_hw277

def k2_chk278 (v364 : IVec S16 32) : Prop :=
  (∀ a x, ((![v364] : Fin 1 → IVec S16 32) a x).toNat < S65536.size a)
instance k2_chk278.dec : ∀ (v364 : IVec S16 32), Decidable (k2_chk278 v364) := fun v364 => decidable_of_iff' _ (Iff.of_eq (k2_chk278.eq_1 v364))
theorem k2_idx278_inb : ∀ (v364 : IVec S16 32) (k2_hw278 : k2_chk278 v364), ∀ a x, ((![v364] : Fin 1 → IVec S16 32) a x).toNat < S65536.size a := fun v364 k2_hw278 => k2_hw278

def k2_chk279 (v371 : IVec S16 32) : Prop :=
  (∀ a x, ((![v371] : Fin 1 → IVec S16 32) a x).toNat < S65536.size a)
instance k2_chk279.dec : ∀ (v371 : IVec S16 32), Decidable (k2_chk279 v371) := fun v371 => decidable_of_iff' _ (Iff.of_eq (k2_chk279.eq_1 v371))
theorem k2_idx279_inb : ∀ (v371 : IVec S16 32) (k2_hw279 : k2_chk279 v371), ∀ a x, ((![v371] : Fin 1 → IVec S16 32) a x).toNat < S65536.size a := fun v371 k2_hw279 => k2_hw279

def k2_chk280 (v378 : IVec S16 32) : Prop :=
  (∀ a x, ((![v378] : Fin 1 → IVec S16 32) a x).toNat < S65536.size a)
instance k2_chk280.dec : ∀ (v378 : IVec S16 32), Decidable (k2_chk280 v378) := fun v378 => decidable_of_iff' _ (Iff.of_eq (k2_chk280.eq_1 v378))
theorem k2_idx280_inb : ∀ (v378 : IVec S16 32) (k2_hw280 : k2_chk280 v378), ∀ a x, ((![v378] : Fin 1 → IVec S16 32) a x).toNat < S65536.size a := fun v378 k2_hw280 => k2_hw280

def k2_chk281 (v385 : IVec S16 32) : Prop :=
  (∀ a x, ((![v385] : Fin 1 → IVec S16 32) a x).toNat < S65536.size a)
instance k2_chk281.dec : ∀ (v385 : IVec S16 32), Decidable (k2_chk281 v385) := fun v385 => decidable_of_iff' _ (Iff.of_eq (k2_chk281.eq_1 v385))
theorem k2_idx281_inb : ∀ (v385 : IVec S16 32) (k2_hw281 : k2_chk281 v385), ∀ a x, ((![v385] : Fin 1 → IVec S16 32) a x).toNat < S65536.size a := fun v385 k2_hw281 => k2_hw281

def k2_chk282 (v392 : IVec S16 32) : Prop :=
  (∀ a x, ((![v392] : Fin 1 → IVec S16 32) a x).toNat < S65536.size a)
instance k2_chk282.dec : ∀ (v392 : IVec S16 32), Decidable (k2_chk282 v392) := fun v392 => decidable_of_iff' _ (Iff.of_eq (k2_chk282.eq_1 v392))
theorem k2_idx282_inb : ∀ (v392 : IVec S16 32) (k2_hw282 : k2_chk282 v392), ∀ a x, ((![v392] : Fin 1 → IVec S16 32) a x).toNat < S65536.size a := fun v392 k2_hw282 => k2_hw282

def k2_chk283 (v399 : IVec S16 32) : Prop :=
  (∀ a x, ((![v399] : Fin 1 → IVec S16 32) a x).toNat < S65536.size a)
instance k2_chk283.dec : ∀ (v399 : IVec S16 32), Decidable (k2_chk283 v399) := fun v399 => decidable_of_iff' _ (Iff.of_eq (k2_chk283.eq_1 v399))
theorem k2_idx283_inb : ∀ (v399 : IVec S16 32) (k2_hw283 : k2_chk283 v399), ∀ a x, ((![v399] : Fin 1 → IVec S16 32) a x).toNat < S65536.size a := fun v399 k2_hw283 => k2_hw283

def k2_chk284 (v406 : IVec S16 32) : Prop :=
  (∀ a x, ((![v406] : Fin 1 → IVec S16 32) a x).toNat < S65536.size a)
instance k2_chk284.dec : ∀ (v406 : IVec S16 32), Decidable (k2_chk284 v406) := fun v406 => decidable_of_iff' _ (Iff.of_eq (k2_chk284.eq_1 v406))
theorem k2_idx284_inb : ∀ (v406 : IVec S16 32) (k2_hw284 : k2_chk284 v406), ∀ a x, ((![v406] : Fin 1 → IVec S16 32) a x).toNat < S65536.size a := fun v406 k2_hw284 => k2_hw284

def k2_chk285 (v413 : IVec S16 32) : Prop :=
  (∀ a x, ((![v413] : Fin 1 → IVec S16 32) a x).toNat < S65536.size a)
instance k2_chk285.dec : ∀ (v413 : IVec S16 32), Decidable (k2_chk285 v413) := fun v413 => decidable_of_iff' _ (Iff.of_eq (k2_chk285.eq_1 v413))
theorem k2_idx285_inb : ∀ (v413 : IVec S16 32) (k2_hw285 : k2_chk285 v413), ∀ a x, ((![v413] : Fin 1 → IVec S16 32) a x).toNat < S65536.size a := fun v413 k2_hw285 => k2_hw285

def k2_chk286 (v420 : IVec S16 32) : Prop :=
  (∀ a x, ((![v420] : Fin 1 → IVec S16 32) a x).toNat < S65536.size a)
instance k2_chk286.dec : ∀ (v420 : IVec S16 32), Decidable (k2_chk286 v420) := fun v420 => decidable_of_iff' _ (Iff.of_eq (k2_chk286.eq_1 v420))
theorem k2_idx286_inb : ∀ (v420 : IVec S16 32) (k2_hw286 : k2_chk286 v420), ∀ a x, ((![v420] : Fin 1 → IVec S16 32) a x).toNat < S65536.size a := fun v420 k2_hw286 => k2_hw286

def k2_chk287 (v427 : IVec S16 32) : Prop :=
  (∀ a x, ((![v427] : Fin 1 → IVec S16 32) a x).toNat < S65536.size a)
instance k2_chk287.dec : ∀ (v427 : IVec S16 32), Decidable (k2_chk287 v427) := fun v427 => decidable_of_iff' _ (Iff.of_eq (k2_chk287.eq_1 v427))
theorem k2_idx287_inb : ∀ (v427 : IVec S16 32) (k2_hw287 : k2_chk287 v427), ∀ a x, ((![v427] : Fin 1 → IVec S16 32) a x).toNat < S65536.size a := fun v427 k2_hw287 => k2_hw287

def k2_chk288 (v434 : IVec S16 32) : Prop :=
  (∀ a x, ((![v434] : Fin 1 → IVec S16 32) a x).toNat < S65536.size a)
instance k2_chk288.dec : ∀ (v434 : IVec S16 32), Decidable (k2_chk288 v434) := fun v434 => decidable_of_iff' _ (Iff.of_eq (k2_chk288.eq_1 v434))
theorem k2_idx288_inb : ∀ (v434 : IVec S16 32) (k2_hw288 : k2_chk288 v434), ∀ a x, ((![v434] : Fin 1 → IVec S16 32) a x).toNat < S65536.size a := fun v434 k2_hw288 => k2_hw288

def k2_chk289 (v441 : IVec S16 32) : Prop :=
  (∀ a x, ((![v441] : Fin 1 → IVec S16 32) a x).toNat < S65536.size a)
instance k2_chk289.dec : ∀ (v441 : IVec S16 32), Decidable (k2_chk289 v441) := fun v441 => decidable_of_iff' _ (Iff.of_eq (k2_chk289.eq_1 v441))
theorem k2_idx289_inb : ∀ (v441 : IVec S16 32) (k2_hw289 : k2_chk289 v441), ∀ a x, ((![v441] : Fin 1 → IVec S16 32) a x).toNat < S65536.size a := fun v441 k2_hw289 => k2_hw289

def k2_chk290 (v448 : IVec S16 32) : Prop :=
  (∀ a x, ((![v448] : Fin 1 → IVec S16 32) a x).toNat < S65536.size a)
instance k2_chk290.dec : ∀ (v448 : IVec S16 32), Decidable (k2_chk290 v448) := fun v448 => decidable_of_iff' _ (Iff.of_eq (k2_chk290.eq_1 v448))
theorem k2_idx290_inb : ∀ (v448 : IVec S16 32) (k2_hw290 : k2_chk290 v448), ∀ a x, ((![v448] : Fin 1 → IVec S16 32) a x).toNat < S65536.size a := fun v448 k2_hw290 => k2_hw290

def k2_chk291 (v455 : IVec S16 32) : Prop :=
  (∀ a x, ((![v455] : Fin 1 → IVec S16 32) a x).toNat < S65536.size a)
instance k2_chk291.dec : ∀ (v455 : IVec S16 32), Decidable (k2_chk291 v455) := fun v455 => decidable_of_iff' _ (Iff.of_eq (k2_chk291.eq_1 v455))
theorem k2_idx291_inb : ∀ (v455 : IVec S16 32) (k2_hw291 : k2_chk291 v455), ∀ a x, ((![v455] : Fin 1 → IVec S16 32) a x).toNat < S65536.size a := fun v455 k2_hw291 => k2_hw291

def k2_chk292 (v462 : IVec S16 32) : Prop :=
  (∀ a x, ((![v462] : Fin 1 → IVec S16 32) a x).toNat < S65536.size a)
instance k2_chk292.dec : ∀ (v462 : IVec S16 32), Decidable (k2_chk292 v462) := fun v462 => decidable_of_iff' _ (Iff.of_eq (k2_chk292.eq_1 v462))
theorem k2_idx292_inb : ∀ (v462 : IVec S16 32) (k2_hw292 : k2_chk292 v462), ∀ a x, ((![v462] : Fin 1 → IVec S16 32) a x).toNat < S65536.size a := fun v462 k2_hw292 => k2_hw292

def k2_chk293 (v469 : IVec S16 32) : Prop :=
  (∀ a x, ((![v469] : Fin 1 → IVec S16 32) a x).toNat < S65536.size a)
instance k2_chk293.dec : ∀ (v469 : IVec S16 32), Decidable (k2_chk293 v469) := fun v469 => decidable_of_iff' _ (Iff.of_eq (k2_chk293.eq_1 v469))
theorem k2_idx293_inb : ∀ (v469 : IVec S16 32) (k2_hw293 : k2_chk293 v469), ∀ a x, ((![v469] : Fin 1 → IVec S16 32) a x).toNat < S65536.size a := fun v469 k2_hw293 => k2_hw293

def k2_chk294 (v476 : IVec S16 32) : Prop :=
  (∀ a x, ((![v476] : Fin 1 → IVec S16 32) a x).toNat < S65536.size a)
instance k2_chk294.dec : ∀ (v476 : IVec S16 32), Decidable (k2_chk294 v476) := fun v476 => decidable_of_iff' _ (Iff.of_eq (k2_chk294.eq_1 v476))
theorem k2_idx294_inb : ∀ (v476 : IVec S16 32) (k2_hw294 : k2_chk294 v476), ∀ a x, ((![v476] : Fin 1 → IVec S16 32) a x).toNat < S65536.size a := fun v476 k2_hw294 => k2_hw294

def k2_chk295 (v483 : IVec S16 32) : Prop :=
  (∀ a x, ((![v483] : Fin 1 → IVec S16 32) a x).toNat < S65536.size a)
instance k2_chk295.dec : ∀ (v483 : IVec S16 32), Decidable (k2_chk295 v483) := fun v483 => decidable_of_iff' _ (Iff.of_eq (k2_chk295.eq_1 v483))
theorem k2_idx295_inb : ∀ (v483 : IVec S16 32) (k2_hw295 : k2_chk295 v483), ∀ a x, ((![v483] : Fin 1 → IVec S16 32) a x).toNat < S65536.size a := fun v483 k2_hw295 => k2_hw295

def k2_chk296 (v490 : IVec S16 32) : Prop :=
  (∀ a x, ((![v490] : Fin 1 → IVec S16 32) a x).toNat < S65536.size a)
instance k2_chk296.dec : ∀ (v490 : IVec S16 32), Decidable (k2_chk296 v490) := fun v490 => decidable_of_iff' _ (Iff.of_eq (k2_chk296.eq_1 v490))
theorem k2_idx296_inb : ∀ (v490 : IVec S16 32) (k2_hw296 : k2_chk296 v490), ∀ a x, ((![v490] : Fin 1 → IVec S16 32) a x).toNat < S65536.size a := fun v490 k2_hw296 => k2_hw296

def k2_chk297 (v497 : IVec S16 32) : Prop :=
  (∀ a x, ((![v497] : Fin 1 → IVec S16 32) a x).toNat < S65536.size a)
instance k2_chk297.dec : ∀ (v497 : IVec S16 32), Decidable (k2_chk297 v497) := fun v497 => decidable_of_iff' _ (Iff.of_eq (k2_chk297.eq_1 v497))
theorem k2_idx297_inb : ∀ (v497 : IVec S16 32) (k2_hw297 : k2_chk297 v497), ∀ a x, ((![v497] : Fin 1 → IVec S16 32) a x).toNat < S65536.size a := fun v497 k2_hw297 => k2_hw297

def k2_chk298 (v504 : IVec S16 32) : Prop :=
  (∀ a x, ((![v504] : Fin 1 → IVec S16 32) a x).toNat < S65536.size a)
instance k2_chk298.dec : ∀ (v504 : IVec S16 32), Decidable (k2_chk298 v504) := fun v504 => decidable_of_iff' _ (Iff.of_eq (k2_chk298.eq_1 v504))
theorem k2_idx298_inb : ∀ (v504 : IVec S16 32) (k2_hw298 : k2_chk298 v504), ∀ a x, ((![v504] : Fin 1 → IVec S16 32) a x).toNat < S65536.size a := fun v504 k2_hw298 => k2_hw298

def k2_chk299 (v511 : IVec S16 32) : Prop :=
  (∀ a x, ((![v511] : Fin 1 → IVec S16 32) a x).toNat < S65536.size a)
instance k2_chk299.dec : ∀ (v511 : IVec S16 32), Decidable (k2_chk299 v511) := fun v511 => decidable_of_iff' _ (Iff.of_eq (k2_chk299.eq_1 v511))
theorem k2_idx299_inb : ∀ (v511 : IVec S16 32) (k2_hw299 : k2_chk299 v511), ∀ a x, ((![v511] : Fin 1 → IVec S16 32) a x).toNat < S65536.size a := fun v511 k2_hw299 => k2_hw299

def k2_chk300 (v518 : IVec S16 32) : Prop :=
  (∀ a x, ((![v518] : Fin 1 → IVec S16 32) a x).toNat < S65536.size a)
instance k2_chk300.dec : ∀ (v518 : IVec S16 32), Decidable (k2_chk300 v518) := fun v518 => decidable_of_iff' _ (Iff.of_eq (k2_chk300.eq_1 v518))
theorem k2_idx300_inb : ∀ (v518 : IVec S16 32) (k2_hw300 : k2_chk300 v518), ∀ a x, ((![v518] : Fin 1 → IVec S16 32) a x).toNat < S65536.size a := fun v518 k2_hw300 => k2_hw300

def k2_chk301 (v525 : IVec S16 32) : Prop :=
  (∀ a x, ((![v525] : Fin 1 → IVec S16 32) a x).toNat < S65536.size a)
instance k2_chk301.dec : ∀ (v525 : IVec S16 32), Decidable (k2_chk301 v525) := fun v525 => decidable_of_iff' _ (Iff.of_eq (k2_chk301.eq_1 v525))
theorem k2_idx301_inb : ∀ (v525 : IVec S16 32) (k2_hw301 : k2_chk301 v525), ∀ a x, ((![v525] : Fin 1 → IVec S16 32) a x).toNat < S65536.size a := fun v525 k2_hw301 => k2_hw301

def k2_chk302 (v532 : IVec S16 32) : Prop :=
  (∀ a x, ((![v532] : Fin 1 → IVec S16 32) a x).toNat < S65536.size a)
instance k2_chk302.dec : ∀ (v532 : IVec S16 32), Decidable (k2_chk302 v532) := fun v532 => decidable_of_iff' _ (Iff.of_eq (k2_chk302.eq_1 v532))
theorem k2_idx302_inb : ∀ (v532 : IVec S16 32) (k2_hw302 : k2_chk302 v532), ∀ a x, ((![v532] : Fin 1 → IVec S16 32) a x).toNat < S65536.size a := fun v532 k2_hw302 => k2_hw302

def k2_chk303 (v539 : IVec S16 32) : Prop :=
  (∀ a x, ((![v539] : Fin 1 → IVec S16 32) a x).toNat < S65536.size a)
instance k2_chk303.dec : ∀ (v539 : IVec S16 32), Decidable (k2_chk303 v539) := fun v539 => decidable_of_iff' _ (Iff.of_eq (k2_chk303.eq_1 v539))
theorem k2_idx303_inb : ∀ (v539 : IVec S16 32) (k2_hw303 : k2_chk303 v539), ∀ a x, ((![v539] : Fin 1 → IVec S16 32) a x).toNat < S65536.size a := fun v539 k2_hw303 => k2_hw303

def k2_chk304 (v546 : IVec S16 32) : Prop :=
  (∀ a x, ((![v546] : Fin 1 → IVec S16 32) a x).toNat < S65536.size a)
instance k2_chk304.dec : ∀ (v546 : IVec S16 32), Decidable (k2_chk304 v546) := fun v546 => decidable_of_iff' _ (Iff.of_eq (k2_chk304.eq_1 v546))
theorem k2_idx304_inb : ∀ (v546 : IVec S16 32) (k2_hw304 : k2_chk304 v546), ∀ a x, ((![v546] : Fin 1 → IVec S16 32) a x).toNat < S65536.size a := fun v546 k2_hw304 => k2_hw304

def k2_chk305 (v553 : IVec S16 32) : Prop :=
  (∀ a x, ((![v553] : Fin 1 → IVec S16 32) a x).toNat < S65536.size a)
instance k2_chk305.dec : ∀ (v553 : IVec S16 32), Decidable (k2_chk305 v553) := fun v553 => decidable_of_iff' _ (Iff.of_eq (k2_chk305.eq_1 v553))
theorem k2_idx305_inb : ∀ (v553 : IVec S16 32) (k2_hw305 : k2_chk305 v553), ∀ a x, ((![v553] : Fin 1 → IVec S16 32) a x).toNat < S65536.size a := fun v553 k2_hw305 => k2_hw305

def k2_chk306 (v560 : IVec S16 32) : Prop :=
  (∀ a x, ((![v560] : Fin 1 → IVec S16 32) a x).toNat < S65536.size a)
instance k2_chk306.dec : ∀ (v560 : IVec S16 32), Decidable (k2_chk306 v560) := fun v560 => decidable_of_iff' _ (Iff.of_eq (k2_chk306.eq_1 v560))
theorem k2_idx306_inb : ∀ (v560 : IVec S16 32) (k2_hw306 : k2_chk306 v560), ∀ a x, ((![v560] : Fin 1 → IVec S16 32) a x).toNat < S65536.size a := fun v560 k2_hw306 => k2_hw306

def k2_chk307 (v567 : IVec S16 32) : Prop :=
  (∀ a x, ((![v567] : Fin 1 → IVec S16 32) a x).toNat < S65536.size a)
instance k2_chk307.dec : ∀ (v567 : IVec S16 32), Decidable (k2_chk307 v567) := fun v567 => decidable_of_iff' _ (Iff.of_eq (k2_chk307.eq_1 v567))
theorem k2_idx307_inb : ∀ (v567 : IVec S16 32) (k2_hw307 : k2_chk307 v567), ∀ a x, ((![v567] : Fin 1 → IVec S16 32) a x).toNat < S65536.size a := fun v567 k2_hw307 => k2_hw307

def k2_chk308 (v574 : IVec S16 32) : Prop :=
  (∀ a x, ((![v574] : Fin 1 → IVec S16 32) a x).toNat < S65536.size a)
instance k2_chk308.dec : ∀ (v574 : IVec S16 32), Decidable (k2_chk308 v574) := fun v574 => decidable_of_iff' _ (Iff.of_eq (k2_chk308.eq_1 v574))
theorem k2_idx308_inb : ∀ (v574 : IVec S16 32) (k2_hw308 : k2_chk308 v574), ∀ a x, ((![v574] : Fin 1 → IVec S16 32) a x).toNat < S65536.size a := fun v574 k2_hw308 => k2_hw308

def k2_chk309 (v581 : IVec S16 32) : Prop :=
  (∀ a x, ((![v581] : Fin 1 → IVec S16 32) a x).toNat < S65536.size a)
instance k2_chk309.dec : ∀ (v581 : IVec S16 32), Decidable (k2_chk309 v581) := fun v581 => decidable_of_iff' _ (Iff.of_eq (k2_chk309.eq_1 v581))
theorem k2_idx309_inb : ∀ (v581 : IVec S16 32) (k2_hw309 : k2_chk309 v581), ∀ a x, ((![v581] : Fin 1 → IVec S16 32) a x).toNat < S65536.size a := fun v581 k2_hw309 => k2_hw309

def k2_chk310 (v588 : IVec S16 32) : Prop :=
  (∀ a x, ((![v588] : Fin 1 → IVec S16 32) a x).toNat < S65536.size a)
instance k2_chk310.dec : ∀ (v588 : IVec S16 32), Decidable (k2_chk310 v588) := fun v588 => decidable_of_iff' _ (Iff.of_eq (k2_chk310.eq_1 v588))
theorem k2_idx310_inb : ∀ (v588 : IVec S16 32) (k2_hw310 : k2_chk310 v588), ∀ a x, ((![v588] : Fin 1 → IVec S16 32) a x).toNat < S65536.size a := fun v588 k2_hw310 => k2_hw310

def k2_chk311 (v595 : IVec S16 32) : Prop :=
  (∀ a x, ((![v595] : Fin 1 → IVec S16 32) a x).toNat < S65536.size a)
instance k2_chk311.dec : ∀ (v595 : IVec S16 32), Decidable (k2_chk311 v595) := fun v595 => decidable_of_iff' _ (Iff.of_eq (k2_chk311.eq_1 v595))
theorem k2_idx311_inb : ∀ (v595 : IVec S16 32) (k2_hw311 : k2_chk311 v595), ∀ a x, ((![v595] : Fin 1 → IVec S16 32) a x).toNat < S65536.size a := fun v595 k2_hw311 => k2_hw311

def k2_chk312 (v602 : IVec S16 32) : Prop :=
  (∀ a x, ((![v602] : Fin 1 → IVec S16 32) a x).toNat < S65536.size a)
instance k2_chk312.dec : ∀ (v602 : IVec S16 32), Decidable (k2_chk312 v602) := fun v602 => decidable_of_iff' _ (Iff.of_eq (k2_chk312.eq_1 v602))
theorem k2_idx312_inb : ∀ (v602 : IVec S16 32) (k2_hw312 : k2_chk312 v602), ∀ a x, ((![v602] : Fin 1 → IVec S16 32) a x).toNat < S65536.size a := fun v602 k2_hw312 => k2_hw312

def k2_chk313 (v609 : IVec S16 32) : Prop :=
  (∀ a x, ((![v609] : Fin 1 → IVec S16 32) a x).toNat < S65536.size a)
instance k2_chk313.dec : ∀ (v609 : IVec S16 32), Decidable (k2_chk313 v609) := fun v609 => decidable_of_iff' _ (Iff.of_eq (k2_chk313.eq_1 v609))
theorem k2_idx313_inb : ∀ (v609 : IVec S16 32) (k2_hw313 : k2_chk313 v609), ∀ a x, ((![v609] : Fin 1 → IVec S16 32) a x).toNat < S65536.size a := fun v609 k2_hw313 => k2_hw313

def k2_chk314 (v616 : IVec S16 32) : Prop :=
  (∀ a x, ((![v616] : Fin 1 → IVec S16 32) a x).toNat < S65536.size a)
instance k2_chk314.dec : ∀ (v616 : IVec S16 32), Decidable (k2_chk314 v616) := fun v616 => decidable_of_iff' _ (Iff.of_eq (k2_chk314.eq_1 v616))
theorem k2_idx314_inb : ∀ (v616 : IVec S16 32) (k2_hw314 : k2_chk314 v616), ∀ a x, ((![v616] : Fin 1 → IVec S16 32) a x).toNat < S65536.size a := fun v616 k2_hw314 => k2_hw314

def k2_chk315 (v623 : IVec S16 32) : Prop :=
  (∀ a x, ((![v623] : Fin 1 → IVec S16 32) a x).toNat < S65536.size a)
instance k2_chk315.dec : ∀ (v623 : IVec S16 32), Decidable (k2_chk315 v623) := fun v623 => decidable_of_iff' _ (Iff.of_eq (k2_chk315.eq_1 v623))
theorem k2_idx315_inb : ∀ (v623 : IVec S16 32) (k2_hw315 : k2_chk315 v623), ∀ a x, ((![v623] : Fin 1 → IVec S16 32) a x).toNat < S65536.size a := fun v623 k2_hw315 => k2_hw315

def k2_chk316 (v630 : IVec S16 32) : Prop :=
  (∀ a x, ((![v630] : Fin 1 → IVec S16 32) a x).toNat < S65536.size a)
instance k2_chk316.dec : ∀ (v630 : IVec S16 32), Decidable (k2_chk316 v630) := fun v630 => decidable_of_iff' _ (Iff.of_eq (k2_chk316.eq_1 v630))
theorem k2_idx316_inb : ∀ (v630 : IVec S16 32) (k2_hw316 : k2_chk316 v630), ∀ a x, ((![v630] : Fin 1 → IVec S16 32) a x).toNat < S65536.size a := fun v630 k2_hw316 => k2_hw316

def k2_chk317 (v637 : IVec S16 32) : Prop :=
  (∀ a x, ((![v637] : Fin 1 → IVec S16 32) a x).toNat < S65536.size a)
instance k2_chk317.dec : ∀ (v637 : IVec S16 32), Decidable (k2_chk317 v637) := fun v637 => decidable_of_iff' _ (Iff.of_eq (k2_chk317.eq_1 v637))
theorem k2_idx317_inb : ∀ (v637 : IVec S16 32) (k2_hw317 : k2_chk317 v637), ∀ a x, ((![v637] : Fin 1 → IVec S16 32) a x).toNat < S65536.size a := fun v637 k2_hw317 => k2_hw317

def k2_chk318 (v644 : IVec S16 32) : Prop :=
  (∀ a x, ((![v644] : Fin 1 → IVec S16 32) a x).toNat < S65536.size a)
instance k2_chk318.dec : ∀ (v644 : IVec S16 32), Decidable (k2_chk318 v644) := fun v644 => decidable_of_iff' _ (Iff.of_eq (k2_chk318.eq_1 v644))
theorem k2_idx318_inb : ∀ (v644 : IVec S16 32) (k2_hw318 : k2_chk318 v644), ∀ a x, ((![v644] : Fin 1 → IVec S16 32) a x).toNat < S65536.size a := fun v644 k2_hw318 => k2_hw318

def k2_chk319 (v651 : IVec S16 32) : Prop :=
  (∀ a x, ((![v651] : Fin 1 → IVec S16 32) a x).toNat < S65536.size a)
instance k2_chk319.dec : ∀ (v651 : IVec S16 32), Decidable (k2_chk319 v651) := fun v651 => decidable_of_iff' _ (Iff.of_eq (k2_chk319.eq_1 v651))
theorem k2_idx319_inb : ∀ (v651 : IVec S16 32) (k2_hw319 : k2_chk319 v651), ∀ a x, ((![v651] : Fin 1 → IVec S16 32) a x).toNat < S65536.size a := fun v651 k2_hw319 => k2_hw319

def k2_chk320 (v658 : IVec S16 32) : Prop :=
  (∀ a x, ((![v658] : Fin 1 → IVec S16 32) a x).toNat < S65536.size a)
instance k2_chk320.dec : ∀ (v658 : IVec S16 32), Decidable (k2_chk320 v658) := fun v658 => decidable_of_iff' _ (Iff.of_eq (k2_chk320.eq_1 v658))
theorem k2_idx320_inb : ∀ (v658 : IVec S16 32) (k2_hw320 : k2_chk320 v658), ∀ a x, ((![v658] : Fin 1 → IVec S16 32) a x).toNat < S65536.size a := fun v658 k2_hw320 => k2_hw320
def k2_off92 (k2_t7 : Fin k2_t7_loop.trips) (k2_t8 : Fin k2_t8_loop.trips) (c0_i32_283 : BitVec 32) : Fin 2 → Nat :=
  let c0_i32_39 : BitVec 32 := 0#32
  let c1_i32_41 : BitVec 32 := 1#32
  let arg9 : BitVec 32 := Scf.iv c0_i32_39 c1_i32_41 k2_t8
  let c4_i32_282 : BitVec 32 := 4#32
  let v661 : BitVec 32 := Scalar.muli arg9 c4_i32_282
  let v662 : BitVec 32 := Scalar.addi v661 c0_i32_283
  let v663 : Index := Scalar.indexCast v662
  let c0_i32_27 : BitVec 32 := 0#32
  let c1_i32_29 : BitVec 32 := 1#32
  let arg8 : BitVec 32 := Scf.iv c0_i32_27 c1_i32_29 k2_t7
  let c16_i32_32 : BitVec 32 := 16#32
  let v39 : BitVec 32 := Scalar.muli arg8 c16_i32_32
  let v664 : Index := Scalar.indexCast v39
  ![v663.toNat, v664.toNat]
def k2_off93 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_31 : BitVec 32 := 16#32
  let v38 : BitVec 32 := Scalar.muli v28 c16_i32_31
  let c3072_i32_r8 : BitVec 32 := 3072#32
  ![v18.toNat, v38.toNat, 3072]
abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x64x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 16], ![false, false]⟩

def k4_off1 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c65536_i32 : BitVec 32 := 65536#32
  let v29 : BitVec 32 := Scalar.muli v28 c65536_i32
  ![v18.toNat, v29.toNat]
def k4_off2 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_32_r1 : BitVec 32 := 0#32
  let c0_i32_33_r1 : BitVec 32 := 0#32
  ![v18.toNat, 0, 0]
@[reducible] def k4_t1_loop : Scf.Loop 32 :=
  let c0_i32_11 : BitVec 32 := 0#32
  let c64_i32 : BitVec 32 := 64#32
  let v31 : BitVec 32 := Scalar.addi c0_i32_11 c64_i32
  let c1_i32_12 : BitVec 32 := 1#32
  ⟨c0_i32_11, v31, c1_i32_12⟩
def k4_off3 (k4_t1 : Fin k4_t1_loop.trips) : Fin 2 → Nat :=
  let c0_i32_33 : BitVec 32 := 0#32
  let v40 : Index := Scalar.indexCast c0_i32_33
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v41 : Index := Scalar.indexCast v39
  ![0, v41.toNat]
def k4_off4 (k4_t1 : Fin k4_t1_loop.trips) : Fin 2 → Nat :=
  let c1_i32_34 : BitVec 32 := 1#32
  let v43 : Index := Scalar.indexCast c1_i32_34
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v44 : Index := Scalar.indexCast v39
  ![1, v44.toNat]
def k4_off5 (k4_t1 : Fin k4_t1_loop.trips) : Fin 2 → Nat :=
  let c2_i32_35 : BitVec 32 := 2#32
  let v46 : Index := Scalar.indexCast c2_i32_35
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v47 : Index := Scalar.indexCast v39
  ![2, v47.toNat]
def k4_off6 (k4_t1 : Fin k4_t1_loop.trips) : Fin 2 → Nat :=
  let c3_i32 : BitVec 32 := 3#32
  let v49 : Index := Scalar.indexCast c3_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v50 : Index := Scalar.indexCast v39
  ![3, v50.toNat]
def k4_off7 (k4_t1 : Fin k4_t1_loop.trips) : Fin 2 → Nat :=
  let c4_i32_36 : BitVec 32 := 4#32
  let v52 : Index := Scalar.indexCast c4_i32_36
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v53 : Index := Scalar.indexCast v39
  ![4, v53.toNat]
def k4_off8 (k4_t1 : Fin k4_t1_loop.trips) : Fin 2 → Nat :=
  let c5_i32 : BitVec 32 := 5#32
  let v55 : Index := Scalar.indexCast c5_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v56 : Index := Scalar.indexCast v39
  ![5, v56.toNat]
def k4_off9 (k4_t1 : Fin k4_t1_loop.trips) : Fin 2 → Nat :=
  let c6_i32 : BitVec 32 := 6#32
  let v58 : Index := Scalar.indexCast c6_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v59 : Index := Scalar.indexCast v39
  ![6, v59.toNat]
def k4_off10 (k4_t1 : Fin k4_t1_loop.trips) : Fin 2 → Nat :=
  let c7_i32 : BitVec 32 := 7#32
  let v61 : Index := Scalar.indexCast c7_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v62 : Index := Scalar.indexCast v39
  ![7, v62.toNat]
def k4_off11 (k4_t1 : Fin k4_t1_loop.trips) : Fin 2 → Nat :=
  let c8_i32 : BitVec 32 := 8#32
  let v64 : Index := Scalar.indexCast c8_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v65 : Index := Scalar.indexCast v39
  ![8, v65.toNat]
def k4_off12 (k4_t1 : Fin k4_t1_loop.trips) : Fin 2 → Nat :=
  let c9_i32 : BitVec 32 := 9#32
  let v67 : Index := Scalar.indexCast c9_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v68 : Index := Scalar.indexCast v39
  ![9, v68.toNat]
def k4_off13 (k4_t1 : Fin k4_t1_loop.trips) : Fin 2 → Nat :=
  let c10_i32 : BitVec 32 := 10#32
  let v70 : Index := Scalar.indexCast c10_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v71 : Index := Scalar.indexCast v39
  ![10, v71.toNat]
def k4_off14 (k4_t1 : Fin k4_t1_loop.trips) : Fin 2 → Nat :=
  let c11_i32 : BitVec 32 := 11#32
  let v73 : Index := Scalar.indexCast c11_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v74 : Index := Scalar.indexCast v39
  ![11, v74.toNat]
def k4_off15 (k4_t1 : Fin k4_t1_loop.trips) : Fin 2 → Nat :=
  let c12_i32 : BitVec 32 := 12#32
  let v76 : Index := Scalar.indexCast c12_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v77 : Index := Scalar.indexCast v39
  ![12, v77.toNat]
def k4_off16 (k4_t1 : Fin k4_t1_loop.trips) : Fin 2 → Nat :=
  let c13_i32 : BitVec 32 := 13#32
  let v79 : Index := Scalar.indexCast c13_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v80 : Index := Scalar.indexCast v39
  ![13, v80.toNat]
def k4_off17 (k4_t1 : Fin k4_t1_loop.trips) : Fin 2 → Nat :=
  let c14_i32 : BitVec 32 := 14#32
  let v82 : Index := Scalar.indexCast c14_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v83 : Index := Scalar.indexCast v39
  ![14, v83.toNat]
def k4_off18 (k4_t1 : Fin k4_t1_loop.trips) : Fin 2 → Nat :=
  let c15_i32 : BitVec 32 := 15#32
  let v85 : Index := Scalar.indexCast c15_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v86 : Index := Scalar.indexCast v39
  ![15, v86.toNat]
def k4_off19 (k4_t1 : Fin k4_t1_loop.trips) : Fin 2 → Nat :=
  let c16_i32_37 : BitVec 32 := 16#32
  let v88 : Index := Scalar.indexCast c16_i32_37
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v89 : Index := Scalar.indexCast v39
  ![16, v89.toNat]
def k4_off20 (k4_t1 : Fin k4_t1_loop.trips) : Fin 2 → Nat :=
  let c17_i32 : BitVec 32 := 17#32
  let v91 : Index := Scalar.indexCast c17_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v92 : Index := Scalar.indexCast v39
  ![17, v92.toNat]
def k4_off21 (k4_t1 : Fin k4_t1_loop.trips) : Fin 2 → Nat :=
  let c18_i32 : BitVec 32 := 18#32
  let v94 : Index := Scalar.indexCast c18_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v95 : Index := Scalar.indexCast v39
  ![18, v95.toNat]
def k4_off22 (k4_t1 : Fin k4_t1_loop.trips) : Fin 2 → Nat :=
  let c19_i32 : BitVec 32 := 19#32
  let v97 : Index := Scalar.indexCast c19_i32
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v98 : Index := Scalar.indexCast v39
  ![19, v98.toNat]
@[reducible] def k4_t2_loop : Scf.Loop 32 :=
  let c0_i32_39 : BitVec 32 := 0#32
  let c4_i32_40 : BitVec 32 := 4#32
  let v100 : BitVec 32 := Scalar.addi c0_i32_39 c4_i32_40
  let c1_i32_41 : BitVec 32 := 1#32
  ⟨c0_i32_39, v100, c1_i32_41⟩

def k4_chk1 (v105 : IVec S16 32) : Prop :=
  (∀ a x, ((![v105] : Fin 1 → IVec S16 32) a x).toNat < S65536.size a)
instance k4_chk1.dec : ∀ (v105 : IVec S16 32), Decidable (k4_chk1 v105) := fun v105 => decidable_of_iff' _ (Iff.of_eq (k4_chk1.eq_1 v105))
theorem k4_idx1_inb : ∀ (v105 : IVec S16 32) (k4_hw1 : k4_chk1 v105), ∀ a x, ((![v105] : Fin 1 → IVec S16 32) a x).toNat < S65536.size a := fun v105 k4_hw1 => k4_hw1

def k4_chk2 (v112 : IVec S16 32) : Prop :=
  (∀ a x, ((![v112] : Fin 1 → IVec S16 32) a x).toNat < S65536.size a)
instance k4_chk2.dec : ∀ (v112 : IVec S16 32), Decidable (k4_chk2 v112) := fun v112 => decidable_of_iff' _ (Iff.of_eq (k4_chk2.eq_1 v112))
theorem k4_idx2_inb : ∀ (v112 : IVec S16 32) (k4_hw2 : k4_chk2 v112), ∀ a x, ((![v112] : Fin 1 → IVec S16 32) a x).toNat < S65536.size a := fun v112 k4_hw2 => k4_hw2

def k4_chk3 (v119 : IVec S16 32) : Prop :=
  (∀ a x, ((![v119] : Fin 1 → IVec S16 32) a x).toNat < S65536.size a)
instance k4_chk3.dec : ∀ (v119 : IVec S16 32), Decidable (k4_chk3 v119) := fun v119 => decidable_of_iff' _ (Iff.of_eq (k4_chk3.eq_1 v119))
theorem k4_idx3_inb : ∀ (v119 : IVec S16 32) (k4_hw3 : k4_chk3 v119), ∀ a x, ((![v119] : Fin 1 → IVec S16 32) a x).toNat < S65536.size a := fun v119 k4_hw3 => k4_hw3

def k4_chk4 (v126 : IVec S16 32) : Prop :=
  (∀ a x, ((![v126] : Fin 1 → IVec S16 32) a x).toNat < S65536.size a)
instance k4_chk4.dec : ∀ (v126 : IVec S16 32), Decidable (k4_chk4 v126) := fun v126 => decidable_of_iff' _ (Iff.of_eq (k4_chk4.eq_1 v126))
theorem k4_idx4_inb : ∀ (v126 : IVec S16 32) (k4_hw4 : k4_chk4 v126), ∀ a x, ((![v126] : Fin 1 → IVec S16 32) a x).toNat < S65536.size a := fun v126 k4_hw4 => k4_hw4

def k4_chk5 (v133 : IVec S16 32) : Prop :=
  (∀ a x, ((![v133] : Fin 1 → IVec S16 32) a x).toNat < S65536.size a)
instance k4_chk5.dec : ∀ (v133 : IVec S16 32), Decidable (k4_chk5 v133) := fun v133 => decidable_of_iff' _ (Iff.of_eq (k4_chk5.eq_1 v133))
theorem k4_idx5_inb : ∀ (v133 : IVec S16 32) (k4_hw5 : k4_chk5 v133), ∀ a x, ((![v133] : Fin 1 → IVec S16 32) a x).toNat < S65536.size a := fun v133 k4_hw5 => k4_hw5

def k4_chk6 (v140 : IVec S16 32) : Prop :=
  (∀ a x, ((![v140] : Fin 1 → IVec S16 32) a x).toNat < S65536.size a)
instance k4_chk6.dec : ∀ (v140 : IVec S16 32), Decidable (k4_chk6 v140) := fun v140 => decidable_of_iff' _ (Iff.of_eq (k4_chk6.eq_1 v140))
theorem k4_idx6_inb : ∀ (v140 : IVec S16 32) (k4_hw6 : k4_chk6 v140), ∀ a x, ((![v140] : Fin 1 → IVec S16 32) a x).toNat < S65536.size a := fun v140 k4_hw6 => k4_hw6

def k4_chk7 (v147 : IVec S16 32) : Prop :=
  (∀ a x, ((![v147] : Fin 1 → IVec S16 32) a x).toNat < S65536.size a)
instance k4_chk7.dec : ∀ (v147 : IVec S16 32), Decidable (k4_chk7 v147) := fun v147 => decidable_of_iff' _ (Iff.of_eq (k4_chk7.eq_1 v147))
theorem k4_idx7_inb : ∀ (v147 : IVec S16 32) (k4_hw7 : k4_chk7 v147), ∀ a x, ((![v147] : Fin 1 → IVec S16 32) a x).toNat < S65536.size a := fun v147 k4_hw7 => k4_hw7

def k4_chk8 (v154 : IVec S16 32) : Prop :=
  (∀ a x, ((![v154] : Fin 1 → IVec S16 32) a x).toNat < S65536.size a)
instance k4_chk8.dec : ∀ (v154 : IVec S16 32), Decidable (k4_chk8 v154) := fun v154 => decidable_of_iff' _ (Iff.of_eq (k4_chk8.eq_1 v154))
theorem k4_idx8_inb : ∀ (v154 : IVec S16 32) (k4_hw8 : k4_chk8 v154), ∀ a x, ((![v154] : Fin 1 → IVec S16 32) a x).toNat < S65536.size a := fun v154 k4_hw8 => k4_hw8

def k4_chk9 (v161 : IVec S16 32) : Prop :=
  (∀ a x, ((![v161] : Fin 1 → IVec S16 32) a x).toNat < S65536.size a)
instance k4_chk9.dec : ∀ (v161 : IVec S16 32), Decidable (k4_chk9 v161) := fun v161 => decidable_of_iff' _ (Iff.of_eq (k4_chk9.eq_1 v161))
theorem k4_idx9_inb : ∀ (v161 : IVec S16 32) (k4_hw9 : k4_chk9 v161), ∀ a x, ((![v161] : Fin 1 → IVec S16 32) a x).toNat < S65536.size a := fun v161 k4_hw9 => k4_hw9

def k4_chk10 (v168 : IVec S16 32) : Prop :=
  (∀ a x, ((![v168] : Fin 1 → IVec S16 32) a x).toNat < S65536.size a)
instance k4_chk10.dec : ∀ (v168 : IVec S16 32), Decidable (k4_chk10 v168) := fun v168 => decidable_of_iff' _ (Iff.of_eq (k4_chk10.eq_1 v168))
theorem k4_idx10_inb : ∀ (v168 : IVec S16 32) (k4_hw10 : k4_chk10 v168), ∀ a x, ((![v168] : Fin 1 → IVec S16 32) a x).toNat < S65536.size a := fun v168 k4_hw10 => k4_hw10

def k4_chk11 (v175 : IVec S16 32) : Prop :=
  (∀ a x, ((![v175] : Fin 1 → IVec S16 32) a x).toNat < S65536.size a)
instance k4_chk11.dec : ∀ (v175 : IVec S16 32), Decidable (k4_chk11 v175) := fun v175 => decidable_of_iff' _ (Iff.of_eq (k4_chk11.eq_1 v175))
theorem k4_idx11_inb : ∀ (v175 : IVec S16 32) (k4_hw11 : k4_chk11 v175), ∀ a x, ((![v175] : Fin 1 → IVec S16 32) a x).toNat < S65536.size a := fun v175 k4_hw11 => k4_hw11

def k4_chk12 (v182 : IVec S16 32) : Prop :=
  (∀ a x, ((![v182] : Fin 1 → IVec S16 32) a x).toNat < S65536.size a)
instance k4_chk12.dec : ∀ (v182 : IVec S16 32), Decidable (k4_chk12 v182) := fun v182 => decidable_of_iff' _ (Iff.of_eq (k4_chk12.eq_1 v182))
theorem k4_idx12_inb : ∀ (v182 : IVec S16 32) (k4_hw12 : k4_chk12 v182), ∀ a x, ((![v182] : Fin 1 → IVec S16 32) a x).toNat < S65536.size a := fun v182 k4_hw12 => k4_hw12

def k4_chk13 (v189 : IVec S16 32) : Prop :=
  (∀ a x, ((![v189] : Fin 1 → IVec S16 32) a x).toNat < S65536.size a)
instance k4_chk13.dec : ∀ (v189 : IVec S16 32), Decidable (k4_chk13 v189) := fun v189 => decidable_of_iff' _ (Iff.of_eq (k4_chk13.eq_1 v189))
theorem k4_idx13_inb : ∀ (v189 : IVec S16 32) (k4_hw13 : k4_chk13 v189), ∀ a x, ((![v189] : Fin 1 → IVec S16 32) a x).toNat < S65536.size a := fun v189 k4_hw13 => k4_hw13

def k4_chk14 (v196 : IVec S16 32) : Prop :=
  (∀ a x, ((![v196] : Fin 1 → IVec S16 32) a x).toNat < S65536.size a)
instance k4_chk14.dec : ∀ (v196 : IVec S16 32), Decidable (k4_chk14 v196) := fun v196 => decidable_of_iff' _ (Iff.of_eq (k4_chk14.eq_1 v196))
theorem k4_idx14_inb : ∀ (v196 : IVec S16 32) (k4_hw14 : k4_chk14 v196), ∀ a x, ((![v196] : Fin 1 → IVec S16 32) a x).toNat < S65536.size a := fun v196 k4_hw14 => k4_hw14

def k4_chk15 (v203 : IVec S16 32) : Prop :=
  (∀ a x, ((![v203] : Fin 1 → IVec S16 32) a x).toNat < S65536.size a)
instance k4_chk15.dec : ∀ (v203 : IVec S16 32), Decidable (k4_chk15 v203) := fun v203 => decidable_of_iff' _ (Iff.of_eq (k4_chk15.eq_1 v203))
theorem k4_idx15_inb : ∀ (v203 : IVec S16 32) (k4_hw15 : k4_chk15 v203), ∀ a x, ((![v203] : Fin 1 → IVec S16 32) a x).toNat < S65536.size a := fun v203 k4_hw15 => k4_hw15

def k4_chk16 (v210 : IVec S16 32) : Prop :=
  (∀ a x, ((![v210] : Fin 1 → IVec S16 32) a x).toNat < S65536.size a)
instance k4_chk16.dec : ∀ (v210 : IVec S16 32), Decidable (k4_chk16 v210) := fun v210 => decidable_of_iff' _ (Iff.of_eq (k4_chk16.eq_1 v210))
theorem k4_idx16_inb : ∀ (v210 : IVec S16 32) (k4_hw16 : k4_chk16 v210), ∀ a x, ((![v210] : Fin 1 → IVec S16 32) a x).toNat < S65536.size a := fun v210 k4_hw16 => k4_hw16

def k4_chk17 (v217 : IVec S16 32) : Prop :=
  (∀ a x, ((![v217] : Fin 1 → IVec S16 32) a x).toNat < S65536.size a)
instance k4_chk17.dec : ∀ (v217 : IVec S16 32), Decidable (k4_chk17 v217) := fun v217 => decidable_of_iff' _ (Iff.of_eq (k4_chk17.eq_1 v217))
theorem k4_idx17_inb : ∀ (v217 : IVec S16 32) (k4_hw17 : k4_chk17 v217), ∀ a x, ((![v217] : Fin 1 → IVec S16 32) a x).toNat < S65536.size a := fun v217 k4_hw17 => k4_hw17

def k4_chk18 (v224 : IVec S16 32) : Prop :=
  (∀ a x, ((![v224] : Fin 1 → IVec S16 32) a x).toNat < S65536.size a)
instance k4_chk18.dec : ∀ (v224 : IVec S16 32), Decidable (k4_chk18 v224) := fun v224 => decidable_of_iff' _ (Iff.of_eq (k4_chk18.eq_1 v224))
theorem k4_idx18_inb : ∀ (v224 : IVec S16 32) (k4_hw18 : k4_chk18 v224), ∀ a x, ((![v224] : Fin 1 → IVec S16 32) a x).toNat < S65536.size a := fun v224 k4_hw18 => k4_hw18

def k4_chk19 (v231 : IVec S16 32) : Prop :=
  (∀ a x, ((![v231] : Fin 1 → IVec S16 32) a x).toNat < S65536.size a)
instance k4_chk19.dec : ∀ (v231 : IVec S16 32), Decidable (k4_chk19 v231) := fun v231 => decidable_of_iff' _ (Iff.of_eq (k4_chk19.eq_1 v231))
theorem k4_idx19_inb : ∀ (v231 : IVec S16 32) (k4_hw19 : k4_chk19 v231), ∀ a x, ((![v231] : Fin 1 → IVec S16 32) a x).toNat < S65536.size a := fun v231 k4_hw19 => k4_hw19

def k4_chk20 (v238 : IVec S16 32) : Prop :=
  (∀ a x, ((![v238] : Fin 1 → IVec S16 32) a x).toNat < S65536.size a)
instance k4_chk20.dec : ∀ (v238 : IVec S16 32), Decidable (k4_chk20 v238) := fun v238 => decidable_of_iff' _ (Iff.of_eq (k4_chk20.eq_1 v238))
theorem k4_idx20_inb : ∀ (v238 : IVec S16 32) (k4_hw20 : k4_chk20 v238), ∀ a x, ((![v238] : Fin 1 → IVec S16 32) a x).toNat < S65536.size a := fun v238 k4_hw20 => k4_hw20

def k4_chk21 (v245 : IVec S16 32) : Prop :=
  (∀ a x, ((![v245] : Fin 1 → IVec S16 32) a x).toNat < S65536.size a)
instance k4_chk21.dec : ∀ (v245 : IVec S16 32), Decidable (k4_chk21 v245) := fun v245 => decidable_of_iff' _ (Iff.of_eq (k4_chk21.eq_1 v245))
theorem k4_idx21_inb : ∀ (v245 : IVec S16 32) (k4_hw21 : k4_chk21 v245), ∀ a x, ((![v245] : Fin 1 → IVec S16 32) a x).toNat < S65536.size a := fun v245 k4_hw21 => k4_hw21

def k4_chk22 (v252 : IVec S16 32) : Prop :=
  (∀ a x, ((![v252] : Fin 1 → IVec S16 32) a x).toNat < S65536.size a)
instance k4_chk22.dec : ∀ (v252 : IVec S16 32), Decidable (k4_chk22 v252) := fun v252 => decidable_of_iff' _ (Iff.of_eq (k4_chk22.eq_1 v252))
theorem k4_idx22_inb : ∀ (v252 : IVec S16 32) (k4_hw22 : k4_chk22 v252), ∀ a x, ((![v252] : Fin 1 → IVec S16 32) a x).toNat < S65536.size a := fun v252 k4_hw22 => k4_hw22

def k4_chk23 (v259 : IVec S16 32) : Prop :=
  (∀ a x, ((![v259] : Fin 1 → IVec S16 32) a x).toNat < S65536.size a)
instance k4_chk23.dec : ∀ (v259 : IVec S16 32), Decidable (k4_chk23 v259) := fun v259 => decidable_of_iff' _ (Iff.of_eq (k4_chk23.eq_1 v259))
theorem k4_idx23_inb : ∀ (v259 : IVec S16 32) (k4_hw23 : k4_chk23 v259), ∀ a x, ((![v259] : Fin 1 → IVec S16 32) a x).toNat < S65536.size a := fun v259 k4_hw23 => k4_hw23

def k4_chk24 (v266 : IVec S16 32) : Prop :=
  (∀ a x, ((![v266] : Fin 1 → IVec S16 32) a x).toNat < S65536.size a)
instance k4_chk24.dec : ∀ (v266 : IVec S16 32), Decidable (k4_chk24 v266) := fun v266 => decidable_of_iff' _ (Iff.of_eq (k4_chk24.eq_1 v266))
theorem k4_idx24_inb : ∀ (v266 : IVec S16 32) (k4_hw24 : k4_chk24 v266), ∀ a x, ((![v266] : Fin 1 → IVec S16 32) a x).toNat < S65536.size a := fun v266 k4_hw24 => k4_hw24

def k4_chk25 (v273 : IVec S16 32) : Prop :=
  (∀ a x, ((![v273] : Fin 1 → IVec S16 32) a x).toNat < S65536.size a)
instance k4_chk25.dec : ∀ (v273 : IVec S16 32), Decidable (k4_chk25 v273) := fun v273 => decidable_of_iff' _ (Iff.of_eq (k4_chk25.eq_1 v273))
theorem k4_idx25_inb : ∀ (v273 : IVec S16 32) (k4_hw25 : k4_chk25 v273), ∀ a x, ((![v273] : Fin 1 → IVec S16 32) a x).toNat < S65536.size a := fun v273 k4_hw25 => k4_hw25

def k4_chk26 (v280 : IVec S16 32) : Prop :=
  (∀ a x, ((![v280] : Fin 1 → IVec S16 32) a x).toNat < S65536.size a)
instance k4_chk26.dec : ∀ (v280 : IVec S16 32), Decidable (k4_chk26 v280) := fun v280 => decidable_of_iff' _ (Iff.of_eq (k4_chk26.eq_1 v280))
theorem k4_idx26_inb : ∀ (v280 : IVec S16 32) (k4_hw26 : k4_chk26 v280), ∀ a x, ((![v280] : Fin 1 → IVec S16 32) a x).toNat < S65536.size a := fun v280 k4_hw26 => k4_hw26

def k4_chk27 (v287 : IVec S16 32) : Prop :=
  (∀ a x, ((![v287] : Fin 1 → IVec S16 32) a x).toNat < S65536.size a)
instance k4_chk27.dec : ∀ (v287 : IVec S16 32), Decidable (k4_chk27 v287) := fun v287 => decidable_of_iff' _ (Iff.of_eq (k4_chk27.eq_1 v287))
theorem k4_idx27_inb : ∀ (v287 : IVec S16 32) (k4_hw27 : k4_chk27 v287), ∀ a x, ((![v287] : Fin 1 → IVec S16 32) a x).toNat < S65536.size a := fun v287 k4_hw27 => k4_hw27

def k4_chk28 (v294 : IVec S16 32) : Prop :=
  (∀ a x, ((![v294] : Fin 1 → IVec S16 32) a x).toNat < S65536.size a)
instance k4_chk28.dec : ∀ (v294 : IVec S16 32), Decidable (k4_chk28 v294) := fun v294 => decidable_of_iff' _ (Iff.of_eq (k4_chk28.eq_1 v294))
theorem k4_idx28_inb : ∀ (v294 : IVec S16 32) (k4_hw28 : k4_chk28 v294), ∀ a x, ((![v294] : Fin 1 → IVec S16 32) a x).toNat < S65536.size a := fun v294 k4_hw28 => k4_hw28

def k4_chk29 (v301 : IVec S16 32) : Prop :=
  (∀ a x, ((![v301] : Fin 1 → IVec S16 32) a x).toNat < S65536.size a)
instance k4_chk29.dec : ∀ (v301 : IVec S16 32), Decidable (k4_chk29 v301) := fun v301 => decidable_of_iff' _ (Iff.of_eq (k4_chk29.eq_1 v301))
theorem k4_idx29_inb : ∀ (v301 : IVec S16 32) (k4_hw29 : k4_chk29 v301), ∀ a x, ((![v301] : Fin 1 → IVec S16 32) a x).toNat < S65536.size a := fun v301 k4_hw29 => k4_hw29

def k4_chk30 (v308 : IVec S16 32) : Prop :=
  (∀ a x, ((![v308] : Fin 1 → IVec S16 32) a x).toNat < S65536.size a)
instance k4_chk30.dec : ∀ (v308 : IVec S16 32), Decidable (k4_chk30 v308) := fun v308 => decidable_of_iff' _ (Iff.of_eq (k4_chk30.eq_1 v308))
theorem k4_idx30_inb : ∀ (v308 : IVec S16 32) (k4_hw30 : k4_chk30 v308), ∀ a x, ((![v308] : Fin 1 → IVec S16 32) a x).toNat < S65536.size a := fun v308 k4_hw30 => k4_hw30

def k4_chk31 (v315 : IVec S16 32) : Prop :=
  (∀ a x, ((![v315] : Fin 1 → IVec S16 32) a x).toNat < S65536.size a)
instance k4_chk31.dec : ∀ (v315 : IVec S16 32), Decidable (k4_chk31 v315) := fun v315 => decidable_of_iff' _ (Iff.of_eq (k4_chk31.eq_1 v315))
theorem k4_idx31_inb : ∀ (v315 : IVec S16 32) (k4_hw31 : k4_chk31 v315), ∀ a x, ((![v315] : Fin 1 → IVec S16 32) a x).toNat < S65536.size a := fun v315 k4_hw31 => k4_hw31

def k4_chk32 (v322 : IVec S16 32) : Prop :=
  (∀ a x, ((![v322] : Fin 1 → IVec S16 32) a x).toNat < S65536.size a)
instance k4_chk32.dec : ∀ (v322 : IVec S16 32), Decidable (k4_chk32 v322) := fun v322 => decidable_of_iff' _ (Iff.of_eq (k4_chk32.eq_1 v322))
theorem k4_idx32_inb : ∀ (v322 : IVec S16 32) (k4_hw32 : k4_chk32 v322), ∀ a x, ((![v322] : Fin 1 → IVec S16 32) a x).toNat < S65536.size a := fun v322 k4_hw32 => k4_hw32

def k4_chk33 (v329 : IVec S16 32) : Prop :=
  (∀ a x, ((![v329] : Fin 1 → IVec S16 32) a x).toNat < S65536.size a)
instance k4_chk33.dec : ∀ (v329 : IVec S16 32), Decidable (k4_chk33 v329) := fun v329 => decidable_of_iff' _ (Iff.of_eq (k4_chk33.eq_1 v329))
theorem k4_idx33_inb : ∀ (v329 : IVec S16 32) (k4_hw33 : k4_chk33 v329), ∀ a x, ((![v329] : Fin 1 → IVec S16 32) a x).toNat < S65536.size a := fun v329 k4_hw33 => k4_hw33

def k4_chk34 (v336 : IVec S16 32) : Prop :=
  (∀ a x, ((![v336] : Fin 1 → IVec S16 32) a x).toNat < S65536.size a)
instance k4_chk34.dec : ∀ (v336 : IVec S16 32), Decidable (k4_chk34 v336) := fun v336 => decidable_of_iff' _ (Iff.of_eq (k4_chk34.eq_1 v336))
theorem k4_idx34_inb : ∀ (v336 : IVec S16 32) (k4_hw34 : k4_chk34 v336), ∀ a x, ((![v336] : Fin 1 → IVec S16 32) a x).toNat < S65536.size a := fun v336 k4_hw34 => k4_hw34

def k4_chk35 (v343 : IVec S16 32) : Prop :=
  (∀ a x, ((![v343] : Fin 1 → IVec S16 32) a x).toNat < S65536.size a)
instance k4_chk35.dec : ∀ (v343 : IVec S16 32), Decidable (k4_chk35 v343) := fun v343 => decidable_of_iff' _ (Iff.of_eq (k4_chk35.eq_1 v343))
theorem k4_idx35_inb : ∀ (v343 : IVec S16 32) (k4_hw35 : k4_chk35 v343), ∀ a x, ((![v343] : Fin 1 → IVec S16 32) a x).toNat < S65536.size a := fun v343 k4_hw35 => k4_hw35

def k4_chk36 (v350 : IVec S16 32) : Prop :=
  (∀ a x, ((![v350] : Fin 1 → IVec S16 32) a x).toNat < S65536.size a)
instance k4_chk36.dec : ∀ (v350 : IVec S16 32), Decidable (k4_chk36 v350) := fun v350 => decidable_of_iff' _ (Iff.of_eq (k4_chk36.eq_1 v350))
theorem k4_idx36_inb : ∀ (v350 : IVec S16 32) (k4_hw36 : k4_chk36 v350), ∀ a x, ((![v350] : Fin 1 → IVec S16 32) a x).toNat < S65536.size a := fun v350 k4_hw36 => k4_hw36

def k4_chk37 (v357 : IVec S16 32) : Prop :=
  (∀ a x, ((![v357] : Fin 1 → IVec S16 32) a x).toNat < S65536.size a)
instance k4_chk37.dec : ∀ (v357 : IVec S16 32), Decidable (k4_chk37 v357) := fun v357 => decidable_of_iff' _ (Iff.of_eq (k4_chk37.eq_1 v357))
theorem k4_idx37_inb : ∀ (v357 : IVec S16 32) (k4_hw37 : k4_chk37 v357), ∀ a x, ((![v357] : Fin 1 → IVec S16 32) a x).toNat < S65536.size a := fun v357 k4_hw37 => k4_hw37

def k4_chk38 (v364 : IVec S16 32) : Prop :=
  (∀ a x, ((![v364] : Fin 1 → IVec S16 32) a x).toNat < S65536.size a)
instance k4_chk38.dec : ∀ (v364 : IVec S16 32), Decidable (k4_chk38 v364) := fun v364 => decidable_of_iff' _ (Iff.of_eq (k4_chk38.eq_1 v364))
theorem k4_idx38_inb : ∀ (v364 : IVec S16 32) (k4_hw38 : k4_chk38 v364), ∀ a x, ((![v364] : Fin 1 → IVec S16 32) a x).toNat < S65536.size a := fun v364 k4_hw38 => k4_hw38

def k4_chk39 (v371 : IVec S16 32) : Prop :=
  (∀ a x, ((![v371] : Fin 1 → IVec S16 32) a x).toNat < S65536.size a)
instance k4_chk39.dec : ∀ (v371 : IVec S16 32), Decidable (k4_chk39 v371) := fun v371 => decidable_of_iff' _ (Iff.of_eq (k4_chk39.eq_1 v371))
theorem k4_idx39_inb : ∀ (v371 : IVec S16 32) (k4_hw39 : k4_chk39 v371), ∀ a x, ((![v371] : Fin 1 → IVec S16 32) a x).toNat < S65536.size a := fun v371 k4_hw39 => k4_hw39

def k4_chk40 (v378 : IVec S16 32) : Prop :=
  (∀ a x, ((![v378] : Fin 1 → IVec S16 32) a x).toNat < S65536.size a)
instance k4_chk40.dec : ∀ (v378 : IVec S16 32), Decidable (k4_chk40 v378) := fun v378 => decidable_of_iff' _ (Iff.of_eq (k4_chk40.eq_1 v378))
theorem k4_idx40_inb : ∀ (v378 : IVec S16 32) (k4_hw40 : k4_chk40 v378), ∀ a x, ((![v378] : Fin 1 → IVec S16 32) a x).toNat < S65536.size a := fun v378 k4_hw40 => k4_hw40

def k4_chk41 (v385 : IVec S16 32) : Prop :=
  (∀ a x, ((![v385] : Fin 1 → IVec S16 32) a x).toNat < S65536.size a)
instance k4_chk41.dec : ∀ (v385 : IVec S16 32), Decidable (k4_chk41 v385) := fun v385 => decidable_of_iff' _ (Iff.of_eq (k4_chk41.eq_1 v385))
theorem k4_idx41_inb : ∀ (v385 : IVec S16 32) (k4_hw41 : k4_chk41 v385), ∀ a x, ((![v385] : Fin 1 → IVec S16 32) a x).toNat < S65536.size a := fun v385 k4_hw41 => k4_hw41

def k4_chk42 (v392 : IVec S16 32) : Prop :=
  (∀ a x, ((![v392] : Fin 1 → IVec S16 32) a x).toNat < S65536.size a)
instance k4_chk42.dec : ∀ (v392 : IVec S16 32), Decidable (k4_chk42 v392) := fun v392 => decidable_of_iff' _ (Iff.of_eq (k4_chk42.eq_1 v392))
theorem k4_idx42_inb : ∀ (v392 : IVec S16 32) (k4_hw42 : k4_chk42 v392), ∀ a x, ((![v392] : Fin 1 → IVec S16 32) a x).toNat < S65536.size a := fun v392 k4_hw42 => k4_hw42

def k4_chk43 (v399 : IVec S16 32) : Prop :=
  (∀ a x, ((![v399] : Fin 1 → IVec S16 32) a x).toNat < S65536.size a)
instance k4_chk43.dec : ∀ (v399 : IVec S16 32), Decidable (k4_chk43 v399) := fun v399 => decidable_of_iff' _ (Iff.of_eq (k4_chk43.eq_1 v399))
theorem k4_idx43_inb : ∀ (v399 : IVec S16 32) (k4_hw43 : k4_chk43 v399), ∀ a x, ((![v399] : Fin 1 → IVec S16 32) a x).toNat < S65536.size a := fun v399 k4_hw43 => k4_hw43

def k4_chk44 (v406 : IVec S16 32) : Prop :=
  (∀ a x, ((![v406] : Fin 1 → IVec S16 32) a x).toNat < S65536.size a)
instance k4_chk44.dec : ∀ (v406 : IVec S16 32), Decidable (k4_chk44 v406) := fun v406 => decidable_of_iff' _ (Iff.of_eq (k4_chk44.eq_1 v406))
theorem k4_idx44_inb : ∀ (v406 : IVec S16 32) (k4_hw44 : k4_chk44 v406), ∀ a x, ((![v406] : Fin 1 → IVec S16 32) a x).toNat < S65536.size a := fun v406 k4_hw44 => k4_hw44

def k4_chk45 (v413 : IVec S16 32) : Prop :=
  (∀ a x, ((![v413] : Fin 1 → IVec S16 32) a x).toNat < S65536.size a)
instance k4_chk45.dec : ∀ (v413 : IVec S16 32), Decidable (k4_chk45 v413) := fun v413 => decidable_of_iff' _ (Iff.of_eq (k4_chk45.eq_1 v413))
theorem k4_idx45_inb : ∀ (v413 : IVec S16 32) (k4_hw45 : k4_chk45 v413), ∀ a x, ((![v413] : Fin 1 → IVec S16 32) a x).toNat < S65536.size a := fun v413 k4_hw45 => k4_hw45

def k4_chk46 (v420 : IVec S16 32) : Prop :=
  (∀ a x, ((![v420] : Fin 1 → IVec S16 32) a x).toNat < S65536.size a)
instance k4_chk46.dec : ∀ (v420 : IVec S16 32), Decidable (k4_chk46 v420) := fun v420 => decidable_of_iff' _ (Iff.of_eq (k4_chk46.eq_1 v420))
theorem k4_idx46_inb : ∀ (v420 : IVec S16 32) (k4_hw46 : k4_chk46 v420), ∀ a x, ((![v420] : Fin 1 → IVec S16 32) a x).toNat < S65536.size a := fun v420 k4_hw46 => k4_hw46

def k4_chk47 (v427 : IVec S16 32) : Prop :=
  (∀ a x, ((![v427] : Fin 1 → IVec S16 32) a x).toNat < S65536.size a)
instance k4_chk47.dec : ∀ (v427 : IVec S16 32), Decidable (k4_chk47 v427) := fun v427 => decidable_of_iff' _ (Iff.of_eq (k4_chk47.eq_1 v427))
theorem k4_idx47_inb : ∀ (v427 : IVec S16 32) (k4_hw47 : k4_chk47 v427), ∀ a x, ((![v427] : Fin 1 → IVec S16 32) a x).toNat < S65536.size a := fun v427 k4_hw47 => k4_hw47

def k4_chk48 (v434 : IVec S16 32) : Prop :=
  (∀ a x, ((![v434] : Fin 1 → IVec S16 32) a x).toNat < S65536.size a)
instance k4_chk48.dec : ∀ (v434 : IVec S16 32), Decidable (k4_chk48 v434) := fun v434 => decidable_of_iff' _ (Iff.of_eq (k4_chk48.eq_1 v434))
theorem k4_idx48_inb : ∀ (v434 : IVec S16 32) (k4_hw48 : k4_chk48 v434), ∀ a x, ((![v434] : Fin 1 → IVec S16 32) a x).toNat < S65536.size a := fun v434 k4_hw48 => k4_hw48

def k4_chk49 (v441 : IVec S16 32) : Prop :=
  (∀ a x, ((![v441] : Fin 1 → IVec S16 32) a x).toNat < S65536.size a)
instance k4_chk49.dec : ∀ (v441 : IVec S16 32), Decidable (k4_chk49 v441) := fun v441 => decidable_of_iff' _ (Iff.of_eq (k4_chk49.eq_1 v441))
theorem k4_idx49_inb : ∀ (v441 : IVec S16 32) (k4_hw49 : k4_chk49 v441), ∀ a x, ((![v441] : Fin 1 → IVec S16 32) a x).toNat < S65536.size a := fun v441 k4_hw49 => k4_hw49

def k4_chk50 (v448 : IVec S16 32) : Prop :=
  (∀ a x, ((![v448] : Fin 1 → IVec S16 32) a x).toNat < S65536.size a)
instance k4_chk50.dec : ∀ (v448 : IVec S16 32), Decidable (k4_chk50 v448) := fun v448 => decidable_of_iff' _ (Iff.of_eq (k4_chk50.eq_1 v448))
theorem k4_idx50_inb : ∀ (v448 : IVec S16 32) (k4_hw50 : k4_chk50 v448), ∀ a x, ((![v448] : Fin 1 → IVec S16 32) a x).toNat < S65536.size a := fun v448 k4_hw50 => k4_hw50

def k4_chk51 (v455 : IVec S16 32) : Prop :=
  (∀ a x, ((![v455] : Fin 1 → IVec S16 32) a x).toNat < S65536.size a)
instance k4_chk51.dec : ∀ (v455 : IVec S16 32), Decidable (k4_chk51 v455) := fun v455 => decidable_of_iff' _ (Iff.of_eq (k4_chk51.eq_1 v455))
theorem k4_idx51_inb : ∀ (v455 : IVec S16 32) (k4_hw51 : k4_chk51 v455), ∀ a x, ((![v455] : Fin 1 → IVec S16 32) a x).toNat < S65536.size a := fun v455 k4_hw51 => k4_hw51

def k4_chk52 (v462 : IVec S16 32) : Prop :=
  (∀ a x, ((![v462] : Fin 1 → IVec S16 32) a x).toNat < S65536.size a)
instance k4_chk52.dec : ∀ (v462 : IVec S16 32), Decidable (k4_chk52 v462) := fun v462 => decidable_of_iff' _ (Iff.of_eq (k4_chk52.eq_1 v462))
theorem k4_idx52_inb : ∀ (v462 : IVec S16 32) (k4_hw52 : k4_chk52 v462), ∀ a x, ((![v462] : Fin 1 → IVec S16 32) a x).toNat < S65536.size a := fun v462 k4_hw52 => k4_hw52

def k4_chk53 (v469 : IVec S16 32) : Prop :=
  (∀ a x, ((![v469] : Fin 1 → IVec S16 32) a x).toNat < S65536.size a)
instance k4_chk53.dec : ∀ (v469 : IVec S16 32), Decidable (k4_chk53 v469) := fun v469 => decidable_of_iff' _ (Iff.of_eq (k4_chk53.eq_1 v469))
theorem k4_idx53_inb : ∀ (v469 : IVec S16 32) (k4_hw53 : k4_chk53 v469), ∀ a x, ((![v469] : Fin 1 → IVec S16 32) a x).toNat < S65536.size a := fun v469 k4_hw53 => k4_hw53

def k4_chk54 (v476 : IVec S16 32) : Prop :=
  (∀ a x, ((![v476] : Fin 1 → IVec S16 32) a x).toNat < S65536.size a)
instance k4_chk54.dec : ∀ (v476 : IVec S16 32), Decidable (k4_chk54 v476) := fun v476 => decidable_of_iff' _ (Iff.of_eq (k4_chk54.eq_1 v476))
theorem k4_idx54_inb : ∀ (v476 : IVec S16 32) (k4_hw54 : k4_chk54 v476), ∀ a x, ((![v476] : Fin 1 → IVec S16 32) a x).toNat < S65536.size a := fun v476 k4_hw54 => k4_hw54

def k4_chk55 (v483 : IVec S16 32) : Prop :=
  (∀ a x, ((![v483] : Fin 1 → IVec S16 32) a x).toNat < S65536.size a)
instance k4_chk55.dec : ∀ (v483 : IVec S16 32), Decidable (k4_chk55 v483) := fun v483 => decidable_of_iff' _ (Iff.of_eq (k4_chk55.eq_1 v483))
theorem k4_idx55_inb : ∀ (v483 : IVec S16 32) (k4_hw55 : k4_chk55 v483), ∀ a x, ((![v483] : Fin 1 → IVec S16 32) a x).toNat < S65536.size a := fun v483 k4_hw55 => k4_hw55

def k4_chk56 (v490 : IVec S16 32) : Prop :=
  (∀ a x, ((![v490] : Fin 1 → IVec S16 32) a x).toNat < S65536.size a)
instance k4_chk56.dec : ∀ (v490 : IVec S16 32), Decidable (k4_chk56 v490) := fun v490 => decidable_of_iff' _ (Iff.of_eq (k4_chk56.eq_1 v490))
theorem k4_idx56_inb : ∀ (v490 : IVec S16 32) (k4_hw56 : k4_chk56 v490), ∀ a x, ((![v490] : Fin 1 → IVec S16 32) a x).toNat < S65536.size a := fun v490 k4_hw56 => k4_hw56

def k4_chk57 (v497 : IVec S16 32) : Prop :=
  (∀ a x, ((![v497] : Fin 1 → IVec S16 32) a x).toNat < S65536.size a)
instance k4_chk57.dec : ∀ (v497 : IVec S16 32), Decidable (k4_chk57 v497) := fun v497 => decidable_of_iff' _ (Iff.of_eq (k4_chk57.eq_1 v497))
theorem k4_idx57_inb : ∀ (v497 : IVec S16 32) (k4_hw57 : k4_chk57 v497), ∀ a x, ((![v497] : Fin 1 → IVec S16 32) a x).toNat < S65536.size a := fun v497 k4_hw57 => k4_hw57

def k4_chk58 (v504 : IVec S16 32) : Prop :=
  (∀ a x, ((![v504] : Fin 1 → IVec S16 32) a x).toNat < S65536.size a)
instance k4_chk58.dec : ∀ (v504 : IVec S16 32), Decidable (k4_chk58 v504) := fun v504 => decidable_of_iff' _ (Iff.of_eq (k4_chk58.eq_1 v504))
theorem k4_idx58_inb : ∀ (v504 : IVec S16 32) (k4_hw58 : k4_chk58 v504), ∀ a x, ((![v504] : Fin 1 → IVec S16 32) a x).toNat < S65536.size a := fun v504 k4_hw58 => k4_hw58

def k4_chk59 (v511 : IVec S16 32) : Prop :=
  (∀ a x, ((![v511] : Fin 1 → IVec S16 32) a x).toNat < S65536.size a)
instance k4_chk59.dec : ∀ (v511 : IVec S16 32), Decidable (k4_chk59 v511) := fun v511 => decidable_of_iff' _ (Iff.of_eq (k4_chk59.eq_1 v511))
theorem k4_idx59_inb : ∀ (v511 : IVec S16 32) (k4_hw59 : k4_chk59 v511), ∀ a x, ((![v511] : Fin 1 → IVec S16 32) a x).toNat < S65536.size a := fun v511 k4_hw59 => k4_hw59

def k4_chk60 (v518 : IVec S16 32) : Prop :=
  (∀ a x, ((![v518] : Fin 1 → IVec S16 32) a x).toNat < S65536.size a)
instance k4_chk60.dec : ∀ (v518 : IVec S16 32), Decidable (k4_chk60 v518) := fun v518 => decidable_of_iff' _ (Iff.of_eq (k4_chk60.eq_1 v518))
theorem k4_idx60_inb : ∀ (v518 : IVec S16 32) (k4_hw60 : k4_chk60 v518), ∀ a x, ((![v518] : Fin 1 → IVec S16 32) a x).toNat < S65536.size a := fun v518 k4_hw60 => k4_hw60

def k4_chk61 (v525 : IVec S16 32) : Prop :=
  (∀ a x, ((![v525] : Fin 1 → IVec S16 32) a x).toNat < S65536.size a)
instance k4_chk61.dec : ∀ (v525 : IVec S16 32), Decidable (k4_chk61 v525) := fun v525 => decidable_of_iff' _ (Iff.of_eq (k4_chk61.eq_1 v525))
theorem k4_idx61_inb : ∀ (v525 : IVec S16 32) (k4_hw61 : k4_chk61 v525), ∀ a x, ((![v525] : Fin 1 → IVec S16 32) a x).toNat < S65536.size a := fun v525 k4_hw61 => k4_hw61

def k4_chk62 (v532 : IVec S16 32) : Prop :=
  (∀ a x, ((![v532] : Fin 1 → IVec S16 32) a x).toNat < S65536.size a)
instance k4_chk62.dec : ∀ (v532 : IVec S16 32), Decidable (k4_chk62 v532) := fun v532 => decidable_of_iff' _ (Iff.of_eq (k4_chk62.eq_1 v532))
theorem k4_idx62_inb : ∀ (v532 : IVec S16 32) (k4_hw62 : k4_chk62 v532), ∀ a x, ((![v532] : Fin 1 → IVec S16 32) a x).toNat < S65536.size a := fun v532 k4_hw62 => k4_hw62

def k4_chk63 (v539 : IVec S16 32) : Prop :=
  (∀ a x, ((![v539] : Fin 1 → IVec S16 32) a x).toNat < S65536.size a)
instance k4_chk63.dec : ∀ (v539 : IVec S16 32), Decidable (k4_chk63 v539) := fun v539 => decidable_of_iff' _ (Iff.of_eq (k4_chk63.eq_1 v539))
theorem k4_idx63_inb : ∀ (v539 : IVec S16 32) (k4_hw63 : k4_chk63 v539), ∀ a x, ((![v539] : Fin 1 → IVec S16 32) a x).toNat < S65536.size a := fun v539 k4_hw63 => k4_hw63

def k4_chk64 (v546 : IVec S16 32) : Prop :=
  (∀ a x, ((![v546] : Fin 1 → IVec S16 32) a x).toNat < S65536.size a)
instance k4_chk64.dec : ∀ (v546 : IVec S16 32), Decidable (k4_chk64 v546) := fun v546 => decidable_of_iff' _ (Iff.of_eq (k4_chk64.eq_1 v546))
theorem k4_idx64_inb : ∀ (v546 : IVec S16 32) (k4_hw64 : k4_chk64 v546), ∀ a x, ((![v546] : Fin 1 → IVec S16 32) a x).toNat < S65536.size a := fun v546 k4_hw64 => k4_hw64

def k4_chk65 (v553 : IVec S16 32) : Prop :=
  (∀ a x, ((![v553] : Fin 1 → IVec S16 32) a x).toNat < S65536.size a)
instance k4_chk65.dec : ∀ (v553 : IVec S16 32), Decidable (k4_chk65 v553) := fun v553 => decidable_of_iff' _ (Iff.of_eq (k4_chk65.eq_1 v553))
theorem k4_idx65_inb : ∀ (v553 : IVec S16 32) (k4_hw65 : k4_chk65 v553), ∀ a x, ((![v553] : Fin 1 → IVec S16 32) a x).toNat < S65536.size a := fun v553 k4_hw65 => k4_hw65

def k4_chk66 (v560 : IVec S16 32) : Prop :=
  (∀ a x, ((![v560] : Fin 1 → IVec S16 32) a x).toNat < S65536.size a)
instance k4_chk66.dec : ∀ (v560 : IVec S16 32), Decidable (k4_chk66 v560) := fun v560 => decidable_of_iff' _ (Iff.of_eq (k4_chk66.eq_1 v560))
theorem k4_idx66_inb : ∀ (v560 : IVec S16 32) (k4_hw66 : k4_chk66 v560), ∀ a x, ((![v560] : Fin 1 → IVec S16 32) a x).toNat < S65536.size a := fun v560 k4_hw66 => k4_hw66

def k4_chk67 (v567 : IVec S16 32) : Prop :=
  (∀ a x, ((![v567] : Fin 1 → IVec S16 32) a x).toNat < S65536.size a)
instance k4_chk67.dec : ∀ (v567 : IVec S16 32), Decidable (k4_chk67 v567) := fun v567 => decidable_of_iff' _ (Iff.of_eq (k4_chk67.eq_1 v567))
theorem k4_idx67_inb : ∀ (v567 : IVec S16 32) (k4_hw67 : k4_chk67 v567), ∀ a x, ((![v567] : Fin 1 → IVec S16 32) a x).toNat < S65536.size a := fun v567 k4_hw67 => k4_hw67

def k4_chk68 (v574 : IVec S16 32) : Prop :=
  (∀ a x, ((![v574] : Fin 1 → IVec S16 32) a x).toNat < S65536.size a)
instance k4_chk68.dec : ∀ (v574 : IVec S16 32), Decidable (k4_chk68 v574) := fun v574 => decidable_of_iff' _ (Iff.of_eq (k4_chk68.eq_1 v574))
theorem k4_idx68_inb : ∀ (v574 : IVec S16 32) (k4_hw68 : k4_chk68 v574), ∀ a x, ((![v574] : Fin 1 → IVec S16 32) a x).toNat < S65536.size a := fun v574 k4_hw68 => k4_hw68

def k4_chk69 (v581 : IVec S16 32) : Prop :=
  (∀ a x, ((![v581] : Fin 1 → IVec S16 32) a x).toNat < S65536.size a)
instance k4_chk69.dec : ∀ (v581 : IVec S16 32), Decidable (k4_chk69 v581) := fun v581 => decidable_of_iff' _ (Iff.of_eq (k4_chk69.eq_1 v581))
theorem k4_idx69_inb : ∀ (v581 : IVec S16 32) (k4_hw69 : k4_chk69 v581), ∀ a x, ((![v581] : Fin 1 → IVec S16 32) a x).toNat < S65536.size a := fun v581 k4_hw69 => k4_hw69

def k4_chk70 (v588 : IVec S16 32) : Prop :=
  (∀ a x, ((![v588] : Fin 1 → IVec S16 32) a x).toNat < S65536.size a)
instance k4_chk70.dec : ∀ (v588 : IVec S16 32), Decidable (k4_chk70 v588) := fun v588 => decidable_of_iff' _ (Iff.of_eq (k4_chk70.eq_1 v588))
theorem k4_idx70_inb : ∀ (v588 : IVec S16 32) (k4_hw70 : k4_chk70 v588), ∀ a x, ((![v588] : Fin 1 → IVec S16 32) a x).toNat < S65536.size a := fun v588 k4_hw70 => k4_hw70

def k4_chk71 (v595 : IVec S16 32) : Prop :=
  (∀ a x, ((![v595] : Fin 1 → IVec S16 32) a x).toNat < S65536.size a)
instance k4_chk71.dec : ∀ (v595 : IVec S16 32), Decidable (k4_chk71 v595) := fun v595 => decidable_of_iff' _ (Iff.of_eq (k4_chk71.eq_1 v595))
theorem k4_idx71_inb : ∀ (v595 : IVec S16 32) (k4_hw71 : k4_chk71 v595), ∀ a x, ((![v595] : Fin 1 → IVec S16 32) a x).toNat < S65536.size a := fun v595 k4_hw71 => k4_hw71

def k4_chk72 (v602 : IVec S16 32) : Prop :=
  (∀ a x, ((![v602] : Fin 1 → IVec S16 32) a x).toNat < S65536.size a)
instance k4_chk72.dec : ∀ (v602 : IVec S16 32), Decidable (k4_chk72 v602) := fun v602 => decidable_of_iff' _ (Iff.of_eq (k4_chk72.eq_1 v602))
theorem k4_idx72_inb : ∀ (v602 : IVec S16 32) (k4_hw72 : k4_chk72 v602), ∀ a x, ((![v602] : Fin 1 → IVec S16 32) a x).toNat < S65536.size a := fun v602 k4_hw72 => k4_hw72

def k4_chk73 (v609 : IVec S16 32) : Prop :=
  (∀ a x, ((![v609] : Fin 1 → IVec S16 32) a x).toNat < S65536.size a)
instance k4_chk73.dec : ∀ (v609 : IVec S16 32), Decidable (k4_chk73 v609) := fun v609 => decidable_of_iff' _ (Iff.of_eq (k4_chk73.eq_1 v609))
theorem k4_idx73_inb : ∀ (v609 : IVec S16 32) (k4_hw73 : k4_chk73 v609), ∀ a x, ((![v609] : Fin 1 → IVec S16 32) a x).toNat < S65536.size a := fun v609 k4_hw73 => k4_hw73

def k4_chk74 (v616 : IVec S16 32) : Prop :=
  (∀ a x, ((![v616] : Fin 1 → IVec S16 32) a x).toNat < S65536.size a)
instance k4_chk74.dec : ∀ (v616 : IVec S16 32), Decidable (k4_chk74 v616) := fun v616 => decidable_of_iff' _ (Iff.of_eq (k4_chk74.eq_1 v616))
theorem k4_idx74_inb : ∀ (v616 : IVec S16 32) (k4_hw74 : k4_chk74 v616), ∀ a x, ((![v616] : Fin 1 → IVec S16 32) a x).toNat < S65536.size a := fun v616 k4_hw74 => k4_hw74

def k4_chk75 (v623 : IVec S16 32) : Prop :=
  (∀ a x, ((![v623] : Fin 1 → IVec S16 32) a x).toNat < S65536.size a)
instance k4_chk75.dec : ∀ (v623 : IVec S16 32), Decidable (k4_chk75 v623) := fun v623 => decidable_of_iff' _ (Iff.of_eq (k4_chk75.eq_1 v623))
theorem k4_idx75_inb : ∀ (v623 : IVec S16 32) (k4_hw75 : k4_chk75 v623), ∀ a x, ((![v623] : Fin 1 → IVec S16 32) a x).toNat < S65536.size a := fun v623 k4_hw75 => k4_hw75

def k4_chk76 (v630 : IVec S16 32) : Prop :=
  (∀ a x, ((![v630] : Fin 1 → IVec S16 32) a x).toNat < S65536.size a)
instance k4_chk76.dec : ∀ (v630 : IVec S16 32), Decidable (k4_chk76 v630) := fun v630 => decidable_of_iff' _ (Iff.of_eq (k4_chk76.eq_1 v630))
theorem k4_idx76_inb : ∀ (v630 : IVec S16 32) (k4_hw76 : k4_chk76 v630), ∀ a x, ((![v630] : Fin 1 → IVec S16 32) a x).toNat < S65536.size a := fun v630 k4_hw76 => k4_hw76

def k4_chk77 (v637 : IVec S16 32) : Prop :=
  (∀ a x, ((![v637] : Fin 1 → IVec S16 32) a x).toNat < S65536.size a)
instance k4_chk77.dec : ∀ (v637 : IVec S16 32), Decidable (k4_chk77 v637) := fun v637 => decidable_of_iff' _ (Iff.of_eq (k4_chk77.eq_1 v637))
theorem k4_idx77_inb : ∀ (v637 : IVec S16 32) (k4_hw77 : k4_chk77 v637), ∀ a x, ((![v637] : Fin 1 → IVec S16 32) a x).toNat < S65536.size a := fun v637 k4_hw77 => k4_hw77

def k4_chk78 (v644 : IVec S16 32) : Prop :=
  (∀ a x, ((![v644] : Fin 1 → IVec S16 32) a x).toNat < S65536.size a)
instance k4_chk78.dec : ∀ (v644 : IVec S16 32), Decidable (k4_chk78 v644) := fun v644 => decidable_of_iff' _ (Iff.of_eq (k4_chk78.eq_1 v644))
theorem k4_idx78_inb : ∀ (v644 : IVec S16 32) (k4_hw78 : k4_chk78 v644), ∀ a x, ((![v644] : Fin 1 → IVec S16 32) a x).toNat < S65536.size a := fun v644 k4_hw78 => k4_hw78

def k4_chk79 (v651 : IVec S16 32) : Prop :=
  (∀ a x, ((![v651] : Fin 1 → IVec S16 32) a x).toNat < S65536.size a)
instance k4_chk79.dec : ∀ (v651 : IVec S16 32), Decidable (k4_chk79 v651) := fun v651 => decidable_of_iff' _ (Iff.of_eq (k4_chk79.eq_1 v651))
theorem k4_idx79_inb : ∀ (v651 : IVec S16 32) (k4_hw79 : k4_chk79 v651), ∀ a x, ((![v651] : Fin 1 → IVec S16 32) a x).toNat < S65536.size a := fun v651 k4_hw79 => k4_hw79

def k4_chk80 (v658 : IVec S16 32) : Prop :=
  (∀ a x, ((![v658] : Fin 1 → IVec S16 32) a x).toNat < S65536.size a)
instance k4_chk80.dec : ∀ (v658 : IVec S16 32), Decidable (k4_chk80 v658) := fun v658 => decidable_of_iff' _ (Iff.of_eq (k4_chk80.eq_1 v658))
theorem k4_idx80_inb : ∀ (v658 : IVec S16 32) (k4_hw80 : k4_chk80 v658), ∀ a x, ((![v658] : Fin 1 → IVec S16 32) a x).toNat < S65536.size a := fun v658 k4_hw80 => k4_hw80
def k4_off23 (k4_t1 : Fin k4_t1_loop.trips) (k4_t2 : Fin k4_t2_loop.trips) (c0_i32_283 : BitVec 32) : Fin 2 → Nat :=
  let c0_i32_39 : BitVec 32 := 0#32
  let c1_i32_41 : BitVec 32 := 1#32
  let arg9 : BitVec 32 := Scf.iv c0_i32_39 c1_i32_41 k4_t2
  let c4_i32_282 : BitVec 32 := 4#32
  let v661 : BitVec 32 := Scalar.muli arg9 c4_i32_282
  let v662 : BitVec 32 := Scalar.addi v661 c0_i32_283
  let v663 : Index := Scalar.indexCast v662
  let c0_i32_11 : BitVec 32 := 0#32
  let c1_i32_12 : BitVec 32 := 1#32
  let arg8 : BitVec 32 := Scf.iv c0_i32_11 c1_i32_12 k4_t1
  let c16_i32_32 : BitVec 32 := 16#32
  let v39 : BitVec 32 := Scalar.muli arg8 c16_i32_32
  let v664 : Index := Scalar.indexCast v39
  ![v663.toNat, v664.toNat]
def k4_off24 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32 : BitVec 32 := 16#32
  let v32 : BitVec 32 := Scalar.muli v28 c16_i32
  let c0_i32_32_r2 : BitVec 32 := 0#32
  ![v18.toNat, v32.toNat, 0]
def k4_off25 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_32_r3 : BitVec 32 := 0#32
  let c1024_i32_r3 : BitVec 32 := 1024#32
  ![v18.toNat, 0, 1024]
@[reducible] def k4_t3_loop : Scf.Loop 32 :=
  let c0_i32_15 : BitVec 32 := 0#32
  let c64_i32_16 : BitVec 32 := 64#32
  let v33 : BitVec 32 := Scalar.addi c0_i32_15 c64_i32_16
  let c1_i32_17 : BitVec 32 := 1#32
  ⟨c0_i32_15, v33, c1_i32_17⟩
def k4_off26 (k4_t3 : Fin k4_t3_loop.trips) : Fin 2 → Nat :=
  let c0_i32_33 : BitVec 32 := 0#32
  let v40 : Index := Scalar.indexCast c0_i32_33
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v41 : Index := Scalar.indexCast v39
  ![0, v41.toNat]
def k4_off27 (k4_t3 : Fin k4_t3_loop.trips) : Fin 2 → Nat :=
  let c1_i32_34 : BitVec 32 := 1#32
  let v43 : Index := Scalar.indexCast c1_i32_34
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v44 : Index := Scalar.indexCast v39
  ![1, v44.toNat]
def k4_off28 (k4_t3 : Fin k4_t3_loop.trips) : Fin 2 → Nat :=
  let c2_i32_35 : BitVec 32 := 2#32
  let v46 : Index := Scalar.indexCast c2_i32_35
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v47 : Index := Scalar.indexCast v39
  ![2, v47.toNat]
def k4_off29 (k4_t3 : Fin k4_t3_loop.trips) : Fin 2 → Nat :=
  let c3_i32 : BitVec 32 := 3#32
  let v49 : Index := Scalar.indexCast c3_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v50 : Index := Scalar.indexCast v39
  ![3, v50.toNat]
def k4_off30 (k4_t3 : Fin k4_t3_loop.trips) : Fin 2 → Nat :=
  let c4_i32_36 : BitVec 32 := 4#32
  let v52 : Index := Scalar.indexCast c4_i32_36
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v53 : Index := Scalar.indexCast v39
  ![4, v53.toNat]
def k4_off31 (k4_t3 : Fin k4_t3_loop.trips) : Fin 2 → Nat :=
  let c5_i32 : BitVec 32 := 5#32
  let v55 : Index := Scalar.indexCast c5_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v56 : Index := Scalar.indexCast v39
  ![5, v56.toNat]
def k4_off32 (k4_t3 : Fin k4_t3_loop.trips) : Fin 2 → Nat :=
  let c6_i32 : BitVec 32 := 6#32
  let v58 : Index := Scalar.indexCast c6_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v59 : Index := Scalar.indexCast v39
  ![6, v59.toNat]
def k4_off33 (k4_t3 : Fin k4_t3_loop.trips) : Fin 2 → Nat :=
  let c7_i32 : BitVec 32 := 7#32
  let v61 : Index := Scalar.indexCast c7_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v62 : Index := Scalar.indexCast v39
  ![7, v62.toNat]
def k4_off34 (k4_t3 : Fin k4_t3_loop.trips) : Fin 2 → Nat :=
  let c8_i32 : BitVec 32 := 8#32
  let v64 : Index := Scalar.indexCast c8_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v65 : Index := Scalar.indexCast v39
  ![8, v65.toNat]
def k4_off35 (k4_t3 : Fin k4_t3_loop.trips) : Fin 2 → Nat :=
  let c9_i32 : BitVec 32 := 9#32
  let v67 : Index := Scalar.indexCast c9_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v68 : Index := Scalar.indexCast v39
  ![9, v68.toNat]
def k4_off36 (k4_t3 : Fin k4_t3_loop.trips) : Fin 2 → Nat :=
  let c10_i32 : BitVec 32 := 10#32
  let v70 : Index := Scalar.indexCast c10_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v71 : Index := Scalar.indexCast v39
  ![10, v71.toNat]
def k4_off37 (k4_t3 : Fin k4_t3_loop.trips) : Fin 2 → Nat :=
  let c11_i32 : BitVec 32 := 11#32
  let v73 : Index := Scalar.indexCast c11_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v74 : Index := Scalar.indexCast v39
  ![11, v74.toNat]
def k4_off38 (k4_t3 : Fin k4_t3_loop.trips) : Fin 2 → Nat :=
  let c12_i32 : BitVec 32 := 12#32
  let v76 : Index := Scalar.indexCast c12_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v77 : Index := Scalar.indexCast v39
  ![12, v77.toNat]
def k4_off39 (k4_t3 : Fin k4_t3_loop.trips) : Fin 2 → Nat :=
  let c13_i32 : BitVec 32 := 13#32
  let v79 : Index := Scalar.indexCast c13_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v80 : Index := Scalar.indexCast v39
  ![13, v80.toNat]
def k4_off40 (k4_t3 : Fin k4_t3_loop.trips) : Fin 2 → Nat :=
  let c14_i32 : BitVec 32 := 14#32
  let v82 : Index := Scalar.indexCast c14_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v83 : Index := Scalar.indexCast v39
  ![14, v83.toNat]
def k4_off41 (k4_t3 : Fin k4_t3_loop.trips) : Fin 2 → Nat :=
  let c15_i32 : BitVec 32 := 15#32
  let v85 : Index := Scalar.indexCast c15_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v86 : Index := Scalar.indexCast v39
  ![15, v86.toNat]
def k4_off42 (k4_t3 : Fin k4_t3_loop.trips) : Fin 2 → Nat :=
  let c16_i32_37 : BitVec 32 := 16#32
  let v88 : Index := Scalar.indexCast c16_i32_37
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v89 : Index := Scalar.indexCast v39
  ![16, v89.toNat]
def k4_off43 (k4_t3 : Fin k4_t3_loop.trips) : Fin 2 → Nat :=
  let c17_i32 : BitVec 32 := 17#32
  let v91 : Index := Scalar.indexCast c17_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v92 : Index := Scalar.indexCast v39
  ![17, v92.toNat]
def k4_off44 (k4_t3 : Fin k4_t3_loop.trips) : Fin 2 → Nat :=
  let c18_i32 : BitVec 32 := 18#32
  let v94 : Index := Scalar.indexCast c18_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v95 : Index := Scalar.indexCast v39
  ![18, v95.toNat]
def k4_off45 (k4_t3 : Fin k4_t3_loop.trips) : Fin 2 → Nat :=
  let c19_i32 : BitVec 32 := 19#32
  let v97 : Index := Scalar.indexCast c19_i32
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v98 : Index := Scalar.indexCast v39
  ![19, v98.toNat]
@[reducible] def k4_t4_loop : Scf.Loop 32 :=
  let c0_i32_39 : BitVec 32 := 0#32
  let c4_i32_40 : BitVec 32 := 4#32
  let v100 : BitVec 32 := Scalar.addi c0_i32_39 c4_i32_40
  let c1_i32_41 : BitVec 32 := 1#32
  ⟨c0_i32_39, v100, c1_i32_41⟩

def k4_chk81 (v105 : IVec S16 32) : Prop :=
  (∀ a x, ((![v105] : Fin 1 → IVec S16 32) a x).toNat < S65536.size a)
instance k4_chk81.dec : ∀ (v105 : IVec S16 32), Decidable (k4_chk81 v105) := fun v105 => decidable_of_iff' _ (Iff.of_eq (k4_chk81.eq_1 v105))
theorem k4_idx81_inb : ∀ (v105 : IVec S16 32) (k4_hw81 : k4_chk81 v105), ∀ a x, ((![v105] : Fin 1 → IVec S16 32) a x).toNat < S65536.size a := fun v105 k4_hw81 => k4_hw81

def k4_chk82 (v112 : IVec S16 32) : Prop :=
  (∀ a x, ((![v112] : Fin 1 → IVec S16 32) a x).toNat < S65536.size a)
instance k4_chk82.dec : ∀ (v112 : IVec S16 32), Decidable (k4_chk82 v112) := fun v112 => decidable_of_iff' _ (Iff.of_eq (k4_chk82.eq_1 v112))
theorem k4_idx82_inb : ∀ (v112 : IVec S16 32) (k4_hw82 : k4_chk82 v112), ∀ a x, ((![v112] : Fin 1 → IVec S16 32) a x).toNat < S65536.size a := fun v112 k4_hw82 => k4_hw82

def k4_chk83 (v119 : IVec S16 32) : Prop :=
  (∀ a x, ((![v119] : Fin 1 → IVec S16 32) a x).toNat < S65536.size a)
instance k4_chk83.dec : ∀ (v119 : IVec S16 32), Decidable (k4_chk83 v119) := fun v119 => decidable_of_iff' _ (Iff.of_eq (k4_chk83.eq_1 v119))
theorem k4_idx83_inb : ∀ (v119 : IVec S16 32) (k4_hw83 : k4_chk83 v119), ∀ a x, ((![v119] : Fin 1 → IVec S16 32) a x).toNat < S65536.size a := fun v119 k4_hw83 => k4_hw83

def k4_chk84 (v126 : IVec S16 32) : Prop :=
  (∀ a x, ((![v126] : Fin 1 → IVec S16 32) a x).toNat < S65536.size a)
instance k4_chk84.dec : ∀ (v126 : IVec S16 32), Decidable (k4_chk84 v126) := fun v126 => decidable_of_iff' _ (Iff.of_eq (k4_chk84.eq_1 v126))
theorem k4_idx84_inb : ∀ (v126 : IVec S16 32) (k4_hw84 : k4_chk84 v126), ∀ a x, ((![v126] : Fin 1 → IVec S16 32) a x).toNat < S65536.size a := fun v126 k4_hw84 => k4_hw84

def k4_chk85 (v133 : IVec S16 32) : Prop :=
  (∀ a x, ((![v133] : Fin 1 → IVec S16 32) a x).toNat < S65536.size a)
instance k4_chk85.dec : ∀ (v133 : IVec S16 32), Decidable (k4_chk85 v133) := fun v133 => decidable_of_iff' _ (Iff.of_eq (k4_chk85.eq_1 v133))
theorem k4_idx85_inb : ∀ (v133 : IVec S16 32) (k4_hw85 : k4_chk85 v133), ∀ a x, ((![v133] : Fin 1 → IVec S16 32) a x).toNat < S65536.size a := fun v133 k4_hw85 => k4_hw85

def k4_chk86 (v140 : IVec S16 32) : Prop :=
  (∀ a x, ((![v140] : Fin 1 → IVec S16 32) a x).toNat < S65536.size a)
instance k4_chk86.dec : ∀ (v140 : IVec S16 32), Decidable (k4_chk86 v140) := fun v140 => decidable_of_iff' _ (Iff.of_eq (k4_chk86.eq_1 v140))
theorem k4_idx86_inb : ∀ (v140 : IVec S16 32) (k4_hw86 : k4_chk86 v140), ∀ a x, ((![v140] : Fin 1 → IVec S16 32) a x).toNat < S65536.size a := fun v140 k4_hw86 => k4_hw86

def k4_chk87 (v147 : IVec S16 32) : Prop :=
  (∀ a x, ((![v147] : Fin 1 → IVec S16 32) a x).toNat < S65536.size a)
instance k4_chk87.dec : ∀ (v147 : IVec S16 32), Decidable (k4_chk87 v147) := fun v147 => decidable_of_iff' _ (Iff.of_eq (k4_chk87.eq_1 v147))
theorem k4_idx87_inb : ∀ (v147 : IVec S16 32) (k4_hw87 : k4_chk87 v147), ∀ a x, ((![v147] : Fin 1 → IVec S16 32) a x).toNat < S65536.size a := fun v147 k4_hw87 => k4_hw87

def k4_chk88 (v154 : IVec S16 32) : Prop :=
  (∀ a x, ((![v154] : Fin 1 → IVec S16 32) a x).toNat < S65536.size a)
instance k4_chk88.dec : ∀ (v154 : IVec S16 32), Decidable (k4_chk88 v154) := fun v154 => decidable_of_iff' _ (Iff.of_eq (k4_chk88.eq_1 v154))
theorem k4_idx88_inb : ∀ (v154 : IVec S16 32) (k4_hw88 : k4_chk88 v154), ∀ a x, ((![v154] : Fin 1 → IVec S16 32) a x).toNat < S65536.size a := fun v154 k4_hw88 => k4_hw88

def k4_chk89 (v161 : IVec S16 32) : Prop :=
  (∀ a x, ((![v161] : Fin 1 → IVec S16 32) a x).toNat < S65536.size a)
instance k4_chk89.dec : ∀ (v161 : IVec S16 32), Decidable (k4_chk89 v161) := fun v161 => decidable_of_iff' _ (Iff.of_eq (k4_chk89.eq_1 v161))
theorem k4_idx89_inb : ∀ (v161 : IVec S16 32) (k4_hw89 : k4_chk89 v161), ∀ a x, ((![v161] : Fin 1 → IVec S16 32) a x).toNat < S65536.size a := fun v161 k4_hw89 => k4_hw89

def k4_chk90 (v168 : IVec S16 32) : Prop :=
  (∀ a x, ((![v168] : Fin 1 → IVec S16 32) a x).toNat < S65536.size a)
instance k4_chk90.dec : ∀ (v168 : IVec S16 32), Decidable (k4_chk90 v168) := fun v168 => decidable_of_iff' _ (Iff.of_eq (k4_chk90.eq_1 v168))
theorem k4_idx90_inb : ∀ (v168 : IVec S16 32) (k4_hw90 : k4_chk90 v168), ∀ a x, ((![v168] : Fin 1 → IVec S16 32) a x).toNat < S65536.size a := fun v168 k4_hw90 => k4_hw90

def k4_chk91 (v175 : IVec S16 32) : Prop :=
  (∀ a x, ((![v175] : Fin 1 → IVec S16 32) a x).toNat < S65536.size a)
instance k4_chk91.dec : ∀ (v175 : IVec S16 32), Decidable (k4_chk91 v175) := fun v175 => decidable_of_iff' _ (Iff.of_eq (k4_chk91.eq_1 v175))
theorem k4_idx91_inb : ∀ (v175 : IVec S16 32) (k4_hw91 : k4_chk91 v175), ∀ a x, ((![v175] : Fin 1 → IVec S16 32) a x).toNat < S65536.size a := fun v175 k4_hw91 => k4_hw91

def k4_chk92 (v182 : IVec S16 32) : Prop :=
  (∀ a x, ((![v182] : Fin 1 → IVec S16 32) a x).toNat < S65536.size a)
instance k4_chk92.dec : ∀ (v182 : IVec S16 32), Decidable (k4_chk92 v182) := fun v182 => decidable_of_iff' _ (Iff.of_eq (k4_chk92.eq_1 v182))
theorem k4_idx92_inb : ∀ (v182 : IVec S16 32) (k4_hw92 : k4_chk92 v182), ∀ a x, ((![v182] : Fin 1 → IVec S16 32) a x).toNat < S65536.size a := fun v182 k4_hw92 => k4_hw92

def k4_chk93 (v189 : IVec S16 32) : Prop :=
  (∀ a x, ((![v189] : Fin 1 → IVec S16 32) a x).toNat < S65536.size a)
instance k4_chk93.dec : ∀ (v189 : IVec S16 32), Decidable (k4_chk93 v189) := fun v189 => decidable_of_iff' _ (Iff.of_eq (k4_chk93.eq_1 v189))
theorem k4_idx93_inb : ∀ (v189 : IVec S16 32) (k4_hw93 : k4_chk93 v189), ∀ a x, ((![v189] : Fin 1 → IVec S16 32) a x).toNat < S65536.size a := fun v189 k4_hw93 => k4_hw93

def k4_chk94 (v196 : IVec S16 32) : Prop :=
  (∀ a x, ((![v196] : Fin 1 → IVec S16 32) a x).toNat < S65536.size a)
instance k4_chk94.dec : ∀ (v196 : IVec S16 32), Decidable (k4_chk94 v196) := fun v196 => decidable_of_iff' _ (Iff.of_eq (k4_chk94.eq_1 v196))
theorem k4_idx94_inb : ∀ (v196 : IVec S16 32) (k4_hw94 : k4_chk94 v196), ∀ a x, ((![v196] : Fin 1 → IVec S16 32) a x).toNat < S65536.size a := fun v196 k4_hw94 => k4_hw94

def k4_chk95 (v203 : IVec S16 32) : Prop :=
  (∀ a x, ((![v203] : Fin 1 → IVec S16 32) a x).toNat < S65536.size a)
instance k4_chk95.dec : ∀ (v203 : IVec S16 32), Decidable (k4_chk95 v203) := fun v203 => decidable_of_iff' _ (Iff.of_eq (k4_chk95.eq_1 v203))
theorem k4_idx95_inb : ∀ (v203 : IVec S16 32) (k4_hw95 : k4_chk95 v203), ∀ a x, ((![v203] : Fin 1 → IVec S16 32) a x).toNat < S65536.size a := fun v203 k4_hw95 => k4_hw95

def k4_chk96 (v210 : IVec S16 32) : Prop :=
  (∀ a x, ((![v210] : Fin 1 → IVec S16 32) a x).toNat < S65536.size a)
instance k4_chk96.dec : ∀ (v210 : IVec S16 32), Decidable (k4_chk96 v210) := fun v210 => decidable_of_iff' _ (Iff.of_eq (k4_chk96.eq_1 v210))
theorem k4_idx96_inb : ∀ (v210 : IVec S16 32) (k4_hw96 : k4_chk96 v210), ∀ a x, ((![v210] : Fin 1 → IVec S16 32) a x).toNat < S65536.size a := fun v210 k4_hw96 => k4_hw96

def k4_chk97 (v217 : IVec S16 32) : Prop :=
  (∀ a x, ((![v217] : Fin 1 → IVec S16 32) a x).toNat < S65536.size a)
instance k4_chk97.dec : ∀ (v217 : IVec S16 32), Decidable (k4_chk97 v217) := fun v217 => decidable_of_iff' _ (Iff.of_eq (k4_chk97.eq_1 v217))
theorem k4_idx97_inb : ∀ (v217 : IVec S16 32) (k4_hw97 : k4_chk97 v217), ∀ a x, ((![v217] : Fin 1 → IVec S16 32) a x).toNat < S65536.size a := fun v217 k4_hw97 => k4_hw97

def k4_chk98 (v224 : IVec S16 32) : Prop :=
  (∀ a x, ((![v224] : Fin 1 → IVec S16 32) a x).toNat < S65536.size a)
instance k4_chk98.dec : ∀ (v224 : IVec S16 32), Decidable (k4_chk98 v224) := fun v224 => decidable_of_iff' _ (Iff.of_eq (k4_chk98.eq_1 v224))
theorem k4_idx98_inb : ∀ (v224 : IVec S16 32) (k4_hw98 : k4_chk98 v224), ∀ a x, ((![v224] : Fin 1 → IVec S16 32) a x).toNat < S65536.size a := fun v224 k4_hw98 => k4_hw98

def k4_chk99 (v231 : IVec S16 32) : Prop :=
  (∀ a x, ((![v231] : Fin 1 → IVec S16 32) a x).toNat < S65536.size a)
instance k4_chk99.dec : ∀ (v231 : IVec S16 32), Decidable (k4_chk99 v231) := fun v231 => decidable_of_iff' _ (Iff.of_eq (k4_chk99.eq_1 v231))
theorem k4_idx99_inb : ∀ (v231 : IVec S16 32) (k4_hw99 : k4_chk99 v231), ∀ a x, ((![v231] : Fin 1 → IVec S16 32) a x).toNat < S65536.size a := fun v231 k4_hw99 => k4_hw99

def k4_chk100 (v238 : IVec S16 32) : Prop :=
  (∀ a x, ((![v238] : Fin 1 → IVec S16 32) a x).toNat < S65536.size a)
instance k4_chk100.dec : ∀ (v238 : IVec S16 32), Decidable (k4_chk100 v238) := fun v238 => decidable_of_iff' _ (Iff.of_eq (k4_chk100.eq_1 v238))
theorem k4_idx100_inb : ∀ (v238 : IVec S16 32) (k4_hw100 : k4_chk100 v238), ∀ a x, ((![v238] : Fin 1 → IVec S16 32) a x).toNat < S65536.size a := fun v238 k4_hw100 => k4_hw100

def k4_chk101 (v245 : IVec S16 32) : Prop :=
  (∀ a x, ((![v245] : Fin 1 → IVec S16 32) a x).toNat < S65536.size a)
instance k4_chk101.dec : ∀ (v245 : IVec S16 32), Decidable (k4_chk101 v245) := fun v245 => decidable_of_iff' _ (Iff.of_eq (k4_chk101.eq_1 v245))
theorem k4_idx101_inb : ∀ (v245 : IVec S16 32) (k4_hw101 : k4_chk101 v245), ∀ a x, ((![v245] : Fin 1 → IVec S16 32) a x).toNat < S65536.size a := fun v245 k4_hw101 => k4_hw101

def k4_chk102 (v252 : IVec S16 32) : Prop :=
  (∀ a x, ((![v252] : Fin 1 → IVec S16 32) a x).toNat < S65536.size a)
instance k4_chk102.dec : ∀ (v252 : IVec S16 32), Decidable (k4_chk102 v252) := fun v252 => decidable_of_iff' _ (Iff.of_eq (k4_chk102.eq_1 v252))
theorem k4_idx102_inb : ∀ (v252 : IVec S16 32) (k4_hw102 : k4_chk102 v252), ∀ a x, ((![v252] : Fin 1 → IVec S16 32) a x).toNat < S65536.size a := fun v252 k4_hw102 => k4_hw102

def k4_chk103 (v259 : IVec S16 32) : Prop :=
  (∀ a x, ((![v259] : Fin 1 → IVec S16 32) a x).toNat < S65536.size a)
instance k4_chk103.dec : ∀ (v259 : IVec S16 32), Decidable (k4_chk103 v259) := fun v259 => decidable_of_iff' _ (Iff.of_eq (k4_chk103.eq_1 v259))
theorem k4_idx103_inb : ∀ (v259 : IVec S16 32) (k4_hw103 : k4_chk103 v259), ∀ a x, ((![v259] : Fin 1 → IVec S16 32) a x).toNat < S65536.size a := fun v259 k4_hw103 => k4_hw103

def k4_chk104 (v266 : IVec S16 32) : Prop :=
  (∀ a x, ((![v266] : Fin 1 → IVec S16 32) a x).toNat < S65536.size a)
instance k4_chk104.dec : ∀ (v266 : IVec S16 32), Decidable (k4_chk104 v266) := fun v266 => decidable_of_iff' _ (Iff.of_eq (k4_chk104.eq_1 v266))
theorem k4_idx104_inb : ∀ (v266 : IVec S16 32) (k4_hw104 : k4_chk104 v266), ∀ a x, ((![v266] : Fin 1 → IVec S16 32) a x).toNat < S65536.size a := fun v266 k4_hw104 => k4_hw104

def k4_chk105 (v273 : IVec S16 32) : Prop :=
  (∀ a x, ((![v273] : Fin 1 → IVec S16 32) a x).toNat < S65536.size a)
instance k4_chk105.dec : ∀ (v273 : IVec S16 32), Decidable (k4_chk105 v273) := fun v273 => decidable_of_iff' _ (Iff.of_eq (k4_chk105.eq_1 v273))
theorem k4_idx105_inb : ∀ (v273 : IVec S16 32) (k4_hw105 : k4_chk105 v273), ∀ a x, ((![v273] : Fin 1 → IVec S16 32) a x).toNat < S65536.size a := fun v273 k4_hw105 => k4_hw105

def k4_chk106 (v280 : IVec S16 32) : Prop :=
  (∀ a x, ((![v280] : Fin 1 → IVec S16 32) a x).toNat < S65536.size a)
instance k4_chk106.dec : ∀ (v280 : IVec S16 32), Decidable (k4_chk106 v280) := fun v280 => decidable_of_iff' _ (Iff.of_eq (k4_chk106.eq_1 v280))
theorem k4_idx106_inb : ∀ (v280 : IVec S16 32) (k4_hw106 : k4_chk106 v280), ∀ a x, ((![v280] : Fin 1 → IVec S16 32) a x).toNat < S65536.size a := fun v280 k4_hw106 => k4_hw106

def k4_chk107 (v287 : IVec S16 32) : Prop :=
  (∀ a x, ((![v287] : Fin 1 → IVec S16 32) a x).toNat < S65536.size a)
instance k4_chk107.dec : ∀ (v287 : IVec S16 32), Decidable (k4_chk107 v287) := fun v287 => decidable_of_iff' _ (Iff.of_eq (k4_chk107.eq_1 v287))
theorem k4_idx107_inb : ∀ (v287 : IVec S16 32) (k4_hw107 : k4_chk107 v287), ∀ a x, ((![v287] : Fin 1 → IVec S16 32) a x).toNat < S65536.size a := fun v287 k4_hw107 => k4_hw107

def k4_chk108 (v294 : IVec S16 32) : Prop :=
  (∀ a x, ((![v294] : Fin 1 → IVec S16 32) a x).toNat < S65536.size a)
instance k4_chk108.dec : ∀ (v294 : IVec S16 32), Decidable (k4_chk108 v294) := fun v294 => decidable_of_iff' _ (Iff.of_eq (k4_chk108.eq_1 v294))
theorem k4_idx108_inb : ∀ (v294 : IVec S16 32) (k4_hw108 : k4_chk108 v294), ∀ a x, ((![v294] : Fin 1 → IVec S16 32) a x).toNat < S65536.size a := fun v294 k4_hw108 => k4_hw108

def k4_chk109 (v301 : IVec S16 32) : Prop :=
  (∀ a x, ((![v301] : Fin 1 → IVec S16 32) a x).toNat < S65536.size a)
instance k4_chk109.dec : ∀ (v301 : IVec S16 32), Decidable (k4_chk109 v301) := fun v301 => decidable_of_iff' _ (Iff.of_eq (k4_chk109.eq_1 v301))
theorem k4_idx109_inb : ∀ (v301 : IVec S16 32) (k4_hw109 : k4_chk109 v301), ∀ a x, ((![v301] : Fin 1 → IVec S16 32) a x).toNat < S65536.size a := fun v301 k4_hw109 => k4_hw109

def k4_chk110 (v308 : IVec S16 32) : Prop :=
  (∀ a x, ((![v308] : Fin 1 → IVec S16 32) a x).toNat < S65536.size a)
instance k4_chk110.dec : ∀ (v308 : IVec S16 32), Decidable (k4_chk110 v308) := fun v308 => decidable_of_iff' _ (Iff.of_eq (k4_chk110.eq_1 v308))
theorem k4_idx110_inb : ∀ (v308 : IVec S16 32) (k4_hw110 : k4_chk110 v308), ∀ a x, ((![v308] : Fin 1 → IVec S16 32) a x).toNat < S65536.size a := fun v308 k4_hw110 => k4_hw110

def k4_chk111 (v315 : IVec S16 32) : Prop :=
  (∀ a x, ((![v315] : Fin 1 → IVec S16 32) a x).toNat < S65536.size a)
instance k4_chk111.dec : ∀ (v315 : IVec S16 32), Decidable (k4_chk111 v315) := fun v315 => decidable_of_iff' _ (Iff.of_eq (k4_chk111.eq_1 v315))
theorem k4_idx111_inb : ∀ (v315 : IVec S16 32) (k4_hw111 : k4_chk111 v315), ∀ a x, ((![v315] : Fin 1 → IVec S16 32) a x).toNat < S65536.size a := fun v315 k4_hw111 => k4_hw111

def k4_chk112 (v322 : IVec S16 32) : Prop :=
  (∀ a x, ((![v322] : Fin 1 → IVec S16 32) a x).toNat < S65536.size a)
instance k4_chk112.dec : ∀ (v322 : IVec S16 32), Decidable (k4_chk112 v322) := fun v322 => decidable_of_iff' _ (Iff.of_eq (k4_chk112.eq_1 v322))
theorem k4_idx112_inb : ∀ (v322 : IVec S16 32) (k4_hw112 : k4_chk112 v322), ∀ a x, ((![v322] : Fin 1 → IVec S16 32) a x).toNat < S65536.size a := fun v322 k4_hw112 => k4_hw112

def k4_chk113 (v329 : IVec S16 32) : Prop :=
  (∀ a x, ((![v329] : Fin 1 → IVec S16 32) a x).toNat < S65536.size a)
instance k4_chk113.dec : ∀ (v329 : IVec S16 32), Decidable (k4_chk113 v329) := fun v329 => decidable_of_iff' _ (Iff.of_eq (k4_chk113.eq_1 v329))
theorem k4_idx113_inb : ∀ (v329 : IVec S16 32) (k4_hw113 : k4_chk113 v329), ∀ a x, ((![v329] : Fin 1 → IVec S16 32) a x).toNat < S65536.size a := fun v329 k4_hw113 => k4_hw113

def k4_chk114 (v336 : IVec S16 32) : Prop :=
  (∀ a x, ((![v336] : Fin 1 → IVec S16 32) a x).toNat < S65536.size a)
instance k4_chk114.dec : ∀ (v336 : IVec S16 32), Decidable (k4_chk114 v336) := fun v336 => decidable_of_iff' _ (Iff.of_eq (k4_chk114.eq_1 v336))
theorem k4_idx114_inb : ∀ (v336 : IVec S16 32) (k4_hw114 : k4_chk114 v336), ∀ a x, ((![v336] : Fin 1 → IVec S16 32) a x).toNat < S65536.size a := fun v336 k4_hw114 => k4_hw114

def k4_chk115 (v343 : IVec S16 32) : Prop :=
  (∀ a x, ((![v343] : Fin 1 → IVec S16 32) a x).toNat < S65536.size a)
instance k4_chk115.dec : ∀ (v343 : IVec S16 32), Decidable (k4_chk115 v343) := fun v343 => decidable_of_iff' _ (Iff.of_eq (k4_chk115.eq_1 v343))
theorem k4_idx115_inb : ∀ (v343 : IVec S16 32) (k4_hw115 : k4_chk115 v343), ∀ a x, ((![v343] : Fin 1 → IVec S16 32) a x).toNat < S65536.size a := fun v343 k4_hw115 => k4_hw115

def k4_chk116 (v350 : IVec S16 32) : Prop :=
  (∀ a x, ((![v350] : Fin 1 → IVec S16 32) a x).toNat < S65536.size a)
instance k4_chk116.dec : ∀ (v350 : IVec S16 32), Decidable (k4_chk116 v350) := fun v350 => decidable_of_iff' _ (Iff.of_eq (k4_chk116.eq_1 v350))
theorem k4_idx116_inb : ∀ (v350 : IVec S16 32) (k4_hw116 : k4_chk116 v350), ∀ a x, ((![v350] : Fin 1 → IVec S16 32) a x).toNat < S65536.size a := fun v350 k4_hw116 => k4_hw116

def k4_chk117 (v357 : IVec S16 32) : Prop :=
  (∀ a x, ((![v357] : Fin 1 → IVec S16 32) a x).toNat < S65536.size a)
instance k4_chk117.dec : ∀ (v357 : IVec S16 32), Decidable (k4_chk117 v357) := fun v357 => decidable_of_iff' _ (Iff.of_eq (k4_chk117.eq_1 v357))
theorem k4_idx117_inb : ∀ (v357 : IVec S16 32) (k4_hw117 : k4_chk117 v357), ∀ a x, ((![v357] : Fin 1 → IVec S16 32) a x).toNat < S65536.size a := fun v357 k4_hw117 => k4_hw117

def k4_chk118 (v364 : IVec S16 32) : Prop :=
  (∀ a x, ((![v364] : Fin 1 → IVec S16 32) a x).toNat < S65536.size a)
instance k4_chk118.dec : ∀ (v364 : IVec S16 32), Decidable (k4_chk118 v364) := fun v364 => decidable_of_iff' _ (Iff.of_eq (k4_chk118.eq_1 v364))
theorem k4_idx118_inb : ∀ (v364 : IVec S16 32) (k4_hw118 : k4_chk118 v364), ∀ a x, ((![v364] : Fin 1 → IVec S16 32) a x).toNat < S65536.size a := fun v364 k4_hw118 => k4_hw118

def k4_chk119 (v371 : IVec S16 32) : Prop :=
  (∀ a x, ((![v371] : Fin 1 → IVec S16 32) a x).toNat < S65536.size a)
instance k4_chk119.dec : ∀ (v371 : IVec S16 32), Decidable (k4_chk119 v371) := fun v371 => decidable_of_iff' _ (Iff.of_eq (k4_chk119.eq_1 v371))
theorem k4_idx119_inb : ∀ (v371 : IVec S16 32) (k4_hw119 : k4_chk119 v371), ∀ a x, ((![v371] : Fin 1 → IVec S16 32) a x).toNat < S65536.size a := fun v371 k4_hw119 => k4_hw119

def k4_chk120 (v378 : IVec S16 32) : Prop :=
  (∀ a x, ((![v378] : Fin 1 → IVec S16 32) a x).toNat < S65536.size a)
instance k4_chk120.dec : ∀ (v378 : IVec S16 32), Decidable (k4_chk120 v378) := fun v378 => decidable_of_iff' _ (Iff.of_eq (k4_chk120.eq_1 v378))
theorem k4_idx120_inb : ∀ (v378 : IVec S16 32) (k4_hw120 : k4_chk120 v378), ∀ a x, ((![v378] : Fin 1 → IVec S16 32) a x).toNat < S65536.size a := fun v378 k4_hw120 => k4_hw120

def k4_chk121 (v385 : IVec S16 32) : Prop :=
  (∀ a x, ((![v385] : Fin 1 → IVec S16 32) a x).toNat < S65536.size a)
instance k4_chk121.dec : ∀ (v385 : IVec S16 32), Decidable (k4_chk121 v385) := fun v385 => decidable_of_iff' _ (Iff.of_eq (k4_chk121.eq_1 v385))
theorem k4_idx121_inb : ∀ (v385 : IVec S16 32) (k4_hw121 : k4_chk121 v385), ∀ a x, ((![v385] : Fin 1 → IVec S16 32) a x).toNat < S65536.size a := fun v385 k4_hw121 => k4_hw121

def k4_chk122 (v392 : IVec S16 32) : Prop :=
  (∀ a x, ((![v392] : Fin 1 → IVec S16 32) a x).toNat < S65536.size a)
instance k4_chk122.dec : ∀ (v392 : IVec S16 32), Decidable (k4_chk122 v392) := fun v392 => decidable_of_iff' _ (Iff.of_eq (k4_chk122.eq_1 v392))
theorem k4_idx122_inb : ∀ (v392 : IVec S16 32) (k4_hw122 : k4_chk122 v392), ∀ a x, ((![v392] : Fin 1 → IVec S16 32) a x).toNat < S65536.size a := fun v392 k4_hw122 => k4_hw122

def k4_chk123 (v399 : IVec S16 32) : Prop :=
  (∀ a x, ((![v399] : Fin 1 → IVec S16 32) a x).toNat < S65536.size a)
instance k4_chk123.dec : ∀ (v399 : IVec S16 32), Decidable (k4_chk123 v399) := fun v399 => decidable_of_iff' _ (Iff.of_eq (k4_chk123.eq_1 v399))
theorem k4_idx123_inb : ∀ (v399 : IVec S16 32) (k4_hw123 : k4_chk123 v399), ∀ a x, ((![v399] : Fin 1 → IVec S16 32) a x).toNat < S65536.size a := fun v399 k4_hw123 => k4_hw123

def k4_chk124 (v406 : IVec S16 32) : Prop :=
  (∀ a x, ((![v406] : Fin 1 → IVec S16 32) a x).toNat < S65536.size a)
instance k4_chk124.dec : ∀ (v406 : IVec S16 32), Decidable (k4_chk124 v406) := fun v406 => decidable_of_iff' _ (Iff.of_eq (k4_chk124.eq_1 v406))
theorem k4_idx124_inb : ∀ (v406 : IVec S16 32) (k4_hw124 : k4_chk124 v406), ∀ a x, ((![v406] : Fin 1 → IVec S16 32) a x).toNat < S65536.size a := fun v406 k4_hw124 => k4_hw124

def k4_chk125 (v413 : IVec S16 32) : Prop :=
  (∀ a x, ((![v413] : Fin 1 → IVec S16 32) a x).toNat < S65536.size a)
instance k4_chk125.dec : ∀ (v413 : IVec S16 32), Decidable (k4_chk125 v413) := fun v413 => decidable_of_iff' _ (Iff.of_eq (k4_chk125.eq_1 v413))
theorem k4_idx125_inb : ∀ (v413 : IVec S16 32) (k4_hw125 : k4_chk125 v413), ∀ a x, ((![v413] : Fin 1 → IVec S16 32) a x).toNat < S65536.size a := fun v413 k4_hw125 => k4_hw125

def k4_chk126 (v420 : IVec S16 32) : Prop :=
  (∀ a x, ((![v420] : Fin 1 → IVec S16 32) a x).toNat < S65536.size a)
instance k4_chk126.dec : ∀ (v420 : IVec S16 32), Decidable (k4_chk126 v420) := fun v420 => decidable_of_iff' _ (Iff.of_eq (k4_chk126.eq_1 v420))
theorem k4_idx126_inb : ∀ (v420 : IVec S16 32) (k4_hw126 : k4_chk126 v420), ∀ a x, ((![v420] : Fin 1 → IVec S16 32) a x).toNat < S65536.size a := fun v420 k4_hw126 => k4_hw126

def k4_chk127 (v427 : IVec S16 32) : Prop :=
  (∀ a x, ((![v427] : Fin 1 → IVec S16 32) a x).toNat < S65536.size a)
instance k4_chk127.dec : ∀ (v427 : IVec S16 32), Decidable (k4_chk127 v427) := fun v427 => decidable_of_iff' _ (Iff.of_eq (k4_chk127.eq_1 v427))
theorem k4_idx127_inb : ∀ (v427 : IVec S16 32) (k4_hw127 : k4_chk127 v427), ∀ a x, ((![v427] : Fin 1 → IVec S16 32) a x).toNat < S65536.size a := fun v427 k4_hw127 => k4_hw127

def k4_chk128 (v434 : IVec S16 32) : Prop :=
  (∀ a x, ((![v434] : Fin 1 → IVec S16 32) a x).toNat < S65536.size a)
instance k4_chk128.dec : ∀ (v434 : IVec S16 32), Decidable (k4_chk128 v434) := fun v434 => decidable_of_iff' _ (Iff.of_eq (k4_chk128.eq_1 v434))
theorem k4_idx128_inb : ∀ (v434 : IVec S16 32) (k4_hw128 : k4_chk128 v434), ∀ a x, ((![v434] : Fin 1 → IVec S16 32) a x).toNat < S65536.size a := fun v434 k4_hw128 => k4_hw128

def k4_chk129 (v441 : IVec S16 32) : Prop :=
  (∀ a x, ((![v441] : Fin 1 → IVec S16 32) a x).toNat < S65536.size a)
instance k4_chk129.dec : ∀ (v441 : IVec S16 32), Decidable (k4_chk129 v441) := fun v441 => decidable_of_iff' _ (Iff.of_eq (k4_chk129.eq_1 v441))
theorem k4_idx129_inb : ∀ (v441 : IVec S16 32) (k4_hw129 : k4_chk129 v441), ∀ a x, ((![v441] : Fin 1 → IVec S16 32) a x).toNat < S65536.size a := fun v441 k4_hw129 => k4_hw129

def k4_chk130 (v448 : IVec S16 32) : Prop :=
  (∀ a x, ((![v448] : Fin 1 → IVec S16 32) a x).toNat < S65536.size a)
instance k4_chk130.dec : ∀ (v448 : IVec S16 32), Decidable (k4_chk130 v448) := fun v448 => decidable_of_iff' _ (Iff.of_eq (k4_chk130.eq_1 v448))
theorem k4_idx130_inb : ∀ (v448 : IVec S16 32) (k4_hw130 : k4_chk130 v448), ∀ a x, ((![v448] : Fin 1 → IVec S16 32) a x).toNat < S65536.size a := fun v448 k4_hw130 => k4_hw130

def k4_chk131 (v455 : IVec S16 32) : Prop :=
  (∀ a x, ((![v455] : Fin 1 → IVec S16 32) a x).toNat < S65536.size a)
instance k4_chk131.dec : ∀ (v455 : IVec S16 32), Decidable (k4_chk131 v455) := fun v455 => decidable_of_iff' _ (Iff.of_eq (k4_chk131.eq_1 v455))
theorem k4_idx131_inb : ∀ (v455 : IVec S16 32) (k4_hw131 : k4_chk131 v455), ∀ a x, ((![v455] : Fin 1 → IVec S16 32) a x).toNat < S65536.size a := fun v455 k4_hw131 => k4_hw131

def k4_chk132 (v462 : IVec S16 32) : Prop :=
  (∀ a x, ((![v462] : Fin 1 → IVec S16 32) a x).toNat < S65536.size a)
instance k4_chk132.dec : ∀ (v462 : IVec S16 32), Decidable (k4_chk132 v462) := fun v462 => decidable_of_iff' _ (Iff.of_eq (k4_chk132.eq_1 v462))
theorem k4_idx132_inb : ∀ (v462 : IVec S16 32) (k4_hw132 : k4_chk132 v462), ∀ a x, ((![v462] : Fin 1 → IVec S16 32) a x).toNat < S65536.size a := fun v462 k4_hw132 => k4_hw132

def k4_chk133 (v469 : IVec S16 32) : Prop :=
  (∀ a x, ((![v469] : Fin 1 → IVec S16 32) a x).toNat < S65536.size a)
instance k4_chk133.dec : ∀ (v469 : IVec S16 32), Decidable (k4_chk133 v469) := fun v469 => decidable_of_iff' _ (Iff.of_eq (k4_chk133.eq_1 v469))
theorem k4_idx133_inb : ∀ (v469 : IVec S16 32) (k4_hw133 : k4_chk133 v469), ∀ a x, ((![v469] : Fin 1 → IVec S16 32) a x).toNat < S65536.size a := fun v469 k4_hw133 => k4_hw133

def k4_chk134 (v476 : IVec S16 32) : Prop :=
  (∀ a x, ((![v476] : Fin 1 → IVec S16 32) a x).toNat < S65536.size a)
instance k4_chk134.dec : ∀ (v476 : IVec S16 32), Decidable (k4_chk134 v476) := fun v476 => decidable_of_iff' _ (Iff.of_eq (k4_chk134.eq_1 v476))
theorem k4_idx134_inb : ∀ (v476 : IVec S16 32) (k4_hw134 : k4_chk134 v476), ∀ a x, ((![v476] : Fin 1 → IVec S16 32) a x).toNat < S65536.size a := fun v476 k4_hw134 => k4_hw134

def k4_chk135 (v483 : IVec S16 32) : Prop :=
  (∀ a x, ((![v483] : Fin 1 → IVec S16 32) a x).toNat < S65536.size a)
instance k4_chk135.dec : ∀ (v483 : IVec S16 32), Decidable (k4_chk135 v483) := fun v483 => decidable_of_iff' _ (Iff.of_eq (k4_chk135.eq_1 v483))
theorem k4_idx135_inb : ∀ (v483 : IVec S16 32) (k4_hw135 : k4_chk135 v483), ∀ a x, ((![v483] : Fin 1 → IVec S16 32) a x).toNat < S65536.size a := fun v483 k4_hw135 => k4_hw135

def k4_chk136 (v490 : IVec S16 32) : Prop :=
  (∀ a x, ((![v490] : Fin 1 → IVec S16 32) a x).toNat < S65536.size a)
instance k4_chk136.dec : ∀ (v490 : IVec S16 32), Decidable (k4_chk136 v490) := fun v490 => decidable_of_iff' _ (Iff.of_eq (k4_chk136.eq_1 v490))
theorem k4_idx136_inb : ∀ (v490 : IVec S16 32) (k4_hw136 : k4_chk136 v490), ∀ a x, ((![v490] : Fin 1 → IVec S16 32) a x).toNat < S65536.size a := fun v490 k4_hw136 => k4_hw136

def k4_chk137 (v497 : IVec S16 32) : Prop :=
  (∀ a x, ((![v497] : Fin 1 → IVec S16 32) a x).toNat < S65536.size a)
instance k4_chk137.dec : ∀ (v497 : IVec S16 32), Decidable (k4_chk137 v497) := fun v497 => decidable_of_iff' _ (Iff.of_eq (k4_chk137.eq_1 v497))
theorem k4_idx137_inb : ∀ (v497 : IVec S16 32) (k4_hw137 : k4_chk137 v497), ∀ a x, ((![v497] : Fin 1 → IVec S16 32) a x).toNat < S65536.size a := fun v497 k4_hw137 => k4_hw137

def k4_chk138 (v504 : IVec S16 32) : Prop :=
  (∀ a x, ((![v504] : Fin 1 → IVec S16 32) a x).toNat < S65536.size a)
instance k4_chk138.dec : ∀ (v504 : IVec S16 32), Decidable (k4_chk138 v504) := fun v504 => decidable_of_iff' _ (Iff.of_eq (k4_chk138.eq_1 v504))
theorem k4_idx138_inb : ∀ (v504 : IVec S16 32) (k4_hw138 : k4_chk138 v504), ∀ a x, ((![v504] : Fin 1 → IVec S16 32) a x).toNat < S65536.size a := fun v504 k4_hw138 => k4_hw138

def k4_chk139 (v511 : IVec S16 32) : Prop :=
  (∀ a x, ((![v511] : Fin 1 → IVec S16 32) a x).toNat < S65536.size a)
instance k4_chk139.dec : ∀ (v511 : IVec S16 32), Decidable (k4_chk139 v511) := fun v511 => decidable_of_iff' _ (Iff.of_eq (k4_chk139.eq_1 v511))
theorem k4_idx139_inb : ∀ (v511 : IVec S16 32) (k4_hw139 : k4_chk139 v511), ∀ a x, ((![v511] : Fin 1 → IVec S16 32) a x).toNat < S65536.size a := fun v511 k4_hw139 => k4_hw139

def k4_chk140 (v518 : IVec S16 32) : Prop :=
  (∀ a x, ((![v518] : Fin 1 → IVec S16 32) a x).toNat < S65536.size a)
instance k4_chk140.dec : ∀ (v518 : IVec S16 32), Decidable (k4_chk140 v518) := fun v518 => decidable_of_iff' _ (Iff.of_eq (k4_chk140.eq_1 v518))
theorem k4_idx140_inb : ∀ (v518 : IVec S16 32) (k4_hw140 : k4_chk140 v518), ∀ a x, ((![v518] : Fin 1 → IVec S16 32) a x).toNat < S65536.size a := fun v518 k4_hw140 => k4_hw140

def k4_chk141 (v525 : IVec S16 32) : Prop :=
  (∀ a x, ((![v525] : Fin 1 → IVec S16 32) a x).toNat < S65536.size a)
instance k4_chk141.dec : ∀ (v525 : IVec S16 32), Decidable (k4_chk141 v525) := fun v525 => decidable_of_iff' _ (Iff.of_eq (k4_chk141.eq_1 v525))
theorem k4_idx141_inb : ∀ (v525 : IVec S16 32) (k4_hw141 : k4_chk141 v525), ∀ a x, ((![v525] : Fin 1 → IVec S16 32) a x).toNat < S65536.size a := fun v525 k4_hw141 => k4_hw141

def k4_chk142 (v532 : IVec S16 32) : Prop :=
  (∀ a x, ((![v532] : Fin 1 → IVec S16 32) a x).toNat < S65536.size a)
instance k4_chk142.dec : ∀ (v532 : IVec S16 32), Decidable (k4_chk142 v532) := fun v532 => decidable_of_iff' _ (Iff.of_eq (k4_chk142.eq_1 v532))
theorem k4_idx142_inb : ∀ (v532 : IVec S16 32) (k4_hw142 : k4_chk142 v532), ∀ a x, ((![v532] : Fin 1 → IVec S16 32) a x).toNat < S65536.size a := fun v532 k4_hw142 => k4_hw142

def k4_chk143 (v539 : IVec S16 32) : Prop :=
  (∀ a x, ((![v539] : Fin 1 → IVec S16 32) a x).toNat < S65536.size a)
instance k4_chk143.dec : ∀ (v539 : IVec S16 32), Decidable (k4_chk143 v539) := fun v539 => decidable_of_iff' _ (Iff.of_eq (k4_chk143.eq_1 v539))
theorem k4_idx143_inb : ∀ (v539 : IVec S16 32) (k4_hw143 : k4_chk143 v539), ∀ a x, ((![v539] : Fin 1 → IVec S16 32) a x).toNat < S65536.size a := fun v539 k4_hw143 => k4_hw143

def k4_chk144 (v546 : IVec S16 32) : Prop :=
  (∀ a x, ((![v546] : Fin 1 → IVec S16 32) a x).toNat < S65536.size a)
instance k4_chk144.dec : ∀ (v546 : IVec S16 32), Decidable (k4_chk144 v546) := fun v546 => decidable_of_iff' _ (Iff.of_eq (k4_chk144.eq_1 v546))
theorem k4_idx144_inb : ∀ (v546 : IVec S16 32) (k4_hw144 : k4_chk144 v546), ∀ a x, ((![v546] : Fin 1 → IVec S16 32) a x).toNat < S65536.size a := fun v546 k4_hw144 => k4_hw144

def k4_chk145 (v553 : IVec S16 32) : Prop :=
  (∀ a x, ((![v553] : Fin 1 → IVec S16 32) a x).toNat < S65536.size a)
instance k4_chk145.dec : ∀ (v553 : IVec S16 32), Decidable (k4_chk145 v553) := fun v553 => decidable_of_iff' _ (Iff.of_eq (k4_chk145.eq_1 v553))
theorem k4_idx145_inb : ∀ (v553 : IVec S16 32) (k4_hw145 : k4_chk145 v553), ∀ a x, ((![v553] : Fin 1 → IVec S16 32) a x).toNat < S65536.size a := fun v553 k4_hw145 => k4_hw145

def k4_chk146 (v560 : IVec S16 32) : Prop :=
  (∀ a x, ((![v560] : Fin 1 → IVec S16 32) a x).toNat < S65536.size a)
instance k4_chk146.dec : ∀ (v560 : IVec S16 32), Decidable (k4_chk146 v560) := fun v560 => decidable_of_iff' _ (Iff.of_eq (k4_chk146.eq_1 v560))
theorem k4_idx146_inb : ∀ (v560 : IVec S16 32) (k4_hw146 : k4_chk146 v560), ∀ a x, ((![v560] : Fin 1 → IVec S16 32) a x).toNat < S65536.size a := fun v560 k4_hw146 => k4_hw146

def k4_chk147 (v567 : IVec S16 32) : Prop :=
  (∀ a x, ((![v567] : Fin 1 → IVec S16 32) a x).toNat < S65536.size a)
instance k4_chk147.dec : ∀ (v567 : IVec S16 32), Decidable (k4_chk147 v567) := fun v567 => decidable_of_iff' _ (Iff.of_eq (k4_chk147.eq_1 v567))
theorem k4_idx147_inb : ∀ (v567 : IVec S16 32) (k4_hw147 : k4_chk147 v567), ∀ a x, ((![v567] : Fin 1 → IVec S16 32) a x).toNat < S65536.size a := fun v567 k4_hw147 => k4_hw147

def k4_chk148 (v574 : IVec S16 32) : Prop :=
  (∀ a x, ((![v574] : Fin 1 → IVec S16 32) a x).toNat < S65536.size a)
instance k4_chk148.dec : ∀ (v574 : IVec S16 32), Decidable (k4_chk148 v574) := fun v574 => decidable_of_iff' _ (Iff.of_eq (k4_chk148.eq_1 v574))
theorem k4_idx148_inb : ∀ (v574 : IVec S16 32) (k4_hw148 : k4_chk148 v574), ∀ a x, ((![v574] : Fin 1 → IVec S16 32) a x).toNat < S65536.size a := fun v574 k4_hw148 => k4_hw148

def k4_chk149 (v581 : IVec S16 32) : Prop :=
  (∀ a x, ((![v581] : Fin 1 → IVec S16 32) a x).toNat < S65536.size a)
instance k4_chk149.dec : ∀ (v581 : IVec S16 32), Decidable (k4_chk149 v581) := fun v581 => decidable_of_iff' _ (Iff.of_eq (k4_chk149.eq_1 v581))
theorem k4_idx149_inb : ∀ (v581 : IVec S16 32) (k4_hw149 : k4_chk149 v581), ∀ a x, ((![v581] : Fin 1 → IVec S16 32) a x).toNat < S65536.size a := fun v581 k4_hw149 => k4_hw149

def k4_chk150 (v588 : IVec S16 32) : Prop :=
  (∀ a x, ((![v588] : Fin 1 → IVec S16 32) a x).toNat < S65536.size a)
instance k4_chk150.dec : ∀ (v588 : IVec S16 32), Decidable (k4_chk150 v588) := fun v588 => decidable_of_iff' _ (Iff.of_eq (k4_chk150.eq_1 v588))
theorem k4_idx150_inb : ∀ (v588 : IVec S16 32) (k4_hw150 : k4_chk150 v588), ∀ a x, ((![v588] : Fin 1 → IVec S16 32) a x).toNat < S65536.size a := fun v588 k4_hw150 => k4_hw150

def k4_chk151 (v595 : IVec S16 32) : Prop :=
  (∀ a x, ((![v595] : Fin 1 → IVec S16 32) a x).toNat < S65536.size a)
instance k4_chk151.dec : ∀ (v595 : IVec S16 32), Decidable (k4_chk151 v595) := fun v595 => decidable_of_iff' _ (Iff.of_eq (k4_chk151.eq_1 v595))
theorem k4_idx151_inb : ∀ (v595 : IVec S16 32) (k4_hw151 : k4_chk151 v595), ∀ a x, ((![v595] : Fin 1 → IVec S16 32) a x).toNat < S65536.size a := fun v595 k4_hw151 => k4_hw151

def k4_chk152 (v602 : IVec S16 32) : Prop :=
  (∀ a x, ((![v602] : Fin 1 → IVec S16 32) a x).toNat < S65536.size a)
instance k4_chk152.dec : ∀ (v602 : IVec S16 32), Decidable (k4_chk152 v602) := fun v602 => decidable_of_iff' _ (Iff.of_eq (k4_chk152.eq_1 v602))
theorem k4_idx152_inb : ∀ (v602 : IVec S16 32) (k4_hw152 : k4_chk152 v602), ∀ a x, ((![v602] : Fin 1 → IVec S16 32) a x).toNat < S65536.size a := fun v602 k4_hw152 => k4_hw152

def k4_chk153 (v609 : IVec S16 32) : Prop :=
  (∀ a x, ((![v609] : Fin 1 → IVec S16 32) a x).toNat < S65536.size a)
instance k4_chk153.dec : ∀ (v609 : IVec S16 32), Decidable (k4_chk153 v609) := fun v609 => decidable_of_iff' _ (Iff.of_eq (k4_chk153.eq_1 v609))
theorem k4_idx153_inb : ∀ (v609 : IVec S16 32) (k4_hw153 : k4_chk153 v609), ∀ a x, ((![v609] : Fin 1 → IVec S16 32) a x).toNat < S65536.size a := fun v609 k4_hw153 => k4_hw153

def k4_chk154 (v616 : IVec S16 32) : Prop :=
  (∀ a x, ((![v616] : Fin 1 → IVec S16 32) a x).toNat < S65536.size a)
instance k4_chk154.dec : ∀ (v616 : IVec S16 32), Decidable (k4_chk154 v616) := fun v616 => decidable_of_iff' _ (Iff.of_eq (k4_chk154.eq_1 v616))
theorem k4_idx154_inb : ∀ (v616 : IVec S16 32) (k4_hw154 : k4_chk154 v616), ∀ a x, ((![v616] : Fin 1 → IVec S16 32) a x).toNat < S65536.size a := fun v616 k4_hw154 => k4_hw154

def k4_chk155 (v623 : IVec S16 32) : Prop :=
  (∀ a x, ((![v623] : Fin 1 → IVec S16 32) a x).toNat < S65536.size a)
instance k4_chk155.dec : ∀ (v623 : IVec S16 32), Decidable (k4_chk155 v623) := fun v623 => decidable_of_iff' _ (Iff.of_eq (k4_chk155.eq_1 v623))
theorem k4_idx155_inb : ∀ (v623 : IVec S16 32) (k4_hw155 : k4_chk155 v623), ∀ a x, ((![v623] : Fin 1 → IVec S16 32) a x).toNat < S65536.size a := fun v623 k4_hw155 => k4_hw155

def k4_chk156 (v630 : IVec S16 32) : Prop :=
  (∀ a x, ((![v630] : Fin 1 → IVec S16 32) a x).toNat < S65536.size a)
instance k4_chk156.dec : ∀ (v630 : IVec S16 32), Decidable (k4_chk156 v630) := fun v630 => decidable_of_iff' _ (Iff.of_eq (k4_chk156.eq_1 v630))
theorem k4_idx156_inb : ∀ (v630 : IVec S16 32) (k4_hw156 : k4_chk156 v630), ∀ a x, ((![v630] : Fin 1 → IVec S16 32) a x).toNat < S65536.size a := fun v630 k4_hw156 => k4_hw156

def k4_chk157 (v637 : IVec S16 32) : Prop :=
  (∀ a x, ((![v637] : Fin 1 → IVec S16 32) a x).toNat < S65536.size a)
instance k4_chk157.dec : ∀ (v637 : IVec S16 32), Decidable (k4_chk157 v637) := fun v637 => decidable_of_iff' _ (Iff.of_eq (k4_chk157.eq_1 v637))
theorem k4_idx157_inb : ∀ (v637 : IVec S16 32) (k4_hw157 : k4_chk157 v637), ∀ a x, ((![v637] : Fin 1 → IVec S16 32) a x).toNat < S65536.size a := fun v637 k4_hw157 => k4_hw157

def k4_chk158 (v644 : IVec S16 32) : Prop :=
  (∀ a x, ((![v644] : Fin 1 → IVec S16 32) a x).toNat < S65536.size a)
instance k4_chk158.dec : ∀ (v644 : IVec S16 32), Decidable (k4_chk158 v644) := fun v644 => decidable_of_iff' _ (Iff.of_eq (k4_chk158.eq_1 v644))
theorem k4_idx158_inb : ∀ (v644 : IVec S16 32) (k4_hw158 : k4_chk158 v644), ∀ a x, ((![v644] : Fin 1 → IVec S16 32) a x).toNat < S65536.size a := fun v644 k4_hw158 => k4_hw158

def k4_chk159 (v651 : IVec S16 32) : Prop :=
  (∀ a x, ((![v651] : Fin 1 → IVec S16 32) a x).toNat < S65536.size a)
instance k4_chk159.dec : ∀ (v651 : IVec S16 32), Decidable (k4_chk159 v651) := fun v651 => decidable_of_iff' _ (Iff.of_eq (k4_chk159.eq_1 v651))
theorem k4_idx159_inb : ∀ (v651 : IVec S16 32) (k4_hw159 : k4_chk159 v651), ∀ a x, ((![v651] : Fin 1 → IVec S16 32) a x).toNat < S65536.size a := fun v651 k4_hw159 => k4_hw159

def k4_chk160 (v658 : IVec S16 32) : Prop :=
  (∀ a x, ((![v658] : Fin 1 → IVec S16 32) a x).toNat < S65536.size a)
instance k4_chk160.dec : ∀ (v658 : IVec S16 32), Decidable (k4_chk160 v658) := fun v658 => decidable_of_iff' _ (Iff.of_eq (k4_chk160.eq_1 v658))
theorem k4_idx160_inb : ∀ (v658 : IVec S16 32) (k4_hw160 : k4_chk160 v658), ∀ a x, ((![v658] : Fin 1 → IVec S16 32) a x).toNat < S65536.size a := fun v658 k4_hw160 => k4_hw160
def k4_off46 (k4_t3 : Fin k4_t3_loop.trips) (k4_t4 : Fin k4_t4_loop.trips) (c0_i32_283 : BitVec 32) : Fin 2 → Nat :=
  let c0_i32_39 : BitVec 32 := 0#32
  let c1_i32_41 : BitVec 32 := 1#32
  let arg9 : BitVec 32 := Scf.iv c0_i32_39 c1_i32_41 k4_t4
  let c4_i32_282 : BitVec 32 := 4#32
  let v661 : BitVec 32 := Scalar.muli arg9 c4_i32_282
  let v662 : BitVec 32 := Scalar.addi v661 c0_i32_283
  let v663 : Index := Scalar.indexCast v662
  let c0_i32_15 : BitVec 32 := 0#32
  let c1_i32_17 : BitVec 32 := 1#32
  let arg8 : BitVec 32 := Scf.iv c0_i32_15 c1_i32_17 k4_t3
  let c16_i32_32 : BitVec 32 := 16#32
  let v39 : BitVec 32 := Scalar.muli arg8 c16_i32_32
  let v664 : Index := Scalar.indexCast v39
  ![v663.toNat, v664.toNat]
def k4_off47 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_19 : BitVec 32 := 16#32
  let v34 : BitVec 32 := Scalar.muli v28 c16_i32_19
  let c1024_i32_r4 : BitVec 32 := 1024#32
  ![v18.toNat, v34.toNat, 1024]
def k4_off48 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_32_r5 : BitVec 32 := 0#32
  let c2048_i32_r5 : BitVec 32 := 2048#32
  ![v18.toNat, 0, 2048]
@[reducible] def k4_t5_loop : Scf.Loop 32 :=
  let c0_i32_21 : BitVec 32 := 0#32
  let c64_i32_22 : BitVec 32 := 64#32
  let v35 : BitVec 32 := Scalar.addi c0_i32_21 c64_i32_22
  let c1_i32_23 : BitVec 32 := 1#32
  ⟨c0_i32_21, v35, c1_i32_23⟩
def k4_off49 (k4_t5 : Fin k4_t5_loop.trips) : Fin 2 → Nat :=
  let c0_i32_33 : BitVec 32 := 0#32
  let v40 : Index := Scalar.indexCast c0_i32_33
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v41 : Index := Scalar.indexCast v39
  ![0, v41.toNat]
def k4_off50 (k4_t5 : Fin k4_t5_loop.trips) : Fin 2 → Nat :=
  let c1_i32_34 : BitVec 32 := 1#32
  let v43 : Index := Scalar.indexCast c1_i32_34
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v44 : Index := Scalar.indexCast v39
  ![1, v44.toNat]
def k4_off51 (k4_t5 : Fin k4_t5_loop.trips) : Fin 2 → Nat :=
  let c2_i32_35 : BitVec 32 := 2#32
  let v46 : Index := Scalar.indexCast c2_i32_35
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v47 : Index := Scalar.indexCast v39
  ![2, v47.toNat]
def k4_off52 (k4_t5 : Fin k4_t5_loop.trips) : Fin 2 → Nat :=
  let c3_i32 : BitVec 32 := 3#32
  let v49 : Index := Scalar.indexCast c3_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v50 : Index := Scalar.indexCast v39
  ![3, v50.toNat]
def k4_off53 (k4_t5 : Fin k4_t5_loop.trips) : Fin 2 → Nat :=
  let c4_i32_36 : BitVec 32 := 4#32
  let v52 : Index := Scalar.indexCast c4_i32_36
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v53 : Index := Scalar.indexCast v39
  ![4, v53.toNat]
def k4_off54 (k4_t5 : Fin k4_t5_loop.trips) : Fin 2 → Nat :=
  let c5_i32 : BitVec 32 := 5#32
  let v55 : Index := Scalar.indexCast c5_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v56 : Index := Scalar.indexCast v39
  ![5, v56.toNat]
def k4_off55 (k4_t5 : Fin k4_t5_loop.trips) : Fin 2 → Nat :=
  let c6_i32 : BitVec 32 := 6#32
  let v58 : Index := Scalar.indexCast c6_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v59 : Index := Scalar.indexCast v39
  ![6, v59.toNat]
def k4_off56 (k4_t5 : Fin k4_t5_loop.trips) : Fin 2 → Nat :=
  let c7_i32 : BitVec 32 := 7#32
  let v61 : Index := Scalar.indexCast c7_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v62 : Index := Scalar.indexCast v39
  ![7, v62.toNat]
def k4_off57 (k4_t5 : Fin k4_t5_loop.trips) : Fin 2 → Nat :=
  let c8_i32 : BitVec 32 := 8#32
  let v64 : Index := Scalar.indexCast c8_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v65 : Index := Scalar.indexCast v39
  ![8, v65.toNat]
def k4_off58 (k4_t5 : Fin k4_t5_loop.trips) : Fin 2 → Nat :=
  let c9_i32 : BitVec 32 := 9#32
  let v67 : Index := Scalar.indexCast c9_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v68 : Index := Scalar.indexCast v39
  ![9, v68.toNat]
def k4_off59 (k4_t5 : Fin k4_t5_loop.trips) : Fin 2 → Nat :=
  let c10_i32 : BitVec 32 := 10#32
  let v70 : Index := Scalar.indexCast c10_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v71 : Index := Scalar.indexCast v39
  ![10, v71.toNat]
def k4_off60 (k4_t5 : Fin k4_t5_loop.trips) : Fin 2 → Nat :=
  let c11_i32 : BitVec 32 := 11#32
  let v73 : Index := Scalar.indexCast c11_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v74 : Index := Scalar.indexCast v39
  ![11, v74.toNat]
def k4_off61 (k4_t5 : Fin k4_t5_loop.trips) : Fin 2 → Nat :=
  let c12_i32 : BitVec 32 := 12#32
  let v76 : Index := Scalar.indexCast c12_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v77 : Index := Scalar.indexCast v39
  ![12, v77.toNat]
def k4_off62 (k4_t5 : Fin k4_t5_loop.trips) : Fin 2 → Nat :=
  let c13_i32 : BitVec 32 := 13#32
  let v79 : Index := Scalar.indexCast c13_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v80 : Index := Scalar.indexCast v39
  ![13, v80.toNat]
def k4_off63 (k4_t5 : Fin k4_t5_loop.trips) : Fin 2 → Nat :=
  let c14_i32 : BitVec 32 := 14#32
  let v82 : Index := Scalar.indexCast c14_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v83 : Index := Scalar.indexCast v39
  ![14, v83.toNat]
def k4_off64 (k4_t5 : Fin k4_t5_loop.trips) : Fin 2 → Nat :=
  let c15_i32 : BitVec 32 := 15#32
  let v85 : Index := Scalar.indexCast c15_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v86 : Index := Scalar.indexCast v39
  ![15, v86.toNat]
def k4_off65 (k4_t5 : Fin k4_t5_loop.trips) : Fin 2 → Nat :=
  let c16_i32_37 : BitVec 32 := 16#32
  let v88 : Index := Scalar.indexCast c16_i32_37
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v89 : Index := Scalar.indexCast v39
  ![16, v89.toNat]
def k4_off66 (k4_t5 : Fin k4_t5_loop.trips) : Fin 2 → Nat :=
  let c17_i32 : BitVec 32 := 17#32
  let v91 : Index := Scalar.indexCast c17_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v92 : Index := Scalar.indexCast v39
  ![17, v92.toNat]
def k4_off67 (k4_t5 : Fin k4_t5_loop.trips) : Fin 2 → Nat :=
  let c18_i32 : BitVec 32 := 18#32
  let v94 : Index := Scalar.indexCast c18_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v95 : Index := Scalar.indexCast v39
  ![18, v95.toNat]
def k4_off68 (k4_t5 : Fin k4_t5_loop.trips) : Fin 2 → Nat :=
  let c19_i32 : BitVec 32 := 19#32
  let v97 : Index := Scalar.indexCast c19_i32
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v98 : Index := Scalar.indexCast v39
  ![19, v98.toNat]
@[reducible] def k4_t6_loop : Scf.Loop 32 :=
  let c0_i32_39 : BitVec 32 := 0#32
  let c4_i32_40 : BitVec 32 := 4#32
  let v100 : BitVec 32 := Scalar.addi c0_i32_39 c4_i32_40
  let c1_i32_41 : BitVec 32 := 1#32
  ⟨c0_i32_39, v100, c1_i32_41⟩

def k4_chk161 (v105 : IVec S16 32) : Prop :=
  (∀ a x, ((![v105] : Fin 1 → IVec S16 32) a x).toNat < S65536.size a)
instance k4_chk161.dec : ∀ (v105 : IVec S16 32), Decidable (k4_chk161 v105) := fun v105 => decidable_of_iff' _ (Iff.of_eq (k4_chk161.eq_1 v105))
theorem k4_idx161_inb : ∀ (v105 : IVec S16 32) (k4_hw161 : k4_chk161 v105), ∀ a x, ((![v105] : Fin 1 → IVec S16 32) a x).toNat < S65536.size a := fun v105 k4_hw161 => k4_hw161

def k4_chk162 (v112 : IVec S16 32) : Prop :=
  (∀ a x, ((![v112] : Fin 1 → IVec S16 32) a x).toNat < S65536.size a)
instance k4_chk162.dec : ∀ (v112 : IVec S16 32), Decidable (k4_chk162 v112) := fun v112 => decidable_of_iff' _ (Iff.of_eq (k4_chk162.eq_1 v112))
theorem k4_idx162_inb : ∀ (v112 : IVec S16 32) (k4_hw162 : k4_chk162 v112), ∀ a x, ((![v112] : Fin 1 → IVec S16 32) a x).toNat < S65536.size a := fun v112 k4_hw162 => k4_hw162

def k4_chk163 (v119 : IVec S16 32) : Prop :=
  (∀ a x, ((![v119] : Fin 1 → IVec S16 32) a x).toNat < S65536.size a)
instance k4_chk163.dec : ∀ (v119 : IVec S16 32), Decidable (k4_chk163 v119) := fun v119 => decidable_of_iff' _ (Iff.of_eq (k4_chk163.eq_1 v119))
theorem k4_idx163_inb : ∀ (v119 : IVec S16 32) (k4_hw163 : k4_chk163 v119), ∀ a x, ((![v119] : Fin 1 → IVec S16 32) a x).toNat < S65536.size a := fun v119 k4_hw163 => k4_hw163

def k4_chk164 (v126 : IVec S16 32) : Prop :=
  (∀ a x, ((![v126] : Fin 1 → IVec S16 32) a x).toNat < S65536.size a)
instance k4_chk164.dec : ∀ (v126 : IVec S16 32), Decidable (k4_chk164 v126) := fun v126 => decidable_of_iff' _ (Iff.of_eq (k4_chk164.eq_1 v126))
theorem k4_idx164_inb : ∀ (v126 : IVec S16 32) (k4_hw164 : k4_chk164 v126), ∀ a x, ((![v126] : Fin 1 → IVec S16 32) a x).toNat < S65536.size a := fun v126 k4_hw164 => k4_hw164

def k4_chk165 (v133 : IVec S16 32) : Prop :=
  (∀ a x, ((![v133] : Fin 1 → IVec S16 32) a x).toNat < S65536.size a)
instance k4_chk165.dec : ∀ (v133 : IVec S16 32), Decidable (k4_chk165 v133) := fun v133 => decidable_of_iff' _ (Iff.of_eq (k4_chk165.eq_1 v133))
theorem k4_idx165_inb : ∀ (v133 : IVec S16 32) (k4_hw165 : k4_chk165 v133), ∀ a x, ((![v133] : Fin 1 → IVec S16 32) a x).toNat < S65536.size a := fun v133 k4_hw165 => k4_hw165

def k4_chk166 (v140 : IVec S16 32) : Prop :=
  (∀ a x, ((![v140] : Fin 1 → IVec S16 32) a x).toNat < S65536.size a)
instance k4_chk166.dec : ∀ (v140 : IVec S16 32), Decidable (k4_chk166 v140) := fun v140 => decidable_of_iff' _ (Iff.of_eq (k4_chk166.eq_1 v140))
theorem k4_idx166_inb : ∀ (v140 : IVec S16 32) (k4_hw166 : k4_chk166 v140), ∀ a x, ((![v140] : Fin 1 → IVec S16 32) a x).toNat < S65536.size a := fun v140 k4_hw166 => k4_hw166

def k4_chk167 (v147 : IVec S16 32) : Prop :=
  (∀ a x, ((![v147] : Fin 1 → IVec S16 32) a x).toNat < S65536.size a)
instance k4_chk167.dec : ∀ (v147 : IVec S16 32), Decidable (k4_chk167 v147) := fun v147 => decidable_of_iff' _ (Iff.of_eq (k4_chk167.eq_1 v147))
theorem k4_idx167_inb : ∀ (v147 : IVec S16 32) (k4_hw167 : k4_chk167 v147), ∀ a x, ((![v147] : Fin 1 → IVec S16 32) a x).toNat < S65536.size a := fun v147 k4_hw167 => k4_hw167

def k4_chk168 (v154 : IVec S16 32) : Prop :=
  (∀ a x, ((![v154] : Fin 1 → IVec S16 32) a x).toNat < S65536.size a)
instance k4_chk168.dec : ∀ (v154 : IVec S16 32), Decidable (k4_chk168 v154) := fun v154 => decidable_of_iff' _ (Iff.of_eq (k4_chk168.eq_1 v154))
theorem k4_idx168_inb : ∀ (v154 : IVec S16 32) (k4_hw168 : k4_chk168 v154), ∀ a x, ((![v154] : Fin 1 → IVec S16 32) a x).toNat < S65536.size a := fun v154 k4_hw168 => k4_hw168

def k4_chk169 (v161 : IVec S16 32) : Prop :=
  (∀ a x, ((![v161] : Fin 1 → IVec S16 32) a x).toNat < S65536.size a)
instance k4_chk169.dec : ∀ (v161 : IVec S16 32), Decidable (k4_chk169 v161) := fun v161 => decidable_of_iff' _ (Iff.of_eq (k4_chk169.eq_1 v161))
theorem k4_idx169_inb : ∀ (v161 : IVec S16 32) (k4_hw169 : k4_chk169 v161), ∀ a x, ((![v161] : Fin 1 → IVec S16 32) a x).toNat < S65536.size a := fun v161 k4_hw169 => k4_hw169

def k4_chk170 (v168 : IVec S16 32) : Prop :=
  (∀ a x, ((![v168] : Fin 1 → IVec S16 32) a x).toNat < S65536.size a)
instance k4_chk170.dec : ∀ (v168 : IVec S16 32), Decidable (k4_chk170 v168) := fun v168 => decidable_of_iff' _ (Iff.of_eq (k4_chk170.eq_1 v168))
theorem k4_idx170_inb : ∀ (v168 : IVec S16 32) (k4_hw170 : k4_chk170 v168), ∀ a x, ((![v168] : Fin 1 → IVec S16 32) a x).toNat < S65536.size a := fun v168 k4_hw170 => k4_hw170

def k4_chk171 (v175 : IVec S16 32) : Prop :=
  (∀ a x, ((![v175] : Fin 1 → IVec S16 32) a x).toNat < S65536.size a)
instance k4_chk171.dec : ∀ (v175 : IVec S16 32), Decidable (k4_chk171 v175) := fun v175 => decidable_of_iff' _ (Iff.of_eq (k4_chk171.eq_1 v175))
theorem k4_idx171_inb : ∀ (v175 : IVec S16 32) (k4_hw171 : k4_chk171 v175), ∀ a x, ((![v175] : Fin 1 → IVec S16 32) a x).toNat < S65536.size a := fun v175 k4_hw171 => k4_hw171

def k4_chk172 (v182 : IVec S16 32) : Prop :=
  (∀ a x, ((![v182] : Fin 1 → IVec S16 32) a x).toNat < S65536.size a)
instance k4_chk172.dec : ∀ (v182 : IVec S16 32), Decidable (k4_chk172 v182) := fun v182 => decidable_of_iff' _ (Iff.of_eq (k4_chk172.eq_1 v182))
theorem k4_idx172_inb : ∀ (v182 : IVec S16 32) (k4_hw172 : k4_chk172 v182), ∀ a x, ((![v182] : Fin 1 → IVec S16 32) a x).toNat < S65536.size a := fun v182 k4_hw172 => k4_hw172

def k4_chk173 (v189 : IVec S16 32) : Prop :=
  (∀ a x, ((![v189] : Fin 1 → IVec S16 32) a x).toNat < S65536.size a)
instance k4_chk173.dec : ∀ (v189 : IVec S16 32), Decidable (k4_chk173 v189) := fun v189 => decidable_of_iff' _ (Iff.of_eq (k4_chk173.eq_1 v189))
theorem k4_idx173_inb : ∀ (v189 : IVec S16 32) (k4_hw173 : k4_chk173 v189), ∀ a x, ((![v189] : Fin 1 → IVec S16 32) a x).toNat < S65536.size a := fun v189 k4_hw173 => k4_hw173

def k4_chk174 (v196 : IVec S16 32) : Prop :=
  (∀ a x, ((![v196] : Fin 1 → IVec S16 32) a x).toNat < S65536.size a)
instance k4_chk174.dec : ∀ (v196 : IVec S16 32), Decidable (k4_chk174 v196) := fun v196 => decidable_of_iff' _ (Iff.of_eq (k4_chk174.eq_1 v196))
theorem k4_idx174_inb : ∀ (v196 : IVec S16 32) (k4_hw174 : k4_chk174 v196), ∀ a x, ((![v196] : Fin 1 → IVec S16 32) a x).toNat < S65536.size a := fun v196 k4_hw174 => k4_hw174

def k4_chk175 (v203 : IVec S16 32) : Prop :=
  (∀ a x, ((![v203] : Fin 1 → IVec S16 32) a x).toNat < S65536.size a)
instance k4_chk175.dec : ∀ (v203 : IVec S16 32), Decidable (k4_chk175 v203) := fun v203 => decidable_of_iff' _ (Iff.of_eq (k4_chk175.eq_1 v203))
theorem k4_idx175_inb : ∀ (v203 : IVec S16 32) (k4_hw175 : k4_chk175 v203), ∀ a x, ((![v203] : Fin 1 → IVec S16 32) a x).toNat < S65536.size a := fun v203 k4_hw175 => k4_hw175

def k4_chk176 (v210 : IVec S16 32) : Prop :=
  (∀ a x, ((![v210] : Fin 1 → IVec S16 32) a x).toNat < S65536.size a)
instance k4_chk176.dec : ∀ (v210 : IVec S16 32), Decidable (k4_chk176 v210) := fun v210 => decidable_of_iff' _ (Iff.of_eq (k4_chk176.eq_1 v210))
theorem k4_idx176_inb : ∀ (v210 : IVec S16 32) (k4_hw176 : k4_chk176 v210), ∀ a x, ((![v210] : Fin 1 → IVec S16 32) a x).toNat < S65536.size a := fun v210 k4_hw176 => k4_hw176

def k4_chk177 (v217 : IVec S16 32) : Prop :=
  (∀ a x, ((![v217] : Fin 1 → IVec S16 32) a x).toNat < S65536.size a)
instance k4_chk177.dec : ∀ (v217 : IVec S16 32), Decidable (k4_chk177 v217) := fun v217 => decidable_of_iff' _ (Iff.of_eq (k4_chk177.eq_1 v217))
theorem k4_idx177_inb : ∀ (v217 : IVec S16 32) (k4_hw177 : k4_chk177 v217), ∀ a x, ((![v217] : Fin 1 → IVec S16 32) a x).toNat < S65536.size a := fun v217 k4_hw177 => k4_hw177

def k4_chk178 (v224 : IVec S16 32) : Prop :=
  (∀ a x, ((![v224] : Fin 1 → IVec S16 32) a x).toNat < S65536.size a)
instance k4_chk178.dec : ∀ (v224 : IVec S16 32), Decidable (k4_chk178 v224) := fun v224 => decidable_of_iff' _ (Iff.of_eq (k4_chk178.eq_1 v224))
theorem k4_idx178_inb : ∀ (v224 : IVec S16 32) (k4_hw178 : k4_chk178 v224), ∀ a x, ((![v224] : Fin 1 → IVec S16 32) a x).toNat < S65536.size a := fun v224 k4_hw178 => k4_hw178

def k4_chk179 (v231 : IVec S16 32) : Prop :=
  (∀ a x, ((![v231] : Fin 1 → IVec S16 32) a x).toNat < S65536.size a)
instance k4_chk179.dec : ∀ (v231 : IVec S16 32), Decidable (k4_chk179 v231) := fun v231 => decidable_of_iff' _ (Iff.of_eq (k4_chk179.eq_1 v231))
theorem k4_idx179_inb : ∀ (v231 : IVec S16 32) (k4_hw179 : k4_chk179 v231), ∀ a x, ((![v231] : Fin 1 → IVec S16 32) a x).toNat < S65536.size a := fun v231 k4_hw179 => k4_hw179

def k4_chk180 (v238 : IVec S16 32) : Prop :=
  (∀ a x, ((![v238] : Fin 1 → IVec S16 32) a x).toNat < S65536.size a)
instance k4_chk180.dec : ∀ (v238 : IVec S16 32), Decidable (k4_chk180 v238) := fun v238 => decidable_of_iff' _ (Iff.of_eq (k4_chk180.eq_1 v238))
theorem k4_idx180_inb : ∀ (v238 : IVec S16 32) (k4_hw180 : k4_chk180 v238), ∀ a x, ((![v238] : Fin 1 → IVec S16 32) a x).toNat < S65536.size a := fun v238 k4_hw180 => k4_hw180

def k4_chk181 (v245 : IVec S16 32) : Prop :=
  (∀ a x, ((![v245] : Fin 1 → IVec S16 32) a x).toNat < S65536.size a)
instance k4_chk181.dec : ∀ (v245 : IVec S16 32), Decidable (k4_chk181 v245) := fun v245 => decidable_of_iff' _ (Iff.of_eq (k4_chk181.eq_1 v245))
theorem k4_idx181_inb : ∀ (v245 : IVec S16 32) (k4_hw181 : k4_chk181 v245), ∀ a x, ((![v245] : Fin 1 → IVec S16 32) a x).toNat < S65536.size a := fun v245 k4_hw181 => k4_hw181

def k4_chk182 (v252 : IVec S16 32) : Prop :=
  (∀ a x, ((![v252] : Fin 1 → IVec S16 32) a x).toNat < S65536.size a)
instance k4_chk182.dec : ∀ (v252 : IVec S16 32), Decidable (k4_chk182 v252) := fun v252 => decidable_of_iff' _ (Iff.of_eq (k4_chk182.eq_1 v252))
theorem k4_idx182_inb : ∀ (v252 : IVec S16 32) (k4_hw182 : k4_chk182 v252), ∀ a x, ((![v252] : Fin 1 → IVec S16 32) a x).toNat < S65536.size a := fun v252 k4_hw182 => k4_hw182

def k4_chk183 (v259 : IVec S16 32) : Prop :=
  (∀ a x, ((![v259] : Fin 1 → IVec S16 32) a x).toNat < S65536.size a)
instance k4_chk183.dec : ∀ (v259 : IVec S16 32), Decidable (k4_chk183 v259) := fun v259 => decidable_of_iff' _ (Iff.of_eq (k4_chk183.eq_1 v259))
theorem k4_idx183_inb : ∀ (v259 : IVec S16 32) (k4_hw183 : k4_chk183 v259), ∀ a x, ((![v259] : Fin 1 → IVec S16 32) a x).toNat < S65536.size a := fun v259 k4_hw183 => k4_hw183

def k4_chk184 (v266 : IVec S16 32) : Prop :=
  (∀ a x, ((![v266] : Fin 1 → IVec S16 32) a x).toNat < S65536.size a)
instance k4_chk184.dec : ∀ (v266 : IVec S16 32), Decidable (k4_chk184 v266) := fun v266 => decidable_of_iff' _ (Iff.of_eq (k4_chk184.eq_1 v266))
theorem k4_idx184_inb : ∀ (v266 : IVec S16 32) (k4_hw184 : k4_chk184 v266), ∀ a x, ((![v266] : Fin 1 → IVec S16 32) a x).toNat < S65536.size a := fun v266 k4_hw184 => k4_hw184

def k4_chk185 (v273 : IVec S16 32) : Prop :=
  (∀ a x, ((![v273] : Fin 1 → IVec S16 32) a x).toNat < S65536.size a)
instance k4_chk185.dec : ∀ (v273 : IVec S16 32), Decidable (k4_chk185 v273) := fun v273 => decidable_of_iff' _ (Iff.of_eq (k4_chk185.eq_1 v273))
theorem k4_idx185_inb : ∀ (v273 : IVec S16 32) (k4_hw185 : k4_chk185 v273), ∀ a x, ((![v273] : Fin 1 → IVec S16 32) a x).toNat < S65536.size a := fun v273 k4_hw185 => k4_hw185

def k4_chk186 (v280 : IVec S16 32) : Prop :=
  (∀ a x, ((![v280] : Fin 1 → IVec S16 32) a x).toNat < S65536.size a)
instance k4_chk186.dec : ∀ (v280 : IVec S16 32), Decidable (k4_chk186 v280) := fun v280 => decidable_of_iff' _ (Iff.of_eq (k4_chk186.eq_1 v280))
theorem k4_idx186_inb : ∀ (v280 : IVec S16 32) (k4_hw186 : k4_chk186 v280), ∀ a x, ((![v280] : Fin 1 → IVec S16 32) a x).toNat < S65536.size a := fun v280 k4_hw186 => k4_hw186

def k4_chk187 (v287 : IVec S16 32) : Prop :=
  (∀ a x, ((![v287] : Fin 1 → IVec S16 32) a x).toNat < S65536.size a)
instance k4_chk187.dec : ∀ (v287 : IVec S16 32), Decidable (k4_chk187 v287) := fun v287 => decidable_of_iff' _ (Iff.of_eq (k4_chk187.eq_1 v287))
theorem k4_idx187_inb : ∀ (v287 : IVec S16 32) (k4_hw187 : k4_chk187 v287), ∀ a x, ((![v287] : Fin 1 → IVec S16 32) a x).toNat < S65536.size a := fun v287 k4_hw187 => k4_hw187

def k4_chk188 (v294 : IVec S16 32) : Prop :=
  (∀ a x, ((![v294] : Fin 1 → IVec S16 32) a x).toNat < S65536.size a)
instance k4_chk188.dec : ∀ (v294 : IVec S16 32), Decidable (k4_chk188 v294) := fun v294 => decidable_of_iff' _ (Iff.of_eq (k4_chk188.eq_1 v294))
theorem k4_idx188_inb : ∀ (v294 : IVec S16 32) (k4_hw188 : k4_chk188 v294), ∀ a x, ((![v294] : Fin 1 → IVec S16 32) a x).toNat < S65536.size a := fun v294 k4_hw188 => k4_hw188

def k4_chk189 (v301 : IVec S16 32) : Prop :=
  (∀ a x, ((![v301] : Fin 1 → IVec S16 32) a x).toNat < S65536.size a)
instance k4_chk189.dec : ∀ (v301 : IVec S16 32), Decidable (k4_chk189 v301) := fun v301 => decidable_of_iff' _ (Iff.of_eq (k4_chk189.eq_1 v301))
theorem k4_idx189_inb : ∀ (v301 : IVec S16 32) (k4_hw189 : k4_chk189 v301), ∀ a x, ((![v301] : Fin 1 → IVec S16 32) a x).toNat < S65536.size a := fun v301 k4_hw189 => k4_hw189

def k4_chk190 (v308 : IVec S16 32) : Prop :=
  (∀ a x, ((![v308] : Fin 1 → IVec S16 32) a x).toNat < S65536.size a)
instance k4_chk190.dec : ∀ (v308 : IVec S16 32), Decidable (k4_chk190 v308) := fun v308 => decidable_of_iff' _ (Iff.of_eq (k4_chk190.eq_1 v308))
theorem k4_idx190_inb : ∀ (v308 : IVec S16 32) (k4_hw190 : k4_chk190 v308), ∀ a x, ((![v308] : Fin 1 → IVec S16 32) a x).toNat < S65536.size a := fun v308 k4_hw190 => k4_hw190

def k4_chk191 (v315 : IVec S16 32) : Prop :=
  (∀ a x, ((![v315] : Fin 1 → IVec S16 32) a x).toNat < S65536.size a)
instance k4_chk191.dec : ∀ (v315 : IVec S16 32), Decidable (k4_chk191 v315) := fun v315 => decidable_of_iff' _ (Iff.of_eq (k4_chk191.eq_1 v315))
theorem k4_idx191_inb : ∀ (v315 : IVec S16 32) (k4_hw191 : k4_chk191 v315), ∀ a x, ((![v315] : Fin 1 → IVec S16 32) a x).toNat < S65536.size a := fun v315 k4_hw191 => k4_hw191

def k4_chk192 (v322 : IVec S16 32) : Prop :=
  (∀ a x, ((![v322] : Fin 1 → IVec S16 32) a x).toNat < S65536.size a)
instance k4_chk192.dec : ∀ (v322 : IVec S16 32), Decidable (k4_chk192 v322) := fun v322 => decidable_of_iff' _ (Iff.of_eq (k4_chk192.eq_1 v322))
theorem k4_idx192_inb : ∀ (v322 : IVec S16 32) (k4_hw192 : k4_chk192 v322), ∀ a x, ((![v322] : Fin 1 → IVec S16 32) a x).toNat < S65536.size a := fun v322 k4_hw192 => k4_hw192

def k4_chk193 (v329 : IVec S16 32) : Prop :=
  (∀ a x, ((![v329] : Fin 1 → IVec S16 32) a x).toNat < S65536.size a)
instance k4_chk193.dec : ∀ (v329 : IVec S16 32), Decidable (k4_chk193 v329) := fun v329 => decidable_of_iff' _ (Iff.of_eq (k4_chk193.eq_1 v329))
theorem k4_idx193_inb : ∀ (v329 : IVec S16 32) (k4_hw193 : k4_chk193 v329), ∀ a x, ((![v329] : Fin 1 → IVec S16 32) a x).toNat < S65536.size a := fun v329 k4_hw193 => k4_hw193

def k4_chk194 (v336 : IVec S16 32) : Prop :=
  (∀ a x, ((![v336] : Fin 1 → IVec S16 32) a x).toNat < S65536.size a)
instance k4_chk194.dec : ∀ (v336 : IVec S16 32), Decidable (k4_chk194 v336) := fun v336 => decidable_of_iff' _ (Iff.of_eq (k4_chk194.eq_1 v336))
theorem k4_idx194_inb : ∀ (v336 : IVec S16 32) (k4_hw194 : k4_chk194 v336), ∀ a x, ((![v336] : Fin 1 → IVec S16 32) a x).toNat < S65536.size a := fun v336 k4_hw194 => k4_hw194

def k4_chk195 (v343 : IVec S16 32) : Prop :=
  (∀ a x, ((![v343] : Fin 1 → IVec S16 32) a x).toNat < S65536.size a)
instance k4_chk195.dec : ∀ (v343 : IVec S16 32), Decidable (k4_chk195 v343) := fun v343 => decidable_of_iff' _ (Iff.of_eq (k4_chk195.eq_1 v343))
theorem k4_idx195_inb : ∀ (v343 : IVec S16 32) (k4_hw195 : k4_chk195 v343), ∀ a x, ((![v343] : Fin 1 → IVec S16 32) a x).toNat < S65536.size a := fun v343 k4_hw195 => k4_hw195

def k4_chk196 (v350 : IVec S16 32) : Prop :=
  (∀ a x, ((![v350] : Fin 1 → IVec S16 32) a x).toNat < S65536.size a)
instance k4_chk196.dec : ∀ (v350 : IVec S16 32), Decidable (k4_chk196 v350) := fun v350 => decidable_of_iff' _ (Iff.of_eq (k4_chk196.eq_1 v350))
theorem k4_idx196_inb : ∀ (v350 : IVec S16 32) (k4_hw196 : k4_chk196 v350), ∀ a x, ((![v350] : Fin 1 → IVec S16 32) a x).toNat < S65536.size a := fun v350 k4_hw196 => k4_hw196

def k4_chk197 (v357 : IVec S16 32) : Prop :=
  (∀ a x, ((![v357] : Fin 1 → IVec S16 32) a x).toNat < S65536.size a)
instance k4_chk197.dec : ∀ (v357 : IVec S16 32), Decidable (k4_chk197 v357) := fun v357 => decidable_of_iff' _ (Iff.of_eq (k4_chk197.eq_1 v357))
theorem k4_idx197_inb : ∀ (v357 : IVec S16 32) (k4_hw197 : k4_chk197 v357), ∀ a x, ((![v357] : Fin 1 → IVec S16 32) a x).toNat < S65536.size a := fun v357 k4_hw197 => k4_hw197

def k4_chk198 (v364 : IVec S16 32) : Prop :=
  (∀ a x, ((![v364] : Fin 1 → IVec S16 32) a x).toNat < S65536.size a)
instance k4_chk198.dec : ∀ (v364 : IVec S16 32), Decidable (k4_chk198 v364) := fun v364 => decidable_of_iff' _ (Iff.of_eq (k4_chk198.eq_1 v364))
theorem k4_idx198_inb : ∀ (v364 : IVec S16 32) (k4_hw198 : k4_chk198 v364), ∀ a x, ((![v364] : Fin 1 → IVec S16 32) a x).toNat < S65536.size a := fun v364 k4_hw198 => k4_hw198

def k4_chk199 (v371 : IVec S16 32) : Prop :=
  (∀ a x, ((![v371] : Fin 1 → IVec S16 32) a x).toNat < S65536.size a)
instance k4_chk199.dec : ∀ (v371 : IVec S16 32), Decidable (k4_chk199 v371) := fun v371 => decidable_of_iff' _ (Iff.of_eq (k4_chk199.eq_1 v371))
theorem k4_idx199_inb : ∀ (v371 : IVec S16 32) (k4_hw199 : k4_chk199 v371), ∀ a x, ((![v371] : Fin 1 → IVec S16 32) a x).toNat < S65536.size a := fun v371 k4_hw199 => k4_hw199

def k4_chk200 (v378 : IVec S16 32) : Prop :=
  (∀ a x, ((![v378] : Fin 1 → IVec S16 32) a x).toNat < S65536.size a)
instance k4_chk200.dec : ∀ (v378 : IVec S16 32), Decidable (k4_chk200 v378) := fun v378 => decidable_of_iff' _ (Iff.of_eq (k4_chk200.eq_1 v378))
theorem k4_idx200_inb : ∀ (v378 : IVec S16 32) (k4_hw200 : k4_chk200 v378), ∀ a x, ((![v378] : Fin 1 → IVec S16 32) a x).toNat < S65536.size a := fun v378 k4_hw200 => k4_hw200

def k4_chk201 (v385 : IVec S16 32) : Prop :=
  (∀ a x, ((![v385] : Fin 1 → IVec S16 32) a x).toNat < S65536.size a)
instance k4_chk201.dec : ∀ (v385 : IVec S16 32), Decidable (k4_chk201 v385) := fun v385 => decidable_of_iff' _ (Iff.of_eq (k4_chk201.eq_1 v385))
theorem k4_idx201_inb : ∀ (v385 : IVec S16 32) (k4_hw201 : k4_chk201 v385), ∀ a x, ((![v385] : Fin 1 → IVec S16 32) a x).toNat < S65536.size a := fun v385 k4_hw201 => k4_hw201

def k4_chk202 (v392 : IVec S16 32) : Prop :=
  (∀ a x, ((![v392] : Fin 1 → IVec S16 32) a x).toNat < S65536.size a)
instance k4_chk202.dec : ∀ (v392 : IVec S16 32), Decidable (k4_chk202 v392) := fun v392 => decidable_of_iff' _ (Iff.of_eq (k4_chk202.eq_1 v392))
theorem k4_idx202_inb : ∀ (v392 : IVec S16 32) (k4_hw202 : k4_chk202 v392), ∀ a x, ((![v392] : Fin 1 → IVec S16 32) a x).toNat < S65536.size a := fun v392 k4_hw202 => k4_hw202

def k4_chk203 (v399 : IVec S16 32) : Prop :=
  (∀ a x, ((![v399] : Fin 1 → IVec S16 32) a x).toNat < S65536.size a)
instance k4_chk203.dec : ∀ (v399 : IVec S16 32), Decidable (k4_chk203 v399) := fun v399 => decidable_of_iff' _ (Iff.of_eq (k4_chk203.eq_1 v399))
theorem k4_idx203_inb : ∀ (v399 : IVec S16 32) (k4_hw203 : k4_chk203 v399), ∀ a x, ((![v399] : Fin 1 → IVec S16 32) a x).toNat < S65536.size a := fun v399 k4_hw203 => k4_hw203

def k4_chk204 (v406 : IVec S16 32) : Prop :=
  (∀ a x, ((![v406] : Fin 1 → IVec S16 32) a x).toNat < S65536.size a)
instance k4_chk204.dec : ∀ (v406 : IVec S16 32), Decidable (k4_chk204 v406) := fun v406 => decidable_of_iff' _ (Iff.of_eq (k4_chk204.eq_1 v406))
theorem k4_idx204_inb : ∀ (v406 : IVec S16 32) (k4_hw204 : k4_chk204 v406), ∀ a x, ((![v406] : Fin 1 → IVec S16 32) a x).toNat < S65536.size a := fun v406 k4_hw204 => k4_hw204

def k4_chk205 (v413 : IVec S16 32) : Prop :=
  (∀ a x, ((![v413] : Fin 1 → IVec S16 32) a x).toNat < S65536.size a)
instance k4_chk205.dec : ∀ (v413 : IVec S16 32), Decidable (k4_chk205 v413) := fun v413 => decidable_of_iff' _ (Iff.of_eq (k4_chk205.eq_1 v413))
theorem k4_idx205_inb : ∀ (v413 : IVec S16 32) (k4_hw205 : k4_chk205 v413), ∀ a x, ((![v413] : Fin 1 → IVec S16 32) a x).toNat < S65536.size a := fun v413 k4_hw205 => k4_hw205

def k4_chk206 (v420 : IVec S16 32) : Prop :=
  (∀ a x, ((![v420] : Fin 1 → IVec S16 32) a x).toNat < S65536.size a)
instance k4_chk206.dec : ∀ (v420 : IVec S16 32), Decidable (k4_chk206 v420) := fun v420 => decidable_of_iff' _ (Iff.of_eq (k4_chk206.eq_1 v420))
theorem k4_idx206_inb : ∀ (v420 : IVec S16 32) (k4_hw206 : k4_chk206 v420), ∀ a x, ((![v420] : Fin 1 → IVec S16 32) a x).toNat < S65536.size a := fun v420 k4_hw206 => k4_hw206

def k4_chk207 (v427 : IVec S16 32) : Prop :=
  (∀ a x, ((![v427] : Fin 1 → IVec S16 32) a x).toNat < S65536.size a)
instance k4_chk207.dec : ∀ (v427 : IVec S16 32), Decidable (k4_chk207 v427) := fun v427 => decidable_of_iff' _ (Iff.of_eq (k4_chk207.eq_1 v427))
theorem k4_idx207_inb : ∀ (v427 : IVec S16 32) (k4_hw207 : k4_chk207 v427), ∀ a x, ((![v427] : Fin 1 → IVec S16 32) a x).toNat < S65536.size a := fun v427 k4_hw207 => k4_hw207

def k4_chk208 (v434 : IVec S16 32) : Prop :=
  (∀ a x, ((![v434] : Fin 1 → IVec S16 32) a x).toNat < S65536.size a)
instance k4_chk208.dec : ∀ (v434 : IVec S16 32), Decidable (k4_chk208 v434) := fun v434 => decidable_of_iff' _ (Iff.of_eq (k4_chk208.eq_1 v434))
theorem k4_idx208_inb : ∀ (v434 : IVec S16 32) (k4_hw208 : k4_chk208 v434), ∀ a x, ((![v434] : Fin 1 → IVec S16 32) a x).toNat < S65536.size a := fun v434 k4_hw208 => k4_hw208

def k4_chk209 (v441 : IVec S16 32) : Prop :=
  (∀ a x, ((![v441] : Fin 1 → IVec S16 32) a x).toNat < S65536.size a)
instance k4_chk209.dec : ∀ (v441 : IVec S16 32), Decidable (k4_chk209 v441) := fun v441 => decidable_of_iff' _ (Iff.of_eq (k4_chk209.eq_1 v441))
theorem k4_idx209_inb : ∀ (v441 : IVec S16 32) (k4_hw209 : k4_chk209 v441), ∀ a x, ((![v441] : Fin 1 → IVec S16 32) a x).toNat < S65536.size a := fun v441 k4_hw209 => k4_hw209

def k4_chk210 (v448 : IVec S16 32) : Prop :=
  (∀ a x, ((![v448] : Fin 1 → IVec S16 32) a x).toNat < S65536.size a)
instance k4_chk210.dec : ∀ (v448 : IVec S16 32), Decidable (k4_chk210 v448) := fun v448 => decidable_of_iff' _ (Iff.of_eq (k4_chk210.eq_1 v448))
theorem k4_idx210_inb : ∀ (v448 : IVec S16 32) (k4_hw210 : k4_chk210 v448), ∀ a x, ((![v448] : Fin 1 → IVec S16 32) a x).toNat < S65536.size a := fun v448 k4_hw210 => k4_hw210

def k4_chk211 (v455 : IVec S16 32) : Prop :=
  (∀ a x, ((![v455] : Fin 1 → IVec S16 32) a x).toNat < S65536.size a)
instance k4_chk211.dec : ∀ (v455 : IVec S16 32), Decidable (k4_chk211 v455) := fun v455 => decidable_of_iff' _ (Iff.of_eq (k4_chk211.eq_1 v455))
theorem k4_idx211_inb : ∀ (v455 : IVec S16 32) (k4_hw211 : k4_chk211 v455), ∀ a x, ((![v455] : Fin 1 → IVec S16 32) a x).toNat < S65536.size a := fun v455 k4_hw211 => k4_hw211

def k4_chk212 (v462 : IVec S16 32) : Prop :=
  (∀ a x, ((![v462] : Fin 1 → IVec S16 32) a x).toNat < S65536.size a)
instance k4_chk212.dec : ∀ (v462 : IVec S16 32), Decidable (k4_chk212 v462) := fun v462 => decidable_of_iff' _ (Iff.of_eq (k4_chk212.eq_1 v462))
theorem k4_idx212_inb : ∀ (v462 : IVec S16 32) (k4_hw212 : k4_chk212 v462), ∀ a x, ((![v462] : Fin 1 → IVec S16 32) a x).toNat < S65536.size a := fun v462 k4_hw212 => k4_hw212

def k4_chk213 (v469 : IVec S16 32) : Prop :=
  (∀ a x, ((![v469] : Fin 1 → IVec S16 32) a x).toNat < S65536.size a)
instance k4_chk213.dec : ∀ (v469 : IVec S16 32), Decidable (k4_chk213 v469) := fun v469 => decidable_of_iff' _ (Iff.of_eq (k4_chk213.eq_1 v469))
theorem k4_idx213_inb : ∀ (v469 : IVec S16 32) (k4_hw213 : k4_chk213 v469), ∀ a x, ((![v469] : Fin 1 → IVec S16 32) a x).toNat < S65536.size a := fun v469 k4_hw213 => k4_hw213

def k4_chk214 (v476 : IVec S16 32) : Prop :=
  (∀ a x, ((![v476] : Fin 1 → IVec S16 32) a x).toNat < S65536.size a)
instance k4_chk214.dec : ∀ (v476 : IVec S16 32), Decidable (k4_chk214 v476) := fun v476 => decidable_of_iff' _ (Iff.of_eq (k4_chk214.eq_1 v476))
theorem k4_idx214_inb : ∀ (v476 : IVec S16 32) (k4_hw214 : k4_chk214 v476), ∀ a x, ((![v476] : Fin 1 → IVec S16 32) a x).toNat < S65536.size a := fun v476 k4_hw214 => k4_hw214

def k4_chk215 (v483 : IVec S16 32) : Prop :=
  (∀ a x, ((![v483] : Fin 1 → IVec S16 32) a x).toNat < S65536.size a)
instance k4_chk215.dec : ∀ (v483 : IVec S16 32), Decidable (k4_chk215 v483) := fun v483 => decidable_of_iff' _ (Iff.of_eq (k4_chk215.eq_1 v483))
theorem k4_idx215_inb : ∀ (v483 : IVec S16 32) (k4_hw215 : k4_chk215 v483), ∀ a x, ((![v483] : Fin 1 → IVec S16 32) a x).toNat < S65536.size a := fun v483 k4_hw215 => k4_hw215

def k4_chk216 (v490 : IVec S16 32) : Prop :=
  (∀ a x, ((![v490] : Fin 1 → IVec S16 32) a x).toNat < S65536.size a)
instance k4_chk216.dec : ∀ (v490 : IVec S16 32), Decidable (k4_chk216 v490) := fun v490 => decidable_of_iff' _ (Iff.of_eq (k4_chk216.eq_1 v490))
theorem k4_idx216_inb : ∀ (v490 : IVec S16 32) (k4_hw216 : k4_chk216 v490), ∀ a x, ((![v490] : Fin 1 → IVec S16 32) a x).toNat < S65536.size a := fun v490 k4_hw216 => k4_hw216

def k4_chk217 (v497 : IVec S16 32) : Prop :=
  (∀ a x, ((![v497] : Fin 1 → IVec S16 32) a x).toNat < S65536.size a)
instance k4_chk217.dec : ∀ (v497 : IVec S16 32), Decidable (k4_chk217 v497) := fun v497 => decidable_of_iff' _ (Iff.of_eq (k4_chk217.eq_1 v497))
theorem k4_idx217_inb : ∀ (v497 : IVec S16 32) (k4_hw217 : k4_chk217 v497), ∀ a x, ((![v497] : Fin 1 → IVec S16 32) a x).toNat < S65536.size a := fun v497 k4_hw217 => k4_hw217

def k4_chk218 (v504 : IVec S16 32) : Prop :=
  (∀ a x, ((![v504] : Fin 1 → IVec S16 32) a x).toNat < S65536.size a)
instance k4_chk218.dec : ∀ (v504 : IVec S16 32), Decidable (k4_chk218 v504) := fun v504 => decidable_of_iff' _ (Iff.of_eq (k4_chk218.eq_1 v504))
theorem k4_idx218_inb : ∀ (v504 : IVec S16 32) (k4_hw218 : k4_chk218 v504), ∀ a x, ((![v504] : Fin 1 → IVec S16 32) a x).toNat < S65536.size a := fun v504 k4_hw218 => k4_hw218

def k4_chk219 (v511 : IVec S16 32) : Prop :=
  (∀ a x, ((![v511] : Fin 1 → IVec S16 32) a x).toNat < S65536.size a)
instance k4_chk219.dec : ∀ (v511 : IVec S16 32), Decidable (k4_chk219 v511) := fun v511 => decidable_of_iff' _ (Iff.of_eq (k4_chk219.eq_1 v511))
theorem k4_idx219_inb : ∀ (v511 : IVec S16 32) (k4_hw219 : k4_chk219 v511), ∀ a x, ((![v511] : Fin 1 → IVec S16 32) a x).toNat < S65536.size a := fun v511 k4_hw219 => k4_hw219

def k4_chk220 (v518 : IVec S16 32) : Prop :=
  (∀ a x, ((![v518] : Fin 1 → IVec S16 32) a x).toNat < S65536.size a)
instance k4_chk220.dec : ∀ (v518 : IVec S16 32), Decidable (k4_chk220 v518) := fun v518 => decidable_of_iff' _ (Iff.of_eq (k4_chk220.eq_1 v518))
theorem k4_idx220_inb : ∀ (v518 : IVec S16 32) (k4_hw220 : k4_chk220 v518), ∀ a x, ((![v518] : Fin 1 → IVec S16 32) a x).toNat < S65536.size a := fun v518 k4_hw220 => k4_hw220

def k4_chk221 (v525 : IVec S16 32) : Prop :=
  (∀ a x, ((![v525] : Fin 1 → IVec S16 32) a x).toNat < S65536.size a)
instance k4_chk221.dec : ∀ (v525 : IVec S16 32), Decidable (k4_chk221 v525) := fun v525 => decidable_of_iff' _ (Iff.of_eq (k4_chk221.eq_1 v525))
theorem k4_idx221_inb : ∀ (v525 : IVec S16 32) (k4_hw221 : k4_chk221 v525), ∀ a x, ((![v525] : Fin 1 → IVec S16 32) a x).toNat < S65536.size a := fun v525 k4_hw221 => k4_hw221

def k4_chk222 (v532 : IVec S16 32) : Prop :=
  (∀ a x, ((![v532] : Fin 1 → IVec S16 32) a x).toNat < S65536.size a)
instance k4_chk222.dec : ∀ (v532 : IVec S16 32), Decidable (k4_chk222 v532) := fun v532 => decidable_of_iff' _ (Iff.of_eq (k4_chk222.eq_1 v532))
theorem k4_idx222_inb : ∀ (v532 : IVec S16 32) (k4_hw222 : k4_chk222 v532), ∀ a x, ((![v532] : Fin 1 → IVec S16 32) a x).toNat < S65536.size a := fun v532 k4_hw222 => k4_hw222

def k4_chk223 (v539 : IVec S16 32) : Prop :=
  (∀ a x, ((![v539] : Fin 1 → IVec S16 32) a x).toNat < S65536.size a)
instance k4_chk223.dec : ∀ (v539 : IVec S16 32), Decidable (k4_chk223 v539) := fun v539 => decidable_of_iff' _ (Iff.of_eq (k4_chk223.eq_1 v539))
theorem k4_idx223_inb : ∀ (v539 : IVec S16 32) (k4_hw223 : k4_chk223 v539), ∀ a x, ((![v539] : Fin 1 → IVec S16 32) a x).toNat < S65536.size a := fun v539 k4_hw223 => k4_hw223

def k4_chk224 (v546 : IVec S16 32) : Prop :=
  (∀ a x, ((![v546] : Fin 1 → IVec S16 32) a x).toNat < S65536.size a)
instance k4_chk224.dec : ∀ (v546 : IVec S16 32), Decidable (k4_chk224 v546) := fun v546 => decidable_of_iff' _ (Iff.of_eq (k4_chk224.eq_1 v546))
theorem k4_idx224_inb : ∀ (v546 : IVec S16 32) (k4_hw224 : k4_chk224 v546), ∀ a x, ((![v546] : Fin 1 → IVec S16 32) a x).toNat < S65536.size a := fun v546 k4_hw224 => k4_hw224

def k4_chk225 (v553 : IVec S16 32) : Prop :=
  (∀ a x, ((![v553] : Fin 1 → IVec S16 32) a x).toNat < S65536.size a)
instance k4_chk225.dec : ∀ (v553 : IVec S16 32), Decidable (k4_chk225 v553) := fun v553 => decidable_of_iff' _ (Iff.of_eq (k4_chk225.eq_1 v553))
theorem k4_idx225_inb : ∀ (v553 : IVec S16 32) (k4_hw225 : k4_chk225 v553), ∀ a x, ((![v553] : Fin 1 → IVec S16 32) a x).toNat < S65536.size a := fun v553 k4_hw225 => k4_hw225

def k4_chk226 (v560 : IVec S16 32) : Prop :=
  (∀ a x, ((![v560] : Fin 1 → IVec S16 32) a x).toNat < S65536.size a)
instance k4_chk226.dec : ∀ (v560 : IVec S16 32), Decidable (k4_chk226 v560) := fun v560 => decidable_of_iff' _ (Iff.of_eq (k4_chk226.eq_1 v560))
theorem k4_idx226_inb : ∀ (v560 : IVec S16 32) (k4_hw226 : k4_chk226 v560), ∀ a x, ((![v560] : Fin 1 → IVec S16 32) a x).toNat < S65536.size a := fun v560 k4_hw226 => k4_hw226

def k4_chk227 (v567 : IVec S16 32) : Prop :=
  (∀ a x, ((![v567] : Fin 1 → IVec S16 32) a x).toNat < S65536.size a)
instance k4_chk227.dec : ∀ (v567 : IVec S16 32), Decidable (k4_chk227 v567) := fun v567 => decidable_of_iff' _ (Iff.of_eq (k4_chk227.eq_1 v567))
theorem k4_idx227_inb : ∀ (v567 : IVec S16 32) (k4_hw227 : k4_chk227 v567), ∀ a x, ((![v567] : Fin 1 → IVec S16 32) a x).toNat < S65536.size a := fun v567 k4_hw227 => k4_hw227

def k4_chk228 (v574 : IVec S16 32) : Prop :=
  (∀ a x, ((![v574] : Fin 1 → IVec S16 32) a x).toNat < S65536.size a)
instance k4_chk228.dec : ∀ (v574 : IVec S16 32), Decidable (k4_chk228 v574) := fun v574 => decidable_of_iff' _ (Iff.of_eq (k4_chk228.eq_1 v574))
theorem k4_idx228_inb : ∀ (v574 : IVec S16 32) (k4_hw228 : k4_chk228 v574), ∀ a x, ((![v574] : Fin 1 → IVec S16 32) a x).toNat < S65536.size a := fun v574 k4_hw228 => k4_hw228

def k4_chk229 (v581 : IVec S16 32) : Prop :=
  (∀ a x, ((![v581] : Fin 1 → IVec S16 32) a x).toNat < S65536.size a)
instance k4_chk229.dec : ∀ (v581 : IVec S16 32), Decidable (k4_chk229 v581) := fun v581 => decidable_of_iff' _ (Iff.of_eq (k4_chk229.eq_1 v581))
theorem k4_idx229_inb : ∀ (v581 : IVec S16 32) (k4_hw229 : k4_chk229 v581), ∀ a x, ((![v581] : Fin 1 → IVec S16 32) a x).toNat < S65536.size a := fun v581 k4_hw229 => k4_hw229

def k4_chk230 (v588 : IVec S16 32) : Prop :=
  (∀ a x, ((![v588] : Fin 1 → IVec S16 32) a x).toNat < S65536.size a)
instance k4_chk230.dec : ∀ (v588 : IVec S16 32), Decidable (k4_chk230 v588) := fun v588 => decidable_of_iff' _ (Iff.of_eq (k4_chk230.eq_1 v588))
theorem k4_idx230_inb : ∀ (v588 : IVec S16 32) (k4_hw230 : k4_chk230 v588), ∀ a x, ((![v588] : Fin 1 → IVec S16 32) a x).toNat < S65536.size a := fun v588 k4_hw230 => k4_hw230

def k4_chk231 (v595 : IVec S16 32) : Prop :=
  (∀ a x, ((![v595] : Fin 1 → IVec S16 32) a x).toNat < S65536.size a)
instance k4_chk231.dec : ∀ (v595 : IVec S16 32), Decidable (k4_chk231 v595) := fun v595 => decidable_of_iff' _ (Iff.of_eq (k4_chk231.eq_1 v595))
theorem k4_idx231_inb : ∀ (v595 : IVec S16 32) (k4_hw231 : k4_chk231 v595), ∀ a x, ((![v595] : Fin 1 → IVec S16 32) a x).toNat < S65536.size a := fun v595 k4_hw231 => k4_hw231

def k4_chk232 (v602 : IVec S16 32) : Prop :=
  (∀ a x, ((![v602] : Fin 1 → IVec S16 32) a x).toNat < S65536.size a)
instance k4_chk232.dec : ∀ (v602 : IVec S16 32), Decidable (k4_chk232 v602) := fun v602 => decidable_of_iff' _ (Iff.of_eq (k4_chk232.eq_1 v602))
theorem k4_idx232_inb : ∀ (v602 : IVec S16 32) (k4_hw232 : k4_chk232 v602), ∀ a x, ((![v602] : Fin 1 → IVec S16 32) a x).toNat < S65536.size a := fun v602 k4_hw232 => k4_hw232

def k4_chk233 (v609 : IVec S16 32) : Prop :=
  (∀ a x, ((![v609] : Fin 1 → IVec S16 32) a x).toNat < S65536.size a)
instance k4_chk233.dec : ∀ (v609 : IVec S16 32), Decidable (k4_chk233 v609) := fun v609 => decidable_of_iff' _ (Iff.of_eq (k4_chk233.eq_1 v609))
theorem k4_idx233_inb : ∀ (v609 : IVec S16 32) (k4_hw233 : k4_chk233 v609), ∀ a x, ((![v609] : Fin 1 → IVec S16 32) a x).toNat < S65536.size a := fun v609 k4_hw233 => k4_hw233

def k4_chk234 (v616 : IVec S16 32) : Prop :=
  (∀ a x, ((![v616] : Fin 1 → IVec S16 32) a x).toNat < S65536.size a)
instance k4_chk234.dec : ∀ (v616 : IVec S16 32), Decidable (k4_chk234 v616) := fun v616 => decidable_of_iff' _ (Iff.of_eq (k4_chk234.eq_1 v616))
theorem k4_idx234_inb : ∀ (v616 : IVec S16 32) (k4_hw234 : k4_chk234 v616), ∀ a x, ((![v616] : Fin 1 → IVec S16 32) a x).toNat < S65536.size a := fun v616 k4_hw234 => k4_hw234

def k4_chk235 (v623 : IVec S16 32) : Prop :=
  (∀ a x, ((![v623] : Fin 1 → IVec S16 32) a x).toNat < S65536.size a)
instance k4_chk235.dec : ∀ (v623 : IVec S16 32), Decidable (k4_chk235 v623) := fun v623 => decidable_of_iff' _ (Iff.of_eq (k4_chk235.eq_1 v623))
theorem k4_idx235_inb : ∀ (v623 : IVec S16 32) (k4_hw235 : k4_chk235 v623), ∀ a x, ((![v623] : Fin 1 → IVec S16 32) a x).toNat < S65536.size a := fun v623 k4_hw235 => k4_hw235

def k4_chk236 (v630 : IVec S16 32) : Prop :=
  (∀ a x, ((![v630] : Fin 1 → IVec S16 32) a x).toNat < S65536.size a)
instance k4_chk236.dec : ∀ (v630 : IVec S16 32), Decidable (k4_chk236 v630) := fun v630 => decidable_of_iff' _ (Iff.of_eq (k4_chk236.eq_1 v630))
theorem k4_idx236_inb : ∀ (v630 : IVec S16 32) (k4_hw236 : k4_chk236 v630), ∀ a x, ((![v630] : Fin 1 → IVec S16 32) a x).toNat < S65536.size a := fun v630 k4_hw236 => k4_hw236

def k4_chk237 (v637 : IVec S16 32) : Prop :=
  (∀ a x, ((![v637] : Fin 1 → IVec S16 32) a x).toNat < S65536.size a)
instance k4_chk237.dec : ∀ (v637 : IVec S16 32), Decidable (k4_chk237 v637) := fun v637 => decidable_of_iff' _ (Iff.of_eq (k4_chk237.eq_1 v637))
theorem k4_idx237_inb : ∀ (v637 : IVec S16 32) (k4_hw237 : k4_chk237 v637), ∀ a x, ((![v637] : Fin 1 → IVec S16 32) a x).toNat < S65536.size a := fun v637 k4_hw237 => k4_hw237

def k4_chk238 (v644 : IVec S16 32) : Prop :=
  (∀ a x, ((![v644] : Fin 1 → IVec S16 32) a x).toNat < S65536.size a)
instance k4_chk238.dec : ∀ (v644 : IVec S16 32), Decidable (k4_chk238 v644) := fun v644 => decidable_of_iff' _ (Iff.of_eq (k4_chk238.eq_1 v644))
theorem k4_idx238_inb : ∀ (v644 : IVec S16 32) (k4_hw238 : k4_chk238 v644), ∀ a x, ((![v644] : Fin 1 → IVec S16 32) a x).toNat < S65536.size a := fun v644 k4_hw238 => k4_hw238

def k4_chk239 (v651 : IVec S16 32) : Prop :=
  (∀ a x, ((![v651] : Fin 1 → IVec S16 32) a x).toNat < S65536.size a)
instance k4_chk239.dec : ∀ (v651 : IVec S16 32), Decidable (k4_chk239 v651) := fun v651 => decidable_of_iff' _ (Iff.of_eq (k4_chk239.eq_1 v651))
theorem k4_idx239_inb : ∀ (v651 : IVec S16 32) (k4_hw239 : k4_chk239 v651), ∀ a x, ((![v651] : Fin 1 → IVec S16 32) a x).toNat < S65536.size a := fun v651 k4_hw239 => k4_hw239

def k4_chk240 (v658 : IVec S16 32) : Prop :=
  (∀ a x, ((![v658] : Fin 1 → IVec S16 32) a x).toNat < S65536.size a)
instance k4_chk240.dec : ∀ (v658 : IVec S16 32), Decidable (k4_chk240 v658) := fun v658 => decidable_of_iff' _ (Iff.of_eq (k4_chk240.eq_1 v658))
theorem k4_idx240_inb : ∀ (v658 : IVec S16 32) (k4_hw240 : k4_chk240 v658), ∀ a x, ((![v658] : Fin 1 → IVec S16 32) a x).toNat < S65536.size a := fun v658 k4_hw240 => k4_hw240
def k4_off69 (k4_t5 : Fin k4_t5_loop.trips) (k4_t6 : Fin k4_t6_loop.trips) (c0_i32_283 : BitVec 32) : Fin 2 → Nat :=
  let c0_i32_39 : BitVec 32 := 0#32
  let c1_i32_41 : BitVec 32 := 1#32
  let arg9 : BitVec 32 := Scf.iv c0_i32_39 c1_i32_41 k4_t6
  let c4_i32_282 : BitVec 32 := 4#32
  let v661 : BitVec 32 := Scalar.muli arg9 c4_i32_282
  let v662 : BitVec 32 := Scalar.addi v661 c0_i32_283
  let v663 : Index := Scalar.indexCast v662
  let c0_i32_21 : BitVec 32 := 0#32
  let c1_i32_23 : BitVec 32 := 1#32
  let arg8 : BitVec 32 := Scf.iv c0_i32_21 c1_i32_23 k4_t5
  let c16_i32_32 : BitVec 32 := 16#32
  let v39 : BitVec 32 := Scalar.muli arg8 c16_i32_32
  let v664 : Index := Scalar.indexCast v39
  ![v663.toNat, v664.toNat]
def k4_off70 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_25 : BitVec 32 := 16#32
  let v36 : BitVec 32 := Scalar.muli v28 c16_i32_25
  let c2048_i32_r6 : BitVec 32 := 2048#32
  ![v18.toNat, v36.toNat, 2048]
def k4_off71 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_32_r7 : BitVec 32 := 0#32
  let c3072_i32_r7 : BitVec 32 := 3072#32
  ![v18.toNat, 0, 3072]
@[reducible] def k4_t7_loop : Scf.Loop 32 :=
  let c0_i32_27 : BitVec 32 := 0#32
  let c64_i32_28 : BitVec 32 := 64#32
  let v37 : BitVec 32 := Scalar.addi c0_i32_27 c64_i32_28
  let c1_i32_29 : BitVec 32 := 1#32
  ⟨c0_i32_27, v37, c1_i32_29⟩
def k4_off72 (k4_t7 : Fin k4_t7_loop.trips) : Fin 2 → Nat :=
  let c0_i32_33 : BitVec 32 := 0#32
  let v40 : Index := Scalar.indexCast c0_i32_33
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v41 : Index := Scalar.indexCast v39
  ![0, v41.toNat]
def k4_off73 (k4_t7 : Fin k4_t7_loop.trips) : Fin 2 → Nat :=
  let c1_i32_34 : BitVec 32 := 1#32
  let v43 : Index := Scalar.indexCast c1_i32_34
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v44 : Index := Scalar.indexCast v39
  ![1, v44.toNat]
def k4_off74 (k4_t7 : Fin k4_t7_loop.trips) : Fin 2 → Nat :=
  let c2_i32_35 : BitVec 32 := 2#32
  let v46 : Index := Scalar.indexCast c2_i32_35
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v47 : Index := Scalar.indexCast v39
  ![2, v47.toNat]
def k4_off75 (k4_t7 : Fin k4_t7_loop.trips) : Fin 2 → Nat :=
  let c3_i32 : BitVec 32 := 3#32
  let v49 : Index := Scalar.indexCast c3_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v50 : Index := Scalar.indexCast v39
  ![3, v50.toNat]
def k4_off76 (k4_t7 : Fin k4_t7_loop.trips) : Fin 2 → Nat :=
  let c4_i32_36 : BitVec 32 := 4#32
  let v52 : Index := Scalar.indexCast c4_i32_36
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v53 : Index := Scalar.indexCast v39
  ![4, v53.toNat]
def k4_off77 (k4_t7 : Fin k4_t7_loop.trips) : Fin 2 → Nat :=
  let c5_i32 : BitVec 32 := 5#32
  let v55 : Index := Scalar.indexCast c5_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v56 : Index := Scalar.indexCast v39
  ![5, v56.toNat]
def k4_off78 (k4_t7 : Fin k4_t7_loop.trips) : Fin 2 → Nat :=
  let c6_i32 : BitVec 32 := 6#32
  let v58 : Index := Scalar.indexCast c6_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v59 : Index := Scalar.indexCast v39
  ![6, v59.toNat]
def k4_off79 (k4_t7 : Fin k4_t7_loop.trips) : Fin 2 → Nat :=
  let c7_i32 : BitVec 32 := 7#32
  let v61 : Index := Scalar.indexCast c7_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v62 : Index := Scalar.indexCast v39
  ![7, v62.toNat]
def k4_off80 (k4_t7 : Fin k4_t7_loop.trips) : Fin 2 → Nat :=
  let c8_i32 : BitVec 32 := 8#32
  let v64 : Index := Scalar.indexCast c8_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v65 : Index := Scalar.indexCast v39
  ![8, v65.toNat]
def k4_off81 (k4_t7 : Fin k4_t7_loop.trips) : Fin 2 → Nat :=
  let c9_i32 : BitVec 32 := 9#32
  let v67 : Index := Scalar.indexCast c9_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v68 : Index := Scalar.indexCast v39
  ![9, v68.toNat]
def k4_off82 (k4_t7 : Fin k4_t7_loop.trips) : Fin 2 → Nat :=
  let c10_i32 : BitVec 32 := 10#32
  let v70 : Index := Scalar.indexCast c10_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v71 : Index := Scalar.indexCast v39
  ![10, v71.toNat]
def k4_off83 (k4_t7 : Fin k4_t7_loop.trips) : Fin 2 → Nat :=
  let c11_i32 : BitVec 32 := 11#32
  let v73 : Index := Scalar.indexCast c11_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v74 : Index := Scalar.indexCast v39
  ![11, v74.toNat]
def k4_off84 (k4_t7 : Fin k4_t7_loop.trips) : Fin 2 → Nat :=
  let c12_i32 : BitVec 32 := 12#32
  let v76 : Index := Scalar.indexCast c12_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v77 : Index := Scalar.indexCast v39
  ![12, v77.toNat]
def k4_off85 (k4_t7 : Fin k4_t7_loop.trips) : Fin 2 → Nat :=
  let c13_i32 : BitVec 32 := 13#32
  let v79 : Index := Scalar.indexCast c13_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v80 : Index := Scalar.indexCast v39
  ![13, v80.toNat]
def k4_off86 (k4_t7 : Fin k4_t7_loop.trips) : Fin 2 → Nat :=
  let c14_i32 : BitVec 32 := 14#32
  let v82 : Index := Scalar.indexCast c14_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v83 : Index := Scalar.indexCast v39
  ![14, v83.toNat]
def k4_off87 (k4_t7 : Fin k4_t7_loop.trips) : Fin 2 → Nat :=
  let c15_i32 : BitVec 32 := 15#32
  let v85 : Index := Scalar.indexCast c15_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v86 : Index := Scalar.indexCast v39
  ![15, v86.toNat]
def k4_off88 (k4_t7 : Fin k4_t7_loop.trips) : Fin 2 → Nat :=
  let c16_i32_37 : BitVec 32 := 16#32
  let v88 : Index := Scalar.indexCast c16_i32_37
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v89 : Index := Scalar.indexCast v39
  ![16, v89.toNat]
def k4_off89 (k4_t7 : Fin k4_t7_loop.trips) : Fin 2 → Nat :=
  let c17_i32 : BitVec 32 := 17#32
  let v91 : Index := Scalar.indexCast c17_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v92 : Index := Scalar.indexCast v39
  ![17, v92.toNat]
def k4_off90 (k4_t7 : Fin k4_t7_loop.trips) : Fin 2 → Nat :=
  let c18_i32 : BitVec 32 := 18#32
  let v94 : Index := Scalar.indexCast c18_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v95 : Index := Scalar.indexCast v39
  ![18, v95.toNat]
def k4_off91 (k4_t7 : Fin k4_t7_loop.trips) : Fin 2 → Nat :=
  let c19_i32 : BitVec 32 := 19#32
  let v97 : Index := Scalar.indexCast c19_i32
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v98 : Index := Scalar.indexCast v39
  ![19, v98.toNat]
@[reducible] def k4_t8_loop : Scf.Loop 32 :=
  let c0_i32_39 : BitVec 32 := 0#32
  let c4_i32_40 : BitVec 32 := 4#32
  let v100 : BitVec 32 := Scalar.addi c0_i32_39 c4_i32_40
  let c1_i32_41 : BitVec 32 := 1#32
  ⟨c0_i32_39, v100, c1_i32_41⟩

def k4_chk241 (v105 : IVec S16 32) : Prop :=
  (∀ a x, ((![v105] : Fin 1 → IVec S16 32) a x).toNat < S65536.size a)
instance k4_chk241.dec : ∀ (v105 : IVec S16 32), Decidable (k4_chk241 v105) := fun v105 => decidable_of_iff' _ (Iff.of_eq (k4_chk241.eq_1 v105))
theorem k4_idx241_inb : ∀ (v105 : IVec S16 32) (k4_hw241 : k4_chk241 v105), ∀ a x, ((![v105] : Fin 1 → IVec S16 32) a x).toNat < S65536.size a := fun v105 k4_hw241 => k4_hw241

def k4_chk242 (v112 : IVec S16 32) : Prop :=
  (∀ a x, ((![v112] : Fin 1 → IVec S16 32) a x).toNat < S65536.size a)
instance k4_chk242.dec : ∀ (v112 : IVec S16 32), Decidable (k4_chk242 v112) := fun v112 => decidable_of_iff' _ (Iff.of_eq (k4_chk242.eq_1 v112))
theorem k4_idx242_inb : ∀ (v112 : IVec S16 32) (k4_hw242 : k4_chk242 v112), ∀ a x, ((![v112] : Fin 1 → IVec S16 32) a x).toNat < S65536.size a := fun v112 k4_hw242 => k4_hw242

def k4_chk243 (v119 : IVec S16 32) : Prop :=
  (∀ a x, ((![v119] : Fin 1 → IVec S16 32) a x).toNat < S65536.size a)
instance k4_chk243.dec : ∀ (v119 : IVec S16 32), Decidable (k4_chk243 v119) := fun v119 => decidable_of_iff' _ (Iff.of_eq (k4_chk243.eq_1 v119))
theorem k4_idx243_inb : ∀ (v119 : IVec S16 32) (k4_hw243 : k4_chk243 v119), ∀ a x, ((![v119] : Fin 1 → IVec S16 32) a x).toNat < S65536.size a := fun v119 k4_hw243 => k4_hw243

def k4_chk244 (v126 : IVec S16 32) : Prop :=
  (∀ a x, ((![v126] : Fin 1 → IVec S16 32) a x).toNat < S65536.size a)
instance k4_chk244.dec : ∀ (v126 : IVec S16 32), Decidable (k4_chk244 v126) := fun v126 => decidable_of_iff' _ (Iff.of_eq (k4_chk244.eq_1 v126))
theorem k4_idx244_inb : ∀ (v126 : IVec S16 32) (k4_hw244 : k4_chk244 v126), ∀ a x, ((![v126] : Fin 1 → IVec S16 32) a x).toNat < S65536.size a := fun v126 k4_hw244 => k4_hw244

def k4_chk245 (v133 : IVec S16 32) : Prop :=
  (∀ a x, ((![v133] : Fin 1 → IVec S16 32) a x).toNat < S65536.size a)
instance k4_chk245.dec : ∀ (v133 : IVec S16 32), Decidable (k4_chk245 v133) := fun v133 => decidable_of_iff' _ (Iff.of_eq (k4_chk245.eq_1 v133))
theorem k4_idx245_inb : ∀ (v133 : IVec S16 32) (k4_hw245 : k4_chk245 v133), ∀ a x, ((![v133] : Fin 1 → IVec S16 32) a x).toNat < S65536.size a := fun v133 k4_hw245 => k4_hw245

def k4_chk246 (v140 : IVec S16 32) : Prop :=
  (∀ a x, ((![v140] : Fin 1 → IVec S16 32) a x).toNat < S65536.size a)
instance k4_chk246.dec : ∀ (v140 : IVec S16 32), Decidable (k4_chk246 v140) := fun v140 => decidable_of_iff' _ (Iff.of_eq (k4_chk246.eq_1 v140))
theorem k4_idx246_inb : ∀ (v140 : IVec S16 32) (k4_hw246 : k4_chk246 v140), ∀ a x, ((![v140] : Fin 1 → IVec S16 32) a x).toNat < S65536.size a := fun v140 k4_hw246 => k4_hw246

def k4_chk247 (v147 : IVec S16 32) : Prop :=
  (∀ a x, ((![v147] : Fin 1 → IVec S16 32) a x).toNat < S65536.size a)
instance k4_chk247.dec : ∀ (v147 : IVec S16 32), Decidable (k4_chk247 v147) := fun v147 => decidable_of_iff' _ (Iff.of_eq (k4_chk247.eq_1 v147))
theorem k4_idx247_inb : ∀ (v147 : IVec S16 32) (k4_hw247 : k4_chk247 v147), ∀ a x, ((![v147] : Fin 1 → IVec S16 32) a x).toNat < S65536.size a := fun v147 k4_hw247 => k4_hw247

def k4_chk248 (v154 : IVec S16 32) : Prop :=
  (∀ a x, ((![v154] : Fin 1 → IVec S16 32) a x).toNat < S65536.size a)
instance k4_chk248.dec : ∀ (v154 : IVec S16 32), Decidable (k4_chk248 v154) := fun v154 => decidable_of_iff' _ (Iff.of_eq (k4_chk248.eq_1 v154))
theorem k4_idx248_inb : ∀ (v154 : IVec S16 32) (k4_hw248 : k4_chk248 v154), ∀ a x, ((![v154] : Fin 1 → IVec S16 32) a x).toNat < S65536.size a := fun v154 k4_hw248 => k4_hw248

def k4_chk249 (v161 : IVec S16 32) : Prop :=
  (∀ a x, ((![v161] : Fin 1 → IVec S16 32) a x).toNat < S65536.size a)
instance k4_chk249.dec : ∀ (v161 : IVec S16 32), Decidable (k4_chk249 v161) := fun v161 => decidable_of_iff' _ (Iff.of_eq (k4_chk249.eq_1 v161))
theorem k4_idx249_inb : ∀ (v161 : IVec S16 32) (k4_hw249 : k4_chk249 v161), ∀ a x, ((![v161] : Fin 1 → IVec S16 32) a x).toNat < S65536.size a := fun v161 k4_hw249 => k4_hw249

def k4_chk250 (v168 : IVec S16 32) : Prop :=
  (∀ a x, ((![v168] : Fin 1 → IVec S16 32) a x).toNat < S65536.size a)
instance k4_chk250.dec : ∀ (v168 : IVec S16 32), Decidable (k4_chk250 v168) := fun v168 => decidable_of_iff' _ (Iff.of_eq (k4_chk250.eq_1 v168))
theorem k4_idx250_inb : ∀ (v168 : IVec S16 32) (k4_hw250 : k4_chk250 v168), ∀ a x, ((![v168] : Fin 1 → IVec S16 32) a x).toNat < S65536.size a := fun v168 k4_hw250 => k4_hw250

def k4_chk251 (v175 : IVec S16 32) : Prop :=
  (∀ a x, ((![v175] : Fin 1 → IVec S16 32) a x).toNat < S65536.size a)
instance k4_chk251.dec : ∀ (v175 : IVec S16 32), Decidable (k4_chk251 v175) := fun v175 => decidable_of_iff' _ (Iff.of_eq (k4_chk251.eq_1 v175))
theorem k4_idx251_inb : ∀ (v175 : IVec S16 32) (k4_hw251 : k4_chk251 v175), ∀ a x, ((![v175] : Fin 1 → IVec S16 32) a x).toNat < S65536.size a := fun v175 k4_hw251 => k4_hw251

def k4_chk252 (v182 : IVec S16 32) : Prop :=
  (∀ a x, ((![v182] : Fin 1 → IVec S16 32) a x).toNat < S65536.size a)
instance k4_chk252.dec : ∀ (v182 : IVec S16 32), Decidable (k4_chk252 v182) := fun v182 => decidable_of_iff' _ (Iff.of_eq (k4_chk252.eq_1 v182))
theorem k4_idx252_inb : ∀ (v182 : IVec S16 32) (k4_hw252 : k4_chk252 v182), ∀ a x, ((![v182] : Fin 1 → IVec S16 32) a x).toNat < S65536.size a := fun v182 k4_hw252 => k4_hw252

def k4_chk253 (v189 : IVec S16 32) : Prop :=
  (∀ a x, ((![v189] : Fin 1 → IVec S16 32) a x).toNat < S65536.size a)
instance k4_chk253.dec : ∀ (v189 : IVec S16 32), Decidable (k4_chk253 v189) := fun v189 => decidable_of_iff' _ (Iff.of_eq (k4_chk253.eq_1 v189))
theorem k4_idx253_inb : ∀ (v189 : IVec S16 32) (k4_hw253 : k4_chk253 v189), ∀ a x, ((![v189] : Fin 1 → IVec S16 32) a x).toNat < S65536.size a := fun v189 k4_hw253 => k4_hw253

def k4_chk254 (v196 : IVec S16 32) : Prop :=
  (∀ a x, ((![v196] : Fin 1 → IVec S16 32) a x).toNat < S65536.size a)
instance k4_chk254.dec : ∀ (v196 : IVec S16 32), Decidable (k4_chk254 v196) := fun v196 => decidable_of_iff' _ (Iff.of_eq (k4_chk254.eq_1 v196))
theorem k4_idx254_inb : ∀ (v196 : IVec S16 32) (k4_hw254 : k4_chk254 v196), ∀ a x, ((![v196] : Fin 1 → IVec S16 32) a x).toNat < S65536.size a := fun v196 k4_hw254 => k4_hw254

def k4_chk255 (v203 : IVec S16 32) : Prop :=
  (∀ a x, ((![v203] : Fin 1 → IVec S16 32) a x).toNat < S65536.size a)
instance k4_chk255.dec : ∀ (v203 : IVec S16 32), Decidable (k4_chk255 v203) := fun v203 => decidable_of_iff' _ (Iff.of_eq (k4_chk255.eq_1 v203))
theorem k4_idx255_inb : ∀ (v203 : IVec S16 32) (k4_hw255 : k4_chk255 v203), ∀ a x, ((![v203] : Fin 1 → IVec S16 32) a x).toNat < S65536.size a := fun v203 k4_hw255 => k4_hw255

def k4_chk256 (v210 : IVec S16 32) : Prop :=
  (∀ a x, ((![v210] : Fin 1 → IVec S16 32) a x).toNat < S65536.size a)
instance k4_chk256.dec : ∀ (v210 : IVec S16 32), Decidable (k4_chk256 v210) := fun v210 => decidable_of_iff' _ (Iff.of_eq (k4_chk256.eq_1 v210))
theorem k4_idx256_inb : ∀ (v210 : IVec S16 32) (k4_hw256 : k4_chk256 v210), ∀ a x, ((![v210] : Fin 1 → IVec S16 32) a x).toNat < S65536.size a := fun v210 k4_hw256 => k4_hw256

def k4_chk257 (v217 : IVec S16 32) : Prop :=
  (∀ a x, ((![v217] : Fin 1 → IVec S16 32) a x).toNat < S65536.size a)
instance k4_chk257.dec : ∀ (v217 : IVec S16 32), Decidable (k4_chk257 v217) := fun v217 => decidable_of_iff' _ (Iff.of_eq (k4_chk257.eq_1 v217))
theorem k4_idx257_inb : ∀ (v217 : IVec S16 32) (k4_hw257 : k4_chk257 v217), ∀ a x, ((![v217] : Fin 1 → IVec S16 32) a x).toNat < S65536.size a := fun v217 k4_hw257 => k4_hw257

def k4_chk258 (v224 : IVec S16 32) : Prop :=
  (∀ a x, ((![v224] : Fin 1 → IVec S16 32) a x).toNat < S65536.size a)
instance k4_chk258.dec : ∀ (v224 : IVec S16 32), Decidable (k4_chk258 v224) := fun v224 => decidable_of_iff' _ (Iff.of_eq (k4_chk258.eq_1 v224))
theorem k4_idx258_inb : ∀ (v224 : IVec S16 32) (k4_hw258 : k4_chk258 v224), ∀ a x, ((![v224] : Fin 1 → IVec S16 32) a x).toNat < S65536.size a := fun v224 k4_hw258 => k4_hw258

def k4_chk259 (v231 : IVec S16 32) : Prop :=
  (∀ a x, ((![v231] : Fin 1 → IVec S16 32) a x).toNat < S65536.size a)
instance k4_chk259.dec : ∀ (v231 : IVec S16 32), Decidable (k4_chk259 v231) := fun v231 => decidable_of_iff' _ (Iff.of_eq (k4_chk259.eq_1 v231))
theorem k4_idx259_inb : ∀ (v231 : IVec S16 32) (k4_hw259 : k4_chk259 v231), ∀ a x, ((![v231] : Fin 1 → IVec S16 32) a x).toNat < S65536.size a := fun v231 k4_hw259 => k4_hw259

def k4_chk260 (v238 : IVec S16 32) : Prop :=
  (∀ a x, ((![v238] : Fin 1 → IVec S16 32) a x).toNat < S65536.size a)
instance k4_chk260.dec : ∀ (v238 : IVec S16 32), Decidable (k4_chk260 v238) := fun v238 => decidable_of_iff' _ (Iff.of_eq (k4_chk260.eq_1 v238))
theorem k4_idx260_inb : ∀ (v238 : IVec S16 32) (k4_hw260 : k4_chk260 v238), ∀ a x, ((![v238] : Fin 1 → IVec S16 32) a x).toNat < S65536.size a := fun v238 k4_hw260 => k4_hw260

def k4_chk261 (v245 : IVec S16 32) : Prop :=
  (∀ a x, ((![v245] : Fin 1 → IVec S16 32) a x).toNat < S65536.size a)
instance k4_chk261.dec : ∀ (v245 : IVec S16 32), Decidable (k4_chk261 v245) := fun v245 => decidable_of_iff' _ (Iff.of_eq (k4_chk261.eq_1 v245))
theorem k4_idx261_inb : ∀ (v245 : IVec S16 32) (k4_hw261 : k4_chk261 v245), ∀ a x, ((![v245] : Fin 1 → IVec S16 32) a x).toNat < S65536.size a := fun v245 k4_hw261 => k4_hw261

def k4_chk262 (v252 : IVec S16 32) : Prop :=
  (∀ a x, ((![v252] : Fin 1 → IVec S16 32) a x).toNat < S65536.size a)
instance k4_chk262.dec : ∀ (v252 : IVec S16 32), Decidable (k4_chk262 v252) := fun v252 => decidable_of_iff' _ (Iff.of_eq (k4_chk262.eq_1 v252))
theorem k4_idx262_inb : ∀ (v252 : IVec S16 32) (k4_hw262 : k4_chk262 v252), ∀ a x, ((![v252] : Fin 1 → IVec S16 32) a x).toNat < S65536.size a := fun v252 k4_hw262 => k4_hw262

def k4_chk263 (v259 : IVec S16 32) : Prop :=
  (∀ a x, ((![v259] : Fin 1 → IVec S16 32) a x).toNat < S65536.size a)
instance k4_chk263.dec : ∀ (v259 : IVec S16 32), Decidable (k4_chk263 v259) := fun v259 => decidable_of_iff' _ (Iff.of_eq (k4_chk263.eq_1 v259))
theorem k4_idx263_inb : ∀ (v259 : IVec S16 32) (k4_hw263 : k4_chk263 v259), ∀ a x, ((![v259] : Fin 1 → IVec S16 32) a x).toNat < S65536.size a := fun v259 k4_hw263 => k4_hw263

def k4_chk264 (v266 : IVec S16 32) : Prop :=
  (∀ a x, ((![v266] : Fin 1 → IVec S16 32) a x).toNat < S65536.size a)
instance k4_chk264.dec : ∀ (v266 : IVec S16 32), Decidable (k4_chk264 v266) := fun v266 => decidable_of_iff' _ (Iff.of_eq (k4_chk264.eq_1 v266))
theorem k4_idx264_inb : ∀ (v266 : IVec S16 32) (k4_hw264 : k4_chk264 v266), ∀ a x, ((![v266] : Fin 1 → IVec S16 32) a x).toNat < S65536.size a := fun v266 k4_hw264 => k4_hw264

def k4_chk265 (v273 : IVec S16 32) : Prop :=
  (∀ a x, ((![v273] : Fin 1 → IVec S16 32) a x).toNat < S65536.size a)
instance k4_chk265.dec : ∀ (v273 : IVec S16 32), Decidable (k4_chk265 v273) := fun v273 => decidable_of_iff' _ (Iff.of_eq (k4_chk265.eq_1 v273))
theorem k4_idx265_inb : ∀ (v273 : IVec S16 32) (k4_hw265 : k4_chk265 v273), ∀ a x, ((![v273] : Fin 1 → IVec S16 32) a x).toNat < S65536.size a := fun v273 k4_hw265 => k4_hw265

def k4_chk266 (v280 : IVec S16 32) : Prop :=
  (∀ a x, ((![v280] : Fin 1 → IVec S16 32) a x).toNat < S65536.size a)
instance k4_chk266.dec : ∀ (v280 : IVec S16 32), Decidable (k4_chk266 v280) := fun v280 => decidable_of_iff' _ (Iff.of_eq (k4_chk266.eq_1 v280))
theorem k4_idx266_inb : ∀ (v280 : IVec S16 32) (k4_hw266 : k4_chk266 v280), ∀ a x, ((![v280] : Fin 1 → IVec S16 32) a x).toNat < S65536.size a := fun v280 k4_hw266 => k4_hw266

def k4_chk267 (v287 : IVec S16 32) : Prop :=
  (∀ a x, ((![v287] : Fin 1 → IVec S16 32) a x).toNat < S65536.size a)
instance k4_chk267.dec : ∀ (v287 : IVec S16 32), Decidable (k4_chk267 v287) := fun v287 => decidable_of_iff' _ (Iff.of_eq (k4_chk267.eq_1 v287))
theorem k4_idx267_inb : ∀ (v287 : IVec S16 32) (k4_hw267 : k4_chk267 v287), ∀ a x, ((![v287] : Fin 1 → IVec S16 32) a x).toNat < S65536.size a := fun v287 k4_hw267 => k4_hw267

def k4_chk268 (v294 : IVec S16 32) : Prop :=
  (∀ a x, ((![v294] : Fin 1 → IVec S16 32) a x).toNat < S65536.size a)
instance k4_chk268.dec : ∀ (v294 : IVec S16 32), Decidable (k4_chk268 v294) := fun v294 => decidable_of_iff' _ (Iff.of_eq (k4_chk268.eq_1 v294))
theorem k4_idx268_inb : ∀ (v294 : IVec S16 32) (k4_hw268 : k4_chk268 v294), ∀ a x, ((![v294] : Fin 1 → IVec S16 32) a x).toNat < S65536.size a := fun v294 k4_hw268 => k4_hw268

def k4_chk269 (v301 : IVec S16 32) : Prop :=
  (∀ a x, ((![v301] : Fin 1 → IVec S16 32) a x).toNat < S65536.size a)
instance k4_chk269.dec : ∀ (v301 : IVec S16 32), Decidable (k4_chk269 v301) := fun v301 => decidable_of_iff' _ (Iff.of_eq (k4_chk269.eq_1 v301))
theorem k4_idx269_inb : ∀ (v301 : IVec S16 32) (k4_hw269 : k4_chk269 v301), ∀ a x, ((![v301] : Fin 1 → IVec S16 32) a x).toNat < S65536.size a := fun v301 k4_hw269 => k4_hw269

def k4_chk270 (v308 : IVec S16 32) : Prop :=
  (∀ a x, ((![v308] : Fin 1 → IVec S16 32) a x).toNat < S65536.size a)
instance k4_chk270.dec : ∀ (v308 : IVec S16 32), Decidable (k4_chk270 v308) := fun v308 => decidable_of_iff' _ (Iff.of_eq (k4_chk270.eq_1 v308))
theorem k4_idx270_inb : ∀ (v308 : IVec S16 32) (k4_hw270 : k4_chk270 v308), ∀ a x, ((![v308] : Fin 1 → IVec S16 32) a x).toNat < S65536.size a := fun v308 k4_hw270 => k4_hw270

def k4_chk271 (v315 : IVec S16 32) : Prop :=
  (∀ a x, ((![v315] : Fin 1 → IVec S16 32) a x).toNat < S65536.size a)
instance k4_chk271.dec : ∀ (v315 : IVec S16 32), Decidable (k4_chk271 v315) := fun v315 => decidable_of_iff' _ (Iff.of_eq (k4_chk271.eq_1 v315))
theorem k4_idx271_inb : ∀ (v315 : IVec S16 32) (k4_hw271 : k4_chk271 v315), ∀ a x, ((![v315] : Fin 1 → IVec S16 32) a x).toNat < S65536.size a := fun v315 k4_hw271 => k4_hw271

def k4_chk272 (v322 : IVec S16 32) : Prop :=
  (∀ a x, ((![v322] : Fin 1 → IVec S16 32) a x).toNat < S65536.size a)
instance k4_chk272.dec : ∀ (v322 : IVec S16 32), Decidable (k4_chk272 v322) := fun v322 => decidable_of_iff' _ (Iff.of_eq (k4_chk272.eq_1 v322))
theorem k4_idx272_inb : ∀ (v322 : IVec S16 32) (k4_hw272 : k4_chk272 v322), ∀ a x, ((![v322] : Fin 1 → IVec S16 32) a x).toNat < S65536.size a := fun v322 k4_hw272 => k4_hw272

def k4_chk273 (v329 : IVec S16 32) : Prop :=
  (∀ a x, ((![v329] : Fin 1 → IVec S16 32) a x).toNat < S65536.size a)
instance k4_chk273.dec : ∀ (v329 : IVec S16 32), Decidable (k4_chk273 v329) := fun v329 => decidable_of_iff' _ (Iff.of_eq (k4_chk273.eq_1 v329))
theorem k4_idx273_inb : ∀ (v329 : IVec S16 32) (k4_hw273 : k4_chk273 v329), ∀ a x, ((![v329] : Fin 1 → IVec S16 32) a x).toNat < S65536.size a := fun v329 k4_hw273 => k4_hw273

def k4_chk274 (v336 : IVec S16 32) : Prop :=
  (∀ a x, ((![v336] : Fin 1 → IVec S16 32) a x).toNat < S65536.size a)
instance k4_chk274.dec : ∀ (v336 : IVec S16 32), Decidable (k4_chk274 v336) := fun v336 => decidable_of_iff' _ (Iff.of_eq (k4_chk274.eq_1 v336))
theorem k4_idx274_inb : ∀ (v336 : IVec S16 32) (k4_hw274 : k4_chk274 v336), ∀ a x, ((![v336] : Fin 1 → IVec S16 32) a x).toNat < S65536.size a := fun v336 k4_hw274 => k4_hw274

def k4_chk275 (v343 : IVec S16 32) : Prop :=
  (∀ a x, ((![v343] : Fin 1 → IVec S16 32) a x).toNat < S65536.size a)
instance k4_chk275.dec : ∀ (v343 : IVec S16 32), Decidable (k4_chk275 v343) := fun v343 => decidable_of_iff' _ (Iff.of_eq (k4_chk275.eq_1 v343))
theorem k4_idx275_inb : ∀ (v343 : IVec S16 32) (k4_hw275 : k4_chk275 v343), ∀ a x, ((![v343] : Fin 1 → IVec S16 32) a x).toNat < S65536.size a := fun v343 k4_hw275 => k4_hw275

def k4_chk276 (v350 : IVec S16 32) : Prop :=
  (∀ a x, ((![v350] : Fin 1 → IVec S16 32) a x).toNat < S65536.size a)
instance k4_chk276.dec : ∀ (v350 : IVec S16 32), Decidable (k4_chk276 v350) := fun v350 => decidable_of_iff' _ (Iff.of_eq (k4_chk276.eq_1 v350))
theorem k4_idx276_inb : ∀ (v350 : IVec S16 32) (k4_hw276 : k4_chk276 v350), ∀ a x, ((![v350] : Fin 1 → IVec S16 32) a x).toNat < S65536.size a := fun v350 k4_hw276 => k4_hw276

def k4_chk277 (v357 : IVec S16 32) : Prop :=
  (∀ a x, ((![v357] : Fin 1 → IVec S16 32) a x).toNat < S65536.size a)
instance k4_chk277.dec : ∀ (v357 : IVec S16 32), Decidable (k4_chk277 v357) := fun v357 => decidable_of_iff' _ (Iff.of_eq (k4_chk277.eq_1 v357))
theorem k4_idx277_inb : ∀ (v357 : IVec S16 32) (k4_hw277 : k4_chk277 v357), ∀ a x, ((![v357] : Fin 1 → IVec S16 32) a x).toNat < S65536.size a := fun v357 k4_hw277 => k4_hw277

def k4_chk278 (v364 : IVec S16 32) : Prop :=
  (∀ a x, ((![v364] : Fin 1 → IVec S16 32) a x).toNat < S65536.size a)
instance k4_chk278.dec : ∀ (v364 : IVec S16 32), Decidable (k4_chk278 v364) := fun v364 => decidable_of_iff' _ (Iff.of_eq (k4_chk278.eq_1 v364))
theorem k4_idx278_inb : ∀ (v364 : IVec S16 32) (k4_hw278 : k4_chk278 v364), ∀ a x, ((![v364] : Fin 1 → IVec S16 32) a x).toNat < S65536.size a := fun v364 k4_hw278 => k4_hw278

def k4_chk279 (v371 : IVec S16 32) : Prop :=
  (∀ a x, ((![v371] : Fin 1 → IVec S16 32) a x).toNat < S65536.size a)
instance k4_chk279.dec : ∀ (v371 : IVec S16 32), Decidable (k4_chk279 v371) := fun v371 => decidable_of_iff' _ (Iff.of_eq (k4_chk279.eq_1 v371))
theorem k4_idx279_inb : ∀ (v371 : IVec S16 32) (k4_hw279 : k4_chk279 v371), ∀ a x, ((![v371] : Fin 1 → IVec S16 32) a x).toNat < S65536.size a := fun v371 k4_hw279 => k4_hw279

def k4_chk280 (v378 : IVec S16 32) : Prop :=
  (∀ a x, ((![v378] : Fin 1 → IVec S16 32) a x).toNat < S65536.size a)
instance k4_chk280.dec : ∀ (v378 : IVec S16 32), Decidable (k4_chk280 v378) := fun v378 => decidable_of_iff' _ (Iff.of_eq (k4_chk280.eq_1 v378))
theorem k4_idx280_inb : ∀ (v378 : IVec S16 32) (k4_hw280 : k4_chk280 v378), ∀ a x, ((![v378] : Fin 1 → IVec S16 32) a x).toNat < S65536.size a := fun v378 k4_hw280 => k4_hw280

def k4_chk281 (v385 : IVec S16 32) : Prop :=
  (∀ a x, ((![v385] : Fin 1 → IVec S16 32) a x).toNat < S65536.size a)
instance k4_chk281.dec : ∀ (v385 : IVec S16 32), Decidable (k4_chk281 v385) := fun v385 => decidable_of_iff' _ (Iff.of_eq (k4_chk281.eq_1 v385))
theorem k4_idx281_inb : ∀ (v385 : IVec S16 32) (k4_hw281 : k4_chk281 v385), ∀ a x, ((![v385] : Fin 1 → IVec S16 32) a x).toNat < S65536.size a := fun v385 k4_hw281 => k4_hw281

def k4_chk282 (v392 : IVec S16 32) : Prop :=
  (∀ a x, ((![v392] : Fin 1 → IVec S16 32) a x).toNat < S65536.size a)
instance k4_chk282.dec : ∀ (v392 : IVec S16 32), Decidable (k4_chk282 v392) := fun v392 => decidable_of_iff' _ (Iff.of_eq (k4_chk282.eq_1 v392))
theorem k4_idx282_inb : ∀ (v392 : IVec S16 32) (k4_hw282 : k4_chk282 v392), ∀ a x, ((![v392] : Fin 1 → IVec S16 32) a x).toNat < S65536.size a := fun v392 k4_hw282 => k4_hw282

def k4_chk283 (v399 : IVec S16 32) : Prop :=
  (∀ a x, ((![v399] : Fin 1 → IVec S16 32) a x).toNat < S65536.size a)
instance k4_chk283.dec : ∀ (v399 : IVec S16 32), Decidable (k4_chk283 v399) := fun v399 => decidable_of_iff' _ (Iff.of_eq (k4_chk283.eq_1 v399))
theorem k4_idx283_inb : ∀ (v399 : IVec S16 32) (k4_hw283 : k4_chk283 v399), ∀ a x, ((![v399] : Fin 1 → IVec S16 32) a x).toNat < S65536.size a := fun v399 k4_hw283 => k4_hw283

def k4_chk284 (v406 : IVec S16 32) : Prop :=
  (∀ a x, ((![v406] : Fin 1 → IVec S16 32) a x).toNat < S65536.size a)
instance k4_chk284.dec : ∀ (v406 : IVec S16 32), Decidable (k4_chk284 v406) := fun v406 => decidable_of_iff' _ (Iff.of_eq (k4_chk284.eq_1 v406))
theorem k4_idx284_inb : ∀ (v406 : IVec S16 32) (k4_hw284 : k4_chk284 v406), ∀ a x, ((![v406] : Fin 1 → IVec S16 32) a x).toNat < S65536.size a := fun v406 k4_hw284 => k4_hw284

def k4_chk285 (v413 : IVec S16 32) : Prop :=
  (∀ a x, ((![v413] : Fin 1 → IVec S16 32) a x).toNat < S65536.size a)
instance k4_chk285.dec : ∀ (v413 : IVec S16 32), Decidable (k4_chk285 v413) := fun v413 => decidable_of_iff' _ (Iff.of_eq (k4_chk285.eq_1 v413))
theorem k4_idx285_inb : ∀ (v413 : IVec S16 32) (k4_hw285 : k4_chk285 v413), ∀ a x, ((![v413] : Fin 1 → IVec S16 32) a x).toNat < S65536.size a := fun v413 k4_hw285 => k4_hw285

def k4_chk286 (v420 : IVec S16 32) : Prop :=
  (∀ a x, ((![v420] : Fin 1 → IVec S16 32) a x).toNat < S65536.size a)
instance k4_chk286.dec : ∀ (v420 : IVec S16 32), Decidable (k4_chk286 v420) := fun v420 => decidable_of_iff' _ (Iff.of_eq (k4_chk286.eq_1 v420))
theorem k4_idx286_inb : ∀ (v420 : IVec S16 32) (k4_hw286 : k4_chk286 v420), ∀ a x, ((![v420] : Fin 1 → IVec S16 32) a x).toNat < S65536.size a := fun v420 k4_hw286 => k4_hw286

def k4_chk287 (v427 : IVec S16 32) : Prop :=
  (∀ a x, ((![v427] : Fin 1 → IVec S16 32) a x).toNat < S65536.size a)
instance k4_chk287.dec : ∀ (v427 : IVec S16 32), Decidable (k4_chk287 v427) := fun v427 => decidable_of_iff' _ (Iff.of_eq (k4_chk287.eq_1 v427))
theorem k4_idx287_inb : ∀ (v427 : IVec S16 32) (k4_hw287 : k4_chk287 v427), ∀ a x, ((![v427] : Fin 1 → IVec S16 32) a x).toNat < S65536.size a := fun v427 k4_hw287 => k4_hw287

def k4_chk288 (v434 : IVec S16 32) : Prop :=
  (∀ a x, ((![v434] : Fin 1 → IVec S16 32) a x).toNat < S65536.size a)
instance k4_chk288.dec : ∀ (v434 : IVec S16 32), Decidable (k4_chk288 v434) := fun v434 => decidable_of_iff' _ (Iff.of_eq (k4_chk288.eq_1 v434))
theorem k4_idx288_inb : ∀ (v434 : IVec S16 32) (k4_hw288 : k4_chk288 v434), ∀ a x, ((![v434] : Fin 1 → IVec S16 32) a x).toNat < S65536.size a := fun v434 k4_hw288 => k4_hw288

def k4_chk289 (v441 : IVec S16 32) : Prop :=
  (∀ a x, ((![v441] : Fin 1 → IVec S16 32) a x).toNat < S65536.size a)
instance k4_chk289.dec : ∀ (v441 : IVec S16 32), Decidable (k4_chk289 v441) := fun v441 => decidable_of_iff' _ (Iff.of_eq (k4_chk289.eq_1 v441))
theorem k4_idx289_inb : ∀ (v441 : IVec S16 32) (k4_hw289 : k4_chk289 v441), ∀ a x, ((![v441] : Fin 1 → IVec S16 32) a x).toNat < S65536.size a := fun v441 k4_hw289 => k4_hw289

def k4_chk290 (v448 : IVec S16 32) : Prop :=
  (∀ a x, ((![v448] : Fin 1 → IVec S16 32) a x).toNat < S65536.size a)
instance k4_chk290.dec : ∀ (v448 : IVec S16 32), Decidable (k4_chk290 v448) := fun v448 => decidable_of_iff' _ (Iff.of_eq (k4_chk290.eq_1 v448))
theorem k4_idx290_inb : ∀ (v448 : IVec S16 32) (k4_hw290 : k4_chk290 v448), ∀ a x, ((![v448] : Fin 1 → IVec S16 32) a x).toNat < S65536.size a := fun v448 k4_hw290 => k4_hw290

def k4_chk291 (v455 : IVec S16 32) : Prop :=
  (∀ a x, ((![v455] : Fin 1 → IVec S16 32) a x).toNat < S65536.size a)
instance k4_chk291.dec : ∀ (v455 : IVec S16 32), Decidable (k4_chk291 v455) := fun v455 => decidable_of_iff' _ (Iff.of_eq (k4_chk291.eq_1 v455))
theorem k4_idx291_inb : ∀ (v455 : IVec S16 32) (k4_hw291 : k4_chk291 v455), ∀ a x, ((![v455] : Fin 1 → IVec S16 32) a x).toNat < S65536.size a := fun v455 k4_hw291 => k4_hw291

def k4_chk292 (v462 : IVec S16 32) : Prop :=
  (∀ a x, ((![v462] : Fin 1 → IVec S16 32) a x).toNat < S65536.size a)
instance k4_chk292.dec : ∀ (v462 : IVec S16 32), Decidable (k4_chk292 v462) := fun v462 => decidable_of_iff' _ (Iff.of_eq (k4_chk292.eq_1 v462))
theorem k4_idx292_inb : ∀ (v462 : IVec S16 32) (k4_hw292 : k4_chk292 v462), ∀ a x, ((![v462] : Fin 1 → IVec S16 32) a x).toNat < S65536.size a := fun v462 k4_hw292 => k4_hw292

def k4_chk293 (v469 : IVec S16 32) : Prop :=
  (∀ a x, ((![v469] : Fin 1 → IVec S16 32) a x).toNat < S65536.size a)
instance k4_chk293.dec : ∀ (v469 : IVec S16 32), Decidable (k4_chk293 v469) := fun v469 => decidable_of_iff' _ (Iff.of_eq (k4_chk293.eq_1 v469))
theorem k4_idx293_inb : ∀ (v469 : IVec S16 32) (k4_hw293 : k4_chk293 v469), ∀ a x, ((![v469] : Fin 1 → IVec S16 32) a x).toNat < S65536.size a := fun v469 k4_hw293 => k4_hw293

def k4_chk294 (v476 : IVec S16 32) : Prop :=
  (∀ a x, ((![v476] : Fin 1 → IVec S16 32) a x).toNat < S65536.size a)
instance k4_chk294.dec : ∀ (v476 : IVec S16 32), Decidable (k4_chk294 v476) := fun v476 => decidable_of_iff' _ (Iff.of_eq (k4_chk294.eq_1 v476))
theorem k4_idx294_inb : ∀ (v476 : IVec S16 32) (k4_hw294 : k4_chk294 v476), ∀ a x, ((![v476] : Fin 1 → IVec S16 32) a x).toNat < S65536.size a := fun v476 k4_hw294 => k4_hw294

def k4_chk295 (v483 : IVec S16 32) : Prop :=
  (∀ a x, ((![v483] : Fin 1 → IVec S16 32) a x).toNat < S65536.size a)
instance k4_chk295.dec : ∀ (v483 : IVec S16 32), Decidable (k4_chk295 v483) := fun v483 => decidable_of_iff' _ (Iff.of_eq (k4_chk295.eq_1 v483))
theorem k4_idx295_inb : ∀ (v483 : IVec S16 32) (k4_hw295 : k4_chk295 v483), ∀ a x, ((![v483] : Fin 1 → IVec S16 32) a x).toNat < S65536.size a := fun v483 k4_hw295 => k4_hw295

def k4_chk296 (v490 : IVec S16 32) : Prop :=
  (∀ a x, ((![v490] : Fin 1 → IVec S16 32) a x).toNat < S65536.size a)
instance k4_chk296.dec : ∀ (v490 : IVec S16 32), Decidable (k4_chk296 v490) := fun v490 => decidable_of_iff' _ (Iff.of_eq (k4_chk296.eq_1 v490))
theorem k4_idx296_inb : ∀ (v490 : IVec S16 32) (k4_hw296 : k4_chk296 v490), ∀ a x, ((![v490] : Fin 1 → IVec S16 32) a x).toNat < S65536.size a := fun v490 k4_hw296 => k4_hw296

def k4_chk297 (v497 : IVec S16 32) : Prop :=
  (∀ a x, ((![v497] : Fin 1 → IVec S16 32) a x).toNat < S65536.size a)
instance k4_chk297.dec : ∀ (v497 : IVec S16 32), Decidable (k4_chk297 v497) := fun v497 => decidable_of_iff' _ (Iff.of_eq (k4_chk297.eq_1 v497))
theorem k4_idx297_inb : ∀ (v497 : IVec S16 32) (k4_hw297 : k4_chk297 v497), ∀ a x, ((![v497] : Fin 1 → IVec S16 32) a x).toNat < S65536.size a := fun v497 k4_hw297 => k4_hw297

def k4_chk298 (v504 : IVec S16 32) : Prop :=
  (∀ a x, ((![v504] : Fin 1 → IVec S16 32) a x).toNat < S65536.size a)
instance k4_chk298.dec : ∀ (v504 : IVec S16 32), Decidable (k4_chk298 v504) := fun v504 => decidable_of_iff' _ (Iff.of_eq (k4_chk298.eq_1 v504))
theorem k4_idx298_inb : ∀ (v504 : IVec S16 32) (k4_hw298 : k4_chk298 v504), ∀ a x, ((![v504] : Fin 1 → IVec S16 32) a x).toNat < S65536.size a := fun v504 k4_hw298 => k4_hw298

def k4_chk299 (v511 : IVec S16 32) : Prop :=
  (∀ a x, ((![v511] : Fin 1 → IVec S16 32) a x).toNat < S65536.size a)
instance k4_chk299.dec : ∀ (v511 : IVec S16 32), Decidable (k4_chk299 v511) := fun v511 => decidable_of_iff' _ (Iff.of_eq (k4_chk299.eq_1 v511))
theorem k4_idx299_inb : ∀ (v511 : IVec S16 32) (k4_hw299 : k4_chk299 v511), ∀ a x, ((![v511] : Fin 1 → IVec S16 32) a x).toNat < S65536.size a := fun v511 k4_hw299 => k4_hw299

def k4_chk300 (v518 : IVec S16 32) : Prop :=
  (∀ a x, ((![v518] : Fin 1 → IVec S16 32) a x).toNat < S65536.size a)
instance k4_chk300.dec : ∀ (v518 : IVec S16 32), Decidable (k4_chk300 v518) := fun v518 => decidable_of_iff' _ (Iff.of_eq (k4_chk300.eq_1 v518))
theorem k4_idx300_inb : ∀ (v518 : IVec S16 32) (k4_hw300 : k4_chk300 v518), ∀ a x, ((![v518] : Fin 1 → IVec S16 32) a x).toNat < S65536.size a := fun v518 k4_hw300 => k4_hw300

def k4_chk301 (v525 : IVec S16 32) : Prop :=
  (∀ a x, ((![v525] : Fin 1 → IVec S16 32) a x).toNat < S65536.size a)
instance k4_chk301.dec : ∀ (v525 : IVec S16 32), Decidable (k4_chk301 v525) := fun v525 => decidable_of_iff' _ (Iff.of_eq (k4_chk301.eq_1 v525))
theorem k4_idx301_inb : ∀ (v525 : IVec S16 32) (k4_hw301 : k4_chk301 v525), ∀ a x, ((![v525] : Fin 1 → IVec S16 32) a x).toNat < S65536.size a := fun v525 k4_hw301 => k4_hw301

def k4_chk302 (v532 : IVec S16 32) : Prop :=
  (∀ a x, ((![v532] : Fin 1 → IVec S16 32) a x).toNat < S65536.size a)
instance k4_chk302.dec : ∀ (v532 : IVec S16 32), Decidable (k4_chk302 v532) := fun v532 => decidable_of_iff' _ (Iff.of_eq (k4_chk302.eq_1 v532))
theorem k4_idx302_inb : ∀ (v532 : IVec S16 32) (k4_hw302 : k4_chk302 v532), ∀ a x, ((![v532] : Fin 1 → IVec S16 32) a x).toNat < S65536.size a := fun v532 k4_hw302 => k4_hw302

def k4_chk303 (v539 : IVec S16 32) : Prop :=
  (∀ a x, ((![v539] : Fin 1 → IVec S16 32) a x).toNat < S65536.size a)
instance k4_chk303.dec : ∀ (v539 : IVec S16 32), Decidable (k4_chk303 v539) := fun v539 => decidable_of_iff' _ (Iff.of_eq (k4_chk303.eq_1 v539))
theorem k4_idx303_inb : ∀ (v539 : IVec S16 32) (k4_hw303 : k4_chk303 v539), ∀ a x, ((![v539] : Fin 1 → IVec S16 32) a x).toNat < S65536.size a := fun v539 k4_hw303 => k4_hw303

def k4_chk304 (v546 : IVec S16 32) : Prop :=
  (∀ a x, ((![v546] : Fin 1 → IVec S16 32) a x).toNat < S65536.size a)
instance k4_chk304.dec : ∀ (v546 : IVec S16 32), Decidable (k4_chk304 v546) := fun v546 => decidable_of_iff' _ (Iff.of_eq (k4_chk304.eq_1 v546))
theorem k4_idx304_inb : ∀ (v546 : IVec S16 32) (k4_hw304 : k4_chk304 v546), ∀ a x, ((![v546] : Fin 1 → IVec S16 32) a x).toNat < S65536.size a := fun v546 k4_hw304 => k4_hw304

def k4_chk305 (v553 : IVec S16 32) : Prop :=
  (∀ a x, ((![v553] : Fin 1 → IVec S16 32) a x).toNat < S65536.size a)
instance k4_chk305.dec : ∀ (v553 : IVec S16 32), Decidable (k4_chk305 v553) := fun v553 => decidable_of_iff' _ (Iff.of_eq (k4_chk305.eq_1 v553))
theorem k4_idx305_inb : ∀ (v553 : IVec S16 32) (k4_hw305 : k4_chk305 v553), ∀ a x, ((![v553] : Fin 1 → IVec S16 32) a x).toNat < S65536.size a := fun v553 k4_hw305 => k4_hw305

def k4_chk306 (v560 : IVec S16 32) : Prop :=
  (∀ a x, ((![v560] : Fin 1 → IVec S16 32) a x).toNat < S65536.size a)
instance k4_chk306.dec : ∀ (v560 : IVec S16 32), Decidable (k4_chk306 v560) := fun v560 => decidable_of_iff' _ (Iff.of_eq (k4_chk306.eq_1 v560))
theorem k4_idx306_inb : ∀ (v560 : IVec S16 32) (k4_hw306 : k4_chk306 v560), ∀ a x, ((![v560] : Fin 1 → IVec S16 32) a x).toNat < S65536.size a := fun v560 k4_hw306 => k4_hw306

def k4_chk307 (v567 : IVec S16 32) : Prop :=
  (∀ a x, ((![v567] : Fin 1 → IVec S16 32) a x).toNat < S65536.size a)
instance k4_chk307.dec : ∀ (v567 : IVec S16 32), Decidable (k4_chk307 v567) := fun v567 => decidable_of_iff' _ (Iff.of_eq (k4_chk307.eq_1 v567))
theorem k4_idx307_inb : ∀ (v567 : IVec S16 32) (k4_hw307 : k4_chk307 v567), ∀ a x, ((![v567] : Fin 1 → IVec S16 32) a x).toNat < S65536.size a := fun v567 k4_hw307 => k4_hw307

def k4_chk308 (v574 : IVec S16 32) : Prop :=
  (∀ a x, ((![v574] : Fin 1 → IVec S16 32) a x).toNat < S65536.size a)
instance k4_chk308.dec : ∀ (v574 : IVec S16 32), Decidable (k4_chk308 v574) := fun v574 => decidable_of_iff' _ (Iff.of_eq (k4_chk308.eq_1 v574))
theorem k4_idx308_inb : ∀ (v574 : IVec S16 32) (k4_hw308 : k4_chk308 v574), ∀ a x, ((![v574] : Fin 1 → IVec S16 32) a x).toNat < S65536.size a := fun v574 k4_hw308 => k4_hw308

def k4_chk309 (v581 : IVec S16 32) : Prop :=
  (∀ a x, ((![v581] : Fin 1 → IVec S16 32) a x).toNat < S65536.size a)
instance k4_chk309.dec : ∀ (v581 : IVec S16 32), Decidable (k4_chk309 v581) := fun v581 => decidable_of_iff' _ (Iff.of_eq (k4_chk309.eq_1 v581))
theorem k4_idx309_inb : ∀ (v581 : IVec S16 32) (k4_hw309 : k4_chk309 v581), ∀ a x, ((![v581] : Fin 1 → IVec S16 32) a x).toNat < S65536.size a := fun v581 k4_hw309 => k4_hw309

def k4_chk310 (v588 : IVec S16 32) : Prop :=
  (∀ a x, ((![v588] : Fin 1 → IVec S16 32) a x).toNat < S65536.size a)
instance k4_chk310.dec : ∀ (v588 : IVec S16 32), Decidable (k4_chk310 v588) := fun v588 => decidable_of_iff' _ (Iff.of_eq (k4_chk310.eq_1 v588))
theorem k4_idx310_inb : ∀ (v588 : IVec S16 32) (k4_hw310 : k4_chk310 v588), ∀ a x, ((![v588] : Fin 1 → IVec S16 32) a x).toNat < S65536.size a := fun v588 k4_hw310 => k4_hw310

def k4_chk311 (v595 : IVec S16 32) : Prop :=
  (∀ a x, ((![v595] : Fin 1 → IVec S16 32) a x).toNat < S65536.size a)
instance k4_chk311.dec : ∀ (v595 : IVec S16 32), Decidable (k4_chk311 v595) := fun v595 => decidable_of_iff' _ (Iff.of_eq (k4_chk311.eq_1 v595))
theorem k4_idx311_inb : ∀ (v595 : IVec S16 32) (k4_hw311 : k4_chk311 v595), ∀ a x, ((![v595] : Fin 1 → IVec S16 32) a x).toNat < S65536.size a := fun v595 k4_hw311 => k4_hw311

def k4_chk312 (v602 : IVec S16 32) : Prop :=
  (∀ a x, ((![v602] : Fin 1 → IVec S16 32) a x).toNat < S65536.size a)
instance k4_chk312.dec : ∀ (v602 : IVec S16 32), Decidable (k4_chk312 v602) := fun v602 => decidable_of_iff' _ (Iff.of_eq (k4_chk312.eq_1 v602))
theorem k4_idx312_inb : ∀ (v602 : IVec S16 32) (k4_hw312 : k4_chk312 v602), ∀ a x, ((![v602] : Fin 1 → IVec S16 32) a x).toNat < S65536.size a := fun v602 k4_hw312 => k4_hw312

def k4_chk313 (v609 : IVec S16 32) : Prop :=
  (∀ a x, ((![v609] : Fin 1 → IVec S16 32) a x).toNat < S65536.size a)
instance k4_chk313.dec : ∀ (v609 : IVec S16 32), Decidable (k4_chk313 v609) := fun v609 => decidable_of_iff' _ (Iff.of_eq (k4_chk313.eq_1 v609))
theorem k4_idx313_inb : ∀ (v609 : IVec S16 32) (k4_hw313 : k4_chk313 v609), ∀ a x, ((![v609] : Fin 1 → IVec S16 32) a x).toNat < S65536.size a := fun v609 k4_hw313 => k4_hw313

def k4_chk314 (v616 : IVec S16 32) : Prop :=
  (∀ a x, ((![v616] : Fin 1 → IVec S16 32) a x).toNat < S65536.size a)
instance k4_chk314.dec : ∀ (v616 : IVec S16 32), Decidable (k4_chk314 v616) := fun v616 => decidable_of_iff' _ (Iff.of_eq (k4_chk314.eq_1 v616))
theorem k4_idx314_inb : ∀ (v616 : IVec S16 32) (k4_hw314 : k4_chk314 v616), ∀ a x, ((![v616] : Fin 1 → IVec S16 32) a x).toNat < S65536.size a := fun v616 k4_hw314 => k4_hw314

def k4_chk315 (v623 : IVec S16 32) : Prop :=
  (∀ a x, ((![v623] : Fin 1 → IVec S16 32) a x).toNat < S65536.size a)
instance k4_chk315.dec : ∀ (v623 : IVec S16 32), Decidable (k4_chk315 v623) := fun v623 => decidable_of_iff' _ (Iff.of_eq (k4_chk315.eq_1 v623))
theorem k4_idx315_inb : ∀ (v623 : IVec S16 32) (k4_hw315 : k4_chk315 v623), ∀ a x, ((![v623] : Fin 1 → IVec S16 32) a x).toNat < S65536.size a := fun v623 k4_hw315 => k4_hw315

def k4_chk316 (v630 : IVec S16 32) : Prop :=
  (∀ a x, ((![v630] : Fin 1 → IVec S16 32) a x).toNat < S65536.size a)
instance k4_chk316.dec : ∀ (v630 : IVec S16 32), Decidable (k4_chk316 v630) := fun v630 => decidable_of_iff' _ (Iff.of_eq (k4_chk316.eq_1 v630))
theorem k4_idx316_inb : ∀ (v630 : IVec S16 32) (k4_hw316 : k4_chk316 v630), ∀ a x, ((![v630] : Fin 1 → IVec S16 32) a x).toNat < S65536.size a := fun v630 k4_hw316 => k4_hw316

def k4_chk317 (v637 : IVec S16 32) : Prop :=
  (∀ a x, ((![v637] : Fin 1 → IVec S16 32) a x).toNat < S65536.size a)
instance k4_chk317.dec : ∀ (v637 : IVec S16 32), Decidable (k4_chk317 v637) := fun v637 => decidable_of_iff' _ (Iff.of_eq (k4_chk317.eq_1 v637))
theorem k4_idx317_inb : ∀ (v637 : IVec S16 32) (k4_hw317 : k4_chk317 v637), ∀ a x, ((![v637] : Fin 1 → IVec S16 32) a x).toNat < S65536.size a := fun v637 k4_hw317 => k4_hw317

def k4_chk318 (v644 : IVec S16 32) : Prop :=
  (∀ a x, ((![v644] : Fin 1 → IVec S16 32) a x).toNat < S65536.size a)
instance k4_chk318.dec : ∀ (v644 : IVec S16 32), Decidable (k4_chk318 v644) := fun v644 => decidable_of_iff' _ (Iff.of_eq (k4_chk318.eq_1 v644))
theorem k4_idx318_inb : ∀ (v644 : IVec S16 32) (k4_hw318 : k4_chk318 v644), ∀ a x, ((![v644] : Fin 1 → IVec S16 32) a x).toNat < S65536.size a := fun v644 k4_hw318 => k4_hw318

def k4_chk319 (v651 : IVec S16 32) : Prop :=
  (∀ a x, ((![v651] : Fin 1 → IVec S16 32) a x).toNat < S65536.size a)
instance k4_chk319.dec : ∀ (v651 : IVec S16 32), Decidable (k4_chk319 v651) := fun v651 => decidable_of_iff' _ (Iff.of_eq (k4_chk319.eq_1 v651))
theorem k4_idx319_inb : ∀ (v651 : IVec S16 32) (k4_hw319 : k4_chk319 v651), ∀ a x, ((![v651] : Fin 1 → IVec S16 32) a x).toNat < S65536.size a := fun v651 k4_hw319 => k4_hw319

def k4_chk320 (v658 : IVec S16 32) : Prop :=
  (∀ a x, ((![v658] : Fin 1 → IVec S16 32) a x).toNat < S65536.size a)
instance k4_chk320.dec : ∀ (v658 : IVec S16 32), Decidable (k4_chk320 v658) := fun v658 => decidable_of_iff' _ (Iff.of_eq (k4_chk320.eq_1 v658))
theorem k4_idx320_inb : ∀ (v658 : IVec S16 32) (k4_hw320 : k4_chk320 v658), ∀ a x, ((![v658] : Fin 1 → IVec S16 32) a x).toNat < S65536.size a := fun v658 k4_hw320 => k4_hw320
def k4_off92 (k4_t7 : Fin k4_t7_loop.trips) (k4_t8 : Fin k4_t8_loop.trips) (c0_i32_283 : BitVec 32) : Fin 2 → Nat :=
  let c0_i32_39 : BitVec 32 := 0#32
  let c1_i32_41 : BitVec 32 := 1#32
  let arg9 : BitVec 32 := Scf.iv c0_i32_39 c1_i32_41 k4_t8
  let c4_i32_282 : BitVec 32 := 4#32
  let v661 : BitVec 32 := Scalar.muli arg9 c4_i32_282
  let v662 : BitVec 32 := Scalar.addi v661 c0_i32_283
  let v663 : Index := Scalar.indexCast v662
  let c0_i32_27 : BitVec 32 := 0#32
  let c1_i32_29 : BitVec 32 := 1#32
  let arg8 : BitVec 32 := Scf.iv c0_i32_27 c1_i32_29 k4_t7
  let c16_i32_32 : BitVec 32 := 16#32
  let v39 : BitVec 32 := Scalar.muli arg8 c16_i32_32
  let v664 : Index := Scalar.indexCast v39
  ![v663.toNat, v664.toNat]
def k4_off93 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c16_i32_31 : BitVec 32 := 16#32
  let v38 : BitVec 32 := Scalar.muli v28 c16_i32_31
  let c3072_i32_r8 : BitVec 32 := 3072#32
  ![v18.toNat, v38.toNat, 3072]
abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x64x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x64x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x64x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S512x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x512 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S1x1x512 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))

class Facts₀ : Prop where
  transposes_S8x4096x20_S8x20x4096_0_2_1 : S8x4096x20.Transposes [0, 2, 1] S8x20x4096
  transposes_S8x4096x3_S8x3x4096_0_2_1 : S8x4096x3.Transposes [0, 2, 1] S8x3x4096
  shapeCasts_S64_S64x1 : S64.ShapeCasts S64x1
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  inb_S64x6_S64x3_0_0 : ∀ a, (![0, 0] : Fin 2 → Nat) a + S64x3.size a ≤ S64x6.size a
  h_S64x3 : 0 < S64x3.numel
  inb_S64x6_S64x3_0_3 : ∀ a, (![0, 3] : Fin 2 → Nat) a + S64x3.size a ≤ S64x6.size a
  slices_S64x3_o0_0_S64x1 : S64x3.Slices ![0, 0] S64x1
  slices_S3x4096_o0_0_S1x4096 : S3x4096.Slices ![0, 0] S1x4096
  broadcasts_S64x1_S64x4096 : S64x1.Broadcasts S64x4096
  broadcasts_S1x4096_S64x4096 : S1x4096.Broadcasts S64x4096
  slices_S64x3_o0_1_S64x1 : S64x3.Slices ![0, 1] S64x1
  slices_S3x4096_o1_0_S1x4096 : S3x4096.Slices ![1, 0] S1x4096
  slices_S64x3_o0_2_S64x1 : S64x3.Slices ![0, 2] S64x1
  slices_S3x4096_o2_0_S1x4096 : S3x4096.Slices ![2, 0] S1x4096
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  shapeCasts_S8x64x4096_S8x262144 : S8x64x4096.ShapeCasts S8x262144
  squeezes_S1x65536_S65536 : S1x65536.Squeezes S65536
  squeezes_S1x20x1024_S20x1024 : S1x20x1024.Squeezes S20x1024
  squeezes_S1x16x1024_S16x1024 : S1x16x1024.Squeezes S16x1024
  h_S1x16 : 0 < S1x16.numel
  shapeCasts_S1x16_S16 : S1x16.ShapeCasts S16
  h_S65536 : 0 < S65536.numel
  shapeCasts_S16_S1x16 : S16.ShapeCasts S1x16
  inb_S64x64_S64x64_0_0 : ∀ a, (![0, 0] : Fin 2 → Nat) a + S64x64.size a ≤ S64x64.size a
  h_S64x64 : 0 < S64x64.numel
  shapeCasts_S128_S128x1 : S128.ShapeCasts S128x1
  shapeCasts_S512_S1x512 : S512.ShapeCasts S1x512
  slices_S512x256_S512x64_0_0 : S512x256.Slices ![0, 0] S512x64
  slices_S512x256_S512x64_0_64 : S512x256.Slices ![0, 64] S512x64
  slices_S512x256_S512x128_0_128 : S512x256.Slices ![0, 128] S512x128
  inb_S128x64_S128x64_0_0 : ∀ a, (![0, 0] : Fin 2 → Nat) a + S128x64.size a ≤ S128x64.size a
  h_S128x64 : 0 < S128x64.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x4096_S512 : S512x4096.Reduces [1] S512
  shapeCasts_S512_S1x1x512 : S512.ShapeCasts S1x1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S8x1x512_S8x512 : S8x1x512.ShapeCasts S8x512
  dot_S64x64_S64x4096_S64x4096_1_0_0_1_n_n_wf : DotDims.WF S64x64 S64x4096 S64x4096 [1] [0] [0] [1] [] []
  dot_S128x64_S64x4096_S128x4096_1_0_0_1_n_n_wf : DotDims.WF S128x64 S64x4096 S128x4096 [1] [0] [0] [1] [] []
  dot_S512x64_S64x4096_S512x4096_1_0_0_1_n_n_wf : DotDims.WF S512x64 S64x4096 S512x4096 [1] [0] [0] [1] [] []
  dot_S512x128_S128x4096_S512x4096_1_0_0_1_n_n_wf : DotDims.WF S512x128 S128x4096 S512x4096 [1] [0] [0] [1] [] []
  hcc1_scoped0 : 8 + S_.numel ≤ 59
  hcc1_scoped1 : 9 + S_.numel ≤ 59
  hcc1_scoped2 : 10 + S_.numel ≤ 59
  hcc1_scoped3 : 11 + S_.numel ≤ 59
  hcc1_scoped4 : 12 + S_.numel ≤ 59
  hcc1_scoped5 : 13 + S_.numel ≤ 59
  hcc1_scoped6 : 14 + S_.numel ≤ 59
  hcc1_scoped7 : 15 + S_.numel ≤ 59
  hcc1_scoped8 : 16 + S_.numel ≤ 59
  hcc1_scoped9 : 17 + S_.numel ≤ 59
  hcc1_scoped10 : 18 + S_.numel ≤ 59
  hcc1_scoped11 : 19 + S_.numel ≤ 59
  hcc1_scoped12 : 20 + S_.numel ≤ 59
  hcc2_scoped0 : 21 + S_.numel ≤ 59
  hcc2_scoped1 : 22 + S_.numel ≤ 59
  hcc2_scoped2 : 23 + S_.numel ≤ 59
  hcc2_scoped3 : 24 + S_.numel ≤ 59
  hcc2_scoped4 : 25 + S_.numel ≤ 59
  hcc2_scoped5 : 26 + S_.numel ≤ 59
  hcc2_scoped6 : 27 + S_.numel ≤ 59
  hcc2_scoped7 : 28 + S_.numel ≤ 59
  hcc2_scoped8 : 29 + S_.numel ≤ 59
  hcc4_scoped0 : 36 + S_.numel ≤ 59
  hcc4_scoped1 : 37 + S_.numel ≤ 59
  hcc4_scoped2 : 38 + S_.numel ≤ 59
  hcc4_scoped3 : 39 + S_.numel ≤ 59
  hcc4_scoped4 : 40 + S_.numel ≤ 59
  hcc4_scoped5 : 41 + S_.numel ≤ 59
  hcc4_scoped6 : 42 + S_.numel ≤ 59
  hcc4_scoped7 : 43 + S_.numel ≤ 59
  hcc4_scoped8 : 44 + S_.numel ≤ 59
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S8x3x4096.size a
  hwx0_0 : ∀ i : grid0.Coords, EltTy.bits .f32 = 32 ∨ (Rect.block (s := S8x3x4096) S1x3x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x6.size a ≤ S64x6.size a
  hwx0_1 : ∀ i : grid0.Coords, EltTy.bits .f32 = 32 ∨ (Rect.block (s := S64x6) S64x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x4096.size a ≤ S8x64x4096.size a
  hwx0_3 : ∀ i : grid0.Coords, EltTy.bits .f32 = 32 ∨ (Rect.block (s := S8x64x4096) S1x64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x4096.size a ≤ S8x64x4096.size a
  hwx0_4 : ∀ i : grid0.Coords, EltTy.bits .f32 = 32 ∨ (Rect.block (s := S8x64x4096) S1x64x4096.size (cc0_transform_4 i) (hinb0_4 i)).WholeWords (EltTy.packing .f32)
  hcore1 : grid1.bound 0 ≤ τ.nSC
  hsub1 : grid1.bound 1 ≤ τ.nSub
  k1_off1_inb : ∀ i : grid1.Coords, ∀ a, (k1_off1 i) a + S1x65536.size a ≤ S8x262144.size a
  k1_off2_inb : ∀ i : grid1.Coords, ∀ a, (k1_off2 i) a + S1x20x1024.size a ≤ S8x20x4096.size a
  k1_off3_inb : ∀ i : grid1.Coords, ∀ a, (k1_off3 i) a + S1x16x1024.size a ≤ S8x64x4096.size a
  k1_t1_ok : k1_t1_loop.OK
  k1_off4_inb : ∀ k1_t1 : Fin k1_t1_loop.trips, ∀ a, (k1_off4 k1_t1) a + S1x16.size a ≤ S20x1024.size a
  k1_off5_inb : ∀ k1_t1 : Fin k1_t1_loop.trips, ∀ a, (k1_off5 k1_t1) a + S1x16.size a ≤ S20x1024.size a
  k1_off6_inb : ∀ k1_t1 : Fin k1_t1_loop.trips, ∀ a, (k1_off6 k1_t1) a + S1x16.size a ≤ S20x1024.size a
  k1_off7_inb : ∀ k1_t1 : Fin k1_t1_loop.trips, ∀ a, (k1_off7 k1_t1) a + S1x16.size a ≤ S20x1024.size a
  k1_off8_inb : ∀ k1_t1 : Fin k1_t1_loop.trips, ∀ a, (k1_off8 k1_t1) a + S1x16.size a ≤ S20x1024.size a
  k1_off9_inb : ∀ k1_t1 : Fin k1_t1_loop.trips, ∀ a, (k1_off9 k1_t1) a + S1x16.size a ≤ S20x1024.size a
  k1_off10_inb : ∀ k1_t1 : Fin k1_t1_loop.trips, ∀ a, (k1_off10 k1_t1) a + S1x16.size a ≤ S20x1024.size a
  k1_off11_inb : ∀ k1_t1 : Fin k1_t1_loop.trips, ∀ a, (k1_off11 k1_t1) a + S1x16.size a ≤ S20x1024.size a
  k1_off12_inb : ∀ k1_t1 : Fin k1_t1_loop.trips, ∀ a, (k1_off12 k1_t1) a + S1x16.size a ≤ S20x1024.size a
  k1_off13_inb : ∀ k1_t1 : Fin k1_t1_loop.trips, ∀ a, (k1_off13 k1_t1) a + S1x16.size a ≤ S20x1024.size a
  k1_off14_inb : ∀ k1_t1 : Fin k1_t1_loop.trips, ∀ a, (k1_off14 k1_t1) a + S1x16.size a ≤ S20x1024.size a
  k1_off15_inb : ∀ k1_t1 : Fin k1_t1_loop.trips, ∀ a, (k1_off15 k1_t1) a + S1x16.size a ≤ S20x1024.size a
  k1_off16_inb : ∀ k1_t1 : Fin k1_t1_loop.trips, ∀ a, (k1_off16 k1_t1) a + S1x16.size a ≤ S20x1024.size a
  k1_off17_inb : ∀ k1_t1 : Fin k1_t1_loop.trips, ∀ a, (k1_off17 k1_t1) a + S1x16.size a ≤ S20x1024.size a
  k1_off18_inb : ∀ k1_t1 : Fin k1_t1_loop.trips, ∀ a, (k1_off18 k1_t1) a + S1x16.size a ≤ S20x1024.size a
  k1_off19_inb : ∀ k1_t1 : Fin k1_t1_loop.trips, ∀ a, (k1_off19 k1_t1) a + S1x16.size a ≤ S20x1024.size a
  k1_off20_inb : ∀ k1_t1 : Fin k1_t1_loop.trips, ∀ a, (k1_off20 k1_t1) a + S1x16.size a ≤ S20x1024.size a
  k1_off21_inb : ∀ k1_t1 : Fin k1_t1_loop.trips, ∀ a, (k1_off21 k1_t1) a + S1x16.size a ≤ S20x1024.size a
  k1_off22_inb : ∀ k1_t1 : Fin k1_t1_loop.trips, ∀ a, (k1_off22 k1_t1) a + S1x16.size a ≤ S20x1024.size a
  k1_off23_inb : ∀ k1_t1 : Fin k1_t1_loop.trips, ∀ a, (k1_off23 k1_t1) a + S1x16.size a ≤ S20x1024.size a
  k1_t2_ok : k1_t2_loop.OK
  k1_off24_inb : ∀ (k1_t1 : Fin k1_t1_loop.trips) (k1_t2 : Fin k1_t2_loop.trips), ∀ (r : Fin 4), ∀ a, (k1_off24 k1_t1 k1_t2 (BitVec.ofNat 32 r.val)) a + S1x16.size a ≤ S16x1024.size a
  k1_off25_inb : ∀ i : grid1.Coords, ∀ a, (k1_off25 i) a + S1x20x1024.size a ≤ S8x20x4096.size a
  k1_off26_inb : ∀ i : grid1.Coords, ∀ a, (k1_off26 i) a + S1x16x1024.size a ≤ S8x64x4096.size a
  k1_t3_ok : k1_t3_loop.OK
  k1_off27_inb : ∀ k1_t3 : Fin k1_t3_loop.trips, ∀ a, (k1_off27 k1_t3) a + S1x16.size a ≤ S20x1024.size a
  k1_off28_inb : ∀ k1_t3 : Fin k1_t3_loop.trips, ∀ a, (k1_off28 k1_t3) a + S1x16.size a ≤ S20x1024.size a
  k1_off29_inb : ∀ k1_t3 : Fin k1_t3_loop.trips, ∀ a, (k1_off29 k1_t3) a + S1x16.size a ≤ S20x1024.size a
  k1_off30_inb : ∀ k1_t3 : Fin k1_t3_loop.trips, ∀ a, (k1_off30 k1_t3) a + S1x16.size a ≤ S20x1024.size a
  k1_off31_inb : ∀ k1_t3 : Fin k1_t3_loop.trips, ∀ a, (k1_off31 k1_t3) a + S1x16.size a ≤ S20x1024.size a
  k1_off32_inb : ∀ k1_t3 : Fin k1_t3_loop.trips, ∀ a, (k1_off32 k1_t3) a + S1x16.size a ≤ S20x1024.size a
  k1_off33_inb : ∀ k1_t3 : Fin k1_t3_loop.trips, ∀ a, (k1_off33 k1_t3) a + S1x16.size a ≤ S20x1024.size a
  k1_off34_inb : ∀ k1_t3 : Fin k1_t3_loop.trips, ∀ a, (k1_off34 k1_t3) a + S1x16.size a ≤ S20x1024.size a
  k1_off35_inb : ∀ k1_t3 : Fin k1_t3_loop.trips, ∀ a, (k1_off35 k1_t3) a + S1x16.size a ≤ S20x1024.size a
  k1_off36_inb : ∀ k1_t3 : Fin k1_t3_loop.trips, ∀ a, (k1_off36 k1_t3) a + S1x16.size a ≤ S20x1024.size a
  k1_off37_inb : ∀ k1_t3 : Fin k1_t3_loop.trips, ∀ a, (k1_off37 k1_t3) a + S1x16.size a ≤ S20x1024.size a
  k1_off38_inb : ∀ k1_t3 : Fin k1_t3_loop.trips, ∀ a, (k1_off38 k1_t3) a + S1x16.size a ≤ S20x1024.size a
  k1_off39_inb : ∀ k1_t3 : Fin k1_t3_loop.trips, ∀ a, (k1_off39 k1_t3) a + S1x16.size a ≤ S20x1024.size a
  k1_off40_inb : ∀ k1_t3 : Fin k1_t3_loop.trips, ∀ a, (k1_off40 k1_t3) a + S1x16.size a ≤ S20x1024.size a
  k1_off41_inb : ∀ k1_t3 : Fin k1_t3_loop.trips, ∀ a, (k1_off41 k1_t3) a + S1x16.size a ≤ S20x1024.size a
  k1_off42_inb : ∀ k1_t3 : Fin k1_t3_loop.trips, ∀ a, (k1_off42 k1_t3) a + S1x16.size a ≤ S20x1024.size a
  k1_off43_inb : ∀ k1_t3 : Fin k1_t3_loop.trips, ∀ a, (k1_off43 k1_t3) a + S1x16.size a ≤ S20x1024.size a
  k1_off44_inb : ∀ k1_t3 : Fin k1_t3_loop.trips, ∀ a, (k1_off44 k1_t3) a + S1x16.size a ≤ S20x1024.size a
  k1_off45_inb : ∀ k1_t3 : Fin k1_t3_loop.trips, ∀ a, (k1_off45 k1_t3) a + S1x16.size a ≤ S20x1024.size a
  k1_off46_inb : ∀ k1_t3 : Fin k1_t3_loop.trips, ∀ a, (k1_off46 k1_t3) a + S1x16.size a ≤ S20x1024.size a
  k1_t4_ok : k1_t4_loop.OK
  k1_off47_inb : ∀ (k1_t3 : Fin k1_t3_loop.trips) (k1_t4 : Fin k1_t4_loop.trips), ∀ (r : Fin 4), ∀ a, (k1_off47 k1_t3 k1_t4 (BitVec.ofNat 32 r.val)) a + S1x16.size a ≤ S16x1024.size a
  k1_off48_inb : ∀ i : grid1.Coords, ∀ a, (k1_off48 i) a + S1x20x1024.size a ≤ S8x20x4096.size a
  k1_off49_inb : ∀ i : grid1.Coords, ∀ a, (k1_off49 i) a + S1x16x1024.size a ≤ S8x64x4096.size a
  k1_t5_ok : k1_t5_loop.OK
  k1_off50_inb : ∀ k1_t5 : Fin k1_t5_loop.trips, ∀ a, (k1_off50 k1_t5) a + S1x16.size a ≤ S20x1024.size a
  k1_off51_inb : ∀ k1_t5 : Fin k1_t5_loop.trips, ∀ a, (k1_off51 k1_t5) a + S1x16.size a ≤ S20x1024.size a
  k1_off52_inb : ∀ k1_t5 : Fin k1_t5_loop.trips, ∀ a, (k1_off52 k1_t5) a + S1x16.size a ≤ S20x1024.size a
  k1_off53_inb : ∀ k1_t5 : Fin k1_t5_loop.trips, ∀ a, (k1_off53 k1_t5) a + S1x16.size a ≤ S20x1024.size a
  k1_off54_inb : ∀ k1_t5 : Fin k1_t5_loop.trips, ∀ a, (k1_off54 k1_t5) a + S1x16.size a ≤ S20x1024.size a
  k1_off55_inb : ∀ k1_t5 : Fin k1_t5_loop.trips, ∀ a, (k1_off55 k1_t5) a + S1x16.size a ≤ S20x1024.size a
  k1_off56_inb : ∀ k1_t5 : Fin k1_t5_loop.trips, ∀ a, (k1_off56 k1_t5) a + S1x16.size a ≤ S20x1024.size a
  k1_off57_inb : ∀ k1_t5 : Fin k1_t5_loop.trips, ∀ a, (k1_off57 k1_t5) a + S1x16.size a ≤ S20x1024.size a
  k1_off58_inb : ∀ k1_t5 : Fin k1_t5_loop.trips, ∀ a, (k1_off58 k1_t5) a + S1x16.size a ≤ S20x1024.size a
  k1_off59_inb : ∀ k1_t5 : Fin k1_t5_loop.trips, ∀ a, (k1_off59 k1_t5) a + S1x16.size a ≤ S20x1024.size a
  k1_off60_inb : ∀ k1_t5 : Fin k1_t5_loop.trips, ∀ a, (k1_off60 k1_t5) a + S1x16.size a ≤ S20x1024.size a
  k1_off61_inb : ∀ k1_t5 : Fin k1_t5_loop.trips, ∀ a, (k1_off61 k1_t5) a + S1x16.size a ≤ S20x1024.size a
  k1_off62_inb : ∀ k1_t5 : Fin k1_t5_loop.trips, ∀ a, (k1_off62 k1_t5) a + S1x16.size a ≤ S20x1024.size a
  k1_off63_inb : ∀ k1_t5 : Fin k1_t5_loop.trips, ∀ a, (k1_off63 k1_t5) a + S1x16.size a ≤ S20x1024.size a
  k1_off64_inb : ∀ k1_t5 : Fin k1_t5_loop.trips, ∀ a, (k1_off64 k1_t5) a + S1x16.size a ≤ S20x1024.size a
  k1_off65_inb : ∀ k1_t5 : Fin k1_t5_loop.trips, ∀ a, (k1_off65 k1_t5) a + S1x16.size a ≤ S20x1024.size a
  k1_off66_inb : ∀ k1_t5 : Fin k1_t5_loop.trips, ∀ a, (k1_off66 k1_t5) a + S1x16.size a ≤ S20x1024.size a
  k1_off67_inb : ∀ k1_t5 : Fin k1_t5_loop.trips, ∀ a, (k1_off67 k1_t5) a + S1x16.size a ≤ S20x1024.size a
  k1_off68_inb : ∀ k1_t5 : Fin k1_t5_loop.trips, ∀ a, (k1_off68 k1_t5) a + S1x16.size a ≤ S20x1024.size a
  k1_off69_inb : ∀ k1_t5 : Fin k1_t5_loop.trips, ∀ a, (k1_off69 k1_t5) a + S1x16.size a ≤ S20x1024.size a
  k1_t6_ok : k1_t6_loop.OK
  k1_off70_inb : ∀ (k1_t5 : Fin k1_t5_loop.trips) (k1_t6 : Fin k1_t6_loop.trips), ∀ (r : Fin 4), ∀ a, (k1_off70 k1_t5 k1_t6 (BitVec.ofNat 32 r.val)) a + S1x16.size a ≤ S16x1024.size a
  k1_off71_inb : ∀ i : grid1.Coords, ∀ a, (k1_off71 i) a + S1x20x1024.size a ≤ S8x20x4096.size a
  k1_off72_inb : ∀ i : grid1.Coords, ∀ a, (k1_off72 i) a + S1x16x1024.size a ≤ S8x64x4096.size a
  k1_t7_ok : k1_t7_loop.OK
  k1_off73_inb : ∀ k1_t7 : Fin k1_t7_loop.trips, ∀ a, (k1_off73 k1_t7) a + S1x16.size a ≤ S20x1024.size a
  k1_off74_inb : ∀ k1_t7 : Fin k1_t7_loop.trips, ∀ a, (k1_off74 k1_t7) a + S1x16.size a ≤ S20x1024.size a
  k1_off75_inb : ∀ k1_t7 : Fin k1_t7_loop.trips, ∀ a, (k1_off75 k1_t7) a + S1x16.size a ≤ S20x1024.size a
  k1_off76_inb : ∀ k1_t7 : Fin k1_t7_loop.trips, ∀ a, (k1_off76 k1_t7) a + S1x16.size a ≤ S20x1024.size a
  k1_off77_inb : ∀ k1_t7 : Fin k1_t7_loop.trips, ∀ a, (k1_off77 k1_t7) a + S1x16.size a ≤ S20x1024.size a
  k1_off78_inb : ∀ k1_t7 : Fin k1_t7_loop.trips, ∀ a, (k1_off78 k1_t7) a + S1x16.size a ≤ S20x1024.size a
  k1_off79_inb : ∀ k1_t7 : Fin k1_t7_loop.trips, ∀ a, (k1_off79 k1_t7) a + S1x16.size a ≤ S20x1024.size a
  k1_off80_inb : ∀ k1_t7 : Fin k1_t7_loop.trips, ∀ a, (k1_off80 k1_t7) a + S1x16.size a ≤ S20x1024.size a
  k1_off81_inb : ∀ k1_t7 : Fin k1_t7_loop.trips, ∀ a, (k1_off81 k1_t7) a + S1x16.size a ≤ S20x1024.size a
  k1_off82_inb : ∀ k1_t7 : Fin k1_t7_loop.trips, ∀ a, (k1_off82 k1_t7) a + S1x16.size a ≤ S20x1024.size a
  k1_off83_inb : ∀ k1_t7 : Fin k1_t7_loop.trips, ∀ a, (k1_off83 k1_t7) a + S1x16.size a ≤ S20x1024.size a
  k1_off84_inb : ∀ k1_t7 : Fin k1_t7_loop.trips, ∀ a, (k1_off84 k1_t7) a + S1x16.size a ≤ S20x1024.size a
  k1_off85_inb : ∀ k1_t7 : Fin k1_t7_loop.trips, ∀ a, (k1_off85 k1_t7) a + S1x16.size a ≤ S20x1024.size a
  k1_off86_inb : ∀ k1_t7 : Fin k1_t7_loop.trips, ∀ a, (k1_off86 k1_t7) a + S1x16.size a ≤ S20x1024.size a
  k1_off87_inb : ∀ k1_t7 : Fin k1_t7_loop.trips, ∀ a, (k1_off87 k1_t7) a + S1x16.size a ≤ S20x1024.size a
  k1_off88_inb : ∀ k1_t7 : Fin k1_t7_loop.trips, ∀ a, (k1_off88 k1_t7) a + S1x16.size a ≤ S20x1024.size a
  k1_off89_inb : ∀ k1_t7 : Fin k1_t7_loop.trips, ∀ a, (k1_off89 k1_t7) a + S1x16.size a ≤ S20x1024.size a
  k1_off90_inb : ∀ k1_t7 : Fin k1_t7_loop.trips, ∀ a, (k1_off90 k1_t7) a + S1x16.size a ≤ S20x1024.size a
  k1_off91_inb : ∀ k1_t7 : Fin k1_t7_loop.trips, ∀ a, (k1_off91 k1_t7) a + S1x16.size a ≤ S20x1024.size a
  k1_off92_inb : ∀ k1_t7 : Fin k1_t7_loop.trips, ∀ a, (k1_off92 k1_t7) a + S1x16.size a ≤ S20x1024.size a
  k1_t8_ok : k1_t8_loop.OK
  k1_off93_inb : ∀ (k1_t7 : Fin k1_t7_loop.trips) (k1_t8 : Fin k1_t8_loop.trips), ∀ (r : Fin 4), ∀ a, (k1_off93 k1_t7 k1_t8 (BitVec.ofNat 32 r.val)) a + S1x16.size a ≤ S16x1024.size a
  hcore2 : grid2.bound 0 ≤ τ.nSC
  hsub2 : grid2.bound 1 ≤ τ.nSub
  k2_off1_inb : ∀ i : grid2.Coords, ∀ a, (k2_off1 i) a + S1x65536.size a ≤ S8x262144.size a
  k2_off2_inb : ∀ i : grid2.Coords, ∀ a, (k2_off2 i) a + S1x20x1024.size a ≤ S8x20x4096.size a
  k2_t1_ok : k2_t1_loop.OK
  k2_off3_inb : ∀ k2_t1 : Fin k2_t1_loop.trips, ∀ a, (k2_off3 k2_t1) a + S1x16.size a ≤ S20x1024.size a
  k2_off4_inb : ∀ k2_t1 : Fin k2_t1_loop.trips, ∀ a, (k2_off4 k2_t1) a + S1x16.size a ≤ S20x1024.size a
  k2_off5_inb : ∀ k2_t1 : Fin k2_t1_loop.trips, ∀ a, (k2_off5 k2_t1) a + S1x16.size a ≤ S20x1024.size a
  k2_off6_inb : ∀ k2_t1 : Fin k2_t1_loop.trips, ∀ a, (k2_off6 k2_t1) a + S1x16.size a ≤ S20x1024.size a
  k2_off7_inb : ∀ k2_t1 : Fin k2_t1_loop.trips, ∀ a, (k2_off7 k2_t1) a + S1x16.size a ≤ S20x1024.size a
  k2_off8_inb : ∀ k2_t1 : Fin k2_t1_loop.trips, ∀ a, (k2_off8 k2_t1) a + S1x16.size a ≤ S20x1024.size a
  k2_off9_inb : ∀ k2_t1 : Fin k2_t1_loop.trips, ∀ a, (k2_off9 k2_t1) a + S1x16.size a ≤ S20x1024.size a
  k2_off10_inb : ∀ k2_t1 : Fin k2_t1_loop.trips, ∀ a, (k2_off10 k2_t1) a + S1x16.size a ≤ S20x1024.size a
  k2_off11_inb : ∀ k2_t1 : Fin k2_t1_loop.trips, ∀ a, (k2_off11 k2_t1) a + S1x16.size a ≤ S20x1024.size a
  k2_off12_inb : ∀ k2_t1 : Fin k2_t1_loop.trips, ∀ a, (k2_off12 k2_t1) a + S1x16.size a ≤ S20x1024.size a
  k2_off13_inb : ∀ k2_t1 : Fin k2_t1_loop.trips, ∀ a, (k2_off13 k2_t1) a + S1x16.size a ≤ S20x1024.size a
  k2_off14_inb : ∀ k2_t1 : Fin k2_t1_loop.trips, ∀ a, (k2_off14 k2_t1) a + S1x16.size a ≤ S20x1024.size a
  k2_off15_inb : ∀ k2_t1 : Fin k2_t1_loop.trips, ∀ a, (k2_off15 k2_t1) a + S1x16.size a ≤ S20x1024.size a
  k2_off16_inb : ∀ k2_t1 : Fin k2_t1_loop.trips, ∀ a, (k2_off16 k2_t1) a + S1x16.size a ≤ S20x1024.size a
  k2_off17_inb : ∀ k2_t1 : Fin k2_t1_loop.trips, ∀ a, (k2_off17 k2_t1) a + S1x16.size a ≤ S20x1024.size a
  k2_off18_inb : ∀ k2_t1 : Fin k2_t1_loop.trips, ∀ a, (k2_off18 k2_t1) a + S1x16.size a ≤ S20x1024.size a
  k2_off19_inb : ∀ k2_t1 : Fin k2_t1_loop.trips, ∀ a, (k2_off19 k2_t1) a + S1x16.size a ≤ S20x1024.size a
  k2_off20_inb : ∀ k2_t1 : Fin k2_t1_loop.trips, ∀ a, (k2_off20 k2_t1) a + S1x16.size a ≤ S20x1024.size a
  k2_off21_inb : ∀ k2_t1 : Fin k2_t1_loop.trips, ∀ a, (k2_off21 k2_t1) a + S1x16.size a ≤ S20x1024.size a
  k2_off22_inb : ∀ k2_t1 : Fin k2_t1_loop.trips, ∀ a, (k2_off22 k2_t1) a + S1x16.size a ≤ S20x1024.size a
  k2_t2_ok : k2_t2_loop.OK
  k2_off23_inb : ∀ (k2_t1 : Fin k2_t1_loop.trips) (k2_t2 : Fin k2_t2_loop.trips), ∀ (r : Fin 4), ∀ a, (k2_off23 k2_t1 k2_t2 (BitVec.ofNat 32 r.val)) a + S1x16.size a ≤ S16x1024.size a
  k2_off24_inb : ∀ i : grid2.Coords, ∀ a, (k2_off24 i) a + S1x16x1024.size a ≤ S8x64x4096.size a
  k2_off25_inb : ∀ i : grid2.Coords, ∀ a, (k2_off25 i) a + S1x20x1024.size a ≤ S8x20x4096.size a
  k2_t3_ok : k2_t3_loop.OK
  k2_off26_inb : ∀ k2_t3 : Fin k2_t3_loop.trips, ∀ a, (k2_off26 k2_t3) a + S1x16.size a ≤ S20x1024.size a
  k2_off27_inb : ∀ k2_t3 : Fin k2_t3_loop.trips, ∀ a, (k2_off27 k2_t3) a + S1x16.size a ≤ S20x1024.size a
  k2_off28_inb : ∀ k2_t3 : Fin k2_t3_loop.trips, ∀ a, (k2_off28 k2_t3) a + S1x16.size a ≤ S20x1024.size a
  k2_off29_inb : ∀ k2_t3 : Fin k2_t3_loop.trips, ∀ a, (k2_off29 k2_t3) a + S1x16.size a ≤ S20x1024.size a
  k2_off30_inb : ∀ k2_t3 : Fin k2_t3_loop.trips, ∀ a, (k2_off30 k2_t3) a + S1x16.size a ≤ S20x1024.size a
  k2_off31_inb : ∀ k2_t3 : Fin k2_t3_loop.trips, ∀ a, (k2_off31 k2_t3) a + S1x16.size a ≤ S20x1024.size a
  k2_off32_inb : ∀ k2_t3 : Fin k2_t3_loop.trips, ∀ a, (k2_off32 k2_t3) a + S1x16.size a ≤ S20x1024.size a
  k2_off33_inb : ∀ k2_t3 : Fin k2_t3_loop.trips, ∀ a, (k2_off33 k2_t3) a + S1x16.size a ≤ S20x1024.size a
  k2_off34_inb : ∀ k2_t3 : Fin k2_t3_loop.trips, ∀ a, (k2_off34 k2_t3) a + S1x16.size a ≤ S20x1024.size a
  k2_off35_inb : ∀ k2_t3 : Fin k2_t3_loop.trips, ∀ a, (k2_off35 k2_t3) a + S1x16.size a ≤ S20x1024.size a
  k2_off36_inb : ∀ k2_t3 : Fin k2_t3_loop.trips, ∀ a, (k2_off36 k2_t3) a + S1x16.size a ≤ S20x1024.size a
  k2_off37_inb : ∀ k2_t3 : Fin k2_t3_loop.trips, ∀ a, (k2_off37 k2_t3) a + S1x16.size a ≤ S20x1024.size a
  k2_off38_inb : ∀ k2_t3 : Fin k2_t3_loop.trips, ∀ a, (k2_off38 k2_t3) a + S1x16.size a ≤ S20x1024.size a
  k2_off39_inb : ∀ k2_t3 : Fin k2_t3_loop.trips, ∀ a, (k2_off39 k2_t3) a + S1x16.size a ≤ S20x1024.size a
  k2_off40_inb : ∀ k2_t3 : Fin k2_t3_loop.trips, ∀ a, (k2_off40 k2_t3) a + S1x16.size a ≤ S20x1024.size a
  k2_off41_inb : ∀ k2_t3 : Fin k2_t3_loop.trips, ∀ a, (k2_off41 k2_t3) a + S1x16.size a ≤ S20x1024.size a
  k2_off42_inb : ∀ k2_t3 : Fin k2_t3_loop.trips, ∀ a, (k2_off42 k2_t3) a + S1x16.size a ≤ S20x1024.size a
  k2_off43_inb : ∀ k2_t3 : Fin k2_t3_loop.trips, ∀ a, (k2_off43 k2_t3) a + S1x16.size a ≤ S20x1024.size a
  k2_off44_inb : ∀ k2_t3 : Fin k2_t3_loop.trips, ∀ a, (k2_off44 k2_t3) a + S1x16.size a ≤ S20x1024.size a
  k2_off45_inb : ∀ k2_t3 : Fin k2_t3_loop.trips, ∀ a, (k2_off45 k2_t3) a + S1x16.size a ≤ S20x1024.size a
  k2_t4_ok : k2_t4_loop.OK
  k2_off46_inb : ∀ (k2_t3 : Fin k2_t3_loop.trips) (k2_t4 : Fin k2_t4_loop.trips), ∀ (r : Fin 4), ∀ a, (k2_off46 k2_t3 k2_t4 (BitVec.ofNat 32 r.val)) a + S1x16.size a ≤ S16x1024.size a
  k2_off47_inb : ∀ i : grid2.Coords, ∀ a, (k2_off47 i) a + S1x16x1024.size a ≤ S8x64x4096.size a
  k2_off48_inb : ∀ i : grid2.Coords, ∀ a, (k2_off48 i) a + S1x20x1024.size a ≤ S8x20x4096.size a
  k2_t5_ok : k2_t5_loop.OK
  k2_off49_inb : ∀ k2_t5 : Fin k2_t5_loop.trips, ∀ a, (k2_off49 k2_t5) a + S1x16.size a ≤ S20x1024.size a
  k2_off50_inb : ∀ k2_t5 : Fin k2_t5_loop.trips, ∀ a, (k2_off50 k2_t5) a + S1x16.size a ≤ S20x1024.size a
  k2_off51_inb : ∀ k2_t5 : Fin k2_t5_loop.trips, ∀ a, (k2_off51 k2_t5) a + S1x16.size a ≤ S20x1024.size a
  k2_off52_inb : ∀ k2_t5 : Fin k2_t5_loop.trips, ∀ a, (k2_off52 k2_t5) a + S1x16.size a ≤ S20x1024.size a
  k2_off53_inb : ∀ k2_t5 : Fin k2_t5_loop.trips, ∀ a, (k2_off53 k2_t5) a + S1x16.size a ≤ S20x1024.size a
  k2_off54_inb : ∀ k2_t5 : Fin k2_t5_loop.trips, ∀ a, (k2_off54 k2_t5) a + S1x16.size a ≤ S20x1024.size a
  k2_off55_inb : ∀ k2_t5 : Fin k2_t5_loop.trips, ∀ a, (k2_off55 k2_t5) a + S1x16.size a ≤ S20x1024.size a
  k2_off56_inb : ∀ k2_t5 : Fin k2_t5_loop.trips, ∀ a, (k2_off56 k2_t5) a + S1x16.size a ≤ S20x1024.size a
  k2_off57_inb : ∀ k2_t5 : Fin k2_t5_loop.trips, ∀ a, (k2_off57 k2_t5) a + S1x16.size a ≤ S20x1024.size a
  k2_off58_inb : ∀ k2_t5 : Fin k2_t5_loop.trips, ∀ a, (k2_off58 k2_t5) a + S1x16.size a ≤ S20x1024.size a
  k2_off59_inb : ∀ k2_t5 : Fin k2_t5_loop.trips, ∀ a, (k2_off59 k2_t5) a + S1x16.size a ≤ S20x1024.size a
  k2_off60_inb : ∀ k2_t5 : Fin k2_t5_loop.trips, ∀ a, (k2_off60 k2_t5) a + S1x16.size a ≤ S20x1024.size a
  k2_off61_inb : ∀ k2_t5 : Fin k2_t5_loop.trips, ∀ a, (k2_off61 k2_t5) a + S1x16.size a ≤ S20x1024.size a
  k2_off62_inb : ∀ k2_t5 : Fin k2_t5_loop.trips, ∀ a, (k2_off62 k2_t5) a + S1x16.size a ≤ S20x1024.size a
  k2_off63_inb : ∀ k2_t5 : Fin k2_t5_loop.trips, ∀ a, (k2_off63 k2_t5) a + S1x16.size a ≤ S20x1024.size a
  k2_off64_inb : ∀ k2_t5 : Fin k2_t5_loop.trips, ∀ a, (k2_off64 k2_t5) a + S1x16.size a ≤ S20x1024.size a
  k2_off65_inb : ∀ k2_t5 : Fin k2_t5_loop.trips, ∀ a, (k2_off65 k2_t5) a + S1x16.size a ≤ S20x1024.size a
  k2_off66_inb : ∀ k2_t5 : Fin k2_t5_loop.trips, ∀ a, (k2_off66 k2_t5) a + S1x16.size a ≤ S20x1024.size a
  k2_off67_inb : ∀ k2_t5 : Fin k2_t5_loop.trips, ∀ a, (k2_off67 k2_t5) a + S1x16.size a ≤ S20x1024.size a
  k2_off68_inb : ∀ k2_t5 : Fin k2_t5_loop.trips, ∀ a, (k2_off68 k2_t5) a + S1x16.size a ≤ S20x1024.size a
  k2_t6_ok : k2_t6_loop.OK
  k2_off69_inb : ∀ (k2_t5 : Fin k2_t5_loop.trips) (k2_t6 : Fin k2_t6_loop.trips), ∀ (r : Fin 4), ∀ a, (k2_off69 k2_t5 k2_t6 (BitVec.ofNat 32 r.val)) a + S1x16.size a ≤ S16x1024.size a
  k2_off70_inb : ∀ i : grid2.Coords, ∀ a, (k2_off70 i) a + S1x16x1024.size a ≤ S8x64x4096.size a
  k2_off71_inb : ∀ i : grid2.Coords, ∀ a, (k2_off71 i) a + S1x20x1024.size a ≤ S8x20x4096.size a
  k2_t7_ok : k2_t7_loop.OK
  k2_off72_inb : ∀ k2_t7 : Fin k2_t7_loop.trips, ∀ a, (k2_off72 k2_t7) a + S1x16.size a ≤ S20x1024.size a
  k2_off73_inb : ∀ k2_t7 : Fin k2_t7_loop.trips, ∀ a, (k2_off73 k2_t7) a + S1x16.size a ≤ S20x1024.size a
  k2_off74_inb : ∀ k2_t7 : Fin k2_t7_loop.trips, ∀ a, (k2_off74 k2_t7) a + S1x16.size a ≤ S20x1024.size a
  k2_off75_inb : ∀ k2_t7 : Fin k2_t7_loop.trips, ∀ a, (k2_off75 k2_t7) a + S1x16.size a ≤ S20x1024.size a
  k2_off76_inb : ∀ k2_t7 : Fin k2_t7_loop.trips, ∀ a, (k2_off76 k2_t7) a + S1x16.size a ≤ S20x1024.size a
  k2_off77_inb : ∀ k2_t7 : Fin k2_t7_loop.trips, ∀ a, (k2_off77 k2_t7) a + S1x16.size a ≤ S20x1024.size a
  k2_off78_inb : ∀ k2_t7 : Fin k2_t7_loop.trips, ∀ a, (k2_off78 k2_t7) a + S1x16.size a ≤ S20x1024.size a
  k2_off79_inb : ∀ k2_t7 : Fin k2_t7_loop.trips, ∀ a, (k2_off79 k2_t7) a + S1x16.size a ≤ S20x1024.size a
  k2_off80_inb : ∀ k2_t7 : Fin k2_t7_loop.trips, ∀ a, (k2_off80 k2_t7) a + S1x16.size a ≤ S20x1024.size a
  k2_off81_inb : ∀ k2_t7 : Fin k2_t7_loop.trips, ∀ a, (k2_off81 k2_t7) a + S1x16.size a ≤ S20x1024.size a
  k2_off82_inb : ∀ k2_t7 : Fin k2_t7_loop.trips, ∀ a, (k2_off82 k2_t7) a + S1x16.size a ≤ S20x1024.size a
  k2_off83_inb : ∀ k2_t7 : Fin k2_t7_loop.trips, ∀ a, (k2_off83 k2_t7) a + S1x16.size a ≤ S20x1024.size a
  k2_off84_inb : ∀ k2_t7 : Fin k2_t7_loop.trips, ∀ a, (k2_off84 k2_t7) a + S1x16.size a ≤ S20x1024.size a
  k2_off85_inb : ∀ k2_t7 : Fin k2_t7_loop.trips, ∀ a, (k2_off85 k2_t7) a + S1x16.size a ≤ S20x1024.size a
  k2_off86_inb : ∀ k2_t7 : Fin k2_t7_loop.trips, ∀ a, (k2_off86 k2_t7) a + S1x16.size a ≤ S20x1024.size a
  k2_off87_inb : ∀ k2_t7 : Fin k2_t7_loop.trips, ∀ a, (k2_off87 k2_t7) a + S1x16.size a ≤ S20x1024.size a
  k2_off88_inb : ∀ k2_t7 : Fin k2_t7_loop.trips, ∀ a, (k2_off88 k2_t7) a + S1x16.size a ≤ S20x1024.size a
  k2_off89_inb : ∀ k2_t7 : Fin k2_t7_loop.trips, ∀ a, (k2_off89 k2_t7) a + S1x16.size a ≤ S20x1024.size a
  k2_off90_inb : ∀ k2_t7 : Fin k2_t7_loop.trips, ∀ a, (k2_off90 k2_t7) a + S1x16.size a ≤ S20x1024.size a
  k2_off91_inb : ∀ k2_t7 : Fin k2_t7_loop.trips, ∀ a, (k2_off91 k2_t7) a + S1x16.size a ≤ S20x1024.size a
  k2_t8_ok : k2_t8_loop.OK
  k2_off92_inb : ∀ (k2_t7 : Fin k2_t7_loop.trips) (k2_t8 : Fin k2_t8_loop.trips), ∀ (r : Fin 4), ∀ a, (k2_off92 k2_t7 k2_t8 (BitVec.ofNat 32 r.val)) a + S1x16.size a ≤ S16x1024.size a
  k2_off93_inb : ∀ i : grid2.Coords, ∀ a, (k2_off93 i) a + S1x16x1024.size a ≤ S8x64x4096.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x64x4096.size a ≤ S8x64x4096.size a
  hwx3_0 : ∀ i : grid3.Coords, EltTy.bits .f32 = 32 ∨ (Rect.block (s := S8x64x4096) S1x64x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x64x4096.size a ≤ S8x64x4096.size a
  hwx3_3 : ∀ i : grid3.Coords, EltTy.bits .f32 = 32 ∨ (Rect.block (s := S8x64x4096) S1x64x4096.size (cc3_transform_3 i) (hinb3_3 i)).WholeWords (EltTy.packing .f32)
  hcore4 : grid4.bound 0 ≤ τ.nSC
  hsub4 : grid4.bound 1 ≤ τ.nSub
  k4_off1_inb : ∀ i : grid4.Coords, ∀ a, (k4_off1 i) a + S1x65536.size a ≤ S8x262144.size a
  k4_off2_inb : ∀ i : grid4.Coords, ∀ a, (k4_off2 i) a + S1x20x1024.size a ≤ S8x20x4096.size a
  k4_t1_ok : k4_t1_loop.OK
  k4_off3_inb : ∀ k4_t1 : Fin k4_t1_loop.trips, ∀ a, (k4_off3 k4_t1) a + S1x16.size a ≤ S20x1024.size a
  k4_off4_inb : ∀ k4_t1 : Fin k4_t1_loop.trips, ∀ a, (k4_off4 k4_t1) a + S1x16.size a ≤ S20x1024.size a
  k4_off5_inb : ∀ k4_t1 : Fin k4_t1_loop.trips, ∀ a, (k4_off5 k4_t1) a + S1x16.size a ≤ S20x1024.size a
  k4_off6_inb : ∀ k4_t1 : Fin k4_t1_loop.trips, ∀ a, (k4_off6 k4_t1) a + S1x16.size a ≤ S20x1024.size a
  k4_off7_inb : ∀ k4_t1 : Fin k4_t1_loop.trips, ∀ a, (k4_off7 k4_t1) a + S1x16.size a ≤ S20x1024.size a
  k4_off8_inb : ∀ k4_t1 : Fin k4_t1_loop.trips, ∀ a, (k4_off8 k4_t1) a + S1x16.size a ≤ S20x1024.size a
  k4_off9_inb : ∀ k4_t1 : Fin k4_t1_loop.trips, ∀ a, (k4_off9 k4_t1) a + S1x16.size a ≤ S20x1024.size a
  k4_off10_inb : ∀ k4_t1 : Fin k4_t1_loop.trips, ∀ a, (k4_off10 k4_t1) a + S1x16.size a ≤ S20x1024.size a
  k4_off11_inb : ∀ k4_t1 : Fin k4_t1_loop.trips, ∀ a, (k4_off11 k4_t1) a + S1x16.size a ≤ S20x1024.size a
  k4_off12_inb : ∀ k4_t1 : Fin k4_t1_loop.trips, ∀ a, (k4_off12 k4_t1) a + S1x16.size a ≤ S20x1024.size a
  k4_off13_inb : ∀ k4_t1 : Fin k4_t1_loop.trips, ∀ a, (k4_off13 k4_t1) a + S1x16.size a ≤ S20x1024.size a
  k4_off14_inb : ∀ k4_t1 : Fin k4_t1_loop.trips, ∀ a, (k4_off14 k4_t1) a + S1x16.size a ≤ S20x1024.size a
  k4_off15_inb : ∀ k4_t1 : Fin k4_t1_loop.trips, ∀ a, (k4_off15 k4_t1) a + S1x16.size a ≤ S20x1024.size a
  k4_off16_inb : ∀ k4_t1 : Fin k4_t1_loop.trips, ∀ a, (k4_off16 k4_t1) a + S1x16.size a ≤ S20x1024.size a
  k4_off17_inb : ∀ k4_t1 : Fin k4_t1_loop.trips, ∀ a, (k4_off17 k4_t1) a + S1x16.size a ≤ S20x1024.size a
  k4_off18_inb : ∀ k4_t1 : Fin k4_t1_loop.trips, ∀ a, (k4_off18 k4_t1) a + S1x16.size a ≤ S20x1024.size a
  k4_off19_inb : ∀ k4_t1 : Fin k4_t1_loop.trips, ∀ a, (k4_off19 k4_t1) a + S1x16.size a ≤ S20x1024.size a
  k4_off20_inb : ∀ k4_t1 : Fin k4_t1_loop.trips, ∀ a, (k4_off20 k4_t1) a + S1x16.size a ≤ S20x1024.size a
  k4_off21_inb : ∀ k4_t1 : Fin k4_t1_loop.trips, ∀ a, (k4_off21 k4_t1) a + S1x16.size a ≤ S20x1024.size a
  k4_off22_inb : ∀ k4_t1 : Fin k4_t1_loop.trips, ∀ a, (k4_off22 k4_t1) a + S1x16.size a ≤ S20x1024.size a
  k4_t2_ok : k4_t2_loop.OK
  k4_off23_inb : ∀ (k4_t1 : Fin k4_t1_loop.trips) (k4_t2 : Fin k4_t2_loop.trips), ∀ (r : Fin 4), ∀ a, (k4_off23 k4_t1 k4_t2 (BitVec.ofNat 32 r.val)) a + S1x16.size a ≤ S16x1024.size a
  k4_off24_inb : ∀ i : grid4.Coords, ∀ a, (k4_off24 i) a + S1x16x1024.size a ≤ S8x64x4096.size a
  k4_off25_inb : ∀ i : grid4.Coords, ∀ a, (k4_off25 i) a + S1x20x1024.size a ≤ S8x20x4096.size a
  k4_t3_ok : k4_t3_loop.OK
  k4_off26_inb : ∀ k4_t3 : Fin k4_t3_loop.trips, ∀ a, (k4_off26 k4_t3) a + S1x16.size a ≤ S20x1024.size a
  k4_off27_inb : ∀ k4_t3 : Fin k4_t3_loop.trips, ∀ a, (k4_off27 k4_t3) a + S1x16.size a ≤ S20x1024.size a
  k4_off28_inb : ∀ k4_t3 : Fin k4_t3_loop.trips, ∀ a, (k4_off28 k4_t3) a + S1x16.size a ≤ S20x1024.size a
  k4_off29_inb : ∀ k4_t3 : Fin k4_t3_loop.trips, ∀ a, (k4_off29 k4_t3) a + S1x16.size a ≤ S20x1024.size a
  k4_off30_inb : ∀ k4_t3 : Fin k4_t3_loop.trips, ∀ a, (k4_off30 k4_t3) a + S1x16.size a ≤ S20x1024.size a
  k4_off31_inb : ∀ k4_t3 : Fin k4_t3_loop.trips, ∀ a, (k4_off31 k4_t3) a + S1x16.size a ≤ S20x1024.size a
  k4_off32_inb : ∀ k4_t3 : Fin k4_t3_loop.trips, ∀ a, (k4_off32 k4_t3) a + S1x16.size a ≤ S20x1024.size a
  k4_off33_inb : ∀ k4_t3 : Fin k4_t3_loop.trips, ∀ a, (k4_off33 k4_t3) a + S1x16.size a ≤ S20x1024.size a
  k4_off34_inb : ∀ k4_t3 : Fin k4_t3_loop.trips, ∀ a, (k4_off34 k4_t3) a + S1x16.size a ≤ S20x1024.size a
  k4_off35_inb : ∀ k4_t3 : Fin k4_t3_loop.trips, ∀ a, (k4_off35 k4_t3) a + S1x16.size a ≤ S20x1024.size a
  k4_off36_inb : ∀ k4_t3 : Fin k4_t3_loop.trips, ∀ a, (k4_off36 k4_t3) a + S1x16.size a ≤ S20x1024.size a
  k4_off37_inb : ∀ k4_t3 : Fin k4_t3_loop.trips, ∀ a, (k4_off37 k4_t3) a + S1x16.size a ≤ S20x1024.size a
  k4_off38_inb : ∀ k4_t3 : Fin k4_t3_loop.trips, ∀ a, (k4_off38 k4_t3) a + S1x16.size a ≤ S20x1024.size a
  k4_off39_inb : ∀ k4_t3 : Fin k4_t3_loop.trips, ∀ a, (k4_off39 k4_t3) a + S1x16.size a ≤ S20x1024.size a
  k4_off40_inb : ∀ k4_t3 : Fin k4_t3_loop.trips, ∀ a, (k4_off40 k4_t3) a + S1x16.size a ≤ S20x1024.size a
  k4_off41_inb : ∀ k4_t3 : Fin k4_t3_loop.trips, ∀ a, (k4_off41 k4_t3) a + S1x16.size a ≤ S20x1024.size a
  k4_off42_inb : ∀ k4_t3 : Fin k4_t3_loop.trips, ∀ a, (k4_off42 k4_t3) a + S1x16.size a ≤ S20x1024.size a
  k4_off43_inb : ∀ k4_t3 : Fin k4_t3_loop.trips, ∀ a, (k4_off43 k4_t3) a + S1x16.size a ≤ S20x1024.size a
  k4_off44_inb : ∀ k4_t3 : Fin k4_t3_loop.trips, ∀ a, (k4_off44 k4_t3) a + S1x16.size a ≤ S20x1024.size a
  k4_off45_inb : ∀ k4_t3 : Fin k4_t3_loop.trips, ∀ a, (k4_off45 k4_t3) a + S1x16.size a ≤ S20x1024.size a
  k4_t4_ok : k4_t4_loop.OK
  k4_off46_inb : ∀ (k4_t3 : Fin k4_t3_loop.trips) (k4_t4 : Fin k4_t4_loop.trips), ∀ (r : Fin 4), ∀ a, (k4_off46 k4_t3 k4_t4 (BitVec.ofNat 32 r.val)) a + S1x16.size a ≤ S16x1024.size a
  k4_off47_inb : ∀ i : grid4.Coords, ∀ a, (k4_off47 i) a + S1x16x1024.size a ≤ S8x64x4096.size a
  k4_off48_inb : ∀ i : grid4.Coords, ∀ a, (k4_off48 i) a + S1x20x1024.size a ≤ S8x20x4096.size a
  k4_t5_ok : k4_t5_loop.OK
  k4_off49_inb : ∀ k4_t5 : Fin k4_t5_loop.trips, ∀ a, (k4_off49 k4_t5) a + S1x16.size a ≤ S20x1024.size a
  k4_off50_inb : ∀ k4_t5 : Fin k4_t5_loop.trips, ∀ a, (k4_off50 k4_t5) a + S1x16.size a ≤ S20x1024.size a
  k4_off51_inb : ∀ k4_t5 : Fin k4_t5_loop.trips, ∀ a, (k4_off51 k4_t5) a + S1x16.size a ≤ S20x1024.size a
  k4_off52_inb : ∀ k4_t5 : Fin k4_t5_loop.trips, ∀ a, (k4_off52 k4_t5) a + S1x16.size a ≤ S20x1024.size a
  k4_off53_inb : ∀ k4_t5 : Fin k4_t5_loop.trips, ∀ a, (k4_off53 k4_t5) a + S1x16.size a ≤ S20x1024.size a
  k4_off54_inb : ∀ k4_t5 : Fin k4_t5_loop.trips, ∀ a, (k4_off54 k4_t5) a + S1x16.size a ≤ S20x1024.size a
  k4_off55_inb : ∀ k4_t5 : Fin k4_t5_loop.trips, ∀ a, (k4_off55 k4_t5) a + S1x16.size a ≤ S20x1024.size a
  k4_off56_inb : ∀ k4_t5 : Fin k4_t5_loop.trips, ∀ a, (k4_off56 k4_t5) a + S1x16.size a ≤ S20x1024.size a
  k4_off57_inb : ∀ k4_t5 : Fin k4_t5_loop.trips, ∀ a, (k4_off57 k4_t5) a + S1x16.size a ≤ S20x1024.size a
  k4_off58_inb : ∀ k4_t5 : Fin k4_t5_loop.trips, ∀ a, (k4_off58 k4_t5) a + S1x16.size a ≤ S20x1024.size a
  k4_off59_inb : ∀ k4_t5 : Fin k4_t5_loop.trips, ∀ a, (k4_off59 k4_t5) a + S1x16.size a ≤ S20x1024.size a
  k4_off60_inb : ∀ k4_t5 : Fin k4_t5_loop.trips, ∀ a, (k4_off60 k4_t5) a + S1x16.size a ≤ S20x1024.size a
  k4_off61_inb : ∀ k4_t5 : Fin k4_t5_loop.trips, ∀ a, (k4_off61 k4_t5) a + S1x16.size a ≤ S20x1024.size a
  k4_off62_inb : ∀ k4_t5 : Fin k4_t5_loop.trips, ∀ a, (k4_off62 k4_t5) a + S1x16.size a ≤ S20x1024.size a
  k4_off63_inb : ∀ k4_t5 : Fin k4_t5_loop.trips, ∀ a, (k4_off63 k4_t5) a + S1x16.size a ≤ S20x1024.size a
  k4_off64_inb : ∀ k4_t5 : Fin k4_t5_loop.trips, ∀ a, (k4_off64 k4_t5) a + S1x16.size a ≤ S20x1024.size a
  k4_off65_inb : ∀ k4_t5 : Fin k4_t5_loop.trips, ∀ a, (k4_off65 k4_t5) a + S1x16.size a ≤ S20x1024.size a
  k4_off66_inb : ∀ k4_t5 : Fin k4_t5_loop.trips, ∀ a, (k4_off66 k4_t5) a + S1x16.size a ≤ S20x1024.size a
  k4_off67_inb : ∀ k4_t5 : Fin k4_t5_loop.trips, ∀ a, (k4_off67 k4_t5) a + S1x16.size a ≤ S20x1024.size a
  k4_off68_inb : ∀ k4_t5 : Fin k4_t5_loop.trips, ∀ a, (k4_off68 k4_t5) a + S1x16.size a ≤ S20x1024.size a
  k4_t6_ok : k4_t6_loop.OK
  k4_off69_inb : ∀ (k4_t5 : Fin k4_t5_loop.trips) (k4_t6 : Fin k4_t6_loop.trips), ∀ (r : Fin 4), ∀ a, (k4_off69 k4_t5 k4_t6 (BitVec.ofNat 32 r.val)) a + S1x16.size a ≤ S16x1024.size a
  k4_off70_inb : ∀ i : grid4.Coords, ∀ a, (k4_off70 i) a + S1x16x1024.size a ≤ S8x64x4096.size a
  k4_off71_inb : ∀ i : grid4.Coords, ∀ a, (k4_off71 i) a + S1x20x1024.size a ≤ S8x20x4096.size a
  k4_t7_ok : k4_t7_loop.OK
  k4_off72_inb : ∀ k4_t7 : Fin k4_t7_loop.trips, ∀ a, (k4_off72 k4_t7) a + S1x16.size a ≤ S20x1024.size a
  k4_off73_inb : ∀ k4_t7 : Fin k4_t7_loop.trips, ∀ a, (k4_off73 k4_t7) a + S1x16.size a ≤ S20x1024.size a
  k4_off74_inb : ∀ k4_t7 : Fin k4_t7_loop.trips, ∀ a, (k4_off74 k4_t7) a + S1x16.size a ≤ S20x1024.size a
  k4_off75_inb : ∀ k4_t7 : Fin k4_t7_loop.trips, ∀ a, (k4_off75 k4_t7) a + S1x16.size a ≤ S20x1024.size a
  k4_off76_inb : ∀ k4_t7 : Fin k4_t7_loop.trips, ∀ a, (k4_off76 k4_t7) a + S1x16.size a ≤ S20x1024.size a
  k4_off77_inb : ∀ k4_t7 : Fin k4_t7_loop.trips, ∀ a, (k4_off77 k4_t7) a + S1x16.size a ≤ S20x1024.size a
  k4_off78_inb : ∀ k4_t7 : Fin k4_t7_loop.trips, ∀ a, (k4_off78 k4_t7) a + S1x16.size a ≤ S20x1024.size a
  k4_off79_inb : ∀ k4_t7 : Fin k4_t7_loop.trips, ∀ a, (k4_off79 k4_t7) a + S1x16.size a ≤ S20x1024.size a
  k4_off80_inb : ∀ k4_t7 : Fin k4_t7_loop.trips, ∀ a, (k4_off80 k4_t7) a + S1x16.size a ≤ S20x1024.size a
  k4_off81_inb : ∀ k4_t7 : Fin k4_t7_loop.trips, ∀ a, (k4_off81 k4_t7) a + S1x16.size a ≤ S20x1024.size a
  k4_off82_inb : ∀ k4_t7 : Fin k4_t7_loop.trips, ∀ a, (k4_off82 k4_t7) a + S1x16.size a ≤ S20x1024.size a
  k4_off83_inb : ∀ k4_t7 : Fin k4_t7_loop.trips, ∀ a, (k4_off83 k4_t7) a + S1x16.size a ≤ S20x1024.size a
  k4_off84_inb : ∀ k4_t7 : Fin k4_t7_loop.trips, ∀ a, (k4_off84 k4_t7) a + S1x16.size a ≤ S20x1024.size a
  k4_off85_inb : ∀ k4_t7 : Fin k4_t7_loop.trips, ∀ a, (k4_off85 k4_t7) a + S1x16.size a ≤ S20x1024.size a
  k4_off86_inb : ∀ k4_t7 : Fin k4_t7_loop.trips, ∀ a, (k4_off86 k4_t7) a + S1x16.size a ≤ S20x1024.size a
  k4_off87_inb : ∀ k4_t7 : Fin k4_t7_loop.trips, ∀ a, (k4_off87 k4_t7) a + S1x16.size a ≤ S20x1024.size a
  k4_off88_inb : ∀ k4_t7 : Fin k4_t7_loop.trips, ∀ a, (k4_off88 k4_t7) a + S1x16.size a ≤ S20x1024.size a
  k4_off89_inb : ∀ k4_t7 : Fin k4_t7_loop.trips, ∀ a, (k4_off89 k4_t7) a + S1x16.size a ≤ S20x1024.size a
  k4_off90_inb : ∀ k4_t7 : Fin k4_t7_loop.trips, ∀ a, (k4_off90 k4_t7) a + S1x16.size a ≤ S20x1024.size a
  k4_off91_inb : ∀ k4_t7 : Fin k4_t7_loop.trips, ∀ a, (k4_off91 k4_t7) a + S1x16.size a ≤ S20x1024.size a
  k4_t8_ok : k4_t8_loop.OK
  k4_off92_inb : ∀ (k4_t7 : Fin k4_t7_loop.trips) (k4_t8 : Fin k4_t8_loop.trips), ∀ (r : Fin 4), ∀ a, (k4_off92 k4_t7 k4_t8 (BitVec.ofNat 32 r.val)) a + S1x16.size a ≤ S16x1024.size a
  k4_off93_inb : ∀ i : grid4.Coords, ∀ a, (k4_off93 i) a + S1x16x1024.size a ≤ S8x64x4096.size a
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x64x4096.size a ≤ S8x64x4096.size a
  hwx5_0 : ∀ i : grid5.Coords, EltTy.bits .f32 = 32 ∨ (Rect.block (s := S8x64x4096) S1x64x4096.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x64x4096.size a ≤ S8x64x4096.size a
  hwx5_1 : ∀ i : grid5.Coords, EltTy.bits .f32 = 32 ∨ (Rect.block (s := S8x64x4096) S1x64x4096.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x64x4096.size a ≤ S8x64x4096.size a
  hwx5_2 : ∀ i : grid5.Coords, EltTy.bits .f32 = 32 ∨ (Rect.block (s := S8x64x4096) S1x64x4096.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x1.size a ≤ S128x1.size a
  hwx5_4 : ∀ i : grid5.Coords, EltTy.bits .f32 = 32 ∨ (Rect.block (s := S128x1) S128x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x64.size a ≤ S512x64.size a
  hwx5_5 : ∀ i : grid5.Coords, EltTy.bits .f32 = 32 ∨ (Rect.block (s := S512x64) S512x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S512x64.size a ≤ S512x64.size a
  hwx5_6 : ∀ i : grid5.Coords, EltTy.bits .f32 = 32 ∨ (Rect.block (s := S512x64) S512x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x128.size a ≤ S512x128.size a
  hwx5_7 : ∀ i : grid5.Coords, EltTy.bits .f32 = 32 ∨ (Rect.block (s := S512x128) S512x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x512.size a ≤ S1x512.size a
  hwx5_8 : ∀ i : grid5.Coords, EltTy.bits .f32 = 32 ∨ (Rect.block (s := S1x512) S1x512.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S1x1x512.size a ≤ S8x1x512.size a
  hwx5_9 : ∀ i : grid5.Coords, EltTy.bits .f32 = 32 ∨ (Rect.block (s := S8x1x512) S1x1x512.size (cc5_transform_9 i) (hinb5_9 i)).WholeWords (EltTy.packing .f32)

variable [Facts₀]

abbrev cc1_scoped0 : DmaSems sig S_ := SemArray.consecutive 8 S_ hcc1_scoped0
abbrev cc1_scoped1 : DmaSems sig S_ := SemArray.consecutive 9 S_ hcc1_scoped1
abbrev cc1_scoped2 : DmaSems sig S_ := SemArray.consecutive 10 S_ hcc1_scoped2
abbrev cc1_scoped3 : DmaSems sig S_ := SemArray.consecutive 11 S_ hcc1_scoped3
abbrev cc1_scoped4 : DmaSems sig S_ := SemArray.consecutive 12 S_ hcc1_scoped4
abbrev cc1_scoped5 : DmaSems sig S_ := SemArray.consecutive 13 S_ hcc1_scoped5
abbrev cc1_scoped6 : DmaSems sig S_ := SemArray.consecutive 14 S_ hcc1_scoped6
abbrev cc1_scoped7 : DmaSems sig S_ := SemArray.consecutive 15 S_ hcc1_scoped7
abbrev cc1_scoped8 : DmaSems sig S_ := SemArray.consecutive 16 S_ hcc1_scoped8
abbrev cc1_scoped9 : DmaSems sig S_ := SemArray.consecutive 17 S_ hcc1_scoped9
abbrev cc1_scoped10 : DmaSems sig S_ := SemArray.consecutive 18 S_ hcc1_scoped10
abbrev cc1_scoped11 : DmaSems sig S_ := SemArray.consecutive 19 S_ hcc1_scoped11
abbrev cc1_scoped12 : DmaSems sig S_ := SemArray.consecutive 20 S_ hcc1_scoped12
abbrev cc2_scoped0 : DmaSems sig S_ := SemArray.consecutive 21 S_ hcc2_scoped0
abbrev cc2_scoped1 : DmaSems sig S_ := SemArray.consecutive 22 S_ hcc2_scoped1
abbrev cc2_scoped2 : DmaSems sig S_ := SemArray.consecutive 23 S_ hcc2_scoped2
abbrev cc2_scoped3 : DmaSems sig S_ := SemArray.consecutive 24 S_ hcc2_scoped3
abbrev cc2_scoped4 : DmaSems sig S_ := SemArray.consecutive 25 S_ hcc2_scoped4
abbrev cc2_scoped5 : DmaSems sig S_ := SemArray.consecutive 26 S_ hcc2_scoped5
abbrev cc2_scoped6 : DmaSems sig S_ := SemArray.consecutive 27 S_ hcc2_scoped6
abbrev cc2_scoped7 : DmaSems sig S_ := SemArray.consecutive 28 S_ hcc2_scoped7
abbrev cc2_scoped8 : DmaSems sig S_ := SemArray.consecutive 29 S_ hcc2_scoped8
abbrev cc4_scoped0 : DmaSems sig S_ := SemArray.consecutive 36 S_ hcc4_scoped0
abbrev cc4_scoped1 : DmaSems sig S_ := SemArray.consecutive 37 S_ hcc4_scoped1
abbrev cc4_scoped2 : DmaSems sig S_ := SemArray.consecutive 38 S_ hcc4_scoped2
abbrev cc4_scoped3 : DmaSems sig S_ := SemArray.consecutive 39 S_ hcc4_scoped3
abbrev cc4_scoped4 : DmaSems sig S_ := SemArray.consecutive 40 S_ hcc4_scoped4
abbrev cc4_scoped5 : DmaSems sig S_ := SemArray.consecutive 41 S_ hcc4_scoped5
abbrev cc4_scoped6 : DmaSems sig S_ := SemArray.consecutive 42 S_ hcc4_scoped6
abbrev cc4_scoped7 : DmaSems sig S_ := SemArray.consecutive 43 S_ hcc4_scoped7
abbrev cc4_scoped8 : DmaSems sig S_ := SemArray.consecutive 44 S_ hcc4_scoped8
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v1) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win3_0 : Pipeline.Window sig grid3 :=
  Pipeline.Window.ofSpec (Memref.whole main_v7) S1x64x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1x64x4096.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win5_0 : Pipeline.Window sig grid5 :=
  Pipeline.Window.ofSpec (Memref.whole main_v11) S1x64x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S1x64x4096.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v9) S1x64x4096.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg6) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v12) S128x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v14) S512x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v15) S512x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v16) S512x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v13) S1x512.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v17) S1x1x512.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S8x4096x3 : Shape := ⟨3, ![8, 4096, 3]⟩
abbrev S8x4096x20 : Shape := ⟨3, ![8, 4096, 20]⟩
abbrev S64x6 : Shape := ⟨2, ![64, 6]⟩
abbrev S64 : Shape := ⟨1, ![64]⟩
abbrev S64x64 : Shape := ⟨2, ![64, 64]⟩
abbrev S128x64 : Shape := ⟨2, ![128, 64]⟩
abbrev S128 : Shape := ⟨1, ![128]⟩
abbrev S512x256 : Shape := ⟨2, ![512, 256]⟩
abbrev S512 : Shape := ⟨1, ![512]⟩
abbrev S8x3x4096 : Shape := ⟨3, ![8, 3, 4096]⟩
abbrev S8x1x4096x20 : Shape := ⟨4, ![8, 1, 4096, 20]⟩
abbrev S8x3x4096x20 : Shape := ⟨4, ![8, 3, 4096, 20]⟩
abbrev S8x3x4096x1 : Shape := ⟨4, ![8, 3, 4096, 1]⟩
abbrev S_ : Shape := ⟨0, ![]⟩
abbrev S8x3x4096x20x1 : Shape := ⟨5, ![8, 3, 4096, 20, 1]⟩
abbrev S1 : Shape := ⟨1, ![1]⟩
abbrev S1x1x1x1x1 : Shape := ⟨5, ![1, 1, 1, 1, 1]⟩
abbrev S8x6x4096x20 : Shape := ⟨4, ![8, 6, 4096, 20]⟩
abbrev S8x4096x20x64 : Shape := ⟨4, ![8, 4096, 20, 64]⟩
abbrev S8x64x4096x20 : Shape := ⟨4, ![8, 64, 4096, 20]⟩
abbrev S1x64x1x1 : Shape := ⟨4, ![1, 64, 1, 1]⟩
abbrev S8x64x4096 : Shape := ⟨3, ![8, 64, 4096]⟩
abbrev S8x64x4096x1 : Shape := ⟨4, ![8, 64, 4096, 1]⟩
abbrev S8x64x4096x20x1 : Shape := ⟨5, ![8, 64, 4096, 20, 1]⟩
abbrev S8x4096x64 : Shape := ⟨3, ![8, 4096, 64]⟩
abbrev S1x64x1 : Shape := ⟨3, ![1, 64, 1]⟩
abbrev S8x4096x128 : Shape := ⟨3, ![8, 4096, 128]⟩
abbrev S8x128x4096 : Shape := ⟨3, ![8, 128, 4096]⟩
abbrev S1x128x1 : Shape := ⟨3, ![1, 128, 1]⟩
abbrev S8x256x4096 : Shape := ⟨3, ![8, 256, 4096]⟩
abbrev S8x4096x512 : Shape := ⟨3, ![8, 4096, 512]⟩
abbrev S8x512x4096 : Shape := ⟨3, ![8, 512, 4096]⟩
abbrev S1x512x1 : Shape := ⟨3, ![1, 512, 1]⟩
abbrev S8x512 : Shape := ⟨2, ![8, 512]⟩

abbrev nBuf : Space → Nat
  | .hbm => 146
  | .vmem => 0
  | .smem => 0
  | _ => 0

abbrev hbmTy0_0 (i : Nat) : BufTy := match i % 128 with
  | 0 => ⟨S8x4096x3, .f32⟩
  | 1 => ⟨S8x4096x20, .i32⟩
  | 2 => ⟨S64x6, .f32⟩
  | 3 => ⟨S64, .f32⟩
  | 4 => ⟨S64x64, .f32⟩
  | 5 => ⟨S64, .f32⟩
  | 6 => ⟨S128x64, .f32⟩
  | 7 => ⟨S128, .f32⟩
  | 8 => ⟨S512x256, .f32⟩
  | 9 => ⟨S512, .f32⟩
  | 10 => ⟨S8x3x4096, .f32⟩
  | 11 => ⟨S8x1x4096x20, .i32⟩
  | 12 => ⟨S8x3x4096x20, .i32⟩
  | 13 => ⟨S8x3x4096x1, .f32⟩
  | 14 => ⟨S_, .i32⟩
  | 15 => ⟨S8x3x4096x20, .i32⟩
  | 16 => ⟨S8x3x4096x20, .i1⟩
  | 17 => ⟨S_, .i32⟩
  | 18 => ⟨S8x3x4096x20, .i32⟩
  | 19 => ⟨S8x3x4096x20, .i32⟩
  | 20 => ⟨S8x3x4096x20, .i32⟩
  | 21 => ⟨S8x3x4096x20x1, .i32⟩
  | 22 => ⟨S8x3x4096, .f32⟩
  | 23 => ⟨S1, .i32⟩
  | 24 => ⟨S_, .i32⟩
  | 25 => ⟨S8x3x4096x20x1, .i32⟩
  | 26 => ⟨S8x3x4096x20x1, .i1⟩
  | 27 => ⟨S1x1x1x1x1, .i32⟩
  | 28 => ⟨S8x3x4096x20x1, .i32⟩
  | 29 => ⟨S8x3x4096x20x1, .i1⟩
  | 30 => ⟨S8x3x4096x20x1, .i1⟩
  | 31 => ⟨S_, .i1⟩
  | 32 => ⟨S8x3x4096x20, .i1⟩
  | 33 => ⟨S8x3x4096x20, .f32⟩
  | 34 => ⟨S_, .f32⟩
  | 35 => ⟨S8x3x4096x20, .f32⟩
  | 36 => ⟨S8x3x4096x20, .f32⟩
  | 37 => ⟨S8x3x4096x1, .f32⟩
  | 38 => ⟨S8x3x4096x20, .f32⟩
  | 39 => ⟨S8x3x4096x20, .f32⟩
  | 40 => ⟨S8x6x4096x20, .f32⟩
  | 41 => ⟨S8x4096x20x64, .f32⟩
  | 42 => ⟨S8x64x4096x20, .f32⟩
  | 43 => ⟨S1x64x1x1, .f32⟩
  | 44 => ⟨S8x64x4096x20, .f32⟩
  | 45 => ⟨S8x64x4096x20, .f32⟩
  | 46 => ⟨S_, .f32⟩
  | 47 => ⟨S_, .f32⟩
  | 48 => ⟨S8x64x4096x20, .f32⟩
  | 49 => ⟨S8x64x4096x20, .i1⟩
  | 50 => ⟨S_, .f32⟩
  | 51 => ⟨S8x64x4096x20, .f32⟩
  | 52 => ⟨S8x64x4096x20, .f32⟩
  | 53 => ⟨S8x64x4096x20, .f32⟩
  | 54 => ⟨S_, .f32⟩
  | 55 => ⟨S8x64x4096, .f32⟩
  | 56 => ⟨S8x1x4096x20, .i32⟩
  | 57 => ⟨S8x64x4096x20, .i32⟩
  | 58 => ⟨S8x64x4096x1, .f32⟩
  | 59 => ⟨S_, .i32⟩
  | 60 => ⟨S8x64x4096x20, .i32⟩
  | 61 => ⟨S8x64x4096x20, .i1⟩
  | 62 => ⟨S_, .i32⟩
  | 63 => ⟨S8x64x4096x20, .i32⟩
  | 64 => ⟨S8x64x4096x20, .i32⟩
  | 65 => ⟨S8x64x4096x20, .i32⟩
  | 66 => ⟨S8x64x4096x20x1, .i32⟩
  | 67 => ⟨S8x64x4096, .f32⟩
  | 68 => ⟨S1, .i32⟩
  | 69 => ⟨S_, .i32⟩
  | 70 => ⟨S8x64x4096x20x1, .i32⟩
  | 71 => ⟨S8x64x4096x20x1, .i1⟩
  | 72 => ⟨S1x1x1x1x1, .i32⟩
  | 73 => ⟨S8x64x4096x20x1, .i32⟩
  | 74 => ⟨S8x64x4096x20x1, .i1⟩
  | 75 => ⟨S8x64x4096x20x1, .i1⟩
  | 76 => ⟨S_, .i1⟩
  | 77 => ⟨S8x64x4096x20, .i1⟩
  | 78 => ⟨S8x64x4096x20, .f32⟩
  | 79 => ⟨S_, .f32⟩
  | 80 => ⟨S8x64x4096x20, .f32⟩
  | 81 => ⟨S8x64x4096x20, .f32⟩
  | 82 => ⟨S_, .f32⟩
  | 83 => ⟨S8x64x4096, .f32⟩
  | 84 => ⟨S8x4096x64, .f32⟩
  | 85 => ⟨S8x64x4096, .f32⟩
  | 86 => ⟨S1x64x1, .f32⟩
  | 87 => ⟨S8x64x4096, .f32⟩
  | 88 => ⟨S8x64x4096, .f32⟩
  | 89 => ⟨S_, .f32⟩
  | 90 => ⟨S_, .f32⟩
  | 91 => ⟨S8x64x4096, .f32⟩
  | 92 => ⟨S8x64x4096, .i1⟩
  | 93 => ⟨S_, .f32⟩
  | 94 => ⟨S8x64x4096, .f32⟩
  | 95 => ⟨S8x64x4096, .f32⟩
  | 96 => ⟨S8x64x4096, .f32⟩
  | 97 => ⟨S8x1x4096x20, .i32⟩
  | 98 => ⟨S8x64x4096x20, .i32⟩
  | 99 => ⟨S8x64x4096x1, .f32⟩
  | 100 => ⟨S_, .i32⟩
  | 101 => ⟨S8x64x4096x20, .i32⟩
  | 102 => ⟨S8x64x4096x20, .i1⟩
  | 103 => ⟨S_, .i32⟩
  | 104 => ⟨S8x64x4096x20, .i32⟩
  | 105 => ⟨S8x64x4096x20, .i32⟩
  | 106 => ⟨S8x64x4096x20, .i32⟩
  | 107 => ⟨S8x64x4096x20x1, .i32⟩
  | 108 => ⟨S8x64x4096, .f32⟩
  | 109 => ⟨S1, .i32⟩
  | 110 => ⟨S_, .i32⟩
  | 111 => ⟨S8x64x4096x20x1, .i32⟩
  | 112 => ⟨S8x64x4096x20x1, .i1⟩
  | 113 => ⟨S1x1x1x1x1, .i32⟩
  | 114 => ⟨S8x64x4096x20x1, .i32⟩
  | 115 => ⟨S8x64x4096x20x1, .i1⟩
  | 116 => ⟨S8x64x4096x20x1, .i1⟩
  | 117 => ⟨S_, .i1⟩
  | 118 => ⟨S8x64x4096x20, .i1⟩
  | 119 => ⟨S8x64x4096x20, .f32⟩
  | 120 => ⟨S_, .f32⟩
  | 121 => ⟨S8x64x4096x20, .f32⟩
  | 122 => ⟨S8x64x4096x20, .f32⟩
  | 123 => ⟨S_, .f32⟩
  | 124 => ⟨S8x64x4096, .f32⟩
  | 125 => ⟨S8x4096x128, .f32⟩
  | 126 => ⟨S8x128x4096, .f32⟩
  | 127 => ⟨S1x128x1, .f32⟩
  | _ => ⟨S8x4096x3, .f32⟩

abbrev hbmTy0_1 (i : Nat) : BufTy := match i % 128 with
  | 0 => ⟨S8x128x4096, .f32⟩
  | 1 => ⟨S8x128x4096, .f32⟩
  | 2 => ⟨S_, .f32⟩
  | 3 => ⟨S_, .f32⟩
  | 4 => ⟨S8x128x4096, .f32⟩
  | 5 => ⟨S8x128x4096, .i1⟩
  | 6 => ⟨S_, .f32⟩
  | 7 => ⟨S8x128x4096, .f32⟩
  | 8 => ⟨S8x128x4096, .f32⟩
  | 9 => ⟨S8x128x4096, .f32⟩
  | 10 => ⟨S8x256x4096, .f32⟩
  | 11 => ⟨S8x4096x512, .f32⟩
  | 12 => ⟨S8x512x4096, .f32⟩
  | 13 => ⟨S1x512x1, .f32⟩
  | 14 => ⟨S8x512x4096, .f32⟩
  | 15 => ⟨S8x512x4096, .f32⟩
  | 16 => ⟨S_, .f32⟩
  | 17 => ⟨S8x512, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_c_1 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_c_3 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v14 : Ref sig .tc := ⟨.hbm, 53, rfl⟩
abbrev main_cst_0 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_c_1 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_v12 : Ref sig .tc := ⟨.hbm, 75, rfl⟩
abbrev main_call2_c_3 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v19 : Ref sig .tc := ⟨.hbm, 81, rfl⟩
abbrev main_cst_1 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_2 : Ref sig .tc := ⟨.hbm, 89, rfl⟩
abbrev main_call3_cst : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_v29 : Ref sig .tc := ⟨.hbm, 99, rfl⟩
abbrev main_call4_c : Ref sig .tc := ⟨.hbm, 100, rfl⟩
abbrev main_call4_v0 : Ref sig .tc := ⟨.hbm, 101, rfl⟩
abbrev main_call4_v1 : Ref sig .tc := ⟨.hbm, 102, rfl⟩
abbrev main_call4_c_0 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_v5 : Ref sig .tc := ⟨.hbm, 107, rfl⟩
abbrev main_call4_v6 : Ref sig .tc := ⟨.hbm, 108, rfl⟩
abbrev main_call4_c_1 : Ref sig .tc := ⟨.hbm, 109, rfl⟩
abbrev main_call4_c_2 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_v12 : Ref sig .tc := ⟨.hbm, 116, rfl⟩
abbrev main_call4_c_3 : Ref sig .tc := ⟨.hbm, 117, rfl⟩
abbrev main_call4_v13 : Ref sig .tc := ⟨.hbm, 118, rfl⟩
abbrev main_call4_v14 : Ref sig .tc := ⟨.hbm, 119, rfl⟩
abbrev main_call4_cst : Ref sig .tc := ⟨.hbm, 120, rfl⟩
abbrev main_call4_v15 : Ref sig .tc := ⟨.hbm, 121, rfl⟩
abbrev main_v30 : Ref sig .tc := ⟨.hbm, 122, rfl⟩
abbrev main_cst_3 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_cst_4 : Ref sig .tc := ⟨.hbm, 130, rfl⟩
abbrev main_call5_cst : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_cst_5 : Ref sig .tc := ⟨.hbm, 144, rfl⟩
abbrev main_v44 : Ref sig .tc := ⟨.hbm, 145, rfl⟩

abbrev nD : Nat := 1
abbrev τ : Topo := Topo.v7x

variable {F : FTy → Type} [FloatOps F]

class Facts₀ : Prop where
  transposes_S8x4096x3_S8x3x4096_0_2_1 : S8x4096x3.Transposes [0, 2, 1] S8x3x4096
  bcast_S8x4096x20_S8x1x4096x20_0_2_3 : S8x4096x20.BroadcastsInDim S8x1x4096x20 (![0, 2, 3] : Fin 3 → Fin S8x1x4096x20.rank)
  bcast_S8x1x4096x20_S8x3x4096x20_0_1_2_3 : S8x1x4096x20.BroadcastsInDim S8x3x4096x20 (![0, 1, 2, 3] : Fin 4 → Fin S8x3x4096x20.rank)
  bcast_S8x3x4096_S8x3x4096x1_0_1_2 : S8x3x4096.BroadcastsInDim S8x3x4096x1 (![0, 1, 2] : Fin 3 → Fin S8x3x4096x1.rank)
  bcast_S_S8x3x4096x20 : S_.BroadcastsInDim S8x3x4096x20 (![] : Fin 0 → Fin S8x3x4096x20.rank)
  shapeCasts_S8x3x4096x20_S8x3x4096x20x1 : S8x3x4096x20.ShapeCasts S8x3x4096x20x1
  shapeCasts_S8x3x4096x1_S8x3x4096 : S8x3x4096x1.ShapeCasts S8x3x4096
  bcast_S_S8x3x4096x20x1 : S_.BroadcastsInDim S8x3x4096x20x1 (![] : Fin 0 → Fin S8x3x4096x20x1.rank)
  bcast_S1_S1x1x1x1x1_4 : S1.BroadcastsInDim S1x1x1x1x1 (![4] : Fin 1 → Fin S1x1x1x1x1.rank)
  bcast_S1x1x1x1x1_S8x3x4096x20x1_0_1_2_3_4 : S1x1x1x1x1.BroadcastsInDim S8x3x4096x20x1 (![0, 1, 2, 3, 4] : Fin 5 → Fin S8x3x4096x20x1.rank)
  reducesTo_S8x3x4096x20x1_S8x3x4096x20_d4 : S8x3x4096x20x1.ReducesTo [4] S8x3x4096x20
  h_S_ : 0 < S_.numel
  bcast_S8x3x4096x1_S8x3x4096x20_0_1_2_3 : S8x3x4096x1.BroadcastsInDim S8x3x4096x20 (![0, 1, 2, 3] : Fin 4 → Fin S8x3x4096x20.rank)
  concatenates_S8x3x4096x20_S8x3x4096x20_S8x6x4096x20_d1 : Shape.Concatenates [S8x3x4096x20, S8x3x4096x20] S8x6x4096x20 1
  transposes_S8x4096x20x64_S8x64x4096x20_0_3_1_2 : S8x4096x20x64.Transposes [0, 3, 1, 2] S8x64x4096x20
  bcast_S64_S1x64x1x1_1 : S64.BroadcastsInDim S1x64x1x1 (![1] : Fin 1 → Fin S1x64x1x1.rank)
  bcast_S1x64x1x1_S8x64x4096x20_0_1_2_3 : S1x64x1x1.BroadcastsInDim S8x64x4096x20 (![0, 1, 2, 3] : Fin 4 → Fin S8x64x4096x20.rank)
  bcast_S_S8x64x4096x20 : S_.BroadcastsInDim S8x64x4096x20 (![] : Fin 0 → Fin S8x64x4096x20.rank)
  reducesTo_S8x64x4096x20_S8x64x4096_d3 : S8x64x4096x20.ReducesTo [3] S8x64x4096
  bcast_S8x1x4096x20_S8x64x4096x20_0_1_2_3 : S8x1x4096x20.BroadcastsInDim S8x64x4096x20 (![0, 1, 2, 3] : Fin 4 → Fin S8x64x4096x20.rank)
  bcast_S8x64x4096_S8x64x4096x1_0_1_2 : S8x64x4096.BroadcastsInDim S8x64x4096x1 (![0, 1, 2] : Fin 3 → Fin S8x64x4096x1.rank)
  shapeCasts_S8x64x4096x20_S8x64x4096x20x1 : S8x64x4096x20.ShapeCasts S8x64x4096x20x1
  shapeCasts_S8x64x4096x1_S8x64x4096 : S8x64x4096x1.ShapeCasts S8x64x4096
  bcast_S_S8x64x4096x20x1 : S_.BroadcastsInDim S8x64x4096x20x1 (![] : Fin 0 → Fin S8x64x4096x20x1.rank)
  bcast_S1x1x1x1x1_S8x64x4096x20x1_0_1_2_3_4 : S1x1x1x1x1.BroadcastsInDim S8x64x4096x20x1 (![0, 1, 2, 3, 4] : Fin 5 → Fin S8x64x4096x20x1.rank)
  reducesTo_S8x64x4096x20x1_S8x64x4096x20_d4 : S8x64x4096x20x1.ReducesTo [4] S8x64x4096x20
  transposes_S8x4096x64_S8x64x4096_0_2_1 : S8x4096x64.Transposes [0, 2, 1] S8x64x4096
  bcast_S64_S1x64x1_1 : S64.BroadcastsInDim S1x64x1 (![1] : Fin 1 → Fin S1x64x1.rank)
  bcast_S1x64x1_S8x64x4096_0_1_2 : S1x64x1.BroadcastsInDim S8x64x4096 (![0, 1, 2] : Fin 3 → Fin S8x64x4096.rank)
  bcast_S_S8x64x4096 : S_.BroadcastsInDim S8x64x4096 (![] : Fin 0 → Fin S8x64x4096.rank)
  transposes_S8x4096x128_S8x128x4096_0_2_1 : S8x4096x128.Transposes [0, 2, 1] S8x128x4096
  bcast_S128_S1x128x1_1 : S128.BroadcastsInDim S1x128x1 (![1] : Fin 1 → Fin S1x128x1.rank)
  bcast_S1x128x1_S8x128x4096_0_1_2 : S1x128x1.BroadcastsInDim S8x128x4096 (![0, 1, 2] : Fin 3 → Fin S8x128x4096.rank)
  bcast_S_S8x128x4096 : S_.BroadcastsInDim S8x128x4096 (![] : Fin 0 → Fin S8x128x4096.rank)
  concatenates_S8x64x4096_S8x64x4096_S8x128x4096_S8x256x4096_d1 : Shape.Concatenates [S8x64x4096, S8x64x4096, S8x128x4096] S8x256x4096 1
  transposes_S8x4096x512_S8x512x4096_0_2_1 : S8x4096x512.Transposes [0, 2, 1] S8x512x4096
  bcast_S512_S1x512x1_1 : S512.BroadcastsInDim S1x512x1 (![1] : Fin 1 → Fin S1x512x1.rank)
  bcast_S1x512x1_S8x512x4096_0_1_2 : S1x512x1.BroadcastsInDim S8x512x4096 (![0, 1, 2] : Fin 3 → Fin S8x512x4096.rank)
  reducesTo_S8x512x4096_S8x512_d2 : S8x512x4096.ReducesTo [2] S8x512
  gather_S8x3x4096_S8x3x4096x20x1_S8x3x4096x20_n_2_01_01_2_4_111_wf : GatherDims.WF S8x3x4096 S8x3x4096x20x1 S8x3x4096x20 [] [2] [0, 1] [2] [0, 1] 4 ![1, 1, 1]
  dot_S8x6x4096x20_S64x6_S8x4096x20x64_1_1_023_0_n_n_wf : DotDims.WF S8x6x4096x20 S64x6 S8x4096x20x64 [1] [1] [0, 2, 3] [0] [] []
  gather_S8x64x4096_S8x64x4096x20x1_S8x64x4096x20_n_2_01_01_2_4_111_wf : GatherDims.WF S8x64x4096 S8x64x4096x20x1 S8x64x4096x20 [] [2] [0, 1] [2] [0, 1] 4 ![1, 1, 1]
  dot_S8x64x4096_S64x64_S8x4096x64_1_1_02_0_n_n_wf : DotDims.WF S8x64x4096 S64x64 S8x4096x64 [1] [1] [0, 2] [0] [] []
  dot_S8x64x4096_S128x64_S8x4096x128_1_1_02_0_n_n_wf : DotDims.WF S8x64x4096 S128x64 S8x4096x128 [1] [1] [0, 2] [0] [] []
  dot_S8x256x4096_S512x256_S8x4096x512_1_1_02_0_n_n_wf : DotDims.WF S8x256x4096 S512x256 S8x4096x512 [1] [1] [0, 2] [0] [] []

variable [Facts₀]

def gather_S8x3x4096_S8x3x4096x20x1_S8x3x4096x20_n_2_01_01_2_4_111 : GatherDims S8x3x4096 S8x3x4096x20x1 S8x3x4096x20 where
  offsetDims := []
  collapsedSliceDims := [2]
  operandBatchingDims := [0, 1]
  startIndicesBatchingDims := [0, 1]
  startIndexMap := [2]
  indexVectorDim := 4
  sliceSizes := ![1, 1, 1]
  wf := gather_S8x3x4096_S8x3x4096x20x1_S8x3x4096x20_n_2_01_01_2_4_111_wf
def dot_S8x6x4096x20_S64x6_S8x4096x20x64_1_1_023_0_n_n : DotDims S8x6x4096x20 S64x6 S8x4096x20x64 where
  lhsContracting := [1]
  rhsContracting := [1]
  lhsNonContracting := [0, 2, 3]
  rhsNonContracting := [0]
  lhsBatch := []
  rhsBatch := []
  wf := dot_S8x6x4096x20_S64x6_S8x4096x20x64_1_1_023_0_n_n_wf
def gather_S8x64x4096_S8x64x4096x20x1_S8x64x4096x20_n_2_01_01_2_4_111 : GatherDims S8x64x4096 S8x64x4096x20x1 S8x64x4096x20 where
  offsetDims := []
  collapsedSliceDims := [2]
  operandBatchingDims := [0, 1]
  startIndicesBatchingDims := [0, 1]
  startIndexMap := [2]
  indexVectorDim := 4
  sliceSizes := ![1, 1, 1]
  wf := gather_S8x64x4096_S8x64x4096x20x1_S8x64x4096x20_n_2_01_01_2_4_111_wf
def dot_S8x64x4096_S64x64_S8x4096x64_1_1_02_0_n_n : DotDims S8x64x4096 S64x64 S8x4096x64 where
  lhsContracting := [1]
  rhsContracting := [1]
  lhsNonContracting := [0, 2]
  rhsNonContracting := [0]
  lhsBatch := []
  rhsBatch := []
  wf := dot_S8x64x4096_S64x64_S8x4096x64_1_1_02_0_n_n_wf
def dot_S8x64x4096_S128x64_S8x4096x128_1_1_02_0_n_n : DotDims S8x64x4096 S128x64 S8x4096x128 where
  lhsContracting := [1]
  rhsContracting := [1]
  lhsNonContracting := [0, 2]
  rhsNonContracting := [0]
  lhsBatch := []
  rhsBatch := []
  wf := dot_S8x64x4096_S128x64_S8x4096x128_1_1_02_0_n_n_wf
def dot_S8x256x4096_S512x256_S8x4096x512_1_1_02_0_n_n : DotDims S8x256x4096 S512x256 S8x4096x512 where
  lhsContracting := [1]
  rhsContracting := [1]
  lhsNonContracting := [0, 2]
  rhsNonContracting := [0]
  lhsBatch := []
  rhsBatch := []
  wf := dot_S8x256x4096_S512x256_S8x4096x512_1_1_02_0_n_n_wf

class Facts : Prop extends Facts₀ where

variable [Facts]
-- ==== Proof.KISetup.lean ====
/-
  The idealized kernel's program as the SparseCore launch theorem sees it: the label table, the three SparseCore
  calls' configuration, the proof's ghost state (the handshakes' rounds beside the TensorCore pipelines' rounds and the
  transfers' counters), the launch memory and the arrays @main and the kernels move between.
-/
import proofs.«209975_g17849884082380_cont_8to1_1483_11_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209975_g17849884082380_cont_8to1_1483_11_alg».proof.Proof.Gen.KernelIdeal
import proofs.«209975_g17849884082380_cont_8to1_1483_11_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

/-- The handshakes' rounds library: the left factor. -/
abbrev EH : Emb UH (MT nD τ sig (HIx 3) (Elt F) ℕ UU ℕ) := embL
/-- The TensorCore pipelines' rounds library: the left of the right factor; the counters are found by instance. -/
abbrev EP : Emb UP (MT nD τ sig (HIx 3) (Elt F) ℕ UU ℕ) := (Emb.inl : Emb UP (UP × Counters)).trans embR

end Cert.Proof.KI

end
-- ==== Proof.KILaunch.lean ====
/-
  @main of the idealized kernel's program on the TensorCore, step by step: seven stretches of host operations, three
  TensorCore pallas_calls and three SparseCore calls, threaded over the valuation of the TensorCore's unscoped arrays.
  What each pallas_call and each SparseCore call does to that valuation is taken here as a hypothesis (`RegionStep`,
  `CallStep`); this module chains them and hands the result to the SparseCore launch theorem.
-/
import proofs.«209975_g17849884082380_cont_8to1_1483_11_alg».proof.Proof.KISetup
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within launchContents)
open Idealize.ShloMosaic.Tactic

variable {F : FTy → Type}

local notation "𝕄" => MT nD τ sig (HIx 3) (Elt F) ℕ UU ℕ

/-! ## The six kernel regions as functions of the arrays they read -/

/-- What each pallas_call and each SparseCore kernel leaves in its output arrays, as a function of its input arrays. -/
structure Regions (F : FTy → Type) where
  tcaY : Vec F S8x3x4096 .f32 → Vec F S64x6 .f32 → Vec F S64x1 .f32 → Vec F S8x64x4096 .f32
  tcaC : Vec F S8x3x4096 .f32 → Vec F S64x6 .f32 → Vec F S64x1 .f32 → Vec F S8x64x4096 .f32
  gmaxL : Vec F S8x262144 .f32 → IVec S8x20x4096 32 → Vec F S8x64x4096 .f32 → Vec F S8x64x4096 .f32
  gmaxP : Vec F S8x262144 .f32 → IVec S8x20x4096 32 → Vec F S8x64x4096 .f32
  tcb : Vec F S8x64x4096 .f32 → Vec F S64x64 .f32 → Vec F S64x1 .f32 → Vec F S8x64x4096 .f32
  tcc : Vec F S8x64x4096 .f32 → Vec F S8x64x4096 .f32 → Vec F S8x64x4096 .f32 → Vec F S128x64 .f32 → Vec F S128x1 .f32
    → Vec F S512x64 .f32 → Vec F S512x64 .f32 → Vec F S512x128 .f32 → Vec F S1x512 .f32 → Vec F S8x1x512 .f32

/-! ## The TensorCore's unscoped arrays -/

/-- A TensorCore array as a buffer of the device. -/
abbrev dr (b : Ref sig .tc) : DevRef τ sig := Proc.devRef .tc b

/-- The TensorCore's unscoped arrays: @main's arguments and values. -/
abbrev Sall : Finset (DevRef τ sig) := Pipeline.ucRefs τ sig

variable [FloatOps F]

/-! ## The host stretches of @main -/

abbrev hostA : List (HloOp τ sig (Elt F)) :=
  [ StableHlo.unary main_arg1 main_v0 ((transpose S8x20x4096 [0, 2, 1] · transposes_S8x4096x20_S8x20x4096_0_2_1) : (⟨S8x4096x20, .i32⟩ : BufTy).Contents (Elt F) → (⟨S8x20x4096, .i32⟩ : BufTy).Contents (Elt F)),
    StableHlo.unary main_arg0 main_v1 ((transpose S8x3x4096 [0, 2, 1] · transposes_S8x4096x3_S8x3x4096_0_2_1) : (⟨S8x4096x3, .f32⟩ : BufTy).Contents (Elt F) → (⟨S8x3x4096, .f32⟩ : BufTy).Contents (Elt F)),
    StableHlo.reshape main_arg3 main_v2 rfl shapeCasts_S64_S64x1 ]
abbrev hostB : List (HloOp τ sig (Elt F)) := [ StableHlo.reshape main_v3_0 main_v4 rfl shapeCasts_S8x64x4096_S8x262144 ]
abbrev hostC : List (HloOp τ sig (Elt F)) := [ StableHlo.reshape main_v5 main_v6 rfl shapeCasts_S8x64x4096_S8x262144 ]
abbrev hostD : List (HloOp τ sig (Elt F)) := [ StableHlo.reshape main_arg5 main_v8 rfl shapeCasts_S64_S64x1 ]
abbrev hostE : List (HloOp τ sig (Elt F)) := [ StableHlo.reshape main_v9 main_v10 rfl shapeCasts_S8x64x4096_S8x262144 ]
abbrev hostF : List (HloOp τ sig (Elt F)) :=
  [ StableHlo.reshape main_arg7 main_v12 rfl shapeCasts_S128_S128x1,
    StableHlo.reshape main_arg9 main_v13 rfl shapeCasts_S512_S1x512,
    StableHlo.unary main_arg8 main_v14 ((extractStridedSlice S512x64 ![0, 0] · slices_S512x256_S512x64_0_0) : (⟨S512x256, .f32⟩ : BufTy).Contents (Elt F) → (⟨S512x64, .f32⟩ : BufTy).Contents (Elt F)),
    StableHlo.unary main_arg8 main_v15 ((extractStridedSlice S512x64 ![0, 64] · slices_S512x256_S512x64_0_64) : (⟨S512x256, .f32⟩ : BufTy).Contents (Elt F) → (⟨S512x64, .f32⟩ : BufTy).Contents (Elt F)),
    StableHlo.unary main_arg8 main_v16 ((extractStridedSlice S512x128 ![0, 128] · slices_S512x256_S512x128_0_128) : (⟨S512x256, .f32⟩ : BufTy).Contents (Elt F) → (⟨S512x128, .f32⟩ : BufTy).Contents (Elt F)) ]
abbrev hostG : List (HloOp τ sig (Elt F)) := [ StableHlo.reshape main_v17 main_v18 rfl shapeCasts_S8x1x512_S8x512 ]

/-! ## The valuations between the steps -/

section Chain

variable (R : Regions F) (W₀ : Valuation τ sig (Elt F))

def W1 : Valuation τ sig (Elt F) := StableHlo.after hostA W₀
def W2 : Valuation τ sig (Elt F) :=
  Function.update (Function.update (W1 W₀) (dr main_v3_0) (R.tcaY (W1 W₀ (dr main_v1)) (W1 W₀ (dr main_arg2)) (W1 W₀ (dr main_v2))))
    (dr main_v3_1) (R.tcaC (W1 W₀ (dr main_v1)) (W1 W₀ (dr main_arg2)) (W1 W₀ (dr main_v2)))
def W3 : Valuation τ sig (Elt F) := StableHlo.after hostB (W2 R W₀)
def W4 : Valuation τ sig (Elt F) :=
  Function.update (W3 R W₀) (dr main_v5) (R.gmaxL (W3 R W₀ (dr main_v4)) (W3 R W₀ (dr main_v0)) (W3 R W₀ (dr main_v3_1)))
def W5 : Valuation τ sig (Elt F) := StableHlo.after hostC (W4 R W₀)
def W6 : Valuation τ sig (Elt F) := Function.update (W5 R W₀) (dr main_v7) (R.gmaxP (W5 R W₀ (dr main_v6)) (W5 R W₀ (dr main_v0)))
def W7 : Valuation τ sig (Elt F) := StableHlo.after hostD (W6 R W₀)
def W8 : Valuation τ sig (Elt F) := Function.update (W7 R W₀) (dr main_v9) (R.tcb (W7 R W₀ (dr main_v7)) (W7 R W₀ (dr main_arg4)) (W7 R W₀ (dr main_v8)))
def W9 : Valuation τ sig (Elt F) := StableHlo.after hostE (W8 R W₀)
def W10 : Valuation τ sig (Elt F) := Function.update (W9 R W₀) (dr main_v11) (R.gmaxP (W9 R W₀ (dr main_v10)) (W9 R W₀ (dr main_v0)))
def W11 : Valuation τ sig (Elt F) := StableHlo.after hostF (W10 R W₀)
def W12 : Valuation τ sig (Elt F) :=
  Function.update (W11 R W₀) (dr main_v17) (R.tcc (W11 R W₀ (dr main_v11)) (W11 R W₀ (dr main_v5)) (W11 R W₀ (dr main_v9)) (W11 R W₀ (dr main_arg6))
    (W11 R W₀ (dr main_v12)) (W11 R W₀ (dr main_v14)) (W11 R W₀ (dr main_v15)) (W11 R W₀ (dr main_v16)) (W11 R W₀ (dr main_v13)))
def W13 : Valuation τ sig (Elt F) := StableHlo.after hostG (W12 R W₀)

end Chain

/-! ## The steps @main is chained from -/

section Steps

variable (P : (K (F := F)).Pay (nD := nD) (Val := Elt F) (Name := ℕ) (U := UU))

/-- SparseCore call `q` on device `d` takes the TensorCore's arrays from `W` to `W'` (the call's operands lent to the
    SparseCores and returned, its result array rewritten) and the TensorCore's handshake state one round on. -/
def CallStep (q : Fin 3) (d : Dev nD) (W W' : Valuation τ sig (Elt F)) : Prop :=
  ∀ (κ : GSem nD τ sig → ℕ) (Φ : PUnit → sProp 𝕄),
    iprop((K (F := F)).ctx EH P κ ∗ (K (F := F)).tcSt EH d q.val ∗ (held (T d) Sall W : sProp 𝕄)
        ∗ (((K (F := F)).tcSt EH d (q.val + 1) ∗ (held (T d) Sall W' : sProp 𝕄)) -∗ Φ ⟨⟩))
      ⊢ wp frame (wpE ((K (F := F)).defs (D (F := F))) 𝒱 (T d) none) Set.univ ((K (F := F)).run d q) Φ

/-- The pallas_call `p`, entered after `n` SparseCore calls, takes the TensorCore's arrays from `W` to `W'` and what @main
    holds for the pipelines from `G` to `G'`; the region boundary and the handshake state are kept. -/
def RegionStep (p : Fin 3) (n : ℕ) (d : Dev nD) (W W' : Valuation τ sig (Elt F)) (G G' : sProp 𝕄) : Prop :=
  ∀ (κ : GSem nD τ sig → ℕ) (Φ : PUnit → sProp 𝕄),
    iprop((K (F := F)).ctx EH P κ ∗ (K (F := F)).tcSt EH d n ∗ boundary (T d) ∗ (held (T d) Sall W : sProp 𝕄) ∗ G
        ∗ (((K (F := F)).tcSt EH d n ∗ boundary (T d) ∗ (held (T d) Sall W' : sProp 𝕄) ∗ G') -∗ Φ ⟨⟩))
      ⊢ wp frame (wpE ((K (F := F)).defs (D (F := F))) 𝒱 (T d) none) Set.univ
          (Prog.lift (.customCall (SparseCore.inner (Pipeline.entry p)) ())) Φ

/-- One host operation of @main: the region boundary and the arrays, the operation's result written. -/
theorem host_step (d : Dev nD) {op : HloOp τ sig (Elt F)} {W : Valuation τ sig (Elt F)} (hS : op.bufs ⊆ Sall)
    {Φ : PUnit → sProp 𝕄} (hf : op.fresh = ∅ := by first | rfl | decide) :
    iprop(boundary (T d) ∗ (held (T d) Sall W : sProp 𝕄) ∗ ((boundary (T d) ∗ (held (T d) Sall (op.result W) : sProp 𝕄)) -∗ Φ ⟨⟩))
      ⊢ wp frame (wpE ((K (F := F)).defs (D (F := F))) 𝒱 (T d) none) Set.univ (hlo rfl op (fun _ => .ret ⟨⟩)) Φ := by
  iintro ⟨Hb, Hh, Hk⟩
  iapply (wp_hlo_within 𝒱 (T d) none Set.univ (op := op) (S := Sall) hS (V := W) hf) $$ [Hb Hh]
  · isplitl [Hb]; · iexact Hb
    iexact Hh
  iintro H
  rw [wp_ret]; imodintro
  iapply Hk; iexact H

end Steps

/-! ## @main -/

section Main

variable (R : Regions F) (P : (K (F := F)).Pay (nD := nD) (Val := Elt F) (Name := ℕ) (U := UU))
variable (m : (ℓ : Loc nD τ sig) → Buf (Elt F) ℓ) (ρ : Dev nD → PrngReg)
variable (G0 G1 G2 G3 : Dev nD → sProp (MT nD τ sig (HIx 3) (Elt F) ℕ UU ℕ))

omit [FloatOps F] in
/-- The TensorCore's unscoped arrays as the launch deals them are the set `Sall` held at the launch contents. -/
theorem unscoped_held (d : Dev nD) :
    (unscopedBufs d (fun b => m ((SparseCore.T d).loc b)) : sProp 𝕄) = held (SparseCore.T d) Sall (launchContents m d) :=
  Pipeline.unscopedBufs_held d (launchContents m d)

/-- @main on device `d`'s TensorCore, from what the launch deals it and what @main holds for the pipelines: the
    handshakes through their three rounds, the arrays at the last valuation. -/
theorem hmain
    (hR0 : ∀ d, RegionStep P 0 0 d (W1 (launchContents m d)) (W2 R (launchContents m d)) (G0 d) (G1 d))
    (hC0 : ∀ d, CallStep P 0 d (W3 R (launchContents m d)) (W4 R (launchContents m d)))
    (hC1 : ∀ d, CallStep P 1 d (W5 R (launchContents m d)) (W6 R (launchContents m d)))
    (hR1 : ∀ d, RegionStep P 1 2 d (W7 R (launchContents m d)) (W8 R (launchContents m d)) (G1 d) (G2 d))
    (hC2 : ∀ d, CallStep P 2 d (W9 R (launchContents m d)) (W10 R (launchContents m d)))
    (hR2 : ∀ d, RegionStep P 2 3 d (W11 R (launchContents m d)) (W12 R (launchContents m d)) (G2 d) (G3 d))
    (κ : GSem nD τ sig → ℕ) (d : Dev nD) :
    iprop((K (F := F)).ctx EH P κ ∗ (K (F := F)).tcSt EH d 0 ∗ (K (F := F)).tcRes m ρ d ∗ G0 d)
      ⊢ wp frame (wpE ((K (F := F)).defs (D (F := F))) 𝒱 (T d) none) Set.univ (main d)
          fun _ => iprop((K (F := F)).tcSt EH d 3 ∗ (held (T d) Sall (W13 R (launchContents m d)) : sProp 𝕄)) := by
  unfold SparseCore.Cfg.tcRes
  rw [unscoped_held]
  simp only [main, wp_bind, wp_pure]
  iintro ⟨#Hctx, Hst, ⟨Hb, Hh, -, -⟩, HG⟩
  -- the first host stretch
  iapply (host_step d (W := launchContents m d) (Pipeline.sub_ucRefs _ (StableHlo.unary_bufs_sub ..))) $$ [Hb Hh Hst HG]
  isplitl [Hb]; · iexact Hb
  isplitl [Hh]; · iexact Hh
  iintro ⟨Hb, Hh⟩
  iapply (host_step d (Pipeline.sub_ucRefs _ (StableHlo.unary_bufs_sub ..))) $$ [Hb Hh Hst HG]
  isplitl [Hb]; · iexact Hb
  isplitl [Hh]; · iexact Hh
  iintro ⟨Hb, Hh⟩
  iapply (host_step d (Pipeline.sub_ucRefs _ (StableHlo.reshape_bufs_sub ..))) $$ [Hb Hh Hst HG]
  isplitl [Hb]; · iexact Hb
  isplitl [Hh]; · iexact Hh
  iintro ⟨Hb, Hh⟩
  -- the first pallas_call
  iapply (hR0 d κ _) $$ [Hst Hb Hh HG]
  isplitr; · iexact Hctx
  isplitl [Hst]; · iexact Hst
  isplitl [Hb]; · iexact Hb
  isplitl [Hh]; · iexact Hh
  isplitl [HG]; · iexact HG
  iintro ⟨Hst, Hb, Hh, HG⟩
  -- the stretch before the first SparseCore call, and the call
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (hC0 d κ _) $$ [Hst Hb Hh HG]
  isplitr; · iexact Hctx
  isplitl [Hst]; · iexact Hst
  isplitl [Hh]; · iexact Hh
  iintro ⟨Hst, Hh⟩
  -- the second SparseCore call
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (hC1 d κ _) $$ [Hst Hb Hh HG]
  isplitr; · iexact Hctx
  isplitl [Hst]; · iexact Hst
  isplitl [Hh]; · iexact Hh
  iintro ⟨Hst, Hh⟩
  -- the second pallas_call
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (hR1 d κ _) $$ [Hst Hb Hh HG]
  isplitr; · iexact Hctx
  isplitl [Hst]; · iexact Hst
  isplitl [Hb]; · iexact Hb
  isplitl [Hh]; · iexact Hh
  isplitl [HG]; · iexact HG
  iintro ⟨Hst, Hb, Hh, HG⟩
  -- the third SparseCore call
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (hC2 d κ _) $$ [Hst Hb Hh HG]
  isplitr; · iexact Hctx
  isplitl [Hst]; · iexact Hst
  isplitl [Hh]; · iexact Hh
  iintro ⟨Hst, Hh⟩
  -- the last pallas_call, its operands reshaped and sliced first
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (host_step d (Pipeline.sub_ucRefs _ (StableHlo.unary_bufs_sub ..))) $$ [Hb Hh Hst HG]
  isplitl [Hb]; · iexact Hb
  isplitl [Hh]; · iexact Hh
  iintro ⟨Hb, Hh⟩
  iapply (host_step d (Pipeline.sub_ucRefs _ (StableHlo.unary_bufs_sub ..))) $$ [Hb Hh Hst HG]
  isplitl [Hb]; · iexact Hb
  isplitl [Hh]; · iexact Hh
  iintro ⟨Hb, Hh⟩
  iapply (host_step d (Pipeline.sub_ucRefs _ (StableHlo.unary_bufs_sub ..))) $$ [Hb Hh Hst HG]
  isplitl [Hb]; · iexact Hb
  isplitl [Hh]; · iexact Hh
  iintro ⟨Hb, Hh⟩
  iapply (hR2 d κ _) $$ [Hst Hb Hh HG]
  isplitr; · iexact Hctx
  isplitl [Hst]; · iexact Hst
  isplitl [Hb]; · iexact Hb
  isplitl [Hh]; · iexact Hh
  isplitl [HG]; · iexact HG
  iintro ⟨Hst, Hb, Hh, HG⟩
  -- the result reshaped
  iapply (host_step d (Pipeline.sub_ucRefs _ (StableHlo.reshape_bufs_sub ..))) $$ [Hb Hh Hst HG]
  isplitl [Hb]; · iexact Hb
  isplitl [Hh]; · iexact Hh
  iintro ⟨Hb, Hh⟩
  imodintro
  isplitl [Hst]; · iexact Hst
  iexact Hh

end Main

end Cert.Proof.KI

end
-- ==== Proof.KIRun.lean ====
/-
  The idealized kernel's program run: the SparseCore launch theorem applied to @main's chain of steps, and what the
  final memory then holds.
-/
import proofs.«209975_g17849884082380_cont_8to1_1483_11_alg».proof.Proof.KILaunch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within launchContents)
open Idealize.ShloMosaic.Tactic

variable {F : FTy → Type}

local notation "𝕄" => MT nD τ sig (HIx 3) (Elt F) ℕ UU ℕ

variable [FloatOps F]

/-! ## The run -/

section Run

variable (R : Regions F) (P : (K (F := F)).Pay (nD := nD) (Val := Elt F) (Name := ℕ) (U := UU))
variable (m : (ℓ : Loc nD τ sig) → Buf (Elt F) ℓ) (ρ : Dev nD → PrngReg)

omit [FloatOps F] in
/-- Arrays held whole agree with the memory: each holds the valuation's contents. -/
theorem held_agree (d : Dev nD) (S₀ : Finset (DevRef τ sig)) (W : Valuation τ sig (Elt F)) (b : DevRef τ sig) (hb : b ∈ S₀)
    (s' : Phys nD τ sig (Elt F)) :
    iprop((held (SparseCore.T d) S₀ W : sProp 𝕄) ∗ SI s') ⊢ (⌜s'.mem.mem (d, b) = W b⌝ : sProp 𝕄) := by
  unfold held
  have h2 : iprop((((d, b) : Loc nD τ sig) ↦{fullShare} W b : sProp 𝕄) ∗ SI s') ⊢ (⌜s'.mem.mem (d, b) = W b⌝ : sProp 𝕄) := by
    iintro ⟨Hb, HSI⟩
    ihave H := (SI_pointsTo_agree (st := s') (ℓ := (d, b)) (I := Finset.univ) (q := fullShare) (f := W b)) $$ [HSI Hb]
    · isplitl [HSI] <;> iassumption
    icases H with %h
    ipureintro; exact funext fun i => h i (Finset.mem_univ i)
  exact (BI.sep_mono (bigSep_elim (Φ := fun b => iprop(((d, b) : Loc nD τ sig) ↦{fullShare} W b)) hb) (BI.Entails.refl _)).trans h2

end Run

section RunMain

variable (R : Regions F) (P : (K (F := F)).Pay (nD := nD) (Val := Elt F) (Name := ℕ) (U := UU)) [P.IsStorable]
variable (m : (ℓ : Loc nD τ sig) → Buf (Elt F) ℓ) (ρ : Dev nD → PrngReg)
variable (G0 G1 G2 G3 : Dev nD → sProp (MT nD τ sig (HIx 3) (Elt F) ℕ UU ℕ))

/-- What the claims read off the final memory: on every device each of the TensorCore's arrays holds @main's last valuation. -/
def QC : PUnit × MemSt nD τ sig (Elt F) → Prop :=
  fun r => ∀ (c : Dev nD) (b : DevRef τ sig), b ∈ Sall → r.2.mem (c, b) = W13 R (launchContents m c) b

/-- The program's run, from the tiles' obligations, the calls' splits, the launch element and the six steps of @main. -/
theorem run_main [∀ e, Nonempty (Elt F e)]
    (htile : ∀ q, (K (F := F)).kind q = .scVector → (K (F := F)).TileObl (D (F := F)) 𝒱 P v₀ q)
    (hvec : ∀ q, (K (F := F)).kind q = .scVector → (K (F := F)).VecSplit P q)
    (hscalar : ∀ q, (K (F := F)).kind q = .scScalar → (K (F := F)).ScalarObl (D (F := F)) 𝒱 P v₀ q)
    (u₀ : UU)
    (hu₀ : iprop((ownU u₀ : sProp 𝕄) ∗ P.oxCred ∗ (K (F := F)).freeSems0)
      ⊢ |={Set.univ}=> iprop(BI.own (EH (initOf (K (F := F)).hsCells (K (F := F)).hsToks)) ∗ bigSep Finset.univ G0
        ∗ bigSep Finset.univ fun thr : Thread nD τ => bigSep Finset.univ fun q : Fin 3 => P.x q thr))
    (hheld : P.held = ∅)
    (hR0 : ∀ d, RegionStep P 0 0 d (W1 (launchContents m d)) (W2 R (launchContents m d)) (G0 d) (G1 d))
    (hC0 : ∀ d, CallStep P 0 d (W3 R (launchContents m d)) (W4 R (launchContents m d)))
    (hC1 : ∀ d, CallStep P 1 d (W5 R (launchContents m d)) (W6 R (launchContents m d)))
    (hR1 : ∀ d, RegionStep P 1 2 d (W7 R (launchContents m d)) (W8 R (launchContents m d)) (G1 d) (G2 d))
    (hC2 : ∀ d, CallStep P 2 d (W9 R (launchContents m d)) (W10 R (launchContents m d)))
    (hR2 : ∀ d, RegionStep P 2 3 d (W11 R (launchContents m d)) (W12 R (launchContents m d)) (G2 d) (G3 d)) :
    θ_run (Cert.KernelIdeal.defs (F := F)) (Cert.KernelIdeal.threads (F := F)) ⟨m, fun _ => 0, ρ⟩ (QC R m) :=
  SparseCore.Cfg.θ_run_sc (K := K (F := F)) (D := D (F := F)) (𝒱 := 𝒱) (EH := EH) (P := P) facts v₀
    hscalar htile hvec
    m ρ main G0 (fun d => (held (SparseCore.T d) Sall (W13 R (launchContents m d)) : sProp 𝕄)) u₀ hu₀
    (hmain R P m ρ G0 G1 G2 G3 hR0 hC0 hC1 hR1 hC2 hR2)
    (fun d s' => ∀ b : DevRef τ sig, b ∈ Sall → s'.mem.mem (d, b) = W13 R (launchContents m d) b)
    (fun d s' => fun x hx b hb => held_agree d Sall (W13 R (launchContents m d)) b hb s' x hx)
    (QC R m) (fun s' h c b hb => h c b hb) hheld

end RunMain

end Cert.Proof.KI

end
-- ==== Proof.KITile2Defs.lean ====
/-
  One tile of the second SparseCore call (the plain gather-and-max): the array it computes, and the resources a tile takes
  and gives back.
-/
import proofs.«209975_g17849884082380_cont_8to1_1483_11_alg».proof.Proof.KISetup
import Idealize.ShloMosaic.Lib.Transfers
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

/-! ## The value -/

/-- The source array's index of channel `c`, point `w` (reduced into the cloud) of cloud `b`. -/
def srcIx (b : Fin 8) (c : Fin 64) (w : BitVec 32) : S8x262144.Idx :=
  ix2 b ⟨c.val * 4096 + w.toNat % 4096, by have := c.isLt; have := Nat.mod_lt w.toNat (show 0 < 4096 by norm_num); omega⟩

variable [FloatOps F]

/-- The pooled array: entry `(b, c, n)` is the maximum, folded from minus infinity over the 20 neighbours in order, of the
    source at channel `c` of the neighbours of point `n`. -/
def gmaxArr (src : Vec F S8x262144 .f32) (idx : IVec S8x20x4096 32) : Vec F S8x64x4096 .f32 :=
  fun j => (List.finRange 20).foldl
    (fun (acc : F .f32) (k : Fin 20) => FloatOps.maximumf acc (src (srcIx (j 0) (j 1) (idx (ix3 (j 0) k (j 2))))))
    (Scalar.ofBits .f32 0xFF800000#32)

/-! ## The tile, its thread and its memrefs -/

section Tile

variable (d : Dev nD) (L : grid2.Coords)

abbrev cV (L : grid2.Coords) : Fin τ.nSC := (L 0).castLE hcore2
abbrev jV (L : grid2.Coords) : Fin τ.nSub := (L 1).castLE hsub2

/-- The tile's number among the 32: twice its subcore's plus its core's. -/
def wid (L : grid2.Coords) : Fin 32 := ⟨(L 1).val * 2 + (L 0).val, by
  have h0 : (L 0).val < 2 := (L 0).isLt
  have h1 : (L 1).val < 16 := (L 1).isLt
  omega⟩

/-- The read share a tile holds of the source and of the index array. -/
abbrev qT (L : grid2.Coords) : PosShare TreeShare := Transfers.shareTok fullShare 32 (wid L)

abbrev srcLoc (d : Dev nD) : Loc nD τ sig := (SparseCore.T d).loc main_v6
abbrev idxLoc (d : Dev nD) : Loc nD τ sig := (SparseCore.T d).loc main_v0
abbrev outLoc (d : Dev nD) : Loc nD τ sig := (SparseCore.T d).loc main_v7

local notation "srcW" => (Memref.whole Cert.KernelIdeal.main_v6_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v7_scv : Memref Cert.KernelIdeal.sig Kind.scVector Space.hbm Cert.KernelIdeal.S8x64x4096 EltTy.f32)
local notation "slabW" => (Memref.whole Cert.KernelIdeal.cc2_scratch0 : Memref Cert.KernelIdeal.sig Kind.scVector Space.vmem Cert.KernelIdeal.S65536 EltTy.f32)
local notation "idxbW" => (Memref.whole Cert.KernelIdeal.cc2_scratch1 : Memref Cert.KernelIdeal.sig Kind.scVector Space.vmem Cert.KernelIdeal.S20x1024 EltTy.i32)
local notation "outbW" => (Memref.whole Cert.KernelIdeal.cc2_scratch2 : Memref Cert.KernelIdeal.sig Kind.scVector Space.vmem Cert.KernelIdeal.S16x1024 EltTy.f32)

/-- The four pieces of the output a tile writes, as the program slices them. -/
abbrev oP0 (L : grid2.Coords) : Memref sig .scVector .hbm S16x1024 .f32 :=
  ((outW).slice (Rect.unit (s := S8x64x4096) (k2_off24 L) S1x16x1024.size (k2_off24_inb L)) (fun _ => rfl)).squeeze S16x1024 squeezes_S1x16x1024_S16x1024
abbrev oP1 (L : grid2.Coords) : Memref sig .scVector .hbm S16x1024 .f32 :=
  ((outW).slice (Rect.unit (s := S8x64x4096) (k2_off47 L) S1x16x1024.size (k2_off47_inb L)) (fun _ => rfl)).squeeze S16x1024 squeezes_S1x16x1024_S16x1024
abbrev oP2 (L : grid2.Coords) : Memref sig .scVector .hbm S16x1024 .f32 :=
  ((outW).slice (Rect.unit (s := S8x64x4096) (k2_off70 L) S1x16x1024.size (k2_off70_inb L)) (fun _ => rfl)).squeeze S16x1024 squeezes_S1x16x1024_S16x1024
abbrev oP3 (L : grid2.Coords) : Memref sig .scVector .hbm S16x1024 .f32 :=
  ((outW).slice (Rect.unit (s := S8x64x4096) (k2_off93 L) S1x16x1024.size (k2_off93_inb L)) (fun _ => rfl)).squeeze S16x1024 squeezes_S1x16x1024_S16x1024

abbrev oSet0 (L : grid2.Coords) : Finset S8x64x4096.Idx := (oP0 L).view.set
abbrev oSet1 (L : grid2.Coords) : Finset S8x64x4096.Idx := (oP1 L).view.set
abbrev oSet2 (L : grid2.Coords) : Finset S8x64x4096.Idx := (oP2 L).view.set
abbrev oSet3 (L : grid2.Coords) : Finset S8x64x4096.Idx := (oP3 L).view.set

variable (fs : Buf (Elt F) (srcLoc d)) (fi : Buf (Elt F) (idxLoc d))

/-- What a tile takes: a read share of the source and of the index array, and its four output pieces at contents not
    chosen. -/
def go2 : sProp 𝕄 :=
  iprop((srcLoc d ↦{qT L} fs) ∗ (idxLoc d ↦{qT L} fi)
    ∗ (∃ f, outLoc d ↦[oSet0 L]{fullShare} f) ∗ (∃ f, outLoc d ↦[oSet1 L]{fullShare} f)
    ∗ (∃ f, outLoc d ↦[oSet2 L]{fullShare} f) ∗ (∃ f, outLoc d ↦[oSet3 L]{fullShare} f))

variable [FloatOps F]

/-- What a tile gives back: the two read shares, and its four output pieces at the pooled array. -/
def td2 : sProp 𝕄 :=
  iprop((srcLoc d ↦{qT L} fs) ∗ (idxLoc d ↦{qT L} fi)
    ∗ (outLoc d ↦[oSet0 L]{fullShare} gmaxArr fs fi) ∗ (outLoc d ↦[oSet1 L]{fullShare} gmaxArr fs fi)
    ∗ (outLoc d ↦[oSet2 L]{fullShare} gmaxArr fs fi) ∗ (outLoc d ↦[oSet3 L]{fullShare} gmaxArr fs fi))

end Tile

end Cert.Proof.KI

end
-- ==== Proof.KITile1Defs.lean ====
/-
  One tile of the first SparseCore call (the gather-and-max with the added centre term and the rectifier): the array it
  computes, and the resources a tile takes and gives back.
-/
import proofs.«209975_g17849884082380_cont_8to1_1483_11_alg».proof.Proof.KISetup
import proofs.«209975_g17849884082380_cont_8to1_1483_11_alg».proof.Proof.KITile2Defs
import Idealize.ShloMosaic.Lib.Transfers
import Idealize.ShloMosaic.Lib.ValueIdx

noncomputable section

namespace Cert.Proof.KI.T1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

/-! ## The value -/

section Value

variable [FloatOps F]

/-- The leaky rectifier as the program computes it on one lane: the value itself where it compares greater than zero,
    else the value times the slope literal. -/
def lreluF (v : F .f32) : F .f32 :=
  Scalar.select (FloatOps.cmpf .ogt v (Scalar.ofBits .f32 0x00000000#32)) v
    (FloatOps.mulf v (Scalar.ofBits .f32 0x3E4CCCCD#32))

/-- The pooled and rectified array: entry `(b, c, n)` is the rectifier of the sum of the pooled source (the maximum over
    the 20 neighbours of point `n` at channel `c`) and the centre term at `(b, c, n)`. -/
def gmaxLArr (src : Vec F S8x262144 .f32) (idx : IVec S8x20x4096 32) (cep : Vec F S8x64x4096 .f32) :
    Vec F S8x64x4096 .f32 :=
  fun j => lreluF (FloatOps.addf (gmaxArr src idx j) (cep j))

end Value

/-! ## The tile, its thread and its memrefs -/

section Tile

variable (d : Dev nD) (L : grid1.Coords)

abbrev cV (L : grid1.Coords) : Fin τ.nSC := (L 0).castLE hcore1
abbrev jV (L : grid1.Coords) : Fin τ.nSub := (L 1).castLE hsub1

/-- The tile's number among the 32: twice its subcore's plus its core's. -/
def wid (L : grid1.Coords) : Fin 32 := ⟨(L 1).val * 2 + (L 0).val, by
  have h0 : (L 0).val < 2 := (L 0).isLt
  have h1 : (L 1).val < 16 := (L 1).isLt
  omega⟩

/-- The read share a tile holds of the source, of the index array and of the centre term. -/
abbrev qT (L : grid1.Coords) : PosShare TreeShare := Transfers.shareTok fullShare 32 (wid L)

abbrev srcLoc (d : Dev nD) : Loc nD τ sig := (SparseCore.T d).loc main_v4
abbrev idxLoc (d : Dev nD) : Loc nD τ sig := (SparseCore.T d).loc main_v0
abbrev cepLoc (d : Dev nD) : Loc nD τ sig := (SparseCore.T d).loc main_v3_1
abbrev outLoc (d : Dev nD) : Loc nD τ sig := (SparseCore.T d).loc main_v5

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)
local notation "slabW" => (Memref.whole Cert.KernelIdeal.cc1_scratch0 : Memref Cert.KernelIdeal.sig Kind.scVector Space.vmem Cert.KernelIdeal.S65536 EltTy.f32)
local notation "idxbW" => (Memref.whole Cert.KernelIdeal.cc1_scratch1 : Memref Cert.KernelIdeal.sig Kind.scVector Space.vmem Cert.KernelIdeal.S20x1024 EltTy.i32)
local notation "outbW" => (Memref.whole Cert.KernelIdeal.cc1_scratch2 : Memref Cert.KernelIdeal.sig Kind.scVector Space.vmem Cert.KernelIdeal.S16x1024 EltTy.f32)
local notation "cepbW" => (Memref.whole Cert.KernelIdeal.cc1_scratch3 : Memref Cert.KernelIdeal.sig Kind.scVector Space.vmem Cert.KernelIdeal.S16x1024 EltTy.f32)

/-- The four pieces of the output a tile writes, as the program slices them. -/
abbrev oP0 (L : grid1.Coords) : Memref sig .scVector .hbm S16x1024 .f32 :=
  ((outW).slice (Rect.unit (s := S8x64x4096) (k1_off3 L) S1x16x1024.size (k1_off3_inb L)) (fun _ => rfl)).squeeze S16x1024 squeezes_S1x16x1024_S16x1024
abbrev oP1 (L : grid1.Coords) : Memref sig .scVector .hbm S16x1024 .f32 :=
  ((outW).slice (Rect.unit (s := S8x64x4096) (k1_off26 L) S1x16x1024.size (k1_off26_inb L)) (fun _ => rfl)).squeeze S16x1024 squeezes_S1x16x1024_S16x1024
abbrev oP2 (L : grid1.Coords) : Memref sig .scVector .hbm S16x1024 .f32 :=
  ((outW).slice (Rect.unit (s := S8x64x4096) (k1_off49 L) S1x16x1024.size (k1_off49_inb L)) (fun _ => rfl)).squeeze S16x1024 squeezes_S1x16x1024_S16x1024
abbrev oP3 (L : grid1.Coords) : Memref sig .scVector .hbm S16x1024 .f32 :=
  ((outW).slice (Rect.unit (s := S8x64x4096) (k1_off72 L) S1x16x1024.size (k1_off72_inb L)) (fun _ => rfl)).squeeze S16x1024 squeezes_S1x16x1024_S16x1024

abbrev oSet0 (L : grid1.Coords) : Finset S8x64x4096.Idx := (oP0 L).view.set
abbrev oSet1 (L : grid1.Coords) : Finset S8x64x4096.Idx := (oP1 L).view.set
abbrev oSet2 (L : grid1.Coords) : Finset S8x64x4096.Idx := (oP2 L).view.set
abbrev oSet3 (L : grid1.Coords) : Finset S8x64x4096.Idx := (oP3 L).view.set

variable (fs : Buf (Elt F) (srcLoc d)) (fi : Buf (Elt F) (idxLoc d)) (fc : Buf (Elt F) (cepLoc d))

/-- What a tile takes: a read share of the source, of the index array and of the centre term, and its four output pieces
    at contents not chosen. -/
def go1 : sProp 𝕄 :=
  iprop((srcLoc d ↦{qT L} fs) ∗ (idxLoc d ↦{qT L} fi) ∗ (cepLoc d ↦{qT L} fc)
    ∗ (∃ f, outLoc d ↦[oSet0 L]{fullShare} f) ∗ (∃ f, outLoc d ↦[oSet1 L]{fullShare} f)
    ∗ (∃ f, outLoc d ↦[oSet2 L]{fullShare} f) ∗ (∃ f, outLoc d ↦[oSet3 L]{fullShare} f))

variable [FloatOps F]

/-- What a tile gives back: the three read shares, and its four output pieces at the pooled and rectified array. -/
def td1 : sProp 𝕄 :=
  iprop((srcLoc d ↦{qT L} fs) ∗ (idxLoc d ↦{qT L} fi) ∗ (cepLoc d ↦{qT L} fc)
    ∗ (outLoc d ↦[oSet0 L]{fullShare} gmaxLArr fs fi fc) ∗ (outLoc d ↦[oSet1 L]{fullShare} gmaxLArr fs fi fc)
    ∗ (outLoc d ↦[oSet2 L]{fullShare} gmaxLArr fs fi fc) ∗ (outLoc d ↦[oSet3 L]{fullShare} gmaxLArr fs fi fc))

end Tile

end Cert.Proof.KI.T1

end
-- ==== Proof.KITile4Defs.lean ====
/-
  One tile of the third SparseCore call (the plain gather-and-max again, on the second layer's output): the resources a tile takes
  and gives back.
-/
import proofs.«209975_g17849884082380_cont_8to1_1483_11_alg».proof.Proof.KISetup
import Idealize.ShloMosaic.Lib.Transfers
import Idealize.ShloMosaic.Lib.ValueIdx
import proofs.«209975_g17849884082380_cont_8to1_1483_11_alg».proof.Proof.KITile2Defs

noncomputable section

namespace Cert.Proof.KI.T4

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

/-! ## The tile, its thread and its memrefs -/

section Tile

variable (d : Dev nD) (L : grid4.Coords)

abbrev cV (L : grid4.Coords) : Fin τ.nSC := (L 0).castLE hcore4
abbrev jV (L : grid4.Coords) : Fin τ.nSub := (L 1).castLE hsub4

/-- The tile's number among the 32: twice its subcore's plus its core's. -/
def wid (L : grid4.Coords) : Fin 32 := ⟨(L 1).val * 2 + (L 0).val, by
  have h0 : (L 0).val < 2 := (L 0).isLt
  have h1 : (L 1).val < 16 := (L 1).isLt
  omega⟩

/-- The read share a tile holds of the source and of the index array. -/
abbrev qT (L : grid4.Coords) : PosShare TreeShare := Transfers.shareTok fullShare 32 (wid L)

abbrev srcLoc (d : Dev nD) : Loc nD τ sig := (SparseCore.T d).loc main_v10
abbrev idxLoc (d : Dev nD) : Loc nD τ sig := (SparseCore.T d).loc main_v0
abbrev outLoc (d : Dev nD) : Loc nD τ sig := (SparseCore.T d).loc main_v11

local notation "srcW" => (Memref.whole Cert.KernelIdeal.main_v10_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v11_scv : Memref Cert.KernelIdeal.sig Kind.scVector Space.hbm Cert.KernelIdeal.S8x64x4096 EltTy.f32)
local notation "slabW" => (Memref.whole Cert.KernelIdeal.cc4_scratch0 : Memref Cert.KernelIdeal.sig Kind.scVector Space.vmem Cert.KernelIdeal.S65536 EltTy.f32)
local notation "idxbW" => (Memref.whole Cert.KernelIdeal.cc4_scratch1 : Memref Cert.KernelIdeal.sig Kind.scVector Space.vmem Cert.KernelIdeal.S20x1024 EltTy.i32)
local notation "outbW" => (Memref.whole Cert.KernelIdeal.cc4_scratch2 : Memref Cert.KernelIdeal.sig Kind.scVector Space.vmem Cert.KernelIdeal.S16x1024 EltTy.f32)

/-- The four pieces of the output a tile writes, as the program slices them. -/
abbrev oP0 (L : grid4.Coords) : Memref sig .scVector .hbm S16x1024 .f32 :=
  ((outW).slice (Rect.unit (s := S8x64x4096) (k4_off24 L) S1x16x1024.size (k4_off24_inb L)) (fun _ => rfl)).squeeze S16x1024 squeezes_S1x16x1024_S16x1024
abbrev oP1 (L : grid4.Coords) : Memref sig .scVector .hbm S16x1024 .f32 :=
  ((outW).slice (Rect.unit (s := S8x64x4096) (k4_off47 L) S1x16x1024.size (k4_off47_inb L)) (fun _ => rfl)).squeeze S16x1024 squeezes_S1x16x1024_S16x1024
abbrev oP2 (L : grid4.Coords) : Memref sig .scVector .hbm S16x1024 .f32 :=
  ((outW).slice (Rect.unit (s := S8x64x4096) (k4_off70 L) S1x16x1024.size (k4_off70_inb L)) (fun _ => rfl)).squeeze S16x1024 squeezes_S1x16x1024_S16x1024
abbrev oP3 (L : grid4.Coords) : Memref sig .scVector .hbm S16x1024 .f32 :=
  ((outW).slice (Rect.unit (s := S8x64x4096) (k4_off93 L) S1x16x1024.size (k4_off93_inb L)) (fun _ => rfl)).squeeze S16x1024 squeezes_S1x16x1024_S16x1024

abbrev oSet0 (L : grid4.Coords) : Finset S8x64x4096.Idx := (oP0 L).view.set
abbrev oSet1 (L : grid4.Coords) : Finset S8x64x4096.Idx := (oP1 L).view.set
abbrev oSet2 (L : grid4.Coords) : Finset S8x64x4096.Idx := (oP2 L).view.set
abbrev oSet3 (L : grid4.Coords) : Finset S8x64x4096.Idx := (oP3 L).view.set

variable (fs : Buf (Elt F) (srcLoc d)) (fi : Buf (Elt F) (idxLoc d))

/-- What a tile takes: a read share of the source and of the index array, and its four output pieces at contents not
    chosen. -/
def go4 : sProp 𝕄 :=
  iprop((srcLoc d ↦{qT L} fs) ∗ (idxLoc d ↦{qT L} fi)
    ∗ (∃ f, outLoc d ↦[oSet0 L]{fullShare} f) ∗ (∃ f, outLoc d ↦[oSet1 L]{fullShare} f)
    ∗ (∃ f, outLoc d ↦[oSet2 L]{fullShare} f) ∗ (∃ f, outLoc d ↦[oSet3 L]{fullShare} f))

variable [FloatOps F]

/-- What a tile gives back: the two read shares, and its four output pieces at the pooled array. -/
def td4 : sProp 𝕄 :=
  iprop((srcLoc d ↦{qT L} fs) ∗ (idxLoc d ↦{qT L} fi)
    ∗ (outLoc d ↦[oSet0 L]{fullShare} gmaxArr fs fi) ∗ (outLoc d ↦[oSet1 L]{fullShare} gmaxArr fs fi)
    ∗ (outLoc d ↦[oSet2 L]{fullShare} gmaxArr fs fi) ∗ (outLoc d ↦[oSet3 L]{fullShare} gmaxArr fs fi))

end Tile

end Cert.Proof.KI.T4

end
-- ==== Proof.KIP.lean ====
/-
  What the three SparseCore calls' handshakes carry: each call hands every tile its task's resources (read shares of the
  arrays it gathers from, its pieces of the output array) at the contents @main's chain of valuations gives the arrays
  when the call is made, and takes them back with the output pieces at the call's function of those contents.
-/
import proofs.«209975_g17849884082380_cont_8to1_1483_11_alg».proof.Proof.KILaunch
import proofs.«209975_g17849884082380_cont_8to1_1483_11_alg».proof.Proof.KITile1Defs
import proofs.«209975_g17849884082380_cont_8to1_1483_11_alg».proof.Proof.KITile2Defs
import proofs.«209975_g17849884082380_cont_8to1_1483_11_alg».proof.Proof.KITile4Defs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type}

local notation "𝕄" => MT nD τ sig (HIx 3) (Elt F) ℕ UU ℕ

/-- A tile of a call's grid `[2, 16]` from its SparseCore's and its subcore's numbers within the call. -/
def coords1 (c : Fin ((K (F := F)).nCore 0)) (i : Fin ((K (F := F)).nSub 0)) : grid1.Coords :=
  fun | 0 => ⟨c.val, c.isLt⟩ | 1 => ⟨i.val, i.isLt⟩ | ⟨_ + 2, h⟩ => absurd h (Nat.not_lt.2 (Nat.le_add_left _ _))
def coords2 (c : Fin ((K (F := F)).nCore 1)) (i : Fin ((K (F := F)).nSub 1)) : grid2.Coords :=
  fun | 0 => ⟨c.val, c.isLt⟩ | 1 => ⟨i.val, i.isLt⟩ | ⟨_ + 2, h⟩ => absurd h (Nat.not_lt.2 (Nat.le_add_left _ _))
def coords4 (c : Fin ((K (F := F)).nCore 2)) (i : Fin ((K (F := F)).nSub 2)) : grid4.Coords :=
  fun | 0 => ⟨c.val, c.isLt⟩ | 1 => ⟨i.val, i.isLt⟩ | ⟨_ + 2, h⟩ => absurd h (Nat.not_lt.2 (Nat.le_add_left _ _))

variable [FloatOps F]

section Pay

variable (R : Regions F) (m : (ℓ : Loc nD τ sig) → Buf (Elt F) ℓ)

/-- What a task of call `q` takes. -/
def goF : (q : Fin 3) → Dev nD → Fin ((K (F := F)).nCore q) → Fin ((K (F := F)).nSub q) → sProp 𝕄
  | 0, d, c, i => T1.go1 d (coords1 c i) (W3 R (launchContents m d) (dr main_v4)) (W3 R (launchContents m d) (dr main_v0)) (W3 R (launchContents m d) (dr main_v3_1))
  | 1, d, c, i => go2 d (coords2 c i) (W5 R (launchContents m d) (dr main_v6)) (W5 R (launchContents m d) (dr main_v0))
  | 2, d, c, i => T4.go4 d (coords4 c i) (W9 R (launchContents m d) (dr main_v10)) (W9 R (launchContents m d) (dr main_v0))

/-- What a task of call `q` gives back. -/
def tdF : (q : Fin 3) → Dev nD → Fin ((K (F := F)).nCore q) → Fin ((K (F := F)).nSub q) → sProp 𝕄
  | 0, d, c, i => T1.td1 d (coords1 c i) (W3 R (launchContents m d) (dr main_v4)) (W3 R (launchContents m d) (dr main_v0)) (W3 R (launchContents m d) (dr main_v3_1))
  | 1, d, c, i => td2 d (coords2 c i) (W5 R (launchContents m d) (dr main_v6)) (W5 R (launchContents m d) (dr main_v0))
  | 2, d, c, i => T4.td4 d (coords4 c i) (W9 R (launchContents m d) (dr main_v10)) (W9 R (launchContents m d) (dr main_v0))

/-- The calls' payloads: a SparseCore takes and gives back its sixteen tasks' resources; no kernel consumes anything of
    the launch's. -/
def P : (K (F := F)).Pay (nD := nD) (Val := Elt F) (Name := ℕ) (U := UU) where
  st := fun q d c => bigSep Finset.univ fun i => goF R m q d c i
  dn := fun q d c => bigSep Finset.univ fun i => tdF R m q d c i
  go := goF R m
  td := tdF R m
  x := fun _ _ => iprop(emp)

end Pay

end Cert.Proof.KI

end
-- ==== Proof.KIGhost.lean ====
/-
  What @main holds for its three TensorCore kernel regions: per pipeline, the launch state of its staging cells'
  rounds and the duty tokens of the transfers its loop issues, funded at the launch from the pipelines' rounds element.
-/
import proofs.«209975_g17849884082380_cont_8to1_1483_11_alg».proof.Proof.KISetup
import proofs.«209975_g17849884082380_cont_8to1_1483_11_alg».proof.Proof.Gen.KernelIdeal.Launch
import Idealize.ShloMosaic.Lib.Pipeline.Sound

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-! ## The pipelines' ghost state @main holds -/

/-- The one admissible contents of the (absent) prefetched tables of each pipeline. -/
abbrev adm : (p : Fin 3) → (pcfgs (F := F) p).Adm := fun p => (cfgs p).toPCfg_adm

/-- The launch element of the pipelines' rounds: every staging cell of the three pipelines, every transfer their loops issue. -/
abbrev uP : UP := initOf (Pipeline.cells (nD := nD) (τ := τ) cfgs cellOf_inj) (Pipeline.launchToks (nD := nD) (τ := τ) cfgs cellOf_inj)

/-- What @main holds of pipeline p on device d before its region: the staging cells' launch state and the loop's duty tokens. -/
abbrev pipeGhost (p : Fin 3) (d : Dev nD) : sProp 𝕄 :=
  iprop(Pipeline.cellsGhost (nD := nD) (τ := τ) (Val := Elt F) (Ix := HIx 3) (Name := ℕ) (U := UU) (Lvl := ℕ) cfgs (EP (F := F)) p d
    ∗ Pipeline.toksInit (nD := nD) (τ := τ) (Val := Elt F) (Ix := HIx 3) (Name := ℕ) (U := UU) (Lvl := ℕ) cfgs (EP (F := F)) p d)

/-- What @main must hold for its three regions. -/
def mainGhost (d : Dev nD) : sProp 𝕄 := bigSep Finset.univ fun p : Fin 3 => pipeGhost (F := F) p d

theorem fund_main : (BI.own ((EP (F := F)) uP) : sProp 𝕄) ⊢ |==> bigSep Finset.univ (mainGhost (F := F)) := by
  refine (Pipeline.fund_ghost (nD := nD) (τ := τ) cfgs (EP (F := F)) cellOf_inj).trans ?_
  iintro H
  imod H with ⟨Hg, Ht⟩
  imodintro
  unfold mainGhost
  simp only [bigSep_sep']
  isplitl [Hg] <;> iassumption

theorem mainGhost_eq (d : Dev nD) : (mainGhost (F := F) d) = iprop(pipeGhost (F := F) 0 d ∗ pipeGhost (F := F) 1 d ∗ pipeGhost (F := F) 2 d) := by
  unfold mainGhost
  rw [show (Finset.univ : Finset (Fin 3)) = {0, 1, 2} by decide, SparseCore.bigSep_insert' (by decide), SparseCore.bigSep_insert' (by decide), bigSep_singleton]

end Cert.Proof.KI

end
-- ==== Proof.KIObl.lean ====
/-
  The SparseCore launch theorem's obligations for the calls' payloads: the payloads travel inside the handshake cells'
  invariants; a call's operands split into its sixteen tasks' and its results gather from theirs by definition; a task of
  each call, as the launch theorem runs it, is the call's tile body at the tile's coordinates; no call runs on a sequencer;
  nothing is held from the launch.
-/
import proofs.«209975_g17849884082380_cont_8to1_1483_11_alg».proof.Proof.KIP
import proofs.«209975_g17849884082380_cont_8to1_1483_11_alg».proof.Proof.KIGhost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type} [FloatOps F]

local notation "𝕄" => MT nD τ sig (HIx 3) (Elt F) ℕ UU ℕ

section Obligations

variable (R : Regions F) (m : (ℓ : Loc nD τ sig) → Buf (Elt F) ℓ)

/-! ## The payloads are storable -/

theorem goF_storable (q : Fin 3) (d : Dev nD) (c : Fin ((K (F := F)).nCore q)) (i : Fin ((K (F := F)).nSub q)) :
    BI.Storable (upEmb : UEmb _ 𝕄) (goF R m q d c i) := by
  match q with
  | 0 => unfold goF T1.go1; infer_instance
  | 1 => unfold goF go2; infer_instance
  | 2 => unfold goF T4.go4; infer_instance

theorem tdF_storable (q : Fin 3) (d : Dev nD) (c : Fin ((K (F := F)).nCore q)) (i : Fin ((K (F := F)).nSub q)) :
    BI.Storable (upEmb : UEmb _ 𝕄) (tdF R m q d c i) := by
  match q with
  | 0 => unfold tdF T1.td1; infer_instance
  | 1 => unfold tdF td2; infer_instance
  | 2 => unfold tdF T4.td4; infer_instance

instance P_storable : (P R m).IsStorable where
  st q d c := by
    haveI : ∀ i, BI.Storable (upEmb : UEmb _ 𝕄) (goF R m q d c i) := goF_storable R m q d c
    show BI.Storable (upEmb : UEmb _ 𝕄) (bigSep Finset.univ fun i => goF R m q d c i)
    infer_instance
  dn q d c := by
    haveI : ∀ i, BI.Storable (upEmb : UEmb _ 𝕄) (tdF R m q d c i) := tdF_storable R m q d c
    show BI.Storable (upEmb : UEmb _ 𝕄) (bigSep Finset.univ fun i => tdF R m q d c i)
    infer_instance
  go q d c i := goF_storable R m q d c i
  td q d c i := tdF_storable R m q d c i

/-! ## A call's operands are its tasks', its results theirs -/

theorem vecSplit (q : Fin 3) : (K (F := F)).VecSplit (P R m) q :=
  SparseCore.Cfg.VecSplit.of_plain fun d c => by
    show (bigSep Finset.univ fun i => goF R m q d c i) ⊢ |={Set.univ}=> iprop((bigSep Finset.univ fun i => goF R m q d c i)
      ∗ ((bigSep Finset.univ fun i => tdF R m q d c i) -∗ bigSep Finset.univ fun i => tdF R m q d c i))
    iintro H; imodintro
    isplitl [H]; · iexact H
    iintro H; iexact H

/-! ## A task of each call is the call's tile body at the tile's coordinates -/

/-- A tile of a grid [2, 16] from its two coordinates, as the body table passes them. -/
def tileAt1 (c : Fin (grid1.bound 0)) (s : Fin (grid1.bound 1)) : grid1.Coords :=
  fun | 0 => c | 1 => s | ⟨_ + 2, h⟩ => absurd h (Nat.not_lt.2 (Nat.le_add_left _ _))
def tileAt2 (c : Fin (grid2.bound 0)) (s : Fin (grid2.bound 1)) : grid2.Coords :=
  fun | 0 => c | 1 => s | ⟨_ + 2, h⟩ => absurd h (Nat.not_lt.2 (Nat.le_add_left _ _))
def tileAt4 (c : Fin (grid4.bound 0)) (s : Fin (grid4.bound 1)) : grid4.Coords :=
  fun | 0 => c | 1 => s | ⟨_ + 2, h⟩ => absurd h (Nat.not_lt.2 (Nat.le_add_left _ _))

/-- The body table's row of each SparseCore call on a vector subcore: the call's tile body at the subcore's coordinates
    when the grid holds it. -/
theorem defs₀_vector1 (c : Fin τ.nSC) (s : Fin τ.nSub) :
    defs₀ (F := F) (.scVector c s) 1 ()
      = SparseCore.onTile hcore1 hsub1 (fun c s => cc1_body (tileAt1 c s)
          (Memref.whole main_v4_scv) (Memref.isWhole_whole _) (Memref.whole main_v0_scv) (Memref.isWhole_whole _)
          (Memref.whole main_v3_1_scv) (Memref.isWhole_whole _) (Memref.whole main_v5_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scoped0 cc1_scoped1 cc1_scoped2 cc1_scoped3 cc1_scoped4 cc1_scoped5 cc1_scoped6 cc1_scoped7 cc1_scoped8 cc1_scoped9
          cc1_scoped10 cc1_scoped11 cc1_scoped12) ⟨⟩ c s := rfl
theorem defs₀_vector2 (c : Fin τ.nSC) (s : Fin τ.nSub) :
    defs₀ (F := F) (.scVector c s) 2 ()
      = SparseCore.onTile hcore2 hsub2 (fun c s => cc2_body (tileAt2 c s)
          (Memref.whole main_v6_scv) (Memref.isWhole_whole _) (Memref.whole main_v0_scv) (Memref.isWhole_whole _)
          (Memref.whole main_v7_scv) (Memref.isWhole_whole _)
          (Memref.whole cc2_scratch0) (Memref.isWhole_whole _) (Memref.whole cc2_scratch1) (Memref.isWhole_whole _)
          (Memref.whole cc2_scratch2) (Memref.isWhole_whole _)
          cc2_scoped0 cc2_scoped1 cc2_scoped2 cc2_scoped3 cc2_scoped4 cc2_scoped5 cc2_scoped6 cc2_scoped7 cc2_scoped8) ⟨⟩ c s := rfl
theorem defs₀_vector4 (c : Fin τ.nSC) (s : Fin τ.nSub) :
    defs₀ (F := F) (.scVector c s) 4 ()
      = SparseCore.onTile hcore4 hsub4 (fun c s => cc4_body (tileAt4 c s)
          (Memref.whole main_v10_scv) (Memref.isWhole_whole _) (Memref.whole main_v0_scv) (Memref.isWhole_whole _)
          (Memref.whole main_v11_scv) (Memref.isWhole_whole _)
          (Memref.whole cc4_scratch0) (Memref.isWhole_whole _) (Memref.whole cc4_scratch1) (Memref.isWhole_whole _)
          (Memref.whole cc4_scratch2) (Memref.isWhole_whole _)
          cc4_scoped0 cc4_scoped1 cc4_scoped2 cc4_scoped3 cc4_scoped4 cc4_scoped5 cc4_scoped6 cc4_scoped7 cc4_scoped8) ⟨⟩ c s := rfl

/-- The coordinates the body table passes are the task's. -/
theorem tileAt1_eq (c : Fin ((K (F := F)).nCore 0)) (i : Fin ((K (F := F)).nSub 0)) (h0 h1) :
    tileAt1 ⟨((K (F := F)).core 0 c).val, h0⟩ ⟨((K (F := F)).sub 0 i).val, h1⟩ = coords1 (F := F) c i :=
  funext fun a => match a with
    | ⟨0, _⟩ => rfl
    | ⟨1, _⟩ => rfl
theorem tileAt2_eq (c : Fin ((K (F := F)).nCore 1)) (i : Fin ((K (F := F)).nSub 1)) (h0 h1) :
    tileAt2 ⟨((K (F := F)).core 1 c).val, h0⟩ ⟨((K (F := F)).sub 1 i).val, h1⟩ = coords2 (F := F) c i :=
  funext fun a => match a with
    | ⟨0, _⟩ => rfl
    | ⟨1, _⟩ => rfl
theorem tileAt4_eq (c : Fin ((K (F := F)).nCore 2)) (i : Fin ((K (F := F)).nSub 2)) (h0 h1) :
    tileAt4 ⟨((K (F := F)).core 2 c).val, h0⟩ ⟨((K (F := F)).sub 2 i).val, h1⟩ = coords4 (F := F) c i :=
  funext fun a => match a with
    | ⟨0, _⟩ => rfl
    | ⟨1, _⟩ => rfl

omit [FloatOps F] in
/-- A body that records only waits at no index records only waits the call may record. -/
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The second call's task, from its tile body. -/
theorem tileObl1 (hF : (K (F := F)).Facts) (hidx : ∀ d j, (W5 R (launchContents m d) (dr main_v0) j).toNat < 4096)
    (hbody : ∀ (d : Dev nD) (L : grid2.Coords) (fs : Buf (Elt F) (srcLoc d)) (fi : Buf (Elt F) (idxLoc d)) (hi : ∀ j, (fi j).toNat < 4096)
        (O : CellTallies nD τ sig (HIx 3)) (W : Waits sig (HIx 3)) (hO : ∀ g, O g none = 0),
      iprop(levAts (K (F := F)).L (K (F := F)).lev ∗ emp ∗ go2 d L fs fi ∗ scopedBufs (V d (cV L) (jV L)) ∗ scopedSems0 (V d (cV L) (jV L))
          ∗ owes (V d (cV L) (jV L)) O W)
        ⊢ wp frame (wpE (defs₀ (F := F)) 𝒱₀ (V d (cV L) (jV L)) none) Set.univ
            (cc2_body L (Memref.whole main_v6_scv) (Memref.isWhole_whole _) (Memref.whole main_v0_scv) (Memref.isWhole_whole _)
              (Memref.whole main_v7_scv) (Memref.isWhole_whole _) (Memref.whole cc2_scratch0) (Memref.isWhole_whole _)
              (Memref.whole cc2_scratch1) (Memref.isWhole_whole _) (Memref.whole cc2_scratch2) (Memref.isWhole_whole _)
              cc2_scoped0 cc2_scoped1 cc2_scoped2 cc2_scoped3 cc2_scoped4 cc2_scoped5 cc2_scoped6 cc2_scoped7 cc2_scoped8)
            fun _ => iprop(td2 d L fs fi ∗ scopedBufs (V d (cV L) (jV L)) ∗ scopedSems0 (V d (cV L) (jV L))
              ∗ ∃ W', ⌜∀ p ∈ W', p ∈ W ∨ p.2 = none⌝ ∗ owes (V d (cV L) (jV L)) O W')) :
    (K (F := F)).TileObl (D (F := F)) 𝒱 (P R m) v₀ 1 := by
  intro d c i O W hO _ _
  simp only [show (P R m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (hbody d (tileAt2 ⟨_, hc.1⟩ ⟨_, hc.2⟩) _ _ (hidx d) O W hO).trans (wp_mono frame _ _ fun _ => obl_post)

/-- The first call's task, from its tile body. -/
theorem tileObl0 (hF : (K (F := F)).Facts) (hidx : ∀ d j, (W3 R (launchContents m d) (dr main_v0) j).toNat < 4096)
    (hbody : ∀ (d : Dev nD) (L : grid1.Coords) (fs : Buf (Elt F) (T1.srcLoc d)) (fi : Buf (Elt F) (T1.idxLoc d))
        (fc : Buf (Elt F) (T1.cepLoc d)) (hi : ∀ j, (fi j).toNat < 4096)
        (O : CellTallies nD τ sig (HIx 3)) (W : Waits sig (HIx 3)) (hO : ∀ g, O g none = 0),
      iprop(levAts (K (F := F)).L (K (F := F)).lev ∗ emp ∗ T1.go1 d L fs fi fc ∗ scopedBufs (V d (T1.cV L) (T1.jV L))
          ∗ scopedSems0 (V d (T1.cV L) (T1.jV L)) ∗ owes (V d (T1.cV L) (T1.jV L)) O W)
        ⊢ wp frame (wpE (defs₀ (F := F)) 𝒱₀ (V d (T1.cV L) (T1.jV L)) none) Set.univ
            (cc1_body L (Memref.whole main_v4_scv) (Memref.isWhole_whole _) (Memref.whole main_v0_scv) (Memref.isWhole_whole _)
              (Memref.whole main_v3_1_scv) (Memref.isWhole_whole _) (Memref.whole main_v5_scv) (Memref.isWhole_whole _)
              (Memref.whole cc1_scratch0) (Memref.isWhole_whole _) (Memref.whole cc1_scratch1) (Memref.isWhole_whole _)
              (Memref.whole cc1_scratch2) (Memref.isWhole_whole _) (Memref.whole cc1_scratch3) (Memref.isWhole_whole _)
              cc1_scoped0 cc1_scoped1 cc1_scoped2 cc1_scoped3 cc1_scoped4 cc1_scoped5 cc1_scoped6 cc1_scoped7 cc1_scoped8 cc1_scoped9
              cc1_scoped10 cc1_scoped11 cc1_scoped12)
            fun _ => iprop(T1.td1 d L fs fi fc ∗ scopedBufs (V d (T1.cV L) (T1.jV L)) ∗ scopedSems0 (V d (T1.cV L) (T1.jV L))
              ∗ ∃ W', ⌜∀ p ∈ W', p ∈ W ∨ p.2 = none⌝ ∗ owes (V d (T1.cV L) (T1.jV L)) O W')) :
    (K (F := F)).TileObl (D (F := F)) 𝒱 (P R m) v₀ 0 := by
  intro d c i O W hO _ _
  simp only [show (P R m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact (hbody d (tileAt1 ⟨_, hc.1⟩ ⟨_, hc.2⟩) _ _ _ (hidx d) O W hO).trans (wp_mono frame _ _ fun _ => obl_post)

/-- The third call's task, from its tile body. -/
theorem tileObl2 (hF : (K (F := F)).Facts) (hidx : ∀ d j, (W9 R (launchContents m d) (dr main_v0) j).toNat < 4096)
    (hbody : ∀ (d : Dev nD) (L : grid4.Coords) (fs : Buf (Elt F) (T4.srcLoc d)) (fi : Buf (Elt F) (T4.idxLoc d))
        (hi : ∀ j, (fi j).toNat < 4096)
        (O : CellTallies nD τ sig (HIx 3)) (W : Waits sig (HIx 3)) (hO : ∀ g, O g none = 0),
      iprop(levAts (K (F := F)).L (K (F := F)).lev ∗ emp ∗ T4.go4 d L fs fi ∗ scopedBufs (V d (T4.cV L) (T4.jV L))
          ∗ scopedSems0 (V d (T4.cV L) (T4.jV L)) ∗ owes (V d (T4.cV L) (T4.jV L)) O W)
        ⊢ wp frame (wpE (defs₀ (F := F)) 𝒱₀ (V d (T4.cV L) (T4.jV L)) none) Set.univ
            (cc4_body L (Memref.whole main_v10_scv) (Memref.isWhole_whole _) (Memref.whole main_v0_scv) (Memref.isWhole_whole _)
              (Memref.whole main_v11_scv) (Memref.isWhole_whole _) (Memref.whole cc4_scratch0) (Memref.isWhole_whole _)
              (Memref.whole cc4_scratch1) (Memref.isWhole_whole _) (Memref.whole cc4_scratch2) (Memref.isWhole_whole _)
              cc4_scoped0 cc4_scoped1 cc4_scoped2 cc4_scoped3 cc4_scoped4 cc4_scoped5 cc4_scoped6 cc4_scoped7 cc4_scoped8)
            fun _ => iprop(T4.td4 d L fs fi ∗ scopedBufs (V d (T4.cV L) (T4.jV L)) ∗ scopedSems0 (V d (T4.cV L) (T4.jV L))
              ∗ ∃ W', ⌜∀ p ∈ W', p ∈ W ∨ p.2 = none⌝ ∗ owes (V d (T4.cV L) (T4.jV L)) O W')) :
    (K (F := F)).TileObl (D (F := F)) 𝒱 (P R m) v₀ 2 := by
  intro d c i O W hO _ _
  simp only [show (P R m).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector4]; simp only [SparseCore.onTile, hc, and_self, ↓reduceDIte]
  exact (hbody d (tileAt4 ⟨_, hc.1⟩ ⟨_, hc.2⟩) _ _ (hidx d) O W hO).trans (wp_mono frame _ _ fun _ => obl_post)

/-! ## No call runs on a sequencer; nothing is held from the launch -/

theorem hscalar : ∀ q, (K (F := F)).kind q = .scScalar → (K (F := F)).ScalarObl (D (F := F)) 𝒱 (P R m) v₀ q := fun q h => by
  have key : ∀ q : Fin 3, scKind q ≠ Kind.scScalar := by decide
  exact absurd h (key q)

theorem hheld : (P R m).held = ∅ := rfl

/-! ## The launch element -/

/-- The launch element: the handshakes' rounds, the pipelines' rounds, nothing of the transfers' counters. -/
def u₀ : UU := (initOf (K (F := F)).hsCells (K (F := F)).hsToks, (uP, 1))

omit [FloatOps F] in
/-- Nothing, over any index set, is nothing. -/
theorem bigSep_emp_M {I : Type} (s : Finset I) : (bigSep s fun _ => iprop(emp)) = (iprop(emp) : sProp 𝕄) := bigSep_emp_const s

/-- The launch element splits into the handshakes' rounds, which the launch theorem takes, and the pipelines' rounds, which
    fund what @main holds for its three regions; the calls' threads are dealt nothing. -/
theorem hu₀_own : (ownU (u₀ (F := F)) : sProp 𝕄)
    ⊢ |={Set.univ}=> iprop(BI.own (EH (initOf (K (F := F)).hsCells (K (F := F)).hsToks)) ∗ bigSep Finset.univ (mainGhost (F := F))
        ∗ bigSep Finset.univ fun thr : Thread nD τ => bigSep Finset.univ fun q : Fin 3 => (P R m).x q thr) := by
  unfold u₀
  iintro Hu
  ihave H := (ownU_pair _ _) $$ Hu
  icases H with ⟨HH, HR⟩
  ihave H2 := (own_pair_emb embR uP 1) $$ HR
  icases H2 with ⟨HP, -⟩
  imod (fund_main (F := F)) $$ HP with HG
  imodintro
  isplitl [HH]; · iexact HH
  isplitl [HG]; · iexact HG
  show _ ⊢ (bigSep Finset.univ fun _ : Thread nD τ => bigSep Finset.univ fun _ : Fin 3 => (iprop(emp) : sProp 𝕄))
  rw [show (bigSep Finset.univ fun _ : Thread nD τ => bigSep Finset.univ fun _ : Fin 3 => (iprop(emp) : sProp 𝕄)) = iprop(emp) from by
    rw [bigSep_congr fun _ _ => bigSep_emp_M _, bigSep_emp_M]]

/-- The same from what the launch hands over: the credit of the kernels' own protocols (none here) and the free
    semaphores are not used. -/
theorem hu₀ : iprop((ownU (u₀ (F := F)) : sProp 𝕄) ∗ (P R m).oxCred ∗ (K (F := F)).freeSems0)
    ⊢ |={Set.univ}=> iprop(BI.own (EH (initOf (K (F := F)).hsCells (K (F := F)).hsToks)) ∗ bigSep Finset.univ (mainGhost (F := F))
        ∗ bigSep Finset.univ fun thr : Thread nD τ => bigSep Finset.univ fun q : Fin 3 => (P R m).x q thr) :=
  sep_elim_left.trans (hu₀_own R m)

end Obligations

end Cert.Proof.KI

end
-- ==== Proof.KIRegion.lean ====
/-
  Entering a TensorCore kernel region from @main of a program that also runs SparseCore calls.

  @main runs on the TensorCore under the body table extended by the SparseCore calls.  A region's line is a call of the
  lifted entry label of its pipeline; a proof about the region under the pipelines' own table lifts to the extended
  table, so the region is run by the pipeline library's region step.  What is special here: during a region the
  TensorCore still owes the start signals of the SparseCore calls that come later, and its recorded waits must stay
  below the level of the next call, so the region's proof data carry those tallies and that bound through every point;
  the pipeline's waits sit at the index of no call, level zero, below everything owed.
-/
import proofs.«209975_g17849884082380_cont_8to1_1483_11_alg».proof.Proof.KISetup
import proofs.«209975_g17849884082380_cont_8to1_1483_11_alg».proof.Proof.KIGhost
import proofs.«209975_g17849884082380_cont_8to1_1483_11_alg».proof.Proof.Gen.KernelIdeal.Launch
import Idealize.ShloMosaic.Lib.Pipeline.Regions
import Idealize.ShloMosaic.Lib.Pipeline.Frame

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-! ## A region -/

section Region

/-- What the TensorCore owes before SparseCore call n, its recorded waits bounded: the first part of its handshake state. -/
def tcOwes (d : Dev nD) (n : ℕ) : sProp 𝕄 :=
  iprop(∃ W, ⌜(K (F := F)).WBelow (T d) W (8 * n)⌝ ∗ owes (T d) ((K (F := F)).Otc d n) W)

/-- The pairs the TensorCore's waits may have recorded before call n. -/
def tcRec (d : Dev nD) (n : ℕ) : Set (SemLoc sig × HIx 3) := {pr | (K (F := F)).lev (T d, pr.1) pr.2 ≤ 8 * n}

/-- The TensorCore owes nothing at the index of no call: every unit it owes is a call's start signal. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

variable (pdats : (p : Fin 3) → (d : Dev nD) → Pipeline.Dat τ (Elt F) (HIx 3) ℕ UU ℕ (Pipeline.pin (pcfgs (F := F)) adm p) d)
variable (lv : GSem nD τ sig → HIx 3 → ℕ) (hlv : (K (F := F)).Refines lv)
variable (p : Fin 3) (n : ℕ) (kit : Pipeline.LaunchFacts (nD := nD) (τ := τ) cfgs p)
variable (hbody : ∀ d : Dev nD, Pipeline.BodyObligation (pdats p d) defs₀ 𝒱₀ (none : HIx 3) Set.univ)
variable (hshare : ∀ (d : Dev nD) w, (pdats p d).share w = fullShare)
variable (howed : ∀ (d : Dev nD) t, (pdats p d).owed t = (K (F := F)).Otc d n)
variable (hrec : ∀ (d : Dev nD) t, (pdats p d).recorded t = tcRec (F := F) d n)
variable (V V' : (d : Dev nD) → (b : Ref sig .tc) → Buf (Elt F) ((d.tc : Thread nD τ).loc b))
variable (hA : ∀ (d : Dev nD) w, (pdats p d).A w = V d (Pipeline.arrRef (cfgs p).spec w))
variable (hV' : ∀ (d : Dev nD) w, V' d (Pipeline.arrRef (cfgs p).spec w) = (pdats p d).arrAt w (cfgs p).N)
variable (hVr : ∀ (d : Dev nD) b, (∀ w, Pipeline.arrRef (cfgs p).spec w ≠ b) → V' d b = V d b)

include hlv howed in
/-- The pipeline's waits, at the index of no call, sit below every start signal the TensorCore owes. -/
theorem region_waits (d : Dev nD) :
    (levAts (K (F := F)).L lv : sProp 𝕄) ⊢ Pipeline.cellsWaits (Pipeline.pin (pcfgs (F := F)) adm) pdats (none : HIx 3) p d := by
  refine Pipeline.cellsWaits_intro (Pipeline.pin (pcfgs (F := F)) adm) pdats (none : HIx 3) p d fun w s t => ?_
  rw [howed d t]
  exact (K (F := F)).mayWait_none _ (fun g => Otc_none d n g) lv hlv

include kit hshare howed hrec hA in
/-- Entry: the windows' arrays out of @main's arrays, what is owed as the proof data spell it. -/
theorem region_entry (d : Dev nD) :
    iprop((tcOwes (F := F) d n ∗ unscopedBufs d (V d)) ∗ Pipeline.ownSems0 (fun k : PEmpty => k.elim) d ∗ levAts (K (F := F)).L lv)
      ⊢ |={Set.univ}=> iprop((pdats p d).arrays ((pdats p d).arrAt · 0) ∗ Pipeline.prefHeld (pcfgs (F := F) p).pre d (fun _ => fullShare) (adm (F := F) p).1
        ∗ (pdats p d).owesAt none 0 ∗ (emp : sProp 𝕄) ∗ Pipeline.unscopedRest (cfgs p).spec d (V d)) := by
  unfold tcOwes
  iintro ⟨⟨⟨%W, %hW, HO⟩, Hu⟩, -, -⟩
  imodintro
  ihave Ha := (Pipeline.arrays_of_unscopedBufs (pcfgs (F := F)) adm pdats (p := p) kit.win kit.arr_whole d (hshare d) (V d) (hA d)) $$ Hu
  icases Ha with ⟨Ha, Hr⟩
  isplitl [Ha]; · iexact Ha
  isplitr
  · unfold Pipeline.prefHeld; rw [Finset.univ_eq_empty, bigSep_empty]; iempintro
  isplitl [HO]
  · iexists W; isplitr
    · ipureintro; intro pr hpr; left; rw [hrec d 0]; exact hW pr (Finset.mem_coe.mp hpr)
    · rw [howed d 0]; iexact HO
  isplitr; · iempintro
  iexact Hr

include kit hshare howed hrec hV' hVr in
/-- Exit: @main's arrays again, the windows' at what the pipeline leaves; what is owed as the handshake state spells it. -/
theorem region_exit (d : Dev nD) :
    iprop((pdats p d).arrays ((pdats p d).arrAt · (cfgs p).N) ∗ (pdats p d).owesAt none (Fin.last (cfgs p).N) ∗ (emp : sProp 𝕄) ∗ Pipeline.unscopedRest (cfgs p).spec d (V d))
      ⊢ |={Set.univ}=> iprop(tcOwes (F := F) d n ∗ unscopedBufs d (V' d)) := by
  have hbufs : iprop((pdats p d).arrays ((pdats p d).arrAt · (cfgs p).N) ∗ Pipeline.unscopedRest (cfgs p).spec d (V d))
      ⊢ (unscopedBufs d (V' d) : sProp 𝕄) := by
    rw [Pipeline.unscopedBufs_split (Pipeline.pin (pcfgs (F := F)) adm) p kit.win.arr_unscoped kit.win.arr_inj d (V' d),
      Pipeline.arrays_eq (Pipeline.pin (pcfgs (F := F)) adm) pdats p d kit.arr_whole (hshare d)]
    refine sep_mono (Entails.of_eq (bigSep_congr fun w _ => by rw [hV' d w])) (Entails.of_eq ?_)
    unfold Pipeline.unscopedRest
    exact bigSep_congr fun b hb => by
      rw [hVr d b fun w h => (Finset.mem_sdiff.mp hb).2 (Finset.mem_image.mpr ⟨w, Finset.mem_univ _, h⟩)]
  iintro ⟨Ha, ⟨%W, %hW, HO⟩, -, Hr⟩
  imodintro
  isplitl [HO]
  · unfold tcOwes; iexists W; isplitr
    · ipureintro; intro pr hpr
      rcases hW (Finset.mem_coe.mpr hpr) with h | ⟨w, s, rfl⟩
      · rw [hrec d _] at h; exact h
      · show (K (F := F)).lev _ none ≤ _
        rw [SparseCore.Cfg.lev_none]; exact Nat.zero_le _
    · rw [← howed d (Fin.last _)]; iexact HO
  · iapply hbufs; isplitl [Ha] <;> iassumption

/-- The region's record for the pipeline library: entered from what the TensorCore owes and @main's arrays at V, left
    with the same owed and the arrays at V'; nothing of its own enters the kernel's invariant but the scoped buffers no
    window stages; the arrays no window names bypass it. -/
def regionSeg (hΦ0 : ∀ d : Dev nD, (Pipeline.scopedRest (cfgs p).spec d : sProp 𝕄) ⊢ (pdats p d).Φ 0)
    (hΦN : ∀ d : Dev nD, (pdats p d).Φ (Fin.last (cfgs p).N) ⊢ (Pipeline.scopedRest (cfgs p).spec d : sProp 𝕄)) :
    Pipeline.RegionSeg (pcfgs (F := F)) adm pdats (none : HIx 3) defs₀ 𝒱₀ (K (F := F)).L lv p where
  win := kit.win.to₀
  block_pos := kit.block_pos
  stage_whole := kit.stage_whole
  K := PEmpty
  osem := fun k => k.elim
  ho := Pipeline.OwnSemFacts.none _
  hbody := fun d => (hbody d).loose
  hwaits := fun d => region_waits pdats lv hlv p n howed d
  pre := fun d => iprop(tcOwes (F := F) d n ∗ unscopedBufs d (V d))
  post := fun d => iprop(tcOwes (F := F) d n ∗ unscopedBufs d (V' d))
  X := fun _ => iprop(emp)
  Y := fun _ => iprop(emp)
  Z := fun d => Pipeline.unscopedRest (cfgs p).spec d (V d)
  hentry := fun d => region_entry pdats lv p n kit hshare howed hrec V hA d
  hin := fun d => by
    iintro ⟨-, -, HR⟩; iapply (hΦ0 d); iexact HR
  hout := fun d => by
    show (pdats p d).Φ (Fin.last (cfgs p).N) ⊢ iprop(emp ∗ Pipeline.ownSems0 (fun k : PEmpty => k.elim) d ∗ Pipeline.scopedRest (cfgs p).spec d)
    rw [Pipeline.ownSems0_none]
    iintro H
    ihave HR := (hΦN d) $$ H
    isplitr; · iempintro
    isplitr; · iempintro
    iexact HR
  hexit := fun d => region_exit pdats p n kit hshare howed hrec V V' hV' hVr d

include hlv kit hbody hshare howed hrec hA hV' hVr in
/-- **A region of @main.** From the level facts, the TensorCore's handshake state before call n, the region boundary,
    @main's arrays at V and the pipeline's ghost state, the region's line runs to the same handshake state, the
    boundary, and @main's arrays at V': the windows' arrays at what the pipeline library computes, the others as they were. -/
theorem wp_region (hΦ0 : ∀ d : Dev nD, (Pipeline.scopedRest (cfgs p).spec d : sProp 𝕄) ⊢ (pdats p d).Φ 0)
    (hΦN : ∀ d : Dev nD, (pdats p d).Φ (Fin.last (cfgs p).N) ⊢ (Pipeline.scopedRest (cfgs p).spec d : sProp 𝕄))
    (d : Dev nD) {Φ : PUnit → sProp 𝕄} :
    iprop(levAts (K (F := F)).L lv ∗ (K (F := F)).tcSt EH d n ∗ boundary (T d) ∗ unscopedBufs d (V d) ∗ pipeGhost (F := F) p d
        ∗ (iprop((K (F := F)).tcSt EH d n ∗ boundary (T d) ∗ unscopedBufs d (V' d)) -∗ Φ ⟨⟩))
      ⊢ wp frame (wpE ((K (F := F)).defs (D (F := F))) 𝒱 (T d) none) Set.univ
          (Prog.lift (.customCall (SparseCore.inner (Pipeline.entry p)) ())) Φ := by
  have hR := Pipeline.RegionSeg.wp (pcfgs (F := F)) adm pdats (none : HIx 3) cellOf_inj (EP (F := F)) defs₀ 𝒱₀ (K (F := F)).L lv
    (regionSeg pdats lv hlv p n kit hbody hshare howed hrec V V' hA hV' hVr hΦ0 hΦN) d none (fun u hu => nomatch hu) (fun _ => .ret ⟨⟩) Φ
  dsimp only [regionSeg] at hR
  unfold tcOwes at hR
  have hl : wp frame (wpE (D (F := F)) 𝒱 (T d) none) Set.univ
        (Prog.lift (TpuEff.customCall (Λ := ΛP (F := F)) (p := (Proc.tc : Proc τ)) (Pipeline.entry p) ())) Φ
      ⊢ wp frame (wpE ((K (F := F)).defs (D (F := F))) 𝒱 (T d) none) Set.univ
        (Prog.lift (.customCall (SparseCore.inner (Pipeline.entry p)) ())) Φ :=
    (K (F := F)).wp_liftProg (D (F := F)) 𝒱 (T d) Set.univ none _ Φ
  refine Idealize.SL.BI.BIBase.Entails.trans ?_ hl
  refine Idealize.SL.BI.BIBase.Entails.trans ?_ hR
  unfold SparseCore.Cfg.tcSt
  iintro ⟨#Hlev, ⟨HO, Hrest⟩, Hb, Hu, ⟨Hg, Ht⟩, Hk⟩
  isplitl [Hrest Hk]
  · iintro ⟨Hb, HO, Hu⟩
    rw [wp_ret]; imodintro
    iapply Hk
    isplitl [HO Hrest]; · isplitl [HO] <;> iassumption
    isplitl [Hb] <;> iassumption
  isplitl [Hb]; · iexact Hb
  isplitl [HO Hu]; · isplitl [HO] <;> iassumption
  isplitr; · iexact Hlev
  isplitl [Hg] <;> iassumption

end Region

/-! ## The region as a step of @main over the valuation of the TensorCore's arrays -/

section Step

variable (P : (K (F := F)).Pay (nD := nD) (Val := Elt F) (Name := ℕ) (U := UU))
variable (pdats : (p : Fin 3) → (d : Dev nD) → Pipeline.Dat τ (Elt F) (HIx 3) ℕ UU ℕ (Pipeline.pin (pcfgs (F := F)) adm p) d)
variable (p : Fin 3) (n : ℕ) (kit : Pipeline.LaunchFacts (nD := nD) (τ := τ) cfgs p)
variable (hbody : ∀ d : Dev nD, Pipeline.BodyObligation (pdats p d) defs₀ 𝒱₀ (none : HIx 3) Set.univ)
variable (hshare : ∀ (d : Dev nD) w, (pdats p d).share w = fullShare)
variable (howed : ∀ (d : Dev nD) t, (pdats p d).owed t = (K (F := F)).Otc d n)
variable (hrec : ∀ (d : Dev nD) t, (pdats p d).recorded t = tcRec (F := F) d n)
variable (W W' : Dev nD → Valuation τ sig (Elt F))
variable (hA : ∀ (d : Dev nD) w, (pdats p d).A w = W d (Proc.devRef .tc (Pipeline.arrRef (cfgs p).spec w)))
variable (hW' : ∀ (d : Dev nD) w, W' d (Proc.devRef .tc (Pipeline.arrRef (cfgs p).spec w)) = (pdats p d).arrAt w (cfgs p).N)
variable (hWr : ∀ (d : Dev nD) (b : Ref sig .tc), (∀ w, Pipeline.arrRef (cfgs p).spec w ≠ b) → W' d (Proc.devRef .tc b) = W d (Proc.devRef .tc b))

include kit hbody hshare howed hrec hA hW' hWr in
/-- **A region as a step of @main.** After n SparseCore calls, from the records, the TensorCore's handshake state, the
    region boundary, the TensorCore's unscoped arrays held at the valuation W d, and pipeline p's ghost state beside
    anything else G', the region's line runs to the same with the arrays at W' d — the windows' arrays at what the
    pipeline library computes from the proof data, every other array as it was — and the pipeline's ghost state spent. -/
theorem region_step (hΦ0 : ∀ d : Dev nD, (Pipeline.scopedRest (cfgs p).spec d : sProp 𝕄) ⊢ (pdats p d).Φ 0)
    (hΦN : ∀ d : Dev nD, (pdats p d).Φ (Fin.last (cfgs p).N) ⊢ (Pipeline.scopedRest (cfgs p).spec d : sProp 𝕄))
    (d : Dev nD) (G' : sProp 𝕄) (κ : GSem nD τ sig → ℕ) (Φ : PUnit → sProp 𝕄) :
    iprop((K (F := F)).ctx EH P κ ∗ (K (F := F)).tcSt EH d n ∗ boundary (T d) ∗ (StableHlo.held (T d) (Pipeline.ucRefs τ sig) (W d) : sProp 𝕄)
        ∗ iprop(pipeGhost (F := F) p d ∗ G')
        ∗ (((K (F := F)).tcSt EH d n ∗ boundary (T d) ∗ (StableHlo.held (T d) (Pipeline.ucRefs τ sig) (W' d) : sProp 𝕄) ∗ G') -∗ Φ ⟨⟩))
      ⊢ wp frame (wpE ((K (F := F)).defs (D (F := F))) 𝒱 (T d) none) Set.univ
          (Prog.lift (.customCall (SparseCore.inner (Pipeline.entry p)) ())) Φ := by
  have hreg := wp_region pdats (K (F := F)).lev (by sl_refines_lev) p n kit hbody hshare howed hrec
    (fun d b => W d (Proc.devRef .tc b)) (fun d b => W' d (Proc.devRef .tc b)) hA hW' hWr hΦ0 hΦN d (Φ := Φ)
  rw [show (unscopedBufs d (fun b => W d (Proc.devRef .tc b)) : sProp 𝕄) = StableHlo.held (T d) (Pipeline.ucRefs τ sig) (W d)
      from Pipeline.unscopedBufs_held d (W d),
    show (unscopedBufs d (fun b => W' d (Proc.devRef .tc b)) : sProp 𝕄) = StableHlo.held (T d) (Pipeline.ucRefs τ sig) (W' d)
      from Pipeline.unscopedBufs_held d (W' d)] at hreg
  refine Idealize.SL.BI.BIBase.Entails.trans ?_ hreg
  iintro ⟨#Hctx, Hst, Hb, Hh, ⟨Hg, HG⟩, Hk⟩
  ihave Hlev := (SparseCore.Cfg.ctx_levAts κ) $$ Hctx
  isplitr; · iexact Hlev
  isplitl [Hst]; · iexact Hst
  isplitl [Hb]; · iexact Hb
  isplitl [Hh]; · iexact Hh
  isplitl [Hg]; · iexact Hg
  iintro ⟨Hst, Hb, Hh⟩
  iapply Hk
  isplitl [Hst]; · iexact Hst
  isplitl [Hb]; · iexact Hb
  isplitl [Hh]; · iexact Hh
  iexact HG

end Step

end Cert.Proof.KI

end
-- ==== Proof.KITca.lean ====
/-
  The first TensorCore call (the edge convolution's two halves applied to the points themselves): its proof data and its
  body obligation.

  The call runs over the 8 clouds. At cloud `b` the body reads the cloud's points `xb : [1, 3, 4096]`, the weights
  `w : [64, 6]` (its columns 0–2 as `wa`, its columns 3–5 as `wb`) and the bias `be : [64, 1]`, and stores
    y0 = wa[:, 0] · xb[0, :] + wa[:, 1] · xb[1, :] + wa[:, 2] · xb[2, :]                      into the first output's block,
    c0 = (wb - wa)[:, 0] · xb[0, :] + (wb - wa)[:, 1] · xb[1, :] + (wb - wa)[:, 2] · xb[2, :] + be   into the second's.
  Each store fills its whole block, so what the body leaves in an output's staging buffer is a function of the three input
  blocks alone (`tcaOutY`, `tcaOutC`: the stored payloads), and the inputs' buffers are left as found. The proof data
  (`tcaDat`) names exactly that; the body's triple (`tcaSoundKernel`) is proved once at a symbolic grid point over whole
  staging buffers, and the body obligation (`tcaBodyObligation`) is that triple at the buffers the pipeline is on at the
  point. The tallies the core owes and the bound on its recorded pairs are parameters, the same at every point: the body
  makes no wait and signals nothing, so they pass through it unread.
-/
import proofs.«209975_g17849884082380_cont_8to1_1483_11_alg».proof.Proof.KISetup
import proofs.«209975_g17849884082380_cont_8to1_1483_11_alg».proof.Proof.Gen.KernelIdeal.Launch
import proofs.«209975_g17849884082380_cont_8to1_1483_11_alg».proof.Proof.Gen.KernelIdeal.Points
import Idealize.ShloMosaic.Lib.Pipeline.FrameBody
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## The rectangles the body reads and writes through -/

/-- The whole point block `[1, 3, 4096]`. -/
abbrev tcaRX : Rect S1x3x4096 := Rect.unit (s := S1x3x4096) ![0, 0, 0] S1x3x4096.size inb_S1x3x4096_S1x3x4096_0_0_0
/-- Columns 0–2 of the weights `[64, 6]`. -/
abbrev tcaRWa : Rect S64x6 := Rect.unit (s := S64x6) ![0, 0] S64x3.size inb_S64x6_S64x3_0_0
/-- Columns 3–5 of the weights. -/
abbrev tcaRWb : Rect S64x6 := Rect.unit (s := S64x6) ![0, 3] S64x3.size inb_S64x6_S64x3_0_3
/-- The whole bias `[64, 1]`. -/
abbrev tcaRB : Rect S64x1 := Rect.unit (s := S64x1) ![0, 0] S64x1.size inb_S64x1_S64x1_0_0
/-- The whole output block `[1, 64, 4096]`. -/
abbrev tcaRO : Rect S1x64x4096 := Rect.unit (s := S1x64x4096) ![0, 0, 0] S1x64x4096.size inb_S1x64x4096_S1x64x4096_0_0_0

/-! ## What the body leaves in each output window's buffer -/

/-- The first output's staging buffer after the body, from the point block and the weights: its one store. -/
def tcaOutY (x0 : Vec F S1x3x4096 .f32) (x1 : Vec F S64x6 .f32) : Vec F S1x64x4096 .f32 :=
  View.canon [⟨tcaRO, k0_pay4 (View.ld x0 tcaRX) (View.ld x1 tcaRWa)⟩]

/-- The second output's staging buffer after the body, from the point block, the weights and the bias: its one store. -/
def tcaOutC (x0 : Vec F S1x3x4096 .f32) (x1 : Vec F S64x6 .f32) (x2 : Vec F S64x1 .f32) : Vec F S1x64x4096 .f32 :=
  View.canon [⟨tcaRO, k0_pay1 (k0_pay3 (View.ld x0 tcaRX) (View.ld x1 tcaRWa) (View.ld x1 tcaRWb) (View.ld x2 tcaRB))⟩]

/-- A store through the whole output block covers it. -/
theorem tcaCoverO (p0 : Vec F S1x64x4096 .f32) (y : S1x64x4096.Idx) :
    ∃ pc ∈ ([⟨tcaRO, p0⟩] : List (View.Piece (Elt F) S1x64x4096 .f32)), y ∈ pc.1.set :=
  View.cover_of_tiled [⟨tcaRO, p0⟩] S1x64x4096.size (by rfl) y

/-! ## The body's triple -/

set_option maxHeartbeats 4000000 in
/-- The body on whole staging buffers, the inputs' at contents `x0`, `x1`, `x2` and the outputs' at anything, runs to the
    continuation holding the inputs' as they were and each output's at what its one store leaves (`tcaOutY`, `tcaOutC`). -/
theorem tcaSoundKernel (c : Dev nD) (E : Set ℕ) (i : grid0.Coords)
    (arg1 : Memref sig .tc .vmem S1x3x4096 .f32) (harg1 : arg1.IsWhole) (arg2 : Memref sig .tc .vmem S64x6 .f32) (harg2 : arg2.IsWhole)
    (arg3 : Memref sig .tc .vmem S64x1 .f32) (harg3 : arg3.IsWhole) (arg4 : Memref sig .tc .vmem S1x64x4096 .f32) (harg4 : arg4.IsWhole)
    (arg5 : Memref sig .tc .vmem S1x64x4096 .f32) (harg5 : arg5.IsWhole)
    (x0 : Vec F S1x3x4096 .f32) (x1 : Vec F S64x6 .f32) (x2 : Vec F S64x1 .f32) (Kc : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tcaOutY x0 x1) ∗ owns (c : Thread nD τ) arg5 fullShare (tcaOutC x0 x1 x2)) -∗ Kc ⟨⟩))
      ⊢ wp frame (wpE (defs₀ (F := F)) Variants.none c none) E (cc0__tca_body i arg1 harg1 arg2 harg2 arg3 harg3 arg4 harg4 arg5 harg5) Kc := by
  simp only [cc0__tca_body_eq_skeleton]; unfold cc0__tca_body_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (tcaCoverO _)
  iexists _; isplitr
  swap; · iexact H4
  ipureintro
  exact View.read_writes_eq_canon _ _ _ (tcaCoverO _)

/-! ## The windows' blocks -/

/-- Window `w`'s block at point `t`, read off its array as the region finds it (`V`). -/
def tcaBlk (c : Dev nD) (V : (b : Ref sig .tc) → Buf (Elt F) ((c : Thread nD τ).loc b)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-! ## The pipeline's proof data -/

/-- The proof data of the first TensorCore call on core `c`: the arrays as the region finds them (`V`); after the body at
    point `t` each input's buffer at its block and each output's at what the body stores there, as a function of the
    input blocks; the invariant the scoped buffers no window stages, untouched; the core's tallies `O` and the bound `B`
    on its recorded pairs, the same at every point (the body makes no wait and signals nothing); full shares. -/
def tcaDat (c : Dev nD) (V : (b : Ref sig .tc) → Buf (Elt F) ((c : Thread nD τ).loc b))
    (O : CellTallies nD τ sig (HIx 3)) (B : Set (SemLoc sig × HIx 3)) : Dat τ (Elt F) (HIx 3) ℕ UU ℕ cfg0 c where
  A w := V (Pipeline.arrRef spec0 w)
  after w t := match w with
    | ⟨0, _⟩ => tcaBlk c V 0 t
    | ⟨1, _⟩ => tcaBlk c V 1 t
    | ⟨2, _⟩ => tcaBlk c V 2 t
    | ⟨3, _⟩ => tcaOutY (tcaBlk c V 0 t) (tcaBlk c V 1 t)
    | ⟨4, _⟩ => tcaOutC (tcaBlk c V 0 t) (tcaBlk c V 1 t) (tcaBlk c V 2 t)
  Φ _ := Pipeline.scopedRest spec0 c
  q _ := fullShare
  owed _ := O
  recorded _ := B

section Data

variable (c : Dev nD) (V : (b : Ref sig .tc) → Buf (Elt F) ((c : Thread nD τ).loc b))
  (O : CellTallies nD τ sig (HIx 3)) (B : Set (SemLoc sig × HIx 3))

/-- The proof data's arrays are the region-entry contents. -/
theorem tcaDat_A (w : Fin cfg0.W) : (tcaDat c V O B).A w = V (Pipeline.arrRef spec0 w) := by
  dsimp only [tcaDat]

/-- What the body leaves, window by window. -/
theorem tcaDat_after0 (t : Fin cfg0.N) : (tcaDat c V O B).after 0 t = tcaBlk c V 0 t := by dsimp only [tcaDat]
theorem tcaDat_after1 (t : Fin cfg0.N) : (tcaDat c V O B).after 1 t = tcaBlk c V 1 t := by dsimp only [tcaDat]
theorem tcaDat_after2 (t : Fin cfg0.N) : (tcaDat c V O B).after 2 t = tcaBlk c V 2 t := by dsimp only [tcaDat]
theorem tcaDat_after3 (t : Fin cfg0.N) : (tcaDat c V O B).after 3 t = tcaOutY (tcaBlk c V 0 t) (tcaBlk c V 1 t) := by dsimp only [tcaDat]
theorem tcaDat_after4 (t : Fin cfg0.N) :
    (tcaDat c V O B).after 4 t = tcaOutC (tcaBlk c V 0 t) (tcaBlk c V 1 t) (tcaBlk c V 2 t) := by dsimp only [tcaDat]

/-- Each input's current staging buffer holds its block at every point, fetched there or not: unfetched, the block
    index has not moved. -/
theorem tcaDat_before0 (t : Fin cfg0.N) (d) : (tcaDat c V O B).before 0 t d = tcaBlk c V 0 t :=
  ((tcaDat c V O B).before_in_eq_fetched 0 rfl (fun _ => rfl) (fun _ _ _ => rfl)
      (fun t => by rw [tcaDat_after0]; unfold Dat.blockOf tcaBlk; rw [tcaDat_A]; try rfl) t d).trans
    (by unfold Dat.fetched Dat.blockOf tcaBlk; rw [tcaDat_A]; try rfl)
theorem tcaDat_before1 (t : Fin cfg0.N) (d) : (tcaDat c V O B).before 1 t d = tcaBlk c V 1 t :=
  ((tcaDat c V O B).before_in_eq_fetched 1 rfl (fun _ => rfl) (fun _ _ _ => rfl)
      (fun t => by rw [tcaDat_after1]; unfold Dat.blockOf tcaBlk; rw [tcaDat_A]; try rfl) t d).trans
    (by unfold Dat.fetched Dat.blockOf tcaBlk; rw [tcaDat_A]; try rfl)
theorem tcaDat_before2 (t : Fin cfg0.N) (d) : (tcaDat c V O B).before 2 t d = tcaBlk c V 2 t :=
  ((tcaDat c V O B).before_in_eq_fetched 2 rfl (fun _ => rfl) (fun _ _ _ => rfl)
      (fun t => by rw [tcaDat_after2]; unfold Dat.blockOf tcaBlk; rw [tcaDat_A]; try rfl) t d).trans
    (by unfold Dat.fetched Dat.blockOf tcaBlk; rw [tcaDat_A]; try rfl)

/-! ## The body obligation, at a generic point -/

/-- What the body is called with at point `t`, the windows one by one, -/
def tcaBodyPre (t : Fin cfg0.N) : sProp 𝕄 :=
  iprop((tcaDat c V O B).Φ t.castSucc ∗ (tcaDat c V O B).owesAt none t.castSucc
    ∗ (∃ d, owns (c : Thread nD τ) (st0_0 t) fullShare ((tcaDat c V O B).before 0 t d))
    ∗ (∃ d, owns (c : Thread nD τ) (st0_1 t) fullShare ((tcaDat c V O B).before 1 t d))
    ∗ (∃ d, owns (c : Thread nD τ) (st0_2 t) fullShare ((tcaDat c V O B).before 2 t d))
    ∗ (∃ d, owns (c : Thread nD τ) (st0_3 t) fullShare ((tcaDat c V O B).before 3 t d))
    ∗ (∃ d, owns (c : Thread nD τ) (st0_4 t) fullShare ((tcaDat c V O B).before 4 t d)))

/-- and what it returns. -/
def tcaBodyPost (t : Fin cfg0.N) : sProp 𝕄 :=
  iprop((tcaDat c V O B).Φ t.succ ∗ (tcaDat c V O B).owesAt none t.succ
    ∗ owns (c : Thread nD τ) (st0_0 t) fullShare ((tcaDat c V O B).after 0 t)
    ∗ owns (c : Thread nD τ) (st0_1 t) fullShare ((tcaDat c V O B).after 1 t)
    ∗ owns (c : Thread nD τ) (st0_2 t) fullShare ((tcaDat c V O B).after 2 t)
    ∗ owns (c : Thread nD τ) (st0_3 t) fullShare ((tcaDat c V O B).after 3 t)
    ∗ owns (c : Thread nD τ) (st0_4 t) fullShare ((tcaDat c V O B).after 4 t))

/-- The body at any point: the inputs' memrefs hold their blocks, so the body's triple applies; the invariant and the
    core's `owes` pass through unread. -/
theorem tcaSoundBody (t : Fin cfg0.N) :
    tcaBodyPre c V O B t ⊢ wp frame (wpE (defs₀ (F := F)) Variants.none c none) Set.univ (bodyAt0 t) (fun _ => tcaBodyPost c V O B t) := by
  unfold tcaBodyPre tcaBodyPost bodyAt0
  simp only [tcaDat_before0, tcaDat_before1, tcaDat_before2]
  rw [show (tcaDat c V O B).Φ t.succ = (tcaDat c V O B).Φ t.castSucc from rfl,
    show (tcaDat c V O B).owesAt none t.succ = (tcaDat c V O B).owesAt none t.castSucc from rfl,
    tcaDat_after0, tcaDat_after1, tcaDat_after2, tcaDat_after3, tcaDat_after4]
  iintro ⟨HΦ, Ho, ⟨%d0, H0⟩, ⟨%d1, H1⟩, ⟨%d2, H2⟩, ⟨%d3, H3⟩, ⟨%d4, H4⟩⟩
  iapply (tcaSoundKernel c Set.univ (grid0.coords t) _ _ _ _ _ _ _ _ _ _ (tcaBlk c V 0 t) (tcaBlk c V 1 t) (tcaBlk c V 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem tcaBodyObligation : BodyObligation (tcaDat (F := F) c V O B) (defs₀ (F := F)) Variants.none (none : HIx 3) Set.univ := fun t => by
  rw [bigSep_W0, bigSep_W0]
  exact tcaSoundBody c V O B t

end Data

end Cert.Proof.KI

end
-- ==== Proof.Spec.lean ====
/-
  The two sides of the claim as plain functions on the extended reals.

  Inputs: points `x b n c` (8 clouds of 4096 points in 3 coordinates), neighbour lists `idx b n k` (20 neighbours of
  each point, each a point of the same cloud), an edge convolution `We`, `be` on 6 = 3 + 3 input channels, two point
  convolutions `W1`, `b1` and `W2`, `b2`, a final convolution `Wf`, `bf` on the 64 + 64 + 128 concatenated channels, and
  the slope `s` of the leaky rectifier.

  The kernel's side (`k…`) first applies the edge convolution's two halves to the points themselves
  (`ky0` : the neighbour half, `kc0` : the centre half with the bias), gathers and maximises `ky0` over the
  neighbours, adds `kc0` and rectifies; the reference's side (`r…`) builds the edge features
  `(x_neighbour - x_centre, x_centre)`, convolves, rectifies and maximises over the neighbours. Both then pool
  over neighbours (`gmax`), convolve and rectify twice, and close with the final convolution and a maximum over
  the points, the kernel adding the final bias after that maximum and the reference before it.
-/
import Mathlib.Data.EReal.Basic
import Mathlib.Data.EReal.Operations
import Mathlib.Algebra.BigOperators.Fin
import Mathlib.Order.CompleteLattice.Basic

noncomputable section

namespace Cert.Spec

open scoped BigOperators

/-- The leaky rectifier as the kernel spells it: `v` where `v > 0`, else `v · s`. -/
def lreluK (s v : EReal) : EReal := if 0 < v then v else v * s
/-- The leaky rectifier as the reference spells it: `v` where `v ≥ 0`, else `s · v`. -/
def lreluR (s v : EReal) : EReal := if 0 ≤ v then v else s * v

section

variable (s : EReal)
variable (x : Fin 8 → Fin 4096 → Fin 3 → EReal) (idx : Fin 8 → Fin 4096 → Fin 20 → Fin 4096)
variable (We : Fin 64 → Fin 6 → EReal) (be : Fin 64 → EReal)
variable (W1 : Fin 64 → Fin 64 → EReal) (b1 : Fin 64 → EReal)
variable (W2 : Fin 128 → Fin 64 → EReal) (b2 : Fin 128 → EReal)
variable (Wf : Fin 512 → Fin 256 → EReal) (bf : Fin 512 → EReal)

/-- Pooling over a point's neighbours: the maximum of `src b c` at the 20 neighbours of point `n`. -/
def gmax {C : ℕ} (src : Fin 8 → Fin C → Fin 4096 → EReal) (b : Fin 8) (c : Fin C) (n : Fin 4096) : EReal :=
  ⨆ k : Fin 20, src b c (idx b n k)

/-! ### The kernel's side -/

/-- The neighbour half of the edge convolution, applied to every point. -/
def ky0 (b : Fin 8) (o : Fin 64) (n : Fin 4096) : EReal :=
  We o 0 * x b n 0 + We o 1 * x b n 1 + We o 2 * x b n 2
/-- The centre half of the edge convolution (its weights the second three columns less the first three) with the bias. -/
def kc0 (b : Fin 8) (o : Fin 64) (n : Fin 4096) : EReal :=
  ((We o 3 - We o 0) * x b n 0 + (We o 4 - We o 1) * x b n 1 + (We o 5 - We o 2) * x b n 2) + be o
def kh0 (b : Fin 8) (o : Fin 64) (n : Fin 4096) : EReal :=
  lreluK s (gmax idx (ky0 x We) b o n + kc0 x We be b o n)
def kh1 (b : Fin 8) (o : Fin 64) (n : Fin 4096) : EReal :=
  lreluK s ((∑ c : Fin 64, W1 o c * gmax idx (kh0 s x idx We be) b c n) + b1 o)
def kh2 (b : Fin 8) (o : Fin 128) (n : Fin 4096) : EReal :=
  lreluK s ((∑ c : Fin 64, W2 o c * gmax idx (kh1 s x idx We be W1 b1) b c n) + b2 o)
/-- The final convolution, its three column blocks applied to the three layers' outputs. -/
def kp (b : Fin 8) (o : Fin 512) (n : Fin 4096) : EReal :=
  (∑ c : Fin 64, Wf o ⟨c.val, by omega⟩ * kh0 s x idx We be b c n)
    + (∑ c : Fin 64, Wf o ⟨64 + c.val, by omega⟩ * kh1 s x idx We be W1 b1 b c n)
    + (∑ c : Fin 128, Wf o ⟨128 + c.val, by omega⟩ * kh2 s x idx We be W1 b1 W2 b2 b c n)
def kout (b : Fin 8) (o : Fin 512) : EReal :=
  (⨆ n : Fin 4096, kp s x idx We be W1 b1 W2 b2 Wf b o n) + bf o

/-! ### The reference's side -/

/-- The edge features: neighbour less centre in the first three channels, the centre in the last three. -/
def feat (b : Fin 8) (c : Fin 6) (n : Fin 4096) (k : Fin 20) : EReal :=
  if h : c.val < 3 then x b (idx b n k) ⟨c.val, h⟩ - x b n ⟨c.val, h⟩ else x b n ⟨c.val - 3, by omega⟩
def rh0 (b : Fin 8) (o : Fin 64) (n : Fin 4096) : EReal :=
  ⨆ k : Fin 20, lreluR s ((∑ c : Fin 6, We o c * feat x idx b c n k) + be o)
def rh1 (b : Fin 8) (o : Fin 64) (n : Fin 4096) : EReal :=
  lreluR s ((∑ c : Fin 64, W1 o c * gmax idx (rh0 s x idx We be) b c n) + b1 o)
def rh2 (b : Fin 8) (o : Fin 128) (n : Fin 4096) : EReal :=
  lreluR s ((∑ c : Fin 64, W2 o c * gmax idx (rh1 s x idx We be W1 b1) b c n) + b2 o)
/-- The three layers' outputs concatenated along the channels. -/
def hc (b : Fin 8) (c : Fin 256) (n : Fin 4096) : EReal :=
  if h0 : c.val < 64 then rh0 s x idx We be b ⟨c.val, h0⟩ n
  else if h1 : c.val < 128 then rh1 s x idx We be W1 b1 b ⟨c.val - 64, by omega⟩ n
  else rh2 s x idx We be W1 b1 W2 b2 b ⟨c.val - 128, by omega⟩ n
def rout (b : Fin 8) (o : Fin 512) : EReal :=
  ⨆ n : Fin 4096, ((∑ c : Fin 256, Wf o c * hc s x idx We be W1 b1 W2 b2 b c n) + bf o)

end

end Cert.Spec

end
-- ==== Proof.Decode.lean ====
/-
  Between the programs' arrays and the plain functions the two sides are specified over: an array of extended reals read at
  coordinates, the neighbour lists read as points of the cloud (a word's value reduced into `[0, 4096)`, the identity on
  the words the precondition admits), the rectifier's slope as the one binary literal both programs print, and the result
  array `[8, 512]` built from a function of its two coordinates.
-/
import Idealize.ShloMosaic.PureOps.Ideal
import Idealize.ShloMosaic.Lib.ValueIdx
import proofs.«209975_g17849884082380_cont_8to1_1483_11_alg».proof.Proof.Spec

noncomputable section

namespace Cert.Decode

open Idealize.ShloMosaic Idealize.ShloMosaic.ValueIdx

/-- A rank-1 array at its coordinate. -/
abbrev at1 {n0 : Nat} {α : Type} (a : (⟨1, ![n0]⟩ : Shape).Idx → α) (i : Fin n0) : α := a (ix1 i)
/-- A rank-2 array at its coordinates. -/
abbrev at2 {n0 n1 : Nat} {α : Type} (a : (⟨2, ![n0, n1]⟩ : Shape).Idx → α) (i : Fin n0) (j : Fin n1) : α := a (ix2 i j)
/-- A rank-3 array at its coordinates. -/
abbrev at3 {n0 n1 n2 : Nat} {α : Type} (a : (⟨3, ![n0, n1, n2]⟩ : Shape).Idx → α) (i : Fin n0) (j : Fin n1) (k : Fin n2) : α := a (ix3 i j k)

/-- A neighbour word as a point of the cloud: its value reduced into `[0, 4096)`. -/
def pt (w : BitVec 32) : Fin 4096 := ⟨w.toNat % 4096, Nat.mod_lt _ (by norm_num)⟩

/-- The neighbour lists `[8, 4096, 20]` of words as points. -/
def idxOf (a : (⟨3, ![8, 4096, 20]⟩ : Shape).Idx → BitVec 32) (b : Fin 8) (n : Fin 4096) (k : Fin 20) : Fin 4096 := pt (a (ix3 b n k))

/-- The rectifier's slope: the binary literal `0x3E4CCCCD` (the float nearest to one fifth) read as the real it denotes. -/
def slope : EReal := Ideal.ofBits .f32 0x3E4CCCCD#32

/-- The result array from a function of its two coordinates. -/
def out2 (g : Fin 8 → Fin 512 → EReal) : (⟨2, ![8, 512]⟩ : Shape).Idx → EReal := fun j => g (j 0) (j 1)

section

variable (a0 : (⟨3, ![8, 4096, 3]⟩ : Shape).Idx → EReal) (a1 : (⟨3, ![8, 4096, 20]⟩ : Shape).Idx → BitVec 32)
  (a2 : (⟨2, ![64, 6]⟩ : Shape).Idx → EReal) (a3 : (⟨1, ![64]⟩ : Shape).Idx → EReal)
  (a4 : (⟨2, ![64, 64]⟩ : Shape).Idx → EReal) (a5 : (⟨1, ![64]⟩ : Shape).Idx → EReal)
  (a6 : (⟨2, ![128, 64]⟩ : Shape).Idx → EReal) (a7 : (⟨1, ![128]⟩ : Shape).Idx → EReal)
  (a8 : (⟨2, ![512, 256]⟩ : Shape).Idx → EReal) (a9 : (⟨1, ![512]⟩ : Shape).Idx → EReal)

/-- The kernel's side of the specification at the ten argument arrays. -/
def kernelOut : (⟨2, ![8, 512]⟩ : Shape).Idx → EReal :=
  out2 (Cert.Spec.kout slope (at3 a0) (idxOf a1) (at2 a2) (at1 a3) (at2 a4) (at1 a5) (at2 a6) (at1 a7) (at2 a8) (at1 a9))

/-- The reference's side of the specification at the ten argument arrays. -/
def refOut : (⟨2, ![8, 512]⟩ : Shape).Idx → EReal :=
  out2 (Cert.Spec.rout slope (at3 a0) (idxOf a1) (at2 a2) (at1 a3) (at2 a4) (at1 a5) (at2 a6) (at1 a7) (at2 a8) (at1 a9))

end

end Cert.Decode

end
-- ==== Proof.KIBlockOps.lean ====
/-
  The two point-convolution bodies as functions of their blocks, and their values at the ideal floats, entry by entry.

  A layer's block is "weights times block of points, plus the bias column on every point, rectified"; the closing body adds
  three such products, takes each output channel's maximum over the points and adds the final bias. Stated over
  arbitrary extents: channels in and out, number of points.
-/
import Idealize.ShloMosaic.PureOps.Ideal.Laws
import Idealize.ShloMosaic.Lib.ValueLayout
import Idealize.ShloMosaic.Lib.StackMember
import proofs.«209975_g17849884082380_cont_8to1_1483_11_alg».proof.Proof.Decode

noncomputable section

namespace Cert.Proof.KI.Ops

open Idealize.ShloMosaic Idealize.ShloMosaic.ValueIdx
open scoped BigOperators

/-! ## Layout operations at coordinates -/

/-- A column [a, 1] broadcast to [a, b] reads, at (p, c), the column's entry p. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to [1, 1, a] reads, at (u, v, i), the vector's entry i. -/
theorem cast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-! ## The operations at the ideal floats -/

/-- A plain matrix product into the zero accumulator, at (a, b): the sum over the contracted coordinate. -/
theorem matmul_plain_apply {m k n : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    matmul D none A B (constant (F := Ideal) ⟨2, ![m, n]⟩ .f32 0x00000000#32) (ix2 a b) = ∑ c : Fin k, A (ix2 a c) * B (ix2 c b) := by
  subst hD
  refine (Ideal.matmul_constant_zero_apply _ none A B (ix2 a b)).trans ?_
  refine (Ideal.dotGeneral_apply (DotDims.plain m k n) none .single A B (ix2 a b)).symm.trans ?_
  exact StackMember.dotGeneral_plain_apply none A B a b

/-- The pattern of -inf denotes the bottom of the extended reals. -/
theorem neg_inf_bits : Ideal.ofBits .f32 0xFF800000#32 = (⊥ : EReal) := by
  simp [Ideal.ofBits, Ideal.ieee]

/-- A maximum along the second axis from -inf, at row o: the supremum of the row. -/
theorem rowmax_apply {m n : ℕ} (src : FVec Ideal ⟨2, ![m, n]⟩ .f32) (h : (⟨2, ![m, n]⟩ : Shape).Reduces [1] ⟨1, ![m]⟩)
    (hφ : FKind.Formats .f32) (hacc : (0xFF800000#32 : BitVec 32) = FKind.maximumf.neutral .f32 hφ) (o : Fin m) :
    multiReduction .maximumf [1] ⟨1, ![m]⟩ src 0xFF800000#32 h hφ hacc (ix1 o) = ⨆ p : Fin n, src (ix2 o p) := by
  refine (Ideal.multiReduction_maximumf_single src _ h hφ hacc (ix1 o)).trans ?_
  have hl : ∀ p : Fin n, h.lift (ix1 o) p = ix2 o p := fun p => by
    funext c
    apply Fin.ext
    match c with
    | ⟨0, _⟩ => rfl
    | ⟨1, _⟩ => rfl
  show (Finset.univ : Finset (Fin n)).fold max (Ideal.ofBits .f32 0xFF800000#32) (src ∘ h.lift (ix1 o)) = _
  rw [neg_inf_bits]
  show (Finset.univ : Finset (Fin n)).sup (src ∘ h.lift (ix1 o)) = _
  rw [Finset.sup_univ_eq_iSup]
  exact iSup_congr fun p => congrArg src (hl p)

/-- The rectifier as the bodies spell it, on one value. -/
theorem lrelu_scalar (v : EReal) :
    Scalar.select (FloatOps.cmpf (F := Ideal) (φ := .f32) .ogt v (Scalar.ofBits (F := Ideal) .f32 0x00000000#32)) v
        (FloatOps.mulf (F := Ideal) (φ := .f32) v (Scalar.ofBits (F := Ideal) .f32 0x3E4CCCCD#32))
      = Cert.Spec.lreluK Cert.Decode.slope v := by
  show (if BitVec.ofBool (decide (Ideal.ofBits .f32 0x00000000#32 < v)) = 1 then v else v * Ideal.ofBits .f32 0x3E4CCCCD#32) = _
  rw [Ideal.ofBits_zero_f32]
  unfold Cert.Spec.lreluK Cert.Decode.slope
  by_cases h : 0 < v <;> simp [h]

/-! ## The bodies as functions of their blocks -/

section Blocks

variable {F : FTy → Type} [FloatOps F]

/-- The rectifier on a vector: v where v > 0, else v times the slope literal. -/
def lreluV {s : Shape} (v : FVec F s .f32) : FVec F s .f32 :=
  select (cmpf .ogt v (broadcast s (Scalar.ofBits .f32 0x00000000#32))) v (mulf v (broadcast s (Scalar.ofBits .f32 0x3E4CCCCD#32)))

/-- A convolution of a block of points: the weights times the block, plus the bias column on every point. -/
def convV {m k n : ℕ} (D : DotDims ⟨2, ![m, k]⟩ ⟨2, ![k, n]⟩ ⟨2, ![m, n]⟩) (w : FVec F ⟨2, ![m, k]⟩ .f32)
    (g : FVec F ⟨3, ![1, k, n]⟩ .f32) (b : FVec F ⟨2, ![m, 1]⟩ .f32)
    (h1 : (⟨3, ![1, k, n]⟩ : Shape).ShapeCasts ⟨2, ![k, n]⟩) (h2 : (⟨2, ![m, 1]⟩ : Shape).ShapeCasts ⟨2, ![m, 1]⟩)
    (h3 : (⟨2, ![m, 1]⟩ : Shape).Broadcasts ⟨2, ![m, n]⟩) : FVec F ⟨2, ![m, n]⟩ .f32 :=
  addf (matmul D none w (shapeCast ⟨2, ![k, n]⟩ g h1) (constant ⟨2, ![m, n]⟩ .f32 0x00000000#32))
    (broadcastTo ⟨2, ![m, n]⟩ (shapeCast ⟨2, ![m, 1]⟩ b h2) h3)

/-- A layer's stored block: the rectified convolution, under a leading unit axis. -/
def tcbV {m k n : ℕ} (D : DotDims ⟨2, ![m, k]⟩ ⟨2, ![k, n]⟩ ⟨2, ![m, n]⟩) (w : FVec F ⟨2, ![m, k]⟩ .f32)
    (g : FVec F ⟨3, ![1, k, n]⟩ .f32) (b : FVec F ⟨2, ![m, 1]⟩ .f32)
    (h1 : (⟨3, ![1, k, n]⟩ : Shape).ShapeCasts ⟨2, ![k, n]⟩) (h2 : (⟨2, ![m, 1]⟩ : Shape).ShapeCasts ⟨2, ![m, 1]⟩)
    (h3 : (⟨2, ![m, 1]⟩ : Shape).Broadcasts ⟨2, ![m, n]⟩) (h4 : (⟨2, ![m, n]⟩ : Shape).ShapeCasts ⟨3, ![1, m, n]⟩) :
    FVec F ⟨3, ![1, m, n]⟩ .f32 :=
  shapeCast ⟨3, ![1, m, n]⟩ (lreluV (convV D w g b h1 h2 h3)) h4

/-- The closing body's stored block: three products added, each output channel's maximum over the points, plus the
    final bias. The third product's right operand is the last layer's rectified convolution. -/
def tccV {c0 c1 c2 q n : ℕ}
    (D2 : DotDims ⟨2, ![c2, c1]⟩ ⟨2, ![c1, n]⟩ ⟨2, ![c2, n]⟩) (Df0 : DotDims ⟨2, ![q, c0]⟩ ⟨2, ![c0, n]⟩ ⟨2, ![q, n]⟩)
    (Df1 : DotDims ⟨2, ![q, c1]⟩ ⟨2, ![c1, n]⟩ ⟨2, ![q, n]⟩) (Df2 : DotDims ⟨2, ![q, c2]⟩ ⟨2, ![c2, n]⟩ ⟨2, ![q, n]⟩)
    (g2 : FVec F ⟨3, ![1, c1, n]⟩ .f32) (h0 : FVec F ⟨3, ![1, c0, n]⟩ .f32) (h1 : FVec F ⟨3, ![1, c1, n]⟩ .f32)
    (w2 : FVec F ⟨2, ![c2, c1]⟩ .f32) (b2 : FVec F ⟨2, ![c2, 1]⟩ .f32)
    (wf0 : FVec F ⟨2, ![q, c0]⟩ .f32) (wf1 : FVec F ⟨2, ![q, c1]⟩ .f32) (wf2 : FVec F ⟨2, ![q, c2]⟩ .f32)
    (bf : FVec F ⟨2, ![1, q]⟩ .f32)
    (e1 : (⟨3, ![1, c1, n]⟩ : Shape).ShapeCasts ⟨2, ![c1, n]⟩) (e2 : (⟨2, ![c2, 1]⟩ : Shape).ShapeCasts ⟨2, ![c2, 1]⟩)
    (e3 : (⟨2, ![c2, 1]⟩ : Shape).Broadcasts ⟨2, ![c2, n]⟩)
    (e4 : (⟨2, ![q, c0]⟩ : Shape).ShapeCasts ⟨2, ![q, c0]⟩) (e5 : (⟨3, ![1, c0, n]⟩ : Shape).ShapeCasts ⟨2, ![c0, n]⟩)
    (e6 : (⟨2, ![q, c1]⟩ : Shape).ShapeCasts ⟨2, ![q, c1]⟩) (e7 : (⟨2, ![q, c2]⟩ : Shape).ShapeCasts ⟨2, ![q, c2]⟩)
    (hr : (⟨2, ![q, n]⟩ : Shape).Reduces [1] ⟨1, ![q]⟩) (hφ : FKind.Formats .f32)
    (hacc : (0xFF800000#32 : BitVec 32) = FKind.maximumf.neutral .f32 hφ)
    (e8 : (⟨1, ![q]⟩ : Shape).ShapeCasts ⟨3, ![1, 1, q]⟩) (e9 : (⟨2, ![1, q]⟩ : Shape).ShapeCasts ⟨2, ![1, q]⟩)
    (e10 : (⟨2, ![1, q]⟩ : Shape).ShapeCasts ⟨3, ![1, 1, q]⟩) : FVec F ⟨3, ![1, 1, q]⟩ .f32 :=
  addf
    (shapeCast ⟨3, ![1, 1, q]⟩
      (multiReduction .maximumf [1] ⟨1, ![q]⟩
        (addf
          (addf
            (matmul Df0 none (shapeCast ⟨2, ![q, c0]⟩ wf0 e4) (shapeCast ⟨2, ![c0, n]⟩ h0 e5) (constant ⟨2, ![q, n]⟩ .f32 0x00000000#32))
            (matmul Df1 none (shapeCast ⟨2, ![q, c1]⟩ wf1 e6) (shapeCast ⟨2, ![c1, n]⟩ h1 e1) (constant ⟨2, ![q, n]⟩ .f32 0x00000000#32)))
          (matmul Df2 none (shapeCast ⟨2, ![q, c2]⟩ wf2 e7) (lreluV (convV D2 w2 g2 b2 e1 e2 e3)) (constant ⟨2, ![q, n]⟩ .f32 0x00000000#32)))
        0xFF800000#32 hr hφ hacc) e8)
    (shapeCast ⟨3, ![1, 1, q]⟩ (shapeCast ⟨2, ![1, q]⟩ bf e9) e10)

end Blocks

/-! ## Their values at the ideal floats -/

/-- The rectifier on a vector, at an index. -/
theorem lreluV_apply {s : Shape} (v : FVec Ideal s .f32) (j : s.Idx) :
    lreluV v j = Cert.Spec.lreluK Cert.Decode.slope (v j) := lrelu_scalar (v j)

/-- The convolution of a block, at (o, p). -/
theorem convV_apply {m k n : ℕ} (D : DotDims ⟨2, ![m, k]⟩ ⟨2, ![k, n]⟩ ⟨2, ![m, n]⟩) (hD : D = DotDims.plain m k n)
    (w : FVec Ideal ⟨2, ![m, k]⟩ .f32) (g : FVec Ideal ⟨3, ![1, k, n]⟩ .f32) (b : FVec Ideal ⟨2, ![m, 1]⟩ .f32)
    (h1 : (⟨3, ![1, k, n]⟩ : Shape).ShapeCasts ⟨2, ![k, n]⟩) (h2 : (⟨2, ![m, 1]⟩ : Shape).ShapeCasts ⟨2, ![m, 1]⟩)
    (h3 : (⟨2, ![m, 1]⟩ : Shape).Broadcasts ⟨2, ![m, n]⟩) (o : Fin m) (p : Fin n) :
    convV D w g b h1 h2 h3 (ix2 o p) = (∑ c : Fin k, w (ix2 o c) * g (ix3 (0 : Fin 1) c p)) + b (ix2 o (0 : Fin 1)) := by
  show matmul D none w (shapeCast ⟨2, ![k, n]⟩ g h1) (constant (F := Ideal) ⟨2, ![m, n]⟩ .f32 0x00000000#32) (ix2 o p)
      + broadcastTo ⟨2, ![m, n]⟩ (shapeCast ⟨2, ![m, 1]⟩ b h2) h3 (ix2 o p) = _
  rw [matmul_plain_apply D hD, bcast_col_apply, shapeCast_self]
  refine congrArg (· + b (ix2 o (0 : Fin 1))) (Finset.sum_congr rfl fun c _ => ?_)
  rw [shapeCast_1ab_ab_apply]

/-- A layer's stored block, at (0, o, p). -/
theorem tcbV_ideal {m k n : ℕ} (D : DotDims ⟨2, ![m, k]⟩ ⟨2, ![k, n]⟩ ⟨2, ![m, n]⟩) (hD : D = DotDims.plain m k n)
    (w : FVec Ideal ⟨2, ![m, k]⟩ .f32) (g : FVec Ideal ⟨3, ![1, k, n]⟩ .f32) (b : FVec Ideal ⟨2, ![m, 1]⟩ .f32)
    (h1 : (⟨3, ![1, k, n]⟩ : Shape).ShapeCasts ⟨2, ![k, n]⟩) (h2 : (⟨2, ![m, 1]⟩ : Shape).ShapeCasts ⟨2, ![m, 1]⟩)
    (h3 : (⟨2, ![m, 1]⟩ : Shape).Broadcasts ⟨2, ![m, n]⟩) (h4 : (⟨2, ![m, n]⟩ : Shape).ShapeCasts ⟨3, ![1, m, n]⟩)
    (o : Fin m) (p : Fin n) :
    tcbV D w g b h1 h2 h3 h4 (ix3 (0 : Fin 1) o p)
      = Cert.Spec.lreluK Cert.Decode.slope ((∑ c : Fin k, w (ix2 o c) * g (ix3 (0 : Fin 1) c p)) + b (ix2 o (0 : Fin 1))) := by
  unfold tcbV
  rw [shapeCast_ab_1ab_apply, lreluV_apply, convV_apply D hD]

/-- The closing body's stored block, at (0, 0, o). -/
theorem tccV_ideal {c0 c1 c2 q n : ℕ}
    (D2 : DotDims ⟨2, ![c2, c1]⟩ ⟨2, ![c1, n]⟩ ⟨2, ![c2, n]⟩) (hD2 : D2 = DotDims.plain c2 c1 n)
    (Df0 : DotDims ⟨2, ![q, c0]⟩ ⟨2, ![c0, n]⟩ ⟨2, ![q, n]⟩) (hDf0 : Df0 = DotDims.plain q c0 n)
    (Df1 : DotDims ⟨2, ![q, c1]⟩ ⟨2, ![c1, n]⟩ ⟨2, ![q, n]⟩) (hDf1 : Df1 = DotDims.plain q c1 n)
    (Df2 : DotDims ⟨2, ![q, c2]⟩ ⟨2, ![c2, n]⟩ ⟨2, ![q, n]⟩) (hDf2 : Df2 = DotDims.plain q c2 n)
    (g2 : FVec Ideal ⟨3, ![1, c1, n]⟩ .f32) (h0 : FVec Ideal ⟨3, ![1, c0, n]⟩ .f32) (h1 : FVec Ideal ⟨3, ![1, c1, n]⟩ .f32)
    (w2 : FVec Ideal ⟨2, ![c2, c1]⟩ .f32) (b2 : FVec Ideal ⟨2, ![c2, 1]⟩ .f32)
    (wf0 : FVec Ideal ⟨2, ![q, c0]⟩ .f32) (wf1 : FVec Ideal ⟨2, ![q, c1]⟩ .f32) (wf2 : FVec Ideal ⟨2, ![q, c2]⟩ .f32)
    (bf : FVec Ideal ⟨2, ![1, q]⟩ .f32)
    (e1 : (⟨3, ![1, c1, n]⟩ : Shape).ShapeCasts ⟨2, ![c1, n]⟩) (e2 : (⟨2, ![c2, 1]⟩ : Shape).ShapeCasts ⟨2, ![c2, 1]⟩)
    (e3 : (⟨2, ![c2, 1]⟩ : Shape).Broadcasts ⟨2, ![c2, n]⟩)
    (e4 : (⟨2, ![q, c0]⟩ : Shape).ShapeCasts ⟨2, ![q, c0]⟩) (e5 : (⟨3, ![1, c0, n]⟩ : Shape).ShapeCasts ⟨2, ![c0, n]⟩)
    (e6 : (⟨2, ![q, c1]⟩ : Shape).ShapeCasts ⟨2, ![q, c1]⟩) (e7 : (⟨2, ![q, c2]⟩ : Shape).ShapeCasts ⟨2, ![q, c2]⟩)
    (hr : (⟨2, ![q, n]⟩ : Shape).Reduces [1] ⟨1, ![q]⟩) (hφ : FKind.Formats .f32)
    (hacc : (0xFF800000#32 : BitVec 32) = FKind.maximumf.neutral .f32 hφ)
    (e8 : (⟨1, ![q]⟩ : Shape).ShapeCasts ⟨3, ![1, 1, q]⟩) (e9 : (⟨2, ![1, q]⟩ : Shape).ShapeCasts ⟨2, ![1, q]⟩)
    (e10 : (⟨2, ![1, q]⟩ : Shape).ShapeCasts ⟨3, ![1, 1, q]⟩) (o : Fin q) :
    tccV D2 Df0 Df1 Df2 g2 h0 h1 w2 b2 wf0 wf1 wf2 bf e1 e2 e3 e4 e5 e6 e7 hr hφ hacc e8 e9 e10 (ix3 (0 : Fin 1) (0 : Fin 1) o)
      = (⨆ p : Fin n, ((∑ c : Fin c0, wf0 (ix2 o c) * h0 (ix3 (0 : Fin 1) c p))
            + (∑ c : Fin c1, wf1 (ix2 o c) * h1 (ix3 (0 : Fin 1) c p))
            + (∑ c : Fin c2, wf2 (ix2 o c) * Cert.Spec.lreluK Cert.Decode.slope
                ((∑ c' : Fin c1, w2 (ix2 c c') * g2 (ix3 (0 : Fin 1) c' p)) + b2 (ix2 c (0 : Fin 1))))))
          + bf (ix2 (0 : Fin 1) o) := by
  unfold tccV
  show shapeCast ⟨3, ![1, 1, q]⟩ _ e8 (ix3 (0 : Fin 1) (0 : Fin 1) o)
      + shapeCast ⟨3, ![1, 1, q]⟩ (shapeCast ⟨2, ![1, q]⟩ bf e9) e10 (ix3 (0 : Fin 1) (0 : Fin 1) o) = _
  rw [cast_a_11a_apply, shapeCast_ab_1ab_apply, shapeCast_self bf e9, rowmax_apply]
  refine congrArg (· + bf (ix2 (0 : Fin 1) o)) (iSup_congr fun p => ?_)
  show matmul Df0 none _ _ (constant (F := Ideal) ⟨2, ![q, n]⟩ .f32 0x00000000#32) (ix2 o p)
      + matmul Df1 none _ _ (constant (F := Ideal) ⟨2, ![q, n]⟩ .f32 0x00000000#32) (ix2 o p)
      + matmul Df2 none _ _ (constant (F := Ideal) ⟨2, ![q, n]⟩ .f32 0x00000000#32) (ix2 o p) = _
  rw [matmul_plain_apply Df0 hDf0, matmul_plain_apply Df1 hDf1, matmul_plain_apply Df2 hDf2, shapeCast_self wf0 e4,
    shapeCast_self wf1 e6, shapeCast_self wf2 e7]
  refine congrArg₂ (· + ·) (congrArg₂ (· + ·) (Finset.sum_congr rfl fun c _ => ?_) (Finset.sum_congr rfl fun c _ => ?_))
    (Finset.sum_congr rfl fun c _ => ?_)
  · rw [shapeCast_1ab_ab_apply]
  · rw [shapeCast_1ab_ab_apply]
  · rw [lreluV_apply, convV_apply D2 hD2]

end Cert.Proof.KI.Ops

end
-- ==== Proof.KITcbValue.lean ====
/-
  The second TensorCore body's stored block as a function of its three loaded blocks, and its value at the ideal floats.
-/
import proofs.«209975_g17849884082380_cont_8to1_1483_11_alg».proof.Proof.Gen.KernelIdeal.Skeleton
import proofs.«209975_g17849884082380_cont_8to1_1483_11_alg».proof.Proof.Decode
import proofs.«209975_g17849884082380_cont_8to1_1483_11_alg».proof.Proof.KIBlockOps

noncomputable section

namespace Cert.Proof.KI

open Cert.KernelIdeal Cert.KernelIdeal.Gen
open Idealize.ShloMosaic Idealize.ShloMosaic.ValueIdx
open scoped BigOperators

/-- What the body stores, as a function of its three loaded blocks: the gathered features g, the weights w and the
    bias column b1. -/
def tcbBlk {F : FTy → Type} [FloatOps F] (g : Vec F S1x64x4096 .f32) (w : Vec F S64x64 .f32) (b1 : Vec F S64x1 .f32) :
    Vec F S1x64x4096 .f32 :=
  Gen.k3_pay1 w g b1

/-- The stored block is the rectified convolution of the block of points, under a leading unit axis. -/
theorem tcbBlk_eq {F : FTy → Type} [FloatOps F] (g : Vec F S1x64x4096 .f32) (w : Vec F S64x64 .f32) (b1 : Vec F S64x1 .f32) :
    tcbBlk g w b1 = Ops.tcbV (m := 64) (k := 64) (n := 4096) dot_S64x64_S64x4096_S64x4096_1_0_0_1_n_n w g b1
      shapeCasts_S1x64x4096_S64x4096 shapeCasts_S64x1_S64x1 broadcasts_S64x1_S64x4096 shapeCasts_S64x4096_S1x64x4096 := rfl

/-- The body's product is the plain one: 64 × 64 by 64 × 4096. -/
theorem tcb_dot_plain : dot_S64x64_S64x4096_S64x4096_1_0_0_1_n_n = DotDims.plain 64 64 4096 := rfl

/-- At the ideal floats the stored block is, at channel o and point n, the rectified sum over the input channels
    plus the bias. -/
theorem tcbBlk_ideal (g : Vec Ideal S1x64x4096 .f32) (w : Vec Ideal S64x64 .f32) (b1 : Vec Ideal S64x1 .f32)
    (o : Fin 64) (n : Fin 4096) :
    tcbBlk g w b1 (ix3 (0 : Fin 1) o n)
      = Cert.Spec.lreluK Cert.Decode.slope ((∑ c : Fin 64, w (ix2 o c) * g (ix3 (0 : Fin 1) c n)) + b1 (ix2 o (0 : Fin 1))) := by
  rw [tcbBlk_eq]
  exact Ops.tcbV_ideal _ tcb_dot_plain w g b1 _ _ _ _ o n

end Cert.Proof.KI

end
-- ==== Proof.SpecAlgebra.lean ====
/-
  The two sides of the claim, as functions on the extended reals, agree.

  Three facts carry the proof.  The two spellings of the leaky rectifier are one function.  A monotone
  map commutes with the supremum of a finite nonempty family in a complete linear order, because that
  supremum is attained; adding a constant and the leaky rectifier of non-negative slope are monotone.
  With real points and real edge weights the two halves of the edge convolution add up to the
  convolution of the edge features, the bias kept outside the real part.  The final convolution's sum
  over 256 channels is the sum of its three blocks.
-/
import proofs.«209975_g17849884082380_cont_8to1_1483_11_alg».proof.Proof.Spec
import Mathlib.Data.EReal.Inv
import Mathlib.Order.ConditionallyCompleteLattice.Finset
import Mathlib.Algebra.BigOperators.Fin
import Mathlib.Tactic.Ring

noncomputable section

namespace Cert.Spec

open scoped BigOperators

/-! ### The leaky rectifier -/

/-- The two spellings agree: they differ only at zero, where both give zero, and in the order of a product. -/
theorem lreluK_eq_lreluR (s v : EReal) : lreluK s v = lreluR s v := by
  unfold lreluK lreluR
  rcases lt_trichotomy 0 v with h | h | h
  · rw [if_pos h, if_pos h.le]
  · subst h; simp
  · rw [if_neg (not_lt.mpr h.le), if_neg (not_le.mpr h), EReal.mul_comm]

/-- With a non-negative slope the leaky rectifier is monotone. -/
theorem lreluK_mono {s : EReal} (hs : 0 ≤ s) : Monotone (lreluK s) := by
  intro v w hvw
  unfold lreluK
  by_cases hv : 0 < v
  · have hw : 0 < w := lt_of_lt_of_le hv hvw
    rw [if_pos hv, if_pos hw]; exact hvw
  · rw [if_neg hv]
    have hv' : v ≤ 0 := not_lt.mp hv
    by_cases hw : 0 < w
    · rw [if_pos hw]
      have h0 : v * s ≤ 0 * s := mul_le_mul_of_nonneg_right hv' hs
      rw [zero_mul] at h0
      exact h0.trans hw.le
    · rw [if_neg hw]
      exact mul_le_mul_of_nonneg_right hvw hs

/-! ### Monotone maps and finite suprema -/

/-- A monotone map commutes with the supremum of a finite nonempty family: the supremum is attained. -/
theorem map_iSup_of_finite {ι α β : Type*} [Finite ι] [Nonempty ι] [CompleteLinearOrder α]
    [CompleteLattice β] {g : α → β} (hg : Monotone g) (f : ι → α) :
    g (⨆ i, f i) = ⨆ i, g (f i) := by
  obtain ⟨i, hi⟩ := exists_eq_ciSup_of_finite (f := f)
  apply le_antisymm
  · rw [← hi]; exact le_iSup (fun i => g (f i)) i
  · exact hg.le_map_iSup

/-- Adding a constant commutes with a finite nonempty supremum. -/
theorem iSup_add_const {ι : Type*} [Finite ι] [Nonempty ι] (f : ι → EReal) (c : EReal) :
    (⨆ i, f i) + c = ⨆ i, (f i + c) :=
  map_iSup_of_finite (g := fun v => v + c) (fun _ _ h => add_le_add h le_rfl) f

/-! ### Sums over the 256 concatenated channels -/

/-- A sum over 256 channels is the sum of its blocks of 64, 64 and 128 channels. -/
theorem sum_split256 {M : Type*} [AddCommMonoid M] (f : Fin 256 → M) :
    ∑ c : Fin 256, f c
      = (∑ c : Fin 64, f ⟨c.val, by omega⟩) + (∑ c : Fin 64, f ⟨64 + c.val, by omega⟩)
        + (∑ c : Fin 128, f ⟨128 + c.val, by omega⟩) := by
  have h1 := Fin.sum_univ_add (a := 64) (b := 192) f
  have h2 := Fin.sum_univ_add (a := 64) (b := 128) (fun i => f (Fin.natAdd 64 i))
  rw [h1, h2, ← add_assoc]
  congr 1

/-! ### The first layer -/

section

variable (s : EReal)
variable (x : Fin 8 → Fin 4096 → Fin 3 → EReal) (idx : Fin 8 → Fin 4096 → Fin 20 → Fin 4096)
variable (We : Fin 64 → Fin 6 → EReal) (be : Fin 64 → EReal)
variable (W1 : Fin 64 → Fin 64 → EReal) (b1 : Fin 64 → EReal)
variable (W2 : Fin 128 → Fin 64 → EReal) (b2 : Fin 128 → EReal)
variable (Wf : Fin 512 → Fin 256 → EReal) (bf : Fin 512 → EReal)

theorem feat_0 (b : Fin 8) (n : Fin 4096) (k : Fin 20) :
    feat x idx b 0 n k = x b (idx b n k) 0 - x b n 0 := by
  unfold feat; rw [dif_pos (by decide)]; rfl
theorem feat_1 (b : Fin 8) (n : Fin 4096) (k : Fin 20) :
    feat x idx b 1 n k = x b (idx b n k) 1 - x b n 1 := by
  unfold feat; rw [dif_pos (by decide)]; rfl
theorem feat_2 (b : Fin 8) (n : Fin 4096) (k : Fin 20) :
    feat x idx b 2 n k = x b (idx b n k) 2 - x b n 2 := by
  unfold feat; rw [dif_pos (by decide)]; rfl
theorem feat_3 (b : Fin 8) (n : Fin 4096) (k : Fin 20) :
    feat x idx b 3 n k = x b n 0 := by
  unfold feat; rw [dif_neg (by decide)]; rfl
theorem feat_4 (b : Fin 8) (n : Fin 4096) (k : Fin 20) :
    feat x idx b 4 n k = x b n 1 := by
  unfold feat; rw [dif_neg (by decide)]; rfl
theorem feat_5 (b : Fin 8) (n : Fin 4096) (k : Fin 20) :
    feat x idx b 5 n k = x b n 2 := by
  unfold feat; rw [dif_neg (by decide)]; rfl

/-- At one neighbour, with real points and real edge weights, the neighbour half of the edge
convolution at the neighbour plus the centre half at the centre is the convolution of the edge
features plus the bias: distribute the products over the real differences. -/
theorem edge_split (hx : ∀ b n c, ∃ r : ℝ, x b n c = (r : EReal))
    (hWe : ∀ o c, ∃ r : ℝ, We o c = (r : EReal))
    (b : Fin 8) (o : Fin 64) (n : Fin 4096) (k : Fin 20) :
    ky0 x We b o (idx b n k) + kc0 x We be b o n
      = (∑ c : Fin 6, We o c * feat x idx b c n k) + be o := by
  choose xr hxr using hx
  choose wr hwr using hWe
  unfold ky0 kc0
  rw [Fin.sum_univ_six, feat_0, feat_1, feat_2, feat_3, feat_4, feat_5, ← add_assoc]
  congr 1
  simp only [hxr, hwr, ← EReal.coe_mul, ← EReal.coe_add, ← EReal.coe_sub]
  congr 1
  ring

/-- The first layer: the maximum over the neighbours moves out through the added centre term and
through the rectifier, both monotone. -/
theorem kh0_eq_rh0 (hs : 0 ≤ s) (hx : ∀ b n c, ∃ r : ℝ, x b n c = (r : EReal))
    (hWe : ∀ o c, ∃ r : ℝ, We o c = (r : EReal)) :
    kh0 s x idx We be = rh0 s x idx We be := by
  funext b o n
  unfold kh0 rh0 gmax
  rw [iSup_add_const, map_iSup_of_finite (lreluK_mono hs)]
  refine iSup_congr fun k => ?_
  rw [lreluK_eq_lreluR, edge_split x idx We be hx hWe]

theorem kh1_eq_rh1 (hs : 0 ≤ s) (hx : ∀ b n c, ∃ r : ℝ, x b n c = (r : EReal))
    (hWe : ∀ o c, ∃ r : ℝ, We o c = (r : EReal)) :
    kh1 s x idx We be W1 b1 = rh1 s x idx We be W1 b1 := by
  funext b o n
  unfold kh1 rh1
  rw [kh0_eq_rh0 s x idx We be hs hx hWe, lreluK_eq_lreluR]

theorem kh2_eq_rh2 (hs : 0 ≤ s) (hx : ∀ b n c, ∃ r : ℝ, x b n c = (r : EReal))
    (hWe : ∀ o c, ∃ r : ℝ, We o c = (r : EReal)) :
    kh2 s x idx We be W1 b1 W2 b2 = rh2 s x idx We be W1 b1 W2 b2 := by
  funext b o n
  unfold kh2 rh2
  rw [kh1_eq_rh1 s x idx We be W1 b1 hs hx hWe, lreluK_eq_lreluR]

/-! ### The concatenated channels -/

theorem hc_lo (b : Fin 8) (n : Fin 4096) (c : Fin 64) :
    hc s x idx We be W1 b1 W2 b2 b ⟨c.val, by omega⟩ n = rh0 s x idx We be b c n := by
  unfold hc
  rw [dif_pos c.isLt]

theorem hc_mid (b : Fin 8) (n : Fin 4096) (c : Fin 64) :
    hc s x idx We be W1 b1 W2 b2 b ⟨64 + c.val, by omega⟩ n = rh1 s x idx We be W1 b1 b c n := by
  unfold hc
  have h0 : ¬ (64 + c.val < 64) := by omega
  have h1 : 64 + c.val < 128 := by omega
  rw [dif_neg h0, dif_pos h1]
  congr 1
  apply Fin.ext
  simp

theorem hc_hi (b : Fin 8) (n : Fin 4096) (c : Fin 128) :
    hc s x idx We be W1 b1 W2 b2 b ⟨128 + c.val, by omega⟩ n
      = rh2 s x idx We be W1 b1 W2 b2 b c n := by
  unfold hc
  have h0 : ¬ (128 + c.val < 64) := by omega
  have h1 : ¬ (128 + c.val < 128) := by omega
  rw [dif_neg h0, dif_neg h1]
  congr 1
  apply Fin.ext
  simp

end

/-! ### The claim -/

theorem kout_eq_rout (s : EReal) (hs : ∃ r : ℝ, 0 ≤ r ∧ s = (r : EReal))
    (x : Fin 8 → Fin 4096 → Fin 3 → EReal) (idx : Fin 8 → Fin 4096 → Fin 20 → Fin 4096)
    (We : Fin 64 → Fin 6 → EReal) (be : Fin 64 → EReal) (W1 : Fin 64 → Fin 64 → EReal) (b1 : Fin 64 → EReal)
    (W2 : Fin 128 → Fin 64 → EReal) (b2 : Fin 128 → EReal) (Wf : Fin 512 → Fin 256 → EReal) (bf : Fin 512 → EReal)
    (hx : ∀ b n c, ∃ r : ℝ, x b n c = (r : EReal)) (hWe : ∀ o c, ∃ r : ℝ, We o c = (r : EReal)) (hbe : ∀ o, ∃ r : ℝ, be o = (r : EReal)) :
    kout s x idx We be W1 b1 W2 b2 Wf bf = rout s x idx We be W1 b1 W2 b2 Wf bf := by
  have hs0 : 0 ≤ s := by
    obtain ⟨r, hr, rfl⟩ := hs
    exact_mod_cast hr
  funext b o
  unfold kout rout
  rw [iSup_add_const]
  refine iSup_congr fun n => ?_
  congr 1
  unfold kp
  rw [kh0_eq_rh0 s x idx We be hs0 hx hWe, kh1_eq_rh1 s x idx We be W1 b1 hs0 hx hWe,
    kh2_eq_rh2 s x idx We be W1 b1 W2 b2 hs0 hx hWe, sum_split256]
  simp only [hc_lo, hc_mid, hc_hi]

end Cert.Spec

end
-- ==== Proof.KIValue.lean ====
/-
  The kernel's result as the specification's function, the six kernel regions abstract.

  The program's host part is a dataflow over the ten argument arrays: two transposes, reshapes that add or drop a unit
  axis or flatten the channel and point axes into one, three column slices of the final weights, and between them the
  six regions: the edge convolution's two halves, the gather-and-maximum over the neighbours with and without the added
  centre term and rectifier, the two point convolutions, and the final convolution with its maximum over the points.
  Each region is a function of its operand arrays known at every index.  Reading the dataflow at an index, layer by
  layer, gives the specification's kernel side; the algebra of the specification then gives the reference side.
-/
import proofs.«209975_g17849884082380_cont_8to1_1483_11_alg».proof.Proof.Gen.KernelIdeal
import proofs.«209975_g17849884082380_cont_8to1_1483_11_alg».proof.Proof.Decode
import proofs.«209975_g17849884082380_cont_8to1_1483_11_alg».proof.Proof.SpecAlgebra
import Idealize.ShloMosaic.PureOps.Ideal
import Idealize.ShloMosaic.Lib.ValueIdx
import Idealize.ShloMosaic.Lib.ValueIdxCoords
import Idealize.ShloMosaic.Lib.ValueLayout
import Idealize.ShloMosaic.Lib.Pipeline.Value

noncomputable section

namespace Cert.Proof.KIValue

open Cert.KernelIdeal
open Idealize.ShloMosaic Idealize.ShloMosaic.ValueIdx
open Cert.Decode (slope)
open Cert.Spec (lreluK)
open scoped BigOperators

/-- The flattened channel-and-point coordinate: channel c, point m reduced into the cloud. -/
abbrev flat (c : Fin 64) (m : ℕ) : Fin 262144 := ⟨c.val * 4096 + m % 4096, by have := c.isLt; omega⟩

section

/-! ### The six regions, abstract -/

variable
  (tcaY tcaC : Vec Ideal S8x3x4096 .f32 → Vec Ideal S64x6 .f32 → Vec Ideal S64x1 .f32 → Vec Ideal S8x64x4096 .f32)
  (gmaxL : Vec Ideal S8x262144 .f32 → IVec S8x20x4096 32 → Vec Ideal S8x64x4096 .f32 → Vec Ideal S8x64x4096 .f32)
  (gmaxP : Vec Ideal S8x262144 .f32 → IVec S8x20x4096 32 → Vec Ideal S8x64x4096 .f32)
  (tcb : Vec Ideal S8x64x4096 .f32 → Vec Ideal S64x64 .f32 → Vec Ideal S64x1 .f32 → Vec Ideal S8x64x4096 .f32)
  (tcc : Vec Ideal S8x64x4096 .f32 → Vec Ideal S8x64x4096 .f32 → Vec Ideal S8x64x4096 .f32 → Vec Ideal S128x64 .f32
    → Vec Ideal S128x1 .f32 → Vec Ideal S512x64 .f32 → Vec Ideal S512x64 .f32 → Vec Ideal S512x128 .f32
    → Vec Ideal S1x512 .f32 → Vec Ideal S8x1x512 .f32)

/-- The neighbour half of the edge convolution. -/
abbrev SpecY : Prop := ∀ (xt : Vec Ideal S8x3x4096 .f32) (w : Vec Ideal S64x6 .f32) (be : Vec Ideal S64x1 .f32)
    (b : Fin 8) (o : Fin 64) (n : Fin 4096),
  tcaY xt w be (ix3 b o n)
    = (w (ix2 o 0) * xt (ix3 b 0 n) + w (ix2 o 1) * xt (ix3 b 1 n) + w (ix2 o 2) * xt (ix3 b 2 n) : EReal)

/-- The centre half of the edge convolution, with the bias. -/
abbrev SpecC : Prop := ∀ (xt : Vec Ideal S8x3x4096 .f32) (w : Vec Ideal S64x6 .f32) (be : Vec Ideal S64x1 .f32)
    (b : Fin 8) (o : Fin 64) (n : Fin 4096),
  tcaC xt w be (ix3 b o n)
    = (((w (ix2 o 3) - w (ix2 o 0)) * xt (ix3 b 0 n) + (w (ix2 o 4) - w (ix2 o 1)) * xt (ix3 b 1 n)
        + (w (ix2 o 5) - w (ix2 o 2)) * xt (ix3 b 2 n)) + be (ix2 o 0) : EReal)

/-- The maximum over the neighbours of a flattened source. -/
abbrev SpecGP : Prop := ∀ (src : Vec Ideal S8x262144 .f32) (idx : IVec S8x20x4096 32),
  (∀ j, (idx j).toNat < 4096) → ∀ (b : Fin 8) (c : Fin 64) (n : Fin 4096),
    gmaxP src idx (ix3 b c n) = (⨆ k : Fin 20, src (ix2 b (flat c (idx (ix3 b k n)).toNat)) : EReal)

/-- The maximum over the neighbours, the centre term added and the sum rectified. -/
abbrev SpecGL : Prop := ∀ (src : Vec Ideal S8x262144 .f32) (idx : IVec S8x20x4096 32) (cep : Vec Ideal S8x64x4096 .f32),
  (∀ j, (idx j).toNat < 4096) → ∀ (b : Fin 8) (c : Fin 64) (n : Fin 4096),
    gmaxL src idx cep (ix3 b c n)
      = lreluK slope ((⨆ k : Fin 20, src (ix2 b (flat c (idx (ix3 b k n)).toNat)) : EReal) + cep (ix3 b c n))

/-- A point convolution, rectified. -/
abbrev SpecB : Prop := ∀ (g : Vec Ideal S8x64x4096 .f32) (w : Vec Ideal S64x64 .f32) (b1 : Vec Ideal S64x1 .f32)
    (b : Fin 8) (o : Fin 64) (n : Fin 4096),
  tcb g w b1 (ix3 b o n) = lreluK slope ((∑ c : Fin 64, (w (ix2 o c) * g (ix3 b c n) : EReal)) + b1 (ix2 o 0))

/-- The second point convolution, rectified, then the final convolution's three blocks, the maximum over the points and
the final bias. -/
abbrev SpecT : Prop := ∀ (g2 h0 h1 : Vec Ideal S8x64x4096 .f32) (w2 : Vec Ideal S128x64 .f32) (b2 : Vec Ideal S128x1 .f32)
    (wf0 wf1 : Vec Ideal S512x64 .f32) (wf2 : Vec Ideal S512x128 .f32) (bf : Vec Ideal S1x512 .f32)
    (b : Fin 8) (o : Fin 512),
  tcc g2 h0 h1 w2 b2 wf0 wf1 wf2 bf (ix3 b 0 o)
    = (⨆ n : Fin 4096,
        ((∑ c : Fin 64, (wf0 (ix2 o c) * h0 (ix3 b c n) : EReal))
          + (∑ c : Fin 64, (wf1 (ix2 o c) * h1 (ix3 b c n) : EReal))
          + (∑ c : Fin 128, (wf2 (ix2 o c)
              * lreluK slope ((∑ c' : Fin 64, (w2 (ix2 c c') * g2 (ix3 b c' n) : EReal)) + b2 (ix2 c 0)) : EReal))))
      + bf (ix2 0 o)

/-! ### The host dataflow -/

variable (a0 : Vec Ideal S8x4096x3 .f32) (a1 : IVec S8x4096x20 32) (a2 : Vec Ideal S64x6 .f32) (a3 : Vec Ideal S64 .f32)
  (a4 : Vec Ideal S64x64 .f32) (a5 : Vec Ideal S64 .f32) (a6 : Vec Ideal S128x64 .f32) (a7 : Vec Ideal S128 .f32)
  (a8 : Vec Ideal S512x256 .f32) (a9 : Vec Ideal S512 .f32)

/-- The neighbour lists, transposed to [8, 20, 4096]. -/
def v0 : IVec S8x20x4096 32 := transpose S8x20x4096 [0, 2, 1] a1 Gen.transposes_S8x4096x20_S8x20x4096_0_2_1
/-- The points, transposed to [8, 3, 4096]. -/
def v1 : Vec Ideal S8x3x4096 .f32 := transpose S8x3x4096 [0, 2, 1] a0 Gen.transposes_S8x4096x3_S8x3x4096_0_2_1
/-- The edge bias as a column. -/
def v2 : Vec Ideal S64x1 .f32 := shapeCast S64x1 a3 Gen.shapeCasts_S64_S64x1
/-- The edge convolution's neighbour half. -/
def Y0 : Vec Ideal S8x64x4096 .f32 := tcaY (v1 a0) a2 (v2 a3)
/-- The edge convolution's centre half. -/
def C0 : Vec Ideal S8x64x4096 .f32 := tcaC (v1 a0) a2 (v2 a3)
/-- The first layer's output. -/
def H0 : Vec Ideal S8x64x4096 .f32 :=
  gmaxL (shapeCast S8x262144 (Y0 tcaY a0 a2 a3) Gen.shapeCasts_S8x64x4096_S8x262144) (v0 a1) (C0 tcaC a0 a2 a3)
/-- The first layer's output pooled over the neighbours. -/
def G1 : Vec Ideal S8x64x4096 .f32 :=
  gmaxP (shapeCast S8x262144 (H0 tcaY tcaC gmaxL a0 a1 a2 a3) Gen.shapeCasts_S8x64x4096_S8x262144) (v0 a1)
/-- The second layer's output. -/
def H1 : Vec Ideal S8x64x4096 .f32 :=
  tcb (G1 tcaY tcaC gmaxL gmaxP a0 a1 a2 a3) a4 (shapeCast S64x1 a5 Gen.shapeCasts_S64_S64x1)
/-- The second layer's output pooled over the neighbours. -/
def G2 : Vec Ideal S8x64x4096 .f32 :=
  gmaxP (shapeCast S8x262144 (H1 tcaY tcaC gmaxL gmaxP tcb a0 a1 a2 a3 a4 a5) Gen.shapeCasts_S8x64x4096_S8x262144) (v0 a1)
/-- The last region's output, [8, 1, 512]. -/
def O3 : Vec Ideal S8x1x512 .f32 :=
  tcc (G2 tcaY tcaC gmaxL gmaxP tcb a0 a1 a2 a3 a4 a5) (H0 tcaY tcaC gmaxL a0 a1 a2 a3)
    (H1 tcaY tcaC gmaxL gmaxP tcb a0 a1 a2 a3 a4 a5) a6
    (shapeCast S128x1 a7 Gen.shapeCasts_S128_S128x1)
    (extractStridedSlice S512x64 ![0, 0] a8 Gen.slices_S512x256_S512x64_0_0)
    (extractStridedSlice S512x64 ![0, 64] a8 Gen.slices_S512x256_S512x64_0_64)
    (extractStridedSlice S512x128 ![0, 128] a8 Gen.slices_S512x256_S512x128_0_128)
    (shapeCast S1x512 a9 Gen.shapeCasts_S512_S1x512)

/-- The program's result as a term over the ten argument arrays and the six regions. -/
def kernTerm : Vec Ideal S8x512 .f32 :=
  shapeCast S8x512 (O3 tcaY tcaC gmaxL gmaxP tcb tcc a0 a1 a2 a3 a4 a5 a6 a7 a8 a9) Gen.shapeCasts_S8x1x512_S8x512

/-! ### The layout operations at an index -/

theorem v0_apply (b : Fin 8) (k : Fin 20) (n : Fin 4096) : v0 a1 (ix3 b k n) = a1 (ix3 b n k) :=
  transpose_ix3_021_apply a1 _ b k n

theorem v1_apply (b : Fin 8) (c : Fin 3) (n : Fin 4096) : v1 a0 (ix3 b c n) = a0 (ix3 b n c) :=
  transpose_ix3_021_apply a0 _ b c n

/-- A vector cast to a column reads, at (i, 0), the vector at i. -/
theorem col_apply {m : ℕ} {α : Type} (x : (⟨1, ![m]⟩ : Shape).Idx → α) (h : (⟨1, ![m]⟩ : Shape).ShapeCasts ⟨2, ![m, 1]⟩)
    (i : Fin m) (u : Fin 1) : shapeCast ⟨2, ![m, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The channel and point axes flattened into one: at (b, c * 4096 + m) the array at (b, c, m). -/
theorem flat_apply {α : Type} (X : S8x64x4096.Idx → α) (h : S8x64x4096.ShapeCasts S8x262144)
    (b : Fin 8) (c : Fin 64) (m : Fin 4096) (q : Fin 262144) (hq : q.val = c.val * 4096 + m.val) :
    shapeCast S8x262144 X h (ix2 b q) = X (ix3 b c m) :=
  shapeCast_apply X h _ _ (by
    rw [Shape.rowMajor_val_three, Shape.rowMajor_val_two]
    show (b.val * 64 + c.val) * 4096 + m.val = b.val * 262144 + q.val
    omega)

/-- The unit middle axis dropped: at (b, o) the array at (b, 0, o). -/
theorem drop_mid_apply {α : Type} (X : S8x1x512.Idx → α) (h : S8x1x512.ShapeCasts S8x512) (b : Fin 8) (o : Fin 512) :
    shapeCast S8x512 X h (ix2 b o) = X (ix3 b 0 o) :=
  shapeCast_apply X h _ _ (by
    rw [Shape.rowMajor_val_three, Shape.rowMajor_val_two]
    show (b.val * 1 + 0) * 512 + o.val = b.val * 512 + o.val
    omega)

/-! ### The dataflow read at an index, layer by layer -/

variable (hY : SpecY tcaY) (hC : SpecC tcaC) (hGP : SpecGP gmaxP) (hGL : SpecGL gmaxL) (hB : SpecB tcb) (hT : SpecT tcc)
variable (hidx : ∀ j, (a1 j).toNat < 4096)

include hidx in
/-- The transposed neighbour lists hold the same words: each is below 4096. -/
theorem v0_lt : ∀ j, (v0 a1 j).toNat < 4096 := by
  intro j
  obtain ⟨b, k, n, rfl⟩ : ∃ (b : Fin 8) (k : Fin 20) (n : Fin 4096), j = ix3 b k n := ⟨j 0, j 1, j 2, eq_ix3 j⟩
  rw [v0_apply]
  exact hidx _

/-- The flattened array at the gather's source column is the array at the channel and the neighbour's point. -/
theorem gather_apply (Z : Vec Ideal S8x64x4096 .f32) (h : S8x64x4096.ShapeCasts S8x262144)
    (b : Fin 8) (c : Fin 64) (n : Fin 4096) (k : Fin 20) :
    shapeCast S8x262144 Z h (ix2 b (flat c (v0 a1 (ix3 b k n)).toNat)) = Z (ix3 b c (Cert.Decode.idxOf a1 b n k)) := by
  rw [v0_apply]
  exact flat_apply Z h b c (Cert.Decode.idxOf a1 b n k) _ rfl

include hY in
theorem Y0_apply (b : Fin 8) (o : Fin 64) (n : Fin 4096) :
    Y0 tcaY a0 a2 a3 (ix3 b o n) = Cert.Spec.ky0 (Cert.Decode.at3 a0) (Cert.Decode.at2 a2) b o n := by
  unfold Y0
  rw [hY, v1_apply, v1_apply, v1_apply]
  rfl

include hC in
theorem C0_apply (b : Fin 8) (o : Fin 64) (n : Fin 4096) :
    C0 tcaC a0 a2 a3 (ix3 b o n)
      = Cert.Spec.kc0 (Cert.Decode.at3 a0) (Cert.Decode.at2 a2) (Cert.Decode.at1 a3) b o n := by
  unfold C0
  rw [hC, v1_apply, v1_apply, v1_apply]
  unfold v2
  rw [col_apply]
  rfl

include hY hC hGL hidx in
theorem H0_apply (b : Fin 8) (c : Fin 64) (n : Fin 4096) :
    H0 tcaY tcaC gmaxL a0 a1 a2 a3 (ix3 b c n)
      = Cert.Spec.kh0 slope (Cert.Decode.at3 a0) (Cert.Decode.idxOf a1) (Cert.Decode.at2 a2) (Cert.Decode.at1 a3) b c n := by
  unfold H0
  rw [hGL _ _ _ (v0_lt a1 hidx), C0_apply tcaC a0 a2 a3 hC]
  unfold Cert.Spec.kh0 Cert.Spec.gmax
  refine congrArg (lreluK slope) (congrArg (· + _) (iSup_congr fun k => ?_))
  rw [gather_apply, Y0_apply tcaY a0 a2 a3 hY]

include hY hC hGL hGP hidx in
theorem G1_apply (b : Fin 8) (c : Fin 64) (n : Fin 4096) :
    G1 tcaY tcaC gmaxL gmaxP a0 a1 a2 a3 (ix3 b c n)
      = Cert.Spec.gmax (Cert.Decode.idxOf a1)
          (Cert.Spec.kh0 slope (Cert.Decode.at3 a0) (Cert.Decode.idxOf a1) (Cert.Decode.at2 a2) (Cert.Decode.at1 a3)) b c n := by
  unfold G1
  rw [hGP _ _ (v0_lt a1 hidx)]
  unfold Cert.Spec.gmax
  refine iSup_congr fun k => ?_
  rw [gather_apply, H0_apply tcaY tcaC gmaxL a0 a1 a2 a3 hY hC hGL hidx]

include hY hC hGL hGP hB hidx in
theorem H1_apply (b : Fin 8) (o : Fin 64) (n : Fin 4096) :
    H1 tcaY tcaC gmaxL gmaxP tcb a0 a1 a2 a3 a4 a5 (ix3 b o n)
      = Cert.Spec.kh1 slope (Cert.Decode.at3 a0) (Cert.Decode.idxOf a1) (Cert.Decode.at2 a2) (Cert.Decode.at1 a3)
          (Cert.Decode.at2 a4) (Cert.Decode.at1 a5) b o n := by
  unfold H1
  rw [hB, col_apply]
  unfold Cert.Spec.kh1
  refine congrArg (lreluK slope) (congrArg (· + _) (Finset.sum_congr rfl fun c _ => ?_))
  rw [G1_apply tcaY tcaC gmaxL gmaxP a0 a1 a2 a3 hY hC hGP hGL hidx]

include hY hC hGL hGP hB hidx in
theorem G2_apply (b : Fin 8) (c : Fin 64) (n : Fin 4096) :
    G2 tcaY tcaC gmaxL gmaxP tcb a0 a1 a2 a3 a4 a5 (ix3 b c n)
      = Cert.Spec.gmax (Cert.Decode.idxOf a1)
          (Cert.Spec.kh1 slope (Cert.Decode.at3 a0) (Cert.Decode.idxOf a1) (Cert.Decode.at2 a2) (Cert.Decode.at1 a3)
            (Cert.Decode.at2 a4) (Cert.Decode.at1 a5)) b c n := by
  unfold G2
  rw [hGP _ _ (v0_lt a1 hidx)]
  unfold Cert.Spec.gmax
  refine iSup_congr fun k => ?_
  rw [gather_apply, H1_apply tcaY tcaC gmaxL gmaxP tcb a0 a1 a2 a3 a4 a5 hY hC hGP hGL hB hidx]

include hY hC hGL hGP hB hT hidx in
theorem O3_apply (b : Fin 8) (o : Fin 512) :
    O3 tcaY tcaC gmaxL gmaxP tcb tcc a0 a1 a2 a3 a4 a5 a6 a7 a8 a9 (ix3 b 0 o)
      = Cert.Spec.kout slope (Cert.Decode.at3 a0) (Cert.Decode.idxOf a1) (Cert.Decode.at2 a2) (Cert.Decode.at1 a3)
          (Cert.Decode.at2 a4) (Cert.Decode.at1 a5) (Cert.Decode.at2 a6) (Cert.Decode.at1 a7) (Cert.Decode.at2 a8)
          (Cert.Decode.at1 a9) b o := by
  unfold O3
  rw [hT, shapeCast_a_1a_apply]
  unfold Cert.Spec.kout
  refine congrArg (· + _) (iSup_congr fun n => ?_)
  unfold Cert.Spec.kp
  refine congrArg₂ (· + ·) (congrArg₂ (· + ·) ?_ ?_) ?_
  · refine Finset.sum_congr rfl fun c _ => ?_
    rw [H0_apply tcaY tcaC gmaxL a0 a1 a2 a3 hY hC hGL hidx,
      slice2_axis1_apply 0 a8 _ o c ⟨c.val, by omega⟩ (Nat.zero_add _).symm]
  · refine Finset.sum_congr rfl fun c _ => ?_
    rw [H1_apply tcaY tcaC gmaxL gmaxP tcb a0 a1 a2 a3 a4 a5 hY hC hGP hGL hB hidx, slice2_axis1_eq]
  · refine Finset.sum_congr rfl fun c _ => ?_
    rw [slice2_axis1_eq, col_apply]
    unfold Cert.Spec.kh2
    refine congrArg (_ * ·) (congrArg (lreluK slope) (congrArg (· + _) (Finset.sum_congr rfl fun c' _ => ?_)))
    rw [G2_apply tcaY tcaC gmaxL gmaxP tcb a0 a1 a2 a3 a4 a5 hY hC hGP hGL hB hidx]

/-! ### The result -/

include hY hC hGL hGP hB hT hidx in
/-- The program's result is the specification's kernel side at the ten argument arrays. -/
theorem kernTerm_eq_kernelOut :
    kernTerm tcaY tcaC gmaxL gmaxP tcb tcc a0 a1 a2 a3 a4 a5 a6 a7 a8 a9
      = Cert.Decode.kernelOut a0 a1 a2 a3 a4 a5 a6 a7 a8 a9 := by
  funext j
  obtain ⟨b, o, rfl⟩ : ∃ (b : Fin 8) (o : Fin 512), j = ix2 b o := ⟨j 0, j 1, eq_ix2 j⟩
  unfold kernTerm
  rw [drop_mid_apply, O3_apply tcaY tcaC gmaxL gmaxP tcb tcc a0 a1 a2 a3 a4 a5 a6 a7 a8 a9 hY hC hGP hGL hB hT hidx]
  rfl

include hY hC hGL hGP hB hT hidx in
/-- The program's result is the reference side: the points, the edge weights and the edge bias real, the slope a
non-negative real, every neighbour word below 4096. -/
theorem kern_value (hs : ∃ r : ℝ, 0 ≤ r ∧ slope = (r : EReal))
    (h0 : ∀ j, ∃ r : ℝ, a0 j = (r : EReal)) (h2 : ∀ j, ∃ r : ℝ, a2 j = (r : EReal)) (h3 : ∀ j, ∃ r : ℝ, a3 j = (r : EReal)) :
    kernTerm tcaY tcaC gmaxL gmaxP tcb tcc a0 a1 a2 a3 a4 a5 a6 a7 a8 a9
      = Cert.Decode.refOut a0 a1 a2 a3 a4 a5 a6 a7 a8 a9 := by
  rw [kernTerm_eq_kernelOut tcaY tcaC gmaxL gmaxP tcb tcc a0 a1 a2 a3 a4 a5 a6 a7 a8 a9 hY hC hGP hGL hB hT hidx]
  unfold Cert.Decode.kernelOut Cert.Decode.refOut
  rw [Cert.Spec.kout_eq_rout slope hs _ _ _ _ _ _ _ _ _ _ (fun b n c => h0 _) (fun o c => h2 _) (fun o => h3 _)]

end

end Cert.Proof.KIValue

end
-- ==== Proof.KITcb.lean ====
/-
  The second TensorCore call (the first point convolution, rectified): its proof data, its body obligation, and the array
  it leaves.

  The call runs over the 8 clouds. At cloud b the body reads the cloud's gathered features g : [1, 64, 4096], the weights
  w : [64, 64] and the bias column b1 : [64, 1], and stores the rectified w · g + b1 into the output's block. The store
  fills the whole block, so what the body leaves in the output's staging buffer is a function of the three input blocks
  alone (tcbOut: the stored payload), and the inputs' buffers are left as found. The proof data (tcbDat) names exactly
  that; the body's triple (tcbSoundKernel) is proved once at a symbolic grid point over whole staging buffers, and the body
  obligation (tcbBodyObligation) is that triple at the buffers the pipeline is on at the point. The tallies the core owes
  and the bound on its recorded pairs are parameters, the same at every point: the body makes no wait and signals nothing,
  so they pass through it unread. The output's blocks tile its array, one cloud each, so the array ends as one function of
  the three operand arrays (tcbArr).
-/
import proofs.«209975_g17849884082380_cont_8to1_1483_11_alg».proof.Proof.KISetup
import proofs.«209975_g17849884082380_cont_8to1_1483_11_alg».proof.Proof.Gen.KernelIdeal.Launch
import proofs.«209975_g17849884082380_cont_8to1_1483_11_alg».proof.Proof.Gen.KernelIdeal.Points
import proofs.«209975_g17849884082380_cont_8to1_1483_11_alg».proof.Proof.KITcbValue
import proofs.«209975_g17849884082380_cont_8to1_1483_11_alg».proof.Proof.KIValue
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

local notation "𝕄" => MT nD τ sig (HIx 3) (Elt F) ℕ UU ℕ

/-! ## The rectangles the body reads and writes through -/

/-- The whole block of points [1, 64, 4096]: the features read, and the output written. -/
abbrev tcbRG : Rect S1x64x4096 := Rect.unit (s := S1x64x4096) ![0, 0, 0] S1x64x4096.size inb_S1x64x4096_S1x64x4096_0_0_0
/-- The whole weights [64, 64]. -/
abbrev tcbRW : Rect S64x64 := Rect.unit (s := S64x64) ![0, 0] S64x64.size inb_S64x64_S64x64_0_0
/-- The whole bias column [64, 1]. -/
abbrev tcbRB : Rect S64x1 := Rect.unit (s := S64x1) ![0, 0] S64x1.size inb_S64x1_S64x1_0_0

/-! ## What the body leaves in the output window's buffer -/

/-- The output's staging buffer after the body, from the features' block, the weights and the bias: its one store. -/
def tcbOut (x0 : Vec F S1x64x4096 .f32) (x1 : Vec F S64x64 .f32) (x2 : Vec F S64x1 .f32) : Vec F S1x64x4096 .f32 :=
  View.canon [⟨tcbRG, k3_pay1 (View.ld x1 tcbRW) (View.ld x0 tcbRG) (View.ld x2 tcbRB)⟩]

/-- A store through the whole output block covers it. -/
theorem tcbCoverO (p0 : Vec F S1x64x4096 .f32) (y : S1x64x4096.Idx) :
    ∃ pc ∈ ([⟨tcbRG, p0⟩] : List (View.Piece (Elt F) S1x64x4096 .f32)), y ∈ pc.1.set :=
  View.cover_of_tiled [⟨tcbRG, p0⟩] S1x64x4096.size (by rfl) y

/-! ## The body's triple -/

set_option maxHeartbeats 4000000 in
/-- The body on whole staging buffers, the inputs' at contents x0, x1, x2 and the output's at anything, runs to the
    continuation holding the inputs' as they were and the output's at what its one store leaves (tcbOut). -/
theorem tcbSoundKernel (c : Dev nD) (E : Set ℕ) (i : grid3.Coords)
    (arg1 : Memref sig .tc .vmem S1x64x4096 .f32) (harg1 : arg1.IsWhole) (arg2 : Memref sig .tc .vmem S64x64 .f32) (harg2 : arg2.IsWhole)
    (arg3 : Memref sig .tc .vmem S64x1 .f32) (harg3 : arg3.IsWhole) (arg4 : Memref sig .tc .vmem S1x64x4096 .f32) (harg4 : arg4.IsWhole)
    (x0 : Vec F S1x64x4096 .f32) (x1 : Vec F S64x64 .f32) (x2 : Vec F S64x1 .f32) (Kc : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tcbOut x0 x1 x2)) -∗ Kc ⟨⟩))
      ⊢ wp frame (wpE (defs₀ (F := F)) Variants.none c none) E (cc3__tcb_body i arg1 harg1 arg2 harg2 arg3 harg3 arg4 harg4) Kc := by
  simp only [cc3__tcb_body_eq_skeleton]; unfold cc3__tcb_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tcbCoverO _)

/-! ## The windows' blocks -/

/-- Window w's block at point t, read off its array as the region finds it (V). -/
def tcbWin (c : Dev nD) (V : (b : Ref sig .tc) → Buf (Elt F) ((c : Thread nD τ).loc b)) (w : Fin cfg3.W) (t : Fin cfg3.N) :
    ((cfg3.win w).xblock (cfg3.grid.coords t)).Idx → Elt F (cfg3.win w).elt :=
  ((cfg3.win w).blk t).view.read (Elt F) (V (Pipeline.arrRef spec3 w))

/-! ## The pipeline's proof data -/

/-- The proof data of the second TensorCore call on core c: the arrays as the region finds them (V); after the body at
    point t each input's buffer at its block and the output's at what the body stores there, as a function of the
    input blocks; the invariant the scoped buffers no window stages, untouched; the core's tallies O and the bound B
    on its recorded pairs, the same at every point (the body makes no wait and signals nothing); full shares. -/
def tcbDat (c : Dev nD) (V : (b : Ref sig .tc) → Buf (Elt F) ((c : Thread nD τ).loc b))
    (O : CellTallies nD τ sig (HIx 3)) (B : Set (SemLoc sig × HIx 3)) : Dat τ (Elt F) (HIx 3) ℕ UU ℕ cfg3 c where
  A w := V (Pipeline.arrRef spec3 w)
  after w t := match w with
    | ⟨0, _⟩ => tcbWin c V 0 t
    | ⟨1, _⟩ => tcbWin c V 1 t
    | ⟨2, _⟩ => tcbWin c V 2 t
    | ⟨3, _⟩ => tcbOut (tcbWin c V 0 t) (tcbWin c V 1 t) (tcbWin c V 2 t)
  Φ _ := Pipeline.scopedRest spec3 c
  q _ := fullShare
  owed _ := O
  recorded _ := B

section Data

variable (c : Dev nD) (V : (b : Ref sig .tc) → Buf (Elt F) ((c : Thread nD τ).loc b))
  (O : CellTallies nD τ sig (HIx 3)) (B : Set (SemLoc sig × HIx 3))

/-- The proof data's arrays are the region-entry contents. -/
theorem tcbDat_A (w : Fin cfg3.W) : (tcbDat c V O B).A w = V (Pipeline.arrRef spec3 w) := by
  dsimp only [tcbDat]

/-- What the body leaves, window by window. -/
theorem tcbDat_after0 (t : Fin cfg3.N) : (tcbDat c V O B).after 0 t = tcbWin c V 0 t := by dsimp only [tcbDat]
theorem tcbDat_after1 (t : Fin cfg3.N) : (tcbDat c V O B).after 1 t = tcbWin c V 1 t := by dsimp only [tcbDat]
theorem tcbDat_after2 (t : Fin cfg3.N) : (tcbDat c V O B).after 2 t = tcbWin c V 2 t := by dsimp only [tcbDat]
theorem tcbDat_after3 (t : Fin cfg3.N) :
    (tcbDat c V O B).after 3 t = tcbOut (tcbWin c V 0 t) (tcbWin c V 1 t) (tcbWin c V 2 t) := by dsimp only [tcbDat]

/-- Each input's current staging buffer holds its block at every point, fetched there or not: unfetched, the block
    index has not moved. -/
theorem tcbDat_before0 (t : Fin cfg3.N) (d) : (tcbDat c V O B).before 0 t d = tcbWin c V 0 t :=
  ((tcbDat c V O B).before_in_eq_fetched 0 rfl (fun _ => rfl) (fun _ _ _ => rfl)
      (fun t => by rw [tcbDat_after0]; unfold Dat.blockOf tcbWin; rw [tcbDat_A]; try rfl) t d).trans
    (by unfold Dat.fetched Dat.blockOf tcbWin; rw [tcbDat_A]; try rfl)
theorem tcbDat_before1 (t : Fin cfg3.N) (d) : (tcbDat c V O B).before 1 t d = tcbWin c V 1 t :=
  ((tcbDat c V O B).before_in_eq_fetched 1 rfl (fun _ => rfl) (fun _ _ _ => rfl)
      (fun t => by rw [tcbDat_after1]; unfold Dat.blockOf tcbWin; rw [tcbDat_A]; try rfl) t d).trans
    (by unfold Dat.fetched Dat.blockOf tcbWin; rw [tcbDat_A]; try rfl)
theorem tcbDat_before2 (t : Fin cfg3.N) (d) : (tcbDat c V O B).before 2 t d = tcbWin c V 2 t :=
  ((tcbDat c V O B).before_in_eq_fetched 2 rfl (fun _ => rfl) (fun _ _ _ => rfl)
      (fun t => by rw [tcbDat_after2]; unfold Dat.blockOf tcbWin; rw [tcbDat_A]; try rfl) t d).trans
    (by unfold Dat.fetched Dat.blockOf tcbWin; rw [tcbDat_A]; try rfl)

/-! ## The body obligation, at a generic point -/

/-- What the body is called with at point t, the windows one by one, -/
def tcbBodyPre (t : Fin cfg3.N) : sProp 𝕄 :=
  iprop((tcbDat c V O B).Φ t.castSucc ∗ (tcbDat c V O B).owesAt none t.castSucc
    ∗ (∃ d, owns (c : Thread nD τ) (st3_0 t) fullShare ((tcbDat c V O B).before 0 t d))
    ∗ (∃ d, owns (c : Thread nD τ) (st3_1 t) fullShare ((tcbDat c V O B).before 1 t d))
    ∗ (∃ d, owns (c : Thread nD τ) (st3_2 t) fullShare ((tcbDat c V O B).before 2 t d))
    ∗ (∃ d, owns (c : Thread nD τ) (st3_3 t) fullShare ((tcbDat c V O B).before 3 t d)))

/-- and what it returns. -/
def tcbBodyPost (t : Fin cfg3.N) : sProp 𝕄 :=
  iprop((tcbDat c V O B).Φ t.succ ∗ (tcbDat c V O B).owesAt none t.succ
    ∗ owns (c : Thread nD τ) (st3_0 t) fullShare ((tcbDat c V O B).after 0 t)
    ∗ owns (c : Thread nD τ) (st3_1 t) fullShare ((tcbDat c V O B).after 1 t)
    ∗ owns (c : Thread nD τ) (st3_2 t) fullShare ((tcbDat c V O B).after 2 t)
    ∗ owns (c : Thread nD τ) (st3_3 t) fullShare ((tcbDat c V O B).after 3 t))

/-- The body at any point: the inputs' memrefs hold their blocks, so the body's triple applies; the invariant and the
    core's owed tallies pass through unread. -/
theorem tcbSoundBody (t : Fin cfg3.N) :
    tcbBodyPre c V O B t ⊢ wp frame (wpE (defs₀ (F := F)) Variants.none c none) Set.univ (bodyAt3 t) (fun _ => tcbBodyPost c V O B t) := by
  unfold tcbBodyPre tcbBodyPost bodyAt3
  simp only [tcbDat_before0, tcbDat_before1, tcbDat_before2]
  rw [show (tcbDat c V O B).Φ t.succ = (tcbDat c V O B).Φ t.castSucc from rfl,
    show (tcbDat c V O B).owesAt none t.succ = (tcbDat c V O B).owesAt none t.castSucc from rfl,
    tcbDat_after0, tcbDat_after1, tcbDat_after2, tcbDat_after3]
  iintro ⟨HΦ, Ho, ⟨%d0, H0⟩, ⟨%d1, H1⟩, ⟨%d2, H2⟩, ⟨%d3, H3⟩⟩
  iapply (tcbSoundKernel c Set.univ (grid3.coords t) _ _ _ _ _ _ _ _ (tcbWin c V 0 t) (tcbWin c V 1 t) (tcbWin c V 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem tcbBodyObligation : BodyObligation (tcbDat (F := F) c V O B) (defs₀ (F := F)) Variants.none (none : HIx 3) Set.univ := fun t => by
  rw [bigSep_W3, bigSep_W3]
  exact tcbSoundBody c V O B t

end Data

/-! ## The array the call leaves -/

/-- Cloud b's block of an array of clouds. -/
def tcbCloud (g : Vec F S8x64x4096 .f32) (b : Fin 8) : Vec F S1x64x4096 .f32 := fun j => g (ix3 b (j 1) (j 2))

/-- The output array as one function of the three operand arrays: cloud by cloud, the body's stored block of the cloud's
    block of features. -/
def tcbArr (g : Vec F S8x64x4096 .f32) (w : Vec F S64x64 .f32) (b1 : Vec F S64x1 .f32) : Vec F S8x64x4096 .f32 :=
  fun i => tcbBlk (tcbCloud g (i 0)) w b1 (ix3 (0 : Fin 1) (i 1) (i 2))

/-- The array at cloud b, read at a block index, is the stored block of cloud b's block there. -/
theorem tcbArr_blk (g : Vec F S8x64x4096 .f32) (w : Vec F S64x64 .f32) (b1 : Vec F S64x1 .f32) (b : Fin 8) (j : S1x64x4096.Idx) :
    tcbArr g w b1 (ix3 b (j 1) (j 2)) = tcbBlk (tcbCloud g b) w b1 j := by
  show tcbBlk (tcbCloud g b) w b1 (ix3 (0 : Fin 1) (j 1) (j 2)) = tcbBlk (tcbCloud g b) w b1 j
  refine congrArg _ (funext fun a => Fin.ext ?_)
  match a with
  | ⟨0, _⟩ => show 0 = (j 0).val; have h1 : (j 0).val < 1 := (j 0).isLt; omega
  | ⟨1, _⟩ => rfl
  | ⟨2, _⟩ => rfl

theorem tcb_hz3 : (![0, 0, 0] : Fin 3 → Nat) = fun _ => 0 := funext fun a => by fin_cases a <;> rfl
theorem tcb_hz2 : (![0, 0] : Fin 2 → Nat) = fun _ => 0 := funext fun a => by fin_cases a <;> rfl

/-- The one store through the whole block leaves its payload: the value function of the three blocks. -/
theorem tcbOut_eq (x0 : Vec F S1x64x4096 .f32) (x1 : Vec F S64x64 .f32) (x2 : Vec F S64x1 .f32) :
    tcbOut x0 x1 x2 = tcbBlk x0 x1 x2 := by
  unfold tcbOut tcbBlk
  rw [View.canon_unit_zero tcb_hz3]
  simp only [View.ld_unit_zero (S := S1x64x4096) tcb_hz3, View.ld_unit_zero (S := S64x64) tcb_hz2,
    View.ld_unit_zero (S := S64x1) tcb_hz2]

/-- The printed index maps, decided over the grid: the features' and the output's block is the point's cloud, the weights'
    and the bias's the whole array. -/
theorem tcb_idx_facts : ∀ t : Fin cfg3.N, win3_0.index t (0 : Fin 3) = t.val ∧ win3_0.index t (1 : Fin 3) = 0
    ∧ win3_0.index t (2 : Fin 3) = 0 ∧ win3_1.index t (0 : Fin 2) = 0 ∧ win3_1.index t (1 : Fin 2) = 0
    ∧ win3_2.index t (0 : Fin 2) = 0 ∧ win3_2.index t (1 : Fin 2) = 0
    ∧ win3_3.index t (0 : Fin 3) = t.val ∧ win3_3.index t (1 : Fin 3) = 0 ∧ win3_3.index t (2 : Fin 3) = 0 :=
  (by decide +kernel : ∀ t : Fin grid3.N, _)

/-- A point as a cloud. -/
def tcbPt (t : Fin cfg3.N) : Fin 8 := ⟨t.val, by have h : t.val < grid3.N := t.isLt; rw [N_3] at h; exact h⟩

section Array

variable (c : Dev nD) (V : (b : Ref sig .tc) → Buf (Elt F) ((c : Thread nD τ).loc b))
  (O : CellTallies nD τ sig (HIx 3)) (B : Set (SemLoc sig × HIx 3))

/-- The features' block at a point is the point's cloud. -/
theorem tcbWin0_eq (t : Fin cfg3.N) : tcbWin c V 0 t = tcbCloud (V main_v7) (tcbPt t) := by
  obtain ⟨e00, e01, e02, -⟩ := tcb_idx_facts t
  funext y
  show V main_v7 (((cfg3.win 0).blk t).view.emb y) = V main_v7 (ix3 (tcbPt t) (y 1) (y 2))
  refine congrArg _ (funext fun a => Fin.ext ?_)
  match a with
  | ⟨0, _⟩ => show win3_0.index t (0 : Fin 3) * 1 + 1 * (y 0).val = t.val; have h1 : (y 0).val < 1 := (y 0).isLt; omega
  | ⟨1, _⟩ => show win3_0.index t (1 : Fin 3) * 64 + 1 * (y 1).val = (y 1).val; omega
  | ⟨2, _⟩ => show win3_0.index t (2 : Fin 3) * 4096 + 1 * (y 2).val = (y 2).val; omega

/-- The weights' block is the whole array. -/
theorem tcbWin1_eq (t : Fin cfg3.N) : tcbWin c V 1 t = V main_arg4 := by
  obtain ⟨-, -, -, e10, e11, -⟩ := tcb_idx_facts t
  funext y
  show V main_arg4 (((cfg3.win 1).blk t).view.emb y) = V main_arg4 y
  refine congrArg _ (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The bias's block is the whole array. -/
theorem tcbWin2_eq (t : Fin cfg3.N) : tcbWin c V 2 t = V main_v8 := by
  obtain ⟨-, -, -, -, -, e20, e21, -⟩ := tcb_idx_facts t
  funext y
  show V main_v8 (((cfg3.win 2).blk t).view.emb y) = V main_v8 y
  refine congrArg _ (funext fun a => Fin.ext ?_)
  match a with
  | ⟨0, _⟩ => show win3_2.index t (0 : Fin 2) * 64 + 1 * (y 0).val = (y 0).val; omega
  | ⟨1, _⟩ => show win3_2.index t (1 : Fin 2) * 1 + 1 * (y 1).val = (y 1).val; omega

/-- What point t writes back is block t of the array function of the operand arrays as the region finds them. -/
theorem tcbDat_flushed3 (t : Fin cfg3.N) :
    (tcbDat c V O B).flushed 3 t
      = ((cfg3.win 3).blk t).view.read (Elt F) (tcbArr (V main_v7) (V main_arg4) (V main_v8)) := by
  show (cfg3.win 3).cut (grid3.coords t) ((tcbDat c V O B).after 3 t) = _
  rw [tcbDat_after3, tcbOut_eq, tcbWin0_eq, tcbWin1_eq, tcbWin2_eq]
  obtain ⟨-, -, -, -, -, -, -, e30, e31, e32⟩ := tcb_idx_facts t
  funext j
  show tcbBlk (tcbCloud (V main_v7) (tcbPt t)) (V main_arg4) (V main_v8) j
    = tcbArr (V main_v7) (V main_arg4) (V main_v8) (((cfg3.win 3).blk t).view.emb j)
  have he : ((cfg3.win 3).blk t).view.emb j = ix3 (tcbPt t) (j 1) (j 2) := by
    funext a; apply Fin.ext
    match a with
    | ⟨0, _⟩ => show win3_3.index t (0 : Fin 3) * 1 + 1 * (j 0).val = t.val; have h1 : (j 0).val < 1 := (j 0).isLt; omega
    | ⟨1, _⟩ => show win3_3.index t (1 : Fin 3) * 64 + 1 * (j 1).val = (j 1).val; omega
    | ⟨2, _⟩ => show win3_3.index t (2 : Fin 3) * 4096 + 1 * (j 2).val = (j 2).val; omega
  rw [he]
  exact (tcbArr_blk _ _ _ (tcbPt t) j).symm

/-- An index of the output array is in point t's block iff each coordinate is in the block's range on its axis. -/
theorem tcb_mem_blk3 (t : Fin cfg3.N) (i : S8x64x4096.Idx) :
    i ∈ ((cfg3.win 3).blk t).view.set ↔ ∀ a : Fin 3, win3_3.index t a * S1x64x4096.size a ≤ (i a).val
      ∧ (i a).val < win3_3.index t a * S1x64x4096.size a + S1x64x4096.size a := by
  show i ∈ ((View.whole main_v9).slice (win3_3.rect t)).set ↔ _
  rw [View.set_slice_whole, Rect.mem_set_unit]
  exact Iff.rfl

/-- Every index of the output array is in the block of the point that is its cloud. -/
theorem tcb_cover3 (i : S8x64x4096.Idx) :
    ∃ t : Fin cfg3.N, (cfg3.win 3).flush t = true ∧ i ∈ ((cfg3.win 3).blk t).view.set := by
  have hi0 : (i 0).val < 8 := (i 0).isLt
  have hi1 : (i 1).val < 64 := (i 1).isLt
  have hi2 : (i 2).val < 4096 := (i 2).isLt
  have hN : (i 0).val < grid3.N := by rw [N_3]; exact hi0
  obtain ⟨-, -, -, -, -, -, -, e30, e31, e32⟩ := tcb_idx_facts ⟨(i 0).val, hN⟩
  refine ⟨⟨(i 0).val, hN⟩, flush3_3 _, ?_⟩
  rw [tcb_mem_blk3]
  intro a
  match a with
  | ⟨0, _⟩ =>
    show win3_3.index ⟨(i 0).val, hN⟩ (0 : Fin 3) * 1 ≤ (i 0).val ∧ (i 0).val < win3_3.index ⟨(i 0).val, hN⟩ (0 : Fin 3) * 1 + 1
    rw [e30]; show (i 0).val * 1 ≤ (i 0).val ∧ (i 0).val < (i 0).val * 1 + 1; omega
  | ⟨1, _⟩ =>
    show win3_3.index ⟨(i 0).val, hN⟩ (1 : Fin 3) * 64 ≤ (i 1).val ∧ (i 1).val < win3_3.index ⟨(i 0).val, hN⟩ (1 : Fin 3) * 64 + 64
    rw [e31]; omega
  | ⟨2, _⟩ =>
    show win3_3.index ⟨(i 0).val, hN⟩ (2 : Fin 3) * 4096 ≤ (i 2).val ∧ (i 2).val < win3_3.index ⟨(i 0).val, hN⟩ (2 : Fin 3) * 4096 + 4096
    rw [e32]; omega

/-- The output array after the call: the array function of the three operand arrays as the region finds them. -/
theorem tcbDat_arrAt3 : (tcbDat c V O B).arrAt 3 cfg3.N = tcbArr (V main_v7) (V main_arg4) (V main_v8) :=
  (tcbDat c V O B).arrAt_eq_of_cover 3 _ (fun t _ => tcbDat_flushed3 c V O B t) tcb_cover3

/-- The operand arrays are never written back: they stay as the region finds them. -/
theorem tcbDat_arrAt0 (n : ℕ) : (tcbDat c V O B).arrAt 0 n = V (Pipeline.arrRef spec3 0) :=
  ((tcbDat c V O B).arrAt_in 0 rfl n).trans (tcbDat_A c V O B 0)
theorem tcbDat_arrAt1 (n : ℕ) : (tcbDat c V O B).arrAt 1 n = V (Pipeline.arrRef spec3 1) :=
  ((tcbDat c V O B).arrAt_in 1 rfl n).trans (tcbDat_A c V O B 1)
theorem tcbDat_arrAt2 (n : ℕ) : (tcbDat c V O B).arrAt 2 n = V (Pipeline.arrRef spec3 2) :=
  ((tcbDat c V O B).arrAt_in 2 rfl n).trans (tcbDat_A c V O B 2)

end Array

/-- At the ideal floats the array function is the rectified point convolution, at every cloud, channel and point. -/
theorem tcbArr_spec : Cert.Proof.KIValue.SpecB (tcbArr (F := Ideal)) := fun g w b1 b o n => by
  show tcbBlk (tcbCloud g b) w b1 (ix3 (0 : Fin 1) o n) = _
  exact tcbBlk_ideal (tcbCloud g b) w b1 o n

end Cert.Proof.KI

end
-- ==== Proof.KITccValue.lean ====
/-
  The third TensorCore body's stored block as a function of its nine loaded blocks, and its value at the ideal floats.
-/
import proofs.«209975_g17849884082380_cont_8to1_1483_11_alg».proof.Proof.Gen.KernelIdeal.Skeleton
import proofs.«209975_g17849884082380_cont_8to1_1483_11_alg».proof.Proof.Decode
import proofs.«209975_g17849884082380_cont_8to1_1483_11_alg».proof.Proof.KIBlockOps

noncomputable section

namespace Cert.Proof.KI

open Cert.KernelIdeal Cert.KernelIdeal.Gen
open Idealize.ShloMosaic Idealize.ShloMosaic.ValueIdx
open scoped BigOperators

/-- What the body stores, as a function of its nine loaded blocks: the gathered features g2 and the two earlier layers'
    blocks h0 and h1, the last layer's weights w2 and bias column b2, the final convolution's three column blocks
    wf0, wf1, wf2 and the final bias row bf. -/
def tccBlk {F : FTy → Type} [FloatOps F] (g2 h0 h1 : Vec F S1x64x4096 .f32) (w2 : Vec F S128x64 .f32) (b2 : Vec F S128x1 .f32)
    (wf0 wf1 : Vec F S512x64 .f32) (wf2 : Vec F S512x128 .f32) (bf : Vec F S1x512 .f32) : Vec F S1x1x512 .f32 :=
  Gen.k5_pay1 (Gen.k5_pay2 w2 g2 b2 wf0 h0 wf1 h1 wf2) bf

/-- The stored block is the three products added, maximised over the points, plus the final bias. -/
theorem tccBlk_eq {F : FTy → Type} [FloatOps F] (g2 h0 h1 : Vec F S1x64x4096 .f32) (w2 : Vec F S128x64 .f32)
    (b2 : Vec F S128x1 .f32) (wf0 wf1 : Vec F S512x64 .f32) (wf2 : Vec F S512x128 .f32) (bf : Vec F S1x512 .f32) :
    tccBlk g2 h0 h1 w2 b2 wf0 wf1 wf2 bf
      = Ops.tccV (c0 := 64) (c1 := 64) (c2 := 128) (q := 512) (n := 4096)
          dot_S128x64_S64x4096_S128x4096_1_0_0_1_n_n dot_S512x64_S64x4096_S512x4096_1_0_0_1_n_n
          dot_S512x64_S64x4096_S512x4096_1_0_0_1_n_n dot_S512x128_S128x4096_S512x4096_1_0_0_1_n_n
          g2 h0 h1 w2 b2 wf0 wf1 wf2 bf
          shapeCasts_S1x64x4096_S64x4096 shapeCasts_S128x1_S128x1 broadcasts_S128x1_S128x4096
          shapeCasts_S512x64_S512x64 shapeCasts_S1x64x4096_S64x4096 shapeCasts_S512x64_S512x64 shapeCasts_S512x128_S512x128
          reduces_S512x4096_S512 (.inl rfl) rfl
          shapeCasts_S512_S1x1x512 shapeCasts_S1x512_S1x512 shapeCasts_S1x512_S1x1x512 := rfl

/-- The body's products are plain ones. -/
theorem tcc_dot2_plain : dot_S128x64_S64x4096_S128x4096_1_0_0_1_n_n = DotDims.plain 128 64 4096 := rfl
theorem tcc_dotf01_plain : dot_S512x64_S64x4096_S512x4096_1_0_0_1_n_n = DotDims.plain 512 64 4096 := rfl
theorem tcc_dotf2_plain : dot_S512x128_S128x4096_S512x4096_1_0_0_1_n_n = DotDims.plain 512 128 4096 := rfl

/-- At the ideal floats the stored block is, at output channel o, the maximum over the points of the final convolution
    of the three layers' outputs (the last layer's computed here), plus the final bias. -/
theorem tccBlk_ideal (g2 h0 h1 : Vec Ideal S1x64x4096 .f32) (w2 : Vec Ideal S128x64 .f32) (b2 : Vec Ideal S128x1 .f32)
    (wf0 wf1 : Vec Ideal S512x64 .f32) (wf2 : Vec Ideal S512x128 .f32) (bf : Vec Ideal S1x512 .f32) (o : Fin 512) :
    tccBlk g2 h0 h1 w2 b2 wf0 wf1 wf2 bf (ix3 (0 : Fin 1) (0 : Fin 1) o)
      = (⨆ n : Fin 4096, ((∑ c : Fin 64, wf0 (ix2 o c) * h0 (ix3 (0 : Fin 1) c n))
            + (∑ c : Fin 64, wf1 (ix2 o c) * h1 (ix3 (0 : Fin 1) c n))
            + (∑ c : Fin 128, wf2 (ix2 o c) * Cert.Spec.lreluK Cert.Decode.slope
                ((∑ c' : Fin 64, w2 (ix2 c c') * g2 (ix3 (0 : Fin 1) c' n)) + b2 (ix2 c (0 : Fin 1))))))
          + bf (ix2 (0 : Fin 1) o) := by
  rw [tccBlk_eq]
  exact Ops.tccV_ideal _ tcc_dot2_plain _ tcc_dotf01_plain _ tcc_dotf01_plain _ tcc_dotf2_plain g2 h0 h1 w2 b2 wf0 wf1 wf2 bf
    _ _ _ _ _ _ _ _ _ _ _ _ _ o

end Cert.Proof.KI

end
-- ==== Proof.KITcc.lean ====
/-
  The third TensorCore call (the second point convolution, rectified, the final convolution of the three layers' outputs
  and its maximum over the points): its proof data, its body obligation, and the array it leaves.

  The call runs over the 8 clouds. At cloud b the body reads the cloud's gathered features g2 and the two earlier layers'
  blocks h0, h1 (each [1, 64, 4096]), the last layer's weights w2 : [128, 64] and bias column b2 : [128, 1], the final
  convolution's three column blocks wf0, wf1 : [512, 64] and wf2 : [512, 128] and the final bias row bf : [1, 512], and
  stores, per output channel, the maximum over the points of wf0 · h0 + wf1 · h1 + wf2 · rectified (w2 · g2 + b2), plus
  the final bias, into the output's block [1, 1, 512]. The store fills the whole block, so what the body leaves in the
  output's staging buffer is a function of the nine input blocks alone (tccOut: the stored payload), and the inputs'
  buffers are left as found. The proof data (tccDat) names exactly that; the body's triple (tccSoundKernel) is proved once
  at a symbolic grid point over whole staging buffers, and the body obligation (tccBodyObligation) is that triple at the
  buffers the pipeline is on at the point. The tallies the core owes and the bound on its recorded pairs are parameters,
  the same at every point: the body makes no wait and signals nothing, so they pass through it unread. The output's blocks
  tile its array, one cloud each, so the array ends as one function of the nine operand arrays (tccArr).
-/
import proofs.«209975_g17849884082380_cont_8to1_1483_11_alg».proof.Proof.KISetup
import proofs.«209975_g17849884082380_cont_8to1_1483_11_alg».proof.Proof.Gen.KernelIdeal.Launch
import proofs.«209975_g17849884082380_cont_8to1_1483_11_alg».proof.Proof.Gen.KernelIdeal.Points
import proofs.«209975_g17849884082380_cont_8to1_1483_11_alg».proof.Proof.KITccValue
import proofs.«209975_g17849884082380_cont_8to1_1483_11_alg».proof.Proof.KIValue
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

local notation "𝕄" => MT nD τ sig (HIx 3) (Elt F) ℕ UU ℕ

/-! ## The rectangles the body reads and writes through -/

/-- The whole block of points [1, 64, 4096]. -/
abbrev tccRG : Rect S1x64x4096 := Rect.unit (s := S1x64x4096) ![0, 0, 0] S1x64x4096.size inb_S1x64x4096_S1x64x4096_0_0_0
/-- The whole last-layer weights [128, 64]. -/
abbrev tccRW2 : Rect S128x64 := Rect.unit (s := S128x64) ![0, 0] S128x64.size inb_S128x64_S128x64_0_0
/-- The whole last-layer bias column [128, 1]. -/
abbrev tccRB2 : Rect S128x1 := Rect.unit (s := S128x1) ![0, 0] S128x1.size inb_S128x1_S128x1_0_0
/-- A whole column block [512, 64] of the final weights. -/
abbrev tccRF : Rect S512x64 := Rect.unit (s := S512x64) ![0, 0] S512x64.size inb_S512x64_S512x64_0_0
/-- The whole column block [512, 128] of the final weights. -/
abbrev tccRF2 : Rect S512x128 := Rect.unit (s := S512x128) ![0, 0] S512x128.size inb_S512x128_S512x128_0_0
/-- The whole final bias row [1, 512]. -/
abbrev tccRBf : Rect S1x512 := Rect.unit (s := S1x512) ![0, 0] S1x512.size inb_S1x512_S1x512_0_0
/-- The whole output block [1, 1, 512]. -/
abbrev tccRO : Rect S1x1x512 := Rect.unit (s := S1x1x512) ![0, 0, 0] S1x1x512.size inb_S1x1x512_S1x1x512_0_0_0

/-! ## What the body leaves in the output window's buffer -/

/-- The output's staging buffer after the body, from the nine input blocks: its one store. -/
def tccOut (x0 x1 x2 : Vec F S1x64x4096 .f32) (x3 : Vec F S128x64 .f32) (x4 : Vec F S128x1 .f32) (x5 x6 : Vec F S512x64 .f32)
    (x7 : Vec F S512x128 .f32) (x8 : Vec F S1x512 .f32) : Vec F S1x1x512 .f32 :=
  View.canon [⟨tccRO, k5_pay1 (k5_pay2 (View.ld x3 tccRW2) (View.ld x0 tccRG) (View.ld x4 tccRB2) (View.ld x5 tccRF)
    (View.ld x1 tccRG) (View.ld x6 tccRF) (View.ld x2 tccRG) (View.ld x7 tccRF2)) (View.ld x8 tccRBf)⟩]

/-- A store through the whole output block covers it. -/
theorem tccCoverO (p0 : Vec F S1x1x512 .f32) (y : S1x1x512.Idx) :
    ∃ pc ∈ ([⟨tccRO, p0⟩] : List (View.Piece (Elt F) S1x1x512 .f32)), y ∈ pc.1.set :=
  View.cover_of_tiled [⟨tccRO, p0⟩] S1x1x512.size (by rfl) y

/-! ## The body's triple -/

set_option maxRecDepth 65536 in
set_option maxHeartbeats 8000000 in
/-- The body on whole staging buffers, the inputs' at contents x0 … x8 and the output's at anything, runs to the
    continuation holding the inputs' as they were and the output's at what its one store leaves (tccOut). -/
theorem tccSoundKernel (c : Dev nD) (E : Set ℕ) (i : grid5.Coords)
    (arg1 : Memref sig .tc .vmem S1x64x4096 .f32) (harg1 : arg1.IsWhole) (arg2 : Memref sig .tc .vmem S1x64x4096 .f32) (harg2 : arg2.IsWhole)
    (arg3 : Memref sig .tc .vmem S1x64x4096 .f32) (harg3 : arg3.IsWhole) (arg4 : Memref sig .tc .vmem S128x64 .f32) (harg4 : arg4.IsWhole)
    (arg5 : Memref sig .tc .vmem S128x1 .f32) (harg5 : arg5.IsWhole) (arg6 : Memref sig .tc .vmem S512x64 .f32) (harg6 : arg6.IsWhole)
    (arg7 : Memref sig .tc .vmem S512x64 .f32) (harg7 : arg7.IsWhole) (arg8 : Memref sig .tc .vmem S512x128 .f32) (harg8 : arg8.IsWhole)
    (arg9 : Memref sig .tc .vmem S1x512 .f32) (harg9 : arg9.IsWhole) (arg10 : Memref sig .tc .vmem S1x1x512 .f32) (harg10 : arg10.IsWhole)
    (x0 x1 x2 : Vec F S1x64x4096 .f32) (x3 : Vec F S128x64 .f32) (x4 : Vec F S128x1 .f32) (x5 x6 : Vec F S512x64 .f32)
    (x7 : Vec F S512x128 .f32) (x8 : Vec F S1x512 .f32) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (tccOut x0 x1 x2 x3 x4 x5 x6 x7 x8)) -∗ Kc ⟨⟩))
      ⊢ wp frame (wpE (defs₀ (F := F)) Variants.none c none) E
          (cc5__tcc_body i arg1 harg1 arg2 harg2 arg3 harg3 arg4 harg4 arg5 harg5 arg6 harg6 arg7 harg7 arg8 harg8 arg9 harg9 arg10 harg10) Kc := by
  simp only [cc5__tcc_body_eq_skeleton]; unfold cc5__tcc_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (tccCoverO _)).trans ?_
  dsimp only
  rfl

/-! ## The windows' blocks -/

/-- Window w's block at point t, read off its array as the region finds it (V). -/
def tccWin (c : Dev nD) (V : (b : Ref sig .tc) → Buf (Elt F) ((c : Thread nD τ).loc b)) (w : Fin cfg5.W) (t : Fin cfg5.N) :
    ((cfg5.win w).xblock (cfg5.grid.coords t)).Idx → Elt F (cfg5.win w).elt :=
  ((cfg5.win w).blk t).view.read (Elt F) (V (Pipeline.arrRef spec5 w))

/-! ## The pipeline's proof data -/

/-- The proof data of the third TensorCore call on core c: the arrays as the region finds them (V); after the body at
    point t each input's buffer at its block and the output's at what the body stores there, as a function of the
    input blocks; the invariant the scoped buffers no window stages, untouched; the core's tallies O and the bound B
    on its recorded pairs, the same at every point (the body makes no wait and signals nothing); full shares. -/
def tccDat (c : Dev nD) (V : (b : Ref sig .tc) → Buf (Elt F) ((c : Thread nD τ).loc b))
    (O : CellTallies nD τ sig (HIx 3)) (B : Set (SemLoc sig × HIx 3)) : Dat τ (Elt F) (HIx 3) ℕ UU ℕ cfg5 c where
  A w := V (Pipeline.arrRef spec5 w)
  after w t := match w with
    | ⟨0, _⟩ => tccWin c V 0 t
    | ⟨1, _⟩ => tccWin c V 1 t
    | ⟨2, _⟩ => tccWin c V 2 t
    | ⟨3, _⟩ => tccWin c V 3 t
    | ⟨4, _⟩ => tccWin c V 4 t
    | ⟨5, _⟩ => tccWin c V 5 t
    | ⟨6, _⟩ => tccWin c V 6 t
    | ⟨7, _⟩ => tccWin c V 7 t
    | ⟨8, _⟩ => tccWin c V 8 t
    | ⟨9, _⟩ => tccOut (tccWin c V 0 t) (tccWin c V 1 t) (tccWin c V 2 t) (tccWin c V 3 t) (tccWin c V 4 t) (tccWin c V 5 t)
        (tccWin c V 6 t) (tccWin c V 7 t) (tccWin c V 8 t)
  Φ _ := Pipeline.scopedRest spec5 c
  q _ := fullShare
  owed _ := O
  recorded _ := B

section Data

variable (c : Dev nD) (V : (b : Ref sig .tc) → Buf (Elt F) ((c : Thread nD τ).loc b))
  (O : CellTallies nD τ sig (HIx 3)) (B : Set (SemLoc sig × HIx 3))

/-- The proof data's arrays are the region-entry contents. -/
theorem tccDat_A (w : Fin cfg5.W) : (tccDat c V O B).A w = V (Pipeline.arrRef spec5 w) := by
  dsimp only [tccDat]

/-- What the body leaves, window by window. -/
theorem tccDat_after0 (t : Fin cfg5.N) : (tccDat c V O B).after 0 t = tccWin c V 0 t := by dsimp only [tccDat]
theorem tccDat_after1 (t : Fin cfg5.N) : (tccDat c V O B).after 1 t = tccWin c V 1 t := by dsimp only [tccDat]
theorem tccDat_after2 (t : Fin cfg5.N) : (tccDat c V O B).after 2 t = tccWin c V 2 t := by dsimp only [tccDat]
theorem tccDat_after3 (t : Fin cfg5.N) : (tccDat c V O B).after 3 t = tccWin c V 3 t := by dsimp only [tccDat]
theorem tccDat_after4 (t : Fin cfg5.N) : (tccDat c V O B).after 4 t = tccWin c V 4 t := by dsimp only [tccDat]
theorem tccDat_after5 (t : Fin cfg5.N) : (tccDat c V O B).after 5 t = tccWin c V 5 t := by dsimp only [tccDat]
theorem tccDat_after6 (t : Fin cfg5.N) : (tccDat c V O B).after 6 t = tccWin c V 6 t := by dsimp only [tccDat]
theorem tccDat_after7 (t : Fin cfg5.N) : (tccDat c V O B).after 7 t = tccWin c V 7 t := by dsimp only [tccDat]
theorem tccDat_after8 (t : Fin cfg5.N) : (tccDat c V O B).after 8 t = tccWin c V 8 t := by dsimp only [tccDat]
theorem tccDat_after9 (t : Fin cfg5.N) :
    (tccDat c V O B).after 9 t = tccOut (tccWin c V 0 t) (tccWin c V 1 t) (tccWin c V 2 t) (tccWin c V 3 t) (tccWin c V 4 t)
      (tccWin c V 5 t) (tccWin c V 6 t) (tccWin c V 7 t) (tccWin c V 8 t) := by dsimp only [tccDat]

/-- Each input's current staging buffer holds its block at every point, fetched there or not: unfetched, the block
    index has not moved. -/
theorem tccDat_before0 (t : Fin cfg5.N) (d) : (tccDat c V O B).before 0 t d = tccWin c V 0 t :=
  ((tccDat c V O B).before_in_eq_fetched 0 rfl (fun _ => rfl) (fun _ _ _ => rfl)
      (fun t => by rw [tccDat_after0]; unfold Dat.blockOf tccWin; rw [tccDat_A]; try rfl) t d).trans
    (by unfold Dat.fetched Dat.blockOf tccWin; rw [tccDat_A]; try rfl)
theorem tccDat_before1 (t : Fin cfg5.N) (d) : (tccDat c V O B).before 1 t d = tccWin c V 1 t :=
  ((tccDat c V O B).before_in_eq_fetched 1 rfl (fun _ => rfl) (fun _ _ _ => rfl)
      (fun t => by rw [tccDat_after1]; unfold Dat.blockOf tccWin; rw [tccDat_A]; try rfl) t d).trans
    (by unfold Dat.fetched Dat.blockOf tccWin; rw [tccDat_A]; try rfl)
theorem tccDat_before2 (t : Fin cfg5.N) (d) : (tccDat c V O B).before 2 t d = tccWin c V 2 t :=
  ((tccDat c V O B).before_in_eq_fetched 2 rfl (fun _ => rfl) (fun _ _ _ => rfl)
      (fun t => by rw [tccDat_after2]; unfold Dat.blockOf tccWin; rw [tccDat_A]; try rfl) t d).trans
    (by unfold Dat.fetched Dat.blockOf tccWin; rw [tccDat_A]; try rfl)
theorem tccDat_before3 (t : Fin cfg5.N) (d) : (tccDat c V O B).before 3 t d = tccWin c V 3 t :=
  ((tccDat c V O B).before_in_eq_fetched 3 rfl (fun _ => rfl) (fun _ _ _ => rfl)
      (fun t => by rw [tccDat_after3]; unfold Dat.blockOf tccWin; rw [tccDat_A]; try rfl) t d).trans
    (by unfold Dat.fetched Dat.blockOf tccWin; rw [tccDat_A]; try rfl)
theorem tccDat_before4 (t : Fin cfg5.N) (d) : (tccDat c V O B).before 4 t d = tccWin c V 4 t :=
  ((tccDat c V O B).before_in_eq_fetched 4 rfl (fun _ => rfl) (fun _ _ _ => rfl)
      (fun t => by rw [tccDat_after4]; unfold Dat.blockOf tccWin; rw [tccDat_A]; try rfl) t d).trans
    (by unfold Dat.fetched Dat.blockOf tccWin; rw [tccDat_A]; try rfl)
theorem tccDat_before5 (t : Fin cfg5.N) (d) : (tccDat c V O B).before 5 t d = tccWin c V 5 t :=
  ((tccDat c V O B).before_in_eq_fetched 5 rfl (fun _ => rfl) (fun _ _ _ => rfl)
      (fun t => by rw [tccDat_after5]; unfold Dat.blockOf tccWin; rw [tccDat_A]; try rfl) t d).trans
    (by unfold Dat.fetched Dat.blockOf tccWin; rw [tccDat_A]; try rfl)
theorem tccDat_before6 (t : Fin cfg5.N) (d) : (tccDat c V O B).before 6 t d = tccWin c V 6 t :=
  ((tccDat c V O B).before_in_eq_fetched 6 rfl (fun _ => rfl) (fun _ _ _ => rfl)
      (fun t => by rw [tccDat_after6]; unfold Dat.blockOf tccWin; rw [tccDat_A]; try rfl) t d).trans
    (by unfold Dat.fetched Dat.blockOf tccWin; rw [tccDat_A]; try rfl)
theorem tccDat_before7 (t : Fin cfg5.N) (d) : (tccDat c V O B).before 7 t d = tccWin c V 7 t :=
  ((tccDat c V O B).before_in_eq_fetched 7 rfl (fun _ => rfl) (fun _ _ _ => rfl)
      (fun t => by rw [tccDat_after7]; unfold Dat.blockOf tccWin; rw [tccDat_A]; try rfl) t d).trans
    (by unfold Dat.fetched Dat.blockOf tccWin; rw [tccDat_A]; try rfl)
theorem tccDat_before8 (t : Fin cfg5.N) (d) : (tccDat c V O B).before 8 t d = tccWin c V 8 t :=
  ((tccDat c V O B).before_in_eq_fetched 8 rfl (fun _ => rfl) (fun _ _ _ => rfl)
      (fun t => by rw [tccDat_after8]; unfold Dat.blockOf tccWin; rw [tccDat_A]; try rfl) t d).trans
    (by unfold Dat.fetched Dat.blockOf tccWin; rw [tccDat_A]; try rfl)

/-! ## The body obligation, at a generic point -/

/-- What the body is called with at point t, the windows one by one, -/
def tccBodyPre (t : Fin cfg5.N) : sProp 𝕄 :=
  iprop((tccDat c V O B).Φ t.castSucc ∗ (tccDat c V O B).owesAt none t.castSucc
    ∗ (∃ d, owns (c : Thread nD τ) (st5_0 t) fullShare ((tccDat c V O B).before 0 t d))
    ∗ (∃ d, owns (c : Thread nD τ) (st5_1 t) fullShare ((tccDat c V O B).before 1 t d))
    ∗ (∃ d, owns (c : Thread nD τ) (st5_2 t) fullShare ((tccDat c V O B).before 2 t d))
    ∗ (∃ d, owns (c : Thread nD τ) (st5_3 t) fullShare ((tccDat c V O B).before 3 t d))
    ∗ (∃ d, owns (c : Thread nD τ) (st5_4 t) fullShare ((tccDat c V O B).before 4 t d))
    ∗ (∃ d, owns (c : Thread nD τ) (st5_5 t) fullShare ((tccDat c V O B).before 5 t d))
    ∗ (∃ d, owns (c : Thread nD τ) (st5_6 t) fullShare ((tccDat c V O B).before 6 t d))
    ∗ (∃ d, owns (c : Thread nD τ) (st5_7 t) fullShare ((tccDat c V O B).before 7 t d))
    ∗ (∃ d, owns (c : Thread nD τ) (st5_8 t) fullShare ((tccDat c V O B).before 8 t d))
    ∗ (∃ d, owns (c : Thread nD τ) (st5_9 t) fullShare ((tccDat c V O B).before 9 t d)))

/-- and what it returns. -/
def tccBodyPost (t : Fin cfg5.N) : sProp 𝕄 :=
  iprop((tccDat c V O B).Φ t.succ ∗ (tccDat c V O B).owesAt none t.succ
    ∗ owns (c : Thread nD τ) (st5_0 t) fullShare ((tccDat c V O B).after 0 t)
    ∗ owns (c : Thread nD τ) (st5_1 t) fullShare ((tccDat c V O B).after 1 t)
    ∗ owns (c : Thread nD τ) (st5_2 t) fullShare ((tccDat c V O B).after 2 t)
    ∗ owns (c : Thread nD τ) (st5_3 t) fullShare ((tccDat c V O B).after 3 t)
    ∗ owns (c : Thread nD τ) (st5_4 t) fullShare ((tccDat c V O B).after 4 t)
    ∗ owns (c : Thread nD τ) (st5_5 t) fullShare ((tccDat c V O B).after 5 t)
    ∗ owns (c : Thread nD τ) (st5_6 t) fullShare ((tccDat c V O B).after 6 t)
    ∗ owns (c : Thread nD τ) (st5_7 t) fullShare ((tccDat c V O B).after 7 t)
    ∗ owns (c : Thread nD τ) (st5_8 t) fullShare ((tccDat c V O B).after 8 t)
    ∗ owns (c : Thread nD τ) (st5_9 t) fullShare ((tccDat c V O B).after 9 t))

/-- The body at any point: the inputs' memrefs hold their blocks, so the body's triple applies; the invariant and the
    core's owed tallies pass through unread. -/
theorem tccSoundBody (t : Fin cfg5.N) :
    tccBodyPre c V O B t ⊢ wp frame (wpE (defs₀ (F := F)) Variants.none c none) Set.univ (bodyAt5 t) (fun _ => tccBodyPost c V O B t) := by
  unfold tccBodyPre tccBodyPost bodyAt5
  simp only [tccDat_before0, tccDat_before1, tccDat_before2, tccDat_before3, tccDat_before4, tccDat_before5, tccDat_before6,
    tccDat_before7, tccDat_before8]
  rw [show (tccDat c V O B).Φ t.succ = (tccDat c V O B).Φ t.castSucc from rfl,
    show (tccDat c V O B).owesAt none t.succ = (tccDat c V O B).owesAt none t.castSucc from rfl,
    tccDat_after0, tccDat_after1, tccDat_after2, tccDat_after3, tccDat_after4, tccDat_after5, tccDat_after6, tccDat_after7,
    tccDat_after8, tccDat_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (tccSoundKernel c Set.univ (grid5.coords t) _ _ _ _ _ _ _ _ _ _ _ _ _ _ _ _ _ _ _ _ (tccWin c V 0 t) (tccWin c V 1 t)
    (tccWin c V 2 t) (tccWin c V 3 t) (tccWin c V 4 t) (tccWin c V 5 t) (tccWin c V 6 t) (tccWin c V 7 t) (tccWin c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem tccBodyObligation : BodyObligation (tccDat (F := F) c V O B) (defs₀ (F := F)) Variants.none (none : HIx 3) Set.univ := fun t => by
  rw [bigSep_W5, bigSep_W5]
  exact tccSoundBody c V O B t

end Data

/-! ## The array the call leaves -/

/-- Cloud b's block of an array of clouds. -/
def tccCloud (g : Vec F S8x64x4096 .f32) (b : Fin 8) : Vec F S1x64x4096 .f32 := fun j => g (ix3 b (j 1) (j 2))

/-- The output array as one function of the nine operand arrays: cloud by cloud, the body's stored block of the cloud's
    three blocks. -/
def tccArr (g2 h0 h1 : Vec F S8x64x4096 .f32) (w2 : Vec F S128x64 .f32) (b2 : Vec F S128x1 .f32) (wf0 wf1 : Vec F S512x64 .f32)
    (wf2 : Vec F S512x128 .f32) (bf : Vec F S1x512 .f32) : Vec F S8x1x512 .f32 :=
  fun i => tccBlk (tccCloud g2 (i 0)) (tccCloud h0 (i 0)) (tccCloud h1 (i 0)) w2 b2 wf0 wf1 wf2 bf (ix3 (0 : Fin 1) (0 : Fin 1) (i 2))

/-- The array at cloud b, read at a block index, is the stored block of cloud b's blocks there. -/
theorem tccArr_blk (g2 h0 h1 : Vec F S8x64x4096 .f32) (w2 : Vec F S128x64 .f32) (b2 : Vec F S128x1 .f32)
    (wf0 wf1 : Vec F S512x64 .f32) (wf2 : Vec F S512x128 .f32) (bf : Vec F S1x512 .f32) (b : Fin 8) (j : S1x1x512.Idx) :
    tccArr g2 h0 h1 w2 b2 wf0 wf1 wf2 bf (ix3 b (j 1) (j 2))
      = tccBlk (tccCloud g2 b) (tccCloud h0 b) (tccCloud h1 b) w2 b2 wf0 wf1 wf2 bf j := by
  show tccBlk (tccCloud g2 b) (tccCloud h0 b) (tccCloud h1 b) w2 b2 wf0 wf1 wf2 bf (ix3 (0 : Fin 1) (0 : Fin 1) (j 2))
    = tccBlk (tccCloud g2 b) (tccCloud h0 b) (tccCloud h1 b) w2 b2 wf0 wf1 wf2 bf j
  refine congrArg _ (funext fun a => Fin.ext ?_)
  match a with
  | ⟨0, _⟩ => show 0 = (j 0).val; have h1 : (j 0).val < 1 := (j 0).isLt; omega
  | ⟨1, _⟩ => show 0 = (j 1).val; have h1 : (j 1).val < 1 := (j 1).isLt; omega
  | ⟨2, _⟩ => rfl

theorem tcc_hz3 : (![0, 0, 0] : Fin 3 → Nat) = fun _ => 0 := funext fun a => by fin_cases a <;> rfl
theorem tcc_hz2 : (![0, 0] : Fin 2 → Nat) = fun _ => 0 := funext fun a => by fin_cases a <;> rfl

/-- The one store through the whole block leaves its payload: the value function of the nine blocks. -/
theorem tccOut_eq (x0 x1 x2 : Vec F S1x64x4096 .f32) (x3 : Vec F S128x64 .f32) (x4 : Vec F S128x1 .f32) (x5 x6 : Vec F S512x64 .f32)
    (x7 : Vec F S512x128 .f32) (x8 : Vec F S1x512 .f32) :
    tccOut x0 x1 x2 x3 x4 x5 x6 x7 x8 = tccBlk x0 x1 x2 x3 x4 x5 x6 x7 x8 := by
  unfold tccOut tccBlk
  rw [View.canon_unit_zero tcc_hz3]
  simp only [View.ld_unit_zero (S := S1x64x4096) tcc_hz3, View.ld_unit_zero (S := S128x64) tcc_hz2,
    View.ld_unit_zero (S := S128x1) tcc_hz2, View.ld_unit_zero (S := S512x64) tcc_hz2,
    View.ld_unit_zero (S := S512x128) tcc_hz2, View.ld_unit_zero (S := S1x512) tcc_hz2]

/-- The printed index maps, decided over the grid: the three blocks of points and the output's block are the point's
    cloud, the six parameter windows the whole array. -/
theorem tcc_idx_pts : ∀ t : Fin cfg5.N, win5_0.index t (0 : Fin 3) = t.val ∧ win5_0.index t (1 : Fin 3) = 0
    ∧ win5_0.index t (2 : Fin 3) = 0 ∧ win5_1.index t (0 : Fin 3) = t.val ∧ win5_1.index t (1 : Fin 3) = 0
    ∧ win5_1.index t (2 : Fin 3) = 0 ∧ win5_2.index t (0 : Fin 3) = t.val ∧ win5_2.index t (1 : Fin 3) = 0
    ∧ win5_2.index t (2 : Fin 3) = 0 ∧ win5_9.index t (0 : Fin 3) = t.val ∧ win5_9.index t (1 : Fin 3) = 0
    ∧ win5_9.index t (2 : Fin 3) = 0 :=
  (by decide +kernel : ∀ t : Fin grid5.N, _)
theorem tcc_idx_par : ∀ t : Fin cfg5.N, win5_3.index t (0 : Fin 2) = 0 ∧ win5_3.index t (1 : Fin 2) = 0
    ∧ win5_4.index t (0 : Fin 2) = 0 ∧ win5_4.index t (1 : Fin 2) = 0 ∧ win5_5.index t (0 : Fin 2) = 0
    ∧ win5_5.index t (1 : Fin 2) = 0 ∧ win5_6.index t (0 : Fin 2) = 0 ∧ win5_6.index t (1 : Fin 2) = 0
    ∧ win5_7.index t (0 : Fin 2) = 0 ∧ win5_7.index t (1 : Fin 2) = 0 ∧ win5_8.index t (0 : Fin 2) = 0
    ∧ win5_8.index t (1 : Fin 2) = 0 :=
  (by decide +kernel : ∀ t : Fin grid5.N, _)

/-- A point as a cloud. -/
def tccPt (t : Fin cfg5.N) : Fin 8 := ⟨t.val, by have h : t.val < grid5.N := t.isLt; rw [N_5] at h; exact h⟩

section Array

variable (c : Dev nD) (V : (b : Ref sig .tc) → Buf (Elt F) ((c : Thread nD τ).loc b))
  (O : CellTallies nD τ sig (HIx 3)) (B : Set (SemLoc sig × HIx 3))

/-- The gathered features' block at a point is the point's cloud. -/
theorem tccWin0_eq (t : Fin cfg5.N) : tccWin c V 0 t = tccCloud (V main_v11) (tccPt t) := by
  obtain ⟨e0, e1, e2, -⟩ := tcc_idx_pts t
  funext y
  show V main_v11 (((cfg5.win 0).blk t).view.emb y) = V main_v11 (ix3 (tccPt t) (y 1) (y 2))
  refine congrArg _ (funext fun a => Fin.ext ?_)
  match a with
  | ⟨0, _⟩ => show win5_0.index t (0 : Fin 3) * 1 + 1 * (y 0).val = t.val; have h1 : (y 0).val < 1 := (y 0).isLt; omega
  | ⟨1, _⟩ => show win5_0.index t (1 : Fin 3) * 64 + 1 * (y 1).val = (y 1).val; omega
  | ⟨2, _⟩ => show win5_0.index t (2 : Fin 3) * 4096 + 1 * (y 2).val = (y 2).val; omega

/-- The first layer's block at a point is the point's cloud. -/
theorem tccWin1_eq (t : Fin cfg5.N) : tccWin c V 1 t = tccCloud (V main_v5) (tccPt t) := by
  obtain ⟨-, -, -, e0, e1, e2, -⟩ := tcc_idx_pts t
  funext y
  show V main_v5 (((cfg5.win 1).blk t).view.emb y) = V main_v5 (ix3 (tccPt t) (y 1) (y 2))
  refine congrArg _ (funext fun a => Fin.ext ?_)
  match a with
  | ⟨0, _⟩ => show win5_1.index t (0 : Fin 3) * 1 + 1 * (y 0).val = t.val; have h1 : (y 0).val < 1 := (y 0).isLt; omega
  | ⟨1, _⟩ => show win5_1.index t (1 : Fin 3) * 64 + 1 * (y 1).val = (y 1).val; omega
  | ⟨2, _⟩ => show win5_1.index t (2 : Fin 3) * 4096 + 1 * (y 2).val = (y 2).val; omega

/-- The second layer's block at a point is the point's cloud. -/
theorem tccWin2_eq (t : Fin cfg5.N) : tccWin c V 2 t = tccCloud (V main_v9) (tccPt t) := by
  obtain ⟨-, -, -, -, -, -, e0, e1, e2, -⟩ := tcc_idx_pts t
  funext y
  show V main_v9 (((cfg5.win 2).blk t).view.emb y) = V main_v9 (ix3 (tccPt t) (y 1) (y 2))
  refine congrArg _ (funext fun a => Fin.ext ?_)
  match a with
  | ⟨0, _⟩ => show win5_2.index t (0 : Fin 3) * 1 + 1 * (y 0).val = t.val; have h1 : (y 0).val < 1 := (y 0).isLt; omega
  | ⟨1, _⟩ => show win5_2.index t (1 : Fin 3) * 64 + 1 * (y 1).val = (y 1).val; omega
  | ⟨2, _⟩ => show win5_2.index t (2 : Fin 3) * 4096 + 1 * (y 2).val = (y 2).val; omega

/-- Each parameter window's block is the whole array. -/
theorem tccWin3_eq (t : Fin cfg5.N) : tccWin c V 3 t = V main_arg6 := by
  obtain ⟨e0, e1, -⟩ := tcc_idx_par t
  funext y
  show V main_arg6 (((cfg5.win 3).blk t).view.emb y) = V main_arg6 y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 64 + 1 * (y 1).val = (y 1).val; omega
theorem tccWin4_eq (t : Fin cfg5.N) : tccWin c V 4 t = V main_v12 := by
  obtain ⟨-, -, e0, e1, -⟩ := tcc_idx_par t
  funext y
  show V main_v12 (((cfg5.win 4).blk t).view.emb y) = V main_v12 y
  refine congrArg _ (funext fun a => Fin.ext ?_)
  match a with
  | ⟨0, _⟩ => show win5_4.index t (0 : Fin 2) * 128 + 1 * (y 0).val = (y 0).val; omega
  | ⟨1, _⟩ => show win5_4.index t (1 : Fin 2) * 1 + 1 * (y 1).val = (y 1).val; omega
theorem tccWin5_eq (t : Fin cfg5.N) : tccWin c V 5 t = V main_v14 := by
  obtain ⟨-, -, -, -, e0, e1, -⟩ := tcc_idx_par t
  funext y
  show V main_v14 (((cfg5.win 5).blk t).view.emb y) = V main_v14 y
  refine congrArg _ (funext fun a => Fin.ext ?_)
  match a with
  | ⟨0, _⟩ => show win5_5.index t (0 : Fin 2) * 512 + 1 * (y 0).val = (y 0).val; omega
  | ⟨1, _⟩ => show win5_5.index t (1 : Fin 2) * 64 + 1 * (y 1).val = (y 1).val; omega
theorem tccWin6_eq (t : Fin cfg5.N) : tccWin c V 6 t = V main_v15 := by
  obtain ⟨-, -, -, -, -, -, e0, e1, -⟩ := tcc_idx_par t
  funext y
  show V main_v15 (((cfg5.win 6).blk t).view.emb y) = V main_v15 y
  refine congrArg _ (funext fun a => Fin.ext ?_)
  match a with
  | ⟨0, _⟩ => show win5_6.index t (0 : Fin 2) * 512 + 1 * (y 0).val = (y 0).val; omega
  | ⟨1, _⟩ => show win5_6.index t (1 : Fin 2) * 64 + 1 * (y 1).val = (y 1).val; omega
theorem tccWin7_eq (t : Fin cfg5.N) : tccWin c V 7 t = V main_v16 := by
  obtain ⟨-, -, -, -, -, -, -, -, e0, e1, -⟩ := tcc_idx_par t
  funext y
  show V main_v16 (((cfg5.win 7).blk t).view.emb y) = V main_v16 y
  refine congrArg _ (funext fun a => Fin.ext ?_)
  match a with
  | ⟨0, _⟩ => show win5_7.index t (0 : Fin 2) * 512 + 1 * (y 0).val = (y 0).val; omega
  | ⟨1, _⟩ => show win5_7.index t (1 : Fin 2) * 128 + 1 * (y 1).val = (y 1).val; omega
theorem tccWin8_eq (t : Fin cfg5.N) : tccWin c V 8 t = V main_v13 := by
  obtain ⟨-, -, -, -, -, -, -, -, -, -, e0, e1⟩ := tcc_idx_par t
  funext y
  show V main_v13 (((cfg5.win 8).blk t).view.emb y) = V main_v13 y
  refine congrArg _ (funext fun a => Fin.ext ?_)
  match a with
  | ⟨0, _⟩ => show win5_8.index t (0 : Fin 2) * 1 + 1 * (y 0).val = (y 0).val; omega
  | ⟨1, _⟩ => show win5_8.index t (1 : Fin 2) * 512 + 1 * (y 1).val = (y 1).val; omega

/-- What point t writes back is block t of the array function of the operand arrays as the region finds them. -/
theorem tccDat_flushed9 (t : Fin cfg5.N) :
    (tccDat c V O B).flushed 9 t
      = ((cfg5.win 9).blk t).view.read (Elt F) (tccArr (V main_v11) (V main_v5) (V main_v9) (V main_arg6) (V main_v12)
          (V main_v14) (V main_v15) (V main_v16) (V main_v13)) := by
  show (cfg5.win 9).cut (grid5.coords t) ((tccDat c V O B).after 9 t) = _
  rw [tccDat_after9, tccOut_eq, tccWin0_eq, tccWin1_eq, tccWin2_eq, tccWin3_eq, tccWin4_eq, tccWin5_eq, tccWin6_eq, tccWin7_eq,
    tccWin8_eq]
  obtain ⟨-, -, -, -, -, -, -, -, -, e90, e91, e92⟩ := tcc_idx_pts t
  funext j
  show tccBlk (tccCloud (V main_v11) (tccPt t)) (tccCloud (V main_v5) (tccPt t)) (tccCloud (V main_v9) (tccPt t)) (V main_arg6)
      (V main_v12) (V main_v14) (V main_v15) (V main_v16) (V main_v13) j
    = tccArr (V main_v11) (V main_v5) (V main_v9) (V main_arg6) (V main_v12) (V main_v14) (V main_v15) (V main_v16) (V main_v13)
        (((cfg5.win 9).blk t).view.emb j)
  have he : ((cfg5.win 9).blk t).view.emb j = ix3 (tccPt t) (j 1) (j 2) := by
    funext a; apply Fin.ext
    match a with
    | ⟨0, _⟩ => show win5_9.index t (0 : Fin 3) * 1 + 1 * (j 0).val = t.val; have h1 : (j 0).val < 1 := (j 0).isLt; omega
    | ⟨1, _⟩ => show win5_9.index t (1 : Fin 3) * 1 + 1 * (j 1).val = (j 1).val; omega
    | ⟨2, _⟩ => show win5_9.index t (2 : Fin 3) * 512 + 1 * (j 2).val = (j 2).val; omega
  rw [he]
  exact (tccArr_blk _ _ _ _ _ _ _ _ _ (tccPt t) j).symm

/-- An index of the output array is in point t's block iff each coordinate is in the block's range on its axis. -/
theorem tcc_mem_blk9 (t : Fin cfg5.N) (i : S8x1x512.Idx) :
    i ∈ ((cfg5.win 9).blk t).view.set ↔ ∀ a : Fin 3, win5_9.index t a * S1x1x512.size a ≤ (i a).val
      ∧ (i a).val < win5_9.index t a * S1x1x512.size a + S1x1x512.size a := by
  show i ∈ ((View.whole main_v17).slice (win5_9.rect t)).set ↔ _
  rw [View.set_slice_whole, Rect.mem_set_unit]
  exact Iff.rfl

/-- Every index of the output array is in the block of the point that is its cloud. -/
theorem tcc_cover9 (i : S8x1x512.Idx) :
    ∃ t : Fin cfg5.N, (cfg5.win 9).flush t = true ∧ i ∈ ((cfg5.win 9).blk t).view.set := by
  have hi0 : (i 0).val < 8 := (i 0).isLt
  have hi1 : (i 1).val < 1 := (i 1).isLt
  have hi2 : (i 2).val < 512 := (i 2).isLt
  have hN : (i 0).val < grid5.N := by rw [N_5]; exact hi0
  obtain ⟨-, -, -, -, -, -, -, -, -, e90, e91, e92⟩ := tcc_idx_pts ⟨(i 0).val, hN⟩
  refine ⟨⟨(i 0).val, hN⟩, flush5_9 _, ?_⟩
  rw [tcc_mem_blk9]
  intro a
  match a with
  | ⟨0, _⟩ =>
    show win5_9.index ⟨(i 0).val, hN⟩ (0 : Fin 3) * 1 ≤ (i 0).val ∧ (i 0).val < win5_9.index ⟨(i 0).val, hN⟩ (0 : Fin 3) * 1 + 1
    rw [e90]; show (i 0).val * 1 ≤ (i 0).val ∧ (i 0).val < (i 0).val * 1 + 1; omega
  | ⟨1, _⟩ =>
    show win5_9.index ⟨(i 0).val, hN⟩ (1 : Fin 3) * 1 ≤ (i 1).val ∧ (i 1).val < win5_9.index ⟨(i 0).val, hN⟩ (1 : Fin 3) * 1 + 1
    rw [e91]; omega
  | ⟨2, _⟩ =>
    show win5_9.index ⟨(i 0).val, hN⟩ (2 : Fin 3) * 512 ≤ (i 2).val ∧ (i 2).val < win5_9.index ⟨(i 0).val, hN⟩ (2 : Fin 3) * 512 + 512
    rw [e92]; omega

/-- The output array after the call: the array function of the nine operand arrays as the region finds them. -/
theorem tccDat_arrAt9 : (tccDat c V O B).arrAt 9 cfg5.N
    = tccArr (V main_v11) (V main_v5) (V main_v9) (V main_arg6) (V main_v12) (V main_v14) (V main_v15) (V main_v16) (V main_v13) :=
  (tccDat c V O B).arrAt_eq_of_cover 9 _ (fun t _ => tccDat_flushed9 c V O B t) tcc_cover9

/-- The operand arrays are never written back: they stay as the region finds them. -/
theorem tccDat_arrAt0 (n : ℕ) : (tccDat c V O B).arrAt 0 n = V (Pipeline.arrRef spec5 0) :=
  ((tccDat c V O B).arrAt_in 0 rfl n).trans (tccDat_A c V O B 0)
theorem tccDat_arrAt1 (n : ℕ) : (tccDat c V O B).arrAt 1 n = V (Pipeline.arrRef spec5 1) :=
  ((tccDat c V O B).arrAt_in 1 rfl n).trans (tccDat_A c V O B 1)
theorem tccDat_arrAt2 (n : ℕ) : (tccDat c V O B).arrAt 2 n = V (Pipeline.arrRef spec5 2) :=
  ((tccDat c V O B).arrAt_in 2 rfl n).trans (tccDat_A c V O B 2)
theorem tccDat_arrAt3 (n : ℕ) : (tccDat c V O B).arrAt 3 n = V (Pipeline.arrRef spec5 3) :=
  ((tccDat c V O B).arrAt_in 3 rfl n).trans (tccDat_A c V O B 3)
theorem tccDat_arrAt4 (n : ℕ) : (tccDat c V O B).arrAt 4 n = V (Pipeline.arrRef spec5 4) :=
  ((tccDat c V O B).arrAt_in 4 rfl n).trans (tccDat_A c V O B 4)
theorem tccDat_arrAt5 (n : ℕ) : (tccDat c V O B).arrAt 5 n = V (Pipeline.arrRef spec5 5) :=
  ((tccDat c V O B).arrAt_in 5 rfl n).trans (tccDat_A c V O B 5)
theorem tccDat_arrAt6 (n : ℕ) : (tccDat c V O B).arrAt 6 n = V (Pipeline.arrRef spec5 6) :=
  ((tccDat c V O B).arrAt_in 6 rfl n).trans (tccDat_A c V O B 6)
theorem tccDat_arrAt7 (n : ℕ) : (tccDat c V O B).arrAt 7 n = V (Pipeline.arrRef spec5 7) :=
  ((tccDat c V O B).arrAt_in 7 rfl n).trans (tccDat_A c V O B 7)
theorem tccDat_arrAt8 (n : ℕ) : (tccDat c V O B).arrAt 8 n = V (Pipeline.arrRef spec5 8) :=
  ((tccDat c V O B).arrAt_in 8 rfl n).trans (tccDat_A c V O B 8)

end Array

/-- At the ideal floats the array function is, at every cloud and output channel, the maximum over the points of the
    final convolution of the three layers' outputs, plus the final bias. -/
theorem tccArr_spec : Cert.Proof.KIValue.SpecT (tccArr (F := Ideal)) := fun g2 h0 h1 w2 b2 wf0 wf1 wf2 bf b o => by
  show tccBlk (tccCloud g2 b) (tccCloud h0 b) (tccCloud h1 b) w2 b2 wf0 wf1 wf2 bf (ix3 (0 : Fin 1) (0 : Fin 1) o) = _
  exact tccBlk_ideal (tccCloud g2 b) (tccCloud h0 b) (tccCloud h1 b) w2 b2 wf0 wf1 wf2 bf o

end Cert.Proof.KI

end
-- ==== Proof.KIRegionSteps.lean ====
/-
  The three kernel regions of @main as steps over the chain of valuations of the TensorCore's arrays: each region's
  proof data are its body's, at what the TensorCore owes and may have recorded when the region is entered, read at the
  valuation the region is entered at; the arrays after the region are the chain's next valuation.
-/
import proofs.«209975_g17849884082380_cont_8to1_1483_11_alg».proof.Proof.KIRegion
import proofs.«209975_g17849884082380_cont_8to1_1483_11_alg».proof.Proof.KIP
import proofs.«209975_g17849884082380_cont_8to1_1483_11_alg».proof.Proof.KITca
import proofs.«209975_g17849884082380_cont_8to1_1483_11_alg».proof.Proof.KITcb
import proofs.«209975_g17849884082380_cont_8to1_1483_11_alg».proof.Proof.KITcc

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type} [FloatOps F]

local notation "𝕄" => MT nD τ sig (HIx 3) (Elt F) ℕ UU ℕ

section Steps

variable (R : Regions F) (m : (ℓ : Loc nD τ sig) → Buf (Elt F) ℓ)

/-- A valuation of the device's buffers read at the TensorCore's references on device d. -/
abbrev atTc (W : Valuation τ sig (Elt F)) (d : Dev nD) : (b : Ref sig .tc) → Buf (Elt F) ((d : Thread nD τ).loc b) := fun b => W (dr b)

/-- The proof data of the three regions, each at the valuation its region is entered at, at what the TensorCore then owes. -/
def regionDats : (p : Fin 3) → (d : Dev nD) → Pipeline.Dat τ (Elt F) (HIx 3) ℕ UU ℕ (Pipeline.pin (pcfgs (F := F)) adm p) d
  | 0, d => tcaDat d (atTc (W1 (launchContents m d)) d) ((K (F := F)).Otc d 0) (tcRec (F := F) d 0)
  | 1, d => tcbDat d (atTc (W7 R (launchContents m d)) d) ((K (F := F)).Otc d 2) (tcRec (F := F) d 2)
  | 2, d => tccDat d (atTc (W11 R (launchContents m d)) d) ((K (F := F)).Otc d 3) (tcRec (F := F) d 3)

/-! ## The second region: after two SparseCore calls -/

/-- After the region the output array holds the region's function of its three operand arrays; the operands are as they were. -/
theorem step1_out (hR : R.tcb = tcbArr (F := F)) (d : Dev nD) : ∀ w : Fin 4,
    W8 R (launchContents m d) (dr (Pipeline.arrRef spec3 w)) = (regionDats R m 1 d).arrAt w cfg3.N
  | 0 => (Function.update_of_ne (by decide) _ _).trans (tcbDat_arrAt0 d (atTc (W7 R (launchContents m d)) d) _ _ _).symm
  | 1 => (Function.update_of_ne (by decide) _ _).trans (tcbDat_arrAt1 d (atTc (W7 R (launchContents m d)) d) _ _ _).symm
  | 2 => (Function.update_of_ne (by decide) _ _).trans (tcbDat_arrAt2 d (atTc (W7 R (launchContents m d)) d) _ _ _).symm
  | 3 => by
    refine Eq.trans ?_ (tcbDat_arrAt3 d (atTc (W7 R (launchContents m d)) d) _ _).symm
    show Function.update (W7 R (launchContents m d)) (dr main_v9) _ (dr main_v9) = _
    rw [Function.update_self, hR]

theorem step1_rest (d : Dev nD) (b : Ref sig .tc) (h : ∀ w : Fin 4, Pipeline.arrRef spec3 w ≠ b) :
    W8 R (launchContents m d) (dr b) = W7 R (launchContents m d) (dr b) :=
  Function.update_of_ne (fun e => h 3 (Proc.devRef_injective _ e).symm) _ _

theorem regionStep1 (hR : R.tcb = tcbArr (F := F)) (d : Dev nD) (G' : sProp 𝕄) :
    RegionStep (P R m) 1 2 d (W7 R (launchContents m d)) (W8 R (launchContents m d)) iprop(pipeGhost (F := F) 1 d ∗ G') G' := fun κ Φ =>
  region_step (P R m) (regionDats R m) 1 2 launch3
    (fun d => tcbBodyObligation d _ _ _)
    (fun d w => by unfold Pipeline.Dat.share; split <;> rfl)
    (fun _ _ => rfl) (fun _ _ => rfl)
    (fun d => W7 R (launchContents m d)) (fun d => W8 R (launchContents m d))
    (fun d w => tcbDat_A d _ _ _ w)
    (fun d w => step1_out R m hR d w) (fun d b h => step1_rest R m d b h)
    (fun _ => .rfl) (fun _ => .rfl) d G' κ Φ

/-! ## The third region: after the three SparseCore calls -/

/-- After the region the output array holds the region's function of its nine operand arrays; the operands are as they were. -/
theorem step2_out (hR : R.tcc = tccArr (F := F)) (d : Dev nD) : ∀ w : Fin 10,
    W12 R (launchContents m d) (dr (Pipeline.arrRef spec5 w)) = (regionDats R m 2 d).arrAt w cfg5.N
  | 0 => (Function.update_of_ne (by decide) _ _).trans (tccDat_arrAt0 d (atTc (W11 R (launchContents m d)) d) _ _ _).symm
  | 1 => (Function.update_of_ne (by decide) _ _).trans (tccDat_arrAt1 d (atTc (W11 R (launchContents m d)) d) _ _ _).symm
  | 2 => (Function.update_of_ne (by decide) _ _).trans (tccDat_arrAt2 d (atTc (W11 R (launchContents m d)) d) _ _ _).symm
  | 3 => (Function.update_of_ne (by decide) _ _).trans (tccDat_arrAt3 d (atTc (W11 R (launchContents m d)) d) _ _ _).symm
  | 4 => (Function.update_of_ne (by decide) _ _).trans (tccDat_arrAt4 d (atTc (W11 R (launchContents m d)) d) _ _ _).symm
  | 5 => (Function.update_of_ne (by decide) _ _).trans (tccDat_arrAt5 d (atTc (W11 R (launchContents m d)) d) _ _ _).symm
  | 6 => (Function.update_of_ne (by decide) _ _).trans (tccDat_arrAt6 d (atTc (W11 R (launchContents m d)) d) _ _ _).symm
  | 7 => (Function.update_of_ne (by decide) _ _).trans (tccDat_arrAt7 d (atTc (W11 R (launchContents m d)) d) _ _ _).symm
  | 8 => (Function.update_of_ne (by decide) _ _).trans (tccDat_arrAt8 d (atTc (W11 R (launchContents m d)) d) _ _ _).symm
  | 9 => by
    refine Eq.trans ?_ (tccDat_arrAt9 d (atTc (W11 R (launchContents m d)) d) _ _).symm
    show Function.update (W11 R (launchContents m d)) (dr main_v17) _ (dr main_v17) = _
    rw [Function.update_self, hR]

theorem step2_rest (d : Dev nD) (b : Ref sig .tc) (h : ∀ w : Fin 10, Pipeline.arrRef spec5 w ≠ b) :
    W12 R (launchContents m d) (dr b) = W11 R (launchContents m d) (dr b) :=
  Function.update_of_ne (fun e => h 9 (Proc.devRef_injective _ e).symm) _ _

theorem regionStep2 (hR : R.tcc = tccArr (F := F)) (d : Dev nD) (G' : sProp 𝕄) :
    RegionStep (P R m) 2 3 d (W11 R (launchContents m d)) (W12 R (launchContents m d)) iprop(pipeGhost (F := F) 2 d ∗ G') G' := fun κ Φ =>
  region_step (P R m) (regionDats R m) 2 3 launch5
    (fun d => tccBodyObligation d _ _ _)
    (fun d w => by unfold Pipeline.Dat.share; split <;> rfl)
    (fun _ _ => rfl) (fun _ _ => rfl)
    (fun d => W11 R (launchContents m d)) (fun d => W12 R (launchContents m d))
    (fun d w => tccDat_A d _ _ _ w)
    (fun d w => step2_out R m hR d w) (fun d b h => step2_rest R m d b h)
    (fun _ => .rfl) (fun _ => .rfl) d G' κ Φ

end Steps

end Cert.Proof.KI

end
-- ==== Proof.KITcaValue.lean ====
/-
  The first TensorCore call's two outputs as arrays, and their values at the ideal floats.

  At cloud `b` the body stores, from the cloud's points `xb : [1, 3, 4096]`, the weights `w : [64, 6]` and the bias
  `be : [64, 1]`, the blocks
    tcaValY xb w    = the neighbour half   w[:, 0] · xb[0, :] + w[:, 1] · xb[1, :] + w[:, 2] · xb[2, :],
    tcaValC xb w be = the centre half      (w[:, 3:6] - w[:, 0:3]) applied likewise, plus the bias column on every point.
  The grid's point `t` reads cloud `t`'s block of the points and the whole weights and bias, and writes block `t` of each
  output (the index maps, decided over the 8 points); the 8 blocks `[1, 64, 4096]` tile the output `[8, 64, 4096]`. So each
  output array after the call is ONE function of the three operand arrays as the call finds them (`tcaY`, `tcaC`): at
  `(b, o, n)` the stored block of cloud `b`'s points at `(0, o, n)` (`tcaDat_arrAt3`, `tcaDat_arrAt4`), and the operand
  arrays are unchanged (`tcaDat_arrAt0` … `2`). At the ideal floats the two functions are read entry by entry
  (`tcaY_spec`, `tcaC_spec`): each layout operation of the stored payloads — a slice of one column or one row, a column or a
  row broadcast over the block, a unit axis added or dropped — is pushed to the coordinates, and what is left is the
  sum of three products (plus the bias) in the order the body adds them.
-/
import proofs.«209975_g17849884082380_cont_8to1_1483_11_alg».proof.Proof.KITca
import proofs.«209975_g17849884082380_cont_8to1_1483_11_alg».proof.Proof.KIBlockOps
import proofs.«209975_g17849884082380_cont_8to1_1483_11_alg».proof.Proof.KIValue
import Idealize.ShloMosaic.Lib.Pipeline.Value
import Idealize.ShloMosaic.Lib.ValueLayout
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.Sem
open Idealize.ShloMosaic.Pipeline (Dat)

variable {F : FTy → Type} [FloatOps F]

/-! ## What the body stores, as functions of the blocks -/

/-- The first output's stored block from the point block and the weights: the neighbour half of the edge convolution. -/
def tcaValY (x0 : Vec F S1x3x4096 .f32) (x1 : Vec F S64x6 .f32) : Vec F S1x64x4096 .f32 :=
  k0_pay4 x0 (View.ld x1 tcaRWa)

/-- The second output's stored block from the point block, the weights and the bias: the centre half, with the bias. -/
def tcaValC (x0 : Vec F S1x3x4096 .f32) (x1 : Vec F S64x6 .f32) (x2 : Vec F S64x1 .f32) : Vec F S1x64x4096 .f32 :=
  k0_pay1 (k0_pay3 x0 (View.ld x1 tcaRWa) (View.ld x1 tcaRWb) x2)

theorem tca_hz3 : (![0, 0, 0] : Fin 3 → Nat) = fun _ => 0 := funext fun a => by fin_cases a <;> rfl
theorem tca_hz2 : (![0, 0] : Fin 2 → Nat) = fun _ => 0 := funext fun a => by fin_cases a <;> rfl

/-- The one store through the whole block leaves its payload. -/
theorem tcaOutY_eq (x0 : Vec F S1x3x4096 .f32) (x1 : Vec F S64x6 .f32) : tcaOutY x0 x1 = tcaValY x0 x1 := by
  unfold tcaOutY tcaValY
  rw [View.canon_unit_zero tca_hz3]
  simp only [View.ld_unit_zero (S := S1x3x4096) tca_hz3]

theorem tcaOutC_eq (x0 : Vec F S1x3x4096 .f32) (x1 : Vec F S64x6 .f32) (x2 : Vec F S64x1 .f32) :
    tcaOutC x0 x1 x2 = tcaValC x0 x1 x2 := by
  unfold tcaOutC tcaValC
  rw [View.canon_unit_zero tca_hz3]
  simp only [View.ld_unit_zero (S := S1x3x4096) tca_hz3, View.ld_unit_zero (S := S64x1) tca_hz2]

/-! ## The two outputs as arrays `[8, 64, 4096]` -/

/-- Cloud `b`'s points as the block `[1, 3, 4096]` the body reads. -/
def tcaXBlk (xt : Vec F S8x3x4096 .f32) (b : Fin 8) : Vec F S1x3x4096 .f32 := fun j => xt (ix3 b (j 1) (j 2))

/-- The first output after the region, from the three window arrays: at `(b, o, n)` what the body stores at `(0, o, n)`
    from cloud `b`'s block. -/
def tcaY (xt : Vec F S8x3x4096 .f32) (w : Vec F S64x6 .f32) (be : Vec F S64x1 .f32) : Vec F S8x64x4096 .f32 :=
  fun i => tcaValY (tcaXBlk xt (i 0)) w (ix3 (0 : Fin 1) (i 1) (i 2))

/-- The second output after the region, likewise. -/
def tcaC (xt : Vec F S8x3x4096 .f32) (w : Vec F S64x6 .f32) (be : Vec F S64x1 .f32) : Vec F S8x64x4096 .f32 :=
  fun i => tcaValC (tcaXBlk xt (i 0)) w be (ix3 (0 : Fin 1) (i 1) (i 2))

/-- The first output at cloud `b`, read at a block index, is the stored block of cloud `b`'s block there. -/
theorem tcaY_blk (xt : Vec F S8x3x4096 .f32) (w : Vec F S64x6 .f32) (be : Vec F S64x1 .f32) (b : Fin 8) (j : S1x64x4096.Idx) :
    tcaY xt w be (ix3 b (j 1) (j 2)) = tcaValY (tcaXBlk xt b) w j := by
  show tcaValY (tcaXBlk xt b) w (ix3 (0 : Fin 1) (j 1) (j 2)) = tcaValY (tcaXBlk xt b) w j
  refine congrArg _ (funext fun a => Fin.ext ?_)
  match a with
  | ⟨0, _⟩ => show 0 = (j 0).val; have h1 : (j 0).val < 1 := (j 0).isLt; omega
  | ⟨1, _⟩ => rfl
  | ⟨2, _⟩ => rfl

theorem tcaC_blk (xt : Vec F S8x3x4096 .f32) (w : Vec F S64x6 .f32) (be : Vec F S64x1 .f32) (b : Fin 8) (j : S1x64x4096.Idx) :
    tcaC xt w be (ix3 b (j 1) (j 2)) = tcaValC (tcaXBlk xt b) w be j := by
  show tcaValC (tcaXBlk xt b) w be (ix3 (0 : Fin 1) (j 1) (j 2)) = tcaValC (tcaXBlk xt b) w be j
  refine congrArg _ (funext fun a => Fin.ext ?_)
  match a with
  | ⟨0, _⟩ => show 0 = (j 0).val; have h1 : (j 0).val < 1 := (j 0).isLt; omega
  | ⟨1, _⟩ => rfl
  | ⟨2, _⟩ => rfl

/-! ## The index maps, decided over the grid -/

/-- Point `t` reads cloud `t`'s block of the points and the whole weights and bias, and writes block `t` of each output. -/
theorem tcaIdxFacts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A grid point as a cloud. -/
def tcaCloud (t : Fin cfg0.N) : Fin 8 := ⟨t.val, Nat.lt_of_lt_of_eq t.isLt N_0⟩

section Value

variable (c : Dev nD) (V : (b : Ref sig .tc) → Buf (Elt F) ((c : Thread nD τ).loc b))
  (O : CellTallies nD τ sig (HIx 3)) (B : Set (SemLoc sig × HIx 3))

/-! ## The windows' blocks, read off the arrays -/

/-- The points' window at point `t` is cloud `t`'s block. -/
theorem tcaBlk0_eq (t : Fin cfg0.N) : tcaBlk c V 0 t = tcaXBlk (V main_v1) (tcaCloud t) := by
  obtain ⟨e0, e1, e2, -⟩ := tcaIdxFacts t
  funext j
  show V main_v1 (((cfg0.win 0).blk t).view.emb j) = V main_v1 (ix3 (tcaCloud t) (j 1) (j 2))
  refine congrArg (V main_v1) ?_
  funext a; apply Fin.ext
  match a with
  | ⟨0, _⟩ => show win0_0.index t (0 : Fin 3) * 1 + 1 * (j 0).val = t.val; have hj : (j 0).val < 1 := (j 0).isLt; omega
  | ⟨1, _⟩ => show win0_0.index t (1 : Fin 3) * 3 + 1 * (j 1).val = (j 1).val; omega
  | ⟨2, _⟩ => show win0_0.index t (2 : Fin 3) * 4096 + 1 * (j 2).val = (j 2).val; omega

/-- The weights' window is the whole array at every point. -/
theorem tcaBlk1_eq (t : Fin cfg0.N) : tcaBlk c V 1 t = V main_arg2 := by
  obtain ⟨-, -, -, e3, e4, -⟩ := tcaIdxFacts t
  funext j
  show V main_arg2 (((cfg0.win 1).blk t).view.emb j) = V main_arg2 j
  refine congrArg (V main_arg2) ?_
  funext a; apply Fin.ext
  match a with
  | ⟨0, _⟩ => show win0_1.index t (0 : Fin 2) * 64 + 1 * (j 0).val = (j 0).val; omega
  | ⟨1, _⟩ => show win0_1.index t (1 : Fin 2) * 6 + 1 * (j 1).val = (j 1).val; omega

/-- The bias's window is the whole array at every point. -/
theorem tcaBlk2_eq (t : Fin cfg0.N) : tcaBlk c V 2 t = V main_v2 := by
  obtain ⟨-, -, -, -, -, e5, e6, -⟩ := tcaIdxFacts t
  funext j
  show V main_v2 (((cfg0.win 2).blk t).view.emb j) = V main_v2 j
  refine congrArg (V main_v2) ?_
  funext a; apply Fin.ext
  match a with
  | ⟨0, _⟩ => show win0_2.index t (0 : Fin 2) * 64 + 1 * (j 0).val = (j 0).val; omega
  | ⟨1, _⟩ => show win0_2.index t (1 : Fin 2) * 1 + 1 * (j 1).val = (j 1).val; omega

/-- The first output's block at point `t` sits at cloud `t`. -/
theorem tcaEmb3 (t : Fin cfg0.N) (j : S1x64x4096.Idx) : ((cfg0.win 3).blk t).view.emb j = ix3 (tcaCloud t) (j 1) (j 2) := by
  obtain ⟨-, -, -, -, -, -, -, e7, e8, e9, -⟩ := tcaIdxFacts t
  funext a; apply Fin.ext
  match a with
  | ⟨0, _⟩ => show win0_3.index t (0 : Fin 3) * 1 + 1 * (j 0).val = t.val; have hj : (j 0).val < 1 := (j 0).isLt; omega
  | ⟨1, _⟩ => show win0_3.index t (1 : Fin 3) * 64 + 1 * (j 1).val = (j 1).val; omega
  | ⟨2, _⟩ => show win0_3.index t (2 : Fin 3) * 4096 + 1 * (j 2).val = (j 2).val; omega

/-- The second output's block at point `t` sits at cloud `t`. -/
theorem tcaEmb4 (t : Fin cfg0.N) (j : S1x64x4096.Idx) : ((cfg0.win 4).blk t).view.emb j = ix3 (tcaCloud t) (j 1) (j 2) := by
  obtain ⟨-, -, -, -, -, -, -, -, -, -, e10, e11, e12⟩ := tcaIdxFacts t
  funext a; apply Fin.ext
  match a with
  | ⟨0, _⟩ => show win0_4.index t (0 : Fin 3) * 1 + 1 * (j 0).val = t.val; have hj : (j 0).val < 1 := (j 0).isLt; omega
  | ⟨1, _⟩ => show win0_4.index t (1 : Fin 3) * 64 + 1 * (j 1).val = (j 1).val; omega
  | ⟨2, _⟩ => show win0_4.index t (2 : Fin 3) * 4096 + 1 * (j 2).val = (j 2).val; omega

/-! ## What each point writes back is its block of the output array -/

theorem tcaDat_flushed3 (t : Fin cfg0.N) :
    (tcaDat c V O B).flushed 3 t = ((cfg0.win 3).blk t).view.read (Elt F) (tcaY (V main_v1) (V main_arg2) (V main_v2)) := by
  show (cfg0.win 3).cut (grid0.coords t) ((tcaDat c V O B).after 3 t) = _
  rw [tcaDat_after3, tcaOutY_eq, tcaBlk0_eq, tcaBlk1_eq]
  funext j
  show tcaValY (tcaXBlk (V main_v1) (tcaCloud t)) (V main_arg2) j
    = tcaY (V main_v1) (V main_arg2) (V main_v2) (((cfg0.win 3).blk t).view.emb j)
  rw [tcaEmb3]
  exact (tcaY_blk _ _ _ (tcaCloud t) j).symm

theorem tcaDat_flushed4 (t : Fin cfg0.N) :
    (tcaDat c V O B).flushed 4 t = ((cfg0.win 4).blk t).view.read (Elt F) (tcaC (V main_v1) (V main_arg2) (V main_v2)) := by
  show (cfg0.win 4).cut (grid0.coords t) ((tcaDat c V O B).after 4 t) = _
  rw [tcaDat_after4, tcaOutC_eq, tcaBlk0_eq, tcaBlk1_eq, tcaBlk2_eq]
  funext j
  show tcaValC (tcaXBlk (V main_v1) (tcaCloud t)) (V main_arg2) (V main_v2) j
    = tcaC (V main_v1) (V main_arg2) (V main_v2) (((cfg0.win 4).blk t).view.emb j)
  rw [tcaEmb4]
  exact (tcaC_blk _ _ _ (tcaCloud t) j).symm

/-! ## The outputs' blocks tile their arrays -/

theorem tcaMemBlk3 (t : Fin cfg0.N) (i : S8x64x4096.Idx) :
    i ∈ ((cfg0.win 3).blk t).view.set ↔ ∀ a : Fin 3, win0_3.index t a * S1x64x4096.size a ≤ (i a).val
      ∧ (i a).val < win0_3.index t a * S1x64x4096.size a + S1x64x4096.size a := by
  show i ∈ ((View.whole main_v3_0).slice (win0_3.rect t)).set ↔ _
  rw [View.set_slice_whole, Rect.mem_set_unit]
  exact Iff.rfl

theorem tcaMemBlk4 (t : Fin cfg0.N) (i : S8x64x4096.Idx) :
    i ∈ ((cfg0.win 4).blk t).view.set ↔ ∀ a : Fin 3, win0_4.index t a * S1x64x4096.size a ≤ (i a).val
      ∧ (i a).val < win0_4.index t a * S1x64x4096.size a + S1x64x4096.size a := by
  show i ∈ ((View.whole main_v3_1).slice (win0_4.rect t)).set ↔ _
  rw [View.set_slice_whole, Rect.mem_set_unit]
  exact Iff.rfl

/-- Every index of the first output is in the block of the point that is its cloud. -/
theorem tcaCover3 (i : S8x64x4096.Idx) :
    ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 4096 := (i 2).isLt
  have hN : (i 0).val < grid0.N := by rw [N_0]; exact hi0
  obtain ⟨-, -, -, -, -, -, -, e7, e8, e9, -⟩ := tcaIdxFacts ⟨(i 0).val, hN⟩
  refine ⟨⟨(i 0).val, hN⟩, flush0_3 _, ?_⟩
  rw [tcaMemBlk3]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [e7]; show (i 0).val * 1 ≤ (i 0).val ∧ (i 0).val < (i 0).val * 1 + 1; omega
  | ⟨1, _⟩ =>
    show win0_3.index ⟨(i 0).val, hN⟩ (1 : Fin 3) * 64 ≤ (i 1).val ∧ (i 1).val < win0_3.index ⟨(i 0).val, hN⟩ (1 : Fin 3) * 64 + 64
    rw [e8]; omega
  | ⟨2, _⟩ =>
    show win0_3.index ⟨(i 0).val, hN⟩ (2 : Fin 3) * 4096 ≤ (i 2).val ∧ (i 2).val < win0_3.index ⟨(i 0).val, hN⟩ (2 : Fin 3) * 4096 + 4096
    rw [e9]; omega

/-- Every index of the second output is in the block of the point that is its cloud. -/
theorem tcaCover4 (i : S8x64x4096.Idx) :
    ∃ t : Fin cfg0.N, (cfg0.win 4).flush t = true ∧ i ∈ ((cfg0.win 4).blk t).view.set := by
  have hi0 : (i 0).val < 8 := (i 0).isLt
  have hi1 : (i 1).val < 64 := (i 1).isLt
  have hi2 : (i 2).val < 4096 := (i 2).isLt
  have hN : (i 0).val < grid0.N := by rw [N_0]; exact hi0
  obtain ⟨-, -, -, -, -, -, -, -, -, -, e10, e11, e12⟩ := tcaIdxFacts ⟨(i 0).val, hN⟩
  refine ⟨⟨(i 0).val, hN⟩, flush0_4 _, ?_⟩
  rw [tcaMemBlk4]
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    rw [e10]; show (i 0).val * 1 ≤ (i 0).val ∧ (i 0).val < (i 0).val * 1 + 1; omega
  | ⟨1, _⟩ =>
    show win0_4.index ⟨(i 0).val, hN⟩ (1 : Fin 3) * 64 ≤ (i 1).val ∧ (i 1).val < win0_4.index ⟨(i 0).val, hN⟩ (1 : Fin 3) * 64 + 64
    rw [e11]; omega
  | ⟨2, _⟩ =>
    show win0_4.index ⟨(i 0).val, hN⟩ (2 : Fin 3) * 4096 ≤ (i 2).val ∧ (i 2).val < win0_4.index ⟨(i 0).val, hN⟩ (2 : Fin 3) * 4096 + 4096
    rw [e12]; omega

/-! ## The arrays after the call -/

/-- The first output after the call: the array function of the three operand arrays as the region finds them. -/
theorem tcaDat_arrAt3 : (tcaDat c V O B).arrAt 3 cfg0.N = tcaY (V main_v1) (V main_arg2) (V main_v2) :=
  (tcaDat c V O B).arrAt_eq_of_cover 3 _ (fun t _ => tcaDat_flushed3 c V O B t) tcaCover3

/-- The second output after the call. -/
theorem tcaDat_arrAt4 : (tcaDat c V O B).arrAt 4 cfg0.N = tcaC (V main_v1) (V main_arg2) (V main_v2) :=
  (tcaDat c V O B).arrAt_eq_of_cover 4 _ (fun t _ => tcaDat_flushed4 c V O B t) tcaCover4

/-- The operand arrays are never written back: they stay as the region finds them. -/
theorem tcaDat_arrAt0 (n : ℕ) : (tcaDat c V O B).arrAt 0 n = V (Pipeline.arrRef spec0 0) :=
  ((tcaDat c V O B).arrAt_in 0 rfl n).trans (tcaDat_A c V O B 0)
theorem tcaDat_arrAt1 (n : ℕ) : (tcaDat c V O B).arrAt 1 n = V (Pipeline.arrRef spec0 1) :=
  ((tcaDat c V O B).arrAt_in 1 rfl n).trans (tcaDat_A c V O B 1)
theorem tcaDat_arrAt2 (n : ℕ) : (tcaDat c V O B).arrAt 2 n = V (Pipeline.arrRef spec0 2) :=
  ((tcaDat c V O B).arrAt_in 2 rfl n).trans (tcaDat_A c V O B 2)

end Value

/-! ## The stored blocks at the ideal floats, entry by entry -/

section Ideal

open Cert.Proof.KI.Ops

/-- Columns 0–2 of the weights, at `(o, k)`. -/
theorem tcaLdWa_apply (w : Vec F S64x6 .f32) (o : Fin 64) (k : Fin 3) :
    View.ld w tcaRWa (ix2 o k) = w (ix2 o ⟨k.val, by have := k.isLt; omega⟩) := by
  show w (tcaRWa.idx (ix2 o k)) = _
  refine congrArg w (funext fun a => Fin.ext ?_)
  match a with
  | ⟨0, _⟩ => show 0 + 1 * o.val = o.val; omega
  | ⟨1, _⟩ => show 0 + 1 * k.val = k.val; omega

/-- Columns 3–5 of the weights, at `(o, k)`. -/
theorem tcaLdWb_apply (w : Vec F S64x6 .f32) (o : Fin 64) (k : Fin 3) :
    View.ld w tcaRWb (ix2 o k) = w (ix2 o ⟨3 + k.val, by have := k.isLt; omega⟩) := by
  show w (tcaRWb.idx (ix2 o k)) = _
  refine congrArg w (funext fun a => Fin.ext ?_)
  match a with
  | ⟨0, _⟩ => show 0 + 1 * o.val = o.val; omega
  | ⟨1, _⟩ => show 3 + 1 * k.val = 3 + k.val; omega

/-- The block under a leading unit axis, at `(0, o, n)`. -/
theorem k0_pay1_apply (v42 : FVec F S64x4096 .f32) (o : Fin 64) (n : Fin 4096) :
    k0_pay1 v42 (ix3 (0 : Fin 1) o n) = v42 (ix2 o n) := by
  unfold k0_pay1
  rw [shapeCast_ab_1ab_apply]

/-- The neighbour half of the edge convolution on loaded values, at `(0, o, n)`: the three products of a weight column's
    entry and a coordinate row's entry, added left to right. -/
theorem k0_pay4_apply (v0 : Vec Ideal S1x3x4096 .f32) (v2 : Vec Ideal S64x3 .f32) (o : Fin 64) (n : Fin 4096) :
    k0_pay4 v0 v2 (ix3 (0 : Fin 1) o n)
      = (v2 (ix2 o 0) * v0 (ix3 0 0 n) + v2 (ix2 o 1) * v0 (ix3 0 1 n) + v2 (ix2 o 2) * v0 (ix3 0 2 n) : EReal) := by
  unfold k0_pay4 k0_pay2
  simp only [shapeCast_ab_1ab_apply, addf_apply, mulf_apply, bcast_col_apply, broadcastTo_1b_ab_apply,
    slice2_axis1_eq, slice2_axis0_eq, shapeCast_1ab_ab_apply]
  rfl

/-- The centre half on loaded values, at `(o, n)`: the same with the weights' difference, plus the bias's entry. -/
theorem k0_pay3_apply (v0 : Vec Ideal S1x3x4096 .f32) (v2 v3 : Vec Ideal S64x3 .f32) (v39 : Vec Ideal S64x1 .f32)
    (o : Fin 64) (n : Fin 4096) :
    k0_pay3 v0 v2 v3 v39 (ix2 o n)
      = (((v3 (ix2 o 0) - v2 (ix2 o 0)) * v0 (ix3 0 0 n) + (v3 (ix2 o 1) - v2 (ix2 o 1)) * v0 (ix3 0 1 n)
          + (v3 (ix2 o 2) - v2 (ix2 o 2)) * v0 (ix3 0 2 n)) + v39 (ix2 o 0) : EReal) := by
  unfold k0_pay3 k0_pay2
  simp only [addf_apply, mulf_apply, subf_apply, bcast_col_apply, broadcastTo_1b_ab_apply,
    slice2_axis1_eq, slice2_axis0_eq, shapeCast_1ab_ab_apply, shapeCast_self]
  rfl

/-- The first output is the neighbour half of the edge convolution. -/
theorem tcaY_spec : Cert.Proof.KIValue.SpecY (tcaY (F := Ideal)) := fun xt w be b o n => by
  show tcaValY (tcaXBlk xt b) w (ix3 (0 : Fin 1) o n) = _
  unfold tcaValY
  rw [k0_pay4_apply, tcaLdWa_apply, tcaLdWa_apply, tcaLdWa_apply]
  rfl

/-- The second output is the centre half of the edge convolution, with the bias. -/
theorem tcaC_spec : Cert.Proof.KIValue.SpecC (tcaC (F := Ideal)) := fun xt w be b o n => by
  show tcaValC (tcaXBlk xt b) w be (ix3 (0 : Fin 1) o n) = _
  unfold tcaValC
  rw [k0_pay1_apply, k0_pay3_apply, tcaLdWa_apply, tcaLdWa_apply, tcaLdWa_apply, tcaLdWb_apply, tcaLdWb_apply, tcaLdWb_apply]
  rfl

end Ideal

end Cert.Proof.KI

end
-- ==== Proof.KIRegionStep0.lean ====
/-
  The first kernel region of @main as a step over the chain of valuations of the TensorCore's arrays: entered before
  any SparseCore call, it leaves its two output arrays at the region's functions of its three operand arrays.
-/
import proofs.«209975_g17849884082380_cont_8to1_1483_11_alg».proof.Proof.KIRegionSteps
import proofs.«209975_g17849884082380_cont_8to1_1483_11_alg».proof.Proof.KITcaValue

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type} [FloatOps F]

local notation "𝕄" => MT nD τ sig (HIx 3) (Elt F) ℕ UU ℕ

section Steps

variable (R : Regions F) (m : (ℓ : Loc nD τ sig) → Buf (Elt F) ℓ)

/-! ## The first region: before any SparseCore call -/

/-- After the region the two output arrays hold the region's functions of its three operand arrays; the operands are as they were. -/
theorem step0_out (hY : R.tcaY = tcaY (F := F)) (hC : R.tcaC = tcaC (F := F)) (d : Dev nD) : ∀ w : Fin 5,
    W2 R (launchContents m d) (dr (Pipeline.arrRef spec0 w)) = (regionDats R m 0 d).arrAt w cfg0.N
  | 0 => (Function.update_of_ne (by decide) _ _).trans ((Function.update_of_ne (by decide) _ _).trans
      (tcaDat_arrAt0 d (atTc (W1 (launchContents m d)) d) _ _ _).symm)
  | 1 => (Function.update_of_ne (by decide) _ _).trans ((Function.update_of_ne (by decide) _ _).trans
      (tcaDat_arrAt1 d (atTc (W1 (launchContents m d)) d) _ _ _).symm)
  | 2 => (Function.update_of_ne (by decide) _ _).trans ((Function.update_of_ne (by decide) _ _).trans
      (tcaDat_arrAt2 d (atTc (W1 (launchContents m d)) d) _ _ _).symm)
  | 3 => by
    refine Eq.trans ?_ (tcaDat_arrAt3 d (atTc (W1 (launchContents m d)) d) _ _).symm
    refine (Function.update_of_ne (show dr main_v3_0 ≠ dr main_v3_1 by decide) _ _).trans ?_
    show Function.update (W1 (launchContents m d)) (dr main_v3_0) _ (dr main_v3_0) = _
    rw [Function.update_self, hY]
  | 4 => by
    refine Eq.trans ?_ (tcaDat_arrAt4 d (atTc (W1 (launchContents m d)) d) _ _).symm
    show Function.update _ (dr main_v3_1) _ (dr main_v3_1) = _
    rw [Function.update_self, hC]

theorem step0_rest (d : Dev nD) (b : Ref sig .tc) (h : ∀ w : Fin 5, Pipeline.arrRef spec0 w ≠ b) :
    W2 R (launchContents m d) (dr b) = W1 (launchContents m d) (dr b) :=
  (Function.update_of_ne (fun e => h 4 (Proc.devRef_injective _ e).symm) _ _).trans
    (Function.update_of_ne (fun e => h 3 (Proc.devRef_injective _ e).symm) _ _)

theorem regionStep0 (hY : R.tcaY = tcaY (F := F)) (hC : R.tcaC = tcaC (F := F)) (d : Dev nD) (G' : sProp 𝕄) :
    RegionStep (P R m) 0 0 d (W1 (launchContents m d)) (W2 R (launchContents m d)) iprop(pipeGhost (F := F) 0 d ∗ G') G' := fun κ Φ =>
  region_step (P R m) (regionDats R m) 0 0 launch0
    (fun d => tcaBodyObligation d _ _ _)
    (fun d w => by unfold Pipeline.Dat.share; split <;> rfl)
    (fun _ _ => rfl) (fun _ _ => rfl)
    (fun d => W1 (launchContents m d)) (fun d => W2 R (launchContents m d))
    (fun d w => tcaDat_A d _ _ _ w)
    (fun d w => step0_out R m hY hC d w) (fun d b h => step0_rest R m d b h)
    (fun _ => .rfl) (fun _ => .rfl) d G' κ Φ

end Steps

end Cert.Proof.KI

end
-- ==== Proof.KIOff1.lean ====
/-
  The slices of a tile of the first SparseCore call, in closed form. The tile numbered w among the 32 (twice its
  subcore's number plus its core's) reads cloud w / 4: of the flattened source the 65536 words from 65536 * (w % 4) (the
  sixteen channels from 16 * (w % 4)), of the neighbour lists the four quarters of the points in turn, of the centre term
  and of the output the sixteen channels from 16 * (w % 4) at the four quarters of the points in turn. The offsets the
  program computes from the tile's coordinates are these.
-/
import proofs.«209975_g17849884082380_cont_8to1_1483_11_alg».proof.Proof.KITile1Defs

namespace Cert.Proof.KI.T1

open Cert.KernelIdeal Cert.KernelIdeal.Gen
open Idealize.ShloMosaic

/-- The slab of the source. -/
theorem off1_eq : ∀ L : grid1.Coords, k1_off1 L = ![(wid L).val / 4, (wid L).val % 4 * 65536] := by decide +kernel
/-- The neighbour lists: points 0 to 1023, 1024 to 2047, 2048 to 3071, 3072 to 4095. -/
theorem off2_eq : ∀ L : grid1.Coords, k1_off2 L = ![(wid L).val / 4, 0, 0] := by decide +kernel
theorem off25_eq : ∀ L : grid1.Coords, k1_off25 L = ![(wid L).val / 4, 0, 1024] := by decide +kernel
theorem off48_eq : ∀ L : grid1.Coords, k1_off48 L = ![(wid L).val / 4, 0, 2048] := by decide +kernel
theorem off71_eq : ∀ L : grid1.Coords, k1_off71 L = ![(wid L).val / 4, 0, 3072] := by decide +kernel
/-- The centre term's and the output's pieces: points 0 to 1023, 1024 to 2047, 2048 to 3071, 3072 to 4095. -/
theorem off3_eq : ∀ L : grid1.Coords, k1_off3 L = ![(wid L).val / 4, (wid L).val % 4 * 16, 0] := by decide +kernel
theorem off26_eq : ∀ L : grid1.Coords, k1_off26 L = ![(wid L).val / 4, (wid L).val % 4 * 16, 1024] := by decide +kernel
theorem off49_eq : ∀ L : grid1.Coords, k1_off49 L = ![(wid L).val / 4, (wid L).val % 4 * 16, 2048] := by decide +kernel
theorem off72_eq : ∀ L : grid1.Coords, k1_off72 L = ![(wid L).val / 4, (wid L).val % 4 * 16, 3072] := by decide +kernel

end Cert.Proof.KI.T1
-- ==== Proof.KIShares.lean ====
/-
  What the three SparseCore calls share. Each runs on 2 SparseCores of 16 tiles; tile (c, i) is number 2 i + c among the
  32. An array every tile reads is dealt as 32 read shares and a remainder. An array of 8 clouds by 64 channels by 4096
  points that the tiles write is cut into 128 pieces, four to a tile: tile w writes cloud w / 4, the sixteen channels from
  16 (w % 4), and the four quarters of the points; the pieces are pairwise disjoint and cover the array.
-/
import proofs.«209975_g17849884082380_cont_8to1_1483_11_alg».proof.Proof.KISetup
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## The 32 tiles' numbers -/

/-- The number of subcore `i` of SparseCore `c` among the 32 tiles: twice the subcore's plus the core's. -/
def tileNo (c : Fin 2) (i : Fin 16) : Fin 32 := ⟨i.val * 2 + c.val, by have := c.isLt; have := i.isLt; omega⟩

/-- The tiles' numbers run once through the 32. -/
def tileEquiv : Fin 2 × Fin 16 ≃ Fin 32 where
  toFun p := tileNo p.1 p.2
  invFun w := (⟨w.val % 2, Nat.mod_lt _ (by norm_num)⟩, ⟨w.val / 2, by have := w.isLt; omega⟩)
  left_inv p := by
    rcases p with ⟨c, i⟩
    have hc := c.isLt
    refine Prod.ext (Fin.ext ?_) (Fin.ext ?_)
    · show (i.val * 2 + c.val) % 2 = c.val; omega
    · show (i.val * 2 + c.val) / 2 = i.val; omega
  right_inv w := by
    refine Fin.ext ?_
    show (w.val / 2) * 2 + w.val % 2 = w.val; omega

/-- A family over the 32 numbers, taken SparseCore by SparseCore and tile by tile. -/
theorem bigSep_tiles (Φ : Fin 32 → sProp 𝕄) :
    bigSep Finset.univ Φ = bigSep Finset.univ fun c : Fin 2 => bigSep Finset.univ fun i : Fin 16 => Φ (tileNo c i) := by
  rw [BI.bigSep_univ_equiv tileEquiv Φ, BI.bigSep_univ_prod]
  rfl

/-- A family over four indices is its four members. -/
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide,
    BI.bigSep_insert (by decide), BI.bigSep_insert (by decide), BI.bigSep_insert (by decide), BI.bigSep_singleton]
  rfl

/-! ## The 128 pieces of an array of 8 clouds by 64 channels by 4096 points -/

theorem piece_inb (w : Fin 32) (ch : Fin 4) :
    ∀ a, (![w.val / 4, w.val % 4 * 16, ch.val * 1024] : Fin 3 → Nat) a + S1x16x1024.size a ≤ S8x64x4096.size a := by
  have hw := w.isLt; have hc := ch.isLt
  intro a
  match a with
  | 0 => show w.val / 4 + 1 ≤ 8; omega
  | 1 => show w.val % 4 * 16 + 16 ≤ 64; omega
  | 2 => show ch.val * 1024 + 1024 ≤ 4096; omega

/-- Piece `ch` of tile `w`: cloud `w / 4`, sixteen channels from `16 (w % 4)`, 1024 points from `1024 ch`. -/
def pieceR (w : Fin 32) (ch : Fin 4) : Rect S8x64x4096 :=
  Rect.unit (s := S8x64x4096) ![w.val / 4, w.val % 4 * 16, ch.val * 1024] S1x16x1024.size (piece_inb w ch)

def piece (t : Fin 32 × Fin 4) : Finset S8x64x4096.Idx := (pieceR t.1 t.2).set

theorem mem_piece {t : Fin 32 × Fin 4} {i : S8x64x4096.Idx} :
    i ∈ piece t ↔ (i 0).val = t.1.val / 4 ∧ (t.1.val % 4 * 16 ≤ (i 1).val ∧ (i 1).val < t.1.val % 4 * 16 + 16)
      ∧ (t.2.val * 1024 ≤ (i 2).val ∧ (i 2).val < t.2.val * 1024 + 1024) := by
  unfold piece pieceR
  rw [Rect.mem_set_unit]
  constructor
  · intro h
    have h0 : t.1.val / 4 ≤ (i 0).val ∧ (i 0).val < t.1.val / 4 + 1 := h 0
    have h1 : t.1.val % 4 * 16 ≤ (i 1).val ∧ (i 1).val < t.1.val % 4 * 16 + 16 := h 1
    have h2 : t.2.val * 1024 ≤ (i 2).val ∧ (i 2).val < t.2.val * 1024 + 1024 := h 2
    exact ⟨by omega, h1, h2⟩
  · rintro ⟨h0, h1, h2⟩ a
    match a with
    | 0 => show t.1.val / 4 ≤ (i 0).val ∧ (i 0).val < t.1.val / 4 + 1; omega
    | 1 => exact h1
    | 2 => exact h2

/-- A rectangle of that size at a tile's closed-form offsets is the tile's piece. -/
theorem set_unit_eq_piece {off : Fin 3 → Nat} {inb} (w : Fin 32) (ch : Fin 4)
    (h : off = ![w.val / 4, w.val % 4 * 16, ch.val * 1024]) :
    (Rect.unit (s := S8x64x4096) off S1x16x1024.size inb).set = piece (w, ch) := by
  subst h; rfl

theorem pieces_disjoint : ∀ t ∈ (Finset.univ : Finset (Fin 32 × Fin 4)), ∀ t' ∈ (Finset.univ : Finset (Fin 32 × Fin 4)),
    t ≠ t' → Disjoint (piece t) (piece t') := by
  intro t _ t' _ hne
  rw [Finset.disjoint_left]
  intro i hi hi'
  rw [mem_piece] at hi hi'
  obtain ⟨a0, ⟨a1, a2⟩, ⟨a3, a4⟩⟩ := hi
  obtain ⟨b0, ⟨b1, b2⟩, ⟨b3, b4⟩⟩ := hi'
  apply hne
  have hw := t.1.isLt; have hw' := t'.1.isLt
  refine Prod.ext (Fin.ext ?_) (Fin.ext ?_) <;> omega

theorem pieces_cover : (Finset.univ : Finset (Fin 32 × Fin 4)).biUnion piece = Finset.univ := by
  ext i
  simp only [Finset.mem_biUnion, Finset.mem_univ, true_and, iff_true]
  have h0 : (i 0).val < 8 := (i 0).isLt
  have h1 : (i 1).val < 64 := (i 1).isLt
  have h2 : (i 2).val < 4096 := (i 2).isLt
  refine ⟨(⟨(i 0).val * 4 + (i 1).val / 16, by omega⟩, ⟨(i 2).val / 1024, by omega⟩), ?_⟩
  rw [mem_piece]
  refine ⟨?_, ⟨?_, ?_⟩, ⟨?_, ?_⟩⟩ <;> simp only <;> omega

/-! ## An array every tile reads: 32 read shares and the remainder -/

section Reads

variable {ℓ : Loc nD τ sig} {f : Buf (Elt F) ℓ}

/-- The array is dealt: a read share to each tile, the remainder kept. -/
theorem reads_deal :
    (ℓ ↦{fullShare} f : sProp 𝕄) ⊢ iprop((ℓ ↦{Transfers.shareDrop fullShare 32} f)
      ∗ bigSep Finset.univ fun c : Fin 2 => bigSep Finset.univ fun i : Fin 16 => ℓ ↦{Transfers.shareTok fullShare 32 (tileNo c i)} f) := by
  rw [← bigSep_tiles (fun w : Fin 32 => (ℓ ↦{Transfers.shareTok fullShare 32 w} f : sProp 𝕄))]
  exact Transfers.pointsTo_toks_split fullShare 32

/-- and gathered again. -/
theorem reads_gather :
    iprop((ℓ ↦{Transfers.shareDrop fullShare 32} f)
      ∗ bigSep Finset.univ fun c : Fin 2 => bigSep Finset.univ fun i : Fin 16 => ℓ ↦{Transfers.shareTok fullShare 32 (tileNo c i)} f)
      ⊢ (ℓ ↦{fullShare} f : sProp 𝕄) := by
  rw [← bigSep_tiles (fun w : Fin 32 => (ℓ ↦{Transfers.shareTok fullShare 32 w} f : sProp 𝕄))]
  exact Transfers.pointsTo_toks_join fullShare 32

end Reads

end Cert.Proof.KI

end
-- ==== Proof.KIOutPieces.lean ====
/-
  An array of 8 clouds by 64 channels by 4096 points that the 32 tiles of a SparseCore call write by pieces: the array
  whole is its 128 pieces, four to each tile, taken SparseCore by SparseCore and tile by tile. Stated for any location
  and any family of pairwise disjoint pieces that covers the location's indices, so that each call cites it at its own
  output array with the partition of that shape.
-/
import proofs.«209975_g17849884082380_cont_8to1_1483_11_alg».proof.Proof.KIShares

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## An array the 32 tiles write by pieces: four pieces to each tile -/

section Out

variable {ℓ : Loc nD τ sig} {q : PosShare TreeShare}

/-- The family of the pieces, taken SparseCore by SparseCore, tile by tile, and each tile's four written out. -/
theorem bigSep_pieces (Φ : Fin 32 × Fin 4 → sProp 𝕄) :
    bigSep Finset.univ Φ = bigSep Finset.univ fun c : Fin 2 => bigSep Finset.univ fun i : Fin 16 =>
      iprop(Φ (tileNo c i, 0) ∗ Φ (tileNo c i, 1) ∗ Φ (tileNo c i, 2) ∗ Φ (tileNo c i, 3)) := by
  rw [BI.bigSep_univ_prod, bigSep_tiles (fun w : Fin 32 => bigSep Finset.univ fun ch : Fin 4 => Φ (w, ch))]
  exact BI.bigSep_congr fun c _ => BI.bigSep_congr fun i _ => bigSep_fin_four (fun ch => Φ (tileNo c i, ch))

/-- An array whole is its 128 pieces, four to each tile: for any family of pairwise disjoint pieces that covers it. -/
theorem out_deal (K : Fin 32 × Fin 4 → Finset (Idx ℓ))
    (hd : ∀ t ∈ (Finset.univ : Finset (Fin 32 × Fin 4)), ∀ t' ∈ (Finset.univ : Finset (Fin 32 × Fin 4)), t ≠ t' → Disjoint (K t) (K t'))
    (hc : (Finset.univ : Finset (Fin 32 × Fin 4)).biUnion K = Finset.univ) (f : Buf (Elt F) ℓ) :
    (ℓ ↦{q} f : sProp 𝕄) = bigSep Finset.univ fun c : Fin 2 => bigSep Finset.univ fun i : Fin 16 =>
      iprop((ℓ ↦[K (tileNo c i, 0)]{q} f) ∗ (ℓ ↦[K (tileNo c i, 1)]{q} f) ∗ (ℓ ↦[K (tileNo c i, 2)]{q} f) ∗ (ℓ ↦[K (tileNo c i, 3)]{q} f)) := by
  rw [← bigSep_pieces (fun t => (ℓ ↦[K t]{q} f : sProp 𝕄)), ← pointsTo_biUnion Finset.univ K hd, hc]

/-- The same with the contents not chosen: each piece then holds some contents. -/
theorem out_deal_ex (K : Fin 32 × Fin 4 → Finset (Idx ℓ))
    (hd : ∀ t ∈ (Finset.univ : Finset (Fin 32 × Fin 4)), ∀ t' ∈ (Finset.univ : Finset (Fin 32 × Fin 4)), t ≠ t' → Disjoint (K t) (K t'))
    (hc : (Finset.univ : Finset (Fin 32 × Fin 4)).biUnion K = Finset.univ) :
    (iprop(∃ f, ℓ ↦{q} f) : sProp 𝕄) ⊢ bigSep Finset.univ fun c : Fin 2 => bigSep Finset.univ fun i : Fin 16 =>
      iprop((∃ f, ℓ ↦[K (tileNo c i, 0)]{q} f) ∗ (∃ f, ℓ ↦[K (tileNo c i, 1)]{q} f) ∗ (∃ f, ℓ ↦[K (tileNo c i, 2)]{q} f)
        ∗ (∃ f, ℓ ↦[K (tileNo c i, 3)]{q} f)) := by
  have hmono : ∀ (f : Buf (Elt F) ℓ) (c : Fin 2) (i : Fin 16),
      (iprop((ℓ ↦[K (tileNo c i, 0)]{q} f) ∗ (ℓ ↦[K (tileNo c i, 1)]{q} f) ∗ (ℓ ↦[K (tileNo c i, 2)]{q} f) ∗ (ℓ ↦[K (tileNo c i, 3)]{q} f)) : sProp 𝕄)
        ⊢ iprop((∃ f, ℓ ↦[K (tileNo c i, 0)]{q} f) ∗ (∃ f, ℓ ↦[K (tileNo c i, 1)]{q} f) ∗ (∃ f, ℓ ↦[K (tileNo c i, 2)]{q} f)
          ∗ (∃ f, ℓ ↦[K (tileNo c i, 3)]{q} f)) := by
    intro f c i
    iintro ⟨H0, H1, H2, H3⟩
    isplitl [H0]; · iexists f; iexact H0
    isplitl [H1]; · iexists f; iexact H1
    isplitl [H2]; · iexists f; iexact H2
    iexists f; iexact H3
  iintro ⟨%f, H⟩
  ihave H' := (Entails.of_eq (out_deal K hd hc f)) $$ H
  iapply (SparseCore.ent (BI.bigSep_mono (fun c _ => BI.bigSep_mono (fun i _ => hmono f c i))))
  iexact H'

/-- The pieces at one function are the array whole at it. -/
theorem out_gather (K : Fin 32 × Fin 4 → Finset (Idx ℓ))
    (hd : ∀ t ∈ (Finset.univ : Finset (Fin 32 × Fin 4)), ∀ t' ∈ (Finset.univ : Finset (Fin 32 × Fin 4)), t ≠ t' → Disjoint (K t) (K t'))
    (hc : (Finset.univ : Finset (Fin 32 × Fin 4)).biUnion K = Finset.univ) (g : Buf (Elt F) ℓ) :
    (bigSep Finset.univ fun c : Fin 2 => bigSep Finset.univ fun i : Fin 16 =>
      iprop((ℓ ↦[K (tileNo c i, 0)]{q} g) ∗ (ℓ ↦[K (tileNo c i, 1)]{q} g) ∗ (ℓ ↦[K (tileNo c i, 2)]{q} g) ∗ (ℓ ↦[K (tileNo c i, 3)]{q} g)))
      ⊢ (ℓ ↦{q} g : sProp 𝕄) :=
  Entails.of_eq (out_deal K hd hc g).symm

end Out

end Cert.Proof.KI

end
-- ==== Proof.KICall0.lean ====
/-
  The first SparseCore call as @main on the TensorCore sees it. The call's three operands (the flattened source, the
  neighbour lists, the centre term) are dealt to the 2 × 16 tiles as read shares, the output array as its 128 pieces,
  four to each tile; the SparseCores are started and awaited; what the tiles give back is gathered: the three operands
  whole again, and the output array whole at the pooled and rectified array. In terms of the arrays @main holds, the
  call rewrites its result array and nothing else, and moves the handshakes one round on.
-/
import proofs.«209975_g17849884082380_cont_8to1_1483_11_alg».proof.Proof.KIP
import proofs.«209975_g17849884082380_cont_8to1_1483_11_alg».proof.Proof.KIOff1
import proofs.«209975_g17849884082380_cont_8to1_1483_11_alg».proof.Proof.KIOutPieces

noncomputable section

namespace Cert.Proof.KI.T1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr launchContents)

variable {F : FTy → Type}

local notation "𝕄" => MT nD τ sig (HIx 3) (Elt F) ℕ UU ℕ

/-! ## A tile's four output pieces are pieces of the partition -/

section Pieces

variable (L : grid1.Coords)

theorem oSet0_eq : oSet0 L = piece (wid L, 0) := by
  show (((Memref.whole main_v5_scv : Memref sig .scVector .hbm S8x64x4096 .f32).view.slice
      (Rect.unit (s := S8x64x4096) (k1_off3 L) S1x16x1024.size (k1_off3_inb L))).reshape S16x1024 squeezes_S1x16x1024_S16x1024.numel_eq).set = _
  rw [View.set_reshape]
  show ((View.whole (main_v5_scv : Ref sig .scVector)).slice _).set = _
  rw [View.set_slice_whole]
  exact set_unit_eq_piece (wid L) 0 (off3_eq L)

theorem oSet1_eq : oSet1 L = piece (wid L, 1) := by
  show (((Memref.whole main_v5_scv : Memref sig .scVector .hbm S8x64x4096 .f32).view.slice
      (Rect.unit (s := S8x64x4096) (k1_off26 L) S1x16x1024.size (k1_off26_inb L))).reshape S16x1024 squeezes_S1x16x1024_S16x1024.numel_eq).set = _
  rw [View.set_reshape]
  show ((View.whole (main_v5_scv : Ref sig .scVector)).slice _).set = _
  rw [View.set_slice_whole]
  exact set_unit_eq_piece (wid L) 1 (off26_eq L)

theorem oSet2_eq : oSet2 L = piece (wid L, 2) := by
  show (((Memref.whole main_v5_scv : Memref sig .scVector .hbm S8x64x4096 .f32).view.slice
      (Rect.unit (s := S8x64x4096) (k1_off49 L) S1x16x1024.size (k1_off49_inb L))).reshape S16x1024 squeezes_S1x16x1024_S16x1024.numel_eq).set = _
  rw [View.set_reshape]
  show ((View.whole (main_v5_scv : Ref sig .scVector)).slice _).set = _
  rw [View.set_slice_whole]
  exact set_unit_eq_piece (wid L) 2 (off49_eq L)

theorem oSet3_eq : oSet3 L = piece (wid L, 3) := by
  show (((Memref.whole main_v5_scv : Memref sig .scVector .hbm S8x64x4096 .f32).view.slice
      (Rect.unit (s := S8x64x4096) (k1_off72 L) S1x16x1024.size (k1_off72_inb L))).reshape S16x1024 squeezes_S1x16x1024_S16x1024.numel_eq).set = _
  rw [View.set_reshape]
  show ((View.whole (main_v5_scv : Ref sig .scVector)).slice _).set = _
  rw [View.set_slice_whole]
  exact set_unit_eq_piece (wid L) 3 (off72_eq L)

end Pieces

/-! ## The call's operands dealt to the 32 tiles, and gathered again -/

theorem nCore0 : (K (F := F)).nCore 0 = 2 := rfl
theorem nSub0 : (K (F := F)).nSub 0 = 16 := rfl

/-- A family over the tiles that is a product of four families is the product of the four. -/
theorem bigSep_tiles_sep4 (A B C O : Fin 2 → Fin 16 → sProp 𝕄) :
    (bigSep Finset.univ fun c : Fin 2 => bigSep Finset.univ fun i : Fin 16 => iprop(A c i ∗ B c i ∗ C c i ∗ O c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => C c i)
        ∗ (bigSep Finset.univ fun c : Fin 2 => bigSep Finset.univ fun i : Fin 16 => O c i)) := by
  simp only [bigSep_sep']

section Deal

variable (d : Dev nD) (fs : Buf (Elt F) (srcLoc d)) (fi : Buf (Elt F) (idxLoc d)) (fc : Buf (Elt F) (cepLoc d))

/-- What a tile takes, its shares and pieces spelt through the tile's number. -/
theorem go1_eq (c : Fin 2) (i : Fin 16) :
    (go1 d (coords1 (F := F) c i) fs fi fc : sProp 𝕄)
      = iprop((srcLoc d ↦{Transfers.shareTok fullShare 32 (tileNo c i)} fs) ∗ (idxLoc d ↦{Transfers.shareTok fullShare 32 (tileNo c i)} fi)
        ∗ (cepLoc d ↦{Transfers.shareTok fullShare 32 (tileNo c i)} fc)
        ∗ ((∃ f, outLoc d ↦[piece (tileNo c i, 0)]{fullShare} f) ∗ (∃ f, outLoc d ↦[piece (tileNo c i, 1)]{fullShare} f)
          ∗ (∃ f, outLoc d ↦[piece (tileNo c i, 2)]{fullShare} f) ∗ (∃ f, outLoc d ↦[piece (tileNo c i, 3)]{fullShare} f))) := by
  unfold go1
  rw [oSet0_eq, oSet1_eq, oSet2_eq, oSet3_eq]
  rfl

/-- THE SPLIT: the three arrays the tiles read and the output array, dealt to the 2 × 16 tiles; the read arrays'
    remainders are kept. -/
theorem split0 :
    (iprop((srcLoc d ↦{fullShare} fs) ∗ (idxLoc d ↦{fullShare} fi) ∗ (cepLoc d ↦{fullShare} fc) ∗ (∃ f, outLoc d ↦{fullShare} f)) : sProp 𝕄)
      ⊢ iprop((bigSep Finset.univ fun c : Fin ((K (F := F)).nCore 0) => bigSep Finset.univ fun i : Fin ((K (F := F)).nSub 0) =>
            go1 d (coords1 c i) fs fi fc)
          ∗ (srcLoc d ↦{Transfers.shareDrop fullShare 32} fs) ∗ (idxLoc d ↦{Transfers.shareDrop fullShare 32} fi)
          ∗ (cepLoc d ↦{Transfers.shareDrop fullShare 32} fc)) := by
  show _ ⊢ iprop((bigSep (Finset.univ : Finset (Fin 2)) fun c => bigSep (Finset.univ : Finset (Fin 16)) fun i =>
            go1 d (coords1 (F := F) c i) fs fi fc) ∗ _)
  rw [BI.bigSep_congr (fun c _ => BI.bigSep_congr (fun i _ => go1_eq d fs fi fc c i)), bigSep_tiles_sep4]
  iintro ⟨Hs, Hi, Hc, Ho⟩
  ihave Hs' := reads_deal $$ Hs
  ihave Hi' := reads_deal $$ Hi
  ihave Hc' := reads_deal $$ Hc
  ihave Ho' := (out_deal_ex (ℓ := outLoc d) (q := fullShare) piece pieces_disjoint pieces_cover) $$ Ho
  icases Hs' with ⟨Hsd, Hst⟩
  icases Hi' with ⟨Hid, Hit⟩
  icases Hc' with ⟨Hcd, Hct⟩
  isplitl [Hst Hit Hct Ho']
  · isplitl [Hst]; · iexact Hst
    isplitl [Hit]; · iexact Hit
    isplitl [Hct]; · iexact Hct
    iexact Ho'
  isplitl [Hsd]; · iexact Hsd
  isplitl [Hid]; · iexact Hid
  iexact Hcd

variable [FloatOps F]

/-- What a tile gives back, spelt through the tile's number. -/
theorem td1_eq (c : Fin 2) (i : Fin 16) :
    (td1 d (coords1 (F := F) c i) fs fi fc : sProp 𝕄)
      = iprop((srcLoc d ↦{Transfers.shareTok fullShare 32 (tileNo c i)} fs) ∗ (idxLoc d ↦{Transfers.shareTok fullShare 32 (tileNo c i)} fi)
        ∗ (cepLoc d ↦{Transfers.shareTok fullShare 32 (tileNo c i)} fc)
        ∗ ((outLoc d ↦[piece (tileNo c i, 0)]{fullShare} gmaxLArr fs fi fc) ∗ (outLoc d ↦[piece (tileNo c i, 1)]{fullShare} gmaxLArr fs fi fc)
          ∗ (outLoc d ↦[piece (tileNo c i, 2)]{fullShare} gmaxLArr fs fi fc) ∗ (outLoc d ↦[piece (tileNo c i, 3)]{fullShare} gmaxLArr fs fi fc))) := by
  unfold td1
  rw [oSet0_eq, oSet1_eq, oSet2_eq, oSet3_eq]
  rfl

/-- THE JOIN: the remainders and what the 2 × 16 tiles give back are the three read arrays whole and the output array
    whole at the pooled and rectified array. -/
theorem join0 :
    (iprop(((srcLoc d ↦{Transfers.shareDrop fullShare 32} fs) ∗ (idxLoc d ↦{Transfers.shareDrop fullShare 32} fi)
          ∗ (cepLoc d ↦{Transfers.shareDrop fullShare 32} fc))
        ∗ (bigSep Finset.univ fun c : Fin ((K (F := F)).nCore 0) => bigSep Finset.univ fun i : Fin ((K (F := F)).nSub 0) =>
            td1 d (coords1 c i) fs fi fc)) : sProp 𝕄)
      ⊢ iprop((srcLoc d ↦{fullShare} fs) ∗ (idxLoc d ↦{fullShare} fi) ∗ (cepLoc d ↦{fullShare} fc)
          ∗ (outLoc d ↦{fullShare} gmaxLArr fs fi fc)) := by
  show iprop(_ ∗ (bigSep (Finset.univ : Finset (Fin 2)) fun c => bigSep (Finset.univ : Finset (Fin 16)) fun i =>
            td1 d (coords1 (F := F) c i) fs fi fc)) ⊢ _
  rw [BI.bigSep_congr (fun c _ => BI.bigSep_congr (fun i _ => td1_eq d fs fi fc c i)), bigSep_tiles_sep4]
  iintro ⟨⟨Hsd, Hid, Hcd⟩, Hst, Hit, Hct, Ho⟩
  isplitl [Hsd Hst]
  · iapply reads_gather; isplitl [Hsd]; · iexact Hsd
    iexact Hst
  isplitl [Hid Hit]
  · iapply reads_gather; isplitl [Hid]; · iexact Hid
    iexact Hit
  isplitl [Hcd Hct]
  · iapply reads_gather; isplitl [Hcd]; · iexact Hcd
    iexact Hct
  iapply (out_gather (ℓ := outLoc d) (q := fullShare) piece pieces_disjoint pieces_cover); iexact Ho

end Deal

/-! ## The call -/

section Call

variable [FloatOps F]

/-- An unscoped array of the TensorCore is among the arrays @main's run accounts for. -/
theorem mem_Sall' (b : Ref sig .tc) (h : (dr b).isScoped = false) : dr b ∈ Sall :=
  Finset.mem_filter.2 ⟨StableHlo.devRef_mem_tcRefs b, by simp [h]⟩

/-- The four arrays the call touches. -/
abbrev S4 : Finset (DevRef τ sig) := {dr main_v4, dr main_v0, dr main_v3_1, dr main_v5}

theorem S4_sub : S4 ⊆ Sall := by
  intro b hb
  simp only [S4, Finset.mem_insert, Finset.mem_singleton] at hb
  rcases hb with rfl | rfl | rfl | rfl
  · exact mem_Sall' main_v4 rfl
  · exact mem_Sall' main_v0 rfl
  · exact mem_Sall' main_v3_1 rfl
  · exact mem_Sall' main_v5 rfl

/-- The four arrays held at a valuation, one by one. -/
theorem held_S4 (d : Dev nD) (W : Valuation τ sig (Elt F)) :
    (held (T d) S4 W : sProp 𝕄) = iprop((srcLoc d ↦{fullShare} W (dr main_v4)) ∗ (idxLoc d ↦{fullShare} W (dr main_v0))
      ∗ (cepLoc d ↦{fullShare} W (dr main_v3_1)) ∗ (outLoc d ↦{fullShare} W (dr main_v5))) := by
  unfold held
  rw [SparseCore.bigSep_insert' (by decide), SparseCore.bigSep_insert' (by decide), SparseCore.bigSep_insert' (by decide),
    bigSep_singleton]

/-- THE FIRST SPARSECORE CALL AS @main SEES IT: its three operands lent to the tiles and returned, its result array
    rewritten to the pooled and rectified array, the handshakes one round on. -/
theorem callStep0 (R : Regions F) (hR : R.gmaxL = gmaxLArr) (m : (ℓ : Loc nD τ sig) → Buf (Elt F) ℓ) (d : Dev nD) :
    CallStep (P R m) 0 d (W3 R (launchContents m d)) (W4 R (launchContents m d)) := by
  intro κ Φ
  rw [held_sub_split (T d) S4_sub (W3 R (launchContents m d)), held_sub_split (T d) S4_sub (W4 R (launchContents m d)),
    held_S4, held_S4]
  have hrest : (held (T d) (Sall \ S4) (W4 R (launchContents m d)) : sProp 𝕄) = held (T d) (Sall \ S4) (W3 R (launchContents m d)) :=
    held_congr (T d) fun b hb => by
      unfold W4
      exact Function.update_of_ne (fun h => (Finset.mem_sdiff.mp hb).2 (by rw [h]; simp [S4])) _ _
  have e0 : W4 R (launchContents m d) (dr main_v4) = W3 R (launchContents m d) (dr main_v4) := by
    unfold W4; exact Function.update_of_ne (by decide) _ _
  have e1 : W4 R (launchContents m d) (dr main_v0) = W3 R (launchContents m d) (dr main_v0) := by
    unfold W4; exact Function.update_of_ne (by decide) _ _
  have e2 : W4 R (launchContents m d) (dr main_v3_1) = W3 R (launchContents m d) (dr main_v3_1) := by
    unfold W4; exact Function.update_of_ne (by decide) _ _
  have e3 : W4 R (launchContents m d) (dr main_v5)
      = gmaxLArr (W3 R (launchContents m d) (dr main_v4)) (W3 R (launchContents m d) (dr main_v0)) (W3 R (launchContents m d) (dr main_v3_1)) := by
    unfold W4; rw [Function.update_self, hR]
  rw [hrest, e0, e1, e2, e3]
  iintro ⟨#Hctx, Hst, ⟨⟨Hs, Hi, Hc, Ho⟩, Hrest⟩, Hk⟩
  ihave Hsp := (split0 d _ _ _) $$ [Hs Hi Hc Ho]
  · isplitl [Hs]; · iexact Hs
    isplitl [Hi]; · iexact Hi
    isplitl [Hc]; · iexact Hc
    iexists _; iexact Ho
  icases Hsp with ⟨Hgo, Hrem⟩
  iapply ((K (F := F)).wp_run (D (F := F)) 𝒱 (EH := EH) (P := P R m) κ d 0) $$ [Hst Hgo Hrem Hrest Hk]
  isplitr; · iexact Hctx
  isplitl [Hst]; · iexact Hst
  isplitl [Hgo]; · iexact Hgo
  iintro ⟨Hst, Hdn⟩
  ihave Hj := (join0 d _ _ _) $$ [Hrem Hdn]
  · isplitl [Hrem]; · iexact Hrem
    iexact Hdn
  iapply Hk
  isplitl [Hst]; · iexact Hst
  isplitl [Hj]; · iexact Hj
  iexact Hrest

end Call

end Cert.Proof.KI.T1

end
-- ==== Proof.KIOff2.lean ====
/-
  The four output pieces of a tile of the second SparseCore call, in closed form. The tile numbered w among the 32
  (twice its subcore's number plus its core's) writes, of the pooled array of 8 clouds by 64 channels by 4096 points,
  cloud w / 4, the sixteen channels from 16 * (w % 4), and the four quarters of the points in turn: the offsets the
  program computes from the tile's coordinates are these.
-/
import proofs.«209975_g17849884082380_cont_8to1_1483_11_alg».proof.Proof.KITile2Defs

namespace Cert.Proof.KI

open Cert.KernelIdeal Cert.KernelIdeal.Gen
open Idealize.ShloMosaic

/-- The first piece: points 0 to 1023. -/
theorem off24_eq : ∀ L : grid2.Coords, k2_off24 L = ![(wid L).val / 4, (wid L).val % 4 * 16, 0] := by decide +kernel
/-- The second piece: points 1024 to 2047. -/
theorem off47_eq : ∀ L : grid2.Coords, k2_off47 L = ![(wid L).val / 4, (wid L).val % 4 * 16, 1024] := by decide +kernel
/-- The third piece: points 2048 to 3071. -/
theorem off70_eq : ∀ L : grid2.Coords, k2_off70 L = ![(wid L).val / 4, (wid L).val % 4 * 16, 2048] := by decide +kernel
/-- The fourth piece: points 3072 to 4095. -/
theorem off93_eq : ∀ L : grid2.Coords, k2_off93 L = ![(wid L).val / 4, (wid L).val % 4 * 16, 3072] := by decide +kernel

end Cert.Proof.KI
-- ==== Proof.KICall1.lean ====
/-
  The second SparseCore call as @main on the TensorCore sees it. The call's two operands (the flattened source and the
  neighbour lists) are dealt to the 2 × 16 tiles as read shares, the output array as its 128 pieces, four to each tile;
  the SparseCores are started and awaited; what the tiles give back is gathered: the two operands whole again, and the
  output array whole at the pooled array. In terms of the arrays @main holds, the call rewrites its result array and
  nothing else, and moves the handshakes one round on.
-/
import proofs.«209975_g17849884082380_cont_8to1_1483_11_alg».proof.Proof.KIP
import proofs.«209975_g17849884082380_cont_8to1_1483_11_alg».proof.Proof.KIOff2
import proofs.«209975_g17849884082380_cont_8to1_1483_11_alg».proof.Proof.KIOutPieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr launchContents)

variable {F : FTy → Type}

local notation "𝕄" => MT nD τ sig (HIx 3) (Elt F) ℕ UU ℕ

/-! ## A tile's four output pieces are pieces of the partition -/

section Pieces

variable (L : grid2.Coords)

theorem oSet0_eq : oSet0 L = piece (wid L, 0) := by
  show (((Memref.whole main_v7_scv : Memref sig .scVector .hbm S8x64x4096 .f32).view.slice
      (Rect.unit (s := S8x64x4096) (k2_off24 L) S1x16x1024.size (k2_off24_inb L))).reshape S16x1024 squeezes_S1x16x1024_S16x1024.numel_eq).set = _
  rw [View.set_reshape]
  show ((View.whole (main_v7_scv : Ref sig .scVector)).slice _).set = _
  rw [View.set_slice_whole]
  exact set_unit_eq_piece (wid L) 0 (off24_eq L)

theorem oSet1_eq : oSet1 L = piece (wid L, 1) := by
  show (((Memref.whole main_v7_scv : Memref sig .scVector .hbm S8x64x4096 .f32).view.slice
      (Rect.unit (s := S8x64x4096) (k2_off47 L) S1x16x1024.size (k2_off47_inb L))).reshape S16x1024 squeezes_S1x16x1024_S16x1024.numel_eq).set = _
  rw [View.set_reshape]
  show ((View.whole (main_v7_scv : Ref sig .scVector)).slice _).set = _
  rw [View.set_slice_whole]
  exact set_unit_eq_piece (wid L) 1 (off47_eq L)

theorem oSet2_eq : oSet2 L = piece (wid L, 2) := by
  show (((Memref.whole main_v7_scv : Memref sig .scVector .hbm S8x64x4096 .f32).view.slice
      (Rect.unit (s := S8x64x4096) (k2_off70 L) S1x16x1024.size (k2_off70_inb L))).reshape S16x1024 squeezes_S1x16x1024_S16x1024.numel_eq).set = _
  rw [View.set_reshape]
  show ((View.whole (main_v7_scv : Ref sig .scVector)).slice _).set = _
  rw [View.set_slice_whole]
  exact set_unit_eq_piece (wid L) 2 (off70_eq L)

theorem oSet3_eq : oSet3 L = piece (wid L, 3) := by
  show (((Memref.whole main_v7_scv : Memref sig .scVector .hbm S8x64x4096 .f32).view.slice
      (Rect.unit (s := S8x64x4096) (k2_off93 L) S1x16x1024.size (k2_off93_inb L))).reshape S16x1024 squeezes_S1x16x1024_S16x1024.numel_eq).set = _
  rw [View.set_reshape]
  show ((View.whole (main_v7_scv : Ref sig .scVector)).slice _).set = _
  rw [View.set_slice_whole]
  exact set_unit_eq_piece (wid L) 3 (off93_eq L)

end Pieces

/-! ## The call's operands dealt to the 32 tiles, and gathered again -/

/-- A family over the tiles that is a product of three families is the product of the three. -/
theorem bigSep_tiles_sep3 (A B O : Fin 2 → Fin 16 → sProp 𝕄) :
    (bigSep Finset.univ fun c : Fin 2 => bigSep Finset.univ fun i : Fin 16 => iprop(A c i ∗ B c i ∗ O c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => O c i)) := by
  simp only [bigSep_sep']

section Deal

variable (d : Dev nD) (fs : Buf (Elt F) (srcLoc d)) (fi : Buf (Elt F) (idxLoc d))

/-- What a tile takes, its shares and pieces spelt through the tile's number. -/
theorem go2_eq (c : Fin 2) (i : Fin 16) :
    (go2 d (coords2 (F := F) c i) fs fi : sProp 𝕄)
      = iprop((srcLoc d ↦{Transfers.shareTok fullShare 32 (tileNo c i)} fs) ∗ (idxLoc d ↦{Transfers.shareTok fullShare 32 (tileNo c i)} fi)
        ∗ ((∃ f, outLoc d ↦[piece (tileNo c i, 0)]{fullShare} f) ∗ (∃ f, outLoc d ↦[piece (tileNo c i, 1)]{fullShare} f)
          ∗ (∃ f, outLoc d ↦[piece (tileNo c i, 2)]{fullShare} f) ∗ (∃ f, outLoc d ↦[piece (tileNo c i, 3)]{fullShare} f))) := by
  unfold go2
  rw [oSet0_eq, oSet1_eq, oSet2_eq, oSet3_eq]
  rfl

/-- THE SPLIT: the two arrays the tiles read and the output array, dealt to the 2 × 16 tiles; the read arrays'
    remainders are kept. -/
theorem split1 :
    (iprop((srcLoc d ↦{fullShare} fs) ∗ (idxLoc d ↦{fullShare} fi) ∗ (∃ f, outLoc d ↦{fullShare} f)) : sProp 𝕄)
      ⊢ iprop((bigSep Finset.univ fun c : Fin ((K (F := F)).nCore 1) => bigSep Finset.univ fun i : Fin ((K (F := F)).nSub 1) =>
            go2 d (coords2 c i) fs fi)
          ∗ (srcLoc d ↦{Transfers.shareDrop fullShare 32} fs) ∗ (idxLoc d ↦{Transfers.shareDrop fullShare 32} fi)) := by
  show _ ⊢ iprop((bigSep (Finset.univ : Finset (Fin 2)) fun c => bigSep (Finset.univ : Finset (Fin 16)) fun i =>
            go2 d (coords2 (F := F) c i) fs fi) ∗ _)
  rw [BI.bigSep_congr (fun c _ => BI.bigSep_congr (fun i _ => go2_eq d fs fi c i)), bigSep_tiles_sep3]
  iintro ⟨Hs, Hi, Ho⟩
  ihave Hs' := reads_deal $$ Hs
  ihave Hi' := reads_deal $$ Hi
  ihave Ho' := (out_deal_ex (ℓ := outLoc d) (q := fullShare) piece pieces_disjoint pieces_cover) $$ Ho
  icases Hs' with ⟨Hsd, Hst⟩
  icases Hi' with ⟨Hid, Hit⟩
  isplitl [Hst Hit Ho']
  · isplitl [Hst]; · iexact Hst
    isplitl [Hit]; · iexact Hit
    iexact Ho'
  isplitl [Hsd]; · iexact Hsd
  iexact Hid

variable [FloatOps F]

/-- What a tile gives back, spelt through the tile's number. -/
theorem td2_eq (c : Fin 2) (i : Fin 16) :
    (td2 d (coords2 (F := F) c i) fs fi : sProp 𝕄)
      = iprop((srcLoc d ↦{Transfers.shareTok fullShare 32 (tileNo c i)} fs) ∗ (idxLoc d ↦{Transfers.shareTok fullShare 32 (tileNo c i)} fi)
        ∗ ((outLoc d ↦[piece (tileNo c i, 0)]{fullShare} gmaxArr fs fi) ∗ (outLoc d ↦[piece (tileNo c i, 1)]{fullShare} gmaxArr fs fi)
          ∗ (outLoc d ↦[piece (tileNo c i, 2)]{fullShare} gmaxArr fs fi) ∗ (outLoc d ↦[piece (tileNo c i, 3)]{fullShare} gmaxArr fs fi))) := by
  unfold td2
  rw [oSet0_eq, oSet1_eq, oSet2_eq, oSet3_eq]
  rfl

/-- THE JOIN: the remainders and what the 2 × 16 tiles give back are the two read arrays whole and the output array
    whole at the pooled array. -/
theorem join1 :
    (iprop(((srcLoc d ↦{Transfers.shareDrop fullShare 32} fs) ∗ (idxLoc d ↦{Transfers.shareDrop fullShare 32} fi))
        ∗ (bigSep Finset.univ fun c : Fin ((K (F := F)).nCore 1) => bigSep Finset.univ fun i : Fin ((K (F := F)).nSub 1) =>
            td2 d (coords2 c i) fs fi)) : sProp 𝕄)
      ⊢ iprop((srcLoc d ↦{fullShare} fs) ∗ (idxLoc d ↦{fullShare} fi) ∗ (outLoc d ↦{fullShare} gmaxArr fs fi)) := by
  show iprop(_ ∗ (bigSep (Finset.univ : Finset (Fin 2)) fun c => bigSep (Finset.univ : Finset (Fin 16)) fun i =>
            td2 d (coords2 (F := F) c i) fs fi)) ⊢ _
  rw [BI.bigSep_congr (fun c _ => BI.bigSep_congr (fun i _ => td2_eq d fs fi c i)), bigSep_tiles_sep3]
  iintro ⟨⟨Hsd, Hid⟩, Hst, Hit, Ho⟩
  isplitl [Hsd Hst]
  · iapply reads_gather; isplitl [Hsd]; · iexact Hsd
    iexact Hst
  isplitl [Hid Hit]
  · iapply reads_gather; isplitl [Hid]; · iexact Hid
    iexact Hit
  iapply (out_gather (ℓ := outLoc d) (q := fullShare) piece pieces_disjoint pieces_cover); iexact Ho

end Deal

/-! ## The call -/

section Call

variable [FloatOps F]

/-- An unscoped array of the TensorCore is among the arrays @main's run accounts for. -/
theorem mem_Sall' (b : Ref sig .tc) (h : (dr b).isScoped = false) : dr b ∈ Sall :=
  Finset.mem_filter.2 ⟨StableHlo.devRef_mem_tcRefs b, by simp [h]⟩

/-- The three arrays the call touches. -/
abbrev S3 : Finset (DevRef τ sig) := {dr main_v6, dr main_v0, dr main_v7}

theorem S3_sub : S3 ⊆ Sall := by
  intro b hb
  simp only [S3, Finset.mem_insert, Finset.mem_singleton] at hb
  rcases hb with rfl | rfl | rfl
  · exact mem_Sall' main_v6 rfl
  · exact mem_Sall' main_v0 rfl
  · exact mem_Sall' main_v7 rfl

/-- The three arrays held at a valuation, one by one. -/
theorem held_S3 (d : Dev nD) (W : Valuation τ sig (Elt F)) :
    (held (T d) S3 W : sProp 𝕄) = iprop((srcLoc d ↦{fullShare} W (dr main_v6)) ∗ (idxLoc d ↦{fullShare} W (dr main_v0))
      ∗ (outLoc d ↦{fullShare} W (dr main_v7))) := by
  unfold held
  rw [SparseCore.bigSep_insert' (by decide), SparseCore.bigSep_insert' (by decide), bigSep_singleton]

/-- THE SECOND SPARSECORE CALL AS @main SEES IT: its two operands lent to the tiles and returned, its result array
    rewritten to the pooled array, the handshakes one round on. -/
theorem callStep1 (R : Regions F) (hR : R.gmaxP = gmaxArr) (m : (ℓ : Loc nD τ sig) → Buf (Elt F) ℓ) (d : Dev nD) :
    CallStep (P R m) 1 d (W5 R (launchContents m d)) (W6 R (launchContents m d)) := by
  intro κ Φ
  rw [held_sub_split (T d) S3_sub (W5 R (launchContents m d)), held_sub_split (T d) S3_sub (W6 R (launchContents m d)),
    held_S3, held_S3]
  have hrest : (held (T d) (Sall \ S3) (W6 R (launchContents m d)) : sProp 𝕄) = held (T d) (Sall \ S3) (W5 R (launchContents m d)) :=
    held_congr (T d) fun b hb => by
      unfold W6
      exact Function.update_of_ne (fun h => (Finset.mem_sdiff.mp hb).2 (by rw [h]; simp [S3])) _ _
  have e0 : W6 R (launchContents m d) (dr main_v6) = W5 R (launchContents m d) (dr main_v6) := by
    unfold W6; exact Function.update_of_ne (by decide) _ _
  have e1 : W6 R (launchContents m d) (dr main_v0) = W5 R (launchContents m d) (dr main_v0) := by
    unfold W6; exact Function.update_of_ne (by decide) _ _
  have e2 : W6 R (launchContents m d) (dr main_v7)
      = gmaxArr (W5 R (launchContents m d) (dr main_v6)) (W5 R (launchContents m d) (dr main_v0)) := by
    unfold W6; rw [Function.update_self, hR]
  rw [hrest, e0, e1, e2]
  iintro ⟨#Hctx, Hst, ⟨⟨Hs, Hi, Ho⟩, Hrest⟩, Hk⟩
  ihave Hsp := (split1 d _ _) $$ [Hs Hi Ho]
  · isplitl [Hs]; · iexact Hs
    isplitl [Hi]; · iexact Hi
    iexists _; iexact Ho
  icases Hsp with ⟨Hgo, Hrem⟩
  iapply ((K (F := F)).wp_run (D (F := F)) 𝒱 (EH := EH) (P := P R m) κ d 1) $$ [Hst Hgo Hrem Hrest Hk]
  isplitr; · iexact Hctx
  isplitl [Hst]; · iexact Hst
  isplitl [Hgo]; · iexact Hgo
  iintro ⟨Hst, Hdn⟩
  ihave Hj := (join1 d _ _) $$ [Hrem Hdn]
  · isplitl [Hrem]; · iexact Hrem
    iexact Hdn
  iapply Hk
  isplitl [Hst]; · iexact Hst
  isplitl [Hj]; · iexact Hj
  iexact Hrest

end Call

end Cert.Proof.KI

end
-- ==== Proof.KIOff4.lean ====
/-
  The four output pieces of a tile of the third SparseCore call, in closed form. The tile numbered w among the 32
  (twice its subcore's number plus its core's) writes, of the pooled array of 8 clouds by 64 channels by 4096 points,
  cloud w / 4, the sixteen channels from 16 * (w % 4), and the four quarters of the points in turn: the offsets the
  program computes from the tile's coordinates are these.
-/
import proofs.«209975_g17849884082380_cont_8to1_1483_11_alg».proof.Proof.KITile4Defs

namespace Cert.Proof.KI.T4

open Cert.KernelIdeal Cert.KernelIdeal.Gen
open Idealize.ShloMosaic

/-- The first piece: points 0 to 1023. -/
theorem off24_eq : ∀ L : grid4.Coords, k4_off24 L = ![(wid L).val / 4, (wid L).val % 4 * 16, 0] := by decide +kernel
/-- The second piece: points 1024 to 2047. -/
theorem off47_eq : ∀ L : grid4.Coords, k4_off47 L = ![(wid L).val / 4, (wid L).val % 4 * 16, 1024] := by decide +kernel
/-- The third piece: points 2048 to 3071. -/
theorem off70_eq : ∀ L : grid4.Coords, k4_off70 L = ![(wid L).val / 4, (wid L).val % 4 * 16, 2048] := by decide +kernel
/-- The fourth piece: points 3072 to 4095. -/
theorem off93_eq : ∀ L : grid4.Coords, k4_off93 L = ![(wid L).val / 4, (wid L).val % 4 * 16, 3072] := by decide +kernel

end Cert.Proof.KI.T4
-- ==== Proof.KICall2.lean ====
/-
  The third SparseCore call as @main on the TensorCore sees it. The call's two operands (the flattened source and the
  neighbour lists) are dealt to the 2 × 16 tiles as read shares, the output array as its 128 pieces, four to each
  tile; the SparseCores are started and awaited; what the tiles give back is gathered: the two operands whole again,
  and the output array whole at the pooled array. In terms of the arrays @main holds, the call rewrites its result
  array and nothing else, and moves the handshakes one round on.
-/
import proofs.«209975_g17849884082380_cont_8to1_1483_11_alg».proof.Proof.KIP
import proofs.«209975_g17849884082380_cont_8to1_1483_11_alg».proof.Proof.KIOff4
import proofs.«209975_g17849884082380_cont_8to1_1483_11_alg».proof.Proof.KIOutPieces

noncomputable section

namespace Cert.Proof.KI.T4

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr launchContents)

variable {F : FTy → Type}

local notation "𝕄" => MT nD τ sig (HIx 3) (Elt F) ℕ UU ℕ

/-! ## A tile's four output pieces are pieces of the partition -/

section Pieces

variable (L : grid4.Coords)

theorem oSet0_eq : oSet0 L = piece (wid L, 0) := by
  show (((Memref.whole main_v11_scv : Memref sig .scVector .hbm S8x64x4096 .f32).view.slice
      (Rect.unit (s := S8x64x4096) (k4_off24 L) S1x16x1024.size (k4_off24_inb L))).reshape S16x1024 squeezes_S1x16x1024_S16x1024.numel_eq).set = _
  rw [View.set_reshape]
  show ((View.whole (main_v11_scv : Ref sig .scVector)).slice _).set = _
  rw [View.set_slice_whole]
  exact set_unit_eq_piece (wid L) 0 (off24_eq L)

theorem oSet1_eq : oSet1 L = piece (wid L, 1) := by
  show (((Memref.whole main_v11_scv : Memref sig .scVector .hbm S8x64x4096 .f32).view.slice
      (Rect.unit (s := S8x64x4096) (k4_off47 L) S1x16x1024.size (k4_off47_inb L))).reshape S16x1024 squeezes_S1x16x1024_S16x1024.numel_eq).set = _
  rw [View.set_reshape]
  show ((View.whole (main_v11_scv : Ref sig .scVector)).slice _).set = _
  rw [View.set_slice_whole]
  exact set_unit_eq_piece (wid L) 1 (off47_eq L)

theorem oSet2_eq : oSet2 L = piece (wid L, 2) := by
  show (((Memref.whole main_v11_scv : Memref sig .scVector .hbm S8x64x4096 .f32).view.slice
      (Rect.unit (s := S8x64x4096) (k4_off70 L) S1x16x1024.size (k4_off70_inb L))).reshape S16x1024 squeezes_S1x16x1024_S16x1024.numel_eq).set = _
  rw [View.set_reshape]
  show ((View.whole (main_v11_scv : Ref sig .scVector)).slice _).set = _
  rw [View.set_slice_whole]
  exact set_unit_eq_piece (wid L) 2 (off70_eq L)

theorem oSet3_eq : oSet3 L = piece (wid L, 3) := by
  show (((Memref.whole main_v11_scv : Memref sig .scVector .hbm S8x64x4096 .f32).view.slice
      (Rect.unit (s := S8x64x4096) (k4_off93 L) S1x16x1024.size (k4_off93_inb L))).reshape S16x1024 squeezes_S1x16x1024_S16x1024.numel_eq).set = _
  rw [View.set_reshape]
  show ((View.whole (main_v11_scv : Ref sig .scVector)).slice _).set = _
  rw [View.set_slice_whole]
  exact set_unit_eq_piece (wid L) 3 (off93_eq L)

end Pieces

/-! ## The call's operands dealt to the 32 tiles, and gathered again -/

/-- A family over the tiles that is a product of three families is the product of the three. -/
theorem bigSep_tiles_sep3 (A B O : Fin 2 → Fin 16 → sProp 𝕄) :
    (bigSep Finset.univ fun c : Fin 2 => bigSep Finset.univ fun i : Fin 16 => iprop(A c i ∗ B c i ∗ O c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => O c i)) := by
  simp only [bigSep_sep']

section Deal

variable (d : Dev nD) (fs : Buf (Elt F) (srcLoc d)) (fi : Buf (Elt F) (idxLoc d))

/-- What a tile takes, its shares and pieces spelt through the tile's number. -/
theorem go4_eq (c : Fin 2) (i : Fin 16) :
    (go4 d (coords4 (F := F) c i) fs fi : sProp 𝕄)
      = iprop((srcLoc d ↦{Transfers.shareTok fullShare 32 (tileNo c i)} fs) ∗ (idxLoc d ↦{Transfers.shareTok fullShare 32 (tileNo c i)} fi)
        ∗ ((∃ f, outLoc d ↦[piece (tileNo c i, 0)]{fullShare} f) ∗ (∃ f, outLoc d ↦[piece (tileNo c i, 1)]{fullShare} f)
          ∗ (∃ f, outLoc d ↦[piece (tileNo c i, 2)]{fullShare} f) ∗ (∃ f, outLoc d ↦[piece (tileNo c i, 3)]{fullShare} f))) := by
  unfold go4
  rw [oSet0_eq, oSet1_eq, oSet2_eq, oSet3_eq]
  rfl

/-- THE SPLIT: the two arrays the tiles read and the output array, dealt to the 2 × 16 tiles; the read arrays'
    remainders are kept. -/
theorem split2 :
    (iprop((srcLoc d ↦{fullShare} fs) ∗ (idxLoc d ↦{fullShare} fi) ∗ (∃ f, outLoc d ↦{fullShare} f)) : sProp 𝕄)
      ⊢ iprop((bigSep Finset.univ fun c : Fin ((K (F := F)).nCore 2) => bigSep Finset.univ fun i : Fin ((K (F := F)).nSub 2) =>
            go4 d (coords4 c i) fs fi)
          ∗ (srcLoc d ↦{Transfers.shareDrop fullShare 32} fs) ∗ (idxLoc d ↦{Transfers.shareDrop fullShare 32} fi)) := by
  show _ ⊢ iprop((bigSep (Finset.univ : Finset (Fin 2)) fun c => bigSep (Finset.univ : Finset (Fin 16)) fun i =>
            go4 d (coords4 (F := F) c i) fs fi) ∗ _)
  rw [BI.bigSep_congr (fun c _ => BI.bigSep_congr (fun i _ => go4_eq d fs fi c i)), bigSep_tiles_sep3]
  iintro ⟨Hs, Hi, Ho⟩
  ihave Hs' := reads_deal $$ Hs
  ihave Hi' := reads_deal $$ Hi
  ihave Ho' := (out_deal_ex (ℓ := outLoc d) (q := fullShare) piece pieces_disjoint pieces_cover) $$ Ho
  icases Hs' with ⟨Hsd, Hst⟩
  icases Hi' with ⟨Hid, Hit⟩
  isplitl [Hst Hit Ho']
  · isplitl [Hst]; · iexact Hst
    isplitl [Hit]; · iexact Hit
    iexact Ho'
  isplitl [Hsd]; · iexact Hsd
  iexact Hid

variable [FloatOps F]

/-- What a tile gives back, spelt through the tile's number. -/
theorem td4_eq (c : Fin 2) (i : Fin 16) :
    (td4 d (coords4 (F := F) c i) fs fi : sProp 𝕄)
      = iprop((srcLoc d ↦{Transfers.shareTok fullShare 32 (tileNo c i)} fs) ∗ (idxLoc d ↦{Transfers.shareTok fullShare 32 (tileNo c i)} fi)
        ∗ ((outLoc d ↦[piece (tileNo c i, 0)]{fullShare} gmaxArr fs fi) ∗ (outLoc d ↦[piece (tileNo c i, 1)]{fullShare} gmaxArr fs fi)
          ∗ (outLoc d ↦[piece (tileNo c i, 2)]{fullShare} gmaxArr fs fi) ∗ (outLoc d ↦[piece (tileNo c i, 3)]{fullShare} gmaxArr fs fi))) := by
  unfold td4
  rw [oSet0_eq, oSet1_eq, oSet2_eq, oSet3_eq]
  rfl

/-- THE JOIN: the remainders and what the 2 × 16 tiles give back are the two read arrays whole and the output array
    whole at the pooled array. -/
theorem join2 :
    (iprop(((srcLoc d ↦{Transfers.shareDrop fullShare 32} fs) ∗ (idxLoc d ↦{Transfers.shareDrop fullShare 32} fi))
        ∗ (bigSep Finset.univ fun c : Fin ((K (F := F)).nCore 2) => bigSep Finset.univ fun i : Fin ((K (F := F)).nSub 2) =>
            td4 d (coords4 c i) fs fi)) : sProp 𝕄)
      ⊢ iprop((srcLoc d ↦{fullShare} fs) ∗ (idxLoc d ↦{fullShare} fi) ∗ (outLoc d ↦{fullShare} gmaxArr fs fi)) := by
  show iprop(_ ∗ (bigSep (Finset.univ : Finset (Fin 2)) fun c => bigSep (Finset.univ : Finset (Fin 16)) fun i =>
            td4 d (coords4 (F := F) c i) fs fi)) ⊢ _
  rw [BI.bigSep_congr (fun c _ => BI.bigSep_congr (fun i _ => td4_eq d fs fi c i)), bigSep_tiles_sep3]
  iintro ⟨⟨Hsd, Hid⟩, Hst, Hit, Ho⟩
  isplitl [Hsd Hst]
  · iapply reads_gather; isplitl [Hsd]; · iexact Hsd
    iexact Hst
  isplitl [Hid Hit]
  · iapply reads_gather; isplitl [Hid]; · iexact Hid
    iexact Hit
  iapply (out_gather (ℓ := outLoc d) (q := fullShare) piece pieces_disjoint pieces_cover); iexact Ho

end Deal

/-! ## The call -/

section Call

variable [FloatOps F]

/-- An unscoped array of the TensorCore is among the arrays @main's run accounts for. -/
theorem mem_Sall' (b : Ref sig .tc) (h : (dr b).isScoped = false) : dr b ∈ Sall :=
  Finset.mem_filter.2 ⟨StableHlo.devRef_mem_tcRefs b, by simp [h]⟩

/-- The three arrays the call touches. -/
abbrev S3 : Finset (DevRef τ sig) := {dr main_v10, dr main_v0, dr main_v11}

theorem S3_sub : S3 ⊆ Sall := by
  intro b hb
  simp only [S3, Finset.mem_insert, Finset.mem_singleton] at hb
  rcases hb with rfl | rfl | rfl
  · exact mem_Sall' main_v10 rfl
  · exact mem_Sall' main_v0 rfl
  · exact mem_Sall' main_v11 rfl

/-- The three arrays held at a valuation, one by one. -/
theorem held_S3 (d : Dev nD) (W : Valuation τ sig (Elt F)) :
    (held (T d) S3 W : sProp 𝕄) = iprop((srcLoc d ↦{fullShare} W (dr main_v10)) ∗ (idxLoc d ↦{fullShare} W (dr main_v0))
      ∗ (outLoc d ↦{fullShare} W (dr main_v11))) := by
  unfold held
  rw [SparseCore.bigSep_insert' (by decide), SparseCore.bigSep_insert' (by decide), bigSep_singleton]

/-- THE THIRD SPARSECORE CALL AS @main SEES IT: its two operands lent to the tiles and returned, its result array
    rewritten to the pooled array, the handshakes one round on. -/
theorem callStep2 (R : Regions F) (hR : R.gmaxP = gmaxArr) (m : (ℓ : Loc nD τ sig) → Buf (Elt F) ℓ) (d : Dev nD) :
    CallStep (P R m) 2 d (W9 R (launchContents m d)) (W10 R (launchContents m d)) := by
  intro κ Φ
  rw [held_sub_split (T d) S3_sub (W9 R (launchContents m d)), held_sub_split (T d) S3_sub (W10 R (launchContents m d)),
    held_S3, held_S3]
  have hrest : (held (T d) (Sall \ S3) (W10 R (launchContents m d)) : sProp 𝕄) = held (T d) (Sall \ S3) (W9 R (launchContents m d)) :=
    held_congr (T d) fun b hb => by
      unfold W10
      exact Function.update_of_ne (fun h => (Finset.mem_sdiff.mp hb).2 (by rw [h]; simp [S3])) _ _
  have e0 : W10 R (launchContents m d) (dr main_v10) = W9 R (launchContents m d) (dr main_v10) := by
    unfold W10; exact Function.update_of_ne (by decide) _ _
  have e1 : W10 R (launchContents m d) (dr main_v0) = W9 R (launchContents m d) (dr main_v0) := by
    unfold W10; exact Function.update_of_ne (by decide) _ _
  have e2 : W10 R (launchContents m d) (dr main_v11)
      = gmaxArr (W9 R (launchContents m d) (dr main_v10)) (W9 R (launchContents m d) (dr main_v0)) := by
    unfold W10; rw [Function.update_self, hR]
  rw [hrest, e0, e1, e2]
  iintro ⟨#Hctx, Hst, ⟨⟨Hs, Hi, Ho⟩, Hrest⟩, Hk⟩
  ihave Hsp := (split2 d _ _) $$ [Hs Hi Ho]
  · isplitl [Hs]; · iexact Hs
    isplitl [Hi]; · iexact Hi
    iexists _; iexact Ho
  icases Hsp with ⟨Hgo, Hrem⟩
  iapply ((K (F := F)).wp_run (D (F := F)) 𝒱 (EH := EH) (P := P R m) κ d 2) $$ [Hst Hgo Hrem Hrest Hk]
  isplitr; · iexact Hctx
  isplitl [Hst]; · iexact Hst
  isplitl [Hgo]; · iexact Hgo
  iintro ⟨Hst, Hdn⟩
  ihave Hj := (join2 d _ _) $$ [Hrem Hdn]
  · isplitl [Hrem]; · iexact Hrem
    iexact Hdn
  iapply Hk
  isplitl [Hst]; · iexact Hst
  isplitl [Hj]; · iexact Hj
  iexact Hrest

end Call

end Cert.Proof.KI.T4

end
-- ==== Proof.KITile1Val.lean ====
/-
  The first SparseCore call's tile, the value side (pure: no program). What one chunk's loops leave in the output scratch,
  as a function of the three scratches' contents; that it is the pooled and rectified array at the tile's piece when the
  scratches hold the tile's slices of the source, the neighbour lists and the centre term; and what those slices read.
-/
import proofs.«209975_g17849884082380_cont_8to1_1483_11_alg».proof.Proof.KITile1Defs
import proofs.«209975_g17849884082380_cont_8to1_1483_11_alg».proof.Proof.KIOff1

noncomputable section

namespace Cert.Proof.KI.T1

open Cert.KernelIdeal Cert.KernelIdeal.Gen
open Cert.Proof.KI
open Idealize.ShloMosaic
open Idealize.ShloMosaic.ValueIdx

variable {F : FTy → Type}

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)

/-- The tile's cloud and its group of sixteen channels. -/
def bT (L : grid1.Coords) : Fin 8 := ⟨(wid L).val / 4, by have := (wid L).isLt; omega⟩
def gT (L : grid1.Coords) : Fin 4 := ⟨(wid L).val % 4, by omega⟩

/-- Word `n` of the slab (reduced into it). -/
def sIx (n : ℕ) : S65536.Idx := ix1 ⟨n % 65536, Nat.mod_lt _ (by norm_num)⟩

section Value
variable [FloatOps F]

/-- What one chunk's loops leave at an index of the output scratch: the rectifier of the sum of the maximum, folded from
    minus infinity over the 20 neighbours in order, of the slab's row at the neighbours the index scratch names, and the
    centre scratch's word. -/
def valB (fsl : Vec F S65536 .f32) (fib : IVec S20x1024 32) (f3 : Vec F S16x1024 .f32) (y : S16x1024.Idx) : F .f32 :=
  lreluF (FloatOps.addf
    ((List.finRange 20).foldl
      (fun (acc : F .f32) (k : Fin 20) => FloatOps.maximumf acc (fsl (sIx ((fib (ix2 k (y 1))).toNat + (y 0).val * 4096))))
      (Scalar.ofBits .f32 0xFF800000#32))
    (f3 y))

/-- With the slab at the tile's sixteen channels of the source, the index scratch at a quarter of the tile's cloud's
    neighbour lists and the centre scratch at that quarter of the centre term's piece, `valB` is the pooled and rectified
    array at the tile's piece. -/
theorem valB_spec (b : Fin 8) (cg ch : Fin 4)
    (fs : Vec F S8x262144 .f32) (fi : IVec S8x20x4096 32) (fc : Vec F S8x64x4096 .f32)
    (fsl : Vec F S65536 .f32) (fib : IVec S20x1024 32) (f3 : Vec F S16x1024 .f32)
    (hidx : ∀ j, (fi j).toNat < 4096)
    (hsl : ∀ w : Fin 65536, fsl (ix1 w) = fs (ix2 b ⟨cg.val * 65536 + w.val, by have := cg.isLt; have := w.isLt; omega⟩))
    (hib : ∀ (k : Fin 20) (x : Fin 1024), fib (ix2 k x) = fi (ix3 b k ⟨ch.val * 1024 + x.val, by have := ch.isLt; have := x.isLt; omega⟩))
    (h3 : ∀ (r : Fin 16) (x : Fin 1024), f3 (ix2 r x)
      = fc (ix3 b ⟨cg.val * 16 + r.val, by have := cg.isLt; have := r.isLt; omega⟩ ⟨ch.val * 1024 + x.val, by have := ch.isLt; have := x.isLt; omega⟩)) :
    ∀ (r : Fin 16) (x : Fin 1024), valB fsl fib f3 (ix2 r x)
      = gmaxLArr fs fi fc (ix3 b ⟨cg.val * 16 + r.val, by have := cg.isLt; have := r.isLt; omega⟩ ⟨ch.val * 1024 + x.val, by have := ch.isLt; have := x.isLt; omega⟩) := by
  intro r x
  unfold valB gmaxLArr gmaxArr
  refine congrArg lreluF (congrArg₂ FloatOps.addf (List.foldl_ext _ _ _ fun acc k _ => ?_) (h3 r x))
  refine congrArg (FloatOps.maximumf acc) ?_
  show fsl (sIx ((fib (ix2 k x)).toNat + r.val * 4096))
    = fs (srcIx b ⟨cg.val * 16 + r.val, by have := cg.isLt; have := r.isLt; omega⟩
        (fi (ix3 b k ⟨ch.val * 1024 + x.val, by have := ch.isLt; have := x.isLt; omega⟩)))
  rw [hib k x]
  have hW := hidx (ix3 b k ⟨ch.val * 1024 + x.val, by have := ch.isLt; have := x.isLt; omega⟩)
  unfold sIx srcIx
  rw [hsl]
  refine congrArg fs (congrArg (ix2 b) (Fin.ext ?_))
  have hr := r.isLt
  show cg.val * 65536 + ((fi (ix3 b k ⟨ch.val * 1024 + x.val, _⟩)).toNat + r.val * 4096) % 65536
    = (cg.val * 16 + r.val) * 4096 + (fi (ix3 b k ⟨ch.val * 1024 + x.val, _⟩)).toNat % 4096
  omega

end Value

/-! ## What the tile's slices read -/

/-- The slab's source: the tile's 65536 words of its cloud's row of the flattened source. -/
theorem slab_read (L : grid1.Coords) (fs : Vec F S8x262144 .f32) (w : Fin 65536) :
    (((srcW).slice (Rect.unit (s := S8x262144) (k1_off1 L) S1x65536.size (k1_off1_inb L)) (fun _ => rfl)).squeeze S65536 squeezes_S1x65536_S65536).view.read (Elt F) fs (ix1 w)
      = fs (ix2 (bT L) ⟨(gT L).val * 65536 + w.val, by have := (gT L).isLt; have := w.isLt; omega⟩) := by
  show fs ((Rect.unit (s := S8x262144) (k1_off1 L) S1x65536.size (k1_off1_inb L)).emb
    (Shape.reshapeEquiv squeezes_S1x65536_S65536.numel_eq (ix1 w))) = _
  congr 1
  rw [Shape.reshapeEquiv_eq_of_rowMajor (y := (ix2 (0 : Fin 1) w : S1x65536.Idx)) _ (by
    rw [Shape.rowMajor_val_two, Shape.rowMajor_val_one]
    show 0 * 65536 + w.val = w.val
    omega)]
  funext a
  apply Fin.ext
  rw [Rect.emb_apply, Rect.off_unit, Rect.stride_unit]
  have h0 : k1_off1 L 0 = (wid L).val / 4 := by rw [off1_eq]; rfl
  have h1 : k1_off1 L 1 = (wid L).val % 4 * 65536 := by rw [off1_eq]; rfl
  match a with
  | ⟨0, _⟩ => show k1_off1 L 0 + 1 * 0 = (wid L).val / 4; omega
  | ⟨1, _⟩ => show k1_off1 L 1 + 1 * w.val = (wid L).val % 4 * 65536 + w.val; omega

/-- A quarter of the cloud's neighbour lists (`off` one of the four offsets, `q` its quarter's first point). -/
theorem idx_read (L : grid1.Coords) (fi : IVec S8x20x4096 32) (off : Fin 3 → Nat) (inb : ∀ a, off a + S1x20x1024.size a ≤ S8x20x4096.size a)
    (q : Nat) (hq : q + 1024 ≤ 4096) (hoff : off = ![(wid L).val / 4, 0, q]) (k : Fin 20) (x : Fin 1024) :
    (((idxW).slice (Rect.unit (s := S8x20x4096) off S1x20x1024.size inb) (fun _ => rfl)).squeeze S20x1024 squeezes_S1x20x1024_S20x1024).view.read (Elt F) fi (ix2 k x)
      = fi (ix3 (bT L) k ⟨q + x.val, by have := x.isLt; omega⟩) := by
  subst hoff
  show fi ((Rect.unit (s := S8x20x4096) ![(wid L).val / 4, 0, q] S1x20x1024.size inb).emb
    (Shape.reshapeEquiv squeezes_S1x20x1024_S20x1024.numel_eq (ix2 k x))) = _
  congr 1
  rw [Shape.reshapeEquiv_eq_of_rowMajor (y := (ix3 (0 : Fin 1) k x : S1x20x1024.Idx)) _ (by
    rw [Shape.rowMajor_val_three, Shape.rowMajor_val_two]
    show (0 * 20 + k.val) * 1024 + x.val = k.val * 1024 + x.val
    omega)]
  funext a
  apply Fin.ext
  rw [Rect.emb_apply, Rect.off_unit, Rect.stride_unit]
  match a with
  | ⟨0, _⟩ => show (wid L).val / 4 + 1 * 0 = (wid L).val / 4; omega
  | ⟨1, _⟩ => show 0 + 1 * k.val = k.val; omega
  | ⟨2, _⟩ => show q + 1 * x.val = q + x.val; omega

/-- A quarter of the centre term's piece. -/
theorem cep_read (L : grid1.Coords) (fc : Vec F S8x64x4096 .f32) (off : Fin 3 → Nat) (inb : ∀ a, off a + S1x16x1024.size a ≤ S8x64x4096.size a)
    (q : Nat) (hq : q + 1024 ≤ 4096) (hoff : off = ![(wid L).val / 4, (wid L).val % 4 * 16, q]) (r : Fin 16) (x : Fin 1024) :
    (((cepW).slice (Rect.unit (s := S8x64x4096) off S1x16x1024.size inb) (fun _ => rfl)).squeeze S16x1024 squeezes_S1x16x1024_S16x1024).view.read (Elt F) fc (ix2 r x)
      = fc (ix3 (bT L) ⟨(gT L).val * 16 + r.val, by have := (gT L).isLt; have := r.isLt; omega⟩ ⟨q + x.val, by have := x.isLt; omega⟩) := by
  subst hoff
  show fc ((Rect.unit (s := S8x64x4096) ![(wid L).val / 4, (wid L).val % 4 * 16, q] S1x16x1024.size inb).emb
    (Shape.reshapeEquiv squeezes_S1x16x1024_S16x1024.numel_eq (ix2 r x))) = _
  congr 1
  rw [Shape.reshapeEquiv_eq_of_rowMajor (y := (ix3 (0 : Fin 1) r x : S1x16x1024.Idx)) _ (by
    rw [Shape.rowMajor_val_three, Shape.rowMajor_val_two]
    show (0 * 16 + r.val) * 1024 + x.val = r.val * 1024 + x.val
    omega)]
  funext a
  apply Fin.ext
  rw [Rect.emb_apply, Rect.off_unit, Rect.stride_unit]
  match a with
  | ⟨0, _⟩ => show (wid L).val / 4 + 1 * 0 = (wid L).val / 4; omega
  | ⟨1, _⟩ => show (wid L).val % 4 * 16 + 1 * r.val = (wid L).val % 4 * 16 + r.val; omega
  | ⟨2, _⟩ => show q + 1 * x.val = q + x.val; omega

/-- Where a piece of the output lies: the element of the output array under index `(r, x)` of the piece. -/
theorem out_emb (L : grid1.Coords) (off : Fin 3 → Nat) (inb : ∀ a, off a + S1x16x1024.size a ≤ S8x64x4096.size a)
    (q : Nat) (hq : q + 1024 ≤ 4096) (hoff : off = ![(wid L).val / 4, (wid L).val % 4 * 16, q]) (r : Fin 16) (x : Fin 1024) :
    (((outW).slice (Rect.unit (s := S8x64x4096) off S1x16x1024.size inb) (fun _ => rfl)).squeeze S16x1024 squeezes_S1x16x1024_S16x1024).view.emb (ix2 r x)
      = ix3 (bT L) ⟨(gT L).val * 16 + r.val, by have := (gT L).isLt; have := r.isLt; omega⟩ ⟨q + x.val, by have := x.isLt; omega⟩ := by
  subst hoff
  show (Rect.unit (s := S8x64x4096) ![(wid L).val / 4, (wid L).val % 4 * 16, q] S1x16x1024.size inb).emb
    (Shape.reshapeEquiv squeezes_S1x16x1024_S16x1024.numel_eq (ix2 r x)) = _
  rw [Shape.reshapeEquiv_eq_of_rowMajor (y := (ix3 (0 : Fin 1) r x : S1x16x1024.Idx)) _ (by
    rw [Shape.rowMajor_val_three, Shape.rowMajor_val_two]
    show (0 * 16 + r.val) * 1024 + x.val = r.val * 1024 + x.val
    omega)]
  funext a
  apply Fin.ext
  rw [Rect.emb_apply, Rect.off_unit, Rect.stride_unit]
  match a with
  | ⟨0, _⟩ => show (wid L).val / 4 + 1 * 0 = (wid L).val / 4; omega
  | ⟨1, _⟩ => show (wid L).val % 4 * 16 + 1 * r.val = (wid L).val % 4 * 16 + r.val; omega
  | ⟨2, _⟩ => show q + 1 * x.val = q + x.val; omega

end Cert.Proof.KI.T1

end
-- ==== Proof.KITile2Val.lean ====
/-
  One tile of the second SparseCore call: what the gathers and the running maxima of one trip compute, and how the
  output scratch fills, a block of four rows of sixteen columns a trip.
-/
import proofs.«209975_g17849884082380_cont_8to1_1483_11_alg».proof.Proof.KITile2Defs
import Idealize.ShloMosaic.Lib.Writes
import Idealize.ShloMosaic.Lib.ValueLayout

noncomputable section

namespace Cert.Proof.KI

open Cert.KernelIdeal Cert.KernelIdeal.Gen

open Idealize.ShloMosaic
open Idealize.ShloMosaic.ValueIdx

variable {F : FTy → Type}

/-- The index vector of a gather: a neighbour vector plus the offset of row `4 g + j` in the slab. -/
@[reducible] def idxOff (v : IVec S16 32) (g j : BitVec 32) : IVec S16 32 :=
  addi v (broadcast S16 (Scalar.muli (Scalar.addi (Scalar.muli g 4#32) j) 4096#32))

theorem chk_idxOff {v : IVec S16 32} {g j : BitVec 32} (hv : ∀ x, (v x).toNat < 4096) (hg : g.toNat < 4) (hj : j.toNat < 4) :
    ∀ a x, ((![idxOff v g j] : Fin 1 → IVec S16 32) a x).toNat < S65536.size a := by
  intro a x
  obtain rfl : a = 0 := Subsingleton.elim _ _
  have h := hv x
  show (v x + (g * 4#32 + j) * 4096#32).toNat < 65536
  bv_omega

/-- The slab's index of row `r` at the neighbour word `w` (reduced into the cloud). -/
def slabIx (r : Fin 16) (w : BitVec 32) : S65536.Idx :=
  ix1 ⟨r.val * 4096 + w.toNat % 4096, by have := r.isLt; have := Nat.mod_lt w.toNat (show 0 < 4096 by norm_num); omega⟩

theorem idxAt_idxOff {v : IVec S16 32} {g j : BitVec 32} (hv : ∀ x, (v x).toNat < 4096) (hg : g.toNat < 4) (hj : j.toNat < 4)
    (r : Fin 16) (hr : r.val = 4 * g.toNat + j.toNat)
    (h : ∀ a x, ((![idxOff v g j] : Fin 1 → IVec S16 32) a x).toNat < S65536.size a) (x : S16.Idx) :
    idxAt ![idxOff v g j] h x = slabIx r (v x) := by
  funext a
  obtain rfl : a = 0 := Subsingleton.elim _ _
  apply Fin.ext
  have h1 := hv x
  show (v x + (g * 4#32 + j) * 4096#32).toNat = r.val * 4096 + (v x).toNat % 4096
  rw [hr]
  bv_omega

variable [FloatOps F]

/-- A trip's running maximum for row `4 g + j`, as the program folds it: from `v30`, over the 20 neighbour vectors in order, the
    maximum with the slab gathered at the neighbour vector offset to the row. -/
def accP (v30 : FVec F S16 .f32) (fsl : Vec F S65536 .f32) (u : Fin 20 → IVec S16 32) (g j : BitVec 32)
    (h : ∀ k a x, ((![idxOff (u k) g j] : Fin 1 → IVec S16 32) a x).toNat < S65536.size a) : FVec F S16 .f32 :=
  maximumf (maximumf (maximumf (maximumf (maximumf (maximumf (maximumf (maximumf (maximumf (maximumf (maximumf (maximumf (maximumf (maximumf (maximumf (maximumf (maximumf (maximumf (maximumf (maximumf (v30) (loadIdx fsl ![idxOff (u 0) g j] (h 0))) (loadIdx fsl ![idxOff (u 1) g j] (h 1))) (loadIdx fsl ![idxOff (u 2) g j] (h 2))) (loadIdx fsl ![idxOff (u 3) g j] (h 3))) (loadIdx fsl ![idxOff (u 4) g j] (h 4))) (loadIdx fsl ![idxOff (u 5) g j] (h 5))) (loadIdx fsl ![idxOff (u 6) g j] (h 6))) (loadIdx fsl ![idxOff (u 7) g j] (h 7))) (loadIdx fsl ![idxOff (u 8) g j] (h 8))) (loadIdx fsl ![idxOff (u 9) g j] (h 9))) (loadIdx fsl ![idxOff (u 10) g j] (h 10))) (loadIdx fsl ![idxOff (u 11) g j] (h 11))) (loadIdx fsl ![idxOff (u 12) g j] (h 12))) (loadIdx fsl ![idxOff (u 13) g j] (h 13))) (loadIdx fsl ![idxOff (u 14) g j] (h 14))) (loadIdx fsl ![idxOff (u 15) g j] (h 15))) (loadIdx fsl ![idxOff (u 16) g j] (h 16))) (loadIdx fsl ![idxOff (u 17) g j] (h 17))) (loadIdx fsl ![idxOff (u 18) g j] (h 18))) (loadIdx fsl ![idxOff (u 19) g j] (h 19))

/-- The array the output scratch is filled with: entry `(r, c)` is the maximum, folded from `neg` over the 20 neighbour rows of the
    index scratch in order, of the slab's row `r` at the neighbour column `c` names. -/
def Gout (neg : F .f32) (fsl : Vec F S65536 .f32) (fix : IVec S20x1024 32) (y : S16x1024.Idx) : F .f32 :=
  (List.finRange 20).foldl (fun (acc : F .f32) (k : Fin 20) => FloatOps.maximumf acc (fsl (slabIx (y 0) (fix (ix2 k (y 1)))))) neg

theorem accP_apply (v30 : FVec F S16 .f32) (fsl : Vec F S65536 .f32) (u : Fin 20 → IVec S16 32) (g j : BitVec 32)
    (h : ∀ k a x, ((![idxOff (u k) g j] : Fin 1 → IVec S16 32) a x).toNat < S65536.size a) (x : S16.Idx) :
    accP v30 fsl u g j h x
      = (List.finRange 20).foldl (fun (acc : F .f32) (k : Fin 20) => FloatOps.maximumf acc (fsl (idxAt ![idxOff (u k) g j] (h k) x))) (v30 x) := by
  rfl

/-! ## How the output scratch fills -/

local notation "outbW" => (Memref.whole Cert.KernelIdeal.cc2_scratch2 : Memref Cert.KernelIdeal.sig Kind.scVector Space.vmem Cert.KernelIdeal.S16x1024 EltTy.f32)

/-- The output scratch is right in its first `16 i` columns. -/
def Done1 (G : S16x1024.Idx → F .f32) (i : Nat) (f2 : S16x1024.Idx → F .f32) : Prop :=
  ∀ y : S16x1024.Idx, (y 1).val < 16 * i → f2 y = G y

/-- The output scratch is right in its first `16 i` columns and, in the next 16, in its first `4 g` rows. -/
def Done2 (G : S16x1024.Idx → F .f32) (i g : Nat) (f2 : S16x1024.Idx → F .f32) : Prop :=
  ∀ y : S16x1024.Idx, ((y 1).val < 16 * i ∨ ((y 1).val < 16 * i + 16 ∧ (y 0).val < 4 * g)) → f2 y = G y

omit [FloatOps F] in
theorem done2_of_done1 {G : S16x1024.Idx → F .f32} {i : Nat} {f2 : S16x1024.Idx → F .f32} (h : Done1 G i f2) : Done2 G i 0 f2 :=
  fun y hy => h y (by rcases hy with h | ⟨_, h⟩; exact h; omega)

omit [FloatOps F] in
theorem done1_of_done2 {G : S16x1024.Idx → F .f32} {i : Nat} {f2 : S16x1024.Idx → F .f32} (h : Done2 G i 4 f2) : Done1 G (i + 1) f2 :=
  fun y hy => h y (by
    have h0 : (y 0).val < 16 := (y 0).isLt
    by_cases hc : (y 1).val < 16 * i
    · exact Or.inl hc
    · exact Or.inr ⟨by omega, by omega⟩)

omit [FloatOps F] in
theorem done1_all {G : S16x1024.Idx → F .f32} {f2 : S16x1024.Idx → F .f32} (h : Done1 G 64 f2) : f2 = G :=
  funext fun y => h y (by have h1 : (y 1).val < 1024 := (y 1).isLt; omega)

omit [FloatOps F] in
/-- A trip's four stores, each a row of sixteen columns at the function `G`, extend what is right by the trip's block. -/
theorem done2_step (G : S16x1024.Idx → F .f32) (i g : Nat)
    (f2 : (outbW).view.ty.Contents (Elt F)) (hD : Done2 G i g f2)
    (o0 o1 o2 o3 : Fin 2 → Nat) (h0 : o0 = ![4 * g + 0, 16 * i]) (h1 : o1 = ![4 * g + 1, 16 * i])
    (h2 : o2 = ![4 * g + 2, 16 * i]) (h3 : o3 = ![4 * g + 3, 16 * i])
    (b0 : ∀ a, o0 a + S1x16.size a ≤ S16x1024.size a) (b1 : ∀ a, o1 a + S1x16.size a ≤ S16x1024.size a)
    (b2 : ∀ a, o2 a + S1x16.size a ≤ S16x1024.size a) (b3 : ∀ a, o3 a + S1x16.size a ≤ S16x1024.size a)
    (P0 P1 P2 P3 : S1x16.Idx → Elt F .f32)
    (hP0 : ∀ x, P0 x = G ((Rect.unit (s := S16x1024) o0 S1x16.size b0).emb x))
    (hP1 : ∀ x, P1 x = G ((Rect.unit (s := S16x1024) o1 S1x16.size b1).emb x))
    (hP2 : ∀ x, P2 x = G ((Rect.unit (s := S16x1024) o2 S1x16.size b2).emb x))
    (hP3 : ∀ x, P3 x = G ((Rect.unit (s := S16x1024) o3 S1x16.size b3).emb x)) :
    Done2 G i (g + 1) ((outbW).view.writes (Elt F) f2
      [⟨Rect.unit (s := S16x1024) o3 S1x16.size b3, P3⟩, ⟨Rect.unit (s := S16x1024) o2 S1x16.size b2, P2⟩,
        ⟨Rect.unit (s := S16x1024) o1 S1x16.size b1, P1⟩, ⟨Rect.unit (s := S16x1024) o0 S1x16.size b0, P0⟩]) := by
  subst h0 h1 h2 h3
  intro y hy
  have hrd : ∀ f : (outbW).view.ty.Contents (Elt F), (outbW).view.read (Elt F) f y = f y := fun f => rfl
  refine (hrd _).symm.trans ?_
  by_cases hm : ∃ p ∈ ([⟨Rect.unit (s := S16x1024) ![4 * g + 3, 16 * i] S1x16.size b3, P3⟩, ⟨Rect.unit (s := S16x1024) ![4 * g + 2, 16 * i] S1x16.size b2, P2⟩,
        ⟨Rect.unit (s := S16x1024) ![4 * g + 1, 16 * i] S1x16.size b1, P1⟩, ⟨Rect.unit (s := S16x1024) ![4 * g + 0, 16 * i] S1x16.size b0, P0⟩] : List (View.Piece (Elt F) S16x1024 .f32)), y ∈ p.1.set
  · refine View.read_writes_apply_of_pieces _ _ G _ ?_ y hm
    intro p hp x
    simp only [List.mem_cons, List.mem_singleton, List.not_mem_nil, or_false] at hp
    rcases hp with rfl | rfl | rfl | rfl
    · exact hP3 x
    · exact hP2 x
    · exact hP1 x
    · exact hP0 x
  · rw [View.read_writes_apply_of_forall_not_mem _ _ y _ (fun p hp hy' => hm ⟨p, hp, hy'⟩), hrd]
    apply hD
    rcases hy with h | ⟨hc, hr⟩
    · exact Or.inl h
    · by_cases hc' : (y 1).val < 16 * i
      · exact Or.inl hc'
      · refine Or.inr ⟨hc, ?_⟩
        by_contra hr'
        apply hm
        have hmem : ∀ (r : Nat) (b : ∀ a, (![4 * g + r, 16 * i] : Fin 2 → Nat) a + S1x16.size a ≤ S16x1024.size a), (y 0).val = 4 * g + r →
            y ∈ (Rect.unit (s := S16x1024) ![4 * g + r, 16 * i] S1x16.size b).set := by
          intro r b e
          refine Rect.mem_set_unit.mpr (Fin.forall_fin_two.mpr ⟨⟨?_, ?_⟩, ⟨?_, ?_⟩⟩)
          · show 4 * g + r ≤ (y 0).val; omega
          · show (y 0).val < 4 * g + r + 1; omega
          · show 16 * i ≤ (y 1).val; omega
          · show (y 1).val < 16 * i + 16; omega
        have hcase : (y 0).val = 4 * g + 0 ∨ (y 0).val = 4 * g + 1 ∨ (y 0).val = 4 * g + 2 ∨ (y 0).val = 4 * g + 3 := by omega
        rcases hcase with e | e | e | e
        · exact ⟨⟨Rect.unit (s := S16x1024) ![4 * g + 0, 16 * i] S1x16.size b0, P0⟩, List.mem_cons_of_mem _ (List.mem_cons_of_mem _ (List.mem_cons_of_mem _ List.mem_cons_self)), hmem 0 b0 e⟩
        · exact ⟨⟨Rect.unit (s := S16x1024) ![4 * g + 1, 16 * i] S1x16.size b1, P1⟩, List.mem_cons_of_mem _ (List.mem_cons_of_mem _ List.mem_cons_self), hmem 1 b1 e⟩
        · exact ⟨⟨Rect.unit (s := S16x1024) ![4 * g + 2, 16 * i] S1x16.size b2, P2⟩, List.mem_cons_of_mem _ List.mem_cons_self, hmem 2 b2 e⟩
        · exact ⟨⟨Rect.unit (s := S16x1024) ![4 * g + 3, 16 * i] S1x16.size b3, P3⟩, List.mem_cons_self, hmem 3 b3 e⟩

/-! ## A trip's four stores -/

/-- The four stores of a trip, the last first: row `4 g + j` of the trip's block at its running maximum. -/
def tripPieces (v30 : FVec F S16 .f32) (fslR : Vec F S65536 .f32) (U : Fin 20 → IVec S16 32) (hU : ∀ k x, (U k x).toNat < 4096)
    (o : BitVec 32 → Fin 2 → Nat) (ob : ∀ r : Fin 4, ∀ a, o (BitVec.ofNat 32 r.val) a + S1x16.size a ≤ S16x1024.size a)
    (g : BitVec 32) (hg : g.toNat < 4) : List (View.Piece (Elt F) S16x1024 .f32) :=
  [⟨Rect.unit (s := S16x1024) (o 3#32) S1x16.size (ob 3), shapeCast S1x16 (accP v30 fslR U g 3#32 fun k => chk_idxOff (hU k) hg (by decide)) shapeCasts_S16_S1x16⟩,
    ⟨Rect.unit (s := S16x1024) (o 2#32) S1x16.size (ob 2), shapeCast S1x16 (accP v30 fslR U g 2#32 fun k => chk_idxOff (hU k) hg (by decide)) shapeCasts_S16_S1x16⟩,
    ⟨Rect.unit (s := S16x1024) (o 1#32) S1x16.size (ob 1), shapeCast S1x16 (accP v30 fslR U g 1#32 fun k => chk_idxOff (hU k) hg (by decide)) shapeCasts_S16_S1x16⟩,
    ⟨Rect.unit (s := S16x1024) (o 0#32) S1x16.size (ob 0), shapeCast S1x16 (accP v30 fslR U g 0#32 fun k => chk_idxOff (hU k) hg (by decide)) shapeCasts_S16_S1x16⟩]

/-- A trip's running maximum for row `4 g + j`, stored as a row of the block, is the array `Gout` there. -/
theorem pay_eq (neg : F .f32) (fsl : Vec F S65536 .f32) (fix : IVec S20x1024 32) (hfix : ∀ y, (fix y).toNat < 4096) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (g : BitVec 32) (hg : g.toNat < 4) (hgv : g.toNat = gN) (jb : BitVec 32) (hj : jb.toNat < 4)
    (ofs : Fin 2 → Nat) (hofs : ofs = ![4 * gN + jb.toNat, 16 * i]) (b : ∀ a, ofs a + S1x16.size a ≤ S16x1024.size a) (x : S1x16.Idx) :
    shapeCast S1x16 (accP v30 fslR U g jb fun k => chk_idxOff (hU k) hg hj) shapeCasts_S16_S1x16 x
      = Gout neg fsl fix ((Rect.unit (s := S16x1024) ofs S1x16.size b).emb x) := by
  subst hofs
  obtain ⟨u, l, rfl⟩ : ∃ (u : Fin 1) (l : Fin 16), x = ix2 u l := ⟨x 0, x 1, eq_ix2 x⟩
  rw [shapeCast_a_1a_apply, accP_apply, hv30]
  unfold Gout
  have hx0 : u.val = 0 := by omega
  have e0 : ((Rect.unit (s := S16x1024) ![4 * gN + jb.toNat, 16 * i] S1x16.size b).emb (ix2 u l)) 0 = (⟨4 * gN + jb.toNat, by omega⟩ : Fin 16) :=
    Fin.ext (by rw [Rect.emb_apply]; show 4 * gN + jb.toNat + 1 * u.val = 4 * gN + jb.toNat; omega)
  have e1 : ((Rect.unit (s := S16x1024) ![4 * gN + jb.toNat, 16 * i] S1x16.size b).emb (ix2 u l)) 1 = (⟨16 * i + l.val, by omega⟩ : Fin 1024) :=
    Fin.ext (by rw [Rect.emb_apply]; show 16 * i + 1 * l.val = 16 * i + l.val; omega)
  refine List.foldl_ext _ _ _ fun acc k _ => ?_
  rw [idxAt_idxOff (hU k) hg hj ⟨4 * gN + jb.toNat, by omega⟩ (by show 4 * gN + jb.toNat = 4 * g.toNat + jb.toNat; omega), hR, hUfix, e0, e1]

/-- A trip's four stores extend what is right in the output scratch by the trip's block. -/
theorem tripPieces_done (neg : F .f32) (fsl : Vec F S65536 .f32) (fix : IVec S20x1024 32) (hfix : ∀ y, (fix y).toNat < 4096) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (o : BitVec 32 → Fin 2 → Nat) (ob : ∀ r : Fin 4, ∀ a, o (BitVec.ofNat 32 r.val) a + S1x16.size a ≤ S16x1024.size a)
    (ho : ∀ r : Fin 4, o (BitVec.ofNat 32 r.val) = ![4 * gN + r.val, 16 * i])
    (g : BitVec 32) (hg : g.toNat < 4) (hgv : g.toNat = gN)
    (f2 : (outbW).view.ty.Contents (Elt F)) (hD : Done2 (Gout neg fsl fix) i gN f2) :
    Done2 (Gout neg fsl fix) i (gN + 1) ((outbW).view.writes (Elt F) f2 (tripPieces v30 fslR U hU o ob g hg)) := by
  unfold tripPieces
  exact done2_step (Gout neg fsl fix) i gN f2 hD (o 0#32) (o 1#32) (o 2#32) (o 3#32) (ho 0) (ho 1) (ho 2) (ho 3) (ob 0) (ob 1) (ob 2) (ob 3) _ _ _ _
    (pay_eq neg fsl fix hfix i gN hi v30 hv30 fslR hR U hU hUfix g hg hgv 0#32 (by decide) _ (ho 0) (ob 0))
    (pay_eq neg fsl fix hfix i gN hi v30 hv30 fslR hR U hU hUfix g hg hgv 1#32 (by decide) _ (ho 1) (ob 1))
    (pay_eq neg fsl fix hfix i gN hi v30 hv30 fslR hR U hU hUfix g hg hgv 2#32 (by decide) _ (ho 2) (ob 2))
    (pay_eq neg fsl fix hfix i gN hi v30 hv30 fslR hR U hU hUfix g hg hgv 3#32 (by decide) _ (ho 3) (ob 3))

end Cert.Proof.KI

end
-- ==== Proof.KITile1Trip.lean ====
/-
  The first SparseCore call's tile: what one trip of the inner loop stores, in the program's own vector operations, and how
  the output scratch fills (pure: no program). The epilogue (the centre scratch's row added, the sum rectified) on top of
  the running maxima of the plain gather-and-max.
-/
import proofs.«209975_g17849884082380_cont_8to1_1483_11_alg».proof.Proof.KITile1Defs
import proofs.«209975_g17849884082380_cont_8to1_1483_11_alg».proof.Proof.KITile1Val
import proofs.«209975_g17849884082380_cont_8to1_1483_11_alg».proof.Proof.KITile2Val
import Idealize.ShloMosaic.Lib.Writes
import Idealize.ShloMosaic.Lib.ValueLayout

noncomputable section

namespace Cert.Proof.KI.T1

open Cert.KernelIdeal Cert.KernelIdeal.Gen
open Cert.Proof.KI
open Idealize.ShloMosaic
open Idealize.ShloMosaic.ValueIdx

variable {F : FTy → Type}

local notation "outbW" => (Memref.whole Cert.KernelIdeal.cc1_scratch2 : Memref Cert.KernelIdeal.sig Kind.scVector Space.vmem Cert.KernelIdeal.S16x1024 EltTy.f32)
local notation "cepbW" => (Memref.whole Cert.KernelIdeal.cc1_scratch3 : Memref Cert.KernelIdeal.sig Kind.scVector Space.vmem Cert.KernelIdeal.S16x1024 EltTy.f32)

variable [FloatOps F]

/-- The epilogue on a row of sixteen, in the program's vector operations: the centre scratch's row added, the sum
    rectified. -/
def epiV (acc : FVec F S16 .f32) (c : Vec F S1x16 .f32) : FVec F S16 .f32 :=
  select (cmpf .ogt (addf acc (shapeCast S16 c shapeCasts_S1x16_S16)) (broadcast S16 (Scalar.ofBits .f32 0x00000000#32)))
    (addf acc (shapeCast S16 c shapeCasts_S1x16_S16))
    (mulf (addf acc (shapeCast S16 c shapeCasts_S1x16_S16)) (broadcast S16 (Scalar.ofBits .f32 0x3E4CCCCD#32)))

/-- The array one chunk's loops fill the output scratch with: the plain gather-and-max's, the centre scratch's word added
    and the sum rectified. -/
def GoutL (neg : F .f32) (fsl : Vec F S65536 .f32) (fix : IVec S20x1024 32) (f3 : Vec F S16x1024 .f32) (y : S16x1024.Idx) : F .f32 :=
  lreluF (FloatOps.addf (Gout neg fsl fix y) (f3 y))

/-- A load of sixteen columns of a row of the centre scratch. -/
abbrev ldc (f3 : (cepbW).view.ty.Contents (Elt F)) (off : Fin 2 → Nat) (b : ∀ a, off a + S1x16.size a ≤ S16x1024.size a) : Vec F S1x16 .f32 :=
  (cepbW).view.readAt (Elt F) (Rect.unit (s := S16x1024) off S1x16.size b).toLoadRect f3

/-- `done2_step` of the second call's tile, over this call's output scratch. -/
theorem done2_step1 (G : S16x1024.Idx → F .f32) (i g : Nat)
    (f2 : (outbW).view.ty.Contents (Elt F)) (hD : Done2 G i g f2)
    (o0 o1 o2 o3 : Fin 2 → Nat) (h0 : o0 = ![4 * g + 0, 16 * i]) (h1 : o1 = ![4 * g + 1, 16 * i])
    (h2 : o2 = ![4 * g + 2, 16 * i]) (h3 : o3 = ![4 * g + 3, 16 * i])
    (b0 : ∀ a, o0 a + S1x16.size a ≤ S16x1024.size a) (b1 : ∀ a, o1 a + S1x16.size a ≤ S16x1024.size a)
    (b2 : ∀ a, o2 a + S1x16.size a ≤ S16x1024.size a) (b3 : ∀ a, o3 a + S1x16.size a ≤ S16x1024.size a)
    (P0 P1 P2 P3 : S1x16.Idx → Elt F .f32)
    (hP0 : ∀ x, P0 x = G ((Rect.unit (s := S16x1024) o0 S1x16.size b0).emb x))
    (hP1 : ∀ x, P1 x = G ((Rect.unit (s := S16x1024) o1 S1x16.size b1).emb x))
    (hP2 : ∀ x, P2 x = G ((Rect.unit (s := S16x1024) o2 S1x16.size b2).emb x))
    (hP3 : ∀ x, P3 x = G ((Rect.unit (s := S16x1024) o3 S1x16.size b3).emb x)) :
    Done2 G i (g + 1) ((outbW).view.writes (Elt F) f2
      [⟨Rect.unit (s := S16x1024) o3 S1x16.size b3, P3⟩, ⟨Rect.unit (s := S16x1024) o2 S1x16.size b2, P2⟩,
        ⟨Rect.unit (s := S16x1024) o1 S1x16.size b1, P1⟩, ⟨Rect.unit (s := S16x1024) o0 S1x16.size b0, P0⟩]) := by
  subst h0 h1 h2 h3
  intro y hy
  have hrd : ∀ f : (outbW).view.ty.Contents (Elt F), (outbW).view.read (Elt F) f y = f y := fun f => rfl
  refine (hrd _).symm.trans ?_
  by_cases hm : ∃ p ∈ ([⟨Rect.unit (s := S16x1024) ![4 * g + 3, 16 * i] S1x16.size b3, P3⟩, ⟨Rect.unit (s := S16x1024) ![4 * g + 2, 16 * i] S1x16.size b2, P2⟩,
        ⟨Rect.unit (s := S16x1024) ![4 * g + 1, 16 * i] S1x16.size b1, P1⟩, ⟨Rect.unit (s := S16x1024) ![4 * g + 0, 16 * i] S1x16.size b0, P0⟩] : List (View.Piece (Elt F) S16x1024 .f32)), y ∈ p.1.set
  · refine View.read_writes_apply_of_pieces _ _ G _ ?_ y hm
    intro p hp x
    simp only [List.mem_cons, List.mem_singleton, List.not_mem_nil, or_false] at hp
    rcases hp with rfl | rfl | rfl | rfl
    · exact hP3 x
    · exact hP2 x
    · exact hP1 x
    · exact hP0 x
  · rw [View.read_writes_apply_of_forall_not_mem _ _ y _ (fun p hp hy' => hm ⟨p, hp, hy'⟩), hrd]
    apply hD
    rcases hy with h | ⟨hc, hr⟩
    · exact Or.inl h
    · by_cases hc' : (y 1).val < 16 * i
      · exact Or.inl hc'
      · refine Or.inr ⟨hc, ?_⟩
        by_contra hr'
        apply hm
        have hmem : ∀ (r : Nat) (b : ∀ a, (![4 * g + r, 16 * i] : Fin 2 → Nat) a + S1x16.size a ≤ S16x1024.size a), (y 0).val = 4 * g + r →
            y ∈ (Rect.unit (s := S16x1024) ![4 * g + r, 16 * i] S1x16.size b).set := by
          intro r b e
          refine Rect.mem_set_unit.mpr (Fin.forall_fin_two.mpr ⟨⟨?_, ?_⟩, ⟨?_, ?_⟩⟩)
          · show 4 * g + r ≤ (y 0).val; omega
          · show (y 0).val < 4 * g + r + 1; omega
          · show 16 * i ≤ (y 1).val; omega
          · show (y 1).val < 16 * i + 16; omega
        have hcase : (y 0).val = 4 * g + 0 ∨ (y 0).val = 4 * g + 1 ∨ (y 0).val = 4 * g + 2 ∨ (y 0).val = 4 * g + 3 := by omega
        rcases hcase with e | e | e | e
        · exact ⟨⟨Rect.unit (s := S16x1024) ![4 * g + 0, 16 * i] S1x16.size b0, P0⟩, List.mem_cons_of_mem _ (List.mem_cons_of_mem _ (List.mem_cons_of_mem _ List.mem_cons_self)), hmem 0 b0 e⟩
        · exact ⟨⟨Rect.unit (s := S16x1024) ![4 * g + 1, 16 * i] S1x16.size b1, P1⟩, List.mem_cons_of_mem _ (List.mem_cons_of_mem _ List.mem_cons_self), hmem 1 b1 e⟩
        · exact ⟨⟨Rect.unit (s := S16x1024) ![4 * g + 2, 16 * i] S1x16.size b2, P2⟩, List.mem_cons_of_mem _ List.mem_cons_self, hmem 2 b2 e⟩
        · exact ⟨⟨Rect.unit (s := S16x1024) ![4 * g + 3, 16 * i] S1x16.size b3, P3⟩, List.mem_cons_self, hmem 3 b3 e⟩

/-- The four stores of a trip, the last first: row `4 g + j` of the trip's block at the epilogue of its running maximum. -/
def tripPiecesL (v30 : FVec F S16 .f32) (fslR : Vec F S65536 .f32) (f3 : (cepbW).view.ty.Contents (Elt F))
    (U : Fin 20 → IVec S16 32) (hU : ∀ k x, (U k x).toNat < 4096)
    (o : BitVec 32 → Fin 2 → Nat) (ob : ∀ r : Fin 4, ∀ a, o (BitVec.ofNat 32 r.val) a + S1x16.size a ≤ S16x1024.size a)
    (g : BitVec 32) (hg : g.toNat < 4) : List (View.Piece (Elt F) S16x1024 .f32) :=
  [⟨Rect.unit (s := S16x1024) (o 3#32) S1x16.size (ob 3), shapeCast S1x16 (epiV (accP v30 fslR U g 3#32 fun k => chk_idxOff (hU k) hg (by decide)) (ldc f3 (o 3#32) (ob 3))) shapeCasts_S16_S1x16⟩,
    ⟨Rect.unit (s := S16x1024) (o 2#32) S1x16.size (ob 2), shapeCast S1x16 (epiV (accP v30 fslR U g 2#32 fun k => chk_idxOff (hU k) hg (by decide)) (ldc f3 (o 2#32) (ob 2))) shapeCasts_S16_S1x16⟩,
    ⟨Rect.unit (s := S16x1024) (o 1#32) S1x16.size (ob 1), shapeCast S1x16 (epiV (accP v30 fslR U g 1#32 fun k => chk_idxOff (hU k) hg (by decide)) (ldc f3 (o 1#32) (ob 1))) shapeCasts_S16_S1x16⟩,
    ⟨Rect.unit (s := S16x1024) (o 0#32) S1x16.size (ob 0), shapeCast S1x16 (epiV (accP v30 fslR U g 0#32 fun k => chk_idxOff (hU k) hg (by decide)) (ldc f3 (o 0#32) (ob 0))) shapeCasts_S16_S1x16⟩]

/-- A trip's running maximum for row 4 g + j with the epilogue, stored as a row of the block, is the array GoutL there:
the epilogue at a lane is the rectifier of the sum of the lane's running maximum and the centre scratch's word under it. -/
theorem pay_eqL (neg : F .f32) (fsl : Vec F S65536 .f32) (fix : IVec S20x1024 32) (hfix : ∀ y, (fix y).toNat < 4096)
    (f3 : (cepbW).view.ty.Contents (Elt F)) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (g : BitVec 32) (hg : g.toNat < 4) (hgv : g.toNat = gN) (jb : BitVec 32) (hj : jb.toNat < 4)
    (ofs : Fin 2 → Nat) (hofs : ofs = ![4 * gN + jb.toNat, 16 * i]) (b : ∀ a, ofs a + S1x16.size a ≤ S16x1024.size a) (x : S1x16.Idx) :
    shapeCast S1x16 (epiV (accP v30 fslR U g jb fun k => chk_idxOff (hU k) hg hj) (ldc f3 ofs b)) shapeCasts_S16_S1x16 x
      = GoutL neg fsl fix f3 ((Rect.unit (s := S16x1024) ofs S1x16.size b).emb x) := by
  have hA := pay_eq neg fsl fix hfix i gN hi v30 hv30 fslR hR U hU hUfix g hg hgv jb hj ofs hofs b x
  obtain ⟨u, l, rfl⟩ : ∃ (u : Fin 1) (l : Fin 16), x = ix2 u l := ⟨x 0, x 1, eq_ix2 x⟩
  obtain rfl : u = 0 := Subsingleton.elim _ _
  rw [shapeCast_a_1a_apply] at hA
  rw [shapeCast_a_1a_apply]
  unfold GoutL
  rw [← hA]
  show lreluF (FloatOps.addf (accP v30 fslR U g jb (fun k => chk_idxOff (hU k) hg hj) (ix1 l))
      (shapeCast S16 (ldc f3 ofs b) shapeCasts_S1x16_S16 (ix1 l))) = _
  rw [shapeCast_1a_a_apply]
  rfl

/-- A trip's four stores extend what is right in the output scratch by the trip's block. -/
theorem tripPiecesL_done (neg : F .f32) (fsl : Vec F S65536 .f32) (fix : IVec S20x1024 32) (hfix : ∀ y, (fix y).toNat < 4096)
    (f3 : (cepbW).view.ty.Contents (Elt F)) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (o : BitVec 32 → Fin 2 → Nat) (ob : ∀ r : Fin 4, ∀ a, o (BitVec.ofNat 32 r.val) a + S1x16.size a ≤ S16x1024.size a)
    (ho : ∀ r : Fin 4, o (BitVec.ofNat 32 r.val) = ![4 * gN + r.val, 16 * i])
    (g : BitVec 32) (hg : g.toNat < 4) (hgv : g.toNat = gN)
    (f2 : (outbW).view.ty.Contents (Elt F)) (hD : Done2 (GoutL neg fsl fix f3) i gN f2) :
    Done2 (GoutL neg fsl fix f3) i (gN + 1) ((outbW).view.writes (Elt F) f2 (tripPiecesL v30 fslR f3 U hU o ob g hg)) := by
  unfold tripPiecesL
  exact done2_step1 (GoutL neg fsl fix f3) i gN f2 hD (o 0#32) (o 1#32) (o 2#32) (o 3#32) (ho 0) (ho 1) (ho 2) (ho 3) (ob 0) (ob 1) (ob 2) (ob 3) _ _ _ _
    (pay_eqL neg fsl fix hfix f3 i gN hi v30 hv30 fslR hR U hU hUfix g hg hgv 0#32 (by decide) _ (ho 0) (ob 0))
    (pay_eqL neg fsl fix hfix f3 i gN hi v30 hv30 fslR hR U hU hUfix g hg hgv 1#32 (by decide) _ (ho 1) (ob 1))
    (pay_eqL neg fsl fix hfix f3 i gN hi v30 hv30 fslR hR U hU hUfix g hg hgv 2#32 (by decide) _ (ho 2) (ob 2))
    (pay_eqL neg fsl fix hfix f3 i gN hi v30 hv30 fslR hR U hU hUfix g hg hgv 3#32 (by decide) _ (ho 3) (ob 3))

/-- With the index scratch's words naming points, the filled array is `valB`. -/
theorem GoutL_eq_valB (fsl : Vec F S65536 .f32) (fix : IVec S20x1024 32) (hfix : ∀ y, (fix y).toNat < 4096) (f3 : Vec F S16x1024 .f32) :
    GoutL (Scalar.ofBits .f32 0xFF800000#32) fsl fix f3 = valB fsl fix f3 := by
  funext y
  unfold GoutL valB Gout
  refine congrArg lreluF (congrArg (FloatOps.addf · (f3 y)) (List.foldl_ext _ _ _ fun acc k _ => ?_))
  refine congrArg (FloatOps.maximumf acc) (congrArg fsl ?_)
  have hw := hfix (ix2 k (y 1))
  have hr : (y 0).val < 16 := (y 0).isLt
  unfold slabIx sIx
  refine congrArg ix1 (Fin.ext ?_)
  show (y 0).val * 4096 + (fix (ix2 k (y 1))).toNat % 4096 = ((fix (ix2 k (y 1))).toNat + (y 0).val * 4096) % 65536
  omega

end Cert.Proof.KI.T1

end
-- ==== Proof.KITile1Final.lean ====
/-
  The first SparseCore call's tile: a finished piece of the output (pure: no program). When the output scratch holds what
  one chunk's loops fill it with, computed from the tile's slices of the source, the neighbour lists and the centre term,
  the copy of the scratch onto the tile's piece of the output leaves the pooled and rectified array there.
-/
import proofs.«209975_g17849884082380_cont_8to1_1483_11_alg».proof.Proof.KITile1Defs
import proofs.«209975_g17849884082380_cont_8to1_1483_11_alg».proof.Proof.KITile1Val
import proofs.«209975_g17849884082380_cont_8to1_1483_11_alg».proof.Proof.KITile1Trip
import Idealize.ShloMosaic.Lib.Writes
import Idealize.ShloMosaic.Lib.ValueLayout

noncomputable section

namespace Cert.Proof.KI.T1

open Cert.KernelIdeal Cert.KernelIdeal.Gen
open Cert.Proof.KI
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 3) (Elt F) ℕ UU ℕ

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)

/-- The tile's slice of the source, of the neighbour lists, of the centre term and of the output, as the program slices
    them (at an offset). -/
abbrev srcPo (L : grid1.Coords) : Memref sig .scVector .hbm S65536 .f32 :=
  ((srcW).slice (Rect.unit (s := S8x262144) (k1_off1 L) S1x65536.size (k1_off1_inb L)) (fun _ => rfl)).squeeze S65536 squeezes_S1x65536_S65536
abbrev idxPo (off : Fin 3 → Nat) (inb : ∀ a, off a + S1x20x1024.size a ≤ S8x20x4096.size a) : Memref sig .scVector .hbm S20x1024 .i32 :=
  ((idxW).slice (Rect.unit (s := S8x20x4096) off S1x20x1024.size inb) (fun _ => rfl)).squeeze S20x1024 squeezes_S1x20x1024_S20x1024
abbrev cepPo (off : Fin 3 → Nat) (inb : ∀ a, off a + S1x16x1024.size a ≤ S8x64x4096.size a) : Memref sig .scVector .hbm S16x1024 .f32 :=
  ((cepW).slice (Rect.unit (s := S8x64x4096) off S1x16x1024.size inb) (fun _ => rfl)).squeeze S16x1024 squeezes_S1x16x1024_S16x1024
abbrev outPo (off : Fin 3 → Nat) (inb : ∀ a, off a + S1x16x1024.size a ≤ S8x64x4096.size a) : Memref sig .scVector .hbm S16x1024 .f32 :=
  ((outW).slice (Rect.unit (s := S8x64x4096) off S1x16x1024.size inb) (fun _ => rfl)).squeeze S16x1024 squeezes_S1x16x1024_S16x1024

variable [FloatOps F]

/-- A finished piece: the output scratch's contents `w`, what the chunk's loops fill it with from the tile's slices, copied
    whole onto the tile's piece of the output, is the pooled and rectified array on that piece. -/
theorem piece_final (L : grid1.Coords) (fs : Vec F S8x262144 .f32) (fi : IVec S8x20x4096 32) (fc : Vec F S8x64x4096 .f32)
    (hidx : ∀ j, (fi j).toNat < 4096)
    (offI : Fin 3 → Nat) (inbI : ∀ a, offI a + S1x20x1024.size a ≤ S8x20x4096.size a)
    (offC : Fin 3 → Nat) (inbC inbO : ∀ a, offC a + S1x16x1024.size a ≤ S8x64x4096.size a)
    (ch : Fin 4) (hoffI : offI = ![(wid L).val / 4, 0, ch.val * 1024]) (hoffC : offC = ![(wid L).val / 4, (wid L).val % 4 * 16, ch.val * 1024])
    (X : (outPo offC inbO).view.ty.Contents (Elt F)) (w : S16x1024.Idx → Elt F .f32)
    (hw : ∀ y, w y = GoutL (Scalar.ofBits .f32 0xFF800000#32) ((srcPo L).view.read (Elt F) fs) ((idxPo offI inbI).view.read (Elt F) fi)
      ((cepPo offC inbC).view.read (Elt F) fc) y) :
    ∀ i ∈ (outPo offC inbO).view.set, (outPo offC inbO).view.writes (Elt F) X [⟨Rect.whole S16x1024, w⟩] i = gmaxLArr fs fi fc i := by
  intro i hi
  obtain ⟨y, -, rfl⟩ := Finset.mem_map.mp hi
  obtain ⟨r, x, rfl⟩ : ∃ (r : Fin 16) (x : Fin 1024), y = ix2 r x := ⟨y 0, y 1, eq_ix2 y⟩
  have hq : ch.val * 1024 + 1024 ≤ 4096 := by have := ch.isLt; omega
  -- the one whole write leaves the payload under every index of the piece
  have hL : (outPo offC inbO).view.writes (Elt F) X [⟨Rect.whole S16x1024, w⟩] ((outPo offC inbO).view.emb (ix2 r x)) = w (ix2 r x) := by
    rw [View.writes_singleton]
    have e : (outPo offC inbO).view.emb (ix2 r x)
        = ((outPo offC inbO).view.slice (Rect.whole S16x1024)).emb (ix2 r x) := by
      show _ = (outPo offC inbO).view.emb ((Rect.whole S16x1024).emb (ix2 r x))
      rw [Rect.emb_whole_apply]
    rw [e, View.write_emb_of_mem _ _ (Finset.mem_univ _)]
    rfl
  -- the index scratch's words name points
  have hfix : ∀ z, (((idxPo offI inbI).view.read (Elt F) fi) z).toNat < 4096 := by
    intro z
    obtain ⟨k, x', rfl⟩ : ∃ (k : Fin 20) (x' : Fin 1024), z = ix2 k x' := ⟨z 0, z 1, eq_ix2 z⟩
    rw [idx_read L fi offI inbI (ch.val * 1024) hq hoffI k x']
    exact hidx _
  rw [hL, hw, GoutL_eq_valB _ _ hfix, out_emb L offC inbO (ch.val * 1024) hq hoffC r x]
  exact valB_spec (bT L) (gT L) ch fs fi fc _ _ _ hidx (slab_read L fs)
    (fun k x' => idx_read L fi offI inbI (ch.val * 1024) hq hoffI k x')
    (fun r' x' => cep_read L fc offC inbC (ch.val * 1024) hq hoffC r' x') r x

/-- What the chunk's loops fill the output scratch with, from the tile's slices, is the pooled and rectified array under
    every index of the tile's piece of the output. -/
theorem glueL (L : grid1.Coords) (fs : Vec F S8x262144 .f32) (fi : IVec S8x20x4096 32) (fc : Vec F S8x64x4096 .f32)
    (hidx : ∀ j, (fi j).toNat < 4096)
    (offI : Fin 3 → Nat) (inbI : ∀ a, offI a + S1x20x1024.size a ≤ S8x20x4096.size a)
    (offC : Fin 3 → Nat) (inbC inbO : ∀ a, offC a + S1x16x1024.size a ≤ S8x64x4096.size a)
    (ch : Fin 4) (hoffI : offI = ![(wid L).val / 4, 0, ch.val * 1024]) (hoffC : offC = ![(wid L).val / 4, (wid L).val % 4 * 16, ch.val * 1024])
    (y : S16x1024.Idx) :
    GoutL (Scalar.ofBits .f32 0xFF800000#32) ((srcPo L).view.read (Elt F) fs) ((idxPo offI inbI).view.read (Elt F) fi)
        ((cepPo offC inbC).view.read (Elt F) fc) y
      = gmaxLArr fs fi fc ((outPo offC inbO).view.emb y) := by
  obtain ⟨r, x, rfl⟩ : ∃ (r : Fin 16) (x : Fin 1024), y = ix2 r x := ⟨y 0, y 1, eq_ix2 y⟩
  have hq : ch.val * 1024 + 1024 ≤ 4096 := by have := ch.isLt; omega
  have hfix : ∀ z, (((idxPo offI inbI).view.read (Elt F) fi) z).toNat < 4096 := by
    intro z
    obtain ⟨k, x', rfl⟩ : ∃ (k : Fin 20) (x' : Fin 1024), z = ix2 k x' := ⟨z 0, z 1, eq_ix2 z⟩
    rw [idx_read L fi offI inbI (ch.val * 1024) hq hoffI k x']
    exact hidx _
  rw [GoutL_eq_valB _ _ hfix, out_emb L offC inbO (ch.val * 1024) hq hoffC r x]
  exact valB_spec (bT L) (gT L) ch fs fi fc _ _ _ hidx (slab_read L fs)
    (fun k x' => idx_read L fi offI inbI (ch.val * 1024) hq hoffI k x')
    (fun r' x' => cep_read L fc offC inbC (ch.val * 1024) hq hoffC r' x') r x

/-- The tile's piece of the output, at any contents that read through the piece as the filled scratch, is the piece at the
    pooled and rectified array. -/
theorem out_genL (d : Dev nD) (L : grid1.Coords) (fs : Vec F S8x262144 .f32) (fi : IVec S8x20x4096 32) (fc : Vec F S8x64x4096 .f32)
    (hidx : ∀ j, (fi j).toNat < 4096)
    (offI : Fin 3 → Nat) (inbI : ∀ a, offI a + S1x20x1024.size a ≤ S8x20x4096.size a)
    (offC : Fin 3 → Nat) (inbC inbO : ∀ a, offC a + S1x16x1024.size a ≤ S8x64x4096.size a)
    (ch : Fin 4) (hoffI : offI = ![(wid L).val / 4, 0, ch.val * 1024]) (hoffC : offC = ![(wid L).val / 4, (wid L).val % 4 * 16, ch.val * 1024])
    (g : Buf (Elt F) (outLoc d))
    (hg : ∀ y : S16x1024.Idx, (outPo offC inbO).view.read (Elt F) g y
      = GoutL (Scalar.ofBits .f32 0xFF800000#32) ((srcPo L).view.read (Elt F) fs) ((idxPo offI inbI).view.read (Elt F) fi)
          ((cepPo offC inbC).view.read (Elt F) fc) y) :
    (outLoc d ↦[(outPo offC inbO).view.set]{fullShare} g : sProp 𝕄)
      = (outLoc d ↦[(outPo offC inbO).view.set]{fullShare} gmaxLArr fs fi fc) := by
  refine pointsTo_congr fun i hi => ?_
  obtain ⟨y, -, rfl⟩ := Finset.mem_map.mp hi
  exact (hg y).trans (glueL L fs fi fc hidx offI inbI offC inbC inbO ch hoffI hoffC y)

omit [FloatOps F] in
/-- One write of the whole shape through a view reads, at every index, the payload there. -/
theorem read_writes_whole1 (v : View sig .scVector .hbm S16x1024 .f32) (f : v.ty.Contents (Elt F)) (w : S16x1024.Idx → Elt F .f32)
    (y : S16x1024.Idx) : v.read (Elt F) (v.writes (Elt F) f [⟨Rect.whole S16x1024, w⟩]) y = w y := by
  have h := View.read_writes_cons_emb v f (Rect.whole S16x1024) w [] y
  rw [Rect.emb_whole_apply] at h
  exact h

end Cert.Proof.KI.T1

end
-- ==== Proof.KITile1Inv.lean ====
/-
  One tile of the first SparseCore call: what the index scratch's loads read, the slab as a gather reads it, and the two
  loops' invariants (the output scratch right in the blocks already done).
-/
import proofs.«209975_g17849884082380_cont_8to1_1483_11_alg».proof.Proof.KITile1Defs
import proofs.«209975_g17849884082380_cont_8to1_1483_11_alg».proof.Proof.KITile1Val
import proofs.«209975_g17849884082380_cont_8to1_1483_11_alg».proof.Proof.KITile2Val
import Idealize.ShloMosaic.Lib.Writes
import Idealize.ShloMosaic.Lib.ValueLayout

noncomputable section

namespace Cert.Proof.KI.T1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)
local notation "slabW" => (Memref.whole Cert.KernelIdeal.cc1_scratch0 : Memref Cert.KernelIdeal.sig Kind.scVector Space.vmem Cert.KernelIdeal.S65536 EltTy.f32)
local notation "idxbW" => (Memref.whole Cert.KernelIdeal.cc1_scratch1 : Memref Cert.KernelIdeal.sig Kind.scVector Space.vmem Cert.KernelIdeal.S20x1024 EltTy.i32)
local notation "outbW" => (Memref.whole Cert.KernelIdeal.cc1_scratch2 : Memref Cert.KernelIdeal.sig Kind.scVector Space.vmem Cert.KernelIdeal.S16x1024 EltTy.f32)
local notation "cepbW" => (Memref.whole Cert.KernelIdeal.cc1_scratch3 : Memref Cert.KernelIdeal.sig Kind.scVector Space.vmem Cert.KernelIdeal.S16x1024 EltTy.f32)

section Tile

variable (d : Dev nD) (L : grid1.Coords)

/-- The indexed load at the head of a program is the plain load of the whole base, gathered. -/
theorem vli_bind1 {Λ : Labels} {p : Proc τ} {s t : Shape} {e : EltTy} {α : Type} (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = .op (.load base (.whole s) (View.loadsAt_whole hl)) fun f => k (loadIdx f idxs h) := rfl

/-- What a gather reads of the slab's contents. -/
abbrev slabRd1 (fsl : Buf (Elt F) ((V d (cV L) (jV L)).loc cc1_scratch0)) : Vec F S65536 .f32 :=
  (slabW).view.readAt (Elt F) (LoadRect.whole S65536) fsl

theorem slabRd1_apply (fsl : Buf (Elt F) ((V d (cV L) (jV L)).loc cc1_scratch0)) (p : S65536.Idx) : slabRd1 d L fsl p = fsl p := by
  show fsl ((LoadRect.whole S65536).idx p) = fsl p
  congr 1
  funext a
  exact Fin.ext (by show 0 + 1 * (p a).val = (p a).val; omega)

theorem iv4_lt1 (t : Nat) (h : t < 4) : (Scf.iv 0#32 1#32 t).toNat < 4 := by
  unfold Scf.iv
  bv_omega

theorem iv4_val1 (t : Nat) (h : t < 4) : (Scf.iv 0#32 1#32 t).toNat = t := by
  unfold Scf.iv
  bv_omega

/-- A neighbour vector loaded from the index scratch: row `k`'s 16 columns from column `16 i`. -/
theorem idxvec_eq1 (fix : Buf (Elt F) ((V d (cV L) (jV L)).loc cc1_scratch1)) (off : Fin 2 → Nat) (k : Fin 20) (i : Nat) (hi : i < 64) (hoff : off = ![k.val, 16 * i])
    (b : ∀ a, off a + S1x16.size a ≤ S20x1024.size a) (x : S16.Idx) :
    shapeCast S16 ((idxbW).view.readAt (Elt F) (Rect.unit (s := S20x1024) off S1x16.size b).toLoadRect fix) shapeCasts_S1x16_S16 x
      = fix (ix2 k ⟨16 * i + (x 0).val, by have h16 : (x 0).val < 16 := (x 0).isLt; show 16 * i + (x 0).val < 1024; omega⟩) := by
  subst hoff
  obtain ⟨l, rfl⟩ : ∃ l : Fin 16, x = ix1 l := ⟨x 0, eq_ix1 x⟩
  rw [shapeCast_1a_a_apply, View.readAt_apply]
  have hix : (Rect.unit (s := S20x1024) ![k.val, 16 * i] S1x16.size b).toLoadRect.idx (ix2 (0 : Fin 1) l)
      = ix2 k ⟨16 * i + l.val, by have := l.isLt; omega⟩ := by
    funext a
    match a with
    | ⟨0, _⟩ => exact Fin.ext (by show k.val + 1 * 0 = k.val; omega)
    | ⟨1, _⟩ => exact Fin.ext (by show 16 * i + 1 * l.val = 16 * i + l.val; omega)
  rw [hix]
  rfl

/-- A load of sixteen columns of a row of the index scratch. -/
abbrev ldv1 (fix : Buf (Elt F) ((V d (cV L) (jV L)).loc cc1_scratch1)) (off : Fin 2 → Nat) (b : ∀ a, off a + S1x16.size a ≤ S20x1024.size a) : Vec F S1x16 .i32 :=
  (idxbW).view.readAt (Elt F) (Rect.unit (s := S20x1024) off S1x16.size b).toLoadRect fix

variable [FloatOps F]

/-- Minus infinity, as the program writes it. -/
abbrev negInf1 : F .f32 := Scalar.ofBits .f32 0xFF800000#32

/-- The inner loop's invariant in block `i`: the slab, the centre scratch, and the output scratch right in its first `16 i`
    columns and in the first `4 g` rows of the next 16. -/
def invI (fsl : Buf (Elt F) ((V d (cV L) (jV L)).loc cc1_scratch0)) (f3 : Buf (Elt F) ((V d (cV L) (jV L)).loc cc1_scratch3)) (G : S16x1024.Idx → F .f32) (i : Nat) (g : Nat) (_ : Unit) : sProp 𝕄 :=
  iprop(((slabW).view.loc (V d (cV L) (jV L)) ↦{fullShare} fsl) ∗ ((cepbW).view.loc (V d (cV L) (jV L)) ↦{fullShare} f3)
    ∗ ∃ f2, ((outbW).view.loc (V d (cV L) (jV L)) ↦{fullShare} f2) ∗ ⌜Done2 G i g f2⌝)

/-- The outer loop's invariant: the slab, the index scratch, the centre scratch, and the output scratch right in its first
    `16 i` columns. -/
def invO (fsl : Buf (Elt F) ((V d (cV L) (jV L)).loc cc1_scratch0)) (fix : Buf (Elt F) ((V d (cV L) (jV L)).loc cc1_scratch1)) (f3 : Buf (Elt F) ((V d (cV L) (jV L)).loc cc1_scratch3))
    (G : S16x1024.Idx → F .f32) (i : Nat) (_ : Unit) : sProp 𝕄 :=
  iprop(((slabW).view.loc (V d (cV L) (jV L)) ↦{fullShare} fsl) ∗ ((idxbW).view.loc (V d (cV L) (jV L)) ↦{fullShare} fix) ∗ ((cepbW).view.loc (V d (cV L) (jV L)) ↦{fullShare} f3)
    ∗ ∃ f2, ((outbW).view.loc (V d (cV L) (jV L)) ↦{fullShare} f2) ∗ ⌜Done1 G i f2⌝)

end Tile

end Cert.Proof.KI.T1

end
-- ==== Proof.KITile1C0.lean ====
/-
  One tile of the first SparseCore call, chunk 0 of the points: a trip of the inner loop stores the four rows of its block
  (the epilogue of the running maxima over the 20 gathered neighbour rows), and a trip of the outer loop, the block's 20
  neighbour vectors loaded, fills the block by the inner loop's four trips.
-/
import proofs.«209975_g17849884082380_cont_8to1_1483_11_alg».proof.Proof.KITile1Defs
import proofs.«209975_g17849884082380_cont_8to1_1483_11_alg».proof.Proof.KITile1Val
import proofs.«209975_g17849884082380_cont_8to1_1483_11_alg».proof.Proof.KITile1Trip
import proofs.«209975_g17849884082380_cont_8to1_1483_11_alg».proof.Proof.KITile2Val
import proofs.«209975_g17849884082380_cont_8to1_1483_11_alg».proof.Proof.KITile1Inv
import Idealize.ShloMosaic.Lib.Writes
import Idealize.ShloMosaic.Lib.ValueLayout

noncomputable section

namespace Cert.Proof.KI.T1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)
local notation "slabW" => (Memref.whole Cert.KernelIdeal.cc1_scratch0 : Memref Cert.KernelIdeal.sig Kind.scVector Space.vmem Cert.KernelIdeal.S65536 EltTy.f32)
local notation "idxbW" => (Memref.whole Cert.KernelIdeal.cc1_scratch1 : Memref Cert.KernelIdeal.sig Kind.scVector Space.vmem Cert.KernelIdeal.S20x1024 EltTy.i32)
local notation "outbW" => (Memref.whole Cert.KernelIdeal.cc1_scratch2 : Memref Cert.KernelIdeal.sig Kind.scVector Space.vmem Cert.KernelIdeal.S16x1024 EltTy.f32)
local notation "cepbW" => (Memref.whole Cert.KernelIdeal.cc1_scratch3 : Memref Cert.KernelIdeal.sig Kind.scVector Space.vmem Cert.KernelIdeal.S16x1024 EltTy.f32)

section Tile

variable (d : Dev nD) (L : grid1.Coords)

variable [FloatOps F]

/-- The 20 neighbour vectors of a trip of this chunk, in order. -/
abbrev U0 (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32) : Fin 20 → IVec S16 32 :=
  ![v46, v49, v52, v55, v58, v61, v64, v67, v70, v73, v76, k1_pay624 v79_ld, k1_pay625 v82_ld, k1_pay626 v85_ld, k1_pay627 v88_ld, k1_pay628 v91_ld, k1_pay629 v94_ld, k1_pay630 v97_ld, k1_pay631 v100_ld, k1_pay632 v103_ld]

attribute [local sl_canon] vli_bind1 in
set_option maxHeartbeats 16000000 in
/-- A trip of the inner loop: from the slab, the output scratch and the centre scratch, the same with the trip's four rows
    stored. -/
theorem innerV0 (fsl : Buf (Elt F) ((V d (cV L) (jV L)).loc cc1_scratch0)) (f2 : Buf (Elt F) ((V d (cV L) (jV L)).loc cc1_scratch2))
    (f3 : Buf (Elt F) ((V d (cV L) (jV L)).loc cc1_scratch3))
    (v28 : BitVec 32) (v30 : FVec F S16 .f32) (k1_t1 : Fin k1_t1_loop.trips) (v43 : BitVec 32)
    (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32)
    (hU : ∀ k x, ((U0 (F := F) v46 v49 v52 v55 v58 v61 v64 v67 v70 v73 v76 v79_ld v82_ld v85_ld v88_ld v91_ld v94_ld v97_ld v100_ld v103_ld) k x).toNat < 4096)
    (k1_t2 : Fin k1_t2_loop.trips) :
    (iprop(((slabW).view.loc (V d (cV L) (jV L)) ↦{fullShare} fsl) ∗ ((outbW).view.loc (V d (cV L) (jV L)) ↦{fullShare} f2)
        ∗ ((cepbW).view.loc (V d (cV L) (jV L)) ↦{fullShare} f3)) : sProp 𝕄)
      ⊢ wp frame (wpE (defs₀ (F := F)) 𝒱₀ (V d (cV L) (jV L)) none) Set.univ
          (k1_t2_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 v30 k1_t1 v43 v46 v49 v52 v55 v58 v61 v64 v67 v70 v73 v76 v79_ld v82_ld v85_ld v88_ld v91_ld v94_ld v97_ld v100_ld v103_ld k1_t2 ())
          fun _ => iprop(((slabW).view.loc (V d (cV L) (jV L)) ↦{fullShare} fsl) ∗ ((outbW).view.loc (V d (cV L) (jV L)) ↦{fullShare}
            (outbW).view.writes (Elt F) f2 (tripPiecesL v30 (slabRd1 d L fsl) f3 (U0 v46 v49 v52 v55 v58 v61 v64 v67 v70 v73 v76 v79_ld v82_ld v85_ld v88_ld v91_ld v94_ld v97_ld v100_ld v103_ld) hU (k1_off24 k1_t1 k1_t2) (k1_off24_inb k1_t1 k1_t2)
              (Scf.iv 0#32 1#32 k1_t2.val) (iv4_lt1 k1_t2.val k1_t2.isLt)))
            ∗ ((cepbW).view.loc (V d (cV L) (jV L)) ↦{fullShare} f3)) := by
  have hg : (Scf.iv 0#32 1#32 k1_t2.val).toNat < 4 := iv4_lt1 k1_t2.val k1_t2.isLt
  have h46 : ∀ x, (v46 x).toNat < 4096 := hU 0
  have h49 : ∀ x, (v49 x).toNat < 4096 := hU 1
  have h52 : ∀ x, (v52 x).toNat < 4096 := hU 2
  have h55 : ∀ x, (v55 x).toNat < 4096 := hU 3
  have h58 : ∀ x, (v58 x).toNat < 4096 := hU 4
  have h61 : ∀ x, (v61 x).toNat < 4096 := hU 5
  have h64 : ∀ x, (v64 x).toNat < 4096 := hU 6
  have h67 : ∀ x, (v67 x).toNat < 4096 := hU 7
  have h70 : ∀ x, (v70 x).toNat < 4096 := hU 8
  have h73 : ∀ x, (v73 x).toNat < 4096 := hU 9
  have h76 : ∀ x, (v76 x).toNat < 4096 := hU 10
  have h79 : ∀ x, (k1_pay624 (F := F) v79_ld x).toNat < 4096 := hU 11
  have h82 : ∀ x, (k1_pay625 (F := F) v82_ld x).toNat < 4096 := hU 12
  have h85 : ∀ x, (k1_pay626 (F := F) v85_ld x).toNat < 4096 := hU 13
  have h88 : ∀ x, (k1_pay627 (F := F) v88_ld x).toNat < 4096 := hU 14
  have h91 : ∀ x, (k1_pay628 (F := F) v91_ld x).toNat < 4096 := hU 15
  have h94 : ∀ x, (k1_pay629 (F := F) v94_ld x).toNat < 4096 := hU 16
  have h97 : ∀ x, (k1_pay630 (F := F) v97_ld x).toNat < 4096 := hU 17
  have h100 : ∀ x, (k1_pay631 (F := F) v100_ld x).toNat < 4096 := hU 18
  have h103 : ∀ x, (k1_pay632 (F := F) v103_ld x).toNat < 4096 := hU 19
  unfold k1_t2_body tripPiecesL
  iintro ⟨Hslab, Hout, Hcep⟩
  sl_exec (disch := exact chk_idxOff (by assumption) hg (by decide))
  sl_step
  isplitl [Hslab]
  · iexact Hslab
  isplitl [Hout]
  · iexact Hout
  · iexact Hcep

/-- The 20 neighbour vectors block `t1` loads are the 20 rows of the index scratch at the block's sixteen columns. -/
theorem U0_loaded (fix : Buf (Elt F) ((V d (cV L) (jV L)).loc cc1_scratch1)) (t1 : Fin k1_t1_loop.trips) (k : Fin 20) (x : S16.Idx) :
    U0 (F := F) (k1_pay153 (ldv1 d L fix (k1_off4 t1) (k1_off4_inb t1))) (k1_pay154 (ldv1 d L fix (k1_off5 t1) (k1_off5_inb t1))) (k1_pay155 (ldv1 d L fix (k1_off6 t1) (k1_off6_inb t1))) (k1_pay156 (ldv1 d L fix (k1_off7 t1) (k1_off7_inb t1))) (k1_pay157 (ldv1 d L fix (k1_off8 t1) (k1_off8_inb t1))) (k1_pay158 (ldv1 d L fix (k1_off9 t1) (k1_off9_inb t1))) (k1_pay159 (ldv1 d L fix (k1_off10 t1) (k1_off10_inb t1))) (k1_pay160 (ldv1 d L fix (k1_off11 t1) (k1_off11_inb t1))) (k1_pay161 (ldv1 d L fix (k1_off12 t1) (k1_off12_inb t1))) (k1_pay162 (ldv1 d L fix (k1_off13 t1) (k1_off13_inb t1))) (k1_pay163 (ldv1 d L fix (k1_off14 t1) (k1_off14_inb t1))) (ldv1 d L fix (k1_off15 t1) (k1_off15_inb t1)) (ldv1 d L fix (k1_off16 t1) (k1_off16_inb t1)) (ldv1 d L fix (k1_off17 t1) (k1_off17_inb t1)) (ldv1 d L fix (k1_off18 t1) (k1_off18_inb t1)) (ldv1 d L fix (k1_off19 t1) (k1_off19_inb t1)) (ldv1 d L fix (k1_off20 t1) (k1_off20_inb t1)) (ldv1 d L fix (k1_off21 t1) (k1_off21_inb t1)) (ldv1 d L fix (k1_off22 t1) (k1_off22_inb t1)) (ldv1 d L fix (k1_off23 t1) (k1_off23_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq1 d L fix _ ⟨0, by omega⟩ t1.val ht (k1_off4_eq t1) _ x
  | ⟨1, _⟩ => exact idxvec_eq1 d L fix _ ⟨1, by omega⟩ t1.val ht (k1_off5_eq t1) _ x
  | ⟨2, _⟩ => exact idxvec_eq1 d L fix _ ⟨2, by omega⟩ t1.val ht (k1_off6_eq t1) _ x
  | ⟨3, _⟩ => exact idxvec_eq1 d L fix _ ⟨3, by omega⟩ t1.val ht (k1_off7_eq t1) _ x
  | ⟨4, _⟩ => exact idxvec_eq1 d L fix _ ⟨4, by omega⟩ t1.val ht (k1_off8_eq t1) _ x
  | ⟨5, _⟩ => exact idxvec_eq1 d L fix _ ⟨5, by omega⟩ t1.val ht (k1_off9_eq t1) _ x
  | ⟨6, _⟩ => exact idxvec_eq1 d L fix _ ⟨6, by omega⟩ t1.val ht (k1_off10_eq t1) _ x
  | ⟨7, _⟩ => exact idxvec_eq1 d L fix _ ⟨7, by omega⟩ t1.val ht (k1_off11_eq t1) _ x
  | ⟨8, _⟩ => exact idxvec_eq1 d L fix _ ⟨8, by omega⟩ t1.val ht (k1_off12_eq t1) _ x
  | ⟨9, _⟩ => exact idxvec_eq1 d L fix _ ⟨9, by omega⟩ t1.val ht (k1_off13_eq t1) _ x
  | ⟨10, _⟩ => exact idxvec_eq1 d L fix _ ⟨10, by omega⟩ t1.val ht (k1_off14_eq t1) _ x
  | ⟨11, _⟩ => exact idxvec_eq1 d L fix _ ⟨11, by omega⟩ t1.val ht (k1_off15_eq t1) _ x
  | ⟨12, _⟩ => exact idxvec_eq1 d L fix _ ⟨12, by omega⟩ t1.val ht (k1_off16_eq t1) _ x
  | ⟨13, _⟩ => exact idxvec_eq1 d L fix _ ⟨13, by omega⟩ t1.val ht (k1_off17_eq t1) _ x
  | ⟨14, _⟩ => exact idxvec_eq1 d L fix _ ⟨14, by omega⟩ t1.val ht (k1_off18_eq t1) _ x
  | ⟨15, _⟩ => exact idxvec_eq1 d L fix _ ⟨15, by omega⟩ t1.val ht (k1_off19_eq t1) _ x
  | ⟨16, _⟩ => exact idxvec_eq1 d L fix _ ⟨16, by omega⟩ t1.val ht (k1_off20_eq t1) _ x
  | ⟨17, _⟩ => exact idxvec_eq1 d L fix _ ⟨17, by omega⟩ t1.val ht (k1_off21_eq t1) _ x
  | ⟨18, _⟩ => exact idxvec_eq1 d L fix _ ⟨18, by omega⟩ t1.val ht (k1_off22_eq t1) _ x
  | ⟨19, _⟩ => exact idxvec_eq1 d L fix _ ⟨19, by omega⟩ t1.val ht (k1_off23_eq t1) _ x
  | ⟨n + 20, h⟩ => exact absurd h (by omega)

set_option maxHeartbeats 8000000 in
/-- A trip of the outer loop: the block's 20 neighbour vectors loaded, then the inner loop's four trips fill the block. -/
theorem outerV0 (fsl : Buf (Elt F) ((V d (cV L) (jV L)).loc cc1_scratch0)) (fix : Buf (Elt F) ((V d (cV L) (jV L)).loc cc1_scratch1))
    (f3 : Buf (Elt F) ((V d (cV L) (jV L)).loc cc1_scratch3))
    (hfix : ∀ y, (fix y).toNat < 4096) (v28 : BitVec 32) (t1 : Fin k1_t1_loop.trips) (acc : Unit) :
    invO d L fsl fix f3 (GoutL negInf1 fsl fix f3) t1.val acc
      ⊢ wp frame (wpE (defs₀ (F := F)) 𝒱₀ (V d (cV L) (jV L)) none) Set.univ
          (k1_t1_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 k1_pay623 t1 acc)
          (invO d L fsl fix f3 (GoutL negInf1 fsl fix f3) (t1.val + 1)) := by
  have ht : t1.val < 64 := t1.isLt
  have hU : ∀ k x, ((U0 (F := F) (k1_pay153 (ldv1 d L fix (k1_off4 t1) (k1_off4_inb t1))) (k1_pay154 (ldv1 d L fix (k1_off5 t1) (k1_off5_inb t1))) (k1_pay155 (ldv1 d L fix (k1_off6 t1) (k1_off6_inb t1))) (k1_pay156 (ldv1 d L fix (k1_off7 t1) (k1_off7_inb t1))) (k1_pay157 (ldv1 d L fix (k1_off8 t1) (k1_off8_inb t1))) (k1_pay158 (ldv1 d L fix (k1_off9 t1) (k1_off9_inb t1))) (k1_pay159 (ldv1 d L fix (k1_off10 t1) (k1_off10_inb t1))) (k1_pay160 (ldv1 d L fix (k1_off11 t1) (k1_off11_inb t1))) (k1_pay161 (ldv1 d L fix (k1_off12 t1) (k1_off12_inb t1))) (k1_pay162 (ldv1 d L fix (k1_off13 t1) (k1_off13_inb t1))) (k1_pay163 (ldv1 d L fix (k1_off14 t1) (k1_off14_inb t1))) (ldv1 d L fix (k1_off15 t1) (k1_off15_inb t1)) (ldv1 d L fix (k1_off16 t1) (k1_off16_inb t1)) (ldv1 d L fix (k1_off17 t1) (k1_off17_inb t1)) (ldv1 d L fix (k1_off18 t1) (k1_off18_inb t1)) (ldv1 d L fix (k1_off19 t1) (k1_off19_inb t1)) (ldv1 d L fix (k1_off20 t1) (k1_off20_inb t1)) (ldv1 d L fix (k1_off21 t1) (k1_off21_inb t1)) (ldv1 d L fix (k1_off22 t1) (k1_off22_inb t1)) (ldv1 d L fix (k1_off23 t1) (k1_off23_inb t1))) k x).toNat < 4096 :=
    fun k x => (congrArg BitVec.toNat (U0_loaded d L fix t1 k x)).trans_lt (hfix _)
  unfold invO
  iintro ⟨Hslab, Hidxb, Hcep, %f2, Hout, %hD⟩
  unfold k1_t1_body
  sl_exec
  sl_for (invI d L fsl f3 (GoutL negInf1 fsl fix f3) t1.val) $$ [Hslab Hout Hcep]
  case region =>
    intro t2 acc2
    have ht2 : t2.val < 4 := t2.isLt
    unfold invI
    iintro ⟨Hslab, Hcep, %f2', Hout, %hD2⟩
    ihave Hwp := (innerV0 (F := F) d L fsl f2' f3 v28 k1_pay623 t1 (Scalar.muli (Scf.iv 0#32 1#32 t1.val) 16#32) (k1_pay153 (ldv1 d L fix (k1_off4 t1) (k1_off4_inb t1))) (k1_pay154 (ldv1 d L fix (k1_off5 t1) (k1_off5_inb t1))) (k1_pay155 (ldv1 d L fix (k1_off6 t1) (k1_off6_inb t1))) (k1_pay156 (ldv1 d L fix (k1_off7 t1) (k1_off7_inb t1))) (k1_pay157 (ldv1 d L fix (k1_off8 t1) (k1_off8_inb t1))) (k1_pay158 (ldv1 d L fix (k1_off9 t1) (k1_off9_inb t1))) (k1_pay159 (ldv1 d L fix (k1_off10 t1) (k1_off10_inb t1))) (k1_pay160 (ldv1 d L fix (k1_off11 t1) (k1_off11_inb t1))) (k1_pay161 (ldv1 d L fix (k1_off12 t1) (k1_off12_inb t1))) (k1_pay162 (ldv1 d L fix (k1_off13 t1) (k1_off13_inb t1))) (k1_pay163 (ldv1 d L fix (k1_off14 t1) (k1_off14_inb t1))) (ldv1 d L fix (k1_off15 t1) (k1_off15_inb t1)) (ldv1 d L fix (k1_off16 t1) (k1_off16_inb t1)) (ldv1 d L fix (k1_off17 t1) (k1_off17_inb t1)) (ldv1 d L fix (k1_off18 t1) (k1_off18_inb t1)) (ldv1 d L fix (k1_off19 t1) (k1_off19_inb t1)) (ldv1 d L fix (k1_off20 t1) (k1_off20_inb t1)) (ldv1 d L fix (k1_off21 t1) (k1_off21_inb t1)) (ldv1 d L fix (k1_off22 t1) (k1_off22_inb t1)) (ldv1 d L fix (k1_off23 t1) (k1_off23_inb t1)) hU t2) $$ [Hslab Hout Hcep]
    · isplitl [Hslab]
      · iexact Hslab
      isplitl [Hout]
      · iexact Hout
      · iexact Hcep
    iapply (wp_wand frame _ _) $$ Hwp
    iintro %_ ⟨Hslab, Hout, Hcep⟩
    isplitl [Hslab]
    · iexact Hslab
    isplitl [Hcep]
    · iexact Hcep
    iexists _
    isplitl [Hout]
    · iexact Hout
    ipureintro
    exact tripPiecesL_done negInf1 fsl fix hfix f3 t1.val t2.val ht k1_pay623 (fun _ => rfl) (slabRd1 d L fsl) (slabRd1_apply d L fsl) _ hU (U0_loaded d L fix t1)
      (k1_off24 t1 t2) (k1_off24_inb t1 t2) (k1_off24_eq t1 t2) (Scf.iv 0#32 1#32 t2.val) (iv4_lt1 _ ht2) (iv4_val1 _ ht2) f2' hD2
  · unfold invI
    isplitl [Hslab]
    · iexact Hslab
    isplitl [Hcep]
    · iexact Hcep
    iexists f2
    isplitl [Hout]
    · iexact Hout
    ipureintro
    exact done2_of_done1 hD
  iintro %_ HI
  unfold invI
  icases HI with ⟨Hslab, Hcep, %f2'', Hout, %hD4⟩
  sl_exec
  sl_step
  isplitl [Hslab]
  · iexact Hslab
  isplitl [Hidxb]
  · iexact Hidxb
  isplitl [Hcep]
  · iexact Hcep
  iexists f2''
  isplitl [Hout]
  · iexact Hout
  ipureintro
  exact done1_of_done2 hD4

end Tile

end Cert.Proof.KI.T1

end
-- ==== Proof.KITile1C1.lean ====
/-
  One tile of the first SparseCore call, chunk 1 of the points: a trip of the inner loop stores the four rows of its block
  (the epilogue of the running maxima over the 20 gathered neighbour rows), and a trip of the outer loop, the block's 20
  neighbour vectors loaded, fills the block by the inner loop's four trips.
-/
import proofs.«209975_g17849884082380_cont_8to1_1483_11_alg».proof.Proof.KITile1Defs
import proofs.«209975_g17849884082380_cont_8to1_1483_11_alg».proof.Proof.KITile1Val
import proofs.«209975_g17849884082380_cont_8to1_1483_11_alg».proof.Proof.KITile1Trip
import proofs.«209975_g17849884082380_cont_8to1_1483_11_alg».proof.Proof.KITile2Val
import proofs.«209975_g17849884082380_cont_8to1_1483_11_alg».proof.Proof.KITile1Inv
import Idealize.ShloMosaic.Lib.Writes
import Idealize.ShloMosaic.Lib.ValueLayout

noncomputable section

namespace Cert.Proof.KI.T1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)
local notation "slabW" => (Memref.whole Cert.KernelIdeal.cc1_scratch0 : Memref Cert.KernelIdeal.sig Kind.scVector Space.vmem Cert.KernelIdeal.S65536 EltTy.f32)
local notation "idxbW" => (Memref.whole Cert.KernelIdeal.cc1_scratch1 : Memref Cert.KernelIdeal.sig Kind.scVector Space.vmem Cert.KernelIdeal.S20x1024 EltTy.i32)
local notation "outbW" => (Memref.whole Cert.KernelIdeal.cc1_scratch2 : Memref Cert.KernelIdeal.sig Kind.scVector Space.vmem Cert.KernelIdeal.S16x1024 EltTy.f32)
local notation "cepbW" => (Memref.whole Cert.KernelIdeal.cc1_scratch3 : Memref Cert.KernelIdeal.sig Kind.scVector Space.vmem Cert.KernelIdeal.S16x1024 EltTy.f32)

section Tile

variable (d : Dev nD) (L : grid1.Coords)

variable [FloatOps F]

/-- The 20 neighbour vectors of a trip of this chunk, in order. -/
abbrev U1 (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32) : Fin 20 → IVec S16 32 :=
  ![v46, v49, v52, v55, v58, v61, v64, v67, v70, v73, v76, k1_pay634 v79_ld, k1_pay635 v82_ld, k1_pay636 v85_ld, k1_pay637 v88_ld, k1_pay638 v91_ld, k1_pay639 v94_ld, k1_pay640 v97_ld, k1_pay641 v100_ld, k1_pay642 v103_ld]

attribute [local sl_canon] vli_bind1 in
set_option maxHeartbeats 16000000 in
/-- A trip of the inner loop: from the slab, the output scratch and the centre scratch, the same with the trip's four rows
    stored. -/
theorem innerV1 (fsl : Buf (Elt F) ((V d (cV L) (jV L)).loc cc1_scratch0)) (f2 : Buf (Elt F) ((V d (cV L) (jV L)).loc cc1_scratch2))
    (f3 : Buf (Elt F) ((V d (cV L) (jV L)).loc cc1_scratch3))
    (v28 : BitVec 32) (v30 : FVec F S16 .f32) (k1_t3 : Fin k1_t3_loop.trips) (v43 : BitVec 32)
    (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32)
    (hU : ∀ k x, ((U1 (F := F) v46 v49 v52 v55 v58 v61 v64 v67 v70 v73 v76 v79_ld v82_ld v85_ld v88_ld v91_ld v94_ld v97_ld v100_ld v103_ld) k x).toNat < 4096)
    (k1_t4 : Fin k1_t4_loop.trips) :
    (iprop(((slabW).view.loc (V d (cV L) (jV L)) ↦{fullShare} fsl) ∗ ((outbW).view.loc (V d (cV L) (jV L)) ↦{fullShare} f2)
        ∗ ((cepbW).view.loc (V d (cV L) (jV L)) ↦{fullShare} f3)) : sProp 𝕄)
      ⊢ wp frame (wpE (defs₀ (F := F)) 𝒱₀ (V d (cV L) (jV L)) none) Set.univ
          (k1_t4_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 v30 k1_t3 v43 v46 v49 v52 v55 v58 v61 v64 v67 v70 v73 v76 v79_ld v82_ld v85_ld v88_ld v91_ld v94_ld v97_ld v100_ld v103_ld k1_t4 ())
          fun _ => iprop(((slabW).view.loc (V d (cV L) (jV L)) ↦{fullShare} fsl) ∗ ((outbW).view.loc (V d (cV L) (jV L)) ↦{fullShare}
            (outbW).view.writes (Elt F) f2 (tripPiecesL v30 (slabRd1 d L fsl) f3 (U1 v46 v49 v52 v55 v58 v61 v64 v67 v70 v73 v76 v79_ld v82_ld v85_ld v88_ld v91_ld v94_ld v97_ld v100_ld v103_ld) hU (k1_off47 k1_t3 k1_t4) (k1_off47_inb k1_t3 k1_t4)
              (Scf.iv 0#32 1#32 k1_t4.val) (iv4_lt1 k1_t4.val k1_t4.isLt)))
            ∗ ((cepbW).view.loc (V d (cV L) (jV L)) ↦{fullShare} f3)) := by
  have hg : (Scf.iv 0#32 1#32 k1_t4.val).toNat < 4 := iv4_lt1 k1_t4.val k1_t4.isLt
  have h46 : ∀ x, (v46 x).toNat < 4096 := hU 0
  have h49 : ∀ x, (v49 x).toNat < 4096 := hU 1
  have h52 : ∀ x, (v52 x).toNat < 4096 := hU 2
  have h55 : ∀ x, (v55 x).toNat < 4096 := hU 3
  have h58 : ∀ x, (v58 x).toNat < 4096 := hU 4
  have h61 : ∀ x, (v61 x).toNat < 4096 := hU 5
  have h64 : ∀ x, (v64 x).toNat < 4096 := hU 6
  have h67 : ∀ x, (v67 x).toNat < 4096 := hU 7
  have h70 : ∀ x, (v70 x).toNat < 4096 := hU 8
  have h73 : ∀ x, (v73 x).toNat < 4096 := hU 9
  have h76 : ∀ x, (v76 x).toNat < 4096 := hU 10
  have h79 : ∀ x, (k1_pay634 (F := F) v79_ld x).toNat < 4096 := hU 11
  have h82 : ∀ x, (k1_pay635 (F := F) v82_ld x).toNat < 4096 := hU 12
  have h85 : ∀ x, (k1_pay636 (F := F) v85_ld x).toNat < 4096 := hU 13
  have h88 : ∀ x, (k1_pay637 (F := F) v88_ld x).toNat < 4096 := hU 14
  have h91 : ∀ x, (k1_pay638 (F := F) v91_ld x).toNat < 4096 := hU 15
  have h94 : ∀ x, (k1_pay639 (F := F) v94_ld x).toNat < 4096 := hU 16
  have h97 : ∀ x, (k1_pay640 (F := F) v97_ld x).toNat < 4096 := hU 17
  have h100 : ∀ x, (k1_pay641 (F := F) v100_ld x).toNat < 4096 := hU 18
  have h103 : ∀ x, (k1_pay642 (F := F) v103_ld x).toNat < 4096 := hU 19
  unfold k1_t4_body tripPiecesL
  iintro ⟨Hslab, Hout, Hcep⟩
  sl_exec (disch := exact chk_idxOff (by assumption) hg (by decide))
  sl_step
  isplitl [Hslab]
  · iexact Hslab
  isplitl [Hout]
  · iexact Hout
  · iexact Hcep

/-- The 20 neighbour vectors block `t1` loads are the 20 rows of the index scratch at the block's sixteen columns. -/
theorem U1_loaded (fix : Buf (Elt F) ((V d (cV L) (jV L)).loc cc1_scratch1)) (t1 : Fin k1_t3_loop.trips) (k : Fin 20) (x : S16.Idx) :
    U1 (F := F) (k1_pay306 (ldv1 d L fix (k1_off27 t1) (k1_off27_inb t1))) (k1_pay307 (ldv1 d L fix (k1_off28 t1) (k1_off28_inb t1))) (k1_pay308 (ldv1 d L fix (k1_off29 t1) (k1_off29_inb t1))) (k1_pay309 (ldv1 d L fix (k1_off30 t1) (k1_off30_inb t1))) (k1_pay310 (ldv1 d L fix (k1_off31 t1) (k1_off31_inb t1))) (k1_pay311 (ldv1 d L fix (k1_off32 t1) (k1_off32_inb t1))) (k1_pay312 (ldv1 d L fix (k1_off33 t1) (k1_off33_inb t1))) (k1_pay313 (ldv1 d L fix (k1_off34 t1) (k1_off34_inb t1))) (k1_pay314 (ldv1 d L fix (k1_off35 t1) (k1_off35_inb t1))) (k1_pay315 (ldv1 d L fix (k1_off36 t1) (k1_off36_inb t1))) (k1_pay316 (ldv1 d L fix (k1_off37 t1) (k1_off37_inb t1))) (ldv1 d L fix (k1_off38 t1) (k1_off38_inb t1)) (ldv1 d L fix (k1_off39 t1) (k1_off39_inb t1)) (ldv1 d L fix (k1_off40 t1) (k1_off40_inb t1)) (ldv1 d L fix (k1_off41 t1) (k1_off41_inb t1)) (ldv1 d L fix (k1_off42 t1) (k1_off42_inb t1)) (ldv1 d L fix (k1_off43 t1) (k1_off43_inb t1)) (ldv1 d L fix (k1_off44 t1) (k1_off44_inb t1)) (ldv1 d L fix (k1_off45 t1) (k1_off45_inb t1)) (ldv1 d L fix (k1_off46 t1) (k1_off46_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq1 d L fix _ ⟨0, by omega⟩ t1.val ht (k1_off27_eq t1) _ x
  | ⟨1, _⟩ => exact idxvec_eq1 d L fix _ ⟨1, by omega⟩ t1.val ht (k1_off28_eq t1) _ x
  | ⟨2, _⟩ => exact idxvec_eq1 d L fix _ ⟨2, by omega⟩ t1.val ht (k1_off29_eq t1) _ x
  | ⟨3, _⟩ => exact idxvec_eq1 d L fix _ ⟨3, by omega⟩ t1.val ht (k1_off30_eq t1) _ x
  | ⟨4, _⟩ => exact idxvec_eq1 d L fix _ ⟨4, by omega⟩ t1.val ht (k1_off31_eq t1) _ x
  | ⟨5, _⟩ => exact idxvec_eq1 d L fix _ ⟨5, by omega⟩ t1.val ht (k1_off32_eq t1) _ x
  | ⟨6, _⟩ => exact idxvec_eq1 d L fix _ ⟨6, by omega⟩ t1.val ht (k1_off33_eq t1) _ x
  | ⟨7, _⟩ => exact idxvec_eq1 d L fix _ ⟨7, by omega⟩ t1.val ht (k1_off34_eq t1) _ x
  | ⟨8, _⟩ => exact idxvec_eq1 d L fix _ ⟨8, by omega⟩ t1.val ht (k1_off35_eq t1) _ x
  | ⟨9, _⟩ => exact idxvec_eq1 d L fix _ ⟨9, by omega⟩ t1.val ht (k1_off36_eq t1) _ x
  | ⟨10, _⟩ => exact idxvec_eq1 d L fix _ ⟨10, by omega⟩ t1.val ht (k1_off37_eq t1) _ x
  | ⟨11, _⟩ => exact idxvec_eq1 d L fix _ ⟨11, by omega⟩ t1.val ht (k1_off38_eq t1) _ x
  | ⟨12, _⟩ => exact idxvec_eq1 d L fix _ ⟨12, by omega⟩ t1.val ht (k1_off39_eq t1) _ x
  | ⟨13, _⟩ => exact idxvec_eq1 d L fix _ ⟨13, by omega⟩ t1.val ht (k1_off40_eq t1) _ x
  | ⟨14, _⟩ => exact idxvec_eq1 d L fix _ ⟨14, by omega⟩ t1.val ht (k1_off41_eq t1) _ x
  | ⟨15, _⟩ => exact idxvec_eq1 d L fix _ ⟨15, by omega⟩ t1.val ht (k1_off42_eq t1) _ x
  | ⟨16, _⟩ => exact idxvec_eq1 d L fix _ ⟨16, by omega⟩ t1.val ht (k1_off43_eq t1) _ x
  | ⟨17, _⟩ => exact idxvec_eq1 d L fix _ ⟨17, by omega⟩ t1.val ht (k1_off44_eq t1) _ x
  | ⟨18, _⟩ => exact idxvec_eq1 d L fix _ ⟨18, by omega⟩ t1.val ht (k1_off45_eq t1) _ x
  | ⟨19, _⟩ => exact idxvec_eq1 d L fix _ ⟨19, by omega⟩ t1.val ht (k1_off46_eq t1) _ x
  | ⟨n + 20, h⟩ => exact absurd h (by omega)

set_option maxHeartbeats 8000000 in
/-- A trip of the outer loop: the block's 20 neighbour vectors loaded, then the inner loop's four trips fill the block. -/
theorem outerV1 (fsl : Buf (Elt F) ((V d (cV L) (jV L)).loc cc1_scratch0)) (fix : Buf (Elt F) ((V d (cV L) (jV L)).loc cc1_scratch1))
    (f3 : Buf (Elt F) ((V d (cV L) (jV L)).loc cc1_scratch3))
    (hfix : ∀ y, (fix y).toNat < 4096) (v28 : BitVec 32) (t1 : Fin k1_t3_loop.trips) (acc : Unit) :
    invO d L fsl fix f3 (GoutL negInf1 fsl fix f3) t1.val acc
      ⊢ wp frame (wpE (defs₀ (F := F)) 𝒱₀ (V d (cV L) (jV L)) none) Set.univ
          (k1_t3_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 k1_pay623 t1 acc)
          (invO d L fsl fix f3 (GoutL negInf1 fsl fix f3) (t1.val + 1)) := by
  have ht : t1.val < 64 := t1.isLt
  have hU : ∀ k x, ((U1 (F := F) (k1_pay306 (ldv1 d L fix (k1_off27 t1) (k1_off27_inb t1))) (k1_pay307 (ldv1 d L fix (k1_off28 t1) (k1_off28_inb t1))) (k1_pay308 (ldv1 d L fix (k1_off29 t1) (k1_off29_inb t1))) (k1_pay309 (ldv1 d L fix (k1_off30 t1) (k1_off30_inb t1))) (k1_pay310 (ldv1 d L fix (k1_off31 t1) (k1_off31_inb t1))) (k1_pay311 (ldv1 d L fix (k1_off32 t1) (k1_off32_inb t1))) (k1_pay312 (ldv1 d L fix (k1_off33 t1) (k1_off33_inb t1))) (k1_pay313 (ldv1 d L fix (k1_off34 t1) (k1_off34_inb t1))) (k1_pay314 (ldv1 d L fix (k1_off35 t1) (k1_off35_inb t1))) (k1_pay315 (ldv1 d L fix (k1_off36 t1) (k1_off36_inb t1))) (k1_pay316 (ldv1 d L fix (k1_off37 t1) (k1_off37_inb t1))) (ldv1 d L fix (k1_off38 t1) (k1_off38_inb t1)) (ldv1 d L fix (k1_off39 t1) (k1_off39_inb t1)) (ldv1 d L fix (k1_off40 t1) (k1_off40_inb t1)) (ldv1 d L fix (k1_off41 t1) (k1_off41_inb t1)) (ldv1 d L fix (k1_off42 t1) (k1_off42_inb t1)) (ldv1 d L fix (k1_off43 t1) (k1_off43_inb t1)) (ldv1 d L fix (k1_off44 t1) (k1_off44_inb t1)) (ldv1 d L fix (k1_off45 t1) (k1_off45_inb t1)) (ldv1 d L fix (k1_off46 t1) (k1_off46_inb t1))) k x).toNat < 4096 :=
    fun k x => (congrArg BitVec.toNat (U1_loaded d L fix t1 k x)).trans_lt (hfix _)
  unfold invO
  iintro ⟨Hslab, Hidxb, Hcep, %f2, Hout, %hD⟩
  unfold k1_t3_body
  sl_exec
  sl_for (invI d L fsl f3 (GoutL negInf1 fsl fix f3) t1.val) $$ [Hslab Hout Hcep]
  case region =>
    intro t2 acc2
    have ht2 : t2.val < 4 := t2.isLt
    unfold invI
    iintro ⟨Hslab, Hcep, %f2', Hout, %hD2⟩
    ihave Hwp := (innerV1 (F := F) d L fsl f2' f3 v28 k1_pay623 t1 (Scalar.muli (Scf.iv 0#32 1#32 t1.val) 16#32) (k1_pay306 (ldv1 d L fix (k1_off27 t1) (k1_off27_inb t1))) (k1_pay307 (ldv1 d L fix (k1_off28 t1) (k1_off28_inb t1))) (k1_pay308 (ldv1 d L fix (k1_off29 t1) (k1_off29_inb t1))) (k1_pay309 (ldv1 d L fix (k1_off30 t1) (k1_off30_inb t1))) (k1_pay310 (ldv1 d L fix (k1_off31 t1) (k1_off31_inb t1))) (k1_pay311 (ldv1 d L fix (k1_off32 t1) (k1_off32_inb t1))) (k1_pay312 (ldv1 d L fix (k1_off33 t1) (k1_off33_inb t1))) (k1_pay313 (ldv1 d L fix (k1_off34 t1) (k1_off34_inb t1))) (k1_pay314 (ldv1 d L fix (k1_off35 t1) (k1_off35_inb t1))) (k1_pay315 (ldv1 d L fix (k1_off36 t1) (k1_off36_inb t1))) (k1_pay316 (ldv1 d L fix (k1_off37 t1) (k1_off37_inb t1))) (ldv1 d L fix (k1_off38 t1) (k1_off38_inb t1)) (ldv1 d L fix (k1_off39 t1) (k1_off39_inb t1)) (ldv1 d L fix (k1_off40 t1) (k1_off40_inb t1)) (ldv1 d L fix (k1_off41 t1) (k1_off41_inb t1)) (ldv1 d L fix (k1_off42 t1) (k1_off42_inb t1)) (ldv1 d L fix (k1_off43 t1) (k1_off43_inb t1)) (ldv1 d L fix (k1_off44 t1) (k1_off44_inb t1)) (ldv1 d L fix (k1_off45 t1) (k1_off45_inb t1)) (ldv1 d L fix (k1_off46 t1) (k1_off46_inb t1)) hU t2) $$ [Hslab Hout Hcep]
    · isplitl [Hslab]
      · iexact Hslab
      isplitl [Hout]
      · iexact Hout
      · iexact Hcep
    iapply (wp_wand frame _ _) $$ Hwp
    iintro %_ ⟨Hslab, Hout, Hcep⟩
    isplitl [Hslab]
    · iexact Hslab
    isplitl [Hcep]
    · iexact Hcep
    iexists _
    isplitl [Hout]
    · iexact Hout
    ipureintro
    exact tripPiecesL_done negInf1 fsl fix hfix f3 t1.val t2.val ht k1_pay623 (fun _ => rfl) (slabRd1 d L fsl) (slabRd1_apply d L fsl) _ hU (U1_loaded d L fix t1)
      (k1_off47 t1 t2) (k1_off47_inb t1 t2) (k1_off47_eq t1 t2) (Scf.iv 0#32 1#32 t2.val) (iv4_lt1 _ ht2) (iv4_val1 _ ht2) f2' hD2
  · unfold invI
    isplitl [Hslab]
    · iexact Hslab
    isplitl [Hcep]
    · iexact Hcep
    iexists f2
    isplitl [Hout]
    · iexact Hout
    ipureintro
    exact done2_of_done1 hD
  iintro %_ HI
  unfold invI
  icases HI with ⟨Hslab, Hcep, %f2'', Hout, %hD4⟩
  sl_exec
  sl_step
  isplitl [Hslab]
  · iexact Hslab
  isplitl [Hidxb]
  · iexact Hidxb
  isplitl [Hcep]
  · iexact Hcep
  iexists f2''
  isplitl [Hout]
  · iexact Hout
  ipureintro
  exact done1_of_done2 hD4

end Tile

end Cert.Proof.KI.T1

end
-- ==== Proof.KITile1C2.lean ====
/-
  One tile of the first SparseCore call, chunk 2 of the points: a trip of the inner loop stores the four rows of its block
  (the epilogue of the running maxima over the 20 gathered neighbour rows), and a trip of the outer loop, the block's 20
  neighbour vectors loaded, fills the block by the inner loop's four trips.
-/
import proofs.«209975_g17849884082380_cont_8to1_1483_11_alg».proof.Proof.KITile1Defs
import proofs.«209975_g17849884082380_cont_8to1_1483_11_alg».proof.Proof.KITile1Val
import proofs.«209975_g17849884082380_cont_8to1_1483_11_alg».proof.Proof.KITile1Trip
import proofs.«209975_g17849884082380_cont_8to1_1483_11_alg».proof.Proof.KITile2Val
import proofs.«209975_g17849884082380_cont_8to1_1483_11_alg».proof.Proof.KITile1Inv
import Idealize.ShloMosaic.Lib.Writes
import Idealize.ShloMosaic.Lib.ValueLayout

noncomputable section

namespace Cert.Proof.KI.T1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)
local notation "slabW" => (Memref.whole Cert.KernelIdeal.cc1_scratch0 : Memref Cert.KernelIdeal.sig Kind.scVector Space.vmem Cert.KernelIdeal.S65536 EltTy.f32)
local notation "idxbW" => (Memref.whole Cert.KernelIdeal.cc1_scratch1 : Memref Cert.KernelIdeal.sig Kind.scVector Space.vmem Cert.KernelIdeal.S20x1024 EltTy.i32)
local notation "outbW" => (Memref.whole Cert.KernelIdeal.cc1_scratch2 : Memref Cert.KernelIdeal.sig Kind.scVector Space.vmem Cert.KernelIdeal.S16x1024 EltTy.f32)
local notation "cepbW" => (Memref.whole Cert.KernelIdeal.cc1_scratch3 : Memref Cert.KernelIdeal.sig Kind.scVector Space.vmem Cert.KernelIdeal.S16x1024 EltTy.f32)

section Tile

variable (d : Dev nD) (L : grid1.Coords)

variable [FloatOps F]

/-- The 20 neighbour vectors of a trip of this chunk, in order. -/
abbrev U2 (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32) : Fin 20 → IVec S16 32 :=
  ![v46, v49, v52, v55, v58, v61, v64, v67, v70, v73, v76, k1_pay644 v79_ld, k1_pay645 v82_ld, k1_pay646 v85_ld, k1_pay647 v88_ld, k1_pay648 v91_ld, k1_pay649 v94_ld, k1_pay650 v97_ld, k1_pay651 v100_ld, k1_pay652 v103_ld]

attribute [local sl_canon] vli_bind1 in
set_option maxHeartbeats 16000000 in
/-- A trip of the inner loop: from the slab, the output scratch and the centre scratch, the same with the trip's four rows
    stored. -/
theorem innerV2 (fsl : Buf (Elt F) ((V d (cV L) (jV L)).loc cc1_scratch0)) (f2 : Buf (Elt F) ((V d (cV L) (jV L)).loc cc1_scratch2))
    (f3 : Buf (Elt F) ((V d (cV L) (jV L)).loc cc1_scratch3))
    (v28 : BitVec 32) (v30 : FVec F S16 .f32) (k1_t5 : Fin k1_t5_loop.trips) (v43 : BitVec 32)
    (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32)
    (hU : ∀ k x, ((U2 (F := F) v46 v49 v52 v55 v58 v61 v64 v67 v70 v73 v76 v79_ld v82_ld v85_ld v88_ld v91_ld v94_ld v97_ld v100_ld v103_ld) k x).toNat < 4096)
    (k1_t6 : Fin k1_t6_loop.trips) :
    (iprop(((slabW).view.loc (V d (cV L) (jV L)) ↦{fullShare} fsl) ∗ ((outbW).view.loc (V d (cV L) (jV L)) ↦{fullShare} f2)
        ∗ ((cepbW).view.loc (V d (cV L) (jV L)) ↦{fullShare} f3)) : sProp 𝕄)
      ⊢ wp frame (wpE (defs₀ (F := F)) 𝒱₀ (V d (cV L) (jV L)) none) Set.univ
          (k1_t6_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 v30 k1_t5 v43 v46 v49 v52 v55 v58 v61 v64 v67 v70 v73 v76 v79_ld v82_ld v85_ld v88_ld v91_ld v94_ld v97_ld v100_ld v103_ld k1_t6 ())
          fun _ => iprop(((slabW).view.loc (V d (cV L) (jV L)) ↦{fullShare} fsl) ∗ ((outbW).view.loc (V d (cV L) (jV L)) ↦{fullShare}
            (outbW).view.writes (Elt F) f2 (tripPiecesL v30 (slabRd1 d L fsl) f3 (U2 v46 v49 v52 v55 v58 v61 v64 v67 v70 v73 v76 v79_ld v82_ld v85_ld v88_ld v91_ld v94_ld v97_ld v100_ld v103_ld) hU (k1_off70 k1_t5 k1_t6) (k1_off70_inb k1_t5 k1_t6)
              (Scf.iv 0#32 1#32 k1_t6.val) (iv4_lt1 k1_t6.val k1_t6.isLt)))
            ∗ ((cepbW).view.loc (V d (cV L) (jV L)) ↦{fullShare} f3)) := by
  have hg : (Scf.iv 0#32 1#32 k1_t6.val).toNat < 4 := iv4_lt1 k1_t6.val k1_t6.isLt
  have h46 : ∀ x, (v46 x).toNat < 4096 := hU 0
  have h49 : ∀ x, (v49 x).toNat < 4096 := hU 1
  have h52 : ∀ x, (v52 x).toNat < 4096 := hU 2
  have h55 : ∀ x, (v55 x).toNat < 4096 := hU 3
  have h58 : ∀ x, (v58 x).toNat < 4096 := hU 4
  have h61 : ∀ x, (v61 x).toNat < 4096 := hU 5
  have h64 : ∀ x, (v64 x).toNat < 4096 := hU 6
  have h67 : ∀ x, (v67 x).toNat < 4096 := hU 7
  have h70 : ∀ x, (v70 x).toNat < 4096 := hU 8
  have h73 : ∀ x, (v73 x).toNat < 4096 := hU 9
  have h76 : ∀ x, (v76 x).toNat < 4096 := hU 10
  have h79 : ∀ x, (k1_pay644 (F := F) v79_ld x).toNat < 4096 := hU 11
  have h82 : ∀ x, (k1_pay645 (F := F) v82_ld x).toNat < 4096 := hU 12
  have h85 : ∀ x, (k1_pay646 (F := F) v85_ld x).toNat < 4096 := hU 13
  have h88 : ∀ x, (k1_pay647 (F := F) v88_ld x).toNat < 4096 := hU 14
  have h91 : ∀ x, (k1_pay648 (F := F) v91_ld x).toNat < 4096 := hU 15
  have h94 : ∀ x, (k1_pay649 (F := F) v94_ld x).toNat < 4096 := hU 16
  have h97 : ∀ x, (k1_pay650 (F := F) v97_ld x).toNat < 4096 := hU 17
  have h100 : ∀ x, (k1_pay651 (F := F) v100_ld x).toNat < 4096 := hU 18
  have h103 : ∀ x, (k1_pay652 (F := F) v103_ld x).toNat < 4096 := hU 19
  unfold k1_t6_body tripPiecesL
  iintro ⟨Hslab, Hout, Hcep⟩
  sl_exec (disch := exact chk_idxOff (by assumption) hg (by decide))
  sl_step
  isplitl [Hslab]
  · iexact Hslab
  isplitl [Hout]
  · iexact Hout
  · iexact Hcep

/-- The 20 neighbour vectors block `t1` loads are the 20 rows of the index scratch at the block's sixteen columns. -/
theorem U2_loaded (fix : Buf (Elt F) ((V d (cV L) (jV L)).loc cc1_scratch1)) (t1 : Fin k1_t5_loop.trips) (k : Fin 20) (x : S16.Idx) :
    U2 (F := F) (k1_pay459 (ldv1 d L fix (k1_off50 t1) (k1_off50_inb t1))) (k1_pay460 (ldv1 d L fix (k1_off51 t1) (k1_off51_inb t1))) (k1_pay461 (ldv1 d L fix (k1_off52 t1) (k1_off52_inb t1))) (k1_pay462 (ldv1 d L fix (k1_off53 t1) (k1_off53_inb t1))) (k1_pay463 (ldv1 d L fix (k1_off54 t1) (k1_off54_inb t1))) (k1_pay464 (ldv1 d L fix (k1_off55 t1) (k1_off55_inb t1))) (k1_pay465 (ldv1 d L fix (k1_off56 t1) (k1_off56_inb t1))) (k1_pay466 (ldv1 d L fix (k1_off57 t1) (k1_off57_inb t1))) (k1_pay467 (ldv1 d L fix (k1_off58 t1) (k1_off58_inb t1))) (k1_pay468 (ldv1 d L fix (k1_off59 t1) (k1_off59_inb t1))) (k1_pay469 (ldv1 d L fix (k1_off60 t1) (k1_off60_inb t1))) (ldv1 d L fix (k1_off61 t1) (k1_off61_inb t1)) (ldv1 d L fix (k1_off62 t1) (k1_off62_inb t1)) (ldv1 d L fix (k1_off63 t1) (k1_off63_inb t1)) (ldv1 d L fix (k1_off64 t1) (k1_off64_inb t1)) (ldv1 d L fix (k1_off65 t1) (k1_off65_inb t1)) (ldv1 d L fix (k1_off66 t1) (k1_off66_inb t1)) (ldv1 d L fix (k1_off67 t1) (k1_off67_inb t1)) (ldv1 d L fix (k1_off68 t1) (k1_off68_inb t1)) (ldv1 d L fix (k1_off69 t1) (k1_off69_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq1 d L fix _ ⟨0, by omega⟩ t1.val ht (k1_off50_eq t1) _ x
  | ⟨1, _⟩ => exact idxvec_eq1 d L fix _ ⟨1, by omega⟩ t1.val ht (k1_off51_eq t1) _ x
  | ⟨2, _⟩ => exact idxvec_eq1 d L fix _ ⟨2, by omega⟩ t1.val ht (k1_off52_eq t1) _ x
  | ⟨3, _⟩ => exact idxvec_eq1 d L fix _ ⟨3, by omega⟩ t1.val ht (k1_off53_eq t1) _ x
  | ⟨4, _⟩ => exact idxvec_eq1 d L fix _ ⟨4, by omega⟩ t1.val ht (k1_off54_eq t1) _ x
  | ⟨5, _⟩ => exact idxvec_eq1 d L fix _ ⟨5, by omega⟩ t1.val ht (k1_off55_eq t1) _ x
  | ⟨6, _⟩ => exact idxvec_eq1 d L fix _ ⟨6, by omega⟩ t1.val ht (k1_off56_eq t1) _ x
  | ⟨7, _⟩ => exact idxvec_eq1 d L fix _ ⟨7, by omega⟩ t1.val ht (k1_off57_eq t1) _ x
  | ⟨8, _⟩ => exact idxvec_eq1 d L fix _ ⟨8, by omega⟩ t1.val ht (k1_off58_eq t1) _ x
  | ⟨9, _⟩ => exact idxvec_eq1 d L fix _ ⟨9, by omega⟩ t1.val ht (k1_off59_eq t1) _ x
  | ⟨10, _⟩ => exact idxvec_eq1 d L fix _ ⟨10, by omega⟩ t1.val ht (k1_off60_eq t1) _ x
  | ⟨11, _⟩ => exact idxvec_eq1 d L fix _ ⟨11, by omega⟩ t1.val ht (k1_off61_eq t1) _ x
  | ⟨12, _⟩ => exact idxvec_eq1 d L fix _ ⟨12, by omega⟩ t1.val ht (k1_off62_eq t1) _ x
  | ⟨13, _⟩ => exact idxvec_eq1 d L fix _ ⟨13, by omega⟩ t1.val ht (k1_off63_eq t1) _ x
  | ⟨14, _⟩ => exact idxvec_eq1 d L fix _ ⟨14, by omega⟩ t1.val ht (k1_off64_eq t1) _ x
  | ⟨15, _⟩ => exact idxvec_eq1 d L fix _ ⟨15, by omega⟩ t1.val ht (k1_off65_eq t1) _ x
  | ⟨16, _⟩ => exact idxvec_eq1 d L fix _ ⟨16, by omega⟩ t1.val ht (k1_off66_eq t1) _ x
  | ⟨17, _⟩ => exact idxvec_eq1 d L fix _ ⟨17, by omega⟩ t1.val ht (k1_off67_eq t1) _ x
  | ⟨18, _⟩ => exact idxvec_eq1 d L fix _ ⟨18, by omega⟩ t1.val ht (k1_off68_eq t1) _ x
  | ⟨19, _⟩ => exact idxvec_eq1 d L fix _ ⟨19, by omega⟩ t1.val ht (k1_off69_eq t1) _ x
  | ⟨n + 20, h⟩ => exact absurd h (by omega)

set_option maxHeartbeats 8000000 in
/-- A trip of the outer loop: the block's 20 neighbour vectors loaded, then the inner loop's four trips fill the block. -/
theorem outerV2 (fsl : Buf (Elt F) ((V d (cV L) (jV L)).loc cc1_scratch0)) (fix : Buf (Elt F) ((V d (cV L) (jV L)).loc cc1_scratch1))
    (f3 : Buf (Elt F) ((V d (cV L) (jV L)).loc cc1_scratch3))
    (hfix : ∀ y, (fix y).toNat < 4096) (v28 : BitVec 32) (t1 : Fin k1_t5_loop.trips) (acc : Unit) :
    invO d L fsl fix f3 (GoutL negInf1 fsl fix f3) t1.val acc
      ⊢ wp frame (wpE (defs₀ (F := F)) 𝒱₀ (V d (cV L) (jV L)) none) Set.univ
          (k1_t5_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 k1_pay623 t1 acc)
          (invO d L fsl fix f3 (GoutL negInf1 fsl fix f3) (t1.val + 1)) := by
  have ht : t1.val < 64 := t1.isLt
  have hU : ∀ k x, ((U2 (F := F) (k1_pay459 (ldv1 d L fix (k1_off50 t1) (k1_off50_inb t1))) (k1_pay460 (ldv1 d L fix (k1_off51 t1) (k1_off51_inb t1))) (k1_pay461 (ldv1 d L fix (k1_off52 t1) (k1_off52_inb t1))) (k1_pay462 (ldv1 d L fix (k1_off53 t1) (k1_off53_inb t1))) (k1_pay463 (ldv1 d L fix (k1_off54 t1) (k1_off54_inb t1))) (k1_pay464 (ldv1 d L fix (k1_off55 t1) (k1_off55_inb t1))) (k1_pay465 (ldv1 d L fix (k1_off56 t1) (k1_off56_inb t1))) (k1_pay466 (ldv1 d L fix (k1_off57 t1) (k1_off57_inb t1))) (k1_pay467 (ldv1 d L fix (k1_off58 t1) (k1_off58_inb t1))) (k1_pay468 (ldv1 d L fix (k1_off59 t1) (k1_off59_inb t1))) (k1_pay469 (ldv1 d L fix (k1_off60 t1) (k1_off60_inb t1))) (ldv1 d L fix (k1_off61 t1) (k1_off61_inb t1)) (ldv1 d L fix (k1_off62 t1) (k1_off62_inb t1)) (ldv1 d L fix (k1_off63 t1) (k1_off63_inb t1)) (ldv1 d L fix (k1_off64 t1) (k1_off64_inb t1)) (ldv1 d L fix (k1_off65 t1) (k1_off65_inb t1)) (ldv1 d L fix (k1_off66 t1) (k1_off66_inb t1)) (ldv1 d L fix (k1_off67 t1) (k1_off67_inb t1)) (ldv1 d L fix (k1_off68 t1) (k1_off68_inb t1)) (ldv1 d L fix (k1_off69 t1) (k1_off69_inb t1))) k x).toNat < 4096 :=
    fun k x => (congrArg BitVec.toNat (U2_loaded d L fix t1 k x)).trans_lt (hfix _)
  unfold invO
  iintro ⟨Hslab, Hidxb, Hcep, %f2, Hout, %hD⟩
  unfold k1_t5_body
  sl_exec
  sl_for (invI d L fsl f3 (GoutL negInf1 fsl fix f3) t1.val) $$ [Hslab Hout Hcep]
  case region =>
    intro t2 acc2
    have ht2 : t2.val < 4 := t2.isLt
    unfold invI
    iintro ⟨Hslab, Hcep, %f2', Hout, %hD2⟩
    ihave Hwp := (innerV2 (F := F) d L fsl f2' f3 v28 k1_pay623 t1 (Scalar.muli (Scf.iv 0#32 1#32 t1.val) 16#32) (k1_pay459 (ldv1 d L fix (k1_off50 t1) (k1_off50_inb t1))) (k1_pay460 (ldv1 d L fix (k1_off51 t1) (k1_off51_inb t1))) (k1_pay461 (ldv1 d L fix (k1_off52 t1) (k1_off52_inb t1))) (k1_pay462 (ldv1 d L fix (k1_off53 t1) (k1_off53_inb t1))) (k1_pay463 (ldv1 d L fix (k1_off54 t1) (k1_off54_inb t1))) (k1_pay464 (ldv1 d L fix (k1_off55 t1) (k1_off55_inb t1))) (k1_pay465 (ldv1 d L fix (k1_off56 t1) (k1_off56_inb t1))) (k1_pay466 (ldv1 d L fix (k1_off57 t1) (k1_off57_inb t1))) (k1_pay467 (ldv1 d L fix (k1_off58 t1) (k1_off58_inb t1))) (k1_pay468 (ldv1 d L fix (k1_off59 t1) (k1_off59_inb t1))) (k1_pay469 (ldv1 d L fix (k1_off60 t1) (k1_off60_inb t1))) (ldv1 d L fix (k1_off61 t1) (k1_off61_inb t1)) (ldv1 d L fix (k1_off62 t1) (k1_off62_inb t1)) (ldv1 d L fix (k1_off63 t1) (k1_off63_inb t1)) (ldv1 d L fix (k1_off64 t1) (k1_off64_inb t1)) (ldv1 d L fix (k1_off65 t1) (k1_off65_inb t1)) (ldv1 d L fix (k1_off66 t1) (k1_off66_inb t1)) (ldv1 d L fix (k1_off67 t1) (k1_off67_inb t1)) (ldv1 d L fix (k1_off68 t1) (k1_off68_inb t1)) (ldv1 d L fix (k1_off69 t1) (k1_off69_inb t1)) hU t2) $$ [Hslab Hout Hcep]
    · isplitl [Hslab]
      · iexact Hslab
      isplitl [Hout]
      · iexact Hout
      · iexact Hcep
    iapply (wp_wand frame _ _) $$ Hwp
    iintro %_ ⟨Hslab, Hout, Hcep⟩
    isplitl [Hslab]
    · iexact Hslab
    isplitl [Hcep]
    · iexact Hcep
    iexists _
    isplitl [Hout]
    · iexact Hout
    ipureintro
    exact tripPiecesL_done negInf1 fsl fix hfix f3 t1.val t2.val ht k1_pay623 (fun _ => rfl) (slabRd1 d L fsl) (slabRd1_apply d L fsl) _ hU (U2_loaded d L fix t1)
      (k1_off70 t1 t2) (k1_off70_inb t1 t2) (k1_off70_eq t1 t2) (Scf.iv 0#32 1#32 t2.val) (iv4_lt1 _ ht2) (iv4_val1 _ ht2) f2' hD2
  · unfold invI
    isplitl [Hslab]
    · iexact Hslab
    isplitl [Hcep]
    · iexact Hcep
    iexists f2
    isplitl [Hout]
    · iexact Hout
    ipureintro
    exact done2_of_done1 hD
  iintro %_ HI
  unfold invI
  icases HI with ⟨Hslab, Hcep, %f2'', Hout, %hD4⟩
  sl_exec
  sl_step
  isplitl [Hslab]
  · iexact Hslab
  isplitl [Hidxb]
  · iexact Hidxb
  isplitl [Hcep]
  · iexact Hcep
  iexists f2''
  isplitl [Hout]
  · iexact Hout
  ipureintro
  exact done1_of_done2 hD4

end Tile

end Cert.Proof.KI.T1

end
-- ==== Proof.KITile1C3.lean ====
/-
  One tile of the first SparseCore call, chunk 3 of the points: a trip of the inner loop stores the four rows of its block
  (the epilogue of the running maxima over the 20 gathered neighbour rows), and a trip of the outer loop, the block's 20
  neighbour vectors loaded, fills the block by the inner loop's four trips.
-/
import proofs.«209975_g17849884082380_cont_8to1_1483_11_alg».proof.Proof.KITile1Defs
import proofs.«209975_g17849884082380_cont_8to1_1483_11_alg».proof.Proof.KITile1Val
import proofs.«209975_g17849884082380_cont_8to1_1483_11_alg».proof.Proof.KITile1Trip
import proofs.«209975_g17849884082380_cont_8to1_1483_11_alg».proof.Proof.KITile2Val
import proofs.«209975_g17849884082380_cont_8to1_1483_11_alg».proof.Proof.KITile1Inv
import Idealize.ShloMosaic.Lib.Writes
import Idealize.ShloMosaic.Lib.ValueLayout

noncomputable section

namespace Cert.Proof.KI.T1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)
local notation "slabW" => (Memref.whole Cert.KernelIdeal.cc1_scratch0 : Memref Cert.KernelIdeal.sig Kind.scVector Space.vmem Cert.KernelIdeal.S65536 EltTy.f32)
local notation "idxbW" => (Memref.whole Cert.KernelIdeal.cc1_scratch1 : Memref Cert.KernelIdeal.sig Kind.scVector Space.vmem Cert.KernelIdeal.S20x1024 EltTy.i32)
local notation "outbW" => (Memref.whole Cert.KernelIdeal.cc1_scratch2 : Memref Cert.KernelIdeal.sig Kind.scVector Space.vmem Cert.KernelIdeal.S16x1024 EltTy.f32)
local notation "cepbW" => (Memref.whole Cert.KernelIdeal.cc1_scratch3 : Memref Cert.KernelIdeal.sig Kind.scVector Space.vmem Cert.KernelIdeal.S16x1024 EltTy.f32)

section Tile

variable (d : Dev nD) (L : grid1.Coords)

variable [FloatOps F]

/-- The 20 neighbour vectors of a trip of this chunk, in order. -/
abbrev U3 (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32) : Fin 20 → IVec S16 32 :=
  ![v46, v49, v52, v55, v58, v61, v64, v67, v70, v73, v76, k1_pay1 v79_ld, k1_pay2 v82_ld, k1_pay3 v85_ld, k1_pay4 v88_ld, k1_pay5 v91_ld, k1_pay6 v94_ld, k1_pay7 v97_ld, k1_pay8 v100_ld, k1_pay9 v103_ld]

attribute [local sl_canon] vli_bind1 in
set_option maxHeartbeats 16000000 in
/-- A trip of the inner loop: from the slab, the output scratch and the centre scratch, the same with the trip's four rows
    stored. -/
theorem innerV3 (fsl : Buf (Elt F) ((V d (cV L) (jV L)).loc cc1_scratch0)) (f2 : Buf (Elt F) ((V d (cV L) (jV L)).loc cc1_scratch2))
    (f3 : Buf (Elt F) ((V d (cV L) (jV L)).loc cc1_scratch3))
    (v30 : FVec F S16 .f32) (k1_t7 : Fin k1_t7_loop.trips) (v43 : BitVec 32)
    (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32)
    (hU : ∀ k x, ((U3 (F := F) v46 v49 v52 v55 v58 v61 v64 v67 v70 v73 v76 v79_ld v82_ld v85_ld v88_ld v91_ld v94_ld v97_ld v100_ld v103_ld) k x).toNat < 4096)
    (k1_t8 : Fin k1_t8_loop.trips) :
    (iprop(((slabW).view.loc (V d (cV L) (jV L)) ↦{fullShare} fsl) ∗ ((outbW).view.loc (V d (cV L) (jV L)) ↦{fullShare} f2)
        ∗ ((cepbW).view.loc (V d (cV L) (jV L)) ↦{fullShare} f3)) : sProp 𝕄)
      ⊢ wp frame (wpE (defs₀ (F := F)) 𝒱₀ (V d (cV L) (jV L)) none) Set.univ
          (k1_t8_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v30 k1_t7 v43 v46 v49 v52 v55 v58 v61 v64 v67 v70 v73 v76 v79_ld v82_ld v85_ld v88_ld v91_ld v94_ld v97_ld v100_ld v103_ld k1_t8 ())
          fun _ => iprop(((slabW).view.loc (V d (cV L) (jV L)) ↦{fullShare} fsl) ∗ ((outbW).view.loc (V d (cV L) (jV L)) ↦{fullShare}
            (outbW).view.writes (Elt F) f2 (tripPiecesL v30 (slabRd1 d L fsl) f3 (U3 v46 v49 v52 v55 v58 v61 v64 v67 v70 v73 v76 v79_ld v82_ld v85_ld v88_ld v91_ld v94_ld v97_ld v100_ld v103_ld) hU (k1_off93 k1_t7 k1_t8) (k1_off93_inb k1_t7 k1_t8)
              (Scf.iv 0#32 1#32 k1_t8.val) (iv4_lt1 k1_t8.val k1_t8.isLt)))
            ∗ ((cepbW).view.loc (V d (cV L) (jV L)) ↦{fullShare} f3)) := by
  have hg : (Scf.iv 0#32 1#32 k1_t8.val).toNat < 4 := iv4_lt1 k1_t8.val k1_t8.isLt
  have h46 : ∀ x, (v46 x).toNat < 4096 := hU 0
  have h49 : ∀ x, (v49 x).toNat < 4096 := hU 1
  have h52 : ∀ x, (v52 x).toNat < 4096 := hU 2
  have h55 : ∀ x, (v55 x).toNat < 4096 := hU 3
  have h58 : ∀ x, (v58 x).toNat < 4096 := hU 4
  have h61 : ∀ x, (v61 x).toNat < 4096 := hU 5
  have h64 : ∀ x, (v64 x).toNat < 4096 := hU 6
  have h67 : ∀ x, (v67 x).toNat < 4096 := hU 7
  have h70 : ∀ x, (v70 x).toNat < 4096 := hU 8
  have h73 : ∀ x, (v73 x).toNat < 4096 := hU 9
  have h76 : ∀ x, (v76 x).toNat < 4096 := hU 10
  have h79 : ∀ x, (k1_pay1 (F := F) v79_ld x).toNat < 4096 := hU 11
  have h82 : ∀ x, (k1_pay2 (F := F) v82_ld x).toNat < 4096 := hU 12
  have h85 : ∀ x, (k1_pay3 (F := F) v85_ld x).toNat < 4096 := hU 13
  have h88 : ∀ x, (k1_pay4 (F := F) v88_ld x).toNat < 4096 := hU 14
  have h91 : ∀ x, (k1_pay5 (F := F) v91_ld x).toNat < 4096 := hU 15
  have h94 : ∀ x, (k1_pay6 (F := F) v94_ld x).toNat < 4096 := hU 16
  have h97 : ∀ x, (k1_pay7 (F := F) v97_ld x).toNat < 4096 := hU 17
  have h100 : ∀ x, (k1_pay8 (F := F) v100_ld x).toNat < 4096 := hU 18
  have h103 : ∀ x, (k1_pay9 (F := F) v103_ld x).toNat < 4096 := hU 19
  unfold k1_t8_body tripPiecesL
  iintro ⟨Hslab, Hout, Hcep⟩
  sl_exec (disch := exact chk_idxOff (by assumption) hg (by decide))
  sl_step
  isplitl [Hslab]
  · iexact Hslab
  isplitl [Hout]
  · iexact Hout
  · iexact Hcep

/-- The 20 neighbour vectors block `t1` loads are the 20 rows of the index scratch at the block's sixteen columns. -/
theorem U3_loaded (fix : Buf (Elt F) ((V d (cV L) (jV L)).loc cc1_scratch1)) (t1 : Fin k1_t7_loop.trips) (k : Fin 20) (x : S16.Idx) :
    U3 (F := F) (k1_pay612 (ldv1 d L fix (k1_off73 t1) (k1_off73_inb t1))) (k1_pay613 (ldv1 d L fix (k1_off74 t1) (k1_off74_inb t1))) (k1_pay614 (ldv1 d L fix (k1_off75 t1) (k1_off75_inb t1))) (k1_pay615 (ldv1 d L fix (k1_off76 t1) (k1_off76_inb t1))) (k1_pay616 (ldv1 d L fix (k1_off77 t1) (k1_off77_inb t1))) (k1_pay617 (ldv1 d L fix (k1_off78 t1) (k1_off78_inb t1))) (k1_pay618 (ldv1 d L fix (k1_off79 t1) (k1_off79_inb t1))) (k1_pay619 (ldv1 d L fix (k1_off80 t1) (k1_off80_inb t1))) (k1_pay620 (ldv1 d L fix (k1_off81 t1) (k1_off81_inb t1))) (k1_pay621 (ldv1 d L fix (k1_off82 t1) (k1_off82_inb t1))) (k1_pay622 (ldv1 d L fix (k1_off83 t1) (k1_off83_inb t1))) (ldv1 d L fix (k1_off84 t1) (k1_off84_inb t1)) (ldv1 d L fix (k1_off85 t1) (k1_off85_inb t1)) (ldv1 d L fix (k1_off86 t1) (k1_off86_inb t1)) (ldv1 d L fix (k1_off87 t1) (k1_off87_inb t1)) (ldv1 d L fix (k1_off88 t1) (k1_off88_inb t1)) (ldv1 d L fix (k1_off89 t1) (k1_off89_inb t1)) (ldv1 d L fix (k1_off90 t1) (k1_off90_inb t1)) (ldv1 d L fix (k1_off91 t1) (k1_off91_inb t1)) (ldv1 d L fix (k1_off92 t1) (k1_off92_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq1 d L fix _ ⟨0, by omega⟩ t1.val ht (k1_off73_eq t1) _ x
  | ⟨1, _⟩ => exact idxvec_eq1 d L fix _ ⟨1, by omega⟩ t1.val ht (k1_off74_eq t1) _ x
  | ⟨2, _⟩ => exact idxvec_eq1 d L fix _ ⟨2, by omega⟩ t1.val ht (k1_off75_eq t1) _ x
  | ⟨3, _⟩ => exact idxvec_eq1 d L fix _ ⟨3, by omega⟩ t1.val ht (k1_off76_eq t1) _ x
  | ⟨4, _⟩ => exact idxvec_eq1 d L fix _ ⟨4, by omega⟩ t1.val ht (k1_off77_eq t1) _ x
  | ⟨5, _⟩ => exact idxvec_eq1 d L fix _ ⟨5, by omega⟩ t1.val ht (k1_off78_eq t1) _ x
  | ⟨6, _⟩ => exact idxvec_eq1 d L fix _ ⟨6, by omega⟩ t1.val ht (k1_off79_eq t1) _ x
  | ⟨7, _⟩ => exact idxvec_eq1 d L fix _ ⟨7, by omega⟩ t1.val ht (k1_off80_eq t1) _ x
  | ⟨8, _⟩ => exact idxvec_eq1 d L fix _ ⟨8, by omega⟩ t1.val ht (k1_off81_eq t1) _ x
  | ⟨9, _⟩ => exact idxvec_eq1 d L fix _ ⟨9, by omega⟩ t1.val ht (k1_off82_eq t1) _ x
  | ⟨10, _⟩ => exact idxvec_eq1 d L fix _ ⟨10, by omega⟩ t1.val ht (k1_off83_eq t1) _ x
  | ⟨11, _⟩ => exact idxvec_eq1 d L fix _ ⟨11, by omega⟩ t1.val ht (k1_off84_eq t1) _ x
  | ⟨12, _⟩ => exact idxvec_eq1 d L fix _ ⟨12, by omega⟩ t1.val ht (k1_off85_eq t1) _ x
  | ⟨13, _⟩ => exact idxvec_eq1 d L fix _ ⟨13, by omega⟩ t1.val ht (k1_off86_eq t1) _ x
  | ⟨14, _⟩ => exact idxvec_eq1 d L fix _ ⟨14, by omega⟩ t1.val ht (k1_off87_eq t1) _ x
  | ⟨15, _⟩ => exact idxvec_eq1 d L fix _ ⟨15, by omega⟩ t1.val ht (k1_off88_eq t1) _ x
  | ⟨16, _⟩ => exact idxvec_eq1 d L fix _ ⟨16, by omega⟩ t1.val ht (k1_off89_eq t1) _ x
  | ⟨17, _⟩ => exact idxvec_eq1 d L fix _ ⟨17, by omega⟩ t1.val ht (k1_off90_eq t1) _ x
  | ⟨18, _⟩ => exact idxvec_eq1 d L fix _ ⟨18, by omega⟩ t1.val ht (k1_off91_eq t1) _ x
  | ⟨19, _⟩ => exact idxvec_eq1 d L fix _ ⟨19, by omega⟩ t1.val ht (k1_off92_eq t1) _ x
  | ⟨n + 20, h⟩ => exact absurd h (by omega)

set_option maxHeartbeats 8000000 in
/-- A trip of the outer loop: the block's 20 neighbour vectors loaded, then the inner loop's four trips fill the block. -/
theorem outerV3 (fsl : Buf (Elt F) ((V d (cV L) (jV L)).loc cc1_scratch0)) (fix : Buf (Elt F) ((V d (cV L) (jV L)).loc cc1_scratch1))
    (f3 : Buf (Elt F) ((V d (cV L) (jV L)).loc cc1_scratch3))
    (hfix : ∀ y, (fix y).toNat < 4096) (t1 : Fin k1_t7_loop.trips) (acc : Unit) :
    invO d L fsl fix f3 (GoutL negInf1 fsl fix f3) t1.val acc
      ⊢ wp frame (wpE (defs₀ (F := F)) 𝒱₀ (V d (cV L) (jV L)) none) Set.univ
          (k1_t7_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 k1_pay623 t1 acc)
          (invO d L fsl fix f3 (GoutL negInf1 fsl fix f3) (t1.val + 1)) := by
  have ht : t1.val < 64 := t1.isLt
  have hU : ∀ k x, ((U3 (F := F) (k1_pay612 (ldv1 d L fix (k1_off73 t1) (k1_off73_inb t1))) (k1_pay613 (ldv1 d L fix (k1_off74 t1) (k1_off74_inb t1))) (k1_pay614 (ldv1 d L fix (k1_off75 t1) (k1_off75_inb t1))) (k1_pay615 (ldv1 d L fix (k1_off76 t1) (k1_off76_inb t1))) (k1_pay616 (ldv1 d L fix (k1_off77 t1) (k1_off77_inb t1))) (k1_pay617 (ldv1 d L fix (k1_off78 t1) (k1_off78_inb t1))) (k1_pay618 (ldv1 d L fix (k1_off79 t1) (k1_off79_inb t1))) (k1_pay619 (ldv1 d L fix (k1_off80 t1) (k1_off80_inb t1))) (k1_pay620 (ldv1 d L fix (k1_off81 t1) (k1_off81_inb t1))) (k1_pay621 (ldv1 d L fix (k1_off82 t1) (k1_off82_inb t1))) (k1_pay622 (ldv1 d L fix (k1_off83 t1) (k1_off83_inb t1))) (ldv1 d L fix (k1_off84 t1) (k1_off84_inb t1)) (ldv1 d L fix (k1_off85 t1) (k1_off85_inb t1)) (ldv1 d L fix (k1_off86 t1) (k1_off86_inb t1)) (ldv1 d L fix (k1_off87 t1) (k1_off87_inb t1)) (ldv1 d L fix (k1_off88 t1) (k1_off88_inb t1)) (ldv1 d L fix (k1_off89 t1) (k1_off89_inb t1)) (ldv1 d L fix (k1_off90 t1) (k1_off90_inb t1)) (ldv1 d L fix (k1_off91 t1) (k1_off91_inb t1)) (ldv1 d L fix (k1_off92 t1) (k1_off92_inb t1))) k x).toNat < 4096 :=
    fun k x => (congrArg BitVec.toNat (U3_loaded d L fix t1 k x)).trans_lt (hfix _)
  unfold invO
  iintro ⟨Hslab, Hidxb, Hcep, %f2, Hout, %hD⟩
  unfold k1_t7_body
  sl_exec
  sl_for (invI d L fsl f3 (GoutL negInf1 fsl fix f3) t1.val) $$ [Hslab Hout Hcep]
  case region =>
    intro t2 acc2
    have ht2 : t2.val < 4 := t2.isLt
    unfold invI
    iintro ⟨Hslab, Hcep, %f2', Hout, %hD2⟩
    ihave Hwp := (innerV3 (F := F) d L fsl f2' f3 k1_pay623 t1 (Scalar.muli (Scf.iv 0#32 1#32 t1.val) 16#32) (k1_pay612 (ldv1 d L fix (k1_off73 t1) (k1_off73_inb t1))) (k1_pay613 (ldv1 d L fix (k1_off74 t1) (k1_off74_inb t1))) (k1_pay614 (ldv1 d L fix (k1_off75 t1) (k1_off75_inb t1))) (k1_pay615 (ldv1 d L fix (k1_off76 t1) (k1_off76_inb t1))) (k1_pay616 (ldv1 d L fix (k1_off77 t1) (k1_off77_inb t1))) (k1_pay617 (ldv1 d L fix (k1_off78 t1) (k1_off78_inb t1))) (k1_pay618 (ldv1 d L fix (k1_off79 t1) (k1_off79_inb t1))) (k1_pay619 (ldv1 d L fix (k1_off80 t1) (k1_off80_inb t1))) (k1_pay620 (ldv1 d L fix (k1_off81 t1) (k1_off81_inb t1))) (k1_pay621 (ldv1 d L fix (k1_off82 t1) (k1_off82_inb t1))) (k1_pay622 (ldv1 d L fix (k1_off83 t1) (k1_off83_inb t1))) (ldv1 d L fix (k1_off84 t1) (k1_off84_inb t1)) (ldv1 d L fix (k1_off85 t1) (k1_off85_inb t1)) (ldv1 d L fix (k1_off86 t1) (k1_off86_inb t1)) (ldv1 d L fix (k1_off87 t1) (k1_off87_inb t1)) (ldv1 d L fix (k1_off88 t1) (k1_off88_inb t1)) (ldv1 d L fix (k1_off89 t1) (k1_off89_inb t1)) (ldv1 d L fix (k1_off90 t1) (k1_off90_inb t1)) (ldv1 d L fix (k1_off91 t1) (k1_off91_inb t1)) (ldv1 d L fix (k1_off92 t1) (k1_off92_inb t1)) hU t2) $$ [Hslab Hout Hcep]
    · isplitl [Hslab]
      · iexact Hslab
      isplitl [Hout]
      · iexact Hout
      · iexact Hcep
    iapply (wp_wand frame _ _) $$ Hwp
    iintro %_ ⟨Hslab, Hout, Hcep⟩
    isplitl [Hslab]
    · iexact Hslab
    isplitl [Hcep]
    · iexact Hcep
    iexists _
    isplitl [Hout]
    · iexact Hout
    ipureintro
    exact tripPiecesL_done negInf1 fsl fix hfix f3 t1.val t2.val ht k1_pay623 (fun _ => rfl) (slabRd1 d L fsl) (slabRd1_apply d L fsl) _ hU (U3_loaded d L fix t1)
      (k1_off93 t1 t2) (k1_off93_inb t1 t2) (k1_off93_eq t1 t2) (Scf.iv 0#32 1#32 t2.val) (iv4_lt1 _ ht2) (iv4_val1 _ ht2) f2' hD2
  · unfold invI
    isplitl [Hslab]
    · iexact Hslab
    isplitl [Hcep]
    · iexact Hcep
    iexists f2
    isplitl [Hout]
    · iexact Hout
    ipureintro
    exact done2_of_done1 hD
  iintro %_ HI
  unfold invI
  icases HI with ⟨Hslab, Hcep, %f2'', Hout, %hD4⟩
  sl_exec
  sl_step
  isplitl [Hslab]
  · iexact Hslab
  isplitl [Hidxb]
  · iexact Hidxb
  isplitl [Hcep]
  · iexact Hcep
  iexists f2''
  isplitl [Hout]
  · iexact Hout
  ipureintro
  exact done1_of_done2 hD4

end Tile

end Cert.Proof.KI.T1

end
-- ==== Proof.KITile1.lean ====
/-
  One tile of the first SparseCore call (the gather-and-max with the added centre term and the rectifier): its body's
  weakest precondition at a symbolic tile, from the resources the call deals it to the same back with its four output
  pieces at the pooled and rectified array. The slab holds the tile's sixteen channels of its cloud's source; per quarter
  of the points the index scratch holds the cloud's neighbour lists and the centre scratch the centre term's piece; the
  two loops fill the output scratch block by block, and its copy onto the tile's piece of the output leaves the array
  there.
-/
import proofs.«209975_g17849884082380_cont_8to1_1483_11_alg».proof.Proof.KITile1Defs
import proofs.«209975_g17849884082380_cont_8to1_1483_11_alg».proof.Proof.KIOff1
import proofs.«209975_g17849884082380_cont_8to1_1483_11_alg».proof.Proof.KITile1Val
import proofs.«209975_g17849884082380_cont_8to1_1483_11_alg».proof.Proof.KITile1Trip
import proofs.«209975_g17849884082380_cont_8to1_1483_11_alg».proof.Proof.KITile1Final
import proofs.«209975_g17849884082380_cont_8to1_1483_11_alg».proof.Proof.KITile2Val
import proofs.«209975_g17849884082380_cont_8to1_1483_11_alg».proof.Proof.KITile1Inv
import proofs.«209975_g17849884082380_cont_8to1_1483_11_alg».proof.Proof.KITile1C0
import proofs.«209975_g17849884082380_cont_8to1_1483_11_alg».proof.Proof.KITile1C1
import proofs.«209975_g17849884082380_cont_8to1_1483_11_alg».proof.Proof.KITile1C2
import proofs.«209975_g17849884082380_cont_8to1_1483_11_alg».proof.Proof.KITile1C3
import Idealize.ShloMosaic.Lib.Writes
import Idealize.ShloMosaic.Lib.ValueLayout

noncomputable section

namespace Cert.Proof.KI.T1

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v4_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "cepW" => (Memref.whole Cert.KernelIdeal.main_v3_1_scv : Memref Cert.KernelIdeal.sig Kind.scVector Space.hbm Cert.KernelIdeal.S8x64x4096 EltTy.f32)
local notation "outW" => (Memref.whole Cert.KernelIdeal.main_v5_scv : Memref Cert.KernelIdeal.sig Kind.scVector Space.hbm Cert.KernelIdeal.S8x64x4096 EltTy.f32)
local notation "slabW" => (Memref.whole Cert.KernelIdeal.cc1_scratch0 : Memref Cert.KernelIdeal.sig Kind.scVector Space.vmem Cert.KernelIdeal.S65536 EltTy.f32)
local notation "idxbW" => (Memref.whole Cert.KernelIdeal.cc1_scratch1 : Memref Cert.KernelIdeal.sig Kind.scVector Space.vmem Cert.KernelIdeal.S20x1024 EltTy.i32)
local notation "outbW" => (Memref.whole Cert.KernelIdeal.cc1_scratch2 : Memref Cert.KernelIdeal.sig Kind.scVector Space.vmem Cert.KernelIdeal.S16x1024 EltTy.f32)
local notation "cepbW" => (Memref.whole Cert.KernelIdeal.cc1_scratch3 : Memref Cert.KernelIdeal.sig Kind.scVector Space.vmem Cert.KernelIdeal.S16x1024 EltTy.f32)

section Tile

variable (d : Dev nD) (L : grid1.Coords)

variable [FloatOps F]

namespace Res

/-! ## The tile's own scratch buffers and semaphores among its thread's -/

def myRefs (L : grid1.Coords) : Finset (DevRef τ sig) :=
  {(Proc.scVector (cV L) (jV L)).devRef cc1_scratch0, (Proc.scVector (cV L) (jV L)).devRef cc1_scratch1,
    (Proc.scVector (cV L) (jV L)).devRef cc1_scratch2, (Proc.scVector (cV L) (jV L)).devRef cc1_scratch3}

omit [FloatOps F] in
theorem myRefs_sub : myRefs L ⊆ ownRefs (τ := τ) (.scVector (cV L) (jV L)) := by
  intro b hb
  simp only [myRefs, Finset.mem_insert, Finset.mem_singleton] at hb
  rcases hb with rfl | rfl | rfl | rfl <;> exact SparseCore.Cfg.mem_ownRefs_of_owner (p := Proc.scVector (cV L) (jV L)) rfl

omit [FloatOps F] in
theorem myRefs_sep :
    (bigSep (myRefs L) fun b => iprop(∃ f, ((d, b) : Loc nD τ sig) ↦{fullShare} f) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)) := by
  unfold myRefs
  have hne : ∀ {a b : Ref sig .scVector}, a ≠ b → (Proc.scVector (cV L) (jV L)).devRef a ≠ (Proc.scVector (cV L) (jV L)).devRef b :=
    fun h e => h (Proc.devRef_injective _ e)
  rw [SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

omit [FloatOps F] in
theorem ownBufs_V1 :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f))
          ∗ bigSep ((ownRefs (τ := τ) (.scVector (cV L) (jV L))) \ myRefs L) fun b => iprop(∃ f, ((d, b) : Loc nD τ sig) ↦{fullShare} f)) := by
  unfold SparseCore.Cfg.ownBufs
  rw [SparseCore.bigSep_sdiff_split' (myRefs_sub L), myRefs_sep]

abbrev mc (d : Dev nD) (L : grid1.Coords) (s : DmaSems sig S_) : GSem nD τ sig := ((V d (cV L) (jV L)), .dma s.sem)

def myCells (d : Dev nD) (L : grid1.Coords) : Finset (GSem nD τ sig) :=
  {mc d L cc1_scoped0, mc d L cc1_scoped1, mc d L cc1_scoped2, mc d L cc1_scoped3, mc d L cc1_scoped4, mc d L cc1_scoped5, mc d L cc1_scoped6, mc d L cc1_scoped7, mc d L cc1_scoped8, mc d L cc1_scoped9, mc d L cc1_scoped10, mc d L cc1_scoped11, mc d L cc1_scoped12}

omit [FloatOps F] in
theorem mc_mem (s : DmaSems sig S_) (h : (SemLoc.dma s.sem : SemLoc sig).isScoped .scVector = true) : mc d L s ∈ ownCells (V d (cV L) (jV L)) :=
  mem_ownCells.mpr ⟨rfl, h⟩

omit [FloatOps F] in
theorem myCells_sub : myCells d L ⊆ ownCells (V d (cV L) (jV L)) := by
  intro g hg
  simp only [myCells, Finset.mem_insert, Finset.mem_singleton] at hg
  rcases hg with rfl | rfl | rfl | rfl | rfl | rfl | rfl | rfl | rfl | rfl | rfl | rfl | rfl <;> exact mc_mem d L _ (by decide)

omit [FloatOps F] in
theorem myCells_sep :
    (bigSep (myCells d L) fun g => semVal g 0 : sProp 𝕄)
      = iprop(semVal (mc d L cc1_scoped0) 0 ∗ semVal (mc d L cc1_scoped1) 0 ∗ semVal (mc d L cc1_scoped2) 0 ∗ semVal (mc d L cc1_scoped3) 0 ∗ semVal (mc d L cc1_scoped4) 0 ∗ semVal (mc d L cc1_scoped5) 0 ∗ semVal (mc d L cc1_scoped6) 0 ∗ semVal (mc d L cc1_scoped7) 0 ∗ semVal (mc d L cc1_scoped8) 0 ∗ semVal (mc d L cc1_scoped9) 0 ∗ semVal (mc d L cc1_scoped10) 0 ∗ semVal (mc d L cc1_scoped11) 0 ∗ semVal (mc d L cc1_scoped12) 0) := by
  unfold myCells
  have hne : ∀ {a b : DmaSems sig S_}, a.sem ≠ b.sem → mc d L a ≠ mc d L b := fun h e => h (by simpa [mc] using e)
  rw [SparseCore.bigSep_insert' (by simp only [Finset.mem_insert, Finset.mem_singleton, not_or]; refine ⟨?_, ?_, ?_, ?_, ?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_⟩ <;> exact hne (by decide)),
    SparseCore.bigSep_insert' (by simp only [Finset.mem_insert, Finset.mem_singleton, not_or]; refine ⟨?_, ?_, ?_, ?_, ?_, ?_⟩ <;> exact hne (by decide)),
    SparseCore.bigSep_insert' (by simp only [Finset.mem_insert, Finset.mem_singleton, not_or]; refine ⟨?_, ?_, ?_, ?_, ?_⟩ <;> exact hne (by decide)),
    SparseCore.bigSep_insert' (by simp only [Finset.mem_insert, Finset.mem_singleton, not_or]; refine ⟨?_, ?_, ?_, ?_⟩ <;> exact hne (by decide)),
    SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

omit [FloatOps F] in
theorem ownSems0_V1 :
    (ownSems0 (V d (cV L) (jV L)) : sProp 𝕄)
      = iprop((semVal (mc d L cc1_scoped0) 0 ∗ semVal (mc d L cc1_scoped1) 0 ∗ semVal (mc d L cc1_scoped2) 0 ∗ semVal (mc d L cc1_scoped3) 0 ∗ semVal (mc d L cc1_scoped4) 0 ∗ semVal (mc d L cc1_scoped5) 0 ∗ semVal (mc d L cc1_scoped6) 0 ∗ semVal (mc d L cc1_scoped7) 0 ∗ semVal (mc d L cc1_scoped8) 0 ∗ semVal (mc d L cc1_scoped9) 0 ∗ semVal (mc d L cc1_scoped10) 0 ∗ semVal (mc d L cc1_scoped11) 0 ∗ semVal (mc d L cc1_scoped12) 0)
          ∗ bigSep (ownCells (V d (cV L) (jV L)) \ myCells d L) fun g => semVal g 0) := by
  unfold SparseCore.Cfg.ownSems0
  rw [SparseCore.bigSep_sdiff_split' (myCells_sub d L), myCells_sep]

/-! ## The arrays as the tile's memrefs address them -/

omit [FloatOps F] in
theorem pts_src (q : PosShare TreeShare) (f : Buf (Elt F) (srcLoc d)) :
    ((srcW).view.loc (V d (cV L) (jV L)) ↦{q} f : sProp 𝕄) = srcLoc d ↦{q} f := by
  simp only [Memref.view_whole, View.set_whole]
omit [FloatOps F] in
theorem pts_idx (q : PosShare TreeShare) (f : Buf (Elt F) (idxLoc d)) :
    ((idxW).view.loc (V d (cV L) (jV L)) ↦{q} f : sProp 𝕄) = idxLoc d ↦{q} f := by
  simp only [Memref.view_whole, View.set_whole]
omit [FloatOps F] in
theorem pts_cep (q : PosShare TreeShare) (f : Buf (Elt F) (cepLoc d)) :
    ((cepW).view.loc (V d (cV L) (jV L)) ↦{q} f : sProp 𝕄) = cepLoc d ↦{q} f := by
  simp only [Memref.view_whole, View.set_whole]
omit [FloatOps F] in
theorem pts_o0 (f : Buf (Elt F) (outLoc d)) :
    ((oP0 L).view.loc (V d (cV L) (jV L)) ↦[(oP0 L).view.set]{fullShare} f : sProp 𝕄) = outLoc d ↦[oSet0 L]{fullShare} f := rfl
omit [FloatOps F] in
theorem pts_o1 (f : Buf (Elt F) (outLoc d)) :
    ((oP1 L).view.loc (V d (cV L) (jV L)) ↦[(oP1 L).view.set]{fullShare} f : sProp 𝕄) = outLoc d ↦[oSet1 L]{fullShare} f := rfl
omit [FloatOps F] in
theorem pts_o2 (f : Buf (Elt F) (outLoc d)) :
    ((oP2 L).view.loc (V d (cV L) (jV L)) ↦[(oP2 L).view.set]{fullShare} f : sProp 𝕄) = outLoc d ↦[oSet2 L]{fullShare} f := rfl
omit [FloatOps F] in
theorem pts_o3 (f : Buf (Elt F) (outLoc d)) :
    ((oP3 L).view.loc (V d (cV L) (jV L)) ↦[(oP3 L).view.set]{fullShare} f : sProp 𝕄) = outLoc d ↦[oSet3 L]{fullShare} f := rfl
omit [FloatOps F] in
theorem pts_slab (f : Buf (Elt F) ((V d (cV L) (jV L)).loc cc1_scratch0)) :
    ((slabW).view.loc (V d (cV L) (jV L)) ↦{fullShare} f : sProp 𝕄) = (V d (cV L) (jV L)).loc cc1_scratch0 ↦{fullShare} f := rfl
omit [FloatOps F] in
theorem pts_idxb (f : Buf (Elt F) ((V d (cV L) (jV L)).loc cc1_scratch1)) :
    ((idxbW).view.loc (V d (cV L) (jV L)) ↦{fullShare} f : sProp 𝕄) = (V d (cV L) (jV L)).loc cc1_scratch1 ↦{fullShare} f := rfl
omit [FloatOps F] in
theorem pts_outb (f : Buf (Elt F) ((V d (cV L) (jV L)).loc cc1_scratch2)) :
    ((outbW).view.loc (V d (cV L) (jV L)) ↦{fullShare} f : sProp 𝕄) = (V d (cV L) (jV L)).loc cc1_scratch2 ↦{fullShare} f := rfl
omit [FloatOps F] in
theorem pts_cepb (f : Buf (Elt F) ((V d (cV L) (jV L)).loc cc1_scratch3)) :
    ((cepbW).view.loc (V d (cV L) (jV L)) ↦{fullShare} f : sProp 𝕄) = (V d (cV L) (jV L)).loc cc1_scratch3 ↦{fullShare} f := rfl

end Res

open Res

/-! ## What the scratches hold after the copies -/

/-- The slab after its copy: the tile's slice of the source. -/
abbrev slabC (fs : Buf (Elt F) (srcLoc d)) : Buf (Elt F) ((V d (cV L) (jV L)).loc cc1_scratch0) := (srcPo L).view.read (Elt F) fs
/-- The index scratch and the centre scratch after chunk 0's copies. -/
abbrev idxC0 (fi : Buf (Elt F) (idxLoc d)) : Buf (Elt F) ((V d (cV L) (jV L)).loc cc1_scratch1) := (idxPo (k1_off2 L) (k1_off2_inb L)).view.read (Elt F) fi
abbrev cepC0 (fc : Buf (Elt F) (cepLoc d)) : Buf (Elt F) ((V d (cV L) (jV L)).loc cc1_scratch3) := (cepPo (k1_off3 L) (k1_off3_inb L)).view.read (Elt F) fc
/-- The index scratch and the centre scratch after chunk 1's copies. -/
abbrev idxC1 (fi : Buf (Elt F) (idxLoc d)) : Buf (Elt F) ((V d (cV L) (jV L)).loc cc1_scratch1) := (idxPo (k1_off25 L) (k1_off25_inb L)).view.read (Elt F) fi
abbrev cepC1 (fc : Buf (Elt F) (cepLoc d)) : Buf (Elt F) ((V d (cV L) (jV L)).loc cc1_scratch3) := (cepPo (k1_off26 L) (k1_off26_inb L)).view.read (Elt F) fc
/-- The index scratch and the centre scratch after chunk 2's copies. -/
abbrev idxC2 (fi : Buf (Elt F) (idxLoc d)) : Buf (Elt F) ((V d (cV L) (jV L)).loc cc1_scratch1) := (idxPo (k1_off48 L) (k1_off48_inb L)).view.read (Elt F) fi
abbrev cepC2 (fc : Buf (Elt F) (cepLoc d)) : Buf (Elt F) ((V d (cV L) (jV L)).loc cc1_scratch3) := (cepPo (k1_off49 L) (k1_off49_inb L)).view.read (Elt F) fc
/-- The index scratch and the centre scratch after chunk 3's copies. -/
abbrev idxC3 (fi : Buf (Elt F) (idxLoc d)) : Buf (Elt F) ((V d (cV L) (jV L)).loc cc1_scratch1) := (idxPo (k1_off71 L) (k1_off71_inb L)).view.read (Elt F) fi
abbrev cepC3 (fc : Buf (Elt F) (cepLoc d)) : Buf (Elt F) ((V d (cV L) (jV L)).loc cc1_scratch3) := (cepPo (k1_off72 L) (k1_off72_inb L)).view.read (Elt F) fc

omit [FloatOps F] in
/-- A points-to at equal contents. -/
theorem pts_congr {ℓ : Loc nD τ sig} {q : PosShare TreeShare} {f g : Buf (Elt F) ℓ} (h : f = g) : ((ℓ ↦{q} f : sProp 𝕄)) ⊢ (ℓ ↦{q} g) := by
  subst h; exact .rfl

omit [FloatOps F] in
/-- What the copy of the output scratch carries: the scratch's contents. -/
theorem readAs_whole (G : Buf (Elt F) ((V d (cV L) (jV L)).loc cc1_scratch2)) (y : S16x1024.Idx) :
    ReadAs.same.apply (View.read (Elt F) (outbW).view G) y = G y := rfl

variable (fs : Buf (Elt F) (srcLoc d)) (fi : Buf (Elt F) (idxLoc d)) (fc : Buf (Elt F) (cepLoc d))

set_option maxHeartbeats 16000000 in
/-- The body of one tile of the first SparseCore call: from the three read shares, the four output pieces and the thread's
    own scratch and semaphores, the same back with the output pieces at the pooled and rectified array. -/
theorem tile_body1 (hF : (K (F := F)).Facts) (hidx : ∀ j, (fi j).toNat < 4096)
    (O : CellTallies nD τ sig (HIx 3)) (W : Waits sig (HIx 3)) (hO : ∀ g, O g none = 0) :
    iprop(levAts (K (F := F)).L (K (F := F)).lev ∗ emp ∗ go1 d L fs fi fc
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12)
          fun _ => iprop(td1 d L fs fi fc ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_body_eq_skeleton]; unfold cc1_body_skel
  rw [(K (F := F)).scopedBufs_V hF d (cV L) (jV L), SparseCore.Cfg.scopedSems0_V (Val := Elt F) d (cV L) (jV L), ownSems0_V1, ownBufs_V1]
  unfold go1 td1
  iintro ⟨#Hlv, -, ⟨Hsrc, Hidx, Hcepw, ⟨%fo0, Ho0⟩, ⟨%fo1, Ho1⟩, ⟨%fo2, Ho2⟩, ⟨%fo3, Ho3⟩⟩, ⟨⟨⟨%f0, Hs0⟩, ⟨%f1, Hs1⟩, ⟨%f2, Hs2⟩, ⟨%f3, Hs3⟩⟩, Hbufs⟩,
    ⟨⟨Hm0, Hm1, Hm2, Hm3, Hm4, Hm5, Hm6, Hm7, Hm8, Hm9, Hm10, Hm11, Hm12⟩, Hsems⟩, HO⟩
  ihave Hmw := ((K (F := F)).mayWaits_none (thr := (V d (cV L) (jV L))) hO) $$ Hlv
  ihave Hsrc' := (Entails.of_eq (pts_src (F := F) d L _ _).symm) $$ Hsrc
  ihave Hidx' := (Entails.of_eq (pts_idx (F := F) d L _ _).symm) $$ Hidx
  ihave Hcepw' := (Entails.of_eq (pts_cep (F := F) d L _ _).symm) $$ Hcepw
  ihave Ho0' := (Entails.of_eq (pts_o0 (F := F) d L _).symm) $$ Ho0
  ihave Ho1' := (Entails.of_eq (pts_o1 (F := F) d L _).symm) $$ Ho1
  ihave Ho2' := (Entails.of_eq (pts_o2 (F := F) d L _).symm) $$ Ho2
  ihave Ho3' := (Entails.of_eq (pts_o3 (F := F) d L _).symm) $$ Ho3
  ihave Hs0' := (Entails.of_eq (pts_slab (F := F) d L _).symm) $$ Hs0
  ihave Hs1' := (Entails.of_eq (pts_idxb (F := F) d L _).symm) $$ Hs1
  ihave Hs2' := (Entails.of_eq (pts_outb (F := F) d L _).symm) $$ Hs2
  ihave Hs3' := (Entails.of_eq (pts_cepb (F := F) d L _).symm) $$ Hs3
  sl_exec
  have es : ∀ fold, View.write (Elt F) (slabW).view fold (tile_body1.sl.dma0 d L fs) Finset.univ = slabC (F := F) d L fs := fun fold =>
    (View.write_whole_univ cc1_scratch0 fold _).trans rfl
  ihave Hs0' := (pts_congr (es _)) $$ Hs0'
  -- chunk 0: the scratches hold the tile's slices
  have e0i : ∀ fold, View.write (Elt F) (idxbW).view fold (tile_body1.sl.dma0_1 d L fi) Finset.univ = idxC0 (F := F) d L fi := fun fold =>
    (View.write_whole_univ cc1_scratch1 fold _).trans rfl
  have e0c : ∀ fold, View.write (Elt F) (cepbW).view fold (tile_body1.sl.dma0_2 d L fc) Finset.univ = cepC0 (F := F) d L fc := fun fold =>
    (View.write_whole_univ cc1_scratch3 fold _).trans rfl
  ihave Hs1' := (pts_congr (e0i _)) $$ Hs1'
  ihave Hs3' := (pts_congr (e0c _)) $$ Hs3'
  have hfix0 : ∀ y, (idxC0 (F := F) d L fi y).toNat < 4096 := fun y => hidx _
  sl_for (invO (F := F) d L (slabC (F := F) d L fs) (idxC0 (F := F) d L fi) (cepC0 (F := F) d L fc) (GoutL negInf1 (slabC (F := F) d L fs) (idxC0 (F := F) d L fi) (cepC0 (F := F) d L fc))) $$ [Hs0' Hs1' Hs2' Hs3']
  case region =>
    intro k acc
    exact outerV0 (F := F) d L (slabC (F := F) d L fs) (idxC0 (F := F) d L fi) (cepC0 (F := F) d L fc) hfix0 _ k acc
  · unfold invO
    isplitl [Hs0']
    · iexact Hs0'
    isplitl [Hs1']
    · iexact Hs1'
    isplitl [Hs3']
    · iexact Hs3'
    iexists _
    isplitl [Hs2']
    · iexact Hs2'
    ipureintro
    intro y hy
    exact absurd hy (by omega)
  iintro %_ HI
  unfold invO
  icases HI with ⟨Hs0', Hs1', Hs3', %fo_0, Hs2', %hDone0⟩
  obtain rfl : fo_0 = (GoutL negInf1 (slabC (F := F) d L fs) (idxC0 (F := F) d L fi) (cepC0 (F := F) d L fc)) := done1_all hDone0
  sl_exec
  -- chunk 1: the scratches hold the tile's slices
  have e1i : ∀ fold, View.write (Elt F) (idxbW).view fold (tile_body1.sl.dma0_4 d L fi) Finset.univ = idxC1 (F := F) d L fi := fun fold =>
    (View.write_whole_univ cc1_scratch1 fold _).trans rfl
  have e1c : ∀ fold, View.write (Elt F) (cepbW).view fold (tile_body1.sl.dma0_5 d L fc) Finset.univ = cepC1 (F := F) d L fc := fun fold =>
    (View.write_whole_univ cc1_scratch3 fold _).trans rfl
  ihave Hs1' := (pts_congr (e1i _)) $$ Hs1'
  ihave Hs3' := (pts_congr (e1c _)) $$ Hs3'
  have hfix1 : ∀ y, (idxC1 (F := F) d L fi y).toNat < 4096 := fun y => hidx _
  sl_for (invO (F := F) d L (slabC (F := F) d L fs) (idxC1 (F := F) d L fi) (cepC1 (F := F) d L fc) (GoutL negInf1 (slabC (F := F) d L fs) (idxC1 (F := F) d L fi) (cepC1 (F := F) d L fc))) $$ [Hs0' Hs1' Hs2' Hs3']
  case region =>
    intro k acc
    exact outerV1 (F := F) d L (slabC (F := F) d L fs) (idxC1 (F := F) d L fi) (cepC1 (F := F) d L fc) hfix1 _ k acc
  · unfold invO
    isplitl [Hs0']
    · iexact Hs0'
    isplitl [Hs1']
    · iexact Hs1'
    isplitl [Hs3']
    · iexact Hs3'
    iexists _
    isplitl [Hs2']
    · iexact Hs2'
    ipureintro
    intro y hy
    exact absurd hy (by omega)
  iintro %_ HI
  unfold invO
  icases HI with ⟨Hs0', Hs1', Hs3', %fo_1, Hs2', %hDone1⟩
  obtain rfl : fo_1 = (GoutL negInf1 (slabC (F := F) d L fs) (idxC1 (F := F) d L fi) (cepC1 (F := F) d L fc)) := done1_all hDone1
  sl_exec
  -- chunk 2: the scratches hold the tile's slices
  have e2i : ∀ fold, View.write (Elt F) (idxbW).view fold (tile_body1.sl.dma0_7 d L fi) Finset.univ = idxC2 (F := F) d L fi := fun fold =>
    (View.write_whole_univ cc1_scratch1 fold _).trans rfl
  have e2c : ∀ fold, View.write (Elt F) (cepbW).view fold (tile_body1.sl.dma0_8 d L fc) Finset.univ = cepC2 (F := F) d L fc := fun fold =>
    (View.write_whole_univ cc1_scratch3 fold _).trans rfl
  ihave Hs1' := (pts_congr (e2i _)) $$ Hs1'
  ihave Hs3' := (pts_congr (e2c _)) $$ Hs3'
  have hfix2 : ∀ y, (idxC2 (F := F) d L fi y).toNat < 4096 := fun y => hidx _
  sl_for (invO (F := F) d L (slabC (F := F) d L fs) (idxC2 (F := F) d L fi) (cepC2 (F := F) d L fc) (GoutL negInf1 (slabC (F := F) d L fs) (idxC2 (F := F) d L fi) (cepC2 (F := F) d L fc))) $$ [Hs0' Hs1' Hs2' Hs3']
  case region =>
    intro k acc
    exact outerV2 (F := F) d L (slabC (F := F) d L fs) (idxC2 (F := F) d L fi) (cepC2 (F := F) d L fc) hfix2 _ k acc
  · unfold invO
    isplitl [Hs0']
    · iexact Hs0'
    isplitl [Hs1']
    · iexact Hs1'
    isplitl [Hs3']
    · iexact Hs3'
    iexists _
    isplitl [Hs2']
    · iexact Hs2'
    ipureintro
    intro y hy
    exact absurd hy (by omega)
  iintro %_ HI
  unfold invO
  icases HI with ⟨Hs0', Hs1', Hs3', %fo_2, Hs2', %hDone2⟩
  obtain rfl : fo_2 = (GoutL negInf1 (slabC (F := F) d L fs) (idxC2 (F := F) d L fi) (cepC2 (F := F) d L fc)) := done1_all hDone2
  sl_exec
  -- chunk 3: the scratches hold the tile's slices
  have e3i : ∀ fold, View.write (Elt F) (idxbW).view fold (tile_body1.sl.dma0_10 d L fi) Finset.univ = idxC3 (F := F) d L fi := fun fold =>
    (View.write_whole_univ cc1_scratch1 fold _).trans rfl
  have e3c : ∀ fold, View.write (Elt F) (cepbW).view fold (tile_body1.sl.dma0_11 d L fc) Finset.univ = cepC3 (F := F) d L fc := fun fold =>
    (View.write_whole_univ cc1_scratch3 fold _).trans rfl
  ihave Hs1' := (pts_congr (e3i _)) $$ Hs1'
  ihave Hs3' := (pts_congr (e3c _)) $$ Hs3'
  have hfix3 : ∀ y, (idxC3 (F := F) d L fi y).toNat < 4096 := fun y => hidx _
  sl_for (invO (F := F) d L (slabC (F := F) d L fs) (idxC3 (F := F) d L fi) (cepC3 (F := F) d L fc) (GoutL negInf1 (slabC (F := F) d L fs) (idxC3 (F := F) d L fi) (cepC3 (F := F) d L fc))) $$ [Hs0' Hs1' Hs2' Hs3']
  case region =>
    intro k acc
    exact outerV3 (F := F) d L (slabC (F := F) d L fs) (idxC3 (F := F) d L fi) (cepC3 (F := F) d L fc) hfix3 k acc
  · unfold invO
    isplitl [Hs0']
    · iexact Hs0'
    isplitl [Hs1']
    · iexact Hs1'
    isplitl [Hs3']
    · iexact Hs3'
    iexists _
    isplitl [Hs2']
    · iexact Hs2'
    ipureintro
    intro y hy
    exact absurd hy (by omega)
  iintro %_ HI
  unfold invO
  icases HI with ⟨Hs0', Hs1', Hs3', %fo_3, Hs2', %hDone3⟩
  obtain rfl : fo_3 = (GoutL negInf1 (slabC (F := F) d L fs) (idxC3 (F := F) d L fi) (cepC3 (F := F) d L fc)) := done1_all hDone3
  sl_exec
  unfold tile_body1.sl.dma0_3 tile_body1.sl.dma0_6 tile_body1.sl.dma0_9 tile_body1.sl.dma0_12
  sl_step
  ihave Ho0' := (Entails.of_eq (pointsTo_congr (piece_final (F := F) L fs fi fc hidx (k1_off2 L) (k1_off2_inb L) (k1_off3 L) (k1_off3_inb L) (k1_off3_inb L)
      ⟨0, by omega⟩ (off2_eq L) (off3_eq L) _ (ReadAs.same.apply (View.read (Elt F) (outbW).view (GoutL negInf1 (slabC (F := F) d L fs) (idxC0 (F := F) d L fi) (cepC0 (F := F) d L fc)))) (fun y => readAs_whole (F := F) d L (GoutL negInf1 (slabC (F := F) d L fs) (idxC0 (F := F) d L fi) (cepC0 (F := F) d L fc)) y)))) $$ Ho0'
  ihave Ho1' := (Entails.of_eq (pointsTo_congr (piece_final (F := F) L fs fi fc hidx (k1_off25 L) (k1_off25_inb L) (k1_off26 L) (k1_off26_inb L) (k1_off26_inb L)
      ⟨1, by omega⟩ (off25_eq L) (off26_eq L) _ (ReadAs.same.apply (View.read (Elt F) (outbW).view (GoutL negInf1 (slabC (F := F) d L fs) (idxC1 (F := F) d L fi) (cepC1 (F := F) d L fc)))) (fun y => readAs_whole (F := F) d L (GoutL negInf1 (slabC (F := F) d L fs) (idxC1 (F := F) d L fi) (cepC1 (F := F) d L fc)) y)))) $$ Ho1'
  ihave Ho2' := (Entails.of_eq (pointsTo_congr (piece_final (F := F) L fs fi fc hidx (k1_off48 L) (k1_off48_inb L) (k1_off49 L) (k1_off49_inb L) (k1_off49_inb L)
      ⟨2, by omega⟩ (off48_eq L) (off49_eq L) _ (ReadAs.same.apply (View.read (Elt F) (outbW).view (GoutL negInf1 (slabC (F := F) d L fs) (idxC2 (F := F) d L fi) (cepC2 (F := F) d L fc)))) (fun y => readAs_whole (F := F) d L (GoutL negInf1 (slabC (F := F) d L fs) (idxC2 (F := F) d L fi) (cepC2 (F := F) d L fc)) y)))) $$ Ho2'
  ihave Ho3' := (Entails.of_eq (pointsTo_congr (piece_final (F := F) L fs fi fc hidx (k1_off71 L) (k1_off71_inb L) (k1_off72 L) (k1_off72_inb L) (k1_off72_inb L)
      ⟨3, by omega⟩ (off71_eq L) (off72_eq L) _ (ReadAs.same.apply (View.read (Elt F) (outbW).view (GoutL negInf1 (slabC (F := F) d L fs) (idxC3 (F := F) d L fi) (cepC3 (F := F) d L fc)))) (fun y => readAs_whole (F := F) d L (GoutL negInf1 (slabC (F := F) d L fs) (idxC3 (F := F) d L fi) (cepC3 (F := F) d L fc)) y)))) $$ Ho3'
  isplitl [Hsrc' Hidx' Hcepw' Ho0' Ho1' Ho2' Ho3']
  · isplitl [Hsrc']; · iapply (Entails.of_eq (pts_src (F := F) d L _ _)); iexact Hsrc'
    isplitl [Hidx']; · iapply (Entails.of_eq (pts_idx (F := F) d L _ _)); iexact Hidx'
    isplitl [Hcepw']; · iapply (Entails.of_eq (pts_cep (F := F) d L _ _)); iexact Hcepw'
    isplitl [Ho0']; · iapply (Entails.of_eq (pts_o0 (F := F) d L _)); iexact Ho0'
    isplitl [Ho1']; · iapply (Entails.of_eq (pts_o1 (F := F) d L _)); iexact Ho1'
    isplitl [Ho2']; · iapply (Entails.of_eq (pts_o2 (F := F) d L _)); iexact Ho2'
    iapply (Entails.of_eq (pts_o3 (F := F) d L _)); iexact Ho3'
  isplitl [Hs0' Hs1' Hs2' Hs3' Hbufs]
  · isplitl [Hs0' Hs1' Hs2' Hs3']
    · isplitl [Hs0']; · iexists _; iexact Hs0'
      isplitl [Hs1']; · iexists _; iexact Hs1'
      isplitl [Hs2']; · iexists _; iexact Hs2'
      iexists _; iexact Hs3'
    · iexact Hbufs
  isplitl [Hm0 Hm1 Hm2 Hm3 Hm4 Hm5 Hm6 Hm7 Hm8 Hm9 Hm10 Hm11 Hm12 Hsems]
  · isplitl [Hm0 Hm1 Hm2 Hm3 Hm4 Hm5 Hm6 Hm7 Hm8 Hm9 Hm10 Hm11 Hm12]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      iexact Hm12
    · iexact Hsems
  iexists _; isplitr
  rotate_left
  · iexact HO
  · ipureintro; intro p hp
    simp only [Finset.mem_insert] at hp
    rcases hp with rfl | rfl | rfl | rfl | rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inl hp

end Tile

end Cert.Proof.KI.T1

end
-- ==== Proof.KITile2Inv.lean ====
/-
  One tile of the second SparseCore call (the plain gather-and-max): its body's weakest precondition at a symbolic tile,
  from the resources the call deals it to the same back with its four output pieces at the pooled array.
-/
import proofs.«209975_g17849884082380_cont_8to1_1483_11_alg».proof.Proof.KITile2Defs
import proofs.«209975_g17849884082380_cont_8to1_1483_11_alg».proof.Proof.KITile2Val
import Idealize.ShloMosaic.Lib.Writes
import Idealize.ShloMosaic.Lib.ValueLayout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v6_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v7_scv : Memref Cert.KernelIdeal.sig Kind.scVector Space.hbm Cert.KernelIdeal.S8x64x4096 EltTy.f32)
local notation "slabW" => (Memref.whole Cert.KernelIdeal.cc2_scratch0 : Memref Cert.KernelIdeal.sig Kind.scVector Space.vmem Cert.KernelIdeal.S65536 EltTy.f32)
local notation "idxbW" => (Memref.whole Cert.KernelIdeal.cc2_scratch1 : Memref Cert.KernelIdeal.sig Kind.scVector Space.vmem Cert.KernelIdeal.S20x1024 EltTy.i32)
local notation "outbW" => (Memref.whole Cert.KernelIdeal.cc2_scratch2 : Memref Cert.KernelIdeal.sig Kind.scVector Space.vmem Cert.KernelIdeal.S16x1024 EltTy.f32)

section Tile

variable (d : Dev nD) (L : grid2.Coords)

/-- The indexed load at the head of a program is the plain load of the whole base, gathered. -/
theorem vli_bind {Λ : Labels} {p : Proc τ} {s t : Shape} {e : EltTy} {α : Type} [FloatOps F] (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = .op (.load base (.whole s) (View.loadsAt_whole hl)) fun f => k (loadIdx f idxs h) := rfl

/-- What a gather reads of the slab's contents. -/
abbrev slabRd (fsl : Buf (Elt F) ((V d (cV L) (jV L)).loc cc2_scratch0)) : Vec F S65536 .f32 :=
  (slabW).view.readAt (Elt F) (LoadRect.whole S65536) fsl

theorem slabRd_apply (fsl : Buf (Elt F) ((V d (cV L) (jV L)).loc cc2_scratch0)) (p : S65536.Idx) : slabRd d L fsl p = fsl p := by
  show fsl ((LoadRect.whole S65536).idx p) = fsl p
  congr 1
  funext a
  exact Fin.ext (by show 0 + 1 * (p a).val = (p a).val; omega)

theorem iv4_lt (t : Nat) (h : t < 4) : (Scf.iv 0#32 1#32 t).toNat < 4 := by
  unfold Scf.iv
  bv_omega

theorem iv4_val (t : Nat) (h : t < 4) : (Scf.iv 0#32 1#32 t).toNat = t := by
  unfold Scf.iv
  bv_omega

/-- A neighbour vector loaded from the index scratch: row `k`'s 16 columns from column `16 i`. -/
theorem idxvec_eq (fix : Buf (Elt F) ((V d (cV L) (jV L)).loc cc2_scratch1)) (off : Fin 2 → Nat) (k : Fin 20) (i : Nat) (hi : i < 64) (hoff : off = ![k.val, 16 * i])
    (b : ∀ a, off a + S1x16.size a ≤ S20x1024.size a) (x : S16.Idx) :
    shapeCast S16 ((idxbW).view.readAt (Elt F) (Rect.unit (s := S20x1024) off S1x16.size b).toLoadRect fix) shapeCasts_S1x16_S16 x
      = fix (ix2 k ⟨16 * i + (x 0).val, by have h16 : (x 0).val < 16 := (x 0).isLt; show 16 * i + (x 0).val < 1024; omega⟩) := by
  subst hoff
  obtain ⟨l, rfl⟩ : ∃ l : Fin 16, x = ix1 l := ⟨x 0, eq_ix1 x⟩
  rw [shapeCast_1a_a_apply, View.readAt_apply]
  have hix : (Rect.unit (s := S20x1024) ![k.val, 16 * i] S1x16.size b).toLoadRect.idx (ix2 (0 : Fin 1) l)
      = ix2 k ⟨16 * i + l.val, by have := l.isLt; omega⟩ := by
    funext a
    match a with
    | ⟨0, _⟩ => exact Fin.ext (by show k.val + 1 * 0 = k.val; omega)
    | ⟨1, _⟩ => exact Fin.ext (by show 16 * i + 1 * l.val = 16 * i + l.val; omega)
  rw [hix]
  rfl

/-- A load of sixteen columns of a row of the index scratch. -/
abbrev ldv (fix : Buf (Elt F) ((V d (cV L) (jV L)).loc cc2_scratch1)) (off : Fin 2 → Nat) (b : ∀ a, off a + S1x16.size a ≤ S20x1024.size a) : Vec F S1x16 .i32 :=
  (idxbW).view.readAt (Elt F) (Rect.unit (s := S20x1024) off S1x16.size b).toLoadRect fix

variable [FloatOps F]

/-- Minus infinity, as the program writes it. -/
abbrev negInf : F .f32 := Scalar.ofBits .f32 0xFF800000#32

/-- The inner loop's invariant in block `i`: the slab, and the output scratch right in its first `16 i` columns and in
    the first `4 g` rows of the next 16. -/
def inv2 (fsl : Buf (Elt F) ((V d (cV L) (jV L)).loc cc2_scratch0)) (G : S16x1024.Idx → F .f32) (i : Nat) (g : Nat) (_ : Unit) : sProp 𝕄 :=
  iprop(((slabW).view.loc (V d (cV L) (jV L)) ↦{fullShare} fsl)
    ∗ ∃ f2, ((outbW).view.loc (V d (cV L) (jV L)) ↦{fullShare} f2) ∗ ⌜Done2 G i g f2⌝)

/-- The outer loop's invariant: the slab, the index scratch, and the output scratch right in its first `16 i` columns. -/
def inv1 (fsl : Buf (Elt F) ((V d (cV L) (jV L)).loc cc2_scratch0)) (fix : Buf (Elt F) ((V d (cV L) (jV L)).loc cc2_scratch1))
    (G : S16x1024.Idx → F .f32) (i : Nat) (_ : Unit) : sProp 𝕄 :=
  iprop(((slabW).view.loc (V d (cV L) (jV L)) ↦{fullShare} fsl) ∗ ((idxbW).view.loc (V d (cV L) (jV L)) ↦{fullShare} fix)
    ∗ ∃ f2, ((outbW).view.loc (V d (cV L) (jV L)) ↦{fullShare} f2) ∗ ⌜Done1 G i f2⌝)

end Tile

end Cert.Proof.KI

end
-- ==== Proof.KITile2C0.lean ====
/-
  One tile of the second SparseCore call, chunk 0 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KITile2Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v6_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v7_scv : Memref Cert.KernelIdeal.sig Kind.scVector Space.hbm Cert.KernelIdeal.S8x64x4096 EltTy.f32)
local notation "slabW" => (Memref.whole Cert.KernelIdeal.cc2_scratch0 : Memref Cert.KernelIdeal.sig Kind.scVector Space.vmem Cert.KernelIdeal.S65536 EltTy.f32)
local notation "idxbW" => (Memref.whole Cert.KernelIdeal.cc2_scratch1 : Memref Cert.KernelIdeal.sig Kind.scVector Space.vmem Cert.KernelIdeal.S20x1024 EltTy.i32)
local notation "outbW" => (Memref.whole Cert.KernelIdeal.cc2_scratch2 : Memref Cert.KernelIdeal.sig Kind.scVector Space.vmem Cert.KernelIdeal.S16x1024 EltTy.f32)

section Tile

variable (d : Dev nD) (L : grid2.Coords)

variable [FloatOps F]

/-- The 20 neighbour vectors of a trip of this chunk, in order. -/
abbrev U0 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k2_pay615 v75_ld, k2_pay616 v78_ld, k2_pay617 v81_ld, k2_pay618 v84_ld, k2_pay619 v87_ld, k2_pay620 v90_ld, k2_pay621 v93_ld, k2_pay622 v96_ld, k2_pay623 v99_ld]

attribute [local sl_canon] vli_bind in
set_option maxHeartbeats 8000000 in
/-- A trip of the inner loop: from the slab and the output scratch, the same with the trip's four rows stored. -/
theorem inner_trip0 (q : PosShare TreeShare) (fsl : Buf (Elt F) ((V d (cV L) (jV L)).loc cc2_scratch0)) (f2 : Buf (Elt F) ((V d (cV L) (jV L)).loc cc2_scratch2))
    (v28 : BitVec 32) (v30 : FVec F S16 .f32) (k2_t1 : Fin k2_t1_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U0 (F := F) v42 v45 v48 v51 v54 v57 v60 v63 v66 v69 v72 v75_ld v78_ld v81_ld v84_ld v87_ld v90_ld v93_ld v96_ld v99_ld) k x).toNat < 4096)
    (k2_t2 : Fin k2_t2_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k2_t2_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 v30 k2_t1 v39 v42 v45 v48 v51 v54 v57 v60 v63 v66 v69 v72 v75_ld v78_ld v81_ld v84_ld v87_ld v90_ld v93_ld v96_ld v99_ld k2_t2 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U0 v42 v45 v48 v51 v54 v57 v60 v63 v66 v69 v72 v75_ld v78_ld v81_ld v84_ld v87_ld v90_ld v93_ld v96_ld v99_ld) hU (k2_off23 k2_t1 k2_t2) (k2_off23_inb k2_t1 k2_t2)
              (Scf.iv 0#32 1#32 k2_t2.val) (iv4_lt k2_t2.val k2_t2.isLt)))) := by
  have hg : (Scf.iv 0#32 1#32 k2_t2.val).toNat < 4 := iv4_lt k2_t2.val k2_t2.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k2_pay615 v75_ld x).toNat < 4096 := hU 11
  have h78 : ∀ x, (k2_pay616 v78_ld x).toNat < 4096 := hU 12
  have h81 : ∀ x, (k2_pay617 v81_ld x).toNat < 4096 := hU 13
  have h84 : ∀ x, (k2_pay618 v84_ld x).toNat < 4096 := hU 14
  have h87 : ∀ x, (k2_pay619 v87_ld x).toNat < 4096 := hU 15
  have h90 : ∀ x, (k2_pay620 v90_ld x).toNat < 4096 := hU 16
  have h93 : ∀ x, (k2_pay621 v93_ld x).toNat < 4096 := hU 17
  have h96 : ∀ x, (k2_pay622 v96_ld x).toNat < 4096 := hU 18
  have h99 : ∀ x, (k2_pay623 v99_ld x).toNat < 4096 := hU 19
  unfold k2_t2_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U0_loaded (fix : Buf (Elt F) ((V d (cV L) (jV L)).loc cc2_scratch1)) (t1 : Fin k2_t1_loop.trips) (k : Fin 20) (x : S16.Idx) :
    U0 (F := F) (k2_pay150 (ldv d L fix (k2_off3 t1) (k2_off3_inb t1))) (k2_pay151 (ldv d L fix (k2_off4 t1) (k2_off4_inb t1))) (k2_pay152 (ldv d L fix (k2_off5 t1) (k2_off5_inb t1))) (k2_pay153 (ldv d L fix (k2_off6 t1) (k2_off6_inb t1))) (k2_pay154 (ldv d L fix (k2_off7 t1) (k2_off7_inb t1))) (k2_pay155 (ldv d L fix (k2_off8 t1) (k2_off8_inb t1))) (k2_pay156 (ldv d L fix (k2_off9 t1) (k2_off9_inb t1))) (k2_pay157 (ldv d L fix (k2_off10 t1) (k2_off10_inb t1))) (k2_pay158 (ldv d L fix (k2_off11 t1) (k2_off11_inb t1))) (k2_pay159 (ldv d L fix (k2_off12 t1) (k2_off12_inb t1))) (k2_pay160 (ldv d L fix (k2_off13 t1) (k2_off13_inb t1))) (ldv d L fix (k2_off14 t1) (k2_off14_inb t1)) (ldv d L fix (k2_off15 t1) (k2_off15_inb t1)) (ldv d L fix (k2_off16 t1) (k2_off16_inb t1)) (ldv d L fix (k2_off17 t1) (k2_off17_inb t1)) (ldv d L fix (k2_off18 t1) (k2_off18_inb t1)) (ldv d L fix (k2_off19 t1) (k2_off19_inb t1)) (ldv d L fix (k2_off20 t1) (k2_off20_inb t1)) (ldv d L fix (k2_off21 t1) (k2_off21_inb t1)) (ldv d L fix (k2_off22 t1) (k2_off22_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k2_off3_eq t1) _ x
  | ⟨1, _⟩ => exact idxvec_eq d L fix _ ⟨1, by omega⟩ t1.val ht (k2_off4_eq t1) _ x
  | ⟨2, _⟩ => exact idxvec_eq d L fix _ ⟨2, by omega⟩ t1.val ht (k2_off5_eq t1) _ x
  | ⟨3, _⟩ => exact idxvec_eq d L fix _ ⟨3, by omega⟩ t1.val ht (k2_off6_eq t1) _ x
  | ⟨4, _⟩ => exact idxvec_eq d L fix _ ⟨4, by omega⟩ t1.val ht (k2_off7_eq t1) _ x
  | ⟨5, _⟩ => exact idxvec_eq d L fix _ ⟨5, by omega⟩ t1.val ht (k2_off8_eq t1) _ x
  | ⟨6, _⟩ => exact idxvec_eq d L fix _ ⟨6, by omega⟩ t1.val ht (k2_off9_eq t1) _ x
  | ⟨7, _⟩ => exact idxvec_eq d L fix _ ⟨7, by omega⟩ t1.val ht (k2_off10_eq t1) _ x
  | ⟨8, _⟩ => exact idxvec_eq d L fix _ ⟨8, by omega⟩ t1.val ht (k2_off11_eq t1) _ x
  | ⟨9, _⟩ => exact idxvec_eq d L fix _ ⟨9, by omega⟩ t1.val ht (k2_off12_eq t1) _ x
  | ⟨10, _⟩ => exact idxvec_eq d L fix _ ⟨10, by omega⟩ t1.val ht (k2_off13_eq t1) _ x
  | ⟨11, _⟩ => exact idxvec_eq d L fix _ ⟨11, by omega⟩ t1.val ht (k2_off14_eq t1) _ x
  | ⟨12, _⟩ => exact idxvec_eq d L fix _ ⟨12, by omega⟩ t1.val ht (k2_off15_eq t1) _ x
  | ⟨13, _⟩ => exact idxvec_eq d L fix _ ⟨13, by omega⟩ t1.val ht (k2_off16_eq t1) _ x
  | ⟨14, _⟩ => exact idxvec_eq d L fix _ ⟨14, by omega⟩ t1.val ht (k2_off17_eq t1) _ x
  | ⟨15, _⟩ => exact idxvec_eq d L fix _ ⟨15, by omega⟩ t1.val ht (k2_off18_eq t1) _ x
  | ⟨16, _⟩ => exact idxvec_eq d L fix _ ⟨16, by omega⟩ t1.val ht (k2_off19_eq t1) _ x
  | ⟨17, _⟩ => exact idxvec_eq d L fix _ ⟨17, by omega⟩ t1.val ht (k2_off20_eq t1) _ x
  | ⟨18, _⟩ => exact idxvec_eq d L fix _ ⟨18, by omega⟩ t1.val ht (k2_off21_eq t1) _ x
  | ⟨19, _⟩ => exact idxvec_eq d L fix _ ⟨19, by omega⟩ t1.val ht (k2_off22_eq t1) _ x
  | ⟨n + 20, h⟩ => exact absurd h (by omega)

set_option maxHeartbeats 4000000 in
/-- A trip of the outer loop: the block's 20 neighbour vectors loaded, then the inner loop's four trips fill the block. -/
theorem outer_trip0 (fsl : Buf (Elt F) ((V d (cV L) (jV L)).loc cc2_scratch0)) (fix : Buf (Elt F) ((V d (cV L) (jV L)).loc cc2_scratch1))
    (hfix : ∀ y, (fix y).toNat < 4096) (v28 : BitVec 32) (t1 : Fin k2_t1_loop.trips) (acc : Unit) :
    inv1 d L fsl fix (Gout negInf fsl fix) t1.val acc
      ⊢ wp frame (wpE (defs₀ (F := F)) 𝒱₀ (V d (cV L) (jV L)) none) Set.univ
          (k2_t1_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 k2_pay614 t1 acc)
          (inv1 d L fsl fix (Gout negInf fsl fix) (t1.val + 1)) := by
  have ht : t1.val < 64 := t1.isLt
  have hU : ∀ k x, ((U0 (F := F) (k2_pay150 (ldv d L fix (k2_off3 t1) (k2_off3_inb t1))) (k2_pay151 (ldv d L fix (k2_off4 t1) (k2_off4_inb t1))) (k2_pay152 (ldv d L fix (k2_off5 t1) (k2_off5_inb t1))) (k2_pay153 (ldv d L fix (k2_off6 t1) (k2_off6_inb t1))) (k2_pay154 (ldv d L fix (k2_off7 t1) (k2_off7_inb t1))) (k2_pay155 (ldv d L fix (k2_off8 t1) (k2_off8_inb t1))) (k2_pay156 (ldv d L fix (k2_off9 t1) (k2_off9_inb t1))) (k2_pay157 (ldv d L fix (k2_off10 t1) (k2_off10_inb t1))) (k2_pay158 (ldv d L fix (k2_off11 t1) (k2_off11_inb t1))) (k2_pay159 (ldv d L fix (k2_off12 t1) (k2_off12_inb t1))) (k2_pay160 (ldv d L fix (k2_off13 t1) (k2_off13_inb t1))) (ldv d L fix (k2_off14 t1) (k2_off14_inb t1)) (ldv d L fix (k2_off15 t1) (k2_off15_inb t1)) (ldv d L fix (k2_off16 t1) (k2_off16_inb t1)) (ldv d L fix (k2_off17 t1) (k2_off17_inb t1)) (ldv d L fix (k2_off18 t1) (k2_off18_inb t1)) (ldv d L fix (k2_off19 t1) (k2_off19_inb t1)) (ldv d L fix (k2_off20 t1) (k2_off20_inb t1)) (ldv d L fix (k2_off21 t1) (k2_off21_inb t1)) (ldv d L fix (k2_off22 t1) (k2_off22_inb t1))) k x).toNat < 4096 :=
    fun k x => (congrArg BitVec.toNat (U0_loaded d L fix t1 k x)).trans_lt (hfix _)
  unfold inv1
  iintro ⟨Hslab, Hidxb, %f2, Hout, %hD⟩
  unfold k2_t1_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip0 (F := F) d L fullShare fsl f2' v28 k2_pay614 t1 (Scalar.muli (Scf.iv 0#32 1#32 t1.val) 16#32) (k2_pay150 (ldv d L fix (k2_off3 t1) (k2_off3_inb t1))) (k2_pay151 (ldv d L fix (k2_off4 t1) (k2_off4_inb t1))) (k2_pay152 (ldv d L fix (k2_off5 t1) (k2_off5_inb t1))) (k2_pay153 (ldv d L fix (k2_off6 t1) (k2_off6_inb t1))) (k2_pay154 (ldv d L fix (k2_off7 t1) (k2_off7_inb t1))) (k2_pay155 (ldv d L fix (k2_off8 t1) (k2_off8_inb t1))) (k2_pay156 (ldv d L fix (k2_off9 t1) (k2_off9_inb t1))) (k2_pay157 (ldv d L fix (k2_off10 t1) (k2_off10_inb t1))) (k2_pay158 (ldv d L fix (k2_off11 t1) (k2_off11_inb t1))) (k2_pay159 (ldv d L fix (k2_off12 t1) (k2_off12_inb t1))) (k2_pay160 (ldv d L fix (k2_off13 t1) (k2_off13_inb t1))) (ldv d L fix (k2_off14 t1) (k2_off14_inb t1)) (ldv d L fix (k2_off15 t1) (k2_off15_inb t1)) (ldv d L fix (k2_off16 t1) (k2_off16_inb t1)) (ldv d L fix (k2_off17 t1) (k2_off17_inb t1)) (ldv d L fix (k2_off18 t1) (k2_off18_inb t1)) (ldv d L fix (k2_off19 t1) (k2_off19_inb t1)) (ldv d L fix (k2_off20 t1) (k2_off20_inb t1)) (ldv d L fix (k2_off21 t1) (k2_off21_inb t1)) (ldv d L fix (k2_off22 t1) (k2_off22_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k2_pay614 (fun _ => rfl) (slabRd d L fsl) (slabRd_apply d L fsl) _ hU (U0_loaded d L fix t1)
      (k2_off23 t1 t2) (k2_off23_inb t1 t2) (k2_off23_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KI

end
-- ==== Proof.KITile2C1.lean ====
/-
  One tile of the second SparseCore call, chunk 1 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KITile2Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v6_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v7_scv : Memref Cert.KernelIdeal.sig Kind.scVector Space.hbm Cert.KernelIdeal.S8x64x4096 EltTy.f32)
local notation "slabW" => (Memref.whole Cert.KernelIdeal.cc2_scratch0 : Memref Cert.KernelIdeal.sig Kind.scVector Space.vmem Cert.KernelIdeal.S65536 EltTy.f32)
local notation "idxbW" => (Memref.whole Cert.KernelIdeal.cc2_scratch1 : Memref Cert.KernelIdeal.sig Kind.scVector Space.vmem Cert.KernelIdeal.S20x1024 EltTy.i32)
local notation "outbW" => (Memref.whole Cert.KernelIdeal.cc2_scratch2 : Memref Cert.KernelIdeal.sig Kind.scVector Space.vmem Cert.KernelIdeal.S16x1024 EltTy.f32)

section Tile

variable (d : Dev nD) (L : grid2.Coords)

variable [FloatOps F]

/-- The 20 neighbour vectors of a trip of this chunk, in order. -/
abbrev U1 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k2_pay624 v75_ld, k2_pay625 v78_ld, k2_pay626 v81_ld, k2_pay627 v84_ld, k2_pay628 v87_ld, k2_pay629 v90_ld, k2_pay630 v93_ld, k2_pay631 v96_ld, k2_pay632 v99_ld]

attribute [local sl_canon] vli_bind in
set_option maxHeartbeats 8000000 in
/-- A trip of the inner loop: from the slab and the output scratch, the same with the trip's four rows stored. -/
theorem inner_trip1 (q : PosShare TreeShare) (fsl : Buf (Elt F) ((V d (cV L) (jV L)).loc cc2_scratch0)) (f2 : Buf (Elt F) ((V d (cV L) (jV L)).loc cc2_scratch2))
    (v28 : BitVec 32) (v30 : FVec F S16 .f32) (c0_i32_15 : BitVec 32) (k2_t3 : Fin k2_t3_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U1 (F := F) v42 v45 v48 v51 v54 v57 v60 v63 v66 v69 v72 v75_ld v78_ld v81_ld v84_ld v87_ld v90_ld v93_ld v96_ld v99_ld) k x).toNat < 4096)
    (k2_t4 : Fin k2_t4_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k2_t4_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 v30 c0_i32_15 k2_t3 v39 v42 v45 v48 v51 v54 v57 v60 v63 v66 v69 v72 v75_ld v78_ld v81_ld v84_ld v87_ld v90_ld v93_ld v96_ld v99_ld k2_t4 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U1 v42 v45 v48 v51 v54 v57 v60 v63 v66 v69 v72 v75_ld v78_ld v81_ld v84_ld v87_ld v90_ld v93_ld v96_ld v99_ld) hU (k2_off46 k2_t3 k2_t4) (k2_off46_inb k2_t3 k2_t4)
              (Scf.iv 0#32 1#32 k2_t4.val) (iv4_lt k2_t4.val k2_t4.isLt)))) := by
  have hg : (Scf.iv 0#32 1#32 k2_t4.val).toNat < 4 := iv4_lt k2_t4.val k2_t4.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k2_pay624 v75_ld x).toNat < 4096 := hU 11
  have h78 : ∀ x, (k2_pay625 v78_ld x).toNat < 4096 := hU 12
  have h81 : ∀ x, (k2_pay626 v81_ld x).toNat < 4096 := hU 13
  have h84 : ∀ x, (k2_pay627 v84_ld x).toNat < 4096 := hU 14
  have h87 : ∀ x, (k2_pay628 v87_ld x).toNat < 4096 := hU 15
  have h90 : ∀ x, (k2_pay629 v90_ld x).toNat < 4096 := hU 16
  have h93 : ∀ x, (k2_pay630 v93_ld x).toNat < 4096 := hU 17
  have h96 : ∀ x, (k2_pay631 v96_ld x).toNat < 4096 := hU 18
  have h99 : ∀ x, (k2_pay632 v99_ld x).toNat < 4096 := hU 19
  unfold k2_t4_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U1_loaded (fix : Buf (Elt F) ((V d (cV L) (jV L)).loc cc2_scratch1)) (t1 : Fin k2_t3_loop.trips) (k : Fin 20) (x : S16.Idx) :
    U1 (F := F) (k2_pay301 (ldv d L fix (k2_off26 t1) (k2_off26_inb t1))) (k2_pay302 (ldv d L fix (k2_off27 t1) (k2_off27_inb t1))) (k2_pay303 (ldv d L fix (k2_off28 t1) (k2_off28_inb t1))) (k2_pay304 (ldv d L fix (k2_off29 t1) (k2_off29_inb t1))) (k2_pay305 (ldv d L fix (k2_off30 t1) (k2_off30_inb t1))) (k2_pay306 (ldv d L fix (k2_off31 t1) (k2_off31_inb t1))) (k2_pay307 (ldv d L fix (k2_off32 t1) (k2_off32_inb t1))) (k2_pay308 (ldv d L fix (k2_off33 t1) (k2_off33_inb t1))) (k2_pay309 (ldv d L fix (k2_off34 t1) (k2_off34_inb t1))) (k2_pay310 (ldv d L fix (k2_off35 t1) (k2_off35_inb t1))) (k2_pay311 (ldv d L fix (k2_off36 t1) (k2_off36_inb t1))) (ldv d L fix (k2_off37 t1) (k2_off37_inb t1)) (ldv d L fix (k2_off38 t1) (k2_off38_inb t1)) (ldv d L fix (k2_off39 t1) (k2_off39_inb t1)) (ldv d L fix (k2_off40 t1) (k2_off40_inb t1)) (ldv d L fix (k2_off41 t1) (k2_off41_inb t1)) (ldv d L fix (k2_off42 t1) (k2_off42_inb t1)) (ldv d L fix (k2_off43 t1) (k2_off43_inb t1)) (ldv d L fix (k2_off44 t1) (k2_off44_inb t1)) (ldv d L fix (k2_off45 t1) (k2_off45_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k2_off26_eq t1) _ x
  | ⟨1, _⟩ => exact idxvec_eq d L fix _ ⟨1, by omega⟩ t1.val ht (k2_off27_eq t1) _ x
  | ⟨2, _⟩ => exact idxvec_eq d L fix _ ⟨2, by omega⟩ t1.val ht (k2_off28_eq t1) _ x
  | ⟨3, _⟩ => exact idxvec_eq d L fix _ ⟨3, by omega⟩ t1.val ht (k2_off29_eq t1) _ x
  | ⟨4, _⟩ => exact idxvec_eq d L fix _ ⟨4, by omega⟩ t1.val ht (k2_off30_eq t1) _ x
  | ⟨5, _⟩ => exact idxvec_eq d L fix _ ⟨5, by omega⟩ t1.val ht (k2_off31_eq t1) _ x
  | ⟨6, _⟩ => exact idxvec_eq d L fix _ ⟨6, by omega⟩ t1.val ht (k2_off32_eq t1) _ x
  | ⟨7, _⟩ => exact idxvec_eq d L fix _ ⟨7, by omega⟩ t1.val ht (k2_off33_eq t1) _ x
  | ⟨8, _⟩ => exact idxvec_eq d L fix _ ⟨8, by omega⟩ t1.val ht (k2_off34_eq t1) _ x
  | ⟨9, _⟩ => exact idxvec_eq d L fix _ ⟨9, by omega⟩ t1.val ht (k2_off35_eq t1) _ x
  | ⟨10, _⟩ => exact idxvec_eq d L fix _ ⟨10, by omega⟩ t1.val ht (k2_off36_eq t1) _ x
  | ⟨11, _⟩ => exact idxvec_eq d L fix _ ⟨11, by omega⟩ t1.val ht (k2_off37_eq t1) _ x
  | ⟨12, _⟩ => exact idxvec_eq d L fix _ ⟨12, by omega⟩ t1.val ht (k2_off38_eq t1) _ x
  | ⟨13, _⟩ => exact idxvec_eq d L fix _ ⟨13, by omega⟩ t1.val ht (k2_off39_eq t1) _ x
  | ⟨14, _⟩ => exact idxvec_eq d L fix _ ⟨14, by omega⟩ t1.val ht (k2_off40_eq t1) _ x
  | ⟨15, _⟩ => exact idxvec_eq d L fix _ ⟨15, by omega⟩ t1.val ht (k2_off41_eq t1) _ x
  | ⟨16, _⟩ => exact idxvec_eq d L fix _ ⟨16, by omega⟩ t1.val ht (k2_off42_eq t1) _ x
  | ⟨17, _⟩ => exact idxvec_eq d L fix _ ⟨17, by omega⟩ t1.val ht (k2_off43_eq t1) _ x
  | ⟨18, _⟩ => exact idxvec_eq d L fix _ ⟨18, by omega⟩ t1.val ht (k2_off44_eq t1) _ x
  | ⟨19, _⟩ => exact idxvec_eq d L fix _ ⟨19, by omega⟩ t1.val ht (k2_off45_eq t1) _ x
  | ⟨n + 20, h⟩ => exact absurd h (by omega)

set_option maxHeartbeats 4000000 in
/-- A trip of the outer loop: the block's 20 neighbour vectors loaded, then the inner loop's four trips fill the block. -/
theorem outer_trip1 (fsl : Buf (Elt F) ((V d (cV L) (jV L)).loc cc2_scratch0)) (fix : Buf (Elt F) ((V d (cV L) (jV L)).loc cc2_scratch1))
    (hfix : ∀ y, (fix y).toNat < 4096) (v28 : BitVec 32) (c0_i32_15 : BitVec 32) (t1 : Fin k2_t3_loop.trips) (acc : Unit) :
    inv1 d L fsl fix (Gout negInf fsl fix) t1.val acc
      ⊢ wp frame (wpE (defs₀ (F := F)) 𝒱₀ (V d (cV L) (jV L)) none) Set.univ
          (k2_t3_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 k2_pay614 c0_i32_15 t1 acc)
          (inv1 d L fsl fix (Gout negInf fsl fix) (t1.val + 1)) := by
  have ht : t1.val < 64 := t1.isLt
  have hU : ∀ k x, ((U1 (F := F) (k2_pay301 (ldv d L fix (k2_off26 t1) (k2_off26_inb t1))) (k2_pay302 (ldv d L fix (k2_off27 t1) (k2_off27_inb t1))) (k2_pay303 (ldv d L fix (k2_off28 t1) (k2_off28_inb t1))) (k2_pay304 (ldv d L fix (k2_off29 t1) (k2_off29_inb t1))) (k2_pay305 (ldv d L fix (k2_off30 t1) (k2_off30_inb t1))) (k2_pay306 (ldv d L fix (k2_off31 t1) (k2_off31_inb t1))) (k2_pay307 (ldv d L fix (k2_off32 t1) (k2_off32_inb t1))) (k2_pay308 (ldv d L fix (k2_off33 t1) (k2_off33_inb t1))) (k2_pay309 (ldv d L fix (k2_off34 t1) (k2_off34_inb t1))) (k2_pay310 (ldv d L fix (k2_off35 t1) (k2_off35_inb t1))) (k2_pay311 (ldv d L fix (k2_off36 t1) (k2_off36_inb t1))) (ldv d L fix (k2_off37 t1) (k2_off37_inb t1)) (ldv d L fix (k2_off38 t1) (k2_off38_inb t1)) (ldv d L fix (k2_off39 t1) (k2_off39_inb t1)) (ldv d L fix (k2_off40 t1) (k2_off40_inb t1)) (ldv d L fix (k2_off41 t1) (k2_off41_inb t1)) (ldv d L fix (k2_off42 t1) (k2_off42_inb t1)) (ldv d L fix (k2_off43 t1) (k2_off43_inb t1)) (ldv d L fix (k2_off44 t1) (k2_off44_inb t1)) (ldv d L fix (k2_off45 t1) (k2_off45_inb t1))) k x).toNat < 4096 :=
    fun k x => (congrArg BitVec.toNat (U1_loaded d L fix t1 k x)).trans_lt (hfix _)
  unfold inv1
  iintro ⟨Hslab, Hidxb, %f2, Hout, %hD⟩
  unfold k2_t3_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip1 (F := F) d L fullShare fsl f2' v28 k2_pay614 c0_i32_15 t1 (Scalar.muli (Scf.iv 0#32 1#32 t1.val) 16#32) (k2_pay301 (ldv d L fix (k2_off26 t1) (k2_off26_inb t1))) (k2_pay302 (ldv d L fix (k2_off27 t1) (k2_off27_inb t1))) (k2_pay303 (ldv d L fix (k2_off28 t1) (k2_off28_inb t1))) (k2_pay304 (ldv d L fix (k2_off29 t1) (k2_off29_inb t1))) (k2_pay305 (ldv d L fix (k2_off30 t1) (k2_off30_inb t1))) (k2_pay306 (ldv d L fix (k2_off31 t1) (k2_off31_inb t1))) (k2_pay307 (ldv d L fix (k2_off32 t1) (k2_off32_inb t1))) (k2_pay308 (ldv d L fix (k2_off33 t1) (k2_off33_inb t1))) (k2_pay309 (ldv d L fix (k2_off34 t1) (k2_off34_inb t1))) (k2_pay310 (ldv d L fix (k2_off35 t1) (k2_off35_inb t1))) (k2_pay311 (ldv d L fix (k2_off36 t1) (k2_off36_inb t1))) (ldv d L fix (k2_off37 t1) (k2_off37_inb t1)) (ldv d L fix (k2_off38 t1) (k2_off38_inb t1)) (ldv d L fix (k2_off39 t1) (k2_off39_inb t1)) (ldv d L fix (k2_off40 t1) (k2_off40_inb t1)) (ldv d L fix (k2_off41 t1) (k2_off41_inb t1)) (ldv d L fix (k2_off42 t1) (k2_off42_inb t1)) (ldv d L fix (k2_off43 t1) (k2_off43_inb t1)) (ldv d L fix (k2_off44 t1) (k2_off44_inb t1)) (ldv d L fix (k2_off45 t1) (k2_off45_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k2_pay614 (fun _ => rfl) (slabRd d L fsl) (slabRd_apply d L fsl) _ hU (U1_loaded d L fix t1)
      (k2_off46 t1 t2) (k2_off46_inb t1 t2) (k2_off46_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KI

end
-- ==== Proof.KITile2C2.lean ====
/-
  One tile of the second SparseCore call, chunk 2 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KITile2Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v6_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v7_scv : Memref Cert.KernelIdeal.sig Kind.scVector Space.hbm Cert.KernelIdeal.S8x64x4096 EltTy.f32)
local notation "slabW" => (Memref.whole Cert.KernelIdeal.cc2_scratch0 : Memref Cert.KernelIdeal.sig Kind.scVector Space.vmem Cert.KernelIdeal.S65536 EltTy.f32)
local notation "idxbW" => (Memref.whole Cert.KernelIdeal.cc2_scratch1 : Memref Cert.KernelIdeal.sig Kind.scVector Space.vmem Cert.KernelIdeal.S20x1024 EltTy.i32)
local notation "outbW" => (Memref.whole Cert.KernelIdeal.cc2_scratch2 : Memref Cert.KernelIdeal.sig Kind.scVector Space.vmem Cert.KernelIdeal.S16x1024 EltTy.f32)

section Tile

variable (d : Dev nD) (L : grid2.Coords)

variable [FloatOps F]

/-- The 20 neighbour vectors of a trip of this chunk, in order. -/
abbrev U2 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k2_pay633 v75_ld, k2_pay634 v78_ld, k2_pay635 v81_ld, k2_pay636 v84_ld, k2_pay637 v87_ld, k2_pay638 v90_ld, k2_pay639 v93_ld, k2_pay640 v96_ld, k2_pay641 v99_ld]

attribute [local sl_canon] vli_bind in
set_option maxHeartbeats 8000000 in
/-- A trip of the inner loop: from the slab and the output scratch, the same with the trip's four rows stored. -/
theorem inner_trip2 (q : PosShare TreeShare) (fsl : Buf (Elt F) ((V d (cV L) (jV L)).loc cc2_scratch0)) (f2 : Buf (Elt F) ((V d (cV L) (jV L)).loc cc2_scratch2))
    (v28 : BitVec 32) (v30 : FVec F S16 .f32) (c0_i32_15 : BitVec 32) (k2_t5 : Fin k2_t5_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U2 (F := F) v42 v45 v48 v51 v54 v57 v60 v63 v66 v69 v72 v75_ld v78_ld v81_ld v84_ld v87_ld v90_ld v93_ld v96_ld v99_ld) k x).toNat < 4096)
    (k2_t6 : Fin k2_t6_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k2_t6_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 v30 c0_i32_15 k2_t5 v39 v42 v45 v48 v51 v54 v57 v60 v63 v66 v69 v72 v75_ld v78_ld v81_ld v84_ld v87_ld v90_ld v93_ld v96_ld v99_ld k2_t6 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U2 v42 v45 v48 v51 v54 v57 v60 v63 v66 v69 v72 v75_ld v78_ld v81_ld v84_ld v87_ld v90_ld v93_ld v96_ld v99_ld) hU (k2_off69 k2_t5 k2_t6) (k2_off69_inb k2_t5 k2_t6)
              (Scf.iv 0#32 1#32 k2_t6.val) (iv4_lt k2_t6.val k2_t6.isLt)))) := by
  have hg : (Scf.iv 0#32 1#32 k2_t6.val).toNat < 4 := iv4_lt k2_t6.val k2_t6.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k2_pay633 v75_ld x).toNat < 4096 := hU 11
  have h78 : ∀ x, (k2_pay634 v78_ld x).toNat < 4096 := hU 12
  have h81 : ∀ x, (k2_pay635 v81_ld x).toNat < 4096 := hU 13
  have h84 : ∀ x, (k2_pay636 v84_ld x).toNat < 4096 := hU 14
  have h87 : ∀ x, (k2_pay637 v87_ld x).toNat < 4096 := hU 15
  have h90 : ∀ x, (k2_pay638 v90_ld x).toNat < 4096 := hU 16
  have h93 : ∀ x, (k2_pay639 v93_ld x).toNat < 4096 := hU 17
  have h96 : ∀ x, (k2_pay640 v96_ld x).toNat < 4096 := hU 18
  have h99 : ∀ x, (k2_pay641 v99_ld x).toNat < 4096 := hU 19
  unfold k2_t6_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U2_loaded (fix : Buf (Elt F) ((V d (cV L) (jV L)).loc cc2_scratch1)) (t1 : Fin k2_t5_loop.trips) (k : Fin 20) (x : S16.Idx) :
    U2 (F := F) (k2_pay452 (ldv d L fix (k2_off49 t1) (k2_off49_inb t1))) (k2_pay453 (ldv d L fix (k2_off50 t1) (k2_off50_inb t1))) (k2_pay454 (ldv d L fix (k2_off51 t1) (k2_off51_inb t1))) (k2_pay455 (ldv d L fix (k2_off52 t1) (k2_off52_inb t1))) (k2_pay456 (ldv d L fix (k2_off53 t1) (k2_off53_inb t1))) (k2_pay457 (ldv d L fix (k2_off54 t1) (k2_off54_inb t1))) (k2_pay458 (ldv d L fix (k2_off55 t1) (k2_off55_inb t1))) (k2_pay459 (ldv d L fix (k2_off56 t1) (k2_off56_inb t1))) (k2_pay460 (ldv d L fix (k2_off57 t1) (k2_off57_inb t1))) (k2_pay461 (ldv d L fix (k2_off58 t1) (k2_off58_inb t1))) (k2_pay462 (ldv d L fix (k2_off59 t1) (k2_off59_inb t1))) (ldv d L fix (k2_off60 t1) (k2_off60_inb t1)) (ldv d L fix (k2_off61 t1) (k2_off61_inb t1)) (ldv d L fix (k2_off62 t1) (k2_off62_inb t1)) (ldv d L fix (k2_off63 t1) (k2_off63_inb t1)) (ldv d L fix (k2_off64 t1) (k2_off64_inb t1)) (ldv d L fix (k2_off65 t1) (k2_off65_inb t1)) (ldv d L fix (k2_off66 t1) (k2_off66_inb t1)) (ldv d L fix (k2_off67 t1) (k2_off67_inb t1)) (ldv d L fix (k2_off68 t1) (k2_off68_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k2_off49_eq t1) _ x
  | ⟨1, _⟩ => exact idxvec_eq d L fix _ ⟨1, by omega⟩ t1.val ht (k2_off50_eq t1) _ x
  | ⟨2, _⟩ => exact idxvec_eq d L fix _ ⟨2, by omega⟩ t1.val ht (k2_off51_eq t1) _ x
  | ⟨3, _⟩ => exact idxvec_eq d L fix _ ⟨3, by omega⟩ t1.val ht (k2_off52_eq t1) _ x
  | ⟨4, _⟩ => exact idxvec_eq d L fix _ ⟨4, by omega⟩ t1.val ht (k2_off53_eq t1) _ x
  | ⟨5, _⟩ => exact idxvec_eq d L fix _ ⟨5, by omega⟩ t1.val ht (k2_off54_eq t1) _ x
  | ⟨6, _⟩ => exact idxvec_eq d L fix _ ⟨6, by omega⟩ t1.val ht (k2_off55_eq t1) _ x
  | ⟨7, _⟩ => exact idxvec_eq d L fix _ ⟨7, by omega⟩ t1.val ht (k2_off56_eq t1) _ x
  | ⟨8, _⟩ => exact idxvec_eq d L fix _ ⟨8, by omega⟩ t1.val ht (k2_off57_eq t1) _ x
  | ⟨9, _⟩ => exact idxvec_eq d L fix _ ⟨9, by omega⟩ t1.val ht (k2_off58_eq t1) _ x
  | ⟨10, _⟩ => exact idxvec_eq d L fix _ ⟨10, by omega⟩ t1.val ht (k2_off59_eq t1) _ x
  | ⟨11, _⟩ => exact idxvec_eq d L fix _ ⟨11, by omega⟩ t1.val ht (k2_off60_eq t1) _ x
  | ⟨12, _⟩ => exact idxvec_eq d L fix _ ⟨12, by omega⟩ t1.val ht (k2_off61_eq t1) _ x
  | ⟨13, _⟩ => exact idxvec_eq d L fix _ ⟨13, by omega⟩ t1.val ht (k2_off62_eq t1) _ x
  | ⟨14, _⟩ => exact idxvec_eq d L fix _ ⟨14, by omega⟩ t1.val ht (k2_off63_eq t1) _ x
  | ⟨15, _⟩ => exact idxvec_eq d L fix _ ⟨15, by omega⟩ t1.val ht (k2_off64_eq t1) _ x
  | ⟨16, _⟩ => exact idxvec_eq d L fix _ ⟨16, by omega⟩ t1.val ht (k2_off65_eq t1) _ x
  | ⟨17, _⟩ => exact idxvec_eq d L fix _ ⟨17, by omega⟩ t1.val ht (k2_off66_eq t1) _ x
  | ⟨18, _⟩ => exact idxvec_eq d L fix _ ⟨18, by omega⟩ t1.val ht (k2_off67_eq t1) _ x
  | ⟨19, _⟩ => exact idxvec_eq d L fix _ ⟨19, by omega⟩ t1.val ht (k2_off68_eq t1) _ x
  | ⟨n + 20, h⟩ => exact absurd h (by omega)

set_option maxHeartbeats 4000000 in
/-- A trip of the outer loop: the block's 20 neighbour vectors loaded, then the inner loop's four trips fill the block. -/
theorem outer_trip2 (fsl : Buf (Elt F) ((V d (cV L) (jV L)).loc cc2_scratch0)) (fix : Buf (Elt F) ((V d (cV L) (jV L)).loc cc2_scratch1))
    (hfix : ∀ y, (fix y).toNat < 4096) (v28 : BitVec 32) (c0_i32_15 : BitVec 32) (t1 : Fin k2_t5_loop.trips) (acc : Unit) :
    inv1 d L fsl fix (Gout negInf fsl fix) t1.val acc
      ⊢ wp frame (wpE (defs₀ (F := F)) 𝒱₀ (V d (cV L) (jV L)) none) Set.univ
          (k2_t5_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 k2_pay614 c0_i32_15 t1 acc)
          (inv1 d L fsl fix (Gout negInf fsl fix) (t1.val + 1)) := by
  have ht : t1.val < 64 := t1.isLt
  have hU : ∀ k x, ((U2 (F := F) (k2_pay452 (ldv d L fix (k2_off49 t1) (k2_off49_inb t1))) (k2_pay453 (ldv d L fix (k2_off50 t1) (k2_off50_inb t1))) (k2_pay454 (ldv d L fix (k2_off51 t1) (k2_off51_inb t1))) (k2_pay455 (ldv d L fix (k2_off52 t1) (k2_off52_inb t1))) (k2_pay456 (ldv d L fix (k2_off53 t1) (k2_off53_inb t1))) (k2_pay457 (ldv d L fix (k2_off54 t1) (k2_off54_inb t1))) (k2_pay458 (ldv d L fix (k2_off55 t1) (k2_off55_inb t1))) (k2_pay459 (ldv d L fix (k2_off56 t1) (k2_off56_inb t1))) (k2_pay460 (ldv d L fix (k2_off57 t1) (k2_off57_inb t1))) (k2_pay461 (ldv d L fix (k2_off58 t1) (k2_off58_inb t1))) (k2_pay462 (ldv d L fix (k2_off59 t1) (k2_off59_inb t1))) (ldv d L fix (k2_off60 t1) (k2_off60_inb t1)) (ldv d L fix (k2_off61 t1) (k2_off61_inb t1)) (ldv d L fix (k2_off62 t1) (k2_off62_inb t1)) (ldv d L fix (k2_off63 t1) (k2_off63_inb t1)) (ldv d L fix (k2_off64 t1) (k2_off64_inb t1)) (ldv d L fix (k2_off65 t1) (k2_off65_inb t1)) (ldv d L fix (k2_off66 t1) (k2_off66_inb t1)) (ldv d L fix (k2_off67 t1) (k2_off67_inb t1)) (ldv d L fix (k2_off68 t1) (k2_off68_inb t1))) k x).toNat < 4096 :=
    fun k x => (congrArg BitVec.toNat (U2_loaded d L fix t1 k x)).trans_lt (hfix _)
  unfold inv1
  iintro ⟨Hslab, Hidxb, %f2, Hout, %hD⟩
  unfold k2_t5_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip2 (F := F) d L fullShare fsl f2' v28 k2_pay614 c0_i32_15 t1 (Scalar.muli (Scf.iv 0#32 1#32 t1.val) 16#32) (k2_pay452 (ldv d L fix (k2_off49 t1) (k2_off49_inb t1))) (k2_pay453 (ldv d L fix (k2_off50 t1) (k2_off50_inb t1))) (k2_pay454 (ldv d L fix (k2_off51 t1) (k2_off51_inb t1))) (k2_pay455 (ldv d L fix (k2_off52 t1) (k2_off52_inb t1))) (k2_pay456 (ldv d L fix (k2_off53 t1) (k2_off53_inb t1))) (k2_pay457 (ldv d L fix (k2_off54 t1) (k2_off54_inb t1))) (k2_pay458 (ldv d L fix (k2_off55 t1) (k2_off55_inb t1))) (k2_pay459 (ldv d L fix (k2_off56 t1) (k2_off56_inb t1))) (k2_pay460 (ldv d L fix (k2_off57 t1) (k2_off57_inb t1))) (k2_pay461 (ldv d L fix (k2_off58 t1) (k2_off58_inb t1))) (k2_pay462 (ldv d L fix (k2_off59 t1) (k2_off59_inb t1))) (ldv d L fix (k2_off60 t1) (k2_off60_inb t1)) (ldv d L fix (k2_off61 t1) (k2_off61_inb t1)) (ldv d L fix (k2_off62 t1) (k2_off62_inb t1)) (ldv d L fix (k2_off63 t1) (k2_off63_inb t1)) (ldv d L fix (k2_off64 t1) (k2_off64_inb t1)) (ldv d L fix (k2_off65 t1) (k2_off65_inb t1)) (ldv d L fix (k2_off66 t1) (k2_off66_inb t1)) (ldv d L fix (k2_off67 t1) (k2_off67_inb t1)) (ldv d L fix (k2_off68 t1) (k2_off68_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k2_pay614 (fun _ => rfl) (slabRd d L fsl) (slabRd_apply d L fsl) _ hU (U2_loaded d L fix t1)
      (k2_off69 t1 t2) (k2_off69_inb t1 t2) (k2_off69_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KI

end
-- ==== Proof.KITile2C3.lean ====
/-
  One tile of the second SparseCore call, chunk 3 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KITile2Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v6_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v7_scv : Memref Cert.KernelIdeal.sig Kind.scVector Space.hbm Cert.KernelIdeal.S8x64x4096 EltTy.f32)
local notation "slabW" => (Memref.whole Cert.KernelIdeal.cc2_scratch0 : Memref Cert.KernelIdeal.sig Kind.scVector Space.vmem Cert.KernelIdeal.S65536 EltTy.f32)
local notation "idxbW" => (Memref.whole Cert.KernelIdeal.cc2_scratch1 : Memref Cert.KernelIdeal.sig Kind.scVector Space.vmem Cert.KernelIdeal.S20x1024 EltTy.i32)
local notation "outbW" => (Memref.whole Cert.KernelIdeal.cc2_scratch2 : Memref Cert.KernelIdeal.sig Kind.scVector Space.vmem Cert.KernelIdeal.S16x1024 EltTy.f32)

section Tile

variable (d : Dev nD) (L : grid2.Coords)

variable [FloatOps F]

/-- The 20 neighbour vectors of a trip of this chunk, in order. -/
abbrev U3 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k2_pay1 v75_ld, k2_pay2 v78_ld, k2_pay3 v81_ld, k2_pay4 v84_ld, k2_pay5 v87_ld, k2_pay6 v90_ld, k2_pay7 v93_ld, k2_pay8 v96_ld, k2_pay9 v99_ld]

attribute [local sl_canon] vli_bind in
set_option maxHeartbeats 8000000 in
/-- A trip of the inner loop: from the slab and the output scratch, the same with the trip's four rows stored. -/
theorem inner_trip3 (q : PosShare TreeShare) (fsl : Buf (Elt F) ((V d (cV L) (jV L)).loc cc2_scratch0)) (f2 : Buf (Elt F) ((V d (cV L) (jV L)).loc cc2_scratch2))
    (v30 : FVec F S16 .f32) (k2_t7 : Fin k2_t7_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U3 (F := F) v42 v45 v48 v51 v54 v57 v60 v63 v66 v69 v72 v75_ld v78_ld v81_ld v84_ld v87_ld v90_ld v93_ld v96_ld v99_ld) k x).toNat < 4096)
    (k2_t8 : Fin k2_t8_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k2_t8_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v30 k2_t7 v39 v42 v45 v48 v51 v54 v57 v60 v63 v66 v69 v72 v75_ld v78_ld v81_ld v84_ld v87_ld v90_ld v93_ld v96_ld v99_ld k2_t8 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U3 v42 v45 v48 v51 v54 v57 v60 v63 v66 v69 v72 v75_ld v78_ld v81_ld v84_ld v87_ld v90_ld v93_ld v96_ld v99_ld) hU (k2_off92 k2_t7 k2_t8) (k2_off92_inb k2_t7 k2_t8)
              (Scf.iv 0#32 1#32 k2_t8.val) (iv4_lt k2_t8.val k2_t8.isLt)))) := by
  have hg : (Scf.iv 0#32 1#32 k2_t8.val).toNat < 4 := iv4_lt k2_t8.val k2_t8.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k2_pay1 v75_ld x).toNat < 4096 := hU 11
  have h78 : ∀ x, (k2_pay2 v78_ld x).toNat < 4096 := hU 12
  have h81 : ∀ x, (k2_pay3 v81_ld x).toNat < 4096 := hU 13
  have h84 : ∀ x, (k2_pay4 v84_ld x).toNat < 4096 := hU 14
  have h87 : ∀ x, (k2_pay5 v87_ld x).toNat < 4096 := hU 15
  have h90 : ∀ x, (k2_pay6 v90_ld x).toNat < 4096 := hU 16
  have h93 : ∀ x, (k2_pay7 v93_ld x).toNat < 4096 := hU 17
  have h96 : ∀ x, (k2_pay8 v96_ld x).toNat < 4096 := hU 18
  have h99 : ∀ x, (k2_pay9 v99_ld x).toNat < 4096 := hU 19
  unfold k2_t8_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U3_loaded (fix : Buf (Elt F) ((V d (cV L) (jV L)).loc cc2_scratch1)) (t1 : Fin k2_t7_loop.trips) (k : Fin 20) (x : S16.Idx) :
    U3 (F := F) (k2_pay603 (ldv d L fix (k2_off72 t1) (k2_off72_inb t1))) (k2_pay604 (ldv d L fix (k2_off73 t1) (k2_off73_inb t1))) (k2_pay605 (ldv d L fix (k2_off74 t1) (k2_off74_inb t1))) (k2_pay606 (ldv d L fix (k2_off75 t1) (k2_off75_inb t1))) (k2_pay607 (ldv d L fix (k2_off76 t1) (k2_off76_inb t1))) (k2_pay608 (ldv d L fix (k2_off77 t1) (k2_off77_inb t1))) (k2_pay609 (ldv d L fix (k2_off78 t1) (k2_off78_inb t1))) (k2_pay610 (ldv d L fix (k2_off79 t1) (k2_off79_inb t1))) (k2_pay611 (ldv d L fix (k2_off80 t1) (k2_off80_inb t1))) (k2_pay612 (ldv d L fix (k2_off81 t1) (k2_off81_inb t1))) (k2_pay613 (ldv d L fix (k2_off82 t1) (k2_off82_inb t1))) (ldv d L fix (k2_off83 t1) (k2_off83_inb t1)) (ldv d L fix (k2_off84 t1) (k2_off84_inb t1)) (ldv d L fix (k2_off85 t1) (k2_off85_inb t1)) (ldv d L fix (k2_off86 t1) (k2_off86_inb t1)) (ldv d L fix (k2_off87 t1) (k2_off87_inb t1)) (ldv d L fix (k2_off88 t1) (k2_off88_inb t1)) (ldv d L fix (k2_off89 t1) (k2_off89_inb t1)) (ldv d L fix (k2_off90 t1) (k2_off90_inb t1)) (ldv d L fix (k2_off91 t1) (k2_off91_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k2_off72_eq t1) _ x
  | ⟨1, _⟩ => exact idxvec_eq d L fix _ ⟨1, by omega⟩ t1.val ht (k2_off73_eq t1) _ x
  | ⟨2, _⟩ => exact idxvec_eq d L fix _ ⟨2, by omega⟩ t1.val ht (k2_off74_eq t1) _ x
  | ⟨3, _⟩ => exact idxvec_eq d L fix _ ⟨3, by omega⟩ t1.val ht (k2_off75_eq t1) _ x
  | ⟨4, _⟩ => exact idxvec_eq d L fix _ ⟨4, by omega⟩ t1.val ht (k2_off76_eq t1) _ x
  | ⟨5, _⟩ => exact idxvec_eq d L fix _ ⟨5, by omega⟩ t1.val ht (k2_off77_eq t1) _ x
  | ⟨6, _⟩ => exact idxvec_eq d L fix _ ⟨6, by omega⟩ t1.val ht (k2_off78_eq t1) _ x
  | ⟨7, _⟩ => exact idxvec_eq d L fix _ ⟨7, by omega⟩ t1.val ht (k2_off79_eq t1) _ x
  | ⟨8, _⟩ => exact idxvec_eq d L fix _ ⟨8, by omega⟩ t1.val ht (k2_off80_eq t1) _ x
  | ⟨9, _⟩ => exact idxvec_eq d L fix _ ⟨9, by omega⟩ t1.val ht (k2_off81_eq t1) _ x
  | ⟨10, _⟩ => exact idxvec_eq d L fix _ ⟨10, by omega⟩ t1.val ht (k2_off82_eq t1) _ x
  | ⟨11, _⟩ => exact idxvec_eq d L fix _ ⟨11, by omega⟩ t1.val ht (k2_off83_eq t1) _ x
  | ⟨12, _⟩ => exact idxvec_eq d L fix _ ⟨12, by omega⟩ t1.val ht (k2_off84_eq t1) _ x
  | ⟨13, _⟩ => exact idxvec_eq d L fix _ ⟨13, by omega⟩ t1.val ht (k2_off85_eq t1) _ x
  | ⟨14, _⟩ => exact idxvec_eq d L fix _ ⟨14, by omega⟩ t1.val ht (k2_off86_eq t1) _ x
  | ⟨15, _⟩ => exact idxvec_eq d L fix _ ⟨15, by omega⟩ t1.val ht (k2_off87_eq t1) _ x
  | ⟨16, _⟩ => exact idxvec_eq d L fix _ ⟨16, by omega⟩ t1.val ht (k2_off88_eq t1) _ x
  | ⟨17, _⟩ => exact idxvec_eq d L fix _ ⟨17, by omega⟩ t1.val ht (k2_off89_eq t1) _ x
  | ⟨18, _⟩ => exact idxvec_eq d L fix _ ⟨18, by omega⟩ t1.val ht (k2_off90_eq t1) _ x
  | ⟨19, _⟩ => exact idxvec_eq d L fix _ ⟨19, by omega⟩ t1.val ht (k2_off91_eq t1) _ x
  | ⟨n + 20, h⟩ => exact absurd h (by omega)

set_option maxHeartbeats 4000000 in
/-- A trip of the outer loop: the block's 20 neighbour vectors loaded, then the inner loop's four trips fill the block. -/
theorem outer_trip3 (fsl : Buf (Elt F) ((V d (cV L) (jV L)).loc cc2_scratch0)) (fix : Buf (Elt F) ((V d (cV L) (jV L)).loc cc2_scratch1))
    (hfix : ∀ y, (fix y).toNat < 4096) (t1 : Fin k2_t7_loop.trips) (acc : Unit) :
    inv1 d L fsl fix (Gout negInf fsl fix) t1.val acc
      ⊢ wp frame (wpE (defs₀ (F := F)) 𝒱₀ (V d (cV L) (jV L)) none) Set.univ
          (k2_t7_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 k2_pay614 t1 acc)
          (inv1 d L fsl fix (Gout negInf fsl fix) (t1.val + 1)) := by
  have ht : t1.val < 64 := t1.isLt
  have hU : ∀ k x, ((U3 (F := F) (k2_pay603 (ldv d L fix (k2_off72 t1) (k2_off72_inb t1))) (k2_pay604 (ldv d L fix (k2_off73 t1) (k2_off73_inb t1))) (k2_pay605 (ldv d L fix (k2_off74 t1) (k2_off74_inb t1))) (k2_pay606 (ldv d L fix (k2_off75 t1) (k2_off75_inb t1))) (k2_pay607 (ldv d L fix (k2_off76 t1) (k2_off76_inb t1))) (k2_pay608 (ldv d L fix (k2_off77 t1) (k2_off77_inb t1))) (k2_pay609 (ldv d L fix (k2_off78 t1) (k2_off78_inb t1))) (k2_pay610 (ldv d L fix (k2_off79 t1) (k2_off79_inb t1))) (k2_pay611 (ldv d L fix (k2_off80 t1) (k2_off80_inb t1))) (k2_pay612 (ldv d L fix (k2_off81 t1) (k2_off81_inb t1))) (k2_pay613 (ldv d L fix (k2_off82 t1) (k2_off82_inb t1))) (ldv d L fix (k2_off83 t1) (k2_off83_inb t1)) (ldv d L fix (k2_off84 t1) (k2_off84_inb t1)) (ldv d L fix (k2_off85 t1) (k2_off85_inb t1)) (ldv d L fix (k2_off86 t1) (k2_off86_inb t1)) (ldv d L fix (k2_off87 t1) (k2_off87_inb t1)) (ldv d L fix (k2_off88 t1) (k2_off88_inb t1)) (ldv d L fix (k2_off89 t1) (k2_off89_inb t1)) (ldv d L fix (k2_off90 t1) (k2_off90_inb t1)) (ldv d L fix (k2_off91 t1) (k2_off91_inb t1))) k x).toNat < 4096 :=
    fun k x => (congrArg BitVec.toNat (U3_loaded d L fix t1 k x)).trans_lt (hfix _)
  unfold inv1
  iintro ⟨Hslab, Hidxb, %f2, Hout, %hD⟩
  unfold k2_t7_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip3 (F := F) d L fullShare fsl f2' k2_pay614 t1 (Scalar.muli (Scf.iv 0#32 1#32 t1.val) 16#32) (k2_pay603 (ldv d L fix (k2_off72 t1) (k2_off72_inb t1))) (k2_pay604 (ldv d L fix (k2_off73 t1) (k2_off73_inb t1))) (k2_pay605 (ldv d L fix (k2_off74 t1) (k2_off74_inb t1))) (k2_pay606 (ldv d L fix (k2_off75 t1) (k2_off75_inb t1))) (k2_pay607 (ldv d L fix (k2_off76 t1) (k2_off76_inb t1))) (k2_pay608 (ldv d L fix (k2_off77 t1) (k2_off77_inb t1))) (k2_pay609 (ldv d L fix (k2_off78 t1) (k2_off78_inb t1))) (k2_pay610 (ldv d L fix (k2_off79 t1) (k2_off79_inb t1))) (k2_pay611 (ldv d L fix (k2_off80 t1) (k2_off80_inb t1))) (k2_pay612 (ldv d L fix (k2_off81 t1) (k2_off81_inb t1))) (k2_pay613 (ldv d L fix (k2_off82 t1) (k2_off82_inb t1))) (ldv d L fix (k2_off83 t1) (k2_off83_inb t1)) (ldv d L fix (k2_off84 t1) (k2_off84_inb t1)) (ldv d L fix (k2_off85 t1) (k2_off85_inb t1)) (ldv d L fix (k2_off86 t1) (k2_off86_inb t1)) (ldv d L fix (k2_off87 t1) (k2_off87_inb t1)) (ldv d L fix (k2_off88 t1) (k2_off88_inb t1)) (ldv d L fix (k2_off89 t1) (k2_off89_inb t1)) (ldv d L fix (k2_off90 t1) (k2_off90_inb t1)) (ldv d L fix (k2_off91 t1) (k2_off91_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k2_pay614 (fun _ => rfl) (slabRd d L fsl) (slabRd_apply d L fsl) _ hU (U3_loaded d L fix t1)
      (k2_off92 t1 t2) (k2_off92_inb t1 t2) (k2_off92_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KI

end
-- ==== Proof.KITile2Glue.lean ====
/-
  One tile of the second SparseCore call: what its copies bring into the slab and the index scratch, and that the array
  the output scratch is filled with is the pooled array at the tile's output piece.
-/
import proofs.«209975_g17849884082380_cont_8to1_1483_11_alg».proof.Proof.KITile2Val
import proofs.«209975_g17849884082380_cont_8to1_1483_11_alg».proof.Proof.KIOff2

noncomputable section

namespace Cert.Proof.KI

open Cert.KernelIdeal Cert.KernelIdeal.Gen

open Idealize.ShloMosaic
open Idealize.ShloMosaic.SparseCore (S V T)
open Idealize.ShloMosaic.ValueIdx

variable {F : FTy → Type}

local notation "srcW" => (Memref.whole Cert.KernelIdeal.main_v6_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)

/-! ## The tile's input slices in closed form (the four output pieces' are in KIOff2.lean) -/

theorem off1_eq : ∀ L : grid2.Coords, k2_off1 L = ![(wid L).val / 4, (wid L).val % 4 * 65536] := by decide +kernel
theorem off2_eq : ∀ L : grid2.Coords, k2_off2 L = ![(wid L).val / 4, 0, 0] := by decide +kernel
theorem off25_eq : ∀ L : grid2.Coords, k2_off25 L = ![(wid L).val / 4, 0, 1024] := by decide +kernel
theorem off48_eq : ∀ L : grid2.Coords, k2_off48 L = ![(wid L).val / 4, 0, 2048] := by decide +kernel
theorem off71_eq : ∀ L : grid2.Coords, k2_off71 L = ![(wid L).val / 4, 0, 3072] := by decide +kernel

/-- The source's slice a tile copies into its slab, and the index array's four chunks, as the program slices them. -/
abbrev srcP (L : grid2.Coords) : Memref sig .scVector .hbm S65536 .f32 :=
  ((srcW).slice (Rect.unit (s := S8x262144) (k2_off1 L) S1x65536.size (k2_off1_inb L)) (fun _ => rfl)).squeeze S65536 squeezes_S1x65536_S65536
abbrev idxP0 (L : grid2.Coords) : Memref sig .scVector .hbm S20x1024 .i32 :=
  ((idxW).slice (Rect.unit (s := S8x20x4096) (k2_off2 L) S1x20x1024.size (k2_off2_inb L)) (fun _ => rfl)).squeeze S20x1024 squeezes_S1x20x1024_S20x1024
abbrev idxP1 (L : grid2.Coords) : Memref sig .scVector .hbm S20x1024 .i32 :=
  ((idxW).slice (Rect.unit (s := S8x20x4096) (k2_off25 L) S1x20x1024.size (k2_off25_inb L)) (fun _ => rfl)).squeeze S20x1024 squeezes_S1x20x1024_S20x1024
abbrev idxP2 (L : grid2.Coords) : Memref sig .scVector .hbm S20x1024 .i32 :=
  ((idxW).slice (Rect.unit (s := S8x20x4096) (k2_off48 L) S1x20x1024.size (k2_off48_inb L)) (fun _ => rfl)).squeeze S20x1024 squeezes_S1x20x1024_S20x1024
abbrev idxP3 (L : grid2.Coords) : Memref sig .scVector .hbm S20x1024 .i32 :=
  ((idxW).slice (Rect.unit (s := S8x20x4096) (k2_off71 L) S1x20x1024.size (k2_off71_inb L)) (fun _ => rfl)).squeeze S20x1024 squeezes_S1x20x1024_S20x1024

/-- The tile's cloud `b = wid / 4` and channel group `cg = wid % 4`. -/
def bOf (L : grid2.Coords) : Fin 8 := ⟨(wid L).val / 4, by have := (wid L).isLt; omega⟩
def cgOf (L : grid2.Coords) : Fin 4 := ⟨(wid L).val % 4, by omega⟩

/-- What the slab holds after its copy: the 16 channels of the tile's group, of the tile's cloud. -/
def slabOf (fs : Vec F S8x262144 .f32) (L : grid2.Coords) : Vec F S65536 .f32 :=
  fun p => fs (ix2 (bOf L) ⟨(cgOf L).val * 65536 + (p 0).val, by have := (cgOf L).isLt; have h : (p 0).val < 65536 := (p 0).isLt; omega⟩)
/-- What the index scratch holds after chunk `ch`'s copy: the 20 neighbour rows of the tile's cloud at the chunk's 1024 points. -/
def idxOf (fi : IVec S8x20x4096 32) (L : grid2.Coords) (ch : Fin 4) : IVec S20x1024 32 :=
  fun y => fi (ix3 (bOf L) (y 0) ⟨ch.val * 1024 + (y 1).val, by have := ch.isLt; have h : (y 1).val < 1024 := (y 1).isLt; omega⟩)

variable (d : Dev nD) (L : grid2.Coords) (fs : Buf (Elt F) (srcLoc d)) (fi : Buf (Elt F) (idxLoc d))

theorem srcP_read : (srcP L).view.read (Elt F) fs = slabOf fs L := by
  funext p
  show fs ((Rect.unit (s := S8x262144) (k2_off1 L) S1x65536.size (k2_off1_inb L)).emb
    (Shape.reshapeEquiv squeezes_S1x65536_S65536.numel_eq p)) = _
  unfold slabOf
  congr 1
  rw [Shape.reshapeEquiv_eq_of_rowMajor (y := (ix2 (0 : Fin 1) (p 0) : S1x65536.Idx)) _ (by
    rw [Shape.rowMajor_val_two, Shape.rowMajor_val_one]
    show 0 * 65536 + (p 0).val = (p 0).val
    omega)]
  funext a
  apply Fin.ext
  rw [Rect.emb_apply, Rect.off_unit, Rect.stride_unit]
  have h0 : k2_off1 L 0 = (wid L).val / 4 := by rw [off1_eq]; rfl
  have h1 : k2_off1 L 1 = (wid L).val % 4 * 65536 := by rw [off1_eq]; rfl
  match a with
  | ⟨0, _⟩ => show k2_off1 L 0 + 1 * 0 = (wid L).val / 4; omega
  | ⟨1, _⟩ => show k2_off1 L 1 + 1 * (p 0).val = (wid L).val % 4 * 65536 + (p 0).val; omega
theorem idxP0_read : (idxP0 L).view.read (Elt F) fi = idxOf fi L 0 := by
  funext y
  show fi ((Rect.unit (s := S8x20x4096) (k2_off2 L) S1x20x1024.size (k2_off2_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k2_off2 L 0 = (wid L).val / 4 := by rw [off2_eq]; rfl
  have h1 : k2_off2 L 1 = 0 := by rw [off2_eq]; rfl
  have h2 : k2_off2 L 2 = 0 := by rw [off2_eq]; rfl
  match a with
  | ⟨0, _⟩ => show k2_off2 L 0 + 1 * 0 = (wid L).val / 4; omega
  | ⟨1, _⟩ => show k2_off2 L 1 + 1 * (y 0).val = (y 0).val; omega
  | ⟨2, _⟩ => show k2_off2 L 2 + 1 * (y 1).val = 0 * 1024 + (y 1).val; omega
theorem idxP1_read : (idxP1 L).view.read (Elt F) fi = idxOf fi L 1 := by
  funext y
  show fi ((Rect.unit (s := S8x20x4096) (k2_off25 L) S1x20x1024.size (k2_off25_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k2_off25 L 0 = (wid L).val / 4 := by rw [off25_eq]; rfl
  have h1 : k2_off25 L 1 = 0 := by rw [off25_eq]; rfl
  have h2 : k2_off25 L 2 = 1024 := by rw [off25_eq]; rfl
  match a with
  | ⟨0, _⟩ => show k2_off25 L 0 + 1 * 0 = (wid L).val / 4; omega
  | ⟨1, _⟩ => show k2_off25 L 1 + 1 * (y 0).val = (y 0).val; omega
  | ⟨2, _⟩ => show k2_off25 L 2 + 1 * (y 1).val = 1 * 1024 + (y 1).val; omega
theorem idxP2_read : (idxP2 L).view.read (Elt F) fi = idxOf fi L 2 := by
  funext y
  show fi ((Rect.unit (s := S8x20x4096) (k2_off48 L) S1x20x1024.size (k2_off48_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k2_off48 L 0 = (wid L).val / 4 := by rw [off48_eq]; rfl
  have h1 : k2_off48 L 1 = 0 := by rw [off48_eq]; rfl
  have h2 : k2_off48 L 2 = 2048 := by rw [off48_eq]; rfl
  match a with
  | ⟨0, _⟩ => show k2_off48 L 0 + 1 * 0 = (wid L).val / 4; omega
  | ⟨1, _⟩ => show k2_off48 L 1 + 1 * (y 0).val = (y 0).val; omega
  | ⟨2, _⟩ => show k2_off48 L 2 + 1 * (y 1).val = 2 * 1024 + (y 1).val; omega
theorem idxP3_read : (idxP3 L).view.read (Elt F) fi = idxOf fi L 3 := by
  funext y
  show fi ((Rect.unit (s := S8x20x4096) (k2_off71 L) S1x20x1024.size (k2_off71_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k2_off71 L 0 = (wid L).val / 4 := by rw [off71_eq]; rfl
  have h1 : k2_off71 L 1 = 0 := by rw [off71_eq]; rfl
  have h2 : k2_off71 L 2 = 3072 := by rw [off71_eq]; rfl
  match a with
  | ⟨0, _⟩ => show k2_off71 L 0 + 1 * 0 = (wid L).val / 4; omega
  | ⟨1, _⟩ => show k2_off71 L 1 + 1 * (y 0).val = (y 0).val; omega
  | ⟨2, _⟩ => show k2_off71 L 2 + 1 * (y 1).val = 3 * 1024 + (y 1).val; omega

theorem idxOf_lt (hidx : ∀ j, (fi j).toNat < 4096) (ch : Fin 4) (y : S20x1024.Idx) : (idxOf fi L ch y).toNat < 4096 := hidx _

/-- Where output piece 0 of the tile sits in the pooled array: cloud b, channel 16 cg + r, point 0 + x. -/
theorem oP0_emb (y : S16x1024.Idx) :
    (oP0 L).view.emb y = (ix3 (bOf L)
      (⟨(cgOf L).val * 16 + (y 0).val, by have := (cgOf L).isLt; have h : (y 0).val < 16 := (y 0).isLt; omega⟩ : Fin 64)
      (⟨0 * 1024 + (y 1).val, by have h : (y 1).val < 1024 := (y 1).isLt; omega⟩ : Fin 4096) : S8x64x4096.Idx) := by
  show (Rect.unit (s := S8x64x4096) (k2_off24 L) S1x16x1024.size (k2_off24_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k2_off24 L 0 = (wid L).val / 4 := by rw [off24_eq]; rfl
  have h1 : k2_off24 L 1 = (wid L).val % 4 * 16 := by rw [off24_eq]; rfl
  have h2 : k2_off24 L 2 = 0 := by rw [off24_eq]; rfl
  match a with
  | ⟨0, _⟩ => show k2_off24 L 0 + 1 * 0 = (wid L).val / 4; omega
  | ⟨1, _⟩ => show k2_off24 L 1 + 1 * (y 0).val = (wid L).val % 4 * 16 + (y 0).val; omega
  | ⟨2, _⟩ => show k2_off24 L 2 + 1 * (y 1).val = 0 * 1024 + (y 1).val; omega

/-- Where output piece 1 of the tile sits in the pooled array: cloud b, channel 16 cg + r, point 1024 + x. -/
theorem oP1_emb (y : S16x1024.Idx) :
    (oP1 L).view.emb y = (ix3 (bOf L)
      (⟨(cgOf L).val * 16 + (y 0).val, by have := (cgOf L).isLt; have h : (y 0).val < 16 := (y 0).isLt; omega⟩ : Fin 64)
      (⟨1 * 1024 + (y 1).val, by have h : (y 1).val < 1024 := (y 1).isLt; omega⟩ : Fin 4096) : S8x64x4096.Idx) := by
  show (Rect.unit (s := S8x64x4096) (k2_off47 L) S1x16x1024.size (k2_off47_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k2_off47 L 0 = (wid L).val / 4 := by rw [off47_eq]; rfl
  have h1 : k2_off47 L 1 = (wid L).val % 4 * 16 := by rw [off47_eq]; rfl
  have h2 : k2_off47 L 2 = 1024 := by rw [off47_eq]; rfl
  match a with
  | ⟨0, _⟩ => show k2_off47 L 0 + 1 * 0 = (wid L).val / 4; omega
  | ⟨1, _⟩ => show k2_off47 L 1 + 1 * (y 0).val = (wid L).val % 4 * 16 + (y 0).val; omega
  | ⟨2, _⟩ => show k2_off47 L 2 + 1 * (y 1).val = 1 * 1024 + (y 1).val; omega

/-- Where output piece 2 of the tile sits in the pooled array: cloud b, channel 16 cg + r, point 2048 + x. -/
theorem oP2_emb (y : S16x1024.Idx) :
    (oP2 L).view.emb y = (ix3 (bOf L)
      (⟨(cgOf L).val * 16 + (y 0).val, by have := (cgOf L).isLt; have h : (y 0).val < 16 := (y 0).isLt; omega⟩ : Fin 64)
      (⟨2 * 1024 + (y 1).val, by have h : (y 1).val < 1024 := (y 1).isLt; omega⟩ : Fin 4096) : S8x64x4096.Idx) := by
  show (Rect.unit (s := S8x64x4096) (k2_off70 L) S1x16x1024.size (k2_off70_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k2_off70 L 0 = (wid L).val / 4 := by rw [off70_eq]; rfl
  have h1 : k2_off70 L 1 = (wid L).val % 4 * 16 := by rw [off70_eq]; rfl
  have h2 : k2_off70 L 2 = 2048 := by rw [off70_eq]; rfl
  match a with
  | ⟨0, _⟩ => show k2_off70 L 0 + 1 * 0 = (wid L).val / 4; omega
  | ⟨1, _⟩ => show k2_off70 L 1 + 1 * (y 0).val = (wid L).val % 4 * 16 + (y 0).val; omega
  | ⟨2, _⟩ => show k2_off70 L 2 + 1 * (y 1).val = 2 * 1024 + (y 1).val; omega

/-- Where output piece 3 of the tile sits in the pooled array: cloud b, channel 16 cg + r, point 3072 + x. -/
theorem oP3_emb (y : S16x1024.Idx) :
    (oP3 L).view.emb y = (ix3 (bOf L)
      (⟨(cgOf L).val * 16 + (y 0).val, by have := (cgOf L).isLt; have h : (y 0).val < 16 := (y 0).isLt; omega⟩ : Fin 64)
      (⟨3 * 1024 + (y 1).val, by have h : (y 1).val < 1024 := (y 1).isLt; omega⟩ : Fin 4096) : S8x64x4096.Idx) := by
  show (Rect.unit (s := S8x64x4096) (k2_off93 L) S1x16x1024.size (k2_off93_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k2_off93 L 0 = (wid L).val / 4 := by rw [off93_eq]; rfl
  have h1 : k2_off93 L 1 = (wid L).val % 4 * 16 := by rw [off93_eq]; rfl
  have h2 : k2_off93 L 2 = 3072 := by rw [off93_eq]; rfl
  match a with
  | ⟨0, _⟩ => show k2_off93 L 0 + 1 * 0 = (wid L).val / 4; omega
  | ⟨1, _⟩ => show k2_off93 L 1 + 1 * (y 0).val = (wid L).val % 4 * 16 + (y 0).val; omega
  | ⟨2, _⟩ => show k2_off93 L 2 + 1 * (y 1).val = 3 * 1024 + (y 1).val; omega

variable [FloatOps F]

/-- The array a chunk's output scratch is filled with is the pooled array at the tile's output piece of that chunk
    (`hidx`: every neighbour word is a point of the cloud, so reducing it into the cloud changes nothing). -/
theorem glue0 (hidx : ∀ j, (fi j).toNat < 4096) (y : S16x1024.Idx) :
    Gout (Scalar.ofBits .f32 0xFF800000#32) (slabOf fs L) (idxOf fi L 0) y = gmaxArr fs fi ((oP0 L).view.emb y) := by
  rw [oP0_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 0 (ix2 k (y 1))).toNat % 4096)
    = ((cgOf L).val * 16 + (y 0).val) * 4096 + (idxOf fi L 0 (ix2 k (y 1))).toNat % 4096
  omega
theorem glue1 (hidx : ∀ j, (fi j).toNat < 4096) (y : S16x1024.Idx) :
    Gout (Scalar.ofBits .f32 0xFF800000#32) (slabOf fs L) (idxOf fi L 1) y = gmaxArr fs fi ((oP1 L).view.emb y) := by
  rw [oP1_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 1 (ix2 k (y 1))).toNat % 4096)
    = ((cgOf L).val * 16 + (y 0).val) * 4096 + (idxOf fi L 1 (ix2 k (y 1))).toNat % 4096
  omega
theorem glue2 (hidx : ∀ j, (fi j).toNat < 4096) (y : S16x1024.Idx) :
    Gout (Scalar.ofBits .f32 0xFF800000#32) (slabOf fs L) (idxOf fi L 2) y = gmaxArr fs fi ((oP2 L).view.emb y) := by
  rw [oP2_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 2 (ix2 k (y 1))).toNat % 4096)
    = ((cgOf L).val * 16 + (y 0).val) * 4096 + (idxOf fi L 2 (ix2 k (y 1))).toNat % 4096
  omega
theorem glue3 (hidx : ∀ j, (fi j).toNat < 4096) (y : S16x1024.Idx) :
    Gout (Scalar.ofBits .f32 0xFF800000#32) (slabOf fs L) (idxOf fi L 3) y = gmaxArr fs fi ((oP3 L).view.emb y) := by
  rw [oP3_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 3 (ix2 k (y 1))).toNat % 4096)
    = ((cgOf L).val * 16 + (y 0).val) * 4096 + (idxOf fi L 3 (ix2 k (y 1))).toNat % 4096
  omega

end Cert.Proof.KI

end
-- ==== Proof.KITile2Out.lean ====
/-
  One tile of the second SparseCore call: an output piece written whole from the filled output scratch holds the pooled array.
  Values off a piece's element set are irrelevant; an element of the set lies under an index of the piece, where the
  write leaves the payload, and the payload there is the pooled array.
-/
import proofs.«209975_g17849884082380_cont_8to1_1483_11_alg».proof.Proof.KITile2Glue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 3) (Elt F) ℕ UU ℕ

variable (d : Dev nD) (L : grid2.Coords) (fs : Buf (Elt F) (srcLoc d)) (fi : Buf (Elt F) (idxLoc d))
variable [FloatOps F]

theorem out_piece0 (hidx : ∀ j, (fi j).toNat < 4096) (fo : Buf (Elt F) (outLoc d)) :
    (outLoc d ↦[oSet0 L]{fullShare} View.write (Elt F) (oP0 L).view fo (Gout (Scalar.ofBits .f32 0xFF800000#32) (slabOf fs L) (idxOf fi L 0)) Finset.univ : sProp 𝕄)
      = (outLoc d ↦[oSet0 L]{fullShare} gmaxArr fs fi) := by
  refine pointsTo_congr fun i hi => ?_
  obtain ⟨y, -, rfl⟩ := Finset.mem_map.mp hi
  rw [View.write_emb_of_mem _ _ (Finset.mem_univ y)]
  exact glue0 d L fs fi hidx y

theorem out_piece1 (hidx : ∀ j, (fi j).toNat < 4096) (fo : Buf (Elt F) (outLoc d)) :
    (outLoc d ↦[oSet1 L]{fullShare} View.write (Elt F) (oP1 L).view fo (Gout (Scalar.ofBits .f32 0xFF800000#32) (slabOf fs L) (idxOf fi L 1)) Finset.univ : sProp 𝕄)
      = (outLoc d ↦[oSet1 L]{fullShare} gmaxArr fs fi) := by
  refine pointsTo_congr fun i hi => ?_
  obtain ⟨y, -, rfl⟩ := Finset.mem_map.mp hi
  rw [View.write_emb_of_mem _ _ (Finset.mem_univ y)]
  exact glue1 d L fs fi hidx y

theorem out_piece2 (hidx : ∀ j, (fi j).toNat < 4096) (fo : Buf (Elt F) (outLoc d)) :
    (outLoc d ↦[oSet2 L]{fullShare} View.write (Elt F) (oP2 L).view fo (Gout (Scalar.ofBits .f32 0xFF800000#32) (slabOf fs L) (idxOf fi L 2)) Finset.univ : sProp 𝕄)
      = (outLoc d ↦[oSet2 L]{fullShare} gmaxArr fs fi) := by
  refine pointsTo_congr fun i hi => ?_
  obtain ⟨y, -, rfl⟩ := Finset.mem_map.mp hi
  rw [View.write_emb_of_mem _ _ (Finset.mem_univ y)]
  exact glue2 d L fs fi hidx y

theorem out_piece3 (hidx : ∀ j, (fi j).toNat < 4096) (fo : Buf (Elt F) (outLoc d)) :
    (outLoc d ↦[oSet3 L]{fullShare} View.write (Elt F) (oP3 L).view fo (Gout (Scalar.ofBits .f32 0xFF800000#32) (slabOf fs L) (idxOf fi L 3)) Finset.univ : sProp 𝕄)
      = (outLoc d ↦[oSet3 L]{fullShare} gmaxArr fs fi) := by
  refine pointsTo_congr fun i hi => ?_
  obtain ⟨y, -, rfl⟩ := Finset.mem_map.mp hi
  rw [View.write_emb_of_mem _ _ (Finset.mem_univ y)]
  exact glue3 d L fs fi hidx y

/-! ### The same for any contents that read, through the piece, as the filled scratch -/

theorem out_gen0 (hidx : ∀ j, (fi j).toNat < 4096) (g : Buf (Elt F) (outLoc d))
    (hg : ∀ y : S16x1024.Idx, (oP0 L).view.read (Elt F) g y = Gout (Scalar.ofBits .f32 0xFF800000#32) (slabOf fs L) (idxOf fi L 0) y) :
    (outLoc d ↦[oSet0 L]{fullShare} g : sProp 𝕄) = (outLoc d ↦[oSet0 L]{fullShare} gmaxArr fs fi) := by
  refine pointsTo_congr fun i hi => ?_
  obtain ⟨y, -, rfl⟩ := Finset.mem_map.mp hi
  exact (hg y).trans (glue0 d L fs fi hidx y)

theorem out_gen1 (hidx : ∀ j, (fi j).toNat < 4096) (g : Buf (Elt F) (outLoc d))
    (hg : ∀ y : S16x1024.Idx, (oP1 L).view.read (Elt F) g y = Gout (Scalar.ofBits .f32 0xFF800000#32) (slabOf fs L) (idxOf fi L 1) y) :
    (outLoc d ↦[oSet1 L]{fullShare} g : sProp 𝕄) = (outLoc d ↦[oSet1 L]{fullShare} gmaxArr fs fi) := by
  refine pointsTo_congr fun i hi => ?_
  obtain ⟨y, -, rfl⟩ := Finset.mem_map.mp hi
  exact (hg y).trans (glue1 d L fs fi hidx y)

theorem out_gen2 (hidx : ∀ j, (fi j).toNat < 4096) (g : Buf (Elt F) (outLoc d))
    (hg : ∀ y : S16x1024.Idx, (oP2 L).view.read (Elt F) g y = Gout (Scalar.ofBits .f32 0xFF800000#32) (slabOf fs L) (idxOf fi L 2) y) :
    (outLoc d ↦[oSet2 L]{fullShare} g : sProp 𝕄) = (outLoc d ↦[oSet2 L]{fullShare} gmaxArr fs fi) := by
  refine pointsTo_congr fun i hi => ?_
  obtain ⟨y, -, rfl⟩ := Finset.mem_map.mp hi
  exact (hg y).trans (glue2 d L fs fi hidx y)

theorem out_gen3 (hidx : ∀ j, (fi j).toNat < 4096) (g : Buf (Elt F) (outLoc d))
    (hg : ∀ y : S16x1024.Idx, (oP3 L).view.read (Elt F) g y = Gout (Scalar.ofBits .f32 0xFF800000#32) (slabOf fs L) (idxOf fi L 3) y) :
    (outLoc d ↦[oSet3 L]{fullShare} g : sProp 𝕄) = (outLoc d ↦[oSet3 L]{fullShare} gmaxArr fs fi) := by
  refine pointsTo_congr fun i hi => ?_
  obtain ⟨y, -, rfl⟩ := Finset.mem_map.mp hi
  exact (hg y).trans (glue3 d L fs fi hidx y)

end Cert.Proof.KI

end
-- ==== Proof.KITile2.lean ====
/-
  One tile of the second SparseCore call (the plain gather-and-max): its body's weakest precondition at a symbolic tile,
  from the resources the call deals it to the same back with its four output pieces at the pooled array.
-/
import proofs.«209975_g17849884082380_cont_8to1_1483_11_alg».proof.Proof.KITile2C0
import proofs.«209975_g17849884082380_cont_8to1_1483_11_alg».proof.Proof.KITile2C1
import proofs.«209975_g17849884082380_cont_8to1_1483_11_alg».proof.Proof.KITile2C2
import proofs.«209975_g17849884082380_cont_8to1_1483_11_alg».proof.Proof.KITile2C3
import proofs.«209975_g17849884082380_cont_8to1_1483_11_alg».proof.Proof.KITile2Out

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v6_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v7_scv : Memref Cert.KernelIdeal.sig Kind.scVector Space.hbm Cert.KernelIdeal.S8x64x4096 EltTy.f32)
local notation "slabW" => (Memref.whole Cert.KernelIdeal.cc2_scratch0 : Memref Cert.KernelIdeal.sig Kind.scVector Space.vmem Cert.KernelIdeal.S65536 EltTy.f32)
local notation "idxbW" => (Memref.whole Cert.KernelIdeal.cc2_scratch1 : Memref Cert.KernelIdeal.sig Kind.scVector Space.vmem Cert.KernelIdeal.S20x1024 EltTy.i32)
local notation "outbW" => (Memref.whole Cert.KernelIdeal.cc2_scratch2 : Memref Cert.KernelIdeal.sig Kind.scVector Space.vmem Cert.KernelIdeal.S16x1024 EltTy.f32)

section Tile

variable (d : Dev nD) (L : grid2.Coords)

/-! ## The tile's own scratch buffers and semaphores among its thread's -/

def myRefs (L : grid2.Coords) : Finset (DevRef τ sig) :=
  {(Proc.scVector (cV L) (jV L)).devRef cc2_scratch0, (Proc.scVector (cV L) (jV L)).devRef cc2_scratch1, (Proc.scVector (cV L) (jV L)).devRef cc2_scratch2}

theorem myRefs_sub : myRefs L ⊆ ownRefs (τ := τ) (.scVector (cV L) (jV L)) := by
  intro b hb
  simp only [myRefs, Finset.mem_insert, Finset.mem_singleton] at hb
  rcases hb with rfl | rfl | rfl <;> exact SparseCore.Cfg.mem_ownRefs_of_owner (p := Proc.scVector (cV L) (jV L)) rfl

theorem myRefs_sep :
    (bigSep (myRefs L) fun b => iprop(∃ f, ((d, b) : Loc nD τ sig) ↦{fullShare} f) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)) := by
  unfold myRefs
  rw [SparseCore.bigSep_insert' (by
      simp only [Finset.mem_insert, Finset.mem_singleton, not_or]
      exact ⟨fun e => absurd (Proc.devRef_injective _ e) (show (cc2_scratch0 : Ref sig .scVector) ≠ cc2_scratch1 by decide),
        fun e => absurd (Proc.devRef_injective _ e) (show (cc2_scratch0 : Ref sig .scVector) ≠ cc2_scratch2 by decide)⟩),
    SparseCore.bigSep_insert' (by
      simp only [Finset.mem_singleton]
      exact fun e => absurd (Proc.devRef_injective _ e) (show (cc2_scratch1 : Ref sig .scVector) ≠ cc2_scratch2 by decide)), bigSep_singleton]

theorem ownBufs_V2 :
    (ownBufs (V d (cV L) (jV L)) : sProp 𝕄)
      = iprop(((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f))
          ∗ bigSep ((ownRefs (τ := τ) (.scVector (cV L) (jV L))) \ myRefs L) fun b => iprop(∃ f, ((d, b) : Loc nD τ sig) ↦{fullShare} f)) := by
  unfold SparseCore.Cfg.ownBufs
  rw [SparseCore.bigSep_sdiff_split' (myRefs_sub L), myRefs_sep]

abbrev mc (d : Dev nD) (L : grid2.Coords) (s : DmaSems sig S_) : GSem nD τ sig := (V d (cV L) (jV L), .dma s.sem)

def myCells (d : Dev nD) (L : grid2.Coords) : Finset (GSem nD τ sig) :=
  {mc d L cc2_scoped0, mc d L cc2_scoped1, mc d L cc2_scoped2, mc d L cc2_scoped3, mc d L cc2_scoped4, mc d L cc2_scoped5,
    mc d L cc2_scoped6, mc d L cc2_scoped7, mc d L cc2_scoped8}

theorem mc_mem (s : DmaSems sig S_) (h : (SemLoc.dma s.sem : SemLoc sig).isScoped .scVector = true) : mc d L s ∈ ownCells (V d (cV L) (jV L)) :=
  mem_ownCells.mpr ⟨rfl, h⟩

theorem myCells_sub : myCells d L ⊆ ownCells (V d (cV L) (jV L)) := by
  intro g hg
  simp only [myCells, Finset.mem_insert, Finset.mem_singleton] at hg
  rcases hg with rfl | rfl | rfl | rfl | rfl | rfl | rfl | rfl | rfl
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)

theorem myCells_sep :
    (bigSep (myCells d L) fun g => semVal g 0 : sProp 𝕄)
      = iprop(semVal (mc d L cc2_scoped0) 0 ∗ semVal (mc d L cc2_scoped1) 0 ∗ semVal (mc d L cc2_scoped2) 0 ∗ semVal (mc d L cc2_scoped3) 0
          ∗ semVal (mc d L cc2_scoped4) 0 ∗ semVal (mc d L cc2_scoped5) 0 ∗ semVal (mc d L cc2_scoped6) 0 ∗ semVal (mc d L cc2_scoped7) 0
          ∗ semVal (mc d L cc2_scoped8) 0) := by
  unfold myCells
  have hne : ∀ {a b : DmaSems sig S_}, a.sem ≠ b.sem → mc d L a ≠ mc d L b := fun h e => h (by simpa [mc] using e)
  rw [SparseCore.bigSep_insert' (by simp only [Finset.mem_insert, Finset.mem_singleton, not_or]; refine ⟨?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_⟩ <;> exact hne (by decide)),
    SparseCore.bigSep_insert' (by simp only [Finset.mem_insert, Finset.mem_singleton, not_or]; refine ⟨?_, ?_, ?_, ?_, ?_, ?_⟩ <;> exact hne (by decide)),
    SparseCore.bigSep_insert' (by simp only [Finset.mem_insert, Finset.mem_singleton, not_or]; refine ⟨?_, ?_, ?_, ?_, ?_⟩ <;> exact hne (by decide)),
    SparseCore.bigSep_insert' (by simp only [Finset.mem_insert, Finset.mem_singleton, not_or]; refine ⟨?_, ?_, ?_, ?_⟩ <;> exact hne (by decide)),
    SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

theorem ownSems0_V2 :
    (ownSems0 (V d (cV L) (jV L)) : sProp 𝕄)
      = iprop((semVal (mc d L cc2_scoped0) 0 ∗ semVal (mc d L cc2_scoped1) 0 ∗ semVal (mc d L cc2_scoped2) 0 ∗ semVal (mc d L cc2_scoped3) 0
          ∗ semVal (mc d L cc2_scoped4) 0 ∗ semVal (mc d L cc2_scoped5) 0 ∗ semVal (mc d L cc2_scoped6) 0 ∗ semVal (mc d L cc2_scoped7) 0
          ∗ semVal (mc d L cc2_scoped8) 0)
          ∗ bigSep (ownCells (V d (cV L) (jV L)) \ myCells d L) fun g => semVal g 0) := by
  unfold SparseCore.Cfg.ownSems0
  rw [SparseCore.bigSep_sdiff_split' (myCells_sub d L), myCells_sep]

/-! ## The arrays as the tile's memrefs address them -/

theorem pts_src (q : PosShare TreeShare) (f : Buf (Elt F) (srcLoc d)) :
    ((srcW).view.loc (V d (cV L) (jV L)) ↦{q} f : sProp 𝕄) = srcLoc d ↦{q} f := by
  simp only [Memref.view_whole, View.set_whole]
theorem pts_idx (q : PosShare TreeShare) (f : Buf (Elt F) (idxLoc d)) :
    ((idxW).view.loc (V d (cV L) (jV L)) ↦{q} f : sProp 𝕄) = idxLoc d ↦{q} f := by
  simp only [Memref.view_whole, View.set_whole]
theorem pts_o0 (f : Buf (Elt F) (outLoc d)) :
    ((oP0 L).view.loc (V d (cV L) (jV L)) ↦[(oP0 L).view.set]{fullShare} f : sProp 𝕄) = outLoc d ↦[oSet0 L]{fullShare} f := rfl
theorem pts_o1 (f : Buf (Elt F) (outLoc d)) :
    ((oP1 L).view.loc (V d (cV L) (jV L)) ↦[(oP1 L).view.set]{fullShare} f : sProp 𝕄) = outLoc d ↦[oSet1 L]{fullShare} f := rfl
theorem pts_o2 (f : Buf (Elt F) (outLoc d)) :
    ((oP2 L).view.loc (V d (cV L) (jV L)) ↦[(oP2 L).view.set]{fullShare} f : sProp 𝕄) = outLoc d ↦[oSet2 L]{fullShare} f := rfl
theorem pts_o3 (f : Buf (Elt F) (outLoc d)) :
    ((oP3 L).view.loc (V d (cV L) (jV L)) ↦[(oP3 L).view.set]{fullShare} f : sProp 𝕄) = outLoc d ↦[oSet3 L]{fullShare} f := rfl
theorem pts_slab (f : Buf (Elt F) ((V d (cV L) (jV L)).loc cc2_scratch0)) :
    ((slabW).view.loc (V d (cV L) (jV L)) ↦{fullShare} f : sProp 𝕄) = (V d (cV L) (jV L)).loc cc2_scratch0 ↦{fullShare} f := rfl
theorem pts_idxb (f : Buf (Elt F) ((V d (cV L) (jV L)).loc cc2_scratch1)) :
    ((idxbW).view.loc (V d (cV L) (jV L)) ↦{fullShare} f : sProp 𝕄) = (V d (cV L) (jV L)).loc cc2_scratch1 ↦{fullShare} f := rfl
theorem pts_outb (f : Buf (Elt F) ((V d (cV L) (jV L)).loc cc2_scratch2)) :
    ((outbW).view.loc (V d (cV L) (jV L)) ↦{fullShare} f : sProp 𝕄) = (V d (cV L) (jV L)).loc cc2_scratch2 ↦{fullShare} f := rfl

variable (fs : Buf (Elt F) (srcLoc d)) (fi : Buf (Elt F) (idxLoc d))
variable [FloatOps F]

/-! ## What the copies leave in the scratches -/

theorem slab_after (f0 : Buf (Elt F) ((V d (cV L) (jV L)).loc cc2_scratch0)) :
    ((slabW).view.loc (V d (cV L) (jV L)) ↦{fullShare} View.write (Elt F) (slabW).view f0 (ReadAs.same.apply ((srcP L).view.read (Elt F) fs)) Finset.univ : sProp 𝕄)
      = ((slabW).view.loc (V d (cV L) (jV L)) ↦{fullShare} slabOf fs L) :=
  congrArg (fun f => ((slabW).view.loc (V d (cV L) (jV L)) ↦{fullShare} f : sProp 𝕄)) ((View.write_whole_univ cc2_scratch0 f0 _).trans (srcP_read d L fs))
theorem idxb_after0 (f1 : Buf (Elt F) ((V d (cV L) (jV L)).loc cc2_scratch1)) :
    ((idxbW).view.loc (V d (cV L) (jV L)) ↦{fullShare} View.write (Elt F) (idxbW).view f1 (ReadAs.same.apply ((idxP0 L).view.read (Elt F) fi)) Finset.univ : sProp 𝕄)
      = ((idxbW).view.loc (V d (cV L) (jV L)) ↦{fullShare} idxOf fi L 0) :=
  congrArg (fun f => ((idxbW).view.loc (V d (cV L) (jV L)) ↦{fullShare} f : sProp 𝕄)) ((View.write_whole_univ cc2_scratch1 f1 _).trans (idxP0_read d L fi))
theorem idxb_after1 (f1 : Buf (Elt F) ((V d (cV L) (jV L)).loc cc2_scratch1)) :
    ((idxbW).view.loc (V d (cV L) (jV L)) ↦{fullShare} View.write (Elt F) (idxbW).view f1 (ReadAs.same.apply ((idxP1 L).view.read (Elt F) fi)) Finset.univ : sProp 𝕄)
      = ((idxbW).view.loc (V d (cV L) (jV L)) ↦{fullShare} idxOf fi L 1) :=
  congrArg (fun f => ((idxbW).view.loc (V d (cV L) (jV L)) ↦{fullShare} f : sProp 𝕄)) ((View.write_whole_univ cc2_scratch1 f1 _).trans (idxP1_read d L fi))
theorem idxb_after2 (f1 : Buf (Elt F) ((V d (cV L) (jV L)).loc cc2_scratch1)) :
    ((idxbW).view.loc (V d (cV L) (jV L)) ↦{fullShare} View.write (Elt F) (idxbW).view f1 (ReadAs.same.apply ((idxP2 L).view.read (Elt F) fi)) Finset.univ : sProp 𝕄)
      = ((idxbW).view.loc (V d (cV L) (jV L)) ↦{fullShare} idxOf fi L 2) :=
  congrArg (fun f => ((idxbW).view.loc (V d (cV L) (jV L)) ↦{fullShare} f : sProp 𝕄)) ((View.write_whole_univ cc2_scratch1 f1 _).trans (idxP2_read d L fi))
theorem idxb_after3 (f1 : Buf (Elt F) ((V d (cV L) (jV L)).loc cc2_scratch1)) :
    ((idxbW).view.loc (V d (cV L) (jV L)) ↦{fullShare} View.write (Elt F) (idxbW).view f1 (ReadAs.same.apply ((idxP3 L).view.read (Elt F) fi)) Finset.univ : sProp 𝕄)
      = ((idxbW).view.loc (V d (cV L) (jV L)) ↦{fullShare} idxOf fi L 3) :=
  congrArg (fun f => ((idxbW).view.loc (V d (cV L) (jV L)) ↦{fullShare} f : sProp 𝕄)) ((View.write_whole_univ cc2_scratch1 f1 _).trans (idxP3_read d L fi))

theorem done1_zero (G : S16x1024.Idx → F .f32) (f2 : S16x1024.Idx → F .f32) : Done1 G 0 f2 :=
  fun y hy => absurd hy (by omega)

/-! ## An output piece overwritten whole reads its payload -/

omit [FloatOps F] in
theorem whole_emb (y : S16x1024.Idx) : (Rect.whole S16x1024).emb y = y := by
  funext a
  exact Fin.ext (by rw [Rect.emb_apply]; show 0 + 1 * (y a).val = (y a).val; omega)

omit [FloatOps F] in
theorem read_writes_whole (v : View sig .scVector .hbm S16x1024 .f32) (f : v.ty.Contents (Elt F)) (w : S16x1024.Idx → Elt F .f32) (y : S16x1024.Idx) :
    v.read (Elt F) (v.writes (Elt F) f [⟨Rect.whole S16x1024, w⟩]) y = w y :=
  (congrArg (v.read (Elt F) (v.writes (Elt F) f [⟨Rect.whole S16x1024, w⟩])) (whole_emb y).symm).trans
    (View.read_writes_cons_emb v f (Rect.whole S16x1024) w [] y)

set_option maxHeartbeats 8000000 in
theorem tile_body2 (hF : (K (F := F)).Facts) (hidx : ∀ j, (fi j).toNat < 4096)
    (O : CellTallies nD τ sig (HIx 3)) (W : Waits sig (HIx 3)) (hO : ∀ g, O g none = 0) :
    iprop(levAts (K (F := F)).L (K (F := F)).lev ∗ emp ∗ go2 d L fs fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_body L srcW (Memref.isWhole_whole _) idxW (Memref.isWhole_whole _) outW (Memref.isWhole_whole _)
            slabW (Memref.isWhole_whole _) idxbW (Memref.isWhole_whole _) outbW (Memref.isWhole_whole _)
            cc2_scoped0 cc2_scoped1 cc2_scoped2 cc2_scoped3 cc2_scoped4 cc2_scoped5 cc2_scoped6 cc2_scoped7 cc2_scoped8)
          fun _ => iprop(td2 d L fs fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_body_eq_skeleton]; unfold cc2_body_skel
  rw [(K (F := F)).scopedBufs_V hF d (cV L) (jV L), SparseCore.Cfg.scopedSems0_V (Val := Elt F) d (cV L) (jV L), ownSems0_V2, ownBufs_V2]
  unfold go2
  iintro ⟨#Hlv, -, ⟨Hsrc, Hidx, ⟨%fo0, Ho0⟩, ⟨%fo1, Ho1⟩, ⟨%fo2, Ho2⟩, ⟨%fo3, Ho3⟩⟩, ⟨⟨⟨%f0, Hs0⟩, ⟨%f1, Hs1⟩, ⟨%f2, Hs2⟩⟩, Hbufs⟩,
    ⟨⟨Hm0, Hm1, Hm2, Hm3, Hm4, Hm5, Hm6, Hm7, Hm8⟩, Hsems⟩, HO⟩
  ihave Hmw := ((K (F := F)).mayWaits_none (thr := V d (cV L) (jV L)) hO) $$ Hlv
  ihave Hsrc := (Entails.of_eq (pts_src (F := F) d L _ _).symm) $$ Hsrc
  ihave Hidx := (Entails.of_eq (pts_idx (F := F) d L _ _).symm) $$ Hidx
  ihave Ho0 := (Entails.of_eq (pts_o0 (F := F) d L _).symm) $$ Ho0
  ihave Ho1 := (Entails.of_eq (pts_o1 (F := F) d L _).symm) $$ Ho1
  ihave Ho2 := (Entails.of_eq (pts_o2 (F := F) d L _).symm) $$ Ho2
  ihave Ho3 := (Entails.of_eq (pts_o3 (F := F) d L _).symm) $$ Ho3
  ihave Hs0 := (Entails.of_eq (pts_slab (F := F) d L _).symm) $$ Hs0
  ihave Hs1 := (Entails.of_eq (pts_idxb (F := F) d L _).symm) $$ Hs1
  ihave Hs2 := (Entails.of_eq (pts_outb (F := F) d L _).symm) $$ Hs2
  -- the slab's copy and the first chunk's neighbour lists
  sl_exec
  unfold tile_body2.sl.dma0 tile_body2.sl.dma0_1
  ihave Hs0 := (Entails.of_eq (slab_after (F := F) d L fs _)) $$ Hs0
  -- chunk 0: the outer loop, block by block
  ihave Hs1 := (Entails.of_eq (idxb_after0 (F := F) d L fi _)) $$ Hs1
  sl_for (inv1 d L (slabOf fs L) (idxOf fi L 0) (Gout negInf (slabOf fs L) (idxOf fi L 0))) $$ [Hs0 Hs1 Hs2]
  case region => exact outer_trip0 d L (slabOf fs L) (idxOf fi L 0) (idxOf_lt d L fi hidx 0) _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g0, Hs2, %hg0⟩
  obtain rfl := done1_all hg0
  sl_exec
  -- chunk 1: the outer loop, block by block
  unfold tile_body2.sl.dma0_3
  ihave Hs1 := (Entails.of_eq (idxb_after1 (F := F) d L fi _)) $$ Hs1
  sl_for (inv1 d L (slabOf fs L) (idxOf fi L 1) (Gout negInf (slabOf fs L) (idxOf fi L 1))) $$ [Hs0 Hs1 Hs2]
  case region => exact outer_trip1 d L (slabOf fs L) (idxOf fi L 1) (idxOf_lt d L fi hidx 1) _ _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g1, Hs2, %hg1⟩
  obtain rfl := done1_all hg1
  sl_exec
  -- chunk 2: the outer loop, block by block
  unfold tile_body2.sl.dma0_5
  ihave Hs1 := (Entails.of_eq (idxb_after2 (F := F) d L fi _)) $$ Hs1
  sl_for (inv1 d L (slabOf fs L) (idxOf fi L 2) (Gout negInf (slabOf fs L) (idxOf fi L 2))) $$ [Hs0 Hs1 Hs2]
  case region => exact outer_trip2 d L (slabOf fs L) (idxOf fi L 2) (idxOf_lt d L fi hidx 2) _ _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g2, Hs2, %hg2⟩
  obtain rfl := done1_all hg2
  sl_exec
  -- chunk 3: the outer loop, block by block
  unfold tile_body2.sl.dma0_7
  ihave Hs1 := (Entails.of_eq (idxb_after3 (F := F) d L fi _)) $$ Hs1
  sl_for (inv1 d L (slabOf fs L) (idxOf fi L 3) (Gout negInf (slabOf fs L) (idxOf fi L 3))) $$ [Hs0 Hs1 Hs2]
  case region => exact outer_trip3 d L (slabOf fs L) (idxOf fi L 3) (idxOf_lt d L fi hidx 3)
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g3, Hs2, %hg3⟩
  obtain rfl := done1_all hg3
  sl_exec
  unfold tile_body2.sl.dma0_2 tile_body2.sl.dma0_4 tile_body2.sl.dma0_6 tile_body2.sl.dma0_8
  sl_step
  unfold td2
  isplitl [Hsrc Hidx Ho0 Ho1 Ho2 Ho3]
  · isplitl [Hsrc]
    · iapply (Entails.of_eq (pts_src (F := F) d L _ _)); iexact Hsrc
    isplitl [Hidx]
    · iapply (Entails.of_eq (pts_idx (F := F) d L _ _)); iexact Hidx
    isplitl [Ho0]
    · iapply (Entails.of_eq (out_gen0 (F := F) d L fs fi hidx _ (fun y => read_writes_whole _ _ _ y))); iexact Ho0
    isplitl [Ho1]
    · iapply (Entails.of_eq (out_gen1 (F := F) d L fs fi hidx _ (fun y => read_writes_whole _ _ _ y))); iexact Ho1
    isplitl [Ho2]
    · iapply (Entails.of_eq (out_gen2 (F := F) d L fs fi hidx _ (fun y => read_writes_whole _ _ _ y))); iexact Ho2
    · iapply (Entails.of_eq (out_gen3 (F := F) d L fs fi hidx _ (fun y => read_writes_whole _ _ _ y))); iexact Ho3
  isplitl [Hs0 Hs1 Hs2 Hbufs]
  · isplitl [Hs0 Hs1 Hs2]
    · isplitl [Hs0]
      · iexists _; iexact Hs0
      isplitl [Hs1]
      · iexists _; iexact Hs1
      · iexists _; iexact Hs2
    · iexact Hbufs
  isplitl [Hm0 Hm1 Hm2 Hm3 Hm4 Hm5 Hm6 Hm7 Hm8 Hsems]
  · isplitl [Hm0 Hm1 Hm2 Hm3 Hm4 Hm5 Hm6 Hm7 Hm8]
    · isplitl [Hm0]
      · iexact Hm0
      isplitl [Hm1]
      · iexact Hm1
      isplitl [Hm2]
      · iexact Hm2
      isplitl [Hm3]
      · iexact Hm3
      isplitl [Hm4]
      · iexact Hm4
      isplitl [Hm5]
      · iexact Hm5
      isplitl [Hm6]
      · iexact Hm6
      isplitl [Hm7]
      · iexact Hm7
      · iexact Hm8
    · iexact Hsems
  iexists _
  isplitr
  rotate_left
  · iexact HO
  · ipureintro
    intro p hp
    simp only [Finset.mem_insert] at hp
    rcases hp with rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inl hp

end Tile

end Cert.Proof.KI

end
-- ==== Proof.KITile4Val.lean ====
/-
  One tile of the third SparseCore call: what the gathers and the running maxima of one trip compute, and how the
  output scratch fills, a block of four rows of sixteen columns a trip.
-/
import proofs.«209975_g17849884082380_cont_8to1_1483_11_alg».proof.Proof.KITile4Defs
import Idealize.ShloMosaic.Lib.Writes
import Idealize.ShloMosaic.Lib.ValueLayout

noncomputable section

namespace Cert.Proof.KI.T4

open Cert.Proof.KI

open Cert.KernelIdeal Cert.KernelIdeal.Gen

open Idealize.ShloMosaic
open Idealize.ShloMosaic.ValueIdx

variable {F : FTy → Type}

/-- The index vector of a gather: a neighbour vector plus the offset of row `4 g + j` in the slab. -/
@[reducible] def idxOff (v : IVec S16 32) (g j : BitVec 32) : IVec S16 32 :=
  addi v (broadcast S16 (Scalar.muli (Scalar.addi (Scalar.muli g 4#32) j) 4096#32))

theorem chk_idxOff {v : IVec S16 32} {g j : BitVec 32} (hv : ∀ x, (v x).toNat < 4096) (hg : g.toNat < 4) (hj : j.toNat < 4) :
    ∀ a x, ((![idxOff v g j] : Fin 1 → IVec S16 32) a x).toNat < S65536.size a := by
  intro a x
  obtain rfl : a = 0 := Subsingleton.elim _ _
  have h := hv x
  show (v x + (g * 4#32 + j) * 4096#32).toNat < 65536
  bv_omega

/-- The slab's index of row `r` at the neighbour word `w` (reduced into the cloud). -/
def slabIx (r : Fin 16) (w : BitVec 32) : S65536.Idx :=
  ix1 ⟨r.val * 4096 + w.toNat % 4096, by have := r.isLt; have := Nat.mod_lt w.toNat (show 0 < 4096 by norm_num); omega⟩

theorem idxAt_idxOff {v : IVec S16 32} {g j : BitVec 32} (hv : ∀ x, (v x).toNat < 4096) (hg : g.toNat < 4) (hj : j.toNat < 4)
    (r : Fin 16) (hr : r.val = 4 * g.toNat + j.toNat)
    (h : ∀ a x, ((![idxOff v g j] : Fin 1 → IVec S16 32) a x).toNat < S65536.size a) (x : S16.Idx) :
    idxAt ![idxOff v g j] h x = slabIx r (v x) := by
  funext a
  obtain rfl : a = 0 := Subsingleton.elim _ _
  apply Fin.ext
  have h1 := hv x
  show (v x + (g * 4#32 + j) * 4096#32).toNat = r.val * 4096 + (v x).toNat % 4096
  rw [hr]
  bv_omega

variable [FloatOps F]

/-- A trip's running maximum for row `4 g + j`, as the program folds it: from `v30`, over the 20 neighbour vectors in order, the
    maximum with the slab gathered at the neighbour vector offset to the row. -/
def accP (v30 : FVec F S16 .f32) (fsl : Vec F S65536 .f32) (u : Fin 20 → IVec S16 32) (g j : BitVec 32)
    (h : ∀ k a x, ((![idxOff (u k) g j] : Fin 1 → IVec S16 32) a x).toNat < S65536.size a) : FVec F S16 .f32 :=
  maximumf (maximumf (maximumf (maximumf (maximumf (maximumf (maximumf (maximumf (maximumf (maximumf (maximumf (maximumf (maximumf (maximumf (maximumf (maximumf (maximumf (maximumf (maximumf (maximumf (v30) (loadIdx fsl ![idxOff (u 0) g j] (h 0))) (loadIdx fsl ![idxOff (u 1) g j] (h 1))) (loadIdx fsl ![idxOff (u 2) g j] (h 2))) (loadIdx fsl ![idxOff (u 3) g j] (h 3))) (loadIdx fsl ![idxOff (u 4) g j] (h 4))) (loadIdx fsl ![idxOff (u 5) g j] (h 5))) (loadIdx fsl ![idxOff (u 6) g j] (h 6))) (loadIdx fsl ![idxOff (u 7) g j] (h 7))) (loadIdx fsl ![idxOff (u 8) g j] (h 8))) (loadIdx fsl ![idxOff (u 9) g j] (h 9))) (loadIdx fsl ![idxOff (u 10) g j] (h 10))) (loadIdx fsl ![idxOff (u 11) g j] (h 11))) (loadIdx fsl ![idxOff (u 12) g j] (h 12))) (loadIdx fsl ![idxOff (u 13) g j] (h 13))) (loadIdx fsl ![idxOff (u 14) g j] (h 14))) (loadIdx fsl ![idxOff (u 15) g j] (h 15))) (loadIdx fsl ![idxOff (u 16) g j] (h 16))) (loadIdx fsl ![idxOff (u 17) g j] (h 17))) (loadIdx fsl ![idxOff (u 18) g j] (h 18))) (loadIdx fsl ![idxOff (u 19) g j] (h 19))

/-- The array the output scratch is filled with: entry `(r, c)` is the maximum, folded from `neg` over the 20 neighbour rows of the
    index scratch in order, of the slab's row `r` at the neighbour column `c` names. -/
def Gout (neg : F .f32) (fsl : Vec F S65536 .f32) (fix : IVec S20x1024 32) (y : S16x1024.Idx) : F .f32 :=
  (List.finRange 20).foldl (fun (acc : F .f32) (k : Fin 20) => FloatOps.maximumf acc (fsl (slabIx (y 0) (fix (ix2 k (y 1)))))) neg

theorem accP_apply (v30 : FVec F S16 .f32) (fsl : Vec F S65536 .f32) (u : Fin 20 → IVec S16 32) (g j : BitVec 32)
    (h : ∀ k a x, ((![idxOff (u k) g j] : Fin 1 → IVec S16 32) a x).toNat < S65536.size a) (x : S16.Idx) :
    accP v30 fsl u g j h x
      = (List.finRange 20).foldl (fun (acc : F .f32) (k : Fin 20) => FloatOps.maximumf acc (fsl (idxAt ![idxOff (u k) g j] (h k) x))) (v30 x) := by
  rfl

/-! ## How the output scratch fills -/

local notation "outbW" => (Memref.whole Cert.KernelIdeal.cc4_scratch2 : Memref Cert.KernelIdeal.sig Kind.scVector Space.vmem Cert.KernelIdeal.S16x1024 EltTy.f32)

/-- The output scratch is right in its first `16 i` columns. -/
def Done1 (G : S16x1024.Idx → F .f32) (i : Nat) (f2 : S16x1024.Idx → F .f32) : Prop :=
  ∀ y : S16x1024.Idx, (y 1).val < 16 * i → f2 y = G y

/-- The output scratch is right in its first `16 i` columns and, in the next 16, in its first `4 g` rows. -/
def Done2 (G : S16x1024.Idx → F .f32) (i g : Nat) (f2 : S16x1024.Idx → F .f32) : Prop :=
  ∀ y : S16x1024.Idx, ((y 1).val < 16 * i ∨ ((y 1).val < 16 * i + 16 ∧ (y 0).val < 4 * g)) → f2 y = G y

omit [FloatOps F] in
theorem done2_of_done1 {G : S16x1024.Idx → F .f32} {i : Nat} {f2 : S16x1024.Idx → F .f32} (h : Done1 G i f2) : Done2 G i 0 f2 :=
  fun y hy => h y (by rcases hy with h | ⟨_, h⟩; exact h; omega)

omit [FloatOps F] in
theorem done1_of_done2 {G : S16x1024.Idx → F .f32} {i : Nat} {f2 : S16x1024.Idx → F .f32} (h : Done2 G i 4 f2) : Done1 G (i + 1) f2 :=
  fun y hy => h y (by
    have h0 : (y 0).val < 16 := (y 0).isLt
    by_cases hc : (y 1).val < 16 * i
    · exact Or.inl hc
    · exact Or.inr ⟨by omega, by omega⟩)

omit [FloatOps F] in
theorem done1_all {G : S16x1024.Idx → F .f32} {f2 : S16x1024.Idx → F .f32} (h : Done1 G 64 f2) : f2 = G :=
  funext fun y => h y (by have h1 : (y 1).val < 1024 := (y 1).isLt; omega)

omit [FloatOps F] in
/-- A trip's four stores, each a row of sixteen columns at the function `G`, extend what is right by the trip's block. -/
theorem done2_step (G : S16x1024.Idx → F .f32) (i g : Nat)
    (f2 : (outbW).view.ty.Contents (Elt F)) (hD : Done2 G i g f2)
    (o0 o1 o2 o3 : Fin 2 → Nat) (h0 : o0 = ![4 * g + 0, 16 * i]) (h1 : o1 = ![4 * g + 1, 16 * i])
    (h2 : o2 = ![4 * g + 2, 16 * i]) (h3 : o3 = ![4 * g + 3, 16 * i])
    (b0 : ∀ a, o0 a + S1x16.size a ≤ S16x1024.size a) (b1 : ∀ a, o1 a + S1x16.size a ≤ S16x1024.size a)
    (b2 : ∀ a, o2 a + S1x16.size a ≤ S16x1024.size a) (b3 : ∀ a, o3 a + S1x16.size a ≤ S16x1024.size a)
    (P0 P1 P2 P3 : S1x16.Idx → Elt F .f32)
    (hP0 : ∀ x, P0 x = G ((Rect.unit (s := S16x1024) o0 S1x16.size b0).emb x))
    (hP1 : ∀ x, P1 x = G ((Rect.unit (s := S16x1024) o1 S1x16.size b1).emb x))
    (hP2 : ∀ x, P2 x = G ((Rect.unit (s := S16x1024) o2 S1x16.size b2).emb x))
    (hP3 : ∀ x, P3 x = G ((Rect.unit (s := S16x1024) o3 S1x16.size b3).emb x)) :
    Done2 G i (g + 1) ((outbW).view.writes (Elt F) f2
      [⟨Rect.unit (s := S16x1024) o3 S1x16.size b3, P3⟩, ⟨Rect.unit (s := S16x1024) o2 S1x16.size b2, P2⟩,
        ⟨Rect.unit (s := S16x1024) o1 S1x16.size b1, P1⟩, ⟨Rect.unit (s := S16x1024) o0 S1x16.size b0, P0⟩]) := by
  subst h0 h1 h2 h3
  intro y hy
  have hrd : ∀ f : (outbW).view.ty.Contents (Elt F), (outbW).view.read (Elt F) f y = f y := fun f => rfl
  refine (hrd _).symm.trans ?_
  by_cases hm : ∃ p ∈ ([⟨Rect.unit (s := S16x1024) ![4 * g + 3, 16 * i] S1x16.size b3, P3⟩, ⟨Rect.unit (s := S16x1024) ![4 * g + 2, 16 * i] S1x16.size b2, P2⟩,
        ⟨Rect.unit (s := S16x1024) ![4 * g + 1, 16 * i] S1x16.size b1, P1⟩, ⟨Rect.unit (s := S16x1024) ![4 * g + 0, 16 * i] S1x16.size b0, P0⟩] : List (View.Piece (Elt F) S16x1024 .f32)), y ∈ p.1.set
  · refine View.read_writes_apply_of_pieces _ _ G _ ?_ y hm
    intro p hp x
    simp only [List.mem_cons, List.mem_singleton, List.not_mem_nil, or_false] at hp
    rcases hp with rfl | rfl | rfl | rfl
    · exact hP3 x
    · exact hP2 x
    · exact hP1 x
    · exact hP0 x
  · rw [View.read_writes_apply_of_forall_not_mem _ _ y _ (fun p hp hy' => hm ⟨p, hp, hy'⟩), hrd]
    apply hD
    rcases hy with h | ⟨hc, hr⟩
    · exact Or.inl h
    · by_cases hc' : (y 1).val < 16 * i
      · exact Or.inl hc'
      · refine Or.inr ⟨hc, ?_⟩
        by_contra hr'
        apply hm
        have hmem : ∀ (r : Nat) (b : ∀ a, (![4 * g + r, 16 * i] : Fin 2 → Nat) a + S1x16.size a ≤ S16x1024.size a), (y 0).val = 4 * g + r →
            y ∈ (Rect.unit (s := S16x1024) ![4 * g + r, 16 * i] S1x16.size b).set := by
          intro r b e
          refine Rect.mem_set_unit.mpr (Fin.forall_fin_two.mpr ⟨⟨?_, ?_⟩, ⟨?_, ?_⟩⟩)
          · show 4 * g + r ≤ (y 0).val; omega
          · show (y 0).val < 4 * g + r + 1; omega
          · show 16 * i ≤ (y 1).val; omega
          · show (y 1).val < 16 * i + 16; omega
        have hcase : (y 0).val = 4 * g + 0 ∨ (y 0).val = 4 * g + 1 ∨ (y 0).val = 4 * g + 2 ∨ (y 0).val = 4 * g + 3 := by omega
        rcases hcase with e | e | e | e
        · exact ⟨⟨Rect.unit (s := S16x1024) ![4 * g + 0, 16 * i] S1x16.size b0, P0⟩, List.mem_cons_of_mem _ (List.mem_cons_of_mem _ (List.mem_cons_of_mem _ List.mem_cons_self)), hmem 0 b0 e⟩
        · exact ⟨⟨Rect.unit (s := S16x1024) ![4 * g + 1, 16 * i] S1x16.size b1, P1⟩, List.mem_cons_of_mem _ (List.mem_cons_of_mem _ List.mem_cons_self), hmem 1 b1 e⟩
        · exact ⟨⟨Rect.unit (s := S16x1024) ![4 * g + 2, 16 * i] S1x16.size b2, P2⟩, List.mem_cons_of_mem _ List.mem_cons_self, hmem 2 b2 e⟩
        · exact ⟨⟨Rect.unit (s := S16x1024) ![4 * g + 3, 16 * i] S1x16.size b3, P3⟩, List.mem_cons_self, hmem 3 b3 e⟩

/-! ## A trip's four stores -/

/-- The four stores of a trip, the last first: row `4 g + j` of the trip's block at its running maximum. -/
def tripPieces (v30 : FVec F S16 .f32) (fslR : Vec F S65536 .f32) (U : Fin 20 → IVec S16 32) (hU : ∀ k x, (U k x).toNat < 4096)
    (o : BitVec 32 → Fin 2 → Nat) (ob : ∀ r : Fin 4, ∀ a, o (BitVec.ofNat 32 r.val) a + S1x16.size a ≤ S16x1024.size a)
    (g : BitVec 32) (hg : g.toNat < 4) : List (View.Piece (Elt F) S16x1024 .f32) :=
  [⟨Rect.unit (s := S16x1024) (o 3#32) S1x16.size (ob 3), shapeCast S1x16 (accP v30 fslR U g 3#32 fun k => chk_idxOff (hU k) hg (by decide)) shapeCasts_S16_S1x16⟩,
    ⟨Rect.unit (s := S16x1024) (o 2#32) S1x16.size (ob 2), shapeCast S1x16 (accP v30 fslR U g 2#32 fun k => chk_idxOff (hU k) hg (by decide)) shapeCasts_S16_S1x16⟩,
    ⟨Rect.unit (s := S16x1024) (o 1#32) S1x16.size (ob 1), shapeCast S1x16 (accP v30 fslR U g 1#32 fun k => chk_idxOff (hU k) hg (by decide)) shapeCasts_S16_S1x16⟩,
    ⟨Rect.unit (s := S16x1024) (o 0#32) S1x16.size (ob 0), shapeCast S1x16 (accP v30 fslR U g 0#32 fun k => chk_idxOff (hU k) hg (by decide)) shapeCasts_S16_S1x16⟩]

/-- A trip's running maximum for row `4 g + j`, stored as a row of the block, is the array `Gout` there. -/
theorem pay_eq (neg : F .f32) (fsl : Vec F S65536 .f32) (fix : IVec S20x1024 32) (hfix : ∀ y, (fix y).toNat < 4096) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (g : BitVec 32) (hg : g.toNat < 4) (hgv : g.toNat = gN) (jb : BitVec 32) (hj : jb.toNat < 4)
    (ofs : Fin 2 → Nat) (hofs : ofs = ![4 * gN + jb.toNat, 16 * i]) (b : ∀ a, ofs a + S1x16.size a ≤ S16x1024.size a) (x : S1x16.Idx) :
    shapeCast S1x16 (accP v30 fslR U g jb fun k => chk_idxOff (hU k) hg hj) shapeCasts_S16_S1x16 x
      = Gout neg fsl fix ((Rect.unit (s := S16x1024) ofs S1x16.size b).emb x) := by
  subst hofs
  obtain ⟨u, l, rfl⟩ : ∃ (u : Fin 1) (l : Fin 16), x = ix2 u l := ⟨x 0, x 1, eq_ix2 x⟩
  rw [shapeCast_a_1a_apply, accP_apply, hv30]
  unfold Gout
  have hx0 : u.val = 0 := by omega
  have e0 : ((Rect.unit (s := S16x1024) ![4 * gN + jb.toNat, 16 * i] S1x16.size b).emb (ix2 u l)) 0 = (⟨4 * gN + jb.toNat, by omega⟩ : Fin 16) :=
    Fin.ext (by rw [Rect.emb_apply]; show 4 * gN + jb.toNat + 1 * u.val = 4 * gN + jb.toNat; omega)
  have e1 : ((Rect.unit (s := S16x1024) ![4 * gN + jb.toNat, 16 * i] S1x16.size b).emb (ix2 u l)) 1 = (⟨16 * i + l.val, by omega⟩ : Fin 1024) :=
    Fin.ext (by rw [Rect.emb_apply]; show 16 * i + 1 * l.val = 16 * i + l.val; omega)
  refine List.foldl_ext _ _ _ fun acc k _ => ?_
  rw [idxAt_idxOff (hU k) hg hj ⟨4 * gN + jb.toNat, by omega⟩ (by show 4 * gN + jb.toNat = 4 * g.toNat + jb.toNat; omega), hR, hUfix, e0, e1]

/-- A trip's four stores extend what is right in the output scratch by the trip's block. -/
theorem tripPieces_done (neg : F .f32) (fsl : Vec F S65536 .f32) (fix : IVec S20x1024 32) (hfix : ∀ y, (fix y).toNat < 4096) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (o : BitVec 32 → Fin 2 → Nat) (ob : ∀ r : Fin 4, ∀ a, o (BitVec.ofNat 32 r.val) a + S1x16.size a ≤ S16x1024.size a)
    (ho : ∀ r : Fin 4, o (BitVec.ofNat 32 r.val) = ![4 * gN + r.val, 16 * i])
    (g : BitVec 32) (hg : g.toNat < 4) (hgv : g.toNat = gN)
    (f2 : (outbW).view.ty.Contents (Elt F)) (hD : Done2 (Gout neg fsl fix) i gN f2) :
    Done2 (Gout neg fsl fix) i (gN + 1) ((outbW).view.writes (Elt F) f2 (tripPieces v30 fslR U hU o ob g hg)) := by
  unfold tripPieces
  exact done2_step (Gout neg fsl fix) i gN f2 hD (o 0#32) (o 1#32) (o 2#32) (o 3#32) (ho 0) (ho 1) (ho 2) (ho 3) (ob 0) (ob 1) (ob 2) (ob 3) _ _ _ _
    (pay_eq neg fsl fix hfix i gN hi v30 hv30 fslR hR U hU hUfix g hg hgv 0#32 (by decide) _ (ho 0) (ob 0))
    (pay_eq neg fsl fix hfix i gN hi v30 hv30 fslR hR U hU hUfix g hg hgv 1#32 (by decide) _ (ho 1) (ob 1))
    (pay_eq neg fsl fix hfix i gN hi v30 hv30 fslR hR U hU hUfix g hg hgv 2#32 (by decide) _ (ho 2) (ob 2))
    (pay_eq neg fsl fix hfix i gN hi v30 hv30 fslR hR U hU hUfix g hg hgv 3#32 (by decide) _ (ho 3) (ob 3))

end Cert.Proof.KI.T4

end
-- ==== Proof.KITile4Inv.lean ====
/-
  One tile of the third SparseCore call (the plain gather-and-max): its body's weakest precondition at a symbolic tile,
  from the resources the call deals it to the same back with its four output pieces at the pooled array.
-/
import proofs.«209975_g17849884082380_cont_8to1_1483_11_alg».proof.Proof.KITile4Defs
import proofs.«209975_g17849884082380_cont_8to1_1483_11_alg».proof.Proof.KITile4Val
import Idealize.ShloMosaic.Lib.Writes
import Idealize.ShloMosaic.Lib.ValueLayout

noncomputable section

namespace Cert.Proof.KI.T4

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v10_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v11_scv : Memref Cert.KernelIdeal.sig Kind.scVector Space.hbm Cert.KernelIdeal.S8x64x4096 EltTy.f32)
local notation "slabW" => (Memref.whole Cert.KernelIdeal.cc4_scratch0 : Memref Cert.KernelIdeal.sig Kind.scVector Space.vmem Cert.KernelIdeal.S65536 EltTy.f32)
local notation "idxbW" => (Memref.whole Cert.KernelIdeal.cc4_scratch1 : Memref Cert.KernelIdeal.sig Kind.scVector Space.vmem Cert.KernelIdeal.S20x1024 EltTy.i32)
local notation "outbW" => (Memref.whole Cert.KernelIdeal.cc4_scratch2 : Memref Cert.KernelIdeal.sig Kind.scVector Space.vmem Cert.KernelIdeal.S16x1024 EltTy.f32)

section Tile

variable (d : Dev nD) (L : grid4.Coords)

/-- The indexed load at the head of a program is the plain load of the whole base, gathered. -/
theorem vli_bind {Λ : Labels} {p : Proc τ} {s t : Shape} {e : EltTy} {α : Type} [FloatOps F] (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = .op (.load base (.whole s) (View.loadsAt_whole hl)) fun f => k (loadIdx f idxs h) := rfl

/-- What a gather reads of the slab's contents. -/
abbrev slabRd (fsl : Buf (Elt F) ((V d (cV L) (jV L)).loc cc4_scratch0)) : Vec F S65536 .f32 :=
  (slabW).view.readAt (Elt F) (LoadRect.whole S65536) fsl

theorem slabRd_apply (fsl : Buf (Elt F) ((V d (cV L) (jV L)).loc cc4_scratch0)) (p : S65536.Idx) : slabRd d L fsl p = fsl p := by
  show fsl ((LoadRect.whole S65536).idx p) = fsl p
  congr 1
  funext a
  exact Fin.ext (by show 0 + 1 * (p a).val = (p a).val; omega)

theorem iv4_lt (t : Nat) (h : t < 4) : (Scf.iv 0#32 1#32 t).toNat < 4 := by
  unfold Scf.iv
  bv_omega

theorem iv4_val (t : Nat) (h : t < 4) : (Scf.iv 0#32 1#32 t).toNat = t := by
  unfold Scf.iv
  bv_omega

/-- A neighbour vector loaded from the index scratch: row `k`'s 16 columns from column `16 i`. -/
theorem idxvec_eq (fix : Buf (Elt F) ((V d (cV L) (jV L)).loc cc4_scratch1)) (off : Fin 2 → Nat) (k : Fin 20) (i : Nat) (hi : i < 64) (hoff : off = ![k.val, 16 * i])
    (b : ∀ a, off a + S1x16.size a ≤ S20x1024.size a) (x : S16.Idx) :
    shapeCast S16 ((idxbW).view.readAt (Elt F) (Rect.unit (s := S20x1024) off S1x16.size b).toLoadRect fix) shapeCasts_S1x16_S16 x
      = fix (ix2 k ⟨16 * i + (x 0).val, by have h16 : (x 0).val < 16 := (x 0).isLt; show 16 * i + (x 0).val < 1024; omega⟩) := by
  subst hoff
  obtain ⟨l, rfl⟩ : ∃ l : Fin 16, x = ix1 l := ⟨x 0, eq_ix1 x⟩
  rw [shapeCast_1a_a_apply, View.readAt_apply]
  have hix : (Rect.unit (s := S20x1024) ![k.val, 16 * i] S1x16.size b).toLoadRect.idx (ix2 (0 : Fin 1) l)
      = ix2 k ⟨16 * i + l.val, by have := l.isLt; omega⟩ := by
    funext a
    match a with
    | ⟨0, _⟩ => exact Fin.ext (by show k.val + 1 * 0 = k.val; omega)
    | ⟨1, _⟩ => exact Fin.ext (by show 16 * i + 1 * l.val = 16 * i + l.val; omega)
  rw [hix]
  rfl

/-- A load of sixteen columns of a row of the index scratch. -/
abbrev ldv (fix : Buf (Elt F) ((V d (cV L) (jV L)).loc cc4_scratch1)) (off : Fin 2 → Nat) (b : ∀ a, off a + S1x16.size a ≤ S20x1024.size a) : Vec F S1x16 .i32 :=
  (idxbW).view.readAt (Elt F) (Rect.unit (s := S20x1024) off S1x16.size b).toLoadRect fix

variable [FloatOps F]

/-- Minus infinity, as the program writes it. -/
abbrev negInf : F .f32 := Scalar.ofBits .f32 0xFF800000#32

/-- The inner loop's invariant in block `i`: the slab, and the output scratch right in its first `16 i` columns and in
    the first `4 g` rows of the next 16. -/
def inv2 (fsl : Buf (Elt F) ((V d (cV L) (jV L)).loc cc4_scratch0)) (G : S16x1024.Idx → F .f32) (i : Nat) (g : Nat) (_ : Unit) : sProp 𝕄 :=
  iprop(((slabW).view.loc (V d (cV L) (jV L)) ↦{fullShare} fsl)
    ∗ ∃ f2, ((outbW).view.loc (V d (cV L) (jV L)) ↦{fullShare} f2) ∗ ⌜Done2 G i g f2⌝)

/-- The outer loop's invariant: the slab, the index scratch, and the output scratch right in its first `16 i` columns. -/
def inv1 (fsl : Buf (Elt F) ((V d (cV L) (jV L)).loc cc4_scratch0)) (fix : Buf (Elt F) ((V d (cV L) (jV L)).loc cc4_scratch1))
    (G : S16x1024.Idx → F .f32) (i : Nat) (_ : Unit) : sProp 𝕄 :=
  iprop(((slabW).view.loc (V d (cV L) (jV L)) ↦{fullShare} fsl) ∗ ((idxbW).view.loc (V d (cV L) (jV L)) ↦{fullShare} fix)
    ∗ ∃ f2, ((outbW).view.loc (V d (cV L) (jV L)) ↦{fullShare} f2) ∗ ⌜Done1 G i f2⌝)

end Tile

end Cert.Proof.KI.T4

end
-- ==== Proof.KITile4C0.lean ====
/-
  One tile of the third SparseCore call, chunk 0 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KITile4Inv

noncomputable section

namespace Cert.Proof.KI.T4

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v10_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v11_scv : Memref Cert.KernelIdeal.sig Kind.scVector Space.hbm Cert.KernelIdeal.S8x64x4096 EltTy.f32)
local notation "slabW" => (Memref.whole Cert.KernelIdeal.cc4_scratch0 : Memref Cert.KernelIdeal.sig Kind.scVector Space.vmem Cert.KernelIdeal.S65536 EltTy.f32)
local notation "idxbW" => (Memref.whole Cert.KernelIdeal.cc4_scratch1 : Memref Cert.KernelIdeal.sig Kind.scVector Space.vmem Cert.KernelIdeal.S20x1024 EltTy.i32)
local notation "outbW" => (Memref.whole Cert.KernelIdeal.cc4_scratch2 : Memref Cert.KernelIdeal.sig Kind.scVector Space.vmem Cert.KernelIdeal.S16x1024 EltTy.f32)

section Tile

variable (d : Dev nD) (L : grid4.Coords)

variable [FloatOps F]

/-- The 20 neighbour vectors of a trip of this chunk, in order. -/
abbrev U0 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k4_pay615 v75_ld, k4_pay616 v78_ld, k4_pay617 v81_ld, k4_pay618 v84_ld, k4_pay619 v87_ld, k4_pay620 v90_ld, k4_pay621 v93_ld, k4_pay622 v96_ld, k4_pay623 v99_ld]

attribute [local sl_canon] vli_bind in
set_option maxHeartbeats 8000000 in
/-- A trip of the inner loop: from the slab and the output scratch, the same with the trip's four rows stored. -/
theorem inner_trip0 (q : PosShare TreeShare) (fsl : Buf (Elt F) ((V d (cV L) (jV L)).loc cc4_scratch0)) (f2 : Buf (Elt F) ((V d (cV L) (jV L)).loc cc4_scratch2))
    (v28 : BitVec 32) (v30 : FVec F S16 .f32) (k4_t1 : Fin k4_t1_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U0 (F := F) v42 v45 v48 v51 v54 v57 v60 v63 v66 v69 v72 v75_ld v78_ld v81_ld v84_ld v87_ld v90_ld v93_ld v96_ld v99_ld) k x).toNat < 4096)
    (k4_t2 : Fin k4_t2_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k4_t2_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 v30 k4_t1 v39 v42 v45 v48 v51 v54 v57 v60 v63 v66 v69 v72 v75_ld v78_ld v81_ld v84_ld v87_ld v90_ld v93_ld v96_ld v99_ld k4_t2 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U0 v42 v45 v48 v51 v54 v57 v60 v63 v66 v69 v72 v75_ld v78_ld v81_ld v84_ld v87_ld v90_ld v93_ld v96_ld v99_ld) hU (k4_off23 k4_t1 k4_t2) (k4_off23_inb k4_t1 k4_t2)
              (Scf.iv 0#32 1#32 k4_t2.val) (iv4_lt k4_t2.val k4_t2.isLt)))) := by
  have hg : (Scf.iv 0#32 1#32 k4_t2.val).toNat < 4 := iv4_lt k4_t2.val k4_t2.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k4_pay615 v75_ld x).toNat < 4096 := hU 11
  have h78 : ∀ x, (k4_pay616 v78_ld x).toNat < 4096 := hU 12
  have h81 : ∀ x, (k4_pay617 v81_ld x).toNat < 4096 := hU 13
  have h84 : ∀ x, (k4_pay618 v84_ld x).toNat < 4096 := hU 14
  have h87 : ∀ x, (k4_pay619 v87_ld x).toNat < 4096 := hU 15
  have h90 : ∀ x, (k4_pay620 v90_ld x).toNat < 4096 := hU 16
  have h93 : ∀ x, (k4_pay621 v93_ld x).toNat < 4096 := hU 17
  have h96 : ∀ x, (k4_pay622 v96_ld x).toNat < 4096 := hU 18
  have h99 : ∀ x, (k4_pay623 v99_ld x).toNat < 4096 := hU 19
  unfold k4_t2_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U0_loaded (fix : Buf (Elt F) ((V d (cV L) (jV L)).loc cc4_scratch1)) (t1 : Fin k4_t1_loop.trips) (k : Fin 20) (x : S16.Idx) :
    U0 (F := F) (k4_pay150 (ldv d L fix (k4_off3 t1) (k4_off3_inb t1))) (k4_pay151 (ldv d L fix (k4_off4 t1) (k4_off4_inb t1))) (k4_pay152 (ldv d L fix (k4_off5 t1) (k4_off5_inb t1))) (k4_pay153 (ldv d L fix (k4_off6 t1) (k4_off6_inb t1))) (k4_pay154 (ldv d L fix (k4_off7 t1) (k4_off7_inb t1))) (k4_pay155 (ldv d L fix (k4_off8 t1) (k4_off8_inb t1))) (k4_pay156 (ldv d L fix (k4_off9 t1) (k4_off9_inb t1))) (k4_pay157 (ldv d L fix (k4_off10 t1) (k4_off10_inb t1))) (k4_pay158 (ldv d L fix (k4_off11 t1) (k4_off11_inb t1))) (k4_pay159 (ldv d L fix (k4_off12 t1) (k4_off12_inb t1))) (k4_pay160 (ldv d L fix (k4_off13 t1) (k4_off13_inb t1))) (ldv d L fix (k4_off14 t1) (k4_off14_inb t1)) (ldv d L fix (k4_off15 t1) (k4_off15_inb t1)) (ldv d L fix (k4_off16 t1) (k4_off16_inb t1)) (ldv d L fix (k4_off17 t1) (k4_off17_inb t1)) (ldv d L fix (k4_off18 t1) (k4_off18_inb t1)) (ldv d L fix (k4_off19 t1) (k4_off19_inb t1)) (ldv d L fix (k4_off20 t1) (k4_off20_inb t1)) (ldv d L fix (k4_off21 t1) (k4_off21_inb t1)) (ldv d L fix (k4_off22 t1) (k4_off22_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k4_off3_eq t1) _ x
  | ⟨1, _⟩ => exact idxvec_eq d L fix _ ⟨1, by omega⟩ t1.val ht (k4_off4_eq t1) _ x
  | ⟨2, _⟩ => exact idxvec_eq d L fix _ ⟨2, by omega⟩ t1.val ht (k4_off5_eq t1) _ x
  | ⟨3, _⟩ => exact idxvec_eq d L fix _ ⟨3, by omega⟩ t1.val ht (k4_off6_eq t1) _ x
  | ⟨4, _⟩ => exact idxvec_eq d L fix _ ⟨4, by omega⟩ t1.val ht (k4_off7_eq t1) _ x
  | ⟨5, _⟩ => exact idxvec_eq d L fix _ ⟨5, by omega⟩ t1.val ht (k4_off8_eq t1) _ x
  | ⟨6, _⟩ => exact idxvec_eq d L fix _ ⟨6, by omega⟩ t1.val ht (k4_off9_eq t1) _ x
  | ⟨7, _⟩ => exact idxvec_eq d L fix _ ⟨7, by omega⟩ t1.val ht (k4_off10_eq t1) _ x
  | ⟨8, _⟩ => exact idxvec_eq d L fix _ ⟨8, by omega⟩ t1.val ht (k4_off11_eq t1) _ x
  | ⟨9, _⟩ => exact idxvec_eq d L fix _ ⟨9, by omega⟩ t1.val ht (k4_off12_eq t1) _ x
  | ⟨10, _⟩ => exact idxvec_eq d L fix _ ⟨10, by omega⟩ t1.val ht (k4_off13_eq t1) _ x
  | ⟨11, _⟩ => exact idxvec_eq d L fix _ ⟨11, by omega⟩ t1.val ht (k4_off14_eq t1) _ x
  | ⟨12, _⟩ => exact idxvec_eq d L fix _ ⟨12, by omega⟩ t1.val ht (k4_off15_eq t1) _ x
  | ⟨13, _⟩ => exact idxvec_eq d L fix _ ⟨13, by omega⟩ t1.val ht (k4_off16_eq t1) _ x
  | ⟨14, _⟩ => exact idxvec_eq d L fix _ ⟨14, by omega⟩ t1.val ht (k4_off17_eq t1) _ x
  | ⟨15, _⟩ => exact idxvec_eq d L fix _ ⟨15, by omega⟩ t1.val ht (k4_off18_eq t1) _ x
  | ⟨16, _⟩ => exact idxvec_eq d L fix _ ⟨16, by omega⟩ t1.val ht (k4_off19_eq t1) _ x
  | ⟨17, _⟩ => exact idxvec_eq d L fix _ ⟨17, by omega⟩ t1.val ht (k4_off20_eq t1) _ x
  | ⟨18, _⟩ => exact idxvec_eq d L fix _ ⟨18, by omega⟩ t1.val ht (k4_off21_eq t1) _ x
  | ⟨19, _⟩ => exact idxvec_eq d L fix _ ⟨19, by omega⟩ t1.val ht (k4_off22_eq t1) _ x
  | ⟨n + 20, h⟩ => exact absurd h (by omega)

set_option maxHeartbeats 4000000 in
/-- A trip of the outer loop: the block's 20 neighbour vectors loaded, then the inner loop's four trips fill the block. -/
theorem outer_trip0 (fsl : Buf (Elt F) ((V d (cV L) (jV L)).loc cc4_scratch0)) (fix : Buf (Elt F) ((V d (cV L) (jV L)).loc cc4_scratch1))
    (hfix : ∀ y, (fix y).toNat < 4096) (v28 : BitVec 32) (t1 : Fin k4_t1_loop.trips) (acc : Unit) :
    inv1 d L fsl fix (Gout negInf fsl fix) t1.val acc
      ⊢ wp frame (wpE (defs₀ (F := F)) 𝒱₀ (V d (cV L) (jV L)) none) Set.univ
          (k4_t1_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 k4_pay614 t1 acc)
          (inv1 d L fsl fix (Gout negInf fsl fix) (t1.val + 1)) := by
  have ht : t1.val < 64 := t1.isLt
  have hU : ∀ k x, ((U0 (F := F) (k4_pay150 (ldv d L fix (k4_off3 t1) (k4_off3_inb t1))) (k4_pay151 (ldv d L fix (k4_off4 t1) (k4_off4_inb t1))) (k4_pay152 (ldv d L fix (k4_off5 t1) (k4_off5_inb t1))) (k4_pay153 (ldv d L fix (k4_off6 t1) (k4_off6_inb t1))) (k4_pay154 (ldv d L fix (k4_off7 t1) (k4_off7_inb t1))) (k4_pay155 (ldv d L fix (k4_off8 t1) (k4_off8_inb t1))) (k4_pay156 (ldv d L fix (k4_off9 t1) (k4_off9_inb t1))) (k4_pay157 (ldv d L fix (k4_off10 t1) (k4_off10_inb t1))) (k4_pay158 (ldv d L fix (k4_off11 t1) (k4_off11_inb t1))) (k4_pay159 (ldv d L fix (k4_off12 t1) (k4_off12_inb t1))) (k4_pay160 (ldv d L fix (k4_off13 t1) (k4_off13_inb t1))) (ldv d L fix (k4_off14 t1) (k4_off14_inb t1)) (ldv d L fix (k4_off15 t1) (k4_off15_inb t1)) (ldv d L fix (k4_off16 t1) (k4_off16_inb t1)) (ldv d L fix (k4_off17 t1) (k4_off17_inb t1)) (ldv d L fix (k4_off18 t1) (k4_off18_inb t1)) (ldv d L fix (k4_off19 t1) (k4_off19_inb t1)) (ldv d L fix (k4_off20 t1) (k4_off20_inb t1)) (ldv d L fix (k4_off21 t1) (k4_off21_inb t1)) (ldv d L fix (k4_off22 t1) (k4_off22_inb t1))) k x).toNat < 4096 :=
    fun k x => (congrArg BitVec.toNat (U0_loaded d L fix t1 k x)).trans_lt (hfix _)
  unfold inv1
  iintro ⟨Hslab, Hidxb, %f2, Hout, %hD⟩
  unfold k4_t1_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip0 (F := F) d L fullShare fsl f2' v28 k4_pay614 t1 (Scalar.muli (Scf.iv 0#32 1#32 t1.val) 16#32) (k4_pay150 (ldv d L fix (k4_off3 t1) (k4_off3_inb t1))) (k4_pay151 (ldv d L fix (k4_off4 t1) (k4_off4_inb t1))) (k4_pay152 (ldv d L fix (k4_off5 t1) (k4_off5_inb t1))) (k4_pay153 (ldv d L fix (k4_off6 t1) (k4_off6_inb t1))) (k4_pay154 (ldv d L fix (k4_off7 t1) (k4_off7_inb t1))) (k4_pay155 (ldv d L fix (k4_off8 t1) (k4_off8_inb t1))) (k4_pay156 (ldv d L fix (k4_off9 t1) (k4_off9_inb t1))) (k4_pay157 (ldv d L fix (k4_off10 t1) (k4_off10_inb t1))) (k4_pay158 (ldv d L fix (k4_off11 t1) (k4_off11_inb t1))) (k4_pay159 (ldv d L fix (k4_off12 t1) (k4_off12_inb t1))) (k4_pay160 (ldv d L fix (k4_off13 t1) (k4_off13_inb t1))) (ldv d L fix (k4_off14 t1) (k4_off14_inb t1)) (ldv d L fix (k4_off15 t1) (k4_off15_inb t1)) (ldv d L fix (k4_off16 t1) (k4_off16_inb t1)) (ldv d L fix (k4_off17 t1) (k4_off17_inb t1)) (ldv d L fix (k4_off18 t1) (k4_off18_inb t1)) (ldv d L fix (k4_off19 t1) (k4_off19_inb t1)) (ldv d L fix (k4_off20 t1) (k4_off20_inb t1)) (ldv d L fix (k4_off21 t1) (k4_off21_inb t1)) (ldv d L fix (k4_off22 t1) (k4_off22_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k4_pay614 (fun _ => rfl) (slabRd d L fsl) (slabRd_apply d L fsl) _ hU (U0_loaded d L fix t1)
      (k4_off23 t1 t2) (k4_off23_inb t1 t2) (k4_off23_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KI.T4

end
-- ==== Proof.KITile4C1.lean ====
/-
  One tile of the third SparseCore call, chunk 1 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KITile4Inv

noncomputable section

namespace Cert.Proof.KI.T4

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v10_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v11_scv : Memref Cert.KernelIdeal.sig Kind.scVector Space.hbm Cert.KernelIdeal.S8x64x4096 EltTy.f32)
local notation "slabW" => (Memref.whole Cert.KernelIdeal.cc4_scratch0 : Memref Cert.KernelIdeal.sig Kind.scVector Space.vmem Cert.KernelIdeal.S65536 EltTy.f32)
local notation "idxbW" => (Memref.whole Cert.KernelIdeal.cc4_scratch1 : Memref Cert.KernelIdeal.sig Kind.scVector Space.vmem Cert.KernelIdeal.S20x1024 EltTy.i32)
local notation "outbW" => (Memref.whole Cert.KernelIdeal.cc4_scratch2 : Memref Cert.KernelIdeal.sig Kind.scVector Space.vmem Cert.KernelIdeal.S16x1024 EltTy.f32)

section Tile

variable (d : Dev nD) (L : grid4.Coords)

variable [FloatOps F]

/-- The 20 neighbour vectors of a trip of this chunk, in order. -/
abbrev U1 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k4_pay624 v75_ld, k4_pay625 v78_ld, k4_pay626 v81_ld, k4_pay627 v84_ld, k4_pay628 v87_ld, k4_pay629 v90_ld, k4_pay630 v93_ld, k4_pay631 v96_ld, k4_pay632 v99_ld]

attribute [local sl_canon] vli_bind in
set_option maxHeartbeats 8000000 in
/-- A trip of the inner loop: from the slab and the output scratch, the same with the trip's four rows stored. -/
theorem inner_trip1 (q : PosShare TreeShare) (fsl : Buf (Elt F) ((V d (cV L) (jV L)).loc cc4_scratch0)) (f2 : Buf (Elt F) ((V d (cV L) (jV L)).loc cc4_scratch2))
    (v28 : BitVec 32) (v30 : FVec F S16 .f32) (c0_i32_15 : BitVec 32) (k4_t3 : Fin k4_t3_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U1 (F := F) v42 v45 v48 v51 v54 v57 v60 v63 v66 v69 v72 v75_ld v78_ld v81_ld v84_ld v87_ld v90_ld v93_ld v96_ld v99_ld) k x).toNat < 4096)
    (k4_t4 : Fin k4_t4_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k4_t4_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 v30 c0_i32_15 k4_t3 v39 v42 v45 v48 v51 v54 v57 v60 v63 v66 v69 v72 v75_ld v78_ld v81_ld v84_ld v87_ld v90_ld v93_ld v96_ld v99_ld k4_t4 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U1 v42 v45 v48 v51 v54 v57 v60 v63 v66 v69 v72 v75_ld v78_ld v81_ld v84_ld v87_ld v90_ld v93_ld v96_ld v99_ld) hU (k4_off46 k4_t3 k4_t4) (k4_off46_inb k4_t3 k4_t4)
              (Scf.iv 0#32 1#32 k4_t4.val) (iv4_lt k4_t4.val k4_t4.isLt)))) := by
  have hg : (Scf.iv 0#32 1#32 k4_t4.val).toNat < 4 := iv4_lt k4_t4.val k4_t4.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k4_pay624 v75_ld x).toNat < 4096 := hU 11
  have h78 : ∀ x, (k4_pay625 v78_ld x).toNat < 4096 := hU 12
  have h81 : ∀ x, (k4_pay626 v81_ld x).toNat < 4096 := hU 13
  have h84 : ∀ x, (k4_pay627 v84_ld x).toNat < 4096 := hU 14
  have h87 : ∀ x, (k4_pay628 v87_ld x).toNat < 4096 := hU 15
  have h90 : ∀ x, (k4_pay629 v90_ld x).toNat < 4096 := hU 16
  have h93 : ∀ x, (k4_pay630 v93_ld x).toNat < 4096 := hU 17
  have h96 : ∀ x, (k4_pay631 v96_ld x).toNat < 4096 := hU 18
  have h99 : ∀ x, (k4_pay632 v99_ld x).toNat < 4096 := hU 19
  unfold k4_t4_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U1_loaded (fix : Buf (Elt F) ((V d (cV L) (jV L)).loc cc4_scratch1)) (t1 : Fin k4_t3_loop.trips) (k : Fin 20) (x : S16.Idx) :
    U1 (F := F) (k4_pay301 (ldv d L fix (k4_off26 t1) (k4_off26_inb t1))) (k4_pay302 (ldv d L fix (k4_off27 t1) (k4_off27_inb t1))) (k4_pay303 (ldv d L fix (k4_off28 t1) (k4_off28_inb t1))) (k4_pay304 (ldv d L fix (k4_off29 t1) (k4_off29_inb t1))) (k4_pay305 (ldv d L fix (k4_off30 t1) (k4_off30_inb t1))) (k4_pay306 (ldv d L fix (k4_off31 t1) (k4_off31_inb t1))) (k4_pay307 (ldv d L fix (k4_off32 t1) (k4_off32_inb t1))) (k4_pay308 (ldv d L fix (k4_off33 t1) (k4_off33_inb t1))) (k4_pay309 (ldv d L fix (k4_off34 t1) (k4_off34_inb t1))) (k4_pay310 (ldv d L fix (k4_off35 t1) (k4_off35_inb t1))) (k4_pay311 (ldv d L fix (k4_off36 t1) (k4_off36_inb t1))) (ldv d L fix (k4_off37 t1) (k4_off37_inb t1)) (ldv d L fix (k4_off38 t1) (k4_off38_inb t1)) (ldv d L fix (k4_off39 t1) (k4_off39_inb t1)) (ldv d L fix (k4_off40 t1) (k4_off40_inb t1)) (ldv d L fix (k4_off41 t1) (k4_off41_inb t1)) (ldv d L fix (k4_off42 t1) (k4_off42_inb t1)) (ldv d L fix (k4_off43 t1) (k4_off43_inb t1)) (ldv d L fix (k4_off44 t1) (k4_off44_inb t1)) (ldv d L fix (k4_off45 t1) (k4_off45_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k4_off26_eq t1) _ x
  | ⟨1, _⟩ => exact idxvec_eq d L fix _ ⟨1, by omega⟩ t1.val ht (k4_off27_eq t1) _ x
  | ⟨2, _⟩ => exact idxvec_eq d L fix _ ⟨2, by omega⟩ t1.val ht (k4_off28_eq t1) _ x
  | ⟨3, _⟩ => exact idxvec_eq d L fix _ ⟨3, by omega⟩ t1.val ht (k4_off29_eq t1) _ x
  | ⟨4, _⟩ => exact idxvec_eq d L fix _ ⟨4, by omega⟩ t1.val ht (k4_off30_eq t1) _ x
  | ⟨5, _⟩ => exact idxvec_eq d L fix _ ⟨5, by omega⟩ t1.val ht (k4_off31_eq t1) _ x
  | ⟨6, _⟩ => exact idxvec_eq d L fix _ ⟨6, by omega⟩ t1.val ht (k4_off32_eq t1) _ x
  | ⟨7, _⟩ => exact idxvec_eq d L fix _ ⟨7, by omega⟩ t1.val ht (k4_off33_eq t1) _ x
  | ⟨8, _⟩ => exact idxvec_eq d L fix _ ⟨8, by omega⟩ t1.val ht (k4_off34_eq t1) _ x
  | ⟨9, _⟩ => exact idxvec_eq d L fix _ ⟨9, by omega⟩ t1.val ht (k4_off35_eq t1) _ x
  | ⟨10, _⟩ => exact idxvec_eq d L fix _ ⟨10, by omega⟩ t1.val ht (k4_off36_eq t1) _ x
  | ⟨11, _⟩ => exact idxvec_eq d L fix _ ⟨11, by omega⟩ t1.val ht (k4_off37_eq t1) _ x
  | ⟨12, _⟩ => exact idxvec_eq d L fix _ ⟨12, by omega⟩ t1.val ht (k4_off38_eq t1) _ x
  | ⟨13, _⟩ => exact idxvec_eq d L fix _ ⟨13, by omega⟩ t1.val ht (k4_off39_eq t1) _ x
  | ⟨14, _⟩ => exact idxvec_eq d L fix _ ⟨14, by omega⟩ t1.val ht (k4_off40_eq t1) _ x
  | ⟨15, _⟩ => exact idxvec_eq d L fix _ ⟨15, by omega⟩ t1.val ht (k4_off41_eq t1) _ x
  | ⟨16, _⟩ => exact idxvec_eq d L fix _ ⟨16, by omega⟩ t1.val ht (k4_off42_eq t1) _ x
  | ⟨17, _⟩ => exact idxvec_eq d L fix _ ⟨17, by omega⟩ t1.val ht (k4_off43_eq t1) _ x
  | ⟨18, _⟩ => exact idxvec_eq d L fix _ ⟨18, by omega⟩ t1.val ht (k4_off44_eq t1) _ x
  | ⟨19, _⟩ => exact idxvec_eq d L fix _ ⟨19, by omega⟩ t1.val ht (k4_off45_eq t1) _ x
  | ⟨n + 20, h⟩ => exact absurd h (by omega)

set_option maxHeartbeats 4000000 in
/-- A trip of the outer loop: the block's 20 neighbour vectors loaded, then the inner loop's four trips fill the block. -/
theorem outer_trip1 (fsl : Buf (Elt F) ((V d (cV L) (jV L)).loc cc4_scratch0)) (fix : Buf (Elt F) ((V d (cV L) (jV L)).loc cc4_scratch1))
    (hfix : ∀ y, (fix y).toNat < 4096) (v28 : BitVec 32) (c0_i32_15 : BitVec 32) (t1 : Fin k4_t3_loop.trips) (acc : Unit) :
    inv1 d L fsl fix (Gout negInf fsl fix) t1.val acc
      ⊢ wp frame (wpE (defs₀ (F := F)) 𝒱₀ (V d (cV L) (jV L)) none) Set.univ
          (k4_t3_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 k4_pay614 c0_i32_15 t1 acc)
          (inv1 d L fsl fix (Gout negInf fsl fix) (t1.val + 1)) := by
  have ht : t1.val < 64 := t1.isLt
  have hU : ∀ k x, ((U1 (F := F) (k4_pay301 (ldv d L fix (k4_off26 t1) (k4_off26_inb t1))) (k4_pay302 (ldv d L fix (k4_off27 t1) (k4_off27_inb t1))) (k4_pay303 (ldv d L fix (k4_off28 t1) (k4_off28_inb t1))) (k4_pay304 (ldv d L fix (k4_off29 t1) (k4_off29_inb t1))) (k4_pay305 (ldv d L fix (k4_off30 t1) (k4_off30_inb t1))) (k4_pay306 (ldv d L fix (k4_off31 t1) (k4_off31_inb t1))) (k4_pay307 (ldv d L fix (k4_off32 t1) (k4_off32_inb t1))) (k4_pay308 (ldv d L fix (k4_off33 t1) (k4_off33_inb t1))) (k4_pay309 (ldv d L fix (k4_off34 t1) (k4_off34_inb t1))) (k4_pay310 (ldv d L fix (k4_off35 t1) (k4_off35_inb t1))) (k4_pay311 (ldv d L fix (k4_off36 t1) (k4_off36_inb t1))) (ldv d L fix (k4_off37 t1) (k4_off37_inb t1)) (ldv d L fix (k4_off38 t1) (k4_off38_inb t1)) (ldv d L fix (k4_off39 t1) (k4_off39_inb t1)) (ldv d L fix (k4_off40 t1) (k4_off40_inb t1)) (ldv d L fix (k4_off41 t1) (k4_off41_inb t1)) (ldv d L fix (k4_off42 t1) (k4_off42_inb t1)) (ldv d L fix (k4_off43 t1) (k4_off43_inb t1)) (ldv d L fix (k4_off44 t1) (k4_off44_inb t1)) (ldv d L fix (k4_off45 t1) (k4_off45_inb t1))) k x).toNat < 4096 :=
    fun k x => (congrArg BitVec.toNat (U1_loaded d L fix t1 k x)).trans_lt (hfix _)
  unfold inv1
  iintro ⟨Hslab, Hidxb, %f2, Hout, %hD⟩
  unfold k4_t3_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip1 (F := F) d L fullShare fsl f2' v28 k4_pay614 c0_i32_15 t1 (Scalar.muli (Scf.iv 0#32 1#32 t1.val) 16#32) (k4_pay301 (ldv d L fix (k4_off26 t1) (k4_off26_inb t1))) (k4_pay302 (ldv d L fix (k4_off27 t1) (k4_off27_inb t1))) (k4_pay303 (ldv d L fix (k4_off28 t1) (k4_off28_inb t1))) (k4_pay304 (ldv d L fix (k4_off29 t1) (k4_off29_inb t1))) (k4_pay305 (ldv d L fix (k4_off30 t1) (k4_off30_inb t1))) (k4_pay306 (ldv d L fix (k4_off31 t1) (k4_off31_inb t1))) (k4_pay307 (ldv d L fix (k4_off32 t1) (k4_off32_inb t1))) (k4_pay308 (ldv d L fix (k4_off33 t1) (k4_off33_inb t1))) (k4_pay309 (ldv d L fix (k4_off34 t1) (k4_off34_inb t1))) (k4_pay310 (ldv d L fix (k4_off35 t1) (k4_off35_inb t1))) (k4_pay311 (ldv d L fix (k4_off36 t1) (k4_off36_inb t1))) (ldv d L fix (k4_off37 t1) (k4_off37_inb t1)) (ldv d L fix (k4_off38 t1) (k4_off38_inb t1)) (ldv d L fix (k4_off39 t1) (k4_off39_inb t1)) (ldv d L fix (k4_off40 t1) (k4_off40_inb t1)) (ldv d L fix (k4_off41 t1) (k4_off41_inb t1)) (ldv d L fix (k4_off42 t1) (k4_off42_inb t1)) (ldv d L fix (k4_off43 t1) (k4_off43_inb t1)) (ldv d L fix (k4_off44 t1) (k4_off44_inb t1)) (ldv d L fix (k4_off45 t1) (k4_off45_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k4_pay614 (fun _ => rfl) (slabRd d L fsl) (slabRd_apply d L fsl) _ hU (U1_loaded d L fix t1)
      (k4_off46 t1 t2) (k4_off46_inb t1 t2) (k4_off46_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KI.T4

end
-- ==== Proof.KITile4C2.lean ====
/-
  One tile of the third SparseCore call, chunk 2 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KITile4Inv

noncomputable section

namespace Cert.Proof.KI.T4

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v10_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v11_scv : Memref Cert.KernelIdeal.sig Kind.scVector Space.hbm Cert.KernelIdeal.S8x64x4096 EltTy.f32)
local notation "slabW" => (Memref.whole Cert.KernelIdeal.cc4_scratch0 : Memref Cert.KernelIdeal.sig Kind.scVector Space.vmem Cert.KernelIdeal.S65536 EltTy.f32)
local notation "idxbW" => (Memref.whole Cert.KernelIdeal.cc4_scratch1 : Memref Cert.KernelIdeal.sig Kind.scVector Space.vmem Cert.KernelIdeal.S20x1024 EltTy.i32)
local notation "outbW" => (Memref.whole Cert.KernelIdeal.cc4_scratch2 : Memref Cert.KernelIdeal.sig Kind.scVector Space.vmem Cert.KernelIdeal.S16x1024 EltTy.f32)

section Tile

variable (d : Dev nD) (L : grid4.Coords)

variable [FloatOps F]

/-- The 20 neighbour vectors of a trip of this chunk, in order. -/
abbrev U2 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k4_pay633 v75_ld, k4_pay634 v78_ld, k4_pay635 v81_ld, k4_pay636 v84_ld, k4_pay637 v87_ld, k4_pay638 v90_ld, k4_pay639 v93_ld, k4_pay640 v96_ld, k4_pay641 v99_ld]

attribute [local sl_canon] vli_bind in
set_option maxHeartbeats 8000000 in
/-- A trip of the inner loop: from the slab and the output scratch, the same with the trip's four rows stored. -/
theorem inner_trip2 (q : PosShare TreeShare) (fsl : Buf (Elt F) ((V d (cV L) (jV L)).loc cc4_scratch0)) (f2 : Buf (Elt F) ((V d (cV L) (jV L)).loc cc4_scratch2))
    (v28 : BitVec 32) (v30 : FVec F S16 .f32) (c0_i32_15 : BitVec 32) (k4_t5 : Fin k4_t5_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U2 (F := F) v42 v45 v48 v51 v54 v57 v60 v63 v66 v69 v72 v75_ld v78_ld v81_ld v84_ld v87_ld v90_ld v93_ld v96_ld v99_ld) k x).toNat < 4096)
    (k4_t6 : Fin k4_t6_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k4_t6_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 v30 c0_i32_15 k4_t5 v39 v42 v45 v48 v51 v54 v57 v60 v63 v66 v69 v72 v75_ld v78_ld v81_ld v84_ld v87_ld v90_ld v93_ld v96_ld v99_ld k4_t6 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U2 v42 v45 v48 v51 v54 v57 v60 v63 v66 v69 v72 v75_ld v78_ld v81_ld v84_ld v87_ld v90_ld v93_ld v96_ld v99_ld) hU (k4_off69 k4_t5 k4_t6) (k4_off69_inb k4_t5 k4_t6)
              (Scf.iv 0#32 1#32 k4_t6.val) (iv4_lt k4_t6.val k4_t6.isLt)))) := by
  have hg : (Scf.iv 0#32 1#32 k4_t6.val).toNat < 4 := iv4_lt k4_t6.val k4_t6.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k4_pay633 v75_ld x).toNat < 4096 := hU 11
  have h78 : ∀ x, (k4_pay634 v78_ld x).toNat < 4096 := hU 12
  have h81 : ∀ x, (k4_pay635 v81_ld x).toNat < 4096 := hU 13
  have h84 : ∀ x, (k4_pay636 v84_ld x).toNat < 4096 := hU 14
  have h87 : ∀ x, (k4_pay637 v87_ld x).toNat < 4096 := hU 15
  have h90 : ∀ x, (k4_pay638 v90_ld x).toNat < 4096 := hU 16
  have h93 : ∀ x, (k4_pay639 v93_ld x).toNat < 4096 := hU 17
  have h96 : ∀ x, (k4_pay640 v96_ld x).toNat < 4096 := hU 18
  have h99 : ∀ x, (k4_pay641 v99_ld x).toNat < 4096 := hU 19
  unfold k4_t6_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U2_loaded (fix : Buf (Elt F) ((V d (cV L) (jV L)).loc cc4_scratch1)) (t1 : Fin k4_t5_loop.trips) (k : Fin 20) (x : S16.Idx) :
    U2 (F := F) (k4_pay452 (ldv d L fix (k4_off49 t1) (k4_off49_inb t1))) (k4_pay453 (ldv d L fix (k4_off50 t1) (k4_off50_inb t1))) (k4_pay454 (ldv d L fix (k4_off51 t1) (k4_off51_inb t1))) (k4_pay455 (ldv d L fix (k4_off52 t1) (k4_off52_inb t1))) (k4_pay456 (ldv d L fix (k4_off53 t1) (k4_off53_inb t1))) (k4_pay457 (ldv d L fix (k4_off54 t1) (k4_off54_inb t1))) (k4_pay458 (ldv d L fix (k4_off55 t1) (k4_off55_inb t1))) (k4_pay459 (ldv d L fix (k4_off56 t1) (k4_off56_inb t1))) (k4_pay460 (ldv d L fix (k4_off57 t1) (k4_off57_inb t1))) (k4_pay461 (ldv d L fix (k4_off58 t1) (k4_off58_inb t1))) (k4_pay462 (ldv d L fix (k4_off59 t1) (k4_off59_inb t1))) (ldv d L fix (k4_off60 t1) (k4_off60_inb t1)) (ldv d L fix (k4_off61 t1) (k4_off61_inb t1)) (ldv d L fix (k4_off62 t1) (k4_off62_inb t1)) (ldv d L fix (k4_off63 t1) (k4_off63_inb t1)) (ldv d L fix (k4_off64 t1) (k4_off64_inb t1)) (ldv d L fix (k4_off65 t1) (k4_off65_inb t1)) (ldv d L fix (k4_off66 t1) (k4_off66_inb t1)) (ldv d L fix (k4_off67 t1) (k4_off67_inb t1)) (ldv d L fix (k4_off68 t1) (k4_off68_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k4_off49_eq t1) _ x
  | ⟨1, _⟩ => exact idxvec_eq d L fix _ ⟨1, by omega⟩ t1.val ht (k4_off50_eq t1) _ x
  | ⟨2, _⟩ => exact idxvec_eq d L fix _ ⟨2, by omega⟩ t1.val ht (k4_off51_eq t1) _ x
  | ⟨3, _⟩ => exact idxvec_eq d L fix _ ⟨3, by omega⟩ t1.val ht (k4_off52_eq t1) _ x
  | ⟨4, _⟩ => exact idxvec_eq d L fix _ ⟨4, by omega⟩ t1.val ht (k4_off53_eq t1) _ x
  | ⟨5, _⟩ => exact idxvec_eq d L fix _ ⟨5, by omega⟩ t1.val ht (k4_off54_eq t1) _ x
  | ⟨6, _⟩ => exact idxvec_eq d L fix _ ⟨6, by omega⟩ t1.val ht (k4_off55_eq t1) _ x
  | ⟨7, _⟩ => exact idxvec_eq d L fix _ ⟨7, by omega⟩ t1.val ht (k4_off56_eq t1) _ x
  | ⟨8, _⟩ => exact idxvec_eq d L fix _ ⟨8, by omega⟩ t1.val ht (k4_off57_eq t1) _ x
  | ⟨9, _⟩ => exact idxvec_eq d L fix _ ⟨9, by omega⟩ t1.val ht (k4_off58_eq t1) _ x
  | ⟨10, _⟩ => exact idxvec_eq d L fix _ ⟨10, by omega⟩ t1.val ht (k4_off59_eq t1) _ x
  | ⟨11, _⟩ => exact idxvec_eq d L fix _ ⟨11, by omega⟩ t1.val ht (k4_off60_eq t1) _ x
  | ⟨12, _⟩ => exact idxvec_eq d L fix _ ⟨12, by omega⟩ t1.val ht (k4_off61_eq t1) _ x
  | ⟨13, _⟩ => exact idxvec_eq d L fix _ ⟨13, by omega⟩ t1.val ht (k4_off62_eq t1) _ x
  | ⟨14, _⟩ => exact idxvec_eq d L fix _ ⟨14, by omega⟩ t1.val ht (k4_off63_eq t1) _ x
  | ⟨15, _⟩ => exact idxvec_eq d L fix _ ⟨15, by omega⟩ t1.val ht (k4_off64_eq t1) _ x
  | ⟨16, _⟩ => exact idxvec_eq d L fix _ ⟨16, by omega⟩ t1.val ht (k4_off65_eq t1) _ x
  | ⟨17, _⟩ => exact idxvec_eq d L fix _ ⟨17, by omega⟩ t1.val ht (k4_off66_eq t1) _ x
  | ⟨18, _⟩ => exact idxvec_eq d L fix _ ⟨18, by omega⟩ t1.val ht (k4_off67_eq t1) _ x
  | ⟨19, _⟩ => exact idxvec_eq d L fix _ ⟨19, by omega⟩ t1.val ht (k4_off68_eq t1) _ x
  | ⟨n + 20, h⟩ => exact absurd h (by omega)

set_option maxHeartbeats 4000000 in
/-- A trip of the outer loop: the block's 20 neighbour vectors loaded, then the inner loop's four trips fill the block. -/
theorem outer_trip2 (fsl : Buf (Elt F) ((V d (cV L) (jV L)).loc cc4_scratch0)) (fix : Buf (Elt F) ((V d (cV L) (jV L)).loc cc4_scratch1))
    (hfix : ∀ y, (fix y).toNat < 4096) (v28 : BitVec 32) (c0_i32_15 : BitVec 32) (t1 : Fin k4_t5_loop.trips) (acc : Unit) :
    inv1 d L fsl fix (Gout negInf fsl fix) t1.val acc
      ⊢ wp frame (wpE (defs₀ (F := F)) 𝒱₀ (V d (cV L) (jV L)) none) Set.univ
          (k4_t5_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 k4_pay614 c0_i32_15 t1 acc)
          (inv1 d L fsl fix (Gout negInf fsl fix) (t1.val + 1)) := by
  have ht : t1.val < 64 := t1.isLt
  have hU : ∀ k x, ((U2 (F := F) (k4_pay452 (ldv d L fix (k4_off49 t1) (k4_off49_inb t1))) (k4_pay453 (ldv d L fix (k4_off50 t1) (k4_off50_inb t1))) (k4_pay454 (ldv d L fix (k4_off51 t1) (k4_off51_inb t1))) (k4_pay455 (ldv d L fix (k4_off52 t1) (k4_off52_inb t1))) (k4_pay456 (ldv d L fix (k4_off53 t1) (k4_off53_inb t1))) (k4_pay457 (ldv d L fix (k4_off54 t1) (k4_off54_inb t1))) (k4_pay458 (ldv d L fix (k4_off55 t1) (k4_off55_inb t1))) (k4_pay459 (ldv d L fix (k4_off56 t1) (k4_off56_inb t1))) (k4_pay460 (ldv d L fix (k4_off57 t1) (k4_off57_inb t1))) (k4_pay461 (ldv d L fix (k4_off58 t1) (k4_off58_inb t1))) (k4_pay462 (ldv d L fix (k4_off59 t1) (k4_off59_inb t1))) (ldv d L fix (k4_off60 t1) (k4_off60_inb t1)) (ldv d L fix (k4_off61 t1) (k4_off61_inb t1)) (ldv d L fix (k4_off62 t1) (k4_off62_inb t1)) (ldv d L fix (k4_off63 t1) (k4_off63_inb t1)) (ldv d L fix (k4_off64 t1) (k4_off64_inb t1)) (ldv d L fix (k4_off65 t1) (k4_off65_inb t1)) (ldv d L fix (k4_off66 t1) (k4_off66_inb t1)) (ldv d L fix (k4_off67 t1) (k4_off67_inb t1)) (ldv d L fix (k4_off68 t1) (k4_off68_inb t1))) k x).toNat < 4096 :=
    fun k x => (congrArg BitVec.toNat (U2_loaded d L fix t1 k x)).trans_lt (hfix _)
  unfold inv1
  iintro ⟨Hslab, Hidxb, %f2, Hout, %hD⟩
  unfold k4_t5_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip2 (F := F) d L fullShare fsl f2' v28 k4_pay614 c0_i32_15 t1 (Scalar.muli (Scf.iv 0#32 1#32 t1.val) 16#32) (k4_pay452 (ldv d L fix (k4_off49 t1) (k4_off49_inb t1))) (k4_pay453 (ldv d L fix (k4_off50 t1) (k4_off50_inb t1))) (k4_pay454 (ldv d L fix (k4_off51 t1) (k4_off51_inb t1))) (k4_pay455 (ldv d L fix (k4_off52 t1) (k4_off52_inb t1))) (k4_pay456 (ldv d L fix (k4_off53 t1) (k4_off53_inb t1))) (k4_pay457 (ldv d L fix (k4_off54 t1) (k4_off54_inb t1))) (k4_pay458 (ldv d L fix (k4_off55 t1) (k4_off55_inb t1))) (k4_pay459 (ldv d L fix (k4_off56 t1) (k4_off56_inb t1))) (k4_pay460 (ldv d L fix (k4_off57 t1) (k4_off57_inb t1))) (k4_pay461 (ldv d L fix (k4_off58 t1) (k4_off58_inb t1))) (k4_pay462 (ldv d L fix (k4_off59 t1) (k4_off59_inb t1))) (ldv d L fix (k4_off60 t1) (k4_off60_inb t1)) (ldv d L fix (k4_off61 t1) (k4_off61_inb t1)) (ldv d L fix (k4_off62 t1) (k4_off62_inb t1)) (ldv d L fix (k4_off63 t1) (k4_off63_inb t1)) (ldv d L fix (k4_off64 t1) (k4_off64_inb t1)) (ldv d L fix (k4_off65 t1) (k4_off65_inb t1)) (ldv d L fix (k4_off66 t1) (k4_off66_inb t1)) (ldv d L fix (k4_off67 t1) (k4_off67_inb t1)) (ldv d L fix (k4_off68 t1) (k4_off68_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k4_pay614 (fun _ => rfl) (slabRd d L fsl) (slabRd_apply d L fsl) _ hU (U2_loaded d L fix t1)
      (k4_off69 t1 t2) (k4_off69_inb t1 t2) (k4_off69_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KI.T4

end
-- ==== Proof.KITile4C3.lean ====
/-
  One tile of the third SparseCore call, chunk 3 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KITile4Inv

noncomputable section

namespace Cert.Proof.KI.T4

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v10_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v11_scv : Memref Cert.KernelIdeal.sig Kind.scVector Space.hbm Cert.KernelIdeal.S8x64x4096 EltTy.f32)
local notation "slabW" => (Memref.whole Cert.KernelIdeal.cc4_scratch0 : Memref Cert.KernelIdeal.sig Kind.scVector Space.vmem Cert.KernelIdeal.S65536 EltTy.f32)
local notation "idxbW" => (Memref.whole Cert.KernelIdeal.cc4_scratch1 : Memref Cert.KernelIdeal.sig Kind.scVector Space.vmem Cert.KernelIdeal.S20x1024 EltTy.i32)
local notation "outbW" => (Memref.whole Cert.KernelIdeal.cc4_scratch2 : Memref Cert.KernelIdeal.sig Kind.scVector Space.vmem Cert.KernelIdeal.S16x1024 EltTy.f32)

section Tile

variable (d : Dev nD) (L : grid4.Coords)

variable [FloatOps F]

/-- The 20 neighbour vectors of a trip of this chunk, in order. -/
abbrev U3 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k4_pay1 v75_ld, k4_pay2 v78_ld, k4_pay3 v81_ld, k4_pay4 v84_ld, k4_pay5 v87_ld, k4_pay6 v90_ld, k4_pay7 v93_ld, k4_pay8 v96_ld, k4_pay9 v99_ld]

attribute [local sl_canon] vli_bind in
set_option maxHeartbeats 8000000 in
/-- A trip of the inner loop: from the slab and the output scratch, the same with the trip's four rows stored. -/
theorem inner_trip3 (q : PosShare TreeShare) (fsl : Buf (Elt F) ((V d (cV L) (jV L)).loc cc4_scratch0)) (f2 : Buf (Elt F) ((V d (cV L) (jV L)).loc cc4_scratch2))
    (v30 : FVec F S16 .f32) (k4_t7 : Fin k4_t7_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U3 (F := F) v42 v45 v48 v51 v54 v57 v60 v63 v66 v69 v72 v75_ld v78_ld v81_ld v84_ld v87_ld v90_ld v93_ld v96_ld v99_ld) k x).toNat < 4096)
    (k4_t8 : Fin k4_t8_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k4_t8_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v30 k4_t7 v39 v42 v45 v48 v51 v54 v57 v60 v63 v66 v69 v72 v75_ld v78_ld v81_ld v84_ld v87_ld v90_ld v93_ld v96_ld v99_ld k4_t8 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U3 v42 v45 v48 v51 v54 v57 v60 v63 v66 v69 v72 v75_ld v78_ld v81_ld v84_ld v87_ld v90_ld v93_ld v96_ld v99_ld) hU (k4_off92 k4_t7 k4_t8) (k4_off92_inb k4_t7 k4_t8)
              (Scf.iv 0#32 1#32 k4_t8.val) (iv4_lt k4_t8.val k4_t8.isLt)))) := by
  have hg : (Scf.iv 0#32 1#32 k4_t8.val).toNat < 4 := iv4_lt k4_t8.val k4_t8.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k4_pay1 v75_ld x).toNat < 4096 := hU 11
  have h78 : ∀ x, (k4_pay2 v78_ld x).toNat < 4096 := hU 12
  have h81 : ∀ x, (k4_pay3 v81_ld x).toNat < 4096 := hU 13
  have h84 : ∀ x, (k4_pay4 v84_ld x).toNat < 4096 := hU 14
  have h87 : ∀ x, (k4_pay5 v87_ld x).toNat < 4096 := hU 15
  have h90 : ∀ x, (k4_pay6 v90_ld x).toNat < 4096 := hU 16
  have h93 : ∀ x, (k4_pay7 v93_ld x).toNat < 4096 := hU 17
  have h96 : ∀ x, (k4_pay8 v96_ld x).toNat < 4096 := hU 18
  have h99 : ∀ x, (k4_pay9 v99_ld x).toNat < 4096 := hU 19
  unfold k4_t8_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U3_loaded (fix : Buf (Elt F) ((V d (cV L) (jV L)).loc cc4_scratch1)) (t1 : Fin k4_t7_loop.trips) (k : Fin 20) (x : S16.Idx) :
    U3 (F := F) (k4_pay603 (ldv d L fix (k4_off72 t1) (k4_off72_inb t1))) (k4_pay604 (ldv d L fix (k4_off73 t1) (k4_off73_inb t1))) (k4_pay605 (ldv d L fix (k4_off74 t1) (k4_off74_inb t1))) (k4_pay606 (ldv d L fix (k4_off75 t1) (k4_off75_inb t1))) (k4_pay607 (ldv d L fix (k4_off76 t1) (k4_off76_inb t1))) (k4_pay608 (ldv d L fix (k4_off77 t1) (k4_off77_inb t1))) (k4_pay609 (ldv d L fix (k4_off78 t1) (k4_off78_inb t1))) (k4_pay610 (ldv d L fix (k4_off79 t1) (k4_off79_inb t1))) (k4_pay611 (ldv d L fix (k4_off80 t1) (k4_off80_inb t1))) (k4_pay612 (ldv d L fix (k4_off81 t1) (k4_off81_inb t1))) (k4_pay613 (ldv d L fix (k4_off82 t1) (k4_off82_inb t1))) (ldv d L fix (k4_off83 t1) (k4_off83_inb t1)) (ldv d L fix (k4_off84 t1) (k4_off84_inb t1)) (ldv d L fix (k4_off85 t1) (k4_off85_inb t1)) (ldv d L fix (k4_off86 t1) (k4_off86_inb t1)) (ldv d L fix (k4_off87 t1) (k4_off87_inb t1)) (ldv d L fix (k4_off88 t1) (k4_off88_inb t1)) (ldv d L fix (k4_off89 t1) (k4_off89_inb t1)) (ldv d L fix (k4_off90 t1) (k4_off90_inb t1)) (ldv d L fix (k4_off91 t1) (k4_off91_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k4_off72_eq t1) _ x
  | ⟨1, _⟩ => exact idxvec_eq d L fix _ ⟨1, by omega⟩ t1.val ht (k4_off73_eq t1) _ x
  | ⟨2, _⟩ => exact idxvec_eq d L fix _ ⟨2, by omega⟩ t1.val ht (k4_off74_eq t1) _ x
  | ⟨3, _⟩ => exact idxvec_eq d L fix _ ⟨3, by omega⟩ t1.val ht (k4_off75_eq t1) _ x
  | ⟨4, _⟩ => exact idxvec_eq d L fix _ ⟨4, by omega⟩ t1.val ht (k4_off76_eq t1) _ x
  | ⟨5, _⟩ => exact idxvec_eq d L fix _ ⟨5, by omega⟩ t1.val ht (k4_off77_eq t1) _ x
  | ⟨6, _⟩ => exact idxvec_eq d L fix _ ⟨6, by omega⟩ t1.val ht (k4_off78_eq t1) _ x
  | ⟨7, _⟩ => exact idxvec_eq d L fix _ ⟨7, by omega⟩ t1.val ht (k4_off79_eq t1) _ x
  | ⟨8, _⟩ => exact idxvec_eq d L fix _ ⟨8, by omega⟩ t1.val ht (k4_off80_eq t1) _ x
  | ⟨9, _⟩ => exact idxvec_eq d L fix _ ⟨9, by omega⟩ t1.val ht (k4_off81_eq t1) _ x
  | ⟨10, _⟩ => exact idxvec_eq d L fix _ ⟨10, by omega⟩ t1.val ht (k4_off82_eq t1) _ x
  | ⟨11, _⟩ => exact idxvec_eq d L fix _ ⟨11, by omega⟩ t1.val ht (k4_off83_eq t1) _ x
  | ⟨12, _⟩ => exact idxvec_eq d L fix _ ⟨12, by omega⟩ t1.val ht (k4_off84_eq t1) _ x
  | ⟨13, _⟩ => exact idxvec_eq d L fix _ ⟨13, by omega⟩ t1.val ht (k4_off85_eq t1) _ x
  | ⟨14, _⟩ => exact idxvec_eq d L fix _ ⟨14, by omega⟩ t1.val ht (k4_off86_eq t1) _ x
  | ⟨15, _⟩ => exact idxvec_eq d L fix _ ⟨15, by omega⟩ t1.val ht (k4_off87_eq t1) _ x
  | ⟨16, _⟩ => exact idxvec_eq d L fix _ ⟨16, by omega⟩ t1.val ht (k4_off88_eq t1) _ x
  | ⟨17, _⟩ => exact idxvec_eq d L fix _ ⟨17, by omega⟩ t1.val ht (k4_off89_eq t1) _ x
  | ⟨18, _⟩ => exact idxvec_eq d L fix _ ⟨18, by omega⟩ t1.val ht (k4_off90_eq t1) _ x
  | ⟨19, _⟩ => exact idxvec_eq d L fix _ ⟨19, by omega⟩ t1.val ht (k4_off91_eq t1) _ x
  | ⟨n + 20, h⟩ => exact absurd h (by omega)

set_option maxHeartbeats 4000000 in
/-- A trip of the outer loop: the block's 20 neighbour vectors loaded, then the inner loop's four trips fill the block. -/
theorem outer_trip3 (fsl : Buf (Elt F) ((V d (cV L) (jV L)).loc cc4_scratch0)) (fix : Buf (Elt F) ((V d (cV L) (jV L)).loc cc4_scratch1))
    (hfix : ∀ y, (fix y).toNat < 4096) (t1 : Fin k4_t7_loop.trips) (acc : Unit) :
    inv1 d L fsl fix (Gout negInf fsl fix) t1.val acc
      ⊢ wp frame (wpE (defs₀ (F := F)) 𝒱₀ (V d (cV L) (jV L)) none) Set.univ
          (k4_t7_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 k4_pay614 t1 acc)
          (inv1 d L fsl fix (Gout negInf fsl fix) (t1.val + 1)) := by
  have ht : t1.val < 64 := t1.isLt
  have hU : ∀ k x, ((U3 (F := F) (k4_pay603 (ldv d L fix (k4_off72 t1) (k4_off72_inb t1))) (k4_pay604 (ldv d L fix (k4_off73 t1) (k4_off73_inb t1))) (k4_pay605 (ldv d L fix (k4_off74 t1) (k4_off74_inb t1))) (k4_pay606 (ldv d L fix (k4_off75 t1) (k4_off75_inb t1))) (k4_pay607 (ldv d L fix (k4_off76 t1) (k4_off76_inb t1))) (k4_pay608 (ldv d L fix (k4_off77 t1) (k4_off77_inb t1))) (k4_pay609 (ldv d L fix (k4_off78 t1) (k4_off78_inb t1))) (k4_pay610 (ldv d L fix (k4_off79 t1) (k4_off79_inb t1))) (k4_pay611 (ldv d L fix (k4_off80 t1) (k4_off80_inb t1))) (k4_pay612 (ldv d L fix (k4_off81 t1) (k4_off81_inb t1))) (k4_pay613 (ldv d L fix (k4_off82 t1) (k4_off82_inb t1))) (ldv d L fix (k4_off83 t1) (k4_off83_inb t1)) (ldv d L fix (k4_off84 t1) (k4_off84_inb t1)) (ldv d L fix (k4_off85 t1) (k4_off85_inb t1)) (ldv d L fix (k4_off86 t1) (k4_off86_inb t1)) (ldv d L fix (k4_off87 t1) (k4_off87_inb t1)) (ldv d L fix (k4_off88 t1) (k4_off88_inb t1)) (ldv d L fix (k4_off89 t1) (k4_off89_inb t1)) (ldv d L fix (k4_off90 t1) (k4_off90_inb t1)) (ldv d L fix (k4_off91 t1) (k4_off91_inb t1))) k x).toNat < 4096 :=
    fun k x => (congrArg BitVec.toNat (U3_loaded d L fix t1 k x)).trans_lt (hfix _)
  unfold inv1
  iintro ⟨Hslab, Hidxb, %f2, Hout, %hD⟩
  unfold k4_t7_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip3 (F := F) d L fullShare fsl f2' k4_pay614 t1 (Scalar.muli (Scf.iv 0#32 1#32 t1.val) 16#32) (k4_pay603 (ldv d L fix (k4_off72 t1) (k4_off72_inb t1))) (k4_pay604 (ldv d L fix (k4_off73 t1) (k4_off73_inb t1))) (k4_pay605 (ldv d L fix (k4_off74 t1) (k4_off74_inb t1))) (k4_pay606 (ldv d L fix (k4_off75 t1) (k4_off75_inb t1))) (k4_pay607 (ldv d L fix (k4_off76 t1) (k4_off76_inb t1))) (k4_pay608 (ldv d L fix (k4_off77 t1) (k4_off77_inb t1))) (k4_pay609 (ldv d L fix (k4_off78 t1) (k4_off78_inb t1))) (k4_pay610 (ldv d L fix (k4_off79 t1) (k4_off79_inb t1))) (k4_pay611 (ldv d L fix (k4_off80 t1) (k4_off80_inb t1))) (k4_pay612 (ldv d L fix (k4_off81 t1) (k4_off81_inb t1))) (k4_pay613 (ldv d L fix (k4_off82 t1) (k4_off82_inb t1))) (ldv d L fix (k4_off83 t1) (k4_off83_inb t1)) (ldv d L fix (k4_off84 t1) (k4_off84_inb t1)) (ldv d L fix (k4_off85 t1) (k4_off85_inb t1)) (ldv d L fix (k4_off86 t1) (k4_off86_inb t1)) (ldv d L fix (k4_off87 t1) (k4_off87_inb t1)) (ldv d L fix (k4_off88 t1) (k4_off88_inb t1)) (ldv d L fix (k4_off89 t1) (k4_off89_inb t1)) (ldv d L fix (k4_off90 t1) (k4_off90_inb t1)) (ldv d L fix (k4_off91 t1) (k4_off91_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k4_pay614 (fun _ => rfl) (slabRd d L fsl) (slabRd_apply d L fsl) _ hU (U3_loaded d L fix t1)
      (k4_off92 t1 t2) (k4_off92_inb t1 t2) (k4_off92_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KI.T4

end
-- ==== Proof.KITile4Glue.lean ====
/-
  One tile of the third SparseCore call: what its copies bring into the slab and the index scratch, and that the array
  the output scratch is filled with is the pooled array at the tile's output piece.
-/
import proofs.«209975_g17849884082380_cont_8to1_1483_11_alg».proof.Proof.KITile4Val
import proofs.«209975_g17849884082380_cont_8to1_1483_11_alg».proof.Proof.KIOff4

noncomputable section

namespace Cert.Proof.KI.T4

open Cert.Proof.KI

open Cert.KernelIdeal Cert.KernelIdeal.Gen

open Idealize.ShloMosaic
open Idealize.ShloMosaic.SparseCore (S V T)
open Idealize.ShloMosaic.ValueIdx

variable {F : FTy → Type}

local notation "srcW" => (Memref.whole Cert.KernelIdeal.main_v10_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)

/-! ## The tile's input slices in closed form (the four output pieces' are in KIOff4.lean) -/

theorem off1_eq : ∀ L : grid4.Coords, k4_off1 L = ![(wid L).val / 4, (wid L).val % 4 * 65536] := by decide +kernel
theorem off2_eq : ∀ L : grid4.Coords, k4_off2 L = ![(wid L).val / 4, 0, 0] := by decide +kernel
theorem off25_eq : ∀ L : grid4.Coords, k4_off25 L = ![(wid L).val / 4, 0, 1024] := by decide +kernel
theorem off48_eq : ∀ L : grid4.Coords, k4_off48 L = ![(wid L).val / 4, 0, 2048] := by decide +kernel
theorem off71_eq : ∀ L : grid4.Coords, k4_off71 L = ![(wid L).val / 4, 0, 3072] := by decide +kernel

/-- The source's slice a tile copies into its slab, and the index array's four chunks, as the program slices them. -/
abbrev srcP (L : grid4.Coords) : Memref sig .scVector .hbm S65536 .f32 :=
  ((srcW).slice (Rect.unit (s := S8x262144) (k4_off1 L) S1x65536.size (k4_off1_inb L)) (fun _ => rfl)).squeeze S65536 squeezes_S1x65536_S65536
abbrev idxP0 (L : grid4.Coords) : Memref sig .scVector .hbm S20x1024 .i32 :=
  ((idxW).slice (Rect.unit (s := S8x20x4096) (k4_off2 L) S1x20x1024.size (k4_off2_inb L)) (fun _ => rfl)).squeeze S20x1024 squeezes_S1x20x1024_S20x1024
abbrev idxP1 (L : grid4.Coords) : Memref sig .scVector .hbm S20x1024 .i32 :=
  ((idxW).slice (Rect.unit (s := S8x20x4096) (k4_off25 L) S1x20x1024.size (k4_off25_inb L)) (fun _ => rfl)).squeeze S20x1024 squeezes_S1x20x1024_S20x1024
abbrev idxP2 (L : grid4.Coords) : Memref sig .scVector .hbm S20x1024 .i32 :=
  ((idxW).slice (Rect.unit (s := S8x20x4096) (k4_off48 L) S1x20x1024.size (k4_off48_inb L)) (fun _ => rfl)).squeeze S20x1024 squeezes_S1x20x1024_S20x1024
abbrev idxP3 (L : grid4.Coords) : Memref sig .scVector .hbm S20x1024 .i32 :=
  ((idxW).slice (Rect.unit (s := S8x20x4096) (k4_off71 L) S1x20x1024.size (k4_off71_inb L)) (fun _ => rfl)).squeeze S20x1024 squeezes_S1x20x1024_S20x1024

/-- The tile's cloud `b = wid / 4` and channel group `cg = wid % 4`. -/
def bOf (L : grid4.Coords) : Fin 8 := ⟨(wid L).val / 4, by have := (wid L).isLt; omega⟩
def cgOf (L : grid4.Coords) : Fin 4 := ⟨(wid L).val % 4, by omega⟩

/-- What the slab holds after its copy: the 16 channels of the tile's group, of the tile's cloud. -/
def slabOf (fs : Vec F S8x262144 .f32) (L : grid4.Coords) : Vec F S65536 .f32 :=
  fun p => fs (ix2 (bOf L) ⟨(cgOf L).val * 65536 + (p 0).val, by have := (cgOf L).isLt; have h : (p 0).val < 65536 := (p 0).isLt; omega⟩)
/-- What the index scratch holds after chunk `ch`'s copy: the 20 neighbour rows of the tile's cloud at the chunk's 1024 points. -/
def idxOf (fi : IVec S8x20x4096 32) (L : grid4.Coords) (ch : Fin 4) : IVec S20x1024 32 :=
  fun y => fi (ix3 (bOf L) (y 0) ⟨ch.val * 1024 + (y 1).val, by have := ch.isLt; have h : (y 1).val < 1024 := (y 1).isLt; omega⟩)

variable (d : Dev nD) (L : grid4.Coords) (fs : Buf (Elt F) (srcLoc d)) (fi : Buf (Elt F) (idxLoc d))

theorem srcP_read : (srcP L).view.read (Elt F) fs = slabOf fs L := by
  funext p
  show fs ((Rect.unit (s := S8x262144) (k4_off1 L) S1x65536.size (k4_off1_inb L)).emb
    (Shape.reshapeEquiv squeezes_S1x65536_S65536.numel_eq p)) = _
  unfold slabOf
  congr 1
  rw [Shape.reshapeEquiv_eq_of_rowMajor (y := (ix2 (0 : Fin 1) (p 0) : S1x65536.Idx)) _ (by
    rw [Shape.rowMajor_val_two, Shape.rowMajor_val_one]
    show 0 * 65536 + (p 0).val = (p 0).val
    omega)]
  funext a
  apply Fin.ext
  rw [Rect.emb_apply, Rect.off_unit, Rect.stride_unit]
  have h0 : k4_off1 L 0 = (wid L).val / 4 := by rw [off1_eq]; rfl
  have h1 : k4_off1 L 1 = (wid L).val % 4 * 65536 := by rw [off1_eq]; rfl
  match a with
  | ⟨0, _⟩ => show k4_off1 L 0 + 1 * 0 = (wid L).val / 4; omega
  | ⟨1, _⟩ => show k4_off1 L 1 + 1 * (p 0).val = (wid L).val % 4 * 65536 + (p 0).val; omega
theorem idxP0_read : (idxP0 L).view.read (Elt F) fi = idxOf fi L 0 := by
  funext y
  show fi ((Rect.unit (s := S8x20x4096) (k4_off2 L) S1x20x1024.size (k4_off2_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k4_off2 L 0 = (wid L).val / 4 := by rw [off2_eq]; rfl
  have h1 : k4_off2 L 1 = 0 := by rw [off2_eq]; rfl
  have h2 : k4_off2 L 2 = 0 := by rw [off2_eq]; rfl
  match a with
  | ⟨0, _⟩ => show k4_off2 L 0 + 1 * 0 = (wid L).val / 4; omega
  | ⟨1, _⟩ => show k4_off2 L 1 + 1 * (y 0).val = (y 0).val; omega
  | ⟨2, _⟩ => show k4_off2 L 2 + 1 * (y 1).val = 0 * 1024 + (y 1).val; omega
theorem idxP1_read : (idxP1 L).view.read (Elt F) fi = idxOf fi L 1 := by
  funext y
  show fi ((Rect.unit (s := S8x20x4096) (k4_off25 L) S1x20x1024.size (k4_off25_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k4_off25 L 0 = (wid L).val / 4 := by rw [off25_eq]; rfl
  have h1 : k4_off25 L 1 = 0 := by rw [off25_eq]; rfl
  have h2 : k4_off25 L 2 = 1024 := by rw [off25_eq]; rfl
  match a with
  | ⟨0, _⟩ => show k4_off25 L 0 + 1 * 0 = (wid L).val / 4; omega
  | ⟨1, _⟩ => show k4_off25 L 1 + 1 * (y 0).val = (y 0).val; omega
  | ⟨2, _⟩ => show k4_off25 L 2 + 1 * (y 1).val = 1 * 1024 + (y 1).val; omega
theorem idxP2_read : (idxP2 L).view.read (Elt F) fi = idxOf fi L 2 := by
  funext y
  show fi ((Rect.unit (s := S8x20x4096) (k4_off48 L) S1x20x1024.size (k4_off48_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k4_off48 L 0 = (wid L).val / 4 := by rw [off48_eq]; rfl
  have h1 : k4_off48 L 1 = 0 := by rw [off48_eq]; rfl
  have h2 : k4_off48 L 2 = 2048 := by rw [off48_eq]; rfl
  match a with
  | ⟨0, _⟩ => show k4_off48 L 0 + 1 * 0 = (wid L).val / 4; omega
  | ⟨1, _⟩ => show k4_off48 L 1 + 1 * (y 0).val = (y 0).val; omega
  | ⟨2, _⟩ => show k4_off48 L 2 + 1 * (y 1).val = 2 * 1024 + (y 1).val; omega
theorem idxP3_read : (idxP3 L).view.read (Elt F) fi = idxOf fi L 3 := by
  funext y
  show fi ((Rect.unit (s := S8x20x4096) (k4_off71 L) S1x20x1024.size (k4_off71_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k4_off71 L 0 = (wid L).val / 4 := by rw [off71_eq]; rfl
  have h1 : k4_off71 L 1 = 0 := by rw [off71_eq]; rfl
  have h2 : k4_off71 L 2 = 3072 := by rw [off71_eq]; rfl
  match a with
  | ⟨0, _⟩ => show k4_off71 L 0 + 1 * 0 = (wid L).val / 4; omega
  | ⟨1, _⟩ => show k4_off71 L 1 + 1 * (y 0).val = (y 0).val; omega
  | ⟨2, _⟩ => show k4_off71 L 2 + 1 * (y 1).val = 3 * 1024 + (y 1).val; omega

theorem idxOf_lt (hidx : ∀ j, (fi j).toNat < 4096) (ch : Fin 4) (y : S20x1024.Idx) : (idxOf fi L ch y).toNat < 4096 := hidx _

/-- Where output piece 0 of the tile sits in the pooled array: cloud b, channel 16 cg + r, point 0 + x. -/
theorem oP0_emb (y : S16x1024.Idx) :
    (oP0 L).view.emb y = (ix3 (bOf L)
      (⟨(cgOf L).val * 16 + (y 0).val, by have := (cgOf L).isLt; have h : (y 0).val < 16 := (y 0).isLt; omega⟩ : Fin 64)
      (⟨0 * 1024 + (y 1).val, by have h : (y 1).val < 1024 := (y 1).isLt; omega⟩ : Fin 4096) : S8x64x4096.Idx) := by
  show (Rect.unit (s := S8x64x4096) (k4_off24 L) S1x16x1024.size (k4_off24_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k4_off24 L 0 = (wid L).val / 4 := by rw [off24_eq]; rfl
  have h1 : k4_off24 L 1 = (wid L).val % 4 * 16 := by rw [off24_eq]; rfl
  have h2 : k4_off24 L 2 = 0 := by rw [off24_eq]; rfl
  match a with
  | ⟨0, _⟩ => show k4_off24 L 0 + 1 * 0 = (wid L).val / 4; omega
  | ⟨1, _⟩ => show k4_off24 L 1 + 1 * (y 0).val = (wid L).val % 4 * 16 + (y 0).val; omega
  | ⟨2, _⟩ => show k4_off24 L 2 + 1 * (y 1).val = 0 * 1024 + (y 1).val; omega

/-- Where output piece 1 of the tile sits in the pooled array: cloud b, channel 16 cg + r, point 1024 + x. -/
theorem oP1_emb (y : S16x1024.Idx) :
    (oP1 L).view.emb y = (ix3 (bOf L)
      (⟨(cgOf L).val * 16 + (y 0).val, by have := (cgOf L).isLt; have h : (y 0).val < 16 := (y 0).isLt; omega⟩ : Fin 64)
      (⟨1 * 1024 + (y 1).val, by have h : (y 1).val < 1024 := (y 1).isLt; omega⟩ : Fin 4096) : S8x64x4096.Idx) := by
  show (Rect.unit (s := S8x64x4096) (k4_off47 L) S1x16x1024.size (k4_off47_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k4_off47 L 0 = (wid L).val / 4 := by rw [off47_eq]; rfl
  have h1 : k4_off47 L 1 = (wid L).val % 4 * 16 := by rw [off47_eq]; rfl
  have h2 : k4_off47 L 2 = 1024 := by rw [off47_eq]; rfl
  match a with
  | ⟨0, _⟩ => show k4_off47 L 0 + 1 * 0 = (wid L).val / 4; omega
  | ⟨1, _⟩ => show k4_off47 L 1 + 1 * (y 0).val = (wid L).val % 4 * 16 + (y 0).val; omega
  | ⟨2, _⟩ => show k4_off47 L 2 + 1 * (y 1).val = 1 * 1024 + (y 1).val; omega

/-- Where output piece 2 of the tile sits in the pooled array: cloud b, channel 16 cg + r, point 2048 + x. -/
theorem oP2_emb (y : S16x1024.Idx) :
    (oP2 L).view.emb y = (ix3 (bOf L)
      (⟨(cgOf L).val * 16 + (y 0).val, by have := (cgOf L).isLt; have h : (y 0).val < 16 := (y 0).isLt; omega⟩ : Fin 64)
      (⟨2 * 1024 + (y 1).val, by have h : (y 1).val < 1024 := (y 1).isLt; omega⟩ : Fin 4096) : S8x64x4096.Idx) := by
  show (Rect.unit (s := S8x64x4096) (k4_off70 L) S1x16x1024.size (k4_off70_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k4_off70 L 0 = (wid L).val / 4 := by rw [off70_eq]; rfl
  have h1 : k4_off70 L 1 = (wid L).val % 4 * 16 := by rw [off70_eq]; rfl
  have h2 : k4_off70 L 2 = 2048 := by rw [off70_eq]; rfl
  match a with
  | ⟨0, _⟩ => show k4_off70 L 0 + 1 * 0 = (wid L).val / 4; omega
  | ⟨1, _⟩ => show k4_off70 L 1 + 1 * (y 0).val = (wid L).val % 4 * 16 + (y 0).val; omega
  | ⟨2, _⟩ => show k4_off70 L 2 + 1 * (y 1).val = 2 * 1024 + (y 1).val; omega

/-- Where output piece 3 of the tile sits in the pooled array: cloud b, channel 16 cg + r, point 3072 + x. -/
theorem oP3_emb (y : S16x1024.Idx) :
    (oP3 L).view.emb y = (ix3 (bOf L)
      (⟨(cgOf L).val * 16 + (y 0).val, by have := (cgOf L).isLt; have h : (y 0).val < 16 := (y 0).isLt; omega⟩ : Fin 64)
      (⟨3 * 1024 + (y 1).val, by have h : (y 1).val < 1024 := (y 1).isLt; omega⟩ : Fin 4096) : S8x64x4096.Idx) := by
  show (Rect.unit (s := S8x64x4096) (k4_off93 L) S1x16x1024.size (k4_off93_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k4_off93 L 0 = (wid L).val / 4 := by rw [off93_eq]; rfl
  have h1 : k4_off93 L 1 = (wid L).val % 4 * 16 := by rw [off93_eq]; rfl
  have h2 : k4_off93 L 2 = 3072 := by rw [off93_eq]; rfl
  match a with
  | ⟨0, _⟩ => show k4_off93 L 0 + 1 * 0 = (wid L).val / 4; omega
  | ⟨1, _⟩ => show k4_off93 L 1 + 1 * (y 0).val = (wid L).val % 4 * 16 + (y 0).val; omega
  | ⟨2, _⟩ => show k4_off93 L 2 + 1 * (y 1).val = 3 * 1024 + (y 1).val; omega

variable [FloatOps F]

/-- The array a chunk's output scratch is filled with is the pooled array at the tile's output piece of that chunk
    (`hidx`: every neighbour word is a point of the cloud, so reducing it into the cloud changes nothing). -/
theorem glue0 (hidx : ∀ j, (fi j).toNat < 4096) (y : S16x1024.Idx) :
    Gout (Scalar.ofBits .f32 0xFF800000#32) (slabOf fs L) (idxOf fi L 0) y = gmaxArr fs fi ((oP0 L).view.emb y) := by
  rw [oP0_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 0 (ix2 k (y 1))).toNat % 4096)
    = ((cgOf L).val * 16 + (y 0).val) * 4096 + (idxOf fi L 0 (ix2 k (y 1))).toNat % 4096
  omega
theorem glue1 (hidx : ∀ j, (fi j).toNat < 4096) (y : S16x1024.Idx) :
    Gout (Scalar.ofBits .f32 0xFF800000#32) (slabOf fs L) (idxOf fi L 1) y = gmaxArr fs fi ((oP1 L).view.emb y) := by
  rw [oP1_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 1 (ix2 k (y 1))).toNat % 4096)
    = ((cgOf L).val * 16 + (y 0).val) * 4096 + (idxOf fi L 1 (ix2 k (y 1))).toNat % 4096
  omega
theorem glue2 (hidx : ∀ j, (fi j).toNat < 4096) (y : S16x1024.Idx) :
    Gout (Scalar.ofBits .f32 0xFF800000#32) (slabOf fs L) (idxOf fi L 2) y = gmaxArr fs fi ((oP2 L).view.emb y) := by
  rw [oP2_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 2 (ix2 k (y 1))).toNat % 4096)
    = ((cgOf L).val * 16 + (y 0).val) * 4096 + (idxOf fi L 2 (ix2 k (y 1))).toNat % 4096
  omega
theorem glue3 (hidx : ∀ j, (fi j).toNat < 4096) (y : S16x1024.Idx) :
    Gout (Scalar.ofBits .f32 0xFF800000#32) (slabOf fs L) (idxOf fi L 3) y = gmaxArr fs fi ((oP3 L).view.emb y) := by
  rw [oP3_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 3 (ix2 k (y 1))).toNat % 4096)
    = ((cgOf L).val * 16 + (y 0).val) * 4096 + (idxOf fi L 3 (ix2 k (y 1))).toNat % 4096
  omega

end Cert.Proof.KI.T4

end
-- ==== Proof.KITile4Out.lean ====
/-
  One tile of the third SparseCore call: an output piece written whole from the filled output scratch holds the pooled array.
  Values off a piece's element set are irrelevant; an element of the set lies under an index of the piece, where the
  write leaves the payload, and the payload there is the pooled array.
-/
import proofs.«209975_g17849884082380_cont_8to1_1483_11_alg».proof.Proof.KITile4Glue

noncomputable section

namespace Cert.Proof.KI.T4

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 3) (Elt F) ℕ UU ℕ

variable (d : Dev nD) (L : grid4.Coords) (fs : Buf (Elt F) (srcLoc d)) (fi : Buf (Elt F) (idxLoc d))
variable [FloatOps F]

theorem out_piece0 (hidx : ∀ j, (fi j).toNat < 4096) (fo : Buf (Elt F) (outLoc d)) :
    (outLoc d ↦[oSet0 L]{fullShare} View.write (Elt F) (oP0 L).view fo (Gout (Scalar.ofBits .f32 0xFF800000#32) (slabOf fs L) (idxOf fi L 0)) Finset.univ : sProp 𝕄)
      = (outLoc d ↦[oSet0 L]{fullShare} gmaxArr fs fi) := by
  refine pointsTo_congr fun i hi => ?_
  obtain ⟨y, -, rfl⟩ := Finset.mem_map.mp hi
  rw [View.write_emb_of_mem _ _ (Finset.mem_univ y)]
  exact glue0 d L fs fi hidx y

theorem out_piece1 (hidx : ∀ j, (fi j).toNat < 4096) (fo : Buf (Elt F) (outLoc d)) :
    (outLoc d ↦[oSet1 L]{fullShare} View.write (Elt F) (oP1 L).view fo (Gout (Scalar.ofBits .f32 0xFF800000#32) (slabOf fs L) (idxOf fi L 1)) Finset.univ : sProp 𝕄)
      = (outLoc d ↦[oSet1 L]{fullShare} gmaxArr fs fi) := by
  refine pointsTo_congr fun i hi => ?_
  obtain ⟨y, -, rfl⟩ := Finset.mem_map.mp hi
  rw [View.write_emb_of_mem _ _ (Finset.mem_univ y)]
  exact glue1 d L fs fi hidx y

theorem out_piece2 (hidx : ∀ j, (fi j).toNat < 4096) (fo : Buf (Elt F) (outLoc d)) :
    (outLoc d ↦[oSet2 L]{fullShare} View.write (Elt F) (oP2 L).view fo (Gout (Scalar.ofBits .f32 0xFF800000#32) (slabOf fs L) (idxOf fi L 2)) Finset.univ : sProp 𝕄)
      = (outLoc d ↦[oSet2 L]{fullShare} gmaxArr fs fi) := by
  refine pointsTo_congr fun i hi => ?_
  obtain ⟨y, -, rfl⟩ := Finset.mem_map.mp hi
  rw [View.write_emb_of_mem _ _ (Finset.mem_univ y)]
  exact glue2 d L fs fi hidx y

theorem out_piece3 (hidx : ∀ j, (fi j).toNat < 4096) (fo : Buf (Elt F) (outLoc d)) :
    (outLoc d ↦[oSet3 L]{fullShare} View.write (Elt F) (oP3 L).view fo (Gout (Scalar.ofBits .f32 0xFF800000#32) (slabOf fs L) (idxOf fi L 3)) Finset.univ : sProp 𝕄)
      = (outLoc d ↦[oSet3 L]{fullShare} gmaxArr fs fi) := by
  refine pointsTo_congr fun i hi => ?_
  obtain ⟨y, -, rfl⟩ := Finset.mem_map.mp hi
  rw [View.write_emb_of_mem _ _ (Finset.mem_univ y)]
  exact glue3 d L fs fi hidx y

/-! ### The same for any contents that read, through the piece, as the filled scratch -/

theorem out_gen0 (hidx : ∀ j, (fi j).toNat < 4096) (g : Buf (Elt F) (outLoc d))
    (hg : ∀ y : S16x1024.Idx, (oP0 L).view.read (Elt F) g y = Gout (Scalar.ofBits .f32 0xFF800000#32) (slabOf fs L) (idxOf fi L 0) y) :
    (outLoc d ↦[oSet0 L]{fullShare} g : sProp 𝕄) = (outLoc d ↦[oSet0 L]{fullShare} gmaxArr fs fi) := by
  refine pointsTo_congr fun i hi => ?_
  obtain ⟨y, -, rfl⟩ := Finset.mem_map.mp hi
  exact (hg y).trans (glue0 d L fs fi hidx y)

theorem out_gen1 (hidx : ∀ j, (fi j).toNat < 4096) (g : Buf (Elt F) (outLoc d))
    (hg : ∀ y : S16x1024.Idx, (oP1 L).view.read (Elt F) g y = Gout (Scalar.ofBits .f32 0xFF800000#32) (slabOf fs L) (idxOf fi L 1) y) :
    (outLoc d ↦[oSet1 L]{fullShare} g : sProp 𝕄) = (outLoc d ↦[oSet1 L]{fullShare} gmaxArr fs fi) := by
  refine pointsTo_congr fun i hi => ?_
  obtain ⟨y, -, rfl⟩ := Finset.mem_map.mp hi
  exact (hg y).trans (glue1 d L fs fi hidx y)

theorem out_gen2 (hidx : ∀ j, (fi j).toNat < 4096) (g : Buf (Elt F) (outLoc d))
    (hg : ∀ y : S16x1024.Idx, (oP2 L).view.read (Elt F) g y = Gout (Scalar.ofBits .f32 0xFF800000#32) (slabOf fs L) (idxOf fi L 2) y) :
    (outLoc d ↦[oSet2 L]{fullShare} g : sProp 𝕄) = (outLoc d ↦[oSet2 L]{fullShare} gmaxArr fs fi) := by
  refine pointsTo_congr fun i hi => ?_
  obtain ⟨y, -, rfl⟩ := Finset.mem_map.mp hi
  exact (hg y).trans (glue2 d L fs fi hidx y)

theorem out_gen3 (hidx : ∀ j, (fi j).toNat < 4096) (g : Buf (Elt F) (outLoc d))
    (hg : ∀ y : S16x1024.Idx, (oP3 L).view.read (Elt F) g y = Gout (Scalar.ofBits .f32 0xFF800000#32) (slabOf fs L) (idxOf fi L 3) y) :
    (outLoc d ↦[oSet3 L]{fullShare} g : sProp 𝕄) = (outLoc d ↦[oSet3 L]{fullShare} gmaxArr fs fi) := by
  refine pointsTo_congr fun i hi => ?_
  obtain ⟨y, -, rfl⟩ := Finset.mem_map.mp hi
  exact (hg y).trans (glue3 d L fs fi hidx y)

end Cert.Proof.KI.T4

end
-- ==== Proof.KITile4.lean ====
/-
  One tile of the third SparseCore call (the plain gather-and-max): its body's weakest precondition at a symbolic tile,
  from the resources the call deals it to the same back with its four output pieces at the pooled array.
-/
import proofs.«209975_g17849884082380_cont_8to1_1483_11_alg».proof.Proof.KITile4C0
import proofs.«209975_g17849884082380_cont_8to1_1483_11_alg».proof.Proof.KITile4C1
import proofs.«209975_g17849884082380_cont_8to1_1483_11_alg».proof.Proof.KITile4C2
import proofs.«209975_g17849884082380_cont_8to1_1483_11_alg».proof.Proof.KITile4C3
import proofs.«209975_g17849884082380_cont_8to1_1483_11_alg».proof.Proof.KITile4Out

noncomputable section

namespace Cert.Proof.KI.T4

open Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.KernelIdeal.main_v10_scv : Memref Cert.KernelIdeal.sig Kind.scVector Space.hbm Cert.KernelIdeal.S8x262144 EltTy.f32)
local notation "idxW" => (Memref.whole Cert.KernelIdeal.main_v0_scv : Memref Cert.KernelIdeal.sig Kind.scVector Space.hbm Cert.KernelIdeal.S8x20x4096 EltTy.i32)
local notation "outW" => (Memref.whole Cert.KernelIdeal.main_v11_scv : Memref Cert.KernelIdeal.sig Kind.scVector Space.hbm Cert.KernelIdeal.S8x64x4096 EltTy.f32)
local notation "slabW" => (Memref.whole Cert.KernelIdeal.cc4_scratch0 : Memref Cert.KernelIdeal.sig Kind.scVector Space.vmem Cert.KernelIdeal.S65536 EltTy.f32)
local notation "idxbW" => (Memref.whole Cert.KernelIdeal.cc4_scratch1 : Memref Cert.KernelIdeal.sig Kind.scVector Space.vmem Cert.KernelIdeal.S20x1024 EltTy.i32)
local notation "outbW" => (Memref.whole Cert.KernelIdeal.cc4_scratch2 : Memref Cert.KernelIdeal.sig Kind.scVector Space.vmem Cert.KernelIdeal.S16x1024 EltTy.f32)

section Tile

variable (d : Dev nD) (L : grid4.Coords)

/-! ## The tile's own scratch buffers and semaphores among its thread's -/

def myRefs (L : grid4.Coords) : Finset (DevRef τ sig) :=
  {(Proc.scVector (cV L) (jV L)).devRef cc4_scratch0, (Proc.scVector (cV L) (jV L)).devRef cc4_scratch1, (Proc.scVector (cV L) (jV L)).devRef cc4_scratch2}

theorem myRefs_sub : myRefs L ⊆ ownRefs (τ := τ) (.scVector (cV L) (jV L)) := by
  intro b hb
  simp only [myRefs, Finset.mem_insert, Finset.mem_singleton] at hb
  rcases hb with rfl | rfl | rfl <;> exact SparseCore.Cfg.mem_ownRefs_of_owner (p := Proc.scVector (cV L) (jV L)) rfl

theorem myRefs_sep :
    (bigSep (myRefs L) fun b => iprop(∃ f, ((d, b) : Loc nD τ sig) ↦{fullShare} f) : sProp 𝕄)
      = iprop((∃ f, (V d (cV L) (jV L)).loc cc4_scratch0 ↦{fullShare} f) ∗ (∃ f, (V d (cV L) (jV L)).loc cc4_scratch1 ↦{fullShare} f)
          ∗ (∃ f, (V d (cV L) (jV L)).loc cc4_scratch2 ↦{fullShare} f)) := by
  unfold myRefs
  rw [SparseCore.bigSep_insert' (by
      simp only [Finset.mem_insert, Finset.mem_singleton, not_or]
      exact ⟨fun e => absurd (Proc.devRef_injective _ e) (show (cc4_scratch0 : Ref sig .scVector) ≠ cc4_scratch1 by decide),
        fun e => absurd (Proc.devRef_injective _ e) (show (cc4_scratch0 : Ref sig .scVector) ≠ cc4_scratch2 by decide)⟩),
    SparseCore.bigSep_insert' (by
      simp only [Finset.mem_singleton]
      exact fun e => absurd (Proc.devRef_injective _ e) (show (cc4_scratch1 : Ref sig .scVector) ≠ cc4_scratch2 by decide)), bigSep_singleton]

theorem ownBufs_V2 :
    (ownBufs (V d (cV L) (jV L)) : sProp 𝕄)
      = iprop(((∃ f, (V d (cV L) (jV L)).loc cc4_scratch0 ↦{fullShare} f) ∗ (∃ f, (V d (cV L) (jV L)).loc cc4_scratch1 ↦{fullShare} f)
          ∗ (∃ f, (V d (cV L) (jV L)).loc cc4_scratch2 ↦{fullShare} f))
          ∗ bigSep ((ownRefs (τ := τ) (.scVector (cV L) (jV L))) \ myRefs L) fun b => iprop(∃ f, ((d, b) : Loc nD τ sig) ↦{fullShare} f)) := by
  unfold SparseCore.Cfg.ownBufs
  rw [SparseCore.bigSep_sdiff_split' (myRefs_sub L), myRefs_sep]

abbrev mc (d : Dev nD) (L : grid4.Coords) (s : DmaSems sig S_) : GSem nD τ sig := (V d (cV L) (jV L), .dma s.sem)

def myCells (d : Dev nD) (L : grid4.Coords) : Finset (GSem nD τ sig) :=
  {mc d L cc4_scoped0, mc d L cc4_scoped1, mc d L cc4_scoped2, mc d L cc4_scoped3, mc d L cc4_scoped4, mc d L cc4_scoped5,
    mc d L cc4_scoped6, mc d L cc4_scoped7, mc d L cc4_scoped8}

theorem mc_mem (s : DmaSems sig S_) (h : (SemLoc.dma s.sem : SemLoc sig).isScoped .scVector = true) : mc d L s ∈ ownCells (V d (cV L) (jV L)) :=
  mem_ownCells.mpr ⟨rfl, h⟩

theorem myCells_sub : myCells d L ⊆ ownCells (V d (cV L) (jV L)) := by
  intro g hg
  simp only [myCells, Finset.mem_insert, Finset.mem_singleton] at hg
  rcases hg with rfl | rfl | rfl | rfl | rfl | rfl | rfl | rfl | rfl
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)

theorem myCells_sep :
    (bigSep (myCells d L) fun g => semVal g 0 : sProp 𝕄)
      = iprop(semVal (mc d L cc4_scoped0) 0 ∗ semVal (mc d L cc4_scoped1) 0 ∗ semVal (mc d L cc4_scoped2) 0 ∗ semVal (mc d L cc4_scoped3) 0
          ∗ semVal (mc d L cc4_scoped4) 0 ∗ semVal (mc d L cc4_scoped5) 0 ∗ semVal (mc d L cc4_scoped6) 0 ∗ semVal (mc d L cc4_scoped7) 0
          ∗ semVal (mc d L cc4_scoped8) 0) := by
  unfold myCells
  have hne : ∀ {a b : DmaSems sig S_}, a.sem ≠ b.sem → mc d L a ≠ mc d L b := fun h e => h (by simpa [mc] using e)
  rw [SparseCore.bigSep_insert' (by simp only [Finset.mem_insert, Finset.mem_singleton, not_or]; refine ⟨?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_⟩ <;> exact hne (by decide)),
    SparseCore.bigSep_insert' (by simp only [Finset.mem_insert, Finset.mem_singleton, not_or]; refine ⟨?_, ?_, ?_, ?_, ?_, ?_⟩ <;> exact hne (by decide)),
    SparseCore.bigSep_insert' (by simp only [Finset.mem_insert, Finset.mem_singleton, not_or]; refine ⟨?_, ?_, ?_, ?_, ?_⟩ <;> exact hne (by decide)),
    SparseCore.bigSep_insert' (by simp only [Finset.mem_insert, Finset.mem_singleton, not_or]; refine ⟨?_, ?_, ?_, ?_⟩ <;> exact hne (by decide)),
    SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

theorem ownSems0_V2 :
    (ownSems0 (V d (cV L) (jV L)) : sProp 𝕄)
      = iprop((semVal (mc d L cc4_scoped0) 0 ∗ semVal (mc d L cc4_scoped1) 0 ∗ semVal (mc d L cc4_scoped2) 0 ∗ semVal (mc d L cc4_scoped3) 0
          ∗ semVal (mc d L cc4_scoped4) 0 ∗ semVal (mc d L cc4_scoped5) 0 ∗ semVal (mc d L cc4_scoped6) 0 ∗ semVal (mc d L cc4_scoped7) 0
          ∗ semVal (mc d L cc4_scoped8) 0)
          ∗ bigSep (ownCells (V d (cV L) (jV L)) \ myCells d L) fun g => semVal g 0) := by
  unfold SparseCore.Cfg.ownSems0
  rw [SparseCore.bigSep_sdiff_split' (myCells_sub d L), myCells_sep]

/-! ## The arrays as the tile's memrefs address them -/

theorem pts_src (q : PosShare TreeShare) (f : Buf (Elt F) (srcLoc d)) :
    ((srcW).view.loc (V d (cV L) (jV L)) ↦{q} f : sProp 𝕄) = srcLoc d ↦{q} f := by
  simp only [Memref.view_whole, View.set_whole]
theorem pts_idx (q : PosShare TreeShare) (f : Buf (Elt F) (idxLoc d)) :
    ((idxW).view.loc (V d (cV L) (jV L)) ↦{q} f : sProp 𝕄) = idxLoc d ↦{q} f := by
  simp only [Memref.view_whole, View.set_whole]
theorem pts_o0 (f : Buf (Elt F) (outLoc d)) :
    ((oP0 L).view.loc (V d (cV L) (jV L)) ↦[(oP0 L).view.set]{fullShare} f : sProp 𝕄) = outLoc d ↦[oSet0 L]{fullShare} f := rfl
theorem pts_o1 (f : Buf (Elt F) (outLoc d)) :
    ((oP1 L).view.loc (V d (cV L) (jV L)) ↦[(oP1 L).view.set]{fullShare} f : sProp 𝕄) = outLoc d ↦[oSet1 L]{fullShare} f := rfl
theorem pts_o2 (f : Buf (Elt F) (outLoc d)) :
    ((oP2 L).view.loc (V d (cV L) (jV L)) ↦[(oP2 L).view.set]{fullShare} f : sProp 𝕄) = outLoc d ↦[oSet2 L]{fullShare} f := rfl
theorem pts_o3 (f : Buf (Elt F) (outLoc d)) :
    ((oP3 L).view.loc (V d (cV L) (jV L)) ↦[(oP3 L).view.set]{fullShare} f : sProp 𝕄) = outLoc d ↦[oSet3 L]{fullShare} f := rfl
theorem pts_slab (f : Buf (Elt F) ((V d (cV L) (jV L)).loc cc4_scratch0)) :
    ((slabW).view.loc (V d (cV L) (jV L)) ↦{fullShare} f : sProp 𝕄) = (V d (cV L) (jV L)).loc cc4_scratch0 ↦{fullShare} f := rfl
theorem pts_idxb (f : Buf (Elt F) ((V d (cV L) (jV L)).loc cc4_scratch1)) :
    ((idxbW).view.loc (V d (cV L) (jV L)) ↦{fullShare} f : sProp 𝕄) = (V d (cV L) (jV L)).loc cc4_scratch1 ↦{fullShare} f := rfl
theorem pts_outb (f : Buf (Elt F) ((V d (cV L) (jV L)).loc cc4_scratch2)) :
    ((outbW).view.loc (V d (cV L) (jV L)) ↦{fullShare} f : sProp 𝕄) = (V d (cV L) (jV L)).loc cc4_scratch2 ↦{fullShare} f := rfl

variable (fs : Buf (Elt F) (srcLoc d)) (fi : Buf (Elt F) (idxLoc d))
variable [FloatOps F]

/-! ## What the copies leave in the scratches -/

theorem slab_after (f0 : Buf (Elt F) ((V d (cV L) (jV L)).loc cc4_scratch0)) :
    ((slabW).view.loc (V d (cV L) (jV L)) ↦{fullShare} View.write (Elt F) (slabW).view f0 (ReadAs.same.apply ((srcP L).view.read (Elt F) fs)) Finset.univ : sProp 𝕄)
      = ((slabW).view.loc (V d (cV L) (jV L)) ↦{fullShare} slabOf fs L) :=
  congrArg (fun f => ((slabW).view.loc (V d (cV L) (jV L)) ↦{fullShare} f : sProp 𝕄)) ((View.write_whole_univ cc4_scratch0 f0 _).trans (srcP_read d L fs))
theorem idxb_after0 (f1 : Buf (Elt F) ((V d (cV L) (jV L)).loc cc4_scratch1)) :
    ((idxbW).view.loc (V d (cV L) (jV L)) ↦{fullShare} View.write (Elt F) (idxbW).view f1 (ReadAs.same.apply ((idxP0 L).view.read (Elt F) fi)) Finset.univ : sProp 𝕄)
      = ((idxbW).view.loc (V d (cV L) (jV L)) ↦{fullShare} idxOf fi L 0) :=
  congrArg (fun f => ((idxbW).view.loc (V d (cV L) (jV L)) ↦{fullShare} f : sProp 𝕄)) ((View.write_whole_univ cc4_scratch1 f1 _).trans (idxP0_read d L fi))
theorem idxb_after1 (f1 : Buf (Elt F) ((V d (cV L) (jV L)).loc cc4_scratch1)) :
    ((idxbW).view.loc (V d (cV L) (jV L)) ↦{fullShare} View.write (Elt F) (idxbW).view f1 (ReadAs.same.apply ((idxP1 L).view.read (Elt F) fi)) Finset.univ : sProp 𝕄)
      = ((idxbW).view.loc (V d (cV L) (jV L)) ↦{fullShare} idxOf fi L 1) :=
  congrArg (fun f => ((idxbW).view.loc (V d (cV L) (jV L)) ↦{fullShare} f : sProp 𝕄)) ((View.write_whole_univ cc4_scratch1 f1 _).trans (idxP1_read d L fi))
theorem idxb_after2 (f1 : Buf (Elt F) ((V d (cV L) (jV L)).loc cc4_scratch1)) :
    ((idxbW).view.loc (V d (cV L) (jV L)) ↦{fullShare} View.write (Elt F) (idxbW).view f1 (ReadAs.same.apply ((idxP2 L).view.read (Elt F) fi)) Finset.univ : sProp 𝕄)
      = ((idxbW).view.loc (V d (cV L) (jV L)) ↦{fullShare} idxOf fi L 2) :=
  congrArg (fun f => ((idxbW).view.loc (V d (cV L) (jV L)) ↦{fullShare} f : sProp 𝕄)) ((View.write_whole_univ cc4_scratch1 f1 _).trans (idxP2_read d L fi))
theorem idxb_after3 (f1 : Buf (Elt F) ((V d (cV L) (jV L)).loc cc4_scratch1)) :
    ((idxbW).view.loc (V d (cV L) (jV L)) ↦{fullShare} View.write (Elt F) (idxbW).view f1 (ReadAs.same.apply ((idxP3 L).view.read (Elt F) fi)) Finset.univ : sProp 𝕄)
      = ((idxbW).view.loc (V d (cV L) (jV L)) ↦{fullShare} idxOf fi L 3) :=
  congrArg (fun f => ((idxbW).view.loc (V d (cV L) (jV L)) ↦{fullShare} f : sProp 𝕄)) ((View.write_whole_univ cc4_scratch1 f1 _).trans (idxP3_read d L fi))

theorem done1_zero (G : S16x1024.Idx → F .f32) (f2 : S16x1024.Idx → F .f32) : Done1 G 0 f2 :=
  fun y hy => absurd hy (by omega)

/-! ## An output piece overwritten whole reads its payload -/

omit [FloatOps F] in
theorem whole_emb (y : S16x1024.Idx) : (Rect.whole S16x1024).emb y = y := by
  funext a
  exact Fin.ext (by rw [Rect.emb_apply]; show 0 + 1 * (y a).val = (y a).val; omega)

omit [FloatOps F] in
theorem read_writes_whole (v : View sig .scVector .hbm S16x1024 .f32) (f : v.ty.Contents (Elt F)) (w : S16x1024.Idx → Elt F .f32) (y : S16x1024.Idx) :
    v.read (Elt F) (v.writes (Elt F) f [⟨Rect.whole S16x1024, w⟩]) y = w y :=
  (congrArg (v.read (Elt F) (v.writes (Elt F) f [⟨Rect.whole S16x1024, w⟩])) (whole_emb y).symm).trans
    (View.read_writes_cons_emb v f (Rect.whole S16x1024) w [] y)

set_option maxHeartbeats 8000000 in
theorem tile_body4 (hF : (K (F := F)).Facts) (hidx : ∀ j, (fi j).toNat < 4096)
    (O : CellTallies nD τ sig (HIx 3)) (W : Waits sig (HIx 3)) (hO : ∀ g, O g none = 0) :
    iprop(levAts (K (F := F)).L (K (F := F)).lev ∗ emp ∗ go4 d L fs fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_body L srcW (Memref.isWhole_whole _) idxW (Memref.isWhole_whole _) outW (Memref.isWhole_whole _)
            slabW (Memref.isWhole_whole _) idxbW (Memref.isWhole_whole _) outbW (Memref.isWhole_whole _)
            cc4_scoped0 cc4_scoped1 cc4_scoped2 cc4_scoped3 cc4_scoped4 cc4_scoped5 cc4_scoped6 cc4_scoped7 cc4_scoped8)
          fun _ => iprop(td4 d L fs fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4_body_eq_skeleton]; unfold cc4_body_skel
  rw [(K (F := F)).scopedBufs_V hF d (cV L) (jV L), SparseCore.Cfg.scopedSems0_V (Val := Elt F) d (cV L) (jV L), ownSems0_V2, ownBufs_V2]
  unfold go4
  iintro ⟨#Hlv, -, ⟨Hsrc, Hidx, ⟨%fo0, Ho0⟩, ⟨%fo1, Ho1⟩, ⟨%fo2, Ho2⟩, ⟨%fo3, Ho3⟩⟩, ⟨⟨⟨%f0, Hs0⟩, ⟨%f1, Hs1⟩, ⟨%f2, Hs2⟩⟩, Hbufs⟩,
    ⟨⟨Hm0, Hm1, Hm2, Hm3, Hm4, Hm5, Hm6, Hm7, Hm8⟩, Hsems⟩, HO⟩
  ihave Hmw := ((K (F := F)).mayWaits_none (thr := V d (cV L) (jV L)) hO) $$ Hlv
  ihave Hsrc := (Entails.of_eq (pts_src (F := F) d L _ _).symm) $$ Hsrc
  ihave Hidx := (Entails.of_eq (pts_idx (F := F) d L _ _).symm) $$ Hidx
  ihave Ho0 := (Entails.of_eq (pts_o0 (F := F) d L _).symm) $$ Ho0
  ihave Ho1 := (Entails.of_eq (pts_o1 (F := F) d L _).symm) $$ Ho1
  ihave Ho2 := (Entails.of_eq (pts_o2 (F := F) d L _).symm) $$ Ho2
  ihave Ho3 := (Entails.of_eq (pts_o3 (F := F) d L _).symm) $$ Ho3
  ihave Hs0 := (Entails.of_eq (pts_slab (F := F) d L _).symm) $$ Hs0
  ihave Hs1 := (Entails.of_eq (pts_idxb (F := F) d L _).symm) $$ Hs1
  ihave Hs2 := (Entails.of_eq (pts_outb (F := F) d L _).symm) $$ Hs2
  -- the slab's copy and the first chunk's neighbour lists
  sl_exec
  unfold tile_body4.sl.dma0 tile_body4.sl.dma0_1
  ihave Hs0 := (Entails.of_eq (slab_after (F := F) d L fs _)) $$ Hs0
  -- chunk 0: the outer loop, block by block
  ihave Hs1 := (Entails.of_eq (idxb_after0 (F := F) d L fi _)) $$ Hs1
  sl_for (inv1 d L (slabOf fs L) (idxOf fi L 0) (Gout negInf (slabOf fs L) (idxOf fi L 0))) $$ [Hs0 Hs1 Hs2]
  case region => exact outer_trip0 d L (slabOf fs L) (idxOf fi L 0) (idxOf_lt d L fi hidx 0) _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g0, Hs2, %hg0⟩
  obtain rfl := done1_all hg0
  sl_exec
  -- chunk 1: the outer loop, block by block
  unfold tile_body4.sl.dma0_3
  ihave Hs1 := (Entails.of_eq (idxb_after1 (F := F) d L fi _)) $$ Hs1
  sl_for (inv1 d L (slabOf fs L) (idxOf fi L 1) (Gout negInf (slabOf fs L) (idxOf fi L 1))) $$ [Hs0 Hs1 Hs2]
  case region => exact outer_trip1 d L (slabOf fs L) (idxOf fi L 1) (idxOf_lt d L fi hidx 1) _ _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g1, Hs2, %hg1⟩
  obtain rfl := done1_all hg1
  sl_exec
  -- chunk 2: the outer loop, block by block
  unfold tile_body4.sl.dma0_5
  ihave Hs1 := (Entails.of_eq (idxb_after2 (F := F) d L fi _)) $$ Hs1
  sl_for (inv1 d L (slabOf fs L) (idxOf fi L 2) (Gout negInf (slabOf fs L) (idxOf fi L 2))) $$ [Hs0 Hs1 Hs2]
  case region => exact outer_trip2 d L (slabOf fs L) (idxOf fi L 2) (idxOf_lt d L fi hidx 2) _ _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g2, Hs2, %hg2⟩
  obtain rfl := done1_all hg2
  sl_exec
  -- chunk 3: the outer loop, block by block
  unfold tile_body4.sl.dma0_7
  ihave Hs1 := (Entails.of_eq (idxb_after3 (F := F) d L fi _)) $$ Hs1
  sl_for (inv1 d L (slabOf fs L) (idxOf fi L 3) (Gout negInf (slabOf fs L) (idxOf fi L 3))) $$ [Hs0 Hs1 Hs2]
  case region => exact outer_trip3 d L (slabOf fs L) (idxOf fi L 3) (idxOf_lt d L fi hidx 3)
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g3, Hs2, %hg3⟩
  obtain rfl := done1_all hg3
  sl_exec
  unfold tile_body4.sl.dma0_2 tile_body4.sl.dma0_4 tile_body4.sl.dma0_6 tile_body4.sl.dma0_8
  sl_step
  unfold td4
  isplitl [Hsrc Hidx Ho0 Ho1 Ho2 Ho3]
  · isplitl [Hsrc]
    · iapply (Entails.of_eq (pts_src (F := F) d L _ _)); iexact Hsrc
    isplitl [Hidx]
    · iapply (Entails.of_eq (pts_idx (F := F) d L _ _)); iexact Hidx
    isplitl [Ho0]
    · iapply (Entails.of_eq (out_gen0 (F := F) d L fs fi hidx _ (fun y => read_writes_whole _ _ _ y))); iexact Ho0
    isplitl [Ho1]
    · iapply (Entails.of_eq (out_gen1 (F := F) d L fs fi hidx _ (fun y => read_writes_whole _ _ _ y))); iexact Ho1
    isplitl [Ho2]
    · iapply (Entails.of_eq (out_gen2 (F := F) d L fs fi hidx _ (fun y => read_writes_whole _ _ _ y))); iexact Ho2
    · iapply (Entails.of_eq (out_gen3 (F := F) d L fs fi hidx _ (fun y => read_writes_whole _ _ _ y))); iexact Ho3
  isplitl [Hs0 Hs1 Hs2 Hbufs]
  · isplitl [Hs0 Hs1 Hs2]
    · isplitl [Hs0]
      · iexists _; iexact Hs0
      isplitl [Hs1]
      · iexists _; iexact Hs1
      · iexists _; iexact Hs2
    · iexact Hbufs
  isplitl [Hm0 Hm1 Hm2 Hm3 Hm4 Hm5 Hm6 Hm7 Hm8 Hsems]
  · isplitl [Hm0 Hm1 Hm2 Hm3 Hm4 Hm5 Hm6 Hm7 Hm8]
    · isplitl [Hm0]
      · iexact Hm0
      isplitl [Hm1]
      · iexact Hm1
      isplitl [Hm2]
      · iexact Hm2
      isplitl [Hm3]
      · iexact Hm3
      isplitl [Hm4]
      · iexact Hm4
      isplitl [Hm5]
      · iexact Hm5
      isplitl [Hm6]
      · iexact Hm6
      isplitl [Hm7]
      · iexact Hm7
      · iexact Hm8
    · iexact Hsems
  iexists _
  isplitr
  rotate_left
  · iexact HO
  · ipureintro
    intro p hp
    simp only [Finset.mem_insert] at hp
    rcases hp with rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inl hp

end Tile

end Cert.Proof.KI.T4

end
-- ==== Proof.KIChain.lean ====
/-
  What @main leaves in the TensorCore's arrays, read back.

  The chain of valuations runs through seven stretches of host operations and six region steps.  No step writes an
  argument array, so each argument still holds what the launch dealt it.  Every value of @main is written once, and
  reading the chain back step by step (a host operation's result at its own array its function of what it reads, at
  any other array what was there; a region step's update likewise) gives each array as a term over the ten arguments
  and the six region functions: the last one is the program's result.
-/
import proofs.«209975_g17849884082380_cont_8to1_1483_11_alg».proof.Proof.KILaunch
import proofs.«209975_g17849884082380_cont_8to1_1483_11_alg».proof.Proof.KIValue
import Idealize.ShloMosaic.Lib.StableHlo.Run

noncomputable section

namespace Cert.Proof.KI

open Cert.KernelIdeal Cert.KernelIdeal.Gen
open Idealize.ShloMosaic
open Idealize.ShloMosaic.StableHlo (after_cons after_nil devRef_ne_of_ne unary_result reshape_result unary_result_ne reshape_result_ne)

/-! ## An array a step does not write keeps its contents -/

section Keep

variable {F : FTy → Type} [FloatOps F] (R : Regions F) (W₀ : Valuation τ sig (Elt F))

theorem W1_keep (r : Ref sig .tc) (h0 : r ≠ main_v0 := by decide) (h1 : r ≠ main_v1 := by decide)
    (h2 : r ≠ main_v2 := by decide) : W1 W₀ (dr r) = W₀ (dr r) := by
  unfold W1
  simp only [after_cons, after_nil]
  rw [reshape_result_ne (h := h2), unary_result_ne (h := h1), unary_result_ne (h := h0)]

theorem W2_keep (r : Ref sig .tc) (h0 : r ≠ main_v3_0 := by decide) (h1 : r ≠ main_v3_1 := by decide) :
    W2 R W₀ (dr r) = W1 W₀ (dr r) := by
  unfold W2
  rw [Function.update_of_ne (devRef_ne_of_ne h1), Function.update_of_ne (devRef_ne_of_ne h0)]

theorem W3_keep (r : Ref sig .tc) (h : r ≠ main_v4 := by decide) : W3 R W₀ (dr r) = W2 R W₀ (dr r) := by
  unfold W3
  simp only [after_cons, after_nil]
  rw [reshape_result_ne (h := h)]

theorem W4_keep (r : Ref sig .tc) (h : r ≠ main_v5 := by decide) : W4 R W₀ (dr r) = W3 R W₀ (dr r) := by
  unfold W4
  rw [Function.update_of_ne (devRef_ne_of_ne h)]

theorem W5_keep (r : Ref sig .tc) (h : r ≠ main_v6 := by decide) : W5 R W₀ (dr r) = W4 R W₀ (dr r) := by
  unfold W5
  simp only [after_cons, after_nil]
  rw [reshape_result_ne (h := h)]

theorem W6_keep (r : Ref sig .tc) (h : r ≠ main_v7 := by decide) : W6 R W₀ (dr r) = W5 R W₀ (dr r) := by
  unfold W6
  rw [Function.update_of_ne (devRef_ne_of_ne h)]

theorem W7_keep (r : Ref sig .tc) (h : r ≠ main_v8 := by decide) : W7 R W₀ (dr r) = W6 R W₀ (dr r) := by
  unfold W7
  simp only [after_cons, after_nil]
  rw [reshape_result_ne (h := h)]

theorem W8_keep (r : Ref sig .tc) (h : r ≠ main_v9 := by decide) : W8 R W₀ (dr r) = W7 R W₀ (dr r) := by
  unfold W8
  rw [Function.update_of_ne (devRef_ne_of_ne h)]

theorem W9_keep (r : Ref sig .tc) (h : r ≠ main_v10 := by decide) : W9 R W₀ (dr r) = W8 R W₀ (dr r) := by
  unfold W9
  simp only [after_cons, after_nil]
  rw [reshape_result_ne (h := h)]

theorem W10_keep (r : Ref sig .tc) (h : r ≠ main_v11 := by decide) : W10 R W₀ (dr r) = W9 R W₀ (dr r) := by
  unfold W10
  rw [Function.update_of_ne (devRef_ne_of_ne h)]

theorem W11_keep (r : Ref sig .tc) (h12 : r ≠ main_v12 := by decide) (h13 : r ≠ main_v13 := by decide)
    (h14 : r ≠ main_v14 := by decide) (h15 : r ≠ main_v15 := by decide) (h16 : r ≠ main_v16 := by decide) :
    W11 R W₀ (dr r) = W10 R W₀ (dr r) := by
  unfold W11
  simp only [after_cons, after_nil]
  rw [unary_result_ne (h := h16), unary_result_ne (h := h15), unary_result_ne (h := h14),
    reshape_result_ne (h := h13), reshape_result_ne (h := h12)]

theorem W12_keep (r : Ref sig .tc) (h : r ≠ main_v17 := by decide) : W12 R W₀ (dr r) = W11 R W₀ (dr r) := by
  unfold W12
  rw [Function.update_of_ne (devRef_ne_of_ne h)]

theorem W13_keep (r : Ref sig .tc) (h : r ≠ main_v18 := by decide) : W13 R W₀ (dr r) = W12 R W₀ (dr r) := by
  unfold W13
  simp only [after_cons, after_nil]
  rw [reshape_result_ne (h := h)]

/-- An array no step of @main writes holds at the end what it held at the launch. -/
theorem W13_unwritten (r : Ref sig .tc)
    (h0 : r ≠ main_v0 := by decide) (h1 : r ≠ main_v1 := by decide) (h2 : r ≠ main_v2 := by decide)
    (h30 : r ≠ main_v3_0 := by decide) (h31 : r ≠ main_v3_1 := by decide) (h4 : r ≠ main_v4 := by decide)
    (h5 : r ≠ main_v5 := by decide) (h6 : r ≠ main_v6 := by decide) (h7 : r ≠ main_v7 := by decide)
    (h8 : r ≠ main_v8 := by decide) (h9 : r ≠ main_v9 := by decide) (h10 : r ≠ main_v10 := by decide)
    (h11 : r ≠ main_v11 := by decide) (h12 : r ≠ main_v12 := by decide) (h13 : r ≠ main_v13 := by decide)
    (h14 : r ≠ main_v14 := by decide) (h15 : r ≠ main_v15 := by decide) (h16 : r ≠ main_v16 := by decide)
    (h17 : r ≠ main_v17 := by decide) (h18 : r ≠ main_v18 := by decide) :
    W13 R W₀ (dr r) = W₀ (dr r) := by
  rw [W13_keep R W₀ r h18, W12_keep R W₀ r h17, W11_keep R W₀ r h12 h13 h14 h15 h16, W10_keep R W₀ r h11,
    W9_keep R W₀ r h10, W8_keep R W₀ r h9, W7_keep R W₀ r h8, W6_keep R W₀ r h7, W5_keep R W₀ r h6, W4_keep R W₀ r h5,
    W3_keep R W₀ r h4, W2_keep R W₀ r h30 h31, W1_keep W₀ r h0 h1 h2]

/-! ## The arguments at the end -/

theorem W13_arg0 : W13 R W₀ (dr main_arg0) = W₀ (dr main_arg0) := W13_unwritten R W₀ main_arg0
theorem W13_arg1 : W13 R W₀ (dr main_arg1) = W₀ (dr main_arg1) := W13_unwritten R W₀ main_arg1
theorem W13_arg2 : W13 R W₀ (dr main_arg2) = W₀ (dr main_arg2) := W13_unwritten R W₀ main_arg2
theorem W13_arg3 : W13 R W₀ (dr main_arg3) = W₀ (dr main_arg3) := W13_unwritten R W₀ main_arg3
theorem W13_arg4 : W13 R W₀ (dr main_arg4) = W₀ (dr main_arg4) := W13_unwritten R W₀ main_arg4
theorem W13_arg5 : W13 R W₀ (dr main_arg5) = W₀ (dr main_arg5) := W13_unwritten R W₀ main_arg5
theorem W13_arg6 : W13 R W₀ (dr main_arg6) = W₀ (dr main_arg6) := W13_unwritten R W₀ main_arg6
theorem W13_arg7 : W13 R W₀ (dr main_arg7) = W₀ (dr main_arg7) := W13_unwritten R W₀ main_arg7
theorem W13_arg8 : W13 R W₀ (dr main_arg8) = W₀ (dr main_arg8) := W13_unwritten R W₀ main_arg8
theorem W13_arg9 : W13 R W₀ (dr main_arg9) = W₀ (dr main_arg9) := W13_unwritten R W₀ main_arg9

end Keep

/-! ## Each array of @main as a term over the arguments -/

section Values

variable (R : Regions Ideal) (W₀ : Valuation τ sig (Elt Ideal))

/-! ### After the first host stretch -/

theorem W1_v0 : W1 W₀ (dr main_v0) = KIValue.v0 (W₀ (dr main_arg1)) := by
  unfold W1
  simp only [after_cons, after_nil]
  rw [reshape_result_ne (h := by decide), unary_result_ne (h := by decide), unary_result]
  rfl

theorem W1_v1 : W1 W₀ (dr main_v1) = KIValue.v1 (W₀ (dr main_arg0)) := by
  unfold W1
  simp only [after_cons, after_nil]
  rw [reshape_result_ne (h := by decide), unary_result, unary_result_ne (h := by decide)]
  rfl

theorem W1_v2 : W1 W₀ (dr main_v2) = KIValue.v2 (W₀ (dr main_arg3)) := by
  unfold W1
  simp only [after_cons, after_nil]
  rw [reshape_result, unary_result_ne (h := by decide), unary_result_ne (h := by decide)]
  rfl

/-! ### After the edge convolution -/

theorem W2_v3_0 : W2 R W₀ (dr main_v3_0) = KIValue.Y0 R.tcaY (W₀ (dr main_arg0)) (W₀ (dr main_arg2)) (W₀ (dr main_arg3)) := by
  unfold W2
  rw [Function.update_of_ne (devRef_ne_of_ne (by decide)), Function.update_self, W1_v1, W1_v2, W1_keep W₀ main_arg2]
  rfl

theorem W2_v3_1 : W2 R W₀ (dr main_v3_1) = KIValue.C0 R.tcaC (W₀ (dr main_arg0)) (W₀ (dr main_arg2)) (W₀ (dr main_arg3)) := by
  unfold W2
  rw [Function.update_self, W1_v1, W1_v2, W1_keep W₀ main_arg2]
  rfl

theorem W3_v4 : W3 R W₀ (dr main_v4)
    = shapeCast S8x262144 (KIValue.Y0 R.tcaY (W₀ (dr main_arg0)) (W₀ (dr main_arg2)) (W₀ (dr main_arg3))) shapeCasts_S8x64x4096_S8x262144 := by
  unfold W3
  simp only [after_cons, after_nil]
  rw [reshape_result, W2_v3_0]
  rfl

theorem W3_v0 : W3 R W₀ (dr main_v0) = KIValue.v0 (W₀ (dr main_arg1)) := by
  rw [W3_keep R W₀ main_v0, W2_keep R W₀ main_v0, W1_v0]

theorem W3_v3_1 : W3 R W₀ (dr main_v3_1) = KIValue.C0 R.tcaC (W₀ (dr main_arg0)) (W₀ (dr main_arg2)) (W₀ (dr main_arg3)) := by
  rw [W3_keep R W₀ main_v3_1, W2_v3_1]

/-! ### After the first gather-and-maximum -/

theorem W4_v5 : W4 R W₀ (dr main_v5) = KIValue.H0 R.tcaY R.tcaC R.gmaxL (W₀ (dr main_arg0)) (W₀ (dr main_arg1)) (W₀ (dr main_arg2)) (W₀ (dr main_arg3)) := by
  unfold W4
  rw [Function.update_self, W3_v4, W3_v0, W3_v3_1]
  rfl

theorem W5_v6 : W5 R W₀ (dr main_v6)
    = shapeCast S8x262144 (KIValue.H0 R.tcaY R.tcaC R.gmaxL (W₀ (dr main_arg0)) (W₀ (dr main_arg1)) (W₀ (dr main_arg2)) (W₀ (dr main_arg3))) shapeCasts_S8x64x4096_S8x262144 := by
  unfold W5
  simp only [after_cons, after_nil]
  rw [reshape_result, W4_v5]
  rfl

theorem W5_v0 : W5 R W₀ (dr main_v0) = KIValue.v0 (W₀ (dr main_arg1)) := by
  rw [W5_keep R W₀ main_v0, W4_keep R W₀ main_v0, W3_v0]

/-! ### After the second gather-and-maximum -/

theorem W6_v7 : W6 R W₀ (dr main_v7) = KIValue.G1 R.tcaY R.tcaC R.gmaxL R.gmaxP (W₀ (dr main_arg0)) (W₀ (dr main_arg1)) (W₀ (dr main_arg2)) (W₀ (dr main_arg3)) := by
  unfold W6
  rw [Function.update_self, W5_v6, W5_v0]
  rfl

theorem W6_arg5 : W6 R W₀ (dr main_arg5) = (W₀ (dr main_arg5)) := by
  rw [W6_keep R W₀ main_arg5, W5_keep R W₀ main_arg5, W4_keep R W₀ main_arg5, W3_keep R W₀ main_arg5,
    W2_keep R W₀ main_arg5, W1_keep W₀ main_arg5]

theorem W7_v8 : W7 R W₀ (dr main_v8) = shapeCast S64x1 (W₀ (dr main_arg5)) shapeCasts_S64_S64x1 := by
  unfold W7
  simp only [after_cons, after_nil]
  rw [reshape_result, W6_arg5]
  rfl

theorem W7_v7 : W7 R W₀ (dr main_v7) = KIValue.G1 R.tcaY R.tcaC R.gmaxL R.gmaxP (W₀ (dr main_arg0)) (W₀ (dr main_arg1)) (W₀ (dr main_arg2)) (W₀ (dr main_arg3)) := by
  rw [W7_keep R W₀ main_v7, W6_v7]

theorem W7_arg4 : W7 R W₀ (dr main_arg4) = (W₀ (dr main_arg4)) := by
  rw [W7_keep R W₀ main_arg4, W6_keep R W₀ main_arg4, W5_keep R W₀ main_arg4, W4_keep R W₀ main_arg4,
    W3_keep R W₀ main_arg4, W2_keep R W₀ main_arg4, W1_keep W₀ main_arg4]

/-! ### After the first point convolution -/

theorem W8_v9 : W8 R W₀ (dr main_v9) = KIValue.H1 R.tcaY R.tcaC R.gmaxL R.gmaxP R.tcb (W₀ (dr main_arg0)) (W₀ (dr main_arg1)) (W₀ (dr main_arg2)) (W₀ (dr main_arg3)) (W₀ (dr main_arg4)) (W₀ (dr main_arg5)) := by
  unfold W8
  rw [Function.update_self, W7_v7, W7_arg4, W7_v8]
  rfl

theorem W9_v10 : W9 R W₀ (dr main_v10)
    = shapeCast S8x262144 (KIValue.H1 R.tcaY R.tcaC R.gmaxL R.gmaxP R.tcb (W₀ (dr main_arg0)) (W₀ (dr main_arg1)) (W₀ (dr main_arg2)) (W₀ (dr main_arg3)) (W₀ (dr main_arg4)) (W₀ (dr main_arg5)))
        shapeCasts_S8x64x4096_S8x262144 := by
  unfold W9
  simp only [after_cons, after_nil]
  rw [reshape_result, W8_v9]
  rfl

theorem W9_v0 : W9 R W₀ (dr main_v0) = KIValue.v0 (W₀ (dr main_arg1)) := by
  rw [W9_keep R W₀ main_v0, W8_keep R W₀ main_v0, W7_keep R W₀ main_v0, W6_keep R W₀ main_v0, W5_v0]

/-! ### After the third gather-and-maximum -/

theorem W10_v11 : W10 R W₀ (dr main_v11) = KIValue.G2 R.tcaY R.tcaC R.gmaxL R.gmaxP R.tcb (W₀ (dr main_arg0)) (W₀ (dr main_arg1)) (W₀ (dr main_arg2)) (W₀ (dr main_arg3)) (W₀ (dr main_arg4)) (W₀ (dr main_arg5)) := by
  unfold W10
  rw [Function.update_self, W9_v10, W9_v0]
  rfl

theorem W10_arg (r : Ref sig .tc)
    (h0 : r ≠ main_v0 := by decide) (h1 : r ≠ main_v1 := by decide) (h2 : r ≠ main_v2 := by decide)
    (h30 : r ≠ main_v3_0 := by decide) (h31 : r ≠ main_v3_1 := by decide) (h4 : r ≠ main_v4 := by decide)
    (h5 : r ≠ main_v5 := by decide) (h6 : r ≠ main_v6 := by decide) (h7 : r ≠ main_v7 := by decide)
    (h8 : r ≠ main_v8 := by decide) (h9 : r ≠ main_v9 := by decide) (h10 : r ≠ main_v10 := by decide)
    (h11 : r ≠ main_v11 := by decide) : W10 R W₀ (dr r) = W₀ (dr r) := by
  rw [W10_keep R W₀ r h11, W9_keep R W₀ r h10, W8_keep R W₀ r h9, W7_keep R W₀ r h8, W6_keep R W₀ r h7,
    W5_keep R W₀ r h6, W4_keep R W₀ r h5, W3_keep R W₀ r h4, W2_keep R W₀ r h30 h31, W1_keep W₀ r h0 h1 h2]

/-! ### After the last host stretch but one -/

theorem W11_v12 : W11 R W₀ (dr main_v12) = shapeCast S128x1 (W₀ (dr main_arg7)) shapeCasts_S128_S128x1 := by
  unfold W11
  simp only [after_cons, after_nil]
  rw [unary_result_ne (h := by decide), unary_result_ne (h := by decide), unary_result_ne (h := by decide),
    reshape_result_ne (h := by decide), reshape_result, W10_arg R W₀ main_arg7]
  rfl

theorem W11_v13 : W11 R W₀ (dr main_v13) = shapeCast S1x512 (W₀ (dr main_arg9)) shapeCasts_S512_S1x512 := by
  unfold W11
  simp only [after_cons, after_nil]
  rw [unary_result_ne (h := by decide), unary_result_ne (h := by decide), unary_result_ne (h := by decide),
    reshape_result, reshape_result_ne (h := by decide), W10_arg R W₀ main_arg9]
  rfl

theorem W11_v14 : W11 R W₀ (dr main_v14) = extractStridedSlice S512x64 ![0, 0] (W₀ (dr main_arg8)) slices_S512x256_S512x64_0_0 := by
  unfold W11
  simp only [after_cons, after_nil]
  rw [unary_result_ne (h := by decide), unary_result_ne (h := by decide), unary_result,
    reshape_result_ne (h := by decide), reshape_result_ne (h := by decide), W10_arg R W₀ main_arg8]

theorem W11_v15 : W11 R W₀ (dr main_v15) = extractStridedSlice S512x64 ![0, 64] (W₀ (dr main_arg8)) slices_S512x256_S512x64_0_64 := by
  unfold W11
  simp only [after_cons, after_nil]
  rw [unary_result_ne (h := by decide), unary_result, unary_result_ne (h := by decide),
    reshape_result_ne (h := by decide), reshape_result_ne (h := by decide), W10_arg R W₀ main_arg8]

theorem W11_v16 : W11 R W₀ (dr main_v16) = extractStridedSlice S512x128 ![0, 128] (W₀ (dr main_arg8)) slices_S512x256_S512x128_0_128 := by
  unfold W11
  simp only [after_cons, after_nil]
  rw [unary_result, unary_result_ne (h := by decide), unary_result_ne (h := by decide),
    reshape_result_ne (h := by decide), reshape_result_ne (h := by decide), W10_arg R W₀ main_arg8]

theorem W11_v11 : W11 R W₀ (dr main_v11) = KIValue.G2 R.tcaY R.tcaC R.gmaxL R.gmaxP R.tcb (W₀ (dr main_arg0)) (W₀ (dr main_arg1)) (W₀ (dr main_arg2)) (W₀ (dr main_arg3)) (W₀ (dr main_arg4)) (W₀ (dr main_arg5)) := by
  rw [W11_keep R W₀ main_v11, W10_v11]

theorem W11_v5 : W11 R W₀ (dr main_v5) = KIValue.H0 R.tcaY R.tcaC R.gmaxL (W₀ (dr main_arg0)) (W₀ (dr main_arg1)) (W₀ (dr main_arg2)) (W₀ (dr main_arg3)) := by
  rw [W11_keep R W₀ main_v5, W10_keep R W₀ main_v5, W9_keep R W₀ main_v5, W8_keep R W₀ main_v5, W7_keep R W₀ main_v5,
    W6_keep R W₀ main_v5, W5_keep R W₀ main_v5, W4_v5]

theorem W11_v9 : W11 R W₀ (dr main_v9) = KIValue.H1 R.tcaY R.tcaC R.gmaxL R.gmaxP R.tcb (W₀ (dr main_arg0)) (W₀ (dr main_arg1)) (W₀ (dr main_arg2)) (W₀ (dr main_arg3)) (W₀ (dr main_arg4)) (W₀ (dr main_arg5)) := by
  rw [W11_keep R W₀ main_v9, W10_keep R W₀ main_v9, W9_keep R W₀ main_v9, W8_v9]

theorem W11_arg6 : W11 R W₀ (dr main_arg6) = (W₀ (dr main_arg6)) := by
  rw [W11_keep R W₀ main_arg6, W10_arg R W₀ main_arg6]

/-! ### After the last region, and the result -/

theorem W12_v17 : W12 R W₀ (dr main_v17)
    = KIValue.O3 R.tcaY R.tcaC R.gmaxL R.gmaxP R.tcb R.tcc (W₀ (dr main_arg0)) (W₀ (dr main_arg1)) (W₀ (dr main_arg2)) (W₀ (dr main_arg3)) (W₀ (dr main_arg4)) (W₀ (dr main_arg5)) (W₀ (dr main_arg6)) (W₀ (dr main_arg7)) (W₀ (dr main_arg8)) (W₀ (dr main_arg9)) := by
  unfold W12
  rw [Function.update_self, W11_v11, W11_v5, W11_v9, W11_arg6, W11_v12, W11_v14, W11_v15, W11_v16, W11_v13]
  rfl

/-- What @main leaves in its result array: the program's result as a term over the arguments and the regions. -/
theorem W13_result : W13 R W₀ (dr main_v18)
    = KIValue.kernTerm R.tcaY R.tcaC R.gmaxL R.gmaxP R.tcb R.tcc (W₀ (dr main_arg0)) (W₀ (dr main_arg1)) (W₀ (dr main_arg2)) (W₀ (dr main_arg3)) (W₀ (dr main_arg4)) (W₀ (dr main_arg5)) (W₀ (dr main_arg6)) (W₀ (dr main_arg7)) (W₀ (dr main_arg8)) (W₀ (dr main_arg9)) := by
  unfold W13
  simp only [after_cons, after_nil]
  rw [reshape_result, W12_v17]
  rfl

/-- Under the six regions' specifications, with every neighbour word below 4096, the slope a non-negative real and the
points, edge weights and edge bias real: @main's result array holds the reference side. -/
theorem W13_value (hY : KIValue.SpecY R.tcaY) (hC : KIValue.SpecC R.tcaC) (hGP : KIValue.SpecGP R.gmaxP)
    (hGL : KIValue.SpecGL R.gmaxL) (hB : KIValue.SpecB R.tcb) (hT : KIValue.SpecT R.tcc)
    (hidx : ∀ j, ((W₀ (dr main_arg1)) j).toNat < 4096) (hs : ∃ r : ℝ, 0 ≤ r ∧ Cert.Decode.slope = (r : EReal))
    (h0 : ∀ j, ∃ r : ℝ, (W₀ (dr main_arg0)) j = (r : EReal)) (h2 : ∀ j, ∃ r : ℝ, (W₀ (dr main_arg2)) j = (r : EReal))
    (h3 : ∀ j, ∃ r : ℝ, (W₀ (dr main_arg3)) j = (r : EReal)) :
    W13 R W₀ (dr main_v18) = Cert.Decode.refOut (W₀ (dr main_arg0)) (W₀ (dr main_arg1)) (W₀ (dr main_arg2)) (W₀ (dr main_arg3)) (W₀ (dr main_arg4)) (W₀ (dr main_arg5)) (W₀ (dr main_arg6)) (W₀ (dr main_arg7)) (W₀ (dr main_arg8)) (W₀ (dr main_arg9)) := by
  rw [W13_result]
  exact KIValue.kern_value R.tcaY R.tcaC R.gmaxL R.gmaxP R.tcb R.tcc (W₀ (dr main_arg0)) (W₀ (dr main_arg1)) (W₀ (dr main_arg2)) (W₀ (dr main_arg3)) (W₀ (dr main_arg4)) (W₀ (dr main_arg5)) (W₀ (dr main_arg6)) (W₀ (dr main_arg7)) (W₀ (dr main_arg8)) (W₀ (dr main_arg9)) hY hC hGP hGL hB hT hidx hs
    h0 h2 h3

end Values

end Cert.Proof.KI

end
-- ==== Proof.KIChainIdx.lean ====
/-
  The neighbour lists the three SparseCore calls read are in range when the argument is.

  The transposed neighbour array is written once, by the first host stretch, and kept by every later step; a transpose
  only permutes the entries, so a bound on every entry of the argument is a bound on every entry of its transpose.
  Stated for any float instance.
-/
import proofs.«209975_g17849884082380_cont_8to1_1483_11_alg».proof.Proof.KIChain

noncomputable section

namespace Cert.Proof.KI

open Cert.KernelIdeal Cert.KernelIdeal.Gen
open Idealize.ShloMosaic
open Idealize.ShloMosaic.StableHlo (after_cons after_nil unary_result unary_result_ne reshape_result_ne)

variable {F : FTy → Type} [FloatOps F] (R : Regions F) (W₀ : Valuation τ sig (Elt F))

/-- After the first host stretch the transposed neighbour array is the transpose of the argument. -/
theorem W1_v0_transpose : W1 W₀ (dr main_v0)
    = transpose S8x20x4096 [0, 2, 1] (W₀ (dr main_arg1)) transposes_S8x4096x20_S8x20x4096_0_2_1 := by
  unfold W1
  simp only [after_cons, after_nil]
  rw [reshape_result_ne (h := by decide), unary_result_ne (h := by decide), unary_result]

/-- Every entry of the transposed neighbour array is an entry of the argument. -/
theorem W1_v0_range (h : ∀ j, (W₀ (dr main_arg1) j).toNat < 4096) : ∀ j, (W1 W₀ (dr main_v0) j).toNat < 4096 := by
  intro j
  rw [W1_v0_transpose]
  unfold transpose
  exact h _

theorem W3_v0_range (h : ∀ j, (W₀ (dr main_arg1) j).toNat < 4096) : ∀ j, (W3 R W₀ (dr main_v0) j).toNat < 4096 := by
  intro j
  rw [W3_keep R W₀ main_v0, W2_keep R W₀ main_v0]
  exact W1_v0_range W₀ h j

theorem W5_v0_range (h : ∀ j, (W₀ (dr main_arg1) j).toNat < 4096) : ∀ j, (W5 R W₀ (dr main_v0) j).toNat < 4096 := by
  intro j
  rw [W5_keep R W₀ main_v0, W4_keep R W₀ main_v0]
  exact W3_v0_range R W₀ h j

theorem W9_v0_range (h : ∀ j, (W₀ (dr main_arg1) j).toNat < 4096) : ∀ j, (W9 R W₀ (dr main_v0) j).toNat < 4096 := by
  intro j
  rw [W9_keep R W₀ main_v0, W8_keep R W₀ main_v0, W7_keep R W₀ main_v0, W6_keep R W₀ main_v0]
  exact W5_v0_range R W₀ h j

end Cert.Proof.KI

end
-- ==== Proof.KIHrun.lean ====
/-
  The kernel's program, whole: the six regions' functions and the run from every memory whose neighbour lists are in range.
-/
import proofs.«209975_g17849884082380_cont_8to1_1483_11_alg».proof.Proof.KIRun
import proofs.«209975_g17849884082380_cont_8to1_1483_11_alg».proof.Proof.KIObl
import proofs.«209975_g17849884082380_cont_8to1_1483_11_alg».proof.Proof.KIRegionSteps
import proofs.«209975_g17849884082380_cont_8to1_1483_11_alg».proof.Proof.KIRegionStep0
import proofs.«209975_g17849884082380_cont_8to1_1483_11_alg».proof.Proof.KICall0
import proofs.«209975_g17849884082380_cont_8to1_1483_11_alg».proof.Proof.KICall1
import proofs.«209975_g17849884082380_cont_8to1_1483_11_alg».proof.Proof.KICall2
import proofs.«209975_g17849884082380_cont_8to1_1483_11_alg».proof.Proof.KITile1
import proofs.«209975_g17849884082380_cont_8to1_1483_11_alg».proof.Proof.KITile2
import proofs.«209975_g17849884082380_cont_8to1_1483_11_alg».proof.Proof.KITile4
import proofs.«209975_g17849884082380_cont_8to1_1483_11_alg».proof.Proof.KITcaValue
import proofs.«209975_g17849884082380_cont_8to1_1483_11_alg».proof.Proof.KIChainIdx

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.StableHlo (launchContents)

variable {F : FTy → Type} [FloatOps F]

/-- The six regions of the program: the first pallas_call's two outputs, the gather-and-max with the added centre term
    and rectifier, the plain gather-and-max (twice), the second and the third pallas_call. -/
def Rk : Regions F := ⟨tcaY, tcaC, T1.gmaxLArr, gmaxArr, tcbArr, tccArr⟩

local notation "𝕄" => MT nD τ sig (SparseCore.Cfg.HIx 3) (Elt F) ℕ UU ℕ

/-- A pallas_call's step needs no more of what @main holds for the pipelines than it is given. -/
theorem RegionStep.mono {P : (K (F := F)).Pay (nD := nD) (Val := Elt F) (Name := ℕ) (U := UU)} {p : Fin 3} {n : ℕ} {d : Dev nD}
    {W W' : Valuation τ sig (Elt F)} {G₁ G₂ G' : sProp 𝕄} (h : G₁ ⊢ G₂) (H : RegionStep P p n d W W' G₂ G') :
    RegionStep P p n d W W' G₁ G' := by
  intro κ Φ
  iintro ⟨Hctx, Hst, Hb, Hh, HG, Hk⟩
  iapply (H κ Φ)
  isplitl [Hctx]; · iexact Hctx
  isplitl [Hst]; · iexact Hst
  isplitl [Hb]; · iexact Hb
  isplitl [Hh]; · iexact Hh
  isplitl [HG]; · iapply h; iexact HG
  iexact Hk

omit [FloatOps F] in
/-- Nothing may be added to what is held. -/
theorem sep_emp_intro (G : sProp 𝕄) : G ⊢ iprop(G ∗ emp) := by
  iintro H
  isplitl [H]
  · iexact H
  · iempintro

/-- The program's run from any memory whose neighbour lists name points of the cloud: every array of the TensorCore ends
    at @main's last valuation. -/
theorem hrun [∀ e, Nonempty (Elt F e)] (m : (ℓ : Loc nD τ sig) → Buf (Elt F) ℓ) (ρ : Dev nD → PrngReg)
    (hidx : ∀ (d : Dev nD) j, (launchContents m d (dr main_arg1) j).toNat < 4096) :
    θ_run (Cert.KernelIdeal.defs (F := F)) (Cert.KernelIdeal.threads (F := F)) ⟨m, fun _ => 0, ρ⟩ (QC (Rk (F := F)) m) :=
  run_main (Rk (F := F)) (P (Rk (F := F)) m) m ρ (mainGhost (F := F)) (fun d => iprop(pipeGhost 1 d ∗ pipeGhost 2 d)) (fun d => pipeGhost 2 d) (fun _ => iprop(emp))
    (fun q _ => match q with
      | 0 => tileObl0 (Rk (F := F)) m facts (fun d => W3_v0_range (Rk (F := F)) _ (hidx d)) (fun d L fs fi fc hi O W hO => T1.tile_body1 d L fs fi fc facts hi O W hO)
      | 1 => tileObl1 (Rk (F := F)) m facts (fun d => W5_v0_range (Rk (F := F)) _ (hidx d)) (fun d L fs fi hi O W hO => tile_body2 d L fs fi facts hi O W hO)
      | 2 => tileObl2 (Rk (F := F)) m facts (fun d => W9_v0_range (Rk (F := F)) _ (hidx d)) (fun d L fs fi hi O W hO => T4.tile_body4 d L fs fi facts hi O W hO))
    (fun q _ => vecSplit (Rk (F := F)) m q) (hscalar (Rk (F := F)) m) u₀ (hu₀ (Rk (F := F)) m) (hheld (Rk (F := F)) m)
    (fun d => RegionStep.mono (Entails.of_eq (mainGhost_eq (F := F) d)) (regionStep0 (Rk (F := F)) m rfl rfl d iprop(pipeGhost 1 d ∗ pipeGhost 2 d)))
    (fun d => T1.callStep0 (Rk (F := F)) rfl m d)
    (fun d => callStep1 (Rk (F := F)) rfl m d)
    (fun d => regionStep1 (Rk (F := F)) m rfl d (pipeGhost 2 d))
    (fun d => T4.callStep2 (Rk (F := F)) rfl m d)
    (fun d => RegionStep.mono (sep_emp_intro _) (regionStep2 (Rk (F := F)) m rfl d iprop(emp)))

end Cert.Proof.KI

end
-- ==== Proof.PreDecode.lean ====
import proofs.«209975_g17849884082380_cont_8to1_1483_11_alg».proof.Pre_input_domain
import proofs.«209975_g17849884082380_cont_8to1_1483_11_alg».proof.Proof.Gen.Pre_input_domain
import Idealize.ShloMosaic.Lib.ReduceAll
import Idealize.ShloMosaic.Lib.ValueIdx
import Idealize.ShloMosaic.PureOps.Ideal

noncomputable section

namespace Cert.Proof.PreDecode

open Idealize.ShloMosaic Cert.Pre_input_domain

/-- The rank-0 shape has one index. -/
instance : Subsingleton S_.Idx := ⟨fun a b => funext fun d => d.elim0⟩

/-- The precondition's word is a conjunction of ten "all" tests; when it is 1, each test holds at
    every index of its array: nine float arrays pass "|x| < +inf" entrywise, and every neighbour
    word passes "0 ≤ a" and "a ≤ 4095" (signed). Stated at any float instance. -/
theorem parts {F : FTy → Type} [FloatOps F] (a0 : FVec F S8x4096x3 .f32) (a1 : IVec S8x4096x20 32)
    (a2 : FVec F S64x6 .f32) (a3 : FVec F S64 .f32) (a4 : FVec F S64x64 .f32) (a5 : FVec F S64 .f32)
    (a6 : FVec F S128x64 .f32) (a7 : FVec F S128 .f32) (a8 : FVec F S512x256 .f32) (a9 : FVec F S512 .f32)
    (h : Cert.Pre_input_domain.fn (F := F) a0 a1 a2 a3 a4 a5 a6 a7 a8 a9 = fun _ => 1#1) :
    (∀ j, FloatOps.cmpf .olt (FloatOps.hostAbsf (a0 j)) (FloatOps.ofBits (F := F) .f32 0x7F800000#32) = 1#1)
    ∧ (∀ j, FloatOps.cmpf .olt (FloatOps.hostAbsf (a2 j)) (FloatOps.ofBits (F := F) .f32 0x7F800000#32) = 1#1)
    ∧ (∀ j, FloatOps.cmpf .olt (FloatOps.hostAbsf (a3 j)) (FloatOps.ofBits (F := F) .f32 0x7F800000#32) = 1#1)
    ∧ (∀ j, FloatOps.cmpf .olt (FloatOps.hostAbsf (a4 j)) (FloatOps.ofBits (F := F) .f32 0x7F800000#32) = 1#1)
    ∧ (∀ j, FloatOps.cmpf .olt (FloatOps.hostAbsf (a5 j)) (FloatOps.ofBits (F := F) .f32 0x7F800000#32) = 1#1)
    ∧ (∀ j, FloatOps.cmpf .olt (FloatOps.hostAbsf (a6 j)) (FloatOps.ofBits (F := F) .f32 0x7F800000#32) = 1#1)
    ∧ (∀ j, FloatOps.cmpf .olt (FloatOps.hostAbsf (a7 j)) (FloatOps.ofBits (F := F) .f32 0x7F800000#32) = 1#1)
    ∧ (∀ j, FloatOps.cmpf .olt (FloatOps.hostAbsf (a8 j)) (FloatOps.ofBits (F := F) .f32 0x7F800000#32) = 1#1)
    ∧ (∀ j, FloatOps.cmpf .olt (FloatOps.hostAbsf (a9 j)) (FloatOps.ofBits (F := F) .f32 0x7F800000#32) = 1#1)
    ∧ (∀ j, IntOp.cmpi .sge (a1 j) 0#32 = 1#1 ∧ IntOp.cmpi .sle (a1 j) 4095#32 = 1#1) := by
  have h0 := congrFun h ValueIdx.ix0
  dsimp only [fn, fn_part1, fn_part2] at h0
  simp only [andi, IntOp.andi_eq_one] at h0
  obtain ⟨⟨⟨⟨⟨⟨⟨⟨⟨e0, e2⟩, e3⟩, e4⟩, e5⟩, e6⟩, e7⟩, e8⟩, e9⟩, e1⟩ := h0
  refine ⟨fun j => Host.reduce_andi_all _ _ _ _ _ e0 j, fun j => Host.reduce_andi_all _ _ _ _ _ e2 j,
    fun j => Host.reduce_andi_all _ _ _ _ _ e3 j, fun j => Host.reduce_andi_all _ _ _ _ _ e4 j,
    fun j => Host.reduce_andi_all _ _ _ _ _ e5 j, fun j => Host.reduce_andi_all _ _ _ _ _ e6 j,
    fun j => Host.reduce_andi_all _ _ _ _ _ e7 j, fun j => Host.reduce_andi_all _ _ _ _ _ e8 j,
    fun j => Host.reduce_andi_all _ _ _ _ _ e9 j, fun j => ?_⟩
  have e : IntOp.andi (IntOp.cmpi .sge (a1 j) 0#32) (IntOp.cmpi .sle (a1 j) 4095#32) = 1#1 :=
    Host.reduce_andi_all _ _ _ _ _ e1 j
  exact IntOp.andi_eq_one.1 e

/-- at any float instance: every neighbour word is a value below 4096 -/
theorem idx_of_pre {F : FTy → Type} [FloatOps F] (a0 : FVec F S8x4096x3 .f32) (a1 : IVec S8x4096x20 32)
    (a2 : FVec F S64x6 .f32) (a3 : FVec F S64 .f32) (a4 : FVec F S64x64 .f32) (a5 : FVec F S64 .f32)
    (a6 : FVec F S128x64 .f32) (a7 : FVec F S128 .f32) (a8 : FVec F S512x256 .f32) (a9 : FVec F S512 .f32)
    (h : Cert.Pre_input_domain.fn (F := F) a0 a1 a2 a3 a4 a5 a6 a7 a8 a9 = fun _ => 1#1) :
    ∀ j, (a1 j).toNat < 4096 := by
  intro j
  obtain ⟨hge, hle⟩ := (parts a0 a1 a2 a3 a4 a5 a6 a7 a8 a9 h).2.2.2.2.2.2.2.2.2 j
  rw [IntOp.cmpi_sge] at hge
  rw [IntOp.cmpi_sle] at hle
  have z0 : (0#32 : BitVec 32).toInt = 0 := by decide
  have z1 : (4095#32 : BitVec 32).toInt = 4095 := by decide
  rw [z0] at hge
  rw [z1] at hle
  have hj := BitVec.toInt_eq_toNat_cond (a1 j)
  have hlt := (a1 j).isLt
  split_ifs at hj <;> omega

/-- The pattern of +inf denotes the top of the extended reals. -/
theorem inf_bits : Ideal.ofBits .f32 0x7F800000#32 = (⊤ : EReal) := by
  simp [Ideal.ofBits, Ideal.ieee]

/-- An extended real whose absolute value is below +inf is a real. -/
theorem real_of_abs_lt (x : EReal)
    (hx : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have hx' : BitVec.ofBool (decide (max x (-x) < (⊤ : EReal))) = 1#1 := by
    rw [← inf_bits]; exact hx
  induction x using EReal.rec with
  | bot => simp at hx'
  | coe r => exact ⟨r, rfl⟩
  | top => simp at hx'

/-- at Ideal: every entry of every float input is a real -/
theorem finite_of_pre (a0 : FVec Ideal S8x4096x3 .f32) (a1 : IVec S8x4096x20 32)
    (a2 : FVec Ideal S64x6 .f32) (a3 : FVec Ideal S64 .f32) (a4 : FVec Ideal S64x64 .f32) (a5 : FVec Ideal S64 .f32)
    (a6 : FVec Ideal S128x64 .f32) (a7 : FVec Ideal S128 .f32) (a8 : FVec Ideal S512x256 .f32) (a9 : FVec Ideal S512 .f32)
    (h : Cert.Pre_input_domain.fn (F := Ideal) a0 a1 a2 a3 a4 a5 a6 a7 a8 a9 = fun _ => 1#1) :
    (∀ j, ∃ r : ℝ, a0 j = (r : EReal)) ∧ (∀ j, ∃ r : ℝ, a2 j = (r : EReal)) ∧ (∀ j, ∃ r : ℝ, a3 j = (r : EReal))
    ∧ (∀ j, ∃ r : ℝ, a4 j = (r : EReal)) ∧ (∀ j, ∃ r : ℝ, a5 j = (r : EReal)) ∧ (∀ j, ∃ r : ℝ, a6 j = (r : EReal))
    ∧ (∀ j, ∃ r : ℝ, a7 j = (r : EReal)) ∧ (∀ j, ∃ r : ℝ, a8 j = (r : EReal)) ∧ (∀ j, ∃ r : ℝ, a9 j = (r : EReal)) := by
  obtain ⟨p0, p2, p3, p4, p5, p6, p7, p8, p9, -⟩ := parts a0 a1 a2 a3 a4 a5 a6 a7 a8 a9 h
  exact ⟨fun j => real_of_abs_lt _ (p0 j), fun j => real_of_abs_lt _ (p2 j), fun j => real_of_abs_lt _ (p3 j),
    fun j => real_of_abs_lt _ (p4 j), fun j => real_of_abs_lt _ (p5 j), fun j => real_of_abs_lt _ (p6 j),
    fun j => real_of_abs_lt _ (p7 j), fun j => real_of_abs_lt _ (p8 j), fun j => real_of_abs_lt _ (p9 j)⟩

/-- The rectifier's slope literal (the pattern of 0.2 rounded to single precision) denotes a non-negative real. -/
theorem slope_nonneg : ∃ r : ℝ, 0 ≤ r ∧ Ideal.ofBits .f32 0x3E4CCCCD#32 = ((r : ℝ) : EReal) := by
  refine ⟨13421773 / 67108864, by norm_num, ?_⟩
  simp [Ideal.ofBits, Ideal.ieee, -EReal.coe_mul]
  norm_num

end Cert.Proof.PreDecode

end
-- ==== Proof.RefRun.lean ====
/-
  The reference's @main as ONE straight line of its 136 host operations, the module-local functions unfolded at
  their call sites, and its run: from any memory with zero counters every weakly fair execution terminates with
  the result buffer at the operations' fold over the launch contents and the ten arguments unchanged.

  @main makes six calls. Each `take_along_axis(x, idx)` is twenty-three operations over that call's buffer
  record: the index normalised (negative indices wrapped by the axis length 4096), reshaped to a trailing unit
  axis, tested for 0 ≤ · ≤ 4095, the operand gathered along its point axis, and the gathered value selected
  against a NaN fill where the test fails. Each `leaky_relu(x, α)` is seven: the zero and its broadcast, the
  comparison x ≥ 0, α converted and broadcast, the product α·x, and `_where`'s one select. Around them @main's own
  forty-six operations: the transposes, broadcasts, the four contractions with their bias additions, the three
  maxima over the twenty neighbours, the two concatenations and the final maximum over the points.
-/
import proofs.«209975_g17849884082380_cont_8to1_1483_11_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 136 operations in order, each call's operations listed at the call over that call's buffers (an
    argument of a call is the caller's buffer at the callee's declared type). -/
abbrev ops : List (HloOp τ sig (Elt F)) :=
  [ unary main_arg0 main_v0 ((transpose S8x3x4096 [0, 2, 1] · transposes_S8x4096x3_S8x3x4096_0_2_1) : (⟨S8x4096x3, .f32⟩ : BufTy).Contents (Elt F) → (⟨S8x3x4096, .f32⟩ : BufTy).Contents (Elt F)),
    unary main_arg1 main_v1 (broadcastInDim S8x1x4096x20 ![0, 2, 3] bcast_S8x4096x20_S8x1x4096x20_0_2_3 : (⟨S8x4096x20, .i32⟩ : BufTy).Contents (Elt F) → (⟨S8x1x4096x20, .i32⟩ : BufTy).Contents (Elt F)),
    unary main_v1 main_v2 (broadcastInDim S8x3x4096x20 ![0, 1, 2, 3] bcast_S8x1x4096x20_S8x3x4096x20_0_1_2_3 : (⟨S8x1x4096x20, .i32⟩ : BufTy).Contents (Elt F) → (⟨S8x3x4096x20, .i32⟩ : BufTy).Contents (Elt F)),
    unary main_v0 main_v3 (broadcastInDim S8x3x4096x1 ![0, 1, 2] bcast_S8x3x4096_S8x3x4096x1_0_1_2 : (⟨S8x3x4096, .f32⟩ : BufTy).Contents (Elt F) → (⟨S8x3x4096x1, .f32⟩ : BufTy).Contents (Elt F)),
    TRef.nullary main_call0.c (constantI S_ 32 0#32),
    TRef.unary main_call0.c main_call0.v0 (broadcastInDim S8x3x4096x20 ![] bcast_S_S8x3x4096x20),
    TRef.binary (TRef.of main_v2 : TRef sig ⟨S8x3x4096x20, .i32⟩) main_call0.v0 main_call0.v1 (cmpi .slt),
    TRef.nullary main_call0.c_0 (constantI S_ 32 4096#32),
    TRef.unary main_call0.c_0 main_call0.v2 (broadcastInDim S8x3x4096x20 ![] bcast_S_S8x3x4096x20),
    TRef.binary (TRef.of main_v2 : TRef sig ⟨S8x3x4096x20, .i32⟩) main_call0.v2 main_call0.v3 addi,
    TRef.ternary main_call0.v1 main_call0.v3 (TRef.of main_v2 : TRef sig ⟨S8x3x4096x20, .i32⟩) main_call0.v4 select,
    TRef.reshape main_call0.v4 main_call0.v5 rfl shapeCasts_S8x3x4096x20_S8x3x4096x20x1,
    TRef.reshape (TRef.of main_v3 : TRef sig ⟨S8x3x4096x1, .f32⟩) main_call0.v6 rfl shapeCasts_S8x3x4096x1_S8x3x4096,
    TRef.nullary main_call0.c_1 (constantI S1 32 4095#32),
    TRef.nullary main_call0.c_2 (constantI S_ 32 0#32),
    TRef.unary main_call0.c_2 main_call0.v7 (broadcastInDim S8x3x4096x20x1 ![] bcast_S_S8x3x4096x20x1),
    TRef.binary main_call0.v5 main_call0.v7 main_call0.v8 (cmpi .sge),
    TRef.unary main_call0.c_1 main_call0.v9 (broadcastInDim S1x1x1x1x1 ![4] bcast_S1_S1x1x1x1x1_4),
    TRef.unary main_call0.v9 main_call0.v10 (broadcastInDim S8x3x4096x20x1 ![0, 1, 2, 3, 4] bcast_S1x1x1x1x1_S8x3x4096x20x1_0_1_2_3_4),
    TRef.binary main_call0.v5 main_call0.v10 main_call0.v11 (cmpi .sle),
    TRef.binary main_call0.v8 main_call0.v11 main_call0.v12 andi,
    TRef.nullary main_call0.c_3 (constantI S_ 1 1#1),
    TRef.binary main_call0.v12 main_call0.c_3 main_call0.v13 (fun x v => Host.reduce IntOp.andi x v reducesTo_S8x3x4096x20x1_S8x3x4096x20_d4 h_S_),
    TRef.binary main_call0.v6 main_call0.v5 main_call0.v14 (fun x i => Host.gather gather_S8x3x4096_S8x3x4096x20x1_S8x3x4096x20_n_2_01_01_2_4_111 x i),
    TRef.nullary main_call0.cst (constant S_ .f32 0x7FC00000#32),
    TRef.unary main_call0.cst main_call0.v15 (broadcastInDim S8x3x4096x20 ![] bcast_S_S8x3x4096x20),
    TRef.ternary main_call0.v13 main_call0.v14 main_call0.v15 main_call0.v16 select,
    unary main_v0 main_v5 (broadcastInDim S8x3x4096x1 ![0, 1, 2] bcast_S8x3x4096_S8x3x4096x1_0_1_2 : (⟨S8x3x4096, .f32⟩ : BufTy).Contents (Elt F) → (⟨S8x3x4096x1, .f32⟩ : BufTy).Contents (Elt F)),
    unary main_v5 main_v6 (broadcastInDim S8x3x4096x20 ![0, 1, 2, 3] bcast_S8x3x4096x1_S8x3x4096x20_0_1_2_3 : (⟨S8x3x4096x1, .f32⟩ : BufTy).Contents (Elt F) → (⟨S8x3x4096x20, .f32⟩ : BufTy).Contents (Elt F)),
    binary main_v4 main_v6 main_v7 (subf : (⟨S8x3x4096x20, .f32⟩ : BufTy).Contents (Elt F) → (⟨S8x3x4096x20, .f32⟩ : BufTy).Contents (Elt F) → (⟨S8x3x4096x20, .f32⟩ : BufTy).Contents (Elt F)),
    binary main_v7 main_v6 main_v8 ((fun a b => concatenate S8x6x4096x20 1 [⟨S8x3x4096x20, a⟩, ⟨S8x3x4096x20, b⟩] concatenates_S8x3x4096x20_S8x3x4096x20_S8x6x4096x20_d1) : (⟨S8x3x4096x20, .f32⟩ : BufTy).Contents (Elt F) → (⟨S8x3x4096x20, .f32⟩ : BufTy).Contents (Elt F) → (⟨S8x6x4096x20, .f32⟩ : BufTy).Contents (Elt F)),
    binary main_v8 main_arg2 main_v9 ((fun l r => Host.dotGeneral dot_S8x6x4096x20_S64x6_S8x4096x20x64_1_1_023_0_n_n none l r) : (⟨S8x6x4096x20, .f32⟩ : BufTy).Contents (Elt F) → (⟨S64x6, .f32⟩ : BufTy).Contents (Elt F) → (⟨S8x4096x20x64, .f32⟩ : BufTy).Contents (Elt F)),
    unary main_v9 main_v10 ((transpose S8x64x4096x20 [0, 3, 1, 2] · transposes_S8x4096x20x64_S8x64x4096x20_0_3_1_2) : (⟨S8x4096x20x64, .f32⟩ : BufTy).Contents (Elt F) → (⟨S8x64x4096x20, .f32⟩ : BufTy).Contents (Elt F)),
    unary main_arg3 main_v11 (broadcastInDim S1x64x1x1 ![1] bcast_S64_S1x64x1x1_1 : (⟨S64, .f32⟩ : BufTy).Contents (Elt F) → (⟨S1x64x1x1, .f32⟩ : BufTy).Contents (Elt F)),
    unary main_v11 main_v12 (broadcastInDim S8x64x4096x20 ![0, 1, 2, 3] bcast_S1x64x1x1_S8x64x4096x20_0_1_2_3 : (⟨S1x64x1x1, .f32⟩ : BufTy).Contents (Elt F) → (⟨S8x64x4096x20, .f32⟩ : BufTy).Contents (Elt F)),
    binary main_v10 main_v12 main_v13 (addf : (⟨S8x64x4096x20, .f32⟩ : BufTy).Contents (Elt F) → (⟨S8x64x4096x20, .f32⟩ : BufTy).Contents (Elt F) → (⟨S8x64x4096x20, .f32⟩ : BufTy).Contents (Elt F)),
    nullary main_cst (constant S_ .f32 0x3E4CCCCD#32),
    TRef.nullary main_call1.cst (constant S_ .f32 0x00000000#32),
    TRef.unary main_call1.cst main_call1.v0 (broadcastInDim S8x64x4096x20 ![] bcast_S_S8x64x4096x20),
    TRef.binary (TRef.of main_v13 : TRef sig ⟨S8x64x4096x20, .f32⟩) main_call1.v0 main_call1.v1 (cmpf .oge),
    TRef.unary (TRef.of main_cst : TRef sig ⟨S_, .f32⟩) main_call1.v2 id,
    TRef.unary main_call1.v2 main_call1.v3 (broadcastInDim S8x64x4096x20 ![] bcast_S_S8x64x4096x20),
    TRef.binary main_call1.v3 (TRef.of main_v13 : TRef sig ⟨S8x64x4096x20, .f32⟩) main_call1.v4 mulf,
    TRef.ternary main_call1.v1 (TRef.of main_v13 : TRef sig ⟨S8x64x4096x20, .f32⟩) main_call1.v4 main_call1.call0.v0 select,
    nullary main_cst_0 (constant S_ .f32 0xFF800000#32),
    binary main_v14 main_cst_0 main_v15 ((fun x v => Host.reduce FloatOps.maximumf x v reducesTo_S8x64x4096x20_S8x64x4096_d3 h_S_) : (⟨S8x64x4096x20, .f32⟩ : BufTy).Contents (Elt F) → (⟨S_, .f32⟩ : BufTy).Contents (Elt F) → (⟨S8x64x4096, .f32⟩ : BufTy).Contents (Elt F)),
    unary main_arg1 main_v16 (broadcastInDim S8x1x4096x20 ![0, 2, 3] bcast_S8x4096x20_S8x1x4096x20_0_2_3 : (⟨S8x4096x20, .i32⟩ : BufTy).Contents (Elt F) → (⟨S8x1x4096x20, .i32⟩ : BufTy).Contents (Elt F)),
    unary main_v16 main_v17 (broadcastInDim S8x64x4096x20 ![0, 1, 2, 3] bcast_S8x1x4096x20_S8x64x4096x20_0_1_2_3 : (⟨S8x1x4096x20, .i32⟩ : BufTy).Contents (Elt F) → (⟨S8x64x4096x20, .i32⟩ : BufTy).Contents (Elt F)),
    unary main_v15 main_v18 (broadcastInDim S8x64x4096x1 ![0, 1, 2] bcast_S8x64x4096_S8x64x4096x1_0_1_2 : (⟨S8x64x4096, .f32⟩ : BufTy).Contents (Elt F) → (⟨S8x64x4096x1, .f32⟩ : BufTy).Contents (Elt F)),
    TRef.nullary main_call2.c (constantI S_ 32 0#32),
    TRef.unary main_call2.c main_call2.v0 (broadcastInDim S8x64x4096x20 ![] bcast_S_S8x64x4096x20),
    TRef.binary (TRef.of main_v17 : TRef sig ⟨S8x64x4096x20, .i32⟩) main_call2.v0 main_call2.v1 (cmpi .slt),
    TRef.nullary main_call2.c_0 (constantI S_ 32 4096#32),
    TRef.unary main_call2.c_0 main_call2.v2 (broadcastInDim S8x64x4096x20 ![] bcast_S_S8x64x4096x20),
    TRef.binary (TRef.of main_v17 : TRef sig ⟨S8x64x4096x20, .i32⟩) main_call2.v2 main_call2.v3 addi,
    TRef.ternary main_call2.v1 main_call2.v3 (TRef.of main_v17 : TRef sig ⟨S8x64x4096x20, .i32⟩) main_call2.v4 select,
    TRef.reshape main_call2.v4 main_call2.v5 rfl shapeCasts_S8x64x4096x20_S8x64x4096x20x1,
    TRef.reshape (TRef.of main_v18 : TRef sig ⟨S8x64x4096x1, .f32⟩) main_call2.v6 rfl shapeCasts_S8x64x4096x1_S8x64x4096,
    TRef.nullary main_call2.c_1 (constantI S1 32 4095#32),
    TRef.nullary main_call2.c_2 (constantI S_ 32 0#32),
    TRef.unary main_call2.c_2 main_call2.v7 (broadcastInDim S8x64x4096x20x1 ![] bcast_S_S8x64x4096x20x1),
    TRef.binary main_call2.v5 main_call2.v7 main_call2.v8 (cmpi .sge),
    TRef.unary main_call2.c_1 main_call2.v9 (broadcastInDim S1x1x1x1x1 ![4] bcast_S1_S1x1x1x1x1_4),
    TRef.unary main_call2.v9 main_call2.v10 (broadcastInDim S8x64x4096x20x1 ![0, 1, 2, 3, 4] bcast_S1x1x1x1x1_S8x64x4096x20x1_0_1_2_3_4),
    TRef.binary main_call2.v5 main_call2.v10 main_call2.v11 (cmpi .sle),
    TRef.binary main_call2.v8 main_call2.v11 main_call2.v12 andi,
    TRef.nullary main_call2.c_3 (constantI S_ 1 1#1),
    TRef.binary main_call2.v12 main_call2.c_3 main_call2.v13 (fun x v => Host.reduce IntOp.andi x v reducesTo_S8x64x4096x20x1_S8x64x4096x20_d4 h_S_),
    TRef.binary main_call2.v6 main_call2.v5 main_call2.v14 (fun x i => Host.gather gather_S8x64x4096_S8x64x4096x20x1_S8x64x4096x20_n_2_01_01_2_4_111 x i),
    TRef.nullary main_call2.cst (constant S_ .f32 0x7FC00000#32),
    TRef.unary main_call2.cst main_call2.v15 (broadcastInDim S8x64x4096x20 ![] bcast_S_S8x64x4096x20),
    TRef.ternary main_call2.v13 main_call2.v14 main_call2.v15 main_call2.v16 select,
    nullary main_cst_1 (constant S_ .f32 0xFF800000#32),
    binary main_v19 main_cst_1 main_v20 ((fun x v => Host.reduce FloatOps.maximumf x v reducesTo_S8x64x4096x20_S8x64x4096_d3 h_S_) : (⟨S8x64x4096x20, .f32⟩ : BufTy).Contents (Elt F) → (⟨S_, .f32⟩ : BufTy).Contents (Elt F) → (⟨S8x64x4096, .f32⟩ : BufTy).Contents (Elt F)),
    binary main_v20 main_arg4 main_v21 ((fun l r => Host.dotGeneral dot_S8x64x4096_S64x64_S8x4096x64_1_1_02_0_n_n none l r) : (⟨S8x64x4096, .f32⟩ : BufTy).Contents (Elt F) → (⟨S64x64, .f32⟩ : BufTy).Contents (Elt F) → (⟨S8x4096x64, .f32⟩ : BufTy).Contents (Elt F)),
    unary main_v21 main_v22 ((transpose S8x64x4096 [0, 2, 1] · transposes_S8x4096x64_S8x64x4096_0_2_1) : (⟨S8x4096x64, .f32⟩ : BufTy).Contents (Elt F) → (⟨S8x64x4096, .f32⟩ : BufTy).Contents (Elt F)),
    unary main_arg5 main_v23 (broadcastInDim S1x64x1 ![1] bcast_S64_S1x64x1_1 : (⟨S64, .f32⟩ : BufTy).Contents (Elt F) → (⟨S1x64x1, .f32⟩ : BufTy).Contents (Elt F)),
    unary main_v23 main_v24 (broadcastInDim S8x64x4096 ![0, 1, 2] bcast_S1x64x1_S8x64x4096_0_1_2 : (⟨S1x64x1, .f32⟩ : BufTy).Contents (Elt F) → (⟨S8x64x4096, .f32⟩ : BufTy).Contents (Elt F)),
    binary main_v22 main_v24 main_v25 (addf : (⟨S8x64x4096, .f32⟩ : BufTy).Contents (Elt F) → (⟨S8x64x4096, .f32⟩ : BufTy).Contents (Elt F) → (⟨S8x64x4096, .f32⟩ : BufTy).Contents (Elt F)),
    nullary main_cst_2 (constant S_ .f32 0x3E4CCCCD#32),
    TRef.nullary main_call3.cst (constant S_ .f32 0x00000000#32),
    TRef.unary main_call3.cst main_call3.v0 (broadcastInDim S8x64x4096 ![] bcast_S_S8x64x4096),
    TRef.binary (TRef.of main_v25 : TRef sig ⟨S8x64x4096, .f32⟩) main_call3.v0 main_call3.v1 (cmpf .oge),
    TRef.unary (TRef.of main_cst_2 : TRef sig ⟨S_, .f32⟩) main_call3.v2 id,
    TRef.unary main_call3.v2 main_call3.v3 (broadcastInDim S8x64x4096 ![] bcast_S_S8x64x4096),
    TRef.binary main_call3.v3 (TRef.of main_v25 : TRef sig ⟨S8x64x4096, .f32⟩) main_call3.v4 mulf,
    TRef.ternary main_call3.v1 (TRef.of main_v25 : TRef sig ⟨S8x64x4096, .f32⟩) main_call3.v4 main_call3.call0.v0 select,
    unary main_arg1 main_v27 (broadcastInDim S8x1x4096x20 ![0, 2, 3] bcast_S8x4096x20_S8x1x4096x20_0_2_3 : (⟨S8x4096x20, .i32⟩ : BufTy).Contents (Elt F) → (⟨S8x1x4096x20, .i32⟩ : BufTy).Contents (Elt F)),
    unary main_v27 main_v28 (broadcastInDim S8x64x4096x20 ![0, 1, 2, 3] bcast_S8x1x4096x20_S8x64x4096x20_0_1_2_3 : (⟨S8x1x4096x20, .i32⟩ : BufTy).Contents (Elt F) → (⟨S8x64x4096x20, .i32⟩ : BufTy).Contents (Elt F)),
    unary main_v26 main_v29 (broadcastInDim S8x64x4096x1 ![0, 1, 2] bcast_S8x64x4096_S8x64x4096x1_0_1_2 : (⟨S8x64x4096, .f32⟩ : BufTy).Contents (Elt F) → (⟨S8x64x4096x1, .f32⟩ : BufTy).Contents (Elt F)),
    TRef.nullary main_call4.c (constantI S_ 32 0#32),
    TRef.unary main_call4.c main_call4.v0 (broadcastInDim S8x64x4096x20 ![] bcast_S_S8x64x4096x20),
    TRef.binary (TRef.of main_v28 : TRef sig ⟨S8x64x4096x20, .i32⟩) main_call4.v0 main_call4.v1 (cmpi .slt),
    TRef.nullary main_call4.c_0 (constantI S_ 32 4096#32),
    TRef.unary main_call4.c_0 main_call4.v2 (broadcastInDim S8x64x4096x20 ![] bcast_S_S8x64x4096x20),
    TRef.binary (TRef.of main_v28 : TRef sig ⟨S8x64x4096x20, .i32⟩) main_call4.v2 main_call4.v3 addi,
    TRef.ternary main_call4.v1 main_call4.v3 (TRef.of main_v28 : TRef sig ⟨S8x64x4096x20, .i32⟩) main_call4.v4 select,
    TRef.reshape main_call4.v4 main_call4.v5 rfl shapeCasts_S8x64x4096x20_S8x64x4096x20x1,
    TRef.reshape (TRef.of main_v29 : TRef sig ⟨S8x64x4096x1, .f32⟩) main_call4.v6 rfl shapeCasts_S8x64x4096x1_S8x64x4096,
    TRef.nullary main_call4.c_1 (constantI S1 32 4095#32),
    TRef.nullary main_call4.c_2 (constantI S_ 32 0#32),
    TRef.unary main_call4.c_2 main_call4.v7 (broadcastInDim S8x64x4096x20x1 ![] bcast_S_S8x64x4096x20x1),
    TRef.binary main_call4.v5 main_call4.v7 main_call4.v8 (cmpi .sge),
    TRef.unary main_call4.c_1 main_call4.v9 (broadcastInDim S1x1x1x1x1 ![4] bcast_S1_S1x1x1x1x1_4),
    TRef.unary main_call4.v9 main_call4.v10 (broadcastInDim S8x64x4096x20x1 ![0, 1, 2, 3, 4] bcast_S1x1x1x1x1_S8x64x4096x20x1_0_1_2_3_4),
    TRef.binary main_call4.v5 main_call4.v10 main_call4.v11 (cmpi .sle),
    TRef.binary main_call4.v8 main_call4.v11 main_call4.v12 andi,
    TRef.nullary main_call4.c_3 (constantI S_ 1 1#1),
    TRef.binary main_call4.v12 main_call4.c_3 main_call4.v13 (fun x v => Host.reduce IntOp.andi x v reducesTo_S8x64x4096x20x1_S8x64x4096x20_d4 h_S_),
    TRef.binary main_call4.v6 main_call4.v5 main_call4.v14 (fun x i => Host.gather gather_S8x64x4096_S8x64x4096x20x1_S8x64x4096x20_n_2_01_01_2_4_111 x i),
    TRef.nullary main_call4.cst (constant S_ .f32 0x7FC00000#32),
    TRef.unary main_call4.cst main_call4.v15 (broadcastInDim S8x64x4096x20 ![] bcast_S_S8x64x4096x20),
    TRef.ternary main_call4.v13 main_call4.v14 main_call4.v15 main_call4.v16 select,
    nullary main_cst_3 (constant S_ .f32 0xFF800000#32),
    binary main_v30 main_cst_3 main_v31 ((fun x v => Host.reduce FloatOps.maximumf x v reducesTo_S8x64x4096x20_S8x64x4096_d3 h_S_) : (⟨S8x64x4096x20, .f32⟩ : BufTy).Contents (Elt F) → (⟨S_, .f32⟩ : BufTy).Contents (Elt F) → (⟨S8x64x4096, .f32⟩ : BufTy).Contents (Elt F)),
    binary main_v31 main_arg6 main_v32 ((fun l r => Host.dotGeneral dot_S8x64x4096_S128x64_S8x4096x128_1_1_02_0_n_n none l r) : (⟨S8x64x4096, .f32⟩ : BufTy).Contents (Elt F) → (⟨S128x64, .f32⟩ : BufTy).Contents (Elt F) → (⟨S8x4096x128, .f32⟩ : BufTy).Contents (Elt F)),
    unary main_v32 main_v33 ((transpose S8x128x4096 [0, 2, 1] · transposes_S8x4096x128_S8x128x4096_0_2_1) : (⟨S8x4096x128, .f32⟩ : BufTy).Contents (Elt F) → (⟨S8x128x4096, .f32⟩ : BufTy).Contents (Elt F)),
    unary main_arg7 main_v34 (broadcastInDim S1x128x1 ![1] bcast_S128_S1x128x1_1 : (⟨S128, .f32⟩ : BufTy).Contents (Elt F) → (⟨S1x128x1, .f32⟩ : BufTy).Contents (Elt F)),
    unary main_v34 main_v35 (broadcastInDim S8x128x4096 ![0, 1, 2] bcast_S1x128x1_S8x128x4096_0_1_2 : (⟨S1x128x1, .f32⟩ : BufTy).Contents (Elt F) → (⟨S8x128x4096, .f32⟩ : BufTy).Contents (Elt F)),
    binary main_v33 main_v35 main_v36 (addf : (⟨S8x128x4096, .f32⟩ : BufTy).Contents (Elt F) → (⟨S8x128x4096, .f32⟩ : BufTy).Contents (Elt F) → (⟨S8x128x4096, .f32⟩ : BufTy).Contents (Elt F)),
    nullary main_cst_4 (constant S_ .f32 0x3E4CCCCD#32),
    TRef.nullary main_call5.cst (constant S_ .f32 0x00000000#32),
    TRef.unary main_call5.cst main_call5.v0 (broadcastInDim S8x128x4096 ![] bcast_S_S8x128x4096),
    TRef.binary (TRef.of main_v36 : TRef sig ⟨S8x128x4096, .f32⟩) main_call5.v0 main_call5.v1 (cmpf .oge),
    TRef.unary (TRef.of main_cst_4 : TRef sig ⟨S_, .f32⟩) main_call5.v2 id,
    TRef.unary main_call5.v2 main_call5.v3 (broadcastInDim S8x128x4096 ![] bcast_S_S8x128x4096),
    TRef.binary main_call5.v3 (TRef.of main_v36 : TRef sig ⟨S8x128x4096, .f32⟩) main_call5.v4 mulf,
    TRef.ternary main_call5.v1 (TRef.of main_v36 : TRef sig ⟨S8x128x4096, .f32⟩) main_call5.v4 main_call5.call0.v0 select,
    nary ![main_v15, main_v26, main_v37] main_v38 (fun u => concatenate S8x256x4096 1 [⟨S8x64x4096, u 0⟩, ⟨S8x64x4096, u 1⟩, ⟨S8x128x4096, u 2⟩] concatenates_S8x64x4096_S8x64x4096_S8x128x4096_S8x256x4096_d1),
    binary main_v38 main_arg8 main_v39 ((fun l r => Host.dotGeneral dot_S8x256x4096_S512x256_S8x4096x512_1_1_02_0_n_n none l r) : (⟨S8x256x4096, .f32⟩ : BufTy).Contents (Elt F) → (⟨S512x256, .f32⟩ : BufTy).Contents (Elt F) → (⟨S8x4096x512, .f32⟩ : BufTy).Contents (Elt F)),
    unary main_v39 main_v40 ((transpose S8x512x4096 [0, 2, 1] · transposes_S8x4096x512_S8x512x4096_0_2_1) : (⟨S8x4096x512, .f32⟩ : BufTy).Contents (Elt F) → (⟨S8x512x4096, .f32⟩ : BufTy).Contents (Elt F)),
    unary main_arg9 main_v41 (broadcastInDim S1x512x1 ![1] bcast_S512_S1x512x1_1 : (⟨S512, .f32⟩ : BufTy).Contents (Elt F) → (⟨S1x512x1, .f32⟩ : BufTy).Contents (Elt F)),
    unary main_v41 main_v42 (broadcastInDim S8x512x4096 ![0, 1, 2] bcast_S1x512x1_S8x512x4096_0_1_2 : (⟨S1x512x1, .f32⟩ : BufTy).Contents (Elt F) → (⟨S8x512x4096, .f32⟩ : BufTy).Contents (Elt F)),
    binary main_v40 main_v42 main_v43 (addf : (⟨S8x512x4096, .f32⟩ : BufTy).Contents (Elt F) → (⟨S8x512x4096, .f32⟩ : BufTy).Contents (Elt F) → (⟨S8x512x4096, .f32⟩ : BufTy).Contents (Elt F)),
    nullary main_cst_5 (constant S_ .f32 0xFF800000#32),
    binary main_v43 main_cst_5 main_v44 ((fun x v => Host.reduce FloatOps.maximumf x v reducesTo_S8x512x4096_S8x512_d2 h_S_) : (⟨S8x512x4096, .f32⟩ : BufTy).Contents (Elt F) → (⟨S_, .f32⟩ : BufTy).Contents (Elt F) → (⟨S8x512, .f32⟩ : BufTy).Contents (Elt F)) ]

-- the chain is 136 statements long
set_option maxRecDepth 8192 in
/-- @main is that straight line: the functions' definitions unfolded at their calls, both sides are one chain of
    operation steps once sequencing is re-associated. -/
theorem main_eq (c : Dev nD) : main (F := F) c = seq ops := by
  simp only [main, fn_take_along_axis.body, fn_where.body, fn_leaky_relu.body, fn_take_along_axis_0.body, fn_where_2.body,
    fn_leaky_relu_1.body, fn_where_4.body, fn_leaky_relu_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., unary_bufs_sub .., unary_bufs_sub .., unary_bufs_sub .., nullary_bufs_sub .., unary_bufs_sub ..,
    binary_bufs_sub .., nullary_bufs_sub .., unary_bufs_sub .., binary_bufs_sub .., ternary_bufs_sub .., reshape_bufs_sub ..,
    reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub .., unary_bufs_sub .., unary_bufs_sub .., binary_bufs_sub ..,
    binary_bufs_sub .., binary_bufs_sub .., unary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., binary_bufs_sub .., unary_bufs_sub .., unary_bufs_sub ..,
    unary_bufs_sub .., nullary_bufs_sub .., unary_bufs_sub .., binary_bufs_sub .., nullary_bufs_sub .., unary_bufs_sub ..,
    binary_bufs_sub .., ternary_bufs_sub .., reshape_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    nullary_bufs_sub .., binary_bufs_sub .., binary_bufs_sub .., unary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., unary_bufs_sub .., unary_bufs_sub ..,
    nullary_bufs_sub .., unary_bufs_sub .., binary_bufs_sub .., nullary_bufs_sub .., unary_bufs_sub .., binary_bufs_sub ..,
    ternary_bufs_sub .., reshape_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., nullary_bufs_sub ..,
    binary_bufs_sub .., binary_bufs_sub .., unary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., nary_bufs_sub .., binary_bufs_sub .., unary_bufs_sub .., unary_bufs_sub ..,
    unary_bufs_sub .., binary_bufs_sub .., nullary_bufs_sub .., binary_bufs_sub ..⟩

/-- Every operation determines its results (none allocates a buffer of contents not chosen). -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations write, in order: the k-th operation writes the k-th. -/
abbrev written : List (Ref sig .tc) :=
  [ main_v0, main_v1, main_v2, main_v3, main_call0.c.ref, main_call0.v0.ref,
    main_call0.v1.ref, main_call0.c_0.ref, main_call0.v2.ref, main_call0.v3.ref, main_call0.v4.ref, main_call0.v5.ref,
    main_call0.v6.ref, main_call0.c_1.ref, main_call0.c_2.ref, main_call0.v7.ref, main_call0.v8.ref, main_call0.v9.ref,
    main_call0.v10.ref, main_call0.v11.ref, main_call0.v12.ref, main_call0.c_3.ref, main_call0.v13.ref, main_call0.v14.ref,
    main_call0.cst.ref, main_call0.v15.ref, main_call0.v16.ref, main_v5, main_v6, main_v7,
    main_v8, main_v9, main_v10, main_v11, main_v12, main_v13,
    main_cst, main_call1.cst.ref, main_call1.v0.ref, main_call1.v1.ref, main_call1.v2.ref, main_call1.v3.ref,
    main_call1.v4.ref, main_call1.call0.v0.ref, main_cst_0, main_v15, main_v16, main_v17,
    main_v18, main_call2.c.ref, main_call2.v0.ref, main_call2.v1.ref, main_call2.c_0.ref, main_call2.v2.ref,
    main_call2.v3.ref, main_call2.v4.ref, main_call2.v5.ref, main_call2.v6.ref, main_call2.c_1.ref, main_call2.c_2.ref,
    main_call2.v7.ref, main_call2.v8.ref, main_call2.v9.ref, main_call2.v10.ref, main_call2.v11.ref, main_call2.v12.ref,
    main_call2.c_3.ref, main_call2.v13.ref, main_call2.v14.ref, main_call2.cst.ref, main_call2.v15.ref, main_call2.v16.ref,
    main_cst_1, main_v20, main_v21, main_v22, main_v23, main_v24,
    main_v25, main_cst_2, main_call3.cst.ref, main_call3.v0.ref, main_call3.v1.ref, main_call3.v2.ref,
    main_call3.v3.ref, main_call3.v4.ref, main_call3.call0.v0.ref, main_v27, main_v28, main_v29,
    main_call4.c.ref, main_call4.v0.ref, main_call4.v1.ref, main_call4.c_0.ref, main_call4.v2.ref, main_call4.v3.ref,
    main_call4.v4.ref, main_call4.v5.ref, main_call4.v6.ref, main_call4.c_1.ref, main_call4.c_2.ref, main_call4.v7.ref,
    main_call4.v8.ref, main_call4.v9.ref, main_call4.v10.ref, main_call4.v11.ref, main_call4.v12.ref, main_call4.c_3.ref,
    main_call4.v13.ref, main_call4.v14.ref, main_call4.cst.ref, main_call4.v15.ref, main_call4.v16.ref, main_cst_3,
    main_v31, main_v32, main_v33, main_v34, main_v35, main_v36,
    main_cst_4, main_call5.cst.ref, main_call5.v0.ref, main_call5.v1.ref, main_call5.v2.ref, main_call5.v3.ref,
    main_call5.v4.ref, main_call5.call0.v0.ref, main_v38, main_v39, main_v40, main_v41,
    main_v42, main_v43, main_cst_5, main_v44 ]

/-- A written reference's device buffer is among the written references' device buffers. -/
private theorem wr {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

/-- Each operation writes only its own result reference, one of `written`. -/
theorem ops_writes : (ops : List (HloOp τ sig (Elt F))).Forall fun op =>
    op.writes ⊆ (written.map (Proc.devRef (τ := τ) .tc)).toFinset :=
  ⟨wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide),
    wr (by decide), wr (by decide), wr (by decide), wr (by decide), wr (by decide), wr (by decide), wr (by decide), wr (by decide)⟩

/-- A reference no operation writes holds after the line what it held before. -/
theorem after_ops_of_not_written (V : Valuation τ sig (Elt F)) {r : Ref sig .tc} (h : r ∉ written) :
    after ops V (Proc.devRef .tc r) = V (Proc.devRef .tc r) :=
  after_of_writes_sub ops V ops_writes h

/-- On the device, for any float values, from any memory with zero counters: every weakly fair execution of @main
    terminates with the result buffer at the operations' fold over the launch contents and the ten arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44) = StableHlo.after ops (launchContents m c) (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v44,
      (h c main_arg0).trans (after_ops_of_not_written _ (by decide)),
      (h c main_arg1).trans (after_ops_of_not_written _ (by decide)),
      (h c main_arg2).trans (after_ops_of_not_written _ (by decide)),
      (h c main_arg3).trans (after_ops_of_not_written _ (by decide)),
      (h c main_arg4).trans (after_ops_of_not_written _ (by decide)),
      (h c main_arg5).trans (after_ops_of_not_written _ (by decide)),
      (h c main_arg6).trans (after_ops_of_not_written _ (by decide)),
      (h c main_arg7).trans (after_ops_of_not_written _ (by decide)),
      (h c main_arg8).trans (after_ops_of_not_written _ (by decide)),
      (h c main_arg9).trans (after_ops_of_not_written _ (by decide))⟩)
    (run_seq scopedRefs_eq scopedSems_eq defs main (fun _ => ops) main_eq (fun _ => ops_sub) m ρ
      (fun _ => List.forall_iff_forall_mem.1 ops_fresh))

end Cert.ReferenceIdeal.RefRun

end
-- ==== Proof.KIClaims.lean ====
/-
  From the program's run to the claim's conjuncts.

  The run of the idealized kernel's program ends with every array of the TensorCore at @main's last valuation.  No
  step writes an argument, which is the frame claim.  At the ideal instance, under the six regions' specifications,
  the result array holds the reference side of the specification at the argument arrays; the reference program's own
  run ends with its result array at its operations' fold over the launch contents, which is the same function of
  arguments that agree with the kernel's: the two results are equal.
-/
import proofs.«209975_g17849884082380_cont_8to1_1483_11_alg».proof.Defs
import proofs.«209975_g17849884082380_cont_8to1_1483_11_alg».proof.Proof.KIRun
import proofs.«209975_g17849884082380_cont_8to1_1483_11_alg».proof.Proof.KIChain
import proofs.«209975_g17849884082380_cont_8to1_1483_11_alg».proof.Proof.PreDecode
import proofs.«209975_g17849884082380_cont_8to1_1483_11_alg».proof.Proof.RefRun

noncomputable section

namespace Cert.Proof.KI

open Cert.KernelIdeal Cert.KernelIdeal.Gen
open Idealize.ShloMosaic Idealize.SL.Sem
open Idealize.ShloMosaic.StableHlo (launchContents)

/-- An unscoped array of the TensorCore is among the arrays @main's run accounts for. -/
theorem mem_Sall (b : Ref sig .tc) (h : (dr b).isScoped = false) : dr b ∈ Sall :=
  Finset.mem_filter.2 ⟨StableHlo.devRef_mem_tcRefs b, by simp [h]⟩

/-! ## The frame claim -/

section Frame

variable {F : FTy → Type} [FloatOps F]

/-- From the run that ends at the last valuation: the ten argument arrays end unchanged. -/
theorem frame_of_run (R : Regions F) (m : (ℓ : Loc nD τ sig) → Buf (Elt F) ℓ) (ρ : Dev nD → PrngReg)
    (h : θ_run (Cert.KernelIdeal.defs (F := F)) (Cert.KernelIdeal.threads (F := F)) ⟨m, fun _ => 0, ρ⟩ (QC R m)) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.KernelIdeal.defs (F := F)) _ _).mono (fun r hq c =>
    ⟨(hq c _ (mem_Sall main_arg0 rfl)).trans (W13_arg0 R (launchContents m c)),
     (hq c _ (mem_Sall main_arg1 rfl)).trans (W13_arg1 R (launchContents m c)),
     (hq c _ (mem_Sall main_arg2 rfl)).trans (W13_arg2 R (launchContents m c)),
     (hq c _ (mem_Sall main_arg3 rfl)).trans (W13_arg3 R (launchContents m c)),
     (hq c _ (mem_Sall main_arg4 rfl)).trans (W13_arg4 R (launchContents m c)),
     (hq c _ (mem_Sall main_arg5 rfl)).trans (W13_arg5 R (launchContents m c)),
     (hq c _ (mem_Sall main_arg6 rfl)).trans (W13_arg6 R (launchContents m c)),
     (hq c _ (mem_Sall main_arg7 rfl)).trans (W13_arg7 R (launchContents m c)),
     (hq c _ (mem_Sall main_arg8 rfl)).trans (W13_arg8 R (launchContents m c)),
     (hq c _ (mem_Sall main_arg9 rfl)).trans (W13_arg9 R (launchContents m c))⟩) h

end Frame

/-- The idealized kernel's frame claim, from its run under the precondition. -/
theorem frame_KernelIdeal_of (R : Regions Ideal)
    (hrun : ∀ (m : (ℓ : Loc nD τ sig) → Buf (Elt Ideal) ℓ) (ρ : Dev nD → PrngReg), Cert.Pre_KernelIdeal m →
      θ_run (Cert.KernelIdeal.defs (F := Ideal)) (Cert.KernelIdeal.threads (F := Ideal)) ⟨m, fun _ => 0, ρ⟩ (QC R m)) :
    Cert.frame_KernelIdeal :=
  fun m ρ hpre => frame_of_run R m ρ (hrun m ρ hpre)

/-- The idealized reference's frame claim: its run keeps the ten arguments. -/
theorem frame_ReferenceIdeal : Cert.frame_ReferenceIdeal := fun m ρ _ =>
  (θ_run (Cert.ReferenceIdeal.defs (F := Ideal)) _ _).mono (fun _ h c => (h c).2)
    (Cert.ReferenceIdeal.RefRun.run (F := Ideal) m ρ)

/-! ## The two results are equal -/

/-- The reference side of the specification at arrays that are equal one by one. -/
theorem refOut_congr {a0 a0' : (⟨3, ![8, 4096, 3]⟩ : Shape).Idx → EReal} {a1 a1' : (⟨3, ![8, 4096, 20]⟩ : Shape).Idx → BitVec 32}
    {a2 a2' : (⟨2, ![64, 6]⟩ : Shape).Idx → EReal} {a3 a3' : (⟨1, ![64]⟩ : Shape).Idx → EReal}
    {a4 a4' : (⟨2, ![64, 64]⟩ : Shape).Idx → EReal} {a5 a5' : (⟨1, ![64]⟩ : Shape).Idx → EReal}
    {a6 a6' : (⟨2, ![128, 64]⟩ : Shape).Idx → EReal} {a7 a7' : (⟨1, ![128]⟩ : Shape).Idx → EReal}
    {a8 a8' : (⟨2, ![512, 256]⟩ : Shape).Idx → EReal} {a9 a9' : (⟨1, ![512]⟩ : Shape).Idx → EReal}
    (e0 : a0' = a0) (e1 : a1' = a1) (e2 : a2' = a2) (e3 : a3' = a3) (e4 : a4' = a4) (e5 : a5' = a5) (e6 : a6' = a6)
    (e7 : a7' = a7) (e8 : a8' = a8) (e9 : a9' = a9) :
    Cert.Decode.refOut a0' a1' a2' a3' a4' a5' a6' a7' a8' a9' = Cert.Decode.refOut a0 a1 a2 a3 a4 a5 a6 a7 a8 a9 := by
  subst e0 e1 e2 e3 e4 e5 e6 e7 e8 e9
  rfl

/-- The algebraic claim: under the six regions' specifications, from the kernel's run and the reference's result as the
reference side of the specification. -/
theorem algebraic_of (R : Regions Ideal) (hY : KIValue.SpecY R.tcaY) (hC : KIValue.SpecC R.tcaC)
    (hGP : KIValue.SpecGP R.gmaxP) (hGL : KIValue.SpecGL R.gmaxL) (hB : KIValue.SpecB R.tcb) (hT : KIValue.SpecT R.tcc)
    (hrun : ∀ (m : (ℓ : Loc nD τ sig) → Buf (Elt Ideal) ℓ) (ρ : Dev nD → PrngReg), Cert.Pre_KernelIdeal m →
      θ_run (Cert.KernelIdeal.defs (F := Ideal)) (Cert.KernelIdeal.threads (F := Ideal)) ⟨m, fun _ => 0, ρ⟩ (QC R m))
    (href : ∀ (V : Valuation Cert.ReferenceIdeal.τ Cert.ReferenceIdeal.sig (Elt Ideal)),
      (∀ j, (V (Proc.devRef .tc Cert.ReferenceIdeal.main_arg1) j).toNat < 4096) →
      StableHlo.after (Cert.ReferenceIdeal.RefRun.ops (F := Ideal)) V (Proc.devRef .tc Cert.ReferenceIdeal.main_v44)
        = Cert.Decode.refOut (V (Proc.devRef .tc Cert.ReferenceIdeal.main_arg0))
            (V (Proc.devRef .tc Cert.ReferenceIdeal.main_arg1))
            (V (Proc.devRef .tc Cert.ReferenceIdeal.main_arg2))
            (V (Proc.devRef .tc Cert.ReferenceIdeal.main_arg3))
            (V (Proc.devRef .tc Cert.ReferenceIdeal.main_arg4))
            (V (Proc.devRef .tc Cert.ReferenceIdeal.main_arg5))
            (V (Proc.devRef .tc Cert.ReferenceIdeal.main_arg6))
            (V (Proc.devRef .tc Cert.ReferenceIdeal.main_arg7))
            (V (Proc.devRef .tc Cert.ReferenceIdeal.main_arg8))
            (V (Proc.devRef .tc Cert.ReferenceIdeal.main_arg9))) :
    Cert.algebraic_KernelIdeal_ReferenceIdeal := by
  intro m g m' g' hpre hagree
  refine ⟨fun c => Cert.Decode.refOut (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9)), ?_, ?_⟩
  · -- the kernel's run
    refine (θ_run (Cert.KernelIdeal.defs (F := Ideal)) _ _).mono (fun r hq c => ⟨?_,
      (hq c _ (mem_Sall main_arg0 rfl)).trans (W13_arg0 R (launchContents m c)),
      (hq c _ (mem_Sall main_arg1 rfl)).trans (W13_arg1 R (launchContents m c)),
      (hq c _ (mem_Sall main_arg2 rfl)).trans (W13_arg2 R (launchContents m c)),
      (hq c _ (mem_Sall main_arg3 rfl)).trans (W13_arg3 R (launchContents m c)),
      (hq c _ (mem_Sall main_arg4 rfl)).trans (W13_arg4 R (launchContents m c)),
      (hq c _ (mem_Sall main_arg5 rfl)).trans (W13_arg5 R (launchContents m c)),
      (hq c _ (mem_Sall main_arg6 rfl)).trans (W13_arg6 R (launchContents m c)),
      (hq c _ (mem_Sall main_arg7 rfl)).trans (W13_arg7 R (launchContents m c)),
      (hq c _ (mem_Sall main_arg8 rfl)).trans (W13_arg8 R (launchContents m c)),
      (hq c _ (mem_Sall main_arg9 rfl)).trans (W13_arg9 R (launchContents m c))⟩) (hrun m g hpre)
    have hfin := PreDecode.finite_of_pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (hpre c)
    have hidx := PreDecode.idx_of_pre (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (hpre c)
    exact (hq c _ (mem_Sall main_v18 rfl)).trans
      (W13_value R (launchContents m c) hY hC hGP hGL hB hT hidx PreDecode.slope_nonneg hfin.1 hfin.2.1 hfin.2.2.1)
  · -- the reference's run
    refine (θ_run (Cert.ReferenceIdeal.defs (F := Ideal)) _ _).mono (fun r h c => ⟨(h c).1.trans ?_, (h c).2⟩)
      (Cert.ReferenceIdeal.RefRun.run (F := Ideal) m' g')
    obtain ⟨e0, e1, e2, e3, e4, e5, e6, e7, e8, e9⟩ := hagree c
    have hidx := PreDecode.idx_of_pre (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (hpre c)
    have hidx' : ∀ j, (launchContents m' c (Proc.devRef .tc Cert.ReferenceIdeal.main_arg1) j).toNat < 4096 := by
      intro j
      have := hidx j
      rw [← e1] at this
      exact this
    exact (href (launchContents m' c) hidx').trans (refOut_congr e0 e1 e2 e3 e4 e5 e6 e7 e8 e9)

end Cert.Proof.KI

end
-- ==== Proof.KIGatherIdeal.lean ====
/-
  The two SparseCore kernels' arrays at the ideal instance.

  The plain gather-and-maximum folds the maximum from minus infinity over the 20 neighbours in order; on the extended
  reals that fold is the supremum over the neighbours.  The other kernel adds the centre term and applies the rectifier
  as the program computes it on one lane, which on the extended reals is the specification's rectifier at the slope
  literal.
-/
import proofs.«209975_g17849884082380_cont_8to1_1483_11_alg».proof.Proof.KITile2Defs
import proofs.«209975_g17849884082380_cont_8to1_1483_11_alg».proof.Proof.KITile1Defs
import proofs.«209975_g17849884082380_cont_8to1_1483_11_alg».proof.Proof.KIValue

noncomputable section

namespace Cert.Proof.KI

open Cert.KernelIdeal
open Idealize.ShloMosaic Idealize.ShloMosaic.ValueIdx

/-! ## A fold of maxima is a supremum -/

/-- A fold of maxima from a over a list is below c exactly when a and every term are. -/
theorem foldl_max_le_iff {ι : Type} (f : ι → EReal) (c : EReal) :
    ∀ (l : List ι) (a : EReal), l.foldl (fun acc k => max acc (f k)) a ≤ c ↔ a ≤ c ∧ ∀ k ∈ l, f k ≤ c
  | [], a => by simp
  | x :: l, a => by
    rw [List.foldl_cons, foldl_max_le_iff f c l, max_le_iff, List.forall_mem_cons, and_assoc]

/-- The fold of maxima from the bottom over all of a finite index type, in order, is the supremum. -/
theorem foldl_max_finRange {n : ℕ} (f : Fin n → EReal) :
    (List.finRange n).foldl (fun acc k => max acc (f k)) ⊥ = ⨆ k : Fin n, f k := by
  apply le_antisymm
  · exact (foldl_max_le_iff f _ _ _).2 ⟨bot_le, fun k _ => le_iSup f k⟩
  · exact iSup_le fun k => ((foldl_max_le_iff f _ _ _).1 le_rfl).2 k (List.mem_finRange k)

/-! ## The literals -/

/-- The pattern of minus infinity denotes the bottom of the extended reals. -/
theorem neg_inf_bits : Ideal.ofBits .f32 0xFF800000#32 = (⊥ : EReal) := by
  simp [Ideal.ofBits, Ideal.ieee]

/-- The pattern of zero denotes zero. -/
theorem zero_bits : Ideal.ofBits .f32 0x00000000#32 = (0 : EReal) := by
  simp [Ideal.ofBits, Ideal.ieee]

/-! ## The rectifier on one lane -/

/-- On the extended reals the lane's rectifier is the specification's at the slope literal. -/
theorem lreluF_eq (v : EReal) : T1.lreluF (F := Ideal) v = Cert.Spec.lreluK Cert.Decode.slope v := by
  unfold T1.lreluF Cert.Spec.lreluK
  show Scalar.select (Ideal.cmp .ogt v (Ideal.ofBits .f32 0x00000000#32)) v (v * Ideal.ofBits .f32 0x3E4CCCCD#32)
    = if 0 < v then v else v * Cert.Decode.slope
  rw [zero_bits]
  unfold Scalar.select Ideal.cmp
  by_cases h : 0 < v
  · simp [h]
  · simp [h]
    rfl

/-! ## The two arrays -/

/-- The plain gather-and-maximum's array is the supremum over the neighbours of the flattened source. -/
theorem gmaxArr_spec : KIValue.SpecGP (gmaxArr (F := Ideal)) := by
  intro src idx _ b c n
  unfold gmaxArr
  show (List.finRange 20).foldl
      (fun (acc : EReal) (k : Fin 20) => max acc (src (ix2 b (KIValue.flat c (idx (ix3 b k n)).toNat))))
      (Ideal.ofBits .f32 0xFF800000#32) = _
  rw [neg_inf_bits, foldl_max_finRange]

/-- The gather-and-maximum with the added centre term and the rectifier. -/
theorem gmaxLArr_spec : KIValue.SpecGL (T1.gmaxLArr (F := Ideal)) := by
  intro src idx cep hidx b c n
  unfold T1.gmaxLArr
  rw [lreluF_eq, gmaxArr_spec src idx hidx b c n]
  rfl

end Cert.Proof.KI

end
-- ==== Proof.RefSteps.lean ====
/-
  The reference's line read ONE OPERATION AT A TIME. Every buffer of the line is written by exactly one operation and read
  only by later ones, so what the whole line leaves in an operation's result buffer is that operation's function of what the
  whole line leaves in its operand buffers. One equation per operation, at any float instance and from any contents `V`:
  `after ops V y = f (after ops V x) …`. A value of the line is then read stage by stage without ever unfolding the line.
-/
import proofs.«209975_g17849884082380_cont_8to1_1483_11_alg».proof.Proof.RefRun

noncomputable section

namespace Cert.ReferenceIdeal.RefSteps

open Cert.ReferenceIdeal Cert.ReferenceIdeal.Gen Cert.ReferenceIdeal.RefRun Idealize.ShloMosaic Idealize.ShloMosaic.TcCoe Idealize.SL.Sem Idealize.ShloMosaic.StableHlo

/-! ## A line in which each position writes one listed reference -/

section Generic

variable {τ : Topo} {sig : RefSig} {Val : EltTy → Type}

/-- Two lines one after the other fold as the second over the first. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Position by position, the operation writes exactly the listed reference. -/
def WritesAt : List (HloOp τ sig Val) → List (Ref sig .tc) → Prop
  | [], [] => True
  | op :: l, y :: W => op.writes = {Proc.devRef .tc y} ∧ WritesAt l W
  | [], _ :: _ => False
  | _ :: _, [] => False

/-- A reference not listed keeps its contents through the line. -/
theorem WritesAt.keep : ∀ {l : List (HloOp τ sig Val)} {W : List (Ref sig .tc)}, WritesAt l W →
    ∀ (V : Valuation τ sig Val) {r : Ref sig .tc}, r ∉ W → after l V (Proc.devRef .tc r) = V (Proc.devRef .tc r)
  | [], [], _, _, _, _ => rfl
  | [], _ :: _, h, _, _, _ => h.elim
  | _ :: _, [], h, _, _, _ => h.elim
  | op :: l, y :: W, h, V, r, hr => by
    rw [after_cons, WritesAt.keep h.2 _ (fun hm => hr (List.mem_cons_of_mem _ hm)), op.result_of_not_mem V]
    rw [h.1, Finset.mem_singleton]
    exact devRef_ne_of_ne (fun e => hr (e ▸ List.mem_cons_self))

/-- The rest of the line from any position writes the rest of the list. -/
theorem WritesAt.drop : ∀ {l : List (HloOp τ sig Val)} {W : List (Ref sig .tc)} (k : Nat), WritesAt l W → WritesAt (l.drop k) (W.drop k)
  | _, _, 0, h => h
  | [], [], _ + 1, _ => trivial
  | [], _ :: _, _ + 1, h => h.elim
  | _ :: _, [], _ + 1, h => h.elim
  | _ :: _, _ :: _, k + 1, h => WritesAt.drop k h.2

/-- A reference no position from `k` on writes holds after the whole line what it holds after the first `k` operations. -/
theorem WritesAt.take_eq {l : List (HloOp τ sig Val)} {W : List (Ref sig .tc)} (h : WritesAt l W) (k : Nat)
    (V : Valuation τ sig Val) {r : Ref sig .tc} (hr : r ∉ W.drop k) :
    after l V (Proc.devRef .tc r) = after (l.take k) V (Proc.devRef .tc r) := by
  conv_lhs => rw [← List.take_append_drop k l, after_app]
  exact (h.drop k).keep _ hr

/-- What the line leaves in a reference written at position `k` and never after: that operation's result over what the
    first `k` operations leave. -/
theorem WritesAt.at {l : List (HloOp τ sig Val)} {W : List (Ref sig .tc)} (h : WritesAt l W) (k : Nat)
    (V : Valuation τ sig Val) {op : HloOp τ sig Val} (hk : l[k]? = some op) {y : Ref sig .tc} (hy : y ∉ W.drop (k + 1)) :
    after l V (Proc.devRef .tc y) = op.result (after (l.take k) V) (Proc.devRef .tc y) := by
  rw [h.take_eq (k + 1) V hy, List.take_succ, hk, Option.toList_some, after_app]
  rfl

variable {l : List (HloOp τ sig Val)} {W : List (Ref sig .tc)}

theorem WritesAt.nullary_at (h : WritesAt l W) (k : Nat) (V : Valuation τ sig Val) (y : Ref sig .tc) (v : y.ty.Contents Val) (hy)
    (hk : l[k]? = some (nullary y v hy)) (hyW : y ∉ W.drop (k + 1)) :
    after l V (Proc.devRef .tc y) = v := by
  rw [h.at k V hk hyW, nullary_result]

theorem WritesAt.unary_at (h : WritesAt l W) (k : Nat) (V : Valuation τ sig Val) (x y : Ref sig .tc)
    (f : x.ty.Contents Val → y.ty.Contents Val) (hx hy)
    (hk : l[k]? = some (unary x y f hx hy)) (hyW : y ∉ W.drop (k + 1)) (hxW : x ∉ W.drop k) :
    after l V (Proc.devRef .tc y) = f (after l V (Proc.devRef .tc x)) := by
  rw [h.at k V hk hyW, unary_result, ← h.take_eq k V hxW]

theorem WritesAt.binary_at (h : WritesAt l W) (k : Nat) (V : Valuation τ sig Val) (a b y : Ref sig .tc)
    (f : a.ty.Contents Val → b.ty.Contents Val → y.ty.Contents Val) (ha hb hy)
    (hk : l[k]? = some (binary a b y f ha hb hy)) (hyW : y ∉ W.drop (k + 1)) (haW : a ∉ W.drop k) (hbW : b ∉ W.drop k) :
    after l V (Proc.devRef .tc y) = f (after l V (Proc.devRef .tc a)) (after l V (Proc.devRef .tc b)) := by
  rw [h.at k V hk hyW, binary_result, ← h.take_eq k V haW, ← h.take_eq k V hbW]

theorem WritesAt.ternary_at (h : WritesAt l W) (k : Nat) (V : Valuation τ sig Val) (c a b y : Ref sig .tc)
    (f : c.ty.Contents Val → a.ty.Contents Val → b.ty.Contents Val → y.ty.Contents Val) (hc ha hb hy)
    (hk : l[k]? = some (ternary c a b y f hc ha hb hy)) (hyW : y ∉ W.drop (k + 1))
    (hcW : c ∉ W.drop k) (haW : a ∉ W.drop k) (hbW : b ∉ W.drop k) :
    after l V (Proc.devRef .tc y) = f (after l V (Proc.devRef .tc c)) (after l V (Proc.devRef .tc a)) (after l V (Proc.devRef .tc b)) := by
  rw [h.at k V hk hyW, ternary_result, ← h.take_eq k V hcW, ← h.take_eq k V haW, ← h.take_eq k V hbW]

theorem WritesAt.reshape_at (h : WritesAt l W) (k : Nat) (V : Valuation τ sig Val) (x y : Ref sig .tc)
    (he : x.ty.elt = y.ty.elt) (hn : x.ty.shape.ShapeCasts y.ty.shape) (hx hy)
    (hk : l[k]? = some (reshape x y he hn hx hy)) (hyW : y ∉ W.drop (k + 1)) (hxW : x ∉ W.drop k) :
    after l V (Proc.devRef .tc y) = fun i => he ▸ shapeCast y.ty.shape (after l V (Proc.devRef .tc x)) hn i := by
  rw [h.at k V hk hyW, reshape_result, ← h.take_eq k V hxW]

theorem WritesAt.nary_at (h : WritesAt l W) (k : Nat) (V : Valuation τ sig Val) {n : Nat} (xs : Fin n → Ref sig .tc) (y : Ref sig .tc)
    (f : ((i : Fin n) → (xs i).ty.Contents Val) → y.ty.Contents Val) (hxs hy)
    (hk : l[k]? = some (nary xs y f hxs hy)) (hyW : y ∉ W.drop (k + 1)) (hxW : ∀ i, xs i ∉ W.drop k) :
    after l V (Proc.devRef .tc y) = f (fun i => after l V (Proc.devRef .tc (xs i))) := by
  rw [h.at k V hk hyW, nary_result]
  congr 1; funext i; exact (h.take_eq k V (hxW i)).symm

end Generic

/-! ## The reference's line -/

variable {F : FTy → Type} [FloatOps F]

/-- The k-th operation of the line writes exactly the k-th reference of `written`. -/
theorem ops_writesAt : WritesAt (ops (F := F)) written :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

/-! One equation per operation, in the line's order: `s_‹reference›` reads the reference the operation writes. A call's
    buffers go by their own names (`main_callK_…`; a call's returned value by the name of the result it becomes). -/

theorem s_main_v0 (V : Valuation τ sig (Elt F)) :
    (after ops V (Proc.devRef .tc main_v0) : (⟨S8x3x4096, .f32⟩ : BufTy).Contents (Elt F)) = ((transpose S8x3x4096 [0, 2, 1] · transposes_S8x4096x3_S8x3x4096_0_2_1) : (⟨S8x4096x3, .f32⟩ : BufTy).Contents (Elt F) → (⟨S8x3x4096, .f32⟩ : BufTy).Contents (Elt F)) (after ops V (Proc.devRef .tc main_arg0) : (⟨S8x4096x3, .f32⟩ : BufTy).Contents (Elt F)) :=
  ops_writesAt.unary_at 0 V main_arg0 main_v0 _ _ _ rfl (by decide) (by decide)

theorem s_main_v1 (V : Valuation τ sig (Elt F)) :
    (after ops V (Proc.devRef .tc main_v1) : (⟨S8x1x4096x20, .i32⟩ : BufTy).Contents (Elt F)) = (broadcastInDim S8x1x4096x20 ![0, 2, 3] bcast_S8x4096x20_S8x1x4096x20_0_2_3 : (⟨S8x4096x20, .i32⟩ : BufTy).Contents (Elt F) → (⟨S8x1x4096x20, .i32⟩ : BufTy).Contents (Elt F)) (after ops V (Proc.devRef .tc main_arg1) : (⟨S8x4096x20, .i32⟩ : BufTy).Contents (Elt F)) :=
  ops_writesAt.unary_at 1 V main_arg1 main_v1 _ _ _ rfl (by decide) (by decide)

theorem s_main_v2 (V : Valuation τ sig (Elt F)) :
    (after ops V (Proc.devRef .tc main_v2) : (⟨S8x3x4096x20, .i32⟩ : BufTy).Contents (Elt F)) = (broadcastInDim S8x3x4096x20 ![0, 1, 2, 3] bcast_S8x1x4096x20_S8x3x4096x20_0_1_2_3 : (⟨S8x1x4096x20, .i32⟩ : BufTy).Contents (Elt F) → (⟨S8x3x4096x20, .i32⟩ : BufTy).Contents (Elt F)) (after ops V (Proc.devRef .tc main_v1) : (⟨S8x1x4096x20, .i32⟩ : BufTy).Contents (Elt F)) :=
  ops_writesAt.unary_at 2 V main_v1 main_v2 _ _ _ rfl (by decide) (by decide)

theorem s_main_v3 (V : Valuation τ sig (Elt F)) :
    (after ops V (Proc.devRef .tc main_v3) : (⟨S8x3x4096x1, .f32⟩ : BufTy).Contents (Elt F)) = (broadcastInDim S8x3x4096x1 ![0, 1, 2] bcast_S8x3x4096_S8x3x4096x1_0_1_2 : (⟨S8x3x4096, .f32⟩ : BufTy).Contents (Elt F) → (⟨S8x3x4096x1, .f32⟩ : BufTy).Contents (Elt F)) (after ops V (Proc.devRef .tc main_v0) : (⟨S8x3x4096, .f32⟩ : BufTy).Contents (Elt F)) :=
  ops_writesAt.unary_at 3 V main_v0 main_v3 _ _ _ rfl (by decide) (by decide)

theorem s_main_call0_c (V : Valuation τ sig (Elt F)) :
    (after ops V (Proc.devRef .tc main_call0_c) : (⟨S_, .i32⟩ : BufTy).Contents (Elt F)) = ((constantI S_ 32 0#32) : (⟨S_, .i32⟩ : BufTy).Contents (Elt F)) :=
  ops_writesAt.nullary_at 4 V main_call0_c _ _ rfl (by decide)

theorem s_main_call0_v0 (V : Valuation τ sig (Elt F)) :
    (after ops V (Proc.devRef .tc main_call0_v0) : (⟨S8x3x4096x20, .i32⟩ : BufTy).Contents (Elt F)) = ((broadcastInDim S8x3x4096x20 ![] bcast_S_S8x3x4096x20) : (⟨S_, .i32⟩ : BufTy).Contents (Elt F) → (⟨S8x3x4096x20, .i32⟩ : BufTy).Contents (Elt F)) (after ops V (Proc.devRef .tc main_call0_c) : (⟨S_, .i32⟩ : BufTy).Contents (Elt F)) :=
  ops_writesAt.unary_at 5 V main_call0_c main_call0_v0 _ _ _ rfl (by decide) (by decide)

theorem s_main_call0_v1 (V : Valuation τ sig (Elt F)) :
    (after ops V (Proc.devRef .tc main_call0_v1) : (⟨S8x3x4096x20, .i1⟩ : BufTy).Contents (Elt F)) = ((cmpi .slt) : (⟨S8x3x4096x20, .i32⟩ : BufTy).Contents (Elt F) → (⟨S8x3x4096x20, .i32⟩ : BufTy).Contents (Elt F) → (⟨S8x3x4096x20, .i1⟩ : BufTy).Contents (Elt F)) (after ops V (Proc.devRef .tc main_v2) : (⟨S8x3x4096x20, .i32⟩ : BufTy).Contents (Elt F)) (after ops V (Proc.devRef .tc main_call0_v0) : (⟨S8x3x4096x20, .i32⟩ : BufTy).Contents (Elt F)) :=
  ops_writesAt.binary_at 6 V main_v2 main_call0_v0 main_call0_v1 _ _ _ _ rfl (by decide) (by decide) (by decide)

theorem s_main_call0_c_0 (V : Valuation τ sig (Elt F)) :
    (after ops V (Proc.devRef .tc main_call0_c_0) : (⟨S_, .i32⟩ : BufTy).Contents (Elt F)) = ((constantI S_ 32 4096#32) : (⟨S_, .i32⟩ : BufTy).Contents (Elt F)) :=
  ops_writesAt.nullary_at 7 V main_call0_c_0 _ _ rfl (by decide)

theorem s_main_call0_v2 (V : Valuation τ sig (Elt F)) :
    (after ops V (Proc.devRef .tc main_call0_v2) : (⟨S8x3x4096x20, .i32⟩ : BufTy).Contents (Elt F)) = ((broadcastInDim S8x3x4096x20 ![] bcast_S_S8x3x4096x20) : (⟨S_, .i32⟩ : BufTy).Contents (Elt F) → (⟨S8x3x4096x20, .i32⟩ : BufTy).Contents (Elt F)) (after ops V (Proc.devRef .tc main_call0_c_0) : (⟨S_, .i32⟩ : BufTy).Contents (Elt F)) :=
  ops_writesAt.unary_at 8 V main_call0_c_0 main_call0_v2 _ _ _ rfl (by decide) (by decide)

theorem s_main_call0_v3 (V : Valuation τ sig (Elt F)) :
    (after ops V (Proc.devRef .tc main_call0_v3) : (⟨S8x3x4096x20, .i32⟩ : BufTy).Contents (Elt F)) = (addi : (⟨S8x3x4096x20, .i32⟩ : BufTy).Contents (Elt F) → (⟨S8x3x4096x20, .i32⟩ : BufTy).Contents (Elt F) → (⟨S8x3x4096x20, .i32⟩ : BufTy).Contents (Elt F)) (after ops V (Proc.devRef .tc main_v2) : (⟨S8x3x4096x20, .i32⟩ : BufTy).Contents (Elt F)) (after ops V (Proc.devRef .tc main_call0_v2) : (⟨S8x3x4096x20, .i32⟩ : BufTy).Contents (Elt F)) :=
  ops_writesAt.binary_at 9 V main_v2 main_call0_v2 main_call0_v3 _ _ _ _ rfl (by decide) (by decide) (by decide)

theorem s_main_call0_v4 (V : Valuation τ sig (Elt F)) :
    (after ops V (Proc.devRef .tc main_call0_v4) : (⟨S8x3x4096x20, .i32⟩ : BufTy).Contents (Elt F)) = (select : (⟨S8x3x4096x20, .i1⟩ : BufTy).Contents (Elt F) → (⟨S8x3x4096x20, .i32⟩ : BufTy).Contents (Elt F) → (⟨S8x3x4096x20, .i32⟩ : BufTy).Contents (Elt F) → (⟨S8x3x4096x20, .i32⟩ : BufTy).Contents (Elt F)) (after ops V (Proc.devRef .tc main_call0_v1) : (⟨S8x3x4096x20, .i1⟩ : BufTy).Contents (Elt F)) (after ops V (Proc.devRef .tc main_call0_v3) : (⟨S8x3x4096x20, .i32⟩ : BufTy).Contents (Elt F)) (after ops V (Proc.devRef .tc main_v2) : (⟨S8x3x4096x20, .i32⟩ : BufTy).Contents (Elt F)) :=
  ops_writesAt.ternary_at 10 V main_call0_v1 main_call0_v3 main_v2 main_call0_v4 _ _ _ _ _ rfl (by decide) (by decide) (by decide) (by decide)

theorem s_main_call0_v5 (V : Valuation τ sig (Elt F)) :
    (after ops V (Proc.devRef .tc main_call0_v5) : (⟨S8x3x4096x20x1, .i32⟩ : BufTy).Contents (Elt F)) = (shapeCast S8x3x4096x20x1 (after ops V (Proc.devRef .tc main_call0_v4) : (⟨S8x3x4096x20, .i32⟩ : BufTy).Contents (Elt F)) shapeCasts_S8x3x4096x20_S8x3x4096x20x1 : (⟨S8x3x4096x20x1, .i32⟩ : BufTy).Contents (Elt F)) :=
  ops_writesAt.reshape_at 11 V main_call0_v4 main_call0_v5 _ _ _ _ rfl (by decide) (by decide)

theorem s_main_call0_v6 (V : Valuation τ sig (Elt F)) :
    (after ops V (Proc.devRef .tc main_call0_v6) : (⟨S8x3x4096, .f32⟩ : BufTy).Contents (Elt F)) = (shapeCast S8x3x4096 (after ops V (Proc.devRef .tc main_v3) : (⟨S8x3x4096x1, .f32⟩ : BufTy).Contents (Elt F)) shapeCasts_S8x3x4096x1_S8x3x4096 : (⟨S8x3x4096, .f32⟩ : BufTy).Contents (Elt F)) :=
  ops_writesAt.reshape_at 12 V main_v3 main_call0_v6 _ _ _ _ rfl (by decide) (by decide)

theorem s_main_call0_c_1 (V : Valuation τ sig (Elt F)) :
    (after ops V (Proc.devRef .tc main_call0_c_1) : (⟨S1, .i32⟩ : BufTy).Contents (Elt F)) = ((constantI S1 32 4095#32) : (⟨S1, .i32⟩ : BufTy).Contents (Elt F)) :=
  ops_writesAt.nullary_at 13 V main_call0_c_1 _ _ rfl (by decide)

theorem s_main_call0_c_2 (V : Valuation τ sig (Elt F)) :
    (after ops V (Proc.devRef .tc main_call0_c_2) : (⟨S_, .i32⟩ : BufTy).Contents (Elt F)) = ((constantI S_ 32 0#32) : (⟨S_, .i32⟩ : BufTy).Contents (Elt F)) :=
  ops_writesAt.nullary_at 14 V main_call0_c_2 _ _ rfl (by decide)

theorem s_main_call0_v7 (V : Valuation τ sig (Elt F)) :
    (after ops V (Proc.devRef .tc main_call0_v7) : (⟨S8x3x4096x20x1, .i32⟩ : BufTy).Contents (Elt F)) = ((broadcastInDim S8x3x4096x20x1 ![] bcast_S_S8x3x4096x20x1) : (⟨S_, .i32⟩ : BufTy).Contents (Elt F) → (⟨S8x3x4096x20x1, .i32⟩ : BufTy).Contents (Elt F)) (after ops V (Proc.devRef .tc main_call0_c_2) : (⟨S_, .i32⟩ : BufTy).Contents (Elt F)) :=
  ops_writesAt.unary_at 15 V main_call0_c_2 main_call0_v7 _ _ _ rfl (by decide) (by decide)

theorem s_main_call0_v8 (V : Valuation τ sig (Elt F)) :
    (after ops V (Proc.devRef .tc main_call0_v8) : (⟨S8x3x4096x20x1, .i1⟩ : BufTy).Contents (Elt F)) = ((cmpi .sge) : (⟨S8x3x4096x20x1, .i32⟩ : BufTy).Contents (Elt F) → (⟨S8x3x4096x20x1, .i32⟩ : BufTy).Contents (Elt F) → (⟨S8x3x4096x20x1, .i1⟩ : BufTy).Contents (Elt F)) (after ops V (Proc.devRef .tc main_call0_v5) : (⟨S8x3x4096x20x1, .i32⟩ : BufTy).Contents (Elt F)) (after ops V (Proc.devRef .tc main_call0_v7) : (⟨S8x3x4096x20x1, .i32⟩ : BufTy).Contents (Elt F)) :=
  ops_writesAt.binary_at 16 V main_call0_v5 main_call0_v7 main_call0_v8 _ _ _ _ rfl (by decide) (by decide) (by decide)

theorem s_main_call0_v9 (V : Valuation τ sig (Elt F)) :
    (after ops V (Proc.devRef .tc main_call0_v9) : (⟨S1x1x1x1x1, .i32⟩ : BufTy).Contents (Elt F)) = ((broadcastInDim S1x1x1x1x1 ![4] bcast_S1_S1x1x1x1x1_4) : (⟨S1, .i32⟩ : BufTy).Contents (Elt F) → (⟨S1x1x1x1x1, .i32⟩ : BufTy).Contents (Elt F)) (after ops V (Proc.devRef .tc main_call0_c_1) : (⟨S1, .i32⟩ : BufTy).Contents (Elt F)) :=
  ops_writesAt.unary_at 17 V main_call0_c_1 main_call0_v9 _ _ _ rfl (by decide) (by decide)

theorem s_main_call0_v10 (V : Valuation τ sig (Elt F)) :
    (after ops V (Proc.devRef .tc main_call0_v10) : (⟨S8x3x4096x20x1, .i32⟩ : BufTy).Contents (Elt F)) = ((broadcastInDim S8x3x4096x20x1 ![0, 1, 2, 3, 4] bcast_S1x1x1x1x1_S8x3x4096x20x1_0_1_2_3_4) : (⟨S1x1x1x1x1, .i32⟩ : BufTy).Contents (Elt F) → (⟨S8x3x4096x20x1, .i32⟩ : BufTy).Contents (Elt F)) (after ops V (Proc.devRef .tc main_call0_v9) : (⟨S1x1x1x1x1, .i32⟩ : BufTy).Contents (Elt F)) :=
  ops_writesAt.unary_at 18 V main_call0_v9 main_call0_v10 _ _ _ rfl (by decide) (by decide)

theorem s_main_call0_v11 (V : Valuation τ sig (Elt F)) :
    (after ops V (Proc.devRef .tc main_call0_v11) : (⟨S8x3x4096x20x1, .i1⟩ : BufTy).Contents (Elt F)) = ((cmpi .sle) : (⟨S8x3x4096x20x1, .i32⟩ : BufTy).Contents (Elt F) → (⟨S8x3x4096x20x1, .i32⟩ : BufTy).Contents (Elt F) → (⟨S8x3x4096x20x1, .i1⟩ : BufTy).Contents (Elt F)) (after ops V (Proc.devRef .tc main_call0_v5) : (⟨S8x3x4096x20x1, .i32⟩ : BufTy).Contents (Elt F)) (after ops V (Proc.devRef .tc main_call0_v10) : (⟨S8x3x4096x20x1, .i32⟩ : BufTy).Contents (Elt F)) :=
  ops_writesAt.binary_at 19 V main_call0_v5 main_call0_v10 main_call0_v11 _ _ _ _ rfl (by decide) (by decide) (by decide)

theorem s_main_call0_v12 (V : Valuation τ sig (Elt F)) :
    (after ops V (Proc.devRef .tc main_call0_v12) : (⟨S8x3x4096x20x1, .i1⟩ : BufTy).Contents (Elt F)) = (andi : (⟨S8x3x4096x20x1, .i1⟩ : BufTy).Contents (Elt F) → (⟨S8x3x4096x20x1, .i1⟩ : BufTy).Contents (Elt F) → (⟨S8x3x4096x20x1, .i1⟩ : BufTy).Contents (Elt F)) (after ops V (Proc.devRef .tc main_call0_v8) : (⟨S8x3x4096x20x1, .i1⟩ : BufTy).Contents (Elt F)) (after ops V (Proc.devRef .tc main_call0_v11) : (⟨S8x3x4096x20x1, .i1⟩ : BufTy).Contents (Elt F)) :=
  ops_writesAt.binary_at 20 V main_call0_v8 main_call0_v11 main_call0_v12 _ _ _ _ rfl (by decide) (by decide) (by decide)

theorem s_main_call0_c_3 (V : Valuation τ sig (Elt F)) :
    (after ops V (Proc.devRef .tc main_call0_c_3) : (⟨S_, .i1⟩ : BufTy).Contents (Elt F)) = ((constantI S_ 1 1#1) : (⟨S_, .i1⟩ : BufTy).Contents (Elt F)) :=
  ops_writesAt.nullary_at 21 V main_call0_c_3 _ _ rfl (by decide)

-- a transport along an identity of types is the identity; the reduction itself is not opened
attribute [local irreducible] Host.reduce in
theorem s_main_call0_v13 (V : Valuation τ sig (Elt F)) :
    (after ops V (Proc.devRef .tc main_call0_v13) : (⟨S8x3x4096x20, .i1⟩ : BufTy).Contents (Elt F)) = ((fun x v => Host.reduce IntOp.andi x v reducesTo_S8x3x4096x20x1_S8x3x4096x20_d4 h_S_) : (⟨S8x3x4096x20x1, .i1⟩ : BufTy).Contents (Elt F) → (⟨S_, .i1⟩ : BufTy).Contents (Elt F) → (⟨S8x3x4096x20, .i1⟩ : BufTy).Contents (Elt F)) (after ops V (Proc.devRef .tc main_call0_v12) : (⟨S8x3x4096x20x1, .i1⟩ : BufTy).Contents (Elt F)) (after ops V (Proc.devRef .tc main_call0_c_3) : (⟨S_, .i1⟩ : BufTy).Contents (Elt F)) :=
  ops_writesAt.binary_at 22 V main_call0_v12 main_call0_c_3 main_call0_v13 _ _ _ _ rfl (by decide) (by decide) (by decide)

theorem s_main_call0_v14 (V : Valuation τ sig (Elt F)) :
    (after ops V (Proc.devRef .tc main_call0_v14) : (⟨S8x3x4096x20, .f32⟩ : BufTy).Contents (Elt F)) = ((fun x i => Host.gather gather_S8x3x4096_S8x3x4096x20x1_S8x3x4096x20_n_2_01_01_2_4_111 x i) : (⟨S8x3x4096, .f32⟩ : BufTy).Contents (Elt F) → (⟨S8x3x4096x20x1, .i32⟩ : BufTy).Contents (Elt F) → (⟨S8x3x4096x20, .f32⟩ : BufTy).Contents (Elt F)) (after ops V (Proc.devRef .tc main_call0_v6) : (⟨S8x3x4096, .f32⟩ : BufTy).Contents (Elt F)) (after ops V (Proc.devRef .tc main_call0_v5) : (⟨S8x3x4096x20x1, .i32⟩ : BufTy).Contents (Elt F)) :=
  ops_writesAt.binary_at 23 V main_call0_v6 main_call0_v5 main_call0_v14 _ _ _ _ rfl (by decide) (by decide) (by decide)

theorem s_main_call0_cst (V : Valuation τ sig (Elt F)) :
    (after ops V (Proc.devRef .tc main_call0_cst) : (⟨S_, .f32⟩ : BufTy).Contents (Elt F)) = ((constant S_ .f32 0x7FC00000#32) : (⟨S_, .f32⟩ : BufTy).Contents (Elt F)) :=
  ops_writesAt.nullary_at 24 V main_call0_cst _ _ rfl (by decide)

theorem s_main_call0_v15 (V : Valuation τ sig (Elt F)) :
    (after ops V (Proc.devRef .tc main_call0_v15) : (⟨S8x3x4096x20, .f32⟩ : BufTy).Contents (Elt F)) = ((broadcastInDim S8x3x4096x20 ![] bcast_S_S8x3x4096x20) : (⟨S_, .f32⟩ : BufTy).Contents (Elt F) → (⟨S8x3x4096x20, .f32⟩ : BufTy).Contents (Elt F)) (after ops V (Proc.devRef .tc main_call0_cst) : (⟨S_, .f32⟩ : BufTy).Contents (Elt F)) :=
  ops_writesAt.unary_at 25 V main_call0_cst main_call0_v15 _ _ _ rfl (by decide) (by decide)

theorem s_main_v4 (V : Valuation τ sig (Elt F)) :
    (after ops V (Proc.devRef .tc main_v4) : (⟨S8x3x4096x20, .f32⟩ : BufTy).Contents (Elt F)) = (select : (⟨S8x3x4096x20, .i1⟩ : BufTy).Contents (Elt F) → (⟨S8x3x4096x20, .f32⟩ : BufTy).Contents (Elt F) → (⟨S8x3x4096x20, .f32⟩ : BufTy).Contents (Elt F) → (⟨S8x3x4096x20, .f32⟩ : BufTy).Contents (Elt F)) (after ops V (Proc.devRef .tc main_call0_v13) : (⟨S8x3x4096x20, .i1⟩ : BufTy).Contents (Elt F)) (after ops V (Proc.devRef .tc main_call0_v14) : (⟨S8x3x4096x20, .f32⟩ : BufTy).Contents (Elt F)) (after ops V (Proc.devRef .tc main_call0_v15) : (⟨S8x3x4096x20, .f32⟩ : BufTy).Contents (Elt F)) :=
  ops_writesAt.ternary_at 26 V main_call0_v13 main_call0_v14 main_call0_v15 main_v4 _ _ _ _ _ rfl (by decide) (by decide) (by decide) (by decide)

theorem s_main_v5 (V : Valuation τ sig (Elt F)) :
    (after ops V (Proc.devRef .tc main_v5) : (⟨S8x3x4096x1, .f32⟩ : BufTy).Contents (Elt F)) = (broadcastInDim S8x3x4096x1 ![0, 1, 2] bcast_S8x3x4096_S8x3x4096x1_0_1_2 : (⟨S8x3x4096, .f32⟩ : BufTy).Contents (Elt F) → (⟨S8x3x4096x1, .f32⟩ : BufTy).Contents (Elt F)) (after ops V (Proc.devRef .tc main_v0) : (⟨S8x3x4096, .f32⟩ : BufTy).Contents (Elt F)) :=
  ops_writesAt.unary_at 27 V main_v0 main_v5 _ _ _ rfl (by decide) (by decide)

theorem s_main_v6 (V : Valuation τ sig (Elt F)) :
    (after ops V (Proc.devRef .tc main_v6) : (⟨S8x3x4096x20, .f32⟩ : BufTy).Contents (Elt F)) = (broadcastInDim S8x3x4096x20 ![0, 1, 2, 3] bcast_S8x3x4096x1_S8x3x4096x20_0_1_2_3 : (⟨S8x3x4096x1, .f32⟩ : BufTy).Contents (Elt F) → (⟨S8x3x4096x20, .f32⟩ : BufTy).Contents (Elt F)) (after ops V (Proc.devRef .tc main_v5) : (⟨S8x3x4096x1, .f32⟩ : BufTy).Contents (Elt F)) :=
  ops_writesAt.unary_at 28 V main_v5 main_v6 _ _ _ rfl (by decide) (by decide)

theorem s_main_v7 (V : Valuation τ sig (Elt F)) :
    (after ops V (Proc.devRef .tc main_v7) : (⟨S8x3x4096x20, .f32⟩ : BufTy).Contents (Elt F)) = (subf : (⟨S8x3x4096x20, .f32⟩ : BufTy).Contents (Elt F) → (⟨S8x3x4096x20, .f32⟩ : BufTy).Contents (Elt F) → (⟨S8x3x4096x20, .f32⟩ : BufTy).Contents (Elt F)) (after ops V (Proc.devRef .tc main_v4) : (⟨S8x3x4096x20, .f32⟩ : BufTy).Contents (Elt F)) (after ops V (Proc.devRef .tc main_v6) : (⟨S8x3x4096x20, .f32⟩ : BufTy).Contents (Elt F)) :=
  ops_writesAt.binary_at 29 V main_v4 main_v6 main_v7 _ _ _ _ rfl (by decide) (by decide) (by decide)

theorem s_main_v8 (V : Valuation τ sig (Elt F)) :
    (after ops V (Proc.devRef .tc main_v8) : (⟨S8x6x4096x20, .f32⟩ : BufTy).Contents (Elt F)) = ((fun a b => concatenate S8x6x4096x20 1 [⟨S8x3x4096x20, a⟩, ⟨S8x3x4096x20, b⟩] concatenates_S8x3x4096x20_S8x3x4096x20_S8x6x4096x20_d1) : (⟨S8x3x4096x20, .f32⟩ : BufTy).Contents (Elt F) → (⟨S8x3x4096x20, .f32⟩ : BufTy).Contents (Elt F) → (⟨S8x6x4096x20, .f32⟩ : BufTy).Contents (Elt F)) (after ops V (Proc.devRef .tc main_v7) : (⟨S8x3x4096x20, .f32⟩ : BufTy).Contents (Elt F)) (after ops V (Proc.devRef .tc main_v6) : (⟨S8x3x4096x20, .f32⟩ : BufTy).Contents (Elt F)) :=
  ops_writesAt.binary_at 30 V main_v7 main_v6 main_v8 _ _ _ _ rfl (by decide) (by decide) (by decide)

theorem s_main_v9 (V : Valuation τ sig (Elt F)) :
    (after ops V (Proc.devRef .tc main_v9) : (⟨S8x4096x20x64, .f32⟩ : BufTy).Contents (Elt F)) = ((fun l r => Host.dotGeneral dot_S8x6x4096x20_S64x6_S8x4096x20x64_1_1_023_0_n_n none l r) : (⟨S8x6x4096x20, .f32⟩ : BufTy).Contents (Elt F) → (⟨S64x6, .f32⟩ : BufTy).Contents (Elt F) → (⟨S8x4096x20x64, .f32⟩ : BufTy).Contents (Elt F)) (after ops V (Proc.devRef .tc main_v8) : (⟨S8x6x4096x20, .f32⟩ : BufTy).Contents (Elt F)) (after ops V (Proc.devRef .tc main_arg2) : (⟨S64x6, .f32⟩ : BufTy).Contents (Elt F)) :=
  ops_writesAt.binary_at 31 V main_v8 main_arg2 main_v9 _ _ _ _ rfl (by decide) (by decide) (by decide)

theorem s_main_v10 (V : Valuation τ sig (Elt F)) :
    (after ops V (Proc.devRef .tc main_v10) : (⟨S8x64x4096x20, .f32⟩ : BufTy).Contents (Elt F)) = ((transpose S8x64x4096x20 [0, 3, 1, 2] · transposes_S8x4096x20x64_S8x64x4096x20_0_3_1_2) : (⟨S8x4096x20x64, .f32⟩ : BufTy).Contents (Elt F) → (⟨S8x64x4096x20, .f32⟩ : BufTy).Contents (Elt F)) (after ops V (Proc.devRef .tc main_v9) : (⟨S8x4096x20x64, .f32⟩ : BufTy).Contents (Elt F)) :=
  ops_writesAt.unary_at 32 V main_v9 main_v10 _ _ _ rfl (by decide) (by decide)

theorem s_main_v11 (V : Valuation τ sig (Elt F)) :
    (after ops V (Proc.devRef .tc main_v11) : (⟨S1x64x1x1, .f32⟩ : BufTy).Contents (Elt F)) = (broadcastInDim S1x64x1x1 ![1] bcast_S64_S1x64x1x1_1 : (⟨S64, .f32⟩ : BufTy).Contents (Elt F) → (⟨S1x64x1x1, .f32⟩ : BufTy).Contents (Elt F)) (after ops V (Proc.devRef .tc main_arg3) : (⟨S64, .f32⟩ : BufTy).Contents (Elt F)) :=
  ops_writesAt.unary_at 33 V main_arg3 main_v11 _ _ _ rfl (by decide) (by decide)

theorem s_main_v12 (V : Valuation τ sig (Elt F)) :
    (after ops V (Proc.devRef .tc main_v12) : (⟨S8x64x4096x20, .f32⟩ : BufTy).Contents (Elt F)) = (broadcastInDim S8x64x4096x20 ![0, 1, 2, 3] bcast_S1x64x1x1_S8x64x4096x20_0_1_2_3 : (⟨S1x64x1x1, .f32⟩ : BufTy).Contents (Elt F) → (⟨S8x64x4096x20, .f32⟩ : BufTy).Contents (Elt F)) (after ops V (Proc.devRef .tc main_v11) : (⟨S1x64x1x1, .f32⟩ : BufTy).Contents (Elt F)) :=
  ops_writesAt.unary_at 34 V main_v11 main_v12 _ _ _ rfl (by decide) (by decide)

theorem s_main_v13 (V : Valuation τ sig (Elt F)) :
    (after ops V (Proc.devRef .tc main_v13) : (⟨S8x64x4096x20, .f32⟩ : BufTy).Contents (Elt F)) = (addf : (⟨S8x64x4096x20, .f32⟩ : BufTy).Contents (Elt F) → (⟨S8x64x4096x20, .f32⟩ : BufTy).Contents (Elt F) → (⟨S8x64x4096x20, .f32⟩ : BufTy).Contents (Elt F)) (after ops V (Proc.devRef .tc main_v10) : (⟨S8x64x4096x20, .f32⟩ : BufTy).Contents (Elt F)) (after ops V (Proc.devRef .tc main_v12) : (⟨S8x64x4096x20, .f32⟩ : BufTy).Contents (Elt F)) :=
  ops_writesAt.binary_at 35 V main_v10 main_v12 main_v13 _ _ _ _ rfl (by decide) (by decide) (by decide)

theorem s_main_cst (V : Valuation τ sig (Elt F)) :
    (after ops V (Proc.devRef .tc main_cst) : (⟨S_, .f32⟩ : BufTy).Contents (Elt F)) = ((constant S_ .f32 0x3E4CCCCD#32) : (⟨S_, .f32⟩ : BufTy).Contents (Elt F)) :=
  ops_writesAt.nullary_at 36 V main_cst _ _ rfl (by decide)

theorem s_main_call1_cst (V : Valuation τ sig (Elt F)) :
    (after ops V (Proc.devRef .tc main_call1_cst) : (⟨S_, .f32⟩ : BufTy).Contents (Elt F)) = ((constant S_ .f32 0x00000000#32) : (⟨S_, .f32⟩ : BufTy).Contents (Elt F)) :=
  ops_writesAt.nullary_at 37 V main_call1_cst _ _ rfl (by decide)

theorem s_main_call1_v0 (V : Valuation τ sig (Elt F)) :
    (after ops V (Proc.devRef .tc main_call1_v0) : (⟨S8x64x4096x20, .f32⟩ : BufTy).Contents (Elt F)) = ((broadcastInDim S8x64x4096x20 ![] bcast_S_S8x64x4096x20) : (⟨S_, .f32⟩ : BufTy).Contents (Elt F) → (⟨S8x64x4096x20, .f32⟩ : BufTy).Contents (Elt F)) (after ops V (Proc.devRef .tc main_call1_cst) : (⟨S_, .f32⟩ : BufTy).Contents (Elt F)) :=
  ops_writesAt.unary_at 38 V main_call1_cst main_call1_v0 _ _ _ rfl (by decide) (by decide)

theorem s_main_call1_v1 (V : Valuation τ sig (Elt F)) :
    (after ops V (Proc.devRef .tc main_call1_v1) : (⟨S8x64x4096x20, .i1⟩ : BufTy).Contents (Elt F)) = ((cmpf .oge) : (⟨S8x64x4096x20, .f32⟩ : BufTy).Contents (Elt F) → (⟨S8x64x4096x20, .f32⟩ : BufTy).Contents (Elt F) → (⟨S8x64x4096x20, .i1⟩ : BufTy).Contents (Elt F)) (after ops V (Proc.devRef .tc main_v13) : (⟨S8x64x4096x20, .f32⟩ : BufTy).Contents (Elt F)) (after ops V (Proc.devRef .tc main_call1_v0) : (⟨S8x64x4096x20, .f32⟩ : BufTy).Contents (Elt F)) :=
  ops_writesAt.binary_at 39 V main_v13 main_call1_v0 main_call1_v1 _ _ _ _ rfl (by decide) (by decide) (by decide)

theorem s_main_call1_v2 (V : Valuation τ sig (Elt F)) :
    (after ops V (Proc.devRef .tc main_call1_v2) : (⟨S_, .f32⟩ : BufTy).Contents (Elt F)) = (id : (⟨S_, .f32⟩ : BufTy).Contents (Elt F) → (⟨S_, .f32⟩ : BufTy).Contents (Elt F)) (after ops V (Proc.devRef .tc main_cst) : (⟨S_, .f32⟩ : BufTy).Contents (Elt F)) :=
  ops_writesAt.unary_at 40 V main_cst main_call1_v2 _ _ _ rfl (by decide) (by decide)

theorem s_main_call1_v3 (V : Valuation τ sig (Elt F)) :
    (after ops V (Proc.devRef .tc main_call1_v3) : (⟨S8x64x4096x20, .f32⟩ : BufTy).Contents (Elt F)) = ((broadcastInDim S8x64x4096x20 ![] bcast_S_S8x64x4096x20) : (⟨S_, .f32⟩ : BufTy).Contents (Elt F) → (⟨S8x64x4096x20, .f32⟩ : BufTy).Contents (Elt F)) (after ops V (Proc.devRef .tc main_call1_v2) : (⟨S_, .f32⟩ : BufTy).Contents (Elt F)) :=
  ops_writesAt.unary_at 41 V main_call1_v2 main_call1_v3 _ _ _ rfl (by decide) (by decide)

theorem s_main_call1_v4 (V : Valuation τ sig (Elt F)) :
    (after ops V (Proc.devRef .tc main_call1_v4) : (⟨S8x64x4096x20, .f32⟩ : BufTy).Contents (Elt F)) = (mulf : (⟨S8x64x4096x20, .f32⟩ : BufTy).Contents (Elt F) → (⟨S8x64x4096x20, .f32⟩ : BufTy).Contents (Elt F) → (⟨S8x64x4096x20, .f32⟩ : BufTy).Contents (Elt F)) (after ops V (Proc.devRef .tc main_call1_v3) : (⟨S8x64x4096x20, .f32⟩ : BufTy).Contents (Elt F)) (after ops V (Proc.devRef .tc main_v13) : (⟨S8x64x4096x20, .f32⟩ : BufTy).Contents (Elt F)) :=
  ops_writesAt.binary_at 42 V main_call1_v3 main_v13 main_call1_v4 _ _ _ _ rfl (by decide) (by decide) (by decide)

theorem s_main_v14 (V : Valuation τ sig (Elt F)) :
    (after ops V (Proc.devRef .tc main_v14) : (⟨S8x64x4096x20, .f32⟩ : BufTy).Contents (Elt F)) = (select : (⟨S8x64x4096x20, .i1⟩ : BufTy).Contents (Elt F) → (⟨S8x64x4096x20, .f32⟩ : BufTy).Contents (Elt F) → (⟨S8x64x4096x20, .f32⟩ : BufTy).Contents (Elt F) → (⟨S8x64x4096x20, .f32⟩ : BufTy).Contents (Elt F)) (after ops V (Proc.devRef .tc main_call1_v1) : (⟨S8x64x4096x20, .i1⟩ : BufTy).Contents (Elt F)) (after ops V (Proc.devRef .tc main_v13) : (⟨S8x64x4096x20, .f32⟩ : BufTy).Contents (Elt F)) (after ops V (Proc.devRef .tc main_call1_v4) : (⟨S8x64x4096x20, .f32⟩ : BufTy).Contents (Elt F)) :=
  ops_writesAt.ternary_at 43 V main_call1_v1 main_v13 main_call1_v4 main_v14 _ _ _ _ _ rfl (by decide) (by decide) (by decide) (by decide)

theorem s_main_cst_0 (V : Valuation τ sig (Elt F)) :
    (after ops V (Proc.devRef .tc main_cst_0) : (⟨S_, .f32⟩ : BufTy).Contents (Elt F)) = ((constant S_ .f32 0xFF800000#32) : (⟨S_, .f32⟩ : BufTy).Contents (Elt F)) :=
  ops_writesAt.nullary_at 44 V main_cst_0 _ _ rfl (by decide)

theorem s_main_v15 (V : Valuation τ sig (Elt F)) :
    (after ops V (Proc.devRef .tc main_v15) : (⟨S8x64x4096, .f32⟩ : BufTy).Contents (Elt F)) = ((fun x v => Host.reduce FloatOps.maximumf x v reducesTo_S8x64x4096x20_S8x64x4096_d3 h_S_) : (⟨S8x64x4096x20, .f32⟩ : BufTy).Contents (Elt F) → (⟨S_, .f32⟩ : BufTy).Contents (Elt F) → (⟨S8x64x4096, .f32⟩ : BufTy).Contents (Elt F)) (after ops V (Proc.devRef .tc main_v14) : (⟨S8x64x4096x20, .f32⟩ : BufTy).Contents (Elt F)) (after ops V (Proc.devRef .tc main_cst_0) : (⟨S_, .f32⟩ : BufTy).Contents (Elt F)) :=
  ops_writesAt.binary_at 45 V main_v14 main_cst_0 main_v15 _ _ _ _ rfl (by decide) (by decide) (by decide)

theorem s_main_v16 (V : Valuation τ sig (Elt F)) :
    (after ops V (Proc.devRef .tc main_v16) : (⟨S8x1x4096x20, .i32⟩ : BufTy).Contents (Elt F)) = (broadcastInDim S8x1x4096x20 ![0, 2, 3] bcast_S8x4096x20_S8x1x4096x20_0_2_3 : (⟨S8x4096x20, .i32⟩ : BufTy).Contents (Elt F) → (⟨S8x1x4096x20, .i32⟩ : BufTy).Contents (Elt F)) (after ops V (Proc.devRef .tc main_arg1) : (⟨S8x4096x20, .i32⟩ : BufTy).Contents (Elt F)) :=
  ops_writesAt.unary_at 46 V main_arg1 main_v16 _ _ _ rfl (by decide) (by decide)

theorem s_main_v17 (V : Valuation τ sig (Elt F)) :
    (after ops V (Proc.devRef .tc main_v17) : (⟨S8x64x4096x20, .i32⟩ : BufTy).Contents (Elt F)) = (broadcastInDim S8x64x4096x20 ![0, 1, 2, 3] bcast_S8x1x4096x20_S8x64x4096x20_0_1_2_3 : (⟨S8x1x4096x20, .i32⟩ : BufTy).Contents (Elt F) → (⟨S8x64x4096x20, .i32⟩ : BufTy).Contents (Elt F)) (after ops V (Proc.devRef .tc main_v16) : (⟨S8x1x4096x20, .i32⟩ : BufTy).Contents (Elt F)) :=
  ops_writesAt.unary_at 47 V main_v16 main_v17 _ _ _ rfl (by decide) (by decide)

theorem s_main_v18 (V : Valuation τ sig (Elt F)) :
    (after ops V (Proc.devRef .tc main_v18) : (⟨S8x64x4096x1, .f32⟩ : BufTy).Contents (Elt F)) = (broadcastInDim S8x64x4096x1 ![0, 1, 2] bcast_S8x64x4096_S8x64x4096x1_0_1_2 : (⟨S8x64x4096, .f32⟩ : BufTy).Contents (Elt F) → (⟨S8x64x4096x1, .f32⟩ : BufTy).Contents (Elt F)) (after ops V (Proc.devRef .tc main_v15) : (⟨S8x64x4096, .f32⟩ : BufTy).Contents (Elt F)) :=
  ops_writesAt.unary_at 48 V main_v15 main_v18 _ _ _ rfl (by decide) (by decide)

theorem s_main_call2_c (V : Valuation τ sig (Elt F)) :
    (after ops V (Proc.devRef .tc main_call2_c) : (⟨S_, .i32⟩ : BufTy).Contents (Elt F)) = ((constantI S_ 32 0#32) : (⟨S_, .i32⟩ : BufTy).Contents (Elt F)) :=
  ops_writesAt.nullary_at 49 V main_call2_c _ _ rfl (by decide)

theorem s_main_call2_v0 (V : Valuation τ sig (Elt F)) :
    (after ops V (Proc.devRef .tc main_call2_v0) : (⟨S8x64x4096x20, .i32⟩ : BufTy).Contents (Elt F)) = ((broadcastInDim S8x64x4096x20 ![] bcast_S_S8x64x4096x20) : (⟨S_, .i32⟩ : BufTy).Contents (Elt F) → (⟨S8x64x4096x20, .i32⟩ : BufTy).Contents (Elt F)) (after ops V (Proc.devRef .tc main_call2_c) : (⟨S_, .i32⟩ : BufTy).Contents (Elt F)) :=
  ops_writesAt.unary_at 50 V main_call2_c main_call2_v0 _ _ _ rfl (by decide) (by decide)

theorem s_main_call2_v1 (V : Valuation τ sig (Elt F)) :
    (after ops V (Proc.devRef .tc main_call2_v1) : (⟨S8x64x4096x20, .i1⟩ : BufTy).Contents (Elt F)) = ((cmpi .slt) : (⟨S8x64x4096x20, .i32⟩ : BufTy).Contents (Elt F) → (⟨S8x64x4096x20, .i32⟩ : BufTy).Contents (Elt F) → (⟨S8x64x4096x20, .i1⟩ : BufTy).Contents (Elt F)) (after ops V (Proc.devRef .tc main_v17) : (⟨S8x64x4096x20, .i32⟩ : BufTy).Contents (Elt F)) (after ops V (Proc.devRef .tc main_call2_v0) : (⟨S8x64x4096x20, .i32⟩ : BufTy).Contents (Elt F)) :=
  ops_writesAt.binary_at 51 V main_v17 main_call2_v0 main_call2_v1 _ _ _ _ rfl (by decide) (by decide) (by decide)

theorem s_main_call2_c_0 (V : Valuation τ sig (Elt F)) :
    (after ops V (Proc.devRef .tc main_call2_c_0) : (⟨S_, .i32⟩ : BufTy).Contents (Elt F)) = ((constantI S_ 32 4096#32) : (⟨S_, .i32⟩ : BufTy).Contents (Elt F)) :=
  ops_writesAt.nullary_at 52 V main_call2_c_0 _ _ rfl (by decide)

theorem s_main_call2_v2 (V : Valuation τ sig (Elt F)) :
    (after ops V (Proc.devRef .tc main_call2_v2) : (⟨S8x64x4096x20, .i32⟩ : BufTy).Contents (Elt F)) = ((broadcastInDim S8x64x4096x20 ![] bcast_S_S8x64x4096x20) : (⟨S_, .i32⟩ : BufTy).Contents (Elt F) → (⟨S8x64x4096x20, .i32⟩ : BufTy).Contents (Elt F)) (after ops V (Proc.devRef .tc main_call2_c_0) : (⟨S_, .i32⟩ : BufTy).Contents (Elt F)) :=
  ops_writesAt.unary_at 53 V main_call2_c_0 main_call2_v2 _ _ _ rfl (by decide) (by decide)

theorem s_main_call2_v3 (V : Valuation τ sig (Elt F)) :
    (after ops V (Proc.devRef .tc main_call2_v3) : (⟨S8x64x4096x20, .i32⟩ : BufTy).Contents (Elt F)) = (addi : (⟨S8x64x4096x20, .i32⟩ : BufTy).Contents (Elt F) → (⟨S8x64x4096x20, .i32⟩ : BufTy).Contents (Elt F) → (⟨S8x64x4096x20, .i32⟩ : BufTy).Contents (Elt F)) (after ops V (Proc.devRef .tc main_v17) : (⟨S8x64x4096x20, .i32⟩ : BufTy).Contents (Elt F)) (after ops V (Proc.devRef .tc main_call2_v2) : (⟨S8x64x4096x20, .i32⟩ : BufTy).Contents (Elt F)) :=
  ops_writesAt.binary_at 54 V main_v17 main_call2_v2 main_call2_v3 _ _ _ _ rfl (by decide) (by decide) (by decide)

theorem s_main_call2_v4 (V : Valuation τ sig (Elt F)) :
    (after ops V (Proc.devRef .tc main_call2_v4) : (⟨S8x64x4096x20, .i32⟩ : BufTy).Contents (Elt F)) = (select : (⟨S8x64x4096x20, .i1⟩ : BufTy).Contents (Elt F) → (⟨S8x64x4096x20, .i32⟩ : BufTy).Contents (Elt F) → (⟨S8x64x4096x20, .i32⟩ : BufTy).Contents (Elt F) → (⟨S8x64x4096x20, .i32⟩ : BufTy).Contents (Elt F)) (after ops V (Proc.devRef .tc main_call2_v1) : (⟨S8x64x4096x20, .i1⟩ : BufTy).Contents (Elt F)) (after ops V (Proc.devRef .tc main_call2_v3) : (⟨S8x64x4096x20, .i32⟩ : BufTy).Contents (Elt F)) (after ops V (Proc.devRef .tc main_v17) : (⟨S8x64x4096x20, .i32⟩ : BufTy).Contents (Elt F)) :=
  ops_writesAt.ternary_at 55 V main_call2_v1 main_call2_v3 main_v17 main_call2_v4 _ _ _ _ _ rfl (by decide) (by decide) (by decide) (by decide)

theorem s_main_call2_v5 (V : Valuation τ sig (Elt F)) :
    (after ops V (Proc.devRef .tc main_call2_v5) : (⟨S8x64x4096x20x1, .i32⟩ : BufTy).Contents (Elt F)) = (shapeCast S8x64x4096x20x1 (after ops V (Proc.devRef .tc main_call2_v4) : (⟨S8x64x4096x20, .i32⟩ : BufTy).Contents (Elt F)) shapeCasts_S8x64x4096x20_S8x64x4096x20x1 : (⟨S8x64x4096x20x1, .i32⟩ : BufTy).Contents (Elt F)) :=
  ops_writesAt.reshape_at 56 V main_call2_v4 main_call2_v5 _ _ _ _ rfl (by decide) (by decide)

theorem s_main_call2_v6 (V : Valuation τ sig (Elt F)) :
    (after ops V (Proc.devRef .tc main_call2_v6) : (⟨S8x64x4096, .f32⟩ : BufTy).Contents (Elt F)) = (shapeCast S8x64x4096 (after ops V (Proc.devRef .tc main_v18) : (⟨S8x64x4096x1, .f32⟩ : BufTy).Contents (Elt F)) shapeCasts_S8x64x4096x1_S8x64x4096 : (⟨S8x64x4096, .f32⟩ : BufTy).Contents (Elt F)) :=
  ops_writesAt.reshape_at 57 V main_v18 main_call2_v6 _ _ _ _ rfl (by decide) (by decide)

theorem s_main_call2_c_1 (V : Valuation τ sig (Elt F)) :
    (after ops V (Proc.devRef .tc main_call2_c_1) : (⟨S1, .i32⟩ : BufTy).Contents (Elt F)) = ((constantI S1 32 4095#32) : (⟨S1, .i32⟩ : BufTy).Contents (Elt F)) :=
  ops_writesAt.nullary_at 58 V main_call2_c_1 _ _ rfl (by decide)

theorem s_main_call2_c_2 (V : Valuation τ sig (Elt F)) :
    (after ops V (Proc.devRef .tc main_call2_c_2) : (⟨S_, .i32⟩ : BufTy).Contents (Elt F)) = ((constantI S_ 32 0#32) : (⟨S_, .i32⟩ : BufTy).Contents (Elt F)) :=
  ops_writesAt.nullary_at 59 V main_call2_c_2 _ _ rfl (by decide)

theorem s_main_call2_v7 (V : Valuation τ sig (Elt F)) :
    (after ops V (Proc.devRef .tc main_call2_v7) : (⟨S8x64x4096x20x1, .i32⟩ : BufTy).Contents (Elt F)) = ((broadcastInDim S8x64x4096x20x1 ![] bcast_S_S8x64x4096x20x1) : (⟨S_, .i32⟩ : BufTy).Contents (Elt F) → (⟨S8x64x4096x20x1, .i32⟩ : BufTy).Contents (Elt F)) (after ops V (Proc.devRef .tc main_call2_c_2) : (⟨S_, .i32⟩ : BufTy).Contents (Elt F)) :=
  ops_writesAt.unary_at 60 V main_call2_c_2 main_call2_v7 _ _ _ rfl (by decide) (by decide)

theorem s_main_call2_v8 (V : Valuation τ sig (Elt F)) :
    (after ops V (Proc.devRef .tc main_call2_v8) : (⟨S8x64x4096x20x1, .i1⟩ : BufTy).Contents (Elt F)) = ((cmpi .sge) : (⟨S8x64x4096x20x1, .i32⟩ : BufTy).Contents (Elt F) → (⟨S8x64x4096x20x1, .i32⟩ : BufTy).Contents (Elt F) → (⟨S8x64x4096x20x1, .i1⟩ : BufTy).Contents (Elt F)) (after ops V (Proc.devRef .tc main_call2_v5) : (⟨S8x64x4096x20x1, .i32⟩ : BufTy).Contents (Elt F)) (after ops V (Proc.devRef .tc main_call2_v7) : (⟨S8x64x4096x20x1, .i32⟩ : BufTy).Contents (Elt F)) :=
  ops_writesAt.binary_at 61 V main_call2_v5 main_call2_v7 main_call2_v8 _ _ _ _ rfl (by decide) (by decide) (by decide)

theorem s_main_call2_v9 (V : Valuation τ sig (Elt F)) :
    (after ops V (Proc.devRef .tc main_call2_v9) : (⟨S1x1x1x1x1, .i32⟩ : BufTy).Contents (Elt F)) = ((broadcastInDim S1x1x1x1x1 ![4] bcast_S1_S1x1x1x1x1_4) : (⟨S1, .i32⟩ : BufTy).Contents (Elt F) → (⟨S1x1x1x1x1, .i32⟩ : BufTy).Contents (Elt F)) (after ops V (Proc.devRef .tc main_call2_c_1) : (⟨S1, .i32⟩ : BufTy).Contents (Elt F)) :=
  ops_writesAt.unary_at 62 V main_call2_c_1 main_call2_v9 _ _ _ rfl (by decide) (by decide)

theorem s_main_call2_v10 (V : Valuation τ sig (Elt F)) :
    (after ops V (Proc.devRef .tc main_call2_v10) : (⟨S8x64x4096x20x1, .i32⟩ : BufTy).Contents (Elt F)) = ((broadcastInDim S8x64x4096x20x1 ![0, 1, 2, 3, 4] bcast_S1x1x1x1x1_S8x64x4096x20x1_0_1_2_3_4) : (⟨S1x1x1x1x1, .i32⟩ : BufTy).Contents (Elt F) → (⟨S8x64x4096x20x1, .i32⟩ : BufTy).Contents (Elt F)) (after ops V (Proc.devRef .tc main_call2_v9) : (⟨S1x1x1x1x1, .i32⟩ : BufTy).Contents (Elt F)) :=
  ops_writesAt.unary_at 63 V main_call2_v9 main_call2_v10 _ _ _ rfl (by decide) (by decide)

theorem s_main_call2_v11 (V : Valuation τ sig (Elt F)) :
    (after ops V (Proc.devRef .tc main_call2_v11) : (⟨S8x64x4096x20x1, .i1⟩ : BufTy).Contents (Elt F)) = ((cmpi .sle) : (⟨S8x64x4096x20x1, .i32⟩ : BufTy).Contents (Elt F) → (⟨S8x64x4096x20x1, .i32⟩ : BufTy).Contents (Elt F) → (⟨S8x64x4096x20x1, .i1⟩ : BufTy).Contents (Elt F)) (after ops V (Proc.devRef .tc main_call2_v5) : (⟨S8x64x4096x20x1, .i32⟩ : BufTy).Contents (Elt F)) (after ops V (Proc.devRef .tc main_call2_v10) : (⟨S8x64x4096x20x1, .i32⟩ : BufTy).Contents (Elt F)) :=
  ops_writesAt.binary_at 64 V main_call2_v5 main_call2_v10 main_call2_v11 _ _ _ _ rfl (by decide) (by decide) (by decide)

theorem s_main_call2_v12 (V : Valuation τ sig (Elt F)) :
    (after ops V (Proc.devRef .tc main_call2_v12) : (⟨S8x64x4096x20x1, .i1⟩ : BufTy).Contents (Elt F)) = (andi : (⟨S8x64x4096x20x1, .i1⟩ : BufTy).Contents (Elt F) → (⟨S8x64x4096x20x1, .i1⟩ : BufTy).Contents (Elt F) → (⟨S8x64x4096x20x1, .i1⟩ : BufTy).Contents (Elt F)) (after ops V (Proc.devRef .tc main_call2_v8) : (⟨S8x64x4096x20x1, .i1⟩ : BufTy).Contents (Elt F)) (after ops V (Proc.devRef .tc main_call2_v11) : (⟨S8x64x4096x20x1, .i1⟩ : BufTy).Contents (Elt F)) :=
  ops_writesAt.binary_at 65 V main_call2_v8 main_call2_v11 main_call2_v12 _ _ _ _ rfl (by decide) (by decide) (by decide)

theorem s_main_call2_c_3 (V : Valuation τ sig (Elt F)) :
    (after ops V (Proc.devRef .tc main_call2_c_3) : (⟨S_, .i1⟩ : BufTy).Contents (Elt F)) = ((constantI S_ 1 1#1) : (⟨S_, .i1⟩ : BufTy).Contents (Elt F)) :=
  ops_writesAt.nullary_at 66 V main_call2_c_3 _ _ rfl (by decide)

-- a transport along an identity of types is the identity; the reduction itself is not opened
attribute [local irreducible] Host.reduce in
theorem s_main_call2_v13 (V : Valuation τ sig (Elt F)) :
    (after ops V (Proc.devRef .tc main_call2_v13) : (⟨S8x64x4096x20, .i1⟩ : BufTy).Contents (Elt F)) = ((fun x v => Host.reduce IntOp.andi x v reducesTo_S8x64x4096x20x1_S8x64x4096x20_d4 h_S_) : (⟨S8x64x4096x20x1, .i1⟩ : BufTy).Contents (Elt F) → (⟨S_, .i1⟩ : BufTy).Contents (Elt F) → (⟨S8x64x4096x20, .i1⟩ : BufTy).Contents (Elt F)) (after ops V (Proc.devRef .tc main_call2_v12) : (⟨S8x64x4096x20x1, .i1⟩ : BufTy).Contents (Elt F)) (after ops V (Proc.devRef .tc main_call2_c_3) : (⟨S_, .i1⟩ : BufTy).Contents (Elt F)) :=
  ops_writesAt.binary_at 67 V main_call2_v12 main_call2_c_3 main_call2_v13 _ _ _ _ rfl (by decide) (by decide) (by decide)

theorem s_main_call2_v14 (V : Valuation τ sig (Elt F)) :
    (after ops V (Proc.devRef .tc main_call2_v14) : (⟨S8x64x4096x20, .f32⟩ : BufTy).Contents (Elt F)) = ((fun x i => Host.gather gather_S8x64x4096_S8x64x4096x20x1_S8x64x4096x20_n_2_01_01_2_4_111 x i) : (⟨S8x64x4096, .f32⟩ : BufTy).Contents (Elt F) → (⟨S8x64x4096x20x1, .i32⟩ : BufTy).Contents (Elt F) → (⟨S8x64x4096x20, .f32⟩ : BufTy).Contents (Elt F)) (after ops V (Proc.devRef .tc main_call2_v6) : (⟨S8x64x4096, .f32⟩ : BufTy).Contents (Elt F)) (after ops V (Proc.devRef .tc main_call2_v5) : (⟨S8x64x4096x20x1, .i32⟩ : BufTy).Contents (Elt F)) :=
  ops_writesAt.binary_at 68 V main_call2_v6 main_call2_v5 main_call2_v14 _ _ _ _ rfl (by decide) (by decide) (by decide)

theorem s_main_call2_cst (V : Valuation τ sig (Elt F)) :
    (after ops V (Proc.devRef .tc main_call2_cst) : (⟨S_, .f32⟩ : BufTy).Contents (Elt F)) = ((constant S_ .f32 0x7FC00000#32) : (⟨S_, .f32⟩ : BufTy).Contents (Elt F)) :=
  ops_writesAt.nullary_at 69 V main_call2_cst _ _ rfl (by decide)

theorem s_main_call2_v15 (V : Valuation τ sig (Elt F)) :
    (after ops V (Proc.devRef .tc main_call2_v15) : (⟨S8x64x4096x20, .f32⟩ : BufTy).Contents (Elt F)) = ((broadcastInDim S8x64x4096x20 ![] bcast_S_S8x64x4096x20) : (⟨S_, .f32⟩ : BufTy).Contents (Elt F) → (⟨S8x64x4096x20, .f32⟩ : BufTy).Contents (Elt F)) (after ops V (Proc.devRef .tc main_call2_cst) : (⟨S_, .f32⟩ : BufTy).Contents (Elt F)) :=
  ops_writesAt.unary_at 70 V main_call2_cst main_call2_v15 _ _ _ rfl (by decide) (by decide)

theorem s_main_v19 (V : Valuation τ sig (Elt F)) :
    (after ops V (Proc.devRef .tc main_v19) : (⟨S8x64x4096x20, .f32⟩ : BufTy).Contents (Elt F)) = (select : (⟨S8x64x4096x20, .i1⟩ : BufTy).Contents (Elt F) → (⟨S8x64x4096x20, .f32⟩ : BufTy).Contents (Elt F) → (⟨S8x64x4096x20, .f32⟩ : BufTy).Contents (Elt F) → (⟨S8x64x4096x20, .f32⟩ : BufTy).Contents (Elt F)) (after ops V (Proc.devRef .tc main_call2_v13) : (⟨S8x64x4096x20, .i1⟩ : BufTy).Contents (Elt F)) (after ops V (Proc.devRef .tc main_call2_v14) : (⟨S8x64x4096x20, .f32⟩ : BufTy).Contents (Elt F)) (after ops V (Proc.devRef .tc main_call2_v15) : (⟨S8x64x4096x20, .f32⟩ : BufTy).Contents (Elt F)) :=
  ops_writesAt.ternary_at 71 V main_call2_v13 main_call2_v14 main_call2_v15 main_v19 _ _ _ _ _ rfl (by decide) (by decide) (by decide) (by decide)

theorem s_main_cst_1 (V : Valuation τ sig (Elt F)) :
    (after ops V (Proc.devRef .tc main_cst_1) : (⟨S_, .f32⟩ : BufTy).Contents (Elt F)) = ((constant S_ .f32 0xFF800000#32) : (⟨S_, .f32⟩ : BufTy).Contents (Elt F)) :=
  ops_writesAt.nullary_at 72 V main_cst_1 _ _ rfl (by decide)

theorem s_main_v20 (V : Valuation τ sig (Elt F)) :
    (after ops V (Proc.devRef .tc main_v20) : (⟨S8x64x4096, .f32⟩ : BufTy).Contents (Elt F)) = ((fun x v => Host.reduce FloatOps.maximumf x v reducesTo_S8x64x4096x20_S8x64x4096_d3 h_S_) : (⟨S8x64x4096x20, .f32⟩ : BufTy).Contents (Elt F) → (⟨S_, .f32⟩ : BufTy).Contents (Elt F) → (⟨S8x64x4096, .f32⟩ : BufTy).Contents (Elt F)) (after ops V (Proc.devRef .tc main_v19) : (⟨S8x64x4096x20, .f32⟩ : BufTy).Contents (Elt F)) (after ops V (Proc.devRef .tc main_cst_1) : (⟨S_, .f32⟩ : BufTy).Contents (Elt F)) :=
  ops_writesAt.binary_at 73 V main_v19 main_cst_1 main_v20 _ _ _ _ rfl (by decide) (by decide) (by decide)

theorem s_main_v21 (V : Valuation τ sig (Elt F)) :
    (after ops V (Proc.devRef .tc main_v21) : (⟨S8x4096x64, .f32⟩ : BufTy).Contents (Elt F)) = ((fun l r => Host.dotGeneral dot_S8x64x4096_S64x64_S8x4096x64_1_1_02_0_n_n none l r) : (⟨S8x64x4096, .f32⟩ : BufTy).Contents (Elt F) → (⟨S64x64, .f32⟩ : BufTy).Contents (Elt F) → (⟨S8x4096x64, .f32⟩ : BufTy).Contents (Elt F)) (after ops V (Proc.devRef .tc main_v20) : (⟨S8x64x4096, .f32⟩ : BufTy).Contents (Elt F)) (after ops V (Proc.devRef .tc main_arg4) : (⟨S64x64, .f32⟩ : BufTy).Contents (Elt F)) :=
  ops_writesAt.binary_at 74 V main_v20 main_arg4 main_v21 _ _ _ _ rfl (by decide) (by decide) (by decide)

theorem s_main_v22 (V : Valuation τ sig (Elt F)) :
    (after ops V (Proc.devRef .tc main_v22) : (⟨S8x64x4096, .f32⟩ : BufTy).Contents (Elt F)) = ((transpose S8x64x4096 [0, 2, 1] · transposes_S8x4096x64_S8x64x4096_0_2_1) : (⟨S8x4096x64, .f32⟩ : BufTy).Contents (Elt F) → (⟨S8x64x4096, .f32⟩ : BufTy).Contents (Elt F)) (after ops V (Proc.devRef .tc main_v21) : (⟨S8x4096x64, .f32⟩ : BufTy).Contents (Elt F)) :=
  ops_writesAt.unary_at 75 V main_v21 main_v22 _ _ _ rfl (by decide) (by decide)

theorem s_main_v23 (V : Valuation τ sig (Elt F)) :
    (after ops V (Proc.devRef .tc main_v23) : (⟨S1x64x1, .f32⟩ : BufTy).Contents (Elt F)) = (broadcastInDim S1x64x1 ![1] bcast_S64_S1x64x1_1 : (⟨S64, .f32⟩ : BufTy).Contents (Elt F) → (⟨S1x64x1, .f32⟩ : BufTy).Contents (Elt F)) (after ops V (Proc.devRef .tc main_arg5) : (⟨S64, .f32⟩ : BufTy).Contents (Elt F)) :=
  ops_writesAt.unary_at 76 V main_arg5 main_v23 _ _ _ rfl (by decide) (by decide)

theorem s_main_v24 (V : Valuation τ sig (Elt F)) :
    (after ops V (Proc.devRef .tc main_v24) : (⟨S8x64x4096, .f32⟩ : BufTy).Contents (Elt F)) = (broadcastInDim S8x64x4096 ![0, 1, 2] bcast_S1x64x1_S8x64x4096_0_1_2 : (⟨S1x64x1, .f32⟩ : BufTy).Contents (Elt F) → (⟨S8x64x4096, .f32⟩ : BufTy).Contents (Elt F)) (after ops V (Proc.devRef .tc main_v23) : (⟨S1x64x1, .f32⟩ : BufTy).Contents (Elt F)) :=
  ops_writesAt.unary_at 77 V main_v23 main_v24 _ _ _ rfl (by decide) (by decide)

theorem s_main_v25 (V : Valuation τ sig (Elt F)) :
    (after ops V (Proc.devRef .tc main_v25) : (⟨S8x64x4096, .f32⟩ : BufTy).Contents (Elt F)) = (addf : (⟨S8x64x4096, .f32⟩ : BufTy).Contents (Elt F) → (⟨S8x64x4096, .f32⟩ : BufTy).Contents (Elt F) → (⟨S8x64x4096, .f32⟩ : BufTy).Contents (Elt F)) (after ops V (Proc.devRef .tc main_v22) : (⟨S8x64x4096, .f32⟩ : BufTy).Contents (Elt F)) (after ops V (Proc.devRef .tc main_v24) : (⟨S8x64x4096, .f32⟩ : BufTy).Contents (Elt F)) :=
  ops_writesAt.binary_at 78 V main_v22 main_v24 main_v25 _ _ _ _ rfl (by decide) (by decide) (by decide)

theorem s_main_cst_2 (V : Valuation τ sig (Elt F)) :
    (after ops V (Proc.devRef .tc main_cst_2) : (⟨S_, .f32⟩ : BufTy).Contents (Elt F)) = ((constant S_ .f32 0x3E4CCCCD#32) : (⟨S_, .f32⟩ : BufTy).Contents (Elt F)) :=
  ops_writesAt.nullary_at 79 V main_cst_2 _ _ rfl (by decide)

theorem s_main_call3_cst (V : Valuation τ sig (Elt F)) :
    (after ops V (Proc.devRef .tc main_call3_cst) : (⟨S_, .f32⟩ : BufTy).Contents (Elt F)) = ((constant S_ .f32 0x00000000#32) : (⟨S_, .f32⟩ : BufTy).Contents (Elt F)) :=
  ops_writesAt.nullary_at 80 V main_call3_cst _ _ rfl (by decide)

theorem s_main_call3_v0 (V : Valuation τ sig (Elt F)) :
    (after ops V (Proc.devRef .tc main_call3_v0) : (⟨S8x64x4096, .f32⟩ : BufTy).Contents (Elt F)) = ((broadcastInDim S8x64x4096 ![] bcast_S_S8x64x4096) : (⟨S_, .f32⟩ : BufTy).Contents (Elt F) → (⟨S8x64x4096, .f32⟩ : BufTy).Contents (Elt F)) (after ops V (Proc.devRef .tc main_call3_cst) : (⟨S_, .f32⟩ : BufTy).Contents (Elt F)) :=
  ops_writesAt.unary_at 81 V main_call3_cst main_call3_v0 _ _ _ rfl (by decide) (by decide)

theorem s_main_call3_v1 (V : Valuation τ sig (Elt F)) :
    (after ops V (Proc.devRef .tc main_call3_v1) : (⟨S8x64x4096, .i1⟩ : BufTy).Contents (Elt F)) = ((cmpf .oge) : (⟨S8x64x4096, .f32⟩ : BufTy).Contents (Elt F) → (⟨S8x64x4096, .f32⟩ : BufTy).Contents (Elt F) → (⟨S8x64x4096, .i1⟩ : BufTy).Contents (Elt F)) (after ops V (Proc.devRef .tc main_v25) : (⟨S8x64x4096, .f32⟩ : BufTy).Contents (Elt F)) (after ops V (Proc.devRef .tc main_call3_v0) : (⟨S8x64x4096, .f32⟩ : BufTy).Contents (Elt F)) :=
  ops_writesAt.binary_at 82 V main_v25 main_call3_v0 main_call3_v1 _ _ _ _ rfl (by decide) (by decide) (by decide)

theorem s_main_call3_v2 (V : Valuation τ sig (Elt F)) :
    (after ops V (Proc.devRef .tc main_call3_v2) : (⟨S_, .f32⟩ : BufTy).Contents (Elt F)) = (id : (⟨S_, .f32⟩ : BufTy).Contents (Elt F) → (⟨S_, .f32⟩ : BufTy).Contents (Elt F)) (after ops V (Proc.devRef .tc main_cst_2) : (⟨S_, .f32⟩ : BufTy).Contents (Elt F)) :=
  ops_writesAt.unary_at 83 V main_cst_2 main_call3_v2 _ _ _ rfl (by decide) (by decide)

theorem s_main_call3_v3 (V : Valuation τ sig (Elt F)) :
    (after ops V (Proc.devRef .tc main_call3_v3) : (⟨S8x64x4096, .f32⟩ : BufTy).Contents (Elt F)) = ((broadcastInDim S8x64x4096 ![] bcast_S_S8x64x4096) : (⟨S_, .f32⟩ : BufTy).Contents (Elt F) → (⟨S8x64x4096, .f32⟩ : BufTy).Contents (Elt F)) (after ops V (Proc.devRef .tc main_call3_v2) : (⟨S_, .f32⟩ : BufTy).Contents (Elt F)) :=
  ops_writesAt.unary_at 84 V main_call3_v2 main_call3_v3 _ _ _ rfl (by decide) (by decide)

theorem s_main_call3_v4 (V : Valuation τ sig (Elt F)) :
    (after ops V (Proc.devRef .tc main_call3_v4) : (⟨S8x64x4096, .f32⟩ : BufTy).Contents (Elt F)) = (mulf : (⟨S8x64x4096, .f32⟩ : BufTy).Contents (Elt F) → (⟨S8x64x4096, .f32⟩ : BufTy).Contents (Elt F) → (⟨S8x64x4096, .f32⟩ : BufTy).Contents (Elt F)) (after ops V (Proc.devRef .tc main_call3_v3) : (⟨S8x64x4096, .f32⟩ : BufTy).Contents (Elt F)) (after ops V (Proc.devRef .tc main_v25) : (⟨S8x64x4096, .f32⟩ : BufTy).Contents (Elt F)) :=
  ops_writesAt.binary_at 85 V main_call3_v3 main_v25 main_call3_v4 _ _ _ _ rfl (by decide) (by decide) (by decide)

theorem s_main_v26 (V : Valuation τ sig (Elt F)) :
    (after ops V (Proc.devRef .tc main_v26) : (⟨S8x64x4096, .f32⟩ : BufTy).Contents (Elt F)) = (select : (⟨S8x64x4096, .i1⟩ : BufTy).Contents (Elt F) → (⟨S8x64x4096, .f32⟩ : BufTy).Contents (Elt F) → (⟨S8x64x4096, .f32⟩ : BufTy).Contents (Elt F) → (⟨S8x64x4096, .f32⟩ : BufTy).Contents (Elt F)) (after ops V (Proc.devRef .tc main_call3_v1) : (⟨S8x64x4096, .i1⟩ : BufTy).Contents (Elt F)) (after ops V (Proc.devRef .tc main_v25) : (⟨S8x64x4096, .f32⟩ : BufTy).Contents (Elt F)) (after ops V (Proc.devRef .tc main_call3_v4) : (⟨S8x64x4096, .f32⟩ : BufTy).Contents (Elt F)) :=
  ops_writesAt.ternary_at 86 V main_call3_v1 main_v25 main_call3_v4 main_v26 _ _ _ _ _ rfl (by decide) (by decide) (by decide) (by decide)

theorem s_main_v27 (V : Valuation τ sig (Elt F)) :
    (after ops V (Proc.devRef .tc main_v27) : (⟨S8x1x4096x20, .i32⟩ : BufTy).Contents (Elt F)) = (broadcastInDim S8x1x4096x20 ![0, 2, 3] bcast_S8x4096x20_S8x1x4096x20_0_2_3 : (⟨S8x4096x20, .i32⟩ : BufTy).Contents (Elt F) → (⟨S8x1x4096x20, .i32⟩ : BufTy).Contents (Elt F)) (after ops V (Proc.devRef .tc main_arg1) : (⟨S8x4096x20, .i32⟩ : BufTy).Contents (Elt F)) :=
  ops_writesAt.unary_at 87 V main_arg1 main_v27 _ _ _ rfl (by decide) (by decide)

theorem s_main_v28 (V : Valuation τ sig (Elt F)) :
    (after ops V (Proc.devRef .tc main_v28) : (⟨S8x64x4096x20, .i32⟩ : BufTy).Contents (Elt F)) = (broadcastInDim S8x64x4096x20 ![0, 1, 2, 3] bcast_S8x1x4096x20_S8x64x4096x20_0_1_2_3 : (⟨S8x1x4096x20, .i32⟩ : BufTy).Contents (Elt F) → (⟨S8x64x4096x20, .i32⟩ : BufTy).Contents (Elt F)) (after ops V (Proc.devRef .tc main_v27) : (⟨S8x1x4096x20, .i32⟩ : BufTy).Contents (Elt F)) :=
  ops_writesAt.unary_at 88 V main_v27 main_v28 _ _ _ rfl (by decide) (by decide)

theorem s_main_v29 (V : Valuation τ sig (Elt F)) :
    (after ops V (Proc.devRef .tc main_v29) : (⟨S8x64x4096x1, .f32⟩ : BufTy).Contents (Elt F)) = (broadcastInDim S8x64x4096x1 ![0, 1, 2] bcast_S8x64x4096_S8x64x4096x1_0_1_2 : (⟨S8x64x4096, .f32⟩ : BufTy).Contents (Elt F) → (⟨S8x64x4096x1, .f32⟩ : BufTy).Contents (Elt F)) (after ops V (Proc.devRef .tc main_v26) : (⟨S8x64x4096, .f32⟩ : BufTy).Contents (Elt F)) :=
  ops_writesAt.unary_at 89 V main_v26 main_v29 _ _ _ rfl (by decide) (by decide)

theorem s_main_call4_c (V : Valuation τ sig (Elt F)) :
    (after ops V (Proc.devRef .tc main_call4_c) : (⟨S_, .i32⟩ : BufTy).Contents (Elt F)) = ((constantI S_ 32 0#32) : (⟨S_, .i32⟩ : BufTy).Contents (Elt F)) :=
  ops_writesAt.nullary_at 90 V main_call4_c _ _ rfl (by decide)

theorem s_main_call4_v0 (V : Valuation τ sig (Elt F)) :
    (after ops V (Proc.devRef .tc main_call4_v0) : (⟨S8x64x4096x20, .i32⟩ : BufTy).Contents (Elt F)) = ((broadcastInDim S8x64x4096x20 ![] bcast_S_S8x64x4096x20) : (⟨S_, .i32⟩ : BufTy).Contents (Elt F) → (⟨S8x64x4096x20, .i32⟩ : BufTy).Contents (Elt F)) (after ops V (Proc.devRef .tc main_call4_c) : (⟨S_, .i32⟩ : BufTy).Contents (Elt F)) :=
  ops_writesAt.unary_at 91 V main_call4_c main_call4_v0 _ _ _ rfl (by decide) (by decide)

theorem s_main_call4_v1 (V : Valuation τ sig (Elt F)) :
    (after ops V (Proc.devRef .tc main_call4_v1) : (⟨S8x64x4096x20, .i1⟩ : BufTy).Contents (Elt F)) = ((cmpi .slt) : (⟨S8x64x4096x20, .i32⟩ : BufTy).Contents (Elt F) → (⟨S8x64x4096x20, .i32⟩ : BufTy).Contents (Elt F) → (⟨S8x64x4096x20, .i1⟩ : BufTy).Contents (Elt F)) (after ops V (Proc.devRef .tc main_v28) : (⟨S8x64x4096x20, .i32⟩ : BufTy).Contents (Elt F)) (after ops V (Proc.devRef .tc main_call4_v0) : (⟨S8x64x4096x20, .i32⟩ : BufTy).Contents (Elt F)) :=
  ops_writesAt.binary_at 92 V main_v28 main_call4_v0 main_call4_v1 _ _ _ _ rfl (by decide) (by decide) (by decide)

theorem s_main_call4_c_0 (V : Valuation τ sig (Elt F)) :
    (after ops V (Proc.devRef .tc main_call4_c_0) : (⟨S_, .i32⟩ : BufTy).Contents (Elt F)) = ((constantI S_ 32 4096#32) : (⟨S_, .i32⟩ : BufTy).Contents (Elt F)) :=
  ops_writesAt.nullary_at 93 V main_call4_c_0 _ _ rfl (by decide)

theorem s_main_call4_v2 (V : Valuation τ sig (Elt F)) :
    (after ops V (Proc.devRef .tc main_call4_v2) : (⟨S8x64x4096x20, .i32⟩ : BufTy).Contents (Elt F)) = ((broadcastInDim S8x64x4096x20 ![] bcast_S_S8x64x4096x20) : (⟨S_, .i32⟩ : BufTy).Contents (Elt F) → (⟨S8x64x4096x20, .i32⟩ : BufTy).Contents (Elt F)) (after ops V (Proc.devRef .tc main_call4_c_0) : (⟨S_, .i32⟩ : BufTy).Contents (Elt F)) :=
  ops_writesAt.unary_at 94 V main_call4_c_0 main_call4_v2 _ _ _ rfl (by decide) (by decide)

theorem s_main_call4_v3 (V : Valuation τ sig (Elt F)) :
    (after ops V (Proc.devRef .tc main_call4_v3) : (⟨S8x64x4096x20, .i32⟩ : BufTy).Contents (Elt F)) = (addi : (⟨S8x64x4096x20, .i32⟩ : BufTy).Contents (Elt F) → (⟨S8x64x4096x20, .i32⟩ : BufTy).Contents (Elt F) → (⟨S8x64x4096x20, .i32⟩ : BufTy).Contents (Elt F)) (after ops V (Proc.devRef .tc main_v28) : (⟨S8x64x4096x20, .i32⟩ : BufTy).Contents (Elt F)) (after ops V (Proc.devRef .tc main_call4_v2) : (⟨S8x64x4096x20, .i32⟩ : BufTy).Contents (Elt F)) :=
  ops_writesAt.binary_at 95 V main_v28 main_call4_v2 main_call4_v3 _ _ _ _ rfl (by decide) (by decide) (by decide)

theorem s_main_call4_v4 (V : Valuation τ sig (Elt F)) :
    (after ops V (Proc.devRef .tc main_call4_v4) : (⟨S8x64x4096x20, .i32⟩ : BufTy).Contents (Elt F)) = (select : (⟨S8x64x4096x20, .i1⟩ : BufTy).Contents (Elt F) → (⟨S8x64x4096x20, .i32⟩ : BufTy).Contents (Elt F) → (⟨S8x64x4096x20, .i32⟩ : BufTy).Contents (Elt F) → (⟨S8x64x4096x20, .i32⟩ : BufTy).Contents (Elt F)) (after ops V (Proc.devRef .tc main_call4_v1) : (⟨S8x64x4096x20, .i1⟩ : BufTy).Contents (Elt F)) (after ops V (Proc.devRef .tc main_call4_v3) : (⟨S8x64x4096x20, .i32⟩ : BufTy).Contents (Elt F)) (after ops V (Proc.devRef .tc main_v28) : (⟨S8x64x4096x20, .i32⟩ : BufTy).Contents (Elt F)) :=
  ops_writesAt.ternary_at 96 V main_call4_v1 main_call4_v3 main_v28 main_call4_v4 _ _ _ _ _ rfl (by decide) (by decide) (by decide) (by decide)

theorem s_main_call4_v5 (V : Valuation τ sig (Elt F)) :
    (after ops V (Proc.devRef .tc main_call4_v5) : (⟨S8x64x4096x20x1, .i32⟩ : BufTy).Contents (Elt F)) = (shapeCast S8x64x4096x20x1 (after ops V (Proc.devRef .tc main_call4_v4) : (⟨S8x64x4096x20, .i32⟩ : BufTy).Contents (Elt F)) shapeCasts_S8x64x4096x20_S8x64x4096x20x1 : (⟨S8x64x4096x20x1, .i32⟩ : BufTy).Contents (Elt F)) :=
  ops_writesAt.reshape_at 97 V main_call4_v4 main_call4_v5 _ _ _ _ rfl (by decide) (by decide)

theorem s_main_call4_v6 (V : Valuation τ sig (Elt F)) :
    (after ops V (Proc.devRef .tc main_call4_v6) : (⟨S8x64x4096, .f32⟩ : BufTy).Contents (Elt F)) = (shapeCast S8x64x4096 (after ops V (Proc.devRef .tc main_v29) : (⟨S8x64x4096x1, .f32⟩ : BufTy).Contents (Elt F)) shapeCasts_S8x64x4096x1_S8x64x4096 : (⟨S8x64x4096, .f32⟩ : BufTy).Contents (Elt F)) :=
  ops_writesAt.reshape_at 98 V main_v29 main_call4_v6 _ _ _ _ rfl (by decide) (by decide)

theorem s_main_call4_c_1 (V : Valuation τ sig (Elt F)) :
    (after ops V (Proc.devRef .tc main_call4_c_1) : (⟨S1, .i32⟩ : BufTy).Contents (Elt F)) = ((constantI S1 32 4095#32) : (⟨S1, .i32⟩ : BufTy).Contents (Elt F)) :=
  ops_writesAt.nullary_at 99 V main_call4_c_1 _ _ rfl (by decide)

theorem s_main_call4_c_2 (V : Valuation τ sig (Elt F)) :
    (after ops V (Proc.devRef .tc main_call4_c_2) : (⟨S_, .i32⟩ : BufTy).Contents (Elt F)) = ((constantI S_ 32 0#32) : (⟨S_, .i32⟩ : BufTy).Contents (Elt F)) :=
  ops_writesAt.nullary_at 100 V main_call4_c_2 _ _ rfl (by decide)

theorem s_main_call4_v7 (V : Valuation τ sig (Elt F)) :
    (after ops V (Proc.devRef .tc main_call4_v7) : (⟨S8x64x4096x20x1, .i32⟩ : BufTy).Contents (Elt F)) = ((broadcastInDim S8x64x4096x20x1 ![] bcast_S_S8x64x4096x20x1) : (⟨S_, .i32⟩ : BufTy).Contents (Elt F) → (⟨S8x64x4096x20x1, .i32⟩ : BufTy).Contents (Elt F)) (after ops V (Proc.devRef .tc main_call4_c_2) : (⟨S_, .i32⟩ : BufTy).Contents (Elt F)) :=
  ops_writesAt.unary_at 101 V main_call4_c_2 main_call4_v7 _ _ _ rfl (by decide) (by decide)

theorem s_main_call4_v8 (V : Valuation τ sig (Elt F)) :
    (after ops V (Proc.devRef .tc main_call4_v8) : (⟨S8x64x4096x20x1, .i1⟩ : BufTy).Contents (Elt F)) = ((cmpi .sge) : (⟨S8x64x4096x20x1, .i32⟩ : BufTy).Contents (Elt F) → (⟨S8x64x4096x20x1, .i32⟩ : BufTy).Contents (Elt F) → (⟨S8x64x4096x20x1, .i1⟩ : BufTy).Contents (Elt F)) (after ops V (Proc.devRef .tc main_call4_v5) : (⟨S8x64x4096x20x1, .i32⟩ : BufTy).Contents (Elt F)) (after ops V (Proc.devRef .tc main_call4_v7) : (⟨S8x64x4096x20x1, .i32⟩ : BufTy).Contents (Elt F)) :=
  ops_writesAt.binary_at 102 V main_call4_v5 main_call4_v7 main_call4_v8 _ _ _ _ rfl (by decide) (by decide) (by decide)

theorem s_main_call4_v9 (V : Valuation τ sig (Elt F)) :
    (after ops V (Proc.devRef .tc main_call4_v9) : (⟨S1x1x1x1x1, .i32⟩ : BufTy).Contents (Elt F)) = ((broadcastInDim S1x1x1x1x1 ![4] bcast_S1_S1x1x1x1x1_4) : (⟨S1, .i32⟩ : BufTy).Contents (Elt F) → (⟨S1x1x1x1x1, .i32⟩ : BufTy).Contents (Elt F)) (after ops V (Proc.devRef .tc main_call4_c_1) : (⟨S1, .i32⟩ : BufTy).Contents (Elt F)) :=
  ops_writesAt.unary_at 103 V main_call4_c_1 main_call4_v9 _ _ _ rfl (by decide) (by decide)

theorem s_main_call4_v10 (V : Valuation τ sig (Elt F)) :
    (after ops V (Proc.devRef .tc main_call4_v10) : (⟨S8x64x4096x20x1, .i32⟩ : BufTy).Contents (Elt F)) = ((broadcastInDim S8x64x4096x20x1 ![0, 1, 2, 3, 4] bcast_S1x1x1x1x1_S8x64x4096x20x1_0_1_2_3_4) : (⟨S1x1x1x1x1, .i32⟩ : BufTy).Contents (Elt F) → (⟨S8x64x4096x20x1, .i32⟩ : BufTy).Contents (Elt F)) (after ops V (Proc.devRef .tc main_call4_v9) : (⟨S1x1x1x1x1, .i32⟩ : BufTy).Contents (Elt F)) :=
  ops_writesAt.unary_at 104 V main_call4_v9 main_call4_v10 _ _ _ rfl (by decide) (by decide)

theorem s_main_call4_v11 (V : Valuation τ sig (Elt F)) :
    (after ops V (Proc.devRef .tc main_call4_v11) : (⟨S8x64x4096x20x1, .i1⟩ : BufTy).Contents (Elt F)) = ((cmpi .sle) : (⟨S8x64x4096x20x1, .i32⟩ : BufTy).Contents (Elt F) → (⟨S8x64x4096x20x1, .i32⟩ : BufTy).Contents (Elt F) → (⟨S8x64x4096x20x1, .i1⟩ : BufTy).Contents (Elt F)) (after ops V (Proc.devRef .tc main_call4_v5) : (⟨S8x64x4096x20x1, .i32⟩ : BufTy).Contents (Elt F)) (after ops V (Proc.devRef .tc main_call4_v10) : (⟨S8x64x4096x20x1, .i32⟩ : BufTy).Contents (Elt F)) :=
  ops_writesAt.binary_at 105 V main_call4_v5 main_call4_v10 main_call4_v11 _ _ _ _ rfl (by decide) (by decide) (by decide)

theorem s_main_call4_v12 (V : Valuation τ sig (Elt F)) :
    (after ops V (Proc.devRef .tc main_call4_v12) : (⟨S8x64x4096x20x1, .i1⟩ : BufTy).Contents (Elt F)) = (andi : (⟨S8x64x4096x20x1, .i1⟩ : BufTy).Contents (Elt F) → (⟨S8x64x4096x20x1, .i1⟩ : BufTy).Contents (Elt F) → (⟨S8x64x4096x20x1, .i1⟩ : BufTy).Contents (Elt F)) (after ops V (Proc.devRef .tc main_call4_v8) : (⟨S8x64x4096x20x1, .i1⟩ : BufTy).Contents (Elt F)) (after ops V (Proc.devRef .tc main_call4_v11) : (⟨S8x64x4096x20x1, .i1⟩ : BufTy).Contents (Elt F)) :=
  ops_writesAt.binary_at 106 V main_call4_v8 main_call4_v11 main_call4_v12 _ _ _ _ rfl (by decide) (by decide) (by decide)

theorem s_main_call4_c_3 (V : Valuation τ sig (Elt F)) :
    (after ops V (Proc.devRef .tc main_call4_c_3) : (⟨S_, .i1⟩ : BufTy).Contents (Elt F)) = ((constantI S_ 1 1#1) : (⟨S_, .i1⟩ : BufTy).Contents (Elt F)) :=
  ops_writesAt.nullary_at 107 V main_call4_c_3 _ _ rfl (by decide)

-- a transport along an identity of types is the identity; the reduction itself is not opened
attribute [local irreducible] Host.reduce in
theorem s_main_call4_v13 (V : Valuation τ sig (Elt F)) :
    (after ops V (Proc.devRef .tc main_call4_v13) : (⟨S8x64x4096x20, .i1⟩ : BufTy).Contents (Elt F)) = ((fun x v => Host.reduce IntOp.andi x v reducesTo_S8x64x4096x20x1_S8x64x4096x20_d4 h_S_) : (⟨S8x64x4096x20x1, .i1⟩ : BufTy).Contents (Elt F) → (⟨S_, .i1⟩ : BufTy).Contents (Elt F) → (⟨S8x64x4096x20, .i1⟩ : BufTy).Contents (Elt F)) (after ops V (Proc.devRef .tc main_call4_v12) : (⟨S8x64x4096x20x1, .i1⟩ : BufTy).Contents (Elt F)) (after ops V (Proc.devRef .tc main_call4_c_3) : (⟨S_, .i1⟩ : BufTy).Contents (Elt F)) :=
  ops_writesAt.binary_at 108 V main_call4_v12 main_call4_c_3 main_call4_v13 _ _ _ _ rfl (by decide) (by decide) (by decide)

theorem s_main_call4_v14 (V : Valuation τ sig (Elt F)) :
    (after ops V (Proc.devRef .tc main_call4_v14) : (⟨S8x64x4096x20, .f32⟩ : BufTy).Contents (Elt F)) = ((fun x i => Host.gather gather_S8x64x4096_S8x64x4096x20x1_S8x64x4096x20_n_2_01_01_2_4_111 x i) : (⟨S8x64x4096, .f32⟩ : BufTy).Contents (Elt F) → (⟨S8x64x4096x20x1, .i32⟩ : BufTy).Contents (Elt F) → (⟨S8x64x4096x20, .f32⟩ : BufTy).Contents (Elt F)) (after ops V (Proc.devRef .tc main_call4_v6) : (⟨S8x64x4096, .f32⟩ : BufTy).Contents (Elt F)) (after ops V (Proc.devRef .tc main_call4_v5) : (⟨S8x64x4096x20x1, .i32⟩ : BufTy).Contents (Elt F)) :=
  ops_writesAt.binary_at 109 V main_call4_v6 main_call4_v5 main_call4_v14 _ _ _ _ rfl (by decide) (by decide) (by decide)

theorem s_main_call4_cst (V : Valuation τ sig (Elt F)) :
    (after ops V (Proc.devRef .tc main_call4_cst) : (⟨S_, .f32⟩ : BufTy).Contents (Elt F)) = ((constant S_ .f32 0x7FC00000#32) : (⟨S_, .f32⟩ : BufTy).Contents (Elt F)) :=
  ops_writesAt.nullary_at 110 V main_call4_cst _ _ rfl (by decide)

theorem s_main_call4_v15 (V : Valuation τ sig (Elt F)) :
    (after ops V (Proc.devRef .tc main_call4_v15) : (⟨S8x64x4096x20, .f32⟩ : BufTy).Contents (Elt F)) = ((broadcastInDim S8x64x4096x20 ![] bcast_S_S8x64x4096x20) : (⟨S_, .f32⟩ : BufTy).Contents (Elt F) → (⟨S8x64x4096x20, .f32⟩ : BufTy).Contents (Elt F)) (after ops V (Proc.devRef .tc main_call4_cst) : (⟨S_, .f32⟩ : BufTy).Contents (Elt F)) :=
  ops_writesAt.unary_at 111 V main_call4_cst main_call4_v15 _ _ _ rfl (by decide) (by decide)

theorem s_main_v30 (V : Valuation τ sig (Elt F)) :
    (after ops V (Proc.devRef .tc main_v30) : (⟨S8x64x4096x20, .f32⟩ : BufTy).Contents (Elt F)) = (select : (⟨S8x64x4096x20, .i1⟩ : BufTy).Contents (Elt F) → (⟨S8x64x4096x20, .f32⟩ : BufTy).Contents (Elt F) → (⟨S8x64x4096x20, .f32⟩ : BufTy).Contents (Elt F) → (⟨S8x64x4096x20, .f32⟩ : BufTy).Contents (Elt F)) (after ops V (Proc.devRef .tc main_call4_v13) : (⟨S8x64x4096x20, .i1⟩ : BufTy).Contents (Elt F)) (after ops V (Proc.devRef .tc main_call4_v14) : (⟨S8x64x4096x20, .f32⟩ : BufTy).Contents (Elt F)) (after ops V (Proc.devRef .tc main_call4_v15) : (⟨S8x64x4096x20, .f32⟩ : BufTy).Contents (Elt F)) :=
  ops_writesAt.ternary_at 112 V main_call4_v13 main_call4_v14 main_call4_v15 main_v30 _ _ _ _ _ rfl (by decide) (by decide) (by decide) (by decide)

theorem s_main_cst_3 (V : Valuation τ sig (Elt F)) :
    (after ops V (Proc.devRef .tc main_cst_3) : (⟨S_, .f32⟩ : BufTy).Contents (Elt F)) = ((constant S_ .f32 0xFF800000#32) : (⟨S_, .f32⟩ : BufTy).Contents (Elt F)) :=
  ops_writesAt.nullary_at 113 V main_cst_3 _ _ rfl (by decide)

theorem s_main_v31 (V : Valuation τ sig (Elt F)) :
    (after ops V (Proc.devRef .tc main_v31) : (⟨S8x64x4096, .f32⟩ : BufTy).Contents (Elt F)) = ((fun x v => Host.reduce FloatOps.maximumf x v reducesTo_S8x64x4096x20_S8x64x4096_d3 h_S_) : (⟨S8x64x4096x20, .f32⟩ : BufTy).Contents (Elt F) → (⟨S_, .f32⟩ : BufTy).Contents (Elt F) → (⟨S8x64x4096, .f32⟩ : BufTy).Contents (Elt F)) (after ops V (Proc.devRef .tc main_v30) : (⟨S8x64x4096x20, .f32⟩ : BufTy).Contents (Elt F)) (after ops V (Proc.devRef .tc main_cst_3) : (⟨S_, .f32⟩ : BufTy).Contents (Elt F)) :=
  ops_writesAt.binary_at 114 V main_v30 main_cst_3 main_v31 _ _ _ _ rfl (by decide) (by decide) (by decide)

theorem s_main_v32 (V : Valuation τ sig (Elt F)) :
    (after ops V (Proc.devRef .tc main_v32) : (⟨S8x4096x128, .f32⟩ : BufTy).Contents (Elt F)) = ((fun l r => Host.dotGeneral dot_S8x64x4096_S128x64_S8x4096x128_1_1_02_0_n_n none l r) : (⟨S8x64x4096, .f32⟩ : BufTy).Contents (Elt F) → (⟨S128x64, .f32⟩ : BufTy).Contents (Elt F) → (⟨S8x4096x128, .f32⟩ : BufTy).Contents (Elt F)) (after ops V (Proc.devRef .tc main_v31) : (⟨S8x64x4096, .f32⟩ : BufTy).Contents (Elt F)) (after ops V (Proc.devRef .tc main_arg6) : (⟨S128x64, .f32⟩ : BufTy).Contents (Elt F)) :=
  ops_writesAt.binary_at 115 V main_v31 main_arg6 main_v32 _ _ _ _ rfl (by decide) (by decide) (by decide)

theorem s_main_v33 (V : Valuation τ sig (Elt F)) :
    (after ops V (Proc.devRef .tc main_v33) : (⟨S8x128x4096, .f32⟩ : BufTy).Contents (Elt F)) = ((transpose S8x128x4096 [0, 2, 1] · transposes_S8x4096x128_S8x128x4096_0_2_1) : (⟨S8x4096x128, .f32⟩ : BufTy).Contents (Elt F) → (⟨S8x128x4096, .f32⟩ : BufTy).Contents (Elt F)) (after ops V (Proc.devRef .tc main_v32) : (⟨S8x4096x128, .f32⟩ : BufTy).Contents (Elt F)) :=
  ops_writesAt.unary_at 116 V main_v32 main_v33 _ _ _ rfl (by decide) (by decide)

theorem s_main_v34 (V : Valuation τ sig (Elt F)) :
    (after ops V (Proc.devRef .tc main_v34) : (⟨S1x128x1, .f32⟩ : BufTy).Contents (Elt F)) = (broadcastInDim S1x128x1 ![1] bcast_S128_S1x128x1_1 : (⟨S128, .f32⟩ : BufTy).Contents (Elt F) → (⟨S1x128x1, .f32⟩ : BufTy).Contents (Elt F)) (after ops V (Proc.devRef .tc main_arg7) : (⟨S128, .f32⟩ : BufTy).Contents (Elt F)) :=
  ops_writesAt.unary_at 117 V main_arg7 main_v34 _ _ _ rfl (by decide) (by decide)

theorem s_main_v35 (V : Valuation τ sig (Elt F)) :
    (after ops V (Proc.devRef .tc main_v35) : (⟨S8x128x4096, .f32⟩ : BufTy).Contents (Elt F)) = (broadcastInDim S8x128x4096 ![0, 1, 2] bcast_S1x128x1_S8x128x4096_0_1_2 : (⟨S1x128x1, .f32⟩ : BufTy).Contents (Elt F) → (⟨S8x128x4096, .f32⟩ : BufTy).Contents (Elt F)) (after ops V (Proc.devRef .tc main_v34) : (⟨S1x128x1, .f32⟩ : BufTy).Contents (Elt F)) :=
  ops_writesAt.unary_at 118 V main_v34 main_v35 _ _ _ rfl (by decide) (by decide)

theorem s_main_v36 (V : Valuation τ sig (Elt F)) :
    (after ops V (Proc.devRef .tc main_v36) : (⟨S8x128x4096, .f32⟩ : BufTy).Contents (Elt F)) = (addf : (⟨S8x128x4096, .f32⟩ : BufTy).Contents (Elt F) → (⟨S8x128x4096, .f32⟩ : BufTy).Contents (Elt F) → (⟨S8x128x4096, .f32⟩ : BufTy).Contents (Elt F)) (after ops V (Proc.devRef .tc main_v33) : (⟨S8x128x4096, .f32⟩ : BufTy).Contents (Elt F)) (after ops V (Proc.devRef .tc main_v35) : (⟨S8x128x4096, .f32⟩ : BufTy).Contents (Elt F)) :=
  ops_writesAt.binary_at 119 V main_v33 main_v35 main_v36 _ _ _ _ rfl (by decide) (by decide) (by decide)

theorem s_main_cst_4 (V : Valuation τ sig (Elt F)) :
    (after ops V (Proc.devRef .tc main_cst_4) : (⟨S_, .f32⟩ : BufTy).Contents (Elt F)) = ((constant S_ .f32 0x3E4CCCCD#32) : (⟨S_, .f32⟩ : BufTy).Contents (Elt F)) :=
  ops_writesAt.nullary_at 120 V main_cst_4 _ _ rfl (by decide)

theorem s_main_call5_cst (V : Valuation τ sig (Elt F)) :
    (after ops V (Proc.devRef .tc main_call5_cst) : (⟨S_, .f32⟩ : BufTy).Contents (Elt F)) = ((constant S_ .f32 0x00000000#32) : (⟨S_, .f32⟩ : BufTy).Contents (Elt F)) :=
  ops_writesAt.nullary_at 121 V main_call5_cst _ _ rfl (by decide)

theorem s_main_call5_v0 (V : Valuation τ sig (Elt F)) :
    (after ops V (Proc.devRef .tc main_call5_v0) : (⟨S8x128x4096, .f32⟩ : BufTy).Contents (Elt F)) = ((broadcastInDim S8x128x4096 ![] bcast_S_S8x128x4096) : (⟨S_, .f32⟩ : BufTy).Contents (Elt F) → (⟨S8x128x4096, .f32⟩ : BufTy).Contents (Elt F)) (after ops V (Proc.devRef .tc main_call5_cst) : (⟨S_, .f32⟩ : BufTy).Contents (Elt F)) :=
  ops_writesAt.unary_at 122 V main_call5_cst main_call5_v0 _ _ _ rfl (by decide) (by decide)

theorem s_main_call5_v1 (V : Valuation τ sig (Elt F)) :
    (after ops V (Proc.devRef .tc main_call5_v1) : (⟨S8x128x4096, .i1⟩ : BufTy).Contents (Elt F)) = ((cmpf .oge) : (⟨S8x128x4096, .f32⟩ : BufTy).Contents (Elt F) → (⟨S8x128x4096, .f32⟩ : BufTy).Contents (Elt F) → (⟨S8x128x4096, .i1⟩ : BufTy).Contents (Elt F)) (after ops V (Proc.devRef .tc main_v36) : (⟨S8x128x4096, .f32⟩ : BufTy).Contents (Elt F)) (after ops V (Proc.devRef .tc main_call5_v0) : (⟨S8x128x4096, .f32⟩ : BufTy).Contents (Elt F)) :=
  ops_writesAt.binary_at 123 V main_v36 main_call5_v0 main_call5_v1 _ _ _ _ rfl (by decide) (by decide) (by decide)

theorem s_main_call5_v2 (V : Valuation τ sig (Elt F)) :
    (after ops V (Proc.devRef .tc main_call5_v2) : (⟨S_, .f32⟩ : BufTy).Contents (Elt F)) = (id : (⟨S_, .f32⟩ : BufTy).Contents (Elt F) → (⟨S_, .f32⟩ : BufTy).Contents (Elt F)) (after ops V (Proc.devRef .tc main_cst_4) : (⟨S_, .f32⟩ : BufTy).Contents (Elt F)) :=
  ops_writesAt.unary_at 124 V main_cst_4 main_call5_v2 _ _ _ rfl (by decide) (by decide)

theorem s_main_call5_v3 (V : Valuation τ sig (Elt F)) :
    (after ops V (Proc.devRef .tc main_call5_v3) : (⟨S8x128x4096, .f32⟩ : BufTy).Contents (Elt F)) = ((broadcastInDim S8x128x4096 ![] bcast_S_S8x128x4096) : (⟨S_, .f32⟩ : BufTy).Contents (Elt F) → (⟨S8x128x4096, .f32⟩ : BufTy).Contents (Elt F)) (after ops V (Proc.devRef .tc main_call5_v2) : (⟨S_, .f32⟩ : BufTy).Contents (Elt F)) :=
  ops_writesAt.unary_at 125 V main_call5_v2 main_call5_v3 _ _ _ rfl (by decide) (by decide)

theorem s_main_call5_v4 (V : Valuation τ sig (Elt F)) :
    (after ops V (Proc.devRef .tc main_call5_v4) : (⟨S8x128x4096, .f32⟩ : BufTy).Contents (Elt F)) = (mulf : (⟨S8x128x4096, .f32⟩ : BufTy).Contents (Elt F) → (⟨S8x128x4096, .f32⟩ : BufTy).Contents (Elt F) → (⟨S8x128x4096, .f32⟩ : BufTy).Contents (Elt F)) (after ops V (Proc.devRef .tc main_call5_v3) : (⟨S8x128x4096, .f32⟩ : BufTy).Contents (Elt F)) (after ops V (Proc.devRef .tc main_v36) : (⟨S8x128x4096, .f32⟩ : BufTy).Contents (Elt F)) :=
  ops_writesAt.binary_at 126 V main_call5_v3 main_v36 main_call5_v4 _ _ _ _ rfl (by decide) (by decide) (by decide)

theorem s_main_v37 (V : Valuation τ sig (Elt F)) :
    (after ops V (Proc.devRef .tc main_v37) : (⟨S8x128x4096, .f32⟩ : BufTy).Contents (Elt F)) = (select : (⟨S8x128x4096, .i1⟩ : BufTy).Contents (Elt F) → (⟨S8x128x4096, .f32⟩ : BufTy).Contents (Elt F) → (⟨S8x128x4096, .f32⟩ : BufTy).Contents (Elt F) → (⟨S8x128x4096, .f32⟩ : BufTy).Contents (Elt F)) (after ops V (Proc.devRef .tc main_call5_v1) : (⟨S8x128x4096, .i1⟩ : BufTy).Contents (Elt F)) (after ops V (Proc.devRef .tc main_v36) : (⟨S8x128x4096, .f32⟩ : BufTy).Contents (Elt F)) (after ops V (Proc.devRef .tc main_call5_v4) : (⟨S8x128x4096, .f32⟩ : BufTy).Contents (Elt F)) :=
  ops_writesAt.ternary_at 127 V main_call5_v1 main_v36 main_call5_v4 main_v37 _ _ _ _ _ rfl (by decide) (by decide) (by decide) (by decide)

theorem s_main_v38 (V : Valuation τ sig (Elt F)) :
    (after ops V (Proc.devRef .tc main_v38) : (⟨S8x256x4096, .f32⟩ : BufTy).Contents (Elt F)) = (concatenate S8x256x4096 1 [⟨S8x64x4096, (after ops V (Proc.devRef .tc main_v15) : (⟨S8x64x4096, .f32⟩ : BufTy).Contents (Elt F))⟩, ⟨S8x64x4096, (after ops V (Proc.devRef .tc main_v26) : (⟨S8x64x4096, .f32⟩ : BufTy).Contents (Elt F))⟩, ⟨S8x128x4096, (after ops V (Proc.devRef .tc main_v37) : (⟨S8x128x4096, .f32⟩ : BufTy).Contents (Elt F))⟩] concatenates_S8x64x4096_S8x64x4096_S8x128x4096_S8x256x4096_d1 : (⟨S8x256x4096, .f32⟩ : BufTy).Contents (Elt F)) :=
  ops_writesAt.nary_at 128 V ![main_v15, main_v26, main_v37] main_v38 _ _ _ rfl (by decide) (by decide)

theorem s_main_v39 (V : Valuation τ sig (Elt F)) :
    (after ops V (Proc.devRef .tc main_v39) : (⟨S8x4096x512, .f32⟩ : BufTy).Contents (Elt F)) = ((fun l r => Host.dotGeneral dot_S8x256x4096_S512x256_S8x4096x512_1_1_02_0_n_n none l r) : (⟨S8x256x4096, .f32⟩ : BufTy).Contents (Elt F) → (⟨S512x256, .f32⟩ : BufTy).Contents (Elt F) → (⟨S8x4096x512, .f32⟩ : BufTy).Contents (Elt F)) (after ops V (Proc.devRef .tc main_v38) : (⟨S8x256x4096, .f32⟩ : BufTy).Contents (Elt F)) (after ops V (Proc.devRef .tc main_arg8) : (⟨S512x256, .f32⟩ : BufTy).Contents (Elt F)) :=
  ops_writesAt.binary_at 129 V main_v38 main_arg8 main_v39 _ _ _ _ rfl (by decide) (by decide) (by decide)

theorem s_main_v40 (V : Valuation τ sig (Elt F)) :
    (after ops V (Proc.devRef .tc main_v40) : (⟨S8x512x4096, .f32⟩ : BufTy).Contents (Elt F)) = ((transpose S8x512x4096 [0, 2, 1] · transposes_S8x4096x512_S8x512x4096_0_2_1) : (⟨S8x4096x512, .f32⟩ : BufTy).Contents (Elt F) → (⟨S8x512x4096, .f32⟩ : BufTy).Contents (Elt F)) (after ops V (Proc.devRef .tc main_v39) : (⟨S8x4096x512, .f32⟩ : BufTy).Contents (Elt F)) :=
  ops_writesAt.unary_at 130 V main_v39 main_v40 _ _ _ rfl (by decide) (by decide)

theorem s_main_v41 (V : Valuation τ sig (Elt F)) :
    (after ops V (Proc.devRef .tc main_v41) : (⟨S1x512x1, .f32⟩ : BufTy).Contents (Elt F)) = (broadcastInDim S1x512x1 ![1] bcast_S512_S1x512x1_1 : (⟨S512, .f32⟩ : BufTy).Contents (Elt F) → (⟨S1x512x1, .f32⟩ : BufTy).Contents (Elt F)) (after ops V (Proc.devRef .tc main_arg9) : (⟨S512, .f32⟩ : BufTy).Contents (Elt F)) :=
  ops_writesAt.unary_at 131 V main_arg9 main_v41 _ _ _ rfl (by decide) (by decide)

theorem s_main_v42 (V : Valuation τ sig (Elt F)) :
    (after ops V (Proc.devRef .tc main_v42) : (⟨S8x512x4096, .f32⟩ : BufTy).Contents (Elt F)) = (broadcastInDim S8x512x4096 ![0, 1, 2] bcast_S1x512x1_S8x512x4096_0_1_2 : (⟨S1x512x1, .f32⟩ : BufTy).Contents (Elt F) → (⟨S8x512x4096, .f32⟩ : BufTy).Contents (Elt F)) (after ops V (Proc.devRef .tc main_v41) : (⟨S1x512x1, .f32⟩ : BufTy).Contents (Elt F)) :=
  ops_writesAt.unary_at 132 V main_v41 main_v42 _ _ _ rfl (by decide) (by decide)

theorem s_main_v43 (V : Valuation τ sig (Elt F)) :
    (after ops V (Proc.devRef .tc main_v43) : (⟨S8x512x4096, .f32⟩ : BufTy).Contents (Elt F)) = (addf : (⟨S8x512x4096, .f32⟩ : BufTy).Contents (Elt F) → (⟨S8x512x4096, .f32⟩ : BufTy).Contents (Elt F) → (⟨S8x512x4096, .f32⟩ : BufTy).Contents (Elt F)) (after ops V (Proc.devRef .tc main_v40) : (⟨S8x512x4096, .f32⟩ : BufTy).Contents (Elt F)) (after ops V (Proc.devRef .tc main_v42) : (⟨S8x512x4096, .f32⟩ : BufTy).Contents (Elt F)) :=
  ops_writesAt.binary_at 133 V main_v40 main_v42 main_v43 _ _ _ _ rfl (by decide) (by decide) (by decide)

theorem s_main_cst_5 (V : Valuation τ sig (Elt F)) :
    (after ops V (Proc.devRef .tc main_cst_5) : (⟨S_, .f32⟩ : BufTy).Contents (Elt F)) = ((constant S_ .f32 0xFF800000#32) : (⟨S_, .f32⟩ : BufTy).Contents (Elt F)) :=
  ops_writesAt.nullary_at 134 V main_cst_5 _ _ rfl (by decide)

theorem s_main_v44 (V : Valuation τ sig (Elt F)) :
    (after ops V (Proc.devRef .tc main_v44) : (⟨S8x512, .f32⟩ : BufTy).Contents (Elt F)) = ((fun x v => Host.reduce FloatOps.maximumf x v reducesTo_S8x512x4096_S8x512_d2 h_S_) : (⟨S8x512x4096, .f32⟩ : BufTy).Contents (Elt F) → (⟨S_, .f32⟩ : BufTy).Contents (Elt F) → (⟨S8x512, .f32⟩ : BufTy).Contents (Elt F)) (after ops V (Proc.devRef .tc main_v43) : (⟨S8x512x4096, .f32⟩ : BufTy).Contents (Elt F)) (after ops V (Proc.devRef .tc main_cst_5) : (⟨S_, .f32⟩ : BufTy).Contents (Elt F)) :=
  ops_writesAt.binary_at 135 V main_v43 main_cst_5 main_v44 _ _ _ _ rfl (by decide) (by decide) (by decide)

end Cert.ReferenceIdeal.RefSteps

end
-- ==== Proof.RefLemmas.lean ====
/-
  The reference's host operations READ AT AN INDEX, over variable arrays of any extents: what each operation of the
  point-cloud network's plain formulation computes at one coordinate tuple, free of the row-major folds, dimension-number
  records and word comparisons its definition goes through.

  * A gather along the point axis of a [B, C, N] array with the two leading axes batching reads the operand at the
    start index, signed and clamped (gather_tad_apply); with a word below 4096 the clamp and the sign are the
    identity (Words). The whole call "take along the point axis" — normalise a negative index, give it a trailing
    unit axis, test 0 ≤ · ≤ 4095, gather, select against a fill — is then the operand at the word's point
    (takeAlong, takeAlong_read).
  * A maximum over one axis from the initial value -∞ is the supremum over that axis's coordinates
    (reduce_max_single; at the last axis of a rank-3 or rank-4 array reduce_max_last3 / reduce_max_last4).
  * The rectifier "v where v ≥ 0, else s · v" spelt as compare, multiply, select is Spec.lreluR (lrelu_scalar).
  * A contraction of the channel axis of a [B, C, N] (or [B, C, N, K]) array with the second axis of an [O, C]
    matrix is the sum over the channels of the products (dot3_apply, dot4_apply).
  * Layout: the permutation [0, 3, 1, 2]; a bias vector laid along the channel axis; the neighbour lists laid over
    the channels; a trailing unit axis added and spread over the neighbours.
-/
import Mathlib.Data.Fintype.Lattice
import Idealize.ShloMosaic.PureOps.Ideal.Laws
import Idealize.ShloMosaic.Lib.ValueIdx
import Idealize.ShloMosaic.Lib.ValueLayout
import Idealize.ShloMosaic.Lib.StableHlo.Predicate
import proofs.«209975_g17849884082380_cont_8to1_1483_11_alg».proof.Proof.Spec

noncomputable section

namespace Cert.RefLemmas

open Idealize.ShloMosaic Idealize.ShloMosaic.ValueIdx Idealize.ShloMosaic.StableHlo.Predicate
open scoped BigOperators

section Gather
variable {α : Type}

/-- Dimension numbers of a gather along the third axis of a rank-3 operand, the first two axes batching. -/
abbrev tadDims (B C N K : Nat)
    (wf : GatherDims.WF ⟨3, ![B, C, N]⟩ ⟨5, ![B, C, N, K, 1]⟩ ⟨4, ![B, C, N, K]⟩ [] [2] [0, 1] [2] [0, 1] 4 ![1, 1, 1]) :
    GatherDims ⟨3, ![B, C, N]⟩ ⟨5, ![B, C, N, K, 1]⟩ ⟨4, ![B, C, N, K]⟩ where
  offsetDims := []
  collapsedSliceDims := [2]
  operandBatchingDims := [0, 1]
  startIndicesBatchingDims := [0, 1]
  startIndexMap := [2]
  indexVectorDim := 4
  sliceSizes := ![1, 1, 1]
  wf := wf

theorem gather_tad_apply {B C N K w : Nat} (hN : 0 < N)
    (wf : GatherDims.WF ⟨3, ![B, C, N]⟩ ⟨5, ![B, C, N, K, 1]⟩ ⟨4, ![B, C, N, K]⟩ [] [2] [0, 1] [2] [0, 1] 4 ![1, 1, 1])
    (x : (⟨3, ![B, C, N]⟩ : Shape).Idx → α) (idx : IVec ⟨5, ![B, C, N, K, 1]⟩ w)
    (b : Fin B) (c : Fin C) (n : Fin N) (k : Fin K) :
    Host.gather (tadDims B C N K wf) x idx (ix4 b c n k)
      = x (ix3 b c ⟨min (idx (ix5 b c n k (0 : Fin 1))).toInt.toNat (N - 1), by omega⟩) := by
  unfold Host.gather
  congr 1
  funext a
  refine Fin.ext ?_
  show (tadDims B C N K wf).start (ix4 b c n k) idx a + (tadDims B C N K wf).batchCoord (ix4 b c n k) a
    + (tadDims B C N K wf).offCoord (ix4 b c n k) a = _
  match a with
  | ⟨0, _⟩ =>
    have hm : (⟨0, by decide⟩ : Fin 3) ∈ (tadDims B C N K wf).operandBatchingDims := List.Mem.head _
    rw [GatherDims.start_batching _ _ _ _ hm,
      GatherDims.offCoord_eq_zero _ _ _ (fun h => ((GatherDims.mem_sKept _ _).mp h).2 hm), Nat.zero_add, Nat.add_zero]
    rfl
  | ⟨1, _⟩ =>
    have hm : (⟨1, by decide⟩ : Fin 3) ∈ (tadDims B C N K wf).operandBatchingDims := List.Mem.tail _ (List.Mem.head _)
    rw [GatherDims.start_batching _ _ _ _ hm,
      GatherDims.offCoord_eq_zero _ _ _ (fun h => ((GatherDims.mem_sKept _ _).mp h).2 hm), Nat.zero_add, Nat.add_zero]
    rfl
  | ⟨2, _⟩ =>
    have hnb : (⟨2, by decide⟩ : Fin 3) ∉ (tadDims B C N K wf).operandBatchingDims :=
      show (2 : Fin 3) ∉ ([0, 1] : List (Fin 3)) from by decide
    have hc : (⟨2, by decide⟩ : Fin 3) ∈ (tadDims B C N K wf).collapsedSliceDims := List.Mem.head _
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos (show (⟨2, by decide⟩ : Fin 3) ∈ (tadDims B C N K wf).startIndexMap from List.mem_singleton.mpr rfl)]
    have hsi : (tadDims B C N K wf).siIdx (ix4 b c n k) ⟨List.idxOf (⟨2, by decide⟩ : Fin 3) (tadDims B C N K wf).startIndexMap,
        List.idxOf_lt_length_iff.2 (List.mem_singleton.mpr rfl)⟩ = ix5 b c n k (0 : Fin 1) := by
      funext d; refine Fin.ext ?_
      match d with
      | ⟨0, _⟩ => rfl
      | ⟨1, _⟩ => rfl
      | ⟨2, _⟩ => rfl
      | ⟨3, _⟩ => rfl
      | ⟨4, _⟩ => rfl
    rw [hsi]
    rfl

end Gather

section Words

theorem slt_zero_of_lt (w : BitVec 32) (hw : w.toNat < 4096) : IntOp.cmpi .slt w 0#32 = 0#1 :=
  eq_zero_of_ne_one fun h => by
    have := (slt_iff_toNat (a := w) (b := 0#32) (by omega) (by decide)).mp h
    simp at this

theorem sge_zero_of_lt (w : BitVec 32) (hw : w.toNat < 4096) : IntOp.cmpi .sge w 0#32 = 1#1 :=
  (sge_iff_toNat (a := w) (b := 0#32) (by omega) (by decide)).mpr (by simp)

theorem sle_4095_of_lt (w : BitVec 32) (hw : w.toNat < 4096) : IntOp.cmpi .sle w 4095#32 = 1#1 :=
  (sle_iff_toNat (a := w) (b := 4095#32) (by omega) (by decide)).mpr (by
    show w.toNat ≤ 4095; omega)

theorem clamp_of_lt (w : BitVec 32) (hw : w.toNat < 4096) : min w.toInt.toNat (4096 - 1) = w.toNat := by
  rw [toInt_eq_toNat_of_lt (a := w) (by omega), Int.toNat_natCast]
  omega

end Words

section TakeAlong

/-- The source index over a rank-4 index with the trailing unit coordinate put back. -/
theorem lift5_last {B C N K : Nat} (h : (⟨5, ![B, C, N, K, 1]⟩ : Shape).Reduces [4] ⟨4, ![B, C, N, K]⟩)
    (b : Fin B) (c : Fin C) (n : Fin N) (k : Fin K) (u : Fin 1) :
    h.lift (ix4 b c n k) u = ix5 b c n k (0 : Fin 1) := by
  funext a; refine Fin.ext ?_
  show h.liftVal (ix4 b c n k) u.val a = _
  match a with
  | ⟨0, _⟩ => rfl
  | ⟨1, _⟩ => rfl
  | ⟨2, _⟩ => rfl
  | ⟨3, _⟩ => rfl
  | ⟨4, _⟩ => show u.val = 0; omega

theorem fold_fin_one {β : Type} (op : β → β → β) [Std.Commutative op] [Std.Associative op] (b : β) (f : Fin 1 → β) :
    (Finset.univ : Finset (Fin 1)).fold op b f = op (f 0) b := by
  rw [show (Finset.univ : Finset (Fin 1)) = {0} from by decide, Finset.fold_singleton]

/-- A conjunction over a trailing unit axis is the one entry (joined with the initial bit). -/
theorem reduce_and_unit5 {B C N K : Nat} (m : IVec ⟨5, ![B, C, N, K, 1]⟩ 1) (init : IVec ⟨0, ![]⟩ 1)
    (h' : (⟨5, ![B, C, N, K, 1]⟩ : Shape).ReducesTo [4] ⟨4, ![B, C, N, K]⟩)
    (h : (⟨5, ![B, C, N, K, 1]⟩ : Shape).Reduces [4] ⟨4, ![B, C, N, K]⟩) (hu : 0 < (⟨0, ![]⟩ : Shape).numel)
    (b : Fin B) (c : Fin C) (n : Fin N) (k : Fin K) :
    Host.reduce IntOp.andi m init h' hu (ix4 b c n k)
      = IntOp.andi (m (ix5 b c n k (0 : Fin 1))) (init (Shape.Idx.first hu)) := by
  rw [Host.reduce_eq_fold_single IntOp.andi m init h' h hu (ix4 b c n k)]
  refine (fold_fin_one IntOp.andi (init (Shape.Idx.first hu)) (fun u : Fin 1 => m (h.lift (ix4 b c n k) u))).trans ?_
  exact congrArg (fun i => IntOp.andi (m i) (init (Shape.Idx.first hu))) (lift5_last h b c n k (0 : Fin 1))

/-- The shape facts one call of the gather along the points takes. -/
structure TakeFacts (B C K : Nat) : Prop where
  b0 : (⟨0, ![]⟩ : Shape).BroadcastsInDim ⟨4, ![B, C, 4096, K]⟩ (![] : Fin 0 → Fin 4)
  sc45 : (⟨4, ![B, C, 4096, K]⟩ : Shape).ShapeCasts ⟨5, ![B, C, 4096, K, 1]⟩
  sc43 : (⟨4, ![B, C, 4096, 1]⟩ : Shape).ShapeCasts ⟨3, ![B, C, 4096]⟩
  b05 : (⟨0, ![]⟩ : Shape).BroadcastsInDim ⟨5, ![B, C, 4096, K, 1]⟩ (![] : Fin 0 → Fin 5)
  b11 : (⟨1, ![1]⟩ : Shape).BroadcastsInDim ⟨5, ![1, 1, 1, 1, 1]⟩ (![4] : Fin 1 → Fin 5)
  b15 : (⟨5, ![1, 1, 1, 1, 1]⟩ : Shape).BroadcastsInDim ⟨5, ![B, C, 4096, K, 1]⟩ (![0, 1, 2, 3, 4] : Fin 5 → Fin 5)
  red : (⟨5, ![B, C, 4096, K, 1]⟩ : Shape).ReducesTo [4] ⟨4, ![B, C, 4096, K]⟩
  red' : (⟨5, ![B, C, 4096, K, 1]⟩ : Shape).Reduces [4] ⟨4, ![B, C, 4096, K]⟩
  hS : 0 < (⟨0, ![]⟩ : Shape).numel
  wf : GatherDims.WF ⟨3, ![B, C, 4096]⟩ ⟨5, ![B, C, 4096, K, 1]⟩ ⟨4, ![B, C, 4096, K]⟩ [] [2] [0, 1] [2] [0, 1] 4 ![1, 1, 1]

variable {α : Type} {B C K : Nat}

/-- The index array of one call, normalised: a negative word moved up by the axis length. -/
def normIdx (f : TakeFacts B C K) (idx : IVec ⟨4, ![B, C, 4096, K]⟩ 32) : IVec ⟨4, ![B, C, 4096, K]⟩ 32 :=
  select (cmpi .slt idx (broadcastInDim ⟨4, ![B, C, 4096, K]⟩ ![] f.b0 (constantI ⟨0, ![]⟩ 32 0#32)))
    (addi idx (broadcastInDim ⟨4, ![B, C, 4096, K]⟩ ![] f.b0 (constantI ⟨0, ![]⟩ 32 4096#32))) idx

/-- The in-range test of one call over the start indices: 0 ≤ · ≤ 4095, joined over the trailing unit axis. -/
def inRange (f : TakeFacts B C K) (i5 : IVec ⟨5, ![B, C, 4096, K, 1]⟩ 32) : IVec ⟨4, ![B, C, 4096, K]⟩ 1 :=
  Host.reduce IntOp.andi
    (andi (cmpi .sge i5 (broadcastInDim ⟨5, ![B, C, 4096, K, 1]⟩ ![] f.b05 (constantI ⟨0, ![]⟩ 32 0#32)))
      (cmpi .sle i5 (broadcastInDim ⟨5, ![B, C, 4096, K, 1]⟩ ![0, 1, 2, 3, 4] f.b15
        (broadcastInDim ⟨5, ![1, 1, 1, 1, 1]⟩ ![4] f.b11 (constantI ⟨1, ![1]⟩ 32 4095#32)))))
    (constantI ⟨0, ![]⟩ 1 1#1) f.red f.hS

/-- One call of the gather along the points: the operand with its trailing unit axis, the index array, the fill. -/
def takeAlong (f : TakeFacts B C K) (x : (⟨4, ![B, C, 4096, 1]⟩ : Shape).Idx → α) (idx : IVec ⟨4, ![B, C, 4096, K]⟩ 32)
    (fill : (⟨4, ![B, C, 4096, K]⟩ : Shape).Idx → α) : (⟨4, ![B, C, 4096, K]⟩ : Shape).Idx → α :=
  select (inRange f (shapeCast ⟨5, ![B, C, 4096, K, 1]⟩ (normIdx f idx) f.sc45))
    (Host.gather (tadDims B C 4096 K f.wf) (shapeCast ⟨3, ![B, C, 4096]⟩ x f.sc43)
      (shapeCast ⟨5, ![B, C, 4096, K, 1]⟩ (normIdx f idx) f.sc45)) fill

theorem normIdx_read (f : TakeFacts B C K) (idx : IVec ⟨4, ![B, C, 4096, K]⟩ 32)
    (b : Fin B) (c : Fin C) (n : Fin 4096) (k : Fin K) (hw : (idx (ix4 b c n k)).toNat < 4096) :
    normIdx f idx (ix4 b c n k) = idx (ix4 b c n k) := by
  show Scalar.select (IntOp.cmpi .slt (idx (ix4 b c n k)) (broadcastInDim _ ![] f.b0 (constantI ⟨0, ![]⟩ 32 0#32) (ix4 b c n k)))
    _ (idx (ix4 b c n k)) = _
  rw [bcast_scalar f.b0 f.hS]
  show Scalar.select (IntOp.cmpi .slt (idx (ix4 b c n k)) 0#32) _ _ = _
  rw [slt_zero_of_lt _ hw, select_zero]

theorem start_read (f : TakeFacts B C K) (idx : IVec ⟨4, ![B, C, 4096, K]⟩ 32)
    (b : Fin B) (c : Fin C) (n : Fin 4096) (k : Fin K) (hw : (idx (ix4 b c n k)).toNat < 4096) :
    shapeCast ⟨5, ![B, C, 4096, K, 1]⟩ (normIdx f idx) f.sc45 (ix5 b c n k (0 : Fin 1)) = idx (ix4 b c n k) := by
  refine (shapeCast_apply (normIdx f idx) f.sc45 (ix5 b c n k (0 : Fin 1)) (ix4 b c n k) ?_).trans (normIdx_read f idx b c n k hw)
  rw [Shape.rowMajor_val_four, Shape.rowMajor_val_five]
  show ((b.val * C + c.val) * 4096 + n.val) * K + k.val = (((b.val * C + c.val) * 4096 + n.val) * K + k.val) * 1 + 0
  omega

theorem inRange_read (f : TakeFacts B C K) (i5 : IVec ⟨5, ![B, C, 4096, K, 1]⟩ 32)
    (b : Fin B) (c : Fin C) (n : Fin 4096) (k : Fin K) (hw : (i5 (ix5 b c n k (0 : Fin 1))).toNat < 4096) :
    inRange f i5 (ix4 b c n k) = 1#1 := by
  unfold inRange
  rw [reduce_and_unit5 _ _ f.red f.red' f.hS b c n k]
  show IntOp.andi (IntOp.andi (IntOp.cmpi .sge (i5 (ix5 b c n k 0)) (broadcastInDim _ ![] f.b05 (constantI ⟨0, ![]⟩ 32 0#32) (ix5 b c n k 0)))
    (IntOp.cmpi .sle (i5 (ix5 b c n k 0)) (broadcastInDim _ ![0, 1, 2, 3, 4] f.b15
        (broadcastInDim ⟨5, ![1, 1, 1, 1, 1]⟩ ![4] f.b11 (constantI ⟨1, ![1]⟩ 32 4095#32)) (ix5 b c n k 0)))) 1#1 = 1#1
  rw [bcast_scalar f.b05 f.hS]
  show IntOp.andi (IntOp.andi (IntOp.cmpi .sge (i5 (ix5 b c n k 0)) 0#32) (IntOp.cmpi .sle (i5 (ix5 b c n k 0)) 4095#32)) 1#1 = 1#1
  rw [sge_zero_of_lt _ hw, sle_4095_of_lt _ hw]
  decide

/-- THE CALL READ AT AN INDEX: with the index word below 4096 the result is the operand at that point. -/
theorem takeAlong_read (f : TakeFacts B C K) (x : (⟨4, ![B, C, 4096, 1]⟩ : Shape).Idx → α) (idx : IVec ⟨4, ![B, C, 4096, K]⟩ 32)
    (fill : (⟨4, ![B, C, 4096, K]⟩ : Shape).Idx → α)
    (b : Fin B) (c : Fin C) (n : Fin 4096) (k : Fin K) (hw : (idx (ix4 b c n k)).toNat < 4096) :
    takeAlong f x idx fill (ix4 b c n k) = x (ix4 b c ⟨(idx (ix4 b c n k)).toNat, hw⟩ (0 : Fin 1)) := by
  have e5 := start_read f idx b c n k hw
  unfold takeAlong
  rw [select_apply, inRange_read f _ b c n k (by rw [e5]; exact hw), select_one,
    gather_tad_apply (by decide) f.wf _ _ b c n k]
  refine (shapeCast_apply x f.sc43 _ (ix4 b c ⟨(idx (ix4 b c n k)).toNat, hw⟩ (0 : Fin 1)) ?_).trans rfl
  rw [Shape.rowMajor_val_four, Shape.rowMajor_val_three]
  show ((b.val * C + c.val) * 4096 + (idx (ix4 b c n k)).toNat) * 1 + 0
    = (b.val * C + c.val) * 4096 + min (shapeCast ⟨5, ![B, C, 4096, K, 1]⟩ (normIdx f idx) f.sc45 (ix5 b c n k (0 : Fin 1))).toInt.toNat (4096 - 1)
  rw [e5, clamp_of_lt _ hw]
  omega

end TakeAlong

section Reduce

theorem ofBits_neg_inf : Ideal.ofBits .f32 0xFF800000#32 = (⊥ : EReal) := by
  simp [Ideal.ofBits, Ideal.ieee]

theorem fold_max_bot_eq_iSup {n : Nat} (f : Fin n → EReal) :
    (Finset.univ : Finset (Fin n)).fold max ⊥ f = ⨆ k, f k := by
  rw [← Finset.sup_univ_eq_iSup]; rfl

theorem reduce_max_single {s t u : Shape} {a : Fin s.rank} (x : FVec Ideal s .f32) (init : FVec Ideal u .f32)
    (h' : s.ReducesTo [a] t) (h : s.Reduces [a] t) (hu : 0 < u.numel)
    (hinit : init (Shape.Idx.first hu) = (⊥ : EReal)) (j : t.Idx) :
    Host.reduce FloatOps.maximumf x init h' hu j = ⨆ k : Fin (s.size a), x (h.lift j k) := by
  rw [Host.reduce_eq_fold_single FloatOps.maximumf x init h' h hu j, hinit]
  exact fold_max_bot_eq_iSup _

theorem lift3_last {B O N : Nat} (h : (⟨3, ![B, O, N]⟩ : Shape).Reduces [2] ⟨2, ![B, O]⟩) (b : Fin B) (o : Fin O) (n : Fin N) :
    h.lift (ix2 b o) n = ix3 b o n := by
  funext c; refine Fin.ext ?_
  show h.liftVal (ix2 b o) n.val c = _
  match c with
  | ⟨0, _⟩ => rfl
  | ⟨1, _⟩ => rfl
  | ⟨2, _⟩ => rfl

theorem lift4_last {B O N K : Nat} (h : (⟨4, ![B, O, N, K]⟩ : Shape).Reduces [3] ⟨3, ![B, O, N]⟩) (b : Fin B) (o : Fin O) (n : Fin N) (k : Fin K) :
    h.lift (ix3 b o n) k = ix4 b o n k := by
  funext c; refine Fin.ext ?_
  show h.liftVal (ix3 b o n) k.val c = _
  match c with
  | ⟨0, _⟩ => rfl
  | ⟨1, _⟩ => rfl
  | ⟨2, _⟩ => rfl
  | ⟨3, _⟩ => rfl

theorem reduce_max_last3 {B O N : Nat} (x : FVec Ideal ⟨3, ![B, O, N]⟩ .f32) (init : FVec Ideal ⟨0, ![]⟩ .f32)
    (h' : (⟨3, ![B, O, N]⟩ : Shape).ReducesTo [2] ⟨2, ![B, O]⟩) (h : (⟨3, ![B, O, N]⟩ : Shape).Reduces [2] ⟨2, ![B, O]⟩)
    (hu : 0 < (⟨0, ![]⟩ : Shape).numel) (hinit : ∀ i, init i = (⊥ : EReal)) (b : Fin B) (o : Fin O) :
    Host.reduce FloatOps.maximumf x init h' hu (ix2 b o) = ⨆ n : Fin N, x (ix3 b o n) := by
  rw [reduce_max_single x init h' h hu (hinit _)]
  exact iSup_congr fun n => congrArg x (lift3_last h b o n)

theorem reduce_max_last4 {B O N K : Nat} (x : FVec Ideal ⟨4, ![B, O, N, K]⟩ .f32) (init : FVec Ideal ⟨0, ![]⟩ .f32)
    (h' : (⟨4, ![B, O, N, K]⟩ : Shape).ReducesTo [3] ⟨3, ![B, O, N]⟩) (h : (⟨4, ![B, O, N, K]⟩ : Shape).Reduces [3] ⟨3, ![B, O, N]⟩)
    (hu : 0 < (⟨0, ![]⟩ : Shape).numel) (hinit : ∀ i, init i = (⊥ : EReal)) (b : Fin B) (o : Fin O) (n : Fin N) :
    Host.reduce FloatOps.maximumf x init h' hu (ix3 b o n) = ⨆ k : Fin K, x (ix4 b o n k) := by
  rw [reduce_max_single x init h' h hu (hinit _)]
  exact iSup_congr fun k => congrArg x (lift4_last h b o n k)

end Reduce

section Lrelu

theorem lrelu_scalar (s v : EReal) :
    Scalar.select (FloatOps.cmpf (F := Ideal) (φ := .f32) .oge v (Ideal.ofBits .f32 0x00000000#32)) v
        (FloatOps.mulf (F := Ideal) (φ := .f32) s v) = Cert.Spec.lreluR s v := by
  rw [Ideal.ofBits_zero_f32]
  show Scalar.select (Ideal.cmp .oge v 0) v (s * v) = _
  unfold Cert.Spec.lreluR Ideal.cmp Scalar.select
  by_cases h : (0 : EReal) ≤ v
  · simp [h]
  · simp [h]

/-- The rectifier's seven operations at any shape: zero and slope spread from scalars, compare, multiply, select. -/
theorem lrelu_read {s : Shape} (x : FVec Ideal s .f32) (al : FVec Ideal ⟨0, ![]⟩ .f32)
    (hb : (⟨0, ![]⟩ : Shape).BroadcastsInDim s (![] : Fin 0 → Fin s.rank)) (hS : 0 < (⟨0, ![]⟩ : Shape).numel) (i : s.Idx) :
    select (cmpf .oge x (broadcastInDim s ![] hb (constant (F := Ideal) ⟨0, ![]⟩ .f32 0x00000000#32))) x
        (mulf (broadcastInDim s ![] hb (id al)) x) i
      = Cert.Spec.lreluR (al (Shape.Idx.first hS)) (x i) := by
  show Scalar.select (FloatOps.cmpf .oge (x i) (broadcastInDim s ![] hb (constant (F := Ideal) ⟨0, ![]⟩ .f32 0x00000000#32) i)) (x i)
    (FloatOps.mulf (broadcastInDim s ![] hb (id al) i) (x i)) = _
  rw [bcast_scalar hb hS, bcast_scalar hb hS]
  exact lrelu_scalar _ _

end Lrelu

section Dot

/-- A contraction of the second axis of a rank-3 array with the second axis of a matrix, read at an index. -/
theorem dot3_apply {B C N O : Nat} {φ₁ φ₂ : FTy}
    (w : DotDims.WF ⟨3, ![B, C, N]⟩ ⟨2, ![O, C]⟩ ⟨3, ![B, N, O]⟩ [1] [1] [0, 2] [0] [] [])
    (prec : Option ContractPrecision) (A : FVec Ideal ⟨3, ![B, C, N]⟩ φ₁) (W : FVec Ideal ⟨2, ![O, C]⟩ φ₂)
    (b : Fin B) (n : Fin N) (o : Fin O) :
    Host.dotGeneral (⟨[1], [1], [0, 2], [0], [], [], w⟩ : DotDims _ _ _) prec A W (ix3 b n o)
      = ∑ c : Fin C, A (ix3 b c n) * W (ix2 o c) := by
  show FloatOps.dotGeneral _ prec _ A W (ix3 b n o) = _
  rw [Ideal.dotGeneral_apply,
    ← Equiv.sum_comp (contrEquiv1 (⟨[1], [1], [0, 2], [0], [], [], w⟩ : DotDims _ _ _) C rfl rfl).symm]
  refine Finset.sum_congr rfl fun c _ => ?_
  have c3 := contrEquiv1_symm_val
    (⟨[1], [1], [0, 2], [0], [], [], w⟩ : DotDims ⟨3, ![B, C, N]⟩ ⟨2, ![O, C]⟩ ⟨3, ![B, N, O]⟩) C rfl rfl c
  have l3 : (⟨[1], [1], [0, 2], [0], [], [], w⟩ : DotDims ⟨3, ![B, C, N]⟩ ⟨2, ![O, C]⟩ ⟨3, ![B, N, O]⟩).lhsIdx (ix3 b n o)
      ((contrEquiv1 _ C rfl rfl).symm c) = ix3 b c n := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [0, 2], [0], [], [], w⟩ : DotDims ⟨3, ![B, C, N]⟩ ⟨2, ![O, C]⟩ ⟨3, ![B, N, O]⟩).rhsIdx (ix3 b n o)
      ((contrEquiv1 _ C rfl rfl).symm c) = ix2 o c := by
    funext ax; apply Fin.ext
    match ax with
    | ⟨0, _⟩ => simp [DotDims.rhsIdx]; rfl
    | ⟨1, _⟩ => simp [DotDims.rhsIdx]; exact c3
  rw [l3, r3]

/-- The same over a rank-4 array. -/
theorem dot4_apply {B C N K O : Nat} {φ₁ φ₂ : FTy}
    (w : DotDims.WF ⟨4, ![B, C, N, K]⟩ ⟨2, ![O, C]⟩ ⟨4, ![B, N, K, O]⟩ [1] [1] [0, 2, 3] [0] [] [])
    (prec : Option ContractPrecision) (A : FVec Ideal ⟨4, ![B, C, N, K]⟩ φ₁) (W : FVec Ideal ⟨2, ![O, C]⟩ φ₂)
    (b : Fin B) (n : Fin N) (k : Fin K) (o : Fin O) :
    Host.dotGeneral (⟨[1], [1], [0, 2, 3], [0], [], [], w⟩ : DotDims _ _ _) prec A W (ix4 b n k o)
      = ∑ c : Fin C, A (ix4 b c n k) * W (ix2 o c) := by
  show FloatOps.dotGeneral _ prec _ A W (ix4 b n k o) = _
  rw [Ideal.dotGeneral_apply,
    ← Equiv.sum_comp (contrEquiv1 (⟨[1], [1], [0, 2, 3], [0], [], [], w⟩ : DotDims _ _ _) C rfl rfl).symm]
  refine Finset.sum_congr rfl fun c _ => ?_
  have c3 := contrEquiv1_symm_val
    (⟨[1], [1], [0, 2, 3], [0], [], [], w⟩ : DotDims ⟨4, ![B, C, N, K]⟩ ⟨2, ![O, C]⟩ ⟨4, ![B, N, K, O]⟩) C rfl rfl c
  have l3 : (⟨[1], [1], [0, 2, 3], [0], [], [], w⟩ : DotDims ⟨4, ![B, C, N, K]⟩ ⟨2, ![O, C]⟩ ⟨4, ![B, N, K, O]⟩).lhsIdx (ix4 b n k o)
      ((contrEquiv1 _ C rfl rfl).symm c) = ix4 b c n k := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
    | ⟨3, _⟩ => simp [DotDims.lhsIdx]; rfl
  have r3 : (⟨[1], [1], [0, 2, 3], [0], [], [], w⟩ : DotDims ⟨4, ![B, C, N, K]⟩ ⟨2, ![O, C]⟩ ⟨4, ![B, N, K, O]⟩).rhsIdx (ix4 b n k o)
      ((contrEquiv1 _ C rfl rfl).symm c) = ix2 o c := by
    funext ax; apply Fin.ext
    match ax with
    | ⟨0, _⟩ => simp [DotDims.rhsIdx]; rfl
    | ⟨1, _⟩ => simp [DotDims.rhsIdx]; exact c3
  rw [l3, r3]

end Dot

section Layout
variable {α : Type}

/-- The permutation [0, 3, 1, 2] of a rank-4 array: the last axis moved to the second place. -/
theorem transpose4_0312_apply {B N K O : Nat} (x : (⟨4, ![B, N, K, O]⟩ : Shape).Idx → α)
    (h : (⟨4, ![B, N, K, O]⟩ : Shape).Transposes [0, 3, 1, 2] ⟨4, ![B, O, N, K]⟩)
    (b : Fin B) (o : Fin O) (n : Fin N) (k : Fin K) :
    transpose ⟨4, ![B, O, N, K]⟩ [0, 3, 1, 2] x h (ix4 b o n k) = x (ix4 b n k o) :=
  transpose_apply _ x h _ _ fun c => match c with | ⟨0, _⟩ => rfl | ⟨1, _⟩ => rfl | ⟨2, _⟩ => rfl | ⟨3, _⟩ => rfl

/-- A vector laid along the second axis of a rank-3 array (through [1, O, 1]). -/
theorem bias3_apply {B O N : Nat} (v : (⟨1, ![O]⟩ : Shape).Idx → α)
    (h1 : (⟨1, ![O]⟩ : Shape).BroadcastsInDim ⟨3, ![1, O, 1]⟩ (![1] : Fin 1 → Fin 3))
    (h2 : (⟨3, ![1, O, 1]⟩ : Shape).BroadcastsInDim ⟨3, ![B, O, N]⟩ (![0, 1, 2] : Fin 3 → Fin 3))
    (b : Fin B) (o : Fin O) (n : Fin N) :
    broadcastInDim ⟨3, ![B, O, N]⟩ ![0, 1, 2] h2 (broadcastInDim ⟨3, ![1, O, 1]⟩ ![1] h1 v) (ix3 b o n) = v (ix1 o) := by
  refine (broadcastInDim_apply _ h2 _ (ix3 b o n) (ix3 (0 : Fin 1) o (0 : Fin 1)) fun a => ?_).trans
    (broadcastInDim_apply _ h1 v (ix3 (0 : Fin 1) o (0 : Fin 1)) (ix1 o) fun a => ?_)
  · match a with
    | ⟨0, _⟩ => rfl
    | ⟨1, _⟩ =>
      show o.val = if O = 1 then 0 else o.val
      split <;> omega
    | ⟨2, _⟩ => rfl
  · match a with
    | ⟨0, _⟩ =>
      show o.val = if O = 1 then 0 else o.val
      split <;> omega

/-- A vector laid along the second axis of a rank-4 array (through [1, O, 1, 1]). -/
theorem bias4_apply {B O N K : Nat} (v : (⟨1, ![O]⟩ : Shape).Idx → α)
    (h1 : (⟨1, ![O]⟩ : Shape).BroadcastsInDim ⟨4, ![1, O, 1, 1]⟩ (![1] : Fin 1 → Fin 4))
    (h2 : (⟨4, ![1, O, 1, 1]⟩ : Shape).BroadcastsInDim ⟨4, ![B, O, N, K]⟩ (![0, 1, 2, 3] : Fin 4 → Fin 4))
    (b : Fin B) (o : Fin O) (n : Fin N) (k : Fin K) :
    broadcastInDim ⟨4, ![B, O, N, K]⟩ ![0, 1, 2, 3] h2 (broadcastInDim ⟨4, ![1, O, 1, 1]⟩ ![1] h1 v) (ix4 b o n k) = v (ix1 o) := by
  refine (broadcastInDim_apply _ h2 _ (ix4 b o n k) (ix4 (0 : Fin 1) o (0 : Fin 1) (0 : Fin 1)) fun a => ?_).trans
    (broadcastInDim_apply _ h1 v (ix4 (0 : Fin 1) o (0 : Fin 1) (0 : Fin 1)) (ix1 o) fun a => ?_)
  · match a with
    | ⟨0, _⟩ => rfl
    | ⟨1, _⟩ =>
      show o.val = if O = 1 then 0 else o.val
      split <;> omega
    | ⟨2, _⟩ => rfl
    | ⟨3, _⟩ => rfl
  · match a with
    | ⟨0, _⟩ =>
      show o.val = if O = 1 then 0 else o.val
      split <;> omega

/-- The neighbour lists [B, N, K] laid over the channels of a rank-4 array (through [B, 1, N, K]). -/
theorem idxBcast_apply {B C N K : Nat} (idx : (⟨3, ![B, N, K]⟩ : Shape).Idx → α)
    (h1 : (⟨3, ![B, N, K]⟩ : Shape).BroadcastsInDim ⟨4, ![B, 1, N, K]⟩ (![0, 2, 3] : Fin 3 → Fin 4))
    (h2 : (⟨4, ![B, 1, N, K]⟩ : Shape).BroadcastsInDim ⟨4, ![B, C, N, K]⟩ (![0, 1, 2, 3] : Fin 4 → Fin 4))
    (b : Fin B) (c : Fin C) (n : Fin N) (k : Fin K) :
    broadcastInDim ⟨4, ![B, C, N, K]⟩ ![0, 1, 2, 3] h2 (broadcastInDim ⟨4, ![B, 1, N, K]⟩ ![0, 2, 3] h1 idx) (ix4 b c n k)
      = idx (ix3 b n k) := by
  refine (broadcastInDim_apply _ h2 _ (ix4 b c n k) (ix4 b (0 : Fin 1) n k) fun a => ?_).trans
    (broadcastInDim_apply _ h1 idx (ix4 b (0 : Fin 1) n k) (ix3 b n k) fun a => ?_)
  · match a with
    | ⟨0, _⟩ =>
      show b.val = if B = 1 then 0 else b.val
      split <;> omega
    | ⟨1, _⟩ => rfl
    | ⟨2, _⟩ =>
      show n.val = if N = 1 then 0 else n.val
      split <;> omega
    | ⟨3, _⟩ =>
      show k.val = if K = 1 then 0 else k.val
      split <;> omega
  · match a with
    | ⟨0, _⟩ =>
      show b.val = if B = 1 then 0 else b.val
      split <;> omega
    | ⟨1, _⟩ =>
      show n.val = if N = 1 then 0 else n.val
      split <;> omega
    | ⟨2, _⟩ =>
      show k.val = if K = 1 then 0 else k.val
      split <;> omega

/-- A rank-3 array given a trailing unit axis. -/
theorem unitAxis_apply {B C N : Nat} (x : (⟨3, ![B, C, N]⟩ : Shape).Idx → α)
    (h : (⟨3, ![B, C, N]⟩ : Shape).BroadcastsInDim ⟨4, ![B, C, N, 1]⟩ (![0, 1, 2] : Fin 3 → Fin 4))
    (b : Fin B) (c : Fin C) (n : Fin N) (u : Fin 1) :
    broadcastInDim ⟨4, ![B, C, N, 1]⟩ ![0, 1, 2] h x (ix4 b c n u) = x (ix3 b c n) := by
  refine broadcastInDim_apply _ h x (ix4 b c n u) (ix3 b c n) fun a => ?_
  match a with
  | ⟨0, _⟩ =>
    show b.val = if B = 1 then 0 else b.val
    split <;> omega
  | ⟨1, _⟩ =>
    show c.val = if C = 1 then 0 else c.val
    split <;> omega
  | ⟨2, _⟩ =>
    show n.val = if N = 1 then 0 else n.val
    split <;> omega

/-- A rank-4 array with a trailing unit axis laid over K neighbours. -/
theorem overK_apply {B C N K : Nat} (y : (⟨4, ![B, C, N, 1]⟩ : Shape).Idx → α)
    (h : (⟨4, ![B, C, N, 1]⟩ : Shape).BroadcastsInDim ⟨4, ![B, C, N, K]⟩ (![0, 1, 2, 3] : Fin 4 → Fin 4))
    (b : Fin B) (c : Fin C) (n : Fin N) (k : Fin K) :
    broadcastInDim ⟨4, ![B, C, N, K]⟩ ![0, 1, 2, 3] h y (ix4 b c n k) = y (ix4 b c n (0 : Fin 1)) := by
  refine broadcastInDim_apply _ h y (ix4 b c n k) (ix4 b c n (0 : Fin 1)) fun a => ?_
  match a with
  | ⟨0, _⟩ =>
    show b.val = if B = 1 then 0 else b.val
    split <;> omega
  | ⟨1, _⟩ =>
    show c.val = if C = 1 then 0 else c.val
    split <;> omega
  | ⟨2, _⟩ =>
    show n.val = if N = 1 then 0 else n.val
    split <;> omega
  | ⟨3, _⟩ => rfl

end Layout

end Cert.RefLemmas

end
-- ==== Proof.RefValue2.lean ====
/-
  The reference's second and third layers read at coordinates, at the ideal values: from the first layer's pooled output
  (the buffer of `%15`) to the third layer's output (the buffer of `%37`). Two layers of the same shape — the previous
  layer's output gathered at each point's twenty neighbours and maximised, a point convolution with its bias, the leaky
  rectifier. Each is stated from a function `r` the previous layer's buffer is assumed to read as, so that they compose.
-/
import proofs.«209975_g17849884082380_cont_8to1_1483_11_alg».proof.Proof.RefSteps
import proofs.«209975_g17849884082380_cont_8to1_1483_11_alg».proof.Proof.RefLemmas
import proofs.«209975_g17849884082380_cont_8to1_1483_11_alg».proof.Proof.Decode
import Idealize.ShloMosaic.Lib.ValueLayout
import Idealize.ShloMosaic.Lib.IdealHost
import Idealize.ShloMosaic.Lib.ValueIdx

noncomputable section

namespace Cert.ReferenceIdeal.RefValue2

open Cert.ReferenceIdeal Cert.ReferenceIdeal.Gen Cert.ReferenceIdeal.RefRun Cert.ReferenceIdeal.RefSteps Cert.RefLemmas
open Idealize.ShloMosaic Idealize.ShloMosaic.TcCoe Idealize.SL.Sem Idealize.ShloMosaic.StableHlo Idealize.ShloMosaic.ValueIdx
open scoped BigOperators

-- every buffer is read through its own operation's equation
attribute [local irreducible] StableHlo.after

/-! ## The buffers at their literal types -/

variable (V : Valuation τ sig (Elt Ideal))

abbrev a1 : IVec S8x4096x20 32 := V (Proc.devRef .tc main_arg1)
abbrev a4 : FVec Ideal S64x64 .f32 := V (Proc.devRef .tc main_arg4)
abbrev a5 : FVec Ideal S64 .f32 := V (Proc.devRef .tc main_arg5)
abbrev a6 : FVec Ideal S128x64 .f32 := V (Proc.devRef .tc main_arg6)
abbrev a7 : FVec Ideal S128 .f32 := V (Proc.devRef .tc main_arg7)
abbrev v15 : FVec Ideal S8x64x4096 .f32 := after ops V (Proc.devRef .tc main_v15)
abbrev wv17 : IVec S8x64x4096x20 32 := after ops V (Proc.devRef .tc main_v17)
abbrev v18 : FVec Ideal S8x64x4096x1 .f32 := after ops V (Proc.devRef .tc main_v18)
abbrev fillcall2 : FVec Ideal S8x64x4096x20 .f32 := after ops V (Proc.devRef .tc main_call2_v15)
abbrev v19 : FVec Ideal S8x64x4096x20 .f32 := after ops V (Proc.devRef .tc main_v19)
abbrev v20 : FVec Ideal S8x64x4096 .f32 := after ops V (Proc.devRef .tc main_v20)
abbrev v21 : FVec Ideal S8x4096x64 .f32 := after ops V (Proc.devRef .tc main_v21)
abbrev v25 : FVec Ideal S8x64x4096 .f32 := after ops V (Proc.devRef .tc main_v25)
abbrev v26 : FVec Ideal S8x64x4096 .f32 := after ops V (Proc.devRef .tc main_v26)
abbrev wv28 : IVec S8x64x4096x20 32 := after ops V (Proc.devRef .tc main_v28)
abbrev v29 : FVec Ideal S8x64x4096x1 .f32 := after ops V (Proc.devRef .tc main_v29)
abbrev fillcall4 : FVec Ideal S8x64x4096x20 .f32 := after ops V (Proc.devRef .tc main_call4_v15)
abbrev v30 : FVec Ideal S8x64x4096x20 .f32 := after ops V (Proc.devRef .tc main_v30)
abbrev v31 : FVec Ideal S8x64x4096 .f32 := after ops V (Proc.devRef .tc main_v31)
abbrev v32 : FVec Ideal S8x4096x128 .f32 := after ops V (Proc.devRef .tc main_v32)
abbrev v36 : FVec Ideal S8x128x4096 .f32 := after ops V (Proc.devRef .tc main_v36)
abbrev v37 : FVec Ideal S8x128x4096 .f32 := after ops V (Proc.devRef .tc main_v37)

/-- The shape facts of the two later gathers along the points (64 channels, 20 neighbours). -/
theorem F64 : TakeFacts 8 64 20 :=
  ⟨bcast_S_S8x64x4096x20, shapeCasts_S8x64x4096x20_S8x64x4096x20x1, shapeCasts_S8x64x4096x1_S8x64x4096, bcast_S_S8x64x4096x20x1,
    bcast_S1_S1x1x1x1x1_4, bcast_S1x1x1x1x1_S8x64x4096x20x1_0_1_2_3_4, reducesTo_S8x64x4096x20x1_S8x64x4096x20_d4, by decide, h_S_,
    gather_S8x64x4096_S8x64x4096x20x1_S8x64x4096x20_n_2_01_01_2_4_111_wf⟩

/-! ### The second layer: pooling of the first layer's output, point convolution, rectifier -/

/-- The neighbour lists spread over the channels read the list of the cloud, point and slot. -/
theorem v17_at (b : Fin 8) (c : Fin 64) (n : Fin 4096) (k : Fin 20) :
    wv17 V (ix4 b c n k) = a1 V (ix3 b n k) := by
  show after ops V (Proc.devRef .tc main_v17) (ix4 b c n k) = _
  rw [s_main_v17, s_main_v16, after_ops_of_not_written V (r := main_arg1) (by decide)]
  exact idxBcast_apply _ _ _ b c n k

/-- The call's twenty-three operations are one gather along the points of the pooled-over array. -/
theorem v19_eq : v19 V = takeAlong F64 (v18 V) (wv17 V) (fillcall2 V) := by
  show after ops V (Proc.devRef .tc main_v19) = _
  rw [s_main_v19, s_main_call2_v13, s_main_call2_v12, s_main_call2_v8, s_main_call2_v11, s_main_call2_v7, s_main_call2_v10,
    s_main_call2_v9, s_main_call2_c_1, s_main_call2_c_2, s_main_call2_c_3, s_main_call2_v14, s_main_call2_v6, s_main_call2_v5,
    s_main_call2_v4, s_main_call2_v1, s_main_call2_v3, s_main_call2_v0, s_main_call2_v2, s_main_call2_c, s_main_call2_c_0]
  rfl

/-- The gathered array reads the pooled-over array at the neighbour the list names. -/
theorem v19_at (hidx : ∀ j, (a1 V j).toNat < 4096) (b : Fin 8) (c : Fin 64) (n : Fin 4096) (k : Fin 20) :
    v19 V (ix4 b c n k) = v15 V (ix3 b c (Cert.Decode.pt (a1 V (ix3 b n k)))) := by
  have hw : (wv17 V (ix4 b c n k)).toNat < 4096 := by rw [v17_at]; exact hidx _
  rw [v19_eq, takeAlong_read F64 _ _ _ b c n k hw]
  show after ops V (Proc.devRef .tc main_v18) _ = _
  rw [s_main_v18]
  refine (unitAxis_apply _ _ b c _ (0 : Fin 1)).trans ?_
  refine congrArg (fun q => v15 V (ix3 b c q)) (Fin.ext ?_)
  show (wv17 V (ix4 b c n k)).toNat = (a1 V (ix3 b n k)).toNat % 4096
  rw [v17_at, Nat.mod_eq_of_lt (hidx _)]

/-- Pooling: the maximum over the twenty neighbours. -/
theorem v20_at (b : Fin 8) (c : Fin 64) (n : Fin 4096) :
    v20 V (ix3 b c n) = ⨆ k : Fin 20, v19 V (ix4 b c n k) := by
  show after ops V (Proc.devRef .tc main_v20) (ix3 b c n) = _
  rw [s_main_v20, s_main_cst_1]
  exact reduce_max_last4 _ _ _ (by decide) _ (fun _ => ofBits_neg_inf) b c n

/-- The point convolution: the contraction over the input channels. -/
theorem v21_at (b : Fin 8) (n : Fin 4096) (o : Fin 64) :
    v21 V (ix3 b n o) = ∑ c : Fin 64, v20 V (ix3 b c n) * a4 V (ix2 o c) := by
  show after ops V (Proc.devRef .tc main_v21) (ix3 b n o) = _
  rw [s_main_v21, after_ops_of_not_written V (r := main_arg4) (by decide)]
  exact dot3_apply _ none _ _ b n o

/-- The convolution's result, channels before points, with the bias. -/
theorem v25_at (b : Fin 8) (o : Fin 64) (n : Fin 4096) :
    v25 V (ix3 b o n) = v21 V (ix3 b n o) + a5 V (ix1 o) := by
  show after ops V (Proc.devRef .tc main_v25) (ix3 b o n) = _
  rw [s_main_v25, s_main_v22, s_main_v24, s_main_v23, after_ops_of_not_written V (r := main_arg5) (by decide)]
  refine (addf_apply _ _ _).trans (congrArg₂ (· + ·) ?_ ?_)
  · exact transpose_ix3_021_apply _ _ b o n
  · exact bias3_apply _ _ _ b o n

/-- The rectifier. -/
theorem v26_at (b : Fin 8) (o : Fin 64) (n : Fin 4096) :
    v26 V (ix3 b o n) = Cert.Spec.lreluR Cert.Decode.slope (v25 V (ix3 b o n)) := by
  show after ops V (Proc.devRef .tc main_v26) (ix3 b o n) = _
  rw [s_main_v26, s_main_call3_v1, s_main_call3_v4, s_main_call3_v0, s_main_call3_v3, s_main_call3_v2, s_main_call3_cst, s_main_cst_2]
  exact lrelu_read (v25 V) (constant (F := Ideal) S_ .f32 0x3E4CCCCD#32) _ h_S_ (ix3 b o n)

/-- The layer: from the previous layer's output `r` to this one's. -/
theorem stage1 (hidx : ∀ j, (a1 V j).toNat < 4096) (r : Fin 8 → Fin 64 → Fin 4096 → EReal)
    (hr : ∀ b o n, after ops V (Proc.devRef .tc main_v15) (ix3 b o n) = r b o n) (b : Fin 8) (o : Fin 64) (n : Fin 4096) :
    after ops V (Proc.devRef .tc main_v26) (ix3 b o n)
      = Cert.Spec.lreluR Cert.Decode.slope
          ((∑ c : Fin 64, Cert.Decode.at2 (a4 V) o c * Cert.Spec.gmax (Cert.Decode.idxOf (a1 V)) r b c n) + Cert.Decode.at1 (a5 V) o) := by
  refine (v26_at V b o n).trans ?_
  rw [v25_at, v21_at]
  refine congrArg (fun t => Cert.Spec.lreluR Cert.Decode.slope (t + a5 V (ix1 o))) (Finset.sum_congr rfl fun c _ => ?_)
  rw [v20_at, mul_comm]
  refine congrArg (fun t => a4 V (ix2 o c) * t) (iSup_congr fun k => ?_)
  rw [v19_at V hidx]
  exact hr b c _

/-! ### The third layer: pooling of the second layer's output, point convolution, rectifier -/

/-- The neighbour lists spread over the channels read the list of the cloud, point and slot. -/
theorem v28_at (b : Fin 8) (c : Fin 64) (n : Fin 4096) (k : Fin 20) :
    wv28 V (ix4 b c n k) = a1 V (ix3 b n k) := by
  show after ops V (Proc.devRef .tc main_v28) (ix4 b c n k) = _
  rw [s_main_v28, s_main_v27, after_ops_of_not_written V (r := main_arg1) (by decide)]
  exact idxBcast_apply _ _ _ b c n k

/-- The call's twenty-three operations are one gather along the points of the pooled-over array. -/
theorem v30_eq : v30 V = takeAlong F64 (v29 V) (wv28 V) (fillcall4 V) := by
  show after ops V (Proc.devRef .tc main_v30) = _
  rw [s_main_v30, s_main_call4_v13, s_main_call4_v12, s_main_call4_v8, s_main_call4_v11, s_main_call4_v7, s_main_call4_v10,
    s_main_call4_v9, s_main_call4_c_1, s_main_call4_c_2, s_main_call4_c_3, s_main_call4_v14, s_main_call4_v6, s_main_call4_v5,
    s_main_call4_v4, s_main_call4_v1, s_main_call4_v3, s_main_call4_v0, s_main_call4_v2, s_main_call4_c, s_main_call4_c_0]
  rfl

/-- The gathered array reads the pooled-over array at the neighbour the list names. -/
theorem v30_at (hidx : ∀ j, (a1 V j).toNat < 4096) (b : Fin 8) (c : Fin 64) (n : Fin 4096) (k : Fin 20) :
    v30 V (ix4 b c n k) = v26 V (ix3 b c (Cert.Decode.pt (a1 V (ix3 b n k)))) := by
  have hw : (wv28 V (ix4 b c n k)).toNat < 4096 := by rw [v28_at]; exact hidx _
  rw [v30_eq, takeAlong_read F64 _ _ _ b c n k hw]
  show after ops V (Proc.devRef .tc main_v29) _ = _
  rw [s_main_v29]
  refine (unitAxis_apply _ _ b c _ (0 : Fin 1)).trans ?_
  refine congrArg (fun q => v26 V (ix3 b c q)) (Fin.ext ?_)
  show (wv28 V (ix4 b c n k)).toNat = (a1 V (ix3 b n k)).toNat % 4096
  rw [v28_at, Nat.mod_eq_of_lt (hidx _)]

/-- Pooling: the maximum over the twenty neighbours. -/
theorem v31_at (b : Fin 8) (c : Fin 64) (n : Fin 4096) :
    v31 V (ix3 b c n) = ⨆ k : Fin 20, v30 V (ix4 b c n k) := by
  show after ops V (Proc.devRef .tc main_v31) (ix3 b c n) = _
  rw [s_main_v31, s_main_cst_3]
  exact reduce_max_last4 _ _ _ (by decide) _ (fun _ => ofBits_neg_inf) b c n

/-- The point convolution: the contraction over the input channels. -/
theorem v32_at (b : Fin 8) (n : Fin 4096) (o : Fin 128) :
    v32 V (ix3 b n o) = ∑ c : Fin 64, v31 V (ix3 b c n) * a6 V (ix2 o c) := by
  show after ops V (Proc.devRef .tc main_v32) (ix3 b n o) = _
  rw [s_main_v32, after_ops_of_not_written V (r := main_arg6) (by decide)]
  exact dot3_apply _ none _ _ b n o

/-- The convolution's result, channels before points, with the bias. -/
theorem v36_at (b : Fin 8) (o : Fin 128) (n : Fin 4096) :
    v36 V (ix3 b o n) = v32 V (ix3 b n o) + a7 V (ix1 o) := by
  show after ops V (Proc.devRef .tc main_v36) (ix3 b o n) = _
  rw [s_main_v36, s_main_v33, s_main_v35, s_main_v34, after_ops_of_not_written V (r := main_arg7) (by decide)]
  refine (addf_apply _ _ _).trans (congrArg₂ (· + ·) ?_ ?_)
  · exact transpose_ix3_021_apply _ _ b o n
  · exact bias3_apply _ _ _ b o n

/-- The rectifier. -/
theorem v37_at (b : Fin 8) (o : Fin 128) (n : Fin 4096) :
    v37 V (ix3 b o n) = Cert.Spec.lreluR Cert.Decode.slope (v36 V (ix3 b o n)) := by
  show after ops V (Proc.devRef .tc main_v37) (ix3 b o n) = _
  rw [s_main_v37, s_main_call5_v1, s_main_call5_v4, s_main_call5_v0, s_main_call5_v3, s_main_call5_v2, s_main_call5_cst, s_main_cst_4]
  exact lrelu_read (v36 V) (constant (F := Ideal) S_ .f32 0x3E4CCCCD#32) _ h_S_ (ix3 b o n)

/-- The layer: from the previous layer's output `r` to this one's. -/
theorem stage2 (hidx : ∀ j, (a1 V j).toNat < 4096) (r : Fin 8 → Fin 64 → Fin 4096 → EReal)
    (hr : ∀ b o n, after ops V (Proc.devRef .tc main_v26) (ix3 b o n) = r b o n) (b : Fin 8) (o : Fin 128) (n : Fin 4096) :
    after ops V (Proc.devRef .tc main_v37) (ix3 b o n)
      = Cert.Spec.lreluR Cert.Decode.slope
          ((∑ c : Fin 64, Cert.Decode.at2 (a6 V) o c * Cert.Spec.gmax (Cert.Decode.idxOf (a1 V)) r b c n) + Cert.Decode.at1 (a7 V) o) := by
  refine (v37_at V b o n).trans ?_
  rw [v36_at, v32_at]
  refine congrArg (fun t => Cert.Spec.lreluR Cert.Decode.slope (t + a7 V (ix1 o))) (Finset.sum_congr rfl fun c _ => ?_)
  rw [v31_at, mul_comm]
  refine congrArg (fun t => a6 V (ix2 o c) * t) (iSup_congr fun k => ?_)
  rw [v30_at V hidx]
  exact hr b c _

end Cert.ReferenceIdeal.RefValue2

end
-- ==== Proof.RefValue.lean ====
/-
  THE REFERENCE'S VALUE. The result buffer of the reference's straight line, read index by index, is the
  specification's function of the ten argument arrays.

  The first layer: the points transposed to [8, 3, 4096]; for each point the 20 neighbours' coordinates gathered
  along the point axis (the neighbour words, below 4096 by the precondition, read as points); the edge features
  "neighbour less centre" and "centre" concatenated along the channels; the edge convolution as a sum over the six
  channels; the bias; the rectifier; the maximum over the 20 neighbours. Read at (b, o, n) this is Spec.rh0.
  The last layer: the three layers' outputs concatenated along the channels, the final convolution as a sum over the
  256 channels, the bias, and the maximum over the 4096 points. The two middle layers are read in the sibling
  module; this one composes them.
-/
import proofs.«209975_g17849884082380_cont_8to1_1483_11_alg».proof.Proof.RefSteps
import proofs.«209975_g17849884082380_cont_8to1_1483_11_alg».proof.Proof.Decode
import proofs.«209975_g17849884082380_cont_8to1_1483_11_alg».proof.Proof.RefLemmas
import proofs.«209975_g17849884082380_cont_8to1_1483_11_alg».proof.Proof.RefValue2

noncomputable section

namespace Cert.ReferenceIdeal.RefValue

open Cert.ReferenceIdeal Cert.ReferenceIdeal.Gen Cert.ReferenceIdeal.RefRun Cert.ReferenceIdeal.RefSteps
open Idealize.ShloMosaic Idealize.ShloMosaic.TcCoe Idealize.ShloMosaic.StableHlo Idealize.ShloMosaic.ValueIdx
open Cert.RefLemmas Cert.Decode
open scoped BigOperators

/-- What the precondition gives about the neighbour words: each is a non-negative signed word below 4096. -/
def IdxOK (a1 : (⟨S8x4096x20, .i32⟩ : BufTy).Contents (Elt Ideal)) : Prop := ∀ j, (a1 j).toNat < 4096

/-- The shape facts of the first gather along the points (three coordinate channels). -/
theorem take3 : TakeFacts 8 3 20 :=
  ⟨bcast_S_S8x3x4096x20, shapeCasts_S8x3x4096x20_S8x3x4096x20x1, shapeCasts_S8x3x4096x1_S8x3x4096,
    bcast_S_S8x3x4096x20x1, bcast_S1_S1x1x1x1x1_4, bcast_S1x1x1x1x1_S8x3x4096x20x1_0_1_2_3_4,
    reducesTo_S8x3x4096x20x1_S8x3x4096x20_d4, by decide, h_S_,
    gather_S8x3x4096_S8x3x4096x20x1_S8x3x4096x20_n_2_01_01_2_4_111_wf⟩

section
variable (V : Valuation τ sig (Elt Ideal))

/-- A buffer after the line. -/
local notation "A⟦" r "⟧" => StableHlo.after (ops (F := Ideal)) V (Proc.devRef Proc.tc r)

/-- The argument arrays at their literal types. -/
abbrev a0 : (⟨3, ![8, 4096, 3]⟩ : Shape).Idx → EReal := V (Proc.devRef Proc.tc main_arg0)
abbrev a1 : (⟨3, ![8, 4096, 20]⟩ : Shape).Idx → BitVec 32 := V (Proc.devRef Proc.tc main_arg1)
abbrev a2 : (⟨2, ![64, 6]⟩ : Shape).Idx → EReal := V (Proc.devRef Proc.tc main_arg2)
abbrev a3 : (⟨1, ![64]⟩ : Shape).Idx → EReal := V (Proc.devRef Proc.tc main_arg3)

/-! ### The arguments, unchanged -/

theorem arg0_eq : (A⟦main_arg0⟧ : (⟨S8x4096x3, .f32⟩ : BufTy).Contents (Elt Ideal)) = V (Proc.devRef .tc main_arg0) :=
  after_ops_of_not_written V (by decide)
theorem arg1_eq : (A⟦main_arg1⟧ : (⟨S8x4096x20, .i32⟩ : BufTy).Contents (Elt Ideal)) = V (Proc.devRef .tc main_arg1) :=
  after_ops_of_not_written V (by decide)
theorem arg2_eq : (A⟦main_arg2⟧ : (⟨S64x6, .f32⟩ : BufTy).Contents (Elt Ideal)) = V (Proc.devRef .tc main_arg2) :=
  after_ops_of_not_written V (by decide)
theorem arg3_eq : (A⟦main_arg3⟧ : (⟨S64, .f32⟩ : BufTy).Contents (Elt Ideal)) = V (Proc.devRef .tc main_arg3) :=
  after_ops_of_not_written V (by decide)

/-! ### The transposed points and the neighbour words -/

/-- The transposed points [8, 3, 4096] at (b, c, n): the point's coordinate c. -/
theorem v0_read (b : Fin 8) (c : Fin 3) (n : Fin 4096) :
    (A⟦main_v0⟧ : (⟨S8x3x4096, .f32⟩ : BufTy).Contents (Elt Ideal)) (ix3 b c n) = at3 (a0 V) b n c := by
  rw [s_main_v0, arg0_eq]
  exact transpose_ix3_021_apply _ _ b c n

/-- The neighbour words spread over the three channels. -/
theorem v2_read (b : Fin 8) (c : Fin 3) (n : Fin 4096) (k : Fin 20) :
    (A⟦main_v2⟧ : (⟨S8x3x4096x20, .i32⟩ : BufTy).Contents (Elt Ideal)) (ix4 b c n k) = at3 (a1 V) b n k := by
  rw [s_main_v2, s_main_v1, arg1_eq]
  exact idxBcast_apply _ _ _ b c n k

/-- The transposed points with a trailing unit axis. -/
theorem v3_read (b : Fin 8) (c : Fin 3) (n : Fin 4096) (u : Fin 1) :
    (A⟦main_v3⟧ : (⟨S8x3x4096x1, .f32⟩ : BufTy).Contents (Elt Ideal)) (ix4 b c n u) = at3 (a0 V) b n c := by
  rw [s_main_v3]
  exact (unitAxis_apply _ _ b c n u).trans (v0_read V b c n)

/-! ### The gathered neighbours -/

/-- The first gather along the points: its twenty-three operations as one function of the operand with its
    trailing unit axis, the index array and the fill. -/
theorem v4_eq : (A⟦main_v4⟧ : (⟨S8x3x4096x20, .f32⟩ : BufTy).Contents (Elt Ideal))
    = takeAlong take3 (A⟦main_v3⟧ : (⟨S8x3x4096x1, .f32⟩ : BufTy).Contents (Elt Ideal))
        (A⟦main_v2⟧ : (⟨S8x3x4096x20, .i32⟩ : BufTy).Contents (Elt Ideal))
        (A⟦main_call0_v15⟧ : (⟨S8x3x4096x20, .f32⟩ : BufTy).Contents (Elt Ideal)) := by
  rw [s_main_v4, s_main_call0_v13, s_main_call0_v12, s_main_call0_v8, s_main_call0_v11, s_main_call0_v7, s_main_call0_v10,
    s_main_call0_v9, s_main_call0_c_1, s_main_call0_c_2, s_main_call0_c_3, s_main_call0_v14, s_main_call0_v6, s_main_call0_v5,
    s_main_call0_v4, s_main_call0_v1, s_main_call0_v3, s_main_call0_v0, s_main_call0_v2, s_main_call0_c, s_main_call0_c_0]
  rfl

/-- The gathered neighbours at (b, c, n, k): coordinate c of the k-th neighbour of point n. -/
theorem v4_read (hidx : IdxOK (V (Proc.devRef .tc main_arg1))) (b : Fin 8) (c : Fin 3) (n : Fin 4096) (k : Fin 20) :
    (A⟦main_v4⟧ : (⟨S8x3x4096x20, .f32⟩ : BufTy).Contents (Elt Ideal)) (ix4 b c n k)
      = at3 (a0 V) b (idxOf (a1 V) b n k) c := by
  have hw : ((A⟦main_v2⟧ : (⟨S8x3x4096x20, .i32⟩ : BufTy).Contents (Elt Ideal)) (ix4 b c n k)).toNat < 4096 := by
    rw [v2_read]; exact hidx _
  rw [v4_eq, takeAlong_read take3 _ _ _ b c n k hw, v3_read]
  refine congrArg (fun p => at3 (a0 V) b p c) (Fin.ext ?_)
  show ((A⟦main_v2⟧ : (⟨S8x3x4096x20, .i32⟩ : BufTy).Contents (Elt Ideal)) (ix4 b c n k)).toNat
    = ((V (Proc.devRef .tc main_arg1) : (⟨S8x4096x20, .i32⟩ : BufTy).Contents (Elt Ideal)) (ix3 b n k)).toNat % 4096
  rw [v2_read]
  exact (Nat.mod_eq_of_lt (hidx _)).symm

/-! ### The edge features -/

/-- The centre spread over the neighbours. -/
theorem v6_read (b : Fin 8) (c : Fin 3) (n : Fin 4096) (k : Fin 20) :
    (A⟦main_v6⟧ : (⟨S8x3x4096x20, .f32⟩ : BufTy).Contents (Elt Ideal)) (ix4 b c n k) = at3 (a0 V) b n c := by
  rw [s_main_v6, s_main_v5]
  exact ((overK_apply _ _ b c n k).trans (unitAxis_apply _ _ b c n (0 : Fin 1))).trans (v0_read V b c n)

/-- The six feature channels at (b, c, n, k). -/
theorem v8_read (hidx : IdxOK (V (Proc.devRef .tc main_arg1))) (b : Fin 8) (c : Fin 6) (n : Fin 4096) (k : Fin 20) :
    (A⟦main_v8⟧ : (⟨S8x6x4096x20, .f32⟩ : BufTy).Contents (Elt Ideal)) (ix4 b c n k)
      = Cert.Spec.feat (at3 (a0 V)) (idxOf (a1 V)) b c n k := by
  rw [s_main_v8]
  unfold Cert.Spec.feat
  by_cases h : c.val < 3
  · rw [dif_pos h]
    refine (concatenate_pair_apply_left (t := S8x6x4096x20) (s₁ := S8x3x4096x20) (s₂ := S8x3x4096x20) (1 : Fin 4) _ _ _
      (ix4 b c n k) rfl (ix4 b (⟨c.val, h⟩ : Fin 3) n k)
      (fun a => match a with | ⟨0, _⟩ => rfl | ⟨1, _⟩ => rfl | ⟨2, _⟩ => rfl | ⟨3, _⟩ => rfl)).trans ?_
    rw [s_main_v7]
    refine (subf_apply _ _ _).trans ?_
    rw [v4_read V hidx, v6_read]
  · rw [dif_neg h]
    refine (concatenate_pair_apply_right (t := S8x6x4096x20) (s₁ := S8x3x4096x20) (s₂ := S8x3x4096x20) (1 : Fin 4) _ _ _
      (ix4 b c n k) rfl rfl (ix4 b (⟨c.val - 3, by omega⟩ : Fin 3) n k)
      (fun a ha => match a with | ⟨0, _⟩ => rfl | ⟨1, _⟩ => absurd rfl ha | ⟨2, _⟩ => rfl | ⟨3, _⟩ => rfl) ?_).trans ?_
    · show c.val - 3 + 3 = c.val
      omega
    · exact v6_read V b _ n k

/-! ### The edge convolution, the rectifier, the maximum over the neighbours -/

/-- The edge convolution with its bias at (b, o, n, k). -/
theorem v13_read (hidx : IdxOK (V (Proc.devRef .tc main_arg1))) (b : Fin 8) (o : Fin 64) (n : Fin 4096) (k : Fin 20) :
    (A⟦main_v13⟧ : (⟨S8x64x4096x20, .f32⟩ : BufTy).Contents (Elt Ideal)) (ix4 b o n k)
      = (∑ c : Fin 6, at2 (a2 V) o c
          * Cert.Spec.feat (at3 (a0 V)) (idxOf (a1 V)) b c n k)
        + at1 (a3 V) o := by
  rw [s_main_v13]
  refine (addf_apply _ _ _).trans (congrArg₂ (· + ·) ?_ ?_)
  · rw [s_main_v10]
    refine (transpose4_0312_apply _ _ b o n k).trans ?_
    rw [s_main_v9]
    refine (dot4_apply _ none _ _ b n k o).trans ?_
    refine Finset.sum_congr rfl fun c _ => ?_
    rw [v8_read V hidx, arg2_eq]
    exact mul_comm _ _
  · rw [s_main_v12, s_main_v11, arg3_eq]
    exact bias4_apply _ _ _ b o n k

/-- The rectified edge convolution. -/
theorem v14_read (hidx : IdxOK (V (Proc.devRef .tc main_arg1))) (b : Fin 8) (o : Fin 64) (n : Fin 4096) (k : Fin 20) :
    (A⟦main_v14⟧ : (⟨S8x64x4096x20, .f32⟩ : BufTy).Contents (Elt Ideal)) (ix4 b o n k)
      = Cert.Spec.lreluR slope ((∑ c : Fin 6, at2 (a2 V) o c
          * Cert.Spec.feat (at3 (a0 V)) (idxOf (a1 V)) b c n k)
        + at1 (a3 V) o) := by
  rw [s_main_v14, s_main_call1_v1, s_main_call1_v4, s_main_call1_v0, s_main_call1_v3, s_main_call1_cst, s_main_call1_v2, s_main_cst]
  refine (lrelu_read _ _ _ h_S_ (ix4 b o n k)).trans ?_
  rw [v13_read V hidx]
  rfl

/-- THE FIRST LAYER: the maximum over the 20 neighbours of the rectified edge convolution. -/
theorem H0 (hidx : IdxOK (V (Proc.devRef .tc main_arg1))) (b : Fin 8) (o : Fin 64) (n : Fin 4096) :
    (A⟦main_v15⟧ : (⟨S8x64x4096, .f32⟩ : BufTy).Contents (Elt Ideal)) (ix3 b o n)
      = Cert.Spec.rh0 slope (at3 (a0 V)) (idxOf (a1 V))
          (at2 (a2 V)) (at1 (a3 V)) b o n := by
  rw [s_main_v15]
  refine (reduce_max_last4 _ _ _ (by decide) h_S_ (fun i => ?_) b o n).trans ?_
  · rw [s_main_cst_0]; exact ofBits_neg_inf
  · unfold Cert.Spec.rh0
    exact iSup_congr fun k => v14_read V hidx b o n k

/-! ### The last layer -/

abbrev a8 : (⟨2, ![512, 256]⟩ : Shape).Idx → EReal := V (Proc.devRef Proc.tc main_arg8)
abbrev a9 : (⟨1, ![512]⟩ : Shape).Idx → EReal := V (Proc.devRef Proc.tc main_arg9)

theorem arg8_eq : (A⟦main_arg8⟧ : (⟨S512x256, .f32⟩ : BufTy).Contents (Elt Ideal)) = V (Proc.devRef Proc.tc main_arg8) :=
  after_ops_of_not_written V (by decide)
theorem arg9_eq : (A⟦main_arg9⟧ : (⟨S512, .f32⟩ : BufTy).Contents (Elt Ideal)) = V (Proc.devRef Proc.tc main_arg9) :=
  after_ops_of_not_written V (by decide)

/-- The three layers' outputs concatenated along the channels, at (b, c, n). -/
theorem v38_read (r0 r1 : Fin 8 → Fin 64 → Fin 4096 → EReal) (r2 : Fin 8 → Fin 128 → Fin 4096 → EReal)
    (h0 : ∀ b o n, (A⟦main_v15⟧ : (⟨S8x64x4096, .f32⟩ : BufTy).Contents (Elt Ideal)) (ix3 b o n) = r0 b o n)
    (h1 : ∀ b o n, (A⟦main_v26⟧ : (⟨S8x64x4096, .f32⟩ : BufTy).Contents (Elt Ideal)) (ix3 b o n) = r1 b o n)
    (h2 : ∀ b o n, (A⟦main_v37⟧ : (⟨S8x128x4096, .f32⟩ : BufTy).Contents (Elt Ideal)) (ix3 b o n) = r2 b o n)
    (b : Fin 8) (c : Fin 256) (n : Fin 4096) :
    (A⟦main_v38⟧ : (⟨S8x256x4096, .f32⟩ : BufTy).Contents (Elt Ideal)) (ix3 b c n)
      = if c0 : c.val < 64 then r0 b ⟨c.val, c0⟩ n
        else if c1 : c.val < 128 then r1 b ⟨c.val - 64, by omega⟩ n
        else r2 b ⟨c.val - 128, by have := c.isLt; omega⟩ n := by
  rw [s_main_v38]
  by_cases c0 : c.val < 64
  · rw [dif_pos c0]
    refine (concatenate_apply_piece (t := S8x256x4096) (1 : Fin 3) _ _ (ix3 b c n) 0 ?hk S8x64x4096 _ rfl rfl 0 rfl
      (ix3 b (⟨c.val, c0⟩ : Fin 64) n)
      (fun a ha => match a with | ⟨0, _⟩ => rfl | ⟨1, _⟩ => absurd rfl ha | ⟨2, _⟩ => rfl) ?ha).trans (h0 b _ n)
    case hk => show (0 : ℕ) < 3; omega
    case ha => show 0 + c.val = c.val; omega
  · rw [dif_neg c0]
    by_cases c1 : c.val < 128
    · rw [dif_pos c1]
      refine (concatenate_apply_piece (t := S8x256x4096) (1 : Fin 3) _ _ (ix3 b c n) 1 ?hk S8x64x4096 _ rfl rfl 64 rfl
        (ix3 b (⟨c.val - 64, by omega⟩ : Fin 64) n)
        (fun a ha => match a with | ⟨0, _⟩ => rfl | ⟨1, _⟩ => absurd rfl ha | ⟨2, _⟩ => rfl) ?ha).trans (h1 b _ n)
      case hk => show (1 : ℕ) < 3; omega
      case ha => show 64 + (c.val - 64) = c.val; omega
    · rw [dif_neg c1]
      refine (concatenate_apply_piece (t := S8x256x4096) (1 : Fin 3) _ _ (ix3 b c n) 2 ?hk S8x128x4096 _ rfl rfl 128 rfl
        (ix3 b (⟨c.val - 128, by have := c.isLt; omega⟩ : Fin 128) n)
        (fun a ha => match a with | ⟨0, _⟩ => rfl | ⟨1, _⟩ => absurd rfl ha | ⟨2, _⟩ => rfl) ?ha).trans (h2 b _ n)
      case hk => show (2 : ℕ) < 3; omega
      case ha => show 128 + (c.val - 128) = c.val; omega

/-- The last convolution over the concatenated channels, its bias, and the maximum over the points. -/
theorem stage3 (r0 r1 : Fin 8 → Fin 64 → Fin 4096 → EReal) (r2 : Fin 8 → Fin 128 → Fin 4096 → EReal)
    (h0 : ∀ b o n, (A⟦main_v15⟧ : (⟨S8x64x4096, .f32⟩ : BufTy).Contents (Elt Ideal)) (ix3 b o n) = r0 b o n)
    (h1 : ∀ b o n, (A⟦main_v26⟧ : (⟨S8x64x4096, .f32⟩ : BufTy).Contents (Elt Ideal)) (ix3 b o n) = r1 b o n)
    (h2 : ∀ b o n, (A⟦main_v37⟧ : (⟨S8x128x4096, .f32⟩ : BufTy).Contents (Elt Ideal)) (ix3 b o n) = r2 b o n) :
    (A⟦main_v44⟧ : (⟨S8x512, .f32⟩ : BufTy).Contents (Elt Ideal))
      = out2 fun b o => ⨆ n : Fin 4096, ((∑ c : Fin 256, at2 (a8 V) o c *
          (if c0 : c.val < 64 then r0 b ⟨c.val, c0⟩ n
            else if c1 : c.val < 128 then r1 b ⟨c.val - 64, by omega⟩ n
            else r2 b ⟨c.val - 128, by have := c.isLt; omega⟩ n)) + at1 (a9 V) o) := by
  funext j
  obtain ⟨b, o, rfl⟩ : ∃ (b : Fin 8) (o : Fin 512), j = ix2 b o := ⟨j 0, j 1, eq_ix2 j⟩
  show _ = ⨆ n : Fin 4096, ((∑ c : Fin 256, at2 (a8 V) o c *
          (if c0 : c.val < 64 then r0 b ⟨c.val, c0⟩ n
            else if c1 : c.val < 128 then r1 b ⟨c.val - 64, by omega⟩ n
            else r2 b ⟨c.val - 128, by have := c.isLt; omega⟩ n)) + at1 (a9 V) o)
  rw [s_main_v44]
  refine (reduce_max_last3 _ _ _ (by decide) h_S_ (fun i => ?_) b o).trans ?_
  · rw [s_main_cst_5]; exact ofBits_neg_inf
  · refine iSup_congr fun n => ?_
    rw [s_main_v43]
    refine (addf_apply _ _ _).trans (congrArg₂ (· + ·) ?_ ?_)
    · rw [s_main_v40]
      refine (transpose_ix3_021_apply _ _ b o n).trans ?_
      rw [s_main_v39]
      refine (dot3_apply _ none _ _ b n o).trans ?_
      refine Finset.sum_congr rfl fun c _ => ?_
      rw [v38_read V r0 r1 r2 h0 h1 h2, arg8_eq]
      exact mul_comm _ _
    · rw [s_main_v42, s_main_v41, arg9_eq]
      exact bias3_apply _ _ _ b o n

end

/-! ### The composition -/

/-- THE REFERENCE'S VALUE: the result buffer after the line is the specification's function of the ten argument arrays. -/
theorem ref_value (V : Valuation τ sig (Elt Ideal)) (hidx : IdxOK (V (Proc.devRef .tc main_arg1))) :
    StableHlo.after (ops (F := Ideal)) V (Proc.devRef .tc main_v44)
      = Cert.Decode.refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  have h0 := H0 V hidx
  have h1 := RefValue2.stage1 V hidx _ h0
  have h2 := RefValue2.stage2 V hidx _ h1
  exact (stage3 V _ _ _ h0 h1 h2).trans rfl

end Cert.ReferenceIdeal.RefValue

end
-- ==== Proof.KIFinal.lean ====
/-
  The idealized kernel's two claims: its frame, and against the reference's run the algebraic claim — both from the program's
  run under the precondition, which puts every neighbour word in range and makes every float input a real.
-/
import proofs.«209975_g17849884082380_cont_8to1_1483_11_alg».proof.Proof.KIHrun
import proofs.«209975_g17849884082380_cont_8to1_1483_11_alg».proof.Proof.KIClaims
import proofs.«209975_g17849884082380_cont_8to1_1483_11_alg».proof.Proof.KIGatherIdeal
import proofs.«209975_g17849884082380_cont_8to1_1483_11_alg».proof.Proof.RefValue

noncomputable section

namespace Cert.Proof.KI

open Cert.KernelIdeal Cert.KernelIdeal.Gen

open Idealize.ShloMosaic Idealize.SL.Sem

/-- The frame claim of the idealized kernel. -/
theorem frame_KernelIdeal : Cert.frame_KernelIdeal :=
  frame_KernelIdeal_of Rk fun m ρ hpre => hrun (F := Ideal) m ρ fun d =>
    Cert.Proof.PreDecode.idx_of_pre _ _ _ _ _ _ _ _ _ _ (hpre d)

/-- The algebraic claim: the idealized kernel and the idealized reference end with the same result. -/
theorem algebraic : Cert.algebraic_KernelIdeal_ReferenceIdeal :=
  algebraic_of Rk tcaY_spec tcaC_spec gmaxArr_spec gmaxLArr_spec tcbArr_spec tccArr_spec
    (fun m ρ hpre => hrun (F := Ideal) m ρ fun d => Cert.Proof.PreDecode.idx_of_pre _ _ _ _ _ _ _ _ _ _ (hpre d))
    (fun V h => Cert.ReferenceIdeal.RefValue.ref_value V h)

end Cert.Proof.KI

end
-- ==== Proof.KBSetup.lean ====
/-
  The kernel's program as the SparseCore launch theorem sees it: the label table, the three SparseCore
  calls' configuration, the proof's ghost state (the handshakes' rounds beside the TensorCore pipelines' rounds and the
  transfers' counters), the launch memory and the arrays @main and the kernels move between.
-/
import proofs.«209975_g17849884082380_cont_8to1_1483_11_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«209975_g17849884082380_cont_8to1_1483_11_alg».proof.Proof.Gen.Kernel
import proofs.«209975_g17849884082380_cont_8to1_1483_11_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

/-- The handshakes' rounds library: the left factor. -/
abbrev EH : Emb UH (MT nD τ sig (HIx 3) (Elt F) ℕ UU ℕ) := embL
/-- The TensorCore pipelines' rounds library: the left of the right factor; the counters are found by instance. -/
abbrev EP : Emb UP (MT nD τ sig (HIx 3) (Elt F) ℕ UU ℕ) := (Emb.inl : Emb UP (UP × Counters)).trans embR

end Cert.Proof.KB

end
-- ==== Proof.KBLaunch.lean ====
/-
  @main of the kernel's program on the TensorCore, step by step: seven stretches of host operations, three
  TensorCore pallas_calls and three SparseCore calls, threaded over the valuation of the TensorCore's unscoped arrays.
  What each pallas_call and each SparseCore call does to that valuation is taken here as a hypothesis (`RegionStep`,
  `CallStep`); this module chains them and hands the result to the SparseCore launch theorem.
-/
import proofs.«209975_g17849884082380_cont_8to1_1483_11_alg».proof.Proof.KBSetup
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within launchContents)
open Idealize.ShloMosaic.Tactic

variable {F : FTy → Type}

local notation "𝕄" => MT nD τ sig (HIx 3) (Elt F) ℕ UU ℕ

/-! ## The six kernel regions as functions of the arrays they read -/

/-- What each pallas_call and each SparseCore kernel leaves in its output arrays, as a function of its input arrays. -/
structure Regions (F : FTy → Type) where
  tcaY : Vec F S8x3x4096 .f32 → Vec F S64x6 .f32 → Vec F S64x1 .f32 → Vec F S8x64x4096 .f32
  tcaC : Vec F S8x3x4096 .f32 → Vec F S64x6 .f32 → Vec F S64x1 .f32 → Vec F S8x64x4096 .f32
  gmaxL : Vec F S8x262144 .f32 → IVec S8x20x4096 32 → Vec F S8x64x4096 .f32 → Vec F S8x64x4096 .f32
  gmaxP : Vec F S8x262144 .f32 → IVec S8x20x4096 32 → Vec F S8x64x4096 .f32
  tcb : Vec F S8x64x4096 .f32 → Vec F S64x64 .f32 → Vec F S64x1 .f32 → Vec F S8x64x4096 .f32
  tcc : Vec F S8x64x4096 .f32 → Vec F S8x64x4096 .f32 → Vec F S8x64x4096 .f32 → Vec F S128x64 .f32 → Vec F S128x1 .f32
    → Vec F S512x64 .f32 → Vec F S512x64 .f32 → Vec F S512x128 .f32 → Vec F S1x512 .f32 → Vec F S8x1x512 .f32

/-! ## The TensorCore's unscoped arrays -/

/-- A TensorCore array as a buffer of the device. -/
abbrev dr (b : Ref sig .tc) : DevRef τ sig := Proc.devRef .tc b

/-- The TensorCore's unscoped arrays: @main's arguments and values. -/
abbrev Sall : Finset (DevRef τ sig) := Pipeline.ucRefs τ sig

variable [FloatOps F]

/-! ## The host stretches of @main -/

abbrev hostA : List (HloOp τ sig (Elt F)) :=
  [ StableHlo.unary main_arg1 main_v0 ((transpose S8x20x4096 [0, 2, 1] · transposes_S8x4096x20_S8x20x4096_0_2_1) : (⟨S8x4096x20, .i32⟩ : BufTy).Contents (Elt F) → (⟨S8x20x4096, .i32⟩ : BufTy).Contents (Elt F)),
    StableHlo.unary main_arg0 main_v1 ((transpose S8x3x4096 [0, 2, 1] · transposes_S8x4096x3_S8x3x4096_0_2_1) : (⟨S8x4096x3, .f32⟩ : BufTy).Contents (Elt F) → (⟨S8x3x4096, .f32⟩ : BufTy).Contents (Elt F)),
    StableHlo.reshape main_arg3 main_v2 rfl shapeCasts_S64_S64x1 ]
abbrev hostB : List (HloOp τ sig (Elt F)) := [ StableHlo.reshape main_v3_0 main_v4 rfl shapeCasts_S8x64x4096_S8x262144 ]
abbrev hostC : List (HloOp τ sig (Elt F)) := [ StableHlo.reshape main_v5 main_v6 rfl shapeCasts_S8x64x4096_S8x262144 ]
abbrev hostD : List (HloOp τ sig (Elt F)) := [ StableHlo.reshape main_arg5 main_v8 rfl shapeCasts_S64_S64x1 ]
abbrev hostE : List (HloOp τ sig (Elt F)) := [ StableHlo.reshape main_v9 main_v10 rfl shapeCasts_S8x64x4096_S8x262144 ]
abbrev hostF : List (HloOp τ sig (Elt F)) :=
  [ StableHlo.reshape main_arg7 main_v12 rfl shapeCasts_S128_S128x1,
    StableHlo.reshape main_arg9 main_v13 rfl shapeCasts_S512_S1x512,
    StableHlo.unary main_arg8 main_v14 ((extractStridedSlice S512x64 ![0, 0] · slices_S512x256_S512x64_0_0) : (⟨S512x256, .f32⟩ : BufTy).Contents (Elt F) → (⟨S512x64, .f32⟩ : BufTy).Contents (Elt F)),
    StableHlo.unary main_arg8 main_v15 ((extractStridedSlice S512x64 ![0, 64] · slices_S512x256_S512x64_0_64) : (⟨S512x256, .f32⟩ : BufTy).Contents (Elt F) → (⟨S512x64, .f32⟩ : BufTy).Contents (Elt F)),
    StableHlo.unary main_arg8 main_v16 ((extractStridedSlice S512x128 ![0, 128] · slices_S512x256_S512x128_0_128) : (⟨S512x256, .f32⟩ : BufTy).Contents (Elt F) → (⟨S512x128, .f32⟩ : BufTy).Contents (Elt F)) ]
abbrev hostG : List (HloOp τ sig (Elt F)) := [ StableHlo.reshape main_v17 main_v18 rfl shapeCasts_S8x1x512_S8x512 ]

/-! ## The valuations between the steps -/

section Chain

variable (R : Regions F) (W₀ : Valuation τ sig (Elt F))

def W1 : Valuation τ sig (Elt F) := StableHlo.after hostA W₀
def W2 : Valuation τ sig (Elt F) :=
  Function.update (Function.update (W1 W₀) (dr main_v3_0) (R.tcaY (W1 W₀ (dr main_v1)) (W1 W₀ (dr main_arg2)) (W1 W₀ (dr main_v2))))
    (dr main_v3_1) (R.tcaC (W1 W₀ (dr main_v1)) (W1 W₀ (dr main_arg2)) (W1 W₀ (dr main_v2)))
def W3 : Valuation τ sig (Elt F) := StableHlo.after hostB (W2 R W₀)
def W4 : Valuation τ sig (Elt F) :=
  Function.update (W3 R W₀) (dr main_v5) (R.gmaxL (W3 R W₀ (dr main_v4)) (W3 R W₀ (dr main_v0)) (W3 R W₀ (dr main_v3_1)))
def W5 : Valuation τ sig (Elt F) := StableHlo.after hostC (W4 R W₀)
def W6 : Valuation τ sig (Elt F) := Function.update (W5 R W₀) (dr main_v7) (R.gmaxP (W5 R W₀ (dr main_v6)) (W5 R W₀ (dr main_v0)))
def W7 : Valuation τ sig (Elt F) := StableHlo.after hostD (W6 R W₀)
def W8 : Valuation τ sig (Elt F) := Function.update (W7 R W₀) (dr main_v9) (R.tcb (W7 R W₀ (dr main_v7)) (W7 R W₀ (dr main_arg4)) (W7 R W₀ (dr main_v8)))
def W9 : Valuation τ sig (Elt F) := StableHlo.after hostE (W8 R W₀)
def W10 : Valuation τ sig (Elt F) := Function.update (W9 R W₀) (dr main_v11) (R.gmaxP (W9 R W₀ (dr main_v10)) (W9 R W₀ (dr main_v0)))
def W11 : Valuation τ sig (Elt F) := StableHlo.after hostF (W10 R W₀)
def W12 : Valuation τ sig (Elt F) :=
  Function.update (W11 R W₀) (dr main_v17) (R.tcc (W11 R W₀ (dr main_v11)) (W11 R W₀ (dr main_v5)) (W11 R W₀ (dr main_v9)) (W11 R W₀ (dr main_arg6))
    (W11 R W₀ (dr main_v12)) (W11 R W₀ (dr main_v14)) (W11 R W₀ (dr main_v15)) (W11 R W₀ (dr main_v16)) (W11 R W₀ (dr main_v13)))
def W13 : Valuation τ sig (Elt F) := StableHlo.after hostG (W12 R W₀)

end Chain

/-! ## The steps @main is chained from -/

section Steps

variable (P : (K (F := F)).Pay (nD := nD) (Val := Elt F) (Name := ℕ) (U := UU))

/-- SparseCore call `q` on device `d` takes the TensorCore's arrays from `W` to `W'` (the call's operands lent to the
    SparseCores and returned, its result array rewritten) and the TensorCore's handshake state one round on. -/
def CallStep (q : Fin 3) (d : Dev nD) (W W' : Valuation τ sig (Elt F)) : Prop :=
  ∀ (κ : GSem nD τ sig → ℕ) (Φ : PUnit → sProp 𝕄),
    iprop((K (F := F)).ctx EH P κ ∗ (K (F := F)).tcSt EH d q.val ∗ (held (T d) Sall W : sProp 𝕄)
        ∗ (((K (F := F)).tcSt EH d (q.val + 1) ∗ (held (T d) Sall W' : sProp 𝕄)) -∗ Φ ⟨⟩))
      ⊢ wp frame (wpE ((K (F := F)).defs (D (F := F))) 𝒱 (T d) none) Set.univ ((K (F := F)).run d q) Φ

/-- The pallas_call `p`, entered after `n` SparseCore calls, takes the TensorCore's arrays from `W` to `W'` and what @main
    holds for the pipelines from `G` to `G'`; the region boundary and the handshake state are kept. -/
def RegionStep (p : Fin 3) (n : ℕ) (d : Dev nD) (W W' : Valuation τ sig (Elt F)) (G G' : sProp 𝕄) : Prop :=
  ∀ (κ : GSem nD τ sig → ℕ) (Φ : PUnit → sProp 𝕄),
    iprop((K (F := F)).ctx EH P κ ∗ (K (F := F)).tcSt EH d n ∗ boundary (T d) ∗ (held (T d) Sall W : sProp 𝕄) ∗ G
        ∗ (((K (F := F)).tcSt EH d n ∗ boundary (T d) ∗ (held (T d) Sall W' : sProp 𝕄) ∗ G') -∗ Φ ⟨⟩))
      ⊢ wp frame (wpE ((K (F := F)).defs (D (F := F))) 𝒱 (T d) none) Set.univ
          (Prog.lift (.customCall (SparseCore.inner (Pipeline.entry p)) ())) Φ

/-- One host operation of @main: the region boundary and the arrays, the operation's result written. -/
theorem host_step (d : Dev nD) {op : HloOp τ sig (Elt F)} {W : Valuation τ sig (Elt F)} (hS : op.bufs ⊆ Sall)
    {Φ : PUnit → sProp 𝕄} (hf : op.fresh = ∅ := by first | rfl | decide) :
    iprop(boundary (T d) ∗ (held (T d) Sall W : sProp 𝕄) ∗ ((boundary (T d) ∗ (held (T d) Sall (op.result W) : sProp 𝕄)) -∗ Φ ⟨⟩))
      ⊢ wp frame (wpE ((K (F := F)).defs (D (F := F))) 𝒱 (T d) none) Set.univ (hlo rfl op (fun _ => .ret ⟨⟩)) Φ := by
  iintro ⟨Hb, Hh, Hk⟩
  iapply (wp_hlo_within 𝒱 (T d) none Set.univ (op := op) (S := Sall) hS (V := W) hf) $$ [Hb Hh]
  · isplitl [Hb]; · iexact Hb
    iexact Hh
  iintro H
  rw [wp_ret]; imodintro
  iapply Hk; iexact H

end Steps

/-! ## @main -/

section Main

variable (R : Regions F) (P : (K (F := F)).Pay (nD := nD) (Val := Elt F) (Name := ℕ) (U := UU))
variable (m : (ℓ : Loc nD τ sig) → Buf (Elt F) ℓ) (ρ : Dev nD → PrngReg)
variable (G0 G1 G2 G3 : Dev nD → sProp (MT nD τ sig (HIx 3) (Elt F) ℕ UU ℕ))

omit [FloatOps F] in
/-- The TensorCore's unscoped arrays as the launch deals them are the set `Sall` held at the launch contents. -/
theorem unscoped_held (d : Dev nD) :
    (unscopedBufs d (fun b => m ((SparseCore.T d).loc b)) : sProp 𝕄) = held (SparseCore.T d) Sall (launchContents m d) :=
  Pipeline.unscopedBufs_held d (launchContents m d)

/-- @main on device `d`'s TensorCore, from what the launch deals it and what @main holds for the pipelines: the
    handshakes through their three rounds, the arrays at the last valuation. -/
theorem hmain
    (hR0 : ∀ d, RegionStep P 0 0 d (W1 (launchContents m d)) (W2 R (launchContents m d)) (G0 d) (G1 d))
    (hC0 : ∀ d, CallStep P 0 d (W3 R (launchContents m d)) (W4 R (launchContents m d)))
    (hC1 : ∀ d, CallStep P 1 d (W5 R (launchContents m d)) (W6 R (launchContents m d)))
    (hR1 : ∀ d, RegionStep P 1 2 d (W7 R (launchContents m d)) (W8 R (launchContents m d)) (G1 d) (G2 d))
    (hC2 : ∀ d, CallStep P 2 d (W9 R (launchContents m d)) (W10 R (launchContents m d)))
    (hR2 : ∀ d, RegionStep P 2 3 d (W11 R (launchContents m d)) (W12 R (launchContents m d)) (G2 d) (G3 d))
    (κ : GSem nD τ sig → ℕ) (d : Dev nD) :
    iprop((K (F := F)).ctx EH P κ ∗ (K (F := F)).tcSt EH d 0 ∗ (K (F := F)).tcRes m ρ d ∗ G0 d)
      ⊢ wp frame (wpE ((K (F := F)).defs (D (F := F))) 𝒱 (T d) none) Set.univ (main d)
          fun _ => iprop((K (F := F)).tcSt EH d 3 ∗ (held (T d) Sall (W13 R (launchContents m d)) : sProp 𝕄)) := by
  unfold SparseCore.Cfg.tcRes
  rw [unscoped_held]
  simp only [main, wp_bind, wp_pure]
  iintro ⟨#Hctx, Hst, ⟨Hb, Hh, -, -⟩, HG⟩
  -- the first host stretch
  iapply (host_step d (W := launchContents m d) (Pipeline.sub_ucRefs _ (StableHlo.unary_bufs_sub ..))) $$ [Hb Hh Hst HG]
  isplitl [Hb]; · iexact Hb
  isplitl [Hh]; · iexact Hh
  iintro ⟨Hb, Hh⟩
  iapply (host_step d (Pipeline.sub_ucRefs _ (StableHlo.unary_bufs_sub ..))) $$ [Hb Hh Hst HG]
  isplitl [Hb]; · iexact Hb
  isplitl [Hh]; · iexact Hh
  iintro ⟨Hb, Hh⟩
  iapply (host_step d (Pipeline.sub_ucRefs _ (StableHlo.reshape_bufs_sub ..))) $$ [Hb Hh Hst HG]
  isplitl [Hb]; · iexact Hb
  isplitl [Hh]; · iexact Hh
  iintro ⟨Hb, Hh⟩
  -- the first pallas_call
  iapply (hR0 d κ _) $$ [Hst Hb Hh HG]
  isplitr; · iexact Hctx
  isplitl [Hst]; · iexact Hst
  isplitl [Hb]; · iexact Hb
  isplitl [Hh]; · iexact Hh
  isplitl [HG]; · iexact HG
  iintro ⟨Hst, Hb, Hh, HG⟩
  -- the stretch before the first SparseCore call, and the call
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (hC0 d κ _) $$ [Hst Hb Hh HG]
  isplitr; · iexact Hctx
  isplitl [Hst]; · iexact Hst
  isplitl [Hh]; · iexact Hh
  iintro ⟨Hst, Hh⟩
  -- the second SparseCore call
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (hC1 d κ _) $$ [Hst Hb Hh HG]
  isplitr; · iexact Hctx
  isplitl [Hst]; · iexact Hst
  isplitl [Hh]; · iexact Hh
  iintro ⟨Hst, Hh⟩
  -- the second pallas_call
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (hR1 d κ _) $$ [Hst Hb Hh HG]
  isplitr; · iexact Hctx
  isplitl [Hst]; · iexact Hst
  isplitl [Hb]; · iexact Hb
  isplitl [Hh]; · iexact Hh
  isplitl [HG]; · iexact HG
  iintro ⟨Hst, Hb, Hh, HG⟩
  -- the third SparseCore call
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (hC2 d κ _) $$ [Hst Hb Hh HG]
  isplitr; · iexact Hctx
  isplitl [Hst]; · iexact Hst
  isplitl [Hh]; · iexact Hh
  iintro ⟨Hst, Hh⟩
  -- the last pallas_call, its operands reshaped and sliced first
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (host_step d (Pipeline.sub_ucRefs _ (StableHlo.reshape_bufs_sub ..))) $$ [Hb Hh Hst HG]
  isplitl [Hb]; · iexact Hb
  isplitl [Hh]; · iexact Hh
  iintro ⟨Hb, Hh⟩
  iapply (host_step d (Pipeline.sub_ucRefs _ (StableHlo.unary_bufs_sub ..))) $$ [Hb Hh Hst HG]
  isplitl [Hb]; · iexact Hb
  isplitl [Hh]; · iexact Hh
  iintro ⟨Hb, Hh⟩
  iapply (host_step d (Pipeline.sub_ucRefs _ (StableHlo.unary_bufs_sub ..))) $$ [Hb Hh Hst HG]
  isplitl [Hb]; · iexact Hb
  isplitl [Hh]; · iexact Hh
  iintro ⟨Hb, Hh⟩
  iapply (host_step d (Pipeline.sub_ucRefs _ (StableHlo.unary_bufs_sub ..))) $$ [Hb Hh Hst HG]
  isplitl [Hb]; · iexact Hb
  isplitl [Hh]; · iexact Hh
  iintro ⟨Hb, Hh⟩
  iapply (hR2 d κ _) $$ [Hst Hb Hh HG]
  isplitr; · iexact Hctx
  isplitl [Hst]; · iexact Hst
  isplitl [Hb]; · iexact Hb
  isplitl [Hh]; · iexact Hh
  isplitl [HG]; · iexact HG
  iintro ⟨Hst, Hb, Hh, HG⟩
  -- the result reshaped
  iapply (host_step d (Pipeline.sub_ucRefs _ (StableHlo.reshape_bufs_sub ..))) $$ [Hb Hh Hst HG]
  isplitl [Hb]; · iexact Hb
  isplitl [Hh]; · iexact Hh
  iintro ⟨Hb, Hh⟩
  imodintro
  isplitl [Hst]; · iexact Hst
  iexact Hh

end Main

end Cert.Proof.KB

end
-- ==== Proof.KBRun.lean ====
/-
  The kernel's program run: the SparseCore launch theorem applied to @main's chain of steps, and what the
  final memory then holds.
-/
import proofs.«209975_g17849884082380_cont_8to1_1483_11_alg».proof.Proof.KBLaunch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within launchContents)
open Idealize.ShloMosaic.Tactic

variable {F : FTy → Type}

local notation "𝕄" => MT nD τ sig (HIx 3) (Elt F) ℕ UU ℕ

variable [FloatOps F]

/-! ## The run -/

section Run

variable (R : Regions F) (P : (K (F := F)).Pay (nD := nD) (Val := Elt F) (Name := ℕ) (U := UU))
variable (m : (ℓ : Loc nD τ sig) → Buf (Elt F) ℓ) (ρ : Dev nD → PrngReg)

omit [FloatOps F] in
/-- Arrays held whole agree with the memory: each holds the valuation's contents. -/
theorem held_agree (d : Dev nD) (S₀ : Finset (DevRef τ sig)) (W : Valuation τ sig (Elt F)) (b : DevRef τ sig) (hb : b ∈ S₀)
    (s' : Phys nD τ sig (Elt F)) :
    iprop((held (SparseCore.T d) S₀ W : sProp 𝕄) ∗ SI s') ⊢ (⌜s'.mem.mem (d, b) = W b⌝ : sProp 𝕄) := by
  unfold held
  have h2 : iprop((((d, b) : Loc nD τ sig) ↦{fullShare} W b : sProp 𝕄) ∗ SI s') ⊢ (⌜s'.mem.mem (d, b) = W b⌝ : sProp 𝕄) := by
    iintro ⟨Hb, HSI⟩
    ihave H := (SI_pointsTo_agree (st := s') (ℓ := (d, b)) (I := Finset.univ) (q := fullShare) (f := W b)) $$ [HSI Hb]
    · isplitl [HSI] <;> iassumption
    icases H with %h
    ipureintro; exact funext fun i => h i (Finset.mem_univ i)
  exact (BI.sep_mono (bigSep_elim (Φ := fun b => iprop(((d, b) : Loc nD τ sig) ↦{fullShare} W b)) hb) (BI.Entails.refl _)).trans h2

end Run

section RunMain

variable (R : Regions F) (P : (K (F := F)).Pay (nD := nD) (Val := Elt F) (Name := ℕ) (U := UU)) [P.IsStorable]
variable (m : (ℓ : Loc nD τ sig) → Buf (Elt F) ℓ) (ρ : Dev nD → PrngReg)
variable (G0 G1 G2 G3 : Dev nD → sProp (MT nD τ sig (HIx 3) (Elt F) ℕ UU ℕ))

/-- What the claims read off the final memory: on every device each of the TensorCore's arrays holds @main's last valuation. -/
def QC : PUnit × MemSt nD τ sig (Elt F) → Prop :=
  fun r => ∀ (c : Dev nD) (b : DevRef τ sig), b ∈ Sall → r.2.mem (c, b) = W13 R (launchContents m c) b

/-- The program's run, from the tiles' obligations, the calls' splits, the launch element and the six steps of @main. -/
theorem run_main [∀ e, Nonempty (Elt F e)]
    (htile : ∀ q, (K (F := F)).kind q = .scVector → (K (F := F)).TileObl (D (F := F)) 𝒱 P v₀ q)
    (hvec : ∀ q, (K (F := F)).kind q = .scVector → (K (F := F)).VecSplit P q)
    (hscalar : ∀ q, (K (F := F)).kind q = .scScalar → (K (F := F)).ScalarObl (D (F := F)) 𝒱 P v₀ q)
    (u₀ : UU)
    (hu₀ : iprop((ownU u₀ : sProp 𝕄) ∗ P.oxCred ∗ (K (F := F)).freeSems0)
      ⊢ |={Set.univ}=> iprop(BI.own (EH (initOf (K (F := F)).hsCells (K (F := F)).hsToks)) ∗ bigSep Finset.univ G0
        ∗ bigSep Finset.univ fun thr : Thread nD τ => bigSep Finset.univ fun q : Fin 3 => P.x q thr))
    (hheld : P.held = ∅)
    (hR0 : ∀ d, RegionStep P 0 0 d (W1 (launchContents m d)) (W2 R (launchContents m d)) (G0 d) (G1 d))
    (hC0 : ∀ d, CallStep P 0 d (W3 R (launchContents m d)) (W4 R (launchContents m d)))
    (hC1 : ∀ d, CallStep P 1 d (W5 R (launchContents m d)) (W6 R (launchContents m d)))
    (hR1 : ∀ d, RegionStep P 1 2 d (W7 R (launchContents m d)) (W8 R (launchContents m d)) (G1 d) (G2 d))
    (hC2 : ∀ d, CallStep P 2 d (W9 R (launchContents m d)) (W10 R (launchContents m d)))
    (hR2 : ∀ d, RegionStep P 2 3 d (W11 R (launchContents m d)) (W12 R (launchContents m d)) (G2 d) (G3 d)) :
    θ_run (Cert.Kernel.defs (F := F)) (Cert.Kernel.threads (F := F)) ⟨m, fun _ => 0, ρ⟩ (QC R m) :=
  SparseCore.Cfg.θ_run_sc (K := K (F := F)) (D := D (F := F)) (𝒱 := 𝒱) (EH := EH) (P := P) facts v₀
    hscalar htile hvec
    m ρ main G0 (fun d => (held (SparseCore.T d) Sall (W13 R (launchContents m d)) : sProp 𝕄)) u₀ hu₀
    (hmain R P m ρ G0 G1 G2 G3 hR0 hC0 hC1 hR1 hC2 hR2)
    (fun d s' => ∀ b : DevRef τ sig, b ∈ Sall → s'.mem.mem (d, b) = W13 R (launchContents m d) b)
    (fun d s' => fun x hx b hb => held_agree d Sall (W13 R (launchContents m d)) b hb s' x hx)
    (QC R m) (fun s' h c b hb => h c b hb) hheld

end RunMain

end Cert.Proof.KB

end
-- ==== Proof.KBTile2Defs.lean ====
/-
  One tile of the second SparseCore call (the plain gather-and-max): the array it computes, and the resources a tile takes
  and gives back.
-/
import proofs.«209975_g17849884082380_cont_8to1_1483_11_alg».proof.Proof.KBSetup
import Idealize.ShloMosaic.Lib.Transfers
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

/-! ## The value -/

/-- The source array's index of channel `c`, point `w` (reduced into the cloud) of cloud `b`. -/
def srcIx (b : Fin 8) (c : Fin 64) (w : BitVec 32) : S8x262144.Idx :=
  ix2 b ⟨c.val * 4096 + w.toNat % 4096, by have := c.isLt; have := Nat.mod_lt w.toNat (show 0 < 4096 by norm_num); omega⟩

variable [FloatOps F]

/-- The pooled array: entry `(b, c, n)` is the maximum, folded from minus infinity over the 20 neighbours in order, of the
    source at channel `c` of the neighbours of point `n`. -/
def gmaxArr (src : Vec F S8x262144 .f32) (idx : IVec S8x20x4096 32) : Vec F S8x64x4096 .f32 :=
  fun j => (List.finRange 20).foldl
    (fun (acc : F .f32) (k : Fin 20) => FloatOps.maximumf acc (src (srcIx (j 0) (j 1) (idx (ix3 (j 0) k (j 2))))))
    (Scalar.ofBits .f32 0xFF800000#32)

/-! ## The tile, its thread and its memrefs -/

section Tile

variable (d : Dev nD) (L : grid2.Coords)

abbrev cV (L : grid2.Coords) : Fin τ.nSC := (L 0).castLE hcore2
abbrev jV (L : grid2.Coords) : Fin τ.nSub := (L 1).castLE hsub2

/-- The tile's number among the 32: twice its subcore's plus its core's. -/
def wid (L : grid2.Coords) : Fin 32 := ⟨(L 1).val * 2 + (L 0).val, by
  have h0 : (L 0).val < 2 := (L 0).isLt
  have h1 : (L 1).val < 16 := (L 1).isLt
  omega⟩

/-- The read share a tile holds of the source and of the index array. -/
abbrev qT (L : grid2.Coords) : PosShare TreeShare := Transfers.shareTok fullShare 32 (wid L)

abbrev srcLoc (d : Dev nD) : Loc nD τ sig := (SparseCore.T d).loc main_v6
abbrev idxLoc (d : Dev nD) : Loc nD τ sig := (SparseCore.T d).loc main_v0
abbrev outLoc (d : Dev nD) : Loc nD τ sig := (SparseCore.T d).loc main_v7

local notation "srcW" => (Memref.whole Cert.Kernel.main_v6_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v7_scv : Memref Cert.Kernel.sig Kind.scVector Space.hbm Cert.Kernel.S8x64x4096 EltTy.f32)
local notation "slabW" => (Memref.whole Cert.Kernel.cc2_scratch0 : Memref Cert.Kernel.sig Kind.scVector Space.vmem Cert.Kernel.S65536 EltTy.f32)
local notation "idxbW" => (Memref.whole Cert.Kernel.cc2_scratch1 : Memref Cert.Kernel.sig Kind.scVector Space.vmem Cert.Kernel.S20x1024 EltTy.i32)
local notation "outbW" => (Memref.whole Cert.Kernel.cc2_scratch2 : Memref Cert.Kernel.sig Kind.scVector Space.vmem Cert.Kernel.S16x1024 EltTy.f32)

/-- The four pieces of the output a tile writes, as the program slices them. -/
abbrev oP0 (L : grid2.Coords) : Memref sig .scVector .hbm S16x1024 .f32 :=
  ((outW).slice (Rect.unit (s := S8x64x4096) (k2_off24 L) S1x16x1024.size (k2_off24_inb L)) (fun _ => rfl)).squeeze S16x1024 squeezes_S1x16x1024_S16x1024
abbrev oP1 (L : grid2.Coords) : Memref sig .scVector .hbm S16x1024 .f32 :=
  ((outW).slice (Rect.unit (s := S8x64x4096) (k2_off47 L) S1x16x1024.size (k2_off47_inb L)) (fun _ => rfl)).squeeze S16x1024 squeezes_S1x16x1024_S16x1024
abbrev oP2 (L : grid2.Coords) : Memref sig .scVector .hbm S16x1024 .f32 :=
  ((outW).slice (Rect.unit (s := S8x64x4096) (k2_off70 L) S1x16x1024.size (k2_off70_inb L)) (fun _ => rfl)).squeeze S16x1024 squeezes_S1x16x1024_S16x1024
abbrev oP3 (L : grid2.Coords) : Memref sig .scVector .hbm S16x1024 .f32 :=
  ((outW).slice (Rect.unit (s := S8x64x4096) (k2_off93 L) S1x16x1024.size (k2_off93_inb L)) (fun _ => rfl)).squeeze S16x1024 squeezes_S1x16x1024_S16x1024

abbrev oSet0 (L : grid2.Coords) : Finset S8x64x4096.Idx := (oP0 L).view.set
abbrev oSet1 (L : grid2.Coords) : Finset S8x64x4096.Idx := (oP1 L).view.set
abbrev oSet2 (L : grid2.Coords) : Finset S8x64x4096.Idx := (oP2 L).view.set
abbrev oSet3 (L : grid2.Coords) : Finset S8x64x4096.Idx := (oP3 L).view.set

variable (fs : Buf (Elt F) (srcLoc d)) (fi : Buf (Elt F) (idxLoc d))

/-- What a tile takes: a read share of the source and of the index array, and its four output pieces at contents not
    chosen. -/
def go2 : sProp 𝕄 :=
  iprop((srcLoc d ↦{qT L} fs) ∗ (idxLoc d ↦{qT L} fi)
    ∗ (∃ f, outLoc d ↦[oSet0 L]{fullShare} f) ∗ (∃ f, outLoc d ↦[oSet1 L]{fullShare} f)
    ∗ (∃ f, outLoc d ↦[oSet2 L]{fullShare} f) ∗ (∃ f, outLoc d ↦[oSet3 L]{fullShare} f))

variable [FloatOps F]

/-- What a tile gives back: the two read shares, and its four output pieces at the pooled array. -/
def td2 : sProp 𝕄 :=
  iprop((srcLoc d ↦{qT L} fs) ∗ (idxLoc d ↦{qT L} fi)
    ∗ (outLoc d ↦[oSet0 L]{fullShare} gmaxArr fs fi) ∗ (outLoc d ↦[oSet1 L]{fullShare} gmaxArr fs fi)
    ∗ (outLoc d ↦[oSet2 L]{fullShare} gmaxArr fs fi) ∗ (outLoc d ↦[oSet3 L]{fullShare} gmaxArr fs fi))

end Tile

end Cert.Proof.KB

end
-- ==== Proof.KBTile1Defs.lean ====
/-
  One tile of the first SparseCore call (the gather-and-max with the added centre term and the rectifier): the array it
  computes, and the resources a tile takes and gives back.
-/
import proofs.«209975_g17849884082380_cont_8to1_1483_11_alg».proof.Proof.KBSetup
import proofs.«209975_g17849884082380_cont_8to1_1483_11_alg».proof.Proof.KBTile2Defs
import Idealize.ShloMosaic.Lib.Transfers
import Idealize.ShloMosaic.Lib.ValueIdx

noncomputable section

namespace Cert.Proof.KB.T1

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

/-! ## The value -/

section Value

variable [FloatOps F]

/-- The leaky rectifier as the program computes it on one lane: the value itself where it compares greater than zero,
    else the value times the slope literal. -/
def lreluF (v : F .f32) : F .f32 :=
  Scalar.select (FloatOps.cmpf .ogt v (Scalar.ofBits .f32 0x00000000#32)) v
    (FloatOps.mulf v (Scalar.ofBits .f32 0x3E4CCCCD#32))

/-- The pooled and rectified array: entry `(b, c, n)` is the rectifier of the sum of the pooled source (the maximum over
    the 20 neighbours of point `n` at channel `c`) and the centre term at `(b, c, n)`. -/
def gmaxLArr (src : Vec F S8x262144 .f32) (idx : IVec S8x20x4096 32) (cep : Vec F S8x64x4096 .f32) :
    Vec F S8x64x4096 .f32 :=
  fun j => lreluF (FloatOps.addf (gmaxArr src idx j) (cep j))

end Value

/-! ## The tile, its thread and its memrefs -/

section Tile

variable (d : Dev nD) (L : grid1.Coords)

abbrev cV (L : grid1.Coords) : Fin τ.nSC := (L 0).castLE hcore1
abbrev jV (L : grid1.Coords) : Fin τ.nSub := (L 1).castLE hsub1

/-- The tile's number among the 32: twice its subcore's plus its core's. -/
def wid (L : grid1.Coords) : Fin 32 := ⟨(L 1).val * 2 + (L 0).val, by
  have h0 : (L 0).val < 2 := (L 0).isLt
  have h1 : (L 1).val < 16 := (L 1).isLt
  omega⟩

/-- The read share a tile holds of the source, of the index array and of the centre term. -/
abbrev qT (L : grid1.Coords) : PosShare TreeShare := Transfers.shareTok fullShare 32 (wid L)

abbrev srcLoc (d : Dev nD) : Loc nD τ sig := (SparseCore.T d).loc main_v4
abbrev idxLoc (d : Dev nD) : Loc nD τ sig := (SparseCore.T d).loc main_v0
abbrev cepLoc (d : Dev nD) : Loc nD τ sig := (SparseCore.T d).loc main_v3_1
abbrev outLoc (d : Dev nD) : Loc nD τ sig := (SparseCore.T d).loc main_v5

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)
local notation "slabW" => (Memref.whole Cert.Kernel.cc1_scratch0 : Memref Cert.Kernel.sig Kind.scVector Space.vmem Cert.Kernel.S65536 EltTy.f32)
local notation "idxbW" => (Memref.whole Cert.Kernel.cc1_scratch1 : Memref Cert.Kernel.sig Kind.scVector Space.vmem Cert.Kernel.S20x1024 EltTy.i32)
local notation "outbW" => (Memref.whole Cert.Kernel.cc1_scratch2 : Memref Cert.Kernel.sig Kind.scVector Space.vmem Cert.Kernel.S16x1024 EltTy.f32)
local notation "cepbW" => (Memref.whole Cert.Kernel.cc1_scratch3 : Memref Cert.Kernel.sig Kind.scVector Space.vmem Cert.Kernel.S16x1024 EltTy.f32)

/-- The four pieces of the output a tile writes, as the program slices them. -/
abbrev oP0 (L : grid1.Coords) : Memref sig .scVector .hbm S16x1024 .f32 :=
  ((outW).slice (Rect.unit (s := S8x64x4096) (k1_off3 L) S1x16x1024.size (k1_off3_inb L)) (fun _ => rfl)).squeeze S16x1024 squeezes_S1x16x1024_S16x1024
abbrev oP1 (L : grid1.Coords) : Memref sig .scVector .hbm S16x1024 .f32 :=
  ((outW).slice (Rect.unit (s := S8x64x4096) (k1_off26 L) S1x16x1024.size (k1_off26_inb L)) (fun _ => rfl)).squeeze S16x1024 squeezes_S1x16x1024_S16x1024
abbrev oP2 (L : grid1.Coords) : Memref sig .scVector .hbm S16x1024 .f32 :=
  ((outW).slice (Rect.unit (s := S8x64x4096) (k1_off49 L) S1x16x1024.size (k1_off49_inb L)) (fun _ => rfl)).squeeze S16x1024 squeezes_S1x16x1024_S16x1024
abbrev oP3 (L : grid1.Coords) : Memref sig .scVector .hbm S16x1024 .f32 :=
  ((outW).slice (Rect.unit (s := S8x64x4096) (k1_off72 L) S1x16x1024.size (k1_off72_inb L)) (fun _ => rfl)).squeeze S16x1024 squeezes_S1x16x1024_S16x1024

abbrev oSet0 (L : grid1.Coords) : Finset S8x64x4096.Idx := (oP0 L).view.set
abbrev oSet1 (L : grid1.Coords) : Finset S8x64x4096.Idx := (oP1 L).view.set
abbrev oSet2 (L : grid1.Coords) : Finset S8x64x4096.Idx := (oP2 L).view.set
abbrev oSet3 (L : grid1.Coords) : Finset S8x64x4096.Idx := (oP3 L).view.set

variable (fs : Buf (Elt F) (srcLoc d)) (fi : Buf (Elt F) (idxLoc d)) (fc : Buf (Elt F) (cepLoc d))

/-- What a tile takes: a read share of the source, of the index array and of the centre term, and its four output pieces
    at contents not chosen. -/
def go1 : sProp 𝕄 :=
  iprop((srcLoc d ↦{qT L} fs) ∗ (idxLoc d ↦{qT L} fi) ∗ (cepLoc d ↦{qT L} fc)
    ∗ (∃ f, outLoc d ↦[oSet0 L]{fullShare} f) ∗ (∃ f, outLoc d ↦[oSet1 L]{fullShare} f)
    ∗ (∃ f, outLoc d ↦[oSet2 L]{fullShare} f) ∗ (∃ f, outLoc d ↦[oSet3 L]{fullShare} f))

variable [FloatOps F]

/-- What a tile gives back: the three read shares, and its four output pieces at the pooled and rectified array. -/
def td1 : sProp 𝕄 :=
  iprop((srcLoc d ↦{qT L} fs) ∗ (idxLoc d ↦{qT L} fi) ∗ (cepLoc d ↦{qT L} fc)
    ∗ (outLoc d ↦[oSet0 L]{fullShare} gmaxLArr fs fi fc) ∗ (outLoc d ↦[oSet1 L]{fullShare} gmaxLArr fs fi fc)
    ∗ (outLoc d ↦[oSet2 L]{fullShare} gmaxLArr fs fi fc) ∗ (outLoc d ↦[oSet3 L]{fullShare} gmaxLArr fs fi fc))

end Tile

end Cert.Proof.KB.T1

end
-- ==== Proof.KBTile4Defs.lean ====
/-
  One tile of the third SparseCore call (the plain gather-and-max again, on the second layer's output): the resources a tile takes
  and gives back.
-/
import proofs.«209975_g17849884082380_cont_8to1_1483_11_alg».proof.Proof.KBSetup
import Idealize.ShloMosaic.Lib.Transfers
import Idealize.ShloMosaic.Lib.ValueIdx
import proofs.«209975_g17849884082380_cont_8to1_1483_11_alg».proof.Proof.KBTile2Defs

noncomputable section

namespace Cert.Proof.KB.T4

open Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

/-! ## The tile, its thread and its memrefs -/

section Tile

variable (d : Dev nD) (L : grid4.Coords)

abbrev cV (L : grid4.Coords) : Fin τ.nSC := (L 0).castLE hcore4
abbrev jV (L : grid4.Coords) : Fin τ.nSub := (L 1).castLE hsub4

/-- The tile's number among the 32: twice its subcore's plus its core's. -/
def wid (L : grid4.Coords) : Fin 32 := ⟨(L 1).val * 2 + (L 0).val, by
  have h0 : (L 0).val < 2 := (L 0).isLt
  have h1 : (L 1).val < 16 := (L 1).isLt
  omega⟩

/-- The read share a tile holds of the source and of the index array. -/
abbrev qT (L : grid4.Coords) : PosShare TreeShare := Transfers.shareTok fullShare 32 (wid L)

abbrev srcLoc (d : Dev nD) : Loc nD τ sig := (SparseCore.T d).loc main_v10
abbrev idxLoc (d : Dev nD) : Loc nD τ sig := (SparseCore.T d).loc main_v0
abbrev outLoc (d : Dev nD) : Loc nD τ sig := (SparseCore.T d).loc main_v11

local notation "srcW" => (Memref.whole Cert.Kernel.main_v10_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v11_scv : Memref Cert.Kernel.sig Kind.scVector Space.hbm Cert.Kernel.S8x64x4096 EltTy.f32)
local notation "slabW" => (Memref.whole Cert.Kernel.cc4_scratch0 : Memref Cert.Kernel.sig Kind.scVector Space.vmem Cert.Kernel.S65536 EltTy.f32)
local notation "idxbW" => (Memref.whole Cert.Kernel.cc4_scratch1 : Memref Cert.Kernel.sig Kind.scVector Space.vmem Cert.Kernel.S20x1024 EltTy.i32)
local notation "outbW" => (Memref.whole Cert.Kernel.cc4_scratch2 : Memref Cert.Kernel.sig Kind.scVector Space.vmem Cert.Kernel.S16x1024 EltTy.f32)

/-- The four pieces of the output a tile writes, as the program slices them. -/
abbrev oP0 (L : grid4.Coords) : Memref sig .scVector .hbm S16x1024 .f32 :=
  ((outW).slice (Rect.unit (s := S8x64x4096) (k4_off24 L) S1x16x1024.size (k4_off24_inb L)) (fun _ => rfl)).squeeze S16x1024 squeezes_S1x16x1024_S16x1024
abbrev oP1 (L : grid4.Coords) : Memref sig .scVector .hbm S16x1024 .f32 :=
  ((outW).slice (Rect.unit (s := S8x64x4096) (k4_off47 L) S1x16x1024.size (k4_off47_inb L)) (fun _ => rfl)).squeeze S16x1024 squeezes_S1x16x1024_S16x1024
abbrev oP2 (L : grid4.Coords) : Memref sig .scVector .hbm S16x1024 .f32 :=
  ((outW).slice (Rect.unit (s := S8x64x4096) (k4_off70 L) S1x16x1024.size (k4_off70_inb L)) (fun _ => rfl)).squeeze S16x1024 squeezes_S1x16x1024_S16x1024
abbrev oP3 (L : grid4.Coords) : Memref sig .scVector .hbm S16x1024 .f32 :=
  ((outW).slice (Rect.unit (s := S8x64x4096) (k4_off93 L) S1x16x1024.size (k4_off93_inb L)) (fun _ => rfl)).squeeze S16x1024 squeezes_S1x16x1024_S16x1024

abbrev oSet0 (L : grid4.Coords) : Finset S8x64x4096.Idx := (oP0 L).view.set
abbrev oSet1 (L : grid4.Coords) : Finset S8x64x4096.Idx := (oP1 L).view.set
abbrev oSet2 (L : grid4.Coords) : Finset S8x64x4096.Idx := (oP2 L).view.set
abbrev oSet3 (L : grid4.Coords) : Finset S8x64x4096.Idx := (oP3 L).view.set

variable (fs : Buf (Elt F) (srcLoc d)) (fi : Buf (Elt F) (idxLoc d))

/-- What a tile takes: a read share of the source and of the index array, and its four output pieces at contents not
    chosen. -/
def go4 : sProp 𝕄 :=
  iprop((srcLoc d ↦{qT L} fs) ∗ (idxLoc d ↦{qT L} fi)
    ∗ (∃ f, outLoc d ↦[oSet0 L]{fullShare} f) ∗ (∃ f, outLoc d ↦[oSet1 L]{fullShare} f)
    ∗ (∃ f, outLoc d ↦[oSet2 L]{fullShare} f) ∗ (∃ f, outLoc d ↦[oSet3 L]{fullShare} f))

variable [FloatOps F]

/-- What a tile gives back: the two read shares, and its four output pieces at the pooled array. -/
def td4 : sProp 𝕄 :=
  iprop((srcLoc d ↦{qT L} fs) ∗ (idxLoc d ↦{qT L} fi)
    ∗ (outLoc d ↦[oSet0 L]{fullShare} gmaxArr fs fi) ∗ (outLoc d ↦[oSet1 L]{fullShare} gmaxArr fs fi)
    ∗ (outLoc d ↦[oSet2 L]{fullShare} gmaxArr fs fi) ∗ (outLoc d ↦[oSet3 L]{fullShare} gmaxArr fs fi))

end Tile

end Cert.Proof.KB.T4

end
-- ==== Proof.KBP.lean ====
/-
  What the three SparseCore calls' handshakes carry: each call hands every tile its task's resources (read shares of the
  arrays it gathers from, its pieces of the output array) at the contents @main's chain of valuations gives the arrays
  when the call is made, and takes them back with the output pieces at the call's function of those contents.
-/
import proofs.«209975_g17849884082380_cont_8to1_1483_11_alg».proof.Proof.KBLaunch
import proofs.«209975_g17849884082380_cont_8to1_1483_11_alg».proof.Proof.KBTile1Defs
import proofs.«209975_g17849884082380_cont_8to1_1483_11_alg».proof.Proof.KBTile2Defs
import proofs.«209975_g17849884082380_cont_8to1_1483_11_alg».proof.Proof.KBTile4Defs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type}

local notation "𝕄" => MT nD τ sig (HIx 3) (Elt F) ℕ UU ℕ

/-- A tile of a call's grid `[2, 16]` from its SparseCore's and its subcore's numbers within the call. -/
def coords1 (c : Fin ((K (F := F)).nCore 0)) (i : Fin ((K (F := F)).nSub 0)) : grid1.Coords :=
  fun | 0 => ⟨c.val, c.isLt⟩ | 1 => ⟨i.val, i.isLt⟩ | ⟨_ + 2, h⟩ => absurd h (Nat.not_lt.2 (Nat.le_add_left _ _))
def coords2 (c : Fin ((K (F := F)).nCore 1)) (i : Fin ((K (F := F)).nSub 1)) : grid2.Coords :=
  fun | 0 => ⟨c.val, c.isLt⟩ | 1 => ⟨i.val, i.isLt⟩ | ⟨_ + 2, h⟩ => absurd h (Nat.not_lt.2 (Nat.le_add_left _ _))
def coords4 (c : Fin ((K (F := F)).nCore 2)) (i : Fin ((K (F := F)).nSub 2)) : grid4.Coords :=
  fun | 0 => ⟨c.val, c.isLt⟩ | 1 => ⟨i.val, i.isLt⟩ | ⟨_ + 2, h⟩ => absurd h (Nat.not_lt.2 (Nat.le_add_left _ _))

variable [FloatOps F]

section Pay

variable (R : Regions F) (m : (ℓ : Loc nD τ sig) → Buf (Elt F) ℓ)

/-- What a task of call `q` takes. -/
def goF : (q : Fin 3) → Dev nD → Fin ((K (F := F)).nCore q) → Fin ((K (F := F)).nSub q) → sProp 𝕄
  | 0, d, c, i => T1.go1 d (coords1 c i) (W3 R (launchContents m d) (dr main_v4)) (W3 R (launchContents m d) (dr main_v0)) (W3 R (launchContents m d) (dr main_v3_1))
  | 1, d, c, i => go2 d (coords2 c i) (W5 R (launchContents m d) (dr main_v6)) (W5 R (launchContents m d) (dr main_v0))
  | 2, d, c, i => T4.go4 d (coords4 c i) (W9 R (launchContents m d) (dr main_v10)) (W9 R (launchContents m d) (dr main_v0))

/-- What a task of call `q` gives back. -/
def tdF : (q : Fin 3) → Dev nD → Fin ((K (F := F)).nCore q) → Fin ((K (F := F)).nSub q) → sProp 𝕄
  | 0, d, c, i => T1.td1 d (coords1 c i) (W3 R (launchContents m d) (dr main_v4)) (W3 R (launchContents m d) (dr main_v0)) (W3 R (launchContents m d) (dr main_v3_1))
  | 1, d, c, i => td2 d (coords2 c i) (W5 R (launchContents m d) (dr main_v6)) (W5 R (launchContents m d) (dr main_v0))
  | 2, d, c, i => T4.td4 d (coords4 c i) (W9 R (launchContents m d) (dr main_v10)) (W9 R (launchContents m d) (dr main_v0))

/-- The calls' payloads: a SparseCore takes and gives back its sixteen tasks' resources; no kernel consumes anything of
    the launch's. -/
def P : (K (F := F)).Pay (nD := nD) (Val := Elt F) (Name := ℕ) (U := UU) where
  st := fun q d c => bigSep Finset.univ fun i => goF R m q d c i
  dn := fun q d c => bigSep Finset.univ fun i => tdF R m q d c i
  go := goF R m
  td := tdF R m
  x := fun _ _ => iprop(emp)

end Pay

end Cert.Proof.KB

end
-- ==== Proof.KBGhost.lean ====
/-
  What @main holds for its three TensorCore kernel regions: per pipeline, the launch state of its staging cells'
  rounds and the duty tokens of the transfers its loop issues, funded at the launch from the pipelines' rounds element.
-/
import proofs.«209975_g17849884082380_cont_8to1_1483_11_alg».proof.Proof.KBSetup
import proofs.«209975_g17849884082380_cont_8to1_1483_11_alg».proof.Proof.Gen.Kernel.Launch
import Idealize.ShloMosaic.Lib.Pipeline.Sound

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-! ## The pipelines' ghost state @main holds -/

/-- The one admissible contents of the (absent) prefetched tables of each pipeline. -/
abbrev adm : (p : Fin 3) → (pcfgs (F := F) p).Adm := fun p => (cfgs p).toPCfg_adm

/-- The launch element of the pipelines' rounds: every staging cell of the three pipelines, every transfer their loops issue. -/
abbrev uP : UP := initOf (Pipeline.cells (nD := nD) (τ := τ) cfgs cellOf_inj) (Pipeline.launchToks (nD := nD) (τ := τ) cfgs cellOf_inj)

/-- What @main holds of pipeline p on device d before its region: the staging cells' launch state and the loop's duty tokens. -/
abbrev pipeGhost (p : Fin 3) (d : Dev nD) : sProp 𝕄 :=
  iprop(Pipeline.cellsGhost (nD := nD) (τ := τ) (Val := Elt F) (Ix := HIx 3) (Name := ℕ) (U := UU) (Lvl := ℕ) cfgs (EP (F := F)) p d
    ∗ Pipeline.toksInit (nD := nD) (τ := τ) (Val := Elt F) (Ix := HIx 3) (Name := ℕ) (U := UU) (Lvl := ℕ) cfgs (EP (F := F)) p d)

/-- What @main must hold for its three regions. -/
def mainGhost (d : Dev nD) : sProp 𝕄 := bigSep Finset.univ fun p : Fin 3 => pipeGhost (F := F) p d

theorem fund_main : (BI.own ((EP (F := F)) uP) : sProp 𝕄) ⊢ |==> bigSep Finset.univ (mainGhost (F := F)) := by
  refine (Pipeline.fund_ghost (nD := nD) (τ := τ) cfgs (EP (F := F)) cellOf_inj).trans ?_
  iintro H
  imod H with ⟨Hg, Ht⟩
  imodintro
  unfold mainGhost
  simp only [bigSep_sep']
  isplitl [Hg] <;> iassumption

theorem mainGhost_eq (d : Dev nD) : (mainGhost (F := F) d) = iprop(pipeGhost (F := F) 0 d ∗ pipeGhost (F := F) 1 d ∗ pipeGhost (F := F) 2 d) := by
  unfold mainGhost
  rw [show (Finset.univ : Finset (Fin 3)) = {0, 1, 2} by decide, SparseCore.bigSep_insert' (by decide), SparseCore.bigSep_insert' (by decide), bigSep_singleton]

end Cert.Proof.KB

end
-- ==== Proof.KBObl.lean ====
/-
  The SparseCore launch theorem's obligations for the calls' payloads: the payloads travel inside the handshake cells'
  invariants; a call's operands split into its sixteen tasks' and its results gather from theirs by definition; a task of
  each call, as the launch theorem runs it, is the call's tile body at the tile's coordinates; no call runs on a sequencer;
  nothing is held from the launch.
-/
import proofs.«209975_g17849884082380_cont_8to1_1483_11_alg».proof.Proof.KBP
import proofs.«209975_g17849884082380_cont_8to1_1483_11_alg».proof.Proof.KBGhost

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type} [FloatOps F]

local notation "𝕄" => MT nD τ sig (HIx 3) (Elt F) ℕ UU ℕ

section Obligations

variable (R : Regions F) (m : (ℓ : Loc nD τ sig) → Buf (Elt F) ℓ)

/-! ## The payloads are storable -/

theorem goF_storable (q : Fin 3) (d : Dev nD) (c : Fin ((K (F := F)).nCore q)) (i : Fin ((K (F := F)).nSub q)) :
    BI.Storable (upEmb : UEmb _ 𝕄) (goF R m q d c i) := by
  match q with
  | 0 => unfold goF T1.go1; infer_instance
  | 1 => unfold goF go2; infer_instance
  | 2 => unfold goF T4.go4; infer_instance

theorem tdF_storable (q : Fin 3) (d : Dev nD) (c : Fin ((K (F := F)).nCore q)) (i : Fin ((K (F := F)).nSub q)) :
    BI.Storable (upEmb : UEmb _ 𝕄) (tdF R m q d c i) := by
  match q with
  | 0 => unfold tdF T1.td1; infer_instance
  | 1 => unfold tdF td2; infer_instance
  | 2 => unfold tdF T4.td4; infer_instance

instance P_storable : (P R m).IsStorable where
  st q d c := by
    haveI : ∀ i, BI.Storable (upEmb : UEmb _ 𝕄) (goF R m q d c i) := goF_storable R m q d c
    show BI.Storable (upEmb : UEmb _ 𝕄) (bigSep Finset.univ fun i => goF R m q d c i)
    infer_instance
  dn q d c := by
    haveI : ∀ i, BI.Storable (upEmb : UEmb _ 𝕄) (tdF R m q d c i) := tdF_storable R m q d c
    show BI.Storable (upEmb : UEmb _ 𝕄) (bigSep Finset.univ fun i => tdF R m q d c i)
    infer_instance
  go q d c i := goF_storable R m q d c i
  td q d c i := tdF_storable R m q d c i

/-! ## A call's operands are its tasks', its results theirs -/

theorem vecSplit (q : Fin 3) : (K (F := F)).VecSplit (P R m) q :=
  SparseCore.Cfg.VecSplit.of_plain fun d c => by
    show (bigSep Finset.univ fun i => goF R m q d c i) ⊢ |={Set.univ}=> iprop((bigSep Finset.univ fun i => goF R m q d c i)
      ∗ ((bigSep Finset.univ fun i => tdF R m q d c i) -∗ bigSep Finset.univ fun i => tdF R m q d c i))
    iintro H; imodintro
    isplitl [H]; · iexact H
    iintro H; iexact H

/-! ## A task of each call is the call's tile body at the tile's coordinates -/

/-- A tile of a grid [2, 16] from its two coordinates, as the body table passes them. -/
def tileAt1 (c : Fin (grid1.bound 0)) (s : Fin (grid1.bound 1)) : grid1.Coords :=
  fun | 0 => c | 1 => s | ⟨_ + 2, h⟩ => absurd h (Nat.not_lt.2 (Nat.le_add_left _ _))
def tileAt2 (c : Fin (grid2.bound 0)) (s : Fin (grid2.bound 1)) : grid2.Coords :=
  fun | 0 => c | 1 => s | ⟨_ + 2, h⟩ => absurd h (Nat.not_lt.2 (Nat.le_add_left _ _))
def tileAt4 (c : Fin (grid4.bound 0)) (s : Fin (grid4.bound 1)) : grid4.Coords :=
  fun | 0 => c | 1 => s | ⟨_ + 2, h⟩ => absurd h (Nat.not_lt.2 (Nat.le_add_left _ _))

/-- The body table's row of each SparseCore call on a vector subcore: the call's tile body at the subcore's coordinates
    when the grid holds it. -/
theorem defs₀_vector1 (c : Fin τ.nSC) (s : Fin τ.nSub) :
    defs₀ (F := F) (.scVector c s) 1 ()
      = SparseCore.onTile hcore1 hsub1 (fun c s => cc1_body (tileAt1 c s)
          (Memref.whole main_v4_scv) (Memref.isWhole_whole _) (Memref.whole main_v0_scv) (Memref.isWhole_whole _)
          (Memref.whole main_v3_1_scv) (Memref.isWhole_whole _) (Memref.whole main_v5_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scoped0 cc1_scoped1 cc1_scoped2 cc1_scoped3 cc1_scoped4 cc1_scoped5 cc1_scoped6 cc1_scoped7 cc1_scoped8 cc1_scoped9
          cc1_scoped10 cc1_scoped11 cc1_scoped12) ⟨⟩ c s := rfl
theorem defs₀_vector2 (c : Fin τ.nSC) (s : Fin τ.nSub) :
    defs₀ (F := F) (.scVector c s) 2 ()
      = SparseCore.onTile hcore2 hsub2 (fun c s => cc2_body (tileAt2 c s)
          (Memref.whole main_v6_scv) (Memref.isWhole_whole _) (Memref.whole main_v0_scv) (Memref.isWhole_whole _)
          (Memref.whole main_v7_scv) (Memref.isWhole_whole _)
          (Memref.whole cc2_scratch0) (Memref.isWhole_whole _) (Memref.whole cc2_scratch1) (Memref.isWhole_whole _)
          (Memref.whole cc2_scratch2) (Memref.isWhole_whole _)
          cc2_scoped0 cc2_scoped1 cc2_scoped2 cc2_scoped3 cc2_scoped4 cc2_scoped5 cc2_scoped6 cc2_scoped7 cc2_scoped8) ⟨⟩ c s := rfl
theorem defs₀_vector4 (c : Fin τ.nSC) (s : Fin τ.nSub) :
    defs₀ (F := F) (.scVector c s) 4 ()
      = SparseCore.onTile hcore4 hsub4 (fun c s => cc4_body (tileAt4 c s)
          (Memref.whole main_v10_scv) (Memref.isWhole_whole _) (Memref.whole main_v0_scv) (Memref.isWhole_whole _)
          (Memref.whole main_v11_scv) (Memref.isWhole_whole _)
          (Memref.whole cc4_scratch0) (Memref.isWhole_whole _) (Memref.whole cc4_scratch1) (Memref.isWhole_whole _)
          (Memref.whole cc4_scratch2) (Memref.isWhole_whole _)
          cc4_scoped0 cc4_scoped1 cc4_scoped2 cc4_scoped3 cc4_scoped4 cc4_scoped5 cc4_scoped6 cc4_scoped7 cc4_scoped8) ⟨⟩ c s := rfl

/-- The coordinates the body table passes are the task's. -/
theorem tileAt1_eq (c : Fin ((K (F := F)).nCore 0)) (i : Fin ((K (F := F)).nSub 0)) (h0 h1) :
    tileAt1 ⟨((K (F := F)).core 0 c).val, h0⟩ ⟨((K (F := F)).sub 0 i).val, h1⟩ = coords1 (F := F) c i :=
  funext fun a => match a with
    | ⟨0, _⟩ => rfl
    | ⟨1, _⟩ => rfl
theorem tileAt2_eq (c : Fin ((K (F := F)).nCore 1)) (i : Fin ((K (F := F)).nSub 1)) (h0 h1) :
    tileAt2 ⟨((K (F := F)).core 1 c).val, h0⟩ ⟨((K (F := F)).sub 1 i).val, h1⟩ = coords2 (F := F) c i :=
  funext fun a => match a with
    | ⟨0, _⟩ => rfl
    | ⟨1, _⟩ => rfl
theorem tileAt4_eq (c : Fin ((K (F := F)).nCore 2)) (i : Fin ((K (F := F)).nSub 2)) (h0 h1) :
    tileAt4 ⟨((K (F := F)).core 2 c).val, h0⟩ ⟨((K (F := F)).sub 2 i).val, h1⟩ = coords4 (F := F) c i :=
  funext fun a => match a with
    | ⟨0, _⟩ => rfl
    | ⟨1, _⟩ => rfl

omit [FloatOps F] in
/-- A body that records only waits at no index records only waits the call may record. -/
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The second call's task, from its tile body. -/
theorem tileObl1 (hF : (K (F := F)).Facts) (hidx : ∀ d j, (W5 R (launchContents m d) (dr main_v0) j).toNat < 4096)
    (hbody : ∀ (d : Dev nD) (L : grid2.Coords) (fs : Buf (Elt F) (srcLoc d)) (fi : Buf (Elt F) (idxLoc d)) (hi : ∀ j, (fi j).toNat < 4096)
        (O : CellTallies nD τ sig (HIx 3)) (W : Waits sig (HIx 3)) (hO : ∀ g, O g none = 0),
      iprop(levAts (K (F := F)).L (K (F := F)).lev ∗ emp ∗ go2 d L fs fi ∗ scopedBufs (V d (cV L) (jV L)) ∗ scopedSems0 (V d (cV L) (jV L))
          ∗ owes (V d (cV L) (jV L)) O W)
        ⊢ wp frame (wpE (defs₀ (F := F)) 𝒱₀ (V d (cV L) (jV L)) none) Set.univ
            (cc2_body L (Memref.whole main_v6_scv) (Memref.isWhole_whole _) (Memref.whole main_v0_scv) (Memref.isWhole_whole _)
              (Memref.whole main_v7_scv) (Memref.isWhole_whole _) (Memref.whole cc2_scratch0) (Memref.isWhole_whole _)
              (Memref.whole cc2_scratch1) (Memref.isWhole_whole _) (Memref.whole cc2_scratch2) (Memref.isWhole_whole _)
              cc2_scoped0 cc2_scoped1 cc2_scoped2 cc2_scoped3 cc2_scoped4 cc2_scoped5 cc2_scoped6 cc2_scoped7 cc2_scoped8)
            fun _ => iprop(td2 d L fs fi ∗ scopedBufs (V d (cV L) (jV L)) ∗ scopedSems0 (V d (cV L) (jV L))
              ∗ ∃ W', ⌜∀ p ∈ W', p ∈ W ∨ p.2 = none⌝ ∗ owes (V d (cV L) (jV L)) O W')) :
    (K (F := F)).TileObl (D (F := F)) 𝒱 (P R m) v₀ 1 := by
  intro d c i O W hO _ _
  simp only [show (P R m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (hbody d (tileAt2 ⟨_, hc.1⟩ ⟨_, hc.2⟩) _ _ (hidx d) O W hO).trans (wp_mono frame _ _ fun _ => obl_post)

/-- The first call's task, from its tile body. -/
theorem tileObl0 (hF : (K (F := F)).Facts) (hidx : ∀ d j, (W3 R (launchContents m d) (dr main_v0) j).toNat < 4096)
    (hbody : ∀ (d : Dev nD) (L : grid1.Coords) (fs : Buf (Elt F) (T1.srcLoc d)) (fi : Buf (Elt F) (T1.idxLoc d))
        (fc : Buf (Elt F) (T1.cepLoc d)) (hi : ∀ j, (fi j).toNat < 4096)
        (O : CellTallies nD τ sig (HIx 3)) (W : Waits sig (HIx 3)) (hO : ∀ g, O g none = 0),
      iprop(levAts (K (F := F)).L (K (F := F)).lev ∗ emp ∗ T1.go1 d L fs fi fc ∗ scopedBufs (V d (T1.cV L) (T1.jV L))
          ∗ scopedSems0 (V d (T1.cV L) (T1.jV L)) ∗ owes (V d (T1.cV L) (T1.jV L)) O W)
        ⊢ wp frame (wpE (defs₀ (F := F)) 𝒱₀ (V d (T1.cV L) (T1.jV L)) none) Set.univ
            (cc1_body L (Memref.whole main_v4_scv) (Memref.isWhole_whole _) (Memref.whole main_v0_scv) (Memref.isWhole_whole _)
              (Memref.whole main_v3_1_scv) (Memref.isWhole_whole _) (Memref.whole main_v5_scv) (Memref.isWhole_whole _)
              (Memref.whole cc1_scratch0) (Memref.isWhole_whole _) (Memref.whole cc1_scratch1) (Memref.isWhole_whole _)
              (Memref.whole cc1_scratch2) (Memref.isWhole_whole _) (Memref.whole cc1_scratch3) (Memref.isWhole_whole _)
              cc1_scoped0 cc1_scoped1 cc1_scoped2 cc1_scoped3 cc1_scoped4 cc1_scoped5 cc1_scoped6 cc1_scoped7 cc1_scoped8 cc1_scoped9
              cc1_scoped10 cc1_scoped11 cc1_scoped12)
            fun _ => iprop(T1.td1 d L fs fi fc ∗ scopedBufs (V d (T1.cV L) (T1.jV L)) ∗ scopedSems0 (V d (T1.cV L) (T1.jV L))
              ∗ ∃ W', ⌜∀ p ∈ W', p ∈ W ∨ p.2 = none⌝ ∗ owes (V d (T1.cV L) (T1.jV L)) O W')) :
    (K (F := F)).TileObl (D (F := F)) 𝒱 (P R m) v₀ 0 := by
  intro d c i O W hO _ _
  simp only [show (P R m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  exact (hbody d (tileAt1 ⟨_, hc.1⟩ ⟨_, hc.2⟩) _ _ _ (hidx d) O W hO).trans (wp_mono frame _ _ fun _ => obl_post)

/-- The third call's task, from its tile body. -/
theorem tileObl2 (hF : (K (F := F)).Facts) (hidx : ∀ d j, (W9 R (launchContents m d) (dr main_v0) j).toNat < 4096)
    (hbody : ∀ (d : Dev nD) (L : grid4.Coords) (fs : Buf (Elt F) (T4.srcLoc d)) (fi : Buf (Elt F) (T4.idxLoc d))
        (hi : ∀ j, (fi j).toNat < 4096)
        (O : CellTallies nD τ sig (HIx 3)) (W : Waits sig (HIx 3)) (hO : ∀ g, O g none = 0),
      iprop(levAts (K (F := F)).L (K (F := F)).lev ∗ emp ∗ T4.go4 d L fs fi ∗ scopedBufs (V d (T4.cV L) (T4.jV L))
          ∗ scopedSems0 (V d (T4.cV L) (T4.jV L)) ∗ owes (V d (T4.cV L) (T4.jV L)) O W)
        ⊢ wp frame (wpE (defs₀ (F := F)) 𝒱₀ (V d (T4.cV L) (T4.jV L)) none) Set.univ
            (cc4_body L (Memref.whole main_v10_scv) (Memref.isWhole_whole _) (Memref.whole main_v0_scv) (Memref.isWhole_whole _)
              (Memref.whole main_v11_scv) (Memref.isWhole_whole _) (Memref.whole cc4_scratch0) (Memref.isWhole_whole _)
              (Memref.whole cc4_scratch1) (Memref.isWhole_whole _) (Memref.whole cc4_scratch2) (Memref.isWhole_whole _)
              cc4_scoped0 cc4_scoped1 cc4_scoped2 cc4_scoped3 cc4_scoped4 cc4_scoped5 cc4_scoped6 cc4_scoped7 cc4_scoped8)
            fun _ => iprop(T4.td4 d L fs fi ∗ scopedBufs (V d (T4.cV L) (T4.jV L)) ∗ scopedSems0 (V d (T4.cV L) (T4.jV L))
              ∗ ∃ W', ⌜∀ p ∈ W', p ∈ W ∨ p.2 = none⌝ ∗ owes (V d (T4.cV L) (T4.jV L)) O W')) :
    (K (F := F)).TileObl (D (F := F)) 𝒱 (P R m) v₀ 2 := by
  intro d c i O W hO _ _
  simp only [show (P R m).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector4]; simp only [SparseCore.onTile, hc, and_self, ↓reduceDIte]
  exact (hbody d (tileAt4 ⟨_, hc.1⟩ ⟨_, hc.2⟩) _ _ (hidx d) O W hO).trans (wp_mono frame _ _ fun _ => obl_post)

/-! ## No call runs on a sequencer; nothing is held from the launch -/

theorem hscalar : ∀ q, (K (F := F)).kind q = .scScalar → (K (F := F)).ScalarObl (D (F := F)) 𝒱 (P R m) v₀ q := fun q h => by
  have key : ∀ q : Fin 3, scKind q ≠ Kind.scScalar := by decide
  exact absurd h (key q)

theorem hheld : (P R m).held = ∅ := rfl

/-! ## The launch element -/

/-- The launch element: the handshakes' rounds, the pipelines' rounds, nothing of the transfers' counters. -/
def u₀ : UU := (initOf (K (F := F)).hsCells (K (F := F)).hsToks, (uP, 1))

omit [FloatOps F] in
/-- Nothing, over any index set, is nothing. -/
theorem bigSep_emp_M {I : Type} (s : Finset I) : (bigSep s fun _ => iprop(emp)) = (iprop(emp) : sProp 𝕄) := bigSep_emp_const s

/-- The launch element splits into the handshakes' rounds, which the launch theorem takes, and the pipelines' rounds, which
    fund what @main holds for its three regions; the calls' threads are dealt nothing. -/
theorem hu₀_own : (ownU (u₀ (F := F)) : sProp 𝕄)
    ⊢ |={Set.univ}=> iprop(BI.own (EH (initOf (K (F := F)).hsCells (K (F := F)).hsToks)) ∗ bigSep Finset.univ (mainGhost (F := F))
        ∗ bigSep Finset.univ fun thr : Thread nD τ => bigSep Finset.univ fun q : Fin 3 => (P R m).x q thr) := by
  unfold u₀
  iintro Hu
  ihave H := (ownU_pair _ _) $$ Hu
  icases H with ⟨HH, HR⟩
  ihave H2 := (own_pair_emb embR uP 1) $$ HR
  icases H2 with ⟨HP, -⟩
  imod (fund_main (F := F)) $$ HP with HG
  imodintro
  isplitl [HH]; · iexact HH
  isplitl [HG]; · iexact HG
  show _ ⊢ (bigSep Finset.univ fun _ : Thread nD τ => bigSep Finset.univ fun _ : Fin 3 => (iprop(emp) : sProp 𝕄))
  rw [show (bigSep Finset.univ fun _ : Thread nD τ => bigSep Finset.univ fun _ : Fin 3 => (iprop(emp) : sProp 𝕄)) = iprop(emp) from by
    rw [bigSep_congr fun _ _ => bigSep_emp_M _, bigSep_emp_M]]

/-- The same from what the launch hands over: the credit of the kernels' own protocols (none here) and the free
    semaphores are not used. -/
theorem hu₀ : iprop((ownU (u₀ (F := F)) : sProp 𝕄) ∗ (P R m).oxCred ∗ (K (F := F)).freeSems0)
    ⊢ |={Set.univ}=> iprop(BI.own (EH (initOf (K (F := F)).hsCells (K (F := F)).hsToks)) ∗ bigSep Finset.univ (mainGhost (F := F))
        ∗ bigSep Finset.univ fun thr : Thread nD τ => bigSep Finset.univ fun q : Fin 3 => (P R m).x q thr) :=
  sep_elim_left.trans (hu₀_own R m)

end Obligations

end Cert.Proof.KB

end
-- ==== Proof.KBRegion.lean ====
/-
  Entering a TensorCore kernel region from @main of a program that also runs SparseCore calls.

  @main runs on the TensorCore under the body table extended by the SparseCore calls.  A region's line is a call of the
  lifted entry label of its pipeline; a proof about the region under the pipelines' own table lifts to the extended
  table, so the region is run by the pipeline library's region step.  What is special here: during a region the
  TensorCore still owes the start signals of the SparseCore calls that come later, and its recorded waits must stay
  below the level of the next call, so the region's proof data carry those tallies and that bound through every point;
  the pipeline's waits sit at the index of no call, level zero, below everything owed.
-/
import proofs.«209975_g17849884082380_cont_8to1_1483_11_alg».proof.Proof.KBSetup
import proofs.«209975_g17849884082380_cont_8to1_1483_11_alg».proof.Proof.KBGhost
import proofs.«209975_g17849884082380_cont_8to1_1483_11_alg».proof.Proof.Gen.Kernel.Launch
import Idealize.ShloMosaic.Lib.Pipeline.Regions
import Idealize.ShloMosaic.Lib.Pipeline.Frame

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

/-! ## A region -/

section Region

/-- What the TensorCore owes before SparseCore call n, its recorded waits bounded: the first part of its handshake state. -/
def tcOwes (d : Dev nD) (n : ℕ) : sProp 𝕄 :=
  iprop(∃ W, ⌜(K (F := F)).WBelow (T d) W (8 * n)⌝ ∗ owes (T d) ((K (F := F)).Otc d n) W)

/-- The pairs the TensorCore's waits may have recorded before call n. -/
def tcRec (d : Dev nD) (n : ℕ) : Set (SemLoc sig × HIx 3) := {pr | (K (F := F)).lev (T d, pr.1) pr.2 ≤ 8 * n}

/-- The TensorCore owes nothing at the index of no call: every unit it owes is a call's start signal. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

variable (pdats : (p : Fin 3) → (d : Dev nD) → Pipeline.Dat τ (Elt F) (HIx 3) ℕ UU ℕ (Pipeline.pin (pcfgs (F := F)) adm p) d)
variable (lv : GSem nD τ sig → HIx 3 → ℕ) (hlv : (K (F := F)).Refines lv)
variable (p : Fin 3) (n : ℕ) (kit : Pipeline.LaunchFacts (nD := nD) (τ := τ) cfgs p)
variable (hbody : ∀ d : Dev nD, Pipeline.BodyObligation (pdats p d) defs₀ 𝒱₀ (none : HIx 3) Set.univ)
variable (hshare : ∀ (d : Dev nD) w, (pdats p d).share w = fullShare)
variable (howed : ∀ (d : Dev nD) t, (pdats p d).owed t = (K (F := F)).Otc d n)
variable (hrec : ∀ (d : Dev nD) t, (pdats p d).recorded t = tcRec (F := F) d n)
variable (V V' : (d : Dev nD) → (b : Ref sig .tc) → Buf (Elt F) ((d.tc : Thread nD τ).loc b))
variable (hA : ∀ (d : Dev nD) w, (pdats p d).A w = V d (Pipeline.arrRef (cfgs p).spec w))
variable (hV' : ∀ (d : Dev nD) w, V' d (Pipeline.arrRef (cfgs p).spec w) = (pdats p d).arrAt w (cfgs p).N)
variable (hVr : ∀ (d : Dev nD) b, (∀ w, Pipeline.arrRef (cfgs p).spec w ≠ b) → V' d b = V d b)

include hlv howed in
/-- The pipeline's waits, at the index of no call, sit below every start signal the TensorCore owes. -/
theorem region_waits (d : Dev nD) :
    (levAts (K (F := F)).L lv : sProp 𝕄) ⊢ Pipeline.cellsWaits (Pipeline.pin (pcfgs (F := F)) adm) pdats (none : HIx 3) p d := by
  refine Pipeline.cellsWaits_intro (Pipeline.pin (pcfgs (F := F)) adm) pdats (none : HIx 3) p d fun w s t => ?_
  rw [howed d t]
  exact (K (F := F)).mayWait_none _ (fun g => Otc_none d n g) lv hlv

include kit hshare howed hrec hA in
/-- Entry: the windows' arrays out of @main's arrays, what is owed as the proof data spell it. -/
theorem region_entry (d : Dev nD) :
    iprop((tcOwes (F := F) d n ∗ unscopedBufs d (V d)) ∗ Pipeline.ownSems0 (fun k : PEmpty => k.elim) d ∗ levAts (K (F := F)).L lv)
      ⊢ |={Set.univ}=> iprop((pdats p d).arrays ((pdats p d).arrAt · 0) ∗ Pipeline.prefHeld (pcfgs (F := F) p).pre d (fun _ => fullShare) (adm (F := F) p).1
        ∗ (pdats p d).owesAt none 0 ∗ (emp : sProp 𝕄) ∗ Pipeline.unscopedRest (cfgs p).spec d (V d)) := by
  unfold tcOwes
  iintro ⟨⟨⟨%W, %hW, HO⟩, Hu⟩, -, -⟩
  imodintro
  ihave Ha := (Pipeline.arrays_of_unscopedBufs (pcfgs (F := F)) adm pdats (p := p) kit.win kit.arr_whole d (hshare d) (V d) (hA d)) $$ Hu
  icases Ha with ⟨Ha, Hr⟩
  isplitl [Ha]; · iexact Ha
  isplitr
  · unfold Pipeline.prefHeld; rw [Finset.univ_eq_empty, bigSep_empty]; iempintro
  isplitl [HO]
  · iexists W; isplitr
    · ipureintro; intro pr hpr; left; rw [hrec d 0]; exact hW pr (Finset.mem_coe.mp hpr)
    · rw [howed d 0]; iexact HO
  isplitr; · iempintro
  iexact Hr

include kit hshare howed hrec hV' hVr in
/-- Exit: @main's arrays again, the windows' at what the pipeline leaves; what is owed as the handshake state spells it. -/
theorem region_exit (d : Dev nD) :
    iprop((pdats p d).arrays ((pdats p d).arrAt · (cfgs p).N) ∗ (pdats p d).owesAt none (Fin.last (cfgs p).N) ∗ (emp : sProp 𝕄) ∗ Pipeline.unscopedRest (cfgs p).spec d (V d))
      ⊢ |={Set.univ}=> iprop(tcOwes (F := F) d n ∗ unscopedBufs d (V' d)) := by
  have hbufs : iprop((pdats p d).arrays ((pdats p d).arrAt · (cfgs p).N) ∗ Pipeline.unscopedRest (cfgs p).spec d (V d))
      ⊢ (unscopedBufs d (V' d) : sProp 𝕄) := by
    rw [Pipeline.unscopedBufs_split (Pipeline.pin (pcfgs (F := F)) adm) p kit.win.arr_unscoped kit.win.arr_inj d (V' d),
      Pipeline.arrays_eq (Pipeline.pin (pcfgs (F := F)) adm) pdats p d kit.arr_whole (hshare d)]
    refine sep_mono (Entails.of_eq (bigSep_congr fun w _ => by rw [hV' d w])) (Entails.of_eq ?_)
    unfold Pipeline.unscopedRest
    exact bigSep_congr fun b hb => by
      rw [hVr d b fun w h => (Finset.mem_sdiff.mp hb).2 (Finset.mem_image.mpr ⟨w, Finset.mem_univ _, h⟩)]
  iintro ⟨Ha, ⟨%W, %hW, HO⟩, -, Hr⟩
  imodintro
  isplitl [HO]
  · unfold tcOwes; iexists W; isplitr
    · ipureintro; intro pr hpr
      rcases hW (Finset.mem_coe.mpr hpr) with h | ⟨w, s, rfl⟩
      · rw [hrec d _] at h; exact h
      · show (K (F := F)).lev _ none ≤ _
        rw [SparseCore.Cfg.lev_none]; exact Nat.zero_le _
    · rw [← howed d (Fin.last _)]; iexact HO
  · iapply hbufs; isplitl [Ha] <;> iassumption

/-- The region's record for the pipeline library: entered from what the TensorCore owes and @main's arrays at V, left
    with the same owed and the arrays at V'; nothing of its own enters the kernel's invariant but the scoped buffers no
    window stages; the arrays no window names bypass it. -/
def regionSeg (hΦ0 : ∀ d : Dev nD, (Pipeline.scopedRest (cfgs p).spec d : sProp 𝕄) ⊢ (pdats p d).Φ 0)
    (hΦN : ∀ d : Dev nD, (pdats p d).Φ (Fin.last (cfgs p).N) ⊢ (Pipeline.scopedRest (cfgs p).spec d : sProp 𝕄)) :
    Pipeline.RegionSeg (pcfgs (F := F)) adm pdats (none : HIx 3) defs₀ 𝒱₀ (K (F := F)).L lv p where
  win := kit.win.to₀
  block_pos := kit.block_pos
  stage_whole := kit.stage_whole
  K := PEmpty
  osem := fun k => k.elim
  ho := Pipeline.OwnSemFacts.none _
  hbody := fun d => (hbody d).loose
  hwaits := fun d => region_waits pdats lv hlv p n howed d
  pre := fun d => iprop(tcOwes (F := F) d n ∗ unscopedBufs d (V d))
  post := fun d => iprop(tcOwes (F := F) d n ∗ unscopedBufs d (V' d))
  X := fun _ => iprop(emp)
  Y := fun _ => iprop(emp)
  Z := fun d => Pipeline.unscopedRest (cfgs p).spec d (V d)
  hentry := fun d => region_entry pdats lv p n kit hshare howed hrec V hA d
  hin := fun d => by
    iintro ⟨-, -, HR⟩; iapply (hΦ0 d); iexact HR
  hout := fun d => by
    show (pdats p d).Φ (Fin.last (cfgs p).N) ⊢ iprop(emp ∗ Pipeline.ownSems0 (fun k : PEmpty => k.elim) d ∗ Pipeline.scopedRest (cfgs p).spec d)
    rw [Pipeline.ownSems0_none]
    iintro H
    ihave HR := (hΦN d) $$ H
    isplitr; · iempintro
    isplitr; · iempintro
    iexact HR
  hexit := fun d => region_exit pdats p n kit hshare howed hrec V V' hV' hVr d

include hlv kit hbody hshare howed hrec hA hV' hVr in
/-- **A region of @main.** From the level facts, the TensorCore's handshake state before call n, the region boundary,
    @main's arrays at V and the pipeline's ghost state, the region's line runs to the same handshake state, the
    boundary, and @main's arrays at V': the windows' arrays at what the pipeline library computes, the others as they were. -/
theorem wp_region (hΦ0 : ∀ d : Dev nD, (Pipeline.scopedRest (cfgs p).spec d : sProp 𝕄) ⊢ (pdats p d).Φ 0)
    (hΦN : ∀ d : Dev nD, (pdats p d).Φ (Fin.last (cfgs p).N) ⊢ (Pipeline.scopedRest (cfgs p).spec d : sProp 𝕄))
    (d : Dev nD) {Φ : PUnit → sProp 𝕄} :
    iprop(levAts (K (F := F)).L lv ∗ (K (F := F)).tcSt EH d n ∗ boundary (T d) ∗ unscopedBufs d (V d) ∗ pipeGhost (F := F) p d
        ∗ (iprop((K (F := F)).tcSt EH d n ∗ boundary (T d) ∗ unscopedBufs d (V' d)) -∗ Φ ⟨⟩))
      ⊢ wp frame (wpE ((K (F := F)).defs (D (F := F))) 𝒱 (T d) none) Set.univ
          (Prog.lift (.customCall (SparseCore.inner (Pipeline.entry p)) ())) Φ := by
  have hR := Pipeline.RegionSeg.wp (pcfgs (F := F)) adm pdats (none : HIx 3) cellOf_inj (EP (F := F)) defs₀ 𝒱₀ (K (F := F)).L lv
    (regionSeg pdats lv hlv p n kit hbody hshare howed hrec V V' hA hV' hVr hΦ0 hΦN) d none (fun u hu => nomatch hu) (fun _ => .ret ⟨⟩) Φ
  dsimp only [regionSeg] at hR
  unfold tcOwes at hR
  have hl : wp frame (wpE (D (F := F)) 𝒱 (T d) none) Set.univ
        (Prog.lift (TpuEff.customCall (Λ := ΛP (F := F)) (p := (Proc.tc : Proc τ)) (Pipeline.entry p) ())) Φ
      ⊢ wp frame (wpE ((K (F := F)).defs (D (F := F))) 𝒱 (T d) none) Set.univ
        (Prog.lift (.customCall (SparseCore.inner (Pipeline.entry p)) ())) Φ :=
    (K (F := F)).wp_liftProg (D (F := F)) 𝒱 (T d) Set.univ none _ Φ
  refine Idealize.SL.BI.BIBase.Entails.trans ?_ hl
  refine Idealize.SL.BI.BIBase.Entails.trans ?_ hR
  unfold SparseCore.Cfg.tcSt
  iintro ⟨#Hlev, ⟨HO, Hrest⟩, Hb, Hu, ⟨Hg, Ht⟩, Hk⟩
  isplitl [Hrest Hk]
  · iintro ⟨Hb, HO, Hu⟩
    rw [wp_ret]; imodintro
    iapply Hk
    isplitl [HO Hrest]; · isplitl [HO] <;> iassumption
    isplitl [Hb] <;> iassumption
  isplitl [Hb]; · iexact Hb
  isplitl [HO Hu]; · isplitl [HO] <;> iassumption
  isplitr; · iexact Hlev
  isplitl [Hg] <;> iassumption

end Region

/-! ## The region as a step of @main over the valuation of the TensorCore's arrays -/

section Step

variable (P : (K (F := F)).Pay (nD := nD) (Val := Elt F) (Name := ℕ) (U := UU))
variable (pdats : (p : Fin 3) → (d : Dev nD) → Pipeline.Dat τ (Elt F) (HIx 3) ℕ UU ℕ (Pipeline.pin (pcfgs (F := F)) adm p) d)
variable (p : Fin 3) (n : ℕ) (kit : Pipeline.LaunchFacts (nD := nD) (τ := τ) cfgs p)
variable (hbody : ∀ d : Dev nD, Pipeline.BodyObligation (pdats p d) defs₀ 𝒱₀ (none : HIx 3) Set.univ)
variable (hshare : ∀ (d : Dev nD) w, (pdats p d).share w = fullShare)
variable (howed : ∀ (d : Dev nD) t, (pdats p d).owed t = (K (F := F)).Otc d n)
variable (hrec : ∀ (d : Dev nD) t, (pdats p d).recorded t = tcRec (F := F) d n)
variable (W W' : Dev nD → Valuation τ sig (Elt F))
variable (hA : ∀ (d : Dev nD) w, (pdats p d).A w = W d (Proc.devRef .tc (Pipeline.arrRef (cfgs p).spec w)))
variable (hW' : ∀ (d : Dev nD) w, W' d (Proc.devRef .tc (Pipeline.arrRef (cfgs p).spec w)) = (pdats p d).arrAt w (cfgs p).N)
variable (hWr : ∀ (d : Dev nD) (b : Ref sig .tc), (∀ w, Pipeline.arrRef (cfgs p).spec w ≠ b) → W' d (Proc.devRef .tc b) = W d (Proc.devRef .tc b))

include kit hbody hshare howed hrec hA hW' hWr in
/-- **A region as a step of @main.** After n SparseCore calls, from the records, the TensorCore's handshake state, the
    region boundary, the TensorCore's unscoped arrays held at the valuation W d, and pipeline p's ghost state beside
    anything else G', the region's line runs to the same with the arrays at W' d — the windows' arrays at what the
    pipeline library computes from the proof data, every other array as it was — and the pipeline's ghost state spent. -/
theorem region_step (hΦ0 : ∀ d : Dev nD, (Pipeline.scopedRest (cfgs p).spec d : sProp 𝕄) ⊢ (pdats p d).Φ 0)
    (hΦN : ∀ d : Dev nD, (pdats p d).Φ (Fin.last (cfgs p).N) ⊢ (Pipeline.scopedRest (cfgs p).spec d : sProp 𝕄))
    (d : Dev nD) (G' : sProp 𝕄) (κ : GSem nD τ sig → ℕ) (Φ : PUnit → sProp 𝕄) :
    iprop((K (F := F)).ctx EH P κ ∗ (K (F := F)).tcSt EH d n ∗ boundary (T d) ∗ (StableHlo.held (T d) (Pipeline.ucRefs τ sig) (W d) : sProp 𝕄)
        ∗ iprop(pipeGhost (F := F) p d ∗ G')
        ∗ (((K (F := F)).tcSt EH d n ∗ boundary (T d) ∗ (StableHlo.held (T d) (Pipeline.ucRefs τ sig) (W' d) : sProp 𝕄) ∗ G') -∗ Φ ⟨⟩))
      ⊢ wp frame (wpE ((K (F := F)).defs (D (F := F))) 𝒱 (T d) none) Set.univ
          (Prog.lift (.customCall (SparseCore.inner (Pipeline.entry p)) ())) Φ := by
  have hreg := wp_region pdats (K (F := F)).lev (by sl_refines_lev) p n kit hbody hshare howed hrec
    (fun d b => W d (Proc.devRef .tc b)) (fun d b => W' d (Proc.devRef .tc b)) hA hW' hWr hΦ0 hΦN d (Φ := Φ)
  rw [show (unscopedBufs d (fun b => W d (Proc.devRef .tc b)) : sProp 𝕄) = StableHlo.held (T d) (Pipeline.ucRefs τ sig) (W d)
      from Pipeline.unscopedBufs_held d (W d),
    show (unscopedBufs d (fun b => W' d (Proc.devRef .tc b)) : sProp 𝕄) = StableHlo.held (T d) (Pipeline.ucRefs τ sig) (W' d)
      from Pipeline.unscopedBufs_held d (W' d)] at hreg
  refine Idealize.SL.BI.BIBase.Entails.trans ?_ hreg
  iintro ⟨#Hctx, Hst, Hb, Hh, ⟨Hg, HG⟩, Hk⟩
  ihave Hlev := (SparseCore.Cfg.ctx_levAts κ) $$ Hctx
  isplitr; · iexact Hlev
  isplitl [Hst]; · iexact Hst
  isplitl [Hb]; · iexact Hb
  isplitl [Hh]; · iexact Hh
  isplitl [Hg]; · iexact Hg
  iintro ⟨Hst, Hb, Hh⟩
  iapply Hk
  isplitl [Hst]; · iexact Hst
  isplitl [Hb]; · iexact Hb
  isplitl [Hh]; · iexact Hh
  iexact HG

end Step

end Cert.Proof.KB

end
-- ==== Proof.KBTca.lean ====
/-
  The first TensorCore call (the edge convolution's two halves applied to the points themselves): its proof data and its
  body obligation.

  The call runs over the 8 clouds. At cloud `b` the body reads the cloud's points `xb : [1, 3, 4096]`, the weights
  `w : [64, 6]` (its columns 0–2 as `wa`, its columns 3–5 as `wb`) and the bias `be : [64, 1]`, and stores
    y0 = wa[:, 0] · xb[0, :] + wa[:, 1] · xb[1, :] + wa[:, 2] · xb[2, :]                      into the first output's block,
    c0 = (wb - wa)[:, 0] · xb[0, :] + (wb - wa)[:, 1] · xb[1, :] + (wb - wa)[:, 2] · xb[2, :] + be   into the second's.
  Each store fills its whole block, so what the body leaves in an output's staging buffer is a function of the three input
  blocks alone (`tcaOutY`, `tcaOutC`: the stored payloads), and the inputs' buffers are left as found. The proof data
  (`tcaDat`) names exactly that; the body's triple (`tcaSoundKernel`) is proved once at a symbolic grid point over whole
  staging buffers, and the body obligation (`tcaBodyObligation`) is that triple at the buffers the pipeline is on at the
  point. The tallies the core owes and the bound on its recorded pairs are parameters, the same at every point: the body
  makes no wait and signals nothing, so they pass through it unread.
-/
import proofs.«209975_g17849884082380_cont_8to1_1483_11_alg».proof.Proof.KBSetup
import proofs.«209975_g17849884082380_cont_8to1_1483_11_alg».proof.Proof.Gen.Kernel.Launch
import proofs.«209975_g17849884082380_cont_8to1_1483_11_alg».proof.Proof.Gen.Kernel.Points
import Idealize.ShloMosaic.Lib.Pipeline.FrameBody
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 3) (Elt F) ℕ UU ℕ

/-! ## The rectangles the body reads and writes through -/

/-- The whole point block `[1, 3, 4096]`. -/
abbrev tcaRX : Rect S1x3x4096 := Rect.unit (s := S1x3x4096) ![0, 0, 0] S1x3x4096.size inb_S1x3x4096_S1x3x4096_0_0_0
/-- Columns 0–2 of the weights `[64, 6]`. -/
abbrev tcaRWa : Rect S64x6 := Rect.unit (s := S64x6) ![0, 0] S64x3.size inb_S64x6_S64x3_0_0
/-- Columns 3–5 of the weights. -/
abbrev tcaRWb : Rect S64x6 := Rect.unit (s := S64x6) ![0, 3] S64x3.size inb_S64x6_S64x3_0_3
/-- The whole bias `[64, 1]`. -/
abbrev tcaRB : Rect S64x1 := Rect.unit (s := S64x1) ![0, 0] S64x1.size inb_S64x1_S64x1_0_0
/-- The whole output block `[1, 64, 4096]`. -/
abbrev tcaRO : Rect S1x64x4096 := Rect.unit (s := S1x64x4096) ![0, 0, 0] S1x64x4096.size inb_S1x64x4096_S1x64x4096_0_0_0

/-! ## What the body leaves in each output window's buffer -/

/-- The first output's staging buffer after the body, from the point block and the weights: its one store. -/
def tcaOutY (x0 : Vec F S1x3x4096 .f32) (x1 : Vec F S64x6 .f32) : Vec F S1x64x4096 .f32 :=
  View.canon [⟨tcaRO, k0_pay4 (View.ld x0 tcaRX) (View.ld x1 tcaRWa)⟩]

/-- The second output's staging buffer after the body, from the point block, the weights and the bias: its one store. -/
def tcaOutC (x0 : Vec F S1x3x4096 .f32) (x1 : Vec F S64x6 .f32) (x2 : Vec F S64x1 .f32) : Vec F S1x64x4096 .f32 :=
  View.canon [⟨tcaRO, k0_pay1 (k0_pay3 (View.ld x0 tcaRX) (View.ld x1 tcaRWa) (View.ld x1 tcaRWb) (View.ld x2 tcaRB))⟩]

/-- A store through the whole output block covers it. -/
theorem tcaCoverO (p0 : Vec F S1x64x4096 .f32) (y : S1x64x4096.Idx) :
    ∃ pc ∈ ([⟨tcaRO, p0⟩] : List (View.Piece (Elt F) S1x64x4096 .f32)), y ∈ pc.1.set :=
  View.cover_of_tiled [⟨tcaRO, p0⟩] S1x64x4096.size (by rfl) y

/-! ## The body's triple -/

set_option maxHeartbeats 4000000 in
/-- The body on whole staging buffers, the inputs' at contents `x0`, `x1`, `x2` and the outputs' at anything, runs to the
    continuation holding the inputs' as they were and each output's at what its one store leaves (`tcaOutY`, `tcaOutC`). -/
theorem tcaSoundKernel (c : Dev nD) (E : Set ℕ) (i : grid0.Coords)
    (arg1 : Memref sig .tc .vmem S1x3x4096 .f32) (harg1 : arg1.IsWhole) (arg2 : Memref sig .tc .vmem S64x6 .f32) (harg2 : arg2.IsWhole)
    (arg3 : Memref sig .tc .vmem S64x1 .f32) (harg3 : arg3.IsWhole) (arg4 : Memref sig .tc .vmem S1x64x4096 .f32) (harg4 : arg4.IsWhole)
    (arg5 : Memref sig .tc .vmem S1x64x4096 .f32) (harg5 : arg5.IsWhole)
    (x0 : Vec F S1x3x4096 .f32) (x1 : Vec F S64x6 .f32) (x2 : Vec F S64x1 .f32) (Kc : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tcaOutY x0 x1) ∗ owns (c : Thread nD τ) arg5 fullShare (tcaOutC x0 x1 x2)) -∗ Kc ⟨⟩))
      ⊢ wp frame (wpE (defs₀ (F := F)) Variants.none c none) E (cc0__tca_body i arg1 harg1 arg2 harg2 arg3 harg3 arg4 harg4 arg5 harg5) Kc := by
  simp only [cc0__tca_body_eq_skeleton]; unfold cc0__tca_body_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (tcaCoverO _)
  iexists _; isplitr
  swap; · iexact H4
  ipureintro
  exact View.read_writes_eq_canon _ _ _ (tcaCoverO _)

/-! ## The windows' blocks -/

/-- Window `w`'s block at point `t`, read off its array as the region finds it (`V`). -/
def tcaBlk (c : Dev nD) (V : (b : Ref sig .tc) → Buf (Elt F) ((c : Thread nD τ).loc b)) (w : Fin cfg0.W) (t : Fin cfg0.N) :
    ((cfg0.win w).xblock (cfg0.grid.coords t)).Idx → Elt F (cfg0.win w).elt :=
  ((cfg0.win w).blk t).view.read (Elt F) (V (Pipeline.arrRef spec0 w))

/-! ## The pipeline's proof data -/

/-- The proof data of the first TensorCore call on core `c`: the arrays as the region finds them (`V`); after the body at
    point `t` each input's buffer at its block and each output's at what the body stores there, as a function of the
    input blocks; the invariant the scoped buffers no window stages, untouched; the core's tallies `O` and the bound `B`
    on its recorded pairs, the same at every point (the body makes no wait and signals nothing); full shares. -/
def tcaDat (c : Dev nD) (V : (b : Ref sig .tc) → Buf (Elt F) ((c : Thread nD τ).loc b))
    (O : CellTallies nD τ sig (HIx 3)) (B : Set (SemLoc sig × HIx 3)) : Dat τ (Elt F) (HIx 3) ℕ UU ℕ cfg0 c where
  A w := V (Pipeline.arrRef spec0 w)
  after w t := match w with
    | ⟨0, _⟩ => tcaBlk c V 0 t
    | ⟨1, _⟩ => tcaBlk c V 1 t
    | ⟨2, _⟩ => tcaBlk c V 2 t
    | ⟨3, _⟩ => tcaOutY (tcaBlk c V 0 t) (tcaBlk c V 1 t)
    | ⟨4, _⟩ => tcaOutC (tcaBlk c V 0 t) (tcaBlk c V 1 t) (tcaBlk c V 2 t)
  Φ _ := Pipeline.scopedRest spec0 c
  q _ := fullShare
  owed _ := O
  recorded _ := B

section Data

variable (c : Dev nD) (V : (b : Ref sig .tc) → Buf (Elt F) ((c : Thread nD τ).loc b))
  (O : CellTallies nD τ sig (HIx 3)) (B : Set (SemLoc sig × HIx 3))

/-- The proof data's arrays are the region-entry contents. -/
theorem tcaDat_A (w : Fin cfg0.W) : (tcaDat c V O B).A w = V (Pipeline.arrRef spec0 w) := by
  dsimp only [tcaDat]

/-- What the body leaves, window by window. -/
theorem tcaDat_after0 (t : Fin cfg0.N) : (tcaDat c V O B).after 0 t = tcaBlk c V 0 t := by dsimp only [tcaDat]
theorem tcaDat_after1 (t : Fin cfg0.N) : (tcaDat c V O B).after 1 t = tcaBlk c V 1 t := by dsimp only [tcaDat]
theorem tcaDat_after2 (t : Fin cfg0.N) : (tcaDat c V O B).after 2 t = tcaBlk c V 2 t := by dsimp only [tcaDat]
theorem tcaDat_after3 (t : Fin cfg0.N) : (tcaDat c V O B).after 3 t = tcaOutY (tcaBlk c V 0 t) (tcaBlk c V 1 t) := by dsimp only [tcaDat]
theorem tcaDat_after4 (t : Fin cfg0.N) :
    (tcaDat c V O B).after 4 t = tcaOutC (tcaBlk c V 0 t) (tcaBlk c V 1 t) (tcaBlk c V 2 t) := by dsimp only [tcaDat]

/-- Each input's current staging buffer holds its block at every point, fetched there or not: unfetched, the block
    index has not moved. -/
theorem tcaDat_before0 (t : Fin cfg0.N) (d) : (tcaDat c V O B).before 0 t d = tcaBlk c V 0 t :=
  ((tcaDat c V O B).before_in_eq_fetched 0 rfl (fun _ => rfl) (fun _ _ _ => rfl)
      (fun t => by rw [tcaDat_after0]; unfold Dat.blockOf tcaBlk; rw [tcaDat_A]; try rfl) t d).trans
    (by unfold Dat.fetched Dat.blockOf tcaBlk; rw [tcaDat_A]; try rfl)
theorem tcaDat_before1 (t : Fin cfg0.N) (d) : (tcaDat c V O B).before 1 t d = tcaBlk c V 1 t :=
  ((tcaDat c V O B).before_in_eq_fetched 1 rfl (fun _ => rfl) (fun _ _ _ => rfl)
      (fun t => by rw [tcaDat_after1]; unfold Dat.blockOf tcaBlk; rw [tcaDat_A]; try rfl) t d).trans
    (by unfold Dat.fetched Dat.blockOf tcaBlk; rw [tcaDat_A]; try rfl)
theorem tcaDat_before2 (t : Fin cfg0.N) (d) : (tcaDat c V O B).before 2 t d = tcaBlk c V 2 t :=
  ((tcaDat c V O B).before_in_eq_fetched 2 rfl (fun _ => rfl) (fun _ _ _ => rfl)
      (fun t => by rw [tcaDat_after2]; unfold Dat.blockOf tcaBlk; rw [tcaDat_A]; try rfl) t d).trans
    (by unfold Dat.fetched Dat.blockOf tcaBlk; rw [tcaDat_A]; try rfl)

/-! ## The body obligation, at a generic point -/

/-- What the body is called with at point `t`, the windows one by one, -/
def tcaBodyPre (t : Fin cfg0.N) : sProp 𝕄 :=
  iprop((tcaDat c V O B).Φ t.castSucc ∗ (tcaDat c V O B).owesAt none t.castSucc
    ∗ (∃ d, owns (c : Thread nD τ) (st0_0 t) fullShare ((tcaDat c V O B).before 0 t d))
    ∗ (∃ d, owns (c : Thread nD τ) (st0_1 t) fullShare ((tcaDat c V O B).before 1 t d))
    ∗ (∃ d, owns (c : Thread nD τ) (st0_2 t) fullShare ((tcaDat c V O B).before 2 t d))
    ∗ (∃ d, owns (c : Thread nD τ) (st0_3 t) fullShare ((tcaDat c V O B).before 3 t d))
    ∗ (∃ d, owns (c : Thread nD τ) (st0_4 t) fullShare ((tcaDat c V O B).before 4 t d)))

/-- and what it returns. -/
def tcaBodyPost (t : Fin cfg0.N) : sProp 𝕄 :=
  iprop((tcaDat c V O B).Φ t.succ ∗ (tcaDat c V O B).owesAt none t.succ
    ∗ owns (c : Thread nD τ) (st0_0 t) fullShare ((tcaDat c V O B).after 0 t)
    ∗ owns (c : Thread nD τ) (st0_1 t) fullShare ((tcaDat c V O B).after 1 t)
    ∗ owns (c : Thread nD τ) (st0_2 t) fullShare ((tcaDat c V O B).after 2 t)
    ∗ owns (c : Thread nD τ) (st0_3 t) fullShare ((tcaDat c V O B).after 3 t)
    ∗ owns (c : Thread nD τ) (st0_4 t) fullShare ((tcaDat c V O B).after 4 t))

/-- The body at any point: the inputs' memrefs hold their blocks, so the body's triple applies; the invariant and the
    core's `owes` pass through unread. -/
theorem tcaSoundBody (t : Fin cfg0.N) :
    tcaBodyPre c V O B t ⊢ wp frame (wpE (defs₀ (F := F)) Variants.none c none) Set.univ (bodyAt0 t) (fun _ => tcaBodyPost c V O B t) := by
  unfold tcaBodyPre tcaBodyPost bodyAt0
  simp only [tcaDat_before0, tcaDat_before1, tcaDat_before2]
  rw [show (tcaDat c V O B).Φ t.succ = (tcaDat c V O B).Φ t.castSucc from rfl,
    show (tcaDat c V O B).owesAt none t.succ = (tcaDat c V O B).owesAt none t.castSucc from rfl,
    tcaDat_after0, tcaDat_after1, tcaDat_after2, tcaDat_after3, tcaDat_after4]
  iintro ⟨HΦ, Ho, ⟨%d0, H0⟩, ⟨%d1, H1⟩, ⟨%d2, H2⟩, ⟨%d3, H3⟩, ⟨%d4, H4⟩⟩
  iapply (tcaSoundKernel c Set.univ (grid0.coords t) _ _ _ _ _ _ _ _ _ _ (tcaBlk c V 0 t) (tcaBlk c V 1 t) (tcaBlk c V 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem tcaBodyObligation : BodyObligation (tcaDat (F := F) c V O B) (defs₀ (F := F)) Variants.none (none : HIx 3) Set.univ := fun t => by
  rw [bigSep_W0, bigSep_W0]
  exact tcaSoundBody c V O B t

end Data

end Cert.Proof.KB

end
-- ==== Proof.KBBlockOps.lean ====
/-
  The two point-convolution bodies as functions of their blocks, and their values at the ideal floats, entry by entry.

  A layer's block is "weights times block of points, plus the bias column on every point, rectified"; the closing body adds
  three such products, takes each output channel's maximum over the points and adds the final bias. Stated over
  arbitrary extents: channels in and out, number of points.
-/
import Idealize.ShloMosaic.PureOps.Ideal.Laws
import Idealize.ShloMosaic.Lib.ValueLayout
import Idealize.ShloMosaic.Lib.StackMember
import proofs.«209975_g17849884082380_cont_8to1_1483_11_alg».proof.Proof.Decode

noncomputable section

namespace Cert.Proof.KB.Ops

open Idealize.ShloMosaic Idealize.ShloMosaic.ValueIdx
open scoped BigOperators

/-! ## Layout operations at coordinates -/

/-- A column [a, 1] broadcast to [a, b] reads, at (p, c), the column's entry p. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to [1, 1, a] reads, at (u, v, i), the vector's entry i. -/
theorem cast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-! ## The operations at the ideal floats -/

/-- A plain matrix product into the zero accumulator, at (a, b): the sum over the contracted coordinate. -/
theorem matmul_plain_apply {m k n : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    matmul D none A B (constant (F := Ideal) ⟨2, ![m, n]⟩ .f32 0x00000000#32) (ix2 a b) = ∑ c : Fin k, A (ix2 a c) * B (ix2 c b) := by
  subst hD
  refine (Ideal.matmul_constant_zero_apply _ none A B (ix2 a b)).trans ?_
  refine (Ideal.dotGeneral_apply (DotDims.plain m k n) none .single A B (ix2 a b)).symm.trans ?_
  exact StackMember.dotGeneral_plain_apply none A B a b

/-- The pattern of -inf denotes the bottom of the extended reals. -/
theorem neg_inf_bits : Ideal.ofBits .f32 0xFF800000#32 = (⊥ : EReal) := by
  simp [Ideal.ofBits, Ideal.ieee]

/-- A maximum along the second axis from -inf, at row o: the supremum of the row. -/
theorem rowmax_apply {m n : ℕ} (src : FVec Ideal ⟨2, ![m, n]⟩ .f32) (h : (⟨2, ![m, n]⟩ : Shape).Reduces [1] ⟨1, ![m]⟩)
    (hφ : FKind.Formats .f32) (hacc : (0xFF800000#32 : BitVec 32) = FKind.maximumf.neutral .f32 hφ) (o : Fin m) :
    multiReduction .maximumf [1] ⟨1, ![m]⟩ src 0xFF800000#32 h hφ hacc (ix1 o) = ⨆ p : Fin n, src (ix2 o p) := by
  refine (Ideal.multiReduction_maximumf_single src _ h hφ hacc (ix1 o)).trans ?_
  have hl : ∀ p : Fin n, h.lift (ix1 o) p = ix2 o p := fun p => by
    funext c
    apply Fin.ext
    match c with
    | ⟨0, _⟩ => rfl
    | ⟨1, _⟩ => rfl
  show (Finset.univ : Finset (Fin n)).fold max (Ideal.ofBits .f32 0xFF800000#32) (src ∘ h.lift (ix1 o)) = _
  rw [neg_inf_bits]
  show (Finset.univ : Finset (Fin n)).sup (src ∘ h.lift (ix1 o)) = _
  rw [Finset.sup_univ_eq_iSup]
  exact iSup_congr fun p => congrArg src (hl p)

/-- The rectifier as the bodies spell it, on one value. -/
theorem lrelu_scalar (v : EReal) :
    Scalar.select (FloatOps.cmpf (F := Ideal) (φ := .f32) .ogt v (Scalar.ofBits (F := Ideal) .f32 0x00000000#32)) v
        (FloatOps.mulf (F := Ideal) (φ := .f32) v (Scalar.ofBits (F := Ideal) .f32 0x3E4CCCCD#32))
      = Cert.Spec.lreluK Cert.Decode.slope v := by
  show (if BitVec.ofBool (decide (Ideal.ofBits .f32 0x00000000#32 < v)) = 1 then v else v * Ideal.ofBits .f32 0x3E4CCCCD#32) = _
  rw [Ideal.ofBits_zero_f32]
  unfold Cert.Spec.lreluK Cert.Decode.slope
  by_cases h : 0 < v <;> simp [h]

/-! ## The bodies as functions of their blocks -/

section Blocks

variable {F : FTy → Type} [FloatOps F]

/-- The rectifier on a vector: v where v > 0, else v times the slope literal. -/
def lreluV {s : Shape} (v : FVec F s .f32) : FVec F s .f32 :=
  select (cmpf .ogt v (broadcast s (Scalar.ofBits .f32 0x00000000#32))) v (mulf v (broadcast s (Scalar.ofBits .f32 0x3E4CCCCD#32)))

/-- A convolution of a block of points: the weights times the block, plus the bias column on every point. -/
def convV {m k n : ℕ} (D : DotDims ⟨2, ![m, k]⟩ ⟨2, ![k, n]⟩ ⟨2, ![m, n]⟩) (w : FVec F ⟨2, ![m, k]⟩ .f32)
    (g : FVec F ⟨3, ![1, k, n]⟩ .f32) (b : FVec F ⟨2, ![m, 1]⟩ .f32)
    (h1 : (⟨3, ![1, k, n]⟩ : Shape).ShapeCasts ⟨2, ![k, n]⟩) (h2 : (⟨2, ![m, 1]⟩ : Shape).ShapeCasts ⟨2, ![m, 1]⟩)
    (h3 : (⟨2, ![m, 1]⟩ : Shape).Broadcasts ⟨2, ![m, n]⟩) : FVec F ⟨2, ![m, n]⟩ .f32 :=
  addf (matmul D none w (shapeCast ⟨2, ![k, n]⟩ g h1) (constant ⟨2, ![m, n]⟩ .f32 0x00000000#32))
    (broadcastTo ⟨2, ![m, n]⟩ (shapeCast ⟨2, ![m, 1]⟩ b h2) h3)

/-- A layer's stored block: the rectified convolution, under a leading unit axis. -/
def tcbV {m k n : ℕ} (D : DotDims ⟨2, ![m, k]⟩ ⟨2, ![k, n]⟩ ⟨2, ![m, n]⟩) (w : FVec F ⟨2, ![m, k]⟩ .f32)
    (g : FVec F ⟨3, ![1, k, n]⟩ .f32) (b : FVec F ⟨2, ![m, 1]⟩ .f32)
    (h1 : (⟨3, ![1, k, n]⟩ : Shape).ShapeCasts ⟨2, ![k, n]⟩) (h2 : (⟨2, ![m, 1]⟩ : Shape).ShapeCasts ⟨2, ![m, 1]⟩)
    (h3 : (⟨2, ![m, 1]⟩ : Shape).Broadcasts ⟨2, ![m, n]⟩) (h4 : (⟨2, ![m, n]⟩ : Shape).ShapeCasts ⟨3, ![1, m, n]⟩) :
    FVec F ⟨3, ![1, m, n]⟩ .f32 :=
  shapeCast ⟨3, ![1, m, n]⟩ (lreluV (convV D w g b h1 h2 h3)) h4

/-- The closing body's stored block: three products added, each output channel's maximum over the points, plus the
    final bias. The third product's right operand is the last layer's rectified convolution. -/
def tccV {c0 c1 c2 q n : ℕ}
    (D2 : DotDims ⟨2, ![c2, c1]⟩ ⟨2, ![c1, n]⟩ ⟨2, ![c2, n]⟩) (Df0 : DotDims ⟨2, ![q, c0]⟩ ⟨2, ![c0, n]⟩ ⟨2, ![q, n]⟩)
    (Df1 : DotDims ⟨2, ![q, c1]⟩ ⟨2, ![c1, n]⟩ ⟨2, ![q, n]⟩) (Df2 : DotDims ⟨2, ![q, c2]⟩ ⟨2, ![c2, n]⟩ ⟨2, ![q, n]⟩)
    (g2 : FVec F ⟨3, ![1, c1, n]⟩ .f32) (h0 : FVec F ⟨3, ![1, c0, n]⟩ .f32) (h1 : FVec F ⟨3, ![1, c1, n]⟩ .f32)
    (w2 : FVec F ⟨2, ![c2, c1]⟩ .f32) (b2 : FVec F ⟨2, ![c2, 1]⟩ .f32)
    (wf0 : FVec F ⟨2, ![q, c0]⟩ .f32) (wf1 : FVec F ⟨2, ![q, c1]⟩ .f32) (wf2 : FVec F ⟨2, ![q, c2]⟩ .f32)
    (bf : FVec F ⟨2, ![1, q]⟩ .f32)
    (e1 : (⟨3, ![1, c1, n]⟩ : Shape).ShapeCasts ⟨2, ![c1, n]⟩) (e2 : (⟨2, ![c2, 1]⟩ : Shape).ShapeCasts ⟨2, ![c2, 1]⟩)
    (e3 : (⟨2, ![c2, 1]⟩ : Shape).Broadcasts ⟨2, ![c2, n]⟩)
    (e4 : (⟨2, ![q, c0]⟩ : Shape).ShapeCasts ⟨2, ![q, c0]⟩) (e5 : (⟨3, ![1, c0, n]⟩ : Shape).ShapeCasts ⟨2, ![c0, n]⟩)
    (e6 : (⟨2, ![q, c1]⟩ : Shape).ShapeCasts ⟨2, ![q, c1]⟩) (e7 : (⟨2, ![q, c2]⟩ : Shape).ShapeCasts ⟨2, ![q, c2]⟩)
    (hr : (⟨2, ![q, n]⟩ : Shape).Reduces [1] ⟨1, ![q]⟩) (hφ : FKind.Formats .f32)
    (hacc : (0xFF800000#32 : BitVec 32) = FKind.maximumf.neutral .f32 hφ)
    (e8 : (⟨1, ![q]⟩ : Shape).ShapeCasts ⟨3, ![1, 1, q]⟩) (e9 : (⟨2, ![1, q]⟩ : Shape).ShapeCasts ⟨2, ![1, q]⟩)
    (e10 : (⟨2, ![1, q]⟩ : Shape).ShapeCasts ⟨3, ![1, 1, q]⟩) : FVec F ⟨3, ![1, 1, q]⟩ .f32 :=
  addf
    (shapeCast ⟨3, ![1, 1, q]⟩
      (multiReduction .maximumf [1] ⟨1, ![q]⟩
        (addf
          (addf
            (matmul Df0 none (shapeCast ⟨2, ![q, c0]⟩ wf0 e4) (shapeCast ⟨2, ![c0, n]⟩ h0 e5) (constant ⟨2, ![q, n]⟩ .f32 0x00000000#32))
            (matmul Df1 none (shapeCast ⟨2, ![q, c1]⟩ wf1 e6) (shapeCast ⟨2, ![c1, n]⟩ h1 e1) (constant ⟨2, ![q, n]⟩ .f32 0x00000000#32)))
          (matmul Df2 none (shapeCast ⟨2, ![q, c2]⟩ wf2 e7) (lreluV (convV D2 w2 g2 b2 e1 e2 e3)) (constant ⟨2, ![q, n]⟩ .f32 0x00000000#32)))
        0xFF800000#32 hr hφ hacc) e8)
    (shapeCast ⟨3, ![1, 1, q]⟩ (shapeCast ⟨2, ![1, q]⟩ bf e9) e10)

end Blocks

/-! ## Their values at the ideal floats -/

/-- The rectifier on a vector, at an index. -/
theorem lreluV_apply {s : Shape} (v : FVec Ideal s .f32) (j : s.Idx) :
    lreluV v j = Cert.Spec.lreluK Cert.Decode.slope (v j) := lrelu_scalar (v j)

/-- The convolution of a block, at (o, p). -/
theorem convV_apply {m k n : ℕ} (D : DotDims ⟨2, ![m, k]⟩ ⟨2, ![k, n]⟩ ⟨2, ![m, n]⟩) (hD : D = DotDims.plain m k n)
    (w : FVec Ideal ⟨2, ![m, k]⟩ .f32) (g : FVec Ideal ⟨3, ![1, k, n]⟩ .f32) (b : FVec Ideal ⟨2, ![m, 1]⟩ .f32)
    (h1 : (⟨3, ![1, k, n]⟩ : Shape).ShapeCasts ⟨2, ![k, n]⟩) (h2 : (⟨2, ![m, 1]⟩ : Shape).ShapeCasts ⟨2, ![m, 1]⟩)
    (h3 : (⟨2, ![m, 1]⟩ : Shape).Broadcasts ⟨2, ![m, n]⟩) (o : Fin m) (p : Fin n) :
    convV D w g b h1 h2 h3 (ix2 o p) = (∑ c : Fin k, w (ix2 o c) * g (ix3 (0 : Fin 1) c p)) + b (ix2 o (0 : Fin 1)) := by
  show matmul D none w (shapeCast ⟨2, ![k, n]⟩ g h1) (constant (F := Ideal) ⟨2, ![m, n]⟩ .f32 0x00000000#32) (ix2 o p)
      + broadcastTo ⟨2, ![m, n]⟩ (shapeCast ⟨2, ![m, 1]⟩ b h2) h3 (ix2 o p) = _
  rw [matmul_plain_apply D hD, bcast_col_apply, shapeCast_self]
  refine congrArg (· + b (ix2 o (0 : Fin 1))) (Finset.sum_congr rfl fun c _ => ?_)
  rw [shapeCast_1ab_ab_apply]

/-- A layer's stored block, at (0, o, p). -/
theorem tcbV_ideal {m k n : ℕ} (D : DotDims ⟨2, ![m, k]⟩ ⟨2, ![k, n]⟩ ⟨2, ![m, n]⟩) (hD : D = DotDims.plain m k n)
    (w : FVec Ideal ⟨2, ![m, k]⟩ .f32) (g : FVec Ideal ⟨3, ![1, k, n]⟩ .f32) (b : FVec Ideal ⟨2, ![m, 1]⟩ .f32)
    (h1 : (⟨3, ![1, k, n]⟩ : Shape).ShapeCasts ⟨2, ![k, n]⟩) (h2 : (⟨2, ![m, 1]⟩ : Shape).ShapeCasts ⟨2, ![m, 1]⟩)
    (h3 : (⟨2, ![m, 1]⟩ : Shape).Broadcasts ⟨2, ![m, n]⟩) (h4 : (⟨2, ![m, n]⟩ : Shape).ShapeCasts ⟨3, ![1, m, n]⟩)
    (o : Fin m) (p : Fin n) :
    tcbV D w g b h1 h2 h3 h4 (ix3 (0 : Fin 1) o p)
      = Cert.Spec.lreluK Cert.Decode.slope ((∑ c : Fin k, w (ix2 o c) * g (ix3 (0 : Fin 1) c p)) + b (ix2 o (0 : Fin 1))) := by
  unfold tcbV
  rw [shapeCast_ab_1ab_apply, lreluV_apply, convV_apply D hD]

/-- The closing body's stored block, at (0, 0, o). -/
theorem tccV_ideal {c0 c1 c2 q n : ℕ}
    (D2 : DotDims ⟨2, ![c2, c1]⟩ ⟨2, ![c1, n]⟩ ⟨2, ![c2, n]⟩) (hD2 : D2 = DotDims.plain c2 c1 n)
    (Df0 : DotDims ⟨2, ![q, c0]⟩ ⟨2, ![c0, n]⟩ ⟨2, ![q, n]⟩) (hDf0 : Df0 = DotDims.plain q c0 n)
    (Df1 : DotDims ⟨2, ![q, c1]⟩ ⟨2, ![c1, n]⟩ ⟨2, ![q, n]⟩) (hDf1 : Df1 = DotDims.plain q c1 n)
    (Df2 : DotDims ⟨2, ![q, c2]⟩ ⟨2, ![c2, n]⟩ ⟨2, ![q, n]⟩) (hDf2 : Df2 = DotDims.plain q c2 n)
    (g2 : FVec Ideal ⟨3, ![1, c1, n]⟩ .f32) (h0 : FVec Ideal ⟨3, ![1, c0, n]⟩ .f32) (h1 : FVec Ideal ⟨3, ![1, c1, n]⟩ .f32)
    (w2 : FVec Ideal ⟨2, ![c2, c1]⟩ .f32) (b2 : FVec Ideal ⟨2, ![c2, 1]⟩ .f32)
    (wf0 : FVec Ideal ⟨2, ![q, c0]⟩ .f32) (wf1 : FVec Ideal ⟨2, ![q, c1]⟩ .f32) (wf2 : FVec Ideal ⟨2, ![q, c2]⟩ .f32)
    (bf : FVec Ideal ⟨2, ![1, q]⟩ .f32)
    (e1 : (⟨3, ![1, c1, n]⟩ : Shape).ShapeCasts ⟨2, ![c1, n]⟩) (e2 : (⟨2, ![c2, 1]⟩ : Shape).ShapeCasts ⟨2, ![c2, 1]⟩)
    (e3 : (⟨2, ![c2, 1]⟩ : Shape).Broadcasts ⟨2, ![c2, n]⟩)
    (e4 : (⟨2, ![q, c0]⟩ : Shape).ShapeCasts ⟨2, ![q, c0]⟩) (e5 : (⟨3, ![1, c0, n]⟩ : Shape).ShapeCasts ⟨2, ![c0, n]⟩)
    (e6 : (⟨2, ![q, c1]⟩ : Shape).ShapeCasts ⟨2, ![q, c1]⟩) (e7 : (⟨2, ![q, c2]⟩ : Shape).ShapeCasts ⟨2, ![q, c2]⟩)
    (hr : (⟨2, ![q, n]⟩ : Shape).Reduces [1] ⟨1, ![q]⟩) (hφ : FKind.Formats .f32)
    (hacc : (0xFF800000#32 : BitVec 32) = FKind.maximumf.neutral .f32 hφ)
    (e8 : (⟨1, ![q]⟩ : Shape).ShapeCasts ⟨3, ![1, 1, q]⟩) (e9 : (⟨2, ![1, q]⟩ : Shape).ShapeCasts ⟨2, ![1, q]⟩)
    (e10 : (⟨2, ![1, q]⟩ : Shape).ShapeCasts ⟨3, ![1, 1, q]⟩) (o : Fin q) :
    tccV D2 Df0 Df1 Df2 g2 h0 h1 w2 b2 wf0 wf1 wf2 bf e1 e2 e3 e4 e5 e6 e7 hr hφ hacc e8 e9 e10 (ix3 (0 : Fin 1) (0 : Fin 1) o)
      = (⨆ p : Fin n, ((∑ c : Fin c0, wf0 (ix2 o c) * h0 (ix3 (0 : Fin 1) c p))
            + (∑ c : Fin c1, wf1 (ix2 o c) * h1 (ix3 (0 : Fin 1) c p))
            + (∑ c : Fin c2, wf2 (ix2 o c) * Cert.Spec.lreluK Cert.Decode.slope
                ((∑ c' : Fin c1, w2 (ix2 c c') * g2 (ix3 (0 : Fin 1) c' p)) + b2 (ix2 c (0 : Fin 1))))))
          + bf (ix2 (0 : Fin 1) o) := by
  unfold tccV
  show shapeCast ⟨3, ![1, 1, q]⟩ _ e8 (ix3 (0 : Fin 1) (0 : Fin 1) o)
      + shapeCast ⟨3, ![1, 1, q]⟩ (shapeCast ⟨2, ![1, q]⟩ bf e9) e10 (ix3 (0 : Fin 1) (0 : Fin 1) o) = _
  rw [cast_a_11a_apply, shapeCast_ab_1ab_apply, shapeCast_self bf e9, rowmax_apply]
  refine congrArg (· + bf (ix2 (0 : Fin 1) o)) (iSup_congr fun p => ?_)
  show matmul Df0 none _ _ (constant (F := Ideal) ⟨2, ![q, n]⟩ .f32 0x00000000#32) (ix2 o p)
      + matmul Df1 none _ _ (constant (F := Ideal) ⟨2, ![q, n]⟩ .f32 0x00000000#32) (ix2 o p)
      + matmul Df2 none _ _ (constant (F := Ideal) ⟨2, ![q, n]⟩ .f32 0x00000000#32) (ix2 o p) = _
  rw [matmul_plain_apply Df0 hDf0, matmul_plain_apply Df1 hDf1, matmul_plain_apply Df2 hDf2, shapeCast_self wf0 e4,
    shapeCast_self wf1 e6, shapeCast_self wf2 e7]
  refine congrArg₂ (· + ·) (congrArg₂ (· + ·) (Finset.sum_congr rfl fun c _ => ?_) (Finset.sum_congr rfl fun c _ => ?_))
    (Finset.sum_congr rfl fun c _ => ?_)
  · rw [shapeCast_1ab_ab_apply]
  · rw [shapeCast_1ab_ab_apply]
  · rw [lreluV_apply, convV_apply D2 hD2]

end Cert.Proof.KB.Ops

end
-- ==== Proof.KBTcbValue.lean ====
/-
  The second TensorCore body's stored block as a function of its three loaded blocks, and its value at the ideal floats.
-/
import proofs.«209975_g17849884082380_cont_8to1_1483_11_alg».proof.Proof.Gen.Kernel.Skeleton
import proofs.«209975_g17849884082380_cont_8to1_1483_11_alg».proof.Proof.Decode
import proofs.«209975_g17849884082380_cont_8to1_1483_11_alg».proof.Proof.KBBlockOps

noncomputable section

namespace Cert.Proof.KB

open Cert.Kernel Cert.Kernel.Gen
open Idealize.ShloMosaic Idealize.ShloMosaic.ValueIdx
open scoped BigOperators

/-- What the body stores, as a function of its three loaded blocks: the gathered features g, the weights w and the
    bias column b1. -/
def tcbBlk {F : FTy → Type} [FloatOps F] (g : Vec F S1x64x4096 .f32) (w : Vec F S64x64 .f32) (b1 : Vec F S64x1 .f32) :
    Vec F S1x64x4096 .f32 :=
  Gen.k3_pay1 w g b1

/-- The stored block is the rectified convolution of the block of points, under a leading unit axis. -/
theorem tcbBlk_eq {F : FTy → Type} [FloatOps F] (g : Vec F S1x64x4096 .f32) (w : Vec F S64x64 .f32) (b1 : Vec F S64x1 .f32) :
    tcbBlk g w b1 = Ops.tcbV (m := 64) (k := 64) (n := 4096) dot_S64x64_S64x4096_S64x4096_1_0_0_1_n_n w g b1
      shapeCasts_S1x64x4096_S64x4096 shapeCasts_S64x1_S64x1 broadcasts_S64x1_S64x4096 shapeCasts_S64x4096_S1x64x4096 := rfl

/-- The body's product is the plain one: 64 × 64 by 64 × 4096. -/
theorem tcb_dot_plain : dot_S64x64_S64x4096_S64x4096_1_0_0_1_n_n = DotDims.plain 64 64 4096 := rfl

/-- At the ideal floats the stored block is, at channel o and point n, the rectified sum over the input channels
    plus the bias. -/
theorem tcbBlk_ideal (g : Vec Ideal S1x64x4096 .f32) (w : Vec Ideal S64x64 .f32) (b1 : Vec Ideal S64x1 .f32)
    (o : Fin 64) (n : Fin 4096) :
    tcbBlk g w b1 (ix3 (0 : Fin 1) o n)
      = Cert.Spec.lreluK Cert.Decode.slope ((∑ c : Fin 64, w (ix2 o c) * g (ix3 (0 : Fin 1) c n)) + b1 (ix2 o (0 : Fin 1))) := by
  rw [tcbBlk_eq]
  exact Ops.tcbV_ideal _ tcb_dot_plain w g b1 _ _ _ _ o n

end Cert.Proof.KB

end
-- ==== Proof.KBValue.lean ====
/-
  The kernel's result as the specification's function, the six kernel regions abstract.

  The program's host part is a dataflow over the ten argument arrays: two transposes, reshapes that add or drop a unit
  axis or flatten the channel and point axes into one, three column slices of the final weights, and between them the
  six regions: the edge convolution's two halves, the gather-and-maximum over the neighbours with and without the added
  centre term and rectifier, the two point convolutions, and the final convolution with its maximum over the points.
  Each region is a function of its operand arrays known at every index.  Reading the dataflow at an index, layer by
  layer, gives the specification's kernel side; the algebra of the specification then gives the reference side.
-/
import proofs.«209975_g17849884082380_cont_8to1_1483_11_alg».proof.Proof.Gen.Kernel
import proofs.«209975_g17849884082380_cont_8to1_1483_11_alg».proof.Proof.Decode
import proofs.«209975_g17849884082380_cont_8to1_1483_11_alg».proof.Proof.SpecAlgebra
import Idealize.ShloMosaic.PureOps.Ideal
import Idealize.ShloMosaic.Lib.ValueIdx
import Idealize.ShloMosaic.Lib.ValueIdxCoords
import Idealize.ShloMosaic.Lib.ValueLayout
import Idealize.ShloMosaic.Lib.Pipeline.Value

noncomputable section

namespace Cert.Proof.KBValue

open Cert.Kernel
open Idealize.ShloMosaic Idealize.ShloMosaic.ValueIdx
open Cert.Decode (slope)
open Cert.Spec (lreluK)
open scoped BigOperators

/-- The flattened channel-and-point coordinate: channel c, point m reduced into the cloud. -/
abbrev flat (c : Fin 64) (m : ℕ) : Fin 262144 := ⟨c.val * 4096 + m % 4096, by have := c.isLt; omega⟩

section

/-! ### The six regions, abstract -/

variable
  (tcaY tcaC : Vec Ideal S8x3x4096 .f32 → Vec Ideal S64x6 .f32 → Vec Ideal S64x1 .f32 → Vec Ideal S8x64x4096 .f32)
  (gmaxL : Vec Ideal S8x262144 .f32 → IVec S8x20x4096 32 → Vec Ideal S8x64x4096 .f32 → Vec Ideal S8x64x4096 .f32)
  (gmaxP : Vec Ideal S8x262144 .f32 → IVec S8x20x4096 32 → Vec Ideal S8x64x4096 .f32)
  (tcb : Vec Ideal S8x64x4096 .f32 → Vec Ideal S64x64 .f32 → Vec Ideal S64x1 .f32 → Vec Ideal S8x64x4096 .f32)
  (tcc : Vec Ideal S8x64x4096 .f32 → Vec Ideal S8x64x4096 .f32 → Vec Ideal S8x64x4096 .f32 → Vec Ideal S128x64 .f32
    → Vec Ideal S128x1 .f32 → Vec Ideal S512x64 .f32 → Vec Ideal S512x64 .f32 → Vec Ideal S512x128 .f32
    → Vec Ideal S1x512 .f32 → Vec Ideal S8x1x512 .f32)

/-- The neighbour half of the edge convolution. -/
abbrev SpecY : Prop := ∀ (xt : Vec Ideal S8x3x4096 .f32) (w : Vec Ideal S64x6 .f32) (be : Vec Ideal S64x1 .f32)
    (b : Fin 8) (o : Fin 64) (n : Fin 4096),
  tcaY xt w be (ix3 b o n)
    = (w (ix2 o 0) * xt (ix3 b 0 n) + w (ix2 o 1) * xt (ix3 b 1 n) + w (ix2 o 2) * xt (ix3 b 2 n) : EReal)

/-- The centre half of the edge convolution, with the bias. -/
abbrev SpecC : Prop := ∀ (xt : Vec Ideal S8x3x4096 .f32) (w : Vec Ideal S64x6 .f32) (be : Vec Ideal S64x1 .f32)
    (b : Fin 8) (o : Fin 64) (n : Fin 4096),
  tcaC xt w be (ix3 b o n)
    = (((w (ix2 o 3) - w (ix2 o 0)) * xt (ix3 b 0 n) + (w (ix2 o 4) - w (ix2 o 1)) * xt (ix3 b 1 n)
        + (w (ix2 o 5) - w (ix2 o 2)) * xt (ix3 b 2 n)) + be (ix2 o 0) : EReal)

/-- The maximum over the neighbours of a flattened source. -/
abbrev SpecGP : Prop := ∀ (src : Vec Ideal S8x262144 .f32) (idx : IVec S8x20x4096 32),
  (∀ j, (idx j).toNat < 4096) → ∀ (b : Fin 8) (c : Fin 64) (n : Fin 4096),
    gmaxP src idx (ix3 b c n) = (⨆ k : Fin 20, src (ix2 b (flat c (idx (ix3 b k n)).toNat)) : EReal)

/-- The maximum over the neighbours, the centre term added and the sum rectified. -/
abbrev SpecGL : Prop := ∀ (src : Vec Ideal S8x262144 .f32) (idx : IVec S8x20x4096 32) (cep : Vec Ideal S8x64x4096 .f32),
  (∀ j, (idx j).toNat < 4096) → ∀ (b : Fin 8) (c : Fin 64) (n : Fin 4096),
    gmaxL src idx cep (ix3 b c n)
      = lreluK slope ((⨆ k : Fin 20, src (ix2 b (flat c (idx (ix3 b k n)).toNat)) : EReal) + cep (ix3 b c n))

/-- A point convolution, rectified. -/
abbrev SpecB : Prop := ∀ (g : Vec Ideal S8x64x4096 .f32) (w : Vec Ideal S64x64 .f32) (b1 : Vec Ideal S64x1 .f32)
    (b : Fin 8) (o : Fin 64) (n : Fin 4096),
  tcb g w b1 (ix3 b o n) = lreluK slope ((∑ c : Fin 64, (w (ix2 o c) * g (ix3 b c n) : EReal)) + b1 (ix2 o 0))

/-- The second point convolution, rectified, then the final convolution's three blocks, the maximum over the points and
the final bias. -/
abbrev SpecT : Prop := ∀ (g2 h0 h1 : Vec Ideal S8x64x4096 .f32) (w2 : Vec Ideal S128x64 .f32) (b2 : Vec Ideal S128x1 .f32)
    (wf0 wf1 : Vec Ideal S512x64 .f32) (wf2 : Vec Ideal S512x128 .f32) (bf : Vec Ideal S1x512 .f32)
    (b : Fin 8) (o : Fin 512),
  tcc g2 h0 h1 w2 b2 wf0 wf1 wf2 bf (ix3 b 0 o)
    = (⨆ n : Fin 4096,
        ((∑ c : Fin 64, (wf0 (ix2 o c) * h0 (ix3 b c n) : EReal))
          + (∑ c : Fin 64, (wf1 (ix2 o c) * h1 (ix3 b c n) : EReal))
          + (∑ c : Fin 128, (wf2 (ix2 o c)
              * lreluK slope ((∑ c' : Fin 64, (w2 (ix2 c c') * g2 (ix3 b c' n) : EReal)) + b2 (ix2 c 0)) : EReal))))
      + bf (ix2 0 o)

/-! ### The host dataflow -/

variable (a0 : Vec Ideal S8x4096x3 .f32) (a1 : IVec S8x4096x20 32) (a2 : Vec Ideal S64x6 .f32) (a3 : Vec Ideal S64 .f32)
  (a4 : Vec Ideal S64x64 .f32) (a5 : Vec Ideal S64 .f32) (a6 : Vec Ideal S128x64 .f32) (a7 : Vec Ideal S128 .f32)
  (a8 : Vec Ideal S512x256 .f32) (a9 : Vec Ideal S512 .f32)

/-- The neighbour lists, transposed to [8, 20, 4096]. -/
def v0 : IVec S8x20x4096 32 := transpose S8x20x4096 [0, 2, 1] a1 Gen.transposes_S8x4096x20_S8x20x4096_0_2_1
/-- The points, transposed to [8, 3, 4096]. -/
def v1 : Vec Ideal S8x3x4096 .f32 := transpose S8x3x4096 [0, 2, 1] a0 Gen.transposes_S8x4096x3_S8x3x4096_0_2_1
/-- The edge bias as a column. -/
def v2 : Vec Ideal S64x1 .f32 := shapeCast S64x1 a3 Gen.shapeCasts_S64_S64x1
/-- The edge convolution's neighbour half. -/
def Y0 : Vec Ideal S8x64x4096 .f32 := tcaY (v1 a0) a2 (v2 a3)
/-- The edge convolution's centre half. -/
def C0 : Vec Ideal S8x64x4096 .f32 := tcaC (v1 a0) a2 (v2 a3)
/-- The first layer's output. -/
def H0 : Vec Ideal S8x64x4096 .f32 :=
  gmaxL (shapeCast S8x262144 (Y0 tcaY a0 a2 a3) Gen.shapeCasts_S8x64x4096_S8x262144) (v0 a1) (C0 tcaC a0 a2 a3)
/-- The first layer's output pooled over the neighbours. -/
def G1 : Vec Ideal S8x64x4096 .f32 :=
  gmaxP (shapeCast S8x262144 (H0 tcaY tcaC gmaxL a0 a1 a2 a3) Gen.shapeCasts_S8x64x4096_S8x262144) (v0 a1)
/-- The second layer's output. -/
def H1 : Vec Ideal S8x64x4096 .f32 :=
  tcb (G1 tcaY tcaC gmaxL gmaxP a0 a1 a2 a3) a4 (shapeCast S64x1 a5 Gen.shapeCasts_S64_S64x1)
/-- The second layer's output pooled over the neighbours. -/
def G2 : Vec Ideal S8x64x4096 .f32 :=
  gmaxP (shapeCast S8x262144 (H1 tcaY tcaC gmaxL gmaxP tcb a0 a1 a2 a3 a4 a5) Gen.shapeCasts_S8x64x4096_S8x262144) (v0 a1)
/-- The last region's output, [8, 1, 512]. -/
def O3 : Vec Ideal S8x1x512 .f32 :=
  tcc (G2 tcaY tcaC gmaxL gmaxP tcb a0 a1 a2 a3 a4 a5) (H0 tcaY tcaC gmaxL a0 a1 a2 a3)
    (H1 tcaY tcaC gmaxL gmaxP tcb a0 a1 a2 a3 a4 a5) a6
    (shapeCast S128x1 a7 Gen.shapeCasts_S128_S128x1)
    (extractStridedSlice S512x64 ![0, 0] a8 Gen.slices_S512x256_S512x64_0_0)
    (extractStridedSlice S512x64 ![0, 64] a8 Gen.slices_S512x256_S512x64_0_64)
    (extractStridedSlice S512x128 ![0, 128] a8 Gen.slices_S512x256_S512x128_0_128)
    (shapeCast S1x512 a9 Gen.shapeCasts_S512_S1x512)

/-- The program's result as a term over the ten argument arrays and the six regions. -/
def kernTerm : Vec Ideal S8x512 .f32 :=
  shapeCast S8x512 (O3 tcaY tcaC gmaxL gmaxP tcb tcc a0 a1 a2 a3 a4 a5 a6 a7 a8 a9) Gen.shapeCasts_S8x1x512_S8x512

/-! ### The layout operations at an index -/

theorem v0_apply (b : Fin 8) (k : Fin 20) (n : Fin 4096) : v0 a1 (ix3 b k n) = a1 (ix3 b n k) :=
  transpose_ix3_021_apply a1 _ b k n

theorem v1_apply (b : Fin 8) (c : Fin 3) (n : Fin 4096) : v1 a0 (ix3 b c n) = a0 (ix3 b n c) :=
  transpose_ix3_021_apply a0 _ b c n

/-- A vector cast to a column reads, at (i, 0), the vector at i. -/
theorem col_apply {m : ℕ} {α : Type} (x : (⟨1, ![m]⟩ : Shape).Idx → α) (h : (⟨1, ![m]⟩ : Shape).ShapeCasts ⟨2, ![m, 1]⟩)
    (i : Fin m) (u : Fin 1) : shapeCast ⟨2, ![m, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The channel and point axes flattened into one: at (b, c * 4096 + m) the array at (b, c, m). -/
theorem flat_apply {α : Type} (X : S8x64x4096.Idx → α) (h : S8x64x4096.ShapeCasts S8x262144)
    (b : Fin 8) (c : Fin 64) (m : Fin 4096) (q : Fin 262144) (hq : q.val = c.val * 4096 + m.val) :
    shapeCast S8x262144 X h (ix2 b q) = X (ix3 b c m) :=
  shapeCast_apply X h _ _ (by
    rw [Shape.rowMajor_val_three, Shape.rowMajor_val_two]
    show (b.val * 64 + c.val) * 4096 + m.val = b.val * 262144 + q.val
    omega)

/-- The unit middle axis dropped: at (b, o) the array at (b, 0, o). -/
theorem drop_mid_apply {α : Type} (X : S8x1x512.Idx → α) (h : S8x1x512.ShapeCasts S8x512) (b : Fin 8) (o : Fin 512) :
    shapeCast S8x512 X h (ix2 b o) = X (ix3 b 0 o) :=
  shapeCast_apply X h _ _ (by
    rw [Shape.rowMajor_val_three, Shape.rowMajor_val_two]
    show (b.val * 1 + 0) * 512 + o.val = b.val * 512 + o.val
    omega)

/-! ### The dataflow read at an index, layer by layer -/

variable (hY : SpecY tcaY) (hC : SpecC tcaC) (hGP : SpecGP gmaxP) (hGL : SpecGL gmaxL) (hB : SpecB tcb) (hT : SpecT tcc)
variable (hidx : ∀ j, (a1 j).toNat < 4096)

include hidx in
/-- The transposed neighbour lists hold the same words: each is below 4096. -/
theorem v0_lt : ∀ j, (v0 a1 j).toNat < 4096 := by
  intro j
  obtain ⟨b, k, n, rfl⟩ : ∃ (b : Fin 8) (k : Fin 20) (n : Fin 4096), j = ix3 b k n := ⟨j 0, j 1, j 2, eq_ix3 j⟩
  rw [v0_apply]
  exact hidx _

/-- The flattened array at the gather's source column is the array at the channel and the neighbour's point. -/
theorem gather_apply (Z : Vec Ideal S8x64x4096 .f32) (h : S8x64x4096.ShapeCasts S8x262144)
    (b : Fin 8) (c : Fin 64) (n : Fin 4096) (k : Fin 20) :
    shapeCast S8x262144 Z h (ix2 b (flat c (v0 a1 (ix3 b k n)).toNat)) = Z (ix3 b c (Cert.Decode.idxOf a1 b n k)) := by
  rw [v0_apply]
  exact flat_apply Z h b c (Cert.Decode.idxOf a1 b n k) _ rfl

include hY in
theorem Y0_apply (b : Fin 8) (o : Fin 64) (n : Fin 4096) :
    Y0 tcaY a0 a2 a3 (ix3 b o n) = Cert.Spec.ky0 (Cert.Decode.at3 a0) (Cert.Decode.at2 a2) b o n := by
  unfold Y0
  rw [hY, v1_apply, v1_apply, v1_apply]
  rfl

include hC in
theorem C0_apply (b : Fin 8) (o : Fin 64) (n : Fin 4096) :
    C0 tcaC a0 a2 a3 (ix3 b o n)
      = Cert.Spec.kc0 (Cert.Decode.at3 a0) (Cert.Decode.at2 a2) (Cert.Decode.at1 a3) b o n := by
  unfold C0
  rw [hC, v1_apply, v1_apply, v1_apply]
  unfold v2
  rw [col_apply]
  rfl

include hY hC hGL hidx in
theorem H0_apply (b : Fin 8) (c : Fin 64) (n : Fin 4096) :
    H0 tcaY tcaC gmaxL a0 a1 a2 a3 (ix3 b c n)
      = Cert.Spec.kh0 slope (Cert.Decode.at3 a0) (Cert.Decode.idxOf a1) (Cert.Decode.at2 a2) (Cert.Decode.at1 a3) b c n := by
  unfold H0
  rw [hGL _ _ _ (v0_lt a1 hidx), C0_apply tcaC a0 a2 a3 hC]
  unfold Cert.Spec.kh0 Cert.Spec.gmax
  refine congrArg (lreluK slope) (congrArg (· + _) (iSup_congr fun k => ?_))
  rw [gather_apply, Y0_apply tcaY a0 a2 a3 hY]

include hY hC hGL hGP hidx in
theorem G1_apply (b : Fin 8) (c : Fin 64) (n : Fin 4096) :
    G1 tcaY tcaC gmaxL gmaxP a0 a1 a2 a3 (ix3 b c n)
      = Cert.Spec.gmax (Cert.Decode.idxOf a1)
          (Cert.Spec.kh0 slope (Cert.Decode.at3 a0) (Cert.Decode.idxOf a1) (Cert.Decode.at2 a2) (Cert.Decode.at1 a3)) b c n := by
  unfold G1
  rw [hGP _ _ (v0_lt a1 hidx)]
  unfold Cert.Spec.gmax
  refine iSup_congr fun k => ?_
  rw [gather_apply, H0_apply tcaY tcaC gmaxL a0 a1 a2 a3 hY hC hGL hidx]

include hY hC hGL hGP hB hidx in
theorem H1_apply (b : Fin 8) (o : Fin 64) (n : Fin 4096) :
    H1 tcaY tcaC gmaxL gmaxP tcb a0 a1 a2 a3 a4 a5 (ix3 b o n)
      = Cert.Spec.kh1 slope (Cert.Decode.at3 a0) (Cert.Decode.idxOf a1) (Cert.Decode.at2 a2) (Cert.Decode.at1 a3)
          (Cert.Decode.at2 a4) (Cert.Decode.at1 a5) b o n := by
  unfold H1
  rw [hB, col_apply]
  unfold Cert.Spec.kh1
  refine congrArg (lreluK slope) (congrArg (· + _) (Finset.sum_congr rfl fun c _ => ?_))
  rw [G1_apply tcaY tcaC gmaxL gmaxP a0 a1 a2 a3 hY hC hGP hGL hidx]

include hY hC hGL hGP hB hidx in
theorem G2_apply (b : Fin 8) (c : Fin 64) (n : Fin 4096) :
    G2 tcaY tcaC gmaxL gmaxP tcb a0 a1 a2 a3 a4 a5 (ix3 b c n)
      = Cert.Spec.gmax (Cert.Decode.idxOf a1)
          (Cert.Spec.kh1 slope (Cert.Decode.at3 a0) (Cert.Decode.idxOf a1) (Cert.Decode.at2 a2) (Cert.Decode.at1 a3)
            (Cert.Decode.at2 a4) (Cert.Decode.at1 a5)) b c n := by
  unfold G2
  rw [hGP _ _ (v0_lt a1 hidx)]
  unfold Cert.Spec.gmax
  refine iSup_congr fun k => ?_
  rw [gather_apply, H1_apply tcaY tcaC gmaxL gmaxP tcb a0 a1 a2 a3 a4 a5 hY hC hGP hGL hB hidx]

include hY hC hGL hGP hB hT hidx in
theorem O3_apply (b : Fin 8) (o : Fin 512) :
    O3 tcaY tcaC gmaxL gmaxP tcb tcc a0 a1 a2 a3 a4 a5 a6 a7 a8 a9 (ix3 b 0 o)
      = Cert.Spec.kout slope (Cert.Decode.at3 a0) (Cert.Decode.idxOf a1) (Cert.Decode.at2 a2) (Cert.Decode.at1 a3)
          (Cert.Decode.at2 a4) (Cert.Decode.at1 a5) (Cert.Decode.at2 a6) (Cert.Decode.at1 a7) (Cert.Decode.at2 a8)
          (Cert.Decode.at1 a9) b o := by
  unfold O3
  rw [hT, shapeCast_a_1a_apply]
  unfold Cert.Spec.kout
  refine congrArg (· + _) (iSup_congr fun n => ?_)
  unfold Cert.Spec.kp
  refine congrArg₂ (· + ·) (congrArg₂ (· + ·) ?_ ?_) ?_
  · refine Finset.sum_congr rfl fun c _ => ?_
    rw [H0_apply tcaY tcaC gmaxL a0 a1 a2 a3 hY hC hGL hidx,
      slice2_axis1_apply 0 a8 _ o c ⟨c.val, by omega⟩ (Nat.zero_add _).symm]
  · refine Finset.sum_congr rfl fun c _ => ?_
    rw [H1_apply tcaY tcaC gmaxL gmaxP tcb a0 a1 a2 a3 a4 a5 hY hC hGP hGL hB hidx, slice2_axis1_eq]
  · refine Finset.sum_congr rfl fun c _ => ?_
    rw [slice2_axis1_eq, col_apply]
    unfold Cert.Spec.kh2
    refine congrArg (_ * ·) (congrArg (lreluK slope) (congrArg (· + _) (Finset.sum_congr rfl fun c' _ => ?_)))
    rw [G2_apply tcaY tcaC gmaxL gmaxP tcb a0 a1 a2 a3 a4 a5 hY hC hGP hGL hB hidx]

/-! ### The result -/

include hY hC hGL hGP hB hT hidx in
/-- The program's result is the specification's kernel side at the ten argument arrays. -/
theorem kernTerm_eq_kernelOut :
    kernTerm tcaY tcaC gmaxL gmaxP tcb tcc a0 a1 a2 a3 a4 a5 a6 a7 a8 a9
      = Cert.Decode.kernelOut a0 a1 a2 a3 a4 a5 a6 a7 a8 a9 := by
  funext j
  obtain ⟨b, o, rfl⟩ : ∃ (b : Fin 8) (o : Fin 512), j = ix2 b o := ⟨j 0, j 1, eq_ix2 j⟩
  unfold kernTerm
  rw [drop_mid_apply, O3_apply tcaY tcaC gmaxL gmaxP tcb tcc a0 a1 a2 a3 a4 a5 a6 a7 a8 a9 hY hC hGP hGL hB hT hidx]
  rfl

include hY hC hGL hGP hB hT hidx in
/-- The program's result is the reference side: the points, the edge weights and the edge bias real, the slope a
non-negative real, every neighbour word below 4096. -/
theorem kern_value (hs : ∃ r : ℝ, 0 ≤ r ∧ slope = (r : EReal))
    (h0 : ∀ j, ∃ r : ℝ, a0 j = (r : EReal)) (h2 : ∀ j, ∃ r : ℝ, a2 j = (r : EReal)) (h3 : ∀ j, ∃ r : ℝ, a3 j = (r : EReal)) :
    kernTerm tcaY tcaC gmaxL gmaxP tcb tcc a0 a1 a2 a3 a4 a5 a6 a7 a8 a9
      = Cert.Decode.refOut a0 a1 a2 a3 a4 a5 a6 a7 a8 a9 := by
  rw [kernTerm_eq_kernelOut tcaY tcaC gmaxL gmaxP tcb tcc a0 a1 a2 a3 a4 a5 a6 a7 a8 a9 hY hC hGP hGL hB hT hidx]
  unfold Cert.Decode.kernelOut Cert.Decode.refOut
  rw [Cert.Spec.kout_eq_rout slope hs _ _ _ _ _ _ _ _ _ _ (fun b n c => h0 _) (fun o c => h2 _) (fun o => h3 _)]

end

end Cert.Proof.KBValue

end
-- ==== Proof.KBTcb.lean ====
/-
  The second TensorCore call (the first point convolution, rectified): its proof data, its body obligation, and the array
  it leaves.

  The call runs over the 8 clouds. At cloud b the body reads the cloud's gathered features g : [1, 64, 4096], the weights
  w : [64, 64] and the bias column b1 : [64, 1], and stores the rectified w · g + b1 into the output's block. The store
  fills the whole block, so what the body leaves in the output's staging buffer is a function of the three input blocks
  alone (tcbOut: the stored payload), and the inputs' buffers are left as found. The proof data (tcbDat) names exactly
  that; the body's triple (tcbSoundKernel) is proved once at a symbolic grid point over whole staging buffers, and the body
  obligation (tcbBodyObligation) is that triple at the buffers the pipeline is on at the point. The tallies the core owes
  and the bound on its recorded pairs are parameters, the same at every point: the body makes no wait and signals nothing,
  so they pass through it unread. The output's blocks tile its array, one cloud each, so the array ends as one function of
  the three operand arrays (tcbArr).
-/
import proofs.«209975_g17849884082380_cont_8to1_1483_11_alg».proof.Proof.KBSetup
import proofs.«209975_g17849884082380_cont_8to1_1483_11_alg».proof.Proof.Gen.Kernel.Launch
import proofs.«209975_g17849884082380_cont_8to1_1483_11_alg».proof.Proof.Gen.Kernel.Points
import proofs.«209975_g17849884082380_cont_8to1_1483_11_alg».proof.Proof.KBTcbValue
import proofs.«209975_g17849884082380_cont_8to1_1483_11_alg».proof.Proof.KBValue
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

local notation "𝕄" => MT nD τ sig (HIx 3) (Elt F) ℕ UU ℕ

/-! ## The rectangles the body reads and writes through -/

/-- The whole block of points [1, 64, 4096]: the features read, and the output written. -/
abbrev tcbRG : Rect S1x64x4096 := Rect.unit (s := S1x64x4096) ![0, 0, 0] S1x64x4096.size inb_S1x64x4096_S1x64x4096_0_0_0
/-- The whole weights [64, 64]. -/
abbrev tcbRW : Rect S64x64 := Rect.unit (s := S64x64) ![0, 0] S64x64.size inb_S64x64_S64x64_0_0
/-- The whole bias column [64, 1]. -/
abbrev tcbRB : Rect S64x1 := Rect.unit (s := S64x1) ![0, 0] S64x1.size inb_S64x1_S64x1_0_0

/-! ## What the body leaves in the output window's buffer -/

/-- The output's staging buffer after the body, from the features' block, the weights and the bias: its one store. -/
def tcbOut (x0 : Vec F S1x64x4096 .f32) (x1 : Vec F S64x64 .f32) (x2 : Vec F S64x1 .f32) : Vec F S1x64x4096 .f32 :=
  View.canon [⟨tcbRG, k3_pay1 (View.ld x1 tcbRW) (View.ld x0 tcbRG) (View.ld x2 tcbRB)⟩]

/-- A store through the whole output block covers it. -/
theorem tcbCoverO (p0 : Vec F S1x64x4096 .f32) (y : S1x64x4096.Idx) :
    ∃ pc ∈ ([⟨tcbRG, p0⟩] : List (View.Piece (Elt F) S1x64x4096 .f32)), y ∈ pc.1.set :=
  View.cover_of_tiled [⟨tcbRG, p0⟩] S1x64x4096.size (by rfl) y

/-! ## The body's triple -/

set_option maxHeartbeats 4000000 in
/-- The body on whole staging buffers, the inputs' at contents x0, x1, x2 and the output's at anything, runs to the
    continuation holding the inputs' as they were and the output's at what its one store leaves (tcbOut). -/
theorem tcbSoundKernel (c : Dev nD) (E : Set ℕ) (i : grid3.Coords)
    (arg1 : Memref sig .tc .vmem S1x64x4096 .f32) (harg1 : arg1.IsWhole) (arg2 : Memref sig .tc .vmem S64x64 .f32) (harg2 : arg2.IsWhole)
    (arg3 : Memref sig .tc .vmem S64x1 .f32) (harg3 : arg3.IsWhole) (arg4 : Memref sig .tc .vmem S1x64x4096 .f32) (harg4 : arg4.IsWhole)
    (x0 : Vec F S1x64x4096 .f32) (x1 : Vec F S64x64 .f32) (x2 : Vec F S64x1 .f32) (Kc : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tcbOut x0 x1 x2)) -∗ Kc ⟨⟩))
      ⊢ wp frame (wpE (defs₀ (F := F)) Variants.none c none) E (cc3__tcb_body i arg1 harg1 arg2 harg2 arg3 harg3 arg4 harg4) Kc := by
  simp only [cc3__tcb_body_eq_skeleton]; unfold cc3__tcb_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tcbCoverO _)

/-! ## The windows' blocks -/

/-- Window w's block at point t, read off its array as the region finds it (V). -/
def tcbWin (c : Dev nD) (V : (b : Ref sig .tc) → Buf (Elt F) ((c : Thread nD τ).loc b)) (w : Fin cfg3.W) (t : Fin cfg3.N) :
    ((cfg3.win w).xblock (cfg3.grid.coords t)).Idx → Elt F (cfg3.win w).elt :=
  ((cfg3.win w).blk t).view.read (Elt F) (V (Pipeline.arrRef spec3 w))

/-! ## The pipeline's proof data -/

/-- The proof data of the second TensorCore call on core c: the arrays as the region finds them (V); after the body at
    point t each input's buffer at its block and the output's at what the body stores there, as a function of the
    input blocks; the invariant the scoped buffers no window stages, untouched; the core's tallies O and the bound B
    on its recorded pairs, the same at every point (the body makes no wait and signals nothing); full shares. -/
def tcbDat (c : Dev nD) (V : (b : Ref sig .tc) → Buf (Elt F) ((c : Thread nD τ).loc b))
    (O : CellTallies nD τ sig (HIx 3)) (B : Set (SemLoc sig × HIx 3)) : Dat τ (Elt F) (HIx 3) ℕ UU ℕ cfg3 c where
  A w := V (Pipeline.arrRef spec3 w)
  after w t := match w with
    | ⟨0, _⟩ => tcbWin c V 0 t
    | ⟨1, _⟩ => tcbWin c V 1 t
    | ⟨2, _⟩ => tcbWin c V 2 t
    | ⟨3, _⟩ => tcbOut (tcbWin c V 0 t) (tcbWin c V 1 t) (tcbWin c V 2 t)
  Φ _ := Pipeline.scopedRest spec3 c
  q _ := fullShare
  owed _ := O
  recorded _ := B

section Data

variable (c : Dev nD) (V : (b : Ref sig .tc) → Buf (Elt F) ((c : Thread nD τ).loc b))
  (O : CellTallies nD τ sig (HIx 3)) (B : Set (SemLoc sig × HIx 3))

/-- The proof data's arrays are the region-entry contents. -/
theorem tcbDat_A (w : Fin cfg3.W) : (tcbDat c V O B).A w = V (Pipeline.arrRef spec3 w) := by
  dsimp only [tcbDat]

/-- What the body leaves, window by window. -/
theorem tcbDat_after0 (t : Fin cfg3.N) : (tcbDat c V O B).after 0 t = tcbWin c V 0 t := by dsimp only [tcbDat]
theorem tcbDat_after1 (t : Fin cfg3.N) : (tcbDat c V O B).after 1 t = tcbWin c V 1 t := by dsimp only [tcbDat]
theorem tcbDat_after2 (t : Fin cfg3.N) : (tcbDat c V O B).after 2 t = tcbWin c V 2 t := by dsimp only [tcbDat]
theorem tcbDat_after3 (t : Fin cfg3.N) :
    (tcbDat c V O B).after 3 t = tcbOut (tcbWin c V 0 t) (tcbWin c V 1 t) (tcbWin c V 2 t) := by dsimp only [tcbDat]

/-- Each input's current staging buffer holds its block at every point, fetched there or not: unfetched, the block
    index has not moved. -/
theorem tcbDat_before0 (t : Fin cfg3.N) (d) : (tcbDat c V O B).before 0 t d = tcbWin c V 0 t :=
  ((tcbDat c V O B).before_in_eq_fetched 0 rfl (fun _ => rfl) (fun _ _ _ => rfl)
      (fun t => by rw [tcbDat_after0]; unfold Dat.blockOf tcbWin; rw [tcbDat_A]; try rfl) t d).trans
    (by unfold Dat.fetched Dat.blockOf tcbWin; rw [tcbDat_A]; try rfl)
theorem tcbDat_before1 (t : Fin cfg3.N) (d) : (tcbDat c V O B).before 1 t d = tcbWin c V 1 t :=
  ((tcbDat c V O B).before_in_eq_fetched 1 rfl (fun _ => rfl) (fun _ _ _ => rfl)
      (fun t => by rw [tcbDat_after1]; unfold Dat.blockOf tcbWin; rw [tcbDat_A]; try rfl) t d).trans
    (by unfold Dat.fetched Dat.blockOf tcbWin; rw [tcbDat_A]; try rfl)
theorem tcbDat_before2 (t : Fin cfg3.N) (d) : (tcbDat c V O B).before 2 t d = tcbWin c V 2 t :=
  ((tcbDat c V O B).before_in_eq_fetched 2 rfl (fun _ => rfl) (fun _ _ _ => rfl)
      (fun t => by rw [tcbDat_after2]; unfold Dat.blockOf tcbWin; rw [tcbDat_A]; try rfl) t d).trans
    (by unfold Dat.fetched Dat.blockOf tcbWin; rw [tcbDat_A]; try rfl)

/-! ## The body obligation, at a generic point -/

/-- What the body is called with at point t, the windows one by one, -/
def tcbBodyPre (t : Fin cfg3.N) : sProp 𝕄 :=
  iprop((tcbDat c V O B).Φ t.castSucc ∗ (tcbDat c V O B).owesAt none t.castSucc
    ∗ (∃ d, owns (c : Thread nD τ) (st3_0 t) fullShare ((tcbDat c V O B).before 0 t d))
    ∗ (∃ d, owns (c : Thread nD τ) (st3_1 t) fullShare ((tcbDat c V O B).before 1 t d))
    ∗ (∃ d, owns (c : Thread nD τ) (st3_2 t) fullShare ((tcbDat c V O B).before 2 t d))
    ∗ (∃ d, owns (c : Thread nD τ) (st3_3 t) fullShare ((tcbDat c V O B).before 3 t d)))

/-- and what it returns. -/
def tcbBodyPost (t : Fin cfg3.N) : sProp 𝕄 :=
  iprop((tcbDat c V O B).Φ t.succ ∗ (tcbDat c V O B).owesAt none t.succ
    ∗ owns (c : Thread nD τ) (st3_0 t) fullShare ((tcbDat c V O B).after 0 t)
    ∗ owns (c : Thread nD τ) (st3_1 t) fullShare ((tcbDat c V O B).after 1 t)
    ∗ owns (c : Thread nD τ) (st3_2 t) fullShare ((tcbDat c V O B).after 2 t)
    ∗ owns (c : Thread nD τ) (st3_3 t) fullShare ((tcbDat c V O B).after 3 t))

/-- The body at any point: the inputs' memrefs hold their blocks, so the body's triple applies; the invariant and the
    core's owed tallies pass through unread. -/
theorem tcbSoundBody (t : Fin cfg3.N) :
    tcbBodyPre c V O B t ⊢ wp frame (wpE (defs₀ (F := F)) Variants.none c none) Set.univ (bodyAt3 t) (fun _ => tcbBodyPost c V O B t) := by
  unfold tcbBodyPre tcbBodyPost bodyAt3
  simp only [tcbDat_before0, tcbDat_before1, tcbDat_before2]
  rw [show (tcbDat c V O B).Φ t.succ = (tcbDat c V O B).Φ t.castSucc from rfl,
    show (tcbDat c V O B).owesAt none t.succ = (tcbDat c V O B).owesAt none t.castSucc from rfl,
    tcbDat_after0, tcbDat_after1, tcbDat_after2, tcbDat_after3]
  iintro ⟨HΦ, Ho, ⟨%d0, H0⟩, ⟨%d1, H1⟩, ⟨%d2, H2⟩, ⟨%d3, H3⟩⟩
  iapply (tcbSoundKernel c Set.univ (grid3.coords t) _ _ _ _ _ _ _ _ (tcbWin c V 0 t) (tcbWin c V 1 t) (tcbWin c V 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem tcbBodyObligation : BodyObligation (tcbDat (F := F) c V O B) (defs₀ (F := F)) Variants.none (none : HIx 3) Set.univ := fun t => by
  rw [bigSep_W3, bigSep_W3]
  exact tcbSoundBody c V O B t

end Data

/-! ## The array the call leaves -/

/-- Cloud b's block of an array of clouds. -/
def tcbCloud (g : Vec F S8x64x4096 .f32) (b : Fin 8) : Vec F S1x64x4096 .f32 := fun j => g (ix3 b (j 1) (j 2))

/-- The output array as one function of the three operand arrays: cloud by cloud, the body's stored block of the cloud's
    block of features. -/
def tcbArr (g : Vec F S8x64x4096 .f32) (w : Vec F S64x64 .f32) (b1 : Vec F S64x1 .f32) : Vec F S8x64x4096 .f32 :=
  fun i => tcbBlk (tcbCloud g (i 0)) w b1 (ix3 (0 : Fin 1) (i 1) (i 2))

/-- The array at cloud b, read at a block index, is the stored block of cloud b's block there. -/
theorem tcbArr_blk (g : Vec F S8x64x4096 .f32) (w : Vec F S64x64 .f32) (b1 : Vec F S64x1 .f32) (b : Fin 8) (j : S1x64x4096.Idx) :
    tcbArr g w b1 (ix3 b (j 1) (j 2)) = tcbBlk (tcbCloud g b) w b1 j := by
  show tcbBlk (tcbCloud g b) w b1 (ix3 (0 : Fin 1) (j 1) (j 2)) = tcbBlk (tcbCloud g b) w b1 j
  refine congrArg _ (funext fun a => Fin.ext ?_)
  match a with
  | ⟨0, _⟩ => show 0 = (j 0).val; have h1 : (j 0).val < 1 := (j 0).isLt; omega
  | ⟨1, _⟩ => rfl
  | ⟨2, _⟩ => rfl

theorem tcb_hz3 : (![0, 0, 0] : Fin 3 → Nat) = fun _ => 0 := funext fun a => by fin_cases a <;> rfl
theorem tcb_hz2 : (![0, 0] : Fin 2 → Nat) = fun _ => 0 := funext fun a => by fin_cases a <;> rfl

/-- The one store through the whole block leaves its payload: the value function of the three blocks. -/
theorem tcbOut_eq (x0 : Vec F S1x64x4096 .f32) (x1 : Vec F S64x64 .f32) (x2 : Vec F S64x1 .f32) :
    tcbOut x0 x1 x2 = tcbBlk x0 x1 x2 := by
  unfold tcbOut tcbBlk
  rw [View.canon_unit_zero tcb_hz3]
  simp only [View.ld_unit_zero (S := S1x64x4096) tcb_hz3, View.ld_unit_zero (S := S64x64) tcb_hz2,
    View.ld_unit_zero (S := S64x1) tcb_hz2]

/-- The printed index maps, decided over the grid: the features' and the output's block is the point's cloud, the weights'
    and the bias's the whole array. -/
theorem tcb_idx_facts : ∀ t : Fin cfg3.N, win3_0.index t (0 : Fin 3) = t.val ∧ win3_0.index t (1 : Fin 3) = 0
    ∧ win3_0.index t (2 : Fin 3) = 0 ∧ win3_1.index t (0 : Fin 2) = 0 ∧ win3_1.index t (1 : Fin 2) = 0
    ∧ win3_2.index t (0 : Fin 2) = 0 ∧ win3_2.index t (1 : Fin 2) = 0
    ∧ win3_3.index t (0 : Fin 3) = t.val ∧ win3_3.index t (1 : Fin 3) = 0 ∧ win3_3.index t (2 : Fin 3) = 0 :=
  (by decide +kernel : ∀ t : Fin grid3.N, _)

/-- A point as a cloud. -/
def tcbPt (t : Fin cfg3.N) : Fin 8 := ⟨t.val, by have h : t.val < grid3.N := t.isLt; rw [N_3] at h; exact h⟩

section Array

variable (c : Dev nD) (V : (b : Ref sig .tc) → Buf (Elt F) ((c : Thread nD τ).loc b))
  (O : CellTallies nD τ sig (HIx 3)) (B : Set (SemLoc sig × HIx 3))

/-- The features' block at a point is the point's cloud. -/
theorem tcbWin0_eq (t : Fin cfg3.N) : tcbWin c V 0 t = tcbCloud (V main_v7) (tcbPt t) := by
  obtain ⟨e00, e01, e02, -⟩ := tcb_idx_facts t
  funext y
  show V main_v7 (((cfg3.win 0).blk t).view.emb y) = V main_v7 (ix3 (tcbPt t) (y 1) (y 2))
  refine congrArg _ (funext fun a => Fin.ext ?_)
  match a with
  | ⟨0, _⟩ => show win3_0.index t (0 : Fin 3) * 1 + 1 * (y 0).val = t.val; have h1 : (y 0).val < 1 := (y 0).isLt; omega
  | ⟨1, _⟩ => show win3_0.index t (1 : Fin 3) * 64 + 1 * (y 1).val = (y 1).val; omega
  | ⟨2, _⟩ => show win3_0.index t (2 : Fin 3) * 4096 + 1 * (y 2).val = (y 2).val; omega

/-- The weights' block is the whole array. -/
theorem tcbWin1_eq (t : Fin cfg3.N) : tcbWin c V 1 t = V main_arg4 := by
  obtain ⟨-, -, -, e10, e11, -⟩ := tcb_idx_facts t
  funext y
  show V main_arg4 (((cfg3.win 1).blk t).view.emb y) = V main_arg4 y
  refine congrArg _ (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- The bias's block is the whole array. -/
theorem tcbWin2_eq (t : Fin cfg3.N) : tcbWin c V 2 t = V main_v8 := by
  obtain ⟨-, -, -, -, -, e20, e21, -⟩ := tcb_idx_facts t
  funext y
  show V main_v8 (((cfg3.win 2).blk t).view.emb y) = V main_v8 y
  refine congrArg _ (funext fun a => Fin.ext ?_)
  match a with
  | ⟨0, _⟩ => show win3_2.index t (0 : Fin 2) * 64 + 1 * (y 0).val = (y 0).val; omega
  | ⟨1, _⟩ => show win3_2.index t (1 : Fin 2) * 1 + 1 * (y 1).val = (y 1).val; omega

/-- What point t writes back is block t of the array function of the operand arrays as the region finds them. -/
theorem tcbDat_flushed3 (t : Fin cfg3.N) :
    (tcbDat c V O B).flushed 3 t
      = ((cfg3.win 3).blk t).view.read (Elt F) (tcbArr (V main_v7) (V main_arg4) (V main_v8)) := by
  show (cfg3.win 3).cut (grid3.coords t) ((tcbDat c V O B).after 3 t) = _
  rw [tcbDat_after3, tcbOut_eq, tcbWin0_eq, tcbWin1_eq, tcbWin2_eq]
  obtain ⟨-, -, -, -, -, -, -, e30, e31, e32⟩ := tcb_idx_facts t
  funext j
  show tcbBlk (tcbCloud (V main_v7) (tcbPt t)) (V main_arg4) (V main_v8) j
    = tcbArr (V main_v7) (V main_arg4) (V main_v8) (((cfg3.win 3).blk t).view.emb j)
  have he : ((cfg3.win 3).blk t).view.emb j = ix3 (tcbPt t) (j 1) (j 2) := by
    funext a; apply Fin.ext
    match a with
    | ⟨0, _⟩ => show win3_3.index t (0 : Fin 3) * 1 + 1 * (j 0).val = t.val; have h1 : (j 0).val < 1 := (j 0).isLt; omega
    | ⟨1, _⟩ => show win3_3.index t (1 : Fin 3) * 64 + 1 * (j 1).val = (j 1).val; omega
    | ⟨2, _⟩ => show win3_3.index t (2 : Fin 3) * 4096 + 1 * (j 2).val = (j 2).val; omega
  rw [he]
  exact (tcbArr_blk _ _ _ (tcbPt t) j).symm

/-- An index of the output array is in point t's block iff each coordinate is in the block's range on its axis. -/
theorem tcb_mem_blk3 (t : Fin cfg3.N) (i : S8x64x4096.Idx) :
    i ∈ ((cfg3.win 3).blk t).view.set ↔ ∀ a : Fin 3, win3_3.index t a * S1x64x4096.size a ≤ (i a).val
      ∧ (i a).val < win3_3.index t a * S1x64x4096.size a + S1x64x4096.size a := by
  show i ∈ ((View.whole main_v9).slice (win3_3.rect t)).set ↔ _
  rw [View.set_slice_whole, Rect.mem_set_unit]
  exact Iff.rfl

/-- Every index of the output array is in the block of the point that is its cloud. -/
theorem tcb_cover3 (i : S8x64x4096.Idx) :
    ∃ t : Fin cfg3.N, (cfg3.win 3).flush t = true ∧ i ∈ ((cfg3.win 3).blk t).view.set := by
  have hi0 : (i 0).val < 8 := (i 0).isLt
  have hi1 : (i 1).val < 64 := (i 1).isLt
  have hi2 : (i 2).val < 4096 := (i 2).isLt
  have hN : (i 0).val < grid3.N := by rw [N_3]; exact hi0
  obtain ⟨-, -, -, -, -, -, -, e30, e31, e32⟩ := tcb_idx_facts ⟨(i 0).val, hN⟩
  refine ⟨⟨(i 0).val, hN⟩, flush3_3 _, ?_⟩
  rw [tcb_mem_blk3]
  intro a
  match a with
  | ⟨0, _⟩ =>
    show win3_3.index ⟨(i 0).val, hN⟩ (0 : Fin 3) * 1 ≤ (i 0).val ∧ (i 0).val < win3_3.index ⟨(i 0).val, hN⟩ (0 : Fin 3) * 1 + 1
    rw [e30]; show (i 0).val * 1 ≤ (i 0).val ∧ (i 0).val < (i 0).val * 1 + 1; omega
  | ⟨1, _⟩ =>
    show win3_3.index ⟨(i 0).val, hN⟩ (1 : Fin 3) * 64 ≤ (i 1).val ∧ (i 1).val < win3_3.index ⟨(i 0).val, hN⟩ (1 : Fin 3) * 64 + 64
    rw [e31]; omega
  | ⟨2, _⟩ =>
    show win3_3.index ⟨(i 0).val, hN⟩ (2 : Fin 3) * 4096 ≤ (i 2).val ∧ (i 2).val < win3_3.index ⟨(i 0).val, hN⟩ (2 : Fin 3) * 4096 + 4096
    rw [e32]; omega

/-- The output array after the call: the array function of the three operand arrays as the region finds them. -/
theorem tcbDat_arrAt3 : (tcbDat c V O B).arrAt 3 cfg3.N = tcbArr (V main_v7) (V main_arg4) (V main_v8) :=
  (tcbDat c V O B).arrAt_eq_of_cover 3 _ (fun t _ => tcbDat_flushed3 c V O B t) tcb_cover3

/-- The operand arrays are never written back: they stay as the region finds them. -/
theorem tcbDat_arrAt0 (n : ℕ) : (tcbDat c V O B).arrAt 0 n = V (Pipeline.arrRef spec3 0) :=
  ((tcbDat c V O B).arrAt_in 0 rfl n).trans (tcbDat_A c V O B 0)
theorem tcbDat_arrAt1 (n : ℕ) : (tcbDat c V O B).arrAt 1 n = V (Pipeline.arrRef spec3 1) :=
  ((tcbDat c V O B).arrAt_in 1 rfl n).trans (tcbDat_A c V O B 1)
theorem tcbDat_arrAt2 (n : ℕ) : (tcbDat c V O B).arrAt 2 n = V (Pipeline.arrRef spec3 2) :=
  ((tcbDat c V O B).arrAt_in 2 rfl n).trans (tcbDat_A c V O B 2)

end Array

/-- At the ideal floats the array function is the rectified point convolution, at every cloud, channel and point. -/
theorem tcbArr_spec : Cert.Proof.KBValue.SpecB (tcbArr (F := Ideal)) := fun g w b1 b o n => by
  show tcbBlk (tcbCloud g b) w b1 (ix3 (0 : Fin 1) o n) = _
  exact tcbBlk_ideal (tcbCloud g b) w b1 o n

end Cert.Proof.KB

end
-- ==== Proof.KBTccValue.lean ====
/-
  The third TensorCore body's stored block as a function of its nine loaded blocks, and its value at the ideal floats.
-/
import proofs.«209975_g17849884082380_cont_8to1_1483_11_alg».proof.Proof.Gen.Kernel.Skeleton
import proofs.«209975_g17849884082380_cont_8to1_1483_11_alg».proof.Proof.Decode
import proofs.«209975_g17849884082380_cont_8to1_1483_11_alg».proof.Proof.KBBlockOps

noncomputable section

namespace Cert.Proof.KB

open Cert.Kernel Cert.Kernel.Gen
open Idealize.ShloMosaic Idealize.ShloMosaic.ValueIdx
open scoped BigOperators

/-- What the body stores, as a function of its nine loaded blocks: the gathered features g2 and the two earlier layers'
    blocks h0 and h1, the last layer's weights w2 and bias column b2, the final convolution's three column blocks
    wf0, wf1, wf2 and the final bias row bf. -/
def tccBlk {F : FTy → Type} [FloatOps F] (g2 h0 h1 : Vec F S1x64x4096 .f32) (w2 : Vec F S128x64 .f32) (b2 : Vec F S128x1 .f32)
    (wf0 wf1 : Vec F S512x64 .f32) (wf2 : Vec F S512x128 .f32) (bf : Vec F S1x512 .f32) : Vec F S1x1x512 .f32 :=
  Gen.k5_pay1 (Gen.k5_pay2 w2 g2 b2 wf0 h0 wf1 h1 wf2) bf

/-- The stored block is the three products added, maximised over the points, plus the final bias. -/
theorem tccBlk_eq {F : FTy → Type} [FloatOps F] (g2 h0 h1 : Vec F S1x64x4096 .f32) (w2 : Vec F S128x64 .f32)
    (b2 : Vec F S128x1 .f32) (wf0 wf1 : Vec F S512x64 .f32) (wf2 : Vec F S512x128 .f32) (bf : Vec F S1x512 .f32) :
    tccBlk g2 h0 h1 w2 b2 wf0 wf1 wf2 bf
      = Ops.tccV (c0 := 64) (c1 := 64) (c2 := 128) (q := 512) (n := 4096)
          dot_S128x64_S64x4096_S128x4096_1_0_0_1_n_n dot_S512x64_S64x4096_S512x4096_1_0_0_1_n_n
          dot_S512x64_S64x4096_S512x4096_1_0_0_1_n_n dot_S512x128_S128x4096_S512x4096_1_0_0_1_n_n
          g2 h0 h1 w2 b2 wf0 wf1 wf2 bf
          shapeCasts_S1x64x4096_S64x4096 shapeCasts_S128x1_S128x1 broadcasts_S128x1_S128x4096
          shapeCasts_S512x64_S512x64 shapeCasts_S1x64x4096_S64x4096 shapeCasts_S512x64_S512x64 shapeCasts_S512x128_S512x128
          reduces_S512x4096_S512 (.inl rfl) rfl
          shapeCasts_S512_S1x1x512 shapeCasts_S1x512_S1x512 shapeCasts_S1x512_S1x1x512 := rfl

/-- The body's products are plain ones. -/
theorem tcc_dot2_plain : dot_S128x64_S64x4096_S128x4096_1_0_0_1_n_n = DotDims.plain 128 64 4096 := rfl
theorem tcc_dotf01_plain : dot_S512x64_S64x4096_S512x4096_1_0_0_1_n_n = DotDims.plain 512 64 4096 := rfl
theorem tcc_dotf2_plain : dot_S512x128_S128x4096_S512x4096_1_0_0_1_n_n = DotDims.plain 512 128 4096 := rfl

/-- At the ideal floats the stored block is, at output channel o, the maximum over the points of the final convolution
    of the three layers' outputs (the last layer's computed here), plus the final bias. -/
theorem tccBlk_ideal (g2 h0 h1 : Vec Ideal S1x64x4096 .f32) (w2 : Vec Ideal S128x64 .f32) (b2 : Vec Ideal S128x1 .f32)
    (wf0 wf1 : Vec Ideal S512x64 .f32) (wf2 : Vec Ideal S512x128 .f32) (bf : Vec Ideal S1x512 .f32) (o : Fin 512) :
    tccBlk g2 h0 h1 w2 b2 wf0 wf1 wf2 bf (ix3 (0 : Fin 1) (0 : Fin 1) o)
      = (⨆ n : Fin 4096, ((∑ c : Fin 64, wf0 (ix2 o c) * h0 (ix3 (0 : Fin 1) c n))
            + (∑ c : Fin 64, wf1 (ix2 o c) * h1 (ix3 (0 : Fin 1) c n))
            + (∑ c : Fin 128, wf2 (ix2 o c) * Cert.Spec.lreluK Cert.Decode.slope
                ((∑ c' : Fin 64, w2 (ix2 c c') * g2 (ix3 (0 : Fin 1) c' n)) + b2 (ix2 c (0 : Fin 1))))))
          + bf (ix2 (0 : Fin 1) o) := by
  rw [tccBlk_eq]
  exact Ops.tccV_ideal _ tcc_dot2_plain _ tcc_dotf01_plain _ tcc_dotf01_plain _ tcc_dotf2_plain g2 h0 h1 w2 b2 wf0 wf1 wf2 bf
    _ _ _ _ _ _ _ _ _ _ _ _ _ o

end Cert.Proof.KB

end
-- ==== Proof.KBTcc.lean ====
/-
  The third TensorCore call (the second point convolution, rectified, the final convolution of the three layers' outputs
  and its maximum over the points): its proof data, its body obligation, and the array it leaves.

  The call runs over the 8 clouds. At cloud b the body reads the cloud's gathered features g2 and the two earlier layers'
  blocks h0, h1 (each [1, 64, 4096]), the last layer's weights w2 : [128, 64] and bias column b2 : [128, 1], the final
  convolution's three column blocks wf0, wf1 : [512, 64] and wf2 : [512, 128] and the final bias row bf : [1, 512], and
  stores, per output channel, the maximum over the points of wf0 · h0 + wf1 · h1 + wf2 · rectified (w2 · g2 + b2), plus
  the final bias, into the output's block [1, 1, 512]. The store fills the whole block, so what the body leaves in the
  output's staging buffer is a function of the nine input blocks alone (tccOut: the stored payload), and the inputs'
  buffers are left as found. The proof data (tccDat) names exactly that; the body's triple (tccSoundKernel) is proved once
  at a symbolic grid point over whole staging buffers, and the body obligation (tccBodyObligation) is that triple at the
  buffers the pipeline is on at the point. The tallies the core owes and the bound on its recorded pairs are parameters,
  the same at every point: the body makes no wait and signals nothing, so they pass through it unread. The output's blocks
  tile its array, one cloud each, so the array ends as one function of the nine operand arrays (tccArr).
-/
import proofs.«209975_g17849884082380_cont_8to1_1483_11_alg».proof.Proof.KBSetup
import proofs.«209975_g17849884082380_cont_8to1_1483_11_alg».proof.Proof.Gen.Kernel.Launch
import proofs.«209975_g17849884082380_cont_8to1_1483_11_alg».proof.Proof.Gen.Kernel.Points
import proofs.«209975_g17849884082380_cont_8to1_1483_11_alg».proof.Proof.KBTccValue
import proofs.«209975_g17849884082380_cont_8to1_1483_11_alg».proof.Proof.KBValue
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

local notation "𝕄" => MT nD τ sig (HIx 3) (Elt F) ℕ UU ℕ

/-! ## The rectangles the body reads and writes through -/

/-- The whole block of points [1, 64, 4096]. -/
abbrev tccRG : Rect S1x64x4096 := Rect.unit (s := S1x64x4096) ![0, 0, 0] S1x64x4096.size inb_S1x64x4096_S1x64x4096_0_0_0
/-- The whole last-layer weights [128, 64]. -/
abbrev tccRW2 : Rect S128x64 := Rect.unit (s := S128x64) ![0, 0] S128x64.size inb_S128x64_S128x64_0_0
/-- The whole last-layer bias column [128, 1]. -/
abbrev tccRB2 : Rect S128x1 := Rect.unit (s := S128x1) ![0, 0] S128x1.size inb_S128x1_S128x1_0_0
/-- A whole column block [512, 64] of the final weights. -/
abbrev tccRF : Rect S512x64 := Rect.unit (s := S512x64) ![0, 0] S512x64.size inb_S512x64_S512x64_0_0
/-- The whole column block [512, 128] of the final weights. -/
abbrev tccRF2 : Rect S512x128 := Rect.unit (s := S512x128) ![0, 0] S512x128.size inb_S512x128_S512x128_0_0
/-- The whole final bias row [1, 512]. -/
abbrev tccRBf : Rect S1x512 := Rect.unit (s := S1x512) ![0, 0] S1x512.size inb_S1x512_S1x512_0_0
/-- The whole output block [1, 1, 512]. -/
abbrev tccRO : Rect S1x1x512 := Rect.unit (s := S1x1x512) ![0, 0, 0] S1x1x512.size inb_S1x1x512_S1x1x512_0_0_0

/-! ## What the body leaves in the output window's buffer -/

/-- The output's staging buffer after the body, from the nine input blocks: its one store. -/
def tccOut (x0 x1 x2 : Vec F S1x64x4096 .f32) (x3 : Vec F S128x64 .f32) (x4 : Vec F S128x1 .f32) (x5 x6 : Vec F S512x64 .f32)
    (x7 : Vec F S512x128 .f32) (x8 : Vec F S1x512 .f32) : Vec F S1x1x512 .f32 :=
  View.canon [⟨tccRO, k5_pay1 (k5_pay2 (View.ld x3 tccRW2) (View.ld x0 tccRG) (View.ld x4 tccRB2) (View.ld x5 tccRF)
    (View.ld x1 tccRG) (View.ld x6 tccRF) (View.ld x2 tccRG) (View.ld x7 tccRF2)) (View.ld x8 tccRBf)⟩]

/-- A store through the whole output block covers it. -/
theorem tccCoverO (p0 : Vec F S1x1x512 .f32) (y : S1x1x512.Idx) :
    ∃ pc ∈ ([⟨tccRO, p0⟩] : List (View.Piece (Elt F) S1x1x512 .f32)), y ∈ pc.1.set :=
  View.cover_of_tiled [⟨tccRO, p0⟩] S1x1x512.size (by rfl) y

/-! ## The body's triple -/

set_option maxRecDepth 65536 in
set_option maxHeartbeats 8000000 in
/-- The body on whole staging buffers, the inputs' at contents x0 … x8 and the output's at anything, runs to the
    continuation holding the inputs' as they were and the output's at what its one store leaves (tccOut). -/
theorem tccSoundKernel (c : Dev nD) (E : Set ℕ) (i : grid5.Coords)
    (arg1 : Memref sig .tc .vmem S1x64x4096 .f32) (harg1 : arg1.IsWhole) (arg2 : Memref sig .tc .vmem S1x64x4096 .f32) (harg2 : arg2.IsWhole)
    (arg3 : Memref sig .tc .vmem S1x64x4096 .f32) (harg3 : arg3.IsWhole) (arg4 : Memref sig .tc .vmem S128x64 .f32) (harg4 : arg4.IsWhole)
    (arg5 : Memref sig .tc .vmem S128x1 .f32) (harg5 : arg5.IsWhole) (arg6 : Memref sig .tc .vmem S512x64 .f32) (harg6 : arg6.IsWhole)
    (arg7 : Memref sig .tc .vmem S512x64 .f32) (harg7 : arg7.IsWhole) (arg8 : Memref sig .tc .vmem S512x128 .f32) (harg8 : arg8.IsWhole)
    (arg9 : Memref sig .tc .vmem S1x512 .f32) (harg9 : arg9.IsWhole) (arg10 : Memref sig .tc .vmem S1x1x512 .f32) (harg10 : arg10.IsWhole)
    (x0 x1 x2 : Vec F S1x64x4096 .f32) (x3 : Vec F S128x64 .f32) (x4 : Vec F S128x1 .f32) (x5 x6 : Vec F S512x64 .f32)
    (x7 : Vec F S512x128 .f32) (x8 : Vec F S1x512 .f32) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (tccOut x0 x1 x2 x3 x4 x5 x6 x7 x8)) -∗ Kc ⟨⟩))
      ⊢ wp frame (wpE (defs₀ (F := F)) Variants.none c none) E
          (cc5__tcc_body i arg1 harg1 arg2 harg2 arg3 harg3 arg4 harg4 arg5 harg5 arg6 harg6 arg7 harg7 arg8 harg8 arg9 harg9 arg10 harg10) Kc := by
  simp only [cc5__tcc_body_eq_skeleton]; unfold cc5__tcc_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (tccCoverO _)).trans ?_
  dsimp only
  rfl

/-! ## The windows' blocks -/

/-- Window w's block at point t, read off its array as the region finds it (V). -/
def tccWin (c : Dev nD) (V : (b : Ref sig .tc) → Buf (Elt F) ((c : Thread nD τ).loc b)) (w : Fin cfg5.W) (t : Fin cfg5.N) :
    ((cfg5.win w).xblock (cfg5.grid.coords t)).Idx → Elt F (cfg5.win w).elt :=
  ((cfg5.win w).blk t).view.read (Elt F) (V (Pipeline.arrRef spec5 w))

/-! ## The pipeline's proof data -/

/-- The proof data of the third TensorCore call on core c: the arrays as the region finds them (V); after the body at
    point t each input's buffer at its block and the output's at what the body stores there, as a function of the
    input blocks; the invariant the scoped buffers no window stages, untouched; the core's tallies O and the bound B
    on its recorded pairs, the same at every point (the body makes no wait and signals nothing); full shares. -/
def tccDat (c : Dev nD) (V : (b : Ref sig .tc) → Buf (Elt F) ((c : Thread nD τ).loc b))
    (O : CellTallies nD τ sig (HIx 3)) (B : Set (SemLoc sig × HIx 3)) : Dat τ (Elt F) (HIx 3) ℕ UU ℕ cfg5 c where
  A w := V (Pipeline.arrRef spec5 w)
  after w t := match w with
    | ⟨0, _⟩ => tccWin c V 0 t
    | ⟨1, _⟩ => tccWin c V 1 t
    | ⟨2, _⟩ => tccWin c V 2 t
    | ⟨3, _⟩ => tccWin c V 3 t
    | ⟨4, _⟩ => tccWin c V 4 t
    | ⟨5, _⟩ => tccWin c V 5 t
    | ⟨6, _⟩ => tccWin c V 6 t
    | ⟨7, _⟩ => tccWin c V 7 t
    | ⟨8, _⟩ => tccWin c V 8 t
    | ⟨9, _⟩ => tccOut (tccWin c V 0 t) (tccWin c V 1 t) (tccWin c V 2 t) (tccWin c V 3 t) (tccWin c V 4 t) (tccWin c V 5 t)
        (tccWin c V 6 t) (tccWin c V 7 t) (tccWin c V 8 t)
  Φ _ := Pipeline.scopedRest spec5 c
  q _ := fullShare
  owed _ := O
  recorded _ := B

section Data

variable (c : Dev nD) (V : (b : Ref sig .tc) → Buf (Elt F) ((c : Thread nD τ).loc b))
  (O : CellTallies nD τ sig (HIx 3)) (B : Set (SemLoc sig × HIx 3))

/-- The proof data's arrays are the region-entry contents. -/
theorem tccDat_A (w : Fin cfg5.W) : (tccDat c V O B).A w = V (Pipeline.arrRef spec5 w) := by
  dsimp only [tccDat]

/-- What the body leaves, window by window. -/
theorem tccDat_after0 (t : Fin cfg5.N) : (tccDat c V O B).after 0 t = tccWin c V 0 t := by dsimp only [tccDat]
theorem tccDat_after1 (t : Fin cfg5.N) : (tccDat c V O B).after 1 t = tccWin c V 1 t := by dsimp only [tccDat]
theorem tccDat_after2 (t : Fin cfg5.N) : (tccDat c V O B).after 2 t = tccWin c V 2 t := by dsimp only [tccDat]
theorem tccDat_after3 (t : Fin cfg5.N) : (tccDat c V O B).after 3 t = tccWin c V 3 t := by dsimp only [tccDat]
theorem tccDat_after4 (t : Fin cfg5.N) : (tccDat c V O B).after 4 t = tccWin c V 4 t := by dsimp only [tccDat]
theorem tccDat_after5 (t : Fin cfg5.N) : (tccDat c V O B).after 5 t = tccWin c V 5 t := by dsimp only [tccDat]
theorem tccDat_after6 (t : Fin cfg5.N) : (tccDat c V O B).after 6 t = tccWin c V 6 t := by dsimp only [tccDat]
theorem tccDat_after7 (t : Fin cfg5.N) : (tccDat c V O B).after 7 t = tccWin c V 7 t := by dsimp only [tccDat]
theorem tccDat_after8 (t : Fin cfg5.N) : (tccDat c V O B).after 8 t = tccWin c V 8 t := by dsimp only [tccDat]
theorem tccDat_after9 (t : Fin cfg5.N) :
    (tccDat c V O B).after 9 t = tccOut (tccWin c V 0 t) (tccWin c V 1 t) (tccWin c V 2 t) (tccWin c V 3 t) (tccWin c V 4 t)
      (tccWin c V 5 t) (tccWin c V 6 t) (tccWin c V 7 t) (tccWin c V 8 t) := by dsimp only [tccDat]

/-- Each input's current staging buffer holds its block at every point, fetched there or not: unfetched, the block
    index has not moved. -/
theorem tccDat_before0 (t : Fin cfg5.N) (d) : (tccDat c V O B).before 0 t d = tccWin c V 0 t :=
  ((tccDat c V O B).before_in_eq_fetched 0 rfl (fun _ => rfl) (fun _ _ _ => rfl)
      (fun t => by rw [tccDat_after0]; unfold Dat.blockOf tccWin; rw [tccDat_A]; try rfl) t d).trans
    (by unfold Dat.fetched Dat.blockOf tccWin; rw [tccDat_A]; try rfl)
theorem tccDat_before1 (t : Fin cfg5.N) (d) : (tccDat c V O B).before 1 t d = tccWin c V 1 t :=
  ((tccDat c V O B).before_in_eq_fetched 1 rfl (fun _ => rfl) (fun _ _ _ => rfl)
      (fun t => by rw [tccDat_after1]; unfold Dat.blockOf tccWin; rw [tccDat_A]; try rfl) t d).trans
    (by unfold Dat.fetched Dat.blockOf tccWin; rw [tccDat_A]; try rfl)
theorem tccDat_before2 (t : Fin cfg5.N) (d) : (tccDat c V O B).before 2 t d = tccWin c V 2 t :=
  ((tccDat c V O B).before_in_eq_fetched 2 rfl (fun _ => rfl) (fun _ _ _ => rfl)
      (fun t => by rw [tccDat_after2]; unfold Dat.blockOf tccWin; rw [tccDat_A]; try rfl) t d).trans
    (by unfold Dat.fetched Dat.blockOf tccWin; rw [tccDat_A]; try rfl)
theorem tccDat_before3 (t : Fin cfg5.N) (d) : (tccDat c V O B).before 3 t d = tccWin c V 3 t :=
  ((tccDat c V O B).before_in_eq_fetched 3 rfl (fun _ => rfl) (fun _ _ _ => rfl)
      (fun t => by rw [tccDat_after3]; unfold Dat.blockOf tccWin; rw [tccDat_A]; try rfl) t d).trans
    (by unfold Dat.fetched Dat.blockOf tccWin; rw [tccDat_A]; try rfl)
theorem tccDat_before4 (t : Fin cfg5.N) (d) : (tccDat c V O B).before 4 t d = tccWin c V 4 t :=
  ((tccDat c V O B).before_in_eq_fetched 4 rfl (fun _ => rfl) (fun _ _ _ => rfl)
      (fun t => by rw [tccDat_after4]; unfold Dat.blockOf tccWin; rw [tccDat_A]; try rfl) t d).trans
    (by unfold Dat.fetched Dat.blockOf tccWin; rw [tccDat_A]; try rfl)
theorem tccDat_before5 (t : Fin cfg5.N) (d) : (tccDat c V O B).before 5 t d = tccWin c V 5 t :=
  ((tccDat c V O B).before_in_eq_fetched 5 rfl (fun _ => rfl) (fun _ _ _ => rfl)
      (fun t => by rw [tccDat_after5]; unfold Dat.blockOf tccWin; rw [tccDat_A]; try rfl) t d).trans
    (by unfold Dat.fetched Dat.blockOf tccWin; rw [tccDat_A]; try rfl)
theorem tccDat_before6 (t : Fin cfg5.N) (d) : (tccDat c V O B).before 6 t d = tccWin c V 6 t :=
  ((tccDat c V O B).before_in_eq_fetched 6 rfl (fun _ => rfl) (fun _ _ _ => rfl)
      (fun t => by rw [tccDat_after6]; unfold Dat.blockOf tccWin; rw [tccDat_A]; try rfl) t d).trans
    (by unfold Dat.fetched Dat.blockOf tccWin; rw [tccDat_A]; try rfl)
theorem tccDat_before7 (t : Fin cfg5.N) (d) : (tccDat c V O B).before 7 t d = tccWin c V 7 t :=
  ((tccDat c V O B).before_in_eq_fetched 7 rfl (fun _ => rfl) (fun _ _ _ => rfl)
      (fun t => by rw [tccDat_after7]; unfold Dat.blockOf tccWin; rw [tccDat_A]; try rfl) t d).trans
    (by unfold Dat.fetched Dat.blockOf tccWin; rw [tccDat_A]; try rfl)
theorem tccDat_before8 (t : Fin cfg5.N) (d) : (tccDat c V O B).before 8 t d = tccWin c V 8 t :=
  ((tccDat c V O B).before_in_eq_fetched 8 rfl (fun _ => rfl) (fun _ _ _ => rfl)
      (fun t => by rw [tccDat_after8]; unfold Dat.blockOf tccWin; rw [tccDat_A]; try rfl) t d).trans
    (by unfold Dat.fetched Dat.blockOf tccWin; rw [tccDat_A]; try rfl)

/-! ## The body obligation, at a generic point -/

/-- What the body is called with at point t, the windows one by one, -/
def tccBodyPre (t : Fin cfg5.N) : sProp 𝕄 :=
  iprop((tccDat c V O B).Φ t.castSucc ∗ (tccDat c V O B).owesAt none t.castSucc
    ∗ (∃ d, owns (c : Thread nD τ) (st5_0 t) fullShare ((tccDat c V O B).before 0 t d))
    ∗ (∃ d, owns (c : Thread nD τ) (st5_1 t) fullShare ((tccDat c V O B).before 1 t d))
    ∗ (∃ d, owns (c : Thread nD τ) (st5_2 t) fullShare ((tccDat c V O B).before 2 t d))
    ∗ (∃ d, owns (c : Thread nD τ) (st5_3 t) fullShare ((tccDat c V O B).before 3 t d))
    ∗ (∃ d, owns (c : Thread nD τ) (st5_4 t) fullShare ((tccDat c V O B).before 4 t d))
    ∗ (∃ d, owns (c : Thread nD τ) (st5_5 t) fullShare ((tccDat c V O B).before 5 t d))
    ∗ (∃ d, owns (c : Thread nD τ) (st5_6 t) fullShare ((tccDat c V O B).before 6 t d))
    ∗ (∃ d, owns (c : Thread nD τ) (st5_7 t) fullShare ((tccDat c V O B).before 7 t d))
    ∗ (∃ d, owns (c : Thread nD τ) (st5_8 t) fullShare ((tccDat c V O B).before 8 t d))
    ∗ (∃ d, owns (c : Thread nD τ) (st5_9 t) fullShare ((tccDat c V O B).before 9 t d)))

/-- and what it returns. -/
def tccBodyPost (t : Fin cfg5.N) : sProp 𝕄 :=
  iprop((tccDat c V O B).Φ t.succ ∗ (tccDat c V O B).owesAt none t.succ
    ∗ owns (c : Thread nD τ) (st5_0 t) fullShare ((tccDat c V O B).after 0 t)
    ∗ owns (c : Thread nD τ) (st5_1 t) fullShare ((tccDat c V O B).after 1 t)
    ∗ owns (c : Thread nD τ) (st5_2 t) fullShare ((tccDat c V O B).after 2 t)
    ∗ owns (c : Thread nD τ) (st5_3 t) fullShare ((tccDat c V O B).after 3 t)
    ∗ owns (c : Thread nD τ) (st5_4 t) fullShare ((tccDat c V O B).after 4 t)
    ∗ owns (c : Thread nD τ) (st5_5 t) fullShare ((tccDat c V O B).after 5 t)
    ∗ owns (c : Thread nD τ) (st5_6 t) fullShare ((tccDat c V O B).after 6 t)
    ∗ owns (c : Thread nD τ) (st5_7 t) fullShare ((tccDat c V O B).after 7 t)
    ∗ owns (c : Thread nD τ) (st5_8 t) fullShare ((tccDat c V O B).after 8 t)
    ∗ owns (c : Thread nD τ) (st5_9 t) fullShare ((tccDat c V O B).after 9 t))

/-- The body at any point: the inputs' memrefs hold their blocks, so the body's triple applies; the invariant and the
    core's owed tallies pass through unread. -/
theorem tccSoundBody (t : Fin cfg5.N) :
    tccBodyPre c V O B t ⊢ wp frame (wpE (defs₀ (F := F)) Variants.none c none) Set.univ (bodyAt5 t) (fun _ => tccBodyPost c V O B t) := by
  unfold tccBodyPre tccBodyPost bodyAt5
  simp only [tccDat_before0, tccDat_before1, tccDat_before2, tccDat_before3, tccDat_before4, tccDat_before5, tccDat_before6,
    tccDat_before7, tccDat_before8]
  rw [show (tccDat c V O B).Φ t.succ = (tccDat c V O B).Φ t.castSucc from rfl,
    show (tccDat c V O B).owesAt none t.succ = (tccDat c V O B).owesAt none t.castSucc from rfl,
    tccDat_after0, tccDat_after1, tccDat_after2, tccDat_after3, tccDat_after4, tccDat_after5, tccDat_after6, tccDat_after7,
    tccDat_after8, tccDat_after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (tccSoundKernel c Set.univ (grid5.coords t) _ _ _ _ _ _ _ _ _ _ _ _ _ _ _ _ _ _ _ _ (tccWin c V 0 t) (tccWin c V 1 t)
    (tccWin c V 2 t) (tccWin c V 3 t) (tccWin c V 4 t) (tccWin c V 5 t) (tccWin c V 6 t) (tccWin c V 7 t) (tccWin c V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem tccBodyObligation : BodyObligation (tccDat (F := F) c V O B) (defs₀ (F := F)) Variants.none (none : HIx 3) Set.univ := fun t => by
  rw [bigSep_W5, bigSep_W5]
  exact tccSoundBody c V O B t

end Data

/-! ## The array the call leaves -/

/-- Cloud b's block of an array of clouds. -/
def tccCloud (g : Vec F S8x64x4096 .f32) (b : Fin 8) : Vec F S1x64x4096 .f32 := fun j => g (ix3 b (j 1) (j 2))

/-- The output array as one function of the nine operand arrays: cloud by cloud, the body's stored block of the cloud's
    three blocks. -/
def tccArr (g2 h0 h1 : Vec F S8x64x4096 .f32) (w2 : Vec F S128x64 .f32) (b2 : Vec F S128x1 .f32) (wf0 wf1 : Vec F S512x64 .f32)
    (wf2 : Vec F S512x128 .f32) (bf : Vec F S1x512 .f32) : Vec F S8x1x512 .f32 :=
  fun i => tccBlk (tccCloud g2 (i 0)) (tccCloud h0 (i 0)) (tccCloud h1 (i 0)) w2 b2 wf0 wf1 wf2 bf (ix3 (0 : Fin 1) (0 : Fin 1) (i 2))

/-- The array at cloud b, read at a block index, is the stored block of cloud b's blocks there. -/
theorem tccArr_blk (g2 h0 h1 : Vec F S8x64x4096 .f32) (w2 : Vec F S128x64 .f32) (b2 : Vec F S128x1 .f32)
    (wf0 wf1 : Vec F S512x64 .f32) (wf2 : Vec F S512x128 .f32) (bf : Vec F S1x512 .f32) (b : Fin 8) (j : S1x1x512.Idx) :
    tccArr g2 h0 h1 w2 b2 wf0 wf1 wf2 bf (ix3 b (j 1) (j 2))
      = tccBlk (tccCloud g2 b) (tccCloud h0 b) (tccCloud h1 b) w2 b2 wf0 wf1 wf2 bf j := by
  show tccBlk (tccCloud g2 b) (tccCloud h0 b) (tccCloud h1 b) w2 b2 wf0 wf1 wf2 bf (ix3 (0 : Fin 1) (0 : Fin 1) (j 2))
    = tccBlk (tccCloud g2 b) (tccCloud h0 b) (tccCloud h1 b) w2 b2 wf0 wf1 wf2 bf j
  refine congrArg _ (funext fun a => Fin.ext ?_)
  match a with
  | ⟨0, _⟩ => show 0 = (j 0).val; have h1 : (j 0).val < 1 := (j 0).isLt; omega
  | ⟨1, _⟩ => show 0 = (j 1).val; have h1 : (j 1).val < 1 := (j 1).isLt; omega
  | ⟨2, _⟩ => rfl

theorem tcc_hz3 : (![0, 0, 0] : Fin 3 → Nat) = fun _ => 0 := funext fun a => by fin_cases a <;> rfl
theorem tcc_hz2 : (![0, 0] : Fin 2 → Nat) = fun _ => 0 := funext fun a => by fin_cases a <;> rfl

/-- The one store through the whole block leaves its payload: the value function of the nine blocks. -/
theorem tccOut_eq (x0 x1 x2 : Vec F S1x64x4096 .f32) (x3 : Vec F S128x64 .f32) (x4 : Vec F S128x1 .f32) (x5 x6 : Vec F S512x64 .f32)
    (x7 : Vec F S512x128 .f32) (x8 : Vec F S1x512 .f32) :
    tccOut x0 x1 x2 x3 x4 x5 x6 x7 x8 = tccBlk x0 x1 x2 x3 x4 x5 x6 x7 x8 := by
  unfold tccOut tccBlk
  rw [View.canon_unit_zero tcc_hz3]
  simp only [View.ld_unit_zero (S := S1x64x4096) tcc_hz3, View.ld_unit_zero (S := S128x64) tcc_hz2,
    View.ld_unit_zero (S := S128x1) tcc_hz2, View.ld_unit_zero (S := S512x64) tcc_hz2,
    View.ld_unit_zero (S := S512x128) tcc_hz2, View.ld_unit_zero (S := S1x512) tcc_hz2]

/-- The printed index maps, decided over the grid: the three blocks of points and the output's block are the point's
    cloud, the six parameter windows the whole array. -/
theorem tcc_idx_pts : ∀ t : Fin cfg5.N, win5_0.index t (0 : Fin 3) = t.val ∧ win5_0.index t (1 : Fin 3) = 0
    ∧ win5_0.index t (2 : Fin 3) = 0 ∧ win5_1.index t (0 : Fin 3) = t.val ∧ win5_1.index t (1 : Fin 3) = 0
    ∧ win5_1.index t (2 : Fin 3) = 0 ∧ win5_2.index t (0 : Fin 3) = t.val ∧ win5_2.index t (1 : Fin 3) = 0
    ∧ win5_2.index t (2 : Fin 3) = 0 ∧ win5_9.index t (0 : Fin 3) = t.val ∧ win5_9.index t (1 : Fin 3) = 0
    ∧ win5_9.index t (2 : Fin 3) = 0 :=
  (by decide +kernel : ∀ t : Fin grid5.N, _)
theorem tcc_idx_par : ∀ t : Fin cfg5.N, win5_3.index t (0 : Fin 2) = 0 ∧ win5_3.index t (1 : Fin 2) = 0
    ∧ win5_4.index t (0 : Fin 2) = 0 ∧ win5_4.index t (1 : Fin 2) = 0 ∧ win5_5.index t (0 : Fin 2) = 0
    ∧ win5_5.index t (1 : Fin 2) = 0 ∧ win5_6.index t (0 : Fin 2) = 0 ∧ win5_6.index t (1 : Fin 2) = 0
    ∧ win5_7.index t (0 : Fin 2) = 0 ∧ win5_7.index t (1 : Fin 2) = 0 ∧ win5_8.index t (0 : Fin 2) = 0
    ∧ win5_8.index t (1 : Fin 2) = 0 :=
  (by decide +kernel : ∀ t : Fin grid5.N, _)

/-- A point as a cloud. -/
def tccPt (t : Fin cfg5.N) : Fin 8 := ⟨t.val, by have h : t.val < grid5.N := t.isLt; rw [N_5] at h; exact h⟩

section Array

variable (c : Dev nD) (V : (b : Ref sig .tc) → Buf (Elt F) ((c : Thread nD τ).loc b))
  (O : CellTallies nD τ sig (HIx 3)) (B : Set (SemLoc sig × HIx 3))

/-- The gathered features' block at a point is the point's cloud. -/
theorem tccWin0_eq (t : Fin cfg5.N) : tccWin c V 0 t = tccCloud (V main_v11) (tccPt t) := by
  obtain ⟨e0, e1, e2, -⟩ := tcc_idx_pts t
  funext y
  show V main_v11 (((cfg5.win 0).blk t).view.emb y) = V main_v11 (ix3 (tccPt t) (y 1) (y 2))
  refine congrArg _ (funext fun a => Fin.ext ?_)
  match a with
  | ⟨0, _⟩ => show win5_0.index t (0 : Fin 3) * 1 + 1 * (y 0).val = t.val; have h1 : (y 0).val < 1 := (y 0).isLt; omega
  | ⟨1, _⟩ => show win5_0.index t (1 : Fin 3) * 64 + 1 * (y 1).val = (y 1).val; omega
  | ⟨2, _⟩ => show win5_0.index t (2 : Fin 3) * 4096 + 1 * (y 2).val = (y 2).val; omega

/-- The first layer's block at a point is the point's cloud. -/
theorem tccWin1_eq (t : Fin cfg5.N) : tccWin c V 1 t = tccCloud (V main_v5) (tccPt t) := by
  obtain ⟨-, -, -, e0, e1, e2, -⟩ := tcc_idx_pts t
  funext y
  show V main_v5 (((cfg5.win 1).blk t).view.emb y) = V main_v5 (ix3 (tccPt t) (y 1) (y 2))
  refine congrArg _ (funext fun a => Fin.ext ?_)
  match a with
  | ⟨0, _⟩ => show win5_1.index t (0 : Fin 3) * 1 + 1 * (y 0).val = t.val; have h1 : (y 0).val < 1 := (y 0).isLt; omega
  | ⟨1, _⟩ => show win5_1.index t (1 : Fin 3) * 64 + 1 * (y 1).val = (y 1).val; omega
  | ⟨2, _⟩ => show win5_1.index t (2 : Fin 3) * 4096 + 1 * (y 2).val = (y 2).val; omega

/-- The second layer's block at a point is the point's cloud. -/
theorem tccWin2_eq (t : Fin cfg5.N) : tccWin c V 2 t = tccCloud (V main_v9) (tccPt t) := by
  obtain ⟨-, -, -, -, -, -, e0, e1, e2, -⟩ := tcc_idx_pts t
  funext y
  show V main_v9 (((cfg5.win 2).blk t).view.emb y) = V main_v9 (ix3 (tccPt t) (y 1) (y 2))
  refine congrArg _ (funext fun a => Fin.ext ?_)
  match a with
  | ⟨0, _⟩ => show win5_2.index t (0 : Fin 3) * 1 + 1 * (y 0).val = t.val; have h1 : (y 0).val < 1 := (y 0).isLt; omega
  | ⟨1, _⟩ => show win5_2.index t (1 : Fin 3) * 64 + 1 * (y 1).val = (y 1).val; omega
  | ⟨2, _⟩ => show win5_2.index t (2 : Fin 3) * 4096 + 1 * (y 2).val = (y 2).val; omega

/-- Each parameter window's block is the whole array. -/
theorem tccWin3_eq (t : Fin cfg5.N) : tccWin c V 3 t = V main_arg6 := by
  obtain ⟨e0, e1, -⟩ := tcc_idx_par t
  funext y
  show V main_arg6 (((cfg5.win 3).blk t).view.emb y) = V main_arg6 y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 64 + 1 * (y 1).val = (y 1).val; omega
theorem tccWin4_eq (t : Fin cfg5.N) : tccWin c V 4 t = V main_v12 := by
  obtain ⟨-, -, e0, e1, -⟩ := tcc_idx_par t
  funext y
  show V main_v12 (((cfg5.win 4).blk t).view.emb y) = V main_v12 y
  refine congrArg _ (funext fun a => Fin.ext ?_)
  match a with
  | ⟨0, _⟩ => show win5_4.index t (0 : Fin 2) * 128 + 1 * (y 0).val = (y 0).val; omega
  | ⟨1, _⟩ => show win5_4.index t (1 : Fin 2) * 1 + 1 * (y 1).val = (y 1).val; omega
theorem tccWin5_eq (t : Fin cfg5.N) : tccWin c V 5 t = V main_v14 := by
  obtain ⟨-, -, -, -, e0, e1, -⟩ := tcc_idx_par t
  funext y
  show V main_v14 (((cfg5.win 5).blk t).view.emb y) = V main_v14 y
  refine congrArg _ (funext fun a => Fin.ext ?_)
  match a with
  | ⟨0, _⟩ => show win5_5.index t (0 : Fin 2) * 512 + 1 * (y 0).val = (y 0).val; omega
  | ⟨1, _⟩ => show win5_5.index t (1 : Fin 2) * 64 + 1 * (y 1).val = (y 1).val; omega
theorem tccWin6_eq (t : Fin cfg5.N) : tccWin c V 6 t = V main_v15 := by
  obtain ⟨-, -, -, -, -, -, e0, e1, -⟩ := tcc_idx_par t
  funext y
  show V main_v15 (((cfg5.win 6).blk t).view.emb y) = V main_v15 y
  refine congrArg _ (funext fun a => Fin.ext ?_)
  match a with
  | ⟨0, _⟩ => show win5_6.index t (0 : Fin 2) * 512 + 1 * (y 0).val = (y 0).val; omega
  | ⟨1, _⟩ => show win5_6.index t (1 : Fin 2) * 64 + 1 * (y 1).val = (y 1).val; omega
theorem tccWin7_eq (t : Fin cfg5.N) : tccWin c V 7 t = V main_v16 := by
  obtain ⟨-, -, -, -, -, -, -, -, e0, e1, -⟩ := tcc_idx_par t
  funext y
  show V main_v16 (((cfg5.win 7).blk t).view.emb y) = V main_v16 y
  refine congrArg _ (funext fun a => Fin.ext ?_)
  match a with
  | ⟨0, _⟩ => show win5_7.index t (0 : Fin 2) * 512 + 1 * (y 0).val = (y 0).val; omega
  | ⟨1, _⟩ => show win5_7.index t (1 : Fin 2) * 128 + 1 * (y 1).val = (y 1).val; omega
theorem tccWin8_eq (t : Fin cfg5.N) : tccWin c V 8 t = V main_v13 := by
  obtain ⟨-, -, -, -, -, -, -, -, -, -, e0, e1⟩ := tcc_idx_par t
  funext y
  show V main_v13 (((cfg5.win 8).blk t).view.emb y) = V main_v13 y
  refine congrArg _ (funext fun a => Fin.ext ?_)
  match a with
  | ⟨0, _⟩ => show win5_8.index t (0 : Fin 2) * 1 + 1 * (y 0).val = (y 0).val; omega
  | ⟨1, _⟩ => show win5_8.index t (1 : Fin 2) * 512 + 1 * (y 1).val = (y 1).val; omega

/-- What point t writes back is block t of the array function of the operand arrays as the region finds them. -/
theorem tccDat_flushed9 (t : Fin cfg5.N) :
    (tccDat c V O B).flushed 9 t
      = ((cfg5.win 9).blk t).view.read (Elt F) (tccArr (V main_v11) (V main_v5) (V main_v9) (V main_arg6) (V main_v12)
          (V main_v14) (V main_v15) (V main_v16) (V main_v13)) := by
  show (cfg5.win 9).cut (grid5.coords t) ((tccDat c V O B).after 9 t) = _
  rw [tccDat_after9, tccOut_eq, tccWin0_eq, tccWin1_eq, tccWin2_eq, tccWin3_eq, tccWin4_eq, tccWin5_eq, tccWin6_eq, tccWin7_eq,
    tccWin8_eq]
  obtain ⟨-, -, -, -, -, -, -, -, -, e90, e91, e92⟩ := tcc_idx_pts t
  funext j
  show tccBlk (tccCloud (V main_v11) (tccPt t)) (tccCloud (V main_v5) (tccPt t)) (tccCloud (V main_v9) (tccPt t)) (V main_arg6)
      (V main_v12) (V main_v14) (V main_v15) (V main_v16) (V main_v13) j
    = tccArr (V main_v11) (V main_v5) (V main_v9) (V main_arg6) (V main_v12) (V main_v14) (V main_v15) (V main_v16) (V main_v13)
        (((cfg5.win 9).blk t).view.emb j)
  have he : ((cfg5.win 9).blk t).view.emb j = ix3 (tccPt t) (j 1) (j 2) := by
    funext a; apply Fin.ext
    match a with
    | ⟨0, _⟩ => show win5_9.index t (0 : Fin 3) * 1 + 1 * (j 0).val = t.val; have h1 : (j 0).val < 1 := (j 0).isLt; omega
    | ⟨1, _⟩ => show win5_9.index t (1 : Fin 3) * 1 + 1 * (j 1).val = (j 1).val; omega
    | ⟨2, _⟩ => show win5_9.index t (2 : Fin 3) * 512 + 1 * (j 2).val = (j 2).val; omega
  rw [he]
  exact (tccArr_blk _ _ _ _ _ _ _ _ _ (tccPt t) j).symm

/-- An index of the output array is in point t's block iff each coordinate is in the block's range on its axis. -/
theorem tcc_mem_blk9 (t : Fin cfg5.N) (i : S8x1x512.Idx) :
    i ∈ ((cfg5.win 9).blk t).view.set ↔ ∀ a : Fin 3, win5_9.index t a * S1x1x512.size a ≤ (i a).val
      ∧ (i a).val < win5_9.index t a * S1x1x512.size a + S1x1x512.size a := by
  show i ∈ ((View.whole main_v17).slice (win5_9.rect t)).set ↔ _
  rw [View.set_slice_whole, Rect.mem_set_unit]
  exact Iff.rfl

/-- Every index of the output array is in the block of the point that is its cloud. -/
theorem tcc_cover9 (i : S8x1x512.Idx) :
    ∃ t : Fin cfg5.N, (cfg5.win 9).flush t = true ∧ i ∈ ((cfg5.win 9).blk t).view.set := by
  have hi0 : (i 0).val < 8 := (i 0).isLt
  have hi1 : (i 1).val < 1 := (i 1).isLt
  have hi2 : (i 2).val < 512 := (i 2).isLt
  have hN : (i 0).val < grid5.N := by rw [N_5]; exact hi0
  obtain ⟨-, -, -, -, -, -, -, -, -, e90, e91, e92⟩ := tcc_idx_pts ⟨(i 0).val, hN⟩
  refine ⟨⟨(i 0).val, hN⟩, flush5_9 _, ?_⟩
  rw [tcc_mem_blk9]
  intro a
  match a with
  | ⟨0, _⟩ =>
    show win5_9.index ⟨(i 0).val, hN⟩ (0 : Fin 3) * 1 ≤ (i 0).val ∧ (i 0).val < win5_9.index ⟨(i 0).val, hN⟩ (0 : Fin 3) * 1 + 1
    rw [e90]; show (i 0).val * 1 ≤ (i 0).val ∧ (i 0).val < (i 0).val * 1 + 1; omega
  | ⟨1, _⟩ =>
    show win5_9.index ⟨(i 0).val, hN⟩ (1 : Fin 3) * 1 ≤ (i 1).val ∧ (i 1).val < win5_9.index ⟨(i 0).val, hN⟩ (1 : Fin 3) * 1 + 1
    rw [e91]; omega
  | ⟨2, _⟩ =>
    show win5_9.index ⟨(i 0).val, hN⟩ (2 : Fin 3) * 512 ≤ (i 2).val ∧ (i 2).val < win5_9.index ⟨(i 0).val, hN⟩ (2 : Fin 3) * 512 + 512
    rw [e92]; omega

/-- The output array after the call: the array function of the nine operand arrays as the region finds them. -/
theorem tccDat_arrAt9 : (tccDat c V O B).arrAt 9 cfg5.N
    = tccArr (V main_v11) (V main_v5) (V main_v9) (V main_arg6) (V main_v12) (V main_v14) (V main_v15) (V main_v16) (V main_v13) :=
  (tccDat c V O B).arrAt_eq_of_cover 9 _ (fun t _ => tccDat_flushed9 c V O B t) tcc_cover9

/-- The operand arrays are never written back: they stay as the region finds them. -/
theorem tccDat_arrAt0 (n : ℕ) : (tccDat c V O B).arrAt 0 n = V (Pipeline.arrRef spec5 0) :=
  ((tccDat c V O B).arrAt_in 0 rfl n).trans (tccDat_A c V O B 0)
theorem tccDat_arrAt1 (n : ℕ) : (tccDat c V O B).arrAt 1 n = V (Pipeline.arrRef spec5 1) :=
  ((tccDat c V O B).arrAt_in 1 rfl n).trans (tccDat_A c V O B 1)
theorem tccDat_arrAt2 (n : ℕ) : (tccDat c V O B).arrAt 2 n = V (Pipeline.arrRef spec5 2) :=
  ((tccDat c V O B).arrAt_in 2 rfl n).trans (tccDat_A c V O B 2)
theorem tccDat_arrAt3 (n : ℕ) : (tccDat c V O B).arrAt 3 n = V (Pipeline.arrRef spec5 3) :=
  ((tccDat c V O B).arrAt_in 3 rfl n).trans (tccDat_A c V O B 3)
theorem tccDat_arrAt4 (n : ℕ) : (tccDat c V O B).arrAt 4 n = V (Pipeline.arrRef spec5 4) :=
  ((tccDat c V O B).arrAt_in 4 rfl n).trans (tccDat_A c V O B 4)
theorem tccDat_arrAt5 (n : ℕ) : (tccDat c V O B).arrAt 5 n = V (Pipeline.arrRef spec5 5) :=
  ((tccDat c V O B).arrAt_in 5 rfl n).trans (tccDat_A c V O B 5)
theorem tccDat_arrAt6 (n : ℕ) : (tccDat c V O B).arrAt 6 n = V (Pipeline.arrRef spec5 6) :=
  ((tccDat c V O B).arrAt_in 6 rfl n).trans (tccDat_A c V O B 6)
theorem tccDat_arrAt7 (n : ℕ) : (tccDat c V O B).arrAt 7 n = V (Pipeline.arrRef spec5 7) :=
  ((tccDat c V O B).arrAt_in 7 rfl n).trans (tccDat_A c V O B 7)
theorem tccDat_arrAt8 (n : ℕ) : (tccDat c V O B).arrAt 8 n = V (Pipeline.arrRef spec5 8) :=
  ((tccDat c V O B).arrAt_in 8 rfl n).trans (tccDat_A c V O B 8)

end Array

/-- At the ideal floats the array function is, at every cloud and output channel, the maximum over the points of the
    final convolution of the three layers' outputs, plus the final bias. -/
theorem tccArr_spec : Cert.Proof.KBValue.SpecT (tccArr (F := Ideal)) := fun g2 h0 h1 w2 b2 wf0 wf1 wf2 bf b o => by
  show tccBlk (tccCloud g2 b) (tccCloud h0 b) (tccCloud h1 b) w2 b2 wf0 wf1 wf2 bf (ix3 (0 : Fin 1) (0 : Fin 1) o) = _
  exact tccBlk_ideal (tccCloud g2 b) (tccCloud h0 b) (tccCloud h1 b) w2 b2 wf0 wf1 wf2 bf o

end Cert.Proof.KB

end
-- ==== Proof.KBRegionSteps.lean ====
/-
  The three kernel regions of @main as steps over the chain of valuations of the TensorCore's arrays: each region's
  proof data are its body's, at what the TensorCore owes and may have recorded when the region is entered, read at the
  valuation the region is entered at; the arrays after the region are the chain's next valuation.
-/
import proofs.«209975_g17849884082380_cont_8to1_1483_11_alg».proof.Proof.KBRegion
import proofs.«209975_g17849884082380_cont_8to1_1483_11_alg».proof.Proof.KBP
import proofs.«209975_g17849884082380_cont_8to1_1483_11_alg».proof.Proof.KBTca
import proofs.«209975_g17849884082380_cont_8to1_1483_11_alg».proof.Proof.KBTcb
import proofs.«209975_g17849884082380_cont_8to1_1483_11_alg».proof.Proof.KBTcc

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type} [FloatOps F]

local notation "𝕄" => MT nD τ sig (HIx 3) (Elt F) ℕ UU ℕ

section Steps

variable (R : Regions F) (m : (ℓ : Loc nD τ sig) → Buf (Elt F) ℓ)

/-- A valuation of the device's buffers read at the TensorCore's references on device d. -/
abbrev atTc (W : Valuation τ sig (Elt F)) (d : Dev nD) : (b : Ref sig .tc) → Buf (Elt F) ((d : Thread nD τ).loc b) := fun b => W (dr b)

/-- The proof data of the three regions, each at the valuation its region is entered at, at what the TensorCore then owes. -/
def regionDats : (p : Fin 3) → (d : Dev nD) → Pipeline.Dat τ (Elt F) (HIx 3) ℕ UU ℕ (Pipeline.pin (pcfgs (F := F)) adm p) d
  | 0, d => tcaDat d (atTc (W1 (launchContents m d)) d) ((K (F := F)).Otc d 0) (tcRec (F := F) d 0)
  | 1, d => tcbDat d (atTc (W7 R (launchContents m d)) d) ((K (F := F)).Otc d 2) (tcRec (F := F) d 2)
  | 2, d => tccDat d (atTc (W11 R (launchContents m d)) d) ((K (F := F)).Otc d 3) (tcRec (F := F) d 3)

/-! ## The second region: after two SparseCore calls -/

/-- After the region the output array holds the region's function of its three operand arrays; the operands are as they were. -/
theorem step1_out (hR : R.tcb = tcbArr (F := F)) (d : Dev nD) : ∀ w : Fin 4,
    W8 R (launchContents m d) (dr (Pipeline.arrRef spec3 w)) = (regionDats R m 1 d).arrAt w cfg3.N
  | 0 => (Function.update_of_ne (by decide) _ _).trans (tcbDat_arrAt0 d (atTc (W7 R (launchContents m d)) d) _ _ _).symm
  | 1 => (Function.update_of_ne (by decide) _ _).trans (tcbDat_arrAt1 d (atTc (W7 R (launchContents m d)) d) _ _ _).symm
  | 2 => (Function.update_of_ne (by decide) _ _).trans (tcbDat_arrAt2 d (atTc (W7 R (launchContents m d)) d) _ _ _).symm
  | 3 => by
    refine Eq.trans ?_ (tcbDat_arrAt3 d (atTc (W7 R (launchContents m d)) d) _ _).symm
    show Function.update (W7 R (launchContents m d)) (dr main_v9) _ (dr main_v9) = _
    rw [Function.update_self, hR]

theorem step1_rest (d : Dev nD) (b : Ref sig .tc) (h : ∀ w : Fin 4, Pipeline.arrRef spec3 w ≠ b) :
    W8 R (launchContents m d) (dr b) = W7 R (launchContents m d) (dr b) :=
  Function.update_of_ne (fun e => h 3 (Proc.devRef_injective _ e).symm) _ _

theorem regionStep1 (hR : R.tcb = tcbArr (F := F)) (d : Dev nD) (G' : sProp 𝕄) :
    RegionStep (P R m) 1 2 d (W7 R (launchContents m d)) (W8 R (launchContents m d)) iprop(pipeGhost (F := F) 1 d ∗ G') G' := fun κ Φ =>
  region_step (P R m) (regionDats R m) 1 2 launch3
    (fun d => tcbBodyObligation d _ _ _)
    (fun d w => by unfold Pipeline.Dat.share; split <;> rfl)
    (fun _ _ => rfl) (fun _ _ => rfl)
    (fun d => W7 R (launchContents m d)) (fun d => W8 R (launchContents m d))
    (fun d w => tcbDat_A d _ _ _ w)
    (fun d w => step1_out R m hR d w) (fun d b h => step1_rest R m d b h)
    (fun _ => .rfl) (fun _ => .rfl) d G' κ Φ

/-! ## The third region: after the three SparseCore calls -/

/-- After the region the output array holds the region's function of its nine operand arrays; the operands are as they were. -/
theorem step2_out (hR : R.tcc = tccArr (F := F)) (d : Dev nD) : ∀ w : Fin 10,
    W12 R (launchContents m d) (dr (Pipeline.arrRef spec5 w)) = (regionDats R m 2 d).arrAt w cfg5.N
  | 0 => (Function.update_of_ne (by decide) _ _).trans (tccDat_arrAt0 d (atTc (W11 R (launchContents m d)) d) _ _ _).symm
  | 1 => (Function.update_of_ne (by decide) _ _).trans (tccDat_arrAt1 d (atTc (W11 R (launchContents m d)) d) _ _ _).symm
  | 2 => (Function.update_of_ne (by decide) _ _).trans (tccDat_arrAt2 d (atTc (W11 R (launchContents m d)) d) _ _ _).symm
  | 3 => (Function.update_of_ne (by decide) _ _).trans (tccDat_arrAt3 d (atTc (W11 R (launchContents m d)) d) _ _ _).symm
  | 4 => (Function.update_of_ne (by decide) _ _).trans (tccDat_arrAt4 d (atTc (W11 R (launchContents m d)) d) _ _ _).symm
  | 5 => (Function.update_of_ne (by decide) _ _).trans (tccDat_arrAt5 d (atTc (W11 R (launchContents m d)) d) _ _ _).symm
  | 6 => (Function.update_of_ne (by decide) _ _).trans (tccDat_arrAt6 d (atTc (W11 R (launchContents m d)) d) _ _ _).symm
  | 7 => (Function.update_of_ne (by decide) _ _).trans (tccDat_arrAt7 d (atTc (W11 R (launchContents m d)) d) _ _ _).symm
  | 8 => (Function.update_of_ne (by decide) _ _).trans (tccDat_arrAt8 d (atTc (W11 R (launchContents m d)) d) _ _ _).symm
  | 9 => by
    refine Eq.trans ?_ (tccDat_arrAt9 d (atTc (W11 R (launchContents m d)) d) _ _).symm
    show Function.update (W11 R (launchContents m d)) (dr main_v17) _ (dr main_v17) = _
    rw [Function.update_self, hR]

theorem step2_rest (d : Dev nD) (b : Ref sig .tc) (h : ∀ w : Fin 10, Pipeline.arrRef spec5 w ≠ b) :
    W12 R (launchContents m d) (dr b) = W11 R (launchContents m d) (dr b) :=
  Function.update_of_ne (fun e => h 9 (Proc.devRef_injective _ e).symm) _ _

theorem regionStep2 (hR : R.tcc = tccArr (F := F)) (d : Dev nD) (G' : sProp 𝕄) :
    RegionStep (P R m) 2 3 d (W11 R (launchContents m d)) (W12 R (launchContents m d)) iprop(pipeGhost (F := F) 2 d ∗ G') G' := fun κ Φ =>
  region_step (P R m) (regionDats R m) 2 3 launch5
    (fun d => tccBodyObligation d _ _ _)
    (fun d w => by unfold Pipeline.Dat.share; split <;> rfl)
    (fun _ _ => rfl) (fun _ _ => rfl)
    (fun d => W11 R (launchContents m d)) (fun d => W12 R (launchContents m d))
    (fun d w => tccDat_A d _ _ _ w)
    (fun d w => step2_out R m hR d w) (fun d b h => step2_rest R m d b h)
    (fun _ => .rfl) (fun _ => .rfl) d G' κ Φ

end Steps

end Cert.Proof.KB

end
-- ==== Proof.KBTcaValue.lean ====
/-
  The first TensorCore call's two outputs as arrays, and their values at the ideal floats.

  At cloud `b` the body stores, from the cloud's points `xb : [1, 3, 4096]`, the weights `w : [64, 6]` and the bias
  `be : [64, 1]`, the blocks
    tcaValY xb w    = the neighbour half   w[:, 0] · xb[0, :] + w[:, 1] · xb[1, :] + w[:, 2] · xb[2, :],
    tcaValC xb w be = the centre half      (w[:, 3:6] - w[:, 0:3]) applied likewise, plus the bias column on every point.
  The grid's point `t` reads cloud `t`'s block of the points and the whole weights and bias, and writes block `t` of each
  output (the index maps, decided over the 8 points); the 8 blocks `[1, 64, 4096]` tile the output `[8, 64, 4096]`. So each
  output array after the call is ONE function of the three operand arrays as the call finds them (`tcaY`, `tcaC`): at
  `(b, o, n)` the stored block of cloud `b`'s points at `(0, o, n)` (`tcaDat_arrAt3`, `tcaDat_arrAt4`), and the operand
  arrays are unchanged (`tcaDat_arrAt0` … `2`). At the ideal floats the two functions are read entry by entry
  (`tcaY_spec`, `tcaC_spec`): each layout operation of the stored payloads — a slice of one column or one row, a column or a
  row broadcast over the block, a unit axis added or dropped — is pushed to the coordinates, and what is left is the
  sum of three products (plus the bias) in the order the body adds them.
-/
import proofs.«209975_g17849884082380_cont_8to1_1483_11_alg».proof.Proof.KBTca
import proofs.«209975_g17849884082380_cont_8to1_1483_11_alg».proof.Proof.KBBlockOps
import proofs.«209975_g17849884082380_cont_8to1_1483_11_alg».proof.Proof.KBValue
import Idealize.ShloMosaic.Lib.Pipeline.Value
import Idealize.ShloMosaic.Lib.ValueLayout
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.Sem
open Idealize.ShloMosaic.Pipeline (Dat)

variable {F : FTy → Type} [FloatOps F]

/-! ## What the body stores, as functions of the blocks -/

/-- The first output's stored block from the point block and the weights: the neighbour half of the edge convolution. -/
def tcaValY (x0 : Vec F S1x3x4096 .f32) (x1 : Vec F S64x6 .f32) : Vec F S1x64x4096 .f32 :=
  k0_pay4 x0 (View.ld x1 tcaRWa)

/-- The second output's stored block from the point block, the weights and the bias: the centre half, with the bias. -/
def tcaValC (x0 : Vec F S1x3x4096 .f32) (x1 : Vec F S64x6 .f32) (x2 : Vec F S64x1 .f32) : Vec F S1x64x4096 .f32 :=
  k0_pay1 (k0_pay3 x0 (View.ld x1 tcaRWa) (View.ld x1 tcaRWb) x2)

theorem tca_hz3 : (![0, 0, 0] : Fin 3 → Nat) = fun _ => 0 := funext fun a => by fin_cases a <;> rfl
theorem tca_hz2 : (![0, 0] : Fin 2 → Nat) = fun _ => 0 := funext fun a => by fin_cases a <;> rfl

/-- The one store through the whole block leaves its payload. -/
theorem tcaOutY_eq (x0 : Vec F S1x3x4096 .f32) (x1 : Vec F S64x6 .f32) : tcaOutY x0 x1 = tcaValY x0 x1 := by
  unfold tcaOutY tcaValY
  rw [View.canon_unit_zero tca_hz3]
  simp only [View.ld_unit_zero (S := S1x3x4096) tca_hz3]

theorem tcaOutC_eq (x0 : Vec F S1x3x4096 .f32) (x1 : Vec F S64x6 .f32) (x2 : Vec F S64x1 .f32) :
    tcaOutC x0 x1 x2 = tcaValC x0 x1 x2 := by
  unfold tcaOutC tcaValC
  rw [View.canon_unit_zero tca_hz3]
  simp only [View.ld_unit_zero (S := S1x3x4096) tca_hz3, View.ld_unit_zero (S := S64x1) tca_hz2]

/-! ## The two outputs as arrays `[8, 64, 4096]` -/

/-- Cloud `b`'s points as the block `[1, 3, 4096]` the body reads. -/
def tcaXBlk (xt : Vec F S8x3x4096 .f32) (b : Fin 8) : Vec F S1x3x4096 .f32 := fun j => xt (ix3 b (j 1) (j 2))

/-- The first output after the region, from the three window arrays: at `(b, o, n)` what the body stores at `(0, o, n)`
    from cloud `b`'s block. -/
def tcaY (xt : Vec F S8x3x4096 .f32) (w : Vec F S64x6 .f32) (be : Vec F S64x1 .f32) : Vec F S8x64x4096 .f32 :=
  fun i => tcaValY (tcaXBlk xt (i 0)) w (ix3 (0 : Fin 1) (i 1) (i 2))

/-- The second output after the region, likewise. -/
def tcaC (xt : Vec F S8x3x4096 .f32) (w : Vec F S64x6 .f32) (be : Vec F S64x1 .f32) : Vec F S8x64x4096 .f32 :=
  fun i => tcaValC (tcaXBlk xt (i 0)) w be (ix3 (0 : Fin 1) (i 1) (i 2))

/-- The first output at cloud `b`, read at a block index, is the stored block of cloud `b`'s block there. -/
theorem tcaY_blk (xt : Vec F S8x3x4096 .f32) (w : Vec F S64x6 .f32) (be : Vec F S64x1 .f32) (b : Fin 8) (j : S1x64x4096.Idx) :
    tcaY xt w be (ix3 b (j 1) (j 2)) = tcaValY (tcaXBlk xt b) w j := by
  show tcaValY (tcaXBlk xt b) w (ix3 (0 : Fin 1) (j 1) (j 2)) = tcaValY (tcaXBlk xt b) w j
  refine congrArg _ (funext fun a => Fin.ext ?_)
  match a with
  | ⟨0, _⟩ => show 0 = (j 0).val; have h1 : (j 0).val < 1 := (j 0).isLt; omega
  | ⟨1, _⟩ => rfl
  | ⟨2, _⟩ => rfl

theorem tcaC_blk (xt : Vec F S8x3x4096 .f32) (w : Vec F S64x6 .f32) (be : Vec F S64x1 .f32) (b : Fin 8) (j : S1x64x4096.Idx) :
    tcaC xt w be (ix3 b (j 1) (j 2)) = tcaValC (tcaXBlk xt b) w be j := by
  show tcaValC (tcaXBlk xt b) w be (ix3 (0 : Fin 1) (j 1) (j 2)) = tcaValC (tcaXBlk xt b) w be j
  refine congrArg _ (funext fun a => Fin.ext ?_)
  match a with
  | ⟨0, _⟩ => show 0 = (j 0).val; have h1 : (j 0).val < 1 := (j 0).isLt; omega
  | ⟨1, _⟩ => rfl
  | ⟨2, _⟩ => rfl

/-! ## The index maps, decided over the grid -/

/-- Point `t` reads cloud `t`'s block of the points and the whole weights and bias, and writes block `t` of each output. -/
theorem tcaIdxFacts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A grid point as a cloud. -/
def tcaCloud (t : Fin cfg0.N) : Fin 8 := ⟨t.val, Nat.lt_of_lt_of_eq t.isLt N_0⟩

section Value

variable (c : Dev nD) (V : (b : Ref sig .tc) → Buf (Elt F) ((c : Thread nD τ).loc b))
  (O : CellTallies nD τ sig (HIx 3)) (B : Set (SemLoc sig × HIx 3))

/-! ## The windows' blocks, read off the arrays -/

/-- The points' window at point `t` is cloud `t`'s block. -/
theorem tcaBlk0_eq (t : Fin cfg0.N) : tcaBlk c V 0 t = tcaXBlk (V main_v1) (tcaCloud t) := by
  obtain ⟨e0, e1, e2, -⟩ := tcaIdxFacts t
  funext j
  show V main_v1 (((cfg0.win 0).blk t).view.emb j) = V main_v1 (ix3 (tcaCloud t) (j 1) (j 2))
  refine congrArg (V main_v1) ?_
  funext a; apply Fin.ext
  match a with
  | ⟨0, _⟩ => show win0_0.index t (0 : Fin 3) * 1 + 1 * (j 0).val = t.val; have hj : (j 0).val < 1 := (j 0).isLt; omega
  | ⟨1, _⟩ => show win0_0.index t (1 : Fin 3) * 3 + 1 * (j 1).val = (j 1).val; omega
  | ⟨2, _⟩ => show win0_0.index t (2 : Fin 3) * 4096 + 1 * (j 2).val = (j 2).val; omega

/-- The weights' window is the whole array at every point. -/
theorem tcaBlk1_eq (t : Fin cfg0.N) : tcaBlk c V 1 t = V main_arg2 := by
  obtain ⟨-, -, -, e3, e4, -⟩ := tcaIdxFacts t
  funext j
  show V main_arg2 (((cfg0.win 1).blk t).view.emb j) = V main_arg2 j
  refine congrArg (V main_arg2) ?_
  funext a; apply Fin.ext
  match a with
  | ⟨0, _⟩ => show win0_1.index t (0 : Fin 2) * 64 + 1 * (j 0).val = (j 0).val; omega
  | ⟨1, _⟩ => show win0_1.index t (1 : Fin 2) * 6 + 1 * (j 1).val = (j 1).val; omega

/-- The bias's window is the whole array at every point. -/
theorem tcaBlk2_eq (t : Fin cfg0.N) : tcaBlk c V 2 t = V main_v2 := by
  obtain ⟨-, -, -, -, -, e5, e6, -⟩ := tcaIdxFacts t
  funext j
  show V main_v2 (((cfg0.win 2).blk t).view.emb j) = V main_v2 j
  refine congrArg (V main_v2) ?_
  funext a; apply Fin.ext
  match a with
  | ⟨0, _⟩ => show win0_2.index t (0 : Fin 2) * 64 + 1 * (j 0).val = (j 0).val; omega
  | ⟨1, _⟩ => show win0_2.index t (1 : Fin 2) * 1 + 1 * (j 1).val = (j 1).val; omega

/-- The first output's block at point `t` sits at cloud `t`. -/
theorem tcaEmb3 (t : Fin cfg0.N) (j : S1x64x4096.Idx) : ((cfg0.win 3).blk t).view.emb j = ix3 (tcaCloud t) (j 1) (j 2) := by
  obtain ⟨-, -, -, -, -, -, -, e7, e8, e9, -⟩ := tcaIdxFacts t
  funext a; apply Fin.ext
  match a with
  | ⟨0, _⟩ => show win0_3.index t (0 : Fin 3) * 1 + 1 * (j 0).val = t.val; have hj : (j 0).val < 1 := (j 0).isLt; omega
  | ⟨1, _⟩ => show win0_3.index t (1 : Fin 3) * 64 + 1 * (j 1).val = (j 1).val; omega
  | ⟨2, _⟩ => show win0_3.index t (2 : Fin 3) * 4096 + 1 * (j 2).val = (j 2).val; omega

/-- The second output's block at point `t` sits at cloud `t`. -/
theorem tcaEmb4 (t : Fin cfg0.N) (j : S1x64x4096.Idx) : ((cfg0.win 4).blk t).view.emb j = ix3 (tcaCloud t) (j 1) (j 2) := by
  obtain ⟨-, -, -, -, -, -, -, -, -, -, e10, e11, e12⟩ := tcaIdxFacts t
  funext a; apply Fin.ext
  match a with
  | ⟨0, _⟩ => show win0_4.index t (0 : Fin 3) * 1 + 1 * (j 0).val = t.val; have hj : (j 0).val < 1 := (j 0).isLt; omega
  | ⟨1, _⟩ => show win0_4.index t (1 : Fin 3) * 64 + 1 * (j 1).val = (j 1).val; omega
  | ⟨2, _⟩ => show win0_4.index t (2 : Fin 3) * 4096 + 1 * (j 2).val = (j 2).val; omega

/-! ## What each point writes back is its block of the output array -/

theorem tcaDat_flushed3 (t : Fin cfg0.N) :
    (tcaDat c V O B).flushed 3 t = ((cfg0.win 3).blk t).view.read (Elt F) (tcaY (V main_v1) (V main_arg2) (V main_v2)) := by
  show (cfg0.win 3).cut (grid0.coords t) ((tcaDat c V O B).after 3 t) = _
  rw [tcaDat_after3, tcaOutY_eq, tcaBlk0_eq, tcaBlk1_eq]
  funext j
  show tcaValY (tcaXBlk (V main_v1) (tcaCloud t)) (V main_arg2) j
    = tcaY (V main_v1) (V main_arg2) (V main_v2) (((cfg0.win 3).blk t).view.emb j)
  rw [tcaEmb3]
  exact (tcaY_blk _ _ _ (tcaCloud t) j).symm

theorem tcaDat_flushed4 (t : Fin cfg0.N) :
    (tcaDat c V O B).flushed 4 t = ((cfg0.win 4).blk t).view.read (Elt F) (tcaC (V main_v1) (V main_arg2) (V main_v2)) := by
  show (cfg0.win 4).cut (grid0.coords t) ((tcaDat c V O B).after 4 t) = _
  rw [tcaDat_after4, tcaOutC_eq, tcaBlk0_eq, tcaBlk1_eq, tcaBlk2_eq]
  funext j
  show tcaValC (tcaXBlk (V main_v1) (tcaCloud t)) (V main_arg2) (V main_v2) j
    = tcaC (V main_v1) (V main_arg2) (V main_v2) (((cfg0.win 4).blk t).view.emb j)
  rw [tcaEmb4]
  exact (tcaC_blk _ _ _ (tcaCloud t) j).symm

/-! ## The outputs' blocks tile their arrays -/

theorem tcaMemBlk3 (t : Fin cfg0.N) (i : S8x64x4096.Idx) :
    i ∈ ((cfg0.win 3).blk t).view.set ↔ ∀ a : Fin 3, win0_3.index t a * S1x64x4096.size a ≤ (i a).val
      ∧ (i a).val < win0_3.index t a * S1x64x4096.size a + S1x64x4096.size a := by
  show i ∈ ((View.whole main_v3_0).slice (win0_3.rect t)).set ↔ _
  rw [View.set_slice_whole, Rect.mem_set_unit]
  exact Iff.rfl

theorem tcaMemBlk4 (t : Fin cfg0.N) (i : S8x64x4096.Idx) :
    i ∈ ((cfg0.win 4).blk t).view.set ↔ ∀ a : Fin 3, win0_4.index t a * S1x64x4096.size a ≤ (i a).val
      ∧ (i a).val < win0_4.index t a * S1x64x4096.size a + S1x64x4096.size a := by
  show i ∈ ((View.whole main_v3_1).slice (win0_4.rect t)).set ↔ _
  rw [View.set_slice_whole, Rect.mem_set_unit]
  exact Iff.rfl

/-- Every index of the first output is in the block of the point that is its cloud. -/
theorem tcaCover3 (i : S8x64x4096.Idx) :
    ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 4096 := (i 2).isLt
  have hN : (i 0).val < grid0.N := by rw [N_0]; exact hi0
  obtain ⟨-, -, -, -, -, -, -, e7, e8, e9, -⟩ := tcaIdxFacts ⟨(i 0).val, hN⟩
  refine ⟨⟨(i 0).val, hN⟩, flush0_3 _, ?_⟩
  rw [tcaMemBlk3]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [e7]; show (i 0).val * 1 ≤ (i 0).val ∧ (i 0).val < (i 0).val * 1 + 1; omega
  | ⟨1, _⟩ =>
    show win0_3.index ⟨(i 0).val, hN⟩ (1 : Fin 3) * 64 ≤ (i 1).val ∧ (i 1).val < win0_3.index ⟨(i 0).val, hN⟩ (1 : Fin 3) * 64 + 64
    rw [e8]; omega
  | ⟨2, _⟩ =>
    show win0_3.index ⟨(i 0).val, hN⟩ (2 : Fin 3) * 4096 ≤ (i 2).val ∧ (i 2).val < win0_3.index ⟨(i 0).val, hN⟩ (2 : Fin 3) * 4096 + 4096
    rw [e9]; omega

/-- Every index of the second output is in the block of the point that is its cloud. -/
theorem tcaCover4 (i : S8x64x4096.Idx) :
    ∃ t : Fin cfg0.N, (cfg0.win 4).flush t = true ∧ i ∈ ((cfg0.win 4).blk t).view.set := by
  have hi0 : (i 0).val < 8 := (i 0).isLt
  have hi1 : (i 1).val < 64 := (i 1).isLt
  have hi2 : (i 2).val < 4096 := (i 2).isLt
  have hN : (i 0).val < grid0.N := by rw [N_0]; exact hi0
  obtain ⟨-, -, -, -, -, -, -, -, -, -, e10, e11, e12⟩ := tcaIdxFacts ⟨(i 0).val, hN⟩
  refine ⟨⟨(i 0).val, hN⟩, flush0_4 _, ?_⟩
  rw [tcaMemBlk4]
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    rw [e10]; show (i 0).val * 1 ≤ (i 0).val ∧ (i 0).val < (i 0).val * 1 + 1; omega
  | ⟨1, _⟩ =>
    show win0_4.index ⟨(i 0).val, hN⟩ (1 : Fin 3) * 64 ≤ (i 1).val ∧ (i 1).val < win0_4.index ⟨(i 0).val, hN⟩ (1 : Fin 3) * 64 + 64
    rw [e11]; omega
  | ⟨2, _⟩ =>
    show win0_4.index ⟨(i 0).val, hN⟩ (2 : Fin 3) * 4096 ≤ (i 2).val ∧ (i 2).val < win0_4.index ⟨(i 0).val, hN⟩ (2 : Fin 3) * 4096 + 4096
    rw [e12]; omega

/-! ## The arrays after the call -/

/-- The first output after the call: the array function of the three operand arrays as the region finds them. -/
theorem tcaDat_arrAt3 : (tcaDat c V O B).arrAt 3 cfg0.N = tcaY (V main_v1) (V main_arg2) (V main_v2) :=
  (tcaDat c V O B).arrAt_eq_of_cover 3 _ (fun t _ => tcaDat_flushed3 c V O B t) tcaCover3

/-- The second output after the call. -/
theorem tcaDat_arrAt4 : (tcaDat c V O B).arrAt 4 cfg0.N = tcaC (V main_v1) (V main_arg2) (V main_v2) :=
  (tcaDat c V O B).arrAt_eq_of_cover 4 _ (fun t _ => tcaDat_flushed4 c V O B t) tcaCover4

/-- The operand arrays are never written back: they stay as the region finds them. -/
theorem tcaDat_arrAt0 (n : ℕ) : (tcaDat c V O B).arrAt 0 n = V (Pipeline.arrRef spec0 0) :=
  ((tcaDat c V O B).arrAt_in 0 rfl n).trans (tcaDat_A c V O B 0)
theorem tcaDat_arrAt1 (n : ℕ) : (tcaDat c V O B).arrAt 1 n = V (Pipeline.arrRef spec0 1) :=
  ((tcaDat c V O B).arrAt_in 1 rfl n).trans (tcaDat_A c V O B 1)
theorem tcaDat_arrAt2 (n : ℕ) : (tcaDat c V O B).arrAt 2 n = V (Pipeline.arrRef spec0 2) :=
  ((tcaDat c V O B).arrAt_in 2 rfl n).trans (tcaDat_A c V O B 2)

end Value

/-! ## The stored blocks at the ideal floats, entry by entry -/

section Ideal

open Cert.Proof.KB.Ops

/-- Columns 0–2 of the weights, at `(o, k)`. -/
theorem tcaLdWa_apply (w : Vec F S64x6 .f32) (o : Fin 64) (k : Fin 3) :
    View.ld w tcaRWa (ix2 o k) = w (ix2 o ⟨k.val, by have := k.isLt; omega⟩) := by
  show w (tcaRWa.idx (ix2 o k)) = _
  refine congrArg w (funext fun a => Fin.ext ?_)
  match a with
  | ⟨0, _⟩ => show 0 + 1 * o.val = o.val; omega
  | ⟨1, _⟩ => show 0 + 1 * k.val = k.val; omega

/-- Columns 3–5 of the weights, at `(o, k)`. -/
theorem tcaLdWb_apply (w : Vec F S64x6 .f32) (o : Fin 64) (k : Fin 3) :
    View.ld w tcaRWb (ix2 o k) = w (ix2 o ⟨3 + k.val, by have := k.isLt; omega⟩) := by
  show w (tcaRWb.idx (ix2 o k)) = _
  refine congrArg w (funext fun a => Fin.ext ?_)
  match a with
  | ⟨0, _⟩ => show 0 + 1 * o.val = o.val; omega
  | ⟨1, _⟩ => show 3 + 1 * k.val = 3 + k.val; omega

/-- The block under a leading unit axis, at `(0, o, n)`. -/
theorem k0_pay1_apply (v42 : FVec F S64x4096 .f32) (o : Fin 64) (n : Fin 4096) :
    k0_pay1 v42 (ix3 (0 : Fin 1) o n) = v42 (ix2 o n) := by
  unfold k0_pay1
  rw [shapeCast_ab_1ab_apply]

/-- The neighbour half of the edge convolution on loaded values, at `(0, o, n)`: the three products of a weight column's
    entry and a coordinate row's entry, added left to right. -/
theorem k0_pay4_apply (v0 : Vec Ideal S1x3x4096 .f32) (v2 : Vec Ideal S64x3 .f32) (o : Fin 64) (n : Fin 4096) :
    k0_pay4 v0 v2 (ix3 (0 : Fin 1) o n)
      = (v2 (ix2 o 0) * v0 (ix3 0 0 n) + v2 (ix2 o 1) * v0 (ix3 0 1 n) + v2 (ix2 o 2) * v0 (ix3 0 2 n) : EReal) := by
  unfold k0_pay4 k0_pay2
  simp only [shapeCast_ab_1ab_apply, addf_apply, mulf_apply, bcast_col_apply, broadcastTo_1b_ab_apply,
    slice2_axis1_eq, slice2_axis0_eq, shapeCast_1ab_ab_apply]
  rfl

/-- The centre half on loaded values, at `(o, n)`: the same with the weights' difference, plus the bias's entry. -/
theorem k0_pay3_apply (v0 : Vec Ideal S1x3x4096 .f32) (v2 v3 : Vec Ideal S64x3 .f32) (v39 : Vec Ideal S64x1 .f32)
    (o : Fin 64) (n : Fin 4096) :
    k0_pay3 v0 v2 v3 v39 (ix2 o n)
      = (((v3 (ix2 o 0) - v2 (ix2 o 0)) * v0 (ix3 0 0 n) + (v3 (ix2 o 1) - v2 (ix2 o 1)) * v0 (ix3 0 1 n)
          + (v3 (ix2 o 2) - v2 (ix2 o 2)) * v0 (ix3 0 2 n)) + v39 (ix2 o 0) : EReal) := by
  unfold k0_pay3 k0_pay2
  simp only [addf_apply, mulf_apply, subf_apply, bcast_col_apply, broadcastTo_1b_ab_apply,
    slice2_axis1_eq, slice2_axis0_eq, shapeCast_1ab_ab_apply, shapeCast_self]
  rfl

/-- The first output is the neighbour half of the edge convolution. -/
theorem tcaY_spec : Cert.Proof.KBValue.SpecY (tcaY (F := Ideal)) := fun xt w be b o n => by
  show tcaValY (tcaXBlk xt b) w (ix3 (0 : Fin 1) o n) = _
  unfold tcaValY
  rw [k0_pay4_apply, tcaLdWa_apply, tcaLdWa_apply, tcaLdWa_apply]
  rfl

/-- The second output is the centre half of the edge convolution, with the bias. -/
theorem tcaC_spec : Cert.Proof.KBValue.SpecC (tcaC (F := Ideal)) := fun xt w be b o n => by
  show tcaValC (tcaXBlk xt b) w be (ix3 (0 : Fin 1) o n) = _
  unfold tcaValC
  rw [k0_pay1_apply, k0_pay3_apply, tcaLdWa_apply, tcaLdWa_apply, tcaLdWa_apply, tcaLdWb_apply, tcaLdWb_apply, tcaLdWb_apply]
  rfl

end Ideal

end Cert.Proof.KB

end
-- ==== Proof.KBRegionStep0.lean ====
/-
  The first kernel region of @main as a step over the chain of valuations of the TensorCore's arrays: entered before
  any SparseCore call, it leaves its two output arrays at the region's functions of its three operand arrays.
-/
import proofs.«209975_g17849884082380_cont_8to1_1483_11_alg».proof.Proof.KBRegionSteps
import proofs.«209975_g17849884082380_cont_8to1_1483_11_alg».proof.Proof.KBTcaValue

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held launchContents)

variable {F : FTy → Type} [FloatOps F]

local notation "𝕄" => MT nD τ sig (HIx 3) (Elt F) ℕ UU ℕ

section Steps

variable (R : Regions F) (m : (ℓ : Loc nD τ sig) → Buf (Elt F) ℓ)

/-! ## The first region: before any SparseCore call -/

/-- After the region the two output arrays hold the region's functions of its three operand arrays; the operands are as they were. -/
theorem step0_out (hY : R.tcaY = tcaY (F := F)) (hC : R.tcaC = tcaC (F := F)) (d : Dev nD) : ∀ w : Fin 5,
    W2 R (launchContents m d) (dr (Pipeline.arrRef spec0 w)) = (regionDats R m 0 d).arrAt w cfg0.N
  | 0 => (Function.update_of_ne (by decide) _ _).trans ((Function.update_of_ne (by decide) _ _).trans
      (tcaDat_arrAt0 d (atTc (W1 (launchContents m d)) d) _ _ _).symm)
  | 1 => (Function.update_of_ne (by decide) _ _).trans ((Function.update_of_ne (by decide) _ _).trans
      (tcaDat_arrAt1 d (atTc (W1 (launchContents m d)) d) _ _ _).symm)
  | 2 => (Function.update_of_ne (by decide) _ _).trans ((Function.update_of_ne (by decide) _ _).trans
      (tcaDat_arrAt2 d (atTc (W1 (launchContents m d)) d) _ _ _).symm)
  | 3 => by
    refine Eq.trans ?_ (tcaDat_arrAt3 d (atTc (W1 (launchContents m d)) d) _ _).symm
    refine (Function.update_of_ne (show dr main_v3_0 ≠ dr main_v3_1 by decide) _ _).trans ?_
    show Function.update (W1 (launchContents m d)) (dr main_v3_0) _ (dr main_v3_0) = _
    rw [Function.update_self, hY]
  | 4 => by
    refine Eq.trans ?_ (tcaDat_arrAt4 d (atTc (W1 (launchContents m d)) d) _ _).symm
    show Function.update _ (dr main_v3_1) _ (dr main_v3_1) = _
    rw [Function.update_self, hC]

theorem step0_rest (d : Dev nD) (b : Ref sig .tc) (h : ∀ w : Fin 5, Pipeline.arrRef spec0 w ≠ b) :
    W2 R (launchContents m d) (dr b) = W1 (launchContents m d) (dr b) :=
  (Function.update_of_ne (fun e => h 4 (Proc.devRef_injective _ e).symm) _ _).trans
    (Function.update_of_ne (fun e => h 3 (Proc.devRef_injective _ e).symm) _ _)

theorem regionStep0 (hY : R.tcaY = tcaY (F := F)) (hC : R.tcaC = tcaC (F := F)) (d : Dev nD) (G' : sProp 𝕄) :
    RegionStep (P R m) 0 0 d (W1 (launchContents m d)) (W2 R (launchContents m d)) iprop(pipeGhost (F := F) 0 d ∗ G') G' := fun κ Φ =>
  region_step (P R m) (regionDats R m) 0 0 launch0
    (fun d => tcaBodyObligation d _ _ _)
    (fun d w => by unfold Pipeline.Dat.share; split <;> rfl)
    (fun _ _ => rfl) (fun _ _ => rfl)
    (fun d => W1 (launchContents m d)) (fun d => W2 R (launchContents m d))
    (fun d w => tcaDat_A d _ _ _ w)
    (fun d w => step0_out R m hY hC d w) (fun d b h => step0_rest R m d b h)
    (fun _ => .rfl) (fun _ => .rfl) d G' κ Φ

end Steps

end Cert.Proof.KB

end
-- ==== Proof.KBOff1.lean ====
/-
  The slices of a tile of the first SparseCore call, in closed form. The tile numbered w among the 32 (twice its
  subcore's number plus its core's) reads cloud w / 4: of the flattened source the 65536 words from 65536 * (w % 4) (the
  sixteen channels from 16 * (w % 4)), of the neighbour lists the four quarters of the points in turn, of the centre term
  and of the output the sixteen channels from 16 * (w % 4) at the four quarters of the points in turn. The offsets the
  program computes from the tile's coordinates are these.
-/
import proofs.«209975_g17849884082380_cont_8to1_1483_11_alg».proof.Proof.KBTile1Defs

namespace Cert.Proof.KB.T1

open Cert.Kernel Cert.Kernel.Gen
open Idealize.ShloMosaic

/-- The slab of the source. -/
theorem off1_eq : ∀ L : grid1.Coords, k1_off1 L = ![(wid L).val / 4, (wid L).val % 4 * 65536] := by decide +kernel
/-- The neighbour lists: points 0 to 1023, 1024 to 2047, 2048 to 3071, 3072 to 4095. -/
theorem off2_eq : ∀ L : grid1.Coords, k1_off2 L = ![(wid L).val / 4, 0, 0] := by decide +kernel
theorem off25_eq : ∀ L : grid1.Coords, k1_off25 L = ![(wid L).val / 4, 0, 1024] := by decide +kernel
theorem off48_eq : ∀ L : grid1.Coords, k1_off48 L = ![(wid L).val / 4, 0, 2048] := by decide +kernel
theorem off71_eq : ∀ L : grid1.Coords, k1_off71 L = ![(wid L).val / 4, 0, 3072] := by decide +kernel
/-- The centre term's and the output's pieces: points 0 to 1023, 1024 to 2047, 2048 to 3071, 3072 to 4095. -/
theorem off3_eq : ∀ L : grid1.Coords, k1_off3 L = ![(wid L).val / 4, (wid L).val % 4 * 16, 0] := by decide +kernel
theorem off26_eq : ∀ L : grid1.Coords, k1_off26 L = ![(wid L).val / 4, (wid L).val % 4 * 16, 1024] := by decide +kernel
theorem off49_eq : ∀ L : grid1.Coords, k1_off49 L = ![(wid L).val / 4, (wid L).val % 4 * 16, 2048] := by decide +kernel
theorem off72_eq : ∀ L : grid1.Coords, k1_off72 L = ![(wid L).val / 4, (wid L).val % 4 * 16, 3072] := by decide +kernel

end Cert.Proof.KB.T1
-- ==== Proof.KBShares.lean ====
/-
  What the three SparseCore calls share. Each runs on 2 SparseCores of 16 tiles; tile (c, i) is number 2 i + c among the
  32. An array every tile reads is dealt as 32 read shares and a remainder. An array of 8 clouds by 64 channels by 4096
  points that the tiles write is cut into 128 pieces, four to a tile: tile w writes cloud w / 4, the sixteen channels from
  16 (w % 4), and the four quarters of the points; the pieces are pairwise disjoint and cover the array.
-/
import proofs.«209975_g17849884082380_cont_8to1_1483_11_alg».proof.Proof.KBSetup
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## The 32 tiles' numbers -/

/-- The number of subcore `i` of SparseCore `c` among the 32 tiles: twice the subcore's plus the core's. -/
def tileNo (c : Fin 2) (i : Fin 16) : Fin 32 := ⟨i.val * 2 + c.val, by have := c.isLt; have := i.isLt; omega⟩

/-- The tiles' numbers run once through the 32. -/
def tileEquiv : Fin 2 × Fin 16 ≃ Fin 32 where
  toFun p := tileNo p.1 p.2
  invFun w := (⟨w.val % 2, Nat.mod_lt _ (by norm_num)⟩, ⟨w.val / 2, by have := w.isLt; omega⟩)
  left_inv p := by
    rcases p with ⟨c, i⟩
    have hc := c.isLt
    refine Prod.ext (Fin.ext ?_) (Fin.ext ?_)
    · show (i.val * 2 + c.val) % 2 = c.val; omega
    · show (i.val * 2 + c.val) / 2 = i.val; omega
  right_inv w := by
    refine Fin.ext ?_
    show (w.val / 2) * 2 + w.val % 2 = w.val; omega

/-- A family over the 32 numbers, taken SparseCore by SparseCore and tile by tile. -/
theorem bigSep_tiles (Φ : Fin 32 → sProp 𝕄) :
    bigSep Finset.univ Φ = bigSep Finset.univ fun c : Fin 2 => bigSep Finset.univ fun i : Fin 16 => Φ (tileNo c i) := by
  rw [BI.bigSep_univ_equiv tileEquiv Φ, BI.bigSep_univ_prod]
  rfl

/-- A family over four indices is its four members. -/
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide,
    BI.bigSep_insert (by decide), BI.bigSep_insert (by decide), BI.bigSep_insert (by decide), BI.bigSep_singleton]
  rfl

/-! ## The 128 pieces of an array of 8 clouds by 64 channels by 4096 points -/

theorem piece_inb (w : Fin 32) (ch : Fin 4) :
    ∀ a, (![w.val / 4, w.val % 4 * 16, ch.val * 1024] : Fin 3 → Nat) a + S1x16x1024.size a ≤ S8x64x4096.size a := by
  have hw := w.isLt; have hc := ch.isLt
  intro a
  match a with
  | 0 => show w.val / 4 + 1 ≤ 8; omega
  | 1 => show w.val % 4 * 16 + 16 ≤ 64; omega
  | 2 => show ch.val * 1024 + 1024 ≤ 4096; omega

/-- Piece `ch` of tile `w`: cloud `w / 4`, sixteen channels from `16 (w % 4)`, 1024 points from `1024 ch`. -/
def pieceR (w : Fin 32) (ch : Fin 4) : Rect S8x64x4096 :=
  Rect.unit (s := S8x64x4096) ![w.val / 4, w.val % 4 * 16, ch.val * 1024] S1x16x1024.size (piece_inb w ch)

def piece (t : Fin 32 × Fin 4) : Finset S8x64x4096.Idx := (pieceR t.1 t.2).set

theorem mem_piece {t : Fin 32 × Fin 4} {i : S8x64x4096.Idx} :
    i ∈ piece t ↔ (i 0).val = t.1.val / 4 ∧ (t.1.val % 4 * 16 ≤ (i 1).val ∧ (i 1).val < t.1.val % 4 * 16 + 16)
      ∧ (t.2.val * 1024 ≤ (i 2).val ∧ (i 2).val < t.2.val * 1024 + 1024) := by
  unfold piece pieceR
  rw [Rect.mem_set_unit]
  constructor
  · intro h
    have h0 : t.1.val / 4 ≤ (i 0).val ∧ (i 0).val < t.1.val / 4 + 1 := h 0
    have h1 : t.1.val % 4 * 16 ≤ (i 1).val ∧ (i 1).val < t.1.val % 4 * 16 + 16 := h 1
    have h2 : t.2.val * 1024 ≤ (i 2).val ∧ (i 2).val < t.2.val * 1024 + 1024 := h 2
    exact ⟨by omega, h1, h2⟩
  · rintro ⟨h0, h1, h2⟩ a
    match a with
    | 0 => show t.1.val / 4 ≤ (i 0).val ∧ (i 0).val < t.1.val / 4 + 1; omega
    | 1 => exact h1
    | 2 => exact h2

/-- A rectangle of that size at a tile's closed-form offsets is the tile's piece. -/
theorem set_unit_eq_piece {off : Fin 3 → Nat} {inb} (w : Fin 32) (ch : Fin 4)
    (h : off = ![w.val / 4, w.val % 4 * 16, ch.val * 1024]) :
    (Rect.unit (s := S8x64x4096) off S1x16x1024.size inb).set = piece (w, ch) := by
  subst h; rfl

theorem pieces_disjoint : ∀ t ∈ (Finset.univ : Finset (Fin 32 × Fin 4)), ∀ t' ∈ (Finset.univ : Finset (Fin 32 × Fin 4)),
    t ≠ t' → Disjoint (piece t) (piece t') := by
  intro t _ t' _ hne
  rw [Finset.disjoint_left]
  intro i hi hi'
  rw [mem_piece] at hi hi'
  obtain ⟨a0, ⟨a1, a2⟩, ⟨a3, a4⟩⟩ := hi
  obtain ⟨b0, ⟨b1, b2⟩, ⟨b3, b4⟩⟩ := hi'
  apply hne
  have hw := t.1.isLt; have hw' := t'.1.isLt
  refine Prod.ext (Fin.ext ?_) (Fin.ext ?_) <;> omega

theorem pieces_cover : (Finset.univ : Finset (Fin 32 × Fin 4)).biUnion piece = Finset.univ := by
  ext i
  simp only [Finset.mem_biUnion, Finset.mem_univ, true_and, iff_true]
  have h0 : (i 0).val < 8 := (i 0).isLt
  have h1 : (i 1).val < 64 := (i 1).isLt
  have h2 : (i 2).val < 4096 := (i 2).isLt
  refine ⟨(⟨(i 0).val * 4 + (i 1).val / 16, by omega⟩, ⟨(i 2).val / 1024, by omega⟩), ?_⟩
  rw [mem_piece]
  refine ⟨?_, ⟨?_, ?_⟩, ⟨?_, ?_⟩⟩ <;> simp only <;> omega

/-! ## An array every tile reads: 32 read shares and the remainder -/

section Reads

variable {ℓ : Loc nD τ sig} {f : Buf (Elt F) ℓ}

/-- The array is dealt: a read share to each tile, the remainder kept. -/
theorem reads_deal :
    (ℓ ↦{fullShare} f : sProp 𝕄) ⊢ iprop((ℓ ↦{Transfers.shareDrop fullShare 32} f)
      ∗ bigSep Finset.univ fun c : Fin 2 => bigSep Finset.univ fun i : Fin 16 => ℓ ↦{Transfers.shareTok fullShare 32 (tileNo c i)} f) := by
  rw [← bigSep_tiles (fun w : Fin 32 => (ℓ ↦{Transfers.shareTok fullShare 32 w} f : sProp 𝕄))]
  exact Transfers.pointsTo_toks_split fullShare 32

/-- and gathered again. -/
theorem reads_gather :
    iprop((ℓ ↦{Transfers.shareDrop fullShare 32} f)
      ∗ bigSep Finset.univ fun c : Fin 2 => bigSep Finset.univ fun i : Fin 16 => ℓ ↦{Transfers.shareTok fullShare 32 (tileNo c i)} f)
      ⊢ (ℓ ↦{fullShare} f : sProp 𝕄) := by
  rw [← bigSep_tiles (fun w : Fin 32 => (ℓ ↦{Transfers.shareTok fullShare 32 w} f : sProp 𝕄))]
  exact Transfers.pointsTo_toks_join fullShare 32

end Reads

end Cert.Proof.KB

end
-- ==== Proof.KBOutPieces.lean ====
/-
  An array of 8 clouds by 64 channels by 4096 points that the 32 tiles of a SparseCore call write by pieces: the array
  whole is its 128 pieces, four to each tile, taken SparseCore by SparseCore and tile by tile. Stated for any location
  and any family of pairwise disjoint pieces that covers the location's indices, so that each call cites it at its own
  output array with the partition of that shape.
-/
import proofs.«209975_g17849884082380_cont_8to1_1483_11_alg».proof.Proof.KBShares

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-! ## An array the 32 tiles write by pieces: four pieces to each tile -/

section Out

variable {ℓ : Loc nD τ sig} {q : PosShare TreeShare}

/-- The family of the pieces, taken SparseCore by SparseCore, tile by tile, and each tile's four written out. -/
theorem bigSep_pieces (Φ : Fin 32 × Fin 4 → sProp 𝕄) :
    bigSep Finset.univ Φ = bigSep Finset.univ fun c : Fin 2 => bigSep Finset.univ fun i : Fin 16 =>
      iprop(Φ (tileNo c i, 0) ∗ Φ (tileNo c i, 1) ∗ Φ (tileNo c i, 2) ∗ Φ (tileNo c i, 3)) := by
  rw [BI.bigSep_univ_prod, bigSep_tiles (fun w : Fin 32 => bigSep Finset.univ fun ch : Fin 4 => Φ (w, ch))]
  exact BI.bigSep_congr fun c _ => BI.bigSep_congr fun i _ => bigSep_fin_four (fun ch => Φ (tileNo c i, ch))

/-- An array whole is its 128 pieces, four to each tile: for any family of pairwise disjoint pieces that covers it. -/
theorem out_deal (K : Fin 32 × Fin 4 → Finset (Idx ℓ))
    (hd : ∀ t ∈ (Finset.univ : Finset (Fin 32 × Fin 4)), ∀ t' ∈ (Finset.univ : Finset (Fin 32 × Fin 4)), t ≠ t' → Disjoint (K t) (K t'))
    (hc : (Finset.univ : Finset (Fin 32 × Fin 4)).biUnion K = Finset.univ) (f : Buf (Elt F) ℓ) :
    (ℓ ↦{q} f : sProp 𝕄) = bigSep Finset.univ fun c : Fin 2 => bigSep Finset.univ fun i : Fin 16 =>
      iprop((ℓ ↦[K (tileNo c i, 0)]{q} f) ∗ (ℓ ↦[K (tileNo c i, 1)]{q} f) ∗ (ℓ ↦[K (tileNo c i, 2)]{q} f) ∗ (ℓ ↦[K (tileNo c i, 3)]{q} f)) := by
  rw [← bigSep_pieces (fun t => (ℓ ↦[K t]{q} f : sProp 𝕄)), ← pointsTo_biUnion Finset.univ K hd, hc]

/-- The same with the contents not chosen: each piece then holds some contents. -/
theorem out_deal_ex (K : Fin 32 × Fin 4 → Finset (Idx ℓ))
    (hd : ∀ t ∈ (Finset.univ : Finset (Fin 32 × Fin 4)), ∀ t' ∈ (Finset.univ : Finset (Fin 32 × Fin 4)), t ≠ t' → Disjoint (K t) (K t'))
    (hc : (Finset.univ : Finset (Fin 32 × Fin 4)).biUnion K = Finset.univ) :
    (iprop(∃ f, ℓ ↦{q} f) : sProp 𝕄) ⊢ bigSep Finset.univ fun c : Fin 2 => bigSep Finset.univ fun i : Fin 16 =>
      iprop((∃ f, ℓ ↦[K (tileNo c i, 0)]{q} f) ∗ (∃ f, ℓ ↦[K (tileNo c i, 1)]{q} f) ∗ (∃ f, ℓ ↦[K (tileNo c i, 2)]{q} f)
        ∗ (∃ f, ℓ ↦[K (tileNo c i, 3)]{q} f)) := by
  have hmono : ∀ (f : Buf (Elt F) ℓ) (c : Fin 2) (i : Fin 16),
      (iprop((ℓ ↦[K (tileNo c i, 0)]{q} f) ∗ (ℓ ↦[K (tileNo c i, 1)]{q} f) ∗ (ℓ ↦[K (tileNo c i, 2)]{q} f) ∗ (ℓ ↦[K (tileNo c i, 3)]{q} f)) : sProp 𝕄)
        ⊢ iprop((∃ f, ℓ ↦[K (tileNo c i, 0)]{q} f) ∗ (∃ f, ℓ ↦[K (tileNo c i, 1)]{q} f) ∗ (∃ f, ℓ ↦[K (tileNo c i, 2)]{q} f)
          ∗ (∃ f, ℓ ↦[K (tileNo c i, 3)]{q} f)) := by
    intro f c i
    iintro ⟨H0, H1, H2, H3⟩
    isplitl [H0]; · iexists f; iexact H0
    isplitl [H1]; · iexists f; iexact H1
    isplitl [H2]; · iexists f; iexact H2
    iexists f; iexact H3
  iintro ⟨%f, H⟩
  ihave H' := (Entails.of_eq (out_deal K hd hc f)) $$ H
  iapply (SparseCore.ent (BI.bigSep_mono (fun c _ => BI.bigSep_mono (fun i _ => hmono f c i))))
  iexact H'

/-- The pieces at one function are the array whole at it. -/
theorem out_gather (K : Fin 32 × Fin 4 → Finset (Idx ℓ))
    (hd : ∀ t ∈ (Finset.univ : Finset (Fin 32 × Fin 4)), ∀ t' ∈ (Finset.univ : Finset (Fin 32 × Fin 4)), t ≠ t' → Disjoint (K t) (K t'))
    (hc : (Finset.univ : Finset (Fin 32 × Fin 4)).biUnion K = Finset.univ) (g : Buf (Elt F) ℓ) :
    (bigSep Finset.univ fun c : Fin 2 => bigSep Finset.univ fun i : Fin 16 =>
      iprop((ℓ ↦[K (tileNo c i, 0)]{q} g) ∗ (ℓ ↦[K (tileNo c i, 1)]{q} g) ∗ (ℓ ↦[K (tileNo c i, 2)]{q} g) ∗ (ℓ ↦[K (tileNo c i, 3)]{q} g)))
      ⊢ (ℓ ↦{q} g : sProp 𝕄) :=
  Entails.of_eq (out_deal K hd hc g).symm

end Out

end Cert.Proof.KB

end
-- ==== Proof.KBCall0.lean ====
/-
  The first SparseCore call as @main on the TensorCore sees it. The call's three operands (the flattened source, the
  neighbour lists, the centre term) are dealt to the 2 × 16 tiles as read shares, the output array as its 128 pieces,
  four to each tile; the SparseCores are started and awaited; what the tiles give back is gathered: the three operands
  whole again, and the output array whole at the pooled and rectified array. In terms of the arrays @main holds, the
  call rewrites its result array and nothing else, and moves the handshakes one round on.
-/
import proofs.«209975_g17849884082380_cont_8to1_1483_11_alg».proof.Proof.KBP
import proofs.«209975_g17849884082380_cont_8to1_1483_11_alg».proof.Proof.KBOff1
import proofs.«209975_g17849884082380_cont_8to1_1483_11_alg».proof.Proof.KBOutPieces

noncomputable section

namespace Cert.Proof.KB.T1

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr launchContents)

variable {F : FTy → Type}

local notation "𝕄" => MT nD τ sig (HIx 3) (Elt F) ℕ UU ℕ

/-! ## A tile's four output pieces are pieces of the partition -/

section Pieces

variable (L : grid1.Coords)

theorem oSet0_eq : oSet0 L = piece (wid L, 0) := by
  show (((Memref.whole main_v5_scv : Memref sig .scVector .hbm S8x64x4096 .f32).view.slice
      (Rect.unit (s := S8x64x4096) (k1_off3 L) S1x16x1024.size (k1_off3_inb L))).reshape S16x1024 squeezes_S1x16x1024_S16x1024.numel_eq).set = _
  rw [View.set_reshape]
  show ((View.whole (main_v5_scv : Ref sig .scVector)).slice _).set = _
  rw [View.set_slice_whole]
  exact set_unit_eq_piece (wid L) 0 (off3_eq L)

theorem oSet1_eq : oSet1 L = piece (wid L, 1) := by
  show (((Memref.whole main_v5_scv : Memref sig .scVector .hbm S8x64x4096 .f32).view.slice
      (Rect.unit (s := S8x64x4096) (k1_off26 L) S1x16x1024.size (k1_off26_inb L))).reshape S16x1024 squeezes_S1x16x1024_S16x1024.numel_eq).set = _
  rw [View.set_reshape]
  show ((View.whole (main_v5_scv : Ref sig .scVector)).slice _).set = _
  rw [View.set_slice_whole]
  exact set_unit_eq_piece (wid L) 1 (off26_eq L)

theorem oSet2_eq : oSet2 L = piece (wid L, 2) := by
  show (((Memref.whole main_v5_scv : Memref sig .scVector .hbm S8x64x4096 .f32).view.slice
      (Rect.unit (s := S8x64x4096) (k1_off49 L) S1x16x1024.size (k1_off49_inb L))).reshape S16x1024 squeezes_S1x16x1024_S16x1024.numel_eq).set = _
  rw [View.set_reshape]
  show ((View.whole (main_v5_scv : Ref sig .scVector)).slice _).set = _
  rw [View.set_slice_whole]
  exact set_unit_eq_piece (wid L) 2 (off49_eq L)

theorem oSet3_eq : oSet3 L = piece (wid L, 3) := by
  show (((Memref.whole main_v5_scv : Memref sig .scVector .hbm S8x64x4096 .f32).view.slice
      (Rect.unit (s := S8x64x4096) (k1_off72 L) S1x16x1024.size (k1_off72_inb L))).reshape S16x1024 squeezes_S1x16x1024_S16x1024.numel_eq).set = _
  rw [View.set_reshape]
  show ((View.whole (main_v5_scv : Ref sig .scVector)).slice _).set = _
  rw [View.set_slice_whole]
  exact set_unit_eq_piece (wid L) 3 (off72_eq L)

end Pieces

/-! ## The call's operands dealt to the 32 tiles, and gathered again -/

theorem nCore0 : (K (F := F)).nCore 0 = 2 := rfl
theorem nSub0 : (K (F := F)).nSub 0 = 16 := rfl

/-- A family over the tiles that is a product of four families is the product of the four. -/
theorem bigSep_tiles_sep4 (A B C O : Fin 2 → Fin 16 → sProp 𝕄) :
    (bigSep Finset.univ fun c : Fin 2 => bigSep Finset.univ fun i : Fin 16 => iprop(A c i ∗ B c i ∗ C c i ∗ O c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => C c i)
        ∗ (bigSep Finset.univ fun c : Fin 2 => bigSep Finset.univ fun i : Fin 16 => O c i)) := by
  simp only [bigSep_sep']

section Deal

variable (d : Dev nD) (fs : Buf (Elt F) (srcLoc d)) (fi : Buf (Elt F) (idxLoc d)) (fc : Buf (Elt F) (cepLoc d))

/-- What a tile takes, its shares and pieces spelt through the tile's number. -/
theorem go1_eq (c : Fin 2) (i : Fin 16) :
    (go1 d (coords1 (F := F) c i) fs fi fc : sProp 𝕄)
      = iprop((srcLoc d ↦{Transfers.shareTok fullShare 32 (tileNo c i)} fs) ∗ (idxLoc d ↦{Transfers.shareTok fullShare 32 (tileNo c i)} fi)
        ∗ (cepLoc d ↦{Transfers.shareTok fullShare 32 (tileNo c i)} fc)
        ∗ ((∃ f, outLoc d ↦[piece (tileNo c i, 0)]{fullShare} f) ∗ (∃ f, outLoc d ↦[piece (tileNo c i, 1)]{fullShare} f)
          ∗ (∃ f, outLoc d ↦[piece (tileNo c i, 2)]{fullShare} f) ∗ (∃ f, outLoc d ↦[piece (tileNo c i, 3)]{fullShare} f))) := by
  unfold go1
  rw [oSet0_eq, oSet1_eq, oSet2_eq, oSet3_eq]
  rfl

/-- THE SPLIT: the three arrays the tiles read and the output array, dealt to the 2 × 16 tiles; the read arrays'
    remainders are kept. -/
theorem split0 :
    (iprop((srcLoc d ↦{fullShare} fs) ∗ (idxLoc d ↦{fullShare} fi) ∗ (cepLoc d ↦{fullShare} fc) ∗ (∃ f, outLoc d ↦{fullShare} f)) : sProp 𝕄)
      ⊢ iprop((bigSep Finset.univ fun c : Fin ((K (F := F)).nCore 0) => bigSep Finset.univ fun i : Fin ((K (F := F)).nSub 0) =>
            go1 d (coords1 c i) fs fi fc)
          ∗ (srcLoc d ↦{Transfers.shareDrop fullShare 32} fs) ∗ (idxLoc d ↦{Transfers.shareDrop fullShare 32} fi)
          ∗ (cepLoc d ↦{Transfers.shareDrop fullShare 32} fc)) := by
  show _ ⊢ iprop((bigSep (Finset.univ : Finset (Fin 2)) fun c => bigSep (Finset.univ : Finset (Fin 16)) fun i =>
            go1 d (coords1 (F := F) c i) fs fi fc) ∗ _)
  rw [BI.bigSep_congr (fun c _ => BI.bigSep_congr (fun i _ => go1_eq d fs fi fc c i)), bigSep_tiles_sep4]
  iintro ⟨Hs, Hi, Hc, Ho⟩
  ihave Hs' := reads_deal $$ Hs
  ihave Hi' := reads_deal $$ Hi
  ihave Hc' := reads_deal $$ Hc
  ihave Ho' := (out_deal_ex (ℓ := outLoc d) (q := fullShare) piece pieces_disjoint pieces_cover) $$ Ho
  icases Hs' with ⟨Hsd, Hst⟩
  icases Hi' with ⟨Hid, Hit⟩
  icases Hc' with ⟨Hcd, Hct⟩
  isplitl [Hst Hit Hct Ho']
  · isplitl [Hst]; · iexact Hst
    isplitl [Hit]; · iexact Hit
    isplitl [Hct]; · iexact Hct
    iexact Ho'
  isplitl [Hsd]; · iexact Hsd
  isplitl [Hid]; · iexact Hid
  iexact Hcd

variable [FloatOps F]

/-- What a tile gives back, spelt through the tile's number. -/
theorem td1_eq (c : Fin 2) (i : Fin 16) :
    (td1 d (coords1 (F := F) c i) fs fi fc : sProp 𝕄)
      = iprop((srcLoc d ↦{Transfers.shareTok fullShare 32 (tileNo c i)} fs) ∗ (idxLoc d ↦{Transfers.shareTok fullShare 32 (tileNo c i)} fi)
        ∗ (cepLoc d ↦{Transfers.shareTok fullShare 32 (tileNo c i)} fc)
        ∗ ((outLoc d ↦[piece (tileNo c i, 0)]{fullShare} gmaxLArr fs fi fc) ∗ (outLoc d ↦[piece (tileNo c i, 1)]{fullShare} gmaxLArr fs fi fc)
          ∗ (outLoc d ↦[piece (tileNo c i, 2)]{fullShare} gmaxLArr fs fi fc) ∗ (outLoc d ↦[piece (tileNo c i, 3)]{fullShare} gmaxLArr fs fi fc))) := by
  unfold td1
  rw [oSet0_eq, oSet1_eq, oSet2_eq, oSet3_eq]
  rfl

/-- THE JOIN: the remainders and what the 2 × 16 tiles give back are the three read arrays whole and the output array
    whole at the pooled and rectified array. -/
theorem join0 :
    (iprop(((srcLoc d ↦{Transfers.shareDrop fullShare 32} fs) ∗ (idxLoc d ↦{Transfers.shareDrop fullShare 32} fi)
          ∗ (cepLoc d ↦{Transfers.shareDrop fullShare 32} fc))
        ∗ (bigSep Finset.univ fun c : Fin ((K (F := F)).nCore 0) => bigSep Finset.univ fun i : Fin ((K (F := F)).nSub 0) =>
            td1 d (coords1 c i) fs fi fc)) : sProp 𝕄)
      ⊢ iprop((srcLoc d ↦{fullShare} fs) ∗ (idxLoc d ↦{fullShare} fi) ∗ (cepLoc d ↦{fullShare} fc)
          ∗ (outLoc d ↦{fullShare} gmaxLArr fs fi fc)) := by
  show iprop(_ ∗ (bigSep (Finset.univ : Finset (Fin 2)) fun c => bigSep (Finset.univ : Finset (Fin 16)) fun i =>
            td1 d (coords1 (F := F) c i) fs fi fc)) ⊢ _
  rw [BI.bigSep_congr (fun c _ => BI.bigSep_congr (fun i _ => td1_eq d fs fi fc c i)), bigSep_tiles_sep4]
  iintro ⟨⟨Hsd, Hid, Hcd⟩, Hst, Hit, Hct, Ho⟩
  isplitl [Hsd Hst]
  · iapply reads_gather; isplitl [Hsd]; · iexact Hsd
    iexact Hst
  isplitl [Hid Hit]
  · iapply reads_gather; isplitl [Hid]; · iexact Hid
    iexact Hit
  isplitl [Hcd Hct]
  · iapply reads_gather; isplitl [Hcd]; · iexact Hcd
    iexact Hct
  iapply (out_gather (ℓ := outLoc d) (q := fullShare) piece pieces_disjoint pieces_cover); iexact Ho

end Deal

/-! ## The call -/

section Call

variable [FloatOps F]

/-- An unscoped array of the TensorCore is among the arrays @main's run accounts for. -/
theorem mem_Sall' (b : Ref sig .tc) (h : (dr b).isScoped = false) : dr b ∈ Sall :=
  Finset.mem_filter.2 ⟨StableHlo.devRef_mem_tcRefs b, by simp [h]⟩

/-- The four arrays the call touches. -/
abbrev S4 : Finset (DevRef τ sig) := {dr main_v4, dr main_v0, dr main_v3_1, dr main_v5}

theorem S4_sub : S4 ⊆ Sall := by
  intro b hb
  simp only [S4, Finset.mem_insert, Finset.mem_singleton] at hb
  rcases hb with rfl | rfl | rfl | rfl
  · exact mem_Sall' main_v4 rfl
  · exact mem_Sall' main_v0 rfl
  · exact mem_Sall' main_v3_1 rfl
  · exact mem_Sall' main_v5 rfl

/-- The four arrays held at a valuation, one by one. -/
theorem held_S4 (d : Dev nD) (W : Valuation τ sig (Elt F)) :
    (held (T d) S4 W : sProp 𝕄) = iprop((srcLoc d ↦{fullShare} W (dr main_v4)) ∗ (idxLoc d ↦{fullShare} W (dr main_v0))
      ∗ (cepLoc d ↦{fullShare} W (dr main_v3_1)) ∗ (outLoc d ↦{fullShare} W (dr main_v5))) := by
  unfold held
  rw [SparseCore.bigSep_insert' (by decide), SparseCore.bigSep_insert' (by decide), SparseCore.bigSep_insert' (by decide),
    bigSep_singleton]

/-- THE FIRST SPARSECORE CALL AS @main SEES IT: its three operands lent to the tiles and returned, its result array
    rewritten to the pooled and rectified array, the handshakes one round on. -/
theorem callStep0 (R : Regions F) (hR : R.gmaxL = gmaxLArr) (m : (ℓ : Loc nD τ sig) → Buf (Elt F) ℓ) (d : Dev nD) :
    CallStep (P R m) 0 d (W3 R (launchContents m d)) (W4 R (launchContents m d)) := by
  intro κ Φ
  rw [held_sub_split (T d) S4_sub (W3 R (launchContents m d)), held_sub_split (T d) S4_sub (W4 R (launchContents m d)),
    held_S4, held_S4]
  have hrest : (held (T d) (Sall \ S4) (W4 R (launchContents m d)) : sProp 𝕄) = held (T d) (Sall \ S4) (W3 R (launchContents m d)) :=
    held_congr (T d) fun b hb => by
      unfold W4
      exact Function.update_of_ne (fun h => (Finset.mem_sdiff.mp hb).2 (by rw [h]; simp [S4])) _ _
  have e0 : W4 R (launchContents m d) (dr main_v4) = W3 R (launchContents m d) (dr main_v4) := by
    unfold W4; exact Function.update_of_ne (by decide) _ _
  have e1 : W4 R (launchContents m d) (dr main_v0) = W3 R (launchContents m d) (dr main_v0) := by
    unfold W4; exact Function.update_of_ne (by decide) _ _
  have e2 : W4 R (launchContents m d) (dr main_v3_1) = W3 R (launchContents m d) (dr main_v3_1) := by
    unfold W4; exact Function.update_of_ne (by decide) _ _
  have e3 : W4 R (launchContents m d) (dr main_v5)
      = gmaxLArr (W3 R (launchContents m d) (dr main_v4)) (W3 R (launchContents m d) (dr main_v0)) (W3 R (launchContents m d) (dr main_v3_1)) := by
    unfold W4; rw [Function.update_self, hR]
  rw [hrest, e0, e1, e2, e3]
  iintro ⟨#Hctx, Hst, ⟨⟨Hs, Hi, Hc, Ho⟩, Hrest⟩, Hk⟩
  ihave Hsp := (split0 d _ _ _) $$ [Hs Hi Hc Ho]
  · isplitl [Hs]; · iexact Hs
    isplitl [Hi]; · iexact Hi
    isplitl [Hc]; · iexact Hc
    iexists _; iexact Ho
  icases Hsp with ⟨Hgo, Hrem⟩
  iapply ((K (F := F)).wp_run (D (F := F)) 𝒱 (EH := EH) (P := P R m) κ d 0) $$ [Hst Hgo Hrem Hrest Hk]
  isplitr; · iexact Hctx
  isplitl [Hst]; · iexact Hst
  isplitl [Hgo]; · iexact Hgo
  iintro ⟨Hst, Hdn⟩
  ihave Hj := (join0 d _ _ _) $$ [Hrem Hdn]
  · isplitl [Hrem]; · iexact Hrem
    iexact Hdn
  iapply Hk
  isplitl [Hst]; · iexact Hst
  isplitl [Hj]; · iexact Hj
  iexact Hrest

end Call

end Cert.Proof.KB.T1

end
-- ==== Proof.KBOff2.lean ====
/-
  The four output pieces of a tile of the second SparseCore call, in closed form. The tile numbered w among the 32
  (twice its subcore's number plus its core's) writes, of the pooled array of 8 clouds by 64 channels by 4096 points,
  cloud w / 4, the sixteen channels from 16 * (w % 4), and the four quarters of the points in turn: the offsets the
  program computes from the tile's coordinates are these.
-/
import proofs.«209975_g17849884082380_cont_8to1_1483_11_alg».proof.Proof.KBTile2Defs

namespace Cert.Proof.KB

open Cert.Kernel Cert.Kernel.Gen
open Idealize.ShloMosaic

/-- The first piece: points 0 to 1023. -/
theorem off24_eq : ∀ L : grid2.Coords, k2_off24 L = ![(wid L).val / 4, (wid L).val % 4 * 16, 0] := by decide +kernel
/-- The second piece: points 1024 to 2047. -/
theorem off47_eq : ∀ L : grid2.Coords, k2_off47 L = ![(wid L).val / 4, (wid L).val % 4 * 16, 1024] := by decide +kernel
/-- The third piece: points 2048 to 3071. -/
theorem off70_eq : ∀ L : grid2.Coords, k2_off70 L = ![(wid L).val / 4, (wid L).val % 4 * 16, 2048] := by decide +kernel
/-- The fourth piece: points 3072 to 4095. -/
theorem off93_eq : ∀ L : grid2.Coords, k2_off93 L = ![(wid L).val / 4, (wid L).val % 4 * 16, 3072] := by decide +kernel

end Cert.Proof.KB
-- ==== Proof.KBCall1.lean ====
/-
  The second SparseCore call as @main on the TensorCore sees it. The call's two operands (the flattened source and the
  neighbour lists) are dealt to the 2 × 16 tiles as read shares, the output array as its 128 pieces, four to each tile;
  the SparseCores are started and awaited; what the tiles give back is gathered: the two operands whole again, and the
  output array whole at the pooled array. In terms of the arrays @main holds, the call rewrites its result array and
  nothing else, and moves the handshakes one round on.
-/
import proofs.«209975_g17849884082380_cont_8to1_1483_11_alg».proof.Proof.KBP
import proofs.«209975_g17849884082380_cont_8to1_1483_11_alg».proof.Proof.KBOff2
import proofs.«209975_g17849884082380_cont_8to1_1483_11_alg».proof.Proof.KBOutPieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr launchContents)

variable {F : FTy → Type}

local notation "𝕄" => MT nD τ sig (HIx 3) (Elt F) ℕ UU ℕ

/-! ## A tile's four output pieces are pieces of the partition -/

section Pieces

variable (L : grid2.Coords)

theorem oSet0_eq : oSet0 L = piece (wid L, 0) := by
  show (((Memref.whole main_v7_scv : Memref sig .scVector .hbm S8x64x4096 .f32).view.slice
      (Rect.unit (s := S8x64x4096) (k2_off24 L) S1x16x1024.size (k2_off24_inb L))).reshape S16x1024 squeezes_S1x16x1024_S16x1024.numel_eq).set = _
  rw [View.set_reshape]
  show ((View.whole (main_v7_scv : Ref sig .scVector)).slice _).set = _
  rw [View.set_slice_whole]
  exact set_unit_eq_piece (wid L) 0 (off24_eq L)

theorem oSet1_eq : oSet1 L = piece (wid L, 1) := by
  show (((Memref.whole main_v7_scv : Memref sig .scVector .hbm S8x64x4096 .f32).view.slice
      (Rect.unit (s := S8x64x4096) (k2_off47 L) S1x16x1024.size (k2_off47_inb L))).reshape S16x1024 squeezes_S1x16x1024_S16x1024.numel_eq).set = _
  rw [View.set_reshape]
  show ((View.whole (main_v7_scv : Ref sig .scVector)).slice _).set = _
  rw [View.set_slice_whole]
  exact set_unit_eq_piece (wid L) 1 (off47_eq L)

theorem oSet2_eq : oSet2 L = piece (wid L, 2) := by
  show (((Memref.whole main_v7_scv : Memref sig .scVector .hbm S8x64x4096 .f32).view.slice
      (Rect.unit (s := S8x64x4096) (k2_off70 L) S1x16x1024.size (k2_off70_inb L))).reshape S16x1024 squeezes_S1x16x1024_S16x1024.numel_eq).set = _
  rw [View.set_reshape]
  show ((View.whole (main_v7_scv : Ref sig .scVector)).slice _).set = _
  rw [View.set_slice_whole]
  exact set_unit_eq_piece (wid L) 2 (off70_eq L)

theorem oSet3_eq : oSet3 L = piece (wid L, 3) := by
  show (((Memref.whole main_v7_scv : Memref sig .scVector .hbm S8x64x4096 .f32).view.slice
      (Rect.unit (s := S8x64x4096) (k2_off93 L) S1x16x1024.size (k2_off93_inb L))).reshape S16x1024 squeezes_S1x16x1024_S16x1024.numel_eq).set = _
  rw [View.set_reshape]
  show ((View.whole (main_v7_scv : Ref sig .scVector)).slice _).set = _
  rw [View.set_slice_whole]
  exact set_unit_eq_piece (wid L) 3 (off93_eq L)

end Pieces

/-! ## The call's operands dealt to the 32 tiles, and gathered again -/

/-- A family over the tiles that is a product of three families is the product of the three. -/
theorem bigSep_tiles_sep3 (A B O : Fin 2 → Fin 16 → sProp 𝕄) :
    (bigSep Finset.univ fun c : Fin 2 => bigSep Finset.univ fun i : Fin 16 => iprop(A c i ∗ B c i ∗ O c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => O c i)) := by
  simp only [bigSep_sep']

section Deal

variable (d : Dev nD) (fs : Buf (Elt F) (srcLoc d)) (fi : Buf (Elt F) (idxLoc d))

/-- What a tile takes, its shares and pieces spelt through the tile's number. -/
theorem go2_eq (c : Fin 2) (i : Fin 16) :
    (go2 d (coords2 (F := F) c i) fs fi : sProp 𝕄)
      = iprop((srcLoc d ↦{Transfers.shareTok fullShare 32 (tileNo c i)} fs) ∗ (idxLoc d ↦{Transfers.shareTok fullShare 32 (tileNo c i)} fi)
        ∗ ((∃ f, outLoc d ↦[piece (tileNo c i, 0)]{fullShare} f) ∗ (∃ f, outLoc d ↦[piece (tileNo c i, 1)]{fullShare} f)
          ∗ (∃ f, outLoc d ↦[piece (tileNo c i, 2)]{fullShare} f) ∗ (∃ f, outLoc d ↦[piece (tileNo c i, 3)]{fullShare} f))) := by
  unfold go2
  rw [oSet0_eq, oSet1_eq, oSet2_eq, oSet3_eq]
  rfl

/-- THE SPLIT: the two arrays the tiles read and the output array, dealt to the 2 × 16 tiles; the read arrays'
    remainders are kept. -/
theorem split1 :
    (iprop((srcLoc d ↦{fullShare} fs) ∗ (idxLoc d ↦{fullShare} fi) ∗ (∃ f, outLoc d ↦{fullShare} f)) : sProp 𝕄)
      ⊢ iprop((bigSep Finset.univ fun c : Fin ((K (F := F)).nCore 1) => bigSep Finset.univ fun i : Fin ((K (F := F)).nSub 1) =>
            go2 d (coords2 c i) fs fi)
          ∗ (srcLoc d ↦{Transfers.shareDrop fullShare 32} fs) ∗ (idxLoc d ↦{Transfers.shareDrop fullShare 32} fi)) := by
  show _ ⊢ iprop((bigSep (Finset.univ : Finset (Fin 2)) fun c => bigSep (Finset.univ : Finset (Fin 16)) fun i =>
            go2 d (coords2 (F := F) c i) fs fi) ∗ _)
  rw [BI.bigSep_congr (fun c _ => BI.bigSep_congr (fun i _ => go2_eq d fs fi c i)), bigSep_tiles_sep3]
  iintro ⟨Hs, Hi, Ho⟩
  ihave Hs' := reads_deal $$ Hs
  ihave Hi' := reads_deal $$ Hi
  ihave Ho' := (out_deal_ex (ℓ := outLoc d) (q := fullShare) piece pieces_disjoint pieces_cover) $$ Ho
  icases Hs' with ⟨Hsd, Hst⟩
  icases Hi' with ⟨Hid, Hit⟩
  isplitl [Hst Hit Ho']
  · isplitl [Hst]; · iexact Hst
    isplitl [Hit]; · iexact Hit
    iexact Ho'
  isplitl [Hsd]; · iexact Hsd
  iexact Hid

variable [FloatOps F]

/-- What a tile gives back, spelt through the tile's number. -/
theorem td2_eq (c : Fin 2) (i : Fin 16) :
    (td2 d (coords2 (F := F) c i) fs fi : sProp 𝕄)
      = iprop((srcLoc d ↦{Transfers.shareTok fullShare 32 (tileNo c i)} fs) ∗ (idxLoc d ↦{Transfers.shareTok fullShare 32 (tileNo c i)} fi)
        ∗ ((outLoc d ↦[piece (tileNo c i, 0)]{fullShare} gmaxArr fs fi) ∗ (outLoc d ↦[piece (tileNo c i, 1)]{fullShare} gmaxArr fs fi)
          ∗ (outLoc d ↦[piece (tileNo c i, 2)]{fullShare} gmaxArr fs fi) ∗ (outLoc d ↦[piece (tileNo c i, 3)]{fullShare} gmaxArr fs fi))) := by
  unfold td2
  rw [oSet0_eq, oSet1_eq, oSet2_eq, oSet3_eq]
  rfl

/-- THE JOIN: the remainders and what the 2 × 16 tiles give back are the two read arrays whole and the output array
    whole at the pooled array. -/
theorem join1 :
    (iprop(((srcLoc d ↦{Transfers.shareDrop fullShare 32} fs) ∗ (idxLoc d ↦{Transfers.shareDrop fullShare 32} fi))
        ∗ (bigSep Finset.univ fun c : Fin ((K (F := F)).nCore 1) => bigSep Finset.univ fun i : Fin ((K (F := F)).nSub 1) =>
            td2 d (coords2 c i) fs fi)) : sProp 𝕄)
      ⊢ iprop((srcLoc d ↦{fullShare} fs) ∗ (idxLoc d ↦{fullShare} fi) ∗ (outLoc d ↦{fullShare} gmaxArr fs fi)) := by
  show iprop(_ ∗ (bigSep (Finset.univ : Finset (Fin 2)) fun c => bigSep (Finset.univ : Finset (Fin 16)) fun i =>
            td2 d (coords2 (F := F) c i) fs fi)) ⊢ _
  rw [BI.bigSep_congr (fun c _ => BI.bigSep_congr (fun i _ => td2_eq d fs fi c i)), bigSep_tiles_sep3]
  iintro ⟨⟨Hsd, Hid⟩, Hst, Hit, Ho⟩
  isplitl [Hsd Hst]
  · iapply reads_gather; isplitl [Hsd]; · iexact Hsd
    iexact Hst
  isplitl [Hid Hit]
  · iapply reads_gather; isplitl [Hid]; · iexact Hid
    iexact Hit
  iapply (out_gather (ℓ := outLoc d) (q := fullShare) piece pieces_disjoint pieces_cover); iexact Ho

end Deal

/-! ## The call -/

section Call

variable [FloatOps F]

/-- An unscoped array of the TensorCore is among the arrays @main's run accounts for. -/
theorem mem_Sall' (b : Ref sig .tc) (h : (dr b).isScoped = false) : dr b ∈ Sall :=
  Finset.mem_filter.2 ⟨StableHlo.devRef_mem_tcRefs b, by simp [h]⟩

/-- The three arrays the call touches. -/
abbrev S3 : Finset (DevRef τ sig) := {dr main_v6, dr main_v0, dr main_v7}

theorem S3_sub : S3 ⊆ Sall := by
  intro b hb
  simp only [S3, Finset.mem_insert, Finset.mem_singleton] at hb
  rcases hb with rfl | rfl | rfl
  · exact mem_Sall' main_v6 rfl
  · exact mem_Sall' main_v0 rfl
  · exact mem_Sall' main_v7 rfl

/-- The three arrays held at a valuation, one by one. -/
theorem held_S3 (d : Dev nD) (W : Valuation τ sig (Elt F)) :
    (held (T d) S3 W : sProp 𝕄) = iprop((srcLoc d ↦{fullShare} W (dr main_v6)) ∗ (idxLoc d ↦{fullShare} W (dr main_v0))
      ∗ (outLoc d ↦{fullShare} W (dr main_v7))) := by
  unfold held
  rw [SparseCore.bigSep_insert' (by decide), SparseCore.bigSep_insert' (by decide), bigSep_singleton]

/-- THE SECOND SPARSECORE CALL AS @main SEES IT: its two operands lent to the tiles and returned, its result array
    rewritten to the pooled array, the handshakes one round on. -/
theorem callStep1 (R : Regions F) (hR : R.gmaxP = gmaxArr) (m : (ℓ : Loc nD τ sig) → Buf (Elt F) ℓ) (d : Dev nD) :
    CallStep (P R m) 1 d (W5 R (launchContents m d)) (W6 R (launchContents m d)) := by
  intro κ Φ
  rw [held_sub_split (T d) S3_sub (W5 R (launchContents m d)), held_sub_split (T d) S3_sub (W6 R (launchContents m d)),
    held_S3, held_S3]
  have hrest : (held (T d) (Sall \ S3) (W6 R (launchContents m d)) : sProp 𝕄) = held (T d) (Sall \ S3) (W5 R (launchContents m d)) :=
    held_congr (T d) fun b hb => by
      unfold W6
      exact Function.update_of_ne (fun h => (Finset.mem_sdiff.mp hb).2 (by rw [h]; simp [S3])) _ _
  have e0 : W6 R (launchContents m d) (dr main_v6) = W5 R (launchContents m d) (dr main_v6) := by
    unfold W6; exact Function.update_of_ne (by decide) _ _
  have e1 : W6 R (launchContents m d) (dr main_v0) = W5 R (launchContents m d) (dr main_v0) := by
    unfold W6; exact Function.update_of_ne (by decide) _ _
  have e2 : W6 R (launchContents m d) (dr main_v7)
      = gmaxArr (W5 R (launchContents m d) (dr main_v6)) (W5 R (launchContents m d) (dr main_v0)) := by
    unfold W6; rw [Function.update_self, hR]
  rw [hrest, e0, e1, e2]
  iintro ⟨#Hctx, Hst, ⟨⟨Hs, Hi, Ho⟩, Hrest⟩, Hk⟩
  ihave Hsp := (split1 d _ _) $$ [Hs Hi Ho]
  · isplitl [Hs]; · iexact Hs
    isplitl [Hi]; · iexact Hi
    iexists _; iexact Ho
  icases Hsp with ⟨Hgo, Hrem⟩
  iapply ((K (F := F)).wp_run (D (F := F)) 𝒱 (EH := EH) (P := P R m) κ d 1) $$ [Hst Hgo Hrem Hrest Hk]
  isplitr; · iexact Hctx
  isplitl [Hst]; · iexact Hst
  isplitl [Hgo]; · iexact Hgo
  iintro ⟨Hst, Hdn⟩
  ihave Hj := (join1 d _ _) $$ [Hrem Hdn]
  · isplitl [Hrem]; · iexact Hrem
    iexact Hdn
  iapply Hk
  isplitl [Hst]; · iexact Hst
  isplitl [Hj]; · iexact Hj
  iexact Hrest

end Call

end Cert.Proof.KB

end
-- ==== Proof.KBOff4.lean ====
/-
  The four output pieces of a tile of the third SparseCore call, in closed form. The tile numbered w among the 32
  (twice its subcore's number plus its core's) writes, of the pooled array of 8 clouds by 64 channels by 4096 points,
  cloud w / 4, the sixteen channels from 16 * (w % 4), and the four quarters of the points in turn: the offsets the
  program computes from the tile's coordinates are these.
-/
import proofs.«209975_g17849884082380_cont_8to1_1483_11_alg».proof.Proof.KBTile4Defs

namespace Cert.Proof.KB.T4

open Cert.Kernel Cert.Kernel.Gen
open Idealize.ShloMosaic

/-- The first piece: points 0 to 1023. -/
theorem off24_eq : ∀ L : grid4.Coords, k4_off24 L = ![(wid L).val / 4, (wid L).val % 4 * 16, 0] := by decide +kernel
/-- The second piece: points 1024 to 2047. -/
theorem off47_eq : ∀ L : grid4.Coords, k4_off47 L = ![(wid L).val / 4, (wid L).val % 4 * 16, 1024] := by decide +kernel
/-- The third piece: points 2048 to 3071. -/
theorem off70_eq : ∀ L : grid4.Coords, k4_off70 L = ![(wid L).val / 4, (wid L).val % 4 * 16, 2048] := by decide +kernel
/-- The fourth piece: points 3072 to 4095. -/
theorem off93_eq : ∀ L : grid4.Coords, k4_off93 L = ![(wid L).val / 4, (wid L).val % 4 * 16, 3072] := by decide +kernel

end Cert.Proof.KB.T4
-- ==== Proof.KBCall2.lean ====
/-
  The third SparseCore call as @main on the TensorCore sees it. The call's two operands (the flattened source and the
  neighbour lists) are dealt to the 2 × 16 tiles as read shares, the output array as its 128 pieces, four to each
  tile; the SparseCores are started and awaited; what the tiles give back is gathered: the two operands whole again,
  and the output array whole at the pooled array. In terms of the arrays @main holds, the call rewrites its result
  array and nothing else, and moves the handshakes one round on.
-/
import proofs.«209975_g17849884082380_cont_8to1_1483_11_alg».proof.Proof.KBP
import proofs.«209975_g17849884082380_cont_8to1_1483_11_alg».proof.Proof.KBOff4
import proofs.«209975_g17849884082380_cont_8to1_1483_11_alg».proof.Proof.KBOutPieces

noncomputable section

namespace Cert.Proof.KB.T4

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr launchContents)

variable {F : FTy → Type}

local notation "𝕄" => MT nD τ sig (HIx 3) (Elt F) ℕ UU ℕ

/-! ## A tile's four output pieces are pieces of the partition -/

section Pieces

variable (L : grid4.Coords)

theorem oSet0_eq : oSet0 L = piece (wid L, 0) := by
  show (((Memref.whole main_v11_scv : Memref sig .scVector .hbm S8x64x4096 .f32).view.slice
      (Rect.unit (s := S8x64x4096) (k4_off24 L) S1x16x1024.size (k4_off24_inb L))).reshape S16x1024 squeezes_S1x16x1024_S16x1024.numel_eq).set = _
  rw [View.set_reshape]
  show ((View.whole (main_v11_scv : Ref sig .scVector)).slice _).set = _
  rw [View.set_slice_whole]
  exact set_unit_eq_piece (wid L) 0 (off24_eq L)

theorem oSet1_eq : oSet1 L = piece (wid L, 1) := by
  show (((Memref.whole main_v11_scv : Memref sig .scVector .hbm S8x64x4096 .f32).view.slice
      (Rect.unit (s := S8x64x4096) (k4_off47 L) S1x16x1024.size (k4_off47_inb L))).reshape S16x1024 squeezes_S1x16x1024_S16x1024.numel_eq).set = _
  rw [View.set_reshape]
  show ((View.whole (main_v11_scv : Ref sig .scVector)).slice _).set = _
  rw [View.set_slice_whole]
  exact set_unit_eq_piece (wid L) 1 (off47_eq L)

theorem oSet2_eq : oSet2 L = piece (wid L, 2) := by
  show (((Memref.whole main_v11_scv : Memref sig .scVector .hbm S8x64x4096 .f32).view.slice
      (Rect.unit (s := S8x64x4096) (k4_off70 L) S1x16x1024.size (k4_off70_inb L))).reshape S16x1024 squeezes_S1x16x1024_S16x1024.numel_eq).set = _
  rw [View.set_reshape]
  show ((View.whole (main_v11_scv : Ref sig .scVector)).slice _).set = _
  rw [View.set_slice_whole]
  exact set_unit_eq_piece (wid L) 2 (off70_eq L)

theorem oSet3_eq : oSet3 L = piece (wid L, 3) := by
  show (((Memref.whole main_v11_scv : Memref sig .scVector .hbm S8x64x4096 .f32).view.slice
      (Rect.unit (s := S8x64x4096) (k4_off93 L) S1x16x1024.size (k4_off93_inb L))).reshape S16x1024 squeezes_S1x16x1024_S16x1024.numel_eq).set = _
  rw [View.set_reshape]
  show ((View.whole (main_v11_scv : Ref sig .scVector)).slice _).set = _
  rw [View.set_slice_whole]
  exact set_unit_eq_piece (wid L) 3 (off93_eq L)

end Pieces

/-! ## The call's operands dealt to the 32 tiles, and gathered again -/

/-- A family over the tiles that is a product of three families is the product of the three. -/
theorem bigSep_tiles_sep3 (A B O : Fin 2 → Fin 16 → sProp 𝕄) :
    (bigSep Finset.univ fun c : Fin 2 => bigSep Finset.univ fun i : Fin 16 => iprop(A c i ∗ B c i ∗ O c i))
      = iprop((bigSep Finset.univ fun c : Fin 2 => bigSep Finset.univ fun i : Fin 16 => A c i)
        ∗ (bigSep Finset.univ fun c : Fin 2 => bigSep Finset.univ fun i : Fin 16 => B c i)
        ∗ (bigSep Finset.univ fun c : Fin 2 => bigSep Finset.univ fun i : Fin 16 => O c i)) := by
  simp only [bigSep_sep']

section Deal

variable (d : Dev nD) (fs : Buf (Elt F) (srcLoc d)) (fi : Buf (Elt F) (idxLoc d))

/-- What a tile takes, its shares and pieces spelt through the tile's number. -/
theorem go4_eq (c : Fin 2) (i : Fin 16) :
    (go4 d (coords4 (F := F) c i) fs fi : sProp 𝕄)
      = iprop((srcLoc d ↦{Transfers.shareTok fullShare 32 (tileNo c i)} fs) ∗ (idxLoc d ↦{Transfers.shareTok fullShare 32 (tileNo c i)} fi)
        ∗ ((∃ f, outLoc d ↦[piece (tileNo c i, 0)]{fullShare} f) ∗ (∃ f, outLoc d ↦[piece (tileNo c i, 1)]{fullShare} f)
          ∗ (∃ f, outLoc d ↦[piece (tileNo c i, 2)]{fullShare} f) ∗ (∃ f, outLoc d ↦[piece (tileNo c i, 3)]{fullShare} f))) := by
  unfold go4
  rw [oSet0_eq, oSet1_eq, oSet2_eq, oSet3_eq]
  rfl

/-- THE SPLIT: the two arrays the tiles read and the output array, dealt to the 2 × 16 tiles; the read arrays'
    remainders are kept. -/
theorem split2 :
    (iprop((srcLoc d ↦{fullShare} fs) ∗ (idxLoc d ↦{fullShare} fi) ∗ (∃ f, outLoc d ↦{fullShare} f)) : sProp 𝕄)
      ⊢ iprop((bigSep Finset.univ fun c : Fin ((K (F := F)).nCore 2) => bigSep Finset.univ fun i : Fin ((K (F := F)).nSub 2) =>
            go4 d (coords4 c i) fs fi)
          ∗ (srcLoc d ↦{Transfers.shareDrop fullShare 32} fs) ∗ (idxLoc d ↦{Transfers.shareDrop fullShare 32} fi)) := by
  show _ ⊢ iprop((bigSep (Finset.univ : Finset (Fin 2)) fun c => bigSep (Finset.univ : Finset (Fin 16)) fun i =>
            go4 d (coords4 (F := F) c i) fs fi) ∗ _)
  rw [BI.bigSep_congr (fun c _ => BI.bigSep_congr (fun i _ => go4_eq d fs fi c i)), bigSep_tiles_sep3]
  iintro ⟨Hs, Hi, Ho⟩
  ihave Hs' := reads_deal $$ Hs
  ihave Hi' := reads_deal $$ Hi
  ihave Ho' := (out_deal_ex (ℓ := outLoc d) (q := fullShare) piece pieces_disjoint pieces_cover) $$ Ho
  icases Hs' with ⟨Hsd, Hst⟩
  icases Hi' with ⟨Hid, Hit⟩
  isplitl [Hst Hit Ho']
  · isplitl [Hst]; · iexact Hst
    isplitl [Hit]; · iexact Hit
    iexact Ho'
  isplitl [Hsd]; · iexact Hsd
  iexact Hid

variable [FloatOps F]

/-- What a tile gives back, spelt through the tile's number. -/
theorem td4_eq (c : Fin 2) (i : Fin 16) :
    (td4 d (coords4 (F := F) c i) fs fi : sProp 𝕄)
      = iprop((srcLoc d ↦{Transfers.shareTok fullShare 32 (tileNo c i)} fs) ∗ (idxLoc d ↦{Transfers.shareTok fullShare 32 (tileNo c i)} fi)
        ∗ ((outLoc d ↦[piece (tileNo c i, 0)]{fullShare} gmaxArr fs fi) ∗ (outLoc d ↦[piece (tileNo c i, 1)]{fullShare} gmaxArr fs fi)
          ∗ (outLoc d ↦[piece (tileNo c i, 2)]{fullShare} gmaxArr fs fi) ∗ (outLoc d ↦[piece (tileNo c i, 3)]{fullShare} gmaxArr fs fi))) := by
  unfold td4
  rw [oSet0_eq, oSet1_eq, oSet2_eq, oSet3_eq]
  rfl

/-- THE JOIN: the remainders and what the 2 × 16 tiles give back are the two read arrays whole and the output array
    whole at the pooled array. -/
theorem join2 :
    (iprop(((srcLoc d ↦{Transfers.shareDrop fullShare 32} fs) ∗ (idxLoc d ↦{Transfers.shareDrop fullShare 32} fi))
        ∗ (bigSep Finset.univ fun c : Fin ((K (F := F)).nCore 2) => bigSep Finset.univ fun i : Fin ((K (F := F)).nSub 2) =>
            td4 d (coords4 c i) fs fi)) : sProp 𝕄)
      ⊢ iprop((srcLoc d ↦{fullShare} fs) ∗ (idxLoc d ↦{fullShare} fi) ∗ (outLoc d ↦{fullShare} gmaxArr fs fi)) := by
  show iprop(_ ∗ (bigSep (Finset.univ : Finset (Fin 2)) fun c => bigSep (Finset.univ : Finset (Fin 16)) fun i =>
            td4 d (coords4 (F := F) c i) fs fi)) ⊢ _
  rw [BI.bigSep_congr (fun c _ => BI.bigSep_congr (fun i _ => td4_eq d fs fi c i)), bigSep_tiles_sep3]
  iintro ⟨⟨Hsd, Hid⟩, Hst, Hit, Ho⟩
  isplitl [Hsd Hst]
  · iapply reads_gather; isplitl [Hsd]; · iexact Hsd
    iexact Hst
  isplitl [Hid Hit]
  · iapply reads_gather; isplitl [Hid]; · iexact Hid
    iexact Hit
  iapply (out_gather (ℓ := outLoc d) (q := fullShare) piece pieces_disjoint pieces_cover); iexact Ho

end Deal

/-! ## The call -/

section Call

variable [FloatOps F]

/-- An unscoped array of the TensorCore is among the arrays @main's run accounts for. -/
theorem mem_Sall' (b : Ref sig .tc) (h : (dr b).isScoped = false) : dr b ∈ Sall :=
  Finset.mem_filter.2 ⟨StableHlo.devRef_mem_tcRefs b, by simp [h]⟩

/-- The three arrays the call touches. -/
abbrev S3 : Finset (DevRef τ sig) := {dr main_v10, dr main_v0, dr main_v11}

theorem S3_sub : S3 ⊆ Sall := by
  intro b hb
  simp only [S3, Finset.mem_insert, Finset.mem_singleton] at hb
  rcases hb with rfl | rfl | rfl
  · exact mem_Sall' main_v10 rfl
  · exact mem_Sall' main_v0 rfl
  · exact mem_Sall' main_v11 rfl

/-- The three arrays held at a valuation, one by one. -/
theorem held_S3 (d : Dev nD) (W : Valuation τ sig (Elt F)) :
    (held (T d) S3 W : sProp 𝕄) = iprop((srcLoc d ↦{fullShare} W (dr main_v10)) ∗ (idxLoc d ↦{fullShare} W (dr main_v0))
      ∗ (outLoc d ↦{fullShare} W (dr main_v11))) := by
  unfold held
  rw [SparseCore.bigSep_insert' (by decide), SparseCore.bigSep_insert' (by decide), bigSep_singleton]

/-- THE THIRD SPARSECORE CALL AS @main SEES IT: its two operands lent to the tiles and returned, its result array
    rewritten to the pooled array, the handshakes one round on. -/
theorem callStep2 (R : Regions F) (hR : R.gmaxP = gmaxArr) (m : (ℓ : Loc nD τ sig) → Buf (Elt F) ℓ) (d : Dev nD) :
    CallStep (P R m) 2 d (W9 R (launchContents m d)) (W10 R (launchContents m d)) := by
  intro κ Φ
  rw [held_sub_split (T d) S3_sub (W9 R (launchContents m d)), held_sub_split (T d) S3_sub (W10 R (launchContents m d)),
    held_S3, held_S3]
  have hrest : (held (T d) (Sall \ S3) (W10 R (launchContents m d)) : sProp 𝕄) = held (T d) (Sall \ S3) (W9 R (launchContents m d)) :=
    held_congr (T d) fun b hb => by
      unfold W10
      exact Function.update_of_ne (fun h => (Finset.mem_sdiff.mp hb).2 (by rw [h]; simp [S3])) _ _
  have e0 : W10 R (launchContents m d) (dr main_v10) = W9 R (launchContents m d) (dr main_v10) := by
    unfold W10; exact Function.update_of_ne (by decide) _ _
  have e1 : W10 R (launchContents m d) (dr main_v0) = W9 R (launchContents m d) (dr main_v0) := by
    unfold W10; exact Function.update_of_ne (by decide) _ _
  have e2 : W10 R (launchContents m d) (dr main_v11)
      = gmaxArr (W9 R (launchContents m d) (dr main_v10)) (W9 R (launchContents m d) (dr main_v0)) := by
    unfold W10; rw [Function.update_self, hR]
  rw [hrest, e0, e1, e2]
  iintro ⟨#Hctx, Hst, ⟨⟨Hs, Hi, Ho⟩, Hrest⟩, Hk⟩
  ihave Hsp := (split2 d _ _) $$ [Hs Hi Ho]
  · isplitl [Hs]; · iexact Hs
    isplitl [Hi]; · iexact Hi
    iexists _; iexact Ho
  icases Hsp with ⟨Hgo, Hrem⟩
  iapply ((K (F := F)).wp_run (D (F := F)) 𝒱 (EH := EH) (P := P R m) κ d 2) $$ [Hst Hgo Hrem Hrest Hk]
  isplitr; · iexact Hctx
  isplitl [Hst]; · iexact Hst
  isplitl [Hgo]; · iexact Hgo
  iintro ⟨Hst, Hdn⟩
  ihave Hj := (join2 d _ _) $$ [Hrem Hdn]
  · isplitl [Hrem]; · iexact Hrem
    iexact Hdn
  iapply Hk
  isplitl [Hst]; · iexact Hst
  isplitl [Hj]; · iexact Hj
  iexact Hrest

end Call

end Cert.Proof.KB.T4

end
-- ==== Proof.KBTile1Val.lean ====
/-
  The first SparseCore call's tile, the value side (pure: no program). What one chunk's loops leave in the output scratch,
  as a function of the three scratches' contents; that it is the pooled and rectified array at the tile's piece when the
  scratches hold the tile's slices of the source, the neighbour lists and the centre term; and what those slices read.
-/
import proofs.«209975_g17849884082380_cont_8to1_1483_11_alg».proof.Proof.KBTile1Defs
import proofs.«209975_g17849884082380_cont_8to1_1483_11_alg».proof.Proof.KBOff1

noncomputable section

namespace Cert.Proof.KB.T1

open Cert.Kernel Cert.Kernel.Gen
open Cert.Proof.KB
open Idealize.ShloMosaic
open Idealize.ShloMosaic.ValueIdx

variable {F : FTy → Type}

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)

/-- The tile's cloud and its group of sixteen channels. -/
def bT (L : grid1.Coords) : Fin 8 := ⟨(wid L).val / 4, by have := (wid L).isLt; omega⟩
def gT (L : grid1.Coords) : Fin 4 := ⟨(wid L).val % 4, by omega⟩

/-- Word `n` of the slab (reduced into it). -/
def sIx (n : ℕ) : S65536.Idx := ix1 ⟨n % 65536, Nat.mod_lt _ (by norm_num)⟩

section Value
variable [FloatOps F]

/-- What one chunk's loops leave at an index of the output scratch: the rectifier of the sum of the maximum, folded from
    minus infinity over the 20 neighbours in order, of the slab's row at the neighbours the index scratch names, and the
    centre scratch's word. -/
def valB (fsl : Vec F S65536 .f32) (fib : IVec S20x1024 32) (f3 : Vec F S16x1024 .f32) (y : S16x1024.Idx) : F .f32 :=
  lreluF (FloatOps.addf
    ((List.finRange 20).foldl
      (fun (acc : F .f32) (k : Fin 20) => FloatOps.maximumf acc (fsl (sIx ((fib (ix2 k (y 1))).toNat + (y 0).val * 4096))))
      (Scalar.ofBits .f32 0xFF800000#32))
    (f3 y))

/-- With the slab at the tile's sixteen channels of the source, the index scratch at a quarter of the tile's cloud's
    neighbour lists and the centre scratch at that quarter of the centre term's piece, `valB` is the pooled and rectified
    array at the tile's piece. -/
theorem valB_spec (b : Fin 8) (cg ch : Fin 4)
    (fs : Vec F S8x262144 .f32) (fi : IVec S8x20x4096 32) (fc : Vec F S8x64x4096 .f32)
    (fsl : Vec F S65536 .f32) (fib : IVec S20x1024 32) (f3 : Vec F S16x1024 .f32)
    (hidx : ∀ j, (fi j).toNat < 4096)
    (hsl : ∀ w : Fin 65536, fsl (ix1 w) = fs (ix2 b ⟨cg.val * 65536 + w.val, by have := cg.isLt; have := w.isLt; omega⟩))
    (hib : ∀ (k : Fin 20) (x : Fin 1024), fib (ix2 k x) = fi (ix3 b k ⟨ch.val * 1024 + x.val, by have := ch.isLt; have := x.isLt; omega⟩))
    (h3 : ∀ (r : Fin 16) (x : Fin 1024), f3 (ix2 r x)
      = fc (ix3 b ⟨cg.val * 16 + r.val, by have := cg.isLt; have := r.isLt; omega⟩ ⟨ch.val * 1024 + x.val, by have := ch.isLt; have := x.isLt; omega⟩)) :
    ∀ (r : Fin 16) (x : Fin 1024), valB fsl fib f3 (ix2 r x)
      = gmaxLArr fs fi fc (ix3 b ⟨cg.val * 16 + r.val, by have := cg.isLt; have := r.isLt; omega⟩ ⟨ch.val * 1024 + x.val, by have := ch.isLt; have := x.isLt; omega⟩) := by
  intro r x
  unfold valB gmaxLArr gmaxArr
  refine congrArg lreluF (congrArg₂ FloatOps.addf (List.foldl_ext _ _ _ fun acc k _ => ?_) (h3 r x))
  refine congrArg (FloatOps.maximumf acc) ?_
  show fsl (sIx ((fib (ix2 k x)).toNat + r.val * 4096))
    = fs (srcIx b ⟨cg.val * 16 + r.val, by have := cg.isLt; have := r.isLt; omega⟩
        (fi (ix3 b k ⟨ch.val * 1024 + x.val, by have := ch.isLt; have := x.isLt; omega⟩)))
  rw [hib k x]
  have hW := hidx (ix3 b k ⟨ch.val * 1024 + x.val, by have := ch.isLt; have := x.isLt; omega⟩)
  unfold sIx srcIx
  rw [hsl]
  refine congrArg fs (congrArg (ix2 b) (Fin.ext ?_))
  have hr := r.isLt
  show cg.val * 65536 + ((fi (ix3 b k ⟨ch.val * 1024 + x.val, _⟩)).toNat + r.val * 4096) % 65536
    = (cg.val * 16 + r.val) * 4096 + (fi (ix3 b k ⟨ch.val * 1024 + x.val, _⟩)).toNat % 4096
  omega

end Value

/-! ## What the tile's slices read -/

/-- The slab's source: the tile's 65536 words of its cloud's row of the flattened source. -/
theorem slab_read (L : grid1.Coords) (fs : Vec F S8x262144 .f32) (w : Fin 65536) :
    (((srcW).slice (Rect.unit (s := S8x262144) (k1_off1 L) S1x65536.size (k1_off1_inb L)) (fun _ => rfl)).squeeze S65536 squeezes_S1x65536_S65536).view.read (Elt F) fs (ix1 w)
      = fs (ix2 (bT L) ⟨(gT L).val * 65536 + w.val, by have := (gT L).isLt; have := w.isLt; omega⟩) := by
  show fs ((Rect.unit (s := S8x262144) (k1_off1 L) S1x65536.size (k1_off1_inb L)).emb
    (Shape.reshapeEquiv squeezes_S1x65536_S65536.numel_eq (ix1 w))) = _
  congr 1
  rw [Shape.reshapeEquiv_eq_of_rowMajor (y := (ix2 (0 : Fin 1) w : S1x65536.Idx)) _ (by
    rw [Shape.rowMajor_val_two, Shape.rowMajor_val_one]
    show 0 * 65536 + w.val = w.val
    omega)]
  funext a
  apply Fin.ext
  rw [Rect.emb_apply, Rect.off_unit, Rect.stride_unit]
  have h0 : k1_off1 L 0 = (wid L).val / 4 := by rw [off1_eq]; rfl
  have h1 : k1_off1 L 1 = (wid L).val % 4 * 65536 := by rw [off1_eq]; rfl
  match a with
  | ⟨0, _⟩ => show k1_off1 L 0 + 1 * 0 = (wid L).val / 4; omega
  | ⟨1, _⟩ => show k1_off1 L 1 + 1 * w.val = (wid L).val % 4 * 65536 + w.val; omega

/-- A quarter of the cloud's neighbour lists (`off` one of the four offsets, `q` its quarter's first point). -/
theorem idx_read (L : grid1.Coords) (fi : IVec S8x20x4096 32) (off : Fin 3 → Nat) (inb : ∀ a, off a + S1x20x1024.size a ≤ S8x20x4096.size a)
    (q : Nat) (hq : q + 1024 ≤ 4096) (hoff : off = ![(wid L).val / 4, 0, q]) (k : Fin 20) (x : Fin 1024) :
    (((idxW).slice (Rect.unit (s := S8x20x4096) off S1x20x1024.size inb) (fun _ => rfl)).squeeze S20x1024 squeezes_S1x20x1024_S20x1024).view.read (Elt F) fi (ix2 k x)
      = fi (ix3 (bT L) k ⟨q + x.val, by have := x.isLt; omega⟩) := by
  subst hoff
  show fi ((Rect.unit (s := S8x20x4096) ![(wid L).val / 4, 0, q] S1x20x1024.size inb).emb
    (Shape.reshapeEquiv squeezes_S1x20x1024_S20x1024.numel_eq (ix2 k x))) = _
  congr 1
  rw [Shape.reshapeEquiv_eq_of_rowMajor (y := (ix3 (0 : Fin 1) k x : S1x20x1024.Idx)) _ (by
    rw [Shape.rowMajor_val_three, Shape.rowMajor_val_two]
    show (0 * 20 + k.val) * 1024 + x.val = k.val * 1024 + x.val
    omega)]
  funext a
  apply Fin.ext
  rw [Rect.emb_apply, Rect.off_unit, Rect.stride_unit]
  match a with
  | ⟨0, _⟩ => show (wid L).val / 4 + 1 * 0 = (wid L).val / 4; omega
  | ⟨1, _⟩ => show 0 + 1 * k.val = k.val; omega
  | ⟨2, _⟩ => show q + 1 * x.val = q + x.val; omega

/-- A quarter of the centre term's piece. -/
theorem cep_read (L : grid1.Coords) (fc : Vec F S8x64x4096 .f32) (off : Fin 3 → Nat) (inb : ∀ a, off a + S1x16x1024.size a ≤ S8x64x4096.size a)
    (q : Nat) (hq : q + 1024 ≤ 4096) (hoff : off = ![(wid L).val / 4, (wid L).val % 4 * 16, q]) (r : Fin 16) (x : Fin 1024) :
    (((cepW).slice (Rect.unit (s := S8x64x4096) off S1x16x1024.size inb) (fun _ => rfl)).squeeze S16x1024 squeezes_S1x16x1024_S16x1024).view.read (Elt F) fc (ix2 r x)
      = fc (ix3 (bT L) ⟨(gT L).val * 16 + r.val, by have := (gT L).isLt; have := r.isLt; omega⟩ ⟨q + x.val, by have := x.isLt; omega⟩) := by
  subst hoff
  show fc ((Rect.unit (s := S8x64x4096) ![(wid L).val / 4, (wid L).val % 4 * 16, q] S1x16x1024.size inb).emb
    (Shape.reshapeEquiv squeezes_S1x16x1024_S16x1024.numel_eq (ix2 r x))) = _
  congr 1
  rw [Shape.reshapeEquiv_eq_of_rowMajor (y := (ix3 (0 : Fin 1) r x : S1x16x1024.Idx)) _ (by
    rw [Shape.rowMajor_val_three, Shape.rowMajor_val_two]
    show (0 * 16 + r.val) * 1024 + x.val = r.val * 1024 + x.val
    omega)]
  funext a
  apply Fin.ext
  rw [Rect.emb_apply, Rect.off_unit, Rect.stride_unit]
  match a with
  | ⟨0, _⟩ => show (wid L).val / 4 + 1 * 0 = (wid L).val / 4; omega
  | ⟨1, _⟩ => show (wid L).val % 4 * 16 + 1 * r.val = (wid L).val % 4 * 16 + r.val; omega
  | ⟨2, _⟩ => show q + 1 * x.val = q + x.val; omega

/-- Where a piece of the output lies: the element of the output array under index `(r, x)` of the piece. -/
theorem out_emb (L : grid1.Coords) (off : Fin 3 → Nat) (inb : ∀ a, off a + S1x16x1024.size a ≤ S8x64x4096.size a)
    (q : Nat) (hq : q + 1024 ≤ 4096) (hoff : off = ![(wid L).val / 4, (wid L).val % 4 * 16, q]) (r : Fin 16) (x : Fin 1024) :
    (((outW).slice (Rect.unit (s := S8x64x4096) off S1x16x1024.size inb) (fun _ => rfl)).squeeze S16x1024 squeezes_S1x16x1024_S16x1024).view.emb (ix2 r x)
      = ix3 (bT L) ⟨(gT L).val * 16 + r.val, by have := (gT L).isLt; have := r.isLt; omega⟩ ⟨q + x.val, by have := x.isLt; omega⟩ := by
  subst hoff
  show (Rect.unit (s := S8x64x4096) ![(wid L).val / 4, (wid L).val % 4 * 16, q] S1x16x1024.size inb).emb
    (Shape.reshapeEquiv squeezes_S1x16x1024_S16x1024.numel_eq (ix2 r x)) = _
  rw [Shape.reshapeEquiv_eq_of_rowMajor (y := (ix3 (0 : Fin 1) r x : S1x16x1024.Idx)) _ (by
    rw [Shape.rowMajor_val_three, Shape.rowMajor_val_two]
    show (0 * 16 + r.val) * 1024 + x.val = r.val * 1024 + x.val
    omega)]
  funext a
  apply Fin.ext
  rw [Rect.emb_apply, Rect.off_unit, Rect.stride_unit]
  match a with
  | ⟨0, _⟩ => show (wid L).val / 4 + 1 * 0 = (wid L).val / 4; omega
  | ⟨1, _⟩ => show (wid L).val % 4 * 16 + 1 * r.val = (wid L).val % 4 * 16 + r.val; omega
  | ⟨2, _⟩ => show q + 1 * x.val = q + x.val; omega

end Cert.Proof.KB.T1

end
-- ==== Proof.KBTile2Val.lean ====
/-
  One tile of the second SparseCore call: what the gathers and the running maxima of one trip compute, and how the
  output scratch fills, a block of four rows of sixteen columns a trip.
-/
import proofs.«209975_g17849884082380_cont_8to1_1483_11_alg».proof.Proof.KBTile2Defs
import Idealize.ShloMosaic.Lib.Writes
import Idealize.ShloMosaic.Lib.ValueLayout

noncomputable section

namespace Cert.Proof.KB

open Cert.Kernel Cert.Kernel.Gen

open Idealize.ShloMosaic
open Idealize.ShloMosaic.ValueIdx

variable {F : FTy → Type}

/-- The index vector of a gather: a neighbour vector plus the offset of row `4 g + j` in the slab. -/
@[reducible] def idxOff (v : IVec S16 32) (g j : BitVec 32) : IVec S16 32 :=
  addi v (broadcast S16 (Scalar.muli (Scalar.addi (Scalar.muli g 4#32) j) 4096#32))

theorem chk_idxOff {v : IVec S16 32} {g j : BitVec 32} (hv : ∀ x, (v x).toNat < 4096) (hg : g.toNat < 4) (hj : j.toNat < 4) :
    ∀ a x, ((![idxOff v g j] : Fin 1 → IVec S16 32) a x).toNat < S65536.size a := by
  intro a x
  obtain rfl : a = 0 := Subsingleton.elim _ _
  have h := hv x
  show (v x + (g * 4#32 + j) * 4096#32).toNat < 65536
  bv_omega

/-- The slab's index of row `r` at the neighbour word `w` (reduced into the cloud). -/
def slabIx (r : Fin 16) (w : BitVec 32) : S65536.Idx :=
  ix1 ⟨r.val * 4096 + w.toNat % 4096, by have := r.isLt; have := Nat.mod_lt w.toNat (show 0 < 4096 by norm_num); omega⟩

theorem idxAt_idxOff {v : IVec S16 32} {g j : BitVec 32} (hv : ∀ x, (v x).toNat < 4096) (hg : g.toNat < 4) (hj : j.toNat < 4)
    (r : Fin 16) (hr : r.val = 4 * g.toNat + j.toNat)
    (h : ∀ a x, ((![idxOff v g j] : Fin 1 → IVec S16 32) a x).toNat < S65536.size a) (x : S16.Idx) :
    idxAt ![idxOff v g j] h x = slabIx r (v x) := by
  funext a
  obtain rfl : a = 0 := Subsingleton.elim _ _
  apply Fin.ext
  have h1 := hv x
  show (v x + (g * 4#32 + j) * 4096#32).toNat = r.val * 4096 + (v x).toNat % 4096
  rw [hr]
  bv_omega

variable [FloatOps F]

/-- A trip's running maximum for row `4 g + j`, as the program folds it: from `v30`, over the 20 neighbour vectors in order, the
    maximum with the slab gathered at the neighbour vector offset to the row. -/
def accP (v30 : FVec F S16 .f32) (fsl : Vec F S65536 .f32) (u : Fin 20 → IVec S16 32) (g j : BitVec 32)
    (h : ∀ k a x, ((![idxOff (u k) g j] : Fin 1 → IVec S16 32) a x).toNat < S65536.size a) : FVec F S16 .f32 :=
  maximumf (maximumf (maximumf (maximumf (maximumf (maximumf (maximumf (maximumf (maximumf (maximumf (maximumf (maximumf (maximumf (maximumf (maximumf (maximumf (maximumf (maximumf (maximumf (maximumf (v30) (loadIdx fsl ![idxOff (u 0) g j] (h 0))) (loadIdx fsl ![idxOff (u 1) g j] (h 1))) (loadIdx fsl ![idxOff (u 2) g j] (h 2))) (loadIdx fsl ![idxOff (u 3) g j] (h 3))) (loadIdx fsl ![idxOff (u 4) g j] (h 4))) (loadIdx fsl ![idxOff (u 5) g j] (h 5))) (loadIdx fsl ![idxOff (u 6) g j] (h 6))) (loadIdx fsl ![idxOff (u 7) g j] (h 7))) (loadIdx fsl ![idxOff (u 8) g j] (h 8))) (loadIdx fsl ![idxOff (u 9) g j] (h 9))) (loadIdx fsl ![idxOff (u 10) g j] (h 10))) (loadIdx fsl ![idxOff (u 11) g j] (h 11))) (loadIdx fsl ![idxOff (u 12) g j] (h 12))) (loadIdx fsl ![idxOff (u 13) g j] (h 13))) (loadIdx fsl ![idxOff (u 14) g j] (h 14))) (loadIdx fsl ![idxOff (u 15) g j] (h 15))) (loadIdx fsl ![idxOff (u 16) g j] (h 16))) (loadIdx fsl ![idxOff (u 17) g j] (h 17))) (loadIdx fsl ![idxOff (u 18) g j] (h 18))) (loadIdx fsl ![idxOff (u 19) g j] (h 19))

/-- The array the output scratch is filled with: entry `(r, c)` is the maximum, folded from `neg` over the 20 neighbour rows of the
    index scratch in order, of the slab's row `r` at the neighbour column `c` names. -/
def Gout (neg : F .f32) (fsl : Vec F S65536 .f32) (fix : IVec S20x1024 32) (y : S16x1024.Idx) : F .f32 :=
  (List.finRange 20).foldl (fun (acc : F .f32) (k : Fin 20) => FloatOps.maximumf acc (fsl (slabIx (y 0) (fix (ix2 k (y 1)))))) neg

theorem accP_apply (v30 : FVec F S16 .f32) (fsl : Vec F S65536 .f32) (u : Fin 20 → IVec S16 32) (g j : BitVec 32)
    (h : ∀ k a x, ((![idxOff (u k) g j] : Fin 1 → IVec S16 32) a x).toNat < S65536.size a) (x : S16.Idx) :
    accP v30 fsl u g j h x
      = (List.finRange 20).foldl (fun (acc : F .f32) (k : Fin 20) => FloatOps.maximumf acc (fsl (idxAt ![idxOff (u k) g j] (h k) x))) (v30 x) := by
  rfl

/-! ## How the output scratch fills -/

local notation "outbW" => (Memref.whole Cert.Kernel.cc2_scratch2 : Memref Cert.Kernel.sig Kind.scVector Space.vmem Cert.Kernel.S16x1024 EltTy.f32)

/-- The output scratch is right in its first `16 i` columns. -/
def Done1 (G : S16x1024.Idx → F .f32) (i : Nat) (f2 : S16x1024.Idx → F .f32) : Prop :=
  ∀ y : S16x1024.Idx, (y 1).val < 16 * i → f2 y = G y

/-- The output scratch is right in its first `16 i` columns and, in the next 16, in its first `4 g` rows. -/
def Done2 (G : S16x1024.Idx → F .f32) (i g : Nat) (f2 : S16x1024.Idx → F .f32) : Prop :=
  ∀ y : S16x1024.Idx, ((y 1).val < 16 * i ∨ ((y 1).val < 16 * i + 16 ∧ (y 0).val < 4 * g)) → f2 y = G y

omit [FloatOps F] in
theorem done2_of_done1 {G : S16x1024.Idx → F .f32} {i : Nat} {f2 : S16x1024.Idx → F .f32} (h : Done1 G i f2) : Done2 G i 0 f2 :=
  fun y hy => h y (by rcases hy with h | ⟨_, h⟩; exact h; omega)

omit [FloatOps F] in
theorem done1_of_done2 {G : S16x1024.Idx → F .f32} {i : Nat} {f2 : S16x1024.Idx → F .f32} (h : Done2 G i 4 f2) : Done1 G (i + 1) f2 :=
  fun y hy => h y (by
    have h0 : (y 0).val < 16 := (y 0).isLt
    by_cases hc : (y 1).val < 16 * i
    · exact Or.inl hc
    · exact Or.inr ⟨by omega, by omega⟩)

omit [FloatOps F] in
theorem done1_all {G : S16x1024.Idx → F .f32} {f2 : S16x1024.Idx → F .f32} (h : Done1 G 64 f2) : f2 = G :=
  funext fun y => h y (by have h1 : (y 1).val < 1024 := (y 1).isLt; omega)

omit [FloatOps F] in
/-- A trip's four stores, each a row of sixteen columns at the function `G`, extend what is right by the trip's block. -/
theorem done2_step (G : S16x1024.Idx → F .f32) (i g : Nat)
    (f2 : (outbW).view.ty.Contents (Elt F)) (hD : Done2 G i g f2)
    (o0 o1 o2 o3 : Fin 2 → Nat) (h0 : o0 = ![4 * g + 0, 16 * i]) (h1 : o1 = ![4 * g + 1, 16 * i])
    (h2 : o2 = ![4 * g + 2, 16 * i]) (h3 : o3 = ![4 * g + 3, 16 * i])
    (b0 : ∀ a, o0 a + S1x16.size a ≤ S16x1024.size a) (b1 : ∀ a, o1 a + S1x16.size a ≤ S16x1024.size a)
    (b2 : ∀ a, o2 a + S1x16.size a ≤ S16x1024.size a) (b3 : ∀ a, o3 a + S1x16.size a ≤ S16x1024.size a)
    (P0 P1 P2 P3 : S1x16.Idx → Elt F .f32)
    (hP0 : ∀ x, P0 x = G ((Rect.unit (s := S16x1024) o0 S1x16.size b0).emb x))
    (hP1 : ∀ x, P1 x = G ((Rect.unit (s := S16x1024) o1 S1x16.size b1).emb x))
    (hP2 : ∀ x, P2 x = G ((Rect.unit (s := S16x1024) o2 S1x16.size b2).emb x))
    (hP3 : ∀ x, P3 x = G ((Rect.unit (s := S16x1024) o3 S1x16.size b3).emb x)) :
    Done2 G i (g + 1) ((outbW).view.writes (Elt F) f2
      [⟨Rect.unit (s := S16x1024) o3 S1x16.size b3, P3⟩, ⟨Rect.unit (s := S16x1024) o2 S1x16.size b2, P2⟩,
        ⟨Rect.unit (s := S16x1024) o1 S1x16.size b1, P1⟩, ⟨Rect.unit (s := S16x1024) o0 S1x16.size b0, P0⟩]) := by
  subst h0 h1 h2 h3
  intro y hy
  have hrd : ∀ f : (outbW).view.ty.Contents (Elt F), (outbW).view.read (Elt F) f y = f y := fun f => rfl
  refine (hrd _).symm.trans ?_
  by_cases hm : ∃ p ∈ ([⟨Rect.unit (s := S16x1024) ![4 * g + 3, 16 * i] S1x16.size b3, P3⟩, ⟨Rect.unit (s := S16x1024) ![4 * g + 2, 16 * i] S1x16.size b2, P2⟩,
        ⟨Rect.unit (s := S16x1024) ![4 * g + 1, 16 * i] S1x16.size b1, P1⟩, ⟨Rect.unit (s := S16x1024) ![4 * g + 0, 16 * i] S1x16.size b0, P0⟩] : List (View.Piece (Elt F) S16x1024 .f32)), y ∈ p.1.set
  · refine View.read_writes_apply_of_pieces _ _ G _ ?_ y hm
    intro p hp x
    simp only [List.mem_cons, List.mem_singleton, List.not_mem_nil, or_false] at hp
    rcases hp with rfl | rfl | rfl | rfl
    · exact hP3 x
    · exact hP2 x
    · exact hP1 x
    · exact hP0 x
  · rw [View.read_writes_apply_of_forall_not_mem _ _ y _ (fun p hp hy' => hm ⟨p, hp, hy'⟩), hrd]
    apply hD
    rcases hy with h | ⟨hc, hr⟩
    · exact Or.inl h
    · by_cases hc' : (y 1).val < 16 * i
      · exact Or.inl hc'
      · refine Or.inr ⟨hc, ?_⟩
        by_contra hr'
        apply hm
        have hmem : ∀ (r : Nat) (b : ∀ a, (![4 * g + r, 16 * i] : Fin 2 → Nat) a + S1x16.size a ≤ S16x1024.size a), (y 0).val = 4 * g + r →
            y ∈ (Rect.unit (s := S16x1024) ![4 * g + r, 16 * i] S1x16.size b).set := by
          intro r b e
          refine Rect.mem_set_unit.mpr (Fin.forall_fin_two.mpr ⟨⟨?_, ?_⟩, ⟨?_, ?_⟩⟩)
          · show 4 * g + r ≤ (y 0).val; omega
          · show (y 0).val < 4 * g + r + 1; omega
          · show 16 * i ≤ (y 1).val; omega
          · show (y 1).val < 16 * i + 16; omega
        have hcase : (y 0).val = 4 * g + 0 ∨ (y 0).val = 4 * g + 1 ∨ (y 0).val = 4 * g + 2 ∨ (y 0).val = 4 * g + 3 := by omega
        rcases hcase with e | e | e | e
        · exact ⟨⟨Rect.unit (s := S16x1024) ![4 * g + 0, 16 * i] S1x16.size b0, P0⟩, List.mem_cons_of_mem _ (List.mem_cons_of_mem _ (List.mem_cons_of_mem _ List.mem_cons_self)), hmem 0 b0 e⟩
        · exact ⟨⟨Rect.unit (s := S16x1024) ![4 * g + 1, 16 * i] S1x16.size b1, P1⟩, List.mem_cons_of_mem _ (List.mem_cons_of_mem _ List.mem_cons_self), hmem 1 b1 e⟩
        · exact ⟨⟨Rect.unit (s := S16x1024) ![4 * g + 2, 16 * i] S1x16.size b2, P2⟩, List.mem_cons_of_mem _ List.mem_cons_self, hmem 2 b2 e⟩
        · exact ⟨⟨Rect.unit (s := S16x1024) ![4 * g + 3, 16 * i] S1x16.size b3, P3⟩, List.mem_cons_self, hmem 3 b3 e⟩

/-! ## A trip's four stores -/

/-- The four stores of a trip, the last first: row `4 g + j` of the trip's block at its running maximum. -/
def tripPieces (v30 : FVec F S16 .f32) (fslR : Vec F S65536 .f32) (U : Fin 20 → IVec S16 32) (hU : ∀ k x, (U k x).toNat < 4096)
    (o : BitVec 32 → Fin 2 → Nat) (ob : ∀ r : Fin 4, ∀ a, o (BitVec.ofNat 32 r.val) a + S1x16.size a ≤ S16x1024.size a)
    (g : BitVec 32) (hg : g.toNat < 4) : List (View.Piece (Elt F) S16x1024 .f32) :=
  [⟨Rect.unit (s := S16x1024) (o 3#32) S1x16.size (ob 3), shapeCast S1x16 (accP v30 fslR U g 3#32 fun k => chk_idxOff (hU k) hg (by decide)) shapeCasts_S16_S1x16⟩,
    ⟨Rect.unit (s := S16x1024) (o 2#32) S1x16.size (ob 2), shapeCast S1x16 (accP v30 fslR U g 2#32 fun k => chk_idxOff (hU k) hg (by decide)) shapeCasts_S16_S1x16⟩,
    ⟨Rect.unit (s := S16x1024) (o 1#32) S1x16.size (ob 1), shapeCast S1x16 (accP v30 fslR U g 1#32 fun k => chk_idxOff (hU k) hg (by decide)) shapeCasts_S16_S1x16⟩,
    ⟨Rect.unit (s := S16x1024) (o 0#32) S1x16.size (ob 0), shapeCast S1x16 (accP v30 fslR U g 0#32 fun k => chk_idxOff (hU k) hg (by decide)) shapeCasts_S16_S1x16⟩]

/-- A trip's running maximum for row `4 g + j`, stored as a row of the block, is the array `Gout` there. -/
theorem pay_eq (neg : F .f32) (fsl : Vec F S65536 .f32) (fix : IVec S20x1024 32) (hfix : ∀ y, (fix y).toNat < 4096) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (g : BitVec 32) (hg : g.toNat < 4) (hgv : g.toNat = gN) (jb : BitVec 32) (hj : jb.toNat < 4)
    (ofs : Fin 2 → Nat) (hofs : ofs = ![4 * gN + jb.toNat, 16 * i]) (b : ∀ a, ofs a + S1x16.size a ≤ S16x1024.size a) (x : S1x16.Idx) :
    shapeCast S1x16 (accP v30 fslR U g jb fun k => chk_idxOff (hU k) hg hj) shapeCasts_S16_S1x16 x
      = Gout neg fsl fix ((Rect.unit (s := S16x1024) ofs S1x16.size b).emb x) := by
  subst hofs
  obtain ⟨u, l, rfl⟩ : ∃ (u : Fin 1) (l : Fin 16), x = ix2 u l := ⟨x 0, x 1, eq_ix2 x⟩
  rw [shapeCast_a_1a_apply, accP_apply, hv30]
  unfold Gout
  have hx0 : u.val = 0 := by omega
  have e0 : ((Rect.unit (s := S16x1024) ![4 * gN + jb.toNat, 16 * i] S1x16.size b).emb (ix2 u l)) 0 = (⟨4 * gN + jb.toNat, by omega⟩ : Fin 16) :=
    Fin.ext (by rw [Rect.emb_apply]; show 4 * gN + jb.toNat + 1 * u.val = 4 * gN + jb.toNat; omega)
  have e1 : ((Rect.unit (s := S16x1024) ![4 * gN + jb.toNat, 16 * i] S1x16.size b).emb (ix2 u l)) 1 = (⟨16 * i + l.val, by omega⟩ : Fin 1024) :=
    Fin.ext (by rw [Rect.emb_apply]; show 16 * i + 1 * l.val = 16 * i + l.val; omega)
  refine List.foldl_ext _ _ _ fun acc k _ => ?_
  rw [idxAt_idxOff (hU k) hg hj ⟨4 * gN + jb.toNat, by omega⟩ (by show 4 * gN + jb.toNat = 4 * g.toNat + jb.toNat; omega), hR, hUfix, e0, e1]

/-- A trip's four stores extend what is right in the output scratch by the trip's block. -/
theorem tripPieces_done (neg : F .f32) (fsl : Vec F S65536 .f32) (fix : IVec S20x1024 32) (hfix : ∀ y, (fix y).toNat < 4096) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (o : BitVec 32 → Fin 2 → Nat) (ob : ∀ r : Fin 4, ∀ a, o (BitVec.ofNat 32 r.val) a + S1x16.size a ≤ S16x1024.size a)
    (ho : ∀ r : Fin 4, o (BitVec.ofNat 32 r.val) = ![4 * gN + r.val, 16 * i])
    (g : BitVec 32) (hg : g.toNat < 4) (hgv : g.toNat = gN)
    (f2 : (outbW).view.ty.Contents (Elt F)) (hD : Done2 (Gout neg fsl fix) i gN f2) :
    Done2 (Gout neg fsl fix) i (gN + 1) ((outbW).view.writes (Elt F) f2 (tripPieces v30 fslR U hU o ob g hg)) := by
  unfold tripPieces
  exact done2_step (Gout neg fsl fix) i gN f2 hD (o 0#32) (o 1#32) (o 2#32) (o 3#32) (ho 0) (ho 1) (ho 2) (ho 3) (ob 0) (ob 1) (ob 2) (ob 3) _ _ _ _
    (pay_eq neg fsl fix hfix i gN hi v30 hv30 fslR hR U hU hUfix g hg hgv 0#32 (by decide) _ (ho 0) (ob 0))
    (pay_eq neg fsl fix hfix i gN hi v30 hv30 fslR hR U hU hUfix g hg hgv 1#32 (by decide) _ (ho 1) (ob 1))
    (pay_eq neg fsl fix hfix i gN hi v30 hv30 fslR hR U hU hUfix g hg hgv 2#32 (by decide) _ (ho 2) (ob 2))
    (pay_eq neg fsl fix hfix i gN hi v30 hv30 fslR hR U hU hUfix g hg hgv 3#32 (by decide) _ (ho 3) (ob 3))

end Cert.Proof.KB

end
-- ==== Proof.KBTile1Trip.lean ====
/-
  The first SparseCore call's tile: what one trip of the inner loop stores, in the program's own vector operations, and how
  the output scratch fills (pure: no program). The epilogue (the centre scratch's row added, the sum rectified) on top of
  the running maxima of the plain gather-and-max.
-/
import proofs.«209975_g17849884082380_cont_8to1_1483_11_alg».proof.Proof.KBTile1Defs
import proofs.«209975_g17849884082380_cont_8to1_1483_11_alg».proof.Proof.KBTile1Val
import proofs.«209975_g17849884082380_cont_8to1_1483_11_alg».proof.Proof.KBTile2Val
import Idealize.ShloMosaic.Lib.Writes
import Idealize.ShloMosaic.Lib.ValueLayout

noncomputable section

namespace Cert.Proof.KB.T1

open Cert.Kernel Cert.Kernel.Gen
open Cert.Proof.KB
open Idealize.ShloMosaic
open Idealize.ShloMosaic.ValueIdx

variable {F : FTy → Type}

local notation "outbW" => (Memref.whole Cert.Kernel.cc1_scratch2 : Memref Cert.Kernel.sig Kind.scVector Space.vmem Cert.Kernel.S16x1024 EltTy.f32)
local notation "cepbW" => (Memref.whole Cert.Kernel.cc1_scratch3 : Memref Cert.Kernel.sig Kind.scVector Space.vmem Cert.Kernel.S16x1024 EltTy.f32)

variable [FloatOps F]

/-- The epilogue on a row of sixteen, in the program's vector operations: the centre scratch's row added, the sum
    rectified. -/
def epiV (acc : FVec F S16 .f32) (c : Vec F S1x16 .f32) : FVec F S16 .f32 :=
  select (cmpf .ogt (addf acc (shapeCast S16 c shapeCasts_S1x16_S16)) (broadcast S16 (Scalar.ofBits .f32 0x00000000#32)))
    (addf acc (shapeCast S16 c shapeCasts_S1x16_S16))
    (mulf (addf acc (shapeCast S16 c shapeCasts_S1x16_S16)) (broadcast S16 (Scalar.ofBits .f32 0x3E4CCCCD#32)))

/-- The array one chunk's loops fill the output scratch with: the plain gather-and-max's, the centre scratch's word added
    and the sum rectified. -/
def GoutL (neg : F .f32) (fsl : Vec F S65536 .f32) (fix : IVec S20x1024 32) (f3 : Vec F S16x1024 .f32) (y : S16x1024.Idx) : F .f32 :=
  lreluF (FloatOps.addf (Gout neg fsl fix y) (f3 y))

/-- A load of sixteen columns of a row of the centre scratch. -/
abbrev ldc (f3 : (cepbW).view.ty.Contents (Elt F)) (off : Fin 2 → Nat) (b : ∀ a, off a + S1x16.size a ≤ S16x1024.size a) : Vec F S1x16 .f32 :=
  (cepbW).view.readAt (Elt F) (Rect.unit (s := S16x1024) off S1x16.size b).toLoadRect f3

/-- `done2_step` of the second call's tile, over this call's output scratch. -/
theorem done2_step1 (G : S16x1024.Idx → F .f32) (i g : Nat)
    (f2 : (outbW).view.ty.Contents (Elt F)) (hD : Done2 G i g f2)
    (o0 o1 o2 o3 : Fin 2 → Nat) (h0 : o0 = ![4 * g + 0, 16 * i]) (h1 : o1 = ![4 * g + 1, 16 * i])
    (h2 : o2 = ![4 * g + 2, 16 * i]) (h3 : o3 = ![4 * g + 3, 16 * i])
    (b0 : ∀ a, o0 a + S1x16.size a ≤ S16x1024.size a) (b1 : ∀ a, o1 a + S1x16.size a ≤ S16x1024.size a)
    (b2 : ∀ a, o2 a + S1x16.size a ≤ S16x1024.size a) (b3 : ∀ a, o3 a + S1x16.size a ≤ S16x1024.size a)
    (P0 P1 P2 P3 : S1x16.Idx → Elt F .f32)
    (hP0 : ∀ x, P0 x = G ((Rect.unit (s := S16x1024) o0 S1x16.size b0).emb x))
    (hP1 : ∀ x, P1 x = G ((Rect.unit (s := S16x1024) o1 S1x16.size b1).emb x))
    (hP2 : ∀ x, P2 x = G ((Rect.unit (s := S16x1024) o2 S1x16.size b2).emb x))
    (hP3 : ∀ x, P3 x = G ((Rect.unit (s := S16x1024) o3 S1x16.size b3).emb x)) :
    Done2 G i (g + 1) ((outbW).view.writes (Elt F) f2
      [⟨Rect.unit (s := S16x1024) o3 S1x16.size b3, P3⟩, ⟨Rect.unit (s := S16x1024) o2 S1x16.size b2, P2⟩,
        ⟨Rect.unit (s := S16x1024) o1 S1x16.size b1, P1⟩, ⟨Rect.unit (s := S16x1024) o0 S1x16.size b0, P0⟩]) := by
  subst h0 h1 h2 h3
  intro y hy
  have hrd : ∀ f : (outbW).view.ty.Contents (Elt F), (outbW).view.read (Elt F) f y = f y := fun f => rfl
  refine (hrd _).symm.trans ?_
  by_cases hm : ∃ p ∈ ([⟨Rect.unit (s := S16x1024) ![4 * g + 3, 16 * i] S1x16.size b3, P3⟩, ⟨Rect.unit (s := S16x1024) ![4 * g + 2, 16 * i] S1x16.size b2, P2⟩,
        ⟨Rect.unit (s := S16x1024) ![4 * g + 1, 16 * i] S1x16.size b1, P1⟩, ⟨Rect.unit (s := S16x1024) ![4 * g + 0, 16 * i] S1x16.size b0, P0⟩] : List (View.Piece (Elt F) S16x1024 .f32)), y ∈ p.1.set
  · refine View.read_writes_apply_of_pieces _ _ G _ ?_ y hm
    intro p hp x
    simp only [List.mem_cons, List.mem_singleton, List.not_mem_nil, or_false] at hp
    rcases hp with rfl | rfl | rfl | rfl
    · exact hP3 x
    · exact hP2 x
    · exact hP1 x
    · exact hP0 x
  · rw [View.read_writes_apply_of_forall_not_mem _ _ y _ (fun p hp hy' => hm ⟨p, hp, hy'⟩), hrd]
    apply hD
    rcases hy with h | ⟨hc, hr⟩
    · exact Or.inl h
    · by_cases hc' : (y 1).val < 16 * i
      · exact Or.inl hc'
      · refine Or.inr ⟨hc, ?_⟩
        by_contra hr'
        apply hm
        have hmem : ∀ (r : Nat) (b : ∀ a, (![4 * g + r, 16 * i] : Fin 2 → Nat) a + S1x16.size a ≤ S16x1024.size a), (y 0).val = 4 * g + r →
            y ∈ (Rect.unit (s := S16x1024) ![4 * g + r, 16 * i] S1x16.size b).set := by
          intro r b e
          refine Rect.mem_set_unit.mpr (Fin.forall_fin_two.mpr ⟨⟨?_, ?_⟩, ⟨?_, ?_⟩⟩)
          · show 4 * g + r ≤ (y 0).val; omega
          · show (y 0).val < 4 * g + r + 1; omega
          · show 16 * i ≤ (y 1).val; omega
          · show (y 1).val < 16 * i + 16; omega
        have hcase : (y 0).val = 4 * g + 0 ∨ (y 0).val = 4 * g + 1 ∨ (y 0).val = 4 * g + 2 ∨ (y 0).val = 4 * g + 3 := by omega
        rcases hcase with e | e | e | e
        · exact ⟨⟨Rect.unit (s := S16x1024) ![4 * g + 0, 16 * i] S1x16.size b0, P0⟩, List.mem_cons_of_mem _ (List.mem_cons_of_mem _ (List.mem_cons_of_mem _ List.mem_cons_self)), hmem 0 b0 e⟩
        · exact ⟨⟨Rect.unit (s := S16x1024) ![4 * g + 1, 16 * i] S1x16.size b1, P1⟩, List.mem_cons_of_mem _ (List.mem_cons_of_mem _ List.mem_cons_self), hmem 1 b1 e⟩
        · exact ⟨⟨Rect.unit (s := S16x1024) ![4 * g + 2, 16 * i] S1x16.size b2, P2⟩, List.mem_cons_of_mem _ List.mem_cons_self, hmem 2 b2 e⟩
        · exact ⟨⟨Rect.unit (s := S16x1024) ![4 * g + 3, 16 * i] S1x16.size b3, P3⟩, List.mem_cons_self, hmem 3 b3 e⟩

/-- The four stores of a trip, the last first: row `4 g + j` of the trip's block at the epilogue of its running maximum. -/
def tripPiecesL (v30 : FVec F S16 .f32) (fslR : Vec F S65536 .f32) (f3 : (cepbW).view.ty.Contents (Elt F))
    (U : Fin 20 → IVec S16 32) (hU : ∀ k x, (U k x).toNat < 4096)
    (o : BitVec 32 → Fin 2 → Nat) (ob : ∀ r : Fin 4, ∀ a, o (BitVec.ofNat 32 r.val) a + S1x16.size a ≤ S16x1024.size a)
    (g : BitVec 32) (hg : g.toNat < 4) : List (View.Piece (Elt F) S16x1024 .f32) :=
  [⟨Rect.unit (s := S16x1024) (o 3#32) S1x16.size (ob 3), shapeCast S1x16 (epiV (accP v30 fslR U g 3#32 fun k => chk_idxOff (hU k) hg (by decide)) (ldc f3 (o 3#32) (ob 3))) shapeCasts_S16_S1x16⟩,
    ⟨Rect.unit (s := S16x1024) (o 2#32) S1x16.size (ob 2), shapeCast S1x16 (epiV (accP v30 fslR U g 2#32 fun k => chk_idxOff (hU k) hg (by decide)) (ldc f3 (o 2#32) (ob 2))) shapeCasts_S16_S1x16⟩,
    ⟨Rect.unit (s := S16x1024) (o 1#32) S1x16.size (ob 1), shapeCast S1x16 (epiV (accP v30 fslR U g 1#32 fun k => chk_idxOff (hU k) hg (by decide)) (ldc f3 (o 1#32) (ob 1))) shapeCasts_S16_S1x16⟩,
    ⟨Rect.unit (s := S16x1024) (o 0#32) S1x16.size (ob 0), shapeCast S1x16 (epiV (accP v30 fslR U g 0#32 fun k => chk_idxOff (hU k) hg (by decide)) (ldc f3 (o 0#32) (ob 0))) shapeCasts_S16_S1x16⟩]

/-- A trip's running maximum for row 4 g + j with the epilogue, stored as a row of the block, is the array GoutL there:
the epilogue at a lane is the rectifier of the sum of the lane's running maximum and the centre scratch's word under it. -/
theorem pay_eqL (neg : F .f32) (fsl : Vec F S65536 .f32) (fix : IVec S20x1024 32) (hfix : ∀ y, (fix y).toNat < 4096)
    (f3 : (cepbW).view.ty.Contents (Elt F)) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (g : BitVec 32) (hg : g.toNat < 4) (hgv : g.toNat = gN) (jb : BitVec 32) (hj : jb.toNat < 4)
    (ofs : Fin 2 → Nat) (hofs : ofs = ![4 * gN + jb.toNat, 16 * i]) (b : ∀ a, ofs a + S1x16.size a ≤ S16x1024.size a) (x : S1x16.Idx) :
    shapeCast S1x16 (epiV (accP v30 fslR U g jb fun k => chk_idxOff (hU k) hg hj) (ldc f3 ofs b)) shapeCasts_S16_S1x16 x
      = GoutL neg fsl fix f3 ((Rect.unit (s := S16x1024) ofs S1x16.size b).emb x) := by
  have hA := pay_eq neg fsl fix hfix i gN hi v30 hv30 fslR hR U hU hUfix g hg hgv jb hj ofs hofs b x
  obtain ⟨u, l, rfl⟩ : ∃ (u : Fin 1) (l : Fin 16), x = ix2 u l := ⟨x 0, x 1, eq_ix2 x⟩
  obtain rfl : u = 0 := Subsingleton.elim _ _
  rw [shapeCast_a_1a_apply] at hA
  rw [shapeCast_a_1a_apply]
  unfold GoutL
  rw [← hA]
  show lreluF (FloatOps.addf (accP v30 fslR U g jb (fun k => chk_idxOff (hU k) hg hj) (ix1 l))
      (shapeCast S16 (ldc f3 ofs b) shapeCasts_S1x16_S16 (ix1 l))) = _
  rw [shapeCast_1a_a_apply]
  rfl

/-- A trip's four stores extend what is right in the output scratch by the trip's block. -/
theorem tripPiecesL_done (neg : F .f32) (fsl : Vec F S65536 .f32) (fix : IVec S20x1024 32) (hfix : ∀ y, (fix y).toNat < 4096)
    (f3 : (cepbW).view.ty.Contents (Elt F)) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (o : BitVec 32 → Fin 2 → Nat) (ob : ∀ r : Fin 4, ∀ a, o (BitVec.ofNat 32 r.val) a + S1x16.size a ≤ S16x1024.size a)
    (ho : ∀ r : Fin 4, o (BitVec.ofNat 32 r.val) = ![4 * gN + r.val, 16 * i])
    (g : BitVec 32) (hg : g.toNat < 4) (hgv : g.toNat = gN)
    (f2 : (outbW).view.ty.Contents (Elt F)) (hD : Done2 (GoutL neg fsl fix f3) i gN f2) :
    Done2 (GoutL neg fsl fix f3) i (gN + 1) ((outbW).view.writes (Elt F) f2 (tripPiecesL v30 fslR f3 U hU o ob g hg)) := by
  unfold tripPiecesL
  exact done2_step1 (GoutL neg fsl fix f3) i gN f2 hD (o 0#32) (o 1#32) (o 2#32) (o 3#32) (ho 0) (ho 1) (ho 2) (ho 3) (ob 0) (ob 1) (ob 2) (ob 3) _ _ _ _
    (pay_eqL neg fsl fix hfix f3 i gN hi v30 hv30 fslR hR U hU hUfix g hg hgv 0#32 (by decide) _ (ho 0) (ob 0))
    (pay_eqL neg fsl fix hfix f3 i gN hi v30 hv30 fslR hR U hU hUfix g hg hgv 1#32 (by decide) _ (ho 1) (ob 1))
    (pay_eqL neg fsl fix hfix f3 i gN hi v30 hv30 fslR hR U hU hUfix g hg hgv 2#32 (by decide) _ (ho 2) (ob 2))
    (pay_eqL neg fsl fix hfix f3 i gN hi v30 hv30 fslR hR U hU hUfix g hg hgv 3#32 (by decide) _ (ho 3) (ob 3))

/-- With the index scratch's words naming points, the filled array is `valB`. -/
theorem GoutL_eq_valB (fsl : Vec F S65536 .f32) (fix : IVec S20x1024 32) (hfix : ∀ y, (fix y).toNat < 4096) (f3 : Vec F S16x1024 .f32) :
    GoutL (Scalar.ofBits .f32 0xFF800000#32) fsl fix f3 = valB fsl fix f3 := by
  funext y
  unfold GoutL valB Gout
  refine congrArg lreluF (congrArg (FloatOps.addf · (f3 y)) (List.foldl_ext _ _ _ fun acc k _ => ?_))
  refine congrArg (FloatOps.maximumf acc) (congrArg fsl ?_)
  have hw := hfix (ix2 k (y 1))
  have hr : (y 0).val < 16 := (y 0).isLt
  unfold slabIx sIx
  refine congrArg ix1 (Fin.ext ?_)
  show (y 0).val * 4096 + (fix (ix2 k (y 1))).toNat % 4096 = ((fix (ix2 k (y 1))).toNat + (y 0).val * 4096) % 65536
  omega

end Cert.Proof.KB.T1

end
-- ==== Proof.KBTile1Final.lean ====
/-
  The first SparseCore call's tile: a finished piece of the output (pure: no program). When the output scratch holds what
  one chunk's loops fill it with, computed from the tile's slices of the source, the neighbour lists and the centre term,
  the copy of the scratch onto the tile's piece of the output leaves the pooled and rectified array there.
-/
import proofs.«209975_g17849884082380_cont_8to1_1483_11_alg».proof.Proof.KBTile1Defs
import proofs.«209975_g17849884082380_cont_8to1_1483_11_alg».proof.Proof.KBTile1Val
import proofs.«209975_g17849884082380_cont_8to1_1483_11_alg».proof.Proof.KBTile1Trip
import Idealize.ShloMosaic.Lib.Writes
import Idealize.ShloMosaic.Lib.ValueLayout

noncomputable section

namespace Cert.Proof.KB.T1

open Cert.Kernel Cert.Kernel.Gen
open Cert.Proof.KB
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 3) (Elt F) ℕ UU ℕ

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)

/-- The tile's slice of the source, of the neighbour lists, of the centre term and of the output, as the program slices
    them (at an offset). -/
abbrev srcPo (L : grid1.Coords) : Memref sig .scVector .hbm S65536 .f32 :=
  ((srcW).slice (Rect.unit (s := S8x262144) (k1_off1 L) S1x65536.size (k1_off1_inb L)) (fun _ => rfl)).squeeze S65536 squeezes_S1x65536_S65536
abbrev idxPo (off : Fin 3 → Nat) (inb : ∀ a, off a + S1x20x1024.size a ≤ S8x20x4096.size a) : Memref sig .scVector .hbm S20x1024 .i32 :=
  ((idxW).slice (Rect.unit (s := S8x20x4096) off S1x20x1024.size inb) (fun _ => rfl)).squeeze S20x1024 squeezes_S1x20x1024_S20x1024
abbrev cepPo (off : Fin 3 → Nat) (inb : ∀ a, off a + S1x16x1024.size a ≤ S8x64x4096.size a) : Memref sig .scVector .hbm S16x1024 .f32 :=
  ((cepW).slice (Rect.unit (s := S8x64x4096) off S1x16x1024.size inb) (fun _ => rfl)).squeeze S16x1024 squeezes_S1x16x1024_S16x1024
abbrev outPo (off : Fin 3 → Nat) (inb : ∀ a, off a + S1x16x1024.size a ≤ S8x64x4096.size a) : Memref sig .scVector .hbm S16x1024 .f32 :=
  ((outW).slice (Rect.unit (s := S8x64x4096) off S1x16x1024.size inb) (fun _ => rfl)).squeeze S16x1024 squeezes_S1x16x1024_S16x1024

variable [FloatOps F]

/-- A finished piece: the output scratch's contents `w`, what the chunk's loops fill it with from the tile's slices, copied
    whole onto the tile's piece of the output, is the pooled and rectified array on that piece. -/
theorem piece_final (L : grid1.Coords) (fs : Vec F S8x262144 .f32) (fi : IVec S8x20x4096 32) (fc : Vec F S8x64x4096 .f32)
    (hidx : ∀ j, (fi j).toNat < 4096)
    (offI : Fin 3 → Nat) (inbI : ∀ a, offI a + S1x20x1024.size a ≤ S8x20x4096.size a)
    (offC : Fin 3 → Nat) (inbC inbO : ∀ a, offC a + S1x16x1024.size a ≤ S8x64x4096.size a)
    (ch : Fin 4) (hoffI : offI = ![(wid L).val / 4, 0, ch.val * 1024]) (hoffC : offC = ![(wid L).val / 4, (wid L).val % 4 * 16, ch.val * 1024])
    (X : (outPo offC inbO).view.ty.Contents (Elt F)) (w : S16x1024.Idx → Elt F .f32)
    (hw : ∀ y, w y = GoutL (Scalar.ofBits .f32 0xFF800000#32) ((srcPo L).view.read (Elt F) fs) ((idxPo offI inbI).view.read (Elt F) fi)
      ((cepPo offC inbC).view.read (Elt F) fc) y) :
    ∀ i ∈ (outPo offC inbO).view.set, (outPo offC inbO).view.writes (Elt F) X [⟨Rect.whole S16x1024, w⟩] i = gmaxLArr fs fi fc i := by
  intro i hi
  obtain ⟨y, -, rfl⟩ := Finset.mem_map.mp hi
  obtain ⟨r, x, rfl⟩ : ∃ (r : Fin 16) (x : Fin 1024), y = ix2 r x := ⟨y 0, y 1, eq_ix2 y⟩
  have hq : ch.val * 1024 + 1024 ≤ 4096 := by have := ch.isLt; omega
  -- the one whole write leaves the payload under every index of the piece
  have hL : (outPo offC inbO).view.writes (Elt F) X [⟨Rect.whole S16x1024, w⟩] ((outPo offC inbO).view.emb (ix2 r x)) = w (ix2 r x) := by
    rw [View.writes_singleton]
    have e : (outPo offC inbO).view.emb (ix2 r x)
        = ((outPo offC inbO).view.slice (Rect.whole S16x1024)).emb (ix2 r x) := by
      show _ = (outPo offC inbO).view.emb ((Rect.whole S16x1024).emb (ix2 r x))
      rw [Rect.emb_whole_apply]
    rw [e, View.write_emb_of_mem _ _ (Finset.mem_univ _)]
    rfl
  -- the index scratch's words name points
  have hfix : ∀ z, (((idxPo offI inbI).view.read (Elt F) fi) z).toNat < 4096 := by
    intro z
    obtain ⟨k, x', rfl⟩ : ∃ (k : Fin 20) (x' : Fin 1024), z = ix2 k x' := ⟨z 0, z 1, eq_ix2 z⟩
    rw [idx_read L fi offI inbI (ch.val * 1024) hq hoffI k x']
    exact hidx _
  rw [hL, hw, GoutL_eq_valB _ _ hfix, out_emb L offC inbO (ch.val * 1024) hq hoffC r x]
  exact valB_spec (bT L) (gT L) ch fs fi fc _ _ _ hidx (slab_read L fs)
    (fun k x' => idx_read L fi offI inbI (ch.val * 1024) hq hoffI k x')
    (fun r' x' => cep_read L fc offC inbC (ch.val * 1024) hq hoffC r' x') r x

/-- What the chunk's loops fill the output scratch with, from the tile's slices, is the pooled and rectified array under
    every index of the tile's piece of the output. -/
theorem glueL (L : grid1.Coords) (fs : Vec F S8x262144 .f32) (fi : IVec S8x20x4096 32) (fc : Vec F S8x64x4096 .f32)
    (hidx : ∀ j, (fi j).toNat < 4096)
    (offI : Fin 3 → Nat) (inbI : ∀ a, offI a + S1x20x1024.size a ≤ S8x20x4096.size a)
    (offC : Fin 3 → Nat) (inbC inbO : ∀ a, offC a + S1x16x1024.size a ≤ S8x64x4096.size a)
    (ch : Fin 4) (hoffI : offI = ![(wid L).val / 4, 0, ch.val * 1024]) (hoffC : offC = ![(wid L).val / 4, (wid L).val % 4 * 16, ch.val * 1024])
    (y : S16x1024.Idx) :
    GoutL (Scalar.ofBits .f32 0xFF800000#32) ((srcPo L).view.read (Elt F) fs) ((idxPo offI inbI).view.read (Elt F) fi)
        ((cepPo offC inbC).view.read (Elt F) fc) y
      = gmaxLArr fs fi fc ((outPo offC inbO).view.emb y) := by
  obtain ⟨r, x, rfl⟩ : ∃ (r : Fin 16) (x : Fin 1024), y = ix2 r x := ⟨y 0, y 1, eq_ix2 y⟩
  have hq : ch.val * 1024 + 1024 ≤ 4096 := by have := ch.isLt; omega
  have hfix : ∀ z, (((idxPo offI inbI).view.read (Elt F) fi) z).toNat < 4096 := by
    intro z
    obtain ⟨k, x', rfl⟩ : ∃ (k : Fin 20) (x' : Fin 1024), z = ix2 k x' := ⟨z 0, z 1, eq_ix2 z⟩
    rw [idx_read L fi offI inbI (ch.val * 1024) hq hoffI k x']
    exact hidx _
  rw [GoutL_eq_valB _ _ hfix, out_emb L offC inbO (ch.val * 1024) hq hoffC r x]
  exact valB_spec (bT L) (gT L) ch fs fi fc _ _ _ hidx (slab_read L fs)
    (fun k x' => idx_read L fi offI inbI (ch.val * 1024) hq hoffI k x')
    (fun r' x' => cep_read L fc offC inbC (ch.val * 1024) hq hoffC r' x') r x

/-- The tile's piece of the output, at any contents that read through the piece as the filled scratch, is the piece at the
    pooled and rectified array. -/
theorem out_genL (d : Dev nD) (L : grid1.Coords) (fs : Vec F S8x262144 .f32) (fi : IVec S8x20x4096 32) (fc : Vec F S8x64x4096 .f32)
    (hidx : ∀ j, (fi j).toNat < 4096)
    (offI : Fin 3 → Nat) (inbI : ∀ a, offI a + S1x20x1024.size a ≤ S8x20x4096.size a)
    (offC : Fin 3 → Nat) (inbC inbO : ∀ a, offC a + S1x16x1024.size a ≤ S8x64x4096.size a)
    (ch : Fin 4) (hoffI : offI = ![(wid L).val / 4, 0, ch.val * 1024]) (hoffC : offC = ![(wid L).val / 4, (wid L).val % 4 * 16, ch.val * 1024])
    (g : Buf (Elt F) (outLoc d))
    (hg : ∀ y : S16x1024.Idx, (outPo offC inbO).view.read (Elt F) g y
      = GoutL (Scalar.ofBits .f32 0xFF800000#32) ((srcPo L).view.read (Elt F) fs) ((idxPo offI inbI).view.read (Elt F) fi)
          ((cepPo offC inbC).view.read (Elt F) fc) y) :
    (outLoc d ↦[(outPo offC inbO).view.set]{fullShare} g : sProp 𝕄)
      = (outLoc d ↦[(outPo offC inbO).view.set]{fullShare} gmaxLArr fs fi fc) := by
  refine pointsTo_congr fun i hi => ?_
  obtain ⟨y, -, rfl⟩ := Finset.mem_map.mp hi
  exact (hg y).trans (glueL L fs fi fc hidx offI inbI offC inbC inbO ch hoffI hoffC y)

omit [FloatOps F] in
/-- One write of the whole shape through a view reads, at every index, the payload there. -/
theorem read_writes_whole1 (v : View sig .scVector .hbm S16x1024 .f32) (f : v.ty.Contents (Elt F)) (w : S16x1024.Idx → Elt F .f32)
    (y : S16x1024.Idx) : v.read (Elt F) (v.writes (Elt F) f [⟨Rect.whole S16x1024, w⟩]) y = w y := by
  have h := View.read_writes_cons_emb v f (Rect.whole S16x1024) w [] y
  rw [Rect.emb_whole_apply] at h
  exact h

end Cert.Proof.KB.T1

end
-- ==== Proof.KBTile1Inv.lean ====
/-
  One tile of the first SparseCore call: what the index scratch's loads read, the slab as a gather reads it, and the two
  loops' invariants (the output scratch right in the blocks already done).
-/
import proofs.«209975_g17849884082380_cont_8to1_1483_11_alg».proof.Proof.KBTile1Defs
import proofs.«209975_g17849884082380_cont_8to1_1483_11_alg».proof.Proof.KBTile1Val
import proofs.«209975_g17849884082380_cont_8to1_1483_11_alg».proof.Proof.KBTile2Val
import Idealize.ShloMosaic.Lib.Writes
import Idealize.ShloMosaic.Lib.ValueLayout

noncomputable section

namespace Cert.Proof.KB.T1

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)
local notation "slabW" => (Memref.whole Cert.Kernel.cc1_scratch0 : Memref Cert.Kernel.sig Kind.scVector Space.vmem Cert.Kernel.S65536 EltTy.f32)
local notation "idxbW" => (Memref.whole Cert.Kernel.cc1_scratch1 : Memref Cert.Kernel.sig Kind.scVector Space.vmem Cert.Kernel.S20x1024 EltTy.i32)
local notation "outbW" => (Memref.whole Cert.Kernel.cc1_scratch2 : Memref Cert.Kernel.sig Kind.scVector Space.vmem Cert.Kernel.S16x1024 EltTy.f32)
local notation "cepbW" => (Memref.whole Cert.Kernel.cc1_scratch3 : Memref Cert.Kernel.sig Kind.scVector Space.vmem Cert.Kernel.S16x1024 EltTy.f32)

section Tile

variable (d : Dev nD) (L : grid1.Coords)

/-- The indexed load at the head of a program is the plain load of the whole base, gathered. -/
theorem vli_bind1 {Λ : Labels} {p : Proc τ} {s t : Shape} {e : EltTy} {α : Type} (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = .op (.load base (.whole s) (View.loadsAt_whole hl)) fun f => k (loadIdx f idxs h) := rfl

/-- What a gather reads of the slab's contents. -/
abbrev slabRd1 (fsl : Buf (Elt F) ((V d (cV L) (jV L)).loc cc1_scratch0)) : Vec F S65536 .f32 :=
  (slabW).view.readAt (Elt F) (LoadRect.whole S65536) fsl

theorem slabRd1_apply (fsl : Buf (Elt F) ((V d (cV L) (jV L)).loc cc1_scratch0)) (p : S65536.Idx) : slabRd1 d L fsl p = fsl p := by
  show fsl ((LoadRect.whole S65536).idx p) = fsl p
  congr 1
  funext a
  exact Fin.ext (by show 0 + 1 * (p a).val = (p a).val; omega)

theorem iv4_lt1 (t : Nat) (h : t < 4) : (Scf.iv 0#32 1#32 t).toNat < 4 := by
  unfold Scf.iv
  bv_omega

theorem iv4_val1 (t : Nat) (h : t < 4) : (Scf.iv 0#32 1#32 t).toNat = t := by
  unfold Scf.iv
  bv_omega

/-- A neighbour vector loaded from the index scratch: row `k`'s 16 columns from column `16 i`. -/
theorem idxvec_eq1 (fix : Buf (Elt F) ((V d (cV L) (jV L)).loc cc1_scratch1)) (off : Fin 2 → Nat) (k : Fin 20) (i : Nat) (hi : i < 64) (hoff : off = ![k.val, 16 * i])
    (b : ∀ a, off a + S1x16.size a ≤ S20x1024.size a) (x : S16.Idx) :
    shapeCast S16 ((idxbW).view.readAt (Elt F) (Rect.unit (s := S20x1024) off S1x16.size b).toLoadRect fix) shapeCasts_S1x16_S16 x
      = fix (ix2 k ⟨16 * i + (x 0).val, by have h16 : (x 0).val < 16 := (x 0).isLt; show 16 * i + (x 0).val < 1024; omega⟩) := by
  subst hoff
  obtain ⟨l, rfl⟩ : ∃ l : Fin 16, x = ix1 l := ⟨x 0, eq_ix1 x⟩
  rw [shapeCast_1a_a_apply, View.readAt_apply]
  have hix : (Rect.unit (s := S20x1024) ![k.val, 16 * i] S1x16.size b).toLoadRect.idx (ix2 (0 : Fin 1) l)
      = ix2 k ⟨16 * i + l.val, by have := l.isLt; omega⟩ := by
    funext a
    match a with
    | ⟨0, _⟩ => exact Fin.ext (by show k.val + 1 * 0 = k.val; omega)
    | ⟨1, _⟩ => exact Fin.ext (by show 16 * i + 1 * l.val = 16 * i + l.val; omega)
  rw [hix]
  rfl

/-- A load of sixteen columns of a row of the index scratch. -/
abbrev ldv1 (fix : Buf (Elt F) ((V d (cV L) (jV L)).loc cc1_scratch1)) (off : Fin 2 → Nat) (b : ∀ a, off a + S1x16.size a ≤ S20x1024.size a) : Vec F S1x16 .i32 :=
  (idxbW).view.readAt (Elt F) (Rect.unit (s := S20x1024) off S1x16.size b).toLoadRect fix

variable [FloatOps F]

/-- Minus infinity, as the program writes it. -/
abbrev negInf1 : F .f32 := Scalar.ofBits .f32 0xFF800000#32

/-- The inner loop's invariant in block `i`: the slab, the centre scratch, and the output scratch right in its first `16 i`
    columns and in the first `4 g` rows of the next 16. -/
def invI (fsl : Buf (Elt F) ((V d (cV L) (jV L)).loc cc1_scratch0)) (f3 : Buf (Elt F) ((V d (cV L) (jV L)).loc cc1_scratch3)) (G : S16x1024.Idx → F .f32) (i : Nat) (g : Nat) (_ : Unit) : sProp 𝕄 :=
  iprop(((slabW).view.loc (V d (cV L) (jV L)) ↦{fullShare} fsl) ∗ ((cepbW).view.loc (V d (cV L) (jV L)) ↦{fullShare} f3)
    ∗ ∃ f2, ((outbW).view.loc (V d (cV L) (jV L)) ↦{fullShare} f2) ∗ ⌜Done2 G i g f2⌝)

/-- The outer loop's invariant: the slab, the index scratch, the centre scratch, and the output scratch right in its first
    `16 i` columns. -/
def invO (fsl : Buf (Elt F) ((V d (cV L) (jV L)).loc cc1_scratch0)) (fix : Buf (Elt F) ((V d (cV L) (jV L)).loc cc1_scratch1)) (f3 : Buf (Elt F) ((V d (cV L) (jV L)).loc cc1_scratch3))
    (G : S16x1024.Idx → F .f32) (i : Nat) (_ : Unit) : sProp 𝕄 :=
  iprop(((slabW).view.loc (V d (cV L) (jV L)) ↦{fullShare} fsl) ∗ ((idxbW).view.loc (V d (cV L) (jV L)) ↦{fullShare} fix) ∗ ((cepbW).view.loc (V d (cV L) (jV L)) ↦{fullShare} f3)
    ∗ ∃ f2, ((outbW).view.loc (V d (cV L) (jV L)) ↦{fullShare} f2) ∗ ⌜Done1 G i f2⌝)

end Tile

end Cert.Proof.KB.T1

end
-- ==== Proof.KBTile1C0.lean ====
/-
  One tile of the first SparseCore call, chunk 0 of the points: a trip of the inner loop stores the four rows of its block
  (the epilogue of the running maxima over the 20 gathered neighbour rows), and a trip of the outer loop, the block's 20
  neighbour vectors loaded, fills the block by the inner loop's four trips.
-/
import proofs.«209975_g17849884082380_cont_8to1_1483_11_alg».proof.Proof.KBTile1Defs
import proofs.«209975_g17849884082380_cont_8to1_1483_11_alg».proof.Proof.KBTile1Val
import proofs.«209975_g17849884082380_cont_8to1_1483_11_alg».proof.Proof.KBTile1Trip
import proofs.«209975_g17849884082380_cont_8to1_1483_11_alg».proof.Proof.KBTile2Val
import proofs.«209975_g17849884082380_cont_8to1_1483_11_alg».proof.Proof.KBTile1Inv
import Idealize.ShloMosaic.Lib.Writes
import Idealize.ShloMosaic.Lib.ValueLayout

noncomputable section

namespace Cert.Proof.KB.T1

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)
local notation "slabW" => (Memref.whole Cert.Kernel.cc1_scratch0 : Memref Cert.Kernel.sig Kind.scVector Space.vmem Cert.Kernel.S65536 EltTy.f32)
local notation "idxbW" => (Memref.whole Cert.Kernel.cc1_scratch1 : Memref Cert.Kernel.sig Kind.scVector Space.vmem Cert.Kernel.S20x1024 EltTy.i32)
local notation "outbW" => (Memref.whole Cert.Kernel.cc1_scratch2 : Memref Cert.Kernel.sig Kind.scVector Space.vmem Cert.Kernel.S16x1024 EltTy.f32)
local notation "cepbW" => (Memref.whole Cert.Kernel.cc1_scratch3 : Memref Cert.Kernel.sig Kind.scVector Space.vmem Cert.Kernel.S16x1024 EltTy.f32)

section Tile

variable (d : Dev nD) (L : grid1.Coords)

variable [FloatOps F]

/-- The 20 neighbour vectors of a trip of this chunk, in order. -/
abbrev U0 (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32) : Fin 20 → IVec S16 32 :=
  ![v46, v49, v52, v55, v58, v61, v64, v67, v70, v73, v76, k1_pay624 v79_ld, k1_pay625 v82_ld, k1_pay626 v85_ld, k1_pay627 v88_ld, k1_pay628 v91_ld, k1_pay629 v94_ld, k1_pay630 v97_ld, k1_pay631 v100_ld, k1_pay632 v103_ld]

attribute [local sl_canon] vli_bind1 in
set_option maxHeartbeats 16000000 in
/-- A trip of the inner loop: from the slab, the output scratch and the centre scratch, the same with the trip's four rows
    stored. -/
theorem innerV0 (fsl : Buf (Elt F) ((V d (cV L) (jV L)).loc cc1_scratch0)) (f2 : Buf (Elt F) ((V d (cV L) (jV L)).loc cc1_scratch2))
    (f3 : Buf (Elt F) ((V d (cV L) (jV L)).loc cc1_scratch3))
    (v28 : BitVec 32) (v30 : FVec F S16 .f32) (k1_t1 : Fin k1_t1_loop.trips) (v43 : BitVec 32)
    (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32)
    (hU : ∀ k x, ((U0 (F := F) v46 v49 v52 v55 v58 v61 v64 v67 v70 v73 v76 v79_ld v82_ld v85_ld v88_ld v91_ld v94_ld v97_ld v100_ld v103_ld) k x).toNat < 4096)
    (k1_t2 : Fin k1_t2_loop.trips) :
    (iprop(((slabW).view.loc (V d (cV L) (jV L)) ↦{fullShare} fsl) ∗ ((outbW).view.loc (V d (cV L) (jV L)) ↦{fullShare} f2)
        ∗ ((cepbW).view.loc (V d (cV L) (jV L)) ↦{fullShare} f3)) : sProp 𝕄)
      ⊢ wp frame (wpE (defs₀ (F := F)) 𝒱₀ (V d (cV L) (jV L)) none) Set.univ
          (k1_t2_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 v30 k1_t1 v43 v46 v49 v52 v55 v58 v61 v64 v67 v70 v73 v76 v79_ld v82_ld v85_ld v88_ld v91_ld v94_ld v97_ld v100_ld v103_ld k1_t2 ())
          fun _ => iprop(((slabW).view.loc (V d (cV L) (jV L)) ↦{fullShare} fsl) ∗ ((outbW).view.loc (V d (cV L) (jV L)) ↦{fullShare}
            (outbW).view.writes (Elt F) f2 (tripPiecesL v30 (slabRd1 d L fsl) f3 (U0 v46 v49 v52 v55 v58 v61 v64 v67 v70 v73 v76 v79_ld v82_ld v85_ld v88_ld v91_ld v94_ld v97_ld v100_ld v103_ld) hU (k1_off24 k1_t1 k1_t2) (k1_off24_inb k1_t1 k1_t2)
              (Scf.iv 0#32 1#32 k1_t2.val) (iv4_lt1 k1_t2.val k1_t2.isLt)))
            ∗ ((cepbW).view.loc (V d (cV L) (jV L)) ↦{fullShare} f3)) := by
  have hg : (Scf.iv 0#32 1#32 k1_t2.val).toNat < 4 := iv4_lt1 k1_t2.val k1_t2.isLt
  have h46 : ∀ x, (v46 x).toNat < 4096 := hU 0
  have h49 : ∀ x, (v49 x).toNat < 4096 := hU 1
  have h52 : ∀ x, (v52 x).toNat < 4096 := hU 2
  have h55 : ∀ x, (v55 x).toNat < 4096 := hU 3
  have h58 : ∀ x, (v58 x).toNat < 4096 := hU 4
  have h61 : ∀ x, (v61 x).toNat < 4096 := hU 5
  have h64 : ∀ x, (v64 x).toNat < 4096 := hU 6
  have h67 : ∀ x, (v67 x).toNat < 4096 := hU 7
  have h70 : ∀ x, (v70 x).toNat < 4096 := hU 8
  have h73 : ∀ x, (v73 x).toNat < 4096 := hU 9
  have h76 : ∀ x, (v76 x).toNat < 4096 := hU 10
  have h79 : ∀ x, (k1_pay624 (F := F) v79_ld x).toNat < 4096 := hU 11
  have h82 : ∀ x, (k1_pay625 (F := F) v82_ld x).toNat < 4096 := hU 12
  have h85 : ∀ x, (k1_pay626 (F := F) v85_ld x).toNat < 4096 := hU 13
  have h88 : ∀ x, (k1_pay627 (F := F) v88_ld x).toNat < 4096 := hU 14
  have h91 : ∀ x, (k1_pay628 (F := F) v91_ld x).toNat < 4096 := hU 15
  have h94 : ∀ x, (k1_pay629 (F := F) v94_ld x).toNat < 4096 := hU 16
  have h97 : ∀ x, (k1_pay630 (F := F) v97_ld x).toNat < 4096 := hU 17
  have h100 : ∀ x, (k1_pay631 (F := F) v100_ld x).toNat < 4096 := hU 18
  have h103 : ∀ x, (k1_pay632 (F := F) v103_ld x).toNat < 4096 := hU 19
  unfold k1_t2_body tripPiecesL
  iintro ⟨Hslab, Hout, Hcep⟩
  sl_exec (disch := exact chk_idxOff (by assumption) hg (by decide))
  sl_step
  isplitl [Hslab]
  · iexact Hslab
  isplitl [Hout]
  · iexact Hout
  · iexact Hcep

/-- The 20 neighbour vectors block `t1` loads are the 20 rows of the index scratch at the block's sixteen columns. -/
theorem U0_loaded (fix : Buf (Elt F) ((V d (cV L) (jV L)).loc cc1_scratch1)) (t1 : Fin k1_t1_loop.trips) (k : Fin 20) (x : S16.Idx) :
    U0 (F := F) (k1_pay153 (ldv1 d L fix (k1_off4 t1) (k1_off4_inb t1))) (k1_pay154 (ldv1 d L fix (k1_off5 t1) (k1_off5_inb t1))) (k1_pay155 (ldv1 d L fix (k1_off6 t1) (k1_off6_inb t1))) (k1_pay156 (ldv1 d L fix (k1_off7 t1) (k1_off7_inb t1))) (k1_pay157 (ldv1 d L fix (k1_off8 t1) (k1_off8_inb t1))) (k1_pay158 (ldv1 d L fix (k1_off9 t1) (k1_off9_inb t1))) (k1_pay159 (ldv1 d L fix (k1_off10 t1) (k1_off10_inb t1))) (k1_pay160 (ldv1 d L fix (k1_off11 t1) (k1_off11_inb t1))) (k1_pay161 (ldv1 d L fix (k1_off12 t1) (k1_off12_inb t1))) (k1_pay162 (ldv1 d L fix (k1_off13 t1) (k1_off13_inb t1))) (k1_pay163 (ldv1 d L fix (k1_off14 t1) (k1_off14_inb t1))) (ldv1 d L fix (k1_off15 t1) (k1_off15_inb t1)) (ldv1 d L fix (k1_off16 t1) (k1_off16_inb t1)) (ldv1 d L fix (k1_off17 t1) (k1_off17_inb t1)) (ldv1 d L fix (k1_off18 t1) (k1_off18_inb t1)) (ldv1 d L fix (k1_off19 t1) (k1_off19_inb t1)) (ldv1 d L fix (k1_off20 t1) (k1_off20_inb t1)) (ldv1 d L fix (k1_off21 t1) (k1_off21_inb t1)) (ldv1 d L fix (k1_off22 t1) (k1_off22_inb t1)) (ldv1 d L fix (k1_off23 t1) (k1_off23_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq1 d L fix _ ⟨0, by omega⟩ t1.val ht (k1_off4_eq t1) _ x
  | ⟨1, _⟩ => exact idxvec_eq1 d L fix _ ⟨1, by omega⟩ t1.val ht (k1_off5_eq t1) _ x
  | ⟨2, _⟩ => exact idxvec_eq1 d L fix _ ⟨2, by omega⟩ t1.val ht (k1_off6_eq t1) _ x
  | ⟨3, _⟩ => exact idxvec_eq1 d L fix _ ⟨3, by omega⟩ t1.val ht (k1_off7_eq t1) _ x
  | ⟨4, _⟩ => exact idxvec_eq1 d L fix _ ⟨4, by omega⟩ t1.val ht (k1_off8_eq t1) _ x
  | ⟨5, _⟩ => exact idxvec_eq1 d L fix _ ⟨5, by omega⟩ t1.val ht (k1_off9_eq t1) _ x
  | ⟨6, _⟩ => exact idxvec_eq1 d L fix _ ⟨6, by omega⟩ t1.val ht (k1_off10_eq t1) _ x
  | ⟨7, _⟩ => exact idxvec_eq1 d L fix _ ⟨7, by omega⟩ t1.val ht (k1_off11_eq t1) _ x
  | ⟨8, _⟩ => exact idxvec_eq1 d L fix _ ⟨8, by omega⟩ t1.val ht (k1_off12_eq t1) _ x
  | ⟨9, _⟩ => exact idxvec_eq1 d L fix _ ⟨9, by omega⟩ t1.val ht (k1_off13_eq t1) _ x
  | ⟨10, _⟩ => exact idxvec_eq1 d L fix _ ⟨10, by omega⟩ t1.val ht (k1_off14_eq t1) _ x
  | ⟨11, _⟩ => exact idxvec_eq1 d L fix _ ⟨11, by omega⟩ t1.val ht (k1_off15_eq t1) _ x
  | ⟨12, _⟩ => exact idxvec_eq1 d L fix _ ⟨12, by omega⟩ t1.val ht (k1_off16_eq t1) _ x
  | ⟨13, _⟩ => exact idxvec_eq1 d L fix _ ⟨13, by omega⟩ t1.val ht (k1_off17_eq t1) _ x
  | ⟨14, _⟩ => exact idxvec_eq1 d L fix _ ⟨14, by omega⟩ t1.val ht (k1_off18_eq t1) _ x
  | ⟨15, _⟩ => exact idxvec_eq1 d L fix _ ⟨15, by omega⟩ t1.val ht (k1_off19_eq t1) _ x
  | ⟨16, _⟩ => exact idxvec_eq1 d L fix _ ⟨16, by omega⟩ t1.val ht (k1_off20_eq t1) _ x
  | ⟨17, _⟩ => exact idxvec_eq1 d L fix _ ⟨17, by omega⟩ t1.val ht (k1_off21_eq t1) _ x
  | ⟨18, _⟩ => exact idxvec_eq1 d L fix _ ⟨18, by omega⟩ t1.val ht (k1_off22_eq t1) _ x
  | ⟨19, _⟩ => exact idxvec_eq1 d L fix _ ⟨19, by omega⟩ t1.val ht (k1_off23_eq t1) _ x
  | ⟨n + 20, h⟩ => exact absurd h (by omega)

set_option maxHeartbeats 8000000 in
/-- A trip of the outer loop: the block's 20 neighbour vectors loaded, then the inner loop's four trips fill the block. -/
theorem outerV0 (fsl : Buf (Elt F) ((V d (cV L) (jV L)).loc cc1_scratch0)) (fix : Buf (Elt F) ((V d (cV L) (jV L)).loc cc1_scratch1))
    (f3 : Buf (Elt F) ((V d (cV L) (jV L)).loc cc1_scratch3))
    (hfix : ∀ y, (fix y).toNat < 4096) (v28 : BitVec 32) (t1 : Fin k1_t1_loop.trips) (acc : Unit) :
    invO d L fsl fix f3 (GoutL negInf1 fsl fix f3) t1.val acc
      ⊢ wp frame (wpE (defs₀ (F := F)) 𝒱₀ (V d (cV L) (jV L)) none) Set.univ
          (k1_t1_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 k1_pay623 t1 acc)
          (invO d L fsl fix f3 (GoutL negInf1 fsl fix f3) (t1.val + 1)) := by
  have ht : t1.val < 64 := t1.isLt
  have hU : ∀ k x, ((U0 (F := F) (k1_pay153 (ldv1 d L fix (k1_off4 t1) (k1_off4_inb t1))) (k1_pay154 (ldv1 d L fix (k1_off5 t1) (k1_off5_inb t1))) (k1_pay155 (ldv1 d L fix (k1_off6 t1) (k1_off6_inb t1))) (k1_pay156 (ldv1 d L fix (k1_off7 t1) (k1_off7_inb t1))) (k1_pay157 (ldv1 d L fix (k1_off8 t1) (k1_off8_inb t1))) (k1_pay158 (ldv1 d L fix (k1_off9 t1) (k1_off9_inb t1))) (k1_pay159 (ldv1 d L fix (k1_off10 t1) (k1_off10_inb t1))) (k1_pay160 (ldv1 d L fix (k1_off11 t1) (k1_off11_inb t1))) (k1_pay161 (ldv1 d L fix (k1_off12 t1) (k1_off12_inb t1))) (k1_pay162 (ldv1 d L fix (k1_off13 t1) (k1_off13_inb t1))) (k1_pay163 (ldv1 d L fix (k1_off14 t1) (k1_off14_inb t1))) (ldv1 d L fix (k1_off15 t1) (k1_off15_inb t1)) (ldv1 d L fix (k1_off16 t1) (k1_off16_inb t1)) (ldv1 d L fix (k1_off17 t1) (k1_off17_inb t1)) (ldv1 d L fix (k1_off18 t1) (k1_off18_inb t1)) (ldv1 d L fix (k1_off19 t1) (k1_off19_inb t1)) (ldv1 d L fix (k1_off20 t1) (k1_off20_inb t1)) (ldv1 d L fix (k1_off21 t1) (k1_off21_inb t1)) (ldv1 d L fix (k1_off22 t1) (k1_off22_inb t1)) (ldv1 d L fix (k1_off23 t1) (k1_off23_inb t1))) k x).toNat < 4096 :=
    fun k x => (congrArg BitVec.toNat (U0_loaded d L fix t1 k x)).trans_lt (hfix _)
  unfold invO
  iintro ⟨Hslab, Hidxb, Hcep, %f2, Hout, %hD⟩
  unfold k1_t1_body
  sl_exec
  sl_for (invI d L fsl f3 (GoutL negInf1 fsl fix f3) t1.val) $$ [Hslab Hout Hcep]
  case region =>
    intro t2 acc2
    have ht2 : t2.val < 4 := t2.isLt
    unfold invI
    iintro ⟨Hslab, Hcep, %f2', Hout, %hD2⟩
    ihave Hwp := (innerV0 (F := F) d L fsl f2' f3 v28 k1_pay623 t1 (Scalar.muli (Scf.iv 0#32 1#32 t1.val) 16#32) (k1_pay153 (ldv1 d L fix (k1_off4 t1) (k1_off4_inb t1))) (k1_pay154 (ldv1 d L fix (k1_off5 t1) (k1_off5_inb t1))) (k1_pay155 (ldv1 d L fix (k1_off6 t1) (k1_off6_inb t1))) (k1_pay156 (ldv1 d L fix (k1_off7 t1) (k1_off7_inb t1))) (k1_pay157 (ldv1 d L fix (k1_off8 t1) (k1_off8_inb t1))) (k1_pay158 (ldv1 d L fix (k1_off9 t1) (k1_off9_inb t1))) (k1_pay159 (ldv1 d L fix (k1_off10 t1) (k1_off10_inb t1))) (k1_pay160 (ldv1 d L fix (k1_off11 t1) (k1_off11_inb t1))) (k1_pay161 (ldv1 d L fix (k1_off12 t1) (k1_off12_inb t1))) (k1_pay162 (ldv1 d L fix (k1_off13 t1) (k1_off13_inb t1))) (k1_pay163 (ldv1 d L fix (k1_off14 t1) (k1_off14_inb t1))) (ldv1 d L fix (k1_off15 t1) (k1_off15_inb t1)) (ldv1 d L fix (k1_off16 t1) (k1_off16_inb t1)) (ldv1 d L fix (k1_off17 t1) (k1_off17_inb t1)) (ldv1 d L fix (k1_off18 t1) (k1_off18_inb t1)) (ldv1 d L fix (k1_off19 t1) (k1_off19_inb t1)) (ldv1 d L fix (k1_off20 t1) (k1_off20_inb t1)) (ldv1 d L fix (k1_off21 t1) (k1_off21_inb t1)) (ldv1 d L fix (k1_off22 t1) (k1_off22_inb t1)) (ldv1 d L fix (k1_off23 t1) (k1_off23_inb t1)) hU t2) $$ [Hslab Hout Hcep]
    · isplitl [Hslab]
      · iexact Hslab
      isplitl [Hout]
      · iexact Hout
      · iexact Hcep
    iapply (wp_wand frame _ _) $$ Hwp
    iintro %_ ⟨Hslab, Hout, Hcep⟩
    isplitl [Hslab]
    · iexact Hslab
    isplitl [Hcep]
    · iexact Hcep
    iexists _
    isplitl [Hout]
    · iexact Hout
    ipureintro
    exact tripPiecesL_done negInf1 fsl fix hfix f3 t1.val t2.val ht k1_pay623 (fun _ => rfl) (slabRd1 d L fsl) (slabRd1_apply d L fsl) _ hU (U0_loaded d L fix t1)
      (k1_off24 t1 t2) (k1_off24_inb t1 t2) (k1_off24_eq t1 t2) (Scf.iv 0#32 1#32 t2.val) (iv4_lt1 _ ht2) (iv4_val1 _ ht2) f2' hD2
  · unfold invI
    isplitl [Hslab]
    · iexact Hslab
    isplitl [Hcep]
    · iexact Hcep
    iexists f2
    isplitl [Hout]
    · iexact Hout
    ipureintro
    exact done2_of_done1 hD
  iintro %_ HI
  unfold invI
  icases HI with ⟨Hslab, Hcep, %f2'', Hout, %hD4⟩
  sl_exec
  sl_step
  isplitl [Hslab]
  · iexact Hslab
  isplitl [Hidxb]
  · iexact Hidxb
  isplitl [Hcep]
  · iexact Hcep
  iexists f2''
  isplitl [Hout]
  · iexact Hout
  ipureintro
  exact done1_of_done2 hD4

end Tile

end Cert.Proof.KB.T1

end
-- ==== Proof.KBTile1C1.lean ====
/-
  One tile of the first SparseCore call, chunk 1 of the points: a trip of the inner loop stores the four rows of its block
  (the epilogue of the running maxima over the 20 gathered neighbour rows), and a trip of the outer loop, the block's 20
  neighbour vectors loaded, fills the block by the inner loop's four trips.
-/
import proofs.«209975_g17849884082380_cont_8to1_1483_11_alg».proof.Proof.KBTile1Defs
import proofs.«209975_g17849884082380_cont_8to1_1483_11_alg».proof.Proof.KBTile1Val
import proofs.«209975_g17849884082380_cont_8to1_1483_11_alg».proof.Proof.KBTile1Trip
import proofs.«209975_g17849884082380_cont_8to1_1483_11_alg».proof.Proof.KBTile2Val
import proofs.«209975_g17849884082380_cont_8to1_1483_11_alg».proof.Proof.KBTile1Inv
import Idealize.ShloMosaic.Lib.Writes
import Idealize.ShloMosaic.Lib.ValueLayout

noncomputable section

namespace Cert.Proof.KB.T1

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)
local notation "slabW" => (Memref.whole Cert.Kernel.cc1_scratch0 : Memref Cert.Kernel.sig Kind.scVector Space.vmem Cert.Kernel.S65536 EltTy.f32)
local notation "idxbW" => (Memref.whole Cert.Kernel.cc1_scratch1 : Memref Cert.Kernel.sig Kind.scVector Space.vmem Cert.Kernel.S20x1024 EltTy.i32)
local notation "outbW" => (Memref.whole Cert.Kernel.cc1_scratch2 : Memref Cert.Kernel.sig Kind.scVector Space.vmem Cert.Kernel.S16x1024 EltTy.f32)
local notation "cepbW" => (Memref.whole Cert.Kernel.cc1_scratch3 : Memref Cert.Kernel.sig Kind.scVector Space.vmem Cert.Kernel.S16x1024 EltTy.f32)

section Tile

variable (d : Dev nD) (L : grid1.Coords)

variable [FloatOps F]

/-- The 20 neighbour vectors of a trip of this chunk, in order. -/
abbrev U1 (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32) : Fin 20 → IVec S16 32 :=
  ![v46, v49, v52, v55, v58, v61, v64, v67, v70, v73, v76, k1_pay634 v79_ld, k1_pay635 v82_ld, k1_pay636 v85_ld, k1_pay637 v88_ld, k1_pay638 v91_ld, k1_pay639 v94_ld, k1_pay640 v97_ld, k1_pay641 v100_ld, k1_pay642 v103_ld]

attribute [local sl_canon] vli_bind1 in
set_option maxHeartbeats 16000000 in
/-- A trip of the inner loop: from the slab, the output scratch and the centre scratch, the same with the trip's four rows
    stored. -/
theorem innerV1 (fsl : Buf (Elt F) ((V d (cV L) (jV L)).loc cc1_scratch0)) (f2 : Buf (Elt F) ((V d (cV L) (jV L)).loc cc1_scratch2))
    (f3 : Buf (Elt F) ((V d (cV L) (jV L)).loc cc1_scratch3))
    (v28 : BitVec 32) (v30 : FVec F S16 .f32) (k1_t3 : Fin k1_t3_loop.trips) (v43 : BitVec 32)
    (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32)
    (hU : ∀ k x, ((U1 (F := F) v46 v49 v52 v55 v58 v61 v64 v67 v70 v73 v76 v79_ld v82_ld v85_ld v88_ld v91_ld v94_ld v97_ld v100_ld v103_ld) k x).toNat < 4096)
    (k1_t4 : Fin k1_t4_loop.trips) :
    (iprop(((slabW).view.loc (V d (cV L) (jV L)) ↦{fullShare} fsl) ∗ ((outbW).view.loc (V d (cV L) (jV L)) ↦{fullShare} f2)
        ∗ ((cepbW).view.loc (V d (cV L) (jV L)) ↦{fullShare} f3)) : sProp 𝕄)
      ⊢ wp frame (wpE (defs₀ (F := F)) 𝒱₀ (V d (cV L) (jV L)) none) Set.univ
          (k1_t4_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 v30 k1_t3 v43 v46 v49 v52 v55 v58 v61 v64 v67 v70 v73 v76 v79_ld v82_ld v85_ld v88_ld v91_ld v94_ld v97_ld v100_ld v103_ld k1_t4 ())
          fun _ => iprop(((slabW).view.loc (V d (cV L) (jV L)) ↦{fullShare} fsl) ∗ ((outbW).view.loc (V d (cV L) (jV L)) ↦{fullShare}
            (outbW).view.writes (Elt F) f2 (tripPiecesL v30 (slabRd1 d L fsl) f3 (U1 v46 v49 v52 v55 v58 v61 v64 v67 v70 v73 v76 v79_ld v82_ld v85_ld v88_ld v91_ld v94_ld v97_ld v100_ld v103_ld) hU (k1_off47 k1_t3 k1_t4) (k1_off47_inb k1_t3 k1_t4)
              (Scf.iv 0#32 1#32 k1_t4.val) (iv4_lt1 k1_t4.val k1_t4.isLt)))
            ∗ ((cepbW).view.loc (V d (cV L) (jV L)) ↦{fullShare} f3)) := by
  have hg : (Scf.iv 0#32 1#32 k1_t4.val).toNat < 4 := iv4_lt1 k1_t4.val k1_t4.isLt
  have h46 : ∀ x, (v46 x).toNat < 4096 := hU 0
  have h49 : ∀ x, (v49 x).toNat < 4096 := hU 1
  have h52 : ∀ x, (v52 x).toNat < 4096 := hU 2
  have h55 : ∀ x, (v55 x).toNat < 4096 := hU 3
  have h58 : ∀ x, (v58 x).toNat < 4096 := hU 4
  have h61 : ∀ x, (v61 x).toNat < 4096 := hU 5
  have h64 : ∀ x, (v64 x).toNat < 4096 := hU 6
  have h67 : ∀ x, (v67 x).toNat < 4096 := hU 7
  have h70 : ∀ x, (v70 x).toNat < 4096 := hU 8
  have h73 : ∀ x, (v73 x).toNat < 4096 := hU 9
  have h76 : ∀ x, (v76 x).toNat < 4096 := hU 10
  have h79 : ∀ x, (k1_pay634 (F := F) v79_ld x).toNat < 4096 := hU 11
  have h82 : ∀ x, (k1_pay635 (F := F) v82_ld x).toNat < 4096 := hU 12
  have h85 : ∀ x, (k1_pay636 (F := F) v85_ld x).toNat < 4096 := hU 13
  have h88 : ∀ x, (k1_pay637 (F := F) v88_ld x).toNat < 4096 := hU 14
  have h91 : ∀ x, (k1_pay638 (F := F) v91_ld x).toNat < 4096 := hU 15
  have h94 : ∀ x, (k1_pay639 (F := F) v94_ld x).toNat < 4096 := hU 16
  have h97 : ∀ x, (k1_pay640 (F := F) v97_ld x).toNat < 4096 := hU 17
  have h100 : ∀ x, (k1_pay641 (F := F) v100_ld x).toNat < 4096 := hU 18
  have h103 : ∀ x, (k1_pay642 (F := F) v103_ld x).toNat < 4096 := hU 19
  unfold k1_t4_body tripPiecesL
  iintro ⟨Hslab, Hout, Hcep⟩
  sl_exec (disch := exact chk_idxOff (by assumption) hg (by decide))
  sl_step
  isplitl [Hslab]
  · iexact Hslab
  isplitl [Hout]
  · iexact Hout
  · iexact Hcep

/-- The 20 neighbour vectors block `t1` loads are the 20 rows of the index scratch at the block's sixteen columns. -/
theorem U1_loaded (fix : Buf (Elt F) ((V d (cV L) (jV L)).loc cc1_scratch1)) (t1 : Fin k1_t3_loop.trips) (k : Fin 20) (x : S16.Idx) :
    U1 (F := F) (k1_pay306 (ldv1 d L fix (k1_off27 t1) (k1_off27_inb t1))) (k1_pay307 (ldv1 d L fix (k1_off28 t1) (k1_off28_inb t1))) (k1_pay308 (ldv1 d L fix (k1_off29 t1) (k1_off29_inb t1))) (k1_pay309 (ldv1 d L fix (k1_off30 t1) (k1_off30_inb t1))) (k1_pay310 (ldv1 d L fix (k1_off31 t1) (k1_off31_inb t1))) (k1_pay311 (ldv1 d L fix (k1_off32 t1) (k1_off32_inb t1))) (k1_pay312 (ldv1 d L fix (k1_off33 t1) (k1_off33_inb t1))) (k1_pay313 (ldv1 d L fix (k1_off34 t1) (k1_off34_inb t1))) (k1_pay314 (ldv1 d L fix (k1_off35 t1) (k1_off35_inb t1))) (k1_pay315 (ldv1 d L fix (k1_off36 t1) (k1_off36_inb t1))) (k1_pay316 (ldv1 d L fix (k1_off37 t1) (k1_off37_inb t1))) (ldv1 d L fix (k1_off38 t1) (k1_off38_inb t1)) (ldv1 d L fix (k1_off39 t1) (k1_off39_inb t1)) (ldv1 d L fix (k1_off40 t1) (k1_off40_inb t1)) (ldv1 d L fix (k1_off41 t1) (k1_off41_inb t1)) (ldv1 d L fix (k1_off42 t1) (k1_off42_inb t1)) (ldv1 d L fix (k1_off43 t1) (k1_off43_inb t1)) (ldv1 d L fix (k1_off44 t1) (k1_off44_inb t1)) (ldv1 d L fix (k1_off45 t1) (k1_off45_inb t1)) (ldv1 d L fix (k1_off46 t1) (k1_off46_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq1 d L fix _ ⟨0, by omega⟩ t1.val ht (k1_off27_eq t1) _ x
  | ⟨1, _⟩ => exact idxvec_eq1 d L fix _ ⟨1, by omega⟩ t1.val ht (k1_off28_eq t1) _ x
  | ⟨2, _⟩ => exact idxvec_eq1 d L fix _ ⟨2, by omega⟩ t1.val ht (k1_off29_eq t1) _ x
  | ⟨3, _⟩ => exact idxvec_eq1 d L fix _ ⟨3, by omega⟩ t1.val ht (k1_off30_eq t1) _ x
  | ⟨4, _⟩ => exact idxvec_eq1 d L fix _ ⟨4, by omega⟩ t1.val ht (k1_off31_eq t1) _ x
  | ⟨5, _⟩ => exact idxvec_eq1 d L fix _ ⟨5, by omega⟩ t1.val ht (k1_off32_eq t1) _ x
  | ⟨6, _⟩ => exact idxvec_eq1 d L fix _ ⟨6, by omega⟩ t1.val ht (k1_off33_eq t1) _ x
  | ⟨7, _⟩ => exact idxvec_eq1 d L fix _ ⟨7, by omega⟩ t1.val ht (k1_off34_eq t1) _ x
  | ⟨8, _⟩ => exact idxvec_eq1 d L fix _ ⟨8, by omega⟩ t1.val ht (k1_off35_eq t1) _ x
  | ⟨9, _⟩ => exact idxvec_eq1 d L fix _ ⟨9, by omega⟩ t1.val ht (k1_off36_eq t1) _ x
  | ⟨10, _⟩ => exact idxvec_eq1 d L fix _ ⟨10, by omega⟩ t1.val ht (k1_off37_eq t1) _ x
  | ⟨11, _⟩ => exact idxvec_eq1 d L fix _ ⟨11, by omega⟩ t1.val ht (k1_off38_eq t1) _ x
  | ⟨12, _⟩ => exact idxvec_eq1 d L fix _ ⟨12, by omega⟩ t1.val ht (k1_off39_eq t1) _ x
  | ⟨13, _⟩ => exact idxvec_eq1 d L fix _ ⟨13, by omega⟩ t1.val ht (k1_off40_eq t1) _ x
  | ⟨14, _⟩ => exact idxvec_eq1 d L fix _ ⟨14, by omega⟩ t1.val ht (k1_off41_eq t1) _ x
  | ⟨15, _⟩ => exact idxvec_eq1 d L fix _ ⟨15, by omega⟩ t1.val ht (k1_off42_eq t1) _ x
  | ⟨16, _⟩ => exact idxvec_eq1 d L fix _ ⟨16, by omega⟩ t1.val ht (k1_off43_eq t1) _ x
  | ⟨17, _⟩ => exact idxvec_eq1 d L fix _ ⟨17, by omega⟩ t1.val ht (k1_off44_eq t1) _ x
  | ⟨18, _⟩ => exact idxvec_eq1 d L fix _ ⟨18, by omega⟩ t1.val ht (k1_off45_eq t1) _ x
  | ⟨19, _⟩ => exact idxvec_eq1 d L fix _ ⟨19, by omega⟩ t1.val ht (k1_off46_eq t1) _ x
  | ⟨n + 20, h⟩ => exact absurd h (by omega)

set_option maxHeartbeats 8000000 in
/-- A trip of the outer loop: the block's 20 neighbour vectors loaded, then the inner loop's four trips fill the block. -/
theorem outerV1 (fsl : Buf (Elt F) ((V d (cV L) (jV L)).loc cc1_scratch0)) (fix : Buf (Elt F) ((V d (cV L) (jV L)).loc cc1_scratch1))
    (f3 : Buf (Elt F) ((V d (cV L) (jV L)).loc cc1_scratch3))
    (hfix : ∀ y, (fix y).toNat < 4096) (v28 : BitVec 32) (t1 : Fin k1_t3_loop.trips) (acc : Unit) :
    invO d L fsl fix f3 (GoutL negInf1 fsl fix f3) t1.val acc
      ⊢ wp frame (wpE (defs₀ (F := F)) 𝒱₀ (V d (cV L) (jV L)) none) Set.univ
          (k1_t3_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 k1_pay623 t1 acc)
          (invO d L fsl fix f3 (GoutL negInf1 fsl fix f3) (t1.val + 1)) := by
  have ht : t1.val < 64 := t1.isLt
  have hU : ∀ k x, ((U1 (F := F) (k1_pay306 (ldv1 d L fix (k1_off27 t1) (k1_off27_inb t1))) (k1_pay307 (ldv1 d L fix (k1_off28 t1) (k1_off28_inb t1))) (k1_pay308 (ldv1 d L fix (k1_off29 t1) (k1_off29_inb t1))) (k1_pay309 (ldv1 d L fix (k1_off30 t1) (k1_off30_inb t1))) (k1_pay310 (ldv1 d L fix (k1_off31 t1) (k1_off31_inb t1))) (k1_pay311 (ldv1 d L fix (k1_off32 t1) (k1_off32_inb t1))) (k1_pay312 (ldv1 d L fix (k1_off33 t1) (k1_off33_inb t1))) (k1_pay313 (ldv1 d L fix (k1_off34 t1) (k1_off34_inb t1))) (k1_pay314 (ldv1 d L fix (k1_off35 t1) (k1_off35_inb t1))) (k1_pay315 (ldv1 d L fix (k1_off36 t1) (k1_off36_inb t1))) (k1_pay316 (ldv1 d L fix (k1_off37 t1) (k1_off37_inb t1))) (ldv1 d L fix (k1_off38 t1) (k1_off38_inb t1)) (ldv1 d L fix (k1_off39 t1) (k1_off39_inb t1)) (ldv1 d L fix (k1_off40 t1) (k1_off40_inb t1)) (ldv1 d L fix (k1_off41 t1) (k1_off41_inb t1)) (ldv1 d L fix (k1_off42 t1) (k1_off42_inb t1)) (ldv1 d L fix (k1_off43 t1) (k1_off43_inb t1)) (ldv1 d L fix (k1_off44 t1) (k1_off44_inb t1)) (ldv1 d L fix (k1_off45 t1) (k1_off45_inb t1)) (ldv1 d L fix (k1_off46 t1) (k1_off46_inb t1))) k x).toNat < 4096 :=
    fun k x => (congrArg BitVec.toNat (U1_loaded d L fix t1 k x)).trans_lt (hfix _)
  unfold invO
  iintro ⟨Hslab, Hidxb, Hcep, %f2, Hout, %hD⟩
  unfold k1_t3_body
  sl_exec
  sl_for (invI d L fsl f3 (GoutL negInf1 fsl fix f3) t1.val) $$ [Hslab Hout Hcep]
  case region =>
    intro t2 acc2
    have ht2 : t2.val < 4 := t2.isLt
    unfold invI
    iintro ⟨Hslab, Hcep, %f2', Hout, %hD2⟩
    ihave Hwp := (innerV1 (F := F) d L fsl f2' f3 v28 k1_pay623 t1 (Scalar.muli (Scf.iv 0#32 1#32 t1.val) 16#32) (k1_pay306 (ldv1 d L fix (k1_off27 t1) (k1_off27_inb t1))) (k1_pay307 (ldv1 d L fix (k1_off28 t1) (k1_off28_inb t1))) (k1_pay308 (ldv1 d L fix (k1_off29 t1) (k1_off29_inb t1))) (k1_pay309 (ldv1 d L fix (k1_off30 t1) (k1_off30_inb t1))) (k1_pay310 (ldv1 d L fix (k1_off31 t1) (k1_off31_inb t1))) (k1_pay311 (ldv1 d L fix (k1_off32 t1) (k1_off32_inb t1))) (k1_pay312 (ldv1 d L fix (k1_off33 t1) (k1_off33_inb t1))) (k1_pay313 (ldv1 d L fix (k1_off34 t1) (k1_off34_inb t1))) (k1_pay314 (ldv1 d L fix (k1_off35 t1) (k1_off35_inb t1))) (k1_pay315 (ldv1 d L fix (k1_off36 t1) (k1_off36_inb t1))) (k1_pay316 (ldv1 d L fix (k1_off37 t1) (k1_off37_inb t1))) (ldv1 d L fix (k1_off38 t1) (k1_off38_inb t1)) (ldv1 d L fix (k1_off39 t1) (k1_off39_inb t1)) (ldv1 d L fix (k1_off40 t1) (k1_off40_inb t1)) (ldv1 d L fix (k1_off41 t1) (k1_off41_inb t1)) (ldv1 d L fix (k1_off42 t1) (k1_off42_inb t1)) (ldv1 d L fix (k1_off43 t1) (k1_off43_inb t1)) (ldv1 d L fix (k1_off44 t1) (k1_off44_inb t1)) (ldv1 d L fix (k1_off45 t1) (k1_off45_inb t1)) (ldv1 d L fix (k1_off46 t1) (k1_off46_inb t1)) hU t2) $$ [Hslab Hout Hcep]
    · isplitl [Hslab]
      · iexact Hslab
      isplitl [Hout]
      · iexact Hout
      · iexact Hcep
    iapply (wp_wand frame _ _) $$ Hwp
    iintro %_ ⟨Hslab, Hout, Hcep⟩
    isplitl [Hslab]
    · iexact Hslab
    isplitl [Hcep]
    · iexact Hcep
    iexists _
    isplitl [Hout]
    · iexact Hout
    ipureintro
    exact tripPiecesL_done negInf1 fsl fix hfix f3 t1.val t2.val ht k1_pay623 (fun _ => rfl) (slabRd1 d L fsl) (slabRd1_apply d L fsl) _ hU (U1_loaded d L fix t1)
      (k1_off47 t1 t2) (k1_off47_inb t1 t2) (k1_off47_eq t1 t2) (Scf.iv 0#32 1#32 t2.val) (iv4_lt1 _ ht2) (iv4_val1 _ ht2) f2' hD2
  · unfold invI
    isplitl [Hslab]
    · iexact Hslab
    isplitl [Hcep]
    · iexact Hcep
    iexists f2
    isplitl [Hout]
    · iexact Hout
    ipureintro
    exact done2_of_done1 hD
  iintro %_ HI
  unfold invI
  icases HI with ⟨Hslab, Hcep, %f2'', Hout, %hD4⟩
  sl_exec
  sl_step
  isplitl [Hslab]
  · iexact Hslab
  isplitl [Hidxb]
  · iexact Hidxb
  isplitl [Hcep]
  · iexact Hcep
  iexists f2''
  isplitl [Hout]
  · iexact Hout
  ipureintro
  exact done1_of_done2 hD4

end Tile

end Cert.Proof.KB.T1

end
-- ==== Proof.KBTile1C2.lean ====
/-
  One tile of the first SparseCore call, chunk 2 of the points: a trip of the inner loop stores the four rows of its block
  (the epilogue of the running maxima over the 20 gathered neighbour rows), and a trip of the outer loop, the block's 20
  neighbour vectors loaded, fills the block by the inner loop's four trips.
-/
import proofs.«209975_g17849884082380_cont_8to1_1483_11_alg».proof.Proof.KBTile1Defs
import proofs.«209975_g17849884082380_cont_8to1_1483_11_alg».proof.Proof.KBTile1Val
import proofs.«209975_g17849884082380_cont_8to1_1483_11_alg».proof.Proof.KBTile1Trip
import proofs.«209975_g17849884082380_cont_8to1_1483_11_alg».proof.Proof.KBTile2Val
import proofs.«209975_g17849884082380_cont_8to1_1483_11_alg».proof.Proof.KBTile1Inv
import Idealize.ShloMosaic.Lib.Writes
import Idealize.ShloMosaic.Lib.ValueLayout

noncomputable section

namespace Cert.Proof.KB.T1

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)
local notation "slabW" => (Memref.whole Cert.Kernel.cc1_scratch0 : Memref Cert.Kernel.sig Kind.scVector Space.vmem Cert.Kernel.S65536 EltTy.f32)
local notation "idxbW" => (Memref.whole Cert.Kernel.cc1_scratch1 : Memref Cert.Kernel.sig Kind.scVector Space.vmem Cert.Kernel.S20x1024 EltTy.i32)
local notation "outbW" => (Memref.whole Cert.Kernel.cc1_scratch2 : Memref Cert.Kernel.sig Kind.scVector Space.vmem Cert.Kernel.S16x1024 EltTy.f32)
local notation "cepbW" => (Memref.whole Cert.Kernel.cc1_scratch3 : Memref Cert.Kernel.sig Kind.scVector Space.vmem Cert.Kernel.S16x1024 EltTy.f32)

section Tile

variable (d : Dev nD) (L : grid1.Coords)

variable [FloatOps F]

/-- The 20 neighbour vectors of a trip of this chunk, in order. -/
abbrev U2 (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32) : Fin 20 → IVec S16 32 :=
  ![v46, v49, v52, v55, v58, v61, v64, v67, v70, v73, v76, k1_pay644 v79_ld, k1_pay645 v82_ld, k1_pay646 v85_ld, k1_pay647 v88_ld, k1_pay648 v91_ld, k1_pay649 v94_ld, k1_pay650 v97_ld, k1_pay651 v100_ld, k1_pay652 v103_ld]

attribute [local sl_canon] vli_bind1 in
set_option maxHeartbeats 16000000 in
/-- A trip of the inner loop: from the slab, the output scratch and the centre scratch, the same with the trip's four rows
    stored. -/
theorem innerV2 (fsl : Buf (Elt F) ((V d (cV L) (jV L)).loc cc1_scratch0)) (f2 : Buf (Elt F) ((V d (cV L) (jV L)).loc cc1_scratch2))
    (f3 : Buf (Elt F) ((V d (cV L) (jV L)).loc cc1_scratch3))
    (v28 : BitVec 32) (v30 : FVec F S16 .f32) (k1_t5 : Fin k1_t5_loop.trips) (v43 : BitVec 32)
    (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32)
    (hU : ∀ k x, ((U2 (F := F) v46 v49 v52 v55 v58 v61 v64 v67 v70 v73 v76 v79_ld v82_ld v85_ld v88_ld v91_ld v94_ld v97_ld v100_ld v103_ld) k x).toNat < 4096)
    (k1_t6 : Fin k1_t6_loop.trips) :
    (iprop(((slabW).view.loc (V d (cV L) (jV L)) ↦{fullShare} fsl) ∗ ((outbW).view.loc (V d (cV L) (jV L)) ↦{fullShare} f2)
        ∗ ((cepbW).view.loc (V d (cV L) (jV L)) ↦{fullShare} f3)) : sProp 𝕄)
      ⊢ wp frame (wpE (defs₀ (F := F)) 𝒱₀ (V d (cV L) (jV L)) none) Set.univ
          (k1_t6_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 v30 k1_t5 v43 v46 v49 v52 v55 v58 v61 v64 v67 v70 v73 v76 v79_ld v82_ld v85_ld v88_ld v91_ld v94_ld v97_ld v100_ld v103_ld k1_t6 ())
          fun _ => iprop(((slabW).view.loc (V d (cV L) (jV L)) ↦{fullShare} fsl) ∗ ((outbW).view.loc (V d (cV L) (jV L)) ↦{fullShare}
            (outbW).view.writes (Elt F) f2 (tripPiecesL v30 (slabRd1 d L fsl) f3 (U2 v46 v49 v52 v55 v58 v61 v64 v67 v70 v73 v76 v79_ld v82_ld v85_ld v88_ld v91_ld v94_ld v97_ld v100_ld v103_ld) hU (k1_off70 k1_t5 k1_t6) (k1_off70_inb k1_t5 k1_t6)
              (Scf.iv 0#32 1#32 k1_t6.val) (iv4_lt1 k1_t6.val k1_t6.isLt)))
            ∗ ((cepbW).view.loc (V d (cV L) (jV L)) ↦{fullShare} f3)) := by
  have hg : (Scf.iv 0#32 1#32 k1_t6.val).toNat < 4 := iv4_lt1 k1_t6.val k1_t6.isLt
  have h46 : ∀ x, (v46 x).toNat < 4096 := hU 0
  have h49 : ∀ x, (v49 x).toNat < 4096 := hU 1
  have h52 : ∀ x, (v52 x).toNat < 4096 := hU 2
  have h55 : ∀ x, (v55 x).toNat < 4096 := hU 3
  have h58 : ∀ x, (v58 x).toNat < 4096 := hU 4
  have h61 : ∀ x, (v61 x).toNat < 4096 := hU 5
  have h64 : ∀ x, (v64 x).toNat < 4096 := hU 6
  have h67 : ∀ x, (v67 x).toNat < 4096 := hU 7
  have h70 : ∀ x, (v70 x).toNat < 4096 := hU 8
  have h73 : ∀ x, (v73 x).toNat < 4096 := hU 9
  have h76 : ∀ x, (v76 x).toNat < 4096 := hU 10
  have h79 : ∀ x, (k1_pay644 (F := F) v79_ld x).toNat < 4096 := hU 11
  have h82 : ∀ x, (k1_pay645 (F := F) v82_ld x).toNat < 4096 := hU 12
  have h85 : ∀ x, (k1_pay646 (F := F) v85_ld x).toNat < 4096 := hU 13
  have h88 : ∀ x, (k1_pay647 (F := F) v88_ld x).toNat < 4096 := hU 14
  have h91 : ∀ x, (k1_pay648 (F := F) v91_ld x).toNat < 4096 := hU 15
  have h94 : ∀ x, (k1_pay649 (F := F) v94_ld x).toNat < 4096 := hU 16
  have h97 : ∀ x, (k1_pay650 (F := F) v97_ld x).toNat < 4096 := hU 17
  have h100 : ∀ x, (k1_pay651 (F := F) v100_ld x).toNat < 4096 := hU 18
  have h103 : ∀ x, (k1_pay652 (F := F) v103_ld x).toNat < 4096 := hU 19
  unfold k1_t6_body tripPiecesL
  iintro ⟨Hslab, Hout, Hcep⟩
  sl_exec (disch := exact chk_idxOff (by assumption) hg (by decide))
  sl_step
  isplitl [Hslab]
  · iexact Hslab
  isplitl [Hout]
  · iexact Hout
  · iexact Hcep

/-- The 20 neighbour vectors block `t1` loads are the 20 rows of the index scratch at the block's sixteen columns. -/
theorem U2_loaded (fix : Buf (Elt F) ((V d (cV L) (jV L)).loc cc1_scratch1)) (t1 : Fin k1_t5_loop.trips) (k : Fin 20) (x : S16.Idx) :
    U2 (F := F) (k1_pay459 (ldv1 d L fix (k1_off50 t1) (k1_off50_inb t1))) (k1_pay460 (ldv1 d L fix (k1_off51 t1) (k1_off51_inb t1))) (k1_pay461 (ldv1 d L fix (k1_off52 t1) (k1_off52_inb t1))) (k1_pay462 (ldv1 d L fix (k1_off53 t1) (k1_off53_inb t1))) (k1_pay463 (ldv1 d L fix (k1_off54 t1) (k1_off54_inb t1))) (k1_pay464 (ldv1 d L fix (k1_off55 t1) (k1_off55_inb t1))) (k1_pay465 (ldv1 d L fix (k1_off56 t1) (k1_off56_inb t1))) (k1_pay466 (ldv1 d L fix (k1_off57 t1) (k1_off57_inb t1))) (k1_pay467 (ldv1 d L fix (k1_off58 t1) (k1_off58_inb t1))) (k1_pay468 (ldv1 d L fix (k1_off59 t1) (k1_off59_inb t1))) (k1_pay469 (ldv1 d L fix (k1_off60 t1) (k1_off60_inb t1))) (ldv1 d L fix (k1_off61 t1) (k1_off61_inb t1)) (ldv1 d L fix (k1_off62 t1) (k1_off62_inb t1)) (ldv1 d L fix (k1_off63 t1) (k1_off63_inb t1)) (ldv1 d L fix (k1_off64 t1) (k1_off64_inb t1)) (ldv1 d L fix (k1_off65 t1) (k1_off65_inb t1)) (ldv1 d L fix (k1_off66 t1) (k1_off66_inb t1)) (ldv1 d L fix (k1_off67 t1) (k1_off67_inb t1)) (ldv1 d L fix (k1_off68 t1) (k1_off68_inb t1)) (ldv1 d L fix (k1_off69 t1) (k1_off69_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq1 d L fix _ ⟨0, by omega⟩ t1.val ht (k1_off50_eq t1) _ x
  | ⟨1, _⟩ => exact idxvec_eq1 d L fix _ ⟨1, by omega⟩ t1.val ht (k1_off51_eq t1) _ x
  | ⟨2, _⟩ => exact idxvec_eq1 d L fix _ ⟨2, by omega⟩ t1.val ht (k1_off52_eq t1) _ x
  | ⟨3, _⟩ => exact idxvec_eq1 d L fix _ ⟨3, by omega⟩ t1.val ht (k1_off53_eq t1) _ x
  | ⟨4, _⟩ => exact idxvec_eq1 d L fix _ ⟨4, by omega⟩ t1.val ht (k1_off54_eq t1) _ x
  | ⟨5, _⟩ => exact idxvec_eq1 d L fix _ ⟨5, by omega⟩ t1.val ht (k1_off55_eq t1) _ x
  | ⟨6, _⟩ => exact idxvec_eq1 d L fix _ ⟨6, by omega⟩ t1.val ht (k1_off56_eq t1) _ x
  | ⟨7, _⟩ => exact idxvec_eq1 d L fix _ ⟨7, by omega⟩ t1.val ht (k1_off57_eq t1) _ x
  | ⟨8, _⟩ => exact idxvec_eq1 d L fix _ ⟨8, by omega⟩ t1.val ht (k1_off58_eq t1) _ x
  | ⟨9, _⟩ => exact idxvec_eq1 d L fix _ ⟨9, by omega⟩ t1.val ht (k1_off59_eq t1) _ x
  | ⟨10, _⟩ => exact idxvec_eq1 d L fix _ ⟨10, by omega⟩ t1.val ht (k1_off60_eq t1) _ x
  | ⟨11, _⟩ => exact idxvec_eq1 d L fix _ ⟨11, by omega⟩ t1.val ht (k1_off61_eq t1) _ x
  | ⟨12, _⟩ => exact idxvec_eq1 d L fix _ ⟨12, by omega⟩ t1.val ht (k1_off62_eq t1) _ x
  | ⟨13, _⟩ => exact idxvec_eq1 d L fix _ ⟨13, by omega⟩ t1.val ht (k1_off63_eq t1) _ x
  | ⟨14, _⟩ => exact idxvec_eq1 d L fix _ ⟨14, by omega⟩ t1.val ht (k1_off64_eq t1) _ x
  | ⟨15, _⟩ => exact idxvec_eq1 d L fix _ ⟨15, by omega⟩ t1.val ht (k1_off65_eq t1) _ x
  | ⟨16, _⟩ => exact idxvec_eq1 d L fix _ ⟨16, by omega⟩ t1.val ht (k1_off66_eq t1) _ x
  | ⟨17, _⟩ => exact idxvec_eq1 d L fix _ ⟨17, by omega⟩ t1.val ht (k1_off67_eq t1) _ x
  | ⟨18, _⟩ => exact idxvec_eq1 d L fix _ ⟨18, by omega⟩ t1.val ht (k1_off68_eq t1) _ x
  | ⟨19, _⟩ => exact idxvec_eq1 d L fix _ ⟨19, by omega⟩ t1.val ht (k1_off69_eq t1) _ x
  | ⟨n + 20, h⟩ => exact absurd h (by omega)

set_option maxHeartbeats 8000000 in
/-- A trip of the outer loop: the block's 20 neighbour vectors loaded, then the inner loop's four trips fill the block. -/
theorem outerV2 (fsl : Buf (Elt F) ((V d (cV L) (jV L)).loc cc1_scratch0)) (fix : Buf (Elt F) ((V d (cV L) (jV L)).loc cc1_scratch1))
    (f3 : Buf (Elt F) ((V d (cV L) (jV L)).loc cc1_scratch3))
    (hfix : ∀ y, (fix y).toNat < 4096) (v28 : BitVec 32) (t1 : Fin k1_t5_loop.trips) (acc : Unit) :
    invO d L fsl fix f3 (GoutL negInf1 fsl fix f3) t1.val acc
      ⊢ wp frame (wpE (defs₀ (F := F)) 𝒱₀ (V d (cV L) (jV L)) none) Set.univ
          (k1_t5_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v28 k1_pay623 t1 acc)
          (invO d L fsl fix f3 (GoutL negInf1 fsl fix f3) (t1.val + 1)) := by
  have ht : t1.val < 64 := t1.isLt
  have hU : ∀ k x, ((U2 (F := F) (k1_pay459 (ldv1 d L fix (k1_off50 t1) (k1_off50_inb t1))) (k1_pay460 (ldv1 d L fix (k1_off51 t1) (k1_off51_inb t1))) (k1_pay461 (ldv1 d L fix (k1_off52 t1) (k1_off52_inb t1))) (k1_pay462 (ldv1 d L fix (k1_off53 t1) (k1_off53_inb t1))) (k1_pay463 (ldv1 d L fix (k1_off54 t1) (k1_off54_inb t1))) (k1_pay464 (ldv1 d L fix (k1_off55 t1) (k1_off55_inb t1))) (k1_pay465 (ldv1 d L fix (k1_off56 t1) (k1_off56_inb t1))) (k1_pay466 (ldv1 d L fix (k1_off57 t1) (k1_off57_inb t1))) (k1_pay467 (ldv1 d L fix (k1_off58 t1) (k1_off58_inb t1))) (k1_pay468 (ldv1 d L fix (k1_off59 t1) (k1_off59_inb t1))) (k1_pay469 (ldv1 d L fix (k1_off60 t1) (k1_off60_inb t1))) (ldv1 d L fix (k1_off61 t1) (k1_off61_inb t1)) (ldv1 d L fix (k1_off62 t1) (k1_off62_inb t1)) (ldv1 d L fix (k1_off63 t1) (k1_off63_inb t1)) (ldv1 d L fix (k1_off64 t1) (k1_off64_inb t1)) (ldv1 d L fix (k1_off65 t1) (k1_off65_inb t1)) (ldv1 d L fix (k1_off66 t1) (k1_off66_inb t1)) (ldv1 d L fix (k1_off67 t1) (k1_off67_inb t1)) (ldv1 d L fix (k1_off68 t1) (k1_off68_inb t1)) (ldv1 d L fix (k1_off69 t1) (k1_off69_inb t1))) k x).toNat < 4096 :=
    fun k x => (congrArg BitVec.toNat (U2_loaded d L fix t1 k x)).trans_lt (hfix _)
  unfold invO
  iintro ⟨Hslab, Hidxb, Hcep, %f2, Hout, %hD⟩
  unfold k1_t5_body
  sl_exec
  sl_for (invI d L fsl f3 (GoutL negInf1 fsl fix f3) t1.val) $$ [Hslab Hout Hcep]
  case region =>
    intro t2 acc2
    have ht2 : t2.val < 4 := t2.isLt
    unfold invI
    iintro ⟨Hslab, Hcep, %f2', Hout, %hD2⟩
    ihave Hwp := (innerV2 (F := F) d L fsl f2' f3 v28 k1_pay623 t1 (Scalar.muli (Scf.iv 0#32 1#32 t1.val) 16#32) (k1_pay459 (ldv1 d L fix (k1_off50 t1) (k1_off50_inb t1))) (k1_pay460 (ldv1 d L fix (k1_off51 t1) (k1_off51_inb t1))) (k1_pay461 (ldv1 d L fix (k1_off52 t1) (k1_off52_inb t1))) (k1_pay462 (ldv1 d L fix (k1_off53 t1) (k1_off53_inb t1))) (k1_pay463 (ldv1 d L fix (k1_off54 t1) (k1_off54_inb t1))) (k1_pay464 (ldv1 d L fix (k1_off55 t1) (k1_off55_inb t1))) (k1_pay465 (ldv1 d L fix (k1_off56 t1) (k1_off56_inb t1))) (k1_pay466 (ldv1 d L fix (k1_off57 t1) (k1_off57_inb t1))) (k1_pay467 (ldv1 d L fix (k1_off58 t1) (k1_off58_inb t1))) (k1_pay468 (ldv1 d L fix (k1_off59 t1) (k1_off59_inb t1))) (k1_pay469 (ldv1 d L fix (k1_off60 t1) (k1_off60_inb t1))) (ldv1 d L fix (k1_off61 t1) (k1_off61_inb t1)) (ldv1 d L fix (k1_off62 t1) (k1_off62_inb t1)) (ldv1 d L fix (k1_off63 t1) (k1_off63_inb t1)) (ldv1 d L fix (k1_off64 t1) (k1_off64_inb t1)) (ldv1 d L fix (k1_off65 t1) (k1_off65_inb t1)) (ldv1 d L fix (k1_off66 t1) (k1_off66_inb t1)) (ldv1 d L fix (k1_off67 t1) (k1_off67_inb t1)) (ldv1 d L fix (k1_off68 t1) (k1_off68_inb t1)) (ldv1 d L fix (k1_off69 t1) (k1_off69_inb t1)) hU t2) $$ [Hslab Hout Hcep]
    · isplitl [Hslab]
      · iexact Hslab
      isplitl [Hout]
      · iexact Hout
      · iexact Hcep
    iapply (wp_wand frame _ _) $$ Hwp
    iintro %_ ⟨Hslab, Hout, Hcep⟩
    isplitl [Hslab]
    · iexact Hslab
    isplitl [Hcep]
    · iexact Hcep
    iexists _
    isplitl [Hout]
    · iexact Hout
    ipureintro
    exact tripPiecesL_done negInf1 fsl fix hfix f3 t1.val t2.val ht k1_pay623 (fun _ => rfl) (slabRd1 d L fsl) (slabRd1_apply d L fsl) _ hU (U2_loaded d L fix t1)
      (k1_off70 t1 t2) (k1_off70_inb t1 t2) (k1_off70_eq t1 t2) (Scf.iv 0#32 1#32 t2.val) (iv4_lt1 _ ht2) (iv4_val1 _ ht2) f2' hD2
  · unfold invI
    isplitl [Hslab]
    · iexact Hslab
    isplitl [Hcep]
    · iexact Hcep
    iexists f2
    isplitl [Hout]
    · iexact Hout
    ipureintro
    exact done2_of_done1 hD
  iintro %_ HI
  unfold invI
  icases HI with ⟨Hslab, Hcep, %f2'', Hout, %hD4⟩
  sl_exec
  sl_step
  isplitl [Hslab]
  · iexact Hslab
  isplitl [Hidxb]
  · iexact Hidxb
  isplitl [Hcep]
  · iexact Hcep
  iexists f2''
  isplitl [Hout]
  · iexact Hout
  ipureintro
  exact done1_of_done2 hD4

end Tile

end Cert.Proof.KB.T1

end
-- ==== Proof.KBTile1C3.lean ====
/-
  One tile of the first SparseCore call, chunk 3 of the points: a trip of the inner loop stores the four rows of its block
  (the epilogue of the running maxima over the 20 gathered neighbour rows), and a trip of the outer loop, the block's 20
  neighbour vectors loaded, fills the block by the inner loop's four trips.
-/
import proofs.«209975_g17849884082380_cont_8to1_1483_11_alg».proof.Proof.KBTile1Defs
import proofs.«209975_g17849884082380_cont_8to1_1483_11_alg».proof.Proof.KBTile1Val
import proofs.«209975_g17849884082380_cont_8to1_1483_11_alg».proof.Proof.KBTile1Trip
import proofs.«209975_g17849884082380_cont_8to1_1483_11_alg».proof.Proof.KBTile2Val
import proofs.«209975_g17849884082380_cont_8to1_1483_11_alg».proof.Proof.KBTile1Inv
import Idealize.ShloMosaic.Lib.Writes
import Idealize.ShloMosaic.Lib.ValueLayout

noncomputable section

namespace Cert.Proof.KB.T1

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)
local notation "slabW" => (Memref.whole Cert.Kernel.cc1_scratch0 : Memref Cert.Kernel.sig Kind.scVector Space.vmem Cert.Kernel.S65536 EltTy.f32)
local notation "idxbW" => (Memref.whole Cert.Kernel.cc1_scratch1 : Memref Cert.Kernel.sig Kind.scVector Space.vmem Cert.Kernel.S20x1024 EltTy.i32)
local notation "outbW" => (Memref.whole Cert.Kernel.cc1_scratch2 : Memref Cert.Kernel.sig Kind.scVector Space.vmem Cert.Kernel.S16x1024 EltTy.f32)
local notation "cepbW" => (Memref.whole Cert.Kernel.cc1_scratch3 : Memref Cert.Kernel.sig Kind.scVector Space.vmem Cert.Kernel.S16x1024 EltTy.f32)

section Tile

variable (d : Dev nD) (L : grid1.Coords)

variable [FloatOps F]

/-- The 20 neighbour vectors of a trip of this chunk, in order. -/
abbrev U3 (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32) : Fin 20 → IVec S16 32 :=
  ![v46, v49, v52, v55, v58, v61, v64, v67, v70, v73, v76, k1_pay1 v79_ld, k1_pay2 v82_ld, k1_pay3 v85_ld, k1_pay4 v88_ld, k1_pay5 v91_ld, k1_pay6 v94_ld, k1_pay7 v97_ld, k1_pay8 v100_ld, k1_pay9 v103_ld]

attribute [local sl_canon] vli_bind1 in
set_option maxHeartbeats 16000000 in
/-- A trip of the inner loop: from the slab, the output scratch and the centre scratch, the same with the trip's four rows
    stored. -/
theorem innerV3 (fsl : Buf (Elt F) ((V d (cV L) (jV L)).loc cc1_scratch0)) (f2 : Buf (Elt F) ((V d (cV L) (jV L)).loc cc1_scratch2))
    (f3 : Buf (Elt F) ((V d (cV L) (jV L)).loc cc1_scratch3))
    (v30 : FVec F S16 .f32) (k1_t7 : Fin k1_t7_loop.trips) (v43 : BitVec 32)
    (v46 : Vec F S16 .i32) (v49 : Vec F S16 .i32) (v52 : Vec F S16 .i32) (v55 : Vec F S16 .i32) (v58 : Vec F S16 .i32) (v61 : Vec F S16 .i32) (v64 : Vec F S16 .i32) (v67 : Vec F S16 .i32) (v70 : Vec F S16 .i32) (v73 : Vec F S16 .i32) (v76 : Vec F S16 .i32) (v79_ld : Vec F S1x16 .i32) (v82_ld : Vec F S1x16 .i32) (v85_ld : Vec F S1x16 .i32) (v88_ld : Vec F S1x16 .i32) (v91_ld : Vec F S1x16 .i32) (v94_ld : Vec F S1x16 .i32) (v97_ld : Vec F S1x16 .i32) (v100_ld : Vec F S1x16 .i32) (v103_ld : Vec F S1x16 .i32)
    (hU : ∀ k x, ((U3 (F := F) v46 v49 v52 v55 v58 v61 v64 v67 v70 v73 v76 v79_ld v82_ld v85_ld v88_ld v91_ld v94_ld v97_ld v100_ld v103_ld) k x).toNat < 4096)
    (k1_t8 : Fin k1_t8_loop.trips) :
    (iprop(((slabW).view.loc (V d (cV L) (jV L)) ↦{fullShare} fsl) ∗ ((outbW).view.loc (V d (cV L) (jV L)) ↦{fullShare} f2)
        ∗ ((cepbW).view.loc (V d (cV L) (jV L)) ↦{fullShare} f3)) : sProp 𝕄)
      ⊢ wp frame (wpE (defs₀ (F := F)) 𝒱₀ (V d (cV L) (jV L)) none) Set.univ
          (k1_t8_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 v30 k1_t7 v43 v46 v49 v52 v55 v58 v61 v64 v67 v70 v73 v76 v79_ld v82_ld v85_ld v88_ld v91_ld v94_ld v97_ld v100_ld v103_ld k1_t8 ())
          fun _ => iprop(((slabW).view.loc (V d (cV L) (jV L)) ↦{fullShare} fsl) ∗ ((outbW).view.loc (V d (cV L) (jV L)) ↦{fullShare}
            (outbW).view.writes (Elt F) f2 (tripPiecesL v30 (slabRd1 d L fsl) f3 (U3 v46 v49 v52 v55 v58 v61 v64 v67 v70 v73 v76 v79_ld v82_ld v85_ld v88_ld v91_ld v94_ld v97_ld v100_ld v103_ld) hU (k1_off93 k1_t7 k1_t8) (k1_off93_inb k1_t7 k1_t8)
              (Scf.iv 0#32 1#32 k1_t8.val) (iv4_lt1 k1_t8.val k1_t8.isLt)))
            ∗ ((cepbW).view.loc (V d (cV L) (jV L)) ↦{fullShare} f3)) := by
  have hg : (Scf.iv 0#32 1#32 k1_t8.val).toNat < 4 := iv4_lt1 k1_t8.val k1_t8.isLt
  have h46 : ∀ x, (v46 x).toNat < 4096 := hU 0
  have h49 : ∀ x, (v49 x).toNat < 4096 := hU 1
  have h52 : ∀ x, (v52 x).toNat < 4096 := hU 2
  have h55 : ∀ x, (v55 x).toNat < 4096 := hU 3
  have h58 : ∀ x, (v58 x).toNat < 4096 := hU 4
  have h61 : ∀ x, (v61 x).toNat < 4096 := hU 5
  have h64 : ∀ x, (v64 x).toNat < 4096 := hU 6
  have h67 : ∀ x, (v67 x).toNat < 4096 := hU 7
  have h70 : ∀ x, (v70 x).toNat < 4096 := hU 8
  have h73 : ∀ x, (v73 x).toNat < 4096 := hU 9
  have h76 : ∀ x, (v76 x).toNat < 4096 := hU 10
  have h79 : ∀ x, (k1_pay1 (F := F) v79_ld x).toNat < 4096 := hU 11
  have h82 : ∀ x, (k1_pay2 (F := F) v82_ld x).toNat < 4096 := hU 12
  have h85 : ∀ x, (k1_pay3 (F := F) v85_ld x).toNat < 4096 := hU 13
  have h88 : ∀ x, (k1_pay4 (F := F) v88_ld x).toNat < 4096 := hU 14
  have h91 : ∀ x, (k1_pay5 (F := F) v91_ld x).toNat < 4096 := hU 15
  have h94 : ∀ x, (k1_pay6 (F := F) v94_ld x).toNat < 4096 := hU 16
  have h97 : ∀ x, (k1_pay7 (F := F) v97_ld x).toNat < 4096 := hU 17
  have h100 : ∀ x, (k1_pay8 (F := F) v100_ld x).toNat < 4096 := hU 18
  have h103 : ∀ x, (k1_pay9 (F := F) v103_ld x).toNat < 4096 := hU 19
  unfold k1_t8_body tripPiecesL
  iintro ⟨Hslab, Hout, Hcep⟩
  sl_exec (disch := exact chk_idxOff (by assumption) hg (by decide))
  sl_step
  isplitl [Hslab]
  · iexact Hslab
  isplitl [Hout]
  · iexact Hout
  · iexact Hcep

/-- The 20 neighbour vectors block `t1` loads are the 20 rows of the index scratch at the block's sixteen columns. -/
theorem U3_loaded (fix : Buf (Elt F) ((V d (cV L) (jV L)).loc cc1_scratch1)) (t1 : Fin k1_t7_loop.trips) (k : Fin 20) (x : S16.Idx) :
    U3 (F := F) (k1_pay612 (ldv1 d L fix (k1_off73 t1) (k1_off73_inb t1))) (k1_pay613 (ldv1 d L fix (k1_off74 t1) (k1_off74_inb t1))) (k1_pay614 (ldv1 d L fix (k1_off75 t1) (k1_off75_inb t1))) (k1_pay615 (ldv1 d L fix (k1_off76 t1) (k1_off76_inb t1))) (k1_pay616 (ldv1 d L fix (k1_off77 t1) (k1_off77_inb t1))) (k1_pay617 (ldv1 d L fix (k1_off78 t1) (k1_off78_inb t1))) (k1_pay618 (ldv1 d L fix (k1_off79 t1) (k1_off79_inb t1))) (k1_pay619 (ldv1 d L fix (k1_off80 t1) (k1_off80_inb t1))) (k1_pay620 (ldv1 d L fix (k1_off81 t1) (k1_off81_inb t1))) (k1_pay621 (ldv1 d L fix (k1_off82 t1) (k1_off82_inb t1))) (k1_pay622 (ldv1 d L fix (k1_off83 t1) (k1_off83_inb t1))) (ldv1 d L fix (k1_off84 t1) (k1_off84_inb t1)) (ldv1 d L fix (k1_off85 t1) (k1_off85_inb t1)) (ldv1 d L fix (k1_off86 t1) (k1_off86_inb t1)) (ldv1 d L fix (k1_off87 t1) (k1_off87_inb t1)) (ldv1 d L fix (k1_off88 t1) (k1_off88_inb t1)) (ldv1 d L fix (k1_off89 t1) (k1_off89_inb t1)) (ldv1 d L fix (k1_off90 t1) (k1_off90_inb t1)) (ldv1 d L fix (k1_off91 t1) (k1_off91_inb t1)) (ldv1 d L fix (k1_off92 t1) (k1_off92_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq1 d L fix _ ⟨0, by omega⟩ t1.val ht (k1_off73_eq t1) _ x
  | ⟨1, _⟩ => exact idxvec_eq1 d L fix _ ⟨1, by omega⟩ t1.val ht (k1_off74_eq t1) _ x
  | ⟨2, _⟩ => exact idxvec_eq1 d L fix _ ⟨2, by omega⟩ t1.val ht (k1_off75_eq t1) _ x
  | ⟨3, _⟩ => exact idxvec_eq1 d L fix _ ⟨3, by omega⟩ t1.val ht (k1_off76_eq t1) _ x
  | ⟨4, _⟩ => exact idxvec_eq1 d L fix _ ⟨4, by omega⟩ t1.val ht (k1_off77_eq t1) _ x
  | ⟨5, _⟩ => exact idxvec_eq1 d L fix _ ⟨5, by omega⟩ t1.val ht (k1_off78_eq t1) _ x
  | ⟨6, _⟩ => exact idxvec_eq1 d L fix _ ⟨6, by omega⟩ t1.val ht (k1_off79_eq t1) _ x
  | ⟨7, _⟩ => exact idxvec_eq1 d L fix _ ⟨7, by omega⟩ t1.val ht (k1_off80_eq t1) _ x
  | ⟨8, _⟩ => exact idxvec_eq1 d L fix _ ⟨8, by omega⟩ t1.val ht (k1_off81_eq t1) _ x
  | ⟨9, _⟩ => exact idxvec_eq1 d L fix _ ⟨9, by omega⟩ t1.val ht (k1_off82_eq t1) _ x
  | ⟨10, _⟩ => exact idxvec_eq1 d L fix _ ⟨10, by omega⟩ t1.val ht (k1_off83_eq t1) _ x
  | ⟨11, _⟩ => exact idxvec_eq1 d L fix _ ⟨11, by omega⟩ t1.val ht (k1_off84_eq t1) _ x
  | ⟨12, _⟩ => exact idxvec_eq1 d L fix _ ⟨12, by omega⟩ t1.val ht (k1_off85_eq t1) _ x
  | ⟨13, _⟩ => exact idxvec_eq1 d L fix _ ⟨13, by omega⟩ t1.val ht (k1_off86_eq t1) _ x
  | ⟨14, _⟩ => exact idxvec_eq1 d L fix _ ⟨14, by omega⟩ t1.val ht (k1_off87_eq t1) _ x
  | ⟨15, _⟩ => exact idxvec_eq1 d L fix _ ⟨15, by omega⟩ t1.val ht (k1_off88_eq t1) _ x
  | ⟨16, _⟩ => exact idxvec_eq1 d L fix _ ⟨16, by omega⟩ t1.val ht (k1_off89_eq t1) _ x
  | ⟨17, _⟩ => exact idxvec_eq1 d L fix _ ⟨17, by omega⟩ t1.val ht (k1_off90_eq t1) _ x
  | ⟨18, _⟩ => exact idxvec_eq1 d L fix _ ⟨18, by omega⟩ t1.val ht (k1_off91_eq t1) _ x
  | ⟨19, _⟩ => exact idxvec_eq1 d L fix _ ⟨19, by omega⟩ t1.val ht (k1_off92_eq t1) _ x
  | ⟨n + 20, h⟩ => exact absurd h (by omega)

set_option maxHeartbeats 8000000 in
/-- A trip of the outer loop: the block's 20 neighbour vectors loaded, then the inner loop's four trips fill the block. -/
theorem outerV3 (fsl : Buf (Elt F) ((V d (cV L) (jV L)).loc cc1_scratch0)) (fix : Buf (Elt F) ((V d (cV L) (jV L)).loc cc1_scratch1))
    (f3 : Buf (Elt F) ((V d (cV L) (jV L)).loc cc1_scratch3))
    (hfix : ∀ y, (fix y).toNat < 4096) (t1 : Fin k1_t7_loop.trips) (acc : Unit) :
    invO d L fsl fix f3 (GoutL negInf1 fsl fix f3) t1.val acc
      ⊢ wp frame (wpE (defs₀ (F := F)) 𝒱₀ (V d (cV L) (jV L)) none) Set.univ
          (k1_t7_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 k1_pay623 t1 acc)
          (invO d L fsl fix f3 (GoutL negInf1 fsl fix f3) (t1.val + 1)) := by
  have ht : t1.val < 64 := t1.isLt
  have hU : ∀ k x, ((U3 (F := F) (k1_pay612 (ldv1 d L fix (k1_off73 t1) (k1_off73_inb t1))) (k1_pay613 (ldv1 d L fix (k1_off74 t1) (k1_off74_inb t1))) (k1_pay614 (ldv1 d L fix (k1_off75 t1) (k1_off75_inb t1))) (k1_pay615 (ldv1 d L fix (k1_off76 t1) (k1_off76_inb t1))) (k1_pay616 (ldv1 d L fix (k1_off77 t1) (k1_off77_inb t1))) (k1_pay617 (ldv1 d L fix (k1_off78 t1) (k1_off78_inb t1))) (k1_pay618 (ldv1 d L fix (k1_off79 t1) (k1_off79_inb t1))) (k1_pay619 (ldv1 d L fix (k1_off80 t1) (k1_off80_inb t1))) (k1_pay620 (ldv1 d L fix (k1_off81 t1) (k1_off81_inb t1))) (k1_pay621 (ldv1 d L fix (k1_off82 t1) (k1_off82_inb t1))) (k1_pay622 (ldv1 d L fix (k1_off83 t1) (k1_off83_inb t1))) (ldv1 d L fix (k1_off84 t1) (k1_off84_inb t1)) (ldv1 d L fix (k1_off85 t1) (k1_off85_inb t1)) (ldv1 d L fix (k1_off86 t1) (k1_off86_inb t1)) (ldv1 d L fix (k1_off87 t1) (k1_off87_inb t1)) (ldv1 d L fix (k1_off88 t1) (k1_off88_inb t1)) (ldv1 d L fix (k1_off89 t1) (k1_off89_inb t1)) (ldv1 d L fix (k1_off90 t1) (k1_off90_inb t1)) (ldv1 d L fix (k1_off91 t1) (k1_off91_inb t1)) (ldv1 d L fix (k1_off92 t1) (k1_off92_inb t1))) k x).toNat < 4096 :=
    fun k x => (congrArg BitVec.toNat (U3_loaded d L fix t1 k x)).trans_lt (hfix _)
  unfold invO
  iintro ⟨Hslab, Hidxb, Hcep, %f2, Hout, %hD⟩
  unfold k1_t7_body
  sl_exec
  sl_for (invI d L fsl f3 (GoutL negInf1 fsl fix f3) t1.val) $$ [Hslab Hout Hcep]
  case region =>
    intro t2 acc2
    have ht2 : t2.val < 4 := t2.isLt
    unfold invI
    iintro ⟨Hslab, Hcep, %f2', Hout, %hD2⟩
    ihave Hwp := (innerV3 (F := F) d L fsl f2' f3 k1_pay623 t1 (Scalar.muli (Scf.iv 0#32 1#32 t1.val) 16#32) (k1_pay612 (ldv1 d L fix (k1_off73 t1) (k1_off73_inb t1))) (k1_pay613 (ldv1 d L fix (k1_off74 t1) (k1_off74_inb t1))) (k1_pay614 (ldv1 d L fix (k1_off75 t1) (k1_off75_inb t1))) (k1_pay615 (ldv1 d L fix (k1_off76 t1) (k1_off76_inb t1))) (k1_pay616 (ldv1 d L fix (k1_off77 t1) (k1_off77_inb t1))) (k1_pay617 (ldv1 d L fix (k1_off78 t1) (k1_off78_inb t1))) (k1_pay618 (ldv1 d L fix (k1_off79 t1) (k1_off79_inb t1))) (k1_pay619 (ldv1 d L fix (k1_off80 t1) (k1_off80_inb t1))) (k1_pay620 (ldv1 d L fix (k1_off81 t1) (k1_off81_inb t1))) (k1_pay621 (ldv1 d L fix (k1_off82 t1) (k1_off82_inb t1))) (k1_pay622 (ldv1 d L fix (k1_off83 t1) (k1_off83_inb t1))) (ldv1 d L fix (k1_off84 t1) (k1_off84_inb t1)) (ldv1 d L fix (k1_off85 t1) (k1_off85_inb t1)) (ldv1 d L fix (k1_off86 t1) (k1_off86_inb t1)) (ldv1 d L fix (k1_off87 t1) (k1_off87_inb t1)) (ldv1 d L fix (k1_off88 t1) (k1_off88_inb t1)) (ldv1 d L fix (k1_off89 t1) (k1_off89_inb t1)) (ldv1 d L fix (k1_off90 t1) (k1_off90_inb t1)) (ldv1 d L fix (k1_off91 t1) (k1_off91_inb t1)) (ldv1 d L fix (k1_off92 t1) (k1_off92_inb t1)) hU t2) $$ [Hslab Hout Hcep]
    · isplitl [Hslab]
      · iexact Hslab
      isplitl [Hout]
      · iexact Hout
      · iexact Hcep
    iapply (wp_wand frame _ _) $$ Hwp
    iintro %_ ⟨Hslab, Hout, Hcep⟩
    isplitl [Hslab]
    · iexact Hslab
    isplitl [Hcep]
    · iexact Hcep
    iexists _
    isplitl [Hout]
    · iexact Hout
    ipureintro
    exact tripPiecesL_done negInf1 fsl fix hfix f3 t1.val t2.val ht k1_pay623 (fun _ => rfl) (slabRd1 d L fsl) (slabRd1_apply d L fsl) _ hU (U3_loaded d L fix t1)
      (k1_off93 t1 t2) (k1_off93_inb t1 t2) (k1_off93_eq t1 t2) (Scf.iv 0#32 1#32 t2.val) (iv4_lt1 _ ht2) (iv4_val1 _ ht2) f2' hD2
  · unfold invI
    isplitl [Hslab]
    · iexact Hslab
    isplitl [Hcep]
    · iexact Hcep
    iexists f2
    isplitl [Hout]
    · iexact Hout
    ipureintro
    exact done2_of_done1 hD
  iintro %_ HI
  unfold invI
  icases HI with ⟨Hslab, Hcep, %f2'', Hout, %hD4⟩
  sl_exec
  sl_step
  isplitl [Hslab]
  · iexact Hslab
  isplitl [Hidxb]
  · iexact Hidxb
  isplitl [Hcep]
  · iexact Hcep
  iexists f2''
  isplitl [Hout]
  · iexact Hout
  ipureintro
  exact done1_of_done2 hD4

end Tile

end Cert.Proof.KB.T1

end
-- ==== Proof.KBTile1.lean ====
/-
  One tile of the first SparseCore call (the gather-and-max with the added centre term and the rectifier): its body's
  weakest precondition at a symbolic tile, from the resources the call deals it to the same back with its four output
  pieces at the pooled and rectified array. The slab holds the tile's sixteen channels of its cloud's source; per quarter
  of the points the index scratch holds the cloud's neighbour lists and the centre scratch the centre term's piece; the
  two loops fill the output scratch block by block, and its copy onto the tile's piece of the output leaves the array
  there.
-/
import proofs.«209975_g17849884082380_cont_8to1_1483_11_alg».proof.Proof.KBTile1Defs
import proofs.«209975_g17849884082380_cont_8to1_1483_11_alg».proof.Proof.KBOff1
import proofs.«209975_g17849884082380_cont_8to1_1483_11_alg».proof.Proof.KBTile1Val
import proofs.«209975_g17849884082380_cont_8to1_1483_11_alg».proof.Proof.KBTile1Trip
import proofs.«209975_g17849884082380_cont_8to1_1483_11_alg».proof.Proof.KBTile1Final
import proofs.«209975_g17849884082380_cont_8to1_1483_11_alg».proof.Proof.KBTile2Val
import proofs.«209975_g17849884082380_cont_8to1_1483_11_alg».proof.Proof.KBTile1Inv
import proofs.«209975_g17849884082380_cont_8to1_1483_11_alg».proof.Proof.KBTile1C0
import proofs.«209975_g17849884082380_cont_8to1_1483_11_alg».proof.Proof.KBTile1C1
import proofs.«209975_g17849884082380_cont_8to1_1483_11_alg».proof.Proof.KBTile1C2
import proofs.«209975_g17849884082380_cont_8to1_1483_11_alg».proof.Proof.KBTile1C3
import Idealize.ShloMosaic.Lib.Writes
import Idealize.ShloMosaic.Lib.ValueLayout

noncomputable section

namespace Cert.Proof.KB.T1

open Cert.Kernel Cert.Kernel.Gen
open Cert.Proof.KB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v4_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "cepW" => (Memref.whole Cert.Kernel.main_v3_1_scv : Memref Cert.Kernel.sig Kind.scVector Space.hbm Cert.Kernel.S8x64x4096 EltTy.f32)
local notation "outW" => (Memref.whole Cert.Kernel.main_v5_scv : Memref Cert.Kernel.sig Kind.scVector Space.hbm Cert.Kernel.S8x64x4096 EltTy.f32)
local notation "slabW" => (Memref.whole Cert.Kernel.cc1_scratch0 : Memref Cert.Kernel.sig Kind.scVector Space.vmem Cert.Kernel.S65536 EltTy.f32)
local notation "idxbW" => (Memref.whole Cert.Kernel.cc1_scratch1 : Memref Cert.Kernel.sig Kind.scVector Space.vmem Cert.Kernel.S20x1024 EltTy.i32)
local notation "outbW" => (Memref.whole Cert.Kernel.cc1_scratch2 : Memref Cert.Kernel.sig Kind.scVector Space.vmem Cert.Kernel.S16x1024 EltTy.f32)
local notation "cepbW" => (Memref.whole Cert.Kernel.cc1_scratch3 : Memref Cert.Kernel.sig Kind.scVector Space.vmem Cert.Kernel.S16x1024 EltTy.f32)

section Tile

variable (d : Dev nD) (L : grid1.Coords)

variable [FloatOps F]

namespace Res

/-! ## The tile's own scratch buffers and semaphores among its thread's -/

def myRefs (L : grid1.Coords) : Finset (DevRef τ sig) :=
  {(Proc.scVector (cV L) (jV L)).devRef cc1_scratch0, (Proc.scVector (cV L) (jV L)).devRef cc1_scratch1,
    (Proc.scVector (cV L) (jV L)).devRef cc1_scratch2, (Proc.scVector (cV L) (jV L)).devRef cc1_scratch3}

omit [FloatOps F] in
theorem myRefs_sub : myRefs L ⊆ ownRefs (τ := τ) (.scVector (cV L) (jV L)) := by
  intro b hb
  simp only [myRefs, Finset.mem_insert, Finset.mem_singleton] at hb
  rcases hb with rfl | rfl | rfl | rfl <;> exact SparseCore.Cfg.mem_ownRefs_of_owner (p := Proc.scVector (cV L) (jV L)) rfl

omit [FloatOps F] in
theorem myRefs_sep :
    (bigSep (myRefs L) fun b => iprop(∃ f, ((d, b) : Loc nD τ sig) ↦{fullShare} f) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)) := by
  unfold myRefs
  have hne : ∀ {a b : Ref sig .scVector}, a ≠ b → (Proc.scVector (cV L) (jV L)).devRef a ≠ (Proc.scVector (cV L) (jV L)).devRef b :=
    fun h e => h (Proc.devRef_injective _ e)
  rw [SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

omit [FloatOps F] in
theorem ownBufs_V1 :
    (ownBufs (V d (cV L) (jV L)) : sProp 𝕄)
      = iprop(((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f))
          ∗ bigSep ((ownRefs (τ := τ) (.scVector (cV L) (jV L))) \ myRefs L) fun b => iprop(∃ f, ((d, b) : Loc nD τ sig) ↦{fullShare} f)) := by
  unfold SparseCore.Cfg.ownBufs
  rw [SparseCore.bigSep_sdiff_split' (myRefs_sub L), myRefs_sep]

abbrev mc (d : Dev nD) (L : grid1.Coords) (s : DmaSems sig S_) : GSem nD τ sig := ((V d (cV L) (jV L)), .dma s.sem)

def myCells (d : Dev nD) (L : grid1.Coords) : Finset (GSem nD τ sig) :=
  {mc d L cc1_scoped0, mc d L cc1_scoped1, mc d L cc1_scoped2, mc d L cc1_scoped3, mc d L cc1_scoped4, mc d L cc1_scoped5, mc d L cc1_scoped6, mc d L cc1_scoped7, mc d L cc1_scoped8, mc d L cc1_scoped9, mc d L cc1_scoped10, mc d L cc1_scoped11, mc d L cc1_scoped12}

omit [FloatOps F] in
theorem mc_mem (s : DmaSems sig S_) (h : (SemLoc.dma s.sem : SemLoc sig).isScoped .scVector = true) : mc d L s ∈ ownCells (V d (cV L) (jV L)) :=
  mem_ownCells.mpr ⟨rfl, h⟩

omit [FloatOps F] in
theorem myCells_sub : myCells d L ⊆ ownCells (V d (cV L) (jV L)) := by
  intro g hg
  simp only [myCells, Finset.mem_insert, Finset.mem_singleton] at hg
  rcases hg with rfl | rfl | rfl | rfl | rfl | rfl | rfl | rfl | rfl | rfl | rfl | rfl | rfl <;> exact mc_mem d L _ (by decide)

omit [FloatOps F] in
theorem myCells_sep :
    (bigSep (myCells d L) fun g => semVal g 0 : sProp 𝕄)
      = iprop(semVal (mc d L cc1_scoped0) 0 ∗ semVal (mc d L cc1_scoped1) 0 ∗ semVal (mc d L cc1_scoped2) 0 ∗ semVal (mc d L cc1_scoped3) 0 ∗ semVal (mc d L cc1_scoped4) 0 ∗ semVal (mc d L cc1_scoped5) 0 ∗ semVal (mc d L cc1_scoped6) 0 ∗ semVal (mc d L cc1_scoped7) 0 ∗ semVal (mc d L cc1_scoped8) 0 ∗ semVal (mc d L cc1_scoped9) 0 ∗ semVal (mc d L cc1_scoped10) 0 ∗ semVal (mc d L cc1_scoped11) 0 ∗ semVal (mc d L cc1_scoped12) 0) := by
  unfold myCells
  have hne : ∀ {a b : DmaSems sig S_}, a.sem ≠ b.sem → mc d L a ≠ mc d L b := fun h e => h (by simpa [mc] using e)
  rw [SparseCore.bigSep_insert' (by simp only [Finset.mem_insert, Finset.mem_singleton, not_or]; refine ⟨?_, ?_, ?_, ?_, ?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_⟩ <;> exact hne (by decide)),
    SparseCore.bigSep_insert' (by simp only [Finset.mem_insert, Finset.mem_singleton, not_or]; refine ⟨?_, ?_, ?_, ?_, ?_, ?_⟩ <;> exact hne (by decide)),
    SparseCore.bigSep_insert' (by simp only [Finset.mem_insert, Finset.mem_singleton, not_or]; refine ⟨?_, ?_, ?_, ?_, ?_⟩ <;> exact hne (by decide)),
    SparseCore.bigSep_insert' (by simp only [Finset.mem_insert, Finset.mem_singleton, not_or]; refine ⟨?_, ?_, ?_, ?_⟩ <;> exact hne (by decide)),
    SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

omit [FloatOps F] in
theorem ownSems0_V1 :
    (ownSems0 (V d (cV L) (jV L)) : sProp 𝕄)
      = iprop((semVal (mc d L cc1_scoped0) 0 ∗ semVal (mc d L cc1_scoped1) 0 ∗ semVal (mc d L cc1_scoped2) 0 ∗ semVal (mc d L cc1_scoped3) 0 ∗ semVal (mc d L cc1_scoped4) 0 ∗ semVal (mc d L cc1_scoped5) 0 ∗ semVal (mc d L cc1_scoped6) 0 ∗ semVal (mc d L cc1_scoped7) 0 ∗ semVal (mc d L cc1_scoped8) 0 ∗ semVal (mc d L cc1_scoped9) 0 ∗ semVal (mc d L cc1_scoped10) 0 ∗ semVal (mc d L cc1_scoped11) 0 ∗ semVal (mc d L cc1_scoped12) 0)
          ∗ bigSep (ownCells (V d (cV L) (jV L)) \ myCells d L) fun g => semVal g 0) := by
  unfold SparseCore.Cfg.ownSems0
  rw [SparseCore.bigSep_sdiff_split' (myCells_sub d L), myCells_sep]

/-! ## The arrays as the tile's memrefs address them -/

omit [FloatOps F] in
theorem pts_src (q : PosShare TreeShare) (f : Buf (Elt F) (srcLoc d)) :
    ((srcW).view.loc (V d (cV L) (jV L)) ↦{q} f : sProp 𝕄) = srcLoc d ↦{q} f := by
  simp only [Memref.view_whole, View.set_whole]
omit [FloatOps F] in
theorem pts_idx (q : PosShare TreeShare) (f : Buf (Elt F) (idxLoc d)) :
    ((idxW).view.loc (V d (cV L) (jV L)) ↦{q} f : sProp 𝕄) = idxLoc d ↦{q} f := by
  simp only [Memref.view_whole, View.set_whole]
omit [FloatOps F] in
theorem pts_cep (q : PosShare TreeShare) (f : Buf (Elt F) (cepLoc d)) :
    ((cepW).view.loc (V d (cV L) (jV L)) ↦{q} f : sProp 𝕄) = cepLoc d ↦{q} f := by
  simp only [Memref.view_whole, View.set_whole]
omit [FloatOps F] in
theorem pts_o0 (f : Buf (Elt F) (outLoc d)) :
    ((oP0 L).view.loc (V d (cV L) (jV L)) ↦[(oP0 L).view.set]{fullShare} f : sProp 𝕄) = outLoc d ↦[oSet0 L]{fullShare} f := rfl
omit [FloatOps F] in
theorem pts_o1 (f : Buf (Elt F) (outLoc d)) :
    ((oP1 L).view.loc (V d (cV L) (jV L)) ↦[(oP1 L).view.set]{fullShare} f : sProp 𝕄) = outLoc d ↦[oSet1 L]{fullShare} f := rfl
omit [FloatOps F] in
theorem pts_o2 (f : Buf (Elt F) (outLoc d)) :
    ((oP2 L).view.loc (V d (cV L) (jV L)) ↦[(oP2 L).view.set]{fullShare} f : sProp 𝕄) = outLoc d ↦[oSet2 L]{fullShare} f := rfl
omit [FloatOps F] in
theorem pts_o3 (f : Buf (Elt F) (outLoc d)) :
    ((oP3 L).view.loc (V d (cV L) (jV L)) ↦[(oP3 L).view.set]{fullShare} f : sProp 𝕄) = outLoc d ↦[oSet3 L]{fullShare} f := rfl
omit [FloatOps F] in
theorem pts_slab (f : Buf (Elt F) ((V d (cV L) (jV L)).loc cc1_scratch0)) :
    ((slabW).view.loc (V d (cV L) (jV L)) ↦{fullShare} f : sProp 𝕄) = (V d (cV L) (jV L)).loc cc1_scratch0 ↦{fullShare} f := rfl
omit [FloatOps F] in
theorem pts_idxb (f : Buf (Elt F) ((V d (cV L) (jV L)).loc cc1_scratch1)) :
    ((idxbW).view.loc (V d (cV L) (jV L)) ↦{fullShare} f : sProp 𝕄) = (V d (cV L) (jV L)).loc cc1_scratch1 ↦{fullShare} f := rfl
omit [FloatOps F] in
theorem pts_outb (f : Buf (Elt F) ((V d (cV L) (jV L)).loc cc1_scratch2)) :
    ((outbW).view.loc (V d (cV L) (jV L)) ↦{fullShare} f : sProp 𝕄) = (V d (cV L) (jV L)).loc cc1_scratch2 ↦{fullShare} f := rfl
omit [FloatOps F] in
theorem pts_cepb (f : Buf (Elt F) ((V d (cV L) (jV L)).loc cc1_scratch3)) :
    ((cepbW).view.loc (V d (cV L) (jV L)) ↦{fullShare} f : sProp 𝕄) = (V d (cV L) (jV L)).loc cc1_scratch3 ↦{fullShare} f := rfl

end Res

open Res

/-! ## What the scratches hold after the copies -/

/-- The slab after its copy: the tile's slice of the source. -/
abbrev slabC (fs : Buf (Elt F) (srcLoc d)) : Buf (Elt F) ((V d (cV L) (jV L)).loc cc1_scratch0) := (srcPo L).view.read (Elt F) fs
/-- The index scratch and the centre scratch after chunk 0's copies. -/
abbrev idxC0 (fi : Buf (Elt F) (idxLoc d)) : Buf (Elt F) ((V d (cV L) (jV L)).loc cc1_scratch1) := (idxPo (k1_off2 L) (k1_off2_inb L)).view.read (Elt F) fi
abbrev cepC0 (fc : Buf (Elt F) (cepLoc d)) : Buf (Elt F) ((V d (cV L) (jV L)).loc cc1_scratch3) := (cepPo (k1_off3 L) (k1_off3_inb L)).view.read (Elt F) fc
/-- The index scratch and the centre scratch after chunk 1's copies. -/
abbrev idxC1 (fi : Buf (Elt F) (idxLoc d)) : Buf (Elt F) ((V d (cV L) (jV L)).loc cc1_scratch1) := (idxPo (k1_off25 L) (k1_off25_inb L)).view.read (Elt F) fi
abbrev cepC1 (fc : Buf (Elt F) (cepLoc d)) : Buf (Elt F) ((V d (cV L) (jV L)).loc cc1_scratch3) := (cepPo (k1_off26 L) (k1_off26_inb L)).view.read (Elt F) fc
/-- The index scratch and the centre scratch after chunk 2's copies. -/
abbrev idxC2 (fi : Buf (Elt F) (idxLoc d)) : Buf (Elt F) ((V d (cV L) (jV L)).loc cc1_scratch1) := (idxPo (k1_off48 L) (k1_off48_inb L)).view.read (Elt F) fi
abbrev cepC2 (fc : Buf (Elt F) (cepLoc d)) : Buf (Elt F) ((V d (cV L) (jV L)).loc cc1_scratch3) := (cepPo (k1_off49 L) (k1_off49_inb L)).view.read (Elt F) fc
/-- The index scratch and the centre scratch after chunk 3's copies. -/
abbrev idxC3 (fi : Buf (Elt F) (idxLoc d)) : Buf (Elt F) ((V d (cV L) (jV L)).loc cc1_scratch1) := (idxPo (k1_off71 L) (k1_off71_inb L)).view.read (Elt F) fi
abbrev cepC3 (fc : Buf (Elt F) (cepLoc d)) : Buf (Elt F) ((V d (cV L) (jV L)).loc cc1_scratch3) := (cepPo (k1_off72 L) (k1_off72_inb L)).view.read (Elt F) fc

omit [FloatOps F] in
/-- A points-to at equal contents. -/
theorem pts_congr {ℓ : Loc nD τ sig} {q : PosShare TreeShare} {f g : Buf (Elt F) ℓ} (h : f = g) : ((ℓ ↦{q} f : sProp 𝕄)) ⊢ (ℓ ↦{q} g) := by
  subst h; exact .rfl

omit [FloatOps F] in
/-- What the copy of the output scratch carries: the scratch's contents. -/
theorem readAs_whole (G : Buf (Elt F) ((V d (cV L) (jV L)).loc cc1_scratch2)) (y : S16x1024.Idx) :
    ReadAs.same.apply (View.read (Elt F) (outbW).view G) y = G y := rfl

variable (fs : Buf (Elt F) (srcLoc d)) (fi : Buf (Elt F) (idxLoc d)) (fc : Buf (Elt F) (cepLoc d))

set_option maxHeartbeats 16000000 in
/-- The body of one tile of the first SparseCore call: from the three read shares, the four output pieces and the thread's
    own scratch and semaphores, the same back with the output pieces at the pooled and rectified array. -/
theorem tile_body1 (hF : (K (F := F)).Facts) (hidx : ∀ j, (fi j).toNat < 4096)
    (O : CellTallies nD τ sig (HIx 3)) (W : Waits sig (HIx 3)) (hO : ∀ g, O g none = 0) :
    iprop(levAts (K (F := F)).L (K (F := F)).lev ∗ emp ∗ go1 d L fs fi fc
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_body L srcW (Memref.isWhole_whole _) idxW (Memref.isWhole_whole _) cepW (Memref.isWhole_whole _) outW (Memref.isWhole_whole _) slabW (Memref.isWhole_whole _) idxbW (Memref.isWhole_whole _) outbW (Memref.isWhole_whole _) cepbW (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12)
          fun _ => iprop(td1 d L fs fi fc ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_body_eq_skeleton]; unfold cc1_body_skel
  rw [(K (F := F)).scopedBufs_V hF d (cV L) (jV L), SparseCore.Cfg.scopedSems0_V (Val := Elt F) d (cV L) (jV L), ownSems0_V1, ownBufs_V1]
  unfold go1 td1
  iintro ⟨#Hlv, -, ⟨Hsrc, Hidx, Hcepw, ⟨%fo0, Ho0⟩, ⟨%fo1, Ho1⟩, ⟨%fo2, Ho2⟩, ⟨%fo3, Ho3⟩⟩, ⟨⟨⟨%f0, Hs0⟩, ⟨%f1, Hs1⟩, ⟨%f2, Hs2⟩, ⟨%f3, Hs3⟩⟩, Hbufs⟩,
    ⟨⟨Hm0, Hm1, Hm2, Hm3, Hm4, Hm5, Hm6, Hm7, Hm8, Hm9, Hm10, Hm11, Hm12⟩, Hsems⟩, HO⟩
  ihave Hmw := ((K (F := F)).mayWaits_none (thr := (V d (cV L) (jV L))) hO) $$ Hlv
  ihave Hsrc' := (Entails.of_eq (pts_src (F := F) d L _ _).symm) $$ Hsrc
  ihave Hidx' := (Entails.of_eq (pts_idx (F := F) d L _ _).symm) $$ Hidx
  ihave Hcepw' := (Entails.of_eq (pts_cep (F := F) d L _ _).symm) $$ Hcepw
  ihave Ho0' := (Entails.of_eq (pts_o0 (F := F) d L _).symm) $$ Ho0
  ihave Ho1' := (Entails.of_eq (pts_o1 (F := F) d L _).symm) $$ Ho1
  ihave Ho2' := (Entails.of_eq (pts_o2 (F := F) d L _).symm) $$ Ho2
  ihave Ho3' := (Entails.of_eq (pts_o3 (F := F) d L _).symm) $$ Ho3
  ihave Hs0' := (Entails.of_eq (pts_slab (F := F) d L _).symm) $$ Hs0
  ihave Hs1' := (Entails.of_eq (pts_idxb (F := F) d L _).symm) $$ Hs1
  ihave Hs2' := (Entails.of_eq (pts_outb (F := F) d L _).symm) $$ Hs2
  ihave Hs3' := (Entails.of_eq (pts_cepb (F := F) d L _).symm) $$ Hs3
  sl_exec
  have es : ∀ fold, View.write (Elt F) (slabW).view fold (tile_body1.sl.dma0 d L fs) Finset.univ = slabC (F := F) d L fs := fun fold =>
    (View.write_whole_univ cc1_scratch0 fold _).trans rfl
  ihave Hs0' := (pts_congr (es _)) $$ Hs0'
  -- chunk 0: the scratches hold the tile's slices
  have e0i : ∀ fold, View.write (Elt F) (idxbW).view fold (tile_body1.sl.dma0_1 d L fi) Finset.univ = idxC0 (F := F) d L fi := fun fold =>
    (View.write_whole_univ cc1_scratch1 fold _).trans rfl
  have e0c : ∀ fold, View.write (Elt F) (cepbW).view fold (tile_body1.sl.dma0_2 d L fc) Finset.univ = cepC0 (F := F) d L fc := fun fold =>
    (View.write_whole_univ cc1_scratch3 fold _).trans rfl
  ihave Hs1' := (pts_congr (e0i _)) $$ Hs1'
  ihave Hs3' := (pts_congr (e0c _)) $$ Hs3'
  have hfix0 : ∀ y, (idxC0 (F := F) d L fi y).toNat < 4096 := fun y => hidx _
  sl_for (invO (F := F) d L (slabC (F := F) d L fs) (idxC0 (F := F) d L fi) (cepC0 (F := F) d L fc) (GoutL negInf1 (slabC (F := F) d L fs) (idxC0 (F := F) d L fi) (cepC0 (F := F) d L fc))) $$ [Hs0' Hs1' Hs2' Hs3']
  case region =>
    intro k acc
    exact outerV0 (F := F) d L (slabC (F := F) d L fs) (idxC0 (F := F) d L fi) (cepC0 (F := F) d L fc) hfix0 _ k acc
  · unfold invO
    isplitl [Hs0']
    · iexact Hs0'
    isplitl [Hs1']
    · iexact Hs1'
    isplitl [Hs3']
    · iexact Hs3'
    iexists _
    isplitl [Hs2']
    · iexact Hs2'
    ipureintro
    intro y hy
    exact absurd hy (by omega)
  iintro %_ HI
  unfold invO
  icases HI with ⟨Hs0', Hs1', Hs3', %fo_0, Hs2', %hDone0⟩
  obtain rfl : fo_0 = (GoutL negInf1 (slabC (F := F) d L fs) (idxC0 (F := F) d L fi) (cepC0 (F := F) d L fc)) := done1_all hDone0
  sl_exec
  -- chunk 1: the scratches hold the tile's slices
  have e1i : ∀ fold, View.write (Elt F) (idxbW).view fold (tile_body1.sl.dma0_4 d L fi) Finset.univ = idxC1 (F := F) d L fi := fun fold =>
    (View.write_whole_univ cc1_scratch1 fold _).trans rfl
  have e1c : ∀ fold, View.write (Elt F) (cepbW).view fold (tile_body1.sl.dma0_5 d L fc) Finset.univ = cepC1 (F := F) d L fc := fun fold =>
    (View.write_whole_univ cc1_scratch3 fold _).trans rfl
  ihave Hs1' := (pts_congr (e1i _)) $$ Hs1'
  ihave Hs3' := (pts_congr (e1c _)) $$ Hs3'
  have hfix1 : ∀ y, (idxC1 (F := F) d L fi y).toNat < 4096 := fun y => hidx _
  sl_for (invO (F := F) d L (slabC (F := F) d L fs) (idxC1 (F := F) d L fi) (cepC1 (F := F) d L fc) (GoutL negInf1 (slabC (F := F) d L fs) (idxC1 (F := F) d L fi) (cepC1 (F := F) d L fc))) $$ [Hs0' Hs1' Hs2' Hs3']
  case region =>
    intro k acc
    exact outerV1 (F := F) d L (slabC (F := F) d L fs) (idxC1 (F := F) d L fi) (cepC1 (F := F) d L fc) hfix1 _ k acc
  · unfold invO
    isplitl [Hs0']
    · iexact Hs0'
    isplitl [Hs1']
    · iexact Hs1'
    isplitl [Hs3']
    · iexact Hs3'
    iexists _
    isplitl [Hs2']
    · iexact Hs2'
    ipureintro
    intro y hy
    exact absurd hy (by omega)
  iintro %_ HI
  unfold invO
  icases HI with ⟨Hs0', Hs1', Hs3', %fo_1, Hs2', %hDone1⟩
  obtain rfl : fo_1 = (GoutL negInf1 (slabC (F := F) d L fs) (idxC1 (F := F) d L fi) (cepC1 (F := F) d L fc)) := done1_all hDone1
  sl_exec
  -- chunk 2: the scratches hold the tile's slices
  have e2i : ∀ fold, View.write (Elt F) (idxbW).view fold (tile_body1.sl.dma0_7 d L fi) Finset.univ = idxC2 (F := F) d L fi := fun fold =>
    (View.write_whole_univ cc1_scratch1 fold _).trans rfl
  have e2c : ∀ fold, View.write (Elt F) (cepbW).view fold (tile_body1.sl.dma0_8 d L fc) Finset.univ = cepC2 (F := F) d L fc := fun fold =>
    (View.write_whole_univ cc1_scratch3 fold _).trans rfl
  ihave Hs1' := (pts_congr (e2i _)) $$ Hs1'
  ihave Hs3' := (pts_congr (e2c _)) $$ Hs3'
  have hfix2 : ∀ y, (idxC2 (F := F) d L fi y).toNat < 4096 := fun y => hidx _
  sl_for (invO (F := F) d L (slabC (F := F) d L fs) (idxC2 (F := F) d L fi) (cepC2 (F := F) d L fc) (GoutL negInf1 (slabC (F := F) d L fs) (idxC2 (F := F) d L fi) (cepC2 (F := F) d L fc))) $$ [Hs0' Hs1' Hs2' Hs3']
  case region =>
    intro k acc
    exact outerV2 (F := F) d L (slabC (F := F) d L fs) (idxC2 (F := F) d L fi) (cepC2 (F := F) d L fc) hfix2 _ k acc
  · unfold invO
    isplitl [Hs0']
    · iexact Hs0'
    isplitl [Hs1']
    · iexact Hs1'
    isplitl [Hs3']
    · iexact Hs3'
    iexists _
    isplitl [Hs2']
    · iexact Hs2'
    ipureintro
    intro y hy
    exact absurd hy (by omega)
  iintro %_ HI
  unfold invO
  icases HI with ⟨Hs0', Hs1', Hs3', %fo_2, Hs2', %hDone2⟩
  obtain rfl : fo_2 = (GoutL negInf1 (slabC (F := F) d L fs) (idxC2 (F := F) d L fi) (cepC2 (F := F) d L fc)) := done1_all hDone2
  sl_exec
  -- chunk 3: the scratches hold the tile's slices
  have e3i : ∀ fold, View.write (Elt F) (idxbW).view fold (tile_body1.sl.dma0_10 d L fi) Finset.univ = idxC3 (F := F) d L fi := fun fold =>
    (View.write_whole_univ cc1_scratch1 fold _).trans rfl
  have e3c : ∀ fold, View.write (Elt F) (cepbW).view fold (tile_body1.sl.dma0_11 d L fc) Finset.univ = cepC3 (F := F) d L fc := fun fold =>
    (View.write_whole_univ cc1_scratch3 fold _).trans rfl
  ihave Hs1' := (pts_congr (e3i _)) $$ Hs1'
  ihave Hs3' := (pts_congr (e3c _)) $$ Hs3'
  have hfix3 : ∀ y, (idxC3 (F := F) d L fi y).toNat < 4096 := fun y => hidx _
  sl_for (invO (F := F) d L (slabC (F := F) d L fs) (idxC3 (F := F) d L fi) (cepC3 (F := F) d L fc) (GoutL negInf1 (slabC (F := F) d L fs) (idxC3 (F := F) d L fi) (cepC3 (F := F) d L fc))) $$ [Hs0' Hs1' Hs2' Hs3']
  case region =>
    intro k acc
    exact outerV3 (F := F) d L (slabC (F := F) d L fs) (idxC3 (F := F) d L fi) (cepC3 (F := F) d L fc) hfix3 k acc
  · unfold invO
    isplitl [Hs0']
    · iexact Hs0'
    isplitl [Hs1']
    · iexact Hs1'
    isplitl [Hs3']
    · iexact Hs3'
    iexists _
    isplitl [Hs2']
    · iexact Hs2'
    ipureintro
    intro y hy
    exact absurd hy (by omega)
  iintro %_ HI
  unfold invO
  icases HI with ⟨Hs0', Hs1', Hs3', %fo_3, Hs2', %hDone3⟩
  obtain rfl : fo_3 = (GoutL negInf1 (slabC (F := F) d L fs) (idxC3 (F := F) d L fi) (cepC3 (F := F) d L fc)) := done1_all hDone3
  sl_exec
  unfold tile_body1.sl.dma0_3 tile_body1.sl.dma0_6 tile_body1.sl.dma0_9 tile_body1.sl.dma0_12
  sl_step
  ihave Ho0' := (Entails.of_eq (pointsTo_congr (piece_final (F := F) L fs fi fc hidx (k1_off2 L) (k1_off2_inb L) (k1_off3 L) (k1_off3_inb L) (k1_off3_inb L)
      ⟨0, by omega⟩ (off2_eq L) (off3_eq L) _ (ReadAs.same.apply (View.read (Elt F) (outbW).view (GoutL negInf1 (slabC (F := F) d L fs) (idxC0 (F := F) d L fi) (cepC0 (F := F) d L fc)))) (fun y => readAs_whole (F := F) d L (GoutL negInf1 (slabC (F := F) d L fs) (idxC0 (F := F) d L fi) (cepC0 (F := F) d L fc)) y)))) $$ Ho0'
  ihave Ho1' := (Entails.of_eq (pointsTo_congr (piece_final (F := F) L fs fi fc hidx (k1_off25 L) (k1_off25_inb L) (k1_off26 L) (k1_off26_inb L) (k1_off26_inb L)
      ⟨1, by omega⟩ (off25_eq L) (off26_eq L) _ (ReadAs.same.apply (View.read (Elt F) (outbW).view (GoutL negInf1 (slabC (F := F) d L fs) (idxC1 (F := F) d L fi) (cepC1 (F := F) d L fc)))) (fun y => readAs_whole (F := F) d L (GoutL negInf1 (slabC (F := F) d L fs) (idxC1 (F := F) d L fi) (cepC1 (F := F) d L fc)) y)))) $$ Ho1'
  ihave Ho2' := (Entails.of_eq (pointsTo_congr (piece_final (F := F) L fs fi fc hidx (k1_off48 L) (k1_off48_inb L) (k1_off49 L) (k1_off49_inb L) (k1_off49_inb L)
      ⟨2, by omega⟩ (off48_eq L) (off49_eq L) _ (ReadAs.same.apply (View.read (Elt F) (outbW).view (GoutL negInf1 (slabC (F := F) d L fs) (idxC2 (F := F) d L fi) (cepC2 (F := F) d L fc)))) (fun y => readAs_whole (F := F) d L (GoutL negInf1 (slabC (F := F) d L fs) (idxC2 (F := F) d L fi) (cepC2 (F := F) d L fc)) y)))) $$ Ho2'
  ihave Ho3' := (Entails.of_eq (pointsTo_congr (piece_final (F := F) L fs fi fc hidx (k1_off71 L) (k1_off71_inb L) (k1_off72 L) (k1_off72_inb L) (k1_off72_inb L)
      ⟨3, by omega⟩ (off71_eq L) (off72_eq L) _ (ReadAs.same.apply (View.read (Elt F) (outbW).view (GoutL negInf1 (slabC (F := F) d L fs) (idxC3 (F := F) d L fi) (cepC3 (F := F) d L fc)))) (fun y => readAs_whole (F := F) d L (GoutL negInf1 (slabC (F := F) d L fs) (idxC3 (F := F) d L fi) (cepC3 (F := F) d L fc)) y)))) $$ Ho3'
  isplitl [Hsrc' Hidx' Hcepw' Ho0' Ho1' Ho2' Ho3']
  · isplitl [Hsrc']; · iapply (Entails.of_eq (pts_src (F := F) d L _ _)); iexact Hsrc'
    isplitl [Hidx']; · iapply (Entails.of_eq (pts_idx (F := F) d L _ _)); iexact Hidx'
    isplitl [Hcepw']; · iapply (Entails.of_eq (pts_cep (F := F) d L _ _)); iexact Hcepw'
    isplitl [Ho0']; · iapply (Entails.of_eq (pts_o0 (F := F) d L _)); iexact Ho0'
    isplitl [Ho1']; · iapply (Entails.of_eq (pts_o1 (F := F) d L _)); iexact Ho1'
    isplitl [Ho2']; · iapply (Entails.of_eq (pts_o2 (F := F) d L _)); iexact Ho2'
    iapply (Entails.of_eq (pts_o3 (F := F) d L _)); iexact Ho3'
  isplitl [Hs0' Hs1' Hs2' Hs3' Hbufs]
  · isplitl [Hs0' Hs1' Hs2' Hs3']
    · isplitl [Hs0']; · iexists _; iexact Hs0'
      isplitl [Hs1']; · iexists _; iexact Hs1'
      isplitl [Hs2']; · iexists _; iexact Hs2'
      iexists _; iexact Hs3'
    · iexact Hbufs
  isplitl [Hm0 Hm1 Hm2 Hm3 Hm4 Hm5 Hm6 Hm7 Hm8 Hm9 Hm10 Hm11 Hm12 Hsems]
  · isplitl [Hm0 Hm1 Hm2 Hm3 Hm4 Hm5 Hm6 Hm7 Hm8 Hm9 Hm10 Hm11 Hm12]
    · isplitl [Hm0]; · iexact Hm0
      isplitl [Hm1]; · iexact Hm1
      isplitl [Hm2]; · iexact Hm2
      isplitl [Hm3]; · iexact Hm3
      isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      iexact Hm12
    · iexact Hsems
  iexists _; isplitr
  rotate_left
  · iexact HO
  · ipureintro; intro p hp
    simp only [Finset.mem_insert] at hp
    rcases hp with rfl | rfl | rfl | rfl | rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inl hp

end Tile

end Cert.Proof.KB.T1

end
-- ==== Proof.KBTile2Inv.lean ====
/-
  One tile of the second SparseCore call (the plain gather-and-max): its body's weakest precondition at a symbolic tile,
  from the resources the call deals it to the same back with its four output pieces at the pooled array.
-/
import proofs.«209975_g17849884082380_cont_8to1_1483_11_alg».proof.Proof.KBTile2Defs
import proofs.«209975_g17849884082380_cont_8to1_1483_11_alg».proof.Proof.KBTile2Val
import Idealize.ShloMosaic.Lib.Writes
import Idealize.ShloMosaic.Lib.ValueLayout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v6_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v7_scv : Memref Cert.Kernel.sig Kind.scVector Space.hbm Cert.Kernel.S8x64x4096 EltTy.f32)
local notation "slabW" => (Memref.whole Cert.Kernel.cc2_scratch0 : Memref Cert.Kernel.sig Kind.scVector Space.vmem Cert.Kernel.S65536 EltTy.f32)
local notation "idxbW" => (Memref.whole Cert.Kernel.cc2_scratch1 : Memref Cert.Kernel.sig Kind.scVector Space.vmem Cert.Kernel.S20x1024 EltTy.i32)
local notation "outbW" => (Memref.whole Cert.Kernel.cc2_scratch2 : Memref Cert.Kernel.sig Kind.scVector Space.vmem Cert.Kernel.S16x1024 EltTy.f32)

section Tile

variable (d : Dev nD) (L : grid2.Coords)

/-- The indexed load at the head of a program is the plain load of the whole base, gathered. -/
theorem vli_bind {Λ : Labels} {p : Proc τ} {s t : Shape} {e : EltTy} {α : Type} [FloatOps F] (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = .op (.load base (.whole s) (View.loadsAt_whole hl)) fun f => k (loadIdx f idxs h) := rfl

/-- What a gather reads of the slab's contents. -/
abbrev slabRd (fsl : Buf (Elt F) ((V d (cV L) (jV L)).loc cc2_scratch0)) : Vec F S65536 .f32 :=
  (slabW).view.readAt (Elt F) (LoadRect.whole S65536) fsl

theorem slabRd_apply (fsl : Buf (Elt F) ((V d (cV L) (jV L)).loc cc2_scratch0)) (p : S65536.Idx) : slabRd d L fsl p = fsl p := by
  show fsl ((LoadRect.whole S65536).idx p) = fsl p
  congr 1
  funext a
  exact Fin.ext (by show 0 + 1 * (p a).val = (p a).val; omega)

theorem iv4_lt (t : Nat) (h : t < 4) : (Scf.iv 0#32 1#32 t).toNat < 4 := by
  unfold Scf.iv
  bv_omega

theorem iv4_val (t : Nat) (h : t < 4) : (Scf.iv 0#32 1#32 t).toNat = t := by
  unfold Scf.iv
  bv_omega

/-- A neighbour vector loaded from the index scratch: row `k`'s 16 columns from column `16 i`. -/
theorem idxvec_eq (fix : Buf (Elt F) ((V d (cV L) (jV L)).loc cc2_scratch1)) (off : Fin 2 → Nat) (k : Fin 20) (i : Nat) (hi : i < 64) (hoff : off = ![k.val, 16 * i])
    (b : ∀ a, off a + S1x16.size a ≤ S20x1024.size a) (x : S16.Idx) :
    shapeCast S16 ((idxbW).view.readAt (Elt F) (Rect.unit (s := S20x1024) off S1x16.size b).toLoadRect fix) shapeCasts_S1x16_S16 x
      = fix (ix2 k ⟨16 * i + (x 0).val, by have h16 : (x 0).val < 16 := (x 0).isLt; show 16 * i + (x 0).val < 1024; omega⟩) := by
  subst hoff
  obtain ⟨l, rfl⟩ : ∃ l : Fin 16, x = ix1 l := ⟨x 0, eq_ix1 x⟩
  rw [shapeCast_1a_a_apply, View.readAt_apply]
  have hix : (Rect.unit (s := S20x1024) ![k.val, 16 * i] S1x16.size b).toLoadRect.idx (ix2 (0 : Fin 1) l)
      = ix2 k ⟨16 * i + l.val, by have := l.isLt; omega⟩ := by
    funext a
    match a with
    | ⟨0, _⟩ => exact Fin.ext (by show k.val + 1 * 0 = k.val; omega)
    | ⟨1, _⟩ => exact Fin.ext (by show 16 * i + 1 * l.val = 16 * i + l.val; omega)
  rw [hix]
  rfl

/-- A load of sixteen columns of a row of the index scratch. -/
abbrev ldv (fix : Buf (Elt F) ((V d (cV L) (jV L)).loc cc2_scratch1)) (off : Fin 2 → Nat) (b : ∀ a, off a + S1x16.size a ≤ S20x1024.size a) : Vec F S1x16 .i32 :=
  (idxbW).view.readAt (Elt F) (Rect.unit (s := S20x1024) off S1x16.size b).toLoadRect fix

variable [FloatOps F]

/-- Minus infinity, as the program writes it. -/
abbrev negInf : F .f32 := Scalar.ofBits .f32 0xFF800000#32

/-- The inner loop's invariant in block `i`: the slab, and the output scratch right in its first `16 i` columns and in
    the first `4 g` rows of the next 16. -/
def inv2 (fsl : Buf (Elt F) ((V d (cV L) (jV L)).loc cc2_scratch0)) (G : S16x1024.Idx → F .f32) (i : Nat) (g : Nat) (_ : Unit) : sProp 𝕄 :=
  iprop(((slabW).view.loc (V d (cV L) (jV L)) ↦{fullShare} fsl)
    ∗ ∃ f2, ((outbW).view.loc (V d (cV L) (jV L)) ↦{fullShare} f2) ∗ ⌜Done2 G i g f2⌝)

/-- The outer loop's invariant: the slab, the index scratch, and the output scratch right in its first `16 i` columns. -/
def inv1 (fsl : Buf (Elt F) ((V d (cV L) (jV L)).loc cc2_scratch0)) (fix : Buf (Elt F) ((V d (cV L) (jV L)).loc cc2_scratch1))
    (G : S16x1024.Idx → F .f32) (i : Nat) (_ : Unit) : sProp 𝕄 :=
  iprop(((slabW).view.loc (V d (cV L) (jV L)) ↦{fullShare} fsl) ∗ ((idxbW).view.loc (V d (cV L) (jV L)) ↦{fullShare} fix)
    ∗ ∃ f2, ((outbW).view.loc (V d (cV L) (jV L)) ↦{fullShare} f2) ∗ ⌜Done1 G i f2⌝)

end Tile

end Cert.Proof.KB

end
-- ==== Proof.KBTile2C0.lean ====
/-
  One tile of the second SparseCore call, chunk 0 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KBTile2Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v6_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v7_scv : Memref Cert.Kernel.sig Kind.scVector Space.hbm Cert.Kernel.S8x64x4096 EltTy.f32)
local notation "slabW" => (Memref.whole Cert.Kernel.cc2_scratch0 : Memref Cert.Kernel.sig Kind.scVector Space.vmem Cert.Kernel.S65536 EltTy.f32)
local notation "idxbW" => (Memref.whole Cert.Kernel.cc2_scratch1 : Memref Cert.Kernel.sig Kind.scVector Space.vmem Cert.Kernel.S20x1024 EltTy.i32)
local notation "outbW" => (Memref.whole Cert.Kernel.cc2_scratch2 : Memref Cert.Kernel.sig Kind.scVector Space.vmem Cert.Kernel.S16x1024 EltTy.f32)

section Tile

variable (d : Dev nD) (L : grid2.Coords)

variable [FloatOps F]

/-- The 20 neighbour vectors of a trip of this chunk, in order. -/
abbrev U0 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k2_pay615 v75_ld, k2_pay616 v78_ld, k2_pay617 v81_ld, k2_pay618 v84_ld, k2_pay619 v87_ld, k2_pay620 v90_ld, k2_pay621 v93_ld, k2_pay622 v96_ld, k2_pay623 v99_ld]

attribute [local sl_canon] vli_bind in
set_option maxHeartbeats 8000000 in
/-- A trip of the inner loop: from the slab and the output scratch, the same with the trip's four rows stored. -/
theorem inner_trip0 (q : PosShare TreeShare) (fsl : Buf (Elt F) ((V d (cV L) (jV L)).loc cc2_scratch0)) (f2 : Buf (Elt F) ((V d (cV L) (jV L)).loc cc2_scratch2))
    (v28 : BitVec 32) (v30 : FVec F S16 .f32) (k2_t1 : Fin k2_t1_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U0 (F := F) v42 v45 v48 v51 v54 v57 v60 v63 v66 v69 v72 v75_ld v78_ld v81_ld v84_ld v87_ld v90_ld v93_ld v96_ld v99_ld) k x).toNat < 4096)
    (k2_t2 : Fin k2_t2_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k2_t2_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 v30 k2_t1 v39 v42 v45 v48 v51 v54 v57 v60 v63 v66 v69 v72 v75_ld v78_ld v81_ld v84_ld v87_ld v90_ld v93_ld v96_ld v99_ld k2_t2 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U0 v42 v45 v48 v51 v54 v57 v60 v63 v66 v69 v72 v75_ld v78_ld v81_ld v84_ld v87_ld v90_ld v93_ld v96_ld v99_ld) hU (k2_off23 k2_t1 k2_t2) (k2_off23_inb k2_t1 k2_t2)
              (Scf.iv 0#32 1#32 k2_t2.val) (iv4_lt k2_t2.val k2_t2.isLt)))) := by
  have hg : (Scf.iv 0#32 1#32 k2_t2.val).toNat < 4 := iv4_lt k2_t2.val k2_t2.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k2_pay615 v75_ld x).toNat < 4096 := hU 11
  have h78 : ∀ x, (k2_pay616 v78_ld x).toNat < 4096 := hU 12
  have h81 : ∀ x, (k2_pay617 v81_ld x).toNat < 4096 := hU 13
  have h84 : ∀ x, (k2_pay618 v84_ld x).toNat < 4096 := hU 14
  have h87 : ∀ x, (k2_pay619 v87_ld x).toNat < 4096 := hU 15
  have h90 : ∀ x, (k2_pay620 v90_ld x).toNat < 4096 := hU 16
  have h93 : ∀ x, (k2_pay621 v93_ld x).toNat < 4096 := hU 17
  have h96 : ∀ x, (k2_pay622 v96_ld x).toNat < 4096 := hU 18
  have h99 : ∀ x, (k2_pay623 v99_ld x).toNat < 4096 := hU 19
  unfold k2_t2_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U0_loaded (fix : Buf (Elt F) ((V d (cV L) (jV L)).loc cc2_scratch1)) (t1 : Fin k2_t1_loop.trips) (k : Fin 20) (x : S16.Idx) :
    U0 (F := F) (k2_pay150 (ldv d L fix (k2_off3 t1) (k2_off3_inb t1))) (k2_pay151 (ldv d L fix (k2_off4 t1) (k2_off4_inb t1))) (k2_pay152 (ldv d L fix (k2_off5 t1) (k2_off5_inb t1))) (k2_pay153 (ldv d L fix (k2_off6 t1) (k2_off6_inb t1))) (k2_pay154 (ldv d L fix (k2_off7 t1) (k2_off7_inb t1))) (k2_pay155 (ldv d L fix (k2_off8 t1) (k2_off8_inb t1))) (k2_pay156 (ldv d L fix (k2_off9 t1) (k2_off9_inb t1))) (k2_pay157 (ldv d L fix (k2_off10 t1) (k2_off10_inb t1))) (k2_pay158 (ldv d L fix (k2_off11 t1) (k2_off11_inb t1))) (k2_pay159 (ldv d L fix (k2_off12 t1) (k2_off12_inb t1))) (k2_pay160 (ldv d L fix (k2_off13 t1) (k2_off13_inb t1))) (ldv d L fix (k2_off14 t1) (k2_off14_inb t1)) (ldv d L fix (k2_off15 t1) (k2_off15_inb t1)) (ldv d L fix (k2_off16 t1) (k2_off16_inb t1)) (ldv d L fix (k2_off17 t1) (k2_off17_inb t1)) (ldv d L fix (k2_off18 t1) (k2_off18_inb t1)) (ldv d L fix (k2_off19 t1) (k2_off19_inb t1)) (ldv d L fix (k2_off20 t1) (k2_off20_inb t1)) (ldv d L fix (k2_off21 t1) (k2_off21_inb t1)) (ldv d L fix (k2_off22 t1) (k2_off22_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k2_off3_eq t1) _ x
  | ⟨1, _⟩ => exact idxvec_eq d L fix _ ⟨1, by omega⟩ t1.val ht (k2_off4_eq t1) _ x
  | ⟨2, _⟩ => exact idxvec_eq d L fix _ ⟨2, by omega⟩ t1.val ht (k2_off5_eq t1) _ x
  | ⟨3, _⟩ => exact idxvec_eq d L fix _ ⟨3, by omega⟩ t1.val ht (k2_off6_eq t1) _ x
  | ⟨4, _⟩ => exact idxvec_eq d L fix _ ⟨4, by omega⟩ t1.val ht (k2_off7_eq t1) _ x
  | ⟨5, _⟩ => exact idxvec_eq d L fix _ ⟨5, by omega⟩ t1.val ht (k2_off8_eq t1) _ x
  | ⟨6, _⟩ => exact idxvec_eq d L fix _ ⟨6, by omega⟩ t1.val ht (k2_off9_eq t1) _ x
  | ⟨7, _⟩ => exact idxvec_eq d L fix _ ⟨7, by omega⟩ t1.val ht (k2_off10_eq t1) _ x
  | ⟨8, _⟩ => exact idxvec_eq d L fix _ ⟨8, by omega⟩ t1.val ht (k2_off11_eq t1) _ x
  | ⟨9, _⟩ => exact idxvec_eq d L fix _ ⟨9, by omega⟩ t1.val ht (k2_off12_eq t1) _ x
  | ⟨10, _⟩ => exact idxvec_eq d L fix _ ⟨10, by omega⟩ t1.val ht (k2_off13_eq t1) _ x
  | ⟨11, _⟩ => exact idxvec_eq d L fix _ ⟨11, by omega⟩ t1.val ht (k2_off14_eq t1) _ x
  | ⟨12, _⟩ => exact idxvec_eq d L fix _ ⟨12, by omega⟩ t1.val ht (k2_off15_eq t1) _ x
  | ⟨13, _⟩ => exact idxvec_eq d L fix _ ⟨13, by omega⟩ t1.val ht (k2_off16_eq t1) _ x
  | ⟨14, _⟩ => exact idxvec_eq d L fix _ ⟨14, by omega⟩ t1.val ht (k2_off17_eq t1) _ x
  | ⟨15, _⟩ => exact idxvec_eq d L fix _ ⟨15, by omega⟩ t1.val ht (k2_off18_eq t1) _ x
  | ⟨16, _⟩ => exact idxvec_eq d L fix _ ⟨16, by omega⟩ t1.val ht (k2_off19_eq t1) _ x
  | ⟨17, _⟩ => exact idxvec_eq d L fix _ ⟨17, by omega⟩ t1.val ht (k2_off20_eq t1) _ x
  | ⟨18, _⟩ => exact idxvec_eq d L fix _ ⟨18, by omega⟩ t1.val ht (k2_off21_eq t1) _ x
  | ⟨19, _⟩ => exact idxvec_eq d L fix _ ⟨19, by omega⟩ t1.val ht (k2_off22_eq t1) _ x
  | ⟨n + 20, h⟩ => exact absurd h (by omega)

set_option maxHeartbeats 4000000 in
/-- A trip of the outer loop: the block's 20 neighbour vectors loaded, then the inner loop's four trips fill the block. -/
theorem outer_trip0 (fsl : Buf (Elt F) ((V d (cV L) (jV L)).loc cc2_scratch0)) (fix : Buf (Elt F) ((V d (cV L) (jV L)).loc cc2_scratch1))
    (hfix : ∀ y, (fix y).toNat < 4096) (v28 : BitVec 32) (t1 : Fin k2_t1_loop.trips) (acc : Unit) :
    inv1 d L fsl fix (Gout negInf fsl fix) t1.val acc
      ⊢ wp frame (wpE (defs₀ (F := F)) 𝒱₀ (V d (cV L) (jV L)) none) Set.univ
          (k2_t1_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 k2_pay614 t1 acc)
          (inv1 d L fsl fix (Gout negInf fsl fix) (t1.val + 1)) := by
  have ht : t1.val < 64 := t1.isLt
  have hU : ∀ k x, ((U0 (F := F) (k2_pay150 (ldv d L fix (k2_off3 t1) (k2_off3_inb t1))) (k2_pay151 (ldv d L fix (k2_off4 t1) (k2_off4_inb t1))) (k2_pay152 (ldv d L fix (k2_off5 t1) (k2_off5_inb t1))) (k2_pay153 (ldv d L fix (k2_off6 t1) (k2_off6_inb t1))) (k2_pay154 (ldv d L fix (k2_off7 t1) (k2_off7_inb t1))) (k2_pay155 (ldv d L fix (k2_off8 t1) (k2_off8_inb t1))) (k2_pay156 (ldv d L fix (k2_off9 t1) (k2_off9_inb t1))) (k2_pay157 (ldv d L fix (k2_off10 t1) (k2_off10_inb t1))) (k2_pay158 (ldv d L fix (k2_off11 t1) (k2_off11_inb t1))) (k2_pay159 (ldv d L fix (k2_off12 t1) (k2_off12_inb t1))) (k2_pay160 (ldv d L fix (k2_off13 t1) (k2_off13_inb t1))) (ldv d L fix (k2_off14 t1) (k2_off14_inb t1)) (ldv d L fix (k2_off15 t1) (k2_off15_inb t1)) (ldv d L fix (k2_off16 t1) (k2_off16_inb t1)) (ldv d L fix (k2_off17 t1) (k2_off17_inb t1)) (ldv d L fix (k2_off18 t1) (k2_off18_inb t1)) (ldv d L fix (k2_off19 t1) (k2_off19_inb t1)) (ldv d L fix (k2_off20 t1) (k2_off20_inb t1)) (ldv d L fix (k2_off21 t1) (k2_off21_inb t1)) (ldv d L fix (k2_off22 t1) (k2_off22_inb t1))) k x).toNat < 4096 :=
    fun k x => (congrArg BitVec.toNat (U0_loaded d L fix t1 k x)).trans_lt (hfix _)
  unfold inv1
  iintro ⟨Hslab, Hidxb, %f2, Hout, %hD⟩
  unfold k2_t1_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip0 (F := F) d L fullShare fsl f2' v28 k2_pay614 t1 (Scalar.muli (Scf.iv 0#32 1#32 t1.val) 16#32) (k2_pay150 (ldv d L fix (k2_off3 t1) (k2_off3_inb t1))) (k2_pay151 (ldv d L fix (k2_off4 t1) (k2_off4_inb t1))) (k2_pay152 (ldv d L fix (k2_off5 t1) (k2_off5_inb t1))) (k2_pay153 (ldv d L fix (k2_off6 t1) (k2_off6_inb t1))) (k2_pay154 (ldv d L fix (k2_off7 t1) (k2_off7_inb t1))) (k2_pay155 (ldv d L fix (k2_off8 t1) (k2_off8_inb t1))) (k2_pay156 (ldv d L fix (k2_off9 t1) (k2_off9_inb t1))) (k2_pay157 (ldv d L fix (k2_off10 t1) (k2_off10_inb t1))) (k2_pay158 (ldv d L fix (k2_off11 t1) (k2_off11_inb t1))) (k2_pay159 (ldv d L fix (k2_off12 t1) (k2_off12_inb t1))) (k2_pay160 (ldv d L fix (k2_off13 t1) (k2_off13_inb t1))) (ldv d L fix (k2_off14 t1) (k2_off14_inb t1)) (ldv d L fix (k2_off15 t1) (k2_off15_inb t1)) (ldv d L fix (k2_off16 t1) (k2_off16_inb t1)) (ldv d L fix (k2_off17 t1) (k2_off17_inb t1)) (ldv d L fix (k2_off18 t1) (k2_off18_inb t1)) (ldv d L fix (k2_off19 t1) (k2_off19_inb t1)) (ldv d L fix (k2_off20 t1) (k2_off20_inb t1)) (ldv d L fix (k2_off21 t1) (k2_off21_inb t1)) (ldv d L fix (k2_off22 t1) (k2_off22_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k2_pay614 (fun _ => rfl) (slabRd d L fsl) (slabRd_apply d L fsl) _ hU (U0_loaded d L fix t1)
      (k2_off23 t1 t2) (k2_off23_inb t1 t2) (k2_off23_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KB

end
-- ==== Proof.KBTile2C1.lean ====
/-
  One tile of the second SparseCore call, chunk 1 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KBTile2Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v6_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v7_scv : Memref Cert.Kernel.sig Kind.scVector Space.hbm Cert.Kernel.S8x64x4096 EltTy.f32)
local notation "slabW" => (Memref.whole Cert.Kernel.cc2_scratch0 : Memref Cert.Kernel.sig Kind.scVector Space.vmem Cert.Kernel.S65536 EltTy.f32)
local notation "idxbW" => (Memref.whole Cert.Kernel.cc2_scratch1 : Memref Cert.Kernel.sig Kind.scVector Space.vmem Cert.Kernel.S20x1024 EltTy.i32)
local notation "outbW" => (Memref.whole Cert.Kernel.cc2_scratch2 : Memref Cert.Kernel.sig Kind.scVector Space.vmem Cert.Kernel.S16x1024 EltTy.f32)

section Tile

variable (d : Dev nD) (L : grid2.Coords)

variable [FloatOps F]

/-- The 20 neighbour vectors of a trip of this chunk, in order. -/
abbrev U1 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k2_pay624 v75_ld, k2_pay625 v78_ld, k2_pay626 v81_ld, k2_pay627 v84_ld, k2_pay628 v87_ld, k2_pay629 v90_ld, k2_pay630 v93_ld, k2_pay631 v96_ld, k2_pay632 v99_ld]

attribute [local sl_canon] vli_bind in
set_option maxHeartbeats 8000000 in
/-- A trip of the inner loop: from the slab and the output scratch, the same with the trip's four rows stored. -/
theorem inner_trip1 (q : PosShare TreeShare) (fsl : Buf (Elt F) ((V d (cV L) (jV L)).loc cc2_scratch0)) (f2 : Buf (Elt F) ((V d (cV L) (jV L)).loc cc2_scratch2))
    (v28 : BitVec 32) (v30 : FVec F S16 .f32) (c0_i32_15 : BitVec 32) (k2_t3 : Fin k2_t3_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U1 (F := F) v42 v45 v48 v51 v54 v57 v60 v63 v66 v69 v72 v75_ld v78_ld v81_ld v84_ld v87_ld v90_ld v93_ld v96_ld v99_ld) k x).toNat < 4096)
    (k2_t4 : Fin k2_t4_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k2_t4_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 v30 c0_i32_15 k2_t3 v39 v42 v45 v48 v51 v54 v57 v60 v63 v66 v69 v72 v75_ld v78_ld v81_ld v84_ld v87_ld v90_ld v93_ld v96_ld v99_ld k2_t4 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U1 v42 v45 v48 v51 v54 v57 v60 v63 v66 v69 v72 v75_ld v78_ld v81_ld v84_ld v87_ld v90_ld v93_ld v96_ld v99_ld) hU (k2_off46 k2_t3 k2_t4) (k2_off46_inb k2_t3 k2_t4)
              (Scf.iv 0#32 1#32 k2_t4.val) (iv4_lt k2_t4.val k2_t4.isLt)))) := by
  have hg : (Scf.iv 0#32 1#32 k2_t4.val).toNat < 4 := iv4_lt k2_t4.val k2_t4.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k2_pay624 v75_ld x).toNat < 4096 := hU 11
  have h78 : ∀ x, (k2_pay625 v78_ld x).toNat < 4096 := hU 12
  have h81 : ∀ x, (k2_pay626 v81_ld x).toNat < 4096 := hU 13
  have h84 : ∀ x, (k2_pay627 v84_ld x).toNat < 4096 := hU 14
  have h87 : ∀ x, (k2_pay628 v87_ld x).toNat < 4096 := hU 15
  have h90 : ∀ x, (k2_pay629 v90_ld x).toNat < 4096 := hU 16
  have h93 : ∀ x, (k2_pay630 v93_ld x).toNat < 4096 := hU 17
  have h96 : ∀ x, (k2_pay631 v96_ld x).toNat < 4096 := hU 18
  have h99 : ∀ x, (k2_pay632 v99_ld x).toNat < 4096 := hU 19
  unfold k2_t4_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U1_loaded (fix : Buf (Elt F) ((V d (cV L) (jV L)).loc cc2_scratch1)) (t1 : Fin k2_t3_loop.trips) (k : Fin 20) (x : S16.Idx) :
    U1 (F := F) (k2_pay301 (ldv d L fix (k2_off26 t1) (k2_off26_inb t1))) (k2_pay302 (ldv d L fix (k2_off27 t1) (k2_off27_inb t1))) (k2_pay303 (ldv d L fix (k2_off28 t1) (k2_off28_inb t1))) (k2_pay304 (ldv d L fix (k2_off29 t1) (k2_off29_inb t1))) (k2_pay305 (ldv d L fix (k2_off30 t1) (k2_off30_inb t1))) (k2_pay306 (ldv d L fix (k2_off31 t1) (k2_off31_inb t1))) (k2_pay307 (ldv d L fix (k2_off32 t1) (k2_off32_inb t1))) (k2_pay308 (ldv d L fix (k2_off33 t1) (k2_off33_inb t1))) (k2_pay309 (ldv d L fix (k2_off34 t1) (k2_off34_inb t1))) (k2_pay310 (ldv d L fix (k2_off35 t1) (k2_off35_inb t1))) (k2_pay311 (ldv d L fix (k2_off36 t1) (k2_off36_inb t1))) (ldv d L fix (k2_off37 t1) (k2_off37_inb t1)) (ldv d L fix (k2_off38 t1) (k2_off38_inb t1)) (ldv d L fix (k2_off39 t1) (k2_off39_inb t1)) (ldv d L fix (k2_off40 t1) (k2_off40_inb t1)) (ldv d L fix (k2_off41 t1) (k2_off41_inb t1)) (ldv d L fix (k2_off42 t1) (k2_off42_inb t1)) (ldv d L fix (k2_off43 t1) (k2_off43_inb t1)) (ldv d L fix (k2_off44 t1) (k2_off44_inb t1)) (ldv d L fix (k2_off45 t1) (k2_off45_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k2_off26_eq t1) _ x
  | ⟨1, _⟩ => exact idxvec_eq d L fix _ ⟨1, by omega⟩ t1.val ht (k2_off27_eq t1) _ x
  | ⟨2, _⟩ => exact idxvec_eq d L fix _ ⟨2, by omega⟩ t1.val ht (k2_off28_eq t1) _ x
  | ⟨3, _⟩ => exact idxvec_eq d L fix _ ⟨3, by omega⟩ t1.val ht (k2_off29_eq t1) _ x
  | ⟨4, _⟩ => exact idxvec_eq d L fix _ ⟨4, by omega⟩ t1.val ht (k2_off30_eq t1) _ x
  | ⟨5, _⟩ => exact idxvec_eq d L fix _ ⟨5, by omega⟩ t1.val ht (k2_off31_eq t1) _ x
  | ⟨6, _⟩ => exact idxvec_eq d L fix _ ⟨6, by omega⟩ t1.val ht (k2_off32_eq t1) _ x
  | ⟨7, _⟩ => exact idxvec_eq d L fix _ ⟨7, by omega⟩ t1.val ht (k2_off33_eq t1) _ x
  | ⟨8, _⟩ => exact idxvec_eq d L fix _ ⟨8, by omega⟩ t1.val ht (k2_off34_eq t1) _ x
  | ⟨9, _⟩ => exact idxvec_eq d L fix _ ⟨9, by omega⟩ t1.val ht (k2_off35_eq t1) _ x
  | ⟨10, _⟩ => exact idxvec_eq d L fix _ ⟨10, by omega⟩ t1.val ht (k2_off36_eq t1) _ x
  | ⟨11, _⟩ => exact idxvec_eq d L fix _ ⟨11, by omega⟩ t1.val ht (k2_off37_eq t1) _ x
  | ⟨12, _⟩ => exact idxvec_eq d L fix _ ⟨12, by omega⟩ t1.val ht (k2_off38_eq t1) _ x
  | ⟨13, _⟩ => exact idxvec_eq d L fix _ ⟨13, by omega⟩ t1.val ht (k2_off39_eq t1) _ x
  | ⟨14, _⟩ => exact idxvec_eq d L fix _ ⟨14, by omega⟩ t1.val ht (k2_off40_eq t1) _ x
  | ⟨15, _⟩ => exact idxvec_eq d L fix _ ⟨15, by omega⟩ t1.val ht (k2_off41_eq t1) _ x
  | ⟨16, _⟩ => exact idxvec_eq d L fix _ ⟨16, by omega⟩ t1.val ht (k2_off42_eq t1) _ x
  | ⟨17, _⟩ => exact idxvec_eq d L fix _ ⟨17, by omega⟩ t1.val ht (k2_off43_eq t1) _ x
  | ⟨18, _⟩ => exact idxvec_eq d L fix _ ⟨18, by omega⟩ t1.val ht (k2_off44_eq t1) _ x
  | ⟨19, _⟩ => exact idxvec_eq d L fix _ ⟨19, by omega⟩ t1.val ht (k2_off45_eq t1) _ x
  | ⟨n + 20, h⟩ => exact absurd h (by omega)

set_option maxHeartbeats 4000000 in
/-- A trip of the outer loop: the block's 20 neighbour vectors loaded, then the inner loop's four trips fill the block. -/
theorem outer_trip1 (fsl : Buf (Elt F) ((V d (cV L) (jV L)).loc cc2_scratch0)) (fix : Buf (Elt F) ((V d (cV L) (jV L)).loc cc2_scratch1))
    (hfix : ∀ y, (fix y).toNat < 4096) (v28 : BitVec 32) (c0_i32_15 : BitVec 32) (t1 : Fin k2_t3_loop.trips) (acc : Unit) :
    inv1 d L fsl fix (Gout negInf fsl fix) t1.val acc
      ⊢ wp frame (wpE (defs₀ (F := F)) 𝒱₀ (V d (cV L) (jV L)) none) Set.univ
          (k2_t3_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 k2_pay614 c0_i32_15 t1 acc)
          (inv1 d L fsl fix (Gout negInf fsl fix) (t1.val + 1)) := by
  have ht : t1.val < 64 := t1.isLt
  have hU : ∀ k x, ((U1 (F := F) (k2_pay301 (ldv d L fix (k2_off26 t1) (k2_off26_inb t1))) (k2_pay302 (ldv d L fix (k2_off27 t1) (k2_off27_inb t1))) (k2_pay303 (ldv d L fix (k2_off28 t1) (k2_off28_inb t1))) (k2_pay304 (ldv d L fix (k2_off29 t1) (k2_off29_inb t1))) (k2_pay305 (ldv d L fix (k2_off30 t1) (k2_off30_inb t1))) (k2_pay306 (ldv d L fix (k2_off31 t1) (k2_off31_inb t1))) (k2_pay307 (ldv d L fix (k2_off32 t1) (k2_off32_inb t1))) (k2_pay308 (ldv d L fix (k2_off33 t1) (k2_off33_inb t1))) (k2_pay309 (ldv d L fix (k2_off34 t1) (k2_off34_inb t1))) (k2_pay310 (ldv d L fix (k2_off35 t1) (k2_off35_inb t1))) (k2_pay311 (ldv d L fix (k2_off36 t1) (k2_off36_inb t1))) (ldv d L fix (k2_off37 t1) (k2_off37_inb t1)) (ldv d L fix (k2_off38 t1) (k2_off38_inb t1)) (ldv d L fix (k2_off39 t1) (k2_off39_inb t1)) (ldv d L fix (k2_off40 t1) (k2_off40_inb t1)) (ldv d L fix (k2_off41 t1) (k2_off41_inb t1)) (ldv d L fix (k2_off42 t1) (k2_off42_inb t1)) (ldv d L fix (k2_off43 t1) (k2_off43_inb t1)) (ldv d L fix (k2_off44 t1) (k2_off44_inb t1)) (ldv d L fix (k2_off45 t1) (k2_off45_inb t1))) k x).toNat < 4096 :=
    fun k x => (congrArg BitVec.toNat (U1_loaded d L fix t1 k x)).trans_lt (hfix _)
  unfold inv1
  iintro ⟨Hslab, Hidxb, %f2, Hout, %hD⟩
  unfold k2_t3_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip1 (F := F) d L fullShare fsl f2' v28 k2_pay614 c0_i32_15 t1 (Scalar.muli (Scf.iv 0#32 1#32 t1.val) 16#32) (k2_pay301 (ldv d L fix (k2_off26 t1) (k2_off26_inb t1))) (k2_pay302 (ldv d L fix (k2_off27 t1) (k2_off27_inb t1))) (k2_pay303 (ldv d L fix (k2_off28 t1) (k2_off28_inb t1))) (k2_pay304 (ldv d L fix (k2_off29 t1) (k2_off29_inb t1))) (k2_pay305 (ldv d L fix (k2_off30 t1) (k2_off30_inb t1))) (k2_pay306 (ldv d L fix (k2_off31 t1) (k2_off31_inb t1))) (k2_pay307 (ldv d L fix (k2_off32 t1) (k2_off32_inb t1))) (k2_pay308 (ldv d L fix (k2_off33 t1) (k2_off33_inb t1))) (k2_pay309 (ldv d L fix (k2_off34 t1) (k2_off34_inb t1))) (k2_pay310 (ldv d L fix (k2_off35 t1) (k2_off35_inb t1))) (k2_pay311 (ldv d L fix (k2_off36 t1) (k2_off36_inb t1))) (ldv d L fix (k2_off37 t1) (k2_off37_inb t1)) (ldv d L fix (k2_off38 t1) (k2_off38_inb t1)) (ldv d L fix (k2_off39 t1) (k2_off39_inb t1)) (ldv d L fix (k2_off40 t1) (k2_off40_inb t1)) (ldv d L fix (k2_off41 t1) (k2_off41_inb t1)) (ldv d L fix (k2_off42 t1) (k2_off42_inb t1)) (ldv d L fix (k2_off43 t1) (k2_off43_inb t1)) (ldv d L fix (k2_off44 t1) (k2_off44_inb t1)) (ldv d L fix (k2_off45 t1) (k2_off45_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k2_pay614 (fun _ => rfl) (slabRd d L fsl) (slabRd_apply d L fsl) _ hU (U1_loaded d L fix t1)
      (k2_off46 t1 t2) (k2_off46_inb t1 t2) (k2_off46_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KB

end
-- ==== Proof.KBTile2C2.lean ====
/-
  One tile of the second SparseCore call, chunk 2 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KBTile2Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v6_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v7_scv : Memref Cert.Kernel.sig Kind.scVector Space.hbm Cert.Kernel.S8x64x4096 EltTy.f32)
local notation "slabW" => (Memref.whole Cert.Kernel.cc2_scratch0 : Memref Cert.Kernel.sig Kind.scVector Space.vmem Cert.Kernel.S65536 EltTy.f32)
local notation "idxbW" => (Memref.whole Cert.Kernel.cc2_scratch1 : Memref Cert.Kernel.sig Kind.scVector Space.vmem Cert.Kernel.S20x1024 EltTy.i32)
local notation "outbW" => (Memref.whole Cert.Kernel.cc2_scratch2 : Memref Cert.Kernel.sig Kind.scVector Space.vmem Cert.Kernel.S16x1024 EltTy.f32)

section Tile

variable (d : Dev nD) (L : grid2.Coords)

variable [FloatOps F]

/-- The 20 neighbour vectors of a trip of this chunk, in order. -/
abbrev U2 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k2_pay633 v75_ld, k2_pay634 v78_ld, k2_pay635 v81_ld, k2_pay636 v84_ld, k2_pay637 v87_ld, k2_pay638 v90_ld, k2_pay639 v93_ld, k2_pay640 v96_ld, k2_pay641 v99_ld]

attribute [local sl_canon] vli_bind in
set_option maxHeartbeats 8000000 in
/-- A trip of the inner loop: from the slab and the output scratch, the same with the trip's four rows stored. -/
theorem inner_trip2 (q : PosShare TreeShare) (fsl : Buf (Elt F) ((V d (cV L) (jV L)).loc cc2_scratch0)) (f2 : Buf (Elt F) ((V d (cV L) (jV L)).loc cc2_scratch2))
    (v28 : BitVec 32) (v30 : FVec F S16 .f32) (c0_i32_15 : BitVec 32) (k2_t5 : Fin k2_t5_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U2 (F := F) v42 v45 v48 v51 v54 v57 v60 v63 v66 v69 v72 v75_ld v78_ld v81_ld v84_ld v87_ld v90_ld v93_ld v96_ld v99_ld) k x).toNat < 4096)
    (k2_t6 : Fin k2_t6_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k2_t6_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 v30 c0_i32_15 k2_t5 v39 v42 v45 v48 v51 v54 v57 v60 v63 v66 v69 v72 v75_ld v78_ld v81_ld v84_ld v87_ld v90_ld v93_ld v96_ld v99_ld k2_t6 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U2 v42 v45 v48 v51 v54 v57 v60 v63 v66 v69 v72 v75_ld v78_ld v81_ld v84_ld v87_ld v90_ld v93_ld v96_ld v99_ld) hU (k2_off69 k2_t5 k2_t6) (k2_off69_inb k2_t5 k2_t6)
              (Scf.iv 0#32 1#32 k2_t6.val) (iv4_lt k2_t6.val k2_t6.isLt)))) := by
  have hg : (Scf.iv 0#32 1#32 k2_t6.val).toNat < 4 := iv4_lt k2_t6.val k2_t6.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k2_pay633 v75_ld x).toNat < 4096 := hU 11
  have h78 : ∀ x, (k2_pay634 v78_ld x).toNat < 4096 := hU 12
  have h81 : ∀ x, (k2_pay635 v81_ld x).toNat < 4096 := hU 13
  have h84 : ∀ x, (k2_pay636 v84_ld x).toNat < 4096 := hU 14
  have h87 : ∀ x, (k2_pay637 v87_ld x).toNat < 4096 := hU 15
  have h90 : ∀ x, (k2_pay638 v90_ld x).toNat < 4096 := hU 16
  have h93 : ∀ x, (k2_pay639 v93_ld x).toNat < 4096 := hU 17
  have h96 : ∀ x, (k2_pay640 v96_ld x).toNat < 4096 := hU 18
  have h99 : ∀ x, (k2_pay641 v99_ld x).toNat < 4096 := hU 19
  unfold k2_t6_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U2_loaded (fix : Buf (Elt F) ((V d (cV L) (jV L)).loc cc2_scratch1)) (t1 : Fin k2_t5_loop.trips) (k : Fin 20) (x : S16.Idx) :
    U2 (F := F) (k2_pay452 (ldv d L fix (k2_off49 t1) (k2_off49_inb t1))) (k2_pay453 (ldv d L fix (k2_off50 t1) (k2_off50_inb t1))) (k2_pay454 (ldv d L fix (k2_off51 t1) (k2_off51_inb t1))) (k2_pay455 (ldv d L fix (k2_off52 t1) (k2_off52_inb t1))) (k2_pay456 (ldv d L fix (k2_off53 t1) (k2_off53_inb t1))) (k2_pay457 (ldv d L fix (k2_off54 t1) (k2_off54_inb t1))) (k2_pay458 (ldv d L fix (k2_off55 t1) (k2_off55_inb t1))) (k2_pay459 (ldv d L fix (k2_off56 t1) (k2_off56_inb t1))) (k2_pay460 (ldv d L fix (k2_off57 t1) (k2_off57_inb t1))) (k2_pay461 (ldv d L fix (k2_off58 t1) (k2_off58_inb t1))) (k2_pay462 (ldv d L fix (k2_off59 t1) (k2_off59_inb t1))) (ldv d L fix (k2_off60 t1) (k2_off60_inb t1)) (ldv d L fix (k2_off61 t1) (k2_off61_inb t1)) (ldv d L fix (k2_off62 t1) (k2_off62_inb t1)) (ldv d L fix (k2_off63 t1) (k2_off63_inb t1)) (ldv d L fix (k2_off64 t1) (k2_off64_inb t1)) (ldv d L fix (k2_off65 t1) (k2_off65_inb t1)) (ldv d L fix (k2_off66 t1) (k2_off66_inb t1)) (ldv d L fix (k2_off67 t1) (k2_off67_inb t1)) (ldv d L fix (k2_off68 t1) (k2_off68_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k2_off49_eq t1) _ x
  | ⟨1, _⟩ => exact idxvec_eq d L fix _ ⟨1, by omega⟩ t1.val ht (k2_off50_eq t1) _ x
  | ⟨2, _⟩ => exact idxvec_eq d L fix _ ⟨2, by omega⟩ t1.val ht (k2_off51_eq t1) _ x
  | ⟨3, _⟩ => exact idxvec_eq d L fix _ ⟨3, by omega⟩ t1.val ht (k2_off52_eq t1) _ x
  | ⟨4, _⟩ => exact idxvec_eq d L fix _ ⟨4, by omega⟩ t1.val ht (k2_off53_eq t1) _ x
  | ⟨5, _⟩ => exact idxvec_eq d L fix _ ⟨5, by omega⟩ t1.val ht (k2_off54_eq t1) _ x
  | ⟨6, _⟩ => exact idxvec_eq d L fix _ ⟨6, by omega⟩ t1.val ht (k2_off55_eq t1) _ x
  | ⟨7, _⟩ => exact idxvec_eq d L fix _ ⟨7, by omega⟩ t1.val ht (k2_off56_eq t1) _ x
  | ⟨8, _⟩ => exact idxvec_eq d L fix _ ⟨8, by omega⟩ t1.val ht (k2_off57_eq t1) _ x
  | ⟨9, _⟩ => exact idxvec_eq d L fix _ ⟨9, by omega⟩ t1.val ht (k2_off58_eq t1) _ x
  | ⟨10, _⟩ => exact idxvec_eq d L fix _ ⟨10, by omega⟩ t1.val ht (k2_off59_eq t1) _ x
  | ⟨11, _⟩ => exact idxvec_eq d L fix _ ⟨11, by omega⟩ t1.val ht (k2_off60_eq t1) _ x
  | ⟨12, _⟩ => exact idxvec_eq d L fix _ ⟨12, by omega⟩ t1.val ht (k2_off61_eq t1) _ x
  | ⟨13, _⟩ => exact idxvec_eq d L fix _ ⟨13, by omega⟩ t1.val ht (k2_off62_eq t1) _ x
  | ⟨14, _⟩ => exact idxvec_eq d L fix _ ⟨14, by omega⟩ t1.val ht (k2_off63_eq t1) _ x
  | ⟨15, _⟩ => exact idxvec_eq d L fix _ ⟨15, by omega⟩ t1.val ht (k2_off64_eq t1) _ x
  | ⟨16, _⟩ => exact idxvec_eq d L fix _ ⟨16, by omega⟩ t1.val ht (k2_off65_eq t1) _ x
  | ⟨17, _⟩ => exact idxvec_eq d L fix _ ⟨17, by omega⟩ t1.val ht (k2_off66_eq t1) _ x
  | ⟨18, _⟩ => exact idxvec_eq d L fix _ ⟨18, by omega⟩ t1.val ht (k2_off67_eq t1) _ x
  | ⟨19, _⟩ => exact idxvec_eq d L fix _ ⟨19, by omega⟩ t1.val ht (k2_off68_eq t1) _ x
  | ⟨n + 20, h⟩ => exact absurd h (by omega)

set_option maxHeartbeats 4000000 in
/-- A trip of the outer loop: the block's 20 neighbour vectors loaded, then the inner loop's four trips fill the block. -/
theorem outer_trip2 (fsl : Buf (Elt F) ((V d (cV L) (jV L)).loc cc2_scratch0)) (fix : Buf (Elt F) ((V d (cV L) (jV L)).loc cc2_scratch1))
    (hfix : ∀ y, (fix y).toNat < 4096) (v28 : BitVec 32) (c0_i32_15 : BitVec 32) (t1 : Fin k2_t5_loop.trips) (acc : Unit) :
    inv1 d L fsl fix (Gout negInf fsl fix) t1.val acc
      ⊢ wp frame (wpE (defs₀ (F := F)) 𝒱₀ (V d (cV L) (jV L)) none) Set.univ
          (k2_t5_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v28 k2_pay614 c0_i32_15 t1 acc)
          (inv1 d L fsl fix (Gout negInf fsl fix) (t1.val + 1)) := by
  have ht : t1.val < 64 := t1.isLt
  have hU : ∀ k x, ((U2 (F := F) (k2_pay452 (ldv d L fix (k2_off49 t1) (k2_off49_inb t1))) (k2_pay453 (ldv d L fix (k2_off50 t1) (k2_off50_inb t1))) (k2_pay454 (ldv d L fix (k2_off51 t1) (k2_off51_inb t1))) (k2_pay455 (ldv d L fix (k2_off52 t1) (k2_off52_inb t1))) (k2_pay456 (ldv d L fix (k2_off53 t1) (k2_off53_inb t1))) (k2_pay457 (ldv d L fix (k2_off54 t1) (k2_off54_inb t1))) (k2_pay458 (ldv d L fix (k2_off55 t1) (k2_off55_inb t1))) (k2_pay459 (ldv d L fix (k2_off56 t1) (k2_off56_inb t1))) (k2_pay460 (ldv d L fix (k2_off57 t1) (k2_off57_inb t1))) (k2_pay461 (ldv d L fix (k2_off58 t1) (k2_off58_inb t1))) (k2_pay462 (ldv d L fix (k2_off59 t1) (k2_off59_inb t1))) (ldv d L fix (k2_off60 t1) (k2_off60_inb t1)) (ldv d L fix (k2_off61 t1) (k2_off61_inb t1)) (ldv d L fix (k2_off62 t1) (k2_off62_inb t1)) (ldv d L fix (k2_off63 t1) (k2_off63_inb t1)) (ldv d L fix (k2_off64 t1) (k2_off64_inb t1)) (ldv d L fix (k2_off65 t1) (k2_off65_inb t1)) (ldv d L fix (k2_off66 t1) (k2_off66_inb t1)) (ldv d L fix (k2_off67 t1) (k2_off67_inb t1)) (ldv d L fix (k2_off68 t1) (k2_off68_inb t1))) k x).toNat < 4096 :=
    fun k x => (congrArg BitVec.toNat (U2_loaded d L fix t1 k x)).trans_lt (hfix _)
  unfold inv1
  iintro ⟨Hslab, Hidxb, %f2, Hout, %hD⟩
  unfold k2_t5_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip2 (F := F) d L fullShare fsl f2' v28 k2_pay614 c0_i32_15 t1 (Scalar.muli (Scf.iv 0#32 1#32 t1.val) 16#32) (k2_pay452 (ldv d L fix (k2_off49 t1) (k2_off49_inb t1))) (k2_pay453 (ldv d L fix (k2_off50 t1) (k2_off50_inb t1))) (k2_pay454 (ldv d L fix (k2_off51 t1) (k2_off51_inb t1))) (k2_pay455 (ldv d L fix (k2_off52 t1) (k2_off52_inb t1))) (k2_pay456 (ldv d L fix (k2_off53 t1) (k2_off53_inb t1))) (k2_pay457 (ldv d L fix (k2_off54 t1) (k2_off54_inb t1))) (k2_pay458 (ldv d L fix (k2_off55 t1) (k2_off55_inb t1))) (k2_pay459 (ldv d L fix (k2_off56 t1) (k2_off56_inb t1))) (k2_pay460 (ldv d L fix (k2_off57 t1) (k2_off57_inb t1))) (k2_pay461 (ldv d L fix (k2_off58 t1) (k2_off58_inb t1))) (k2_pay462 (ldv d L fix (k2_off59 t1) (k2_off59_inb t1))) (ldv d L fix (k2_off60 t1) (k2_off60_inb t1)) (ldv d L fix (k2_off61 t1) (k2_off61_inb t1)) (ldv d L fix (k2_off62 t1) (k2_off62_inb t1)) (ldv d L fix (k2_off63 t1) (k2_off63_inb t1)) (ldv d L fix (k2_off64 t1) (k2_off64_inb t1)) (ldv d L fix (k2_off65 t1) (k2_off65_inb t1)) (ldv d L fix (k2_off66 t1) (k2_off66_inb t1)) (ldv d L fix (k2_off67 t1) (k2_off67_inb t1)) (ldv d L fix (k2_off68 t1) (k2_off68_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k2_pay614 (fun _ => rfl) (slabRd d L fsl) (slabRd_apply d L fsl) _ hU (U2_loaded d L fix t1)
      (k2_off69 t1 t2) (k2_off69_inb t1 t2) (k2_off69_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KB

end
-- ==== Proof.KBTile2C3.lean ====
/-
  One tile of the second SparseCore call, chunk 3 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KBTile2Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v6_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v7_scv : Memref Cert.Kernel.sig Kind.scVector Space.hbm Cert.Kernel.S8x64x4096 EltTy.f32)
local notation "slabW" => (Memref.whole Cert.Kernel.cc2_scratch0 : Memref Cert.Kernel.sig Kind.scVector Space.vmem Cert.Kernel.S65536 EltTy.f32)
local notation "idxbW" => (Memref.whole Cert.Kernel.cc2_scratch1 : Memref Cert.Kernel.sig Kind.scVector Space.vmem Cert.Kernel.S20x1024 EltTy.i32)
local notation "outbW" => (Memref.whole Cert.Kernel.cc2_scratch2 : Memref Cert.Kernel.sig Kind.scVector Space.vmem Cert.Kernel.S16x1024 EltTy.f32)

section Tile

variable (d : Dev nD) (L : grid2.Coords)

variable [FloatOps F]

/-- The 20 neighbour vectors of a trip of this chunk, in order. -/
abbrev U3 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k2_pay1 v75_ld, k2_pay2 v78_ld, k2_pay3 v81_ld, k2_pay4 v84_ld, k2_pay5 v87_ld, k2_pay6 v90_ld, k2_pay7 v93_ld, k2_pay8 v96_ld, k2_pay9 v99_ld]

attribute [local sl_canon] vli_bind in
set_option maxHeartbeats 8000000 in
/-- A trip of the inner loop: from the slab and the output scratch, the same with the trip's four rows stored. -/
theorem inner_trip3 (q : PosShare TreeShare) (fsl : Buf (Elt F) ((V d (cV L) (jV L)).loc cc2_scratch0)) (f2 : Buf (Elt F) ((V d (cV L) (jV L)).loc cc2_scratch2))
    (v30 : FVec F S16 .f32) (k2_t7 : Fin k2_t7_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U3 (F := F) v42 v45 v48 v51 v54 v57 v60 v63 v66 v69 v72 v75_ld v78_ld v81_ld v84_ld v87_ld v90_ld v93_ld v96_ld v99_ld) k x).toNat < 4096)
    (k2_t8 : Fin k2_t8_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k2_t8_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 v30 k2_t7 v39 v42 v45 v48 v51 v54 v57 v60 v63 v66 v69 v72 v75_ld v78_ld v81_ld v84_ld v87_ld v90_ld v93_ld v96_ld v99_ld k2_t8 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U3 v42 v45 v48 v51 v54 v57 v60 v63 v66 v69 v72 v75_ld v78_ld v81_ld v84_ld v87_ld v90_ld v93_ld v96_ld v99_ld) hU (k2_off92 k2_t7 k2_t8) (k2_off92_inb k2_t7 k2_t8)
              (Scf.iv 0#32 1#32 k2_t8.val) (iv4_lt k2_t8.val k2_t8.isLt)))) := by
  have hg : (Scf.iv 0#32 1#32 k2_t8.val).toNat < 4 := iv4_lt k2_t8.val k2_t8.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k2_pay1 v75_ld x).toNat < 4096 := hU 11
  have h78 : ∀ x, (k2_pay2 v78_ld x).toNat < 4096 := hU 12
  have h81 : ∀ x, (k2_pay3 v81_ld x).toNat < 4096 := hU 13
  have h84 : ∀ x, (k2_pay4 v84_ld x).toNat < 4096 := hU 14
  have h87 : ∀ x, (k2_pay5 v87_ld x).toNat < 4096 := hU 15
  have h90 : ∀ x, (k2_pay6 v90_ld x).toNat < 4096 := hU 16
  have h93 : ∀ x, (k2_pay7 v93_ld x).toNat < 4096 := hU 17
  have h96 : ∀ x, (k2_pay8 v96_ld x).toNat < 4096 := hU 18
  have h99 : ∀ x, (k2_pay9 v99_ld x).toNat < 4096 := hU 19
  unfold k2_t8_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U3_loaded (fix : Buf (Elt F) ((V d (cV L) (jV L)).loc cc2_scratch1)) (t1 : Fin k2_t7_loop.trips) (k : Fin 20) (x : S16.Idx) :
    U3 (F := F) (k2_pay603 (ldv d L fix (k2_off72 t1) (k2_off72_inb t1))) (k2_pay604 (ldv d L fix (k2_off73 t1) (k2_off73_inb t1))) (k2_pay605 (ldv d L fix (k2_off74 t1) (k2_off74_inb t1))) (k2_pay606 (ldv d L fix (k2_off75 t1) (k2_off75_inb t1))) (k2_pay607 (ldv d L fix (k2_off76 t1) (k2_off76_inb t1))) (k2_pay608 (ldv d L fix (k2_off77 t1) (k2_off77_inb t1))) (k2_pay609 (ldv d L fix (k2_off78 t1) (k2_off78_inb t1))) (k2_pay610 (ldv d L fix (k2_off79 t1) (k2_off79_inb t1))) (k2_pay611 (ldv d L fix (k2_off80 t1) (k2_off80_inb t1))) (k2_pay612 (ldv d L fix (k2_off81 t1) (k2_off81_inb t1))) (k2_pay613 (ldv d L fix (k2_off82 t1) (k2_off82_inb t1))) (ldv d L fix (k2_off83 t1) (k2_off83_inb t1)) (ldv d L fix (k2_off84 t1) (k2_off84_inb t1)) (ldv d L fix (k2_off85 t1) (k2_off85_inb t1)) (ldv d L fix (k2_off86 t1) (k2_off86_inb t1)) (ldv d L fix (k2_off87 t1) (k2_off87_inb t1)) (ldv d L fix (k2_off88 t1) (k2_off88_inb t1)) (ldv d L fix (k2_off89 t1) (k2_off89_inb t1)) (ldv d L fix (k2_off90 t1) (k2_off90_inb t1)) (ldv d L fix (k2_off91 t1) (k2_off91_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k2_off72_eq t1) _ x
  | ⟨1, _⟩ => exact idxvec_eq d L fix _ ⟨1, by omega⟩ t1.val ht (k2_off73_eq t1) _ x
  | ⟨2, _⟩ => exact idxvec_eq d L fix _ ⟨2, by omega⟩ t1.val ht (k2_off74_eq t1) _ x
  | ⟨3, _⟩ => exact idxvec_eq d L fix _ ⟨3, by omega⟩ t1.val ht (k2_off75_eq t1) _ x
  | ⟨4, _⟩ => exact idxvec_eq d L fix _ ⟨4, by omega⟩ t1.val ht (k2_off76_eq t1) _ x
  | ⟨5, _⟩ => exact idxvec_eq d L fix _ ⟨5, by omega⟩ t1.val ht (k2_off77_eq t1) _ x
  | ⟨6, _⟩ => exact idxvec_eq d L fix _ ⟨6, by omega⟩ t1.val ht (k2_off78_eq t1) _ x
  | ⟨7, _⟩ => exact idxvec_eq d L fix _ ⟨7, by omega⟩ t1.val ht (k2_off79_eq t1) _ x
  | ⟨8, _⟩ => exact idxvec_eq d L fix _ ⟨8, by omega⟩ t1.val ht (k2_off80_eq t1) _ x
  | ⟨9, _⟩ => exact idxvec_eq d L fix _ ⟨9, by omega⟩ t1.val ht (k2_off81_eq t1) _ x
  | ⟨10, _⟩ => exact idxvec_eq d L fix _ ⟨10, by omega⟩ t1.val ht (k2_off82_eq t1) _ x
  | ⟨11, _⟩ => exact idxvec_eq d L fix _ ⟨11, by omega⟩ t1.val ht (k2_off83_eq t1) _ x
  | ⟨12, _⟩ => exact idxvec_eq d L fix _ ⟨12, by omega⟩ t1.val ht (k2_off84_eq t1) _ x
  | ⟨13, _⟩ => exact idxvec_eq d L fix _ ⟨13, by omega⟩ t1.val ht (k2_off85_eq t1) _ x
  | ⟨14, _⟩ => exact idxvec_eq d L fix _ ⟨14, by omega⟩ t1.val ht (k2_off86_eq t1) _ x
  | ⟨15, _⟩ => exact idxvec_eq d L fix _ ⟨15, by omega⟩ t1.val ht (k2_off87_eq t1) _ x
  | ⟨16, _⟩ => exact idxvec_eq d L fix _ ⟨16, by omega⟩ t1.val ht (k2_off88_eq t1) _ x
  | ⟨17, _⟩ => exact idxvec_eq d L fix _ ⟨17, by omega⟩ t1.val ht (k2_off89_eq t1) _ x
  | ⟨18, _⟩ => exact idxvec_eq d L fix _ ⟨18, by omega⟩ t1.val ht (k2_off90_eq t1) _ x
  | ⟨19, _⟩ => exact idxvec_eq d L fix _ ⟨19, by omega⟩ t1.val ht (k2_off91_eq t1) _ x
  | ⟨n + 20, h⟩ => exact absurd h (by omega)

set_option maxHeartbeats 4000000 in
/-- A trip of the outer loop: the block's 20 neighbour vectors loaded, then the inner loop's four trips fill the block. -/
theorem outer_trip3 (fsl : Buf (Elt F) ((V d (cV L) (jV L)).loc cc2_scratch0)) (fix : Buf (Elt F) ((V d (cV L) (jV L)).loc cc2_scratch1))
    (hfix : ∀ y, (fix y).toNat < 4096) (t1 : Fin k2_t7_loop.trips) (acc : Unit) :
    inv1 d L fsl fix (Gout negInf fsl fix) t1.val acc
      ⊢ wp frame (wpE (defs₀ (F := F)) 𝒱₀ (V d (cV L) (jV L)) none) Set.univ
          (k2_t7_body L srcW (Memref.isWhole_whole _) idxW (Memref.isWhole_whole _) outW (Memref.isWhole_whole _) slabW (Memref.isWhole_whole _) idxbW (Memref.isWhole_whole _) outbW (Memref.isWhole_whole _) cc2_scoped0 cc2_scoped1 cc2_scoped2 cc2_scoped3 cc2_scoped4 cc2_scoped5 cc2_scoped6 cc2_scoped7 cc2_scoped8 k2_pay614 t1 acc)
          (inv1 d L fsl fix (Gout negInf fsl fix) (t1.val + 1)) := by
  have ht : t1.val < 64 := t1.isLt
  have hU : ∀ k x, ((U3 (F := F) (k2_pay603 (ldv d L fix (k2_off72 t1) (k2_off72_inb t1))) (k2_pay604 (ldv d L fix (k2_off73 t1) (k2_off73_inb t1))) (k2_pay605 (ldv d L fix (k2_off74 t1) (k2_off74_inb t1))) (k2_pay606 (ldv d L fix (k2_off75 t1) (k2_off75_inb t1))) (k2_pay607 (ldv d L fix (k2_off76 t1) (k2_off76_inb t1))) (k2_pay608 (ldv d L fix (k2_off77 t1) (k2_off77_inb t1))) (k2_pay609 (ldv d L fix (k2_off78 t1) (k2_off78_inb t1))) (k2_pay610 (ldv d L fix (k2_off79 t1) (k2_off79_inb t1))) (k2_pay611 (ldv d L fix (k2_off80 t1) (k2_off80_inb t1))) (k2_pay612 (ldv d L fix (k2_off81 t1) (k2_off81_inb t1))) (k2_pay613 (ldv d L fix (k2_off82 t1) (k2_off82_inb t1))) (ldv d L fix (k2_off83 t1) (k2_off83_inb t1)) (ldv d L fix (k2_off84 t1) (k2_off84_inb t1)) (ldv d L fix (k2_off85 t1) (k2_off85_inb t1)) (ldv d L fix (k2_off86 t1) (k2_off86_inb t1)) (ldv d L fix (k2_off87 t1) (k2_off87_inb t1)) (ldv d L fix (k2_off88 t1) (k2_off88_inb t1)) (ldv d L fix (k2_off89 t1) (k2_off89_inb t1)) (ldv d L fix (k2_off90 t1) (k2_off90_inb t1)) (ldv d L fix (k2_off91 t1) (k2_off91_inb t1))) k x).toNat < 4096 :=
    fun k x => (congrArg BitVec.toNat (U3_loaded d L fix t1 k x)).trans_lt (hfix _)
  unfold inv1
  iintro ⟨Hslab, Hidxb, %f2, Hout, %hD⟩
  unfold k2_t7_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip3 (F := F) d L fullShare fsl f2' k2_pay614 t1 (Scalar.muli (Scf.iv 0#32 1#32 t1.val) 16#32) (k2_pay603 (ldv d L fix (k2_off72 t1) (k2_off72_inb t1))) (k2_pay604 (ldv d L fix (k2_off73 t1) (k2_off73_inb t1))) (k2_pay605 (ldv d L fix (k2_off74 t1) (k2_off74_inb t1))) (k2_pay606 (ldv d L fix (k2_off75 t1) (k2_off75_inb t1))) (k2_pay607 (ldv d L fix (k2_off76 t1) (k2_off76_inb t1))) (k2_pay608 (ldv d L fix (k2_off77 t1) (k2_off77_inb t1))) (k2_pay609 (ldv d L fix (k2_off78 t1) (k2_off78_inb t1))) (k2_pay610 (ldv d L fix (k2_off79 t1) (k2_off79_inb t1))) (k2_pay611 (ldv d L fix (k2_off80 t1) (k2_off80_inb t1))) (k2_pay612 (ldv d L fix (k2_off81 t1) (k2_off81_inb t1))) (k2_pay613 (ldv d L fix (k2_off82 t1) (k2_off82_inb t1))) (ldv d L fix (k2_off83 t1) (k2_off83_inb t1)) (ldv d L fix (k2_off84 t1) (k2_off84_inb t1)) (ldv d L fix (k2_off85 t1) (k2_off85_inb t1)) (ldv d L fix (k2_off86 t1) (k2_off86_inb t1)) (ldv d L fix (k2_off87 t1) (k2_off87_inb t1)) (ldv d L fix (k2_off88 t1) (k2_off88_inb t1)) (ldv d L fix (k2_off89 t1) (k2_off89_inb t1)) (ldv d L fix (k2_off90 t1) (k2_off90_inb t1)) (ldv d L fix (k2_off91 t1) (k2_off91_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k2_pay614 (fun _ => rfl) (slabRd d L fsl) (slabRd_apply d L fsl) _ hU (U3_loaded d L fix t1)
      (k2_off92 t1 t2) (k2_off92_inb t1 t2) (k2_off92_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KB

end
-- ==== Proof.KBTile2Glue.lean ====
/-
  One tile of the second SparseCore call: what its copies bring into the slab and the index scratch, and that the array
  the output scratch is filled with is the pooled array at the tile's output piece.
-/
import proofs.«209975_g17849884082380_cont_8to1_1483_11_alg».proof.Proof.KBTile2Val
import proofs.«209975_g17849884082380_cont_8to1_1483_11_alg».proof.Proof.KBOff2

noncomputable section

namespace Cert.Proof.KB

open Cert.Kernel Cert.Kernel.Gen

open Idealize.ShloMosaic
open Idealize.ShloMosaic.SparseCore (S V T)
open Idealize.ShloMosaic.ValueIdx

variable {F : FTy → Type}

local notation "srcW" => (Memref.whole Cert.Kernel.main_v6_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)

/-! ## The tile's input slices in closed form (the four output pieces' are in KBOff2.lean) -/

theorem off1_eq : ∀ L : grid2.Coords, k2_off1 L = ![(wid L).val / 4, (wid L).val % 4 * 65536] := by decide +kernel
theorem off2_eq : ∀ L : grid2.Coords, k2_off2 L = ![(wid L).val / 4, 0, 0] := by decide +kernel
theorem off25_eq : ∀ L : grid2.Coords, k2_off25 L = ![(wid L).val / 4, 0, 1024] := by decide +kernel
theorem off48_eq : ∀ L : grid2.Coords, k2_off48 L = ![(wid L).val / 4, 0, 2048] := by decide +kernel
theorem off71_eq : ∀ L : grid2.Coords, k2_off71 L = ![(wid L).val / 4, 0, 3072] := by decide +kernel

/-- The source's slice a tile copies into its slab, and the index array's four chunks, as the program slices them. -/
abbrev srcP (L : grid2.Coords) : Memref sig .scVector .hbm S65536 .f32 :=
  ((srcW).slice (Rect.unit (s := S8x262144) (k2_off1 L) S1x65536.size (k2_off1_inb L)) (fun _ => rfl)).squeeze S65536 squeezes_S1x65536_S65536
abbrev idxP0 (L : grid2.Coords) : Memref sig .scVector .hbm S20x1024 .i32 :=
  ((idxW).slice (Rect.unit (s := S8x20x4096) (k2_off2 L) S1x20x1024.size (k2_off2_inb L)) (fun _ => rfl)).squeeze S20x1024 squeezes_S1x20x1024_S20x1024
abbrev idxP1 (L : grid2.Coords) : Memref sig .scVector .hbm S20x1024 .i32 :=
  ((idxW).slice (Rect.unit (s := S8x20x4096) (k2_off25 L) S1x20x1024.size (k2_off25_inb L)) (fun _ => rfl)).squeeze S20x1024 squeezes_S1x20x1024_S20x1024
abbrev idxP2 (L : grid2.Coords) : Memref sig .scVector .hbm S20x1024 .i32 :=
  ((idxW).slice (Rect.unit (s := S8x20x4096) (k2_off48 L) S1x20x1024.size (k2_off48_inb L)) (fun _ => rfl)).squeeze S20x1024 squeezes_S1x20x1024_S20x1024
abbrev idxP3 (L : grid2.Coords) : Memref sig .scVector .hbm S20x1024 .i32 :=
  ((idxW).slice (Rect.unit (s := S8x20x4096) (k2_off71 L) S1x20x1024.size (k2_off71_inb L)) (fun _ => rfl)).squeeze S20x1024 squeezes_S1x20x1024_S20x1024

/-- The tile's cloud `b = wid / 4` and channel group `cg = wid % 4`. -/
def bOf (L : grid2.Coords) : Fin 8 := ⟨(wid L).val / 4, by have := (wid L).isLt; omega⟩
def cgOf (L : grid2.Coords) : Fin 4 := ⟨(wid L).val % 4, by omega⟩

/-- What the slab holds after its copy: the 16 channels of the tile's group, of the tile's cloud. -/
def slabOf (fs : Vec F S8x262144 .f32) (L : grid2.Coords) : Vec F S65536 .f32 :=
  fun p => fs (ix2 (bOf L) ⟨(cgOf L).val * 65536 + (p 0).val, by have := (cgOf L).isLt; have h : (p 0).val < 65536 := (p 0).isLt; omega⟩)
/-- What the index scratch holds after chunk `ch`'s copy: the 20 neighbour rows of the tile's cloud at the chunk's 1024 points. -/
def idxOf (fi : IVec S8x20x4096 32) (L : grid2.Coords) (ch : Fin 4) : IVec S20x1024 32 :=
  fun y => fi (ix3 (bOf L) (y 0) ⟨ch.val * 1024 + (y 1).val, by have := ch.isLt; have h : (y 1).val < 1024 := (y 1).isLt; omega⟩)

variable (d : Dev nD) (L : grid2.Coords) (fs : Buf (Elt F) (srcLoc d)) (fi : Buf (Elt F) (idxLoc d))

theorem srcP_read : (srcP L).view.read (Elt F) fs = slabOf fs L := by
  funext p
  show fs ((Rect.unit (s := S8x262144) (k2_off1 L) S1x65536.size (k2_off1_inb L)).emb
    (Shape.reshapeEquiv squeezes_S1x65536_S65536.numel_eq p)) = _
  unfold slabOf
  congr 1
  rw [Shape.reshapeEquiv_eq_of_rowMajor (y := (ix2 (0 : Fin 1) (p 0) : S1x65536.Idx)) _ (by
    rw [Shape.rowMajor_val_two, Shape.rowMajor_val_one]
    show 0 * 65536 + (p 0).val = (p 0).val
    omega)]
  funext a
  apply Fin.ext
  rw [Rect.emb_apply, Rect.off_unit, Rect.stride_unit]
  have h0 : k2_off1 L 0 = (wid L).val / 4 := by rw [off1_eq]; rfl
  have h1 : k2_off1 L 1 = (wid L).val % 4 * 65536 := by rw [off1_eq]; rfl
  match a with
  | ⟨0, _⟩ => show k2_off1 L 0 + 1 * 0 = (wid L).val / 4; omega
  | ⟨1, _⟩ => show k2_off1 L 1 + 1 * (p 0).val = (wid L).val % 4 * 65536 + (p 0).val; omega
theorem idxP0_read : (idxP0 L).view.read (Elt F) fi = idxOf fi L 0 := by
  funext y
  show fi ((Rect.unit (s := S8x20x4096) (k2_off2 L) S1x20x1024.size (k2_off2_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k2_off2 L 0 = (wid L).val / 4 := by rw [off2_eq]; rfl
  have h1 : k2_off2 L 1 = 0 := by rw [off2_eq]; rfl
  have h2 : k2_off2 L 2 = 0 := by rw [off2_eq]; rfl
  match a with
  | ⟨0, _⟩ => show k2_off2 L 0 + 1 * 0 = (wid L).val / 4; omega
  | ⟨1, _⟩ => show k2_off2 L 1 + 1 * (y 0).val = (y 0).val; omega
  | ⟨2, _⟩ => show k2_off2 L 2 + 1 * (y 1).val = 0 * 1024 + (y 1).val; omega
theorem idxP1_read : (idxP1 L).view.read (Elt F) fi = idxOf fi L 1 := by
  funext y
  show fi ((Rect.unit (s := S8x20x4096) (k2_off25 L) S1x20x1024.size (k2_off25_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k2_off25 L 0 = (wid L).val / 4 := by rw [off25_eq]; rfl
  have h1 : k2_off25 L 1 = 0 := by rw [off25_eq]; rfl
  have h2 : k2_off25 L 2 = 1024 := by rw [off25_eq]; rfl
  match a with
  | ⟨0, _⟩ => show k2_off25 L 0 + 1 * 0 = (wid L).val / 4; omega
  | ⟨1, _⟩ => show k2_off25 L 1 + 1 * (y 0).val = (y 0).val; omega
  | ⟨2, _⟩ => show k2_off25 L 2 + 1 * (y 1).val = 1 * 1024 + (y 1).val; omega
theorem idxP2_read : (idxP2 L).view.read (Elt F) fi = idxOf fi L 2 := by
  funext y
  show fi ((Rect.unit (s := S8x20x4096) (k2_off48 L) S1x20x1024.size (k2_off48_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k2_off48 L 0 = (wid L).val / 4 := by rw [off48_eq]; rfl
  have h1 : k2_off48 L 1 = 0 := by rw [off48_eq]; rfl
  have h2 : k2_off48 L 2 = 2048 := by rw [off48_eq]; rfl
  match a with
  | ⟨0, _⟩ => show k2_off48 L 0 + 1 * 0 = (wid L).val / 4; omega
  | ⟨1, _⟩ => show k2_off48 L 1 + 1 * (y 0).val = (y 0).val; omega
  | ⟨2, _⟩ => show k2_off48 L 2 + 1 * (y 1).val = 2 * 1024 + (y 1).val; omega
theorem idxP3_read : (idxP3 L).view.read (Elt F) fi = idxOf fi L 3 := by
  funext y
  show fi ((Rect.unit (s := S8x20x4096) (k2_off71 L) S1x20x1024.size (k2_off71_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k2_off71 L 0 = (wid L).val / 4 := by rw [off71_eq]; rfl
  have h1 : k2_off71 L 1 = 0 := by rw [off71_eq]; rfl
  have h2 : k2_off71 L 2 = 3072 := by rw [off71_eq]; rfl
  match a with
  | ⟨0, _⟩ => show k2_off71 L 0 + 1 * 0 = (wid L).val / 4; omega
  | ⟨1, _⟩ => show k2_off71 L 1 + 1 * (y 0).val = (y 0).val; omega
  | ⟨2, _⟩ => show k2_off71 L 2 + 1 * (y 1).val = 3 * 1024 + (y 1).val; omega

theorem idxOf_lt (hidx : ∀ j, (fi j).toNat < 4096) (ch : Fin 4) (y : S20x1024.Idx) : (idxOf fi L ch y).toNat < 4096 := hidx _

/-- Where output piece 0 of the tile sits in the pooled array: cloud b, channel 16 cg + r, point 0 + x. -/
theorem oP0_emb (y : S16x1024.Idx) :
    (oP0 L).view.emb y = (ix3 (bOf L)
      (⟨(cgOf L).val * 16 + (y 0).val, by have := (cgOf L).isLt; have h : (y 0).val < 16 := (y 0).isLt; omega⟩ : Fin 64)
      (⟨0 * 1024 + (y 1).val, by have h : (y 1).val < 1024 := (y 1).isLt; omega⟩ : Fin 4096) : S8x64x4096.Idx) := by
  show (Rect.unit (s := S8x64x4096) (k2_off24 L) S1x16x1024.size (k2_off24_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k2_off24 L 0 = (wid L).val / 4 := by rw [off24_eq]; rfl
  have h1 : k2_off24 L 1 = (wid L).val % 4 * 16 := by rw [off24_eq]; rfl
  have h2 : k2_off24 L 2 = 0 := by rw [off24_eq]; rfl
  match a with
  | ⟨0, _⟩ => show k2_off24 L 0 + 1 * 0 = (wid L).val / 4; omega
  | ⟨1, _⟩ => show k2_off24 L 1 + 1 * (y 0).val = (wid L).val % 4 * 16 + (y 0).val; omega
  | ⟨2, _⟩ => show k2_off24 L 2 + 1 * (y 1).val = 0 * 1024 + (y 1).val; omega

/-- Where output piece 1 of the tile sits in the pooled array: cloud b, channel 16 cg + r, point 1024 + x. -/
theorem oP1_emb (y : S16x1024.Idx) :
    (oP1 L).view.emb y = (ix3 (bOf L)
      (⟨(cgOf L).val * 16 + (y 0).val, by have := (cgOf L).isLt; have h : (y 0).val < 16 := (y 0).isLt; omega⟩ : Fin 64)
      (⟨1 * 1024 + (y 1).val, by have h : (y 1).val < 1024 := (y 1).isLt; omega⟩ : Fin 4096) : S8x64x4096.Idx) := by
  show (Rect.unit (s := S8x64x4096) (k2_off47 L) S1x16x1024.size (k2_off47_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k2_off47 L 0 = (wid L).val / 4 := by rw [off47_eq]; rfl
  have h1 : k2_off47 L 1 = (wid L).val % 4 * 16 := by rw [off47_eq]; rfl
  have h2 : k2_off47 L 2 = 1024 := by rw [off47_eq]; rfl
  match a with
  | ⟨0, _⟩ => show k2_off47 L 0 + 1 * 0 = (wid L).val / 4; omega
  | ⟨1, _⟩ => show k2_off47 L 1 + 1 * (y 0).val = (wid L).val % 4 * 16 + (y 0).val; omega
  | ⟨2, _⟩ => show k2_off47 L 2 + 1 * (y 1).val = 1 * 1024 + (y 1).val; omega

/-- Where output piece 2 of the tile sits in the pooled array: cloud b, channel 16 cg + r, point 2048 + x. -/
theorem oP2_emb (y : S16x1024.Idx) :
    (oP2 L).view.emb y = (ix3 (bOf L)
      (⟨(cgOf L).val * 16 + (y 0).val, by have := (cgOf L).isLt; have h : (y 0).val < 16 := (y 0).isLt; omega⟩ : Fin 64)
      (⟨2 * 1024 + (y 1).val, by have h : (y 1).val < 1024 := (y 1).isLt; omega⟩ : Fin 4096) : S8x64x4096.Idx) := by
  show (Rect.unit (s := S8x64x4096) (k2_off70 L) S1x16x1024.size (k2_off70_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k2_off70 L 0 = (wid L).val / 4 := by rw [off70_eq]; rfl
  have h1 : k2_off70 L 1 = (wid L).val % 4 * 16 := by rw [off70_eq]; rfl
  have h2 : k2_off70 L 2 = 2048 := by rw [off70_eq]; rfl
  match a with
  | ⟨0, _⟩ => show k2_off70 L 0 + 1 * 0 = (wid L).val / 4; omega
  | ⟨1, _⟩ => show k2_off70 L 1 + 1 * (y 0).val = (wid L).val % 4 * 16 + (y 0).val; omega
  | ⟨2, _⟩ => show k2_off70 L 2 + 1 * (y 1).val = 2 * 1024 + (y 1).val; omega

/-- Where output piece 3 of the tile sits in the pooled array: cloud b, channel 16 cg + r, point 3072 + x. -/
theorem oP3_emb (y : S16x1024.Idx) :
    (oP3 L).view.emb y = (ix3 (bOf L)
      (⟨(cgOf L).val * 16 + (y 0).val, by have := (cgOf L).isLt; have h : (y 0).val < 16 := (y 0).isLt; omega⟩ : Fin 64)
      (⟨3 * 1024 + (y 1).val, by have h : (y 1).val < 1024 := (y 1).isLt; omega⟩ : Fin 4096) : S8x64x4096.Idx) := by
  show (Rect.unit (s := S8x64x4096) (k2_off93 L) S1x16x1024.size (k2_off93_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k2_off93 L 0 = (wid L).val / 4 := by rw [off93_eq]; rfl
  have h1 : k2_off93 L 1 = (wid L).val % 4 * 16 := by rw [off93_eq]; rfl
  have h2 : k2_off93 L 2 = 3072 := by rw [off93_eq]; rfl
  match a with
  | ⟨0, _⟩ => show k2_off93 L 0 + 1 * 0 = (wid L).val / 4; omega
  | ⟨1, _⟩ => show k2_off93 L 1 + 1 * (y 0).val = (wid L).val % 4 * 16 + (y 0).val; omega
  | ⟨2, _⟩ => show k2_off93 L 2 + 1 * (y 1).val = 3 * 1024 + (y 1).val; omega

variable [FloatOps F]

/-- The array a chunk's output scratch is filled with is the pooled array at the tile's output piece of that chunk
    (`hidx`: every neighbour word is a point of the cloud, so reducing it into the cloud changes nothing). -/
theorem glue0 (hidx : ∀ j, (fi j).toNat < 4096) (y : S16x1024.Idx) :
    Gout (Scalar.ofBits .f32 0xFF800000#32) (slabOf fs L) (idxOf fi L 0) y = gmaxArr fs fi ((oP0 L).view.emb y) := by
  rw [oP0_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 0 (ix2 k (y 1))).toNat % 4096)
    = ((cgOf L).val * 16 + (y 0).val) * 4096 + (idxOf fi L 0 (ix2 k (y 1))).toNat % 4096
  omega
theorem glue1 (hidx : ∀ j, (fi j).toNat < 4096) (y : S16x1024.Idx) :
    Gout (Scalar.ofBits .f32 0xFF800000#32) (slabOf fs L) (idxOf fi L 1) y = gmaxArr fs fi ((oP1 L).view.emb y) := by
  rw [oP1_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 1 (ix2 k (y 1))).toNat % 4096)
    = ((cgOf L).val * 16 + (y 0).val) * 4096 + (idxOf fi L 1 (ix2 k (y 1))).toNat % 4096
  omega
theorem glue2 (hidx : ∀ j, (fi j).toNat < 4096) (y : S16x1024.Idx) :
    Gout (Scalar.ofBits .f32 0xFF800000#32) (slabOf fs L) (idxOf fi L 2) y = gmaxArr fs fi ((oP2 L).view.emb y) := by
  rw [oP2_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 2 (ix2 k (y 1))).toNat % 4096)
    = ((cgOf L).val * 16 + (y 0).val) * 4096 + (idxOf fi L 2 (ix2 k (y 1))).toNat % 4096
  omega
theorem glue3 (hidx : ∀ j, (fi j).toNat < 4096) (y : S16x1024.Idx) :
    Gout (Scalar.ofBits .f32 0xFF800000#32) (slabOf fs L) (idxOf fi L 3) y = gmaxArr fs fi ((oP3 L).view.emb y) := by
  rw [oP3_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 3 (ix2 k (y 1))).toNat % 4096)
    = ((cgOf L).val * 16 + (y 0).val) * 4096 + (idxOf fi L 3 (ix2 k (y 1))).toNat % 4096
  omega

end Cert.Proof.KB

end
-- ==== Proof.KBTile2Out.lean ====
/-
  One tile of the second SparseCore call: an output piece written whole from the filled output scratch holds the pooled array.
  Values off a piece's element set are irrelevant; an element of the set lies under an index of the piece, where the
  write leaves the payload, and the payload there is the pooled array.
-/
import proofs.«209975_g17849884082380_cont_8to1_1483_11_alg».proof.Proof.KBTile2Glue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 3) (Elt F) ℕ UU ℕ

variable (d : Dev nD) (L : grid2.Coords) (fs : Buf (Elt F) (srcLoc d)) (fi : Buf (Elt F) (idxLoc d))
variable [FloatOps F]

theorem out_piece0 (hidx : ∀ j, (fi j).toNat < 4096) (fo : Buf (Elt F) (outLoc d)) :
    (outLoc d ↦[oSet0 L]{fullShare} View.write (Elt F) (oP0 L).view fo (Gout (Scalar.ofBits .f32 0xFF800000#32) (slabOf fs L) (idxOf fi L 0)) Finset.univ : sProp 𝕄)
      = (outLoc d ↦[oSet0 L]{fullShare} gmaxArr fs fi) := by
  refine pointsTo_congr fun i hi => ?_
  obtain ⟨y, -, rfl⟩ := Finset.mem_map.mp hi
  rw [View.write_emb_of_mem _ _ (Finset.mem_univ y)]
  exact glue0 d L fs fi hidx y

theorem out_piece1 (hidx : ∀ j, (fi j).toNat < 4096) (fo : Buf (Elt F) (outLoc d)) :
    (outLoc d ↦[oSet1 L]{fullShare} View.write (Elt F) (oP1 L).view fo (Gout (Scalar.ofBits .f32 0xFF800000#32) (slabOf fs L) (idxOf fi L 1)) Finset.univ : sProp 𝕄)
      = (outLoc d ↦[oSet1 L]{fullShare} gmaxArr fs fi) := by
  refine pointsTo_congr fun i hi => ?_
  obtain ⟨y, -, rfl⟩ := Finset.mem_map.mp hi
  rw [View.write_emb_of_mem _ _ (Finset.mem_univ y)]
  exact glue1 d L fs fi hidx y

theorem out_piece2 (hidx : ∀ j, (fi j).toNat < 4096) (fo : Buf (Elt F) (outLoc d)) :
    (outLoc d ↦[oSet2 L]{fullShare} View.write (Elt F) (oP2 L).view fo (Gout (Scalar.ofBits .f32 0xFF800000#32) (slabOf fs L) (idxOf fi L 2)) Finset.univ : sProp 𝕄)
      = (outLoc d ↦[oSet2 L]{fullShare} gmaxArr fs fi) := by
  refine pointsTo_congr fun i hi => ?_
  obtain ⟨y, -, rfl⟩ := Finset.mem_map.mp hi
  rw [View.write_emb_of_mem _ _ (Finset.mem_univ y)]
  exact glue2 d L fs fi hidx y

theorem out_piece3 (hidx : ∀ j, (fi j).toNat < 4096) (fo : Buf (Elt F) (outLoc d)) :
    (outLoc d ↦[oSet3 L]{fullShare} View.write (Elt F) (oP3 L).view fo (Gout (Scalar.ofBits .f32 0xFF800000#32) (slabOf fs L) (idxOf fi L 3)) Finset.univ : sProp 𝕄)
      = (outLoc d ↦[oSet3 L]{fullShare} gmaxArr fs fi) := by
  refine pointsTo_congr fun i hi => ?_
  obtain ⟨y, -, rfl⟩ := Finset.mem_map.mp hi
  rw [View.write_emb_of_mem _ _ (Finset.mem_univ y)]
  exact glue3 d L fs fi hidx y

/-! ### The same for any contents that read, through the piece, as the filled scratch -/

theorem out_gen0 (hidx : ∀ j, (fi j).toNat < 4096) (g : Buf (Elt F) (outLoc d))
    (hg : ∀ y : S16x1024.Idx, (oP0 L).view.read (Elt F) g y = Gout (Scalar.ofBits .f32 0xFF800000#32) (slabOf fs L) (idxOf fi L 0) y) :
    (outLoc d ↦[oSet0 L]{fullShare} g : sProp 𝕄) = (outLoc d ↦[oSet0 L]{fullShare} gmaxArr fs fi) := by
  refine pointsTo_congr fun i hi => ?_
  obtain ⟨y, -, rfl⟩ := Finset.mem_map.mp hi
  exact (hg y).trans (glue0 d L fs fi hidx y)

theorem out_gen1 (hidx : ∀ j, (fi j).toNat < 4096) (g : Buf (Elt F) (outLoc d))
    (hg : ∀ y : S16x1024.Idx, (oP1 L).view.read (Elt F) g y = Gout (Scalar.ofBits .f32 0xFF800000#32) (slabOf fs L) (idxOf fi L 1) y) :
    (outLoc d ↦[oSet1 L]{fullShare} g : sProp 𝕄) = (outLoc d ↦[oSet1 L]{fullShare} gmaxArr fs fi) := by
  refine pointsTo_congr fun i hi => ?_
  obtain ⟨y, -, rfl⟩ := Finset.mem_map.mp hi
  exact (hg y).trans (glue1 d L fs fi hidx y)

theorem out_gen2 (hidx : ∀ j, (fi j).toNat < 4096) (g : Buf (Elt F) (outLoc d))
    (hg : ∀ y : S16x1024.Idx, (oP2 L).view.read (Elt F) g y = Gout (Scalar.ofBits .f32 0xFF800000#32) (slabOf fs L) (idxOf fi L 2) y) :
    (outLoc d ↦[oSet2 L]{fullShare} g : sProp 𝕄) = (outLoc d ↦[oSet2 L]{fullShare} gmaxArr fs fi) := by
  refine pointsTo_congr fun i hi => ?_
  obtain ⟨y, -, rfl⟩ := Finset.mem_map.mp hi
  exact (hg y).trans (glue2 d L fs fi hidx y)

theorem out_gen3 (hidx : ∀ j, (fi j).toNat < 4096) (g : Buf (Elt F) (outLoc d))
    (hg : ∀ y : S16x1024.Idx, (oP3 L).view.read (Elt F) g y = Gout (Scalar.ofBits .f32 0xFF800000#32) (slabOf fs L) (idxOf fi L 3) y) :
    (outLoc d ↦[oSet3 L]{fullShare} g : sProp 𝕄) = (outLoc d ↦[oSet3 L]{fullShare} gmaxArr fs fi) := by
  refine pointsTo_congr fun i hi => ?_
  obtain ⟨y, -, rfl⟩ := Finset.mem_map.mp hi
  exact (hg y).trans (glue3 d L fs fi hidx y)

end Cert.Proof.KB

end
-- ==== Proof.KBTile2.lean ====
/-
  One tile of the second SparseCore call (the plain gather-and-max): its body's weakest precondition at a symbolic tile,
  from the resources the call deals it to the same back with its four output pieces at the pooled array.
-/
import proofs.«209975_g17849884082380_cont_8to1_1483_11_alg».proof.Proof.KBTile2C0
import proofs.«209975_g17849884082380_cont_8to1_1483_11_alg».proof.Proof.KBTile2C1
import proofs.«209975_g17849884082380_cont_8to1_1483_11_alg».proof.Proof.KBTile2C2
import proofs.«209975_g17849884082380_cont_8to1_1483_11_alg».proof.Proof.KBTile2C3
import proofs.«209975_g17849884082380_cont_8to1_1483_11_alg».proof.Proof.KBTile2Out

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v6_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v7_scv : Memref Cert.Kernel.sig Kind.scVector Space.hbm Cert.Kernel.S8x64x4096 EltTy.f32)
local notation "slabW" => (Memref.whole Cert.Kernel.cc2_scratch0 : Memref Cert.Kernel.sig Kind.scVector Space.vmem Cert.Kernel.S65536 EltTy.f32)
local notation "idxbW" => (Memref.whole Cert.Kernel.cc2_scratch1 : Memref Cert.Kernel.sig Kind.scVector Space.vmem Cert.Kernel.S20x1024 EltTy.i32)
local notation "outbW" => (Memref.whole Cert.Kernel.cc2_scratch2 : Memref Cert.Kernel.sig Kind.scVector Space.vmem Cert.Kernel.S16x1024 EltTy.f32)

section Tile

variable (d : Dev nD) (L : grid2.Coords)

/-! ## The tile's own scratch buffers and semaphores among its thread's -/

def myRefs (L : grid2.Coords) : Finset (DevRef τ sig) :=
  {(Proc.scVector (cV L) (jV L)).devRef cc2_scratch0, (Proc.scVector (cV L) (jV L)).devRef cc2_scratch1, (Proc.scVector (cV L) (jV L)).devRef cc2_scratch2}

theorem myRefs_sub : myRefs L ⊆ ownRefs (τ := τ) (.scVector (cV L) (jV L)) := by
  intro b hb
  simp only [myRefs, Finset.mem_insert, Finset.mem_singleton] at hb
  rcases hb with rfl | rfl | rfl <;> exact SparseCore.Cfg.mem_ownRefs_of_owner (p := Proc.scVector (cV L) (jV L)) rfl

theorem myRefs_sep :
    (bigSep (myRefs L) fun b => iprop(∃ f, ((d, b) : Loc nD τ sig) ↦{fullShare} f) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)) := by
  unfold myRefs
  rw [SparseCore.bigSep_insert' (by
      simp only [Finset.mem_insert, Finset.mem_singleton, not_or]
      exact ⟨fun e => absurd (Proc.devRef_injective _ e) (show (cc2_scratch0 : Ref sig .scVector) ≠ cc2_scratch1 by decide),
        fun e => absurd (Proc.devRef_injective _ e) (show (cc2_scratch0 : Ref sig .scVector) ≠ cc2_scratch2 by decide)⟩),
    SparseCore.bigSep_insert' (by
      simp only [Finset.mem_singleton]
      exact fun e => absurd (Proc.devRef_injective _ e) (show (cc2_scratch1 : Ref sig .scVector) ≠ cc2_scratch2 by decide)), bigSep_singleton]

theorem ownBufs_V2 :
    (ownBufs (V d (cV L) (jV L)) : sProp 𝕄)
      = iprop(((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f))
          ∗ bigSep ((ownRefs (τ := τ) (.scVector (cV L) (jV L))) \ myRefs L) fun b => iprop(∃ f, ((d, b) : Loc nD τ sig) ↦{fullShare} f)) := by
  unfold SparseCore.Cfg.ownBufs
  rw [SparseCore.bigSep_sdiff_split' (myRefs_sub L), myRefs_sep]

abbrev mc (d : Dev nD) (L : grid2.Coords) (s : DmaSems sig S_) : GSem nD τ sig := (V d (cV L) (jV L), .dma s.sem)

def myCells (d : Dev nD) (L : grid2.Coords) : Finset (GSem nD τ sig) :=
  {mc d L cc2_scoped0, mc d L cc2_scoped1, mc d L cc2_scoped2, mc d L cc2_scoped3, mc d L cc2_scoped4, mc d L cc2_scoped5,
    mc d L cc2_scoped6, mc d L cc2_scoped7, mc d L cc2_scoped8}

theorem mc_mem (s : DmaSems sig S_) (h : (SemLoc.dma s.sem : SemLoc sig).isScoped .scVector = true) : mc d L s ∈ ownCells (V d (cV L) (jV L)) :=
  mem_ownCells.mpr ⟨rfl, h⟩

theorem myCells_sub : myCells d L ⊆ ownCells (V d (cV L) (jV L)) := by
  intro g hg
  simp only [myCells, Finset.mem_insert, Finset.mem_singleton] at hg
  rcases hg with rfl | rfl | rfl | rfl | rfl | rfl | rfl | rfl | rfl
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)

theorem myCells_sep :
    (bigSep (myCells d L) fun g => semVal g 0 : sProp 𝕄)
      = iprop(semVal (mc d L cc2_scoped0) 0 ∗ semVal (mc d L cc2_scoped1) 0 ∗ semVal (mc d L cc2_scoped2) 0 ∗ semVal (mc d L cc2_scoped3) 0
          ∗ semVal (mc d L cc2_scoped4) 0 ∗ semVal (mc d L cc2_scoped5) 0 ∗ semVal (mc d L cc2_scoped6) 0 ∗ semVal (mc d L cc2_scoped7) 0
          ∗ semVal (mc d L cc2_scoped8) 0) := by
  unfold myCells
  have hne : ∀ {a b : DmaSems sig S_}, a.sem ≠ b.sem → mc d L a ≠ mc d L b := fun h e => h (by simpa [mc] using e)
  rw [SparseCore.bigSep_insert' (by simp only [Finset.mem_insert, Finset.mem_singleton, not_or]; refine ⟨?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_⟩ <;> exact hne (by decide)),
    SparseCore.bigSep_insert' (by simp only [Finset.mem_insert, Finset.mem_singleton, not_or]; refine ⟨?_, ?_, ?_, ?_, ?_, ?_⟩ <;> exact hne (by decide)),
    SparseCore.bigSep_insert' (by simp only [Finset.mem_insert, Finset.mem_singleton, not_or]; refine ⟨?_, ?_, ?_, ?_, ?_⟩ <;> exact hne (by decide)),
    SparseCore.bigSep_insert' (by simp only [Finset.mem_insert, Finset.mem_singleton, not_or]; refine ⟨?_, ?_, ?_, ?_⟩ <;> exact hne (by decide)),
    SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

theorem ownSems0_V2 :
    (ownSems0 (V d (cV L) (jV L)) : sProp 𝕄)
      = iprop((semVal (mc d L cc2_scoped0) 0 ∗ semVal (mc d L cc2_scoped1) 0 ∗ semVal (mc d L cc2_scoped2) 0 ∗ semVal (mc d L cc2_scoped3) 0
          ∗ semVal (mc d L cc2_scoped4) 0 ∗ semVal (mc d L cc2_scoped5) 0 ∗ semVal (mc d L cc2_scoped6) 0 ∗ semVal (mc d L cc2_scoped7) 0
          ∗ semVal (mc d L cc2_scoped8) 0)
          ∗ bigSep (ownCells (V d (cV L) (jV L)) \ myCells d L) fun g => semVal g 0) := by
  unfold SparseCore.Cfg.ownSems0
  rw [SparseCore.bigSep_sdiff_split' (myCells_sub d L), myCells_sep]

/-! ## The arrays as the tile's memrefs address them -/

theorem pts_src (q : PosShare TreeShare) (f : Buf (Elt F) (srcLoc d)) :
    ((srcW).view.loc (V d (cV L) (jV L)) ↦{q} f : sProp 𝕄) = srcLoc d ↦{q} f := by
  simp only [Memref.view_whole, View.set_whole]
theorem pts_idx (q : PosShare TreeShare) (f : Buf (Elt F) (idxLoc d)) :
    ((idxW).view.loc (V d (cV L) (jV L)) ↦{q} f : sProp 𝕄) = idxLoc d ↦{q} f := by
  simp only [Memref.view_whole, View.set_whole]
theorem pts_o0 (f : Buf (Elt F) (outLoc d)) :
    ((oP0 L).view.loc (V d (cV L) (jV L)) ↦[(oP0 L).view.set]{fullShare} f : sProp 𝕄) = outLoc d ↦[oSet0 L]{fullShare} f := rfl
theorem pts_o1 (f : Buf (Elt F) (outLoc d)) :
    ((oP1 L).view.loc (V d (cV L) (jV L)) ↦[(oP1 L).view.set]{fullShare} f : sProp 𝕄) = outLoc d ↦[oSet1 L]{fullShare} f := rfl
theorem pts_o2 (f : Buf (Elt F) (outLoc d)) :
    ((oP2 L).view.loc (V d (cV L) (jV L)) ↦[(oP2 L).view.set]{fullShare} f : sProp 𝕄) = outLoc d ↦[oSet2 L]{fullShare} f := rfl
theorem pts_o3 (f : Buf (Elt F) (outLoc d)) :
    ((oP3 L).view.loc (V d (cV L) (jV L)) ↦[(oP3 L).view.set]{fullShare} f : sProp 𝕄) = outLoc d ↦[oSet3 L]{fullShare} f := rfl
theorem pts_slab (f : Buf (Elt F) ((V d (cV L) (jV L)).loc cc2_scratch0)) :
    ((slabW).view.loc (V d (cV L) (jV L)) ↦{fullShare} f : sProp 𝕄) = (V d (cV L) (jV L)).loc cc2_scratch0 ↦{fullShare} f := rfl
theorem pts_idxb (f : Buf (Elt F) ((V d (cV L) (jV L)).loc cc2_scratch1)) :
    ((idxbW).view.loc (V d (cV L) (jV L)) ↦{fullShare} f : sProp 𝕄) = (V d (cV L) (jV L)).loc cc2_scratch1 ↦{fullShare} f := rfl
theorem pts_outb (f : Buf (Elt F) ((V d (cV L) (jV L)).loc cc2_scratch2)) :
    ((outbW).view.loc (V d (cV L) (jV L)) ↦{fullShare} f : sProp 𝕄) = (V d (cV L) (jV L)).loc cc2_scratch2 ↦{fullShare} f := rfl

variable (fs : Buf (Elt F) (srcLoc d)) (fi : Buf (Elt F) (idxLoc d))
variable [FloatOps F]

/-! ## What the copies leave in the scratches -/

theorem slab_after (f0 : Buf (Elt F) ((V d (cV L) (jV L)).loc cc2_scratch0)) :
    ((slabW).view.loc (V d (cV L) (jV L)) ↦{fullShare} View.write (Elt F) (slabW).view f0 (ReadAs.same.apply ((srcP L).view.read (Elt F) fs)) Finset.univ : sProp 𝕄)
      = ((slabW).view.loc (V d (cV L) (jV L)) ↦{fullShare} slabOf fs L) :=
  congrArg (fun f => ((slabW).view.loc (V d (cV L) (jV L)) ↦{fullShare} f : sProp 𝕄)) ((View.write_whole_univ cc2_scratch0 f0 _).trans (srcP_read d L fs))
theorem idxb_after0 (f1 : Buf (Elt F) ((V d (cV L) (jV L)).loc cc2_scratch1)) :
    ((idxbW).view.loc (V d (cV L) (jV L)) ↦{fullShare} View.write (Elt F) (idxbW).view f1 (ReadAs.same.apply ((idxP0 L).view.read (Elt F) fi)) Finset.univ : sProp 𝕄)
      = ((idxbW).view.loc (V d (cV L) (jV L)) ↦{fullShare} idxOf fi L 0) :=
  congrArg (fun f => ((idxbW).view.loc (V d (cV L) (jV L)) ↦{fullShare} f : sProp 𝕄)) ((View.write_whole_univ cc2_scratch1 f1 _).trans (idxP0_read d L fi))
theorem idxb_after1 (f1 : Buf (Elt F) ((V d (cV L) (jV L)).loc cc2_scratch1)) :
    ((idxbW).view.loc (V d (cV L) (jV L)) ↦{fullShare} View.write (Elt F) (idxbW).view f1 (ReadAs.same.apply ((idxP1 L).view.read (Elt F) fi)) Finset.univ : sProp 𝕄)
      = ((idxbW).view.loc (V d (cV L) (jV L)) ↦{fullShare} idxOf fi L 1) :=
  congrArg (fun f => ((idxbW).view.loc (V d (cV L) (jV L)) ↦{fullShare} f : sProp 𝕄)) ((View.write_whole_univ cc2_scratch1 f1 _).trans (idxP1_read d L fi))
theorem idxb_after2 (f1 : Buf (Elt F) ((V d (cV L) (jV L)).loc cc2_scratch1)) :
    ((idxbW).view.loc (V d (cV L) (jV L)) ↦{fullShare} View.write (Elt F) (idxbW).view f1 (ReadAs.same.apply ((idxP2 L).view.read (Elt F) fi)) Finset.univ : sProp 𝕄)
      = ((idxbW).view.loc (V d (cV L) (jV L)) ↦{fullShare} idxOf fi L 2) :=
  congrArg (fun f => ((idxbW).view.loc (V d (cV L) (jV L)) ↦{fullShare} f : sProp 𝕄)) ((View.write_whole_univ cc2_scratch1 f1 _).trans (idxP2_read d L fi))
theorem idxb_after3 (f1 : Buf (Elt F) ((V d (cV L) (jV L)).loc cc2_scratch1)) :
    ((idxbW).view.loc (V d (cV L) (jV L)) ↦{fullShare} View.write (Elt F) (idxbW).view f1 (ReadAs.same.apply ((idxP3 L).view.read (Elt F) fi)) Finset.univ : sProp 𝕄)
      = ((idxbW).view.loc (V d (cV L) (jV L)) ↦{fullShare} idxOf fi L 3) :=
  congrArg (fun f => ((idxbW).view.loc (V d (cV L) (jV L)) ↦{fullShare} f : sProp 𝕄)) ((View.write_whole_univ cc2_scratch1 f1 _).trans (idxP3_read d L fi))

theorem done1_zero (G : S16x1024.Idx → F .f32) (f2 : S16x1024.Idx → F .f32) : Done1 G 0 f2 :=
  fun y hy => absurd hy (by omega)

/-! ## An output piece overwritten whole reads its payload -/

omit [FloatOps F] in
theorem whole_emb (y : S16x1024.Idx) : (Rect.whole S16x1024).emb y = y := by
  funext a
  exact Fin.ext (by rw [Rect.emb_apply]; show 0 + 1 * (y a).val = (y a).val; omega)

omit [FloatOps F] in
theorem read_writes_whole (v : View sig .scVector .hbm S16x1024 .f32) (f : v.ty.Contents (Elt F)) (w : S16x1024.Idx → Elt F .f32) (y : S16x1024.Idx) :
    v.read (Elt F) (v.writes (Elt F) f [⟨Rect.whole S16x1024, w⟩]) y = w y :=
  (congrArg (v.read (Elt F) (v.writes (Elt F) f [⟨Rect.whole S16x1024, w⟩])) (whole_emb y).symm).trans
    (View.read_writes_cons_emb v f (Rect.whole S16x1024) w [] y)

set_option maxHeartbeats 8000000 in
theorem tile_body2 (hF : (K (F := F)).Facts) (hidx : ∀ j, (fi j).toNat < 4096)
    (O : CellTallies nD τ sig (HIx 3)) (W : Waits sig (HIx 3)) (hO : ∀ g, O g none = 0) :
    iprop(levAts (K (F := F)).L (K (F := F)).lev ∗ emp ∗ go2 d L fs fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_body L srcW (Memref.isWhole_whole _) idxW (Memref.isWhole_whole _) outW (Memref.isWhole_whole _)
            slabW (Memref.isWhole_whole _) idxbW (Memref.isWhole_whole _) outbW (Memref.isWhole_whole _)
            cc2_scoped0 cc2_scoped1 cc2_scoped2 cc2_scoped3 cc2_scoped4 cc2_scoped5 cc2_scoped6 cc2_scoped7 cc2_scoped8)
          fun _ => iprop(td2 d L fs fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_body_eq_skeleton]; unfold cc2_body_skel
  rw [(K (F := F)).scopedBufs_V hF d (cV L) (jV L), SparseCore.Cfg.scopedSems0_V (Val := Elt F) d (cV L) (jV L), ownSems0_V2, ownBufs_V2]
  unfold go2
  iintro ⟨#Hlv, -, ⟨Hsrc, Hidx, ⟨%fo0, Ho0⟩, ⟨%fo1, Ho1⟩, ⟨%fo2, Ho2⟩, ⟨%fo3, Ho3⟩⟩, ⟨⟨⟨%f0, Hs0⟩, ⟨%f1, Hs1⟩, ⟨%f2, Hs2⟩⟩, Hbufs⟩,
    ⟨⟨Hm0, Hm1, Hm2, Hm3, Hm4, Hm5, Hm6, Hm7, Hm8⟩, Hsems⟩, HO⟩
  ihave Hmw := ((K (F := F)).mayWaits_none (thr := V d (cV L) (jV L)) hO) $$ Hlv
  ihave Hsrc := (Entails.of_eq (pts_src (F := F) d L _ _).symm) $$ Hsrc
  ihave Hidx := (Entails.of_eq (pts_idx (F := F) d L _ _).symm) $$ Hidx
  ihave Ho0 := (Entails.of_eq (pts_o0 (F := F) d L _).symm) $$ Ho0
  ihave Ho1 := (Entails.of_eq (pts_o1 (F := F) d L _).symm) $$ Ho1
  ihave Ho2 := (Entails.of_eq (pts_o2 (F := F) d L _).symm) $$ Ho2
  ihave Ho3 := (Entails.of_eq (pts_o3 (F := F) d L _).symm) $$ Ho3
  ihave Hs0 := (Entails.of_eq (pts_slab (F := F) d L _).symm) $$ Hs0
  ihave Hs1 := (Entails.of_eq (pts_idxb (F := F) d L _).symm) $$ Hs1
  ihave Hs2 := (Entails.of_eq (pts_outb (F := F) d L _).symm) $$ Hs2
  -- the slab's copy and the first chunk's neighbour lists
  sl_exec
  unfold tile_body2.sl.dma0 tile_body2.sl.dma0_1
  ihave Hs0 := (Entails.of_eq (slab_after (F := F) d L fs _)) $$ Hs0
  -- chunk 0: the outer loop, block by block
  ihave Hs1 := (Entails.of_eq (idxb_after0 (F := F) d L fi _)) $$ Hs1
  sl_for (inv1 d L (slabOf fs L) (idxOf fi L 0) (Gout negInf (slabOf fs L) (idxOf fi L 0))) $$ [Hs0 Hs1 Hs2]
  case region => exact outer_trip0 d L (slabOf fs L) (idxOf fi L 0) (idxOf_lt d L fi hidx 0) _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g0, Hs2, %hg0⟩
  obtain rfl := done1_all hg0
  sl_exec
  -- chunk 1: the outer loop, block by block
  unfold tile_body2.sl.dma0_3
  ihave Hs1 := (Entails.of_eq (idxb_after1 (F := F) d L fi _)) $$ Hs1
  sl_for (inv1 d L (slabOf fs L) (idxOf fi L 1) (Gout negInf (slabOf fs L) (idxOf fi L 1))) $$ [Hs0 Hs1 Hs2]
  case region => exact outer_trip1 d L (slabOf fs L) (idxOf fi L 1) (idxOf_lt d L fi hidx 1) _ _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g1, Hs2, %hg1⟩
  obtain rfl := done1_all hg1
  sl_exec
  -- chunk 2: the outer loop, block by block
  unfold tile_body2.sl.dma0_5
  ihave Hs1 := (Entails.of_eq (idxb_after2 (F := F) d L fi _)) $$ Hs1
  sl_for (inv1 d L (slabOf fs L) (idxOf fi L 2) (Gout negInf (slabOf fs L) (idxOf fi L 2))) $$ [Hs0 Hs1 Hs2]
  case region => exact outer_trip2 d L (slabOf fs L) (idxOf fi L 2) (idxOf_lt d L fi hidx 2) _ _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g2, Hs2, %hg2⟩
  obtain rfl := done1_all hg2
  sl_exec
  -- chunk 3: the outer loop, block by block
  unfold tile_body2.sl.dma0_7
  ihave Hs1 := (Entails.of_eq (idxb_after3 (F := F) d L fi _)) $$ Hs1
  sl_for (inv1 d L (slabOf fs L) (idxOf fi L 3) (Gout negInf (slabOf fs L) (idxOf fi L 3))) $$ [Hs0 Hs1 Hs2]
  case region => exact outer_trip3 d L (slabOf fs L) (idxOf fi L 3) (idxOf_lt d L fi hidx 3)
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g3, Hs2, %hg3⟩
  obtain rfl := done1_all hg3
  sl_exec
  unfold tile_body2.sl.dma0_2 tile_body2.sl.dma0_4 tile_body2.sl.dma0_6 tile_body2.sl.dma0_8
  sl_step
  unfold td2
  isplitl [Hsrc Hidx Ho0 Ho1 Ho2 Ho3]
  · isplitl [Hsrc]
    · iapply (Entails.of_eq (pts_src (F := F) d L _ _)); iexact Hsrc
    isplitl [Hidx]
    · iapply (Entails.of_eq (pts_idx (F := F) d L _ _)); iexact Hidx
    isplitl [Ho0]
    · iapply (Entails.of_eq (out_gen0 (F := F) d L fs fi hidx _ (fun y => read_writes_whole _ _ _ y))); iexact Ho0
    isplitl [Ho1]
    · iapply (Entails.of_eq (out_gen1 (F := F) d L fs fi hidx _ (fun y => read_writes_whole _ _ _ y))); iexact Ho1
    isplitl [Ho2]
    · iapply (Entails.of_eq (out_gen2 (F := F) d L fs fi hidx _ (fun y => read_writes_whole _ _ _ y))); iexact Ho2
    · iapply (Entails.of_eq (out_gen3 (F := F) d L fs fi hidx _ (fun y => read_writes_whole _ _ _ y))); iexact Ho3
  isplitl [Hs0 Hs1 Hs2 Hbufs]
  · isplitl [Hs0 Hs1 Hs2]
    · isplitl [Hs0]
      · iexists _; iexact Hs0
      isplitl [Hs1]
      · iexists _; iexact Hs1
      · iexists _; iexact Hs2
    · iexact Hbufs
  isplitl [Hm0 Hm1 Hm2 Hm3 Hm4 Hm5 Hm6 Hm7 Hm8 Hsems]
  · isplitl [Hm0 Hm1 Hm2 Hm3 Hm4 Hm5 Hm6 Hm7 Hm8]
    · isplitl [Hm0]
      · iexact Hm0
      isplitl [Hm1]
      · iexact Hm1
      isplitl [Hm2]
      · iexact Hm2
      isplitl [Hm3]
      · iexact Hm3
      isplitl [Hm4]
      · iexact Hm4
      isplitl [Hm5]
      · iexact Hm5
      isplitl [Hm6]
      · iexact Hm6
      isplitl [Hm7]
      · iexact Hm7
      · iexact Hm8
    · iexact Hsems
  iexists _
  isplitr
  rotate_left
  · iexact HO
  · ipureintro
    intro p hp
    simp only [Finset.mem_insert] at hp
    rcases hp with rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inl hp

end Tile

end Cert.Proof.KB

end
-- ==== Proof.KBTile4Val.lean ====
/-
  One tile of the third SparseCore call: what the gathers and the running maxima of one trip compute, and how the
  output scratch fills, a block of four rows of sixteen columns a trip.
-/
import proofs.«209975_g17849884082380_cont_8to1_1483_11_alg».proof.Proof.KBTile4Defs
import Idealize.ShloMosaic.Lib.Writes
import Idealize.ShloMosaic.Lib.ValueLayout

noncomputable section

namespace Cert.Proof.KB.T4

open Cert.Proof.KB

open Cert.Kernel Cert.Kernel.Gen

open Idealize.ShloMosaic
open Idealize.ShloMosaic.ValueIdx

variable {F : FTy → Type}

/-- The index vector of a gather: a neighbour vector plus the offset of row `4 g + j` in the slab. -/
@[reducible] def idxOff (v : IVec S16 32) (g j : BitVec 32) : IVec S16 32 :=
  addi v (broadcast S16 (Scalar.muli (Scalar.addi (Scalar.muli g 4#32) j) 4096#32))

theorem chk_idxOff {v : IVec S16 32} {g j : BitVec 32} (hv : ∀ x, (v x).toNat < 4096) (hg : g.toNat < 4) (hj : j.toNat < 4) :
    ∀ a x, ((![idxOff v g j] : Fin 1 → IVec S16 32) a x).toNat < S65536.size a := by
  intro a x
  obtain rfl : a = 0 := Subsingleton.elim _ _
  have h := hv x
  show (v x + (g * 4#32 + j) * 4096#32).toNat < 65536
  bv_omega

/-- The slab's index of row `r` at the neighbour word `w` (reduced into the cloud). -/
def slabIx (r : Fin 16) (w : BitVec 32) : S65536.Idx :=
  ix1 ⟨r.val * 4096 + w.toNat % 4096, by have := r.isLt; have := Nat.mod_lt w.toNat (show 0 < 4096 by norm_num); omega⟩

theorem idxAt_idxOff {v : IVec S16 32} {g j : BitVec 32} (hv : ∀ x, (v x).toNat < 4096) (hg : g.toNat < 4) (hj : j.toNat < 4)
    (r : Fin 16) (hr : r.val = 4 * g.toNat + j.toNat)
    (h : ∀ a x, ((![idxOff v g j] : Fin 1 → IVec S16 32) a x).toNat < S65536.size a) (x : S16.Idx) :
    idxAt ![idxOff v g j] h x = slabIx r (v x) := by
  funext a
  obtain rfl : a = 0 := Subsingleton.elim _ _
  apply Fin.ext
  have h1 := hv x
  show (v x + (g * 4#32 + j) * 4096#32).toNat = r.val * 4096 + (v x).toNat % 4096
  rw [hr]
  bv_omega

variable [FloatOps F]

/-- A trip's running maximum for row `4 g + j`, as the program folds it: from `v30`, over the 20 neighbour vectors in order, the
    maximum with the slab gathered at the neighbour vector offset to the row. -/
def accP (v30 : FVec F S16 .f32) (fsl : Vec F S65536 .f32) (u : Fin 20 → IVec S16 32) (g j : BitVec 32)
    (h : ∀ k a x, ((![idxOff (u k) g j] : Fin 1 → IVec S16 32) a x).toNat < S65536.size a) : FVec F S16 .f32 :=
  maximumf (maximumf (maximumf (maximumf (maximumf (maximumf (maximumf (maximumf (maximumf (maximumf (maximumf (maximumf (maximumf (maximumf (maximumf (maximumf (maximumf (maximumf (maximumf (maximumf (v30) (loadIdx fsl ![idxOff (u 0) g j] (h 0))) (loadIdx fsl ![idxOff (u 1) g j] (h 1))) (loadIdx fsl ![idxOff (u 2) g j] (h 2))) (loadIdx fsl ![idxOff (u 3) g j] (h 3))) (loadIdx fsl ![idxOff (u 4) g j] (h 4))) (loadIdx fsl ![idxOff (u 5) g j] (h 5))) (loadIdx fsl ![idxOff (u 6) g j] (h 6))) (loadIdx fsl ![idxOff (u 7) g j] (h 7))) (loadIdx fsl ![idxOff (u 8) g j] (h 8))) (loadIdx fsl ![idxOff (u 9) g j] (h 9))) (loadIdx fsl ![idxOff (u 10) g j] (h 10))) (loadIdx fsl ![idxOff (u 11) g j] (h 11))) (loadIdx fsl ![idxOff (u 12) g j] (h 12))) (loadIdx fsl ![idxOff (u 13) g j] (h 13))) (loadIdx fsl ![idxOff (u 14) g j] (h 14))) (loadIdx fsl ![idxOff (u 15) g j] (h 15))) (loadIdx fsl ![idxOff (u 16) g j] (h 16))) (loadIdx fsl ![idxOff (u 17) g j] (h 17))) (loadIdx fsl ![idxOff (u 18) g j] (h 18))) (loadIdx fsl ![idxOff (u 19) g j] (h 19))

/-- The array the output scratch is filled with: entry `(r, c)` is the maximum, folded from `neg` over the 20 neighbour rows of the
    index scratch in order, of the slab's row `r` at the neighbour column `c` names. -/
def Gout (neg : F .f32) (fsl : Vec F S65536 .f32) (fix : IVec S20x1024 32) (y : S16x1024.Idx) : F .f32 :=
  (List.finRange 20).foldl (fun (acc : F .f32) (k : Fin 20) => FloatOps.maximumf acc (fsl (slabIx (y 0) (fix (ix2 k (y 1)))))) neg

theorem accP_apply (v30 : FVec F S16 .f32) (fsl : Vec F S65536 .f32) (u : Fin 20 → IVec S16 32) (g j : BitVec 32)
    (h : ∀ k a x, ((![idxOff (u k) g j] : Fin 1 → IVec S16 32) a x).toNat < S65536.size a) (x : S16.Idx) :
    accP v30 fsl u g j h x
      = (List.finRange 20).foldl (fun (acc : F .f32) (k : Fin 20) => FloatOps.maximumf acc (fsl (idxAt ![idxOff (u k) g j] (h k) x))) (v30 x) := by
  rfl

/-! ## How the output scratch fills -/

local notation "outbW" => (Memref.whole Cert.Kernel.cc4_scratch2 : Memref Cert.Kernel.sig Kind.scVector Space.vmem Cert.Kernel.S16x1024 EltTy.f32)

/-- The output scratch is right in its first `16 i` columns. -/
def Done1 (G : S16x1024.Idx → F .f32) (i : Nat) (f2 : S16x1024.Idx → F .f32) : Prop :=
  ∀ y : S16x1024.Idx, (y 1).val < 16 * i → f2 y = G y

/-- The output scratch is right in its first `16 i` columns and, in the next 16, in its first `4 g` rows. -/
def Done2 (G : S16x1024.Idx → F .f32) (i g : Nat) (f2 : S16x1024.Idx → F .f32) : Prop :=
  ∀ y : S16x1024.Idx, ((y 1).val < 16 * i ∨ ((y 1).val < 16 * i + 16 ∧ (y 0).val < 4 * g)) → f2 y = G y

omit [FloatOps F] in
theorem done2_of_done1 {G : S16x1024.Idx → F .f32} {i : Nat} {f2 : S16x1024.Idx → F .f32} (h : Done1 G i f2) : Done2 G i 0 f2 :=
  fun y hy => h y (by rcases hy with h | ⟨_, h⟩; exact h; omega)

omit [FloatOps F] in
theorem done1_of_done2 {G : S16x1024.Idx → F .f32} {i : Nat} {f2 : S16x1024.Idx → F .f32} (h : Done2 G i 4 f2) : Done1 G (i + 1) f2 :=
  fun y hy => h y (by
    have h0 : (y 0).val < 16 := (y 0).isLt
    by_cases hc : (y 1).val < 16 * i
    · exact Or.inl hc
    · exact Or.inr ⟨by omega, by omega⟩)

omit [FloatOps F] in
theorem done1_all {G : S16x1024.Idx → F .f32} {f2 : S16x1024.Idx → F .f32} (h : Done1 G 64 f2) : f2 = G :=
  funext fun y => h y (by have h1 : (y 1).val < 1024 := (y 1).isLt; omega)

omit [FloatOps F] in
/-- A trip's four stores, each a row of sixteen columns at the function `G`, extend what is right by the trip's block. -/
theorem done2_step (G : S16x1024.Idx → F .f32) (i g : Nat)
    (f2 : (outbW).view.ty.Contents (Elt F)) (hD : Done2 G i g f2)
    (o0 o1 o2 o3 : Fin 2 → Nat) (h0 : o0 = ![4 * g + 0, 16 * i]) (h1 : o1 = ![4 * g + 1, 16 * i])
    (h2 : o2 = ![4 * g + 2, 16 * i]) (h3 : o3 = ![4 * g + 3, 16 * i])
    (b0 : ∀ a, o0 a + S1x16.size a ≤ S16x1024.size a) (b1 : ∀ a, o1 a + S1x16.size a ≤ S16x1024.size a)
    (b2 : ∀ a, o2 a + S1x16.size a ≤ S16x1024.size a) (b3 : ∀ a, o3 a + S1x16.size a ≤ S16x1024.size a)
    (P0 P1 P2 P3 : S1x16.Idx → Elt F .f32)
    (hP0 : ∀ x, P0 x = G ((Rect.unit (s := S16x1024) o0 S1x16.size b0).emb x))
    (hP1 : ∀ x, P1 x = G ((Rect.unit (s := S16x1024) o1 S1x16.size b1).emb x))
    (hP2 : ∀ x, P2 x = G ((Rect.unit (s := S16x1024) o2 S1x16.size b2).emb x))
    (hP3 : ∀ x, P3 x = G ((Rect.unit (s := S16x1024) o3 S1x16.size b3).emb x)) :
    Done2 G i (g + 1) ((outbW).view.writes (Elt F) f2
      [⟨Rect.unit (s := S16x1024) o3 S1x16.size b3, P3⟩, ⟨Rect.unit (s := S16x1024) o2 S1x16.size b2, P2⟩,
        ⟨Rect.unit (s := S16x1024) o1 S1x16.size b1, P1⟩, ⟨Rect.unit (s := S16x1024) o0 S1x16.size b0, P0⟩]) := by
  subst h0 h1 h2 h3
  intro y hy
  have hrd : ∀ f : (outbW).view.ty.Contents (Elt F), (outbW).view.read (Elt F) f y = f y := fun f => rfl
  refine (hrd _).symm.trans ?_
  by_cases hm : ∃ p ∈ ([⟨Rect.unit (s := S16x1024) ![4 * g + 3, 16 * i] S1x16.size b3, P3⟩, ⟨Rect.unit (s := S16x1024) ![4 * g + 2, 16 * i] S1x16.size b2, P2⟩,
        ⟨Rect.unit (s := S16x1024) ![4 * g + 1, 16 * i] S1x16.size b1, P1⟩, ⟨Rect.unit (s := S16x1024) ![4 * g + 0, 16 * i] S1x16.size b0, P0⟩] : List (View.Piece (Elt F) S16x1024 .f32)), y ∈ p.1.set
  · refine View.read_writes_apply_of_pieces _ _ G _ ?_ y hm
    intro p hp x
    simp only [List.mem_cons, List.mem_singleton, List.not_mem_nil, or_false] at hp
    rcases hp with rfl | rfl | rfl | rfl
    · exact hP3 x
    · exact hP2 x
    · exact hP1 x
    · exact hP0 x
  · rw [View.read_writes_apply_of_forall_not_mem _ _ y _ (fun p hp hy' => hm ⟨p, hp, hy'⟩), hrd]
    apply hD
    rcases hy with h | ⟨hc, hr⟩
    · exact Or.inl h
    · by_cases hc' : (y 1).val < 16 * i
      · exact Or.inl hc'
      · refine Or.inr ⟨hc, ?_⟩
        by_contra hr'
        apply hm
        have hmem : ∀ (r : Nat) (b : ∀ a, (![4 * g + r, 16 * i] : Fin 2 → Nat) a + S1x16.size a ≤ S16x1024.size a), (y 0).val = 4 * g + r →
            y ∈ (Rect.unit (s := S16x1024) ![4 * g + r, 16 * i] S1x16.size b).set := by
          intro r b e
          refine Rect.mem_set_unit.mpr (Fin.forall_fin_two.mpr ⟨⟨?_, ?_⟩, ⟨?_, ?_⟩⟩)
          · show 4 * g + r ≤ (y 0).val; omega
          · show (y 0).val < 4 * g + r + 1; omega
          · show 16 * i ≤ (y 1).val; omega
          · show (y 1).val < 16 * i + 16; omega
        have hcase : (y 0).val = 4 * g + 0 ∨ (y 0).val = 4 * g + 1 ∨ (y 0).val = 4 * g + 2 ∨ (y 0).val = 4 * g + 3 := by omega
        rcases hcase with e | e | e | e
        · exact ⟨⟨Rect.unit (s := S16x1024) ![4 * g + 0, 16 * i] S1x16.size b0, P0⟩, List.mem_cons_of_mem _ (List.mem_cons_of_mem _ (List.mem_cons_of_mem _ List.mem_cons_self)), hmem 0 b0 e⟩
        · exact ⟨⟨Rect.unit (s := S16x1024) ![4 * g + 1, 16 * i] S1x16.size b1, P1⟩, List.mem_cons_of_mem _ (List.mem_cons_of_mem _ List.mem_cons_self), hmem 1 b1 e⟩
        · exact ⟨⟨Rect.unit (s := S16x1024) ![4 * g + 2, 16 * i] S1x16.size b2, P2⟩, List.mem_cons_of_mem _ List.mem_cons_self, hmem 2 b2 e⟩
        · exact ⟨⟨Rect.unit (s := S16x1024) ![4 * g + 3, 16 * i] S1x16.size b3, P3⟩, List.mem_cons_self, hmem 3 b3 e⟩

/-! ## A trip's four stores -/

/-- The four stores of a trip, the last first: row `4 g + j` of the trip's block at its running maximum. -/
def tripPieces (v30 : FVec F S16 .f32) (fslR : Vec F S65536 .f32) (U : Fin 20 → IVec S16 32) (hU : ∀ k x, (U k x).toNat < 4096)
    (o : BitVec 32 → Fin 2 → Nat) (ob : ∀ r : Fin 4, ∀ a, o (BitVec.ofNat 32 r.val) a + S1x16.size a ≤ S16x1024.size a)
    (g : BitVec 32) (hg : g.toNat < 4) : List (View.Piece (Elt F) S16x1024 .f32) :=
  [⟨Rect.unit (s := S16x1024) (o 3#32) S1x16.size (ob 3), shapeCast S1x16 (accP v30 fslR U g 3#32 fun k => chk_idxOff (hU k) hg (by decide)) shapeCasts_S16_S1x16⟩,
    ⟨Rect.unit (s := S16x1024) (o 2#32) S1x16.size (ob 2), shapeCast S1x16 (accP v30 fslR U g 2#32 fun k => chk_idxOff (hU k) hg (by decide)) shapeCasts_S16_S1x16⟩,
    ⟨Rect.unit (s := S16x1024) (o 1#32) S1x16.size (ob 1), shapeCast S1x16 (accP v30 fslR U g 1#32 fun k => chk_idxOff (hU k) hg (by decide)) shapeCasts_S16_S1x16⟩,
    ⟨Rect.unit (s := S16x1024) (o 0#32) S1x16.size (ob 0), shapeCast S1x16 (accP v30 fslR U g 0#32 fun k => chk_idxOff (hU k) hg (by decide)) shapeCasts_S16_S1x16⟩]

/-- A trip's running maximum for row `4 g + j`, stored as a row of the block, is the array `Gout` there. -/
theorem pay_eq (neg : F .f32) (fsl : Vec F S65536 .f32) (fix : IVec S20x1024 32) (hfix : ∀ y, (fix y).toNat < 4096) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (g : BitVec 32) (hg : g.toNat < 4) (hgv : g.toNat = gN) (jb : BitVec 32) (hj : jb.toNat < 4)
    (ofs : Fin 2 → Nat) (hofs : ofs = ![4 * gN + jb.toNat, 16 * i]) (b : ∀ a, ofs a + S1x16.size a ≤ S16x1024.size a) (x : S1x16.Idx) :
    shapeCast S1x16 (accP v30 fslR U g jb fun k => chk_idxOff (hU k) hg hj) shapeCasts_S16_S1x16 x
      = Gout neg fsl fix ((Rect.unit (s := S16x1024) ofs S1x16.size b).emb x) := by
  subst hofs
  obtain ⟨u, l, rfl⟩ : ∃ (u : Fin 1) (l : Fin 16), x = ix2 u l := ⟨x 0, x 1, eq_ix2 x⟩
  rw [shapeCast_a_1a_apply, accP_apply, hv30]
  unfold Gout
  have hx0 : u.val = 0 := by omega
  have e0 : ((Rect.unit (s := S16x1024) ![4 * gN + jb.toNat, 16 * i] S1x16.size b).emb (ix2 u l)) 0 = (⟨4 * gN + jb.toNat, by omega⟩ : Fin 16) :=
    Fin.ext (by rw [Rect.emb_apply]; show 4 * gN + jb.toNat + 1 * u.val = 4 * gN + jb.toNat; omega)
  have e1 : ((Rect.unit (s := S16x1024) ![4 * gN + jb.toNat, 16 * i] S1x16.size b).emb (ix2 u l)) 1 = (⟨16 * i + l.val, by omega⟩ : Fin 1024) :=
    Fin.ext (by rw [Rect.emb_apply]; show 16 * i + 1 * l.val = 16 * i + l.val; omega)
  refine List.foldl_ext _ _ _ fun acc k _ => ?_
  rw [idxAt_idxOff (hU k) hg hj ⟨4 * gN + jb.toNat, by omega⟩ (by show 4 * gN + jb.toNat = 4 * g.toNat + jb.toNat; omega), hR, hUfix, e0, e1]

/-- A trip's four stores extend what is right in the output scratch by the trip's block. -/
theorem tripPieces_done (neg : F .f32) (fsl : Vec F S65536 .f32) (fix : IVec S20x1024 32) (hfix : ∀ y, (fix y).toNat < 4096) (i gN : Nat) (hi : i < 64)
    (v30 : FVec F S16 .f32) (hv30 : ∀ x, v30 x = neg) (fslR : Vec F S65536 .f32) (hR : ∀ p, fslR p = fsl p)
    (U : Fin 20 → IVec S16 32) (hU : ∀ k x, (U k x).toNat < 4096)
    (hUfix : ∀ (k : Fin 20) (x : S16.Idx), U k x = fix (ix2 k ⟨16 * i + (x 0).val, by have := (x 0).isLt; show 16 * i + (x 0).val < 1024; have h16 : (x 0).val < 16 := (x 0).isLt; omega⟩))
    (o : BitVec 32 → Fin 2 → Nat) (ob : ∀ r : Fin 4, ∀ a, o (BitVec.ofNat 32 r.val) a + S1x16.size a ≤ S16x1024.size a)
    (ho : ∀ r : Fin 4, o (BitVec.ofNat 32 r.val) = ![4 * gN + r.val, 16 * i])
    (g : BitVec 32) (hg : g.toNat < 4) (hgv : g.toNat = gN)
    (f2 : (outbW).view.ty.Contents (Elt F)) (hD : Done2 (Gout neg fsl fix) i gN f2) :
    Done2 (Gout neg fsl fix) i (gN + 1) ((outbW).view.writes (Elt F) f2 (tripPieces v30 fslR U hU o ob g hg)) := by
  unfold tripPieces
  exact done2_step (Gout neg fsl fix) i gN f2 hD (o 0#32) (o 1#32) (o 2#32) (o 3#32) (ho 0) (ho 1) (ho 2) (ho 3) (ob 0) (ob 1) (ob 2) (ob 3) _ _ _ _
    (pay_eq neg fsl fix hfix i gN hi v30 hv30 fslR hR U hU hUfix g hg hgv 0#32 (by decide) _ (ho 0) (ob 0))
    (pay_eq neg fsl fix hfix i gN hi v30 hv30 fslR hR U hU hUfix g hg hgv 1#32 (by decide) _ (ho 1) (ob 1))
    (pay_eq neg fsl fix hfix i gN hi v30 hv30 fslR hR U hU hUfix g hg hgv 2#32 (by decide) _ (ho 2) (ob 2))
    (pay_eq neg fsl fix hfix i gN hi v30 hv30 fslR hR U hU hUfix g hg hgv 3#32 (by decide) _ (ho 3) (ob 3))

end Cert.Proof.KB.T4

end
-- ==== Proof.KBTile4Inv.lean ====
/-
  One tile of the third SparseCore call (the plain gather-and-max): its body's weakest precondition at a symbolic tile,
  from the resources the call deals it to the same back with its four output pieces at the pooled array.
-/
import proofs.«209975_g17849884082380_cont_8to1_1483_11_alg».proof.Proof.KBTile4Defs
import proofs.«209975_g17849884082380_cont_8to1_1483_11_alg».proof.Proof.KBTile4Val
import Idealize.ShloMosaic.Lib.Writes
import Idealize.ShloMosaic.Lib.ValueLayout

noncomputable section

namespace Cert.Proof.KB.T4

open Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v10_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v11_scv : Memref Cert.Kernel.sig Kind.scVector Space.hbm Cert.Kernel.S8x64x4096 EltTy.f32)
local notation "slabW" => (Memref.whole Cert.Kernel.cc4_scratch0 : Memref Cert.Kernel.sig Kind.scVector Space.vmem Cert.Kernel.S65536 EltTy.f32)
local notation "idxbW" => (Memref.whole Cert.Kernel.cc4_scratch1 : Memref Cert.Kernel.sig Kind.scVector Space.vmem Cert.Kernel.S20x1024 EltTy.i32)
local notation "outbW" => (Memref.whole Cert.Kernel.cc4_scratch2 : Memref Cert.Kernel.sig Kind.scVector Space.vmem Cert.Kernel.S16x1024 EltTy.f32)

section Tile

variable (d : Dev nD) (L : grid4.Coords)

/-- The indexed load at the head of a program is the plain load of the whole base, gathered. -/
theorem vli_bind {Λ : Labels} {p : Proc τ} {s t : Shape} {e : EltTy} {α : Type} [FloatOps F] (base : Memref sig p.kind .vmem s e) (idxs : Fin s.rank → IVec t 32)
    (h : ∀ a x, (idxs a x).toNat < s.size a) (hl : base.view.Loads) (k : Vec F t e → Prog (TpuEff nD τ sig (Elt F) Λ p) α) :
    SparseCore.vectorLoadIdx base idxs h hl >>= k = .op (.load base (.whole s) (View.loadsAt_whole hl)) fun f => k (loadIdx f idxs h) := rfl

/-- What a gather reads of the slab's contents. -/
abbrev slabRd (fsl : Buf (Elt F) ((V d (cV L) (jV L)).loc cc4_scratch0)) : Vec F S65536 .f32 :=
  (slabW).view.readAt (Elt F) (LoadRect.whole S65536) fsl

theorem slabRd_apply (fsl : Buf (Elt F) ((V d (cV L) (jV L)).loc cc4_scratch0)) (p : S65536.Idx) : slabRd d L fsl p = fsl p := by
  show fsl ((LoadRect.whole S65536).idx p) = fsl p
  congr 1
  funext a
  exact Fin.ext (by show 0 + 1 * (p a).val = (p a).val; omega)

theorem iv4_lt (t : Nat) (h : t < 4) : (Scf.iv 0#32 1#32 t).toNat < 4 := by
  unfold Scf.iv
  bv_omega

theorem iv4_val (t : Nat) (h : t < 4) : (Scf.iv 0#32 1#32 t).toNat = t := by
  unfold Scf.iv
  bv_omega

/-- A neighbour vector loaded from the index scratch: row `k`'s 16 columns from column `16 i`. -/
theorem idxvec_eq (fix : Buf (Elt F) ((V d (cV L) (jV L)).loc cc4_scratch1)) (off : Fin 2 → Nat) (k : Fin 20) (i : Nat) (hi : i < 64) (hoff : off = ![k.val, 16 * i])
    (b : ∀ a, off a + S1x16.size a ≤ S20x1024.size a) (x : S16.Idx) :
    shapeCast S16 ((idxbW).view.readAt (Elt F) (Rect.unit (s := S20x1024) off S1x16.size b).toLoadRect fix) shapeCasts_S1x16_S16 x
      = fix (ix2 k ⟨16 * i + (x 0).val, by have h16 : (x 0).val < 16 := (x 0).isLt; show 16 * i + (x 0).val < 1024; omega⟩) := by
  subst hoff
  obtain ⟨l, rfl⟩ : ∃ l : Fin 16, x = ix1 l := ⟨x 0, eq_ix1 x⟩
  rw [shapeCast_1a_a_apply, View.readAt_apply]
  have hix : (Rect.unit (s := S20x1024) ![k.val, 16 * i] S1x16.size b).toLoadRect.idx (ix2 (0 : Fin 1) l)
      = ix2 k ⟨16 * i + l.val, by have := l.isLt; omega⟩ := by
    funext a
    match a with
    | ⟨0, _⟩ => exact Fin.ext (by show k.val + 1 * 0 = k.val; omega)
    | ⟨1, _⟩ => exact Fin.ext (by show 16 * i + 1 * l.val = 16 * i + l.val; omega)
  rw [hix]
  rfl

/-- A load of sixteen columns of a row of the index scratch. -/
abbrev ldv (fix : Buf (Elt F) ((V d (cV L) (jV L)).loc cc4_scratch1)) (off : Fin 2 → Nat) (b : ∀ a, off a + S1x16.size a ≤ S20x1024.size a) : Vec F S1x16 .i32 :=
  (idxbW).view.readAt (Elt F) (Rect.unit (s := S20x1024) off S1x16.size b).toLoadRect fix

variable [FloatOps F]

/-- Minus infinity, as the program writes it. -/
abbrev negInf : F .f32 := Scalar.ofBits .f32 0xFF800000#32

/-- The inner loop's invariant in block `i`: the slab, and the output scratch right in its first `16 i` columns and in
    the first `4 g` rows of the next 16. -/
def inv2 (fsl : Buf (Elt F) ((V d (cV L) (jV L)).loc cc4_scratch0)) (G : S16x1024.Idx → F .f32) (i : Nat) (g : Nat) (_ : Unit) : sProp 𝕄 :=
  iprop(((slabW).view.loc (V d (cV L) (jV L)) ↦{fullShare} fsl)
    ∗ ∃ f2, ((outbW).view.loc (V d (cV L) (jV L)) ↦{fullShare} f2) ∗ ⌜Done2 G i g f2⌝)

/-- The outer loop's invariant: the slab, the index scratch, and the output scratch right in its first `16 i` columns. -/
def inv1 (fsl : Buf (Elt F) ((V d (cV L) (jV L)).loc cc4_scratch0)) (fix : Buf (Elt F) ((V d (cV L) (jV L)).loc cc4_scratch1))
    (G : S16x1024.Idx → F .f32) (i : Nat) (_ : Unit) : sProp 𝕄 :=
  iprop(((slabW).view.loc (V d (cV L) (jV L)) ↦{fullShare} fsl) ∗ ((idxbW).view.loc (V d (cV L) (jV L)) ↦{fullShare} fix)
    ∗ ∃ f2, ((outbW).view.loc (V d (cV L) (jV L)) ↦{fullShare} f2) ∗ ⌜Done1 G i f2⌝)

end Tile

end Cert.Proof.KB.T4

end
-- ==== Proof.KBTile4C0.lean ====
/-
  One tile of the third SparseCore call, chunk 0 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KBTile4Inv

noncomputable section

namespace Cert.Proof.KB.T4

open Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v10_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v11_scv : Memref Cert.Kernel.sig Kind.scVector Space.hbm Cert.Kernel.S8x64x4096 EltTy.f32)
local notation "slabW" => (Memref.whole Cert.Kernel.cc4_scratch0 : Memref Cert.Kernel.sig Kind.scVector Space.vmem Cert.Kernel.S65536 EltTy.f32)
local notation "idxbW" => (Memref.whole Cert.Kernel.cc4_scratch1 : Memref Cert.Kernel.sig Kind.scVector Space.vmem Cert.Kernel.S20x1024 EltTy.i32)
local notation "outbW" => (Memref.whole Cert.Kernel.cc4_scratch2 : Memref Cert.Kernel.sig Kind.scVector Space.vmem Cert.Kernel.S16x1024 EltTy.f32)

section Tile

variable (d : Dev nD) (L : grid4.Coords)

variable [FloatOps F]

/-- The 20 neighbour vectors of a trip of this chunk, in order. -/
abbrev U0 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k4_pay615 v75_ld, k4_pay616 v78_ld, k4_pay617 v81_ld, k4_pay618 v84_ld, k4_pay619 v87_ld, k4_pay620 v90_ld, k4_pay621 v93_ld, k4_pay622 v96_ld, k4_pay623 v99_ld]

attribute [local sl_canon] vli_bind in
set_option maxHeartbeats 8000000 in
/-- A trip of the inner loop: from the slab and the output scratch, the same with the trip's four rows stored. -/
theorem inner_trip0 (q : PosShare TreeShare) (fsl : Buf (Elt F) ((V d (cV L) (jV L)).loc cc4_scratch0)) (f2 : Buf (Elt F) ((V d (cV L) (jV L)).loc cc4_scratch2))
    (v28 : BitVec 32) (v30 : FVec F S16 .f32) (k4_t1 : Fin k4_t1_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U0 (F := F) v42 v45 v48 v51 v54 v57 v60 v63 v66 v69 v72 v75_ld v78_ld v81_ld v84_ld v87_ld v90_ld v93_ld v96_ld v99_ld) k x).toNat < 4096)
    (k4_t2 : Fin k4_t2_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k4_t2_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 v30 k4_t1 v39 v42 v45 v48 v51 v54 v57 v60 v63 v66 v69 v72 v75_ld v78_ld v81_ld v84_ld v87_ld v90_ld v93_ld v96_ld v99_ld k4_t2 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U0 v42 v45 v48 v51 v54 v57 v60 v63 v66 v69 v72 v75_ld v78_ld v81_ld v84_ld v87_ld v90_ld v93_ld v96_ld v99_ld) hU (k4_off23 k4_t1 k4_t2) (k4_off23_inb k4_t1 k4_t2)
              (Scf.iv 0#32 1#32 k4_t2.val) (iv4_lt k4_t2.val k4_t2.isLt)))) := by
  have hg : (Scf.iv 0#32 1#32 k4_t2.val).toNat < 4 := iv4_lt k4_t2.val k4_t2.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k4_pay615 v75_ld x).toNat < 4096 := hU 11
  have h78 : ∀ x, (k4_pay616 v78_ld x).toNat < 4096 := hU 12
  have h81 : ∀ x, (k4_pay617 v81_ld x).toNat < 4096 := hU 13
  have h84 : ∀ x, (k4_pay618 v84_ld x).toNat < 4096 := hU 14
  have h87 : ∀ x, (k4_pay619 v87_ld x).toNat < 4096 := hU 15
  have h90 : ∀ x, (k4_pay620 v90_ld x).toNat < 4096 := hU 16
  have h93 : ∀ x, (k4_pay621 v93_ld x).toNat < 4096 := hU 17
  have h96 : ∀ x, (k4_pay622 v96_ld x).toNat < 4096 := hU 18
  have h99 : ∀ x, (k4_pay623 v99_ld x).toNat < 4096 := hU 19
  unfold k4_t2_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U0_loaded (fix : Buf (Elt F) ((V d (cV L) (jV L)).loc cc4_scratch1)) (t1 : Fin k4_t1_loop.trips) (k : Fin 20) (x : S16.Idx) :
    U0 (F := F) (k4_pay150 (ldv d L fix (k4_off3 t1) (k4_off3_inb t1))) (k4_pay151 (ldv d L fix (k4_off4 t1) (k4_off4_inb t1))) (k4_pay152 (ldv d L fix (k4_off5 t1) (k4_off5_inb t1))) (k4_pay153 (ldv d L fix (k4_off6 t1) (k4_off6_inb t1))) (k4_pay154 (ldv d L fix (k4_off7 t1) (k4_off7_inb t1))) (k4_pay155 (ldv d L fix (k4_off8 t1) (k4_off8_inb t1))) (k4_pay156 (ldv d L fix (k4_off9 t1) (k4_off9_inb t1))) (k4_pay157 (ldv d L fix (k4_off10 t1) (k4_off10_inb t1))) (k4_pay158 (ldv d L fix (k4_off11 t1) (k4_off11_inb t1))) (k4_pay159 (ldv d L fix (k4_off12 t1) (k4_off12_inb t1))) (k4_pay160 (ldv d L fix (k4_off13 t1) (k4_off13_inb t1))) (ldv d L fix (k4_off14 t1) (k4_off14_inb t1)) (ldv d L fix (k4_off15 t1) (k4_off15_inb t1)) (ldv d L fix (k4_off16 t1) (k4_off16_inb t1)) (ldv d L fix (k4_off17 t1) (k4_off17_inb t1)) (ldv d L fix (k4_off18 t1) (k4_off18_inb t1)) (ldv d L fix (k4_off19 t1) (k4_off19_inb t1)) (ldv d L fix (k4_off20 t1) (k4_off20_inb t1)) (ldv d L fix (k4_off21 t1) (k4_off21_inb t1)) (ldv d L fix (k4_off22 t1) (k4_off22_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k4_off3_eq t1) _ x
  | ⟨1, _⟩ => exact idxvec_eq d L fix _ ⟨1, by omega⟩ t1.val ht (k4_off4_eq t1) _ x
  | ⟨2, _⟩ => exact idxvec_eq d L fix _ ⟨2, by omega⟩ t1.val ht (k4_off5_eq t1) _ x
  | ⟨3, _⟩ => exact idxvec_eq d L fix _ ⟨3, by omega⟩ t1.val ht (k4_off6_eq t1) _ x
  | ⟨4, _⟩ => exact idxvec_eq d L fix _ ⟨4, by omega⟩ t1.val ht (k4_off7_eq t1) _ x
  | ⟨5, _⟩ => exact idxvec_eq d L fix _ ⟨5, by omega⟩ t1.val ht (k4_off8_eq t1) _ x
  | ⟨6, _⟩ => exact idxvec_eq d L fix _ ⟨6, by omega⟩ t1.val ht (k4_off9_eq t1) _ x
  | ⟨7, _⟩ => exact idxvec_eq d L fix _ ⟨7, by omega⟩ t1.val ht (k4_off10_eq t1) _ x
  | ⟨8, _⟩ => exact idxvec_eq d L fix _ ⟨8, by omega⟩ t1.val ht (k4_off11_eq t1) _ x
  | ⟨9, _⟩ => exact idxvec_eq d L fix _ ⟨9, by omega⟩ t1.val ht (k4_off12_eq t1) _ x
  | ⟨10, _⟩ => exact idxvec_eq d L fix _ ⟨10, by omega⟩ t1.val ht (k4_off13_eq t1) _ x
  | ⟨11, _⟩ => exact idxvec_eq d L fix _ ⟨11, by omega⟩ t1.val ht (k4_off14_eq t1) _ x
  | ⟨12, _⟩ => exact idxvec_eq d L fix _ ⟨12, by omega⟩ t1.val ht (k4_off15_eq t1) _ x
  | ⟨13, _⟩ => exact idxvec_eq d L fix _ ⟨13, by omega⟩ t1.val ht (k4_off16_eq t1) _ x
  | ⟨14, _⟩ => exact idxvec_eq d L fix _ ⟨14, by omega⟩ t1.val ht (k4_off17_eq t1) _ x
  | ⟨15, _⟩ => exact idxvec_eq d L fix _ ⟨15, by omega⟩ t1.val ht (k4_off18_eq t1) _ x
  | ⟨16, _⟩ => exact idxvec_eq d L fix _ ⟨16, by omega⟩ t1.val ht (k4_off19_eq t1) _ x
  | ⟨17, _⟩ => exact idxvec_eq d L fix _ ⟨17, by omega⟩ t1.val ht (k4_off20_eq t1) _ x
  | ⟨18, _⟩ => exact idxvec_eq d L fix _ ⟨18, by omega⟩ t1.val ht (k4_off21_eq t1) _ x
  | ⟨19, _⟩ => exact idxvec_eq d L fix _ ⟨19, by omega⟩ t1.val ht (k4_off22_eq t1) _ x
  | ⟨n + 20, h⟩ => exact absurd h (by omega)

set_option maxHeartbeats 4000000 in
/-- A trip of the outer loop: the block's 20 neighbour vectors loaded, then the inner loop's four trips fill the block. -/
theorem outer_trip0 (fsl : Buf (Elt F) ((V d (cV L) (jV L)).loc cc4_scratch0)) (fix : Buf (Elt F) ((V d (cV L) (jV L)).loc cc4_scratch1))
    (hfix : ∀ y, (fix y).toNat < 4096) (v28 : BitVec 32) (t1 : Fin k4_t1_loop.trips) (acc : Unit) :
    inv1 d L fsl fix (Gout negInf fsl fix) t1.val acc
      ⊢ wp frame (wpE (defs₀ (F := F)) 𝒱₀ (V d (cV L) (jV L)) none) Set.univ
          (k4_t1_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 k4_pay614 t1 acc)
          (inv1 d L fsl fix (Gout negInf fsl fix) (t1.val + 1)) := by
  have ht : t1.val < 64 := t1.isLt
  have hU : ∀ k x, ((U0 (F := F) (k4_pay150 (ldv d L fix (k4_off3 t1) (k4_off3_inb t1))) (k4_pay151 (ldv d L fix (k4_off4 t1) (k4_off4_inb t1))) (k4_pay152 (ldv d L fix (k4_off5 t1) (k4_off5_inb t1))) (k4_pay153 (ldv d L fix (k4_off6 t1) (k4_off6_inb t1))) (k4_pay154 (ldv d L fix (k4_off7 t1) (k4_off7_inb t1))) (k4_pay155 (ldv d L fix (k4_off8 t1) (k4_off8_inb t1))) (k4_pay156 (ldv d L fix (k4_off9 t1) (k4_off9_inb t1))) (k4_pay157 (ldv d L fix (k4_off10 t1) (k4_off10_inb t1))) (k4_pay158 (ldv d L fix (k4_off11 t1) (k4_off11_inb t1))) (k4_pay159 (ldv d L fix (k4_off12 t1) (k4_off12_inb t1))) (k4_pay160 (ldv d L fix (k4_off13 t1) (k4_off13_inb t1))) (ldv d L fix (k4_off14 t1) (k4_off14_inb t1)) (ldv d L fix (k4_off15 t1) (k4_off15_inb t1)) (ldv d L fix (k4_off16 t1) (k4_off16_inb t1)) (ldv d L fix (k4_off17 t1) (k4_off17_inb t1)) (ldv d L fix (k4_off18 t1) (k4_off18_inb t1)) (ldv d L fix (k4_off19 t1) (k4_off19_inb t1)) (ldv d L fix (k4_off20 t1) (k4_off20_inb t1)) (ldv d L fix (k4_off21 t1) (k4_off21_inb t1)) (ldv d L fix (k4_off22 t1) (k4_off22_inb t1))) k x).toNat < 4096 :=
    fun k x => (congrArg BitVec.toNat (U0_loaded d L fix t1 k x)).trans_lt (hfix _)
  unfold inv1
  iintro ⟨Hslab, Hidxb, %f2, Hout, %hD⟩
  unfold k4_t1_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip0 (F := F) d L fullShare fsl f2' v28 k4_pay614 t1 (Scalar.muli (Scf.iv 0#32 1#32 t1.val) 16#32) (k4_pay150 (ldv d L fix (k4_off3 t1) (k4_off3_inb t1))) (k4_pay151 (ldv d L fix (k4_off4 t1) (k4_off4_inb t1))) (k4_pay152 (ldv d L fix (k4_off5 t1) (k4_off5_inb t1))) (k4_pay153 (ldv d L fix (k4_off6 t1) (k4_off6_inb t1))) (k4_pay154 (ldv d L fix (k4_off7 t1) (k4_off7_inb t1))) (k4_pay155 (ldv d L fix (k4_off8 t1) (k4_off8_inb t1))) (k4_pay156 (ldv d L fix (k4_off9 t1) (k4_off9_inb t1))) (k4_pay157 (ldv d L fix (k4_off10 t1) (k4_off10_inb t1))) (k4_pay158 (ldv d L fix (k4_off11 t1) (k4_off11_inb t1))) (k4_pay159 (ldv d L fix (k4_off12 t1) (k4_off12_inb t1))) (k4_pay160 (ldv d L fix (k4_off13 t1) (k4_off13_inb t1))) (ldv d L fix (k4_off14 t1) (k4_off14_inb t1)) (ldv d L fix (k4_off15 t1) (k4_off15_inb t1)) (ldv d L fix (k4_off16 t1) (k4_off16_inb t1)) (ldv d L fix (k4_off17 t1) (k4_off17_inb t1)) (ldv d L fix (k4_off18 t1) (k4_off18_inb t1)) (ldv d L fix (k4_off19 t1) (k4_off19_inb t1)) (ldv d L fix (k4_off20 t1) (k4_off20_inb t1)) (ldv d L fix (k4_off21 t1) (k4_off21_inb t1)) (ldv d L fix (k4_off22 t1) (k4_off22_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k4_pay614 (fun _ => rfl) (slabRd d L fsl) (slabRd_apply d L fsl) _ hU (U0_loaded d L fix t1)
      (k4_off23 t1 t2) (k4_off23_inb t1 t2) (k4_off23_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KB.T4

end
-- ==== Proof.KBTile4C1.lean ====
/-
  One tile of the third SparseCore call, chunk 1 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KBTile4Inv

noncomputable section

namespace Cert.Proof.KB.T4

open Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v10_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v11_scv : Memref Cert.Kernel.sig Kind.scVector Space.hbm Cert.Kernel.S8x64x4096 EltTy.f32)
local notation "slabW" => (Memref.whole Cert.Kernel.cc4_scratch0 : Memref Cert.Kernel.sig Kind.scVector Space.vmem Cert.Kernel.S65536 EltTy.f32)
local notation "idxbW" => (Memref.whole Cert.Kernel.cc4_scratch1 : Memref Cert.Kernel.sig Kind.scVector Space.vmem Cert.Kernel.S20x1024 EltTy.i32)
local notation "outbW" => (Memref.whole Cert.Kernel.cc4_scratch2 : Memref Cert.Kernel.sig Kind.scVector Space.vmem Cert.Kernel.S16x1024 EltTy.f32)

section Tile

variable (d : Dev nD) (L : grid4.Coords)

variable [FloatOps F]

/-- The 20 neighbour vectors of a trip of this chunk, in order. -/
abbrev U1 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k4_pay624 v75_ld, k4_pay625 v78_ld, k4_pay626 v81_ld, k4_pay627 v84_ld, k4_pay628 v87_ld, k4_pay629 v90_ld, k4_pay630 v93_ld, k4_pay631 v96_ld, k4_pay632 v99_ld]

attribute [local sl_canon] vli_bind in
set_option maxHeartbeats 8000000 in
/-- A trip of the inner loop: from the slab and the output scratch, the same with the trip's four rows stored. -/
theorem inner_trip1 (q : PosShare TreeShare) (fsl : Buf (Elt F) ((V d (cV L) (jV L)).loc cc4_scratch0)) (f2 : Buf (Elt F) ((V d (cV L) (jV L)).loc cc4_scratch2))
    (v28 : BitVec 32) (v30 : FVec F S16 .f32) (c0_i32_15 : BitVec 32) (k4_t3 : Fin k4_t3_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U1 (F := F) v42 v45 v48 v51 v54 v57 v60 v63 v66 v69 v72 v75_ld v78_ld v81_ld v84_ld v87_ld v90_ld v93_ld v96_ld v99_ld) k x).toNat < 4096)
    (k4_t4 : Fin k4_t4_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k4_t4_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 v30 c0_i32_15 k4_t3 v39 v42 v45 v48 v51 v54 v57 v60 v63 v66 v69 v72 v75_ld v78_ld v81_ld v84_ld v87_ld v90_ld v93_ld v96_ld v99_ld k4_t4 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U1 v42 v45 v48 v51 v54 v57 v60 v63 v66 v69 v72 v75_ld v78_ld v81_ld v84_ld v87_ld v90_ld v93_ld v96_ld v99_ld) hU (k4_off46 k4_t3 k4_t4) (k4_off46_inb k4_t3 k4_t4)
              (Scf.iv 0#32 1#32 k4_t4.val) (iv4_lt k4_t4.val k4_t4.isLt)))) := by
  have hg : (Scf.iv 0#32 1#32 k4_t4.val).toNat < 4 := iv4_lt k4_t4.val k4_t4.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k4_pay624 v75_ld x).toNat < 4096 := hU 11
  have h78 : ∀ x, (k4_pay625 v78_ld x).toNat < 4096 := hU 12
  have h81 : ∀ x, (k4_pay626 v81_ld x).toNat < 4096 := hU 13
  have h84 : ∀ x, (k4_pay627 v84_ld x).toNat < 4096 := hU 14
  have h87 : ∀ x, (k4_pay628 v87_ld x).toNat < 4096 := hU 15
  have h90 : ∀ x, (k4_pay629 v90_ld x).toNat < 4096 := hU 16
  have h93 : ∀ x, (k4_pay630 v93_ld x).toNat < 4096 := hU 17
  have h96 : ∀ x, (k4_pay631 v96_ld x).toNat < 4096 := hU 18
  have h99 : ∀ x, (k4_pay632 v99_ld x).toNat < 4096 := hU 19
  unfold k4_t4_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U1_loaded (fix : Buf (Elt F) ((V d (cV L) (jV L)).loc cc4_scratch1)) (t1 : Fin k4_t3_loop.trips) (k : Fin 20) (x : S16.Idx) :
    U1 (F := F) (k4_pay301 (ldv d L fix (k4_off26 t1) (k4_off26_inb t1))) (k4_pay302 (ldv d L fix (k4_off27 t1) (k4_off27_inb t1))) (k4_pay303 (ldv d L fix (k4_off28 t1) (k4_off28_inb t1))) (k4_pay304 (ldv d L fix (k4_off29 t1) (k4_off29_inb t1))) (k4_pay305 (ldv d L fix (k4_off30 t1) (k4_off30_inb t1))) (k4_pay306 (ldv d L fix (k4_off31 t1) (k4_off31_inb t1))) (k4_pay307 (ldv d L fix (k4_off32 t1) (k4_off32_inb t1))) (k4_pay308 (ldv d L fix (k4_off33 t1) (k4_off33_inb t1))) (k4_pay309 (ldv d L fix (k4_off34 t1) (k4_off34_inb t1))) (k4_pay310 (ldv d L fix (k4_off35 t1) (k4_off35_inb t1))) (k4_pay311 (ldv d L fix (k4_off36 t1) (k4_off36_inb t1))) (ldv d L fix (k4_off37 t1) (k4_off37_inb t1)) (ldv d L fix (k4_off38 t1) (k4_off38_inb t1)) (ldv d L fix (k4_off39 t1) (k4_off39_inb t1)) (ldv d L fix (k4_off40 t1) (k4_off40_inb t1)) (ldv d L fix (k4_off41 t1) (k4_off41_inb t1)) (ldv d L fix (k4_off42 t1) (k4_off42_inb t1)) (ldv d L fix (k4_off43 t1) (k4_off43_inb t1)) (ldv d L fix (k4_off44 t1) (k4_off44_inb t1)) (ldv d L fix (k4_off45 t1) (k4_off45_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k4_off26_eq t1) _ x
  | ⟨1, _⟩ => exact idxvec_eq d L fix _ ⟨1, by omega⟩ t1.val ht (k4_off27_eq t1) _ x
  | ⟨2, _⟩ => exact idxvec_eq d L fix _ ⟨2, by omega⟩ t1.val ht (k4_off28_eq t1) _ x
  | ⟨3, _⟩ => exact idxvec_eq d L fix _ ⟨3, by omega⟩ t1.val ht (k4_off29_eq t1) _ x
  | ⟨4, _⟩ => exact idxvec_eq d L fix _ ⟨4, by omega⟩ t1.val ht (k4_off30_eq t1) _ x
  | ⟨5, _⟩ => exact idxvec_eq d L fix _ ⟨5, by omega⟩ t1.val ht (k4_off31_eq t1) _ x
  | ⟨6, _⟩ => exact idxvec_eq d L fix _ ⟨6, by omega⟩ t1.val ht (k4_off32_eq t1) _ x
  | ⟨7, _⟩ => exact idxvec_eq d L fix _ ⟨7, by omega⟩ t1.val ht (k4_off33_eq t1) _ x
  | ⟨8, _⟩ => exact idxvec_eq d L fix _ ⟨8, by omega⟩ t1.val ht (k4_off34_eq t1) _ x
  | ⟨9, _⟩ => exact idxvec_eq d L fix _ ⟨9, by omega⟩ t1.val ht (k4_off35_eq t1) _ x
  | ⟨10, _⟩ => exact idxvec_eq d L fix _ ⟨10, by omega⟩ t1.val ht (k4_off36_eq t1) _ x
  | ⟨11, _⟩ => exact idxvec_eq d L fix _ ⟨11, by omega⟩ t1.val ht (k4_off37_eq t1) _ x
  | ⟨12, _⟩ => exact idxvec_eq d L fix _ ⟨12, by omega⟩ t1.val ht (k4_off38_eq t1) _ x
  | ⟨13, _⟩ => exact idxvec_eq d L fix _ ⟨13, by omega⟩ t1.val ht (k4_off39_eq t1) _ x
  | ⟨14, _⟩ => exact idxvec_eq d L fix _ ⟨14, by omega⟩ t1.val ht (k4_off40_eq t1) _ x
  | ⟨15, _⟩ => exact idxvec_eq d L fix _ ⟨15, by omega⟩ t1.val ht (k4_off41_eq t1) _ x
  | ⟨16, _⟩ => exact idxvec_eq d L fix _ ⟨16, by omega⟩ t1.val ht (k4_off42_eq t1) _ x
  | ⟨17, _⟩ => exact idxvec_eq d L fix _ ⟨17, by omega⟩ t1.val ht (k4_off43_eq t1) _ x
  | ⟨18, _⟩ => exact idxvec_eq d L fix _ ⟨18, by omega⟩ t1.val ht (k4_off44_eq t1) _ x
  | ⟨19, _⟩ => exact idxvec_eq d L fix _ ⟨19, by omega⟩ t1.val ht (k4_off45_eq t1) _ x
  | ⟨n + 20, h⟩ => exact absurd h (by omega)

set_option maxHeartbeats 4000000 in
/-- A trip of the outer loop: the block's 20 neighbour vectors loaded, then the inner loop's four trips fill the block. -/
theorem outer_trip1 (fsl : Buf (Elt F) ((V d (cV L) (jV L)).loc cc4_scratch0)) (fix : Buf (Elt F) ((V d (cV L) (jV L)).loc cc4_scratch1))
    (hfix : ∀ y, (fix y).toNat < 4096) (v28 : BitVec 32) (c0_i32_15 : BitVec 32) (t1 : Fin k4_t3_loop.trips) (acc : Unit) :
    inv1 d L fsl fix (Gout negInf fsl fix) t1.val acc
      ⊢ wp frame (wpE (defs₀ (F := F)) 𝒱₀ (V d (cV L) (jV L)) none) Set.univ
          (k4_t3_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 k4_pay614 c0_i32_15 t1 acc)
          (inv1 d L fsl fix (Gout negInf fsl fix) (t1.val + 1)) := by
  have ht : t1.val < 64 := t1.isLt
  have hU : ∀ k x, ((U1 (F := F) (k4_pay301 (ldv d L fix (k4_off26 t1) (k4_off26_inb t1))) (k4_pay302 (ldv d L fix (k4_off27 t1) (k4_off27_inb t1))) (k4_pay303 (ldv d L fix (k4_off28 t1) (k4_off28_inb t1))) (k4_pay304 (ldv d L fix (k4_off29 t1) (k4_off29_inb t1))) (k4_pay305 (ldv d L fix (k4_off30 t1) (k4_off30_inb t1))) (k4_pay306 (ldv d L fix (k4_off31 t1) (k4_off31_inb t1))) (k4_pay307 (ldv d L fix (k4_off32 t1) (k4_off32_inb t1))) (k4_pay308 (ldv d L fix (k4_off33 t1) (k4_off33_inb t1))) (k4_pay309 (ldv d L fix (k4_off34 t1) (k4_off34_inb t1))) (k4_pay310 (ldv d L fix (k4_off35 t1) (k4_off35_inb t1))) (k4_pay311 (ldv d L fix (k4_off36 t1) (k4_off36_inb t1))) (ldv d L fix (k4_off37 t1) (k4_off37_inb t1)) (ldv d L fix (k4_off38 t1) (k4_off38_inb t1)) (ldv d L fix (k4_off39 t1) (k4_off39_inb t1)) (ldv d L fix (k4_off40 t1) (k4_off40_inb t1)) (ldv d L fix (k4_off41 t1) (k4_off41_inb t1)) (ldv d L fix (k4_off42 t1) (k4_off42_inb t1)) (ldv d L fix (k4_off43 t1) (k4_off43_inb t1)) (ldv d L fix (k4_off44 t1) (k4_off44_inb t1)) (ldv d L fix (k4_off45 t1) (k4_off45_inb t1))) k x).toNat < 4096 :=
    fun k x => (congrArg BitVec.toNat (U1_loaded d L fix t1 k x)).trans_lt (hfix _)
  unfold inv1
  iintro ⟨Hslab, Hidxb, %f2, Hout, %hD⟩
  unfold k4_t3_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip1 (F := F) d L fullShare fsl f2' v28 k4_pay614 c0_i32_15 t1 (Scalar.muli (Scf.iv 0#32 1#32 t1.val) 16#32) (k4_pay301 (ldv d L fix (k4_off26 t1) (k4_off26_inb t1))) (k4_pay302 (ldv d L fix (k4_off27 t1) (k4_off27_inb t1))) (k4_pay303 (ldv d L fix (k4_off28 t1) (k4_off28_inb t1))) (k4_pay304 (ldv d L fix (k4_off29 t1) (k4_off29_inb t1))) (k4_pay305 (ldv d L fix (k4_off30 t1) (k4_off30_inb t1))) (k4_pay306 (ldv d L fix (k4_off31 t1) (k4_off31_inb t1))) (k4_pay307 (ldv d L fix (k4_off32 t1) (k4_off32_inb t1))) (k4_pay308 (ldv d L fix (k4_off33 t1) (k4_off33_inb t1))) (k4_pay309 (ldv d L fix (k4_off34 t1) (k4_off34_inb t1))) (k4_pay310 (ldv d L fix (k4_off35 t1) (k4_off35_inb t1))) (k4_pay311 (ldv d L fix (k4_off36 t1) (k4_off36_inb t1))) (ldv d L fix (k4_off37 t1) (k4_off37_inb t1)) (ldv d L fix (k4_off38 t1) (k4_off38_inb t1)) (ldv d L fix (k4_off39 t1) (k4_off39_inb t1)) (ldv d L fix (k4_off40 t1) (k4_off40_inb t1)) (ldv d L fix (k4_off41 t1) (k4_off41_inb t1)) (ldv d L fix (k4_off42 t1) (k4_off42_inb t1)) (ldv d L fix (k4_off43 t1) (k4_off43_inb t1)) (ldv d L fix (k4_off44 t1) (k4_off44_inb t1)) (ldv d L fix (k4_off45 t1) (k4_off45_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k4_pay614 (fun _ => rfl) (slabRd d L fsl) (slabRd_apply d L fsl) _ hU (U1_loaded d L fix t1)
      (k4_off46 t1 t2) (k4_off46_inb t1 t2) (k4_off46_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KB.T4

end
-- ==== Proof.KBTile4C2.lean ====
/-
  One tile of the third SparseCore call, chunk 2 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KBTile4Inv

noncomputable section

namespace Cert.Proof.KB.T4

open Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v10_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v11_scv : Memref Cert.Kernel.sig Kind.scVector Space.hbm Cert.Kernel.S8x64x4096 EltTy.f32)
local notation "slabW" => (Memref.whole Cert.Kernel.cc4_scratch0 : Memref Cert.Kernel.sig Kind.scVector Space.vmem Cert.Kernel.S65536 EltTy.f32)
local notation "idxbW" => (Memref.whole Cert.Kernel.cc4_scratch1 : Memref Cert.Kernel.sig Kind.scVector Space.vmem Cert.Kernel.S20x1024 EltTy.i32)
local notation "outbW" => (Memref.whole Cert.Kernel.cc4_scratch2 : Memref Cert.Kernel.sig Kind.scVector Space.vmem Cert.Kernel.S16x1024 EltTy.f32)

section Tile

variable (d : Dev nD) (L : grid4.Coords)

variable [FloatOps F]

/-- The 20 neighbour vectors of a trip of this chunk, in order. -/
abbrev U2 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k4_pay633 v75_ld, k4_pay634 v78_ld, k4_pay635 v81_ld, k4_pay636 v84_ld, k4_pay637 v87_ld, k4_pay638 v90_ld, k4_pay639 v93_ld, k4_pay640 v96_ld, k4_pay641 v99_ld]

attribute [local sl_canon] vli_bind in
set_option maxHeartbeats 8000000 in
/-- A trip of the inner loop: from the slab and the output scratch, the same with the trip's four rows stored. -/
theorem inner_trip2 (q : PosShare TreeShare) (fsl : Buf (Elt F) ((V d (cV L) (jV L)).loc cc4_scratch0)) (f2 : Buf (Elt F) ((V d (cV L) (jV L)).loc cc4_scratch2))
    (v28 : BitVec 32) (v30 : FVec F S16 .f32) (c0_i32_15 : BitVec 32) (k4_t5 : Fin k4_t5_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U2 (F := F) v42 v45 v48 v51 v54 v57 v60 v63 v66 v69 v72 v75_ld v78_ld v81_ld v84_ld v87_ld v90_ld v93_ld v96_ld v99_ld) k x).toNat < 4096)
    (k4_t6 : Fin k4_t6_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k4_t6_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 v30 c0_i32_15 k4_t5 v39 v42 v45 v48 v51 v54 v57 v60 v63 v66 v69 v72 v75_ld v78_ld v81_ld v84_ld v87_ld v90_ld v93_ld v96_ld v99_ld k4_t6 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U2 v42 v45 v48 v51 v54 v57 v60 v63 v66 v69 v72 v75_ld v78_ld v81_ld v84_ld v87_ld v90_ld v93_ld v96_ld v99_ld) hU (k4_off69 k4_t5 k4_t6) (k4_off69_inb k4_t5 k4_t6)
              (Scf.iv 0#32 1#32 k4_t6.val) (iv4_lt k4_t6.val k4_t6.isLt)))) := by
  have hg : (Scf.iv 0#32 1#32 k4_t6.val).toNat < 4 := iv4_lt k4_t6.val k4_t6.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k4_pay633 v75_ld x).toNat < 4096 := hU 11
  have h78 : ∀ x, (k4_pay634 v78_ld x).toNat < 4096 := hU 12
  have h81 : ∀ x, (k4_pay635 v81_ld x).toNat < 4096 := hU 13
  have h84 : ∀ x, (k4_pay636 v84_ld x).toNat < 4096 := hU 14
  have h87 : ∀ x, (k4_pay637 v87_ld x).toNat < 4096 := hU 15
  have h90 : ∀ x, (k4_pay638 v90_ld x).toNat < 4096 := hU 16
  have h93 : ∀ x, (k4_pay639 v93_ld x).toNat < 4096 := hU 17
  have h96 : ∀ x, (k4_pay640 v96_ld x).toNat < 4096 := hU 18
  have h99 : ∀ x, (k4_pay641 v99_ld x).toNat < 4096 := hU 19
  unfold k4_t6_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U2_loaded (fix : Buf (Elt F) ((V d (cV L) (jV L)).loc cc4_scratch1)) (t1 : Fin k4_t5_loop.trips) (k : Fin 20) (x : S16.Idx) :
    U2 (F := F) (k4_pay452 (ldv d L fix (k4_off49 t1) (k4_off49_inb t1))) (k4_pay453 (ldv d L fix (k4_off50 t1) (k4_off50_inb t1))) (k4_pay454 (ldv d L fix (k4_off51 t1) (k4_off51_inb t1))) (k4_pay455 (ldv d L fix (k4_off52 t1) (k4_off52_inb t1))) (k4_pay456 (ldv d L fix (k4_off53 t1) (k4_off53_inb t1))) (k4_pay457 (ldv d L fix (k4_off54 t1) (k4_off54_inb t1))) (k4_pay458 (ldv d L fix (k4_off55 t1) (k4_off55_inb t1))) (k4_pay459 (ldv d L fix (k4_off56 t1) (k4_off56_inb t1))) (k4_pay460 (ldv d L fix (k4_off57 t1) (k4_off57_inb t1))) (k4_pay461 (ldv d L fix (k4_off58 t1) (k4_off58_inb t1))) (k4_pay462 (ldv d L fix (k4_off59 t1) (k4_off59_inb t1))) (ldv d L fix (k4_off60 t1) (k4_off60_inb t1)) (ldv d L fix (k4_off61 t1) (k4_off61_inb t1)) (ldv d L fix (k4_off62 t1) (k4_off62_inb t1)) (ldv d L fix (k4_off63 t1) (k4_off63_inb t1)) (ldv d L fix (k4_off64 t1) (k4_off64_inb t1)) (ldv d L fix (k4_off65 t1) (k4_off65_inb t1)) (ldv d L fix (k4_off66 t1) (k4_off66_inb t1)) (ldv d L fix (k4_off67 t1) (k4_off67_inb t1)) (ldv d L fix (k4_off68 t1) (k4_off68_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k4_off49_eq t1) _ x
  | ⟨1, _⟩ => exact idxvec_eq d L fix _ ⟨1, by omega⟩ t1.val ht (k4_off50_eq t1) _ x
  | ⟨2, _⟩ => exact idxvec_eq d L fix _ ⟨2, by omega⟩ t1.val ht (k4_off51_eq t1) _ x
  | ⟨3, _⟩ => exact idxvec_eq d L fix _ ⟨3, by omega⟩ t1.val ht (k4_off52_eq t1) _ x
  | ⟨4, _⟩ => exact idxvec_eq d L fix _ ⟨4, by omega⟩ t1.val ht (k4_off53_eq t1) _ x
  | ⟨5, _⟩ => exact idxvec_eq d L fix _ ⟨5, by omega⟩ t1.val ht (k4_off54_eq t1) _ x
  | ⟨6, _⟩ => exact idxvec_eq d L fix _ ⟨6, by omega⟩ t1.val ht (k4_off55_eq t1) _ x
  | ⟨7, _⟩ => exact idxvec_eq d L fix _ ⟨7, by omega⟩ t1.val ht (k4_off56_eq t1) _ x
  | ⟨8, _⟩ => exact idxvec_eq d L fix _ ⟨8, by omega⟩ t1.val ht (k4_off57_eq t1) _ x
  | ⟨9, _⟩ => exact idxvec_eq d L fix _ ⟨9, by omega⟩ t1.val ht (k4_off58_eq t1) _ x
  | ⟨10, _⟩ => exact idxvec_eq d L fix _ ⟨10, by omega⟩ t1.val ht (k4_off59_eq t1) _ x
  | ⟨11, _⟩ => exact idxvec_eq d L fix _ ⟨11, by omega⟩ t1.val ht (k4_off60_eq t1) _ x
  | ⟨12, _⟩ => exact idxvec_eq d L fix _ ⟨12, by omega⟩ t1.val ht (k4_off61_eq t1) _ x
  | ⟨13, _⟩ => exact idxvec_eq d L fix _ ⟨13, by omega⟩ t1.val ht (k4_off62_eq t1) _ x
  | ⟨14, _⟩ => exact idxvec_eq d L fix _ ⟨14, by omega⟩ t1.val ht (k4_off63_eq t1) _ x
  | ⟨15, _⟩ => exact idxvec_eq d L fix _ ⟨15, by omega⟩ t1.val ht (k4_off64_eq t1) _ x
  | ⟨16, _⟩ => exact idxvec_eq d L fix _ ⟨16, by omega⟩ t1.val ht (k4_off65_eq t1) _ x
  | ⟨17, _⟩ => exact idxvec_eq d L fix _ ⟨17, by omega⟩ t1.val ht (k4_off66_eq t1) _ x
  | ⟨18, _⟩ => exact idxvec_eq d L fix _ ⟨18, by omega⟩ t1.val ht (k4_off67_eq t1) _ x
  | ⟨19, _⟩ => exact idxvec_eq d L fix _ ⟨19, by omega⟩ t1.val ht (k4_off68_eq t1) _ x
  | ⟨n + 20, h⟩ => exact absurd h (by omega)

set_option maxHeartbeats 4000000 in
/-- A trip of the outer loop: the block's 20 neighbour vectors loaded, then the inner loop's four trips fill the block. -/
theorem outer_trip2 (fsl : Buf (Elt F) ((V d (cV L) (jV L)).loc cc4_scratch0)) (fix : Buf (Elt F) ((V d (cV L) (jV L)).loc cc4_scratch1))
    (hfix : ∀ y, (fix y).toNat < 4096) (v28 : BitVec 32) (c0_i32_15 : BitVec 32) (t1 : Fin k4_t5_loop.trips) (acc : Unit) :
    inv1 d L fsl fix (Gout negInf fsl fix) t1.val acc
      ⊢ wp frame (wpE (defs₀ (F := F)) 𝒱₀ (V d (cV L) (jV L)) none) Set.univ
          (k4_t5_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v28 k4_pay614 c0_i32_15 t1 acc)
          (inv1 d L fsl fix (Gout negInf fsl fix) (t1.val + 1)) := by
  have ht : t1.val < 64 := t1.isLt
  have hU : ∀ k x, ((U2 (F := F) (k4_pay452 (ldv d L fix (k4_off49 t1) (k4_off49_inb t1))) (k4_pay453 (ldv d L fix (k4_off50 t1) (k4_off50_inb t1))) (k4_pay454 (ldv d L fix (k4_off51 t1) (k4_off51_inb t1))) (k4_pay455 (ldv d L fix (k4_off52 t1) (k4_off52_inb t1))) (k4_pay456 (ldv d L fix (k4_off53 t1) (k4_off53_inb t1))) (k4_pay457 (ldv d L fix (k4_off54 t1) (k4_off54_inb t1))) (k4_pay458 (ldv d L fix (k4_off55 t1) (k4_off55_inb t1))) (k4_pay459 (ldv d L fix (k4_off56 t1) (k4_off56_inb t1))) (k4_pay460 (ldv d L fix (k4_off57 t1) (k4_off57_inb t1))) (k4_pay461 (ldv d L fix (k4_off58 t1) (k4_off58_inb t1))) (k4_pay462 (ldv d L fix (k4_off59 t1) (k4_off59_inb t1))) (ldv d L fix (k4_off60 t1) (k4_off60_inb t1)) (ldv d L fix (k4_off61 t1) (k4_off61_inb t1)) (ldv d L fix (k4_off62 t1) (k4_off62_inb t1)) (ldv d L fix (k4_off63 t1) (k4_off63_inb t1)) (ldv d L fix (k4_off64 t1) (k4_off64_inb t1)) (ldv d L fix (k4_off65 t1) (k4_off65_inb t1)) (ldv d L fix (k4_off66 t1) (k4_off66_inb t1)) (ldv d L fix (k4_off67 t1) (k4_off67_inb t1)) (ldv d L fix (k4_off68 t1) (k4_off68_inb t1))) k x).toNat < 4096 :=
    fun k x => (congrArg BitVec.toNat (U2_loaded d L fix t1 k x)).trans_lt (hfix _)
  unfold inv1
  iintro ⟨Hslab, Hidxb, %f2, Hout, %hD⟩
  unfold k4_t5_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip2 (F := F) d L fullShare fsl f2' v28 k4_pay614 c0_i32_15 t1 (Scalar.muli (Scf.iv 0#32 1#32 t1.val) 16#32) (k4_pay452 (ldv d L fix (k4_off49 t1) (k4_off49_inb t1))) (k4_pay453 (ldv d L fix (k4_off50 t1) (k4_off50_inb t1))) (k4_pay454 (ldv d L fix (k4_off51 t1) (k4_off51_inb t1))) (k4_pay455 (ldv d L fix (k4_off52 t1) (k4_off52_inb t1))) (k4_pay456 (ldv d L fix (k4_off53 t1) (k4_off53_inb t1))) (k4_pay457 (ldv d L fix (k4_off54 t1) (k4_off54_inb t1))) (k4_pay458 (ldv d L fix (k4_off55 t1) (k4_off55_inb t1))) (k4_pay459 (ldv d L fix (k4_off56 t1) (k4_off56_inb t1))) (k4_pay460 (ldv d L fix (k4_off57 t1) (k4_off57_inb t1))) (k4_pay461 (ldv d L fix (k4_off58 t1) (k4_off58_inb t1))) (k4_pay462 (ldv d L fix (k4_off59 t1) (k4_off59_inb t1))) (ldv d L fix (k4_off60 t1) (k4_off60_inb t1)) (ldv d L fix (k4_off61 t1) (k4_off61_inb t1)) (ldv d L fix (k4_off62 t1) (k4_off62_inb t1)) (ldv d L fix (k4_off63 t1) (k4_off63_inb t1)) (ldv d L fix (k4_off64 t1) (k4_off64_inb t1)) (ldv d L fix (k4_off65 t1) (k4_off65_inb t1)) (ldv d L fix (k4_off66 t1) (k4_off66_inb t1)) (ldv d L fix (k4_off67 t1) (k4_off67_inb t1)) (ldv d L fix (k4_off68 t1) (k4_off68_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k4_pay614 (fun _ => rfl) (slabRd d L fsl) (slabRd_apply d L fsl) _ hU (U2_loaded d L fix t1)
      (k4_off69 t1 t2) (k4_off69_inb t1 t2) (k4_off69_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KB.T4

end
-- ==== Proof.KBTile4C3.lean ====
/-
  One tile of the third SparseCore call, chunk 3 of four: a trip of the inner loop (the 80 gathers and running maxima of four
  rows of a block, then the four stores), the 20 neighbour vectors a block loads, and a trip of the outer loop (a block of sixteen
  columns of the output scratch).
-/
import proofs.«209975_g17849884082380_cont_8to1_1483_11_alg».proof.Proof.KBTile4Inv

noncomputable section

namespace Cert.Proof.KB.T4

open Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v10_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v11_scv : Memref Cert.Kernel.sig Kind.scVector Space.hbm Cert.Kernel.S8x64x4096 EltTy.f32)
local notation "slabW" => (Memref.whole Cert.Kernel.cc4_scratch0 : Memref Cert.Kernel.sig Kind.scVector Space.vmem Cert.Kernel.S65536 EltTy.f32)
local notation "idxbW" => (Memref.whole Cert.Kernel.cc4_scratch1 : Memref Cert.Kernel.sig Kind.scVector Space.vmem Cert.Kernel.S20x1024 EltTy.i32)
local notation "outbW" => (Memref.whole Cert.Kernel.cc4_scratch2 : Memref Cert.Kernel.sig Kind.scVector Space.vmem Cert.Kernel.S16x1024 EltTy.f32)

section Tile

variable (d : Dev nD) (L : grid4.Coords)

variable [FloatOps F]

/-- The 20 neighbour vectors of a trip of this chunk, in order. -/
abbrev U3 (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32) : Fin 20 → IVec S16 32 :=
  ![v42, v45, v48, v51, v54, v57, v60, v63, v66, v69, v72, k4_pay1 v75_ld, k4_pay2 v78_ld, k4_pay3 v81_ld, k4_pay4 v84_ld, k4_pay5 v87_ld, k4_pay6 v90_ld, k4_pay7 v93_ld, k4_pay8 v96_ld, k4_pay9 v99_ld]

attribute [local sl_canon] vli_bind in
set_option maxHeartbeats 8000000 in
/-- A trip of the inner loop: from the slab and the output scratch, the same with the trip's four rows stored. -/
theorem inner_trip3 (q : PosShare TreeShare) (fsl : Buf (Elt F) ((V d (cV L) (jV L)).loc cc4_scratch0)) (f2 : Buf (Elt F) ((V d (cV L) (jV L)).loc cc4_scratch2))
    (v30 : FVec F S16 .f32) (k4_t7 : Fin k4_t7_loop.trips) (v39 : BitVec 32)
    (v42 : Vec F S16 .i32) (v45 : Vec F S16 .i32) (v48 : Vec F S16 .i32) (v51 : Vec F S16 .i32) (v54 : Vec F S16 .i32) (v57 : Vec F S16 .i32) (v60 : Vec F S16 .i32) (v63 : Vec F S16 .i32) (v66 : Vec F S16 .i32) (v69 : Vec F S16 .i32) (v72 : Vec F S16 .i32) (v75_ld : Vec F S1x16 .i32) (v78_ld : Vec F S1x16 .i32) (v81_ld : Vec F S1x16 .i32) (v84_ld : Vec F S1x16 .i32) (v87_ld : Vec F S1x16 .i32) (v90_ld : Vec F S1x16 .i32) (v93_ld : Vec F S1x16 .i32) (v96_ld : Vec F S1x16 .i32) (v99_ld : Vec F S1x16 .i32)
    (hU : ∀ k x, ((U3 (F := F) v42 v45 v48 v51 v54 v57 v60 v63 v66 v69 v72 v75_ld v78_ld v81_ld v84_ld v87_ld v90_ld v93_ld v96_ld v99_ld) k x).toNat < 4096)
    (k4_t8 : Fin k4_t8_loop.trips) :
    (iprop(((slabW).view.loc (V d (cV L) (jV L)) ↦{q} fsl) ∗ ((outbW).view.loc (V d (cV L) (jV L)) ↦{fullShare} f2)) : sProp 𝕄)
      ⊢ wp frame (wpE (defs₀ (F := F)) 𝒱₀ (V d (cV L) (jV L)) none) Set.univ
          (k4_t8_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 v30 k4_t7 v39 v42 v45 v48 v51 v54 v57 v60 v63 v66 v69 v72 v75_ld v78_ld v81_ld v84_ld v87_ld v90_ld v93_ld v96_ld v99_ld k4_t8 ())
          fun _ => iprop(((slabW).view.loc (V d (cV L) (jV L)) ↦{q} fsl) ∗ ((outbW).view.loc (V d (cV L) (jV L)) ↦{fullShare}
            (outbW).view.writes (Elt F) f2 (tripPieces v30 (slabRd d L fsl) (U3 v42 v45 v48 v51 v54 v57 v60 v63 v66 v69 v72 v75_ld v78_ld v81_ld v84_ld v87_ld v90_ld v93_ld v96_ld v99_ld) hU (k4_off92 k4_t7 k4_t8) (k4_off92_inb k4_t7 k4_t8)
              (Scf.iv 0#32 1#32 k4_t8.val) (iv4_lt k4_t8.val k4_t8.isLt)))) := by
  have hg : (Scf.iv 0#32 1#32 k4_t8.val).toNat < 4 := iv4_lt k4_t8.val k4_t8.isLt
  have h42 : ∀ x, (v42 x).toNat < 4096 := hU 0
  have h45 : ∀ x, (v45 x).toNat < 4096 := hU 1
  have h48 : ∀ x, (v48 x).toNat < 4096 := hU 2
  have h51 : ∀ x, (v51 x).toNat < 4096 := hU 3
  have h54 : ∀ x, (v54 x).toNat < 4096 := hU 4
  have h57 : ∀ x, (v57 x).toNat < 4096 := hU 5
  have h60 : ∀ x, (v60 x).toNat < 4096 := hU 6
  have h63 : ∀ x, (v63 x).toNat < 4096 := hU 7
  have h66 : ∀ x, (v66 x).toNat < 4096 := hU 8
  have h69 : ∀ x, (v69 x).toNat < 4096 := hU 9
  have h72 : ∀ x, (v72 x).toNat < 4096 := hU 10
  have h75 : ∀ x, (k4_pay1 v75_ld x).toNat < 4096 := hU 11
  have h78 : ∀ x, (k4_pay2 v78_ld x).toNat < 4096 := hU 12
  have h81 : ∀ x, (k4_pay3 v81_ld x).toNat < 4096 := hU 13
  have h84 : ∀ x, (k4_pay4 v84_ld x).toNat < 4096 := hU 14
  have h87 : ∀ x, (k4_pay5 v87_ld x).toNat < 4096 := hU 15
  have h90 : ∀ x, (k4_pay6 v90_ld x).toNat < 4096 := hU 16
  have h93 : ∀ x, (k4_pay7 v93_ld x).toNat < 4096 := hU 17
  have h96 : ∀ x, (k4_pay8 v96_ld x).toNat < 4096 := hU 18
  have h99 : ∀ x, (k4_pay9 v99_ld x).toNat < 4096 := hU 19
  unfold k4_t8_body tripPieces
  iintro ⟨Hslab, Hout⟩
  sl_exec (disch := exact chk_idxOff (by assumption) hg (by decide))
  sl_step
  isplitl [Hslab]
  · iexact Hslab
  · iexact Hout

/-- The 20 neighbour vectors block `t1` loads are the 20 rows of the index scratch at the block's sixteen columns. -/
theorem U3_loaded (fix : Buf (Elt F) ((V d (cV L) (jV L)).loc cc4_scratch1)) (t1 : Fin k4_t7_loop.trips) (k : Fin 20) (x : S16.Idx) :
    U3 (F := F) (k4_pay603 (ldv d L fix (k4_off72 t1) (k4_off72_inb t1))) (k4_pay604 (ldv d L fix (k4_off73 t1) (k4_off73_inb t1))) (k4_pay605 (ldv d L fix (k4_off74 t1) (k4_off74_inb t1))) (k4_pay606 (ldv d L fix (k4_off75 t1) (k4_off75_inb t1))) (k4_pay607 (ldv d L fix (k4_off76 t1) (k4_off76_inb t1))) (k4_pay608 (ldv d L fix (k4_off77 t1) (k4_off77_inb t1))) (k4_pay609 (ldv d L fix (k4_off78 t1) (k4_off78_inb t1))) (k4_pay610 (ldv d L fix (k4_off79 t1) (k4_off79_inb t1))) (k4_pay611 (ldv d L fix (k4_off80 t1) (k4_off80_inb t1))) (k4_pay612 (ldv d L fix (k4_off81 t1) (k4_off81_inb t1))) (k4_pay613 (ldv d L fix (k4_off82 t1) (k4_off82_inb t1))) (ldv d L fix (k4_off83 t1) (k4_off83_inb t1)) (ldv d L fix (k4_off84 t1) (k4_off84_inb t1)) (ldv d L fix (k4_off85 t1) (k4_off85_inb t1)) (ldv d L fix (k4_off86 t1) (k4_off86_inb t1)) (ldv d L fix (k4_off87 t1) (k4_off87_inb t1)) (ldv d L fix (k4_off88 t1) (k4_off88_inb t1)) (ldv d L fix (k4_off89 t1) (k4_off89_inb t1)) (ldv d L fix (k4_off90 t1) (k4_off90_inb t1)) (ldv d L fix (k4_off91 t1) (k4_off91_inb t1)) k x
      = fix (ix2 k ⟨16 * t1.val + (x 0).val, by have h16 : (x 0).val < 16 := (x 0).isLt; have ht : t1.val < 64 := t1.isLt; show 16 * t1.val + (x 0).val < 1024; omega⟩) := by
  have ht : t1.val < 64 := t1.isLt
  match k with
  | ⟨0, _⟩ => exact idxvec_eq d L fix _ ⟨0, by omega⟩ t1.val ht (k4_off72_eq t1) _ x
  | ⟨1, _⟩ => exact idxvec_eq d L fix _ ⟨1, by omega⟩ t1.val ht (k4_off73_eq t1) _ x
  | ⟨2, _⟩ => exact idxvec_eq d L fix _ ⟨2, by omega⟩ t1.val ht (k4_off74_eq t1) _ x
  | ⟨3, _⟩ => exact idxvec_eq d L fix _ ⟨3, by omega⟩ t1.val ht (k4_off75_eq t1) _ x
  | ⟨4, _⟩ => exact idxvec_eq d L fix _ ⟨4, by omega⟩ t1.val ht (k4_off76_eq t1) _ x
  | ⟨5, _⟩ => exact idxvec_eq d L fix _ ⟨5, by omega⟩ t1.val ht (k4_off77_eq t1) _ x
  | ⟨6, _⟩ => exact idxvec_eq d L fix _ ⟨6, by omega⟩ t1.val ht (k4_off78_eq t1) _ x
  | ⟨7, _⟩ => exact idxvec_eq d L fix _ ⟨7, by omega⟩ t1.val ht (k4_off79_eq t1) _ x
  | ⟨8, _⟩ => exact idxvec_eq d L fix _ ⟨8, by omega⟩ t1.val ht (k4_off80_eq t1) _ x
  | ⟨9, _⟩ => exact idxvec_eq d L fix _ ⟨9, by omega⟩ t1.val ht (k4_off81_eq t1) _ x
  | ⟨10, _⟩ => exact idxvec_eq d L fix _ ⟨10, by omega⟩ t1.val ht (k4_off82_eq t1) _ x
  | ⟨11, _⟩ => exact idxvec_eq d L fix _ ⟨11, by omega⟩ t1.val ht (k4_off83_eq t1) _ x
  | ⟨12, _⟩ => exact idxvec_eq d L fix _ ⟨12, by omega⟩ t1.val ht (k4_off84_eq t1) _ x
  | ⟨13, _⟩ => exact idxvec_eq d L fix _ ⟨13, by omega⟩ t1.val ht (k4_off85_eq t1) _ x
  | ⟨14, _⟩ => exact idxvec_eq d L fix _ ⟨14, by omega⟩ t1.val ht (k4_off86_eq t1) _ x
  | ⟨15, _⟩ => exact idxvec_eq d L fix _ ⟨15, by omega⟩ t1.val ht (k4_off87_eq t1) _ x
  | ⟨16, _⟩ => exact idxvec_eq d L fix _ ⟨16, by omega⟩ t1.val ht (k4_off88_eq t1) _ x
  | ⟨17, _⟩ => exact idxvec_eq d L fix _ ⟨17, by omega⟩ t1.val ht (k4_off89_eq t1) _ x
  | ⟨18, _⟩ => exact idxvec_eq d L fix _ ⟨18, by omega⟩ t1.val ht (k4_off90_eq t1) _ x
  | ⟨19, _⟩ => exact idxvec_eq d L fix _ ⟨19, by omega⟩ t1.val ht (k4_off91_eq t1) _ x
  | ⟨n + 20, h⟩ => exact absurd h (by omega)

set_option maxHeartbeats 4000000 in
/-- A trip of the outer loop: the block's 20 neighbour vectors loaded, then the inner loop's four trips fill the block. -/
theorem outer_trip3 (fsl : Buf (Elt F) ((V d (cV L) (jV L)).loc cc4_scratch0)) (fix : Buf (Elt F) ((V d (cV L) (jV L)).loc cc4_scratch1))
    (hfix : ∀ y, (fix y).toNat < 4096) (t1 : Fin k4_t7_loop.trips) (acc : Unit) :
    inv1 d L fsl fix (Gout negInf fsl fix) t1.val acc
      ⊢ wp frame (wpE (defs₀ (F := F)) 𝒱₀ (V d (cV L) (jV L)) none) Set.univ
          (k4_t7_body L srcW (Memref.isWhole_whole _) idxW (Memref.isWhole_whole _) outW (Memref.isWhole_whole _) slabW (Memref.isWhole_whole _) idxbW (Memref.isWhole_whole _) outbW (Memref.isWhole_whole _) cc4_scoped0 cc4_scoped1 cc4_scoped2 cc4_scoped3 cc4_scoped4 cc4_scoped5 cc4_scoped6 cc4_scoped7 cc4_scoped8 k4_pay614 t1 acc)
          (inv1 d L fsl fix (Gout negInf fsl fix) (t1.val + 1)) := by
  have ht : t1.val < 64 := t1.isLt
  have hU : ∀ k x, ((U3 (F := F) (k4_pay603 (ldv d L fix (k4_off72 t1) (k4_off72_inb t1))) (k4_pay604 (ldv d L fix (k4_off73 t1) (k4_off73_inb t1))) (k4_pay605 (ldv d L fix (k4_off74 t1) (k4_off74_inb t1))) (k4_pay606 (ldv d L fix (k4_off75 t1) (k4_off75_inb t1))) (k4_pay607 (ldv d L fix (k4_off76 t1) (k4_off76_inb t1))) (k4_pay608 (ldv d L fix (k4_off77 t1) (k4_off77_inb t1))) (k4_pay609 (ldv d L fix (k4_off78 t1) (k4_off78_inb t1))) (k4_pay610 (ldv d L fix (k4_off79 t1) (k4_off79_inb t1))) (k4_pay611 (ldv d L fix (k4_off80 t1) (k4_off80_inb t1))) (k4_pay612 (ldv d L fix (k4_off81 t1) (k4_off81_inb t1))) (k4_pay613 (ldv d L fix (k4_off82 t1) (k4_off82_inb t1))) (ldv d L fix (k4_off83 t1) (k4_off83_inb t1)) (ldv d L fix (k4_off84 t1) (k4_off84_inb t1)) (ldv d L fix (k4_off85 t1) (k4_off85_inb t1)) (ldv d L fix (k4_off86 t1) (k4_off86_inb t1)) (ldv d L fix (k4_off87 t1) (k4_off87_inb t1)) (ldv d L fix (k4_off88 t1) (k4_off88_inb t1)) (ldv d L fix (k4_off89 t1) (k4_off89_inb t1)) (ldv d L fix (k4_off90 t1) (k4_off90_inb t1)) (ldv d L fix (k4_off91 t1) (k4_off91_inb t1))) k x).toNat < 4096 :=
    fun k x => (congrArg BitVec.toNat (U3_loaded d L fix t1 k x)).trans_lt (hfix _)
  unfold inv1
  iintro ⟨Hslab, Hidxb, %f2, Hout, %hD⟩
  unfold k4_t7_body
  sl_exec
  sl_for (inv2 d L fsl (Gout negInf fsl fix) t1.val) $$ [Hslab Hout]
  case region =>
    intro t2 acc2
    have ht2 : t2.val < 4 := t2.isLt
    unfold inv2
    iintro ⟨Hslab, %f2', Hout, %hD2⟩
    ihave Hwp := (inner_trip3 (F := F) d L fullShare fsl f2' k4_pay614 t1 (Scalar.muli (Scf.iv 0#32 1#32 t1.val) 16#32) (k4_pay603 (ldv d L fix (k4_off72 t1) (k4_off72_inb t1))) (k4_pay604 (ldv d L fix (k4_off73 t1) (k4_off73_inb t1))) (k4_pay605 (ldv d L fix (k4_off74 t1) (k4_off74_inb t1))) (k4_pay606 (ldv d L fix (k4_off75 t1) (k4_off75_inb t1))) (k4_pay607 (ldv d L fix (k4_off76 t1) (k4_off76_inb t1))) (k4_pay608 (ldv d L fix (k4_off77 t1) (k4_off77_inb t1))) (k4_pay609 (ldv d L fix (k4_off78 t1) (k4_off78_inb t1))) (k4_pay610 (ldv d L fix (k4_off79 t1) (k4_off79_inb t1))) (k4_pay611 (ldv d L fix (k4_off80 t1) (k4_off80_inb t1))) (k4_pay612 (ldv d L fix (k4_off81 t1) (k4_off81_inb t1))) (k4_pay613 (ldv d L fix (k4_off82 t1) (k4_off82_inb t1))) (ldv d L fix (k4_off83 t1) (k4_off83_inb t1)) (ldv d L fix (k4_off84 t1) (k4_off84_inb t1)) (ldv d L fix (k4_off85 t1) (k4_off85_inb t1)) (ldv d L fix (k4_off86 t1) (k4_off86_inb t1)) (ldv d L fix (k4_off87 t1) (k4_off87_inb t1)) (ldv d L fix (k4_off88 t1) (k4_off88_inb t1)) (ldv d L fix (k4_off89 t1) (k4_off89_inb t1)) (ldv d L fix (k4_off90 t1) (k4_off90_inb t1)) (ldv d L fix (k4_off91 t1) (k4_off91_inb t1)) hU t2) $$ [Hslab Hout]
    · isplitl [Hslab] <;> iassumption
    iapply (wp_wand frame _ _) $$ Hwp
    iintro %_ ⟨Hslab, Hout⟩
    isplitl [Hslab]
    · iexact Hslab
    iexists _
    isplitl [Hout]
    · iexact Hout
    ipureintro
    exact tripPieces_done negInf fsl fix hfix t1.val t2.val ht k4_pay614 (fun _ => rfl) (slabRd d L fsl) (slabRd_apply d L fsl) _ hU (U3_loaded d L fix t1)
      (k4_off92 t1 t2) (k4_off92_inb t1 t2) (k4_off92_eq t1 t2) (Scf.iv 0#32 1#32 t2.val) (iv4_lt _ ht2) (iv4_val _ ht2) f2' hD2
  · unfold inv2
    isplitl [Hslab]
    · iexact Hslab
    iexists f2
    isplitl [Hout]
    · iexact Hout
    ipureintro
    exact done2_of_done1 hD
  iintro %_ HI
  unfold inv2
  icases HI with ⟨Hslab, %f2'', Hout, %hD4⟩
  sl_exec
  sl_step
  isplitl [Hslab]
  · iexact Hslab
  isplitl [Hidxb]
  · iexact Hidxb
  iexists f2''
  isplitl [Hout]
  · iexact Hout
  ipureintro
  exact done1_of_done2 hD4

end Tile

end Cert.Proof.KB.T4

end
-- ==== Proof.KBTile4Glue.lean ====
/-
  One tile of the third SparseCore call: what its copies bring into the slab and the index scratch, and that the array
  the output scratch is filled with is the pooled array at the tile's output piece.
-/
import proofs.«209975_g17849884082380_cont_8to1_1483_11_alg».proof.Proof.KBTile4Val
import proofs.«209975_g17849884082380_cont_8to1_1483_11_alg».proof.Proof.KBOff4

noncomputable section

namespace Cert.Proof.KB.T4

open Cert.Proof.KB

open Cert.Kernel Cert.Kernel.Gen

open Idealize.ShloMosaic
open Idealize.ShloMosaic.SparseCore (S V T)
open Idealize.ShloMosaic.ValueIdx

variable {F : FTy → Type}

local notation "srcW" => (Memref.whole Cert.Kernel.main_v10_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)

/-! ## The tile's input slices in closed form (the four output pieces' are in KBOff4.lean) -/

theorem off1_eq : ∀ L : grid4.Coords, k4_off1 L = ![(wid L).val / 4, (wid L).val % 4 * 65536] := by decide +kernel
theorem off2_eq : ∀ L : grid4.Coords, k4_off2 L = ![(wid L).val / 4, 0, 0] := by decide +kernel
theorem off25_eq : ∀ L : grid4.Coords, k4_off25 L = ![(wid L).val / 4, 0, 1024] := by decide +kernel
theorem off48_eq : ∀ L : grid4.Coords, k4_off48 L = ![(wid L).val / 4, 0, 2048] := by decide +kernel
theorem off71_eq : ∀ L : grid4.Coords, k4_off71 L = ![(wid L).val / 4, 0, 3072] := by decide +kernel

/-- The source's slice a tile copies into its slab, and the index array's four chunks, as the program slices them. -/
abbrev srcP (L : grid4.Coords) : Memref sig .scVector .hbm S65536 .f32 :=
  ((srcW).slice (Rect.unit (s := S8x262144) (k4_off1 L) S1x65536.size (k4_off1_inb L)) (fun _ => rfl)).squeeze S65536 squeezes_S1x65536_S65536
abbrev idxP0 (L : grid4.Coords) : Memref sig .scVector .hbm S20x1024 .i32 :=
  ((idxW).slice (Rect.unit (s := S8x20x4096) (k4_off2 L) S1x20x1024.size (k4_off2_inb L)) (fun _ => rfl)).squeeze S20x1024 squeezes_S1x20x1024_S20x1024
abbrev idxP1 (L : grid4.Coords) : Memref sig .scVector .hbm S20x1024 .i32 :=
  ((idxW).slice (Rect.unit (s := S8x20x4096) (k4_off25 L) S1x20x1024.size (k4_off25_inb L)) (fun _ => rfl)).squeeze S20x1024 squeezes_S1x20x1024_S20x1024
abbrev idxP2 (L : grid4.Coords) : Memref sig .scVector .hbm S20x1024 .i32 :=
  ((idxW).slice (Rect.unit (s := S8x20x4096) (k4_off48 L) S1x20x1024.size (k4_off48_inb L)) (fun _ => rfl)).squeeze S20x1024 squeezes_S1x20x1024_S20x1024
abbrev idxP3 (L : grid4.Coords) : Memref sig .scVector .hbm S20x1024 .i32 :=
  ((idxW).slice (Rect.unit (s := S8x20x4096) (k4_off71 L) S1x20x1024.size (k4_off71_inb L)) (fun _ => rfl)).squeeze S20x1024 squeezes_S1x20x1024_S20x1024

/-- The tile's cloud `b = wid / 4` and channel group `cg = wid % 4`. -/
def bOf (L : grid4.Coords) : Fin 8 := ⟨(wid L).val / 4, by have := (wid L).isLt; omega⟩
def cgOf (L : grid4.Coords) : Fin 4 := ⟨(wid L).val % 4, by omega⟩

/-- What the slab holds after its copy: the 16 channels of the tile's group, of the tile's cloud. -/
def slabOf (fs : Vec F S8x262144 .f32) (L : grid4.Coords) : Vec F S65536 .f32 :=
  fun p => fs (ix2 (bOf L) ⟨(cgOf L).val * 65536 + (p 0).val, by have := (cgOf L).isLt; have h : (p 0).val < 65536 := (p 0).isLt; omega⟩)
/-- What the index scratch holds after chunk `ch`'s copy: the 20 neighbour rows of the tile's cloud at the chunk's 1024 points. -/
def idxOf (fi : IVec S8x20x4096 32) (L : grid4.Coords) (ch : Fin 4) : IVec S20x1024 32 :=
  fun y => fi (ix3 (bOf L) (y 0) ⟨ch.val * 1024 + (y 1).val, by have := ch.isLt; have h : (y 1).val < 1024 := (y 1).isLt; omega⟩)

variable (d : Dev nD) (L : grid4.Coords) (fs : Buf (Elt F) (srcLoc d)) (fi : Buf (Elt F) (idxLoc d))

theorem srcP_read : (srcP L).view.read (Elt F) fs = slabOf fs L := by
  funext p
  show fs ((Rect.unit (s := S8x262144) (k4_off1 L) S1x65536.size (k4_off1_inb L)).emb
    (Shape.reshapeEquiv squeezes_S1x65536_S65536.numel_eq p)) = _
  unfold slabOf
  congr 1
  rw [Shape.reshapeEquiv_eq_of_rowMajor (y := (ix2 (0 : Fin 1) (p 0) : S1x65536.Idx)) _ (by
    rw [Shape.rowMajor_val_two, Shape.rowMajor_val_one]
    show 0 * 65536 + (p 0).val = (p 0).val
    omega)]
  funext a
  apply Fin.ext
  rw [Rect.emb_apply, Rect.off_unit, Rect.stride_unit]
  have h0 : k4_off1 L 0 = (wid L).val / 4 := by rw [off1_eq]; rfl
  have h1 : k4_off1 L 1 = (wid L).val % 4 * 65536 := by rw [off1_eq]; rfl
  match a with
  | ⟨0, _⟩ => show k4_off1 L 0 + 1 * 0 = (wid L).val / 4; omega
  | ⟨1, _⟩ => show k4_off1 L 1 + 1 * (p 0).val = (wid L).val % 4 * 65536 + (p 0).val; omega
theorem idxP0_read : (idxP0 L).view.read (Elt F) fi = idxOf fi L 0 := by
  funext y
  show fi ((Rect.unit (s := S8x20x4096) (k4_off2 L) S1x20x1024.size (k4_off2_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k4_off2 L 0 = (wid L).val / 4 := by rw [off2_eq]; rfl
  have h1 : k4_off2 L 1 = 0 := by rw [off2_eq]; rfl
  have h2 : k4_off2 L 2 = 0 := by rw [off2_eq]; rfl
  match a with
  | ⟨0, _⟩ => show k4_off2 L 0 + 1 * 0 = (wid L).val / 4; omega
  | ⟨1, _⟩ => show k4_off2 L 1 + 1 * (y 0).val = (y 0).val; omega
  | ⟨2, _⟩ => show k4_off2 L 2 + 1 * (y 1).val = 0 * 1024 + (y 1).val; omega
theorem idxP1_read : (idxP1 L).view.read (Elt F) fi = idxOf fi L 1 := by
  funext y
  show fi ((Rect.unit (s := S8x20x4096) (k4_off25 L) S1x20x1024.size (k4_off25_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k4_off25 L 0 = (wid L).val / 4 := by rw [off25_eq]; rfl
  have h1 : k4_off25 L 1 = 0 := by rw [off25_eq]; rfl
  have h2 : k4_off25 L 2 = 1024 := by rw [off25_eq]; rfl
  match a with
  | ⟨0, _⟩ => show k4_off25 L 0 + 1 * 0 = (wid L).val / 4; omega
  | ⟨1, _⟩ => show k4_off25 L 1 + 1 * (y 0).val = (y 0).val; omega
  | ⟨2, _⟩ => show k4_off25 L 2 + 1 * (y 1).val = 1 * 1024 + (y 1).val; omega
theorem idxP2_read : (idxP2 L).view.read (Elt F) fi = idxOf fi L 2 := by
  funext y
  show fi ((Rect.unit (s := S8x20x4096) (k4_off48 L) S1x20x1024.size (k4_off48_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k4_off48 L 0 = (wid L).val / 4 := by rw [off48_eq]; rfl
  have h1 : k4_off48 L 1 = 0 := by rw [off48_eq]; rfl
  have h2 : k4_off48 L 2 = 2048 := by rw [off48_eq]; rfl
  match a with
  | ⟨0, _⟩ => show k4_off48 L 0 + 1 * 0 = (wid L).val / 4; omega
  | ⟨1, _⟩ => show k4_off48 L 1 + 1 * (y 0).val = (y 0).val; omega
  | ⟨2, _⟩ => show k4_off48 L 2 + 1 * (y 1).val = 2 * 1024 + (y 1).val; omega
theorem idxP3_read : (idxP3 L).view.read (Elt F) fi = idxOf fi L 3 := by
  funext y
  show fi ((Rect.unit (s := S8x20x4096) (k4_off71 L) S1x20x1024.size (k4_off71_inb L)).emb
    (Shape.reshapeEquiv squeezes_S1x20x1024_S20x1024.numel_eq y)) = _
  unfold idxOf
  congr 1
  rw [Shape.reshapeEquiv_eq_of_rowMajor (y := (ix3 (0 : Fin 1) (y 0) (y 1) : S1x20x1024.Idx)) _ (by
    rw [Shape.rowMajor_val_three, Shape.rowMajor_val_two]
    show (0 * 20 + (y 0).val) * 1024 + (y 1).val = (y 0).val * 1024 + (y 1).val
    omega)]
  funext a
  apply Fin.ext
  rw [Rect.emb_apply, Rect.off_unit, Rect.stride_unit]
  have h0 : k4_off71 L 0 = (wid L).val / 4 := by rw [off71_eq]; rfl
  have h1 : k4_off71 L 1 = 0 := by rw [off71_eq]; rfl
  have h2 : k4_off71 L 2 = 3072 := by rw [off71_eq]; rfl
  match a with
  | ⟨0, _⟩ => show k4_off71 L 0 + 1 * 0 = (wid L).val / 4; omega
  | ⟨1, _⟩ => show k4_off71 L 1 + 1 * (y 0).val = (y 0).val; omega
  | ⟨2, _⟩ => show k4_off71 L 2 + 1 * (y 1).val = 3 * 1024 + (y 1).val; omega

theorem idxOf_lt (hidx : ∀ j, (fi j).toNat < 4096) (ch : Fin 4) (y : S20x1024.Idx) : (idxOf fi L ch y).toNat < 4096 := hidx _

/-- Where output piece 0 of the tile sits in the pooled array: cloud b, channel 16 cg + r, point 0 + x. -/
theorem oP0_emb (y : S16x1024.Idx) :
    (oP0 L).view.emb y = (ix3 (bOf L)
      (⟨(cgOf L).val * 16 + (y 0).val, by have := (cgOf L).isLt; have h : (y 0).val < 16 := (y 0).isLt; omega⟩ : Fin 64)
      (⟨0 * 1024 + (y 1).val, by have h : (y 1).val < 1024 := (y 1).isLt; omega⟩ : Fin 4096) : S8x64x4096.Idx) := by
  show (Rect.unit (s := S8x64x4096) (k4_off24 L) S1x16x1024.size (k4_off24_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k4_off24 L 0 = (wid L).val / 4 := by rw [off24_eq]; rfl
  have h1 : k4_off24 L 1 = (wid L).val % 4 * 16 := by rw [off24_eq]; rfl
  have h2 : k4_off24 L 2 = 0 := by rw [off24_eq]; rfl
  match a with
  | ⟨0, _⟩ => show k4_off24 L 0 + 1 * 0 = (wid L).val / 4; omega
  | ⟨1, _⟩ => show k4_off24 L 1 + 1 * (y 0).val = (wid L).val % 4 * 16 + (y 0).val; omega
  | ⟨2, _⟩ => show k4_off24 L 2 + 1 * (y 1).val = 0 * 1024 + (y 1).val; omega

/-- Where output piece 1 of the tile sits in the pooled array: cloud b, channel 16 cg + r, point 1024 + x. -/
theorem oP1_emb (y : S16x1024.Idx) :
    (oP1 L).view.emb y = (ix3 (bOf L)
      (⟨(cgOf L).val * 16 + (y 0).val, by have := (cgOf L).isLt; have h : (y 0).val < 16 := (y 0).isLt; omega⟩ : Fin 64)
      (⟨1 * 1024 + (y 1).val, by have h : (y 1).val < 1024 := (y 1).isLt; omega⟩ : Fin 4096) : S8x64x4096.Idx) := by
  show (Rect.unit (s := S8x64x4096) (k4_off47 L) S1x16x1024.size (k4_off47_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k4_off47 L 0 = (wid L).val / 4 := by rw [off47_eq]; rfl
  have h1 : k4_off47 L 1 = (wid L).val % 4 * 16 := by rw [off47_eq]; rfl
  have h2 : k4_off47 L 2 = 1024 := by rw [off47_eq]; rfl
  match a with
  | ⟨0, _⟩ => show k4_off47 L 0 + 1 * 0 = (wid L).val / 4; omega
  | ⟨1, _⟩ => show k4_off47 L 1 + 1 * (y 0).val = (wid L).val % 4 * 16 + (y 0).val; omega
  | ⟨2, _⟩ => show k4_off47 L 2 + 1 * (y 1).val = 1 * 1024 + (y 1).val; omega

/-- Where output piece 2 of the tile sits in the pooled array: cloud b, channel 16 cg + r, point 2048 + x. -/
theorem oP2_emb (y : S16x1024.Idx) :
    (oP2 L).view.emb y = (ix3 (bOf L)
      (⟨(cgOf L).val * 16 + (y 0).val, by have := (cgOf L).isLt; have h : (y 0).val < 16 := (y 0).isLt; omega⟩ : Fin 64)
      (⟨2 * 1024 + (y 1).val, by have h : (y 1).val < 1024 := (y 1).isLt; omega⟩ : Fin 4096) : S8x64x4096.Idx) := by
  show (Rect.unit (s := S8x64x4096) (k4_off70 L) S1x16x1024.size (k4_off70_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k4_off70 L 0 = (wid L).val / 4 := by rw [off70_eq]; rfl
  have h1 : k4_off70 L 1 = (wid L).val % 4 * 16 := by rw [off70_eq]; rfl
  have h2 : k4_off70 L 2 = 2048 := by rw [off70_eq]; rfl
  match a with
  | ⟨0, _⟩ => show k4_off70 L 0 + 1 * 0 = (wid L).val / 4; omega
  | ⟨1, _⟩ => show k4_off70 L 1 + 1 * (y 0).val = (wid L).val % 4 * 16 + (y 0).val; omega
  | ⟨2, _⟩ => show k4_off70 L 2 + 1 * (y 1).val = 2 * 1024 + (y 1).val; omega

/-- Where output piece 3 of the tile sits in the pooled array: cloud b, channel 16 cg + r, point 3072 + x. -/
theorem oP3_emb (y : S16x1024.Idx) :
    (oP3 L).view.emb y = (ix3 (bOf L)
      (⟨(cgOf L).val * 16 + (y 0).val, by have := (cgOf L).isLt; have h : (y 0).val < 16 := (y 0).isLt; omega⟩ : Fin 64)
      (⟨3 * 1024 + (y 1).val, by have h : (y 1).val < 1024 := (y 1).isLt; omega⟩ : Fin 4096) : S8x64x4096.Idx) := by
  show (Rect.unit (s := S8x64x4096) (k4_off93 L) S1x16x1024.size (k4_off93_inb L)).emb
    (Shape.reshapeEquiv squeezes_S1x16x1024_S16x1024.numel_eq y) = _
  rw [Shape.reshapeEquiv_eq_of_rowMajor (y := (ix3 (0 : Fin 1) (y 0) (y 1) : S1x16x1024.Idx)) _ (by
    rw [Shape.rowMajor_val_three, Shape.rowMajor_val_two]
    show (0 * 16 + (y 0).val) * 1024 + (y 1).val = (y 0).val * 1024 + (y 1).val
    omega)]
  funext a
  apply Fin.ext
  rw [Rect.emb_apply, Rect.off_unit, Rect.stride_unit]
  have h0 : k4_off93 L 0 = (wid L).val / 4 := by rw [off93_eq]; rfl
  have h1 : k4_off93 L 1 = (wid L).val % 4 * 16 := by rw [off93_eq]; rfl
  have h2 : k4_off93 L 2 = 3072 := by rw [off93_eq]; rfl
  match a with
  | ⟨0, _⟩ => show k4_off93 L 0 + 1 * 0 = (wid L).val / 4; omega
  | ⟨1, _⟩ => show k4_off93 L 1 + 1 * (y 0).val = (wid L).val % 4 * 16 + (y 0).val; omega
  | ⟨2, _⟩ => show k4_off93 L 2 + 1 * (y 1).val = 3 * 1024 + (y 1).val; omega

variable [FloatOps F]

/-- The array a chunk's output scratch is filled with is the pooled array at the tile's output piece of that chunk
    (`hidx`: every neighbour word is a point of the cloud, so reducing it into the cloud changes nothing). -/
theorem glue0 (hidx : ∀ j, (fi j).toNat < 4096) (y : S16x1024.Idx) :
    Gout (Scalar.ofBits .f32 0xFF800000#32) (slabOf fs L) (idxOf fi L 0) y = gmaxArr fs fi ((oP0 L).view.emb y) := by
  rw [oP0_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 0 (ix2 k (y 1))).toNat % 4096)
    = ((cgOf L).val * 16 + (y 0).val) * 4096 + (idxOf fi L 0 (ix2 k (y 1))).toNat % 4096
  omega
theorem glue1 (hidx : ∀ j, (fi j).toNat < 4096) (y : S16x1024.Idx) :
    Gout (Scalar.ofBits .f32 0xFF800000#32) (slabOf fs L) (idxOf fi L 1) y = gmaxArr fs fi ((oP1 L).view.emb y) := by
  rw [oP1_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 1 (ix2 k (y 1))).toNat % 4096)
    = ((cgOf L).val * 16 + (y 0).val) * 4096 + (idxOf fi L 1 (ix2 k (y 1))).toNat % 4096
  omega
theorem glue2 (hidx : ∀ j, (fi j).toNat < 4096) (y : S16x1024.Idx) :
    Gout (Scalar.ofBits .f32 0xFF800000#32) (slabOf fs L) (idxOf fi L 2) y = gmaxArr fs fi ((oP2 L).view.emb y) := by
  rw [oP2_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 2 (ix2 k (y 1))).toNat % 4096)
    = ((cgOf L).val * 16 + (y 0).val) * 4096 + (idxOf fi L 2 (ix2 k (y 1))).toNat % 4096
  omega
theorem glue3 (hidx : ∀ j, (fi j).toNat < 4096) (y : S16x1024.Idx) :
    Gout (Scalar.ofBits .f32 0xFF800000#32) (slabOf fs L) (idxOf fi L 3) y = gmaxArr fs fi ((oP3 L).view.emb y) := by
  rw [oP3_emb]
  unfold Gout gmaxArr
  refine List.foldl_ext _ _ _ fun acc k _ => ?_
  refine congrArg (FloatOps.maximumf acc) (congrArg fs (congrArg (ix2 (bOf L)) (Fin.ext ?_)))
  show (cgOf L).val * 65536 + ((y 0).val * 4096 + (idxOf fi L 3 (ix2 k (y 1))).toNat % 4096)
    = ((cgOf L).val * 16 + (y 0).val) * 4096 + (idxOf fi L 3 (ix2 k (y 1))).toNat % 4096
  omega

end Cert.Proof.KB.T4

end
-- ==== Proof.KBTile4Out.lean ====
/-
  One tile of the third SparseCore call: an output piece written whole from the filled output scratch holds the pooled array.
  Values off a piece's element set are irrelevant; an element of the set lies under an index of the piece, where the
  write leaves the payload, and the payload there is the pooled array.
-/
import proofs.«209975_g17849884082380_cont_8to1_1483_11_alg».proof.Proof.KBTile4Glue

noncomputable section

namespace Cert.Proof.KB.T4

open Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 3) (Elt F) ℕ UU ℕ

variable (d : Dev nD) (L : grid4.Coords) (fs : Buf (Elt F) (srcLoc d)) (fi : Buf (Elt F) (idxLoc d))
variable [FloatOps F]

theorem out_piece0 (hidx : ∀ j, (fi j).toNat < 4096) (fo : Buf (Elt F) (outLoc d)) :
    (outLoc d ↦[oSet0 L]{fullShare} View.write (Elt F) (oP0 L).view fo (Gout (Scalar.ofBits .f32 0xFF800000#32) (slabOf fs L) (idxOf fi L 0)) Finset.univ : sProp 𝕄)
      = (outLoc d ↦[oSet0 L]{fullShare} gmaxArr fs fi) := by
  refine pointsTo_congr fun i hi => ?_
  obtain ⟨y, -, rfl⟩ := Finset.mem_map.mp hi
  rw [View.write_emb_of_mem _ _ (Finset.mem_univ y)]
  exact glue0 d L fs fi hidx y

theorem out_piece1 (hidx : ∀ j, (fi j).toNat < 4096) (fo : Buf (Elt F) (outLoc d)) :
    (outLoc d ↦[oSet1 L]{fullShare} View.write (Elt F) (oP1 L).view fo (Gout (Scalar.ofBits .f32 0xFF800000#32) (slabOf fs L) (idxOf fi L 1)) Finset.univ : sProp 𝕄)
      = (outLoc d ↦[oSet1 L]{fullShare} gmaxArr fs fi) := by
  refine pointsTo_congr fun i hi => ?_
  obtain ⟨y, -, rfl⟩ := Finset.mem_map.mp hi
  rw [View.write_emb_of_mem _ _ (Finset.mem_univ y)]
  exact glue1 d L fs fi hidx y

theorem out_piece2 (hidx : ∀ j, (fi j).toNat < 4096) (fo : Buf (Elt F) (outLoc d)) :
    (outLoc d ↦[oSet2 L]{fullShare} View.write (Elt F) (oP2 L).view fo (Gout (Scalar.ofBits .f32 0xFF800000#32) (slabOf fs L) (idxOf fi L 2)) Finset.univ : sProp 𝕄)
      = (outLoc d ↦[oSet2 L]{fullShare} gmaxArr fs fi) := by
  refine pointsTo_congr fun i hi => ?_
  obtain ⟨y, -, rfl⟩ := Finset.mem_map.mp hi
  rw [View.write_emb_of_mem _ _ (Finset.mem_univ y)]
  exact glue2 d L fs fi hidx y

theorem out_piece3 (hidx : ∀ j, (fi j).toNat < 4096) (fo : Buf (Elt F) (outLoc d)) :
    (outLoc d ↦[oSet3 L]{fullShare} View.write (Elt F) (oP3 L).view fo (Gout (Scalar.ofBits .f32 0xFF800000#32) (slabOf fs L) (idxOf fi L 3)) Finset.univ : sProp 𝕄)
      = (outLoc d ↦[oSet3 L]{fullShare} gmaxArr fs fi) := by
  refine pointsTo_congr fun i hi => ?_
  obtain ⟨y, -, rfl⟩ := Finset.mem_map.mp hi
  rw [View.write_emb_of_mem _ _ (Finset.mem_univ y)]
  exact glue3 d L fs fi hidx y

/-! ### The same for any contents that read, through the piece, as the filled scratch -/

theorem out_gen0 (hidx : ∀ j, (fi j).toNat < 4096) (g : Buf (Elt F) (outLoc d))
    (hg : ∀ y : S16x1024.Idx, (oP0 L).view.read (Elt F) g y = Gout (Scalar.ofBits .f32 0xFF800000#32) (slabOf fs L) (idxOf fi L 0) y) :
    (outLoc d ↦[oSet0 L]{fullShare} g : sProp 𝕄) = (outLoc d ↦[oSet0 L]{fullShare} gmaxArr fs fi) := by
  refine pointsTo_congr fun i hi => ?_
  obtain ⟨y, -, rfl⟩ := Finset.mem_map.mp hi
  exact (hg y).trans (glue0 d L fs fi hidx y)

theorem out_gen1 (hidx : ∀ j, (fi j).toNat < 4096) (g : Buf (Elt F) (outLoc d))
    (hg : ∀ y : S16x1024.Idx, (oP1 L).view.read (Elt F) g y = Gout (Scalar.ofBits .f32 0xFF800000#32) (slabOf fs L) (idxOf fi L 1) y) :
    (outLoc d ↦[oSet1 L]{fullShare} g : sProp 𝕄) = (outLoc d ↦[oSet1 L]{fullShare} gmaxArr fs fi) := by
  refine pointsTo_congr fun i hi => ?_
  obtain ⟨y, -, rfl⟩ := Finset.mem_map.mp hi
  exact (hg y).trans (glue1 d L fs fi hidx y)

theorem out_gen2 (hidx : ∀ j, (fi j).toNat < 4096) (g : Buf (Elt F) (outLoc d))
    (hg : ∀ y : S16x1024.Idx, (oP2 L).view.read (Elt F) g y = Gout (Scalar.ofBits .f32 0xFF800000#32) (slabOf fs L) (idxOf fi L 2) y) :
    (outLoc d ↦[oSet2 L]{fullShare} g : sProp 𝕄) = (outLoc d ↦[oSet2 L]{fullShare} gmaxArr fs fi) := by
  refine pointsTo_congr fun i hi => ?_
  obtain ⟨y, -, rfl⟩ := Finset.mem_map.mp hi
  exact (hg y).trans (glue2 d L fs fi hidx y)

theorem out_gen3 (hidx : ∀ j, (fi j).toNat < 4096) (g : Buf (Elt F) (outLoc d))
    (hg : ∀ y : S16x1024.Idx, (oP3 L).view.read (Elt F) g y = Gout (Scalar.ofBits .f32 0xFF800000#32) (slabOf fs L) (idxOf fi L 3) y) :
    (outLoc d ↦[oSet3 L]{fullShare} g : sProp 𝕄) = (outLoc d ↦[oSet3 L]{fullShare} gmaxArr fs fi) := by
  refine pointsTo_congr fun i hi => ?_
  obtain ⟨y, -, rfl⟩ := Finset.mem_map.mp hi
  exact (hg y).trans (glue3 d L fs fi hidx y)

end Cert.Proof.KB.T4

end
-- ==== Proof.KBTile4.lean ====
/-
  One tile of the third SparseCore call (the plain gather-and-max): its body's weakest precondition at a symbolic tile,
  from the resources the call deals it to the same back with its four output pieces at the pooled array.
-/
import proofs.«209975_g17849884082380_cont_8to1_1483_11_alg».proof.Proof.KBTile4C0
import proofs.«209975_g17849884082380_cont_8to1_1483_11_alg».proof.Proof.KBTile4C1
import proofs.«209975_g17849884082380_cont_8to1_1483_11_alg».proof.Proof.KBTile4C2
import proofs.«209975_g17849884082380_cont_8to1_1483_11_alg».proof.Proof.KBTile4C3
import proofs.«209975_g17849884082380_cont_8to1_1483_11_alg».proof.Proof.KBTile4Out

noncomputable section

namespace Cert.Proof.KB.T4

open Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 3) (Elt F) ℕ UU ℕ

local notation "srcW" => (Memref.whole Cert.Kernel.main_v10_scv : Memref Cert.Kernel.sig Kind.scVector Space.hbm Cert.Kernel.S8x262144 EltTy.f32)
local notation "idxW" => (Memref.whole Cert.Kernel.main_v0_scv : Memref Cert.Kernel.sig Kind.scVector Space.hbm Cert.Kernel.S8x20x4096 EltTy.i32)
local notation "outW" => (Memref.whole Cert.Kernel.main_v11_scv : Memref Cert.Kernel.sig Kind.scVector Space.hbm Cert.Kernel.S8x64x4096 EltTy.f32)
local notation "slabW" => (Memref.whole Cert.Kernel.cc4_scratch0 : Memref Cert.Kernel.sig Kind.scVector Space.vmem Cert.Kernel.S65536 EltTy.f32)
local notation "idxbW" => (Memref.whole Cert.Kernel.cc4_scratch1 : Memref Cert.Kernel.sig Kind.scVector Space.vmem Cert.Kernel.S20x1024 EltTy.i32)
local notation "outbW" => (Memref.whole Cert.Kernel.cc4_scratch2 : Memref Cert.Kernel.sig Kind.scVector Space.vmem Cert.Kernel.S16x1024 EltTy.f32)

section Tile

variable (d : Dev nD) (L : grid4.Coords)

/-! ## The tile's own scratch buffers and semaphores among its thread's -/

def myRefs (L : grid4.Coords) : Finset (DevRef τ sig) :=
  {(Proc.scVector (cV L) (jV L)).devRef cc4_scratch0, (Proc.scVector (cV L) (jV L)).devRef cc4_scratch1, (Proc.scVector (cV L) (jV L)).devRef cc4_scratch2}

theorem myRefs_sub : myRefs L ⊆ ownRefs (τ := τ) (.scVector (cV L) (jV L)) := by
  intro b hb
  simp only [myRefs, Finset.mem_insert, Finset.mem_singleton] at hb
  rcases hb with rfl | rfl | rfl <;> exact SparseCore.Cfg.mem_ownRefs_of_owner (p := Proc.scVector (cV L) (jV L)) rfl

theorem myRefs_sep :
    (bigSep (myRefs L) fun b => iprop(∃ f, ((d, b) : Loc nD τ sig) ↦{fullShare} f) : sProp 𝕄)
      = iprop((∃ f, (V d (cV L) (jV L)).loc cc4_scratch0 ↦{fullShare} f) ∗ (∃ f, (V d (cV L) (jV L)).loc cc4_scratch1 ↦{fullShare} f)
          ∗ (∃ f, (V d (cV L) (jV L)).loc cc4_scratch2 ↦{fullShare} f)) := by
  unfold myRefs
  rw [SparseCore.bigSep_insert' (by
      simp only [Finset.mem_insert, Finset.mem_singleton, not_or]
      exact ⟨fun e => absurd (Proc.devRef_injective _ e) (show (cc4_scratch0 : Ref sig .scVector) ≠ cc4_scratch1 by decide),
        fun e => absurd (Proc.devRef_injective _ e) (show (cc4_scratch0 : Ref sig .scVector) ≠ cc4_scratch2 by decide)⟩),
    SparseCore.bigSep_insert' (by
      simp only [Finset.mem_singleton]
      exact fun e => absurd (Proc.devRef_injective _ e) (show (cc4_scratch1 : Ref sig .scVector) ≠ cc4_scratch2 by decide)), bigSep_singleton]

theorem ownBufs_V2 :
    (ownBufs (V d (cV L) (jV L)) : sProp 𝕄)
      = iprop(((∃ f, (V d (cV L) (jV L)).loc cc4_scratch0 ↦{fullShare} f) ∗ (∃ f, (V d (cV L) (jV L)).loc cc4_scratch1 ↦{fullShare} f)
          ∗ (∃ f, (V d (cV L) (jV L)).loc cc4_scratch2 ↦{fullShare} f))
          ∗ bigSep ((ownRefs (τ := τ) (.scVector (cV L) (jV L))) \ myRefs L) fun b => iprop(∃ f, ((d, b) : Loc nD τ sig) ↦{fullShare} f)) := by
  unfold SparseCore.Cfg.ownBufs
  rw [SparseCore.bigSep_sdiff_split' (myRefs_sub L), myRefs_sep]

abbrev mc (d : Dev nD) (L : grid4.Coords) (s : DmaSems sig S_) : GSem nD τ sig := (V d (cV L) (jV L), .dma s.sem)

def myCells (d : Dev nD) (L : grid4.Coords) : Finset (GSem nD τ sig) :=
  {mc d L cc4_scoped0, mc d L cc4_scoped1, mc d L cc4_scoped2, mc d L cc4_scoped3, mc d L cc4_scoped4, mc d L cc4_scoped5,
    mc d L cc4_scoped6, mc d L cc4_scoped7, mc d L cc4_scoped8}

theorem mc_mem (s : DmaSems sig S_) (h : (SemLoc.dma s.sem : SemLoc sig).isScoped .scVector = true) : mc d L s ∈ ownCells (V d (cV L) (jV L)) :=
  mem_ownCells.mpr ⟨rfl, h⟩

theorem myCells_sub : myCells d L ⊆ ownCells (V d (cV L) (jV L)) := by
  intro g hg
  simp only [myCells, Finset.mem_insert, Finset.mem_singleton] at hg
  rcases hg with rfl | rfl | rfl | rfl | rfl | rfl | rfl | rfl | rfl
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)
  · exact mc_mem d L _ (by decide)

theorem myCells_sep :
    (bigSep (myCells d L) fun g => semVal g 0 : sProp 𝕄)
      = iprop(semVal (mc d L cc4_scoped0) 0 ∗ semVal (mc d L cc4_scoped1) 0 ∗ semVal (mc d L cc4_scoped2) 0 ∗ semVal (mc d L cc4_scoped3) 0
          ∗ semVal (mc d L cc4_scoped4) 0 ∗ semVal (mc d L cc4_scoped5) 0 ∗ semVal (mc d L cc4_scoped6) 0 ∗ semVal (mc d L cc4_scoped7) 0
          ∗ semVal (mc d L cc4_scoped8) 0) := by
  unfold myCells
  have hne : ∀ {a b : DmaSems sig S_}, a.sem ≠ b.sem → mc d L a ≠ mc d L b := fun h e => h (by simpa [mc] using e)
  rw [SparseCore.bigSep_insert' (by simp only [Finset.mem_insert, Finset.mem_singleton, not_or]; refine ⟨?_, ?_, ?_, ?_, ?_, ?_, ?_, ?_⟩ <;> exact hne (by decide)),
    SparseCore.bigSep_insert' (by simp only [Finset.mem_insert, Finset.mem_singleton, not_or]; refine ⟨?_, ?_, ?_, ?_, ?_, ?_, ?_⟩ <;> exact hne (by decide)),
    SparseCore.bigSep_insert' (by simp only [Finset.mem_insert, Finset.mem_singleton, not_or]; refine ⟨?_, ?_, ?_, ?_, ?_, ?_⟩ <;> exact hne (by decide)),
    SparseCore.bigSep_insert' (by simp only [Finset.mem_insert, Finset.mem_singleton, not_or]; refine ⟨?_, ?_, ?_, ?_, ?_⟩ <;> exact hne (by decide)),
    SparseCore.bigSep_insert' (by simp only [Finset.mem_insert, Finset.mem_singleton, not_or]; refine ⟨?_, ?_, ?_, ?_⟩ <;> exact hne (by decide)),
    SparseCore.bigSep_insert' (by simp only [Finset.mem_insert, Finset.mem_singleton, not_or]; refine ⟨?_, ?_, ?_⟩ <;> exact hne (by decide)),
    SparseCore.bigSep_insert' (by simp only [Finset.mem_insert, Finset.mem_singleton, not_or]; refine ⟨?_, ?_⟩ <;> exact hne (by decide)),
    SparseCore.bigSep_insert' (by simp only [Finset.mem_singleton]; exact hne (by decide)), bigSep_singleton]

theorem ownSems0_V2 :
    (ownSems0 (V d (cV L) (jV L)) : sProp 𝕄)
      = iprop((semVal (mc d L cc4_scoped0) 0 ∗ semVal (mc d L cc4_scoped1) 0 ∗ semVal (mc d L cc4_scoped2) 0 ∗ semVal (mc d L cc4_scoped3) 0
          ∗ semVal (mc d L cc4_scoped4) 0 ∗ semVal (mc d L cc4_scoped5) 0 ∗ semVal (mc d L cc4_scoped6) 0 ∗ semVal (mc d L cc4_scoped7) 0
          ∗ semVal (mc d L cc4_scoped8) 0)
          ∗ bigSep (ownCells (V d (cV L) (jV L)) \ myCells d L) fun g => semVal g 0) := by
  unfold SparseCore.Cfg.ownSems0
  rw [SparseCore.bigSep_sdiff_split' (myCells_sub d L), myCells_sep]

/-! ## The arrays as the tile's memrefs address them -/

theorem pts_src (q : PosShare TreeShare) (f : Buf (Elt F) (srcLoc d)) :
    ((srcW).view.loc (V d (cV L) (jV L)) ↦{q} f : sProp 𝕄) = srcLoc d ↦{q} f := by
  simp only [Memref.view_whole, View.set_whole]
theorem pts_idx (q : PosShare TreeShare) (f : Buf (Elt F) (idxLoc d)) :
    ((idxW).view.loc (V d (cV L) (jV L)) ↦{q} f : sProp 𝕄) = idxLoc d ↦{q} f := by
  simp only [Memref.view_whole, View.set_whole]
theorem pts_o0 (f : Buf (Elt F) (outLoc d)) :
    ((oP0 L).view.loc (V d (cV L) (jV L)) ↦[(oP0 L).view.set]{fullShare} f : sProp 𝕄) = outLoc d ↦[oSet0 L]{fullShare} f := rfl
theorem pts_o1 (f : Buf (Elt F) (outLoc d)) :
    ((oP1 L).view.loc (V d (cV L) (jV L)) ↦[(oP1 L).view.set]{fullShare} f : sProp 𝕄) = outLoc d ↦[oSet1 L]{fullShare} f := rfl
theorem pts_o2 (f : Buf (Elt F) (outLoc d)) :
    ((oP2 L).view.loc (V d (cV L) (jV L)) ↦[(oP2 L).view.set]{fullShare} f : sProp 𝕄) = outLoc d ↦[oSet2 L]{fullShare} f := rfl
theorem pts_o3 (f : Buf (Elt F) (outLoc d)) :
    ((oP3 L).view.loc (V d (cV L) (jV L)) ↦[(oP3 L).view.set]{fullShare} f : sProp 𝕄) = outLoc d ↦[oSet3 L]{fullShare} f := rfl
theorem pts_slab (f : Buf (Elt F) ((V d (cV L) (jV L)).loc cc4_scratch0)) :
    ((slabW).view.loc (V d (cV L) (jV L)) ↦{fullShare} f : sProp 𝕄) = (V d (cV L) (jV L)).loc cc4_scratch0 ↦{fullShare} f := rfl
theorem pts_idxb (f : Buf (Elt F) ((V d (cV L) (jV L)).loc cc4_scratch1)) :
    ((idxbW).view.loc (V d (cV L) (jV L)) ↦{fullShare} f : sProp 𝕄) = (V d (cV L) (jV L)).loc cc4_scratch1 ↦{fullShare} f := rfl
theorem pts_outb (f : Buf (Elt F) ((V d (cV L) (jV L)).loc cc4_scratch2)) :
    ((outbW).view.loc (V d (cV L) (jV L)) ↦{fullShare} f : sProp 𝕄) = (V d (cV L) (jV L)).loc cc4_scratch2 ↦{fullShare} f := rfl

variable (fs : Buf (Elt F) (srcLoc d)) (fi : Buf (Elt F) (idxLoc d))
variable [FloatOps F]

/-! ## What the copies leave in the scratches -/

theorem slab_after (f0 : Buf (Elt F) ((V d (cV L) (jV L)).loc cc4_scratch0)) :
    ((slabW).view.loc (V d (cV L) (jV L)) ↦{fullShare} View.write (Elt F) (slabW).view f0 (ReadAs.same.apply ((srcP L).view.read (Elt F) fs)) Finset.univ : sProp 𝕄)
      = ((slabW).view.loc (V d (cV L) (jV L)) ↦{fullShare} slabOf fs L) :=
  congrArg (fun f => ((slabW).view.loc (V d (cV L) (jV L)) ↦{fullShare} f : sProp 𝕄)) ((View.write_whole_univ cc4_scratch0 f0 _).trans (srcP_read d L fs))
theorem idxb_after0 (f1 : Buf (Elt F) ((V d (cV L) (jV L)).loc cc4_scratch1)) :
    ((idxbW).view.loc (V d (cV L) (jV L)) ↦{fullShare} View.write (Elt F) (idxbW).view f1 (ReadAs.same.apply ((idxP0 L).view.read (Elt F) fi)) Finset.univ : sProp 𝕄)
      = ((idxbW).view.loc (V d (cV L) (jV L)) ↦{fullShare} idxOf fi L 0) :=
  congrArg (fun f => ((idxbW).view.loc (V d (cV L) (jV L)) ↦{fullShare} f : sProp 𝕄)) ((View.write_whole_univ cc4_scratch1 f1 _).trans (idxP0_read d L fi))
theorem idxb_after1 (f1 : Buf (Elt F) ((V d (cV L) (jV L)).loc cc4_scratch1)) :
    ((idxbW).view.loc (V d (cV L) (jV L)) ↦{fullShare} View.write (Elt F) (idxbW).view f1 (ReadAs.same.apply ((idxP1 L).view.read (Elt F) fi)) Finset.univ : sProp 𝕄)
      = ((idxbW).view.loc (V d (cV L) (jV L)) ↦{fullShare} idxOf fi L 1) :=
  congrArg (fun f => ((idxbW).view.loc (V d (cV L) (jV L)) ↦{fullShare} f : sProp 𝕄)) ((View.write_whole_univ cc4_scratch1 f1 _).trans (idxP1_read d L fi))
theorem idxb_after2 (f1 : Buf (Elt F) ((V d (cV L) (jV L)).loc cc4_scratch1)) :
    ((idxbW).view.loc (V d (cV L) (jV L)) ↦{fullShare} View.write (Elt F) (idxbW).view f1 (ReadAs.same.apply ((idxP2 L).view.read (Elt F) fi)) Finset.univ : sProp 𝕄)
      = ((idxbW).view.loc (V d (cV L) (jV L)) ↦{fullShare} idxOf fi L 2) :=
  congrArg (fun f => ((idxbW).view.loc (V d (cV L) (jV L)) ↦{fullShare} f : sProp 𝕄)) ((View.write_whole_univ cc4_scratch1 f1 _).trans (idxP2_read d L fi))
theorem idxb_after3 (f1 : Buf (Elt F) ((V d (cV L) (jV L)).loc cc4_scratch1)) :
    ((idxbW).view.loc (V d (cV L) (jV L)) ↦{fullShare} View.write (Elt F) (idxbW).view f1 (ReadAs.same.apply ((idxP3 L).view.read (Elt F) fi)) Finset.univ : sProp 𝕄)
      = ((idxbW).view.loc (V d (cV L) (jV L)) ↦{fullShare} idxOf fi L 3) :=
  congrArg (fun f => ((idxbW).view.loc (V d (cV L) (jV L)) ↦{fullShare} f : sProp 𝕄)) ((View.write_whole_univ cc4_scratch1 f1 _).trans (idxP3_read d L fi))

theorem done1_zero (G : S16x1024.Idx → F .f32) (f2 : S16x1024.Idx → F .f32) : Done1 G 0 f2 :=
  fun y hy => absurd hy (by omega)

/-! ## An output piece overwritten whole reads its payload -/

omit [FloatOps F] in
theorem whole_emb (y : S16x1024.Idx) : (Rect.whole S16x1024).emb y = y := by
  funext a
  exact Fin.ext (by rw [Rect.emb_apply]; show 0 + 1 * (y a).val = (y a).val; omega)

omit [FloatOps F] in
theorem read_writes_whole (v : View sig .scVector .hbm S16x1024 .f32) (f : v.ty.Contents (Elt F)) (w : S16x1024.Idx → Elt F .f32) (y : S16x1024.Idx) :
    v.read (Elt F) (v.writes (Elt F) f [⟨Rect.whole S16x1024, w⟩]) y = w y :=
  (congrArg (v.read (Elt F) (v.writes (Elt F) f [⟨Rect.whole S16x1024, w⟩])) (whole_emb y).symm).trans
    (View.read_writes_cons_emb v f (Rect.whole S16x1024) w [] y)

set_option maxHeartbeats 8000000 in
theorem tile_body4 (hF : (K (F := F)).Facts) (hidx : ∀ j, (fi j).toNat < 4096)
    (O : CellTallies nD τ sig (HIx 3)) (W : Waits sig (HIx 3)) (hO : ∀ g, O g none = 0) :
    iprop(levAts (K (F := F)).L (K (F := F)).lev ∗ emp ∗ go4 d L fs fi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_body L srcW (Memref.isWhole_whole _) idxW (Memref.isWhole_whole _) outW (Memref.isWhole_whole _)
            slabW (Memref.isWhole_whole _) idxbW (Memref.isWhole_whole _) outbW (Memref.isWhole_whole _)
            cc4_scoped0 cc4_scoped1 cc4_scoped2 cc4_scoped3 cc4_scoped4 cc4_scoped5 cc4_scoped6 cc4_scoped7 cc4_scoped8)
          fun _ => iprop(td4 d L fs fi ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4_body_eq_skeleton]; unfold cc4_body_skel
  rw [(K (F := F)).scopedBufs_V hF d (cV L) (jV L), SparseCore.Cfg.scopedSems0_V (Val := Elt F) d (cV L) (jV L), ownSems0_V2, ownBufs_V2]
  unfold go4
  iintro ⟨#Hlv, -, ⟨Hsrc, Hidx, ⟨%fo0, Ho0⟩, ⟨%fo1, Ho1⟩, ⟨%fo2, Ho2⟩, ⟨%fo3, Ho3⟩⟩, ⟨⟨⟨%f0, Hs0⟩, ⟨%f1, Hs1⟩, ⟨%f2, Hs2⟩⟩, Hbufs⟩,
    ⟨⟨Hm0, Hm1, Hm2, Hm3, Hm4, Hm5, Hm6, Hm7, Hm8⟩, Hsems⟩, HO⟩
  ihave Hmw := ((K (F := F)).mayWaits_none (thr := V d (cV L) (jV L)) hO) $$ Hlv
  ihave Hsrc := (Entails.of_eq (pts_src (F := F) d L _ _).symm) $$ Hsrc
  ihave Hidx := (Entails.of_eq (pts_idx (F := F) d L _ _).symm) $$ Hidx
  ihave Ho0 := (Entails.of_eq (pts_o0 (F := F) d L _).symm) $$ Ho0
  ihave Ho1 := (Entails.of_eq (pts_o1 (F := F) d L _).symm) $$ Ho1
  ihave Ho2 := (Entails.of_eq (pts_o2 (F := F) d L _).symm) $$ Ho2
  ihave Ho3 := (Entails.of_eq (pts_o3 (F := F) d L _).symm) $$ Ho3
  ihave Hs0 := (Entails.of_eq (pts_slab (F := F) d L _).symm) $$ Hs0
  ihave Hs1 := (Entails.of_eq (pts_idxb (F := F) d L _).symm) $$ Hs1
  ihave Hs2 := (Entails.of_eq (pts_outb (F := F) d L _).symm) $$ Hs2
  -- the slab's copy and the first chunk's neighbour lists
  sl_exec
  unfold tile_body4.sl.dma0 tile_body4.sl.dma0_1
  ihave Hs0 := (Entails.of_eq (slab_after (F := F) d L fs _)) $$ Hs0
  -- chunk 0: the outer loop, block by block
  ihave Hs1 := (Entails.of_eq (idxb_after0 (F := F) d L fi _)) $$ Hs1
  sl_for (inv1 d L (slabOf fs L) (idxOf fi L 0) (Gout negInf (slabOf fs L) (idxOf fi L 0))) $$ [Hs0 Hs1 Hs2]
  case region => exact outer_trip0 d L (slabOf fs L) (idxOf fi L 0) (idxOf_lt d L fi hidx 0) _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g0, Hs2, %hg0⟩
  obtain rfl := done1_all hg0
  sl_exec
  -- chunk 1: the outer loop, block by block
  unfold tile_body4.sl.dma0_3
  ihave Hs1 := (Entails.of_eq (idxb_after1 (F := F) d L fi _)) $$ Hs1
  sl_for (inv1 d L (slabOf fs L) (idxOf fi L 1) (Gout negInf (slabOf fs L) (idxOf fi L 1))) $$ [Hs0 Hs1 Hs2]
  case region => exact outer_trip1 d L (slabOf fs L) (idxOf fi L 1) (idxOf_lt d L fi hidx 1) _ _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g1, Hs2, %hg1⟩
  obtain rfl := done1_all hg1
  sl_exec
  -- chunk 2: the outer loop, block by block
  unfold tile_body4.sl.dma0_5
  ihave Hs1 := (Entails.of_eq (idxb_after2 (F := F) d L fi _)) $$ Hs1
  sl_for (inv1 d L (slabOf fs L) (idxOf fi L 2) (Gout negInf (slabOf fs L) (idxOf fi L 2))) $$ [Hs0 Hs1 Hs2]
  case region => exact outer_trip2 d L (slabOf fs L) (idxOf fi L 2) (idxOf_lt d L fi hidx 2) _ _
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g2, Hs2, %hg2⟩
  obtain rfl := done1_all hg2
  sl_exec
  -- chunk 3: the outer loop, block by block
  unfold tile_body4.sl.dma0_7
  ihave Hs1 := (Entails.of_eq (idxb_after3 (F := F) d L fi _)) $$ Hs1
  sl_for (inv1 d L (slabOf fs L) (idxOf fi L 3) (Gout negInf (slabOf fs L) (idxOf fi L 3))) $$ [Hs0 Hs1 Hs2]
  case region => exact outer_trip3 d L (slabOf fs L) (idxOf fi L 3) (idxOf_lt d L fi hidx 3)
  · unfold inv1
    isplitl [Hs0]
    · iexact Hs0
    isplitl [Hs1]
    · iexact Hs1
    iexists _
    isplitl [Hs2]
    · iexact Hs2
    ipureintro
    exact done1_zero _ _
  iintro %_ HI
  unfold inv1
  icases HI with ⟨Hs0, Hs1, %g3, Hs2, %hg3⟩
  obtain rfl := done1_all hg3
  sl_exec
  unfold tile_body4.sl.dma0_2 tile_body4.sl.dma0_4 tile_body4.sl.dma0_6 tile_body4.sl.dma0_8
  sl_step
  unfold td4
  isplitl [Hsrc Hidx Ho0 Ho1 Ho2 Ho3]
  · isplitl [Hsrc]
    · iapply (Entails.of_eq (pts_src (F := F) d L _ _)); iexact Hsrc
    isplitl [Hidx]
    · iapply (Entails.of_eq (pts_idx (F := F) d L _ _)); iexact Hidx
    isplitl [Ho0]
    · iapply (Entails.of_eq (out_gen0 (F := F) d L fs fi hidx _ (fun y => read_writes_whole _ _ _ y))); iexact Ho0
    isplitl [Ho1]
    · iapply (Entails.of_eq (out_gen1 (F := F) d L fs fi hidx _ (fun y => read_writes_whole _ _ _ y))); iexact Ho1
    isplitl [Ho2]
    · iapply (Entails.of_eq (out_gen2 (F := F) d L fs fi hidx _ (fun y => read_writes_whole _ _ _ y))); iexact Ho2
    · iapply (Entails.of_eq (out_gen3 (F := F) d L fs fi hidx _ (fun y => read_writes_whole _ _ _ y))); iexact Ho3
  isplitl [Hs0 Hs1 Hs2 Hbufs]
  · isplitl [Hs0 Hs1 Hs2]
    · isplitl [Hs0]
      · iexists _; iexact Hs0
      isplitl [Hs1]
      · iexists _; iexact Hs1
      · iexists _; iexact Hs2
    · iexact Hbufs
  isplitl [Hm0 Hm1 Hm2 Hm3 Hm4 Hm5 Hm6 Hm7 Hm8 Hsems]
  · isplitl [Hm0 Hm1 Hm2 Hm3 Hm4 Hm5 Hm6 Hm7 Hm8]
    · isplitl [Hm0]
      · iexact Hm0
      isplitl [Hm1]
      · iexact Hm1
      isplitl [Hm2]
      · iexact Hm2
      isplitl [Hm3]
      · iexact Hm3
      isplitl [Hm4]
      · iexact Hm4
      isplitl [Hm5]
      · iexact Hm5
      isplitl [Hm6]
      · iexact Hm6
      isplitl [Hm7]
      · iexact Hm7
      · iexact Hm8
    · iexact Hsems
  iexists _
  isplitr
  rotate_left
  · iexact HO
  · ipureintro
    intro p hp
    simp only [Finset.mem_insert] at hp
    rcases hp with rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inl hp

end Tile

end Cert.Proof.KB.T4

end
-- ==== Proof.KBChain.lean ====
/-
  What @main leaves in the TensorCore's arrays, read back.

  The chain of valuations runs through seven stretches of host operations and six region steps.  No step writes an
  argument array, so each argument still holds what the launch dealt it.  Every value of @main is written once, and
  reading the chain back step by step (a host operation's result at its own array its function of what it reads, at
  any other array what was there; a region step's update likewise) gives each array as a term over the ten arguments
  and the six region functions: the last one is the program's result.
-/
import proofs.«209975_g17849884082380_cont_8to1_1483_11_alg».proof.Proof.KBLaunch
import proofs.«209975_g17849884082380_cont_8to1_1483_11_alg».proof.Proof.KBValue
import Idealize.ShloMosaic.Lib.StableHlo.Run

noncomputable section

namespace Cert.Proof.KB

open Cert.Kernel Cert.Kernel.Gen
open Idealize.ShloMosaic
open Idealize.ShloMosaic.StableHlo (after_cons after_nil devRef_ne_of_ne unary_result reshape_result unary_result_ne reshape_result_ne)

/-! ## An array a step does not write keeps its contents -/

section Keep

variable {F : FTy → Type} [FloatOps F] (R : Regions F) (W₀ : Valuation τ sig (Elt F))

theorem W1_keep (r : Ref sig .tc) (h0 : r ≠ main_v0 := by decide) (h1 : r ≠ main_v1 := by decide)
    (h2 : r ≠ main_v2 := by decide) : W1 W₀ (dr r) = W₀ (dr r) := by
  unfold W1
  simp only [after_cons, after_nil]
  rw [reshape_result_ne (h := h2), unary_result_ne (h := h1), unary_result_ne (h := h0)]

theorem W2_keep (r : Ref sig .tc) (h0 : r ≠ main_v3_0 := by decide) (h1 : r ≠ main_v3_1 := by decide) :
    W2 R W₀ (dr r) = W1 W₀ (dr r) := by
  unfold W2
  rw [Function.update_of_ne (devRef_ne_of_ne h1), Function.update_of_ne (devRef_ne_of_ne h0)]

theorem W3_keep (r : Ref sig .tc) (h : r ≠ main_v4 := by decide) : W3 R W₀ (dr r) = W2 R W₀ (dr r) := by
  unfold W3
  simp only [after_cons, after_nil]
  rw [reshape_result_ne (h := h)]

theorem W4_keep (r : Ref sig .tc) (h : r ≠ main_v5 := by decide) : W4 R W₀ (dr r) = W3 R W₀ (dr r) := by
  unfold W4
  rw [Function.update_of_ne (devRef_ne_of_ne h)]

theorem W5_keep (r : Ref sig .tc) (h : r ≠ main_v6 := by decide) : W5 R W₀ (dr r) = W4 R W₀ (dr r) := by
  unfold W5
  simp only [after_cons, after_nil]
  rw [reshape_result_ne (h := h)]

theorem W6_keep (r : Ref sig .tc) (h : r ≠ main_v7 := by decide) : W6 R W₀ (dr r) = W5 R W₀ (dr r) := by
  unfold W6
  rw [Function.update_of_ne (devRef_ne_of_ne h)]

theorem W7_keep (r : Ref sig .tc) (h : r ≠ main_v8 := by decide) : W7 R W₀ (dr r) = W6 R W₀ (dr r) := by
  unfold W7
  simp only [after_cons, after_nil]
  rw [reshape_result_ne (h := h)]

theorem W8_keep (r : Ref sig .tc) (h : r ≠ main_v9 := by decide) : W8 R W₀ (dr r) = W7 R W₀ (dr r) := by
  unfold W8
  rw [Function.update_of_ne (devRef_ne_of_ne h)]

theorem W9_keep (r : Ref sig .tc) (h : r ≠ main_v10 := by decide) : W9 R W₀ (dr r) = W8 R W₀ (dr r) := by
  unfold W9
  simp only [after_cons, after_nil]
  rw [reshape_result_ne (h := h)]

theorem W10_keep (r : Ref sig .tc) (h : r ≠ main_v11 := by decide) : W10 R W₀ (dr r) = W9 R W₀ (dr r) := by
  unfold W10
  rw [Function.update_of_ne (devRef_ne_of_ne h)]

theorem W11_keep (r : Ref sig .tc) (h12 : r ≠ main_v12 := by decide) (h13 : r ≠ main_v13 := by decide)
    (h14 : r ≠ main_v14 := by decide) (h15 : r ≠ main_v15 := by decide) (h16 : r ≠ main_v16 := by decide) :
    W11 R W₀ (dr r) = W10 R W₀ (dr r) := by
  unfold W11
  simp only [after_cons, after_nil]
  rw [unary_result_ne (h := h16), unary_result_ne (h := h15), unary_result_ne (h := h14),
    reshape_result_ne (h := h13), reshape_result_ne (h := h12)]

theorem W12_keep (r : Ref sig .tc) (h : r ≠ main_v17 := by decide) : W12 R W₀ (dr r) = W11 R W₀ (dr r) := by
  unfold W12
  rw [Function.update_of_ne (devRef_ne_of_ne h)]

theorem W13_keep (r : Ref sig .tc) (h : r ≠ main_v18 := by decide) : W13 R W₀ (dr r) = W12 R W₀ (dr r) := by
  unfold W13
  simp only [after_cons, after_nil]
  rw [reshape_result_ne (h := h)]

/-- An array no step of @main writes holds at the end what it held at the launch. -/
theorem W13_unwritten (r : Ref sig .tc)
    (h0 : r ≠ main_v0 := by decide) (h1 : r ≠ main_v1 := by decide) (h2 : r ≠ main_v2 := by decide)
    (h30 : r ≠ main_v3_0 := by decide) (h31 : r ≠ main_v3_1 := by decide) (h4 : r ≠ main_v4 := by decide)
    (h5 : r ≠ main_v5 := by decide) (h6 : r ≠ main_v6 := by decide) (h7 : r ≠ main_v7 := by decide)
    (h8 : r ≠ main_v8 := by decide) (h9 : r ≠ main_v9 := by decide) (h10 : r ≠ main_v10 := by decide)
    (h11 : r ≠ main_v11 := by decide) (h12 : r ≠ main_v12 := by decide) (h13 : r ≠ main_v13 := by decide)
    (h14 : r ≠ main_v14 := by decide) (h15 : r ≠ main_v15 := by decide) (h16 : r ≠ main_v16 := by decide)
    (h17 : r ≠ main_v17 := by decide) (h18 : r ≠ main_v18 := by decide) :
    W13 R W₀ (dr r) = W₀ (dr r) := by
  rw [W13_keep R W₀ r h18, W12_keep R W₀ r h17, W11_keep R W₀ r h12 h13 h14 h15 h16, W10_keep R W₀ r h11,
    W9_keep R W₀ r h10, W8_keep R W₀ r h9, W7_keep R W₀ r h8, W6_keep R W₀ r h7, W5_keep R W₀ r h6, W4_keep R W₀ r h5,
    W3_keep R W₀ r h4, W2_keep R W₀ r h30 h31, W1_keep W₀ r h0 h1 h2]

/-! ## The arguments at the end -/

theorem W13_arg0 : W13 R W₀ (dr main_arg0) = W₀ (dr main_arg0) := W13_unwritten R W₀ main_arg0
theorem W13_arg1 : W13 R W₀ (dr main_arg1) = W₀ (dr main_arg1) := W13_unwritten R W₀ main_arg1
theorem W13_arg2 : W13 R W₀ (dr main_arg2) = W₀ (dr main_arg2) := W13_unwritten R W₀ main_arg2
theorem W13_arg3 : W13 R W₀ (dr main_arg3) = W₀ (dr main_arg3) := W13_unwritten R W₀ main_arg3
theorem W13_arg4 : W13 R W₀ (dr main_arg4) = W₀ (dr main_arg4) := W13_unwritten R W₀ main_arg4
theorem W13_arg5 : W13 R W₀ (dr main_arg5) = W₀ (dr main_arg5) := W13_unwritten R W₀ main_arg5
theorem W13_arg6 : W13 R W₀ (dr main_arg6) = W₀ (dr main_arg6) := W13_unwritten R W₀ main_arg6
theorem W13_arg7 : W13 R W₀ (dr main_arg7) = W₀ (dr main_arg7) := W13_unwritten R W₀ main_arg7
theorem W13_arg8 : W13 R W₀ (dr main_arg8) = W₀ (dr main_arg8) := W13_unwritten R W₀ main_arg8
theorem W13_arg9 : W13 R W₀ (dr main_arg9) = W₀ (dr main_arg9) := W13_unwritten R W₀ main_arg9

end Keep

/-! ## Each array of @main as a term over the arguments -/

section Values

variable (R : Regions Ideal) (W₀ : Valuation τ sig (Elt Ideal))

/-! ### After the first host stretch -/

theorem W1_v0 : W1 W₀ (dr main_v0) = KBValue.v0 (W₀ (dr main_arg1)) := by
  unfold W1
  simp only [after_cons, after_nil]
  rw [reshape_result_ne (h := by decide), unary_result_ne (h := by decide), unary_result]
  rfl

theorem W1_v1 : W1 W₀ (dr main_v1) = KBValue.v1 (W₀ (dr main_arg0)) := by
  unfold W1
  simp only [after_cons, after_nil]
  rw [reshape_result_ne (h := by decide), unary_result, unary_result_ne (h := by decide)]
  rfl

theorem W1_v2 : W1 W₀ (dr main_v2) = KBValue.v2 (W₀ (dr main_arg3)) := by
  unfold W1
  simp only [after_cons, after_nil]
  rw [reshape_result, unary_result_ne (h := by decide), unary_result_ne (h := by decide)]
  rfl

/-! ### After the edge convolution -/

theorem W2_v3_0 : W2 R W₀ (dr main_v3_0) = KBValue.Y0 R.tcaY (W₀ (dr main_arg0)) (W₀ (dr main_arg2)) (W₀ (dr main_arg3)) := by
  unfold W2
  rw [Function.update_of_ne (devRef_ne_of_ne (by decide)), Function.update_self, W1_v1, W1_v2, W1_keep W₀ main_arg2]
  rfl

theorem W2_v3_1 : W2 R W₀ (dr main_v3_1) = KBValue.C0 R.tcaC (W₀ (dr main_arg0)) (W₀ (dr main_arg2)) (W₀ (dr main_arg3)) := by
  unfold W2
  rw [Function.update_self, W1_v1, W1_v2, W1_keep W₀ main_arg2]
  rfl

theorem W3_v4 : W3 R W₀ (dr main_v4)
    = shapeCast S8x262144 (KBValue.Y0 R.tcaY (W₀ (dr main_arg0)) (W₀ (dr main_arg2)) (W₀ (dr main_arg3))) shapeCasts_S8x64x4096_S8x262144 := by
  unfold W3
  simp only [after_cons, after_nil]
  rw [reshape_result, W2_v3_0]
  rfl

theorem W3_v0 : W3 R W₀ (dr main_v0) = KBValue.v0 (W₀ (dr main_arg1)) := by
  rw [W3_keep R W₀ main_v0, W2_keep R W₀ main_v0, W1_v0]

theorem W3_v3_1 : W3 R W₀ (dr main_v3_1) = KBValue.C0 R.tcaC (W₀ (dr main_arg0)) (W₀ (dr main_arg2)) (W₀ (dr main_arg3)) := by
  rw [W3_keep R W₀ main_v3_1, W2_v3_1]

/-! ### After the first gather-and-maximum -/

theorem W4_v5 : W4 R W₀ (dr main_v5) = KBValue.H0 R.tcaY R.tcaC R.gmaxL (W₀ (dr main_arg0)) (W₀ (dr main_arg1)) (W₀ (dr main_arg2)) (W₀ (dr main_arg3)) := by
  unfold W4
  rw [Function.update_self, W3_v4, W3_v0, W3_v3_1]
  rfl

theorem W5_v6 : W5 R W₀ (dr main_v6)
    = shapeCast S8x262144 (KBValue.H0 R.tcaY R.tcaC R.gmaxL (W₀ (dr main_arg0)) (W₀ (dr main_arg1)) (W₀ (dr main_arg2)) (W₀ (dr main_arg3))) shapeCasts_S8x64x4096_S8x262144 := by
  unfold W5
  simp only [after_cons, after_nil]
  rw [reshape_result, W4_v5]
  rfl

theorem W5_v0 : W5 R W₀ (dr main_v0) = KBValue.v0 (W₀ (dr main_arg1)) := by
  rw [W5_keep R W₀ main_v0, W4_keep R W₀ main_v0, W3_v0]

/-! ### After the second gather-and-maximum -/

theorem W6_v7 : W6 R W₀ (dr main_v7) = KBValue.G1 R.tcaY R.tcaC R.gmaxL R.gmaxP (W₀ (dr main_arg0)) (W₀ (dr main_arg1)) (W₀ (dr main_arg2)) (W₀ (dr main_arg3)) := by
  unfold W6
  rw [Function.update_self, W5_v6, W5_v0]
  rfl

theorem W6_arg5 : W6 R W₀ (dr main_arg5) = (W₀ (dr main_arg5)) := by
  rw [W6_keep R W₀ main_arg5, W5_keep R W₀ main_arg5, W4_keep R W₀ main_arg5, W3_keep R W₀ main_arg5,
    W2_keep R W₀ main_arg5, W1_keep W₀ main_arg5]

theorem W7_v8 : W7 R W₀ (dr main_v8) = shapeCast S64x1 (W₀ (dr main_arg5)) shapeCasts_S64_S64x1 := by
  unfold W7
  simp only [after_cons, after_nil]
  rw [reshape_result, W6_arg5]
  rfl

theorem W7_v7 : W7 R W₀ (dr main_v7) = KBValue.G1 R.tcaY R.tcaC R.gmaxL R.gmaxP (W₀ (dr main_arg0)) (W₀ (dr main_arg1)) (W₀ (dr main_arg2)) (W₀ (dr main_arg3)) := by
  rw [W7_keep R W₀ main_v7, W6_v7]

theorem W7_arg4 : W7 R W₀ (dr main_arg4) = (W₀ (dr main_arg4)) := by
  rw [W7_keep R W₀ main_arg4, W6_keep R W₀ main_arg4, W5_keep R W₀ main_arg4, W4_keep R W₀ main_arg4,
    W3_keep R W₀ main_arg4, W2_keep R W₀ main_arg4, W1_keep W₀ main_arg4]

/-! ### After the first point convolution -/

theorem W8_v9 : W8 R W₀ (dr main_v9) = KBValue.H1 R.tcaY R.tcaC R.gmaxL R.gmaxP R.tcb (W₀ (dr main_arg0)) (W₀ (dr main_arg1)) (W₀ (dr main_arg2)) (W₀ (dr main_arg3)) (W₀ (dr main_arg4)) (W₀ (dr main_arg5)) := by
  unfold W8
  rw [Function.update_self, W7_v7, W7_arg4, W7_v8]
  rfl

theorem W9_v10 : W9 R W₀ (dr main_v10)
    = shapeCast S8x262144 (KBValue.H1 R.tcaY R.tcaC R.gmaxL R.gmaxP R.tcb (W₀ (dr main_arg0)) (W₀ (dr main_arg1)) (W₀ (dr main_arg2)) (W₀ (dr main_arg3)) (W₀ (dr main_arg4)) (W₀ (dr main_arg5)))
        shapeCasts_S8x64x4096_S8x262144 := by
  unfold W9
  simp only [after_cons, after_nil]
  rw [reshape_result, W8_v9]
  rfl

theorem W9_v0 : W9 R W₀ (dr main_v0) = KBValue.v0 (W₀ (dr main_arg1)) := by
  rw [W9_keep R W₀ main_v0, W8_keep R W₀ main_v0, W7_keep R W₀ main_v0, W6_keep R W₀ main_v0, W5_v0]

/-! ### After the third gather-and-maximum -/

theorem W10_v11 : W10 R W₀ (dr main_v11) = KBValue.G2 R.tcaY R.tcaC R.gmaxL R.gmaxP R.tcb (W₀ (dr main_arg0)) (W₀ (dr main_arg1)) (W₀ (dr main_arg2)) (W₀ (dr main_arg3)) (W₀ (dr main_arg4)) (W₀ (dr main_arg5)) := by
  unfold W10
  rw [Function.update_self, W9_v10, W9_v0]
  rfl

theorem W10_arg (r : Ref sig .tc)
    (h0 : r ≠ main_v0 := by decide) (h1 : r ≠ main_v1 := by decide) (h2 : r ≠ main_v2 := by decide)
    (h30 : r ≠ main_v3_0 := by decide) (h31 : r ≠ main_v3_1 := by decide) (h4 : r ≠ main_v4 := by decide)
    (h5 : r ≠ main_v5 := by decide) (h6 : r ≠ main_v6 := by decide) (h7 : r ≠ main_v7 := by decide)
    (h8 : r ≠ main_v8 := by decide) (h9 : r ≠ main_v9 := by decide) (h10 : r ≠ main_v10 := by decide)
    (h11 : r ≠ main_v11 := by decide) : W10 R W₀ (dr r) = W₀ (dr r) := by
  rw [W10_keep R W₀ r h11, W9_keep R W₀ r h10, W8_keep R W₀ r h9, W7_keep R W₀ r h8, W6_keep R W₀ r h7,
    W5_keep R W₀ r h6, W4_keep R W₀ r h5, W3_keep R W₀ r h4, W2_keep R W₀ r h30 h31, W1_keep W₀ r h0 h1 h2]

/-! ### After the last host stretch but one -/

theorem W11_v12 : W11 R W₀ (dr main_v12) = shapeCast S128x1 (W₀ (dr main_arg7)) shapeCasts_S128_S128x1 := by
  unfold W11
  simp only [after_cons, after_nil]
  rw [unary_result_ne (h := by decide), unary_result_ne (h := by decide), unary_result_ne (h := by decide),
    reshape_result_ne (h := by decide), reshape_result, W10_arg R W₀ main_arg7]
  rfl

theorem W11_v13 : W11 R W₀ (dr main_v13) = shapeCast S1x512 (W₀ (dr main_arg9)) shapeCasts_S512_S1x512 := by
  unfold W11
  simp only [after_cons, after_nil]
  rw [unary_result_ne (h := by decide), unary_result_ne (h := by decide), unary_result_ne (h := by decide),
    reshape_result, reshape_result_ne (h := by decide), W10_arg R W₀ main_arg9]
  rfl

theorem W11_v14 : W11 R W₀ (dr main_v14) = extractStridedSlice S512x64 ![0, 0] (W₀ (dr main_arg8)) slices_S512x256_S512x64_0_0 := by
  unfold W11
  simp only [after_cons, after_nil]
  rw [unary_result_ne (h := by decide), unary_result_ne (h := by decide), unary_result,
    reshape_result_ne (h := by decide), reshape_result_ne (h := by decide), W10_arg R W₀ main_arg8]

theorem W11_v15 : W11 R W₀ (dr main_v15) = extractStridedSlice S512x64 ![0, 64] (W₀ (dr main_arg8)) slices_S512x256_S512x64_0_64 := by
  unfold W11
  simp only [after_cons, after_nil]
  rw [unary_result_ne (h := by decide), unary_result, unary_result_ne (h := by decide),
    reshape_result_ne (h := by decide), reshape_result_ne (h := by decide), W10_arg R W₀ main_arg8]

theorem W11_v16 : W11 R W₀ (dr main_v16) = extractStridedSlice S512x128 ![0, 128] (W₀ (dr main_arg8)) slices_S512x256_S512x128_0_128 := by
  unfold W11
  simp only [after_cons, after_nil]
  rw [unary_result, unary_result_ne (h := by decide), unary_result_ne (h := by decide),
    reshape_result_ne (h := by decide), reshape_result_ne (h := by decide), W10_arg R W₀ main_arg8]

theorem W11_v11 : W11 R W₀ (dr main_v11) = KBValue.G2 R.tcaY R.tcaC R.gmaxL R.gmaxP R.tcb (W₀ (dr main_arg0)) (W₀ (dr main_arg1)) (W₀ (dr main_arg2)) (W₀ (dr main_arg3)) (W₀ (dr main_arg4)) (W₀ (dr main_arg5)) := by
  rw [W11_keep R W₀ main_v11, W10_v11]

theorem W11_v5 : W11 R W₀ (dr main_v5) = KBValue.H0 R.tcaY R.tcaC R.gmaxL (W₀ (dr main_arg0)) (W₀ (dr main_arg1)) (W₀ (dr main_arg2)) (W₀ (dr main_arg3)) := by
  rw [W11_keep R W₀ main_v5, W10_keep R W₀ main_v5, W9_keep R W₀ main_v5, W8_keep R W₀ main_v5, W7_keep R W₀ main_v5,
    W6_keep R W₀ main_v5, W5_keep R W₀ main_v5, W4_v5]

theorem W11_v9 : W11 R W₀ (dr main_v9) = KBValue.H1 R.tcaY R.tcaC R.gmaxL R.gmaxP R.tcb (W₀ (dr main_arg0)) (W₀ (dr main_arg1)) (W₀ (dr main_arg2)) (W₀ (dr main_arg3)) (W₀ (dr main_arg4)) (W₀ (dr main_arg5)) := by
  rw [W11_keep R W₀ main_v9, W10_keep R W₀ main_v9, W9_keep R W₀ main_v9, W8_v9]

theorem W11_arg6 : W11 R W₀ (dr main_arg6) = (W₀ (dr main_arg6)) := by
  rw [W11_keep R W₀ main_arg6, W10_arg R W₀ main_arg6]

/-! ### After the last region, and the result -/

theorem W12_v17 : W12 R W₀ (dr main_v17)
    = KBValue.O3 R.tcaY R.tcaC R.gmaxL R.gmaxP R.tcb R.tcc (W₀ (dr main_arg0)) (W₀ (dr main_arg1)) (W₀ (dr main_arg2)) (W₀ (dr main_arg3)) (W₀ (dr main_arg4)) (W₀ (dr main_arg5)) (W₀ (dr main_arg6)) (W₀ (dr main_arg7)) (W₀ (dr main_arg8)) (W₀ (dr main_arg9)) := by
  unfold W12
  rw [Function.update_self, W11_v11, W11_v5, W11_v9, W11_arg6, W11_v12, W11_v14, W11_v15, W11_v16, W11_v13]
  rfl

/-- What @main leaves in its result array: the program's result as a term over the arguments and the regions. -/
theorem W13_result : W13 R W₀ (dr main_v18)
    = KBValue.kernTerm R.tcaY R.tcaC R.gmaxL R.gmaxP R.tcb R.tcc (W₀ (dr main_arg0)) (W₀ (dr main_arg1)) (W₀ (dr main_arg2)) (W₀ (dr main_arg3)) (W₀ (dr main_arg4)) (W₀ (dr main_arg5)) (W₀ (dr main_arg6)) (W₀ (dr main_arg7)) (W₀ (dr main_arg8)) (W₀ (dr main_arg9)) := by
  unfold W13
  simp only [after_cons, after_nil]
  rw [reshape_result, W12_v17]
  rfl

/-- Under the six regions' specifications, with every neighbour word below 4096, the slope a non-negative real and the
points, edge weights and edge bias real: @main's result array holds the reference side. -/
theorem W13_value (hY : KBValue.SpecY R.tcaY) (hC : KBValue.SpecC R.tcaC) (hGP : KBValue.SpecGP R.gmaxP)
    (hGL : KBValue.SpecGL R.gmaxL) (hB : KBValue.SpecB R.tcb) (hT : KBValue.SpecT R.tcc)
    (hidx : ∀ j, ((W₀ (dr main_arg1)) j).toNat < 4096) (hs : ∃ r : ℝ, 0 ≤ r ∧ Cert.Decode.slope = (r : EReal))
    (h0 : ∀ j, ∃ r : ℝ, (W₀ (dr main_arg0)) j = (r : EReal)) (h2 : ∀ j, ∃ r : ℝ, (W₀ (dr main_arg2)) j = (r : EReal))
    (h3 : ∀ j, ∃ r : ℝ, (W₀ (dr main_arg3)) j = (r : EReal)) :
    W13 R W₀ (dr main_v18) = Cert.Decode.refOut (W₀ (dr main_arg0)) (W₀ (dr main_arg1)) (W₀ (dr main_arg2)) (W₀ (dr main_arg3)) (W₀ (dr main_arg4)) (W₀ (dr main_arg5)) (W₀ (dr main_arg6)) (W₀ (dr main_arg7)) (W₀ (dr main_arg8)) (W₀ (dr main_arg9)) := by
  rw [W13_result]
  exact KBValue.kern_value R.tcaY R.tcaC R.gmaxL R.gmaxP R.tcb R.tcc (W₀ (dr main_arg0)) (W₀ (dr main_arg1)) (W₀ (dr main_arg2)) (W₀ (dr main_arg3)) (W₀ (dr main_arg4)) (W₀ (dr main_arg5)) (W₀ (dr main_arg6)) (W₀ (dr main_arg7)) (W₀ (dr main_arg8)) (W₀ (dr main_arg9)) hY hC hGP hGL hB hT hidx hs
    h0 h2 h3

end Values

end Cert.Proof.KB

end
-- ==== Proof.KBChainIdx.lean ====
/-
  The neighbour lists the three SparseCore calls read are in range when the argument is.

  The transposed neighbour array is written once, by the first host stretch, and kept by every later step; a transpose
  only permutes the entries, so a bound on every entry of the argument is a bound on every entry of its transpose.
  Stated for any float instance.
-/
import proofs.«209975_g17849884082380_cont_8to1_1483_11_alg».proof.Proof.KBChain

noncomputable section

namespace Cert.Proof.KB

open Cert.Kernel Cert.Kernel.Gen
open Idealize.ShloMosaic
open Idealize.ShloMosaic.StableHlo (after_cons after_nil unary_result unary_result_ne reshape_result_ne)

variable {F : FTy → Type} [FloatOps F] (R : Regions F) (W₀ : Valuation τ sig (Elt F))

/-- After the first host stretch the transposed neighbour array is the transpose of the argument. -/
theorem W1_v0_transpose : W1 W₀ (dr main_v0)
    = transpose S8x20x4096 [0, 2, 1] (W₀ (dr main_arg1)) transposes_S8x4096x20_S8x20x4096_0_2_1 := by
  unfold W1
  simp only [after_cons, after_nil]
  rw [reshape_result_ne (h := by decide), unary_result_ne (h := by decide), unary_result]

/-- Every entry of the transposed neighbour array is an entry of the argument. -/
theorem W1_v0_range (h : ∀ j, (W₀ (dr main_arg1) j).toNat < 4096) : ∀ j, (W1 W₀ (dr main_v0) j).toNat < 4096 := by
  intro j
  rw [W1_v0_transpose]
  unfold transpose
  exact h _

theorem W3_v0_range (h : ∀ j, (W₀ (dr main_arg1) j).toNat < 4096) : ∀ j, (W3 R W₀ (dr main_v0) j).toNat < 4096 := by
  intro j
  rw [W3_keep R W₀ main_v0, W2_keep R W₀ main_v0]
  exact W1_v0_range W₀ h j

theorem W5_v0_range (h : ∀ j, (W₀ (dr main_arg1) j).toNat < 4096) : ∀ j, (W5 R W₀ (dr main_v0) j).toNat < 4096 := by
  intro j
  rw [W5_keep R W₀ main_v0, W4_keep R W₀ main_v0]
  exact W3_v0_range R W₀ h j

theorem W9_v0_range (h : ∀ j, (W₀ (dr main_arg1) j).toNat < 4096) : ∀ j, (W9 R W₀ (dr main_v0) j).toNat < 4096 := by
  intro j
  rw [W9_keep R W₀ main_v0, W8_keep R W₀ main_v0, W7_keep R W₀ main_v0, W6_keep R W₀ main_v0]
  exact W5_v0_range R W₀ h j

end Cert.Proof.KB

end
-- ==== Proof.KBHrun.lean ====
/-
  The kernel's program, whole: the six regions' functions and the run from every memory whose neighbour lists are in range.
-/
import proofs.«209975_g17849884082380_cont_8to1_1483_11_alg».proof.Proof.KBRun
import proofs.«209975_g17849884082380_cont_8to1_1483_11_alg».proof.Proof.KBObl
import proofs.«209975_g17849884082380_cont_8to1_1483_11_alg».proof.Proof.KBRegionSteps
import proofs.«209975_g17849884082380_cont_8to1_1483_11_alg».proof.Proof.KBRegionStep0
import proofs.«209975_g17849884082380_cont_8to1_1483_11_alg».proof.Proof.KBCall0
import proofs.«209975_g17849884082380_cont_8to1_1483_11_alg».proof.Proof.KBCall1
import proofs.«209975_g17849884082380_cont_8to1_1483_11_alg».proof.Proof.KBCall2
import proofs.«209975_g17849884082380_cont_8to1_1483_11_alg».proof.Proof.KBTile1
import proofs.«209975_g17849884082380_cont_8to1_1483_11_alg».proof.Proof.KBTile2
import proofs.«209975_g17849884082380_cont_8to1_1483_11_alg».proof.Proof.KBTile4
import proofs.«209975_g17849884082380_cont_8to1_1483_11_alg».proof.Proof.KBTcaValue
import proofs.«209975_g17849884082380_cont_8to1_1483_11_alg».proof.Proof.KBChainIdx

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.Sem Idealize.SL.ProofMode
open Idealize.ShloMosaic.Rounds
open Idealize.ShloMosaic.StableHlo (launchContents)

variable {F : FTy → Type} [FloatOps F]

/-- The six regions of the program: the first pallas_call's two outputs, the gather-and-max with the added centre term
    and rectifier, the plain gather-and-max (twice), the second and the third pallas_call. -/
def Rk : Regions F := ⟨tcaY, tcaC, T1.gmaxLArr, gmaxArr, tcbArr, tccArr⟩

local notation "𝕄" => MT nD τ sig (SparseCore.Cfg.HIx 3) (Elt F) ℕ UU ℕ

/-- A pallas_call's step needs no more of what @main holds for the pipelines than it is given. -/
theorem RegionStep.mono {P : (K (F := F)).Pay (nD := nD) (Val := Elt F) (Name := ℕ) (U := UU)} {p : Fin 3} {n : ℕ} {d : Dev nD}
    {W W' : Valuation τ sig (Elt F)} {G₁ G₂ G' : sProp 𝕄} (h : G₁ ⊢ G₂) (H : RegionStep P p n d W W' G₂ G') :
    RegionStep P p n d W W' G₁ G' := by
  intro κ Φ
  iintro ⟨Hctx, Hst, Hb, Hh, HG, Hk⟩
  iapply (H κ Φ)
  isplitl [Hctx]; · iexact Hctx
  isplitl [Hst]; · iexact Hst
  isplitl [Hb]; · iexact Hb
  isplitl [Hh]; · iexact Hh
  isplitl [HG]; · iapply h; iexact HG
  iexact Hk

omit [FloatOps F] in
/-- Nothing may be added to what is held. -/
theorem sep_emp_intro (G : sProp 𝕄) : G ⊢ iprop(G ∗ emp) := by
  iintro H
  isplitl [H]
  · iexact H
  · iempintro

/-- The program's run from any memory whose neighbour lists name points of the cloud: every array of the TensorCore ends
    at @main's last valuation. -/
theorem hrun [∀ e, Nonempty (Elt F e)] (m : (ℓ : Loc nD τ sig) → Buf (Elt F) ℓ) (ρ : Dev nD → PrngReg)
    (hidx : ∀ (d : Dev nD) j, (launchContents m d (dr main_arg1) j).toNat < 4096) :
    θ_run (Cert.Kernel.defs (F := F)) (Cert.Kernel.threads (F := F)) ⟨m, fun _ => 0, ρ⟩ (QC (Rk (F := F)) m) :=
  run_main (Rk (F := F)) (P (Rk (F := F)) m) m ρ (mainGhost (F := F)) (fun d => iprop(pipeGhost 1 d ∗ pipeGhost 2 d)) (fun d => pipeGhost 2 d) (fun _ => iprop(emp))
    (fun q _ => match q with
      | 0 => tileObl0 (Rk (F := F)) m facts (fun d => W3_v0_range (Rk (F := F)) _ (hidx d)) (fun d L fs fi fc hi O W hO => T1.tile_body1 d L fs fi fc facts hi O W hO)
      | 1 => tileObl1 (Rk (F := F)) m facts (fun d => W5_v0_range (Rk (F := F)) _ (hidx d)) (fun d L fs fi hi O W hO => tile_body2 d L fs fi facts hi O W hO)
      | 2 => tileObl2 (Rk (F := F)) m facts (fun d => W9_v0_range (Rk (F := F)) _ (hidx d)) (fun d L fs fi hi O W hO => T4.tile_body4 d L fs fi facts hi O W hO))
    (fun q _ => vecSplit (Rk (F := F)) m q) (hscalar (Rk (F := F)) m) u₀ (hu₀ (Rk (F := F)) m) (hheld (Rk (F := F)) m)
    (fun d => RegionStep.mono (Entails.of_eq (mainGhost_eq (F := F) d)) (regionStep0 (Rk (F := F)) m rfl rfl d iprop(pipeGhost 1 d ∗ pipeGhost 2 d)))
    (fun d => T1.callStep0 (Rk (F := F)) rfl m d)
    (fun d => callStep1 (Rk (F := F)) rfl m d)
    (fun d => regionStep1 (Rk (F := F)) m rfl d (pipeGhost 2 d))
    (fun d => T4.callStep2 (Rk (F := F)) rfl m d)
    (fun d => RegionStep.mono (sep_emp_intro _) (regionStep2 (Rk (F := F)) m rfl d iprop(emp)))

end Cert.Proof.KB

end
-- ==== Proof.KBClaims.lean ====
/-
  From the program's run to the claim's conjuncts.

  The run of the kernel's program ends with every array of the TensorCore at @main's last valuation.  No
  step writes an argument, which is the frame claim, here at the word-level floats.
-/
import proofs.«209975_g17849884082380_cont_8to1_1483_11_alg».proof.Defs
import proofs.«209975_g17849884082380_cont_8to1_1483_11_alg».proof.Proof.KBRun
import proofs.«209975_g17849884082380_cont_8to1_1483_11_alg».proof.Proof.KBChain
import proofs.«209975_g17849884082380_cont_8to1_1483_11_alg».proof.Proof.Gen.Pre_input_domain

noncomputable section

namespace Cert.Proof.KB

open Cert.Kernel Cert.Kernel.Gen
open Idealize.ShloMosaic Idealize.SL.Sem
open Idealize.ShloMosaic.StableHlo (launchContents)

/-- An unscoped array of the TensorCore is among the arrays @main's run accounts for. -/
theorem mem_Sall (b : Ref sig .tc) (h : (dr b).isScoped = false) : dr b ∈ Sall :=
  Finset.mem_filter.2 ⟨StableHlo.devRef_mem_tcRefs b, by simp [h]⟩

/-! ## The frame claim -/

section Frame

variable {F : FTy → Type} [FloatOps F]

/-- From the run that ends at the last valuation: the ten argument arrays end unchanged. -/
theorem frame_of_run (R : Regions F) (m : (ℓ : Loc nD τ sig) → Buf (Elt F) ℓ) (ρ : Dev nD → PrngReg)
    (h : θ_run (Cert.Kernel.defs (F := F)) (Cert.Kernel.threads (F := F)) ⟨m, fun _ => 0, ρ⟩ (QC R m)) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.Kernel.defs (F := F)) _ _).mono (fun r hq c =>
    ⟨(hq c _ (mem_Sall main_arg0 rfl)).trans (W13_arg0 R (launchContents m c)),
     (hq c _ (mem_Sall main_arg1 rfl)).trans (W13_arg1 R (launchContents m c)),
     (hq c _ (mem_Sall main_arg2 rfl)).trans (W13_arg2 R (launchContents m c)),
     (hq c _ (mem_Sall main_arg3 rfl)).trans (W13_arg3 R (launchContents m c)),
     (hq c _ (mem_Sall main_arg4 rfl)).trans (W13_arg4 R (launchContents m c)),
     (hq c _ (mem_Sall main_arg5 rfl)).trans (W13_arg5 R (launchContents m c)),
     (hq c _ (mem_Sall main_arg6 rfl)).trans (W13_arg6 R (launchContents m c)),
     (hq c _ (mem_Sall main_arg7 rfl)).trans (W13_arg7 R (launchContents m c)),
     (hq c _ (mem_Sall main_arg8 rfl)).trans (W13_arg8 R (launchContents m c)),
     (hq c _ (mem_Sall main_arg9 rfl)).trans (W13_arg9 R (launchContents m c))⟩) h

end Frame

/-- The kernel's frame claim at the word-level floats, from its run under the precondition. -/
theorem frame_Kernel_of (R : Regions Bits)
    (hrun : ∀ (m : (ℓ : Loc nD τ sig) → Buf (Elt Bits) ℓ) (ρ : Dev nD → PrngReg), Cert.Pre_Kernel m →
      θ_run (Cert.Kernel.defs (F := Bits)) (Cert.Kernel.threads (F := Bits)) ⟨m, fun _ => 0, ρ⟩ (QC R m)) :
    Cert.frame_Kernel :=
  fun m ρ hpre => frame_of_run R m ρ (hrun m ρ hpre)

end Cert.Proof.KB

end
-- ==== Proof.KBFinal.lean ====
/-
  The word-level kernel's frame claim, from the program's run under the precondition, which puts every neighbour word in range.
-/
import proofs.«209975_g17849884082380_cont_8to1_1483_11_alg».proof.Proof.KBHrun
import proofs.«209975_g17849884082380_cont_8to1_1483_11_alg».proof.Proof.KBClaims
import proofs.«209975_g17849884082380_cont_8to1_1483_11_alg».proof.Proof.PreDecode

noncomputable section

namespace Cert.Proof.KB

open Cert.Kernel Cert.Kernel.Gen

open Idealize.ShloMosaic Idealize.SL.Sem

/-- The frame claim of the kernel as printed, at the word-level instance. -/
theorem frame_Kernel : Cert.frame_Kernel :=
  frame_Kernel_of Rk fun m ρ hpre => hrun (F := Bits) m ρ fun d =>
    Cert.Proof.PreDecode.idx_of_pre _ _ _ _ _ _ _ _ _ _ (hpre d)

end Cert.Proof.KB

end
-- ==== Proof.lean ====
/-
  The certificate's claim. The kernel is a three-layer graph network on point clouds: an edge convolution over each point's
  twenty neighbours, two point convolutions each after a maximum over the neighbours, and a final convolution with a maximum
  over the points. The kernel's program applies the edge convolution's two halves to the points themselves, gathers and
  maximises the neighbour half on the SparseCores and adds the centre half and rectifies there; the reference builds the
  edge features first. The two agree over the extended reals because the rectifier is monotone (so it commutes with a
  maximum over a finite non-empty family, as adding a constant does) and because a product distributes over a difference
  of finite numbers, which the precondition makes the inputs. The frames: each program runs to its end, nothing faulting,
  its arguments unchanged; for the kernel that is the SparseCore launch with every tile's task and every pallas_call's
  body proved at a symbolic place. The idealization rewrote nothing, so the preservation claim is empty.
-/
import proofs.«209975_g17849884082380_cont_8to1_1483_11_alg».proof.Defs
import proofs.«209975_g17849884082380_cont_8to1_1483_11_alg».proof.Proof.KIFinal
import proofs.«209975_g17849884082380_cont_8to1_1483_11_alg».proof.Proof.KBFinal

noncomputable section

namespace Cert.Proof

theorem claim : Cert.Claim :=
  ⟨Cert.Kernel.Gen.facts, Cert.KernelIdeal.Gen.facts, Cert.ReferenceIdeal.Gen.facts, Cert.Pre_input_domain.Gen.facts,
    Cert.Proof.KB.frame_Kernel, Cert.Proof.KI.frame_KernelIdeal, Cert.Proof.KI.frame_ReferenceIdeal, trivial,
    Cert.Proof.KI.algebraic⟩

end Cert.Proof

end
